-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v35)) (v1 : (c : Dev Cert.KernelIdeal.nD) → Buf (Elt Ideal) ((c.tc : Thread Cert.KernelIdeal.nD Cert.KernelIdeal.τ).loc Cert.KernelIdeal.main_v42)) (v2 : (c : Dev Cert.KernelIdeal.nD) → Buf (Elt Ideal) ((c.tc : Thread Cert.KernelIdeal.nD Cert.KernelIdeal.τ).loc Cert.KernelIdeal.main_v26)) (v3 : (c : Dev Cert.KernelIdeal.nD) → Buf (Elt Ideal) ((c.tc : Thread Cert.KernelIdeal.nD Cert.KernelIdeal.τ).loc Cert.KernelIdeal.main_v28)) (v4 : (c : Dev Cert.KernelIdeal.nD) → Buf (Elt Ideal) ((c.tc : Thread Cert.KernelIdeal.nD Cert.KernelIdeal.τ).loc Cert.KernelIdeal.main_v24)) (v5 : (c : Dev Cert.KernelIdeal.nD) → Buf (Elt Ideal) ((c.tc : Thread Cert.KernelIdeal.nD Cert.KernelIdeal.τ).loc Cert.KernelIdeal.main_v75)) (v6 : (c : Dev Cert.KernelIdeal.nD) → Buf (Elt Ideal) ((c.tc : Thread Cert.KernelIdeal.nD Cert.KernelIdeal.τ).loc Cert.KernelIdeal.main_v66)) (v7 : (c : Dev Cert.KernelIdeal.nD) → Buf (Elt Ideal) ((c.tc : Thread Cert.KernelIdeal.nD Cert.KernelIdeal.τ).loc Cert.KernelIdeal.main_arg25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_v42) = v1 c
          ∧ r.2.mem ((c.tc : Thread Cert.KernelIdeal.nD Cert.KernelIdeal.τ).loc Cert.KernelIdeal.main_v26) = v2 c
          ∧ r.2.mem ((c.tc : Thread Cert.KernelIdeal.nD Cert.KernelIdeal.τ).loc Cert.KernelIdeal.main_v28) = v3 c
          ∧ r.2.mem ((c.tc : Thread Cert.KernelIdeal.nD Cert.KernelIdeal.τ).loc Cert.KernelIdeal.main_v24) = v4 c
          ∧ r.2.mem ((c.tc : Thread Cert.KernelIdeal.nD Cert.KernelIdeal.τ).loc Cert.KernelIdeal.main_v75) = v5 c
          ∧ r.2.mem ((c.tc : Thread Cert.KernelIdeal.nD Cert.KernelIdeal.τ).loc Cert.KernelIdeal.main_v66) = v6 c
          ∧ r.2.mem ((c.tc : Thread Cert.KernelIdeal.nD Cert.KernelIdeal.τ).loc Cert.KernelIdeal.main_arg25) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_v52) = v3 c
          ∧ r.2.mem ((c.tc : Thread Cert.ReferenceIdeal.nD Cert.ReferenceIdeal.τ).loc Cert.ReferenceIdeal.main_v34) = v4 c
          ∧ r.2.mem ((c.tc : Thread Cert.ReferenceIdeal.nD Cert.ReferenceIdeal.τ).loc Cert.ReferenceIdeal.main_v104) = v5 c
          ∧ r.2.mem ((c.tc : Thread Cert.ReferenceIdeal.nD Cert.ReferenceIdeal.τ).loc Cert.ReferenceIdeal.main_v95) = v6 c
          ∧ r.2.mem ((c.tc : Thread Cert.ReferenceIdeal.nD Cert.ReferenceIdeal.τ).loc Cert.ReferenceIdeal.main_arg25) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x1280 : Shape := ⟨2, ![4096, 1280]⟩
abbrev S4096x2 : Shape := ⟨2, ![4096, 2]⟩
abbrev S4096x4096 : Shape := ⟨2, ![4096, 4096]⟩
abbrev S1024x819 : Shape := ⟨2, ![1024, 819]⟩
abbrev S819 : Shape := ⟨1, ![819]⟩
abbrev S819x819 : Shape := ⟨2, ![819, 819]⟩
abbrev S1280x1024 : Shape := ⟨2, ![1280, 1024]⟩
abbrev S1024 : Shape := ⟨1, ![1024]⟩
abbrev S819x1024 : Shape := ⟨2, ![819, 1024]⟩
abbrev S1024x1280 : Shape := ⟨2, ![1024, 1280]⟩
abbrev S1280 : Shape := ⟨1, ![1280]⟩
abbrev S5x819 : Shape := ⟨2, ![5, 819]⟩
abbrev S_ : Shape := ⟨0, ![]⟩
abbrev S4096 : Shape := ⟨1, ![4096]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x1280 : S_.BroadcastsInDim S4096x1280 (![] : Fin 0 → Fin S4096x1280.rank)
  reducesTo_S4096x1280_S_d0_1 : S4096x1280.ReducesTo [0, 1] S_
  bcast_S_S4096x2 : S_.BroadcastsInDim S4096x2 (![] : Fin 0 → Fin S4096x2.rank)
  reducesTo_S4096x2_S_d0_1 : S4096x2.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S1024x819 : S_.BroadcastsInDim S1024x819 (![] : Fin 0 → Fin S1024x819.rank)
  reducesTo_S1024x819_S_d0_1 : S1024x819.ReducesTo [0, 1] S_
  bcast_S_S819 : S_.BroadcastsInDim S819 (![] : Fin 0 → Fin S819.rank)
  reducesTo_S819_S_d0 : S819.ReducesTo [0] S_
  bcast_S_S819x819 : S_.BroadcastsInDim S819x819 (![] : Fin 0 → Fin S819x819.rank)
  reducesTo_S819x819_S_d0_1 : S819x819.ReducesTo [0, 1] S_
  bcast_S_S1280x1024 : S_.BroadcastsInDim S1280x1024 (![] : Fin 0 → Fin S1280x1024.rank)
  reducesTo_S1280x1024_S_d0_1 : S1280x1024.ReducesTo [0, 1] S_
  bcast_S_S1024 : S_.BroadcastsInDim S1024 (![] : Fin 0 → Fin S1024.rank)
  reducesTo_S1024_S_d0 : S1024.ReducesTo [0] S_
  bcast_S_S819x1024 : S_.BroadcastsInDim S819x1024 (![] : Fin 0 → Fin S819x1024.rank)
  reducesTo_S819x1024_S_d0_1 : S819x1024.ReducesTo [0, 1] S_
  bcast_S_S1024x1280 : S_.BroadcastsInDim S1024x1280 (![] : Fin 0 → Fin S1024x1280.rank)
  reducesTo_S1024x1280_S_d0_1 : S1024x1280.ReducesTo [0, 1] S_
  bcast_S_S1280 : S_.BroadcastsInDim S1280 (![] : Fin 0 → Fin S1280.rank)
  reducesTo_S1280_S_d0 : S1280.ReducesTo [0] S_
  bcast_S_S5x819 : S_.BroadcastsInDim S5x819 (![] : Fin 0 → Fin S5x819.rank)
  reducesTo_S5x819_S_d0_1 : S5x819.ReducesTo [0, 1] S_
  reducesTo_S4096x2_S4096_d1 : S4096x2.ReducesTo [1] S4096
  bcast_S_S4096 : S_.BroadcastsInDim S4096 (![] : Fin 0 → Fin S4096.rank)
  reducesTo_S4096_S_d0 : S4096.ReducesTo [0] S_

variable [Facts]

def fn_part7 {F : FTy → Type} [FloatOps F] (main_arg2 : FVec F S4096x2 .f32) (main_arg25 : FVec F S5x819 .f32) (main_v118 : IVec S_ 1) (main_v119 : FVec F S819x819 .f32) : IVec S_ 1 :=
  let main_cst_46 : FVec F S_ .f32 := constant S_ .f32 0x7F800000#32
  let main_v120 : FVec F S819x819 .f32 := broadcastInDim S819x819 ![] bcast_S_S819x819 main_cst_46
  let main_v121 : IVec S819x819 1 := cmpf .olt main_v119 main_v120
  let main_c_47 : IVec S_ 1 := constantI S_ 1 1#1
  let main_v122 : IVec S_ 1 := (fun x v => Host.reduce IntOp.andi x v reducesTo_S819x819_S_d0_1 h_S_) main_v121 main_c_47
  let main_v123 : IVec S_ 1 := andi main_v118 main_v122
  let main_v124 : FVec F S5x819 .f32 := Host.absf main_arg25
  let main_cst_48 : FVec F S_ .f32 := constant S_ .f32 0x7F800000#32
  let main_v125 : FVec F S5x819 .f32 := broadcastInDim S5x819 ![] bcast_S_S5x819 main_cst_48
  let main_v126 : IVec S5x819 1 := cmpf .olt main_v124 main_v125
  let main_c_49 : IVec S_ 1 := constantI S_ 1 1#1
  let main_v127 : IVec S_ 1 := (fun x v => Host.reduce IntOp.andi x v reducesTo_S5x819_S_d0_1 h_S_) main_v126 main_c_49
  let main_v128 : IVec S_ 1 := andi main_v123 main_v127
  let main_cst_50 : FVec F S_ .f32 := constant S_ .f32 0x00000000#32
  let main_v129 : FVec F S4096 .f32 := (fun x v => Host.reduceAdd x v reducesTo_S4096x2_S4096_d1 h_S_) main_arg2 main_cst_50
  let main_cst_51 : FVec F S_ .f32 := constant S_ .f32 0x00000000#32
  let main_v130 : FVec F S4096 .f32 := broadcastInDim S4096 ![] bcast_S_S4096 main_cst_51
  let main_v131 : IVec S4096 1 := cmpf .une main_v129 main_v130
  let main_c_52 : IVec S_ 1 := constantI S_ 1 1#1
  let main_v132 : IVec S_ 1 := (fun x v => Host.reduce IntOp.andi x v reducesTo_S4096_S_d0 h_S_) main_v131 main_c_52
  let main_v133 : IVec S_ 1 := andi main_v128 main_v132
  main_v133

def fn_part6 {F : FTy → Type} [FloatOps F] (main_arg2 : FVec F S4096x2 .f32) (main_arg21 : FVec F S819x819 .f32) (main_arg22 : FVec F S819x819 .f32) (main_arg23 : FVec F S819x819 .f32) (main_arg24 : FVec F S819x819 .f32) (main_arg25 : FVec F S5x819 .f32) (main_v98 : IVec S_ 1) (main_v101 : IVec S1280 1) (main_c_39 : IVec S_ 1) : IVec S_ 1 :=
  let main_v102 : IVec S_ 1 := (fun x v => Host.reduce IntOp.andi x v reducesTo_S1280_S_d0 h_S_) main_v101 main_c_39
  let main_v103 : IVec S_ 1 := andi main_v98 main_v102
  let main_v104 : FVec F S819x819 .f32 := Host.absf main_arg21
  let main_cst_40 : FVec F S_ .f32 := constant S_ .f32 0x7F800000#32
  let main_v105 : FVec F S819x819 .f32 := broadcastInDim S819x819 ![] bcast_S_S819x819 main_cst_40
  let main_v106 : IVec S819x819 1 := cmpf .olt main_v104 main_v105
  let main_c_41 : IVec S_ 1 := constantI S_ 1 1#1
  let main_v107 : IVec S_ 1 := (fun x v => Host.reduce IntOp.andi x v reducesTo_S819x819_S_d0_1 h_S_) main_v106 main_c_41
  let main_v108 : IVec S_ 1 := andi main_v103 main_v107
  let main_v109 : FVec F S819x819 .f32 := Host.absf main_arg22
  let main_cst_42 : FVec F S_ .f32 := constant S_ .f32 0x7F800000#32
  let main_v110 : FVec F S819x819 .f32 := broadcastInDim S819x819 ![] bcast_S_S819x819 main_cst_42
  let main_v111 : IVec S819x819 1 := cmpf .olt main_v109 main_v110
  let main_c_43 : IVec S_ 1 := constantI S_ 1 1#1
  let main_v112 : IVec S_ 1 := (fun x v => Host.reduce IntOp.andi x v reducesTo_S819x819_S_d0_1 h_S_) main_v111 main_c_43
  let main_v113 : IVec S_ 1 := andi main_v108 main_v112
  let main_v114 : FVec F S819x819 .f32 := Host.absf main_arg23
  let main_cst_44 : FVec F S_ .f32 := constant S_ .f32 0x7F800000#32
  let main_v115 : FVec F S819x819 .f32 := broadcastInDim S819x819 ![] bcast_S_S819x819 main_cst_44
  let main_v116 : IVec S819x819 1 := cmpf .olt main_v114 main_v115
  let main_c_45 : IVec S_ 1 := constantI S_ 1 1#1
  let main_v117 : IVec S_ 1 := (fun x v => Host.reduce IntOp.andi x v reducesTo_S819x819_S_d0_1 h_S_) main_v116 main_c_45
  let main_v118 : IVec S_ 1 := andi main_v113 main_v117
  let main_v119 : FVec F S819x819 .f32 := Host.absf main_arg24
  fn_part7 (F := F) main_arg2 main_arg25 main_v118 main_v119

def fn_part5 {F : FTy → Type} [FloatOps F] (main_arg2 : FVec F S4096x2 .f32) (main_arg18 : FVec F S1024 .f32) (main_arg19 : FVec F S1024x1280 .f32) (main_arg20 : FVec F S1280 .f32) (main_arg21 : FVec F S819x819 .f32) (main_arg22 : FVec F S819x819 .f32) (main_arg23 : FVec F S819x819 .f32) (main_arg24 : FVec F S819x819 .f32) (main_arg25 : FVec F S5x819 .f32) (main_v83 : IVec S_ 1) (main_v84 : FVec F S819x1024 .f32) (main_cst_32 : FVec F S_ .f32) : IVec S_ 1 :=
  let main_v85 : FVec F S819x1024 .f32 := broadcastInDim S819x1024 ![] bcast_S_S819x1024 main_cst_32
  let main_v86 : IVec S819x1024 1 := cmpf .olt main_v84 main_v85
  let main_c_33 : IVec S_ 1 := constantI S_ 1 1#1
  let main_v87 : IVec S_ 1 := (fun x v => Host.reduce IntOp.andi x v reducesTo_S819x1024_S_d0_1 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  let main_v94 : FVec F S1024x1280 .f32 := Host.absf main_arg19
  let main_cst_36 : FVec F S_ .f32 := constant S_ .f32 0x7F800000#32
  let main_v95 : FVec F S1024x1280 .f32 := broadcastInDim S1024x1280 ![] bcast_S_S1024x1280 main_cst_36
  let main_v96 : IVec S1024x1280 1 := cmpf .olt main_v94 main_v95
  let main_c_37 : IVec S_ 1 := constantI S_ 1 1#1
  let main_v97 : IVec S_ 1 := (fun x v => Host.reduce IntOp.andi x v reducesTo_S1024x1280_S_d0_1 h_S_) main_v96 main_c_37
  let main_v98 : IVec S_ 1 := andi main_v93 main_v97
  let main_v99 : FVec F S1280 .f32 := Host.absf main_arg20
  let main_cst_38 : FVec F S_ .f32 := constant S_ .f32 0x7F800000#32
  let main_v100 : FVec F S1280 .f32 := broadcastInDim S1280 ![] bcast_S_S1280 main_cst_38
  let main_v101 : IVec S1280 1 := cmpf .olt main_v99 main_v100
  let main_c_39 : IVec S_ 1 := constantI S_ 1 1#1
  fn_part6 (F := F) main_arg2 main_arg21 main_arg22 main_arg23 main_arg24 main_arg25 main_v98 main_v101 main_c_39

def fn_part4 {F : FTy → Type} [FloatOps F] (main_arg2 : FVec F S4096x2 .f32) (main_arg14 : FVec F S819 .f32) (main_arg15 : FVec F S819x1024 .f32) (main_arg16 : FVec F S1024 .f32) (main_arg17 : FVec F S819x1024 .f32) (main_arg18 : FVec F S1024 .f32) (main_arg19 : FVec F S1024x1280 .f32) (main_arg20 : FVec F S1280 .f32) (main_arg21 : FVec F S819x819 .f32) (main_arg22 : FVec F S819x819 .f32) (main_arg23 : FVec F S819x819 .f32) (main_arg24 : FVec F S819x819 .f32) (main_arg25 : FVec F S5x819 .f32) (main_v63 : IVec S_ 1) (main_v67 : IVec S_ 1) : IVec S_ 1 :=
  let main_v68 : IVec S_ 1 := andi main_v63 main_v67
  let main_v69 : FVec F S819 .f32 := Host.absf main_arg14
  let main_cst_26 : FVec F S_ .f32 := constant S_ .f32 0x7F800000#32
  let main_v70 : FVec F S819 .f32 := broadcastInDim S819 ![] bcast_S_S819 main_cst_26
  let main_v71 : IVec S819 1 := cmpf .olt main_v69 main_v70
  let main_c_27 : IVec S_ 1 := constantI S_ 1 1#1
  let main_v72 : IVec S_ 1 := (fun x v => Host.reduce IntOp.andi x v reducesTo_S819_S_d0 h_S_) main_v71 main_c_27
  let main_v73 : IVec S_ 1 := andi main_v68 main_v72
  let main_v74 : FVec F S819x1024 .f32 := Host.absf main_arg15
  let main_cst_28 : FVec F S_ .f32 := constant S_ .f32 0x7F800000#32
  let main_v75 : FVec F S819x1024 .f32 := broadcastInDim S819x1024 ![] bcast_S_S819x1024 main_cst_28
  let main_v76 : IVec S819x1024 1 := cmpf .olt main_v74 main_v75
  let main_c_29 : IVec S_ 1 := constantI S_ 1 1#1
  let main_v77 : IVec S_ 1 := (fun x v => Host.reduce IntOp.andi x v reducesTo_S819x1024_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S819x1024 .f32 := Host.absf main_arg17
  let main_cst_32 : FVec F S_ .f32 := constant S_ .f32 0x7F800000#32
  fn_part5 (F := F) main_arg2 main_arg18 main_arg19 main_arg20 main_arg21 main_arg22 main_arg23 main_arg24 main_arg25 main_v83 main_v84 main_cst_32

def fn_part3 {F : FTy → Type} [FloatOps F] (main_arg2 : FVec F S4096x2 .f32) (main_arg11 : FVec F S1024x819 .f32) (main_arg12 : FVec F S819 .f32) (main_arg13 : FVec F S819x819 .f32) (main_arg14 : FVec F S819 .f32) (main_arg15 : FVec F S819x1024 .f32) (main_arg16 : FVec F S1024 .f32) (main_arg17 : FVec F S819x1024 .f32) (main_arg18 : FVec F S1024 .f32) (main_arg19 : FVec F S1024x1280 .f32) (main_arg20 : FVec F S1280 .f32) (main_arg21 : FVec F S819x819 .f32) (main_arg22 : FVec F S819x819 .f32) (main_arg23 : FVec F S819x819 .f32) (main_arg24 : FVec F S819x819 .f32) (main_arg25 : FVec F S5x819 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x819 .f32 := Host.absf main_arg11
  let main_cst_20 : FVec F S_ .f32 := constant S_ .f32 0x7F800000#32
  let main_v55 : FVec F S1024x819 .f32 := broadcastInDim S1024x819 ![] bcast_S_S1024x819 main_cst_20
  let main_v56 : IVec S1024x819 1 := cmpf .olt main_v54 main_v55
  let main_c_21 : IVec S_ 1 := constantI S_ 1 1#1
  let main_v57 : IVec S_ 1 := (fun x v => Host.reduce IntOp.andi x v reducesTo_S1024x819_S_d0_1 h_S_) main_v56 main_c_21
  let main_v58 : IVec S_ 1 := andi main_v53 main_v57
  let main_v59 : FVec F S819 .f32 := Host.absf main_arg12
  let main_cst_22 : FVec F S_ .f32 := constant S_ .f32 0x7F800000#32
  let main_v60 : FVec F S819 .f32 := broadcastInDim S819 ![] bcast_S_S819 main_cst_22
  let main_v61 : IVec S819 1 := cmpf .olt main_v59 main_v60
  let main_c_23 : IVec S_ 1 := constantI S_ 1 1#1
  let main_v62 : IVec S_ 1 := (fun x v => Host.reduce IntOp.andi x v reducesTo_S819_S_d0 h_S_) main_v61 main_c_23
  let main_v63 : IVec S_ 1 := andi main_v58 main_v62
  let main_v64 : FVec F S819x819 .f32 := Host.absf main_arg13
  let main_cst_24 : FVec F S_ .f32 := constant S_ .f32 0x7F800000#32
  let main_v65 : FVec F S819x819 .f32 := broadcastInDim S819x819 ![] bcast_S_S819x819 main_cst_24
  let main_v66 : IVec S819x819 1 := cmpf .olt main_v64 main_v65
  let main_c_25 : IVec S_ 1 := constantI S_ 1 1#1
  let main_v67 : IVec S_ 1 := (fun x v => Host.reduce IntOp.andi x v reducesTo_S819x819_S_d0_1 h_S_) main_v66 main_c_25
  fn_part4 (F := F) main_arg2 main_arg14 main_arg15 main_arg16 main_arg17 main_arg18 main_arg19 main_arg20 main_arg21 main_arg22 main_arg23 main_arg24 main_arg25 main_v63 main_v67

def fn_part2 {F : FTy → Type} [FloatOps F] (main_arg2 : FVec F S4096x2 .f32) (main_arg7 : FVec F S819x819 .f32) (main_arg8 : FVec F S819 .f32) (main_arg9 : FVec F S1280x1024 .f32) (main_arg10 : FVec F S1024 .f32) (main_arg11 : FVec F S1024x819 .f32) (main_arg12 : FVec F S819 .f32) (main_arg13 : FVec F S819x819 .f32) (main_arg14 : FVec F S819 .f32) (main_arg15 : FVec F S819x1024 .f32) (main_arg16 : FVec F S1024 .f32) (main_arg17 : FVec F S819x1024 .f32) (main_arg18 : FVec F S1024 .f32) (main_arg19 : FVec F S1024x1280 .f32) (main_arg20 : FVec F S1280 .f32) (main_arg21 : FVec F S819x819 .f32) (main_arg22 : FVec F S819x819 .f32) (main_arg23 : FVec F S819x819 .f32) (main_arg24 : FVec F S819x819 .f32) (main_arg25 : FVec F S5x819 .f32) (main_v33 : IVec S_ 1) : IVec S_ 1 :=
  let main_v34 : FVec F S819x819 .f32 := Host.absf main_arg7
  let main_cst_12 : FVec F S_ .f32 := constant S_ .f32 0x7F800000#32
  let main_v35 : FVec F S819x819 .f32 := broadcastInDim S819x819 ![] bcast_S_S819x819 main_cst_12
  let main_v36 : IVec S819x819 1 := cmpf .olt main_v34 main_v35
  let main_c_13 : IVec S_ 1 := constantI S_ 1 1#1
  let main_v37 : IVec S_ 1 := (fun x v => Host.reduce IntOp.andi x v reducesTo_S819x819_S_d0_1 h_S_) main_v36 main_c_13
  let main_v38 : IVec S_ 1 := andi main_v33 main_v37
  let main_v39 : FVec F S819 .f32 := Host.absf main_arg8
  let main_cst_14 : FVec F S_ .f32 := constant S_ .f32 0x7F800000#32
  let main_v40 : FVec F S819 .f32 := broadcastInDim S819 ![] bcast_S_S819 main_cst_14
  let main_v41 : IVec S819 1 := cmpf .olt main_v39 main_v40
  let main_c_15 : IVec S_ 1 := constantI S_ 1 1#1
  let main_v42 : IVec S_ 1 := (fun x v => Host.reduce IntOp.andi x v reducesTo_S819_S_d0 h_S_) main_v41 main_c_15
  let main_v43 : IVec S_ 1 := andi main_v38 main_v42
  let main_v44 : FVec F S1280x1024 .f32 := Host.absf main_arg9
  let main_cst_16 : FVec F S_ .f32 := constant S_ .f32 0x7F800000#32
  let main_v45 : FVec F S1280x1024 .f32 := broadcastInDim S1280x1024 ![] bcast_S_S1280x1024 main_cst_16
  let main_v46 : IVec S1280x1024 1 := cmpf .olt main_v44 main_v45
  let main_c_17 : IVec S_ 1 := constantI S_ 1 1#1
  let main_v47 : IVec S_ 1 := (fun x v => Host.reduce IntOp.andi x v reducesTo_S1280x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg2 main_arg11 main_arg12 main_arg13 main_arg14 main_arg15 main_arg16 main_arg17 main_arg18 main_arg19 main_arg20 main_arg21 main_arg22 main_arg23 main_arg24 main_arg25 main_v48 main_v49 main_v50

def fn_part1 {F : FTy → Type} [FloatOps F] (main_arg2 : FVec F S4096x2 .f32) (main_arg4 : FVec F S4096x4096 .f32) (main_arg5 : FVec F S1024x819 .f32) (main_arg6 : FVec F S819 .f32) (main_arg7 : FVec F S819x819 .f32) (main_arg8 : FVec F S819 .f32) (main_arg9 : FVec F S1280x1024 .f32) (main_arg10 : FVec F S1024 .f32) (main_arg11 : FVec F S1024x819 .f32) (main_arg12 : FVec F S819 .f32) (main_arg13 : FVec F S819x819 .f32) (main_arg14 : FVec F S819 .f32) (main_arg15 : FVec F S819x1024 .f32) (main_arg16 : FVec F S1024 .f32) (main_arg17 : FVec F S819x1024 .f32) (main_arg18 : FVec F S1024 .f32) (main_arg19 : FVec F S1024x1280 .f32) (main_arg20 : FVec F S1280 .f32) (main_arg21 : FVec F S819x819 .f32) (main_arg22 : FVec F S819x819 .f32) (main_arg23 : FVec F S819x819 .f32) (main_arg24 : FVec F S819x819 .f32) (main_arg25 : FVec F S5x819 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S1024x819 .f32 := Host.absf main_arg5
  let main_cst_8 : FVec F S_ .f32 := constant S_ .f32 0x7F800000#32
  let main_v25 : FVec F S1024x819 .f32 := broadcastInDim S1024x819 ![] bcast_S_S1024x819 main_cst_8
  let main_v26 : IVec S1024x819 1 := cmpf .olt main_v24 main_v25
  let main_c_9 : IVec S_ 1 := constantI S_ 1 1#1
  let main_v27 : IVec S_ 1 := (fun x v => Host.reduce IntOp.andi x v reducesTo_S1024x819_S_d0_1 h_S_) main_v26 main_c_9
  let main_v28 : IVec S_ 1 := andi main_v23 main_v27
  let main_v29 : FVec F S819 .f32 := Host.absf main_arg6
  let main_cst_10 : FVec F S_ .f32 := constant S_ .f32 0x7F800000#32
  let main_v30 : FVec F S819 .f32 := broadcastInDim S819 ![] bcast_S_S819 main_cst_10
  let main_v31 : IVec S819 1 := cmpf .olt main_v29 main_v30
  let main_c_11 : IVec S_ 1 := constantI S_ 1 1#1
  let main_v32 : IVec S_ 1 := (fun x v => Host.reduce IntOp.andi x v reducesTo_S819_S_d0 h_S_) main_v31 main_c_11
  let main_v33 : IVec S_ 1 := andi main_v28 main_v32
  fn_part2 (F := F) main_arg2 main_arg7 main_arg8 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S4096x1024 .f32) (main_arg1 : FVec F S4096x1280 .f32) (main_arg2 : FVec F S4096x2 .f32) (main_arg3 : FVec F S4096x4096 .f32) (main_arg4 : FVec F S4096x4096 .f32) (main_arg5 : FVec F S1024x819 .f32) (main_arg6 : FVec F S819 .f32) (main_arg7 : FVec F S819x819 .f32) (main_arg8 : FVec F S819 .f32) (main_arg9 : FVec F S1280x1024 .f32) (main_arg10 : FVec F S1024 .f32) (main_arg11 : FVec F S1024x819 .f32) (main_arg12 : FVec F S819 .f32) (main_arg13 : FVec F S819x819 .f32) (main_arg14 : FVec F S819 .f32) (main_arg15 : FVec F S819x1024 .f32) (main_arg16 : FVec F S1024 .f32) (main_arg17 : FVec F S819x1024 .f32) (main_arg18 : FVec F S1024 .f32) (main_arg19 : FVec F S1024x1280 .f32) (main_arg20 : FVec F S1280 .f32) (main_arg21 : FVec F S819x819 .f32) (main_arg22 : FVec F S819x819 .f32) (main_arg23 : FVec F S819x819 .f32) (main_arg24 : FVec F S819x819 .f32) (main_arg25 : FVec F S5x819 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1280 .f32 := Host.absf main_arg1
  let main_cst_0 : FVec F S_ .f32 := constant S_ .f32 0x7F800000#32
  let main_v5 : FVec F S4096x1280 .f32 := broadcastInDim S4096x1280 ![] bcast_S_S4096x1280 main_cst_0
  let main_v6 : IVec S4096x1280 1 := cmpf .olt main_v4 main_v5
  let main_c_1 : IVec S_ 1 := constantI S_ 1 1#1
  let main_v7 : IVec S_ 1 := (fun x v => Host.reduce IntOp.andi x v reducesTo_S4096x1280_S_d0_1 h_S_) main_v6 main_c_1
  let main_v8 : IVec S_ 1 := andi main_v3 main_v7
  let main_v9 : FVec F S4096x2 .f32 := Host.absf main_arg2
  let main_cst_2 : FVec F S_ .f32 := constant S_ .f32 0x7F800000#32
  let main_v10 : FVec F S4096x2 .f32 := broadcastInDim S4096x2 ![] bcast_S_S4096x2 main_cst_2
  let main_v11 : IVec S4096x2 1 := cmpf .olt main_v9 main_v10
  let main_c_3 : IVec S_ 1 := constantI S_ 1 1#1
  let main_v12 : IVec S_ 1 := (fun x v => Host.reduce IntOp.andi x v reducesTo_S4096x2_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg2 main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S4096x1024 : Shape := ⟨2, ![4096, 1024]⟩
abbrev S4096x1280 : Shape := ⟨2, ![4096, 1280]⟩
abbrev S4096x2 : Shape := ⟨2, ![4096, 2]⟩
abbrev S4096x4096 : Shape := ⟨2, ![4096, 4096]⟩
abbrev S1024x819 : Shape := ⟨2, ![1024, 819]⟩
abbrev S819 : Shape := ⟨1, ![819]⟩
abbrev S819x819 : Shape := ⟨2, ![819, 819]⟩
abbrev S1280x1024 : Shape := ⟨2, ![1280, 1024]⟩
abbrev S1024 : Shape := ⟨1, ![1024]⟩
abbrev S819x1024 : Shape := ⟨2, ![819, 1024]⟩
abbrev S1024x1280 : Shape := ⟨2, ![1024, 1280]⟩
abbrev S1280 : Shape := ⟨1, ![1280]⟩
abbrev S5x819 : Shape := ⟨2, ![5, 819]⟩
abbrev S4096x819 : Shape := ⟨2, ![4096, 819]⟩
abbrev S1024x1024 : Shape := ⟨2, ![1024, 1024]⟩
abbrev S1x819 : Shape := ⟨2, ![1, 819]⟩
abbrev S1x1024 : Shape := ⟨2, ![1, 1024]⟩
abbrev S4096x1 : Shape := ⟨2, ![4096, 1]⟩
abbrev S_ : Shape := ⟨0, ![]⟩
abbrev S4096 : Shape := ⟨1, ![4096]⟩
abbrev S1x1280 : Shape := ⟨2, ![1, 1280]⟩
abbrev S5 : Shape := ⟨1, ![5]⟩
abbrev S819x5 : Shape := ⟨2, ![819, 5]⟩
abbrev S4096x5 : Shape := ⟨2, ![4096, 5]⟩
abbrev S1x5 : Shape := ⟨2, ![1, 5]⟩

abbrev nBuf : Space → Nat
  | .hbm => 112
  | .vmem => 150
  | .smem => 0
  | _ => 0

abbrev vmemTy0_0 (i : Nat) : BufTy := match i % 128 with
  | 0 => ⟨S1024x1024, .f32⟩
  | 1 => ⟨S1024x1024, .f32⟩
  | 2 => ⟨S1024x819, .f32⟩
  | 3 => ⟨S1024x819, .bf16⟩
  | 4 => ⟨S1024x819, .bf16⟩
  | 5 => ⟨S1024x819, .f32⟩
  | 6 => ⟨S1024x1024, .bf16⟩
  | 7 => ⟨S1024x1024, .bf16⟩
  | 8 => ⟨S1024x819, .bf16⟩
  | 9 => ⟨S1024x819, .bf16⟩
  | 10 => ⟨S1x819, .f32⟩
  | 11 => ⟨S1024x819, .f32⟩
  | 12 => ⟨S1024x819, .f32⟩
  | 13 => ⟨S1024x819, .f32⟩
  | 14 => ⟨S1024x1024, .bf16⟩
  | 15 => ⟨S1024x1024, .bf16⟩
  | 16 => ⟨S1024x819, .f32⟩
  | 17 => ⟨S1024x819, .f32⟩
  | 18 => ⟨S1024x819, .bf16⟩
  | 19 => ⟨S1024x819, .bf16⟩
  | 20 => ⟨S1024x819, .f32⟩
  | 21 => ⟨S1024x819, .bf16⟩
  | 22 => ⟨S1024x819, .bf16⟩
  | 23 => ⟨S819x819, .f32⟩
  | 24 => ⟨S1x819, .f32⟩
  | 25 => ⟨S1024x819, .f32⟩
  | 26 => ⟨S1024x819, .f32⟩
  | 27 => ⟨S1024x819, .f32⟩
  | 28 => ⟨S1024x1280, .f32⟩
  | 29 => ⟨S1024x1280, .f32⟩
  | 30 => ⟨S1280x1024, .f32⟩
  | 31 => ⟨S1024x1024, .bf16⟩
  | 32 => ⟨S1024x1024, .bf16⟩
  | 33 => ⟨S1024x1024, .f32⟩
  | 34 => ⟨S1024x1024, .bf16⟩
  | 35 => ⟨S1024x1024, .bf16⟩
  | 36 => ⟨S1024x1024, .bf16⟩
  | 37 => ⟨S1024x1024, .bf16⟩
  | 38 => ⟨S1x1024, .f32⟩
  | 39 => ⟨S1024x1024, .f32⟩
  | 40 => ⟨S1024x1024, .f32⟩
  | 41 => ⟨S1024x1024, .f32⟩
  | 42 => ⟨S1024x1024, .f32⟩
  | 43 => ⟨S1024x1024, .f32⟩
  | 44 => ⟨S1024x819, .f32⟩
  | 45 => ⟨S1024x819, .bf16⟩
  | 46 => ⟨S1024x819, .bf16⟩
  | 47 => ⟨S1024x819, .f32⟩
  | 48 => ⟨S1024x1024, .bf16⟩
  | 49 => ⟨S1024x1024, .bf16⟩
  | 50 => ⟨S1024x819, .bf16⟩
  | 51 => ⟨S1024x819, .bf16⟩
  | 52 => ⟨S1x819, .f32⟩
  | 53 => ⟨S1024x819, .f32⟩
  | 54 => ⟨S1024x819, .f32⟩
  | 55 => ⟨S1024x819, .f32⟩
  | 56 => ⟨S1024x819, .f32⟩
  | 57 => ⟨S1024x819, .f32⟩
  | 58 => ⟨S819x819, .f32⟩
  | 59 => ⟨S1024x819, .bf16⟩
  | 60 => ⟨S1024x819, .bf16⟩
  | 61 => ⟨S1024x819, .f32⟩
  | 62 => ⟨S1024x819, .bf16⟩
  | 63 => ⟨S1024x819, .bf16⟩
  | 64 => ⟨S1024x819, .f32⟩
  | 65 => ⟨S1024x819, .f32⟩
  | 66 => ⟨S1024x1024, .f32⟩
  | 67 => ⟨S1024x1024, .f32⟩
  | 68 => ⟨S1024x1024, .f32⟩
  | 69 => ⟨S1024x819, .f32⟩
  | 70 => ⟨S1024x819, .f32⟩
  | 71 => ⟨S819x819, .f32⟩
  | 72 => ⟨S1024x819, .bf16⟩
  | 73 => ⟨S1024x819, .bf16⟩
  | 74 => ⟨S1024x819, .f32⟩
  | 75 => ⟨S1024x819, .bf16⟩
  | 76 => ⟨S1024x819, .bf16⟩
  | 77 => ⟨S1024x819, .f32⟩
  | 78 => ⟨S1024x819, .f32⟩
  | 79 => ⟨S1024x1024, .f32⟩
  | 80 => ⟨S1024x1024, .f32⟩
  | 81 => ⟨S1024x1024, .f32⟩
  | 82 => ⟨S1024x819, .f32⟩
  | 83 => ⟨S1024x819, .f32⟩
  | 84 => ⟨S819x819, .f32⟩
  | 85 => ⟨S1024x819, .bf16⟩
  | 86 => ⟨S1024x819, .bf16⟩
  | 87 => ⟨S1024x819, .f32⟩
  | 88 => ⟨S1024x1024, .bf16⟩
  | 89 => ⟨S1024x1024, .bf16⟩
  | 90 => ⟨S1024x819, .bf16⟩
  | 91 => ⟨S1024x819, .bf16⟩
  | 92 => ⟨S1024x819, .bf16⟩
  | 93 => ⟨S1024x819, .bf16⟩
  | 94 => ⟨S1024x819, .f32⟩
  | 95 => ⟨S1024x819, .bf16⟩
  | 96 => ⟨S1024x819, .bf16⟩
  | 97 => ⟨S819x819, .f32⟩
  | 98 => ⟨S1x819, .f32⟩
  | 99 => ⟨S1024x819, .f32⟩
  | 100 => ⟨S1024x819, .f32⟩
  | 101 => ⟨S1024x819, .f32⟩
  | 102 => ⟨S1024x1024, .bf16⟩
  | 103 => ⟨S1024x1024, .bf16⟩
  | 104 => ⟨S1024x819, .f32⟩
  | 105 => ⟨S1024x819, .f32⟩
  | 106 => ⟨S1024x819, .bf16⟩
  | 107 => ⟨S1024x819, .bf16⟩
  | 108 => ⟨S1024x819, .f32⟩
  | 109 => ⟨S1024x819, .bf16⟩
  | 110 => ⟨S1024x819, .bf16⟩
  | 111 => ⟨S819x1024, .f32⟩
  | 112 => ⟨S1x1024, .f32⟩
  | 113 => ⟨S1024x1024, .f32⟩
  | 114 => ⟨S1024x1024, .f32⟩
  | 115 => ⟨S1024x1024, .f32⟩
  | 116 => ⟨S1024x819, .f32⟩
  | 117 => ⟨S1024x819, .f32⟩
  | 118 => ⟨S819x819, .f32⟩
  | 119 => ⟨S1024x819, .bf16⟩
  | 120 => ⟨S1024x819, .bf16⟩
  | 121 => ⟨S1024x819, .f32⟩
  | 122 => ⟨S1024x1024, .bf16⟩
  | 123 => ⟨S1024x1024, .bf16⟩
  | 124 => ⟨S1024x819, .bf16⟩
  | 125 => ⟨S1024x819, .bf16⟩
  | 126 => ⟨S1024x819, .bf16⟩
  | 127 => ⟨S1024x819, .bf16⟩
  | _ => ⟨S4096x1024, .f32⟩

abbrev vmemTy0_1 (i : Nat) : BufTy := match i % 128 with
  | 0 => ⟨S1024x819, .f32⟩
  | 1 => ⟨S1024x819, .bf16⟩
  | 2 => ⟨S1024x819, .bf16⟩
  | 3 => ⟨S819x1024, .f32⟩
  | 4 => ⟨S1x1024, .f32⟩
  | 5 => ⟨S1024x1024, .f32⟩
  | 6 => ⟨S1024x1024, .f32⟩
  | 7 => ⟨S1024x1024, .f32⟩
  | 8 => ⟨S1024x1024, .bf16⟩
  | 9 => ⟨S1024x1024, .bf16⟩
  | 10 => ⟨S1024x1024, .f32⟩
  | 11 => ⟨S1024x1024, .f32⟩
  | 12 => ⟨S1024x1024, .bf16⟩
  | 13 => ⟨S1024x1024, .bf16⟩
  | 14 => ⟨S1024x1024, .f32⟩
  | 15 => ⟨S1024x1024, .bf16⟩
  | 16 => ⟨S1024x1024, .bf16⟩
  | 17 => ⟨S1024x1280, .f32⟩
  | 18 => ⟨S1x1280, .f32⟩
  | 19 => ⟨S1024x1280, .f32⟩
  | 20 => ⟨S1024x1280, .f32⟩
  | 21 => ⟨S1024x1280, .f32⟩
  | _ => ⟨S4096x1024, .f32⟩

abbrev vmemTy (i : Nat) : BufTy := match i / 128 with
  | 0 => vmemTy0_0 i
  | 1 => vmemTy0_1 i
  | _ => ⟨S4096x1024, .f32⟩

abbrev bufTy : (tb : Table) → Fin (tcTables nBuf tb) → BufTy
  | .hbm, ⟨0, _⟩ => ⟨S4096x1024, .f32⟩
  | .hbm, ⟨1, _⟩ => ⟨S4096x1280, .f32⟩
  | .hbm, ⟨2, _⟩ => ⟨S4096x2, .f32⟩
  | .hbm, ⟨3, _⟩ => ⟨S4096x4096, .f32⟩
  | .hbm, ⟨4, _⟩ => ⟨S4096x4096, .f32⟩
  | .hbm, ⟨5, _⟩ => ⟨S1024x819, .f32⟩
  | .hbm, ⟨6, _⟩ => ⟨S819, .f32⟩
  | .hbm, ⟨7, _⟩ => ⟨S819x819, .f32⟩
  | .hbm, ⟨8, _⟩ => ⟨S819, .f32⟩
  | .hbm, ⟨9, _⟩ => ⟨S1280x1024, .f32⟩
  | .hbm, ⟨10, _⟩ => ⟨S1024, .f32⟩
  | .hbm, ⟨11, _⟩ => ⟨S1024x819, .f32⟩
  | .hbm, ⟨12, _⟩ => ⟨S819, .f32⟩
  | .hbm, ⟨13, _⟩ => ⟨S819x819, .f32⟩
  | .hbm, ⟨14, _⟩ => ⟨S819, .f32⟩
  | .hbm, ⟨15, _⟩ => ⟨S819x1024, .f32⟩
  | .hbm, ⟨16, _⟩ => ⟨S1024, .f32⟩
  | .hbm, ⟨17, _⟩ => ⟨S819x1024, .f32⟩
  | .hbm, ⟨18, _⟩ => ⟨S1024, .f32⟩
  | .hbm, ⟨19, _⟩ => ⟨S1024x1280, .f32⟩
  | .hbm, ⟨20, _⟩ => ⟨S1280, .f32⟩
  | .hbm, ⟨21, _⟩ => ⟨S819x819, .f32⟩
  | .hbm, ⟨22, _⟩ => ⟨S819x819, .f32⟩
  | .hbm, ⟨23, _⟩ => ⟨S819x819, .f32⟩
  | .hbm, ⟨24, _⟩ => ⟨S819x819, .f32⟩
  | .hbm, ⟨25, _⟩ => ⟨S5x819, .f32⟩
  | .hbm, ⟨26, _⟩ => ⟨S4096x4096, .bf16⟩
  | .hbm, ⟨27, _⟩ => ⟨S4096x4096, .bf16⟩
  | .hbm, ⟨28, _⟩ => ⟨S4096x819, .bf16⟩
  | .hbm, ⟨29, _⟩ => ⟨S1x819, .f32⟩
  | .hbm, ⟨30, _⟩ => ⟨S4096x819, .f32⟩
  | .hbm, ⟨31, _⟩ => ⟨S4096x819, .bf16⟩
  | .hbm, ⟨32, _⟩ => ⟨S1x819, .f32⟩
  | .hbm, ⟨33, _⟩ => ⟨S4096x819, .f32⟩
  | .hbm, ⟨34, _⟩ => ⟨S4096x1024, .bf16⟩
  | .hbm, ⟨35, _⟩ => ⟨S1x1024, .f32⟩
  | .hbm, ⟨36, _⟩ => ⟨S4096x1024, .f32⟩
  | .hbm, ⟨37, _⟩ => ⟨S4096x819, .bf16⟩
  | .hbm, ⟨38, _⟩ => ⟨S1x819, .f32⟩
  | .hbm, ⟨39, _⟩ => ⟨S4096x819, .f32⟩
  | .hbm, ⟨40, _⟩ => ⟨S4096x1, .f32⟩
  | .hbm, ⟨41, _⟩ => ⟨S4096x819, .f32⟩
  | .hbm, ⟨42, _⟩ => ⟨S4096x819, .f32⟩
  | .hbm, ⟨43, _⟩ => ⟨S4096x1, .f32⟩
  | .hbm, ⟨44, _⟩ => ⟨S4096x819, .f32⟩
  | .hbm, ⟨45, _⟩ => ⟨S4096x819, .f32⟩
  | .hbm, ⟨46, _⟩ => ⟨S4096x819, .f32⟩
  | .hbm, ⟨47, _⟩ => ⟨S_, .f32⟩
  | .hbm, ⟨48, _⟩ => ⟨S4096, .f32⟩
  | .hbm, ⟨49, _⟩ => ⟨S4096x1, .f32⟩
  | .hbm, ⟨50, _⟩ => ⟨S4096x819, .f32⟩
  | .hbm, ⟨51, _⟩ => ⟨S4096x819, .f32⟩
  | .hbm, ⟨52, _⟩ => ⟨S4096x819, .bf16⟩
  | .hbm, ⟨53, _⟩ => ⟨S4096x4096, .f32⟩
  | .hbm, ⟨54, _⟩ => ⟨S4096x819, .bf16⟩
  | .hbm, ⟨55, _⟩ => ⟨S4096x4096, .f32⟩
  | .hbm, ⟨56, _⟩ => ⟨S4096x819, .bf16⟩
  | .hbm, ⟨57, _⟩ => ⟨S4096x819, .bf16⟩
  | .hbm, ⟨58, _⟩ => ⟨S1x819, .f32⟩
  | .hbm, ⟨59, _⟩ => ⟨S4096x819, .f32⟩
  | .hbm, ⟨60, _⟩ => ⟨S4096x819, .bf16⟩
  | .hbm, ⟨61, _⟩ => ⟨S1x1024, .f32⟩
  | .hbm, ⟨62, _⟩ => ⟨S4096x1024, .f32⟩
  | .hbm, ⟨63, _⟩ => ⟨S4096x819, .bf16⟩
  | .hbm, ⟨64, _⟩ => ⟨S4096x819, .bf16⟩
  | .hbm, ⟨65, _⟩ => ⟨S1x1024, .f32⟩
  | .hbm, ⟨66, _⟩ => ⟨S4096x1024, .f32⟩
  | .hbm, ⟨67, _⟩ => ⟨S4096x1024, .bf16⟩
  | .hbm, ⟨68, _⟩ => ⟨S1x1280, .f32⟩
  | .hbm, ⟨69, _⟩ => ⟨S4096x1280, .f32⟩
  | .hbm, ⟨70, _⟩ => ⟨S4096x819, .f32⟩
  | .hbm, ⟨71, _⟩ => ⟨S_, .f32⟩
  | .hbm, ⟨72, _⟩ => ⟨S4096, .f32⟩
  | .hbm, ⟨73, _⟩ => ⟨S4096x1, .f32⟩
  | .hbm, ⟨74, _⟩ => ⟨S5x819, .f32⟩
  | .hbm, ⟨75, _⟩ => ⟨S_, .f32⟩
  | .hbm, ⟨76, _⟩ => ⟨S5, .f32⟩
  | .hbm, ⟨77, _⟩ => ⟨S819x5, .f32⟩
  | .hbm, ⟨78, _⟩ => ⟨S4096x5, .f32⟩
  | .hbm, ⟨79, _⟩ => ⟨S_, .f32⟩
  | .hbm, ⟨80, _⟩ => ⟨S4096x5, .f32⟩
  | .hbm, ⟨81, _⟩ => ⟨S4096x5, .f32⟩
  | .hbm, ⟨82, _⟩ => ⟨S4096x5, .f32⟩
  | .hbm, ⟨83, _⟩ => ⟨S4096x5, .f32⟩
  | .hbm, ⟨84, _⟩ => ⟨S1x5, .f32⟩
  | .hbm, ⟨85, _⟩ => ⟨S4096x5, .f32⟩
  | .hbm, ⟨86, _⟩ => ⟨S4096x5, .f32⟩
  | .hbm, ⟨87, _⟩ => ⟨S_, .f32⟩
  | .hbm, ⟨88, _⟩ => ⟨S4096x5, .f32⟩
  | .hbm, ⟨89, _⟩ => ⟨S4096x5, .f32⟩
  | .hbm, ⟨90, _⟩ => ⟨S_, .f32⟩
  | .hbm, ⟨91, _⟩ => ⟨S4096x5, .f32⟩
  | .hbm, ⟨92, _⟩ => ⟨S4096x5, .f32⟩
  | .hbm, ⟨93, _⟩ => ⟨S_, .f32⟩
  | .hbm, ⟨94, _⟩ => ⟨S4096x5, .f32⟩
  | .hbm, ⟨95, _⟩ => ⟨S4096x5, .f32⟩
  | .hbm, ⟨96, _⟩ => ⟨S_, .f32⟩
  | .hbm, ⟨97, _⟩ => ⟨S4096, .f32⟩
  | .hbm, ⟨98, _⟩ => ⟨S4096x1, .f32⟩
  | .hbm, ⟨99, _⟩ => ⟨S4096x5, .f32⟩
  | .hbm, ⟨100, _⟩ => ⟨S4096x5, .f32⟩
  | .hbm, ⟨101, _⟩ => ⟨S4096x5, .f32⟩
  | .hbm, ⟨102, _⟩ => ⟨S_, .f32⟩
  | .hbm, ⟨103, _⟩ => ⟨S5, .f32⟩
  | .hbm, ⟨104, _⟩ => ⟨S1x5, .f32⟩
  | .hbm, ⟨105, _⟩ => ⟨S4096x5, .f32⟩
  | .hbm, ⟨106, _⟩ => ⟨S4096x5, .f32⟩
  | .hbm, ⟨107, _⟩ => ⟨S_, .f32⟩
  | .hbm, ⟨108, _⟩ => ⟨S4096, .f32⟩
  | .hbm, ⟨109, _⟩ => ⟨S4096x1, .f32⟩
  | .hbm, ⟨110, _⟩ => ⟨S4096x5, .f32⟩
  | .hbm, ⟨111, _⟩ => ⟨S4096x5, .f32⟩
  | .local _ .vmem, ⟨i, _⟩ => vmemTy i
  | _, _ => ⟨S4096x1024, .f32⟩

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 128 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | ⟨126, _⟩ => true
  | ⟨127, _⟩ => true
  | _ => false

abbrev sig : RefSig :=
  ofTc nBuf bufTy 0 128 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_0 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_1 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_2 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_3 : Ref sig .tc := ⟨.hbm, 87, rfl⟩
abbrev main_v57 : Ref sig .tc := ⟨.hbm, 88, rfl⟩
abbrev main_v58 : Ref sig .tc := ⟨.hbm, 89, rfl⟩
abbrev main_cst_4 : Ref sig .tc := ⟨.hbm, 90, rfl⟩
abbrev main_v59 : Ref sig .tc := ⟨.hbm, 91, rfl⟩
abbrev main_v60 : Ref sig .tc := ⟨.hbm, 92, rfl⟩
abbrev main_cst_5 : Ref sig .tc := ⟨.hbm, 93, rfl⟩
abbrev main_v61 : Ref sig .tc := ⟨.hbm, 94, rfl⟩
abbrev main_v62 : Ref sig .tc := ⟨.hbm, 95, rfl⟩
abbrev main_cst_6 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_7 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_8 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc3_scratch0 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc4_scratch0 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg3_1 : Ref sig .tc := ⟨.vmem, 40, rfl⟩
abbrev cc5_scratch0 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg2_1 : Ref sig .tc := ⟨.vmem, 46, rfl⟩
abbrev cc6_scratch0 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg1_1 : Ref sig .tc := ⟨.vmem, 51, rfl⟩
abbrev cc7_stg2_0 : Ref sig .tc := ⟨.vmem, 52, rfl⟩
abbrev cc7_stg3_0 : Ref sig .tc := ⟨.vmem, 53, rfl⟩
abbrev cc7_stg3_1 : Ref sig .tc := ⟨.vmem, 54, rfl⟩
abbrev cc7_scratch0 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg2_0 : Ref sig .tc := ⟨.vmem, 59, rfl⟩
abbrev cc8_stg2_1 : Ref sig .tc := ⟨.vmem, 60, rfl⟩
abbrev cc8_scratch0 : Ref sig .tc := ⟨.vmem, 61, rfl⟩
abbrev cc9_stg0_0 : Ref sig .tc := ⟨.vmem, 62, rfl⟩
abbrev cc9_stg0_1 : Ref sig .tc := ⟨.vmem, 63, rfl⟩
abbrev cc9_stg1_0 : Ref sig .tc := ⟨.vmem, 64, rfl⟩
abbrev cc9_stg1_1 : Ref sig .tc := ⟨.vmem, 65, rfl⟩
abbrev cc9_stg2_0 : Ref sig .tc := ⟨.vmem, 66, rfl⟩
abbrev cc9_stg2_1 : Ref sig .tc := ⟨.vmem, 67, rfl⟩
abbrev cc9_scratch0 : Ref sig .tc := ⟨.vmem, 68, rfl⟩
abbrev cc10_stg0_0 : Ref sig .tc := ⟨.vmem, 69, rfl⟩
abbrev cc10_stg0_1 : Ref sig .tc := ⟨.vmem, 70, rfl⟩
abbrev cc10_stg1_0 : Ref sig .tc := ⟨.vmem, 71, rfl⟩
abbrev cc10_stg2_0 : Ref sig .tc := ⟨.vmem, 72, rfl⟩
abbrev cc10_stg2_1 : Ref sig .tc := ⟨.vmem, 73, rfl⟩
abbrev cc10_scratch0 : Ref sig .tc := ⟨.vmem, 74, rfl⟩
abbrev cc11_stg0_0 : Ref sig .tc := ⟨.vmem, 75, rfl⟩
abbrev cc11_stg0_1 : Ref sig .tc := ⟨.vmem, 76, rfl⟩
abbrev cc11_stg1_0 : Ref sig .tc := ⟨.vmem, 77, rfl⟩
abbrev cc11_stg1_1 : Ref sig .tc := ⟨.vmem, 78, rfl⟩
abbrev cc11_stg2_0 : Ref sig .tc := ⟨.vmem, 79, rfl⟩
abbrev cc11_stg2_1 : Ref sig .tc := ⟨.vmem, 80, rfl⟩
abbrev cc11_scratch0 : Ref sig .tc := ⟨.vmem, 81, rfl⟩
abbrev cc12_stg0_0 : Ref sig .tc := ⟨.vmem, 82, rfl⟩
abbrev cc12_stg0_1 : Ref sig .tc := ⟨.vmem, 83, rfl⟩
abbrev cc12_stg1_0 : Ref sig .tc := ⟨.vmem, 84, rfl⟩
abbrev cc12_stg2_0 : Ref sig .tc := ⟨.vmem, 85, rfl⟩
abbrev cc12_stg2_1 : Ref sig .tc := ⟨.vmem, 86, rfl⟩
abbrev cc12_scratch0 : Ref sig .tc := ⟨.vmem, 87, rfl⟩
abbrev cc13_stg0_0 : Ref sig .tc := ⟨.vmem, 88, rfl⟩
abbrev cc13_stg0_1 : Ref sig .tc := ⟨.vmem, 89, rfl⟩
abbrev cc13_stg1_0 : Ref sig .tc := ⟨.vmem, 90, rfl⟩
abbrev cc13_stg1_1 : Ref sig .tc := ⟨.vmem, 91, rfl⟩
abbrev cc13_stg2_0 : Ref sig .tc := ⟨.vmem, 92, rfl⟩
abbrev cc13_stg2_1 : Ref sig .tc := ⟨.vmem, 93, rfl⟩
abbrev cc13_scratch0 : Ref sig .tc := ⟨.vmem, 94, rfl⟩
abbrev cc14_stg0_0 : Ref sig .tc := ⟨.vmem, 95, rfl⟩
abbrev cc14_stg0_1 : Ref sig .tc := ⟨.vmem, 96, rfl⟩
abbrev cc14_stg1_0 : Ref sig .tc := ⟨.vmem, 97, rfl⟩
abbrev cc14_stg2_0 : Ref sig .tc := ⟨.vmem, 98, rfl⟩
abbrev cc14_stg3_0 : Ref sig .tc := ⟨.vmem, 99, rfl⟩
abbrev cc14_stg3_1 : Ref sig .tc := ⟨.vmem, 100, rfl⟩
abbrev cc14_scratch0 : Ref sig .tc := ⟨.vmem, 101, rfl⟩
abbrev cc15_stg0_0 : Ref sig .tc := ⟨.vmem, 102, rfl⟩
abbrev cc15_stg0_1 : Ref sig .tc := ⟨.vmem, 103, rfl⟩
abbrev cc15_stg1_0 : Ref sig .tc := ⟨.vmem, 104, rfl⟩
abbrev cc15_stg1_1 : Ref sig .tc := ⟨.vmem, 105, rfl⟩
abbrev cc15_stg2_0 : Ref sig .tc := ⟨.vmem, 106, rfl⟩
abbrev cc15_stg2_1 : Ref sig .tc := ⟨.vmem, 107, rfl⟩
abbrev cc15_scratch0 : Ref sig .tc := ⟨.vmem, 108, rfl⟩
abbrev cc16_stg0_0 : Ref sig .tc := ⟨.vmem, 109, rfl⟩
abbrev cc16_stg0_1 : Ref sig .tc := ⟨.vmem, 110, rfl⟩
abbrev cc16_stg1_0 : Ref sig .tc := ⟨.vmem, 111, rfl⟩
abbrev cc16_stg2_0 : Ref sig .tc := ⟨.vmem, 112, rfl⟩
abbrev cc16_stg3_0 : Ref sig .tc := ⟨.vmem, 113, rfl⟩
abbrev cc16_stg3_1 : Ref sig .tc := ⟨.vmem, 114, rfl⟩
abbrev cc16_scratch0 : Ref sig .tc := ⟨.vmem, 115, rfl⟩
abbrev cc17_stg0_0 : Ref sig .tc := ⟨.vmem, 116, rfl⟩
abbrev cc17_stg0_1 : Ref sig .tc := ⟨.vmem, 117, rfl⟩
abbrev cc17_stg1_0 : Ref sig .tc := ⟨.vmem, 118, rfl⟩
abbrev cc17_stg2_0 : Ref sig .tc := ⟨.vmem, 119, rfl⟩
abbrev cc17_stg2_1 : Ref sig .tc := ⟨.vmem, 120, rfl⟩
abbrev cc17_scratch0 : Ref sig .tc := ⟨.vmem, 121, rfl⟩
abbrev cc18_stg0_0 : Ref sig .tc := ⟨.vmem, 122, rfl⟩
abbrev cc18_stg0_1 : Ref sig .tc := ⟨.vmem, 123, rfl⟩
abbrev cc18_stg1_0 : Ref sig .tc := ⟨.vmem, 124, rfl⟩
abbrev cc18_stg1_1 : Ref sig .tc := ⟨.vmem, 125, rfl⟩
abbrev cc18_stg2_0 : Ref sig .tc := ⟨.vmem, 126, rfl⟩
abbrev cc18_stg2_1 : Ref sig .tc := ⟨.vmem, 127, rfl⟩
abbrev cc18_scratch0 : Ref sig .tc := ⟨.vmem, 128, rfl⟩
abbrev cc19_stg0_0 : Ref sig .tc := ⟨.vmem, 129, rfl⟩
abbrev cc19_stg0_1 : Ref sig .tc := ⟨.vmem, 130, rfl⟩
abbrev cc19_stg1_0 : Ref sig .tc := ⟨.vmem, 131, rfl⟩
abbrev cc19_stg2_0 : Ref sig .tc := ⟨.vmem, 132, rfl⟩
abbrev cc19_stg3_0 : Ref sig .tc := ⟨.vmem, 133, rfl⟩
abbrev cc19_stg3_1 : Ref sig .tc := ⟨.vmem, 134, rfl⟩
abbrev cc19_scratch0 : Ref sig .tc := ⟨.vmem, 135, rfl⟩
abbrev cc20_stg0_0 : Ref sig .tc := ⟨.vmem, 136, rfl⟩
abbrev cc20_stg0_1 : Ref sig .tc := ⟨.vmem, 137, rfl⟩
abbrev cc20_stg1_0 : Ref sig .tc := ⟨.vmem, 138, rfl⟩
abbrev cc20_stg1_1 : Ref sig .tc := ⟨.vmem, 139, rfl⟩
abbrev cc20_stg2_0 : Ref sig .tc := ⟨.vmem, 140, rfl⟩
abbrev cc20_stg2_1 : Ref sig .tc := ⟨.vmem, 141, rfl⟩
abbrev cc20_scratch0 : Ref sig .tc := ⟨.vmem, 142, rfl⟩
abbrev cc21_stg0_0 : Ref sig .tc := ⟨.vmem, 143, rfl⟩
abbrev cc21_stg0_1 : Ref sig .tc := ⟨.vmem, 144, rfl⟩
abbrev cc21_stg1_0 : Ref sig .tc := ⟨.vmem, 145, rfl⟩
abbrev cc21_stg2_0 : Ref sig .tc := ⟨.vmem, 146, rfl⟩
abbrev cc21_stg3_0 : Ref sig .tc := ⟨.vmem, 147, rfl⟩
abbrev cc21_stg3_1 : Ref sig .tc := ⟨.vmem, 148, rfl⟩
abbrev cc21_scratch0 : Ref sig .tc := ⟨.vmem, 149, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem2_1 : DmaSem sig := 40
abbrev cc7_sem0_0 : DmaSem sig := 41
abbrev cc7_sem0_1 : DmaSem sig := 42
abbrev cc7_sem1_0 : DmaSem sig := 43
abbrev cc7_sem1_1 : DmaSem sig := 44
abbrev cc7_sem2_0 : DmaSem sig := 45
abbrev cc7_sem3_0 : DmaSem sig := 46
abbrev cc7_sem3_1 : DmaSem sig := 47
abbrev cc8_sem0_0 : DmaSem sig := 48
abbrev cc8_sem0_1 : DmaSem sig := 49
abbrev cc8_sem1_0 : DmaSem sig := 50
abbrev cc8_sem2_0 : DmaSem sig := 51
abbrev cc8_sem2_1 : DmaSem sig := 52
abbrev cc9_sem0_0 : DmaSem sig := 53
abbrev cc9_sem0_1 : DmaSem sig := 54
abbrev cc9_sem1_0 : DmaSem sig := 55
abbrev cc9_sem1_1 : DmaSem sig := 56
abbrev cc9_sem2_0 : DmaSem sig := 57
abbrev cc9_sem2_1 : DmaSem sig := 58
abbrev cc10_sem0_0 : DmaSem sig := 59
abbrev cc10_sem0_1 : DmaSem sig := 60
abbrev cc10_sem1_0 : DmaSem sig := 61
abbrev cc10_sem2_0 : DmaSem sig := 62
abbrev cc10_sem2_1 : DmaSem sig := 63
abbrev cc11_sem0_0 : DmaSem sig := 64
abbrev cc11_sem0_1 : DmaSem sig := 65
abbrev cc11_sem1_0 : DmaSem sig := 66
abbrev cc11_sem1_1 : DmaSem sig := 67
abbrev cc11_sem2_0 : DmaSem sig := 68
abbrev cc11_sem2_1 : DmaSem sig := 69
abbrev cc12_sem0_0 : DmaSem sig := 70
abbrev cc12_sem0_1 : DmaSem sig := 71
abbrev cc12_sem1_0 : DmaSem sig := 72
abbrev cc12_sem2_0 : DmaSem sig := 73
abbrev cc12_sem2_1 : DmaSem sig := 74
abbrev cc13_sem0_0 : DmaSem sig := 75
abbrev cc13_sem0_1 : DmaSem sig := 76
abbrev cc13_sem1_0 : DmaSem sig := 77
abbrev cc13_sem1_1 : DmaSem sig := 78
abbrev cc13_sem2_0 : DmaSem sig := 79
abbrev cc13_sem2_1 : DmaSem sig := 80
abbrev cc14_sem0_0 : DmaSem sig := 81
abbrev cc14_sem0_1 : DmaSem sig := 82
abbrev cc14_sem1_0 : DmaSem sig := 83
abbrev cc14_sem2_0 : DmaSem sig := 84
abbrev cc14_sem3_0 : DmaSem sig := 85
abbrev cc14_sem3_1 : DmaSem sig := 86
abbrev cc15_sem0_0 : DmaSem sig := 87
abbrev cc15_sem0_1 : DmaSem sig := 88
abbrev cc15_sem1_0 : DmaSem sig := 89
abbrev cc15_sem1_1 : DmaSem sig := 90
abbrev cc15_sem2_0 : DmaSem sig := 91
abbrev cc15_sem2_1 : DmaSem sig := 92
abbrev cc16_sem0_0 : DmaSem sig := 93
abbrev cc16_sem0_1 : DmaSem sig := 94
abbrev cc16_sem1_0 : DmaSem sig := 95
abbrev cc16_sem2_0 : DmaSem sig := 96
abbrev cc16_sem3_0 : DmaSem sig := 97
abbrev cc16_sem3_1 : DmaSem sig := 98
abbrev cc17_sem0_0 : DmaSem sig := 99
abbrev cc17_sem0_1 : DmaSem sig := 100
abbrev cc17_sem1_0 : DmaSem sig := 101
abbrev cc17_sem2_0 : DmaSem sig := 102
abbrev cc17_sem2_1 : DmaSem sig := 103
abbrev cc18_sem0_0 : DmaSem sig := 104
abbrev cc18_sem0_1 : DmaSem sig := 105
abbrev cc18_sem1_0 : DmaSem sig := 106
abbrev cc18_sem1_1 : DmaSem sig := 107
abbrev cc18_sem2_0 : DmaSem sig := 108
abbrev cc18_sem2_1 : DmaSem sig := 109
abbrev cc19_sem0_0 : DmaSem sig := 110
abbrev cc19_sem0_1 : DmaSem sig := 111
abbrev cc19_sem1_0 : DmaSem sig := 112
abbrev cc19_sem2_0 : DmaSem sig := 113
abbrev cc19_sem3_0 : DmaSem sig := 114
abbrev cc19_sem3_1 : DmaSem sig := 115
abbrev cc20_sem0_0 : DmaSem sig := 116
abbrev cc20_sem0_1 : DmaSem sig := 117
abbrev cc20_sem1_0 : DmaSem sig := 118
abbrev cc20_sem1_1 : DmaSem sig := 119
abbrev cc20_sem2_0 : DmaSem sig := 120
abbrev cc20_sem2_1 : DmaSem sig := 121
abbrev cc21_sem0_0 : DmaSem sig := 122
abbrev cc21_sem0_1 : DmaSem sig := 123
abbrev cc21_sem1_0 : DmaSem sig := 124
abbrev cc21_sem2_0 : DmaSem sig := 125
abbrev cc21_sem3_0 : DmaSem sig := 126
abbrev cc21_sem3_1 : DmaSem sig := 127

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x819 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x819 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 1, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x819 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 1 → Memref sig .tc .vmem S1x819 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, true, false]

abbrev stage1_3 : Fin 2 → Memref sig .tc .vmem S1024x819 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![4, 1, 4], ![false, false, false]⟩

def k2_cond2 (i : grid2.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x819 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x819 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![4, 1, 1], ![false, false, false]⟩

def k3_cond2 (i : grid3.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x819 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S819x819 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 1 → Memref sig .tc .vmem S1x819 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, true, false]

abbrev stage3_3 : Fin 2 → Memref sig .tc .vmem S1024x819 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨3, ![4, 1, 1], ![false, false, false]⟩

def k4_cond2 (i : grid4.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x1280 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S1280x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S1024x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![4, 1, 4], ![false, false, false]⟩

def k5_cond2 (i : grid5.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc5_transform_3 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S1024x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 1 → Memref sig .tc .vmem S1x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, true, false]

abbrev stage5_3 : Fin 2 → Memref sig .tc .vmem S1024x1024 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true, false]

abbrev grid6 : Pipeline.Grid := ⟨3, ![4, 1, 1], ![false, false, false]⟩

def k6_cond2 (i : grid6.Coords) : BitVec 1 :=
  let arg2 : BitVec 32 := BitVec.ofNat 32 (i 2).val
  let c0_i32_8 : BitVec 32 := 0#32
  let v14 : BitVec 1 := Scalar.cmpi .eq arg2 c0_i32_8
  let v15 : BitVec 32 := Scalar.extui v14
  let c0_i32_9 : BitVec 32 := 0#32
  let v16 : BitVec 1 := Scalar.cmpi .ne v15 c0_i32_9
  v16

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S1024x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 1 → Memref sig .tc .vmem S1024x819 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true, true]

abbrev stage6_2 : Fin 2 → Memref sig .tc .vmem S1024x819 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![4, 1, 4], ![false, false, false]⟩

def k7_cond2 (i : grid7.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc7_transform_3 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S1024x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S1024x819 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 1 → Memref sig .tc .vmem S1x819 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false, true, false]

abbrev stage7_3 : Fin 2 → Memref sig .tc .vmem S1024x819 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true, false]

abbrev grid8 : Pipeline.Grid := ⟨3, ![4, 1, 1], ![false, false, false]⟩

def k8_cond2 (i : grid8.Coords) : BitVec 1 :=
  let arg2 : BitVec 32 := BitVec.ofNat 32 (i 2).val
  let c0_i32_8 : BitVec 32 := 0#32
  let v14 : BitVec 1 := Scalar.cmpi .eq arg2 c0_i32_8
  let v15 : BitVec 32 := Scalar.extui v14
  let c0_i32_9 : BitVec 32 := 0#32
  let v16 : BitVec 1 := Scalar.cmpi .ne v15 c0_i32_9
  v16

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S1024x819 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 1 → Memref sig .tc .vmem S819x819 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, true, true]

abbrev stage8_2 : Fin 2 → Memref sig .tc .vmem S1024x819 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev grid9 : Pipeline.Grid := ⟨3, ![4, 4, 1], ![false, false, false]⟩

def k9_cond2 (i : grid9.Coords) : BitVec 1 :=
  let arg2 : BitVec 32 := BitVec.ofNat 32 (i 2).val
  let c0_i32_8 : BitVec 32 := 0#32
  let v14 : BitVec 1 := Scalar.cmpi .eq arg2 c0_i32_8
  let v15 : BitVec 32 := Scalar.extui v14
  let c0_i32_9 : BitVec 32 := 0#32
  let v16 : BitVec 1 := Scalar.cmpi .ne v15 c0_i32_9
  v16

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc9_transform_2 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage9_0 : Fin 2 → Memref sig .tc .vmem S1024x819 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false, true]

abbrev stage9_1 : Fin 2 → Memref sig .tc .vmem S1024x819 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true, true]

abbrev stage9_2 : Fin 2 → Memref sig .tc .vmem S1024x1024 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true, false]

abbrev grid10 : Pipeline.Grid := ⟨3, ![4, 1, 1], ![false, false, false]⟩

def k10_cond2 (i : grid10.Coords) : BitVec 1 :=
  let arg2 : BitVec 32 := BitVec.ofNat 32 (i 2).val
  let c0_i32_8 : BitVec 32 := 0#32
  let v14 : BitVec 1 := Scalar.cmpi .eq arg2 c0_i32_8
  let v15 : BitVec 32 := Scalar.extui v14
  let c0_i32_9 : BitVec 32 := 0#32
  let v16 : BitVec 1 := Scalar.cmpi .ne v15 c0_i32_9
  v16

def cc10_transform_0 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc10_transform_1 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc10_transform_2 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage10_0 : Fin 2 → Memref sig .tc .vmem S1024x819 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false, true]

abbrev stage10_1 : Fin 1 → Memref sig .tc .vmem S819x819 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false, true, true]

abbrev stage10_2 : Fin 2 → Memref sig .tc .vmem S1024x819 .bf16 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true, false]

abbrev grid11 : Pipeline.Grid := ⟨3, ![4, 4, 1], ![false, false, false]⟩

def k11_cond2 (i : grid11.Coords) : BitVec 1 :=
  let arg2 : BitVec 32 := BitVec.ofNat 32 (i 2).val
  let c0_i32_8 : BitVec 32 := 0#32
  let v14 : BitVec 1 := Scalar.cmpi .eq arg2 c0_i32_8
  let v15 : BitVec 32 := Scalar.extui v14
  let c0_i32_9 : BitVec 32 := 0#32
  let v16 : BitVec 1 := Scalar.cmpi .ne v15 c0_i32_9
  v16

def cc11_transform_0 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc11_transform_1 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc11_transform_2 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage11_0 : Fin 2 → Memref sig .tc .vmem S1024x819 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, false, true]

abbrev stage11_1 : Fin 2 → Memref sig .tc .vmem S1024x819 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![false, true, true]

abbrev stage11_2 : Fin 2 → Memref sig .tc .vmem S1024x1024 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, true, false]

abbrev grid12 : Pipeline.Grid := ⟨3, ![4, 1, 1], ![false, false, false]⟩

def k12_cond2 (i : grid12.Coords) : BitVec 1 :=
  let arg2 : BitVec 32 := BitVec.ofNat 32 (i 2).val
  let c0_i32_8 : BitVec 32 := 0#32
  let v14 : BitVec 1 := Scalar.cmpi .eq arg2 c0_i32_8
  let v15 : BitVec 32 := Scalar.extui v14
  let c0_i32_9 : BitVec 32 := 0#32
  let v16 : BitVec 1 := Scalar.cmpi .ne v15 c0_i32_9
  v16

def cc12_transform_0 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc12_transform_1 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc12_transform_2 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage12_0 : Fin 2 → Memref sig .tc .vmem S1024x819 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true, false, true]

abbrev stage12_1 : Fin 1 → Memref sig .tc .vmem S819x819 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false, true, true]

abbrev stage12_2 : Fin 2 → Memref sig .tc .vmem S1024x819 .bf16 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true, true, false]

abbrev grid13 : Pipeline.Grid := ⟨3, ![4, 1, 4], ![false, false, false]⟩

def k13_cond2 (i : grid13.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc13_transform_0 (i : grid13.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc13_transform_1 (i : grid13.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc13_transform_2 (i : grid13.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage13_0 : Fin 2 → Memref sig .tc .vmem S1024x1024 .bf16 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true, false, true]

abbrev stage13_1 : Fin 2 → Memref sig .tc .vmem S1024x819 .bf16 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![false, true, true]

abbrev stage13_2 : Fin 2 → Memref sig .tc .vmem S1024x819 .bf16 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true, true, false]

abbrev grid14 : Pipeline.Grid := ⟨3, ![4, 1, 1], ![false, false, false]⟩

def k14_cond2 (i : grid14.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc14_transform_0 (i : grid14.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc14_transform_1 (i : grid14.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc14_transform_2 (i : grid14.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc14_transform_3 (i : grid14.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage14_0 : Fin 2 → Memref sig .tc .vmem S1024x819 .bf16 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true, false, true]

abbrev stage14_1 : Fin 1 → Memref sig .tc .vmem S819x819 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false, true, true]

abbrev stage14_2 : Fin 1 → Memref sig .tc .vmem S1x819 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false, true, false]

abbrev stage14_3 : Fin 2 → Memref sig .tc .vmem S1024x819 .f32 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true, true, false]

abbrev grid15 : Pipeline.Grid := ⟨3, ![4, 1, 4], ![false, false, false]⟩

def k15_cond2 (i : grid15.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc15_transform_0 (i : grid15.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc15_transform_1 (i : grid15.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc15_transform_2 (i : grid15.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage15_0 : Fin 2 → Memref sig .tc .vmem S1024x1024 .bf16 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true, false, true]

abbrev stage15_1 : Fin 2 → Memref sig .tc .vmem S1024x819 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![false, true, true]

abbrev stage15_2 : Fin 2 → Memref sig .tc .vmem S1024x819 .bf16 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true, true, false]

abbrev grid16 : Pipeline.Grid := ⟨3, ![4, 1, 1], ![false, false, false]⟩

def k16_cond2 (i : grid16.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc16_transform_0 (i : grid16.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc16_transform_1 (i : grid16.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc16_transform_2 (i : grid16.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc16_transform_3 (i : grid16.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage16_0 : Fin 2 → Memref sig .tc .vmem S1024x819 .bf16 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true, false, true]

abbrev stage16_1 : Fin 1 → Memref sig .tc .vmem S819x1024 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false, true, true]

abbrev stage16_2 : Fin 1 → Memref sig .tc .vmem S1x1024 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false, true, false]

abbrev stage16_3 : Fin 2 → Memref sig .tc .vmem S1024x1024 .f32 := fun | 0 => Memref.whole cc16_stg3_0 | 1 => Memref.whole cc16_stg3_1 | ⟨_ + 2, h⟩ => absurd h (Nat.not_lt.2 (Nat.le_add_left _ _))
abbrev sem16_3 : Fin 2 → DmaSem sig := fun | 0 => cc16_sem3_0 | 1 => cc16_sem3_1 | ⟨_ + 2, h⟩ => absurd h (Nat.not_lt.2 (Nat.le_add_left _ _))
abbrev reads16_3 : Fin grid16.rank → Bool := ![true, true, false]

abbrev grid17 : Pipeline.Grid := ⟨3, ![4, 1, 1], ![false, false, false]⟩

def k17_cond2 (i : grid17.Coords) : BitVec 1 :=
  let arg2 : BitVec 32 := BitVec.ofNat 32 (i 2).val
  let c0_i32_8 : BitVec 32 := 0#32
  let v14 : BitVec 1 := Scalar.cmpi .eq arg2 c0_i32_8
  let v15 : BitVec 32 := Scalar.extui v14
  let c0_i32_9 : BitVec 32 := 0#32
  let v16 : BitVec 1 := Scalar.cmpi .ne v15 c0_i32_9
  v16

def cc17_transform_0 (i : grid17.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc17_transform_1 (i : grid17.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc17_transform_2 (i : grid17.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage17_0 : Fin 2 → Memref sig .tc .vmem S1024x819 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true, false, true]

abbrev stage17_1 : Fin 1 → Memref sig .tc .vmem S819x819 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false, true, true]

abbrev stage17_2 : Fin 2 → Memref sig .tc .vmem S1024x819 .bf16 := fun | 0 => Memref.whole cc17_stg2_0 | 1 => Memref.whole cc17_stg2_1 | ⟨_ + 2, h⟩ => absurd h (Nat.not_lt.2 (Nat.le_add_left _ _))
abbrev sem17_2 : Fin 2 → DmaSem sig := fun | 0 => cc17_sem2_0 | 1 => cc17_sem2_1 | ⟨_ + 2, h⟩ => absurd h (Nat.not_lt.2 (Nat.le_add_left _ _))
abbrev reads17_2 : Fin grid17.rank → Bool := ![true, true, false]

abbrev grid18 : Pipeline.Grid := ⟨3, ![4, 1, 4], ![false, false, false]⟩

def k18_cond2 (i : grid18.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc18_transform_0 (i : grid18.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc18_transform_1 (i : grid18.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc18_transform_2 (i : grid18.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage18_0 : Fin 2 → Memref sig .tc .vmem S1024x1024 .bf16 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true, false, true]

abbrev stage18_1 : Fin 2 → Memref sig .tc .vmem S1024x819 .bf16 := fun | 0 => Memref.whole cc18_stg1_0 | 1 => Memref.whole cc18_stg1_1 | ⟨_ + 2, h⟩ => absurd h (Nat.not_lt.2 (Nat.le_add_left _ _))
abbrev sem18_1 : Fin 2 → DmaSem sig := fun | 0 => cc18_sem1_0 | 1 => cc18_sem1_1 | ⟨_ + 2, h⟩ => absurd h (Nat.not_lt.2 (Nat.le_add_left _ _))
abbrev reads18_1 : Fin grid18.rank → Bool := ![false, true, true]

abbrev stage18_2 : Fin 2 → Memref sig .tc .vmem S1024x819 .bf16 := fun | 0 => Memref.whole cc18_stg2_0 | 1 => Memref.whole cc18_stg2_1 | ⟨_ + 2, h⟩ => absurd h (Nat.not_lt.2 (Nat.le_add_left _ _))
abbrev sem18_2 : Fin 2 → DmaSem sig := fun | 0 => cc18_sem2_0 | 1 => cc18_sem2_1 | ⟨_ + 2, h⟩ => absurd h (Nat.not_lt.2 (Nat.le_add_left _ _))
abbrev reads18_2 : Fin grid18.rank → Bool := ![true, true, false]

abbrev grid19 : Pipeline.Grid := ⟨3, ![4, 1, 1], ![false, false, false]⟩

def k19_cond2 (i : grid19.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc19_transform_0 (i : grid19.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc19_transform_1 (i : grid19.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc19_transform_2 (i : grid19.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc19_transform_3 (i : grid19.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage19_0 : Fin 2 → Memref sig .tc .vmem S1024x819 .bf16 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true, false, true]

abbrev stage19_1 : Fin 1 → Memref sig .tc .vmem S819x1024 .f32 := fun | 0 => Memref.whole cc19_stg1_0 | ⟨_ + 1, h⟩ => absurd h (Nat.not_lt.2 (Nat.le_add_left _ _))
abbrev sem19_1 : Fin 1 → DmaSem sig := fun | 0 => cc19_sem1_0 | ⟨_ + 1, h⟩ => absurd h (Nat.not_lt.2 (Nat.le_add_left _ _))
abbrev reads19_1 : Fin grid19.rank → Bool := ![false, true, true]

abbrev stage19_2 : Fin 1 → Memref sig .tc .vmem S1x1024 .f32 := fun | 0 => Memref.whole cc19_stg2_0 | ⟨_ + 1, h⟩ => absurd h (Nat.not_lt.2 (Nat.le_add_left _ _))
abbrev sem19_2 : Fin 1 → DmaSem sig := fun | 0 => cc19_sem2_0 | ⟨_ + 1, h⟩ => absurd h (Nat.not_lt.2 (Nat.le_add_left _ _))
abbrev reads19_2 : Fin grid19.rank → Bool := ![false, true, false]

abbrev stage19_3 : Fin 2 → Memref sig .tc .vmem S1024x1024 .f32 := fun | 0 => Memref.whole cc19_stg3_0 | 1 => Memref.whole cc19_stg3_1 | ⟨_ + 2, h⟩ => absurd h (Nat.not_lt.2 (Nat.le_add_left _ _))
abbrev sem19_3 : Fin 2 → DmaSem sig := fun | 0 => cc19_sem3_0 | 1 => cc19_sem3_1 | ⟨_ + 2, h⟩ => absurd h (Nat.not_lt.2 (Nat.le_add_left _ _))
abbrev reads19_3 : Fin grid19.rank → Bool := ![true, true, false]

abbrev grid20 : Pipeline.Grid := ⟨3, ![4, 1, 4], ![false, false, false]⟩

def k20_cond2 (i : grid20.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc20_transform_0 (i : grid20.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc20_transform_1 (i : grid20.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc20_transform_2 (i : grid20.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage20_0 : Fin 2 → Memref sig .tc .vmem S1024x1024 .bf16 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true, false, true]

abbrev stage20_1 : Fin 2 → Memref sig .tc .vmem S1024x1024 .f32 := fun | 0 => Memref.whole cc20_stg1_0 | 1 => Memref.whole cc20_stg1_1 | ⟨_ + 2, h⟩ => absurd h (Nat.not_lt.2 (Nat.le_add_left _ _))
abbrev sem20_1 : Fin 2 → DmaSem sig := fun | 0 => cc20_sem1_0 | 1 => cc20_sem1_1 | ⟨_ + 2, h⟩ => absurd h (Nat.not_lt.2 (Nat.le_add_left _ _))
abbrev reads20_1 : Fin grid20.rank → Bool := ![false, true, true]

abbrev stage20_2 : Fin 2 → Memref sig .tc .vmem S1024x1024 .bf16 := fun | 0 => Memref.whole cc20_stg2_0 | 1 => Memref.whole cc20_stg2_1 | ⟨_ + 2, h⟩ => absurd h (Nat.not_lt.2 (Nat.le_add_left _ _))
abbrev sem20_2 : Fin 2 → DmaSem sig := fun | 0 => cc20_sem2_0 | 1 => cc20_sem2_1 | ⟨_ + 2, h⟩ => absurd h (Nat.not_lt.2 (Nat.le_add_left _ _))
abbrev reads20_2 : Fin grid20.rank → Bool := ![true, true, false]

abbrev grid21 : Pipeline.Grid := ⟨3, ![4, 1, 1], ![false, false, false]⟩

def k21_cond2 (i : grid21.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc21_transform_0 (i : grid21.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc21_transform_1 (i : grid21.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc21_transform_2 (i : grid21.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc21_transform_3 (i : grid21.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage21_0 : Fin 2 → Memref sig .tc .vmem S1024x1024 .bf16 := fun | 0 => Memref.whole cc21_stg0_0 | 1 => Memref.whole cc21_stg0_1 | ⟨_ + 2, h⟩ => absurd h (Nat.not_lt.2 (Nat.le_add_left _ _))
abbrev sem21_0 : Fin 2 → DmaSem sig := fun | 0 => cc21_sem0_0 | 1 => cc21_sem0_1 | ⟨_ + 2, h⟩ => absurd h (Nat.not_lt.2 (Nat.le_add_left _ _))
abbrev reads21_0 : Fin grid21.rank → Bool := ![true, false, true]

abbrev stage21_1 : Fin 1 → Memref sig .tc .vmem S1024x1280 .f32 := fun | 0 => Memref.whole cc21_stg1_0 | ⟨_ + 1, h⟩ => absurd h (Nat.not_lt.2 (Nat.le_add_left _ _))
abbrev sem21_1 : Fin 1 → DmaSem sig := fun | 0 => cc21_sem1_0 | ⟨_ + 1, h⟩ => absurd h (Nat.not_lt.2 (Nat.le_add_left _ _))
abbrev reads21_1 : Fin grid21.rank → Bool := ![false, true, true]

abbrev stage21_2 : Fin 1 → Memref sig .tc .vmem S1x1280 .f32 := fun | 0 => Memref.whole cc21_stg2_0 | ⟨_ + 1, h⟩ => absurd h (Nat.not_lt.2 (Nat.le_add_left _ _))
abbrev sem21_2 : Fin 1 → DmaSem sig := fun | 0 => cc21_sem2_0 | ⟨_ + 1, h⟩ => absurd h (Nat.not_lt.2 (Nat.le_add_left _ _))
abbrev reads21_2 : Fin grid21.rank → Bool := ![false, true, false]

abbrev stage21_3 : Fin 2 → Memref sig .tc .vmem S1024x1280 .f32 := fun | 0 => Memref.whole cc21_stg3_0 | 1 => Memref.whole cc21_stg3_1 | ⟨_ + 2, h⟩ => absurd h (Nat.not_lt.2 (Nat.le_add_left _ _))
abbrev sem21_3 : Fin 2 → DmaSem sig := fun | 0 => cc21_sem3_0 | 1 => cc21_sem3_1 | ⟨_ + 2, h⟩ => absurd h (Nat.not_lt.2 (Nat.le_add_left _ _))
abbrev reads21_3 : Fin grid21.rank → Bool := ![true, true, false]

class Facts₀ : Prop where
  bitsLt_bf16_f32 : FTy.bits .bf16 < FTy.bits .f32
  inb_S1024x819_S1024x819_0_0 : ∀ a, (![0, 0] : Fin 2 → Nat) a + S1024x819.size a ≤ S1024x819.size a
  h_S1024x819 : 0 < S1024x819.numel
  shapeCasts_S1024x819_S1024x819 : S1024x819.ShapeCasts S1024x819
  inb_S1024x1024_S1024x1024_0_0 : ∀ a, (![0, 0] : Fin 2 → Nat) a + S1024x1024.size a ≤ S1024x1024.size a
  h_S1024x1024 : 0 < S1024x1024.numel
  packedbf16_S1024x819_S1024x819_0_0 : (Rect.unit (s := S1024x819) ![0, 0] S1024x819.size inb_S1024x819_S1024x819_0_0).PackedRows (EltTy.packing .bf16)
  shapeCasts_S819_S1x819 : S819.ShapeCasts S1x819
  shapeCasts_S1024x1024_S1024x1024 : S1024x1024.ShapeCasts S1024x1024
  inb_S1x819_S1x819_0_0 : ∀ a, (![0, 0] : Fin 2 → Nat) a + S1x819.size a ≤ S1x819.size a
  h_S1x819 : 0 < S1x819.numel
  shapeCasts_S1x819_S1x819 : S1x819.ShapeCasts S1x819
  broadcasts_S1x819_S1024x819 : S1x819.Broadcasts S1024x819
  inb_S819x819_S819x819_0_0 : ∀ a, (![0, 0] : Fin 2 → Nat) a + S819x819.size a ≤ S819x819.size a
  h_S819x819 : 0 < S819x819.numel
  inb_S1024x1280_S1024x1280_0_0 : ∀ a, (![0, 0] : Fin 2 → Nat) a + S1024x1280.size a ≤ S1024x1280.size a
  h_S1024x1280 : 0 < S1024x1280.numel
  inb_S1280x1024_S1280x1024_0_0 : ∀ a, (![0, 0] : Fin 2 → Nat) a + S1280x1024.size a ≤ S1280x1024.size a
  h_S1280x1024 : 0 < S1280x1024.numel
  packedbf16_S1024x1024_S1024x1024_0_0 : (Rect.unit (s := S1024x1024) ![0, 0] S1024x1024.size inb_S1024x1024_S1024x1024_0_0).PackedRows (EltTy.packing .bf16)
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  slices_S4096x2_S4096x1_0_0 : S4096x2.Slices ![0, 0] S4096x1
  bcast_S4096x1_S4096x819_0_1 : S4096x1.BroadcastsInDim S4096x819 (![0, 1] : Fin 2 → Fin S4096x819.rank)
  slices_S4096x2_S4096x1_0_1 : S4096x2.Slices ![0, 1] S4096x1
  reducesTo_S4096x2_S4096_d1 : S4096x2.ReducesTo [1] S4096
  h_S_ : 0 < S_.numel
  bcast_S4096_S4096x1_0 : S4096.BroadcastsInDim S4096x1 (![0] : Fin 1 → Fin S4096x1.rank)
  inb_S819x1024_S819x1024_0_0 : ∀ a, (![0, 0] : Fin 2 → Nat) a + S819x1024.size a ≤ S819x1024.size a
  h_S819x1024 : 0 < S819x1024.numel
  shapeCasts_S1280_S1x1280 : S1280.ShapeCasts S1x1280
  shapeCasts_S1024x1280_S1024x1280 : S1024x1280.ShapeCasts S1024x1280
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S1024x1280 : S1x1280.Broadcasts S1024x1280
  reducesTo_S4096x819_S4096_d1 : S4096x819.ReducesTo [1] S4096
  reducesTo_S5x819_S5_d1 : S5x819.ReducesTo [1] S5
  transposes_S5x819_S819x5_1_0 : S5x819.Transposes [1, 0] S819x5
  bcast_S_S4096x5 : S_.BroadcastsInDim S4096x5 (![] : Fin 0 → Fin S4096x5.rank)
  bcast_S4096x1_S4096x5_0_1 : S4096x1.BroadcastsInDim S4096x5 (![0, 1] : Fin 2 → Fin S4096x5.rank)
  bcast_S5_S1x5_1 : S5.BroadcastsInDim S1x5 (![1] : Fin 1 → Fin S1x5.rank)
  bcast_S1x5_S4096x5_0_1 : S1x5.BroadcastsInDim S4096x5 (![0, 1] : Fin 2 → Fin S4096x5.rank)
  reducesTo_S4096x5_S4096_d1 : S4096x5.ReducesTo [1] S4096
  reducesTo_S4096x5_S5_d0 : S4096x5.ReducesTo [0] S5
  dot_S1024x1024_S1024x819_S1024x819_1_0_0_1_n_n_wf : DotDims.WF S1024x1024 S1024x819 S1024x819 [1] [0] [0] [1] [] []
  dot_S1024x819_S819x819_S1024x819_1_0_0_1_n_n_wf : DotDims.WF S1024x819 S819x819 S1024x819 [1] [0] [0] [1] [] []
  dot_S1024x1280_S1280x1024_S1024x1024_1_0_0_1_n_n_wf : DotDims.WF S1024x1280 S1280x1024 S1024x1024 [1] [0] [0] [1] [] []
  dot_S1024x1024_S1024x1024_S1024x1024_1_0_0_1_n_n_wf : DotDims.WF S1024x1024 S1024x1024 S1024x1024 [1] [0] [0] [1] [] []
  dot_S1024x819_S1024x819_S1024x1024_1_1_0_0_n_n_wf : DotDims.WF S1024x819 S1024x819 S1024x1024 [1] [1] [0] [0] [] []
  dot_S1024x819_S819x1024_S1024x1024_1_0_0_1_n_n_wf : DotDims.WF S1024x819 S819x1024 S1024x1024 [1] [0] [0] [1] [] []
  dot_S1024x1024_S1024x1280_S1024x1280_1_0_0_1_n_n_wf : DotDims.WF S1024x1024 S1024x1280 S1024x1280 [1] [0] [0] [1] [] []
  dot_S4096x819_S819x5_S4096x5_1_0_0_1_n_n_wf : DotDims.WF S4096x819 S819x5 S4096x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x819.size a ≤ S1024x819.size a
  hwx0_1 : ∀ i : grid0.Coords, EltTy.bits .f32 = 32 ∨ (Rect.block (s := S1024x819) S1024x819.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x819.size a ≤ S4096x819.size a
  hwx0_2 : ∀ i : grid0.Coords, EltTy.bits .bf16 = 32 ∨ (Rect.block (s := S4096x819) S1024x819.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x4096.size a
  hwx1_0 : ∀ i : grid1.Coords, EltTy.bits .bf16 = 32 ∨ (Rect.block (s := S4096x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x819.size a ≤ S4096x819.size a
  hwx1_1 : ∀ i : grid1.Coords, EltTy.bits .bf16 = 32 ∨ (Rect.block (s := S4096x819) S1024x819.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x819.size a ≤ S1x819.size a
  hwx1_2 : ∀ i : grid1.Coords, EltTy.bits .f32 = 32 ∨ (Rect.block (s := S1x819) S1x819.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x819.size a ≤ S4096x819.size a
  hwx1_3 : ∀ i : grid1.Coords, EltTy.bits .f32 = 32 ∨ (Rect.block (s := S4096x819) S1024x819.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x4096.size a
  hwx2_0 : ∀ i : grid2.Coords, EltTy.bits .bf16 = 32 ∨ (Rect.block (s := S4096x4096) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x819.size a ≤ S4096x819.size a
  hwx2_1 : ∀ i : grid2.Coords, EltTy.bits .f32 = 32 ∨ (Rect.block (s := S4096x819) S1024x819.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x819.size a ≤ S4096x819.size a
  hwx2_2 : ∀ i : grid2.Coords, EltTy.bits .bf16 = 32 ∨ (Rect.block (s := S4096x819) S1024x819.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x819.size a ≤ S4096x819.size a
  hwx3_0 : ∀ i : grid3.Coords, EltTy.bits .bf16 = 32 ∨ (Rect.block (s := S4096x819) S1024x819.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S819x819.size a ≤ S819x819.size a
  hwx3_1 : ∀ i : grid3.Coords, EltTy.bits .f32 = 32 ∨ (Rect.block (s := S819x819) S819x819.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x819.size a ≤ S1x819.size a
  hwx3_2 : ∀ i : grid3.Coords, EltTy.bits .f32 = 32 ∨ (Rect.block (s := S1x819) S1x819.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x819.size a ≤ S4096x819.size a
  hwx3_3 : ∀ i : grid3.Coords, EltTy.bits .f32 = 32 ∨ (Rect.block (s := S4096x819) S1024x819.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1280.size a ≤ S4096x1280.size a
  hwx4_0 : ∀ i : grid4.Coords, EltTy.bits .f32 = 32 ∨ (Rect.block (s := S4096x1280) S1024x1280.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1280x1024.size a ≤ S1280x1024.size a
  hwx4_1 : ∀ i : grid4.Coords, EltTy.bits .f32 = 32 ∨ (Rect.block (s := S1280x1024) S1280x1024.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x1024.size a ≤ S4096x1024.size a
  hwx4_2 : ∀ i : grid4.Coords, EltTy.bits .bf16 = 32 ∨ (Rect.block (s := S4096x1024) S1024x1024.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x1024.size a ≤ S4096x4096.size a
  hwx5_0 : ∀ i : grid5.Coords, EltTy.bits .bf16 = 32 ∨ (Rect.block (s := S4096x4096) S1024x1024.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x1024.size a ≤ S4096x1024.size a
  hwx5_1 : ∀ i : grid5.Coords, EltTy.bits .bf16 = 32 ∨ (Rect.block (s := S4096x1024) S1024x1024.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1024.size a ≤ S1x1024.size a
  hwx5_2 : ∀ i : grid5.Coords, EltTy.bits .f32 = 32 ∨ (Rect.block (s := S1x1024) S1x1024.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1024x1024.size a ≤ S4096x1024.size a
  hwx5_3 : ∀ i : grid5.Coords, EltTy.bits .f32 = 32 ∨ (Rect.block (s := S4096x1024) S1024x1024.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x1024.size a ≤ S4096x1024.size a
  hwx6_0 : ∀ i : grid6.Coords, EltTy.bits .f32 = 32 ∨ (Rect.block (s := S4096x1024) S1024x1024.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1024x819.size a ≤ S1024x819.size a
  hwx6_1 : ∀ i : grid6.Coords, EltTy.bits .f32 = 32 ∨ (Rect.block (s := S1024x819) S1024x819.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1024x819.size a ≤ S4096x819.size a
  hwx6_2 : ∀ i : grid6.Coords, EltTy.bits .bf16 = 32 ∨ (Rect.block (s := S4096x819) S1024x819.size (cc6_transform_2 i) (hinb6_2 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1024x1024.size a ≤ S4096x4096.size a
  hwx7_0 : ∀ i : grid7.Coords, EltTy.bits .bf16 = 32 ∨ (Rect.block (s := S4096x4096) S1024x1024.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1024x819.size a ≤ S4096x819.size a
  hwx7_1 : ∀ i : grid7.Coords, EltTy.bits .bf16 = 32 ∨ (Rect.block (s := S4096x819) S1024x819.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x819.size a ≤ S1x819.size a
  hwx7_2 : ∀ i : grid7.Coords, EltTy.bits .f32 = 32 ∨ (Rect.block (s := S1x819) S1x819.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1024x819.size a ≤ S4096x819.size a
  hwx7_3 : ∀ i : grid7.Coords, EltTy.bits .f32 = 32 ∨ (Rect.block (s := S4096x819) S1024x819.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1024x819.size a ≤ S4096x819.size a
  hwx8_0 : ∀ i : grid8.Coords, EltTy.bits .f32 = 32 ∨ (Rect.block (s := S4096x819) S1024x819.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S819x819.size a ≤ S819x819.size a
  hwx8_1 : ∀ i : grid8.Coords, EltTy.bits .f32 = 32 ∨ (Rect.block (s := S819x819) S819x819.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1024x819.size a ≤ S4096x819.size a
  hwx8_2 : ∀ i : grid8.Coords, EltTy.bits .bf16 = 32 ∨ (Rect.block (s := S4096x819) S1024x819.size (cc8_transform_2 i) (hinb8_2 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1024x819.size a ≤ S4096x819.size a
  hwx9_0 : ∀ i : grid9.Coords, EltTy.bits .bf16 = 32 ∨ (Rect.block (s := S4096x819) S1024x819.size (cc9_transform_0 i) (hinb9_0 i)).WholeWords (EltTy.packing .bf16)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S1024x819.size a ≤ S4096x819.size a
  hwx9_1 : ∀ i : grid9.Coords, EltTy.bits .f32 = 32 ∨ (Rect.block (s := S4096x819) S1024x819.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S1024x1024.size a ≤ S4096x4096.size a
  hwx9_2 : ∀ i : grid9.Coords, EltTy.bits .f32 = 32 ∨ (Rect.block (s := S4096x4096) S1024x1024.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S1024x819.size a ≤ S4096x819.size a
  hwx10_0 : ∀ i : grid10.Coords, EltTy.bits .f32 = 32 ∨ (Rect.block (s := S4096x819) S1024x819.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S819x819.size a ≤ S819x819.size a
  hwx10_1 : ∀ i : grid10.Coords, EltTy.bits .f32 = 32 ∨ (Rect.block (s := S819x819) S819x819.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S1024x819.size a ≤ S4096x819.size a
  hwx10_2 : ∀ i : grid10.Coords, EltTy.bits .bf16 = 32 ∨ (Rect.block (s := S4096x819) S1024x819.size (cc10_transform_2 i) (hinb10_2 i)).WholeWords (EltTy.packing .bf16)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S1024x819.size a ≤ S4096x819.size a
  hwx11_0 : ∀ i : grid11.Coords, EltTy.bits .bf16 = 32 ∨ (Rect.block (s := S4096x819) S1024x819.size (cc11_transform_0 i) (hinb11_0 i)).WholeWords (EltTy.packing .bf16)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S1024x819.size a ≤ S4096x819.size a
  hwx11_1 : ∀ i : grid11.Coords, EltTy.bits .f32 = 32 ∨ (Rect.block (s := S4096x819) S1024x819.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S1024x1024.size a ≤ S4096x4096.size a
  hwx11_2 : ∀ i : grid11.Coords, EltTy.bits .f32 = 32 ∨ (Rect.block (s := S4096x4096) S1024x1024.size (cc11_transform_2 i) (hinb11_2 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S1024x819.size a ≤ S4096x819.size a
  hwx12_0 : ∀ i : grid12.Coords, EltTy.bits .f32 = 32 ∨ (Rect.block (s := S4096x819) S1024x819.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S819x819.size a ≤ S819x819.size a
  hwx12_1 : ∀ i : grid12.Coords, EltTy.bits .f32 = 32 ∨ (Rect.block (s := S819x819) S819x819.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S1024x819.size a ≤ S4096x819.size a
  hwx12_2 : ∀ i : grid12.Coords, EltTy.bits .bf16 = 32 ∨ (Rect.block (s := S4096x819) S1024x819.size (cc12_transform_2 i) (hinb12_2 i)).WholeWords (EltTy.packing .bf16)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S1024x1024.size a ≤ S4096x4096.size a
  hwx13_0 : ∀ i : grid13.Coords, EltTy.bits .bf16 = 32 ∨ (Rect.block (s := S4096x4096) S1024x1024.size (cc13_transform_0 i) (hinb13_0 i)).WholeWords (EltTy.packing .bf16)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S1024x819.size a ≤ S4096x819.size a
  hwx13_1 : ∀ i : grid13.Coords, EltTy.bits .bf16 = 32 ∨ (Rect.block (s := S4096x819) S1024x819.size (cc13_transform_1 i) (hinb13_1 i)).WholeWords (EltTy.packing .bf16)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S1024x819.size a ≤ S4096x819.size a
  hwx13_2 : ∀ i : grid13.Coords, EltTy.bits .bf16 = 32 ∨ (Rect.block (s := S4096x819) S1024x819.size (cc13_transform_2 i) (hinb13_2 i)).WholeWords (EltTy.packing .bf16)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S1024x819.size a ≤ S4096x819.size a
  hwx14_0 : ∀ i : grid14.Coords, EltTy.bits .bf16 = 32 ∨ (Rect.block (s := S4096x819) S1024x819.size (cc14_transform_0 i) (hinb14_0 i)).WholeWords (EltTy.packing .bf16)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S819x819.size a ≤ S819x819.size a
  hwx14_1 : ∀ i : grid14.Coords, EltTy.bits .f32 = 32 ∨ (Rect.block (s := S819x819) S819x819.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x819.size a ≤ S1x819.size a
  hwx14_2 : ∀ i : grid14.Coords, EltTy.bits .f32 = 32 ∨ (Rect.block (s := S1x819) S1x819.size (cc14_transform_2 i) (hinb14_2 i)).WholeWords (EltTy.packing .f32)
  hstage14_3 : ∀ j, (stage14_3 j).IsWhole
  nbuf14_3 : grid14.bufCount reads14_3 false = 2
  hreads14_3 : ∀ i i' : grid14.Coords, (∀ a, reads14_3 a = true → i a = i' a) → cc14_transform_3 i = cc14_transform_3 i'
  hinb14_3 : ∀ (i : grid14.Coords) a, (cc14_transform_3 i a + 1) * S1024x819.size a ≤ S4096x819.size a
  hwx14_3 : ∀ i : grid14.Coords, EltTy.bits .f32 = 32 ∨ (Rect.block (s := S4096x819) S1024x819.size (cc14_transform_3 i) (hinb14_3 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S1024x1024.size a ≤ S4096x4096.size a
  hwx15_0 : ∀ i : grid15.Coords, EltTy.bits .bf16 = 32 ∨ (Rect.block (s := S4096x4096) S1024x1024.size (cc15_transform_0 i) (hinb15_0 i)).WholeWords (EltTy.packing .bf16)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S1024x819.size a ≤ S4096x819.size a
  hwx15_1 : ∀ i : grid15.Coords, EltTy.bits .f32 = 32 ∨ (Rect.block (s := S4096x819) S1024x819.size (cc15_transform_1 i) (hinb15_1 i)).WholeWords (EltTy.packing .f32)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S1024x819.size a ≤ S4096x819.size a
  hwx15_2 : ∀ i : grid15.Coords, EltTy.bits .bf16 = 32 ∨ (Rect.block (s := S4096x819) S1024x819.size (cc15_transform_2 i) (hinb15_2 i)).WholeWords (EltTy.packing .bf16)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S1024x819.size a ≤ S4096x819.size a
  hwx16_0 : ∀ i : grid16.Coords, EltTy.bits .bf16 = 32 ∨ (Rect.block (s := S4096x819) S1024x819.size (cc16_transform_0 i) (hinb16_0 i)).WholeWords (EltTy.packing .bf16)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S819x1024.size a ≤ S819x1024.size a
  hwx16_1 : ∀ i : grid16.Coords, EltTy.bits .f32 = 32 ∨ (Rect.block (s := S819x1024) S819x1024.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1x1024.size a ≤ S1x1024.size a
  hwx16_2 : ∀ i : grid16.Coords, EltTy.bits .f32 = 32 ∨ (Rect.block (s := S1x1024) S1x1024.size (cc16_transform_2 i) (hinb16_2 i)).WholeWords (EltTy.packing .f32)
  hstage16_3 : ∀ j, (stage16_3 j).IsWhole
  nbuf16_3 : grid16.bufCount reads16_3 false = 2
  hreads16_3 : ∀ i i' : grid16.Coords, (∀ a, reads16_3 a = true → i a = i' a) → cc16_transform_3 i = cc16_transform_3 i'
  hinb16_3 : ∀ (i : grid16.Coords) a, (cc16_transform_3 i a + 1) * S1024x1024.size a ≤ S4096x1024.size a
  hwx16_3 : ∀ i : grid16.Coords, EltTy.bits .f32 = 32 ∨ (Rect.block (s := S4096x1024) S1024x1024.size (cc16_transform_3 i) (hinb16_3 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S1024x819.size a ≤ S4096x819.size a
  hwx17_0 : ∀ i : grid17.Coords, EltTy.bits .f32 = 32 ∨ (Rect.block (s := S4096x819) S1024x819.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S819x819.size a ≤ S819x819.size a
  hwx17_1 : ∀ i : grid17.Coords, EltTy.bits .f32 = 32 ∨ (Rect.block (s := S819x819) S819x819.size (cc17_transform_1 i) (hinb17_1 i)).WholeWords (EltTy.packing .f32)
  hstage17_2 : ∀ j, (stage17_2 j).IsWhole
  nbuf17_2 : grid17.bufCount reads17_2 false = 2
  hreads17_2 : ∀ i i' : grid17.Coords, (∀ a, reads17_2 a = true → i a = i' a) → cc17_transform_2 i = cc17_transform_2 i'
  hinb17_2 : ∀ (i : grid17.Coords) a, (cc17_transform_2 i a + 1) * S1024x819.size a ≤ S4096x819.size a
  hwx17_2 : ∀ i : grid17.Coords, EltTy.bits .bf16 = 32 ∨ (Rect.block (s := S4096x819) S1024x819.size (cc17_transform_2 i) (hinb17_2 i)).WholeWords (EltTy.packing .bf16)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S1024x1024.size a ≤ S4096x4096.size a
  hwx18_0 : ∀ i : grid18.Coords, EltTy.bits .bf16 = 32 ∨ (Rect.block (s := S4096x4096) S1024x1024.size (cc18_transform_0 i) (hinb18_0 i)).WholeWords (EltTy.packing .bf16)
  hstage18_1 : ∀ j, (stage18_1 j).IsWhole
  nbuf18_1 : grid18.bufCount reads18_1 false = 2
  hreads18_1 : ∀ i i' : grid18.Coords, (∀ a, reads18_1 a = true → i a = i' a) → cc18_transform_1 i = cc18_transform_1 i'
  hinb18_1 : ∀ (i : grid18.Coords) a, (cc18_transform_1 i a + 1) * S1024x819.size a ≤ S4096x819.size a
  hwx18_1 : ∀ i : grid18.Coords, EltTy.bits .bf16 = 32 ∨ (Rect.block (s := S4096x819) S1024x819.size (cc18_transform_1 i) (hinb18_1 i)).WholeWords (EltTy.packing .bf16)
  hstage18_2 : ∀ j, (stage18_2 j).IsWhole
  nbuf18_2 : grid18.bufCount reads18_2 false = 2
  hreads18_2 : ∀ i i' : grid18.Coords, (∀ a, reads18_2 a = true → i a = i' a) → cc18_transform_2 i = cc18_transform_2 i'
  hinb18_2 : ∀ (i : grid18.Coords) a, (cc18_transform_2 i a + 1) * S1024x819.size a ≤ S4096x819.size a
  hwx18_2 : ∀ i : grid18.Coords, EltTy.bits .bf16 = 32 ∨ (Rect.block (s := S4096x819) S1024x819.size (cc18_transform_2 i) (hinb18_2 i)).WholeWords (EltTy.packing .bf16)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S1024x819.size a ≤ S4096x819.size a
  hwx19_0 : ∀ i : grid19.Coords, EltTy.bits .bf16 = 32 ∨ (Rect.block (s := S4096x819) S1024x819.size (cc19_transform_0 i) (hinb19_0 i)).WholeWords (EltTy.packing .bf16)
  hstage19_1 : ∀ j, (stage19_1 j).IsWhole
  nbuf19_1 : grid19.bufCount reads19_1 true = 1
  hreads19_1 : ∀ i i' : grid19.Coords, (∀ a, reads19_1 a = true → i a = i' a) → cc19_transform_1 i = cc19_transform_1 i'
  hinb19_1 : ∀ (i : grid19.Coords) a, (cc19_transform_1 i a + 1) * S819x1024.size a ≤ S819x1024.size a
  hwx19_1 : ∀ i : grid19.Coords, EltTy.bits .f32 = 32 ∨ (Rect.block (s := S819x1024) S819x1024.size (cc19_transform_1 i) (hinb19_1 i)).WholeWords (EltTy.packing .f32)
  hstage19_2 : ∀ j, (stage19_2 j).IsWhole
  nbuf19_2 : grid19.bufCount reads19_2 true = 1
  hreads19_2 : ∀ i i' : grid19.Coords, (∀ a, reads19_2 a = true → i a = i' a) → cc19_transform_2 i = cc19_transform_2 i'
  hinb19_2 : ∀ (i : grid19.Coords) a, (cc19_transform_2 i a + 1) * S1x1024.size a ≤ S1x1024.size a
  hwx19_2 : ∀ i : grid19.Coords, EltTy.bits .f32 = 32 ∨ (Rect.block (s := S1x1024) S1x1024.size (cc19_transform_2 i) (hinb19_2 i)).WholeWords (EltTy.packing .f32)
  hstage19_3 : ∀ j, (stage19_3 j).IsWhole
  nbuf19_3 : grid19.bufCount reads19_3 false = 2
  hreads19_3 : ∀ i i' : grid19.Coords, (∀ a, reads19_3 a = true → i a = i' a) → cc19_transform_3 i = cc19_transform_3 i'
  hinb19_3 : ∀ (i : grid19.Coords) a, (cc19_transform_3 i a + 1) * S1024x1024.size a ≤ S4096x1024.size a
  hwx19_3 : ∀ i : grid19.Coords, EltTy.bits .f32 = 32 ∨ (Rect.block (s := S4096x1024) S1024x1024.size (cc19_transform_3 i) (hinb19_3 i)).WholeWords (EltTy.packing .f32)
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S1024x1024.size a ≤ S4096x4096.size a
  hwx20_0 : ∀ i : grid20.Coords, EltTy.bits .bf16 = 32 ∨ (Rect.block (s := S4096x4096) S1024x1024.size (cc20_transform_0 i) (hinb20_0 i)).WholeWords (EltTy.packing .bf16)
  hstage20_1 : ∀ j, (stage20_1 j).IsWhole
  nbuf20_1 : grid20.bufCount reads20_1 false = 2
  hreads20_1 : ∀ i i' : grid20.Coords, (∀ a, reads20_1 a = true → i a = i' a) → cc20_transform_1 i = cc20_transform_1 i'
  hinb20_1 : ∀ (i : grid20.Coords) a, (cc20_transform_1 i a + 1) * S1024x1024.size a ≤ S4096x1024.size a
  hwx20_1 : ∀ i : grid20.Coords, EltTy.bits .f32 = 32 ∨ (Rect.block (s := S4096x1024) S1024x1024.size (cc20_transform_1 i) (hinb20_1 i)).WholeWords (EltTy.packing .f32)
  hstage20_2 : ∀ j, (stage20_2 j).IsWhole
  nbuf20_2 : grid20.bufCount reads20_2 false = 2
  hreads20_2 : ∀ i i' : grid20.Coords, (∀ a, reads20_2 a = true → i a = i' a) → cc20_transform_2 i = cc20_transform_2 i'
  hinb20_2 : ∀ (i : grid20.Coords) a, (cc20_transform_2 i a + 1) * S1024x1024.size a ≤ S4096x1024.size a
  hwx20_2 : ∀ i : grid20.Coords, EltTy.bits .bf16 = 32 ∨ (Rect.block (s := S4096x1024) S1024x1024.size (cc20_transform_2 i) (hinb20_2 i)).WholeWords (EltTy.packing .bf16)
  hrank21 : 0 < grid21.rank
  hstage21_0 : ∀ j, (stage21_0 j).IsWhole
  nbuf21_0 : grid21.bufCount reads21_0 false = 2
  hreads21_0 : ∀ i i' : grid21.Coords, (∀ a, reads21_0 a = true → i a = i' a) → cc21_transform_0 i = cc21_transform_0 i'
  hinb21_0 : ∀ (i : grid21.Coords) a, (cc21_transform_0 i a + 1) * S1024x1024.size a ≤ S4096x1024.size a
  hwx21_0 : ∀ i : grid21.Coords, EltTy.bits .bf16 = 32 ∨ (Rect.block (s := S4096x1024) S1024x1024.size (cc21_transform_0 i) (hinb21_0 i)).WholeWords (EltTy.packing .bf16)
  hstage21_1 : ∀ j, (stage21_1 j).IsWhole
  nbuf21_1 : grid21.bufCount reads21_1 true = 1
  hreads21_1 : ∀ i i' : grid21.Coords, (∀ a, reads21_1 a = true → i a = i' a) → cc21_transform_1 i = cc21_transform_1 i'
  hinb21_1 : ∀ (i : grid21.Coords) a, (cc21_transform_1 i a + 1) * S1024x1280.size a ≤ S1024x1280.size a
  hwx21_1 : ∀ i : grid21.Coords, EltTy.bits .f32 = 32 ∨ (Rect.block (s := S1024x1280) S1024x1280.size (cc21_transform_1 i) (hinb21_1 i)).WholeWords (EltTy.packing .f32)
  hstage21_2 : ∀ j, (stage21_2 j).IsWhole
  nbuf21_2 : grid21.bufCount reads21_2 true = 1
  hreads21_2 : ∀ i i' : grid21.Coords, (∀ a, reads21_2 a = true → i a = i' a) → cc21_transform_2 i = cc21_transform_2 i'
  hinb21_2 : ∀ (i : grid21.Coords) a, (cc21_transform_2 i a + 1) * S1x1280.size a ≤ S1x1280.size a
  hwx21_2 : ∀ i : grid21.Coords, EltTy.bits .f32 = 32 ∨ (Rect.block (s := S1x1280) S1x1280.size (cc21_transform_2 i) (hinb21_2 i)).WholeWords (EltTy.packing .f32)
  hstage21_3 : ∀ j, (stage21_3 j).IsWhole
  nbuf21_3 : grid21.bufCount reads21_3 false = 2
  hreads21_3 : ∀ i i' : grid21.Coords, (∀ a, reads21_3 a = true → i a = i' a) → cc21_transform_3 i = cc21_transform_3 i'
  hinb21_3 : ∀ (i : grid21.Coords) a, (cc21_transform_3 i a + 1) * S1024x1280.size a ≤ S4096x1280.size a
  hwx21_3 : ∀ i : grid21.Coords, EltTy.bits .f32 = 32 ∨ (Rect.block (s := S4096x1280) S1024x1280.size (cc21_transform_3 i) (hinb21_3 i)).WholeWords (EltTy.packing .f32)

variable [Facts₀]

def dot_S1024x1024_S1024x819_S1024x819_1_0_0_1_n_n : DotDims S1024x1024 S1024x819 S1024x819 where
  lhsContracting := [1]
  rhsContracting := [0]
  lhsNonContracting := [0]
  rhsNonContracting := [1]
  lhsBatch := []
  rhsBatch := []
  wf := dot_S1024x1024_S1024x819_S1024x819_1_0_0_1_n_n_wf
def dot_S1024x819_S819x819_S1024x819_1_0_0_1_n_n : DotDims S1024x819 S819x819 S1024x819 where
  lhsContracting := [1]
  rhsContracting := [0]
  lhsNonContracting := [0]
  rhsNonContracting := [1]
  lhsBatch := []
  rhsBatch := []
  wf := dot_S1024x819_S819x819_S1024x819_1_0_0_1_n_n_wf
def dot_S1024x1280_S1280x1024_S1024x1024_1_0_0_1_n_n : DotDims S1024x1280 S1280x1024 S1024x1024 where
  lhsContracting := [1]
  rhsContracting := [0]
  lhsNonContracting := [0]
  rhsNonContracting := [1]
  lhsBatch := []
  rhsBatch := []
  wf := dot_S1024x1280_S1280x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x819_S1024x819_S1024x1024_1_1_0_0_n_n : DotDims S1024x819 S1024x819 S1024x1024 where
  lhsContracting := [1]
  rhsContracting := [1]
  lhsNonContracting := [0]
  rhsNonContracting := [0]
  lhsBatch := []
  rhsBatch := []
  wf := dot_S1024x819_S1024x819_S1024x1024_1_1_0_0_n_n_wf
def dot_S1024x819_S819x1024_S1024x1024_1_0_0_1_n_n : DotDims S1024x819 S819x1024 S1024x1024 where
  lhsContracting := [1]
  rhsContracting := [0]
  lhsNonContracting := [0]
  rhsNonContracting := [1]
  lhsBatch := []
  rhsBatch := []
  wf := dot_S1024x819_S819x1024_S1024x1024_1_0_0_1_n_n_wf
def dot_S1024x1024_S1024x1280_S1024x1280_1_0_0_1_n_n : DotDims S1024x1024 S1024x1280 S1024x1280 where
  lhsContracting := [1]
  rhsContracting := [0]
  lhsNonContracting := [0]
  rhsNonContracting := [1]
  lhsBatch := []
  rhsBatch := []
  wf := dot_S1024x1024_S1024x1280_S1024x1280_1_0_0_1_n_n_wf
def dot_S4096x819_S819x5_S4096x5_1_0_0_1_n_n : DotDims S4096x819 S819x5 S4096x5 where
  lhsContracting := [1]
  rhsContracting := [0]
  lhsNonContracting := [0]
  rhsNonContracting := [1]
  lhsBatch := []
  rhsBatch := []
  wf := dot_S4096x819_S819x5_S4096x5_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S1024x819.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x819.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x819.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x819.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1024x819.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v0) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S1024x819.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S1024x819.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v5) S1024x819.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S819x819.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v6) S1x819.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v7) S1024x819.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_arg1) S1024x1280.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S1280x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v8) S1024x1024.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v1) S1024x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v8) S1024x1024.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v9) S1x1024.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v10) S1024x1024.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

abbrev win6_0 : Pipeline.Window sig grid6 :=
  Pipeline.Window.ofSpec (Memref.whole main_v10) S1024x1024.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg11) S1024x819.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v11) S1024x819.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev idle6 : Fin 3 → grid6.Coords → Bool := fun | 0 => fun _ => false | 1 => fun _ => false | 2 => fun i => !(k6_cond2 i == 1#1) | ⟨_ + 3, h⟩ => absurd h (Nat.not_lt.2 (Nat.le_add_left _ _))

abbrev win7_0 : Pipeline.Window sig grid7 :=
  Pipeline.Window.ofSpec (Memref.whole main_v1) S1024x1024.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v11) S1024x819.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v12) S1x819.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v13) S1024x819.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev idle7 : Fin 4 → grid7.Coords → Bool := fun | 0 => fun _ => false | 1 => fun _ => false | 2 => fun _ => false | 3 => fun i => !(k7_cond2 i == 1#1) | ⟨_ + 4, h⟩ => absurd h (Nat.not_lt.2 (Nat.le_add_left _ _))

abbrev win8_0 : Pipeline.Window sig grid8 :=
  Pipeline.Window.ofSpec (Memref.whole main_v24) S1024x819.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg21) S819x819.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v25) S1024x819.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev idle8 : Fin 3 → grid8.Coords → Bool := fun | 0 => fun _ => false | 1 => fun _ => false | 2 => fun i => !(k8_cond2 i == 1#1) | ⟨_ + 3, h⟩ => absurd h (Nat.not_lt.2 (Nat.le_add_left _ _))

abbrev win9_0 : Pipeline.Window sig grid9 :=
  Pipeline.Window.ofSpec (Memref.whole main_v25) S1024x819.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v24) S1024x819.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v26) S1024x1024.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev idle9 : Fin 3 → grid9.Coords → Bool := fun | 0 => fun _ => false | 1 => fun _ => false | 2 => fun i => !(k9_cond2 i == 1#1) | ⟨_ + 3, h⟩ => absurd h (Nat.not_lt.2 (Nat.le_add_left _ _))

abbrev win10_0 : Pipeline.Window sig grid10 :=
  Pipeline.Window.ofSpec (Memref.whole main_v24) S1024x819.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg22) S819x819.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v27) S1024x819.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev idle10 : Fin 3 → grid10.Coords → Bool := fun | 0 => fun _ => false | 1 => fun _ => false | 2 => fun i => !(k10_cond2 i == 1#1) | ⟨_ + 3, h⟩ => absurd h (Nat.not_lt.2 (Nat.le_add_left _ _))

abbrev win11_0 : Pipeline.Window sig grid11 :=
  Pipeline.Window.ofSpec (Memref.whole main_v27) S1024x819.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v24) S1024x819.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v28) S1024x1024.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev idle11 : Fin 3 → grid11.Coords → Bool := fun | 0 => fun _ => false | 1 => fun _ => false | 2 => fun i => !(k11_cond2 i == 1#1) | ⟨_ + 3, h⟩ => absurd h (Nat.not_lt.2 (Nat.le_add_left _ _))

abbrev win12_0 : Pipeline.Window sig grid12 :=
  Pipeline.Window.ofSpec (Memref.whole main_v24) S1024x819.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_arg23) S819x819.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v29) S1024x819.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev idle12 : Fin 3 → grid12.Coords → Bool := fun | 0 => fun _ => false | 1 => fun _ => false | 2 => fun i => !(k12_cond2 i == 1#1) | ⟨_ + 3, h⟩ => absurd h (Nat.not_lt.2 (Nat.le_add_left _ _))

abbrev win13_0 : Pipeline.Window sig grid13 :=
  Pipeline.Window.ofSpec (Memref.whole main_v0) S1024x1024.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v29) S1024x819.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v30) S1024x819.size cc13_transform_2 reads13_2 true false 2 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev idle13 : Fin 3 → grid13.Coords → Bool := fun | 0 => fun _ => false | 1 => fun _ => false | 2 => fun i => !(k13_cond2 i == 1#1) | ⟨_ + 3, h⟩ => absurd h (Nat.not_lt.2 (Nat.le_add_left _ _))

abbrev win14_0 : Pipeline.Window sig grid14 :=
  Pipeline.Window.ofSpec (Memref.whole main_v30) S1024x819.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_arg13) S819x819.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v31) S1x819.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v32) S1024x819.size cc14_transform_3 reads14_3 true false 2 stage14_3 sem14_3
    hrank14 hreads14_3 hinb14_3 nbuf14_3 (Memref.isWhole_whole _) hwx14_3 hstage14_3

abbrev win14 : Fin 4 → Pipeline.Window sig grid14 := fun | 0 => win14_0 | 1 => win14_1 | 2 => win14_2 | 3 => win14_3 | ⟨_ + 4, h⟩ => absurd h (Nat.not_lt.2 (Nat.le_add_left _ _))
abbrev spec14 : Fin 4 → Pipeline.WinSpec sig grid14.rank := fun w => (win14 w).toWinSpec

abbrev idle14 : Fin 4 → grid14.Coords → Bool := fun | 0 => fun _ => false | 1 => fun _ => false | 2 => fun _ => false | 3 => fun i => !(k14_cond2 i == 1#1) | ⟨_ + 4, h⟩ => absurd h (Nat.not_lt.2 (Nat.le_add_left _ _))

abbrev win15_0 : Pipeline.Window sig grid15 :=
  Pipeline.Window.ofSpec (Memref.whole main_v0) S1024x1024.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v32) S1024x819.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_v33) S1024x819.size cc15_transform_2 reads15_2 true false 2 stage15_2 sem15_2
    hrank15 hreads15_2 hinb15_2 nbuf15_2 (Memref.isWhole_whole _) hwx15_2 hstage15_2

abbrev win15 : Fin 3 → Pipeline.Window sig grid15 := fun | 0 => win15_0 | 1 => win15_1 | 2 => win15_2 | ⟨_ + 3, h⟩ => absurd h (Nat.not_lt.2 (Nat.le_add_left _ _))
abbrev spec15 : Fin 3 → Pipeline.WinSpec sig grid15.rank := fun w => (win15 w).toWinSpec

abbrev idle15 : Fin 3 → grid15.Coords → Bool := fun | 0 => fun _ => false | 1 => fun _ => false | 2 => fun i => !(k15_cond2 i == 1#1) | ⟨_ + 3, h⟩ => absurd h (Nat.not_lt.2 (Nat.le_add_left _ _))

abbrev win16_0 : Pipeline.Window sig grid16 :=
  Pipeline.Window.ofSpec (Memref.whole main_v33) S1024x819.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_arg15) S819x1024.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v34) S1x1024.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v35) S1024x1024.size cc16_transform_3 reads16_3 true false 2 stage16_3 sem16_3
    hrank16 hreads16_3 hinb16_3 nbuf16_3 (Memref.isWhole_whole _) hwx16_3 hstage16_3

abbrev win16 : Fin 4 → Pipeline.Window sig grid16 := fun | 0 => win16_0 | 1 => win16_1 | 2 => win16_2 | 3 => win16_3 | ⟨_ + 4, h⟩ => absurd h (Nat.not_lt.2 (Nat.le_add_left _ _))
abbrev spec16 : Fin 4 → Pipeline.WinSpec sig grid16.rank := fun w => (win16 w).toWinSpec

abbrev idle16 : Fin 4 → grid16.Coords → Bool := fun | 0 => fun _ => false | 1 => fun _ => false | 2 => fun _ => false | 3 => fun i => !(k16_cond2 i == 1#1) | ⟨_ + 4, h⟩ => absurd h (Nat.not_lt.2 (Nat.le_add_left _ _))

abbrev win17_0 : Pipeline.Window sig grid17 :=
  Pipeline.Window.ofSpec (Memref.whole main_v24) S1024x819.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_arg24) S819x819.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v36) S1024x819.size cc17_transform_2 reads17_2 true false 2 stage17_2 sem17_2
    hrank17 hreads17_2 hinb17_2 nbuf17_2 (Memref.isWhole_whole _) hwx17_2 hstage17_2

abbrev win17 : Fin 3 → Pipeline.Window sig grid17 := fun | 0 => win17_0 | 1 => win17_1 | 2 => win17_2 | ⟨_ + 3, h⟩ => absurd h (Nat.not_lt.2 (Nat.le_add_left _ _))
abbrev spec17 : Fin 3 → Pipeline.WinSpec sig grid17.rank := fun w => (win17 w).toWinSpec

abbrev idle17 : Fin 3 → grid17.Coords → Bool := fun | 0 => fun _ => false | 1 => fun _ => false | 2 => fun i => !(k17_cond2 i == 1#1) | ⟨_ + 3, h⟩ => absurd h (Nat.not_lt.2 (Nat.le_add_left _ _))

abbrev win18_0 : Pipeline.Window sig grid18 :=
  Pipeline.Window.ofSpec (Memref.whole main_v1) S1024x1024.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v36) S1024x819.size cc18_transform_1 reads18_1 false false 2 stage18_1 sem18_1
    hrank18 hreads18_1 hinb18_1 nbuf18_1 (Memref.isWhole_whole _) hwx18_1 hstage18_1

abbrev win18_2 : Pipeline.Window sig grid18 :=
  Pipeline.Window.ofSpec (Memref.whole main_v37) S1024x819.size cc18_transform_2 reads18_2 true false 2 stage18_2 sem18_2
    hrank18 hreads18_2 hinb18_2 nbuf18_2 (Memref.isWhole_whole _) hwx18_2 hstage18_2

abbrev win18 : Fin 3 → Pipeline.Window sig grid18 := fun | 0 => win18_0 | 1 => win18_1 | 2 => win18_2 | ⟨_ + 3, h⟩ => absurd h (Nat.not_lt.2 (Nat.le_add_left _ _))
abbrev spec18 : Fin 3 → Pipeline.WinSpec sig grid18.rank := fun w => (win18 w).toWinSpec

abbrev idle18 : Fin 3 → grid18.Coords → Bool := fun | 0 => fun _ => false | 1 => fun _ => false | 2 => fun i => !(k18_cond2 i == 1#1) | ⟨_ + 3, h⟩ => absurd h (Nat.not_lt.2 (Nat.le_add_left _ _))

abbrev win19_0 : Pipeline.Window sig grid19 :=
  Pipeline.Window.ofSpec (Memref.whole main_v37) S1024x819.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_arg17) S819x1024.size cc19_transform_1 reads19_1 false true 1 stage19_1 sem19_1
    hrank19 hreads19_1 hinb19_1 nbuf19_1 (Memref.isWhole_whole _) hwx19_1 hstage19_1

abbrev win19_2 : Pipeline.Window sig grid19 :=
  Pipeline.Window.ofSpec (Memref.whole main_v38) S1x1024.size cc19_transform_2 reads19_2 false true 1 stage19_2 sem19_2
    hrank19 hreads19_2 hinb19_2 nbuf19_2 (Memref.isWhole_whole _) hwx19_2 hstage19_2

abbrev win19_3 : Pipeline.Window sig grid19 :=
  Pipeline.Window.ofSpec (Memref.whole main_v39) S1024x1024.size cc19_transform_3 reads19_3 true false 2 stage19_3 sem19_3
    hrank19 hreads19_3 hinb19_3 nbuf19_3 (Memref.isWhole_whole _) hwx19_3 hstage19_3

abbrev win19 : Fin 4 → Pipeline.Window sig grid19 := fun | 0 => win19_0 | 1 => win19_1 | 2 => win19_2 | 3 => win19_3 | ⟨_ + 4, h⟩ => absurd h (Nat.not_lt.2 (Nat.le_add_left _ _))
abbrev spec19 : Fin 4 → Pipeline.WinSpec sig grid19.rank := fun w => (win19 w).toWinSpec

abbrev idle19 : Fin 4 → grid19.Coords → Bool := fun | 0 => fun _ => false | 1 => fun _ => false | 2 => fun _ => false | 3 => fun i => !(k19_cond2 i == 1#1) | ⟨_ + 4, h⟩ => absurd h (Nat.not_lt.2 (Nat.le_add_left _ _))

abbrev win20_0 : Pipeline.Window sig grid20 :=
  Pipeline.Window.ofSpec (Memref.whole main_v1) S1024x1024.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_v39) S1024x1024.size cc20_transform_1 reads20_1 false false 2 stage20_1 sem20_1
    hrank20 hreads20_1 hinb20_1 nbuf20_1 (Memref.isWhole_whole _) hwx20_1 hstage20_1

abbrev win20_2 : Pipeline.Window sig grid20 :=
  Pipeline.Window.ofSpec (Memref.whole main_v40) S1024x1024.size cc20_transform_2 reads20_2 true false 2 stage20_2 sem20_2
    hrank20 hreads20_2 hinb20_2 nbuf20_2 (Memref.isWhole_whole _) hwx20_2 hstage20_2

abbrev win20 : Fin 3 → Pipeline.Window sig grid20 := fun | 0 => win20_0 | 1 => win20_1 | 2 => win20_2 | ⟨_ + 3, h⟩ => absurd h (Nat.not_lt.2 (Nat.le_add_left _ _))
abbrev spec20 : Fin 3 → Pipeline.WinSpec sig grid20.rank := fun w => (win20 w).toWinSpec

abbrev idle20 : Fin 3 → grid20.Coords → Bool := fun | 0 => fun _ => false | 1 => fun _ => false | 2 => fun i => !(k20_cond2 i == 1#1) | ⟨_ + 3, h⟩ => absurd h (Nat.not_lt.2 (Nat.le_add_left _ _))

abbrev win21_0 : Pipeline.Window sig grid21 :=
  Pipeline.Window.ofSpec (Memref.whole main_v40) S1024x1024.size cc21_transform_0 reads21_0 false false 2 stage21_0 sem21_0
    hrank21 hreads21_0 hinb21_0 nbuf21_0 (Memref.isWhole_whole _) hwx21_0 hstage21_0

abbrev win21_1 : Pipeline.Window sig grid21 :=
  Pipeline.Window.ofSpec (Memref.whole main_arg19) S1024x1280.size cc21_transform_1 reads21_1 false true 1 stage21_1 sem21_1
    hrank21 hreads21_1 hinb21_1 nbuf21_1 (Memref.isWhole_whole _) hwx21_1 hstage21_1

abbrev win21_2 : Pipeline.Window sig grid21 :=
  Pipeline.Window.ofSpec (Memref.whole main_v41) S1x1280.size cc21_transform_2 reads21_2 false true 1 stage21_2 sem21_2
    hrank21 hreads21_2 hinb21_2 nbuf21_2 (Memref.isWhole_whole _) hwx21_2 hstage21_2

abbrev win21_3 : Pipeline.Window sig grid21 :=
  Pipeline.Window.ofSpec (Memref.whole main_v42) S1024x1280.size cc21_transform_3 reads21_3 true false 2 stage21_3 sem21_3
    hrank21 hreads21_3 hinb21_3 nbuf21_3 (Memref.isWhole_whole _) hwx21_3 hstage21_3

abbrev win21 : Fin 4 → Pipeline.Window sig grid21 := fun | 0 => win21_0 | 1 => win21_1 | 2 => win21_2 | 3 => win21_3 | ⟨_ + 4, h⟩ => absurd h (Nat.not_lt.2 (Nat.le_add_left _ _))
abbrev spec21 : Fin 4 → Pipeline.WinSpec sig grid21.rank := fun w => (win21 w).toWinSpec

abbrev idle21 : Fin 4 → grid21.Coords → Bool := fun | 0 => fun _ => false | 1 => fun _ => false | 2 => fun _ => false | 3 => fun i => !(k21_cond2 i == 1#1) | ⟨_ + 4, h⟩ => absurd h (Nat.not_lt.2 (Nat.le_add_left _ _))

class Facts : Prop extends Facts₀ where

variable [Facts]
-- ==== ReferenceIdeal.lean ====
abbrev S4096x1024 : Shape := ⟨2, ![4096, 1024]⟩
abbrev S4096x1280 : Shape := ⟨2, ![4096, 1280]⟩
abbrev S4096x2 : Shape := ⟨2, ![4096, 2]⟩
abbrev S4096x4096 : Shape := ⟨2, ![4096, 4096]⟩
abbrev S1024x819 : Shape := ⟨2, ![1024, 819]⟩
abbrev S819 : Shape := ⟨1, ![819]⟩
abbrev S819x819 : Shape := ⟨2, ![819, 819]⟩
abbrev S1280x1024 : Shape := ⟨2, ![1280, 1024]⟩
abbrev S1024 : Shape := ⟨1, ![1024]⟩
abbrev S819x1024 : Shape := ⟨2, ![819, 1024]⟩
abbrev S1024x1280 : Shape := ⟨2, ![1024, 1280]⟩
abbrev S1280 : Shape := ⟨1, ![1280]⟩
abbrev S5x819 : Shape := ⟨2, ![5, 819]⟩
abbrev S4096x819 : Shape := ⟨2, ![4096, 819]⟩
abbrev S1x819 : Shape := ⟨2, ![1, 819]⟩
abbrev S1x1024 : Shape := ⟨2, ![1, 1024]⟩
abbrev S4096x1 : Shape := ⟨2, ![4096, 1]⟩
abbrev S_ : Shape := ⟨0, ![]⟩
abbrev S4096 : Shape := ⟨1, ![4096]⟩
abbrev S819x4096 : Shape := ⟨2, ![819, 4096]⟩
abbrev S1x1280 : Shape := ⟨2, ![1, 1280]⟩
abbrev S4096x1x819 : Shape := ⟨3, ![4096, 1, 819]⟩
abbrev S1x5x819 : Shape := ⟨3, ![1, 5, 819]⟩
abbrev S4096x5x819 : Shape := ⟨3, ![4096, 5, 819]⟩
abbrev S4096x5 : Shape := ⟨2, ![4096, 5]⟩
abbrev S5 : Shape := ⟨1, ![5]⟩
abbrev S1x5 : Shape := ⟨2, ![1, 5]⟩

abbrev nBuf : Space → Nat
  | .hbm => 142
  | .vmem => 0
  | .smem => 0
  | _ => 0

abbrev hbmTy0_0 (i : Nat) : BufTy := match i % 128 with
  | 0 => ⟨S4096x1024, .f32⟩
  | 1 => ⟨S4096x1280, .f32⟩
  | 2 => ⟨S4096x2, .f32⟩
  | 3 => ⟨S4096x4096, .f32⟩
  | 4 => ⟨S4096x4096, .f32⟩
  | 5 => ⟨S1024x819, .f32⟩
  | 6 => ⟨S819, .f32⟩
  | 7 => ⟨S819x819, .f32⟩
  | 8 => ⟨S819, .f32⟩
  | 9 => ⟨S1280x1024, .f32⟩
  | 10 => ⟨S1024, .f32⟩
  | 11 => ⟨S1024x819, .f32⟩
  | 12 => ⟨S819, .f32⟩
  | 13 => ⟨S819x819, .f32⟩
  | 14 => ⟨S819, .f32⟩
  | 15 => ⟨S819x1024, .f32⟩
  | 16 => ⟨S1024, .f32⟩
  | 17 => ⟨S819x1024, .f32⟩
  | 18 => ⟨S1024, .f32⟩
  | 19 => ⟨S1024x1280, .f32⟩
  | 20 => ⟨S1280, .f32⟩
  | 21 => ⟨S819x819, .f32⟩
  | 22 => ⟨S819x819, .f32⟩
  | 23 => ⟨S819x819, .f32⟩
  | 24 => ⟨S819x819, .f32⟩
  | 25 => ⟨S5x819, .f32⟩
  | 26 => ⟨S4096x1024, .f32⟩
  | 27 => ⟨S4096x819, .f32⟩
  | 28 => ⟨S1x819, .f32⟩
  | 29 => ⟨S4096x819, .f32⟩
  | 30 => ⟨S4096x819, .f32⟩
  | 31 => ⟨S4096x819, .f32⟩
  | 32 => ⟨S4096x819, .f32⟩
  | 33 => ⟨S4096x819, .f32⟩
  | 34 => ⟨S1x819, .f32⟩
  | 35 => ⟨S4096x819, .f32⟩
  | 36 => ⟨S4096x819, .f32⟩
  | 37 => ⟨S4096x819, .f32⟩
  | 38 => ⟨S4096x1280, .f32⟩
  | 39 => ⟨S4096x1024, .f32⟩
  | 40 => ⟨S1x1024, .f32⟩
  | 41 => ⟨S4096x1024, .f32⟩
  | 42 => ⟨S4096x1024, .f32⟩
  | 43 => ⟨S4096x1024, .f32⟩
  | 44 => ⟨S4096x1024, .f32⟩
  | 45 => ⟨S4096x819, .f32⟩
  | 46 => ⟨S1x819, .f32⟩
  | 47 => ⟨S4096x819, .f32⟩
  | 48 => ⟨S4096x819, .f32⟩
  | 49 => ⟨S4096x819, .f32⟩
  | 50 => ⟨S4096x1, .f32⟩
  | 51 => ⟨S4096x819, .f32⟩
  | 52 => ⟨S4096x819, .f32⟩
  | 53 => ⟨S4096x1, .f32⟩
  | 54 => ⟨S4096x819, .f32⟩
  | 55 => ⟨S4096x819, .f32⟩
  | 56 => ⟨S4096x819, .f32⟩
  | 57 => ⟨S_, .f32⟩
  | 58 => ⟨S4096, .f32⟩
  | 59 => ⟨S4096x1, .f32⟩
  | 60 => ⟨S4096x819, .f32⟩
  | 61 => ⟨S4096x819, .f32⟩
  | 62 => ⟨S4096x819, .f32⟩
  | 63 => ⟨S819x4096, .f32⟩
  | 64 => ⟨S4096x4096, .f32⟩
  | 65 => ⟨S4096x4096, .f32⟩
  | 66 => ⟨S4096x4096, .f32⟩
  | 67 => ⟨S_, .f32⟩
  | 68 => ⟨S4096x4096, .f32⟩
  | 69 => ⟨S4096x4096, .f32⟩
  | 70 => ⟨S_, .f32⟩
  | 71 => ⟨S4096x4096, .f32⟩
  | 72 => ⟨S4096x4096, .f32⟩
  | 73 => ⟨S4096x819, .f32⟩
  | 74 => ⟨S819x4096, .f32⟩
  | 75 => ⟨S4096x4096, .f32⟩
  | 76 => ⟨S4096x4096, .f32⟩
  | 77 => ⟨S4096x4096, .f32⟩
  | 78 => ⟨S_, .f32⟩
  | 79 => ⟨S4096x4096, .f32⟩
  | 80 => ⟨S4096x4096, .f32⟩
  | 81 => ⟨S_, .f32⟩
  | 82 => ⟨S4096x4096, .f32⟩
  | 83 => ⟨S4096x4096, .f32⟩
  | 84 => ⟨S4096x819, .f32⟩
  | 85 => ⟨S4096x819, .f32⟩
  | 86 => ⟨S4096x819, .f32⟩
  | 87 => ⟨S4096x819, .f32⟩
  | 88 => ⟨S1x819, .f32⟩
  | 89 => ⟨S4096x819, .f32⟩
  | 90 => ⟨S4096x819, .f32⟩
  | 91 => ⟨S4096x819, .f32⟩
  | 92 => ⟨S4096x819, .f32⟩
  | 93 => ⟨S4096x1024, .f32⟩
  | 94 => ⟨S1x1024, .f32⟩
  | 95 => ⟨S4096x1024, .f32⟩
  | 96 => ⟨S4096x1024, .f32⟩
  | 97 => ⟨S4096x1024, .f32⟩
  | 98 => ⟨S4096x819, .f32⟩
  | 99 => ⟨S4096x819, .f32⟩
  | 100 => ⟨S4096x819, .f32⟩
  | 101 => ⟨S4096x1024, .f32⟩
  | 102 => ⟨S1x1024, .f32⟩
  | 103 => ⟨S4096x1024, .f32⟩
  | 104 => ⟨S4096x1024, .f32⟩
  | 105 => ⟨S4096x1024, .f32⟩
  | 106 => ⟨S4096x1024, .f32⟩
  | 107 => ⟨S4096x1280, .f32⟩
  | 108 => ⟨S1x1280, .f32⟩
  | 109 => ⟨S4096x1280, .f32⟩
  | 110 => ⟨S4096x1280, .f32⟩
  | 111 => ⟨S4096x1280, .f32⟩
  | 112 => ⟨S4096x1x819, .f32⟩
  | 113 => ⟨S1x5x819, .f32⟩
  | 114 => ⟨S4096x5x819, .f32⟩
  | 115 => ⟨S4096x5x819, .f32⟩
  | 116 => ⟨S4096x5x819, .f32⟩
  | 117 => ⟨S4096x5x819, .f32⟩
  | 118 => ⟨S_, .f32⟩
  | 119 => ⟨S4096x5, .f32⟩
  | 120 => ⟨S_, .f32⟩
  | 121 => ⟨S4096x5, .f32⟩
  | 122 => ⟨S4096x5, .f32⟩
  | 123 => ⟨S_, .f32⟩
  | 124 => ⟨S4096x5, .f32⟩
  | 125 => ⟨S4096x5, .f32⟩
  | 126 => ⟨S_, .f32⟩
  | 127 => ⟨S4096, .f32⟩
  | _ => ⟨S4096x1024, .f32⟩

abbrev hbmTy0_1 (i : Nat) : BufTy := match i % 128 with
  | 0 => ⟨S4096x1, .f32⟩
  | 1 => ⟨S4096x5, .f32⟩
  | 2 => ⟨S4096x5, .f32⟩
  | 3 => ⟨S4096x5, .f32⟩
  | 4 => ⟨S_, .f32⟩
  | 5 => ⟨S5, .f32⟩
  | 6 => ⟨S1x5, .f32⟩
  | 7 => ⟨S4096x5, .f32⟩
  | 8 => ⟨S4096x5, .f32⟩
  | 9 => ⟨S_, .f32⟩
  | 10 => ⟨S4096, .f32⟩
  | 11 => ⟨S4096x1, .f32⟩
  | 12 => ⟨S4096x5, .f32⟩
  | 13 => ⟨S4096x5, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_0 : Ref sig .tc := ⟨.hbm, 67, rfl⟩
abbrev main_v40 : Ref sig .tc := ⟨.hbm, 68, rfl⟩
abbrev main_v41 : Ref sig .tc := ⟨.hbm, 69, rfl⟩
abbrev main_cst_1 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_2 : Ref sig .tc := ⟨.hbm, 78, rfl⟩
abbrev main_v49 : Ref sig .tc := ⟨.hbm, 79, rfl⟩
abbrev main_v50 : Ref sig .tc := ⟨.hbm, 80, rfl⟩
abbrev main_cst_3 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_4 : Ref sig .tc := ⟨.hbm, 118, rfl⟩
abbrev main_v87 : Ref sig .tc := ⟨.hbm, 119, rfl⟩
abbrev main_cst_5 : Ref sig .tc := ⟨.hbm, 120, rfl⟩
abbrev main_v88 : Ref sig .tc := ⟨.hbm, 121, rfl⟩
abbrev main_v89 : Ref sig .tc := ⟨.hbm, 122, rfl⟩
abbrev main_cst_6 : Ref sig .tc := ⟨.hbm, 123, rfl⟩
abbrev main_v90 : Ref sig .tc := ⟨.hbm, 124, rfl⟩
abbrev main_v91 : Ref sig .tc := ⟨.hbm, 125, rfl⟩
abbrev main_cst_7 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_cst_8 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_9 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩

abbrev nD : Nat := 1
abbrev τ : Topo := Topo.v7x

variable {F : FTy → Type} [FloatOps F]

class Facts₀ : Prop where
  bcast_S819_S1x819_1 : S819.BroadcastsInDim S1x819 (![1] : Fin 1 → Fin S1x819.rank)
  bcast_S1x819_S4096x819_0_1 : S1x819.BroadcastsInDim S4096x819 (![0, 1] : Fin 2 → Fin S4096x819.rank)
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  slices_S4096x2_S4096x1_0_0 : S4096x2.Slices ![0, 0] S4096x1
  bcast_S4096x1_S4096x819_0_1 : S4096x1.BroadcastsInDim S4096x819 (![0, 1] : Fin 2 → Fin S4096x819.rank)
  slices_S4096x2_S4096x1_0_1 : S4096x2.Slices ![0, 1] S4096x1
  reducesTo_S4096x2_S4096_d1 : S4096x2.ReducesTo [1] S4096
  h_S_ : 0 < S_.numel
  bcast_S4096_S4096x1_0 : S4096.BroadcastsInDim S4096x1 (![0] : Fin 1 → Fin S4096x1.rank)
  transposes_S4096x819_S819x4096_1_0 : S4096x819.Transposes [1, 0] S819x4096
  bcast_S_S4096x4096 : S_.BroadcastsInDim S4096x4096 (![] : Fin 0 → Fin S4096x4096.rank)
  bcast_S1280_S1x1280_1 : S1280.BroadcastsInDim S1x1280 (![1] : Fin 1 → Fin S1x1280.rank)
  bcast_S1x1280_S4096x1280_0_1 : S1x1280.BroadcastsInDim S4096x1280 (![0, 1] : Fin 2 → Fin S4096x1280.rank)
  bcast_S4096x819_S4096x1x819_0_2 : S4096x819.BroadcastsInDim S4096x1x819 (![0, 2] : Fin 2 → Fin S4096x1x819.rank)
  bcast_S5x819_S1x5x819_1_2 : S5x819.BroadcastsInDim S1x5x819 (![1, 2] : Fin 2 → Fin S1x5x819.rank)
  bcast_S4096x1x819_S4096x5x819_0_1_2 : S4096x1x819.BroadcastsInDim S4096x5x819 (![0, 1, 2] : Fin 3 → Fin S4096x5x819.rank)
  bcast_S1x5x819_S4096x5x819_0_1_2 : S1x5x819.BroadcastsInDim S4096x5x819 (![0, 1, 2] : Fin 3 → Fin S4096x5x819.rank)
  reducesTo_S4096x5x819_S4096x5_d2 : S4096x5x819.ReducesTo [2] S4096x5
  bcast_S_S4096x5 : S_.BroadcastsInDim S4096x5 (![] : Fin 0 → Fin S4096x5.rank)
  reducesTo_S4096x5_S4096_d1 : S4096x5.ReducesTo [1] S4096
  bcast_S4096x1_S4096x5_0_1 : S4096x1.BroadcastsInDim S4096x5 (![0, 1] : Fin 2 → Fin S4096x5.rank)
  reducesTo_S4096x5_S5_d0 : S4096x5.ReducesTo [0] S5
  bcast_S5_S1x5_1 : S5.BroadcastsInDim S1x5 (![1] : Fin 1 → Fin S1x5.rank)
  bcast_S1x5_S4096x5_0_1 : S1x5.BroadcastsInDim S4096x5 (![0, 1] : Fin 2 → Fin S4096x5.rank)
  dot_S4096x4096_S4096x1024_S4096x1024_1_0_0_1_n_n_wf : DotDims.WF S4096x4096 S4096x1024 S4096x1024 [1] [0] [0] [1] [] []
  dot_S4096x1024_S1024x819_S4096x819_1_0_0_1_n_n_wf : DotDims.WF S4096x1024 S1024x819 S4096x819 [1] [0] [0] [1] [] []
  dot_S4096x4096_S4096x819_S4096x819_1_0_0_1_n_n_wf : DotDims.WF S4096x4096 S4096x819 S4096x819 [1] [0] [0] [1] [] []
  dot_S4096x819_S819x819_S4096x819_1_0_0_1_n_n_wf : DotDims.WF S4096x819 S819x819 S4096x819 [1] [0] [0] [1] [] []
  dot_S4096x4096_S4096x1280_S4096x1280_1_0_0_1_n_n_wf : DotDims.WF S4096x4096 S4096x1280 S4096x1280 [1] [0] [0] [1] [] []
  dot_S4096x1280_S1280x1024_S4096x1024_1_0_0_1_n_n_wf : DotDims.WF S4096x1280 S1280x1024 S4096x1024 [1] [0] [0] [1] [] []
  dot_S4096x819_S819x4096_S4096x4096_1_0_0_1_n_n_wf : DotDims.WF S4096x819 S819x4096 S4096x4096 [1] [0] [0] [1] [] []
  dot_S4096x819_S819x1024_S4096x1024_1_0_0_1_n_n_wf : DotDims.WF S4096x819 S819x1024 S4096x1024 [1] [0] [0] [1] [] []
  dot_S4096x1024_S1024x1280_S4096x1280_1_0_0_1_n_n_wf : DotDims.WF S4096x1024 S1024x1280 S4096x1280 [1] [0] [0] [1] [] []

variable [Facts₀]

def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf
def dot_S4096x1024_S1024x819_S4096x819_1_0_0_1_n_n : DotDims S4096x1024 S1024x819 S4096x819 where
  lhsContracting := [1]
  rhsContracting := [0]
  lhsNonContracting := [0]
  rhsNonContracting := [1]
  lhsBatch := []
  rhsBatch := []
  wf := dot_S4096x1024_S1024x819_S4096x819_1_0_0_1_n_n_wf
def dot_S4096x4096_S4096x819_S4096x819_1_0_0_1_n_n : DotDims S4096x4096 S4096x819 S4096x819 where
  lhsContracting := [1]
  rhsContracting := [0]
  lhsNonContracting := [0]
  rhsNonContracting := [1]
  lhsBatch := []
  rhsBatch := []
  wf := dot_S4096x4096_S4096x819_S4096x819_1_0_0_1_n_n_wf
def dot_S4096x819_S819x819_S4096x819_1_0_0_1_n_n : DotDims S4096x819 S819x819 S4096x819 where
  lhsContracting := [1]
  rhsContracting := [0]
  lhsNonContracting := [0]
  rhsNonContracting := [1]
  lhsBatch := []
  rhsBatch := []
  wf := dot_S4096x819_S819x819_S4096x819_1_0_0_1_n_n_wf
def dot_S4096x4096_S4096x1280_S4096x1280_1_0_0_1_n_n : DotDims S4096x4096 S4096x1280 S4096x1280 where
  lhsContracting := [1]
  rhsContracting := [0]
  lhsNonContracting := [0]
  rhsNonContracting := [1]
  lhsBatch := []
  rhsBatch := []
  wf := dot_S4096x4096_S4096x1280_S4096x1280_1_0_0_1_n_n_wf
def dot_S4096x1280_S1280x1024_S4096x1024_1_0_0_1_n_n : DotDims S4096x1280 S1280x1024 S4096x1024 where
  lhsContracting := [1]
  rhsContracting := [0]
  lhsNonContracting := [0]
  rhsNonContracting := [1]
  lhsBatch := []
  rhsBatch := []
  wf := dot_S4096x1280_S1280x1024_S4096x1024_1_0_0_1_n_n_wf
def dot_S4096x819_S819x4096_S4096x4096_1_0_0_1_n_n : DotDims S4096x819 S819x4096 S4096x4096 where
  lhsContracting := [1]
  rhsContracting := [0]
  lhsNonContracting := [0]
  rhsNonContracting := [1]
  lhsBatch := []
  rhsBatch := []
  wf := dot_S4096x819_S819x4096_S4096x4096_1_0_0_1_n_n_wf
def dot_S4096x819_S819x1024_S4096x1024_1_0_0_1_n_n : DotDims S4096x819 S819x1024 S4096x1024 where
  lhsContracting := [1]
  rhsContracting := [0]
  lhsNonContracting := [0]
  rhsNonContracting := [1]
  lhsBatch := []
  rhsBatch := []
  wf := dot_S4096x819_S819x1024_S4096x1024_1_0_0_1_n_n_wf
def dot_S4096x1024_S1024x1280_S4096x1280_1_0_0_1_n_n : DotDims S4096x1024 S1024x1280 S4096x1280 where
  lhsContracting := [1]
  rhsContracting := [0]
  lhsNonContracting := [0]
  rhsNonContracting := [1]
  lhsBatch := []
  rhsBatch := []
  wf := dot_S4096x1024_S1024x1280_S4096x1280_1_0_0_1_n_n_wf

class Facts : Prop extends Facts₀ where

variable [Facts]
-- ==== Proof.KB.Launch.lean ====
/-
  The launch of the whole program, given one segment record per kernel region: the resource algebra (one copy
  of the pipeline library's algebra beside the transfer counters), its launch element, the trivial level
  assignment (no core owes another anything), and the rest state carried between items (the core owing
  nothing). With these fixed, the program's run from any memory with zero counters terminates, every argument
  ends as launched, and every unscoped buffer of the core ends at the last valuation of the chain — the launch
  contents, then after each host stretch its operations' results, then after each region what that region
  leaves.
-/
import proofs.«113214_j66838281060556_2_alg».proof.Proof.RegionsKernel
import Idealize.ShloMosaic.Adequacy
import Idealize.ShloMosaic.Init
import Idealize.ShloMosaic.Lib.Tactic
import Idealize.ShloMosaic.Lib.Pipeline.Kit
import Idealize.ShloMosaic.Lib.Pipeline.Frame
import Idealize.ShloMosaic.Lib.Pipeline.Regions

set_option maxRecDepth 1560

noncomputable section

namespace Cert.Kernel.Hand

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-! ## The run, for any algebra: every unscoped buffer ends at the last valuation -/

variable (m : (ℓ : Loc nD τ sig) → Buf (Elt F) ℓ)

set_option backward.isDefEq.respectTransparency.types false in
set_option maxHeartbeats 4000000 in
set_option maxRecDepth 16384 in
/-- Given, per region, a segment record entered from the thread state before it and left at the one after it: every
    weakly fair execution of the program from memory m with zero counters terminates, and in every final memory each
    unscoped buffer b of core c holds the last valuation's contents at b. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : GenP.Outs (F := F))
    (pdats : (p : Fin 22) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 23 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE22 : ∀ c : Dev nD, E 22 c ⊢ (iprop(∃ W, owes (c : Thread nD τ) (0 : CellTallies nD τ sig Ix) W) : sProp (MT nD τ sig Ix (Elt F) ℕ U Lvl)))
    (R0 : RegionSeg (pcfgs (F := F)) GenP.adm pdats ι defs₀ 𝒱₀ L lv 0)
    (hpre0 : ∀ c : Dev nD, iprop(StableHlo.held (c : Thread nD τ) (Pipeline.ucRefs τ sig) (GenP.V1 m c) ∗ E 0 c) ⊢ R0.pre c)
    (hpost0 : ∀ c : Dev nD, R0.post c ⊢ iprop(StableHlo.held (c : Thread nD τ) (Pipeline.ucRefs τ sig) (GenP.V2 m outs c) ∗ E 1 c))
    (R1 : RegionSeg (pcfgs (F := F)) GenP.adm pdats ι defs₀ 𝒱₀ L lv 1)
    (hpre1 : ∀ c : Dev nD, iprop(StableHlo.held (c : Thread nD τ) (Pipeline.ucRefs τ sig) (GenP.V3 m outs c) ∗ E 1 c) ⊢ R1.pre c)
    (hpost1 : ∀ c : Dev nD, R1.post c ⊢ iprop(StableHlo.held (c : Thread nD τ) (Pipeline.ucRefs τ sig) (GenP.V4 m outs c) ∗ E 2 c))
    (R2 : RegionSeg (pcfgs (F := F)) GenP.adm pdats ι defs₀ 𝒱₀ L lv 2)
    (hpre2 : ∀ c : Dev nD, iprop(StableHlo.held (c : Thread nD τ) (Pipeline.ucRefs τ sig) (GenP.V4 m outs c) ∗ E 2 c) ⊢ R2.pre c)
    (hpost2 : ∀ c : Dev nD, R2.post c ⊢ iprop(StableHlo.held (c : Thread nD τ) (Pipeline.ucRefs τ sig) (GenP.V5 m outs c) ∗ E 3 c))
    (R3 : RegionSeg (pcfgs (F := F)) GenP.adm pdats ι defs₀ 𝒱₀ L lv 3)
    (hpre3 : ∀ c : Dev nD, iprop(StableHlo.held (c : Thread nD τ) (Pipeline.ucRefs τ sig) (GenP.V6 m outs c) ∗ E 3 c) ⊢ R3.pre c)
    (hpost3 : ∀ c : Dev nD, R3.post c ⊢ iprop(StableHlo.held (c : Thread nD τ) (Pipeline.ucRefs τ sig) (GenP.V7 m outs c) ∗ E 4 c))
    (R4 : RegionSeg (pcfgs (F := F)) GenP.adm pdats ι defs₀ 𝒱₀ L lv 4)
    (hpre4 : ∀ c : Dev nD, iprop(StableHlo.held (c : Thread nD τ) (Pipeline.ucRefs τ sig) (GenP.V7 m outs c) ∗ E 4 c) ⊢ R4.pre c)
    (hpost4 : ∀ c : Dev nD, R4.post c ⊢ iprop(StableHlo.held (c : Thread nD τ) (Pipeline.ucRefs τ sig) (GenP.V8 m outs c) ∗ E 5 c))
    (R5 : RegionSeg (pcfgs (F := F)) GenP.adm pdats ι defs₀ 𝒱₀ L lv 5)
    (hpre5 : ∀ c : Dev nD, iprop(StableHlo.held (c : Thread nD τ) (Pipeline.ucRefs τ sig) (GenP.V9 m outs c) ∗ E 5 c) ⊢ R5.pre c)
    (hpost5 : ∀ c : Dev nD, R5.post c ⊢ iprop(StableHlo.held (c : Thread nD τ) (Pipeline.ucRefs τ sig) (GenP.V10 m outs c) ∗ E 6 c))
    (R6 : RegionSeg (pcfgs (F := F)) GenP.adm pdats ι defs₀ 𝒱₀ L lv 6)
    (hpre6 : ∀ c : Dev nD, iprop(StableHlo.held (c : Thread nD τ) (Pipeline.ucRefs τ sig) (GenP.V10 m outs c) ∗ E 6 c) ⊢ R6.pre c)
    (hpost6 : ∀ c : Dev nD, R6.post c ⊢ iprop(StableHlo.held (c : Thread nD τ) (Pipeline.ucRefs τ sig) (GenP.V11 m outs c) ∗ E 7 c))
    (R7 : RegionSeg (pcfgs (F := F)) GenP.adm pdats ι defs₀ 𝒱₀ L lv 7)
    (hpre7 : ∀ c : Dev nD, iprop(StableHlo.held (c : Thread nD τ) (Pipeline.ucRefs τ sig) (GenP.V12 m outs c) ∗ E 7 c) ⊢ R7.pre c)
    (hpost7 : ∀ c : Dev nD, R7.post c ⊢ iprop(StableHlo.held (c : Thread nD τ) (Pipeline.ucRefs τ sig) (GenP.V13 m outs c) ∗ E 8 c))
    (R8 : RegionSeg (pcfgs (F := F)) GenP.adm pdats ι defs₀ 𝒱₀ L lv 8)
    (hpre8 : ∀ c : Dev nD, iprop(StableHlo.held (c : Thread nD τ) (Pipeline.ucRefs τ sig) (GenP.V14 m outs c) ∗ E 8 c) ⊢ R8.pre c)
    (hpost8 : ∀ c : Dev nD, R8.post c ⊢ iprop(StableHlo.held (c : Thread nD τ) (Pipeline.ucRefs τ sig) (GenP.V15 m outs c) ∗ E 9 c))
    (R9 : RegionSeg (pcfgs (F := F)) GenP.adm pdats ι defs₀ 𝒱₀ L lv 9)
    (hpre9 : ∀ c : Dev nD, iprop(StableHlo.held (c : Thread nD τ) (Pipeline.ucRefs τ sig) (GenP.V15 m outs c) ∗ E 9 c) ⊢ R9.pre c)
    (hpost9 : ∀ c : Dev nD, R9.post c ⊢ iprop(StableHlo.held (c : Thread nD τ) (Pipeline.ucRefs τ sig) (GenP.V16 m outs c) ∗ E 10 c))
    (R10 : RegionSeg (pcfgs (F := F)) GenP.adm pdats ι defs₀ 𝒱₀ L lv 10)
    (hpre10 : ∀ c : Dev nD, iprop(StableHlo.held (c : Thread nD τ) (Pipeline.ucRefs τ sig) (GenP.V16 m outs c) ∗ E 10 c) ⊢ R10.pre c)
    (hpost10 : ∀ c : Dev nD, R10.post c ⊢ iprop(StableHlo.held (c : Thread nD τ) (Pipeline.ucRefs τ sig) (GenP.V17 m outs c) ∗ E 11 c))
    (R11 : RegionSeg (pcfgs (F := F)) GenP.adm pdats ι defs₀ 𝒱₀ L lv 11)
    (hpre11 : ∀ c : Dev nD, iprop(StableHlo.held (c : Thread nD τ) (Pipeline.ucRefs τ sig) (GenP.V17 m outs c) ∗ E 11 c) ⊢ R11.pre c)
    (hpost11 : ∀ c : Dev nD, R11.post c ⊢ iprop(StableHlo.held (c : Thread nD τ) (Pipeline.ucRefs τ sig) (GenP.V18 m outs c) ∗ E 12 c))
    (R12 : RegionSeg (pcfgs (F := F)) GenP.adm pdats ι defs₀ 𝒱₀ L lv 12)
    (hpre12 : ∀ c : Dev nD, iprop(StableHlo.held (c : Thread nD τ) (Pipeline.ucRefs τ sig) (GenP.V18 m outs c) ∗ E 12 c) ⊢ R12.pre c)
    (hpost12 : ∀ c : Dev nD, R12.post c ⊢ iprop(StableHlo.held (c : Thread nD τ) (Pipeline.ucRefs τ sig) (GenP.V19 m outs c) ∗ E 13 c))
    (R13 : RegionSeg (pcfgs (F := F)) GenP.adm pdats ι defs₀ 𝒱₀ L lv 13)
    (hpre13 : ∀ c : Dev nD, iprop(StableHlo.held (c : Thread nD τ) (Pipeline.ucRefs τ sig) (GenP.V19 m outs c) ∗ E 13 c) ⊢ R13.pre c)
    (hpost13 : ∀ c : Dev nD, R13.post c ⊢ iprop(StableHlo.held (c : Thread nD τ) (Pipeline.ucRefs τ sig) (GenP.V20 m outs c) ∗ E 14 c))
    (R14 : RegionSeg (pcfgs (F := F)) GenP.adm pdats ι defs₀ 𝒱₀ L lv 14)
    (hpre14 : ∀ c : Dev nD, iprop(StableHlo.held (c : Thread nD τ) (Pipeline.ucRefs τ sig) (GenP.V21 m outs c) ∗ E 14 c) ⊢ R14.pre c)
    (hpost14 : ∀ c : Dev nD, R14.post c ⊢ iprop(StableHlo.held (c : Thread nD τ) (Pipeline.ucRefs τ sig) (GenP.V22 m outs c) ∗ E 15 c))
    (R15 : RegionSeg (pcfgs (F := F)) GenP.adm pdats ι defs₀ 𝒱₀ L lv 15)
    (hpre15 : ∀ c : Dev nD, iprop(StableHlo.held (c : Thread nD τ) (Pipeline.ucRefs τ sig) (GenP.V22 m outs c) ∗ E 15 c) ⊢ R15.pre c)
    (hpost15 : ∀ c : Dev nD, R15.post c ⊢ iprop(StableHlo.held (c : Thread nD τ) (Pipeline.ucRefs τ sig) (GenP.V23 m outs c) ∗ E 16 c))
    (R16 : RegionSeg (pcfgs (F := F)) GenP.adm pdats ι defs₀ 𝒱₀ L lv 16)
    (hpre16 : ∀ c : Dev nD, iprop(StableHlo.held (c : Thread nD τ) (Pipeline.ucRefs τ sig) (GenP.V24 m outs c) ∗ E 16 c) ⊢ R16.pre c)
    (hpost16 : ∀ c : Dev nD, R16.post c ⊢ iprop(StableHlo.held (c : Thread nD τ) (Pipeline.ucRefs τ sig) (GenP.V25 m outs c) ∗ E 17 c))
    (R17 : RegionSeg (pcfgs (F := F)) GenP.adm pdats ι defs₀ 𝒱₀ L lv 17)
    (hpre17 : ∀ c : Dev nD, iprop(StableHlo.held (c : Thread nD τ) (Pipeline.ucRefs τ sig) (GenP.V25 m outs c) ∗ E 17 c) ⊢ R17.pre c)
    (hpost17 : ∀ c : Dev nD, R17.post c ⊢ iprop(StableHlo.held (c : Thread nD τ) (Pipeline.ucRefs τ sig) (GenP.V26 m outs c) ∗ E 18 c))
    (R18 : RegionSeg (pcfgs (F := F)) GenP.adm pdats ι defs₀ 𝒱₀ L lv 18)
    (hpre18 : ∀ c : Dev nD, iprop(StableHlo.held (c : Thread nD τ) (Pipeline.ucRefs τ sig) (GenP.V26 m outs c) ∗ E 18 c) ⊢ R18.pre c)
    (hpost18 : ∀ c : Dev nD, R18.post c ⊢ iprop(StableHlo.held (c : Thread nD τ) (Pipeline.ucRefs τ sig) (GenP.V27 m outs c) ∗ E 19 c))
    (R19 : RegionSeg (pcfgs (F := F)) GenP.adm pdats ι defs₀ 𝒱₀ L lv 19)
    (hpre19 : ∀ c : Dev nD, iprop(StableHlo.held (c : Thread nD τ) (Pipeline.ucRefs τ sig) (GenP.V28 m outs c) ∗ E 19 c) ⊢ R19.pre c)
    (hpost19 : ∀ c : Dev nD, R19.post c ⊢ iprop(StableHlo.held (c : Thread nD τ) (Pipeline.ucRefs τ sig) (GenP.V29 m outs c) ∗ E 20 c))
    (R20 : RegionSeg (pcfgs (F := F)) GenP.adm pdats ι defs₀ 𝒱₀ L lv 20)
    (hpre20 : ∀ c : Dev nD, iprop(StableHlo.held (c : Thread nD τ) (Pipeline.ucRefs τ sig) (GenP.V29 m outs c) ∗ E 20 c) ⊢ R20.pre c)
    (hpost20 : ∀ c : Dev nD, R20.post c ⊢ iprop(StableHlo.held (c : Thread nD τ) (Pipeline.ucRefs τ sig) (GenP.V30 m outs c) ∗ E 21 c))
    (R21 : RegionSeg (pcfgs (F := F)) GenP.adm pdats ι defs₀ 𝒱₀ L lv 21)
    (hpre21 : ∀ c : Dev nD, iprop(StableHlo.held (c : Thread nD τ) (Pipeline.ucRefs τ sig) (GenP.V31 m outs c) ∗ E 21 c) ⊢ R21.pre c)
    (hpost21 : ∀ c : Dev nD, R21.post c ⊢ iprop(StableHlo.held (c : Thread nD τ) (Pipeline.ucRefs τ sig) (GenP.V32 m outs c) ∗ E 22 c)) :
    θ_run defs (onTc (τ := τ) (main (F := F))) ⟨m, fun _ => 0, ρ⟩ (fun r => ∀ c : Dev nD, ∀ b ∈ Pipeline.ucRefs τ sig, r.2.mem ((c : Thread nD τ).1, b) = GenP.V33 m outs c b) := by
  refine Pipeline.θ_run_regions_kit_dev (pcfgs (F := F)) GenP.adm pdats ι cellOf_inj EP defs₀ 𝒱₀ L lv m ρ main
    (GenP.segs m outs 𝒱₀ L lv E ι pdats R0 R1 R2 R3 R4 R5 R6 R7 R8 R9 R10 R11 R12 R13 R14 R15 R16 R17 R18 R19 R20 R21)
    (fun c Q => by
      rewrite [main_chain c, Seg.run_eq_chain,
        show (GenP.segs m outs 𝒱₀ L lv E ι pdats R0 R1 R2 R3 R4 R5 R6 R7 R8 R9 R10 R11 R12 R13 R14 R15 R16 R17 R18 R19 R20 R21 c).map Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          Prog.lift (.customCall (Pipeline.entry 6) ()),
          StableHlo.seq hostOps7,
          Prog.lift (.customCall (Pipeline.entry 7) ()),
          StableHlo.seq hostOps8,
          Prog.lift (.customCall (Pipeline.entry 8) ()),
          Prog.lift (.customCall (Pipeline.entry 9) ()),
          Prog.lift (.customCall (Pipeline.entry 10) ()),
          Prog.lift (.customCall (Pipeline.entry 11) ()),
          Prog.lift (.customCall (Pipeline.entry 12) ()),
          Prog.lift (.customCall (Pipeline.entry 13) ()),
          StableHlo.seq hostOps14,
          Prog.lift (.customCall (Pipeline.entry 14) ()),
          Prog.lift (.customCall (Pipeline.entry 15) ()),
          StableHlo.seq hostOps16,
          Prog.lift (.customCall (Pipeline.entry 16) ()),
          Prog.lift (.customCall (Pipeline.entry 17) ()),
          Prog.lift (.customCall (Pipeline.entry 18) ()),
          StableHlo.seq hostOps19,
          Prog.lift (.customCall (Pipeline.entry 19) ()),
          Prog.lift (.customCall (Pipeline.entry 20) ()),
          StableHlo.seq hostOps21,
          Prog.lift (.customCall (Pipeline.entry 21) ()),
          StableHlo.seq hostOps22 ] from rfl]
      with_reducible exact .rfl)
    (fun c => by simp only [GenP.segs, Seg.pipes_host, Seg.pipes_region, Seg.pipes_nil]; decide) O₀ hL G u₀ hu₀
    (T₀ := fun c => iprop(StableHlo.held (c : Thread nD τ) (Pipeline.ucRefs τ sig) (GenP.V0 m c) ∗ E 0 c))
    (Tₙ := fun c => StableHlo.held (c : Thread nD τ) (Pipeline.ucRefs τ sig) (GenP.V33 m outs c))
    (hch := fun c => ⟨.rfl, hpre0 c, hpost0 c, hpre1 c, (hpost1 c).trans (hpre2 c), hpost2 c, hpre3 c, (hpost3 c).trans (hpre4 c), hpost4 c, hpre5 c, (hpost5 c).trans (hpre6 c), hpost6 c, hpre7 c, hpost7 c, hpre8 c, (hpost8 c).trans (hpre9 c), (hpost9 c).trans (hpre10 c), (hpost10 c).trans (hpre11 c), (hpost11 c).trans (hpre12 c), (hpost12 c).trans (hpre13 c), hpost13 c, hpre14 c, (hpost14 c).trans (hpre15 c), hpost15 c, hpre16 c, (hpost16 c).trans (hpre17 c), (hpost17 c).trans (hpre18 c), hpost18 c, hpre19 c, (hpost19 c).trans (hpre20 c), hpost20 c, hpre21 c, hpost21 c, sep_mono .rfl (hE22 c)⟩)
    (hinit := ?_) (QY := fun c s => ∀ b ∈ Pipeline.ucRefs τ sig, s.mem ((c : Thread nD τ).1, b) = GenP.V33 m outs c b)
    (hfin := fun c s' => ?_) (hQ := fun _ h => h)
  · -- at launch the unscoped buffers are held at the first valuation; the rest makes the first rest state on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (GenP.V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (GenP.V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- at the end every unscoped buffer is read off the last valuation
    unfold StableHlo.held
    iintro ⟨Hh, HSI⟩
    ihave Hr := (pointsTo_read_all (Pipeline.ucRefs τ sig) (fun b => ((c : Thread nD τ).1, b)) (GenP.V33 m outs c) s') $$ [Hh HSI]
    · isplitl [Hh] <;> iassumption
    icases Hr with ⟨%h, HSI⟩
    imodintro
    isplitr
    · ipureintro
      exact h
    · iexact HSI

/-! ## The concrete choices -/

/-- The resource algebra: one copy of the pipeline library's algebra for the staging cells of all twenty-two
    pipelines, beside the counters a transfer's invariant takes its tokens from. -/
abbrev UU : Type := UR sig nD τ × Counters

local notation "𝕄" => MT nD τ sig Unit (Elt F) ℕ UU ℕ

/-- The pipeline library's algebra is the left component. -/
abbrev EP : Emb (UR sig nD τ) (MT nD τ sig Unit (Elt F) ℕ UU ℕ) := embL

instance EP_landsIn : (EP (F := F)).LandsIn (upEmb : UEmb _ (MT nD τ sig Unit (Elt F) ℕ UU ℕ)) := by
  unfold EP; infer_instance

/-- The launch element: the pipeline library's at every pipeline's staging cells and transfers; no counter yet. -/
def u₀ : UU := (initOf (Pipeline.cells cfgs cellOf_inj) (Pipeline.launchToks cfgs cellOf_inj), 1)

/-- No pipeline variant is named. -/
abbrev 𝒱₀ : Variants := Variants.none
/-- No core owes another anything: no pair has a level, and every level is zero. -/
abbrev L : GSem nD τ sig → Finset Unit := fun _ => ∅
abbrev lv : GSem nD τ sig → Unit → ℕ := fun _ _ => 0
theorem hL : ∀ g : GSem nD τ sig, g.1.2 ≠ .tc → L g = ∅ := fun _ _ => rfl
/-- Nothing is owed at launch, and no ghost resource is dealt to a core. -/
abbrev O₀ : Dev nD → CellTallies nD τ sig Unit := 0
abbrev G : Dev nD → sProp 𝕄 := fun _ => iprop(emp)

/-- The rest state beside the unscoped buffers, the same between any two items: the core owes nothing. -/
abbrev Erest : Fin 23 → Dev nD → sProp 𝕄 :=
  fun _ c => iprop(∃ W, owes (c : Thread nD τ) (0 : CellTallies nD τ sig Unit) W)

/-- The launch element yields the pipeline library's, and the (empty) ghost resources of every core. -/
theorem hu₀ : (ownU u₀ : sProp 𝕄)
    ⊢ |={Set.univ}=> iprop(BI.own (EP (F := F) (initOf (Pipeline.cells cfgs cellOf_inj) (Pipeline.launchToks cfgs cellOf_inj))) ∗ bigSep Finset.univ (G (F := F))) := by
  unfold u₀
  iintro Hu
  ihave H := (ownU_pair _ _) $$ Hu
  icases H with ⟨HP, -⟩
  imodintro
  isplitl [HP]; · iexact HP
  iapply (show (BI.emp : sProp 𝕄) ⊢ bigSep Finset.univ (fun _ : Dev nD => (BI.emp : sProp 𝕄)) from by rw [BI.bigSep_emp_const])
  iempintro

/-- What the launch deals each core makes the first rest state: the core owes nothing, with no wait recorded. -/
theorem hE0 (ρ : Dev nD → PrngReg) :
    iprop((bigSep Finset.univ fun c : Dev nD => iprop(unscopedSems0 c ∗ owes (c : Thread nD τ) (O₀ c) ∅ ∗ Pipeline.launchCred O₀ c ∗ prngReg c (ρ c) ∗ G (F := F) c)) ∗ levAts L lv)
      ⊢ (|={Set.univ}=> bigSep Finset.univ (Erest (F := F) 0) : sProp 𝕄) := by
  refine Pipeline.initEach L lv fun c => ?_
  iintro ⟨⟨-, HO, -, -, -⟩, -⟩
  imodintro
  iexists ∅; iexact HO

/-- The last rest state is the core owing nothing. -/
theorem hE22 (c : Dev nD) :
    Erest (F := F) 22 c ⊢ (iprop(∃ W, owes (c : Thread nD τ) (0 : CellTallies nD τ sig Unit) W) : sProp 𝕄) := .rfl

/-! ## The frame and the run, given the regions' records -/

variable (ρ : Dev nD → PrngReg) (outs : GenP.Outs (F := F))
  (pdats : (p : Fin 22) → (c : Dev nD) → Dat τ (Elt F) Unit ℕ UU ℕ (cfgs p) c)

set_option backward.isDefEq.respectTransparency.types false in
set_option maxHeartbeats 4000000 in
set_option maxRecDepth 16384 in
/-- Every argument ends as launched. -/
theorem frame_of_regions
    (R0 : RegionSeg (pcfgs (F := F)) GenP.adm pdats () defs₀ 𝒱₀ L lv 0)
    (hpre0 : ∀ c : Dev nD, iprop(StableHlo.held (c : Thread nD τ) (Pipeline.ucRefs τ sig) (GenP.V1 m c) ∗ Erest 0 c) ⊢ R0.pre c)
    (hpost0 : ∀ c : Dev nD, R0.post c ⊢ iprop(StableHlo.held (c : Thread nD τ) (Pipeline.ucRefs τ sig) (GenP.V2 m outs c) ∗ Erest 1 c))
    (R1 : RegionSeg (pcfgs (F := F)) GenP.adm pdats () defs₀ 𝒱₀ L lv 1)
    (hpre1 : ∀ c : Dev nD, iprop(StableHlo.held (c : Thread nD τ) (Pipeline.ucRefs τ sig) (GenP.V3 m outs c) ∗ Erest 1 c) ⊢ R1.pre c)
    (hpost1 : ∀ c : Dev nD, R1.post c ⊢ iprop(StableHlo.held (c : Thread nD τ) (Pipeline.ucRefs τ sig) (GenP.V4 m outs c) ∗ Erest 2 c))
    (R2 : RegionSeg (pcfgs (F := F)) GenP.adm pdats () defs₀ 𝒱₀ L lv 2)
    (hpre2 : ∀ c : Dev nD, iprop(StableHlo.held (c : Thread nD τ) (Pipeline.ucRefs τ sig) (GenP.V4 m outs c) ∗ Erest 2 c) ⊢ R2.pre c)
    (hpost2 : ∀ c : Dev nD, R2.post c ⊢ iprop(StableHlo.held (c : Thread nD τ) (Pipeline.ucRefs τ sig) (GenP.V5 m outs c) ∗ Erest 3 c))
    (R3 : RegionSeg (pcfgs (F := F)) GenP.adm pdats () defs₀ 𝒱₀ L lv 3)
    (hpre3 : ∀ c : Dev nD, iprop(StableHlo.held (c : Thread nD τ) (Pipeline.ucRefs τ sig) (GenP.V6 m outs c) ∗ Erest 3 c) ⊢ R3.pre c)
    (hpost3 : ∀ c : Dev nD, R3.post c ⊢ iprop(StableHlo.held (c : Thread nD τ) (Pipeline.ucRefs τ sig) (GenP.V7 m outs c) ∗ Erest 4 c))
    (R4 : RegionSeg (pcfgs (F := F)) GenP.adm pdats () defs₀ 𝒱₀ L lv 4)
    (hpre4 : ∀ c : Dev nD, iprop(StableHlo.held (c : Thread nD τ) (Pipeline.ucRefs τ sig) (GenP.V7 m outs c) ∗ Erest 4 c) ⊢ R4.pre c)
    (hpost4 : ∀ c : Dev nD, R4.post c ⊢ iprop(StableHlo.held (c : Thread nD τ) (Pipeline.ucRefs τ sig) (GenP.V8 m outs c) ∗ Erest 5 c))
    (R5 : RegionSeg (pcfgs (F := F)) GenP.adm pdats () defs₀ 𝒱₀ L lv 5)
    (hpre5 : ∀ c : Dev nD, iprop(StableHlo.held (c : Thread nD τ) (Pipeline.ucRefs τ sig) (GenP.V9 m outs c) ∗ Erest 5 c) ⊢ R5.pre c)
    (hpost5 : ∀ c : Dev nD, R5.post c ⊢ iprop(StableHlo.held (c : Thread nD τ) (Pipeline.ucRefs τ sig) (GenP.V10 m outs c) ∗ Erest 6 c))
    (R6 : RegionSeg (pcfgs (F := F)) GenP.adm pdats () defs₀ 𝒱₀ L lv 6)
    (hpre6 : ∀ c : Dev nD, iprop(StableHlo.held (c : Thread nD τ) (Pipeline.ucRefs τ sig) (GenP.V10 m outs c) ∗ Erest 6 c) ⊢ R6.pre c)
    (hpost6 : ∀ c : Dev nD, R6.post c ⊢ iprop(StableHlo.held (c : Thread nD τ) (Pipeline.ucRefs τ sig) (GenP.V11 m outs c) ∗ Erest 7 c))
    (R7 : RegionSeg (pcfgs (F := F)) GenP.adm pdats () defs₀ 𝒱₀ L lv 7)
    (hpre7 : ∀ c : Dev nD, iprop(StableHlo.held (c : Thread nD τ) (Pipeline.ucRefs τ sig) (GenP.V12 m outs c) ∗ Erest 7 c) ⊢ R7.pre c)
    (hpost7 : ∀ c : Dev nD, R7.post c ⊢ iprop(StableHlo.held (c : Thread nD τ) (Pipeline.ucRefs τ sig) (GenP.V13 m outs c) ∗ Erest 8 c))
    (R8 : RegionSeg (pcfgs (F := F)) GenP.adm pdats () defs₀ 𝒱₀ L lv 8)
    (hpre8 : ∀ c : Dev nD, iprop(StableHlo.held (c : Thread nD τ) (Pipeline.ucRefs τ sig) (GenP.V14 m outs c) ∗ Erest 8 c) ⊢ R8.pre c)
    (hpost8 : ∀ c : Dev nD, R8.post c ⊢ iprop(StableHlo.held (c : Thread nD τ) (Pipeline.ucRefs τ sig) (GenP.V15 m outs c) ∗ Erest 9 c))
    (R9 : RegionSeg (pcfgs (F := F)) GenP.adm pdats () defs₀ 𝒱₀ L lv 9)
    (hpre9 : ∀ c : Dev nD, iprop(StableHlo.held (c : Thread nD τ) (Pipeline.ucRefs τ sig) (GenP.V15 m outs c) ∗ Erest 9 c) ⊢ R9.pre c)
    (hpost9 : ∀ c : Dev nD, R9.post c ⊢ iprop(StableHlo.held (c : Thread nD τ) (Pipeline.ucRefs τ sig) (GenP.V16 m outs c) ∗ Erest 10 c))
    (R10 : RegionSeg (pcfgs (F := F)) GenP.adm pdats () defs₀ 𝒱₀ L lv 10)
    (hpre10 : ∀ c : Dev nD, iprop(StableHlo.held (c : Thread nD τ) (Pipeline.ucRefs τ sig) (GenP.V16 m outs c) ∗ Erest 10 c) ⊢ R10.pre c)
    (hpost10 : ∀ c : Dev nD, R10.post c ⊢ iprop(StableHlo.held (c : Thread nD τ) (Pipeline.ucRefs τ sig) (GenP.V17 m outs c) ∗ Erest 11 c))
    (R11 : RegionSeg (pcfgs (F := F)) GenP.adm pdats () defs₀ 𝒱₀ L lv 11)
    (hpre11 : ∀ c : Dev nD, iprop(StableHlo.held (c : Thread nD τ) (Pipeline.ucRefs τ sig) (GenP.V17 m outs c) ∗ Erest 11 c) ⊢ R11.pre c)
    (hpost11 : ∀ c : Dev nD, R11.post c ⊢ iprop(StableHlo.held (c : Thread nD τ) (Pipeline.ucRefs τ sig) (GenP.V18 m outs c) ∗ Erest 12 c))
    (R12 : RegionSeg (pcfgs (F := F)) GenP.adm pdats () defs₀ 𝒱₀ L lv 12)
    (hpre12 : ∀ c : Dev nD, iprop(StableHlo.held (c : Thread nD τ) (Pipeline.ucRefs τ sig) (GenP.V18 m outs c) ∗ Erest 12 c) ⊢ R12.pre c)
    (hpost12 : ∀ c : Dev nD, R12.post c ⊢ iprop(StableHlo.held (c : Thread nD τ) (Pipeline.ucRefs τ sig) (GenP.V19 m outs c) ∗ Erest 13 c))
    (R13 : RegionSeg (pcfgs (F := F)) GenP.adm pdats () defs₀ 𝒱₀ L lv 13)
    (hpre13 : ∀ c : Dev nD, iprop(StableHlo.held (c : Thread nD τ) (Pipeline.ucRefs τ sig) (GenP.V19 m outs c) ∗ Erest 13 c) ⊢ R13.pre c)
    (hpost13 : ∀ c : Dev nD, R13.post c ⊢ iprop(StableHlo.held (c : Thread nD τ) (Pipeline.ucRefs τ sig) (GenP.V20 m outs c) ∗ Erest 14 c))
    (R14 : RegionSeg (pcfgs (F := F)) GenP.adm pdats () defs₀ 𝒱₀ L lv 14)
    (hpre14 : ∀ c : Dev nD, iprop(StableHlo.held (c : Thread nD τ) (Pipeline.ucRefs τ sig) (GenP.V21 m outs c) ∗ Erest 14 c) ⊢ R14.pre c)
    (hpost14 : ∀ c : Dev nD, R14.post c ⊢ iprop(StableHlo.held (c : Thread nD τ) (Pipeline.ucRefs τ sig) (GenP.V22 m outs c) ∗ Erest 15 c))
    (R15 : RegionSeg (pcfgs (F := F)) GenP.adm pdats () defs₀ 𝒱₀ L lv 15)
    (hpre15 : ∀ c : Dev nD, iprop(StableHlo.held (c : Thread nD τ) (Pipeline.ucRefs τ sig) (GenP.V22 m outs c) ∗ Erest 15 c) ⊢ R15.pre c)
    (hpost15 : ∀ c : Dev nD, R15.post c ⊢ iprop(StableHlo.held (c : Thread nD τ) (Pipeline.ucRefs τ sig) (GenP.V23 m outs c) ∗ Erest 16 c))
    (R16 : RegionSeg (pcfgs (F := F)) GenP.adm pdats () defs₀ 𝒱₀ L lv 16)
    (hpre16 : ∀ c : Dev nD, iprop(StableHlo.held (c : Thread nD τ) (Pipeline.ucRefs τ sig) (GenP.V24 m outs c) ∗ Erest 16 c) ⊢ R16.pre c)
    (hpost16 : ∀ c : Dev nD, R16.post c ⊢ iprop(StableHlo.held (c : Thread nD τ) (Pipeline.ucRefs τ sig) (GenP.V25 m outs c) ∗ Erest 17 c))
    (R17 : RegionSeg (pcfgs (F := F)) GenP.adm pdats () defs₀ 𝒱₀ L lv 17)
    (hpre17 : ∀ c : Dev nD, iprop(StableHlo.held (c : Thread nD τ) (Pipeline.ucRefs τ sig) (GenP.V25 m outs c) ∗ Erest 17 c) ⊢ R17.pre c)
    (hpost17 : ∀ c : Dev nD, R17.post c ⊢ iprop(StableHlo.held (c : Thread nD τ) (Pipeline.ucRefs τ sig) (GenP.V26 m outs c) ∗ Erest 18 c))
    (R18 : RegionSeg (pcfgs (F := F)) GenP.adm pdats () defs₀ 𝒱₀ L lv 18)
    (hpre18 : ∀ c : Dev nD, iprop(StableHlo.held (c : Thread nD τ) (Pipeline.ucRefs τ sig) (GenP.V26 m outs c) ∗ Erest 18 c) ⊢ R18.pre c)
    (hpost18 : ∀ c : Dev nD, R18.post c ⊢ iprop(StableHlo.held (c : Thread nD τ) (Pipeline.ucRefs τ sig) (GenP.V27 m outs c) ∗ Erest 19 c))
    (R19 : RegionSeg (pcfgs (F := F)) GenP.adm pdats () defs₀ 𝒱₀ L lv 19)
    (hpre19 : ∀ c : Dev nD, iprop(StableHlo.held (c : Thread nD τ) (Pipeline.ucRefs τ sig) (GenP.V28 m outs c) ∗ Erest 19 c) ⊢ R19.pre c)
    (hpost19 : ∀ c : Dev nD, R19.post c ⊢ iprop(StableHlo.held (c : Thread nD τ) (Pipeline.ucRefs τ sig) (GenP.V29 m outs c) ∗ Erest 20 c))
    (R20 : RegionSeg (pcfgs (F := F)) GenP.adm pdats () defs₀ 𝒱₀ L lv 20)
    (hpre20 : ∀ c : Dev nD, iprop(StableHlo.held (c : Thread nD τ) (Pipeline.ucRefs τ sig) (GenP.V29 m outs c) ∗ Erest 20 c) ⊢ R20.pre c)
    (hpost20 : ∀ c : Dev nD, R20.post c ⊢ iprop(StableHlo.held (c : Thread nD τ) (Pipeline.ucRefs τ sig) (GenP.V30 m outs c) ∗ Erest 21 c))
    (R21 : RegionSeg (pcfgs (F := F)) GenP.adm pdats () defs₀ 𝒱₀ L lv 21)
    (hpre21 : ∀ c : Dev nD, iprop(StableHlo.held (c : Thread nD τ) (Pipeline.ucRefs τ sig) (GenP.V31 m outs c) ∗ Erest 21 c) ⊢ R21.pre c)
    (hpost21 : ∀ c : Dev nD, R21.post c ⊢ iprop(StableHlo.held (c : Thread nD τ) (Pipeline.ucRefs τ sig) (GenP.V32 m outs c) ∗ Erest 22 c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  GenP.frame_cond m EP () 𝒱₀ L lv hL ρ outs pdats O₀ G u₀ hu₀ Erest (hE0 ρ) hE22
    R0 hpre0 hpost0 R1 hpre1 hpost1 R2 hpre2 hpost2 R3 hpre3 hpost3 R4 hpre4 hpost4 R5 hpre5 hpost5 R6 hpre6 hpost6 R7 hpre7 hpost7 R8 hpre8 hpost8 R9 hpre9 hpost9 R10 hpre10 hpost10 R11 hpre11 hpost11 R12 hpre12 hpost12 R13 hpre13 hpost13 R14 hpre14 hpost14 R15 hpre15 hpost15 R16 hpre16 hpost16 R17 hpre17 hpost17 R18 hpre18 hpost18 R19 hpre19 hpost19 R20 hpre20 hpost20 R21 hpre21 hpost21

set_option backward.isDefEq.respectTransparency.types false in
set_option maxHeartbeats 4000000 in
set_option maxRecDepth 16384 in
/-- Every unscoped buffer of every core ends at the last valuation. -/
theorem run_of_regions
    (R0 : RegionSeg (pcfgs (F := F)) GenP.adm pdats () defs₀ 𝒱₀ L lv 0)
    (hpre0 : ∀ c : Dev nD, iprop(StableHlo.held (c : Thread nD τ) (Pipeline.ucRefs τ sig) (GenP.V1 m c) ∗ Erest 0 c) ⊢ R0.pre c)
    (hpost0 : ∀ c : Dev nD, R0.post c ⊢ iprop(StableHlo.held (c : Thread nD τ) (Pipeline.ucRefs τ sig) (GenP.V2 m outs c) ∗ Erest 1 c))
    (R1 : RegionSeg (pcfgs (F := F)) GenP.adm pdats () defs₀ 𝒱₀ L lv 1)
    (hpre1 : ∀ c : Dev nD, iprop(StableHlo.held (c : Thread nD τ) (Pipeline.ucRefs τ sig) (GenP.V3 m outs c) ∗ Erest 1 c) ⊢ R1.pre c)
    (hpost1 : ∀ c : Dev nD, R1.post c ⊢ iprop(StableHlo.held (c : Thread nD τ) (Pipeline.ucRefs τ sig) (GenP.V4 m outs c) ∗ Erest 2 c))
    (R2 : RegionSeg (pcfgs (F := F)) GenP.adm pdats () defs₀ 𝒱₀ L lv 2)
    (hpre2 : ∀ c : Dev nD, iprop(StableHlo.held (c : Thread nD τ) (Pipeline.ucRefs τ sig) (GenP.V4 m outs c) ∗ Erest 2 c) ⊢ R2.pre c)
    (hpost2 : ∀ c : Dev nD, R2.post c ⊢ iprop(StableHlo.held (c : Thread nD τ) (Pipeline.ucRefs τ sig) (GenP.V5 m outs c) ∗ Erest 3 c))
    (R3 : RegionSeg (pcfgs (F := F)) GenP.adm pdats () defs₀ 𝒱₀ L lv 3)
    (hpre3 : ∀ c : Dev nD, iprop(StableHlo.held (c : Thread nD τ) (Pipeline.ucRefs τ sig) (GenP.V6 m outs c) ∗ Erest 3 c) ⊢ R3.pre c)
    (hpost3 : ∀ c : Dev nD, R3.post c ⊢ iprop(StableHlo.held (c : Thread nD τ) (Pipeline.ucRefs τ sig) (GenP.V7 m outs c) ∗ Erest 4 c))
    (R4 : RegionSeg (pcfgs (F := F)) GenP.adm pdats () defs₀ 𝒱₀ L lv 4)
    (hpre4 : ∀ c : Dev nD, iprop(StableHlo.held (c : Thread nD τ) (Pipeline.ucRefs τ sig) (GenP.V7 m outs c) ∗ Erest 4 c) ⊢ R4.pre c)
    (hpost4 : ∀ c : Dev nD, R4.post c ⊢ iprop(StableHlo.held (c : Thread nD τ) (Pipeline.ucRefs τ sig) (GenP.V8 m outs c) ∗ Erest 5 c))
    (R5 : RegionSeg (pcfgs (F := F)) GenP.adm pdats () defs₀ 𝒱₀ L lv 5)
    (hpre5 : ∀ c : Dev nD, iprop(StableHlo.held (c : Thread nD τ) (Pipeline.ucRefs τ sig) (GenP.V9 m outs c) ∗ Erest 5 c) ⊢ R5.pre c)
    (hpost5 : ∀ c : Dev nD, R5.post c ⊢ iprop(StableHlo.held (c : Thread nD τ) (Pipeline.ucRefs τ sig) (GenP.V10 m outs c) ∗ Erest 6 c))
    (R6 : RegionSeg (pcfgs (F := F)) GenP.adm pdats () defs₀ 𝒱₀ L lv 6)
    (hpre6 : ∀ c : Dev nD, iprop(StableHlo.held (c : Thread nD τ) (Pipeline.ucRefs τ sig) (GenP.V10 m outs c) ∗ Erest 6 c) ⊢ R6.pre c)
    (hpost6 : ∀ c : Dev nD, R6.post c ⊢ iprop(StableHlo.held (c : Thread nD τ) (Pipeline.ucRefs τ sig) (GenP.V11 m outs c) ∗ Erest 7 c))
    (R7 : RegionSeg (pcfgs (F := F)) GenP.adm pdats () defs₀ 𝒱₀ L lv 7)
    (hpre7 : ∀ c : Dev nD, iprop(StableHlo.held (c : Thread nD τ) (Pipeline.ucRefs τ sig) (GenP.V12 m outs c) ∗ Erest 7 c) ⊢ R7.pre c)
    (hpost7 : ∀ c : Dev nD, R7.post c ⊢ iprop(StableHlo.held (c : Thread nD τ) (Pipeline.ucRefs τ sig) (GenP.V13 m outs c) ∗ Erest 8 c))
    (R8 : RegionSeg (pcfgs (F := F)) GenP.adm pdats () defs₀ 𝒱₀ L lv 8)
    (hpre8 : ∀ c : Dev nD, iprop(StableHlo.held (c : Thread nD τ) (Pipeline.ucRefs τ sig) (GenP.V14 m outs c) ∗ Erest 8 c) ⊢ R8.pre c)
    (hpost8 : ∀ c : Dev nD, R8.post c ⊢ iprop(StableHlo.held (c : Thread nD τ) (Pipeline.ucRefs τ sig) (GenP.V15 m outs c) ∗ Erest 9 c))
    (R9 : RegionSeg (pcfgs (F := F)) GenP.adm pdats () defs₀ 𝒱₀ L lv 9)
    (hpre9 : ∀ c : Dev nD, iprop(StableHlo.held (c : Thread nD τ) (Pipeline.ucRefs τ sig) (GenP.V15 m outs c) ∗ Erest 9 c) ⊢ R9.pre c)
    (hpost9 : ∀ c : Dev nD, R9.post c ⊢ iprop(StableHlo.held (c : Thread nD τ) (Pipeline.ucRefs τ sig) (GenP.V16 m outs c) ∗ Erest 10 c))
    (R10 : RegionSeg (pcfgs (F := F)) GenP.adm pdats () defs₀ 𝒱₀ L lv 10)
    (hpre10 : ∀ c : Dev nD, iprop(StableHlo.held (c : Thread nD τ) (Pipeline.ucRefs τ sig) (GenP.V16 m outs c) ∗ Erest 10 c) ⊢ R10.pre c)
    (hpost10 : ∀ c : Dev nD, R10.post c ⊢ iprop(StableHlo.held (c : Thread nD τ) (Pipeline.ucRefs τ sig) (GenP.V17 m outs c) ∗ Erest 11 c))
    (R11 : RegionSeg (pcfgs (F := F)) GenP.adm pdats () defs₀ 𝒱₀ L lv 11)
    (hpre11 : ∀ c : Dev nD, iprop(StableHlo.held (c : Thread nD τ) (Pipeline.ucRefs τ sig) (GenP.V17 m outs c) ∗ Erest 11 c) ⊢ R11.pre c)
    (hpost11 : ∀ c : Dev nD, R11.post c ⊢ iprop(StableHlo.held (c : Thread nD τ) (Pipeline.ucRefs τ sig) (GenP.V18 m outs c) ∗ Erest 12 c))
    (R12 : RegionSeg (pcfgs (F := F)) GenP.adm pdats () defs₀ 𝒱₀ L lv 12)
    (hpre12 : ∀ c : Dev nD, iprop(StableHlo.held (c : Thread nD τ) (Pipeline.ucRefs τ sig) (GenP.V18 m outs c) ∗ Erest 12 c) ⊢ R12.pre c)
    (hpost12 : ∀ c : Dev nD, R12.post c ⊢ iprop(StableHlo.held (c : Thread nD τ) (Pipeline.ucRefs τ sig) (GenP.V19 m outs c) ∗ Erest 13 c))
    (R13 : RegionSeg (pcfgs (F := F)) GenP.adm pdats () defs₀ 𝒱₀ L lv 13)
    (hpre13 : ∀ c : Dev nD, iprop(StableHlo.held (c : Thread nD τ) (Pipeline.ucRefs τ sig) (GenP.V19 m outs c) ∗ Erest 13 c) ⊢ R13.pre c)
    (hpost13 : ∀ c : Dev nD, R13.post c ⊢ iprop(StableHlo.held (c : Thread nD τ) (Pipeline.ucRefs τ sig) (GenP.V20 m outs c) ∗ Erest 14 c))
    (R14 : RegionSeg (pcfgs (F := F)) GenP.adm pdats () defs₀ 𝒱₀ L lv 14)
    (hpre14 : ∀ c : Dev nD, iprop(StableHlo.held (c : Thread nD τ) (Pipeline.ucRefs τ sig) (GenP.V21 m outs c) ∗ Erest 14 c) ⊢ R14.pre c)
    (hpost14 : ∀ c : Dev nD, R14.post c ⊢ iprop(StableHlo.held (c : Thread nD τ) (Pipeline.ucRefs τ sig) (GenP.V22 m outs c) ∗ Erest 15 c))
    (R15 : RegionSeg (pcfgs (F := F)) GenP.adm pdats () defs₀ 𝒱₀ L lv 15)
    (hpre15 : ∀ c : Dev nD, iprop(StableHlo.held (c : Thread nD τ) (Pipeline.ucRefs τ sig) (GenP.V22 m outs c) ∗ Erest 15 c) ⊢ R15.pre c)
    (hpost15 : ∀ c : Dev nD, R15.post c ⊢ iprop(StableHlo.held (c : Thread nD τ) (Pipeline.ucRefs τ sig) (GenP.V23 m outs c) ∗ Erest 16 c))
    (R16 : RegionSeg (pcfgs (F := F)) GenP.adm pdats () defs₀ 𝒱₀ L lv 16)
    (hpre16 : ∀ c : Dev nD, iprop(StableHlo.held (c : Thread nD τ) (Pipeline.ucRefs τ sig) (GenP.V24 m outs c) ∗ Erest 16 c) ⊢ R16.pre c)
    (hpost16 : ∀ c : Dev nD, R16.post c ⊢ iprop(StableHlo.held (c : Thread nD τ) (Pipeline.ucRefs τ sig) (GenP.V25 m outs c) ∗ Erest 17 c))
    (R17 : RegionSeg (pcfgs (F := F)) GenP.adm pdats () defs₀ 𝒱₀ L lv 17)
    (hpre17 : ∀ c : Dev nD, iprop(StableHlo.held (c : Thread nD τ) (Pipeline.ucRefs τ sig) (GenP.V25 m outs c) ∗ Erest 17 c) ⊢ R17.pre c)
    (hpost17 : ∀ c : Dev nD, R17.post c ⊢ iprop(StableHlo.held (c : Thread nD τ) (Pipeline.ucRefs τ sig) (GenP.V26 m outs c) ∗ Erest 18 c))
    (R18 : RegionSeg (pcfgs (F := F)) GenP.adm pdats () defs₀ 𝒱₀ L lv 18)
    (hpre18 : ∀ c : Dev nD, iprop(StableHlo.held (c : Thread nD τ) (Pipeline.ucRefs τ sig) (GenP.V26 m outs c) ∗ Erest 18 c) ⊢ R18.pre c)
    (hpost18 : ∀ c : Dev nD, R18.post c ⊢ iprop(StableHlo.held (c : Thread nD τ) (Pipeline.ucRefs τ sig) (GenP.V27 m outs c) ∗ Erest 19 c))
    (R19 : RegionSeg (pcfgs (F := F)) GenP.adm pdats () defs₀ 𝒱₀ L lv 19)
    (hpre19 : ∀ c : Dev nD, iprop(StableHlo.held (c : Thread nD τ) (Pipeline.ucRefs τ sig) (GenP.V28 m outs c) ∗ Erest 19 c) ⊢ R19.pre c)
    (hpost19 : ∀ c : Dev nD, R19.post c ⊢ iprop(StableHlo.held (c : Thread nD τ) (Pipeline.ucRefs τ sig) (GenP.V29 m outs c) ∗ Erest 20 c))
    (R20 : RegionSeg (pcfgs (F := F)) GenP.adm pdats () defs₀ 𝒱₀ L lv 20)
    (hpre20 : ∀ c : Dev nD, iprop(StableHlo.held (c : Thread nD τ) (Pipeline.ucRefs τ sig) (GenP.V29 m outs c) ∗ Erest 20 c) ⊢ R20.pre c)
    (hpost20 : ∀ c : Dev nD, R20.post c ⊢ iprop(StableHlo.held (c : Thread nD τ) (Pipeline.ucRefs τ sig) (GenP.V30 m outs c) ∗ Erest 21 c))
    (R21 : RegionSeg (pcfgs (F := F)) GenP.adm pdats () defs₀ 𝒱₀ L lv 21)
    (hpre21 : ∀ c : Dev nD, iprop(StableHlo.held (c : Thread nD τ) (Pipeline.ucRefs τ sig) (GenP.V31 m outs c) ∗ Erest 21 c) ⊢ R21.pre c)
    (hpost21 : ∀ c : Dev nD, R21.post c ⊢ iprop(StableHlo.held (c : Thread nD τ) (Pipeline.ucRefs τ sig) (GenP.V32 m outs c) ∗ Erest 22 c)) :
    θ_run defs (onTc (τ := τ) (main (F := F))) ⟨m, fun _ => 0, ρ⟩ (fun r => ∀ c : Dev nD, ∀ b ∈ Pipeline.ucRefs τ sig, r.2.mem ((c : Thread nD τ).1, b) = GenP.V33 m outs c b) :=
  run_cond m EP () 𝒱₀ L lv hL ρ outs pdats O₀ G u₀ hu₀ Erest (hE0 ρ) hE22
    R0 hpre0 hpost0 R1 hpre1 hpost1 R2 hpre2 hpost2 R3 hpre3 hpost3 R4 hpre4 hpost4 R5 hpre5 hpost5 R6 hpre6 hpost6 R7 hpre7 hpost7 R8 hpre8 hpost8 R9 hpre9 hpost9 R10 hpre10 hpost10 R11 hpre11 hpost11 R12 hpre12 hpost12 R13 hpre13 hpost13 R14 hpre14 hpost14 R15 hpre15 hpost15 R16 hpre16 hpost16 R17 hpre17 hpost17 R18 hpre18 hpost18 R19 hpre19 hpost19 R20 hpre20 hpost20 R21 hpre21 hpost21

end Cert.Kernel.Hand

end
-- ==== Proof.KB.R00Base.lean ====
/-
  Launch 0 of the program: one matrix product per grid point — the contraction is a single block —, from which the
  output block is stored at every point. The grid's third coordinate is always 0, so both conditions of the body —
  "the contraction's first block" and "its last block" — hold at every point: this module decides them over the
  grid's points, records that no window is ever idle, and names the staging memrefs the body is called with.
-/
import proofs.«113214_j66838281060556_2_alg».proof.Proof.Gen.Kernel.Launch
import proofs.«113214_j66838281060556_2_alg».proof.Proof.Gen.Kernel.Skeleton
import proofs.«113214_j66838281060556_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

/-- The accumulator is reset: the point starts a contraction (third grid coordinate 0). Here the third axis has one
    coordinate, so every point does. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) :=
  (by decide +kernel : ∀ t : Fin grid0.N, cond0_0 (grid0.coords t))

/-- The result is stored: the point ends a contraction. Every point does. -/
abbrev cond0_1 (i : grid0.Coords) : Prop := k0_cond2 i = 1#1
theorem hcond0_1 : ∀ t : Fin cfg0.N, cond0_1 (grid0.coords t) :=
  (by decide +kernel : ∀ t : Fin grid0.N, cond0_1 (grid0.coords t))

/-- No window is idle at any point: the two inputs never, the output because every point stores. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

/-- Each window's current staging memref at a point, as the pipeline passes it, and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x819 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x819 .bf16 := win0_2.stage (cfg0.slots t 2)
abbrev hs0_2 (t : Fin cfg0.N) : (ms0_2 t).IsWhole := hstage0_2 ((cfg0.slots t 2).cast nbuf0_2)
/-- The accumulator: a whole scoped buffer of the launch's own. -/
abbrev scM0 : Memref sig .tc .vmem S1024x819 .f32 := Memref.whole cc0_scratch0
abbrev VS0 : View sig .tc .vmem S1024x819 .f32 := scM0.view

end Cert.Kernel.Hand

end
-- ==== Proof.KB.R00Run.lean ====
/-
  Launch 0, the body run symbolically in its one control case: the accumulator reset, the product added, the output
  block stored from the sum. The run's witnesses are the lists of pieces its stores leave in the output block and in
  the accumulator.
-/
import proofs.«113214_j66838281060556_2_alg».proof.Proof.KB.R00Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

set_option maxHeartbeats 2000000 in
/-- The body at a point, run symbolically: the accumulator, found at anything, is reset and ends at the product of
    the two input blocks added to it; the output block, found at anything, is stored whole from that sum. The
    witnesses are the pieces the stores leave in the output block and in the accumulator. -/
noncomputable def run0 (c : Dev nD) (i : grid0.Coords) (arg3 : Memref sig .tc .vmem S1024x1024 .f32) (harg3 : arg3.IsWhole) (arg4 : Memref sig .tc .vmem S1024x819 .f32) (harg4 : arg4.IsWhole) (arg5 : Memref sig .tc .vmem S1024x819 .bf16) (harg5 : arg5.IsWhole) (arg6 : Memref sig .tc .vmem S1024x819 .f32) (harg6 : arg6.IsWhole) (hc0 : cond0_0 i) (hc1 : cond0_1 i)
    (x0 : Vec F S1024x1024 .f32) (x1 : Vec F S1024x819 .f32) :
    Σ' (LO : List (View.Piece (Elt F) S1024x819 .bf16)), { LS : List (View.Piece (Elt F) S1024x819 .f32) //
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc0__mm_kernel i arg3 harg3 arg4 harg4 arg5 harg5 arg6 harg6) K } := by
  refine ⟨?_, ?_, fun E K => ?run⟩
  case run =>
    simp only [cc0__mm_kernel_eq_skeleton]; unfold cc0__mm_kernel_skel
    unfold owns
    iintro ⟨⟨%f0, %hf0, H0⟩, ⟨%f1, %hf1, H1⟩, ⟨%d2, %f2, -, H2⟩, ⟨%ds, %fs, -, HS⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact HS

end Cert.Kernel.Hand

end
-- ==== Proof.KB.R00.lean ====
/-
  Launch 0 as a region of the program. The blocks the windows stage are read off the arrays as the region finds
  them; a point stores the output block its run leaves; the accumulator is reset at every point, so between points
  the launch's scoped buffers that no window stages are simply held whole at anything; the body obligation follows
  from the one symbolic run; and the region is stated over the thread state "every unscoped buffer at given
  contents, the core owing nothing", entered by splitting the three arrays out and left with the result's array
  at what the pipeline computes from the stored blocks.
-/
import proofs.«113214_j66838281060556_2_alg».proof.Proof.KB.R00Run
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

variable (V : (c : Dev nD) → (b : Ref sig .tc) → Buf (Elt F) ((c : Thread nD τ).loc b))

/-! ## The blocks the windows stage -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- A view of the output's staging buffer, through which contents are stated. -/
abbrev VO0 : View sig .tc .vmem S1024x819 .bf16 := (Memref.whole cc0_stg2_0 : Memref sig .tc .vmem S1024x819 .bf16).view

/-! ## What a point leaves -/

/-- The output block a point stores: what the run's pieces leave, read through the staging buffer's view. -/
def out0 (c : Dev nD) (t : Fin cfg0.N) : Vec F S1024x819 .bf16 :=
  VO0.read (Elt F) (VO0.writes (Elt F) VO0.junk (run0 c (grid0.coords t) (ms0_0 t) (hs0_0 t) (ms0_1 t) (hs0_1 t) (ms0_2 t) (hs0_2 t) scM0 (Memref.isWhole_whole _) (hcond0_0 t) (hcond0_1 t) (iblk0 V c 0 t) (iblk0 V c 1 t)).1)

/-- The stores into the output block cover it. -/
theorem coverO0 (c : Dev nD) (t : Fin cfg0.N) (y : S1024x819.Idx) :
    ∃ pc ∈ (run0 c (grid0.coords t) (ms0_0 t) (hs0_0 t) (ms0_1 t) (hs0_1 t) (ms0_2 t) (hs0_2 t) scM0 (Memref.isWhole_whole _) (hcond0_0 t) (hcond0_1 t) (iblk0 V c 0 t) (iblk0 V c 1 t)).1, y ∈ pc.1.set :=
  View.cover_of_tiledL _ S1024x819.size (by sl_kernel_rfl) y

/-! ## The invariant between points -/

/-- The scoped rest with the accumulator split out as a memref owned at some contents. The accumulator is reset at
    every point, so the invariant between points is the scoped rest itself, the accumulator at anything. -/
theorem scopedRest0_eq (c : Dev nD) :
    (Pipeline.scopedRest (Ix := Unit) (Name := ℕ) (U := UR sig nD τ × Counters) (Lvl := ℕ) (Val := Elt F) spec0 c : sProp 𝕄)
      = iprop((∃ d, owns (c : Thread nD τ) scM0 fullShare d)
          ∗ Pipeline.scopedRestBut (Ix := Unit) (Name := ℕ) (U := UR sig nD τ × Counters) (Lvl := ℕ) (Val := Elt F) spec0 c [cc0_scratch0]) := by
  rw [scopedRest0_split]; simp only [scM0, owns_whole]; try rfl

/-! ## The proof data -/

def dat0 (c : Dev nD) : Dat τ (Elt F) Unit ℕ (UR sig nD τ × Counters) ℕ cfg0 c where
  A w := V c (Pipeline.arrRef spec0 w)
  after w t := match w with
    | ⟨0, _⟩ => iblk0 V c 0 t
    | ⟨1, _⟩ => iblk0 V c 1 t
    | ⟨2, _⟩ => out0 V c t
  Φ _ := Pipeline.scopedRest (Ix := Unit) (Name := ℕ) (U := UR sig nD τ × Counters) (Lvl := ℕ) (Val := Elt F) spec0 c
  q _ := fullShare
  owed _ := 0

theorem A0_eq (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 V c t := by dsimp only [dat0]

/-- Each input window's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A0_eq]; try rfl) t d).trans
    (by unfold Dat.fetched Dat.blockOf iblk0; rw [A0_eq]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A0_eq]; try rfl) t d).trans
    (by unfold Dat.fetched Dat.blockOf iblk0; rw [A0_eq]; try rfl)

/-! ## The body obligation at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t)

set_option maxHeartbeats 4000000 in
/-- The body at any point. The two input buffers hold their blocks; the invariant hands over the accumulator at
    anything and takes it back at anything; the output buffer, found at anything, is handed back at the block the
    point stores; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Pipeline.scopedRest (Ix := Unit) (Name := ℕ) (U := UR sig nD τ × Counters) (Lvl := ℕ) (Val := Elt F) spec0 c from rfl,
    show (dat0 V c).Φ t.castSucc = Pipeline.scopedRest (Ix := Unit) (Name := ℕ) (U := UR sig nD τ × Counters) (Lvl := ℕ) (Val := Elt F) spec0 c from rfl]
  rw [show (dat0 V c).leavesExact 0 t = owns (c : Thread nD τ) (ms0_0 t) fullShare (iblk0 V c 0 t) from by
    unfold Dat.leavesExact; rw [liveAt0_0 t, after0_0]]
  rw [show (dat0 V c).leavesExact 1 t = owns (c : Thread nD τ) (ms0_1 t) fullShare (iblk0 V c 1 t) from by
    unfold Dat.leavesExact; rw [liveAt0_1 t, after0_1]]
  rw [show (dat0 V c).leavesExact 2 t = owns (c : Thread nD τ) (ms0_2 t) fullShare (out0 V c t) from by
    unfold Dat.leavesExact; rw [liveAt0_2 t, after0_2]]
  rw [scopedRest0_eq]
  unfold out0
  iintro ⟨⟨HS, Hb⟩, Ho, ⟨%d0, H0⟩, ⟨%d1, H1⟩, ⟨%d2, H2⟩⟩
  iapply ((run0 c (grid0.coords t) (ms0_0 t) (hs0_0 t) (ms0_1 t) (hs0_1 t) (ms0_2 t) (hs0_2 t) scM0 (Memref.isWhole_whole _) (hcond0_0 t) (hcond0_1 t) (iblk0 V c 0 t) (iblk0 V c 1 t)).2.2 Set.univ _)
  isplitl [H0]; · iexact H0
  isplitl [H1]; · iexact H1
  isplitl [H2]; · iexists _; iexact H2
  isplitl [HS]; · iexact HS
  iintro ⟨H0, H1, ⟨%e2, H2⟩, ⟨%es, HS⟩⟩
  isplitl [HS Hb]
  · isplitl [HS]
    · iexists _; unfold owns; iexists _; isplitr
      swap; · iexact HS
      ipureintro; rfl
    iexact Hb
  isplitl [Ho]; · iexact Ho
  isplitl [H0]; · iexact H0
  isplitl [H1]; · iexact H1
  unfold owns; iexists _; isplitr
  swap; · iexact H2
  ipureintro; exact View.read_writes_of_cover _ _ _ _ _ (coverO0 V c t)

theorem body_obligation0 (c : Dev nD) : BodyObligation (dat0 V c) (defs₀ (F := F)) Variants.none () Set.univ := fun t => by
  rw [bigSep_W0, bigSep_W0]
  exact sound_body0 V c t

/-! ## The region over the thread state -/

variable (Vp : (c : Dev nD) → (b : Ref sig .tc) → Buf (Elt F) ((c : Thread nD τ).loc b))
variable (pdats : (p : Fin 22) → (c : Dev nD) → Dat τ (Elt F) Unit ℕ (UR sig nD τ × Counters) ℕ (cfgs p) c)

/-- The result's array after the region, as the pipeline library computes it from the proof data. -/
def out0arr (c : Dev nD) : Buf (Elt F) ((c : Thread nD τ).loc main_v2) := (dat0 V c).arrAt 2 cfg0.N

set_option backward.isDefEq.respectTransparency.types false in
set_option maxHeartbeats 2000000 in
/-- Launch 0 over the thread state "every unscoped buffer at `V c`, the core owing nothing": entered by
    splitting its three arrays out of the unscoped buffers, left with them put back at `Vp c`, which has the
    result's array at `out0arr` and agrees with `V c` elsewhere. -/
def reg0 (hp : ∀ c, pdats 0 c = dat0 V c)
    (hVp_out : ∀ c, Vp c main_v2 = out0arr V c)
    (hVp_ne : ∀ c (b : Ref sig .tc), b ≠ main_v2 → Vp c b = V c b) :
    Pipeline.RegionSeg (pcfgs (F := F)) (fun p => (cfgs p).toPCfg_adm) pdats () defs₀ Variants.none (fun _ => (∅ : Finset Unit)) (fun _ _ => (0 : ℕ)) 0 where
  win := launch0.win.to₀
  block_pos := launch0.block_pos
  stage_whole := launch0.stage_whole
  K := PEmpty
  osem k := k.elim
  ho := Pipeline.OwnSemFacts.none _
  hbody c := by rw [hp c]; exact (body_obligation0 V c).loose
  hwaits := Pipeline.hwaits_of_owed_zero _ _ _ _ _ _ 0 fun c t => by rw [hp c]; rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ × Counters) (Lvl := ℕ) spec0 c (V c)
  hentry c := by
    rw [Pipeline.ownSems0_none]
    have hsplit := Pipeline.arrays_of_unscopedBufs (p := 0) (pcfgs (F := F)) (fun p => (cfgs p).toPCfg_adm) pdats launch0.win launch0.arr_whole c
      ((pdats 0 c).share_full fun w => by rw [hp c]; rfl) (V c) (fun w => by rw [hp c]; rfl)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hp c]; exact trivial)
      rw [show (pdats 0 c).owed 0 = 0 from by rw [hp c]; rfl]
      iexact HO
    isplitr; · iempintro
    iexact Hrest
  hin c := by
    rw [hp c, show (dat0 V c).Φ 0 = Pipeline.scopedRest (Ix := Unit) (Name := ℕ) (U := UR sig nD τ × Counters) (Lvl := ℕ) (Val := Elt F) spec0 c from rfl]
    iintro ⟨-, -, Hr⟩; iexact Hr
  hout c := by
    rw [Pipeline.ownSems0_none, hp c]
    change (Pipeline.scopedRest (Ix := Unit) (Name := ℕ) (U := UR sig nD τ × Counters) (Lvl := ℕ) (Val := Elt F) spec0 c : sProp 𝕄) ⊢ _
    iintro Hr
    isplitr; · iempintro
    isplitr; · iempintro
    iexact Hr
  hexit c := by
    have hjoin := Pipeline.unscopedBufs_of_arrays (p := 0) (pcfgs (F := F)) (fun p => (cfgs p).toPCfg_adm) (Ix := Unit) (Name := ℕ) (U := UR sig nD τ × Counters) (Lvl := ℕ) launch0.win launch0.arr_whole c
      pdats ((pdats 0 c).share_full fun w => by rw [hp c]; rfl) (V c) (Vp c) ((pdats 0 c).arrAt · cfg0.N)
      (fun w => by
        fin_cases w
        · exact (((pdats 0 c).arrAt_in 0 rfl _).trans (by rw [hp c]; rfl)).trans (hVp_ne c main_arg0 (by decide)).symm
        · exact (((pdats 0 c).arrAt_in 1 rfl _).trans (by rw [hp c]; rfl)).trans (hVp_ne c main_arg5 (by decide)).symm
        · exact (by rw [hp c]; rfl : (pdats 0 c).arrAt 2 cfg0.N = out0arr V c).trans (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W
    rw [show (pdats 0 c).owed (Fin.last _) = 0 from by rw [hp c]; rfl]
    iexact HO

end Cert.Kernel.Hand

end
-- ==== Proof.KB.R01Base.lean ====
/-
  Launch 1 of the program: a matrix product accumulated over the third grid axis (grid 4 × 1 × 4: four row blocks,
  four contraction blocks), a bias row added and tanh applied when the
  last block has been added. This module names the two conditions of the body on the grid point — "the
  contraction's first block" (third coordinate 0) and "its last block" (third coordinate 3) —, decides them
  over the sixteen points, and records where the output window is idle and where its block is written back.
-/
import proofs.«113214_j66838281060556_2_alg».proof.Proof.Gen.Kernel.Launch
import proofs.«113214_j66838281060556_2_alg».proof.Proof.Gen.Kernel.Skeleton
import proofs.«113214_j66838281060556_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

/-- The accumulator is reset: the point starts a contraction (third grid coordinate 0). -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The result is stored: the point ends a contraction (third grid coordinate 3). -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-- The three input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from a contraction's last block the output window is idle and its block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At a contraction's last block the output window is live. -/
theorem liveAt1_3 : ∀ t : Fin cfg1.N, cond1_1 (grid1.coords t) → cfg1.idle 3 (grid1.coords t) = false := by decide +kernel

/-- Each window's current staging memref at a point, as the pipeline passes it, and its wholeness. -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x819 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x819 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x819 .f32 := win1_3.stage (cfg1.slots t 3)
abbrev hs1_3 (t : Fin cfg1.N) : (ms1_3 t).IsWhole := hstage1_3 ((cfg1.slots t 3).cast nbuf1_3)
/-- The accumulator: a whole scoped buffer of the launch's own. -/
abbrev scM1 : Memref sig .tc .vmem S1024x819 .f32 := Memref.whole cc1_scratch0
abbrev VS1 : View sig .tc .vmem S1024x819 .f32 := scM1.view

end Cert.Kernel.Hand

end
-- ==== Proof.KB.R01Run.lean ====
/-
  Launch 1, the body run symbolically in each of its three control cases: the first block of a contraction
  (the accumulator reset, then the first product added), a middle block (the product added), the last block
  (the product added, then the bias row added and tanh applied into the output block). Each run's witness is
  the list of pieces its stores leave in the accumulator (and, in the last case, in the output block).
-/
import proofs.«113214_j66838281060556_2_alg».proof.Proof.KB.R01Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

set_option maxHeartbeats 2000000 in
/-- The first block of a contraction that is not also its last: the accumulator, found at anything, is reset to
    zero and ends at the product of the two input blocks added to zero; the bias block and the idle output
    block are handed back untouched. -/
noncomputable def run1_A (c : Dev nD) (i : grid1.Coords) (arg3 : Memref sig .tc .vmem S1024x1024 .bf16) (harg3 : arg3.IsWhole) (arg4 : Memref sig .tc .vmem S1024x819 .bf16) (harg4 : arg4.IsWhole) (arg5 : Memref sig .tc .vmem S1x819 .f32) (harg5 : arg5.IsWhole) (arg6 : Memref sig .tc .vmem S1024x819 .f32) (harg6 : arg6.IsWhole) (arg7 : Memref sig .tc .vmem S1024x819 .f32) (harg7 : arg7.IsWhole) (hc0 : cond1_0 i) (hc1 : ¬cond1_1 i)
    (x0 : Vec F S1024x1024 .bf16) (x1 : Vec F S1024x819 .bf16) (x2 : Vec F S1x819 .f32) :
    { LS : List (View.Piece (Elt F) S1024x819 .f32) //
      ∀ (xi : Vec F S1024x819 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc1__mm_kernel i arg3 harg3 arg4 harg4 arg5 harg5 arg6 harg6 arg7 harg7) K } := by
  refine ⟨?_, fun xi E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2
    obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 2000000 in
/-- A middle block of a contraction (neither condition holds): the accumulator, found at `xs`, ends at the
    product of the two input blocks added to `xs`; the bias block and the idle output block are handed back
    untouched. The pieces written into the accumulator are the witness the symbolic run finds. -/
noncomputable def run1_B (c : Dev nD) (i : grid1.Coords) (arg3 : Memref sig .tc .vmem S1024x1024 .bf16) (harg3 : arg3.IsWhole) (arg4 : Memref sig .tc .vmem S1024x819 .bf16) (harg4 : arg4.IsWhole) (arg5 : Memref sig .tc .vmem S1x819 .f32) (harg5 : arg5.IsWhole) (arg6 : Memref sig .tc .vmem S1024x819 .f32) (harg6 : arg6.IsWhole) (arg7 : Memref sig .tc .vmem S1024x819 .f32) (harg7 : arg7.IsWhole) (hc0 : ¬cond1_0 i) (hc1 : ¬cond1_1 i)
    (x0 : Vec F S1024x1024 .bf16) (x1 : Vec F S1024x819 .bf16) (x2 : Vec F S1x819 .f32) (xs : Vec F S1024x819 .f32) :
    { LS : List (View.Piece (Elt F) S1024x819 .f32) //
      ∀ (xi : Vec F S1024x819 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi ∗ owns (c : Thread nD τ) arg7 fullShare xs
            ∗ (iprop(owns (c : Thread nD τ) arg3 fullShare x0 ∗ owns (c : Thread nD τ) arg4 fullShare x1 ∗ owns (c : Thread nD τ) arg5 fullShare x2
                ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc1__mm_kernel i arg3 harg3 arg4 harg4 arg5 harg5 arg6 harg6 arg7 harg7) K } := by
  refine ⟨?_, fun xi E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 2000000 in
/-- The last block of a contraction that is not also its first: the accumulator, found at `xs`, ends at the
    product of the two input blocks added to `xs`, and the output block, found at anything, is stored whole:
    tanh of that sum plus the bias row. -/
noncomputable def run1_C (c : Dev nD) (i : grid1.Coords) (arg3 : Memref sig .tc .vmem S1024x1024 .bf16) (harg3 : arg3.IsWhole) (arg4 : Memref sig .tc .vmem S1024x819 .bf16) (harg4 : arg4.IsWhole) (arg5 : Memref sig .tc .vmem S1x819 .f32) (harg5 : arg5.IsWhole) (arg6 : Memref sig .tc .vmem S1024x819 .f32) (harg6 : arg6.IsWhole) (arg7 : Memref sig .tc .vmem S1024x819 .f32) (harg7 : arg7.IsWhole) (hc0 : ¬cond1_0 i) (hc1 : cond1_1 i)
    (x0 : Vec F S1024x1024 .bf16) (x1 : Vec F S1024x819 .bf16) (x2 : Vec F S1x819 .f32) (xs : Vec F S1024x819 .f32) :
    Σ' (LO : List (View.Piece (Elt F) S1024x819 .f32)), { LS : List (View.Piece (Elt F) S1024x819 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LS)) -∗ K ⟨⟩))
          ⊢ wp frame (wpE (defs₀ (F := F)) Variants.none c none) E (cc1__mm_kernel i arg3 harg3 arg4 harg4 arg5 harg5 arg6 harg6 arg7 harg7) K } := by
  refine ⟨?_, ?_, fun E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2
    obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    iexists _; iexact HS

end Cert.Kernel.Hand

end
-- ==== Proof.KB.R01.lean ====
/-
  Launch 1 as a segment of the program: tanh(A·B + bias) with A a graph matrix, B the right
  factor and a bias row, computed block by block on the grid 4 × 1 × 4 with an accumulator carried along the
  contraction. What the accumulator and the output block hold after each point is defined by recursion on the
  point (the first block of a contraction resets, a middle block adds, the last block adds and stores tanh of the
  sum plus the bias); the invariant between points is the accumulator at that value beside the launch's other
  scoped buffers; the proof data states each window's block after the body; the body obligation is the three
  symbolic runs put together by cases on the point's position in its contraction; and the segment record enters
  the launch from a thread state holding every unscoped buffer at an entry valuation and leaves it at the
  valuation updated at the result's array.
-/
import proofs.«113214_j66838281060556_2_alg».proof.Proof.KB.R01Run
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

variable (V : (c : Dev nD) → (b : Ref sig .tc) → Buf (Elt F) ((c : Thread nD τ).loc b))

/-! ## The blocks the windows stage -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- A view of the output's staging buffer and one of the accumulator, through which contents are stated. -/
abbrev VO1 : View sig .tc .vmem S1024x819 .f32 := (Memref.whole cc1_stg3_0 : Memref sig .tc .vmem S1024x819 .f32).view

/-! ## What each case leaves -/

/-- The accumulator after a first block. -/
def accA1 (c : Dev nD) (t : Fin cfg1.N) (h0 : t.val % 4 = 0) (h1 : ¬t.val % 4 = 3) : Vec F S1024x819 .f32 :=
  VS1.read (Elt F) (VS1.writes (Elt F) VS1.junk (run1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)).1)
/-- The accumulator after a middle block, from what the point before left. -/
def accB1 (c : Dev nD) (t : Fin cfg1.N) (h0 : ¬t.val % 4 = 0) (h1 : ¬t.val % 4 = 3) (xs : Vec F S1024x819 .f32) : Vec F S1024x819 .f32 :=
  VS1.read (Elt F) (VS1.writes (Elt F) VS1.junk (run1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) xs).1)
/-- The accumulator after a last block, -/
def accC1 (c : Dev nD) (t : Fin cfg1.N) (h0 : ¬t.val % 4 = 0) (h1 : t.val % 4 = 3) (xs : Vec F S1024x819 .f32) : Vec F S1024x819 .f32 :=
  VS1.read (Elt F) (VS1.writes (Elt F) VS1.junk (run1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) xs).2.1)
/-- and the output block stored there. -/
def outC1 (c : Dev nD) (t : Fin cfg1.N) (h0 : ¬t.val % 4 = 0) (h1 : t.val % 4 = 3) (xs : Vec F S1024x819 .f32) : Vec F S1024x819 .f32 :=
  VO1.read (Elt F) (VO1.writes (Elt F) VO1.junk (run1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) xs).1)

theorem coverA1 (c : Dev nD) (t : Fin cfg1.N) (h0 : t.val % 4 = 0) (h1 : ¬t.val % 4 = 3) (y : S1024x819.Idx) :
    ∃ pc ∈ (run1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)).1, y ∈ pc.1.set :=
  View.cover_of_tiledL _ S1024x819.size (by sl_kernel_rfl) y
theorem coverB1 (c : Dev nD) (t : Fin cfg1.N) (h0 : ¬t.val % 4 = 0) (h1 : ¬t.val % 4 = 3) (xs : Vec F S1024x819 .f32) (y : S1024x819.Idx) :
    ∃ pc ∈ (run1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) xs).1, y ∈ pc.1.set :=
  View.cover_of_tiledL _ S1024x819.size (by sl_kernel_rfl) y
theorem coverCs1 (c : Dev nD) (t : Fin cfg1.N) (h0 : ¬t.val % 4 = 0) (h1 : t.val % 4 = 3) (xs : Vec F S1024x819 .f32) (y : S1024x819.Idx) :
    ∃ pc ∈ (run1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) xs).2.1, y ∈ pc.1.set :=
  View.cover_of_tiledL _ S1024x819.size (by sl_kernel_rfl) y
theorem coverCo1 (c : Dev nD) (t : Fin cfg1.N) (h0 : ¬t.val % 4 = 0) (h1 : t.val % 4 = 3) (xs : Vec F S1024x819 .f32) (y : S1024x819.Idx) :
    ∃ pc ∈ (run1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) xs).1, y ∈ pc.1.set :=
  View.cover_of_tiledL _ S1024x819.size (by sl_kernel_rfl) y

/-! ## The accumulation, point by point -/

/-- What the output's staging buffer (first component; meaningful at a contraction's last block only) and the
    accumulator (second component) hold after the body at position `n`. -/
def outsAt1 (c : Dev nD) : (n : ℕ) → n < cfg1.N → Vec F S1024x819 .f32 × Vec F S1024x819 .f32
  | 0, hn => (VO1.read (Elt F) VO1.junk, accA1 V c ⟨0, hn⟩ (Nat.zero_mod _) (by simp))
  | n + 1, hn =>
    if h0 : (n + 1) % 4 = 0 then
      if h1 : (n + 1) % 4 = 3 then False.elim (by omega)
      else (VO1.read (Elt F) VO1.junk, accA1 V c ⟨n + 1, hn⟩ h0 h1)
    else
      if h1 : (n + 1) % 4 = 3 then
        (outC1 V c ⟨n + 1, hn⟩ h0 h1 (outsAt1 c n (Nat.lt_of_succ_lt hn)).2, accC1 V c ⟨n + 1, hn⟩ h0 h1 (outsAt1 c n (Nat.lt_of_succ_lt hn)).2)
      else
        (VO1.read (Elt F) VO1.junk, accB1 V c ⟨n + 1, hn⟩ h0 h1 (outsAt1 c n (Nat.lt_of_succ_lt hn)).2)

theorem outsAt1_A (c : Dev nD) (t : Fin cfg1.N) (h0 : t.val % 4 = 0) (h1 : ¬t.val % 4 = 3) :
    outsAt1 V c t.val t.isLt = (VO1.read (Elt F) VO1.junk, accA1 V c t h0 h1) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (VO1.read (Elt F) VO1.junk, accB1 V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (outC1 V c t h0 h1 (outsAt1 V c (t.val - 1) (Nat.lt_of_le_of_lt (Nat.sub_le _ _) t.isLt)).2,
      accC1 V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant between points -/

/-- Before the first point the launch's scoped buffers that no window stages, whole; afterwards the accumulator at
    what the point before left, and the other such buffers unopened. -/
def PhiS1 (c : Dev nD) : (n : ℕ) → n ≤ cfg1.N → sProp 𝕄
  | 0, _ => Pipeline.scopedRest (Ix := Unit) (Name := ℕ) (U := UR sig nD τ × Counters) (Lvl := ℕ) (Val := Elt F) spec1 c
  | n + 1, hn => iprop(owns (c : Thread nD τ) scM1 fullShare (outsAt1 V c n hn).2
      ∗ Pipeline.scopedRestBut (Ix := Unit) (Name := ℕ) (U := UR sig nD τ × Counters) (Lvl := ℕ) (Val := Elt F) spec1 c [cc1_scratch0])

theorem PhiS1_pos (c : Dev nD) (n : ℕ) (h : n ≤ cfg1.N) (hz : n ≠ 0) :
    PhiS1 V c n h = iprop(owns (c : Thread nD τ) scM1 fullShare (outsAt1 V c (n - 1) (by omega)).2
      ∗ Pipeline.scopedRestBut (Ix := Unit) (Name := ℕ) (U := UR sig nD τ × Counters) (Lvl := ℕ) (Val := Elt F) spec1 c [cc1_scratch0]) := by
  cases n with
  | zero => exact absurd rfl hz
  | succ n => rfl

/-- The scoped rest with the accumulator split out as a memref owned at some contents. -/
theorem scopedRest1_eq (c : Dev nD) :
    (Pipeline.scopedRest (Ix := Unit) (Name := ℕ) (U := UR sig nD τ × Counters) (Lvl := ℕ) (Val := Elt F) spec1 c : sProp 𝕄)
      = iprop((∃ d, owns (c : Thread nD τ) scM1 fullShare d)
          ∗ Pipeline.scopedRestBut (Ix := Unit) (Name := ℕ) (U := UR sig nD τ × Counters) (Lvl := ℕ) (Val := Elt F) spec1 c [cc1_scratch0]) := by
  rw [scopedRest1_split]; simp only [scM1, owns_whole]; try rfl

/-! ## The proof data -/

def dat1 (c : Dev nD) : Dat τ (Elt F) Unit ℕ (UR sig nD τ × Counters) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A1_eq (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem Phi1_castSucc (c : Dev nD) (t : Fin cfg1.N) :
    (dat1 V c).Φ t.castSucc = PhiS1 V c t.val (Nat.le_of_lt t.isLt) := by
  dsimp only [dat1]; simp only [Fin.coe_castSucc]

/-- Each input window's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A1_eq]; try rfl) t d).trans
    (by unfold Dat.fetched Dat.blockOf iblk1; rw [A1_eq]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A1_eq]; try rfl) t d).trans
    (by unfold Dat.fetched Dat.blockOf iblk1; rw [A1_eq]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A1_eq]; try rfl) t d).trans
    (by unfold Dat.fetched Dat.blockOf iblk1; rw [A1_eq]; try rfl)

/-! ## The body obligation at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4000000 in
/-- The body at any point. The three input buffers hold their blocks; the point's position in its contraction
    selects the case; the invariant hands over the accumulator (at anything before the very first point, else at
    what the point before left) and takes it back at this point's contents; an idle output buffer is handed back
    as found, a stored one at the case's block; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = iprop(owns (c : Thread nD τ) scM1 fullShare (outsAt1 V c t.val t.isLt).2
      ∗ Pipeline.scopedRestBut (Ix := Unit) (Name := ℕ) (U := UR sig nD τ × Counters) (Lvl := ℕ) (Val := Elt F) spec1 c [cc1_scratch0]) from rfl]
  have hN : t.val < 16 := lt_of_lt_of_eq t.isLt (show cfg1.N = 16 from N_1)
  rw [show (dat1 V c).leavesExact 0 t = owns (c : Thread nD τ) (ms1_0 t) fullShare (iblk1 V c 0 t) from by
    unfold Dat.leavesExact; rw [liveAt1_0 t, after1_0]]
  rw [show (dat1 V c).leavesExact 1 t = owns (c : Thread nD τ) (ms1_1 t) fullShare (iblk1 V c 1 t) from by
    unfold Dat.leavesExact; rw [liveAt1_1 t, after1_1]]
  rw [show (dat1 V c).leavesExact 2 t = owns (c : Thread nD τ) (ms1_2 t) fullShare (iblk1 V c 2 t) from by
    unfold Dat.leavesExact; rw [liveAt1_2 t, after1_2]]
  rw [Phi1_castSucc V c t]
  by_cases h1 : t.val % 4 = 3
  · -- the last block of a contraction
    have h0 : ¬t.val % 4 = 0 := by omega
    have hz : t.val ≠ 0 := by omega
    rw [show (dat1 V c).leavesExact 3 t = owns (c : Thread nD τ) (ms1_3 t) fullShare (outsAt1 V c t.val t.isLt).1 from by
      unfold Dat.leavesExact; rw [liveAt1_3 t ((hcond1_1 t).mpr h1), after1_3]]
    rw [outsAt1_C V c t h0 h1, PhiS1_pos V c _ _ hz]
    dsimp only
    unfold outC1 accC1
    iintro ⟨⟨HS, Hb⟩, Ho, ⟨%d0, H0⟩, ⟨%d1, H1⟩, ⟨%d2, H2⟩, ⟨%d3, H3⟩⟩
    iapply ((run1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hb]
    · isplitl [HS]
      · unfold owns; iexists _; isplitr
        swap; · iexact HS
        ipureintro; exact View.read_writes_of_cover _ _ _ _ _ (coverCs1 V c t h0 h1 _)
      iexact Hb
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverCo1 V c t h0 h1 _)
  · rw [Dat.leavesExact_idle (dat1 V c) 3 t (idleAt1_3 t (fun h => h1 ((hcond1_1 t).mp h))) (noFlush1_3 t (fun h => h1 ((hcond1_1 t).mp h)))]
    by_cases h0 : t.val % 4 = 0
    · -- the first block of a contraction
      rw [outsAt1_A V c t h0 h1]
      dsimp only
      unfold accA1
      by_cases hz : t.val = 0
      · rw [show PhiS1 V c t.val (Nat.le_of_lt t.isLt) = Pipeline.scopedRest (Ix := Unit) (Name := ℕ) (U := UR sig nD τ × Counters) (Lvl := ℕ) (Val := Elt F) spec1 c from by
          obtain ⟨n, hn⟩ := t; dsimp only at hz; subst hz; rfl, scopedRest1_eq]
        iintro ⟨⟨HS, Hb⟩, Ho, ⟨%d0, H0⟩, ⟨%d1, H1⟩, ⟨%d2, H2⟩, ⟨%d3, H3⟩⟩
        iapply ((run1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)).2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hb]
        · isplitl [HS]
          · unfold owns; iexists _; isplitr
            swap; · iexact HS
            ipureintro; exact View.read_writes_of_cover _ _ _ _ _ (coverA1 V c t h0 h1)
          iexact Hb
        isplitl [Ho]; · iexact Ho
        isplitl [H0]; · iexact H0
        isplitl [H1]; · iexact H1
        isplitl [H2]; · iexact H2
        iexists _; iexact H3
      · rw [PhiS1_pos V c _ _ hz]
        iintro ⟨⟨HS, Hb⟩, Ho, ⟨%d0, H0⟩, ⟨%d1, H1⟩, ⟨%d2, H2⟩, ⟨%d3, H3⟩⟩
        iapply ((run1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)).2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hb]
        · isplitl [HS]
          · unfold owns; iexists _; isplitr
            swap; · iexact HS
            ipureintro; exact View.read_writes_of_cover _ _ _ _ _ (coverA1 V c t h0 h1)
          iexact Hb
        isplitl [Ho]; · iexact Ho
        isplitl [H0]; · iexact H0
        isplitl [H1]; · iexact H1
        isplitl [H2]; · iexact H2
        iexists _; iexact H3
    · -- a middle block
      have hz : t.val ≠ 0 := by omega
      rw [outsAt1_B V c t h0 h1, PhiS1_pos V c _ _ hz]
      dsimp only
      unfold accB1
      iintro ⟨⟨HS, Hb⟩, Ho, ⟨%d0, H0⟩, ⟨%d1, H1⟩, ⟨%d2, H2⟩, ⟨%d3, H3⟩⟩
      iapply ((run1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hb]
      · isplitl [HS]
        · unfold owns; iexists _; isplitr
          swap; · iexact HS
          ipureintro; exact View.read_writes_of_cover _ _ _ _ _ (coverB1 V c t h0 h1 _)
        iexact Hb
      isplitl [Ho]; · iexact Ho
      isplitl [H0]; · iexact H0
      isplitl [H1]; · iexact H1
      isplitl [H2]; · iexact H2
      iexists _; iexact H3

theorem body_obligation1 (c : Dev nD) : BodyObligation (dat1 V c) (defs₀ (F := F)) Variants.none () Set.univ := fun t => by
  rw [bigSep_W1, bigSep_W1]
  exact sound_body1 V c t

/-! ## The region over the thread state -/

variable (Vp : (c : Dev nD) → (b : Ref sig .tc) → Buf (Elt F) ((c : Thread nD τ).loc b))
variable (pdats : (p : Fin 22) → (c : Dev nD) → Dat τ (Elt F) Unit ℕ (UR sig nD τ × Counters) ℕ (cfgs p) c)

/-- The result's array after the region, as the pipeline library computes it from the proof data. -/
def out1 (c : Dev nD) : Buf (Elt F) ((c : Thread nD τ).loc main_v4) := (dat1 V c).arrAt 3 cfg1.N

set_option backward.isDefEq.respectTransparency.types false in
set_option maxHeartbeats 2000000 in
/-- Launch 1 over the thread state "every unscoped buffer at `V c`, the core owing nothing": entered by
    splitting its four arrays out of the unscoped buffers, left with them put back at `Vp c`, which has the
    result's array at `out1` and agrees with `V c` elsewhere. -/
def reg1 (hp : ∀ c, pdats 1 c = dat1 V c)
    (hVp_out : ∀ c, Vp c main_v4 = out1 V c)
    (hVp_ne : ∀ c (b : Ref sig .tc), b ≠ main_v4 → Vp c b = V c b) :
    Pipeline.RegionSeg (pcfgs (F := F)) (fun p => (cfgs p).toPCfg_adm) pdats () defs₀ Variants.none (fun _ => (∅ : Finset Unit)) (fun _ _ => (0 : ℕ)) 1 where
  win := launch1.win.to₀
  block_pos := launch1.block_pos
  stage_whole := launch1.stage_whole
  K := PEmpty
  osem k := k.elim
  ho := Pipeline.OwnSemFacts.none _
  hbody c := by rw [hp c]; exact (body_obligation1 V c).loose
  hwaits := Pipeline.hwaits_of_owed_zero _ _ _ _ _ _ 1 fun c t => by rw [hp c]; rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ × Counters) (Lvl := ℕ) spec1 c (V c)
  hentry c := by
    rw [Pipeline.ownSems0_none]
    have hsplit := Pipeline.arrays_of_unscopedBufs (p := 1) (pcfgs (F := F)) (fun p => (cfgs p).toPCfg_adm) pdats launch1.win launch1.arr_whole c
      ((pdats 1 c).share_full fun w => by rw [hp c]; rfl) (V c) (fun w => by rw [hp c]; rfl)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hp c]
      unfold Pipeline.Dat.owesAt Pipeline.owesWithin
      icases HO with ⟨%W, HO⟩; iexists W; isplitr; · ipureintro; exact fun _ _ => Or.inl trivial
      iexact HO
    isplitr; · iempintro
    iexact Hrest
  hin c := by
    rw [hp c, show (dat1 V c).Φ 0 = Pipeline.scopedRest (Ix := Unit) (Name := ℕ) (U := UR sig nD τ × Counters) (Lvl := ℕ) (Val := Elt F) spec1 c from rfl]
    iintro ⟨-, -, Hr⟩; iexact Hr
  hout c := by
    rw [Pipeline.ownSems0_none, hp c]
    refine (Entails.of_eq ((show (dat1 V c).Φ (Fin.last _) = PhiS1 V c (Fin.last cfg1.N).val (Nat.le_of_lt_succ (Fin.last cfg1.N).isLt) from rfl).trans
      (PhiS1_pos V c _ _ (by rw [Fin.val_last]; have : cfg1.N = 16 := N_1; omega)))).trans ?_
    change _ ⊢ iprop(BI.emp ∗ BI.emp ∗ Pipeline.scopedRest (Ix := Unit) (Name := ℕ) (U := UR sig nD τ × Counters) (Lvl := ℕ) (Val := Elt F) spec1 c)
    rw [scopedRest1_eq]
    iintro ⟨HS, Hb⟩
    isplitr; · iempintro
    isplitr; · iempintro
    isplitl [HS]; · iexists _; iexact HS
    iexact Hb
  hexit c := by
    have hjoin := Pipeline.unscopedBufs_of_arrays (p := 1) (pcfgs (F := F)) (fun p => (cfgs p).toPCfg_adm) (Ix := Unit) (Name := ℕ) (U := UR sig nD τ × Counters) (Lvl := ℕ) launch1.win launch1.arr_whole c
      pdats ((pdats 1 c).share_full fun w => by rw [hp c]; rfl) (V c) (Vp c) ((pdats 1 c).arrAt · cfg1.N)
      (fun w => by
        fin_cases w
        · exact (((pdats 1 c).arrAt_in 0 rfl _).trans (by rw [hp c]; rfl)).trans (hVp_ne c main_v0 (by decide)).symm
        · exact (((pdats 1 c).arrAt_in 1 rfl _).trans (by rw [hp c]; rfl)).trans (hVp_ne c main_v2 (by decide)).symm
        · exact (((pdats 1 c).arrAt_in 2 rfl _).trans (by rw [hp c]; rfl)).trans (hVp_ne c main_v3 (by decide)).symm
        · exact (by rw [hp c]; rfl : (pdats 1 c).arrAt 3 cfg1.N = out1 V c).trans (hVp_out c).symm)
      (fun b hb => hVp_ne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W
    rw [show (pdats 1 c).owed (Fin.last _) = 0 from by rw [hp c]; rfl]
    iexact HO

end Cert.Kernel.Hand

end
-- ==== Proof.KB.R02Base.lean ====
/-
  Launch 2 of the program: a matrix product accumulated over the third grid axis (grid 4 × 1 × 4: four row blocks,
  four contraction blocks), stored — with no bias and no activation — when
  the last block has been added. This module names the two conditions of the body on the grid point ("the
  contraction's first block", "its last block"), decides them over the sixteen points, and records where the
  output window is idle and where its block is written back.
-/
import proofs.«113214_j66838281060556_2_alg».proof.Proof.Gen.Kernel.Launch
import proofs.«113214_j66838281060556_2_alg».proof.Proof.Gen.Kernel.Skeleton
import proofs.«113214_j66838281060556_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

/-- The accumulator is reset: the point starts a contraction (third grid coordinate 0). -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- The result is stored: the point ends a contraction (third grid coordinate 3). -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-- The two input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
/-- Away from a contraction's last block the output window is idle and its block is not written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
/-- At a contraction's last block the output window is live. -/
theorem liveAt2_2 : ∀ t : Fin cfg2.N, cond2_1 (grid2.coords t) → cfg2.idle 2 (grid2.coords t) = false := by decide +kernel

/-- Each window's current staging memref at a point, as the pipeline passes it, and its wholeness. -/
abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x819 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x819 .bf16 := win2_2.stage (cfg2.slots t 2)
abbrev hs2_2 (t : Fin cfg2.N) : (ms2_2 t).IsWhole := hstage2_2 ((cfg2.slots t 2).cast nbuf2_2)
/-- The accumulator: a whole scoped buffer of the launch's own. -/
abbrev scM2 : Memref sig .tc .vmem S1024x819 .f32 := Memref.whole cc2_scratch0
abbrev VS2 : View sig .tc .vmem S1024x819 .f32 := scM2.view

end Cert.Kernel.Hand

end
-- ==== Proof.KB.R02Run.lean ====
/-
  Launch 2, the body run symbolically in each of its three control cases: the first block of a contraction
  (the accumulator reset, then the first product added), a middle block (the product added), the last block
  (the product added, then the sum stored into the output block in the output's format). Each run's witness
  is the list of pieces its stores leave in the accumulator (and, in the last case, in the output block).
-/
import proofs.«113214_j66838281060556_2_alg».proof.Proof.KB.R02Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

set_option maxHeartbeats 2000000 in
/-- The first block of a contraction that is not also its last: the accumulator, found at anything, is reset to
    zero and ends at the product of the two input blocks added to zero; the idle output block is handed back
    untouched. The pieces written into the accumulator are the witness the symbolic run finds. -/
noncomputable def run2_A (c : Dev nD) (i : grid2.Coords) (arg3 : Memref sig .tc .vmem S1024x1024 .bf16) (harg3 : arg3.IsWhole) (arg4 : Memref sig .tc .vmem S1024x819 .f32) (harg4 : arg4.IsWhole) (arg5 : Memref sig .tc .vmem S1024x819 .bf16) (harg5 : arg5.IsWhole) (arg6 : Memref sig .tc .vmem S1024x819 .f32) (harg6 : arg6.IsWhole) (hc0 : cond2_0 i) (hc1 : ¬cond2_1 i)
    (x0 : Vec F S1024x1024 .bf16) (x1 : Vec F S1024x819 .f32) :
    { LS : List (View.Piece (Elt F) S1024x819 .f32) //
      ∀ (xi : Vec F S1024x819 .bf16) (E : Set ℕ) (K : PUnit → sProp 𝕄),
        iprop(owns (c : Thread nD τ) arg3 fullShare x0 ∗ owns (c : Thread nD τ) arg4 fullShare x1 ∗ owns (c : Thread nD τ) arg5 fullShare xi ∗ (∃ d, owns (c : Thread nD τ) arg6 fullShare d)
            ∗ (iprop(owns (c : Thread nD τ) arg3 fullShare x0 ∗ owns (c : Thread nD τ) arg4 fullShare x1 ∗ owns (c : Thread nD τ) arg5 fullShare xi
                ∗ (∃ f, arg6.view.loc (c : Thread nD τ) ↦[arg6.view.set]{fullShare} arg6.view.writes (Elt F) f LS)) -∗ K ⟨⟩))
          ⊢ wp frame (wpE (defs₀ (F := F)) Variants.none c none) E (cc2__mm_kernel i arg3 harg3 arg4 harg4 arg5 harg5 arg6 harg6) K } := by
  refine ⟨?_, fun xi E K => ?run⟩
  case run =>
    simp only [cc2__mm_kernel_eq_skeleton]; unfold cc2__mm_kernel_skel
    unfold owns
    iintro ⟨⟨%f0, %hf0, H0⟩, ⟨%f1, %hf1, H1⟩, ⟨%f3, %hf3, H3⟩, ⟨%ds, %fs, -, HS⟩, Hk⟩
    obtain rfl := harg3.eq_unread hf0; obtain rfl := harg4.eq_unread hf1; obtain rfl := harg5.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H3]
    · iexists _; isplitr; · ipureintro; exact harg5.read_unread _
      iexact H3
    iexists _; iexact HS

set_option maxHeartbeats 2000000 in
/-- A middle block of a contraction: the accumulator, found at `xs`, ends at the product of the two input
    blocks added to `xs`; the idle output block is handed back untouched. -/
noncomputable def run2_B (c : Dev nD) (i : grid2.Coords) (arg3 : Memref sig .tc .vmem S1024x1024 .bf16) (harg3 : arg3.IsWhole) (arg4 : Memref sig .tc .vmem S1024x819 .f32) (harg4 : arg4.IsWhole) (arg5 : Memref sig .tc .vmem S1024x819 .bf16) (harg5 : arg5.IsWhole) (arg6 : Memref sig .tc .vmem S1024x819 .f32) (harg6 : arg6.IsWhole) (hc0 : ¬cond2_0 i) (hc1 : ¬cond2_1 i)
    (x0 : Vec F S1024x1024 .bf16) (x1 : Vec F S1024x819 .f32) (xs : Vec F S1024x819 .f32) :
    { LS : List (View.Piece (Elt F) S1024x819 .f32) //
      ∀ (xi : Vec F S1024x819 .bf16) (E : Set ℕ) (K : PUnit → sProp 𝕄),
        iprop(owns (c : Thread nD τ) arg3 fullShare x0 ∗ owns (c : Thread nD τ) arg4 fullShare x1 ∗ owns (c : Thread nD τ) arg5 fullShare xi ∗ owns (c : Thread nD τ) arg6 fullShare xs
            ∗ (iprop(owns (c : Thread nD τ) arg3 fullShare x0 ∗ owns (c : Thread nD τ) arg4 fullShare x1 ∗ owns (c : Thread nD τ) arg5 fullShare xi
                ∗ (∃ f, arg6.view.loc (c : Thread nD τ) ↦[arg6.view.set]{fullShare} arg6.view.writes (Elt F) f LS)) -∗ K ⟨⟩))
          ⊢ wp frame (wpE (defs₀ (F := F)) Variants.none c none) E (cc2__mm_kernel i arg3 harg3 arg4 harg4 arg5 harg5 arg6 harg6) K } := by
  refine ⟨?_, fun xi E K => ?run⟩
  case run =>
    simp only [cc2__mm_kernel_eq_skeleton]; unfold cc2__mm_kernel_skel
    unfold owns
    iintro ⟨⟨%f0, %hf0, H0⟩, ⟨%f1, %hf1, H1⟩, ⟨%f3, %hf3, H3⟩, ⟨%fs, %hfs, HS⟩, Hk⟩
    obtain rfl := harg3.eq_unread hf0; obtain rfl := harg4.eq_unread hf1; obtain rfl := harg5.eq_unread hf3
    obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H3]
    · iexists _; isplitr; · ipureintro; exact harg5.read_unread _
      iexact H3
    iexists _; iexact HS

set_option maxHeartbeats 2000000 in
/-- The last block of a contraction that is not also its first: the accumulator, found at `xs`, ends at the
    product of the two input blocks added to `xs`, and the output block, found at anything, is stored whole:
    that sum in the output's format. -/
noncomputable def run2_C (c : Dev nD) (i : grid2.Coords) (arg3 : Memref sig .tc .vmem S1024x1024 .bf16) (harg3 : arg3.IsWhole) (arg4 : Memref sig .tc .vmem S1024x819 .f32) (harg4 : arg4.IsWhole) (arg5 : Memref sig .tc .vmem S1024x819 .bf16) (harg5 : arg5.IsWhole) (arg6 : Memref sig .tc .vmem S1024x819 .f32) (harg6 : arg6.IsWhole) (hc0 : ¬cond2_0 i) (hc1 : cond2_1 i)
    (x0 : Vec F S1024x1024 .bf16) (x1 : Vec F S1024x819 .f32) (xs : Vec F S1024x819 .f32) :
    Σ' (LO : List (View.Piece (Elt F) S1024x819 .bf16)), { LS : List (View.Piece (Elt F) S1024x819 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc2__mm_kernel i arg3 harg3 arg4 harg4 arg5 harg5 arg6 harg6) K } := by
  refine ⟨?_, ?_, fun E K => ?run⟩
  case run =>
    simp only [cc2__mm_kernel_eq_skeleton]; unfold cc2__mm_kernel_skel
    unfold owns
    iintro ⟨⟨%f0, %hf0, H0⟩, ⟨%f1, %hf1, H1⟩, ⟨%d3, %f3, -, H3⟩, ⟨%fs, %hfs, HS⟩, Hk⟩
    obtain rfl := harg3.eq_unread hf0; obtain rfl := harg4.eq_unread hf1
    obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H3]
    · iexists _; iexact H3
    iexists _; iexact HS

end Cert.Kernel.Hand

end
-- ==== Proof.KB.R02.lean ====
/-
  Launch 2 as a segment of the program: the product A·B of a graph matrix with the right
  factor, computed block by block on the grid 4 × 1 × 4 with an accumulator carried along the contraction and
  stored in the output's format when a contraction ends. What the accumulator and the output block hold after
  each point is defined by recursion on the point; the invariant between points is the accumulator at that value
  beside the launch's other scoped buffers; the proof data states each window's block after the body; the body
  obligation is the three symbolic runs put together by cases on the point's position in its contraction; and
  the segment record enters the launch from a thread state holding every unscoped buffer at an entry valuation
  and leaves it at the valuation updated at the result's array.
-/
import proofs.«113214_j66838281060556_2_alg».proof.Proof.KB.R02Run
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

variable (V : (c : Dev nD) → (b : Ref sig .tc) → Buf (Elt F) ((c : Thread nD τ).loc b))

/-! ## The blocks the windows stage -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- A view of the output's staging buffer and one of the accumulator, through which contents are stated. -/
abbrev VO2 : View sig .tc .vmem S1024x819 .bf16 := (Memref.whole cc2_stg2_0 : Memref sig .tc .vmem S1024x819 .bf16).view

/-! ## What each case leaves -/

/-- The accumulator after a first block. -/
def accA2 (c : Dev nD) (t : Fin cfg2.N) (h0 : t.val % 4 = 0) (h1 : ¬t.val % 4 = 3) : Vec F S1024x819 .f32 :=
  VS2.read (Elt F) (VS2.writes (Elt F) VS2.junk (run2_A c (grid2.coords t) (ms2_0 t) (hs2_0 t) (ms2_1 t) (hs2_1 t) (ms2_2 t) (hs2_2 t) scM2 (Memref.isWhole_whole _) ((hcond2_0 t).mpr h0) (fun h => h1 ((hcond2_1 t).mp h)) (iblk2 V c 0 t) (iblk2 V c 1 t)).1)
/-- The accumulator after a middle block, from what the point before left. -/
def accB2 (c : Dev nD) (t : Fin cfg2.N) (h0 : ¬t.val % 4 = 0) (h1 : ¬t.val % 4 = 3) (xs : Vec F S1024x819 .f32) : Vec F S1024x819 .f32 :=
  VS2.read (Elt F) (VS2.writes (Elt F) VS2.junk (run2_B c (grid2.coords t) (ms2_0 t) (hs2_0 t) (ms2_1 t) (hs2_1 t) (ms2_2 t) (hs2_2 t) scM2 (Memref.isWhole_whole _) (fun h => h0 ((hcond2_0 t).mp h)) (fun h => h1 ((hcond2_1 t).mp h)) (iblk2 V c 0 t) (iblk2 V c 1 t) xs).1)
/-- The accumulator after a last block, -/
def accC2 (c : Dev nD) (t : Fin cfg2.N) (h0 : ¬t.val % 4 = 0) (h1 : t.val % 4 = 3) (xs : Vec F S1024x819 .f32) : Vec F S1024x819 .f32 :=
  VS2.read (Elt F) (VS2.writes (Elt F) VS2.junk (run2_C c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) xs).2.1)
/-- and the output block stored there. -/
def outC2 (c : Dev nD) (t : Fin cfg2.N) (h0 : ¬t.val % 4 = 0) (h1 : t.val % 4 = 3) (xs : Vec F S1024x819 .f32) : Vec F S1024x819 .bf16 :=
  VO2.read (Elt F) (VO2.writes (Elt F) VO2.junk (run2_C c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) xs).1)

theorem coverA2 (c : Dev nD) (t : Fin cfg2.N) (h0 : t.val % 4 = 0) (h1 : ¬t.val % 4 = 3) (y : S1024x819.Idx) :
    ∃ pc ∈ (run2_A c (grid2.coords t) (ms2_0 t) (hs2_0 t) (ms2_1 t) (hs2_1 t) (ms2_2 t) (hs2_2 t) scM2 (Memref.isWhole_whole _) ((hcond2_0 t).mpr h0) (fun h => h1 ((hcond2_1 t).mp h)) (iblk2 V c 0 t) (iblk2 V c 1 t)).1, y ∈ pc.1.set :=
  View.cover_of_tiledL _ S1024x819.size (by sl_kernel_rfl) y
theorem coverB2 (c : Dev nD) (t : Fin cfg2.N) (h0 : ¬t.val % 4 = 0) (h1 : ¬t.val % 4 = 3) (xs : Vec F S1024x819 .f32) (y : S1024x819.Idx) :
    ∃ pc ∈ (run2_B c (grid2.coords t) (ms2_0 t) (hs2_0 t) (ms2_1 t) (hs2_1 t) (ms2_2 t) (hs2_2 t) scM2 (Memref.isWhole_whole _) (fun h => h0 ((hcond2_0 t).mp h)) (fun h => h1 ((hcond2_1 t).mp h)) (iblk2 V c 0 t) (iblk2 V c 1 t) xs).1, y ∈ pc.1.set :=
  View.cover_of_tiledL _ S1024x819.size (by sl_kernel_rfl) y
theorem coverCs2 (c : Dev nD) (t : Fin cfg2.N) (h0 : ¬t.val % 4 = 0) (h1 : t.val % 4 = 3) (xs : Vec F S1024x819 .f32) (y : S1024x819.Idx) :
    ∃ pc ∈ (run2_C c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) xs).2.1, y ∈ pc.1.set :=
  View.cover_of_tiledL _ S1024x819.size (by sl_kernel_rfl) y
theorem coverCo2 (c : Dev nD) (t : Fin cfg2.N) (h0 : ¬t.val % 4 = 0) (h1 : t.val % 4 = 3) (xs : Vec F S1024x819 .f32) (y : S1024x819.Idx) :
    ∃ pc ∈ (run2_C c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) xs).1, y ∈ pc.1.set :=
  View.cover_of_tiledL _ S1024x819.size (by sl_kernel_rfl) y

/-! ## The accumulation, point by point -/

/-- What the output's staging buffer (first component; meaningful at a contraction's last block only) and the
    accumulator (second component) hold after the body at position `n`. -/
def outsAt2 (c : Dev nD) : (n : ℕ) → n < cfg2.N → Vec F S1024x819 .bf16 × Vec F S1024x819 .f32
  | 0, hn => (VO2.read (Elt F) VO2.junk, accA2 V c ⟨0, hn⟩ (Nat.zero_mod _) (by simp))
  | n + 1, hn =>
    if h0 : (n + 1) % 4 = 0 then
      if h1 : (n + 1) % 4 = 3 then False.elim (by omega)
      else (VO2.read (Elt F) VO2.junk, accA2 V c ⟨n + 1, hn⟩ h0 h1)
    else
      if h1 : (n + 1) % 4 = 3 then
        (outC2 V c ⟨n + 1, hn⟩ h0 h1 (outsAt2 c n (Nat.lt_of_succ_lt hn)).2, accC2 V c ⟨n + 1, hn⟩ h0 h1 (outsAt2 c n (Nat.lt_of_succ_lt hn)).2)
      else
        (VO2.read (Elt F) VO2.junk, accB2 V c ⟨n + 1, hn⟩ h0 h1 (outsAt2 c n (Nat.lt_of_succ_lt hn)).2)

theorem outsAt2_A (c : Dev nD) (t : Fin cfg2.N) (h0 : t.val % 4 = 0) (h1 : ¬t.val % 4 = 3) :
    outsAt2 V c t.val t.isLt = (VO2.read (Elt F) VO2.junk, accA2 V c t h0 h1) := by
  obtain ⟨n, hn⟩ := t
  cases n with
  | zero => exact rfl
  | succ n => exact (dif_pos h0).trans ((dif_neg h1).trans rfl)

theorem outsAt2_B (c : Dev nD) (t : Fin cfg2.N) (h0 : ¬t.val % 4 = 0) (h1 : ¬t.val % 4 = 3) :
    outsAt2 V c t.val t.isLt = (VO2.read (Elt F) VO2.junk, accB2 V c t h0 h1 (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (outC2 V c t h0 h1 (outsAt2 V c (t.val - 1) (Nat.lt_of_le_of_lt (Nat.sub_le _ _) t.isLt)).2,
      accC2 V c t h0 h1 (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant between points -/

/-- Before the first point the launch's scoped buffers that no window stages, whole; afterwards the accumulator at
    what the point before left, and the other such buffers unopened. -/
def PhiS2 (c : Dev nD) : (n : ℕ) → n ≤ cfg2.N → sProp 𝕄
  | 0, _ => Pipeline.scopedRest (Ix := Unit) (Name := ℕ) (U := UR sig nD τ × Counters) (Lvl := ℕ) (Val := Elt F) spec2 c
  | n + 1, hn => iprop(owns (c : Thread nD τ) scM2 fullShare (outsAt2 V c n hn).2
      ∗ Pipeline.scopedRestBut (Ix := Unit) (Name := ℕ) (U := UR sig nD τ × Counters) (Lvl := ℕ) (Val := Elt F) spec2 c [cc2_scratch0])

theorem PhiS2_pos (c : Dev nD) (n : ℕ) (h : n ≤ cfg2.N) (hz : n ≠ 0) :
    PhiS2 V c n h = iprop(owns (c : Thread nD τ) scM2 fullShare (outsAt2 V c (n - 1) (by omega)).2
      ∗ Pipeline.scopedRestBut (Ix := Unit) (Name := ℕ) (U := UR sig nD τ × Counters) (Lvl := ℕ) (Val := Elt F) spec2 c [cc2_scratch0]) := by
  cases n with
  | zero => exact absurd rfl hz
  | succ n => rfl

/-- The scoped rest with the accumulator split out as a memref owned at some contents. -/
theorem scopedRest2_eq (c : Dev nD) :
    (Pipeline.scopedRest (Ix := Unit) (Name := ℕ) (U := UR sig nD τ × Counters) (Lvl := ℕ) (Val := Elt F) spec2 c : sProp 𝕄)
      = iprop((∃ d, owns (c : Thread nD τ) scM2 fullShare d)
          ∗ Pipeline.scopedRestBut (Ix := Unit) (Name := ℕ) (U := UR sig nD τ × Counters) (Lvl := ℕ) (Val := Elt F) spec2 c [cc2_scratch0]) := by
  rw [scopedRest2_split]; simp only [scM2, owns_whole]; try rfl

/-! ## The proof data -/

def dat2 (c : Dev nD) : Dat τ (Elt F) Unit ℕ (UR sig nD τ × Counters) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A2_eq (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

theorem Phi2_castSucc (c : Dev nD) (t : Fin cfg2.N) :
    (dat2 V c).Φ t.castSucc = PhiS2 V c t.val (Nat.le_of_lt t.isLt) := by
  dsimp only [dat2]; simp only [Fin.coe_castSucc]

/-- Each input window's current staging buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A2_eq]; try rfl) t d).trans
    (by unfold Dat.fetched Dat.blockOf iblk2; rw [A2_eq]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A2_eq]; try rfl) t d).trans
    (by unfold Dat.fetched Dat.blockOf iblk2; rw [A2_eq]; try rfl)

/-! ## The body obligation at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t)

set_option maxHeartbeats 4000000 in
/-- The body at any point. The three input buffers hold their blocks; the point's position in its contraction
    selects the case; the invariant hands over the accumulator (at anything before the very first point, else at
    what the point before left) and takes it back at this point's contents; an idle output buffer is handed back
    as found, a stored one at the case's block; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = iprop(owns (c : Thread nD τ) scM2 fullShare (outsAt2 V c t.val t.isLt).2
      ∗ Pipeline.scopedRestBut (Ix := Unit) (Name := ℕ) (U := UR sig nD τ × Counters) (Lvl := ℕ) (Val := Elt F) spec2 c [cc2_scratch0]) from rfl]
  have hN : t.val < 16 := lt_of_lt_of_eq t.isLt (show cfg2.N = 16 from N_2)
  rw [show (dat2 V c).leavesExact 0 t = owns (c : Thread nD τ) (ms2_0 t) fullShare (iblk2 V c 0 t) from by
    unfold Dat.leavesExact; rw [liveAt2_0 t, after2_0]]
  rw [show (dat2 V c).leavesExact 1 t = owns (c : Thread nD τ) (ms2_1 t) fullShare (iblk2 V c 1 t) from by
    unfold Dat.leavesExact; rw [liveAt2_1 t, after2_1]]
  rw [Phi2_castSucc V c t]
  by_cases h1 : t.val % 4 = 3
  · -- the last block of a contraction
    have h0 : ¬t.val % 4 = 0 := by omega
    have hz : t.val ≠ 0 := by omega
    rw [show (dat2 V c).leavesExact 2 t = owns (c : Thread nD τ) (ms2_2 t) fullShare (outsAt2 V c t.val t.isLt).1 from by
      unfold Dat.leavesExact; rw [liveAt2_2 t ((hcond2_1 t).mpr h1), after2_2]]
    rw [outsAt2_C V c t h0 h1, PhiS2_pos V c _ _ hz]
    dsimp only
    unfold outC2 accC2
    iintro ⟨⟨HS, Hb⟩, Ho, ⟨%d0, H0⟩, ⟨%d1, H1⟩, ⟨%d3, H3⟩⟩
    iapply ((run2_C c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) _).2.2 Set.univ _)
    isplitl [H0]; · iexact H0
    isplitl [H1]; · iexact H1
    isplitl [H3]; · iexists _; iexact H3
    isplitl [HS]; · iexact HS
    iintro ⟨H0, H1, ⟨%e3, H3⟩, ⟨%es, HS⟩⟩
    isplitl [HS Hb]
    · isplitl [HS]
      · unfold owns; iexists _; isplitr
        swap; · iexact HS
        ipureintro; exact View.read_writes_of_cover _ _ _ _ _ (coverCs2 V c t h0 h1 _)
      iexact Hb
    isplitl [Ho]; · iexact Ho
    isplitl [H0]; · iexact H0
    isplitl [H1]; · iexact H1
    unfold owns; iexists _; isplitr
    swap; · iexact H3
    ipureintro; exact View.read_writes_of_cover _ _ _ _ _ (coverCo2 V c t h0 h1 _)
  · rw [Dat.leavesExact_idle (dat2 V c) 2 t (idleAt2_2 t (fun h => h1 ((hcond2_1 t).mp h))) (noFlush2_2 t (fun h => h1 ((hcond2_1 t).mp h)))]
    by_cases h0 : t.val % 4 = 0
    · -- the first block of a contraction
      rw [outsAt2_A V c t h0 h1]
      dsimp only
      unfold accA2
      by_cases hz : t.val = 0
      · rw [show PhiS2 V c t.val (Nat.le_of_lt t.isLt) = Pipeline.scopedRest (Ix := Unit) (Name := ℕ) (U := UR sig nD τ × Counters) (Lvl := ℕ) (Val := Elt F) spec2 c from by
          obtain ⟨n, hn⟩ := t; dsimp only at hz; subst hz; rfl, scopedRest2_eq]
        iintro ⟨⟨HS, Hb⟩, Ho, ⟨%d0, H0⟩, ⟨%d1, H1⟩, ⟨%d3, H3⟩⟩
        iapply ((run2_A c (grid2.coords t) (ms2_0 t) (hs2_0 t) (ms2_1 t) (hs2_1 t) (ms2_2 t) (hs2_2 t) scM2 (Memref.isWhole_whole _) ((hcond2_0 t).mpr h0) (fun h => h1 ((hcond2_1 t).mp h)) (iblk2 V c 0 t) (iblk2 V c 1 t)).2 _ Set.univ _)
        isplitl [H0]; · iexact H0
        isplitl [H1]; · iexact H1
        isplitl [H3]; · iexact H3
        isplitl [HS]; · iexact HS
        iintro ⟨H0, H1, H3, ⟨%es, HS⟩⟩
        isplitl [HS Hb]
        · isplitl [HS]
          · unfold owns; iexists _; isplitr
            swap; · iexact HS
            ipureintro; exact View.read_writes_of_cover _ _ _ _ _ (coverA2 V c t h0 h1)
          iexact Hb
        isplitl [Ho]; · iexact Ho
        isplitl [H0]; · iexact H0
        isplitl [H1]; · iexact H1
        iexists _; iexact H3
      · rw [PhiS2_pos V c _ _ hz]
        iintro ⟨⟨HS, Hb⟩, Ho, ⟨%d0, H0⟩, ⟨%d1, H1⟩, ⟨%d3, H3⟩⟩
        iapply ((run2_A c (grid2.coords t) (ms2_0 t) (hs2_0 t) (ms2_1 t) (hs2_1 t) (ms2_2 t) (hs2_2 t) scM2 (Memref.isWhole_whole _) ((hcond2_0 t).mpr h0) (fun h => h1 ((hcond2_1 t).mp h)) (iblk2 V c 0 t) (iblk2 V c 1 t)).2 _ Set.univ _)
        isplitl [H0]; · iexact H0
        isplitl [H1]; · iexact H1
        isplitl [H3]; · iexact H3
        isplitl [HS]; · iexists _; iexact HS
        iintro ⟨H0, H1, H3, ⟨%es, HS⟩⟩
        isplitl [HS Hb]
        · isplitl [HS]
          · unfold owns; iexists _; isplitr
            swap; · iexact HS
            ipureintro; exact View.read_writes_of_cover _ _ _ _ _ (coverA2 V c t h0 h1)
          iexact Hb
        isplitl [Ho]; · iexact Ho
        isplitl [H0]; · iexact H0
        isplitl [H1]; · iexact H1
        iexists _; iexact H3
    · -- a middle block
      have hz : t.val ≠ 0 := by omega
      rw [outsAt2_B V c t h0 h1, PhiS2_pos V c _ _ hz]
      dsimp only
      unfold accB2
      iintro ⟨⟨HS, Hb⟩, Ho, ⟨%d0, H0⟩, ⟨%d1, H1⟩, ⟨%d3, H3⟩⟩
      iapply ((run2_B c (grid2.coords t) (ms2_0 t) (hs2_0 t) (ms2_1 t) (hs2_1 t) (ms2_2 t) (hs2_2 t) scM2 (Memref.isWhole_whole _) (fun h => h0 ((hcond2_0 t).mp h)) (fun h => h1 ((hcond2_1 t).mp h)) (iblk2 V c 0 t) (iblk2 V c 1 t) _).2 _ Set.univ _)
      isplitl [H0]; · iexact H0
      isplitl [H1]; · iexact H1
      isplitl [H3]; · iexact H3
      isplitl [HS]; · iexact HS
      iintro ⟨H0, H1, H3, ⟨%es, HS⟩⟩
      isplitl [HS Hb]
      · isplitl [HS]
        · unfold owns; iexists _; isplitr
          swap; · iexact HS
          ipureintro; exact View.read_writes_of_cover _ _ _ _ _ (coverB2 V c t h0 h1 _)
        iexact Hb
      isplitl [Ho]; · iexact Ho
      isplitl [H0]; · iexact H0
      isplitl [H1]; · iexact H1
      iexists _; iexact H3

theorem body_obligation2 (c : Dev nD) : BodyObligation (dat2 V c) (defs₀ (F := F)) Variants.none () Set.univ := fun t => by
  rw [bigSep_W2, bigSep_W2]
  exact sound_body2 V c t

/-! ## The region over the thread state -/

variable (Vp : (c : Dev nD) → (b : Ref sig .tc) → Buf (Elt F) ((c : Thread nD τ).loc b))
variable (pdats : (p : Fin 22) → (c : Dev nD) → Dat τ (Elt F) Unit ℕ (UR sig nD τ × Counters) ℕ (cfgs p) c)

/-- The result's array after the region, as the pipeline library computes it from the proof data. -/
def out2 (c : Dev nD) : Buf (Elt F) ((c : Thread nD τ).loc main_v5) := (dat2 V c).arrAt 2 cfg2.N

set_option backward.isDefEq.respectTransparency.types false in
set_option maxHeartbeats 2000000 in
/-- Launch 2 over the thread state "every unscoped buffer at `V c`, the core owing nothing": entered by
    splitting its three arrays out of the unscoped buffers, left with them put back at `Vp c`, which has the
    result's array at `out2` and agrees with `V c` elsewhere. -/
def reg2 (hp : ∀ c, pdats 2 c = dat2 V c)
    (hVp_out : ∀ c, Vp c main_v5 = out2 V c)
    (hVp_ne : ∀ c (b : Ref sig .tc), b ≠ main_v5 → Vp c b = V c b) :
    Pipeline.RegionSeg (pcfgs (F := F)) (fun p => (cfgs p).toPCfg_adm) pdats () defs₀ Variants.none (fun _ => (∅ : Finset Unit)) (fun _ _ => (0 : ℕ)) 2 where
  win := launch2.win.to₀
  block_pos := launch2.block_pos
  stage_whole := launch2.stage_whole
  K := PEmpty
  osem k := k.elim
  ho := Pipeline.OwnSemFacts.none _
  hbody c := by rw [hp c]; exact (body_obligation2 V c).loose
  hwaits := Pipeline.hwaits_of_owed_zero _ _ _ _ _ _ 2 fun c t => by rw [hp c]; rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ × Counters) (Lvl := ℕ) spec2 c (V c)
  hentry c := by
    rw [Pipeline.ownSems0_none]
    have hsplit := Pipeline.arrays_of_unscopedBufs (p := 2) (pcfgs (F := F)) (fun p => (cfgs p).toPCfg_adm) pdats launch2.win launch2.arr_whole c
      ((pdats 2 c).share_full fun w => by rw [hp c]; rfl) (V c) (fun w => by rw [hp c]; rfl)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hp c]
      unfold Pipeline.Dat.owesAt Pipeline.owesWithin
      icases HO with ⟨%W, HO⟩; iexists W; isplitr; · ipureintro; exact fun _ _ => Or.inl trivial
      iexact HO
    isplitr; · iempintro
    iexact Hrest
  hin c := by
    rw [hp c, show (dat2 V c).Φ 0 = Pipeline.scopedRest (Ix := Unit) (Name := ℕ) (U := UR sig nD τ × Counters) (Lvl := ℕ) (Val := Elt F) spec2 c from rfl]
    iintro ⟨-, -, Hr⟩; iexact Hr
  hout c := by
    rw [Pipeline.ownSems0_none, hp c]
    refine (Entails.of_eq ((show (dat2 V c).Φ (Fin.last _) = PhiS2 V c (Fin.last cfg2.N).val (Nat.le_of_lt_succ (Fin.last cfg2.N).isLt) from rfl).trans
      (PhiS2_pos V c _ _ (by rw [Fin.val_last]; have : cfg2.N = 16 := N_2; omega)))).trans ?_
    change _ ⊢ iprop(BI.emp ∗ BI.emp ∗ Pipeline.scopedRest (Ix := Unit) (Name := ℕ) (U := UR sig nD τ × Counters) (Lvl := ℕ) (Val := Elt F) spec2 c)
    rw [scopedRest2_eq]
    iintro ⟨HS, Hb⟩
    isplitr; · iempintro
    isplitr; · iempintro
    isplitl [HS]; · iexists _; iexact HS
    iexact Hb
  hexit c := by
    have hjoin := Pipeline.unscopedBufs_of_arrays (p := 2) (pcfgs (F := F)) (fun p => (cfgs p).toPCfg_adm) (Ix := Unit) (Name := ℕ) (U := UR sig nD τ × Counters) (Lvl := ℕ) launch2.win launch2.arr_whole c
      pdats ((pdats 2 c).share_full fun w => by rw [hp c]; rfl) (V c) (Vp c) ((pdats 2 c).arrAt · cfg2.N)
      (fun w => by
        fin_cases w
        · exact (((pdats 2 c).arrAt_in 0 rfl _).trans (by rw [hp c]; rfl)).trans (hVp_ne c main_v0 (by decide)).symm
        · exact (((pdats 2 c).arrAt_in 1 rfl _).trans (by rw [hp c]; rfl)).trans (hVp_ne c main_v4 (by decide)).symm
        · exact (by rw [hp c]; rfl : (pdats 2 c).arrAt 2 cfg2.N = out2 V c).trans (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W
    rw [show (pdats 2 c).owed (Fin.last _) = 0 from by rw [hp c]; rfl]
    iexact HO

end Cert.Kernel.Hand

end
-- ==== Proof.KB.R03Base.lean ====
/-
  Launch 3 of the program: one matrix product per grid point — the contraction is a single block —, a bias row
  added and tanh applied, the output block stored at every point. The grid's third coordinate is always 0, so both
  conditions of the body — "the contraction's first block" and "its last block" — hold at every point: this module
  decides them over the grid's points, records that no window is ever idle, and names the staging memrefs the body
  is called with.
-/
import proofs.«113214_j66838281060556_2_alg».proof.Proof.Gen.Kernel.Launch
import proofs.«113214_j66838281060556_2_alg».proof.Proof.Gen.Kernel.Skeleton
import proofs.«113214_j66838281060556_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

/-- The accumulator is reset: the point starts a contraction (third grid coordinate 0). Here the third axis has one
    coordinate, so every point does. -/
abbrev cond3_0 (i : grid3.Coords) : Prop := (Scalar.cmpi .ne (Scalar.extui (Scalar.cmpi .eq (BitVec.ofNat 32 (i 2).val) 0#32)) 0#32) = 1#1
theorem hcond3_0 : ∀ t : Fin cfg3.N, cond3_0 (grid3.coords t) :=
  (by decide +kernel : ∀ t : Fin grid3.N, cond3_0 (grid3.coords t))

/-- The result is stored: the point ends a contraction. Every point does. -/
abbrev cond3_1 (i : grid3.Coords) : Prop := k3_cond2 i = 1#1
theorem hcond3_1 : ∀ t : Fin cfg3.N, cond3_1 (grid3.coords t) :=
  (by decide +kernel : ∀ t : Fin grid3.N, cond3_1 (grid3.coords t))

/-- No window is idle at any point: the three inputs never, the output because every point stores. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel

/-- Each window's current staging memref at a point, as the pipeline passes it, and its wholeness. -/
abbrev ms3_0 (t : Fin cfg3.N) : Memref sig .tc .vmem S1024x819 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S819x819 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x819 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x819 .f32 := win3_3.stage (cfg3.slots t 3)
abbrev hs3_3 (t : Fin cfg3.N) : (ms3_3 t).IsWhole := hstage3_3 ((cfg3.slots t 3).cast nbuf3_3)
/-- The accumulator: a whole scoped buffer of the launch's own. -/
abbrev scM3 : Memref sig .tc .vmem S1024x819 .f32 := Memref.whole cc3_scratch0
abbrev VS3 : View sig .tc .vmem S1024x819 .f32 := scM3.view

end Cert.Kernel.Hand

end
-- ==== Proof.KB.R03Run.lean ====
/-
  Launch 3, the body run symbolically in its one control case: the accumulator reset, the product added, the bias
  row added and tanh applied into the output block. The run's witnesses are the lists of pieces its stores leave in
  the output block and in the accumulator.
-/
import proofs.«113214_j66838281060556_2_alg».proof.Proof.KB.R03Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

set_option maxHeartbeats 2000000 in
/-- The body at a point, run symbolically: the accumulator, found at anything, is reset to zero and ends at the
    product of the two input blocks added to zero; the output block, found at anything, is stored whole: tanh of
    that sum plus the bias row. The witnesses are the pieces the stores leave in the output block and in the
    accumulator. -/
noncomputable def run3 (c : Dev nD) (i : grid3.Coords) (arg3 : Memref sig .tc .vmem S1024x819 .bf16) (harg3 : arg3.IsWhole) (arg4 : Memref sig .tc .vmem S819x819 .f32) (harg4 : arg4.IsWhole) (arg5 : Memref sig .tc .vmem S1x819 .f32) (harg5 : arg5.IsWhole) (arg6 : Memref sig .tc .vmem S1024x819 .f32) (harg6 : arg6.IsWhole) (arg7 : Memref sig .tc .vmem S1024x819 .f32) (harg7 : arg7.IsWhole) (hc0 : cond3_0 i) (hc1 : cond3_1 i)
    (x0 : Vec F S1024x819 .bf16) (x1 : Vec F S819x819 .f32) (x2 : Vec F S1x819 .f32) :
    Σ' (LO : List (View.Piece (Elt F) S1024x819 .f32)), { LS : List (View.Piece (Elt F) S1024x819 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LS)) -∗ K ⟨⟩))
          ⊢ wp frame (wpE (defs₀ (F := F)) Variants.none c none) E (cc3__mm_kernel i arg3 harg3 arg4 harg4 arg5 harg5 arg6 harg6 arg7 harg7) K } := by
  refine ⟨?_, ?_, fun E K => ?run⟩
  case run =>
    simp only [cc3__mm_kernel_eq_skeleton]; unfold cc3__mm_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    iexists _; iexact HS

end Cert.Kernel.Hand

end
-- ==== Proof.KB.R03.lean ====
/-
  Launch 3 as a region of the program. The blocks the windows stage are read off the arrays as the region finds
  them; a point stores the output block its run leaves; the accumulator is reset at every point, so between points
  the launch's scoped buffers that no window stages are simply held whole at anything; the body obligation follows
  from the one symbolic run; and the region is stated over the thread state "every unscoped buffer at given
  contents, the core owing nothing", entered by splitting its arrays out and left with the result's array
  at what the pipeline computes from the stored blocks.
-/
import proofs.«113214_j66838281060556_2_alg».proof.Proof.KB.R03Run
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

variable (V : (c : Dev nD) → (b : Ref sig .tc) → Buf (Elt F) ((c : Thread nD τ).loc b))

/-! ## The blocks the windows stage -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- A view of the output's staging buffer, through which contents are stated. -/
abbrev VO3 : View sig .tc .vmem S1024x819 .f32 := (Memref.whole cc3_stg3_0 : Memref sig .tc .vmem S1024x819 .f32).view

/-! ## What a point leaves -/

/-- The output block a point stores: what the run's pieces leave, read through the staging buffer's view. -/
def out3 (c : Dev nD) (t : Fin cfg3.N) : Vec F S1024x819 .f32 :=
  VO3.read (Elt F) (VO3.writes (Elt F) VO3.junk (run3 c (grid3.coords t) (ms3_0 t) (hs3_0 t) (ms3_1 t) (hs3_1 t) (ms3_2 t) (hs3_2 t) (ms3_3 t) (hs3_3 t) scM3 (Memref.isWhole_whole _) (hcond3_0 t) (hcond3_1 t) (iblk3 V c 0 t) (iblk3 V c 1 t) (iblk3 V c 2 t)).1)

/-- The stores into the output block cover it. -/
theorem coverO3 (c : Dev nD) (t : Fin cfg3.N) (y : S1024x819.Idx) :
    ∃ pc ∈ (run3 c (grid3.coords t) (ms3_0 t) (hs3_0 t) (ms3_1 t) (hs3_1 t) (ms3_2 t) (hs3_2 t) (ms3_3 t) (hs3_3 t) scM3 (Memref.isWhole_whole _) (hcond3_0 t) (hcond3_1 t) (iblk3 V c 0 t) (iblk3 V c 1 t) (iblk3 V c 2 t)).1, y ∈ pc.1.set :=
  View.cover_of_tiledL _ S1024x819.size (by sl_kernel_rfl) y

/-! ## The invariant between points -/

/-- The scoped rest with the accumulator split out as a memref owned at some contents. The accumulator is reset at
    every point, so the invariant between points is the scoped rest itself, the accumulator at anything. -/
theorem scopedRest3_eq (c : Dev nD) :
    (Pipeline.scopedRest (Ix := Unit) (Name := ℕ) (U := UR sig nD τ × Counters) (Lvl := ℕ) (Val := Elt F) spec3 c : sProp 𝕄)
      = iprop((∃ d, owns (c : Thread nD τ) scM3 fullShare d)
          ∗ Pipeline.scopedRestBut (Ix := Unit) (Name := ℕ) (U := UR sig nD τ × Counters) (Lvl := ℕ) (Val := Elt F) spec3 c [cc3_scratch0]) := by
  rw [scopedRest3_split]; simp only [scM3, owns_whole]; try rfl

/-! ## The proof data -/

def dat3 (c : Dev nD) : Dat τ (Elt F) Unit ℕ (UR sig nD τ × Counters) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3 V c t
  Φ _ := Pipeline.scopedRest (Ix := Unit) (Name := ℕ) (U := UR sig nD τ × Counters) (Lvl := ℕ) (Val := Elt F) spec3 c
  q _ := fullShare
  owed _ := 0

theorem A3_eq (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3 V c t := by dsimp only [dat3]

/-- Each input window's current staging buffer holds its block at every point, fetched there or not. -/
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A3_eq]; try rfl) t d).trans
    (by unfold Dat.fetched Dat.blockOf iblk3; rw [A3_eq]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A3_eq]; try rfl) t d).trans
    (by unfold Dat.fetched Dat.blockOf iblk3; rw [A3_eq]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A3_eq]; try rfl) t d).trans
    (by unfold Dat.fetched Dat.blockOf iblk3; rw [A3_eq]; try rfl)

/-! ## The body obligation at a generic point -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t ∗ (dat3 V c).leavesExact 1 t ∗ (dat3 V c).leavesExact 2 t ∗ (dat3 V c).leavesExact 3 t)

set_option maxHeartbeats 4000000 in
/-- The body at any point. The input buffers hold their blocks; the invariant hands over the accumulator at
    anything and takes it back at anything; the output buffer, found at anything, is handed back at the block the
    point stores; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = Pipeline.scopedRest (Ix := Unit) (Name := ℕ) (U := UR sig nD τ × Counters) (Lvl := ℕ) (Val := Elt F) spec3 c from rfl,
    show (dat3 V c).Φ t.castSucc = Pipeline.scopedRest (Ix := Unit) (Name := ℕ) (U := UR sig nD τ × Counters) (Lvl := ℕ) (Val := Elt F) spec3 c from rfl]
  rw [show (dat3 V c).leavesExact 0 t = owns (c : Thread nD τ) (ms3_0 t) fullShare (iblk3 V c 0 t) from by
    unfold Dat.leavesExact; rw [liveAt3_0 t, after3_0]]
  rw [show (dat3 V c).leavesExact 1 t = owns (c : Thread nD τ) (ms3_1 t) fullShare (iblk3 V c 1 t) from by
    unfold Dat.leavesExact; rw [liveAt3_1 t, after3_1]]
  rw [show (dat3 V c).leavesExact 2 t = owns (c : Thread nD τ) (ms3_2 t) fullShare (iblk3 V c 2 t) from by
    unfold Dat.leavesExact; rw [liveAt3_2 t, after3_2]]
  rw [show (dat3 V c).leavesExact 3 t = owns (c : Thread nD τ) (ms3_3 t) fullShare (out3 V c t) from by
    unfold Dat.leavesExact; rw [liveAt3_3 t, after3_3]]
  rw [scopedRest3_eq]
  unfold out3
  iintro ⟨⟨HS, Hb⟩, Ho, ⟨%d0, H0⟩, ⟨%d1, H1⟩, ⟨%d2, H2⟩, ⟨%d3, H3⟩⟩
  iapply ((run3 c (grid3.coords t) (ms3_0 t) (hs3_0 t) (ms3_1 t) (hs3_1 t) (ms3_2 t) (hs3_2 t) (ms3_3 t) (hs3_3 t) scM3 (Memref.isWhole_whole _) (hcond3_0 t) (hcond3_1 t) (iblk3 V c 0 t) (iblk3 V c 1 t) (iblk3 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS Hb]
  · isplitl [HS]
    · iexists _; unfold owns; iexists _; isplitr
      swap; · iexact HS
      ipureintro; rfl
    iexact Hb
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (coverO3 V c t)

theorem body_obligation3 (c : Dev nD) : BodyObligation (dat3 V c) (defs₀ (F := F)) Variants.none () Set.univ := fun t => by
  rw [bigSep_W3, bigSep_W3]
  exact sound_body3 V c t

/-! ## The region over the thread state -/

variable (Vp : (c : Dev nD) → (b : Ref sig .tc) → Buf (Elt F) ((c : Thread nD τ).loc b))
variable (pdats : (p : Fin 22) → (c : Dev nD) → Dat τ (Elt F) Unit ℕ (UR sig nD τ × Counters) ℕ (cfgs p) c)

/-- The result's array after the region, as the pipeline library computes it from the proof data. -/
def out3arr (c : Dev nD) : Buf (Elt F) ((c : Thread nD τ).loc main_v7) := (dat3 V c).arrAt 3 cfg3.N

set_option backward.isDefEq.respectTransparency.types false in
set_option maxHeartbeats 2000000 in
/-- Launch 3 over the thread state "every unscoped buffer at `V c`, the core owing nothing": entered by
    splitting its arrays out of the unscoped buffers, left with them put back at `Vp c`, which has the
    result's array at `out3arr` and agrees with `V c` elsewhere. -/
def reg3 (hp : ∀ c, pdats 3 c = dat3 V c)
    (hVp_out : ∀ c, Vp c main_v7 = out3arr V c)
    (hVp_ne : ∀ c (b : Ref sig .tc), b ≠ main_v7 → Vp c b = V c b) :
    Pipeline.RegionSeg (pcfgs (F := F)) (fun p => (cfgs p).toPCfg_adm) pdats () defs₀ Variants.none (fun _ => (∅ : Finset Unit)) (fun _ _ => (0 : ℕ)) 3 where
  win := launch3.win.to₀
  block_pos := launch3.block_pos
  stage_whole := launch3.stage_whole
  K := PEmpty
  osem k := k.elim
  ho := Pipeline.OwnSemFacts.none _
  hbody c := by rw [hp c]; exact (body_obligation3 V c).loose
  hwaits := Pipeline.hwaits_of_owed_zero _ _ _ _ _ _ 3 fun c t => by rw [hp c]; rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ × Counters) (Lvl := ℕ) spec3 c (V c)
  hentry c := by
    rw [Pipeline.ownSems0_none]
    have hsplit := Pipeline.arrays_of_unscopedBufs (p := 3) (pcfgs (F := F)) (fun p => (cfgs p).toPCfg_adm) pdats launch3.win launch3.arr_whole c
      ((pdats 3 c).share_full fun w => by rw [hp c]; rfl) (V c) (fun w => by rw [hp c]; rfl)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hp c]; exact trivial)
      rw [show (pdats 3 c).owed 0 = 0 from by rw [hp c]; rfl]
      iexact HO
    isplitr; · iempintro
    iexact Hrest
  hin c := by
    rw [hp c, show (dat3 V c).Φ 0 = Pipeline.scopedRest (Ix := Unit) (Name := ℕ) (U := UR sig nD τ × Counters) (Lvl := ℕ) (Val := Elt F) spec3 c from rfl]
    iintro ⟨-, -, Hr⟩; iexact Hr
  hout c := by
    rw [Pipeline.ownSems0_none, hp c]
    change (Pipeline.scopedRest (Ix := Unit) (Name := ℕ) (U := UR sig nD τ × Counters) (Lvl := ℕ) (Val := Elt F) spec3 c : sProp 𝕄) ⊢ _
    iintro Hr
    isplitr; · iempintro
    isplitr; · iempintro
    iexact Hr
  hexit c := by
    have hjoin := Pipeline.unscopedBufs_of_arrays (p := 3) (pcfgs (F := F)) (fun p => (cfgs p).toPCfg_adm) (Ix := Unit) (Name := ℕ) (U := UR sig nD τ × Counters) (Lvl := ℕ) launch3.win launch3.arr_whole c
      pdats ((pdats 3 c).share_full fun w => by rw [hp c]; rfl) (V c) (Vp c) ((pdats 3 c).arrAt · cfg3.N)
      (fun w => by
        fin_cases w
        · exact (((pdats 3 c).arrAt_in 0 rfl _).trans (by rw [hp c]; rfl)).trans (hVp_ne c main_v5 (by decide)).symm
        · exact (((pdats 3 c).arrAt_in 1 rfl _).trans (by rw [hp c]; rfl)).trans (hVp_ne c main_arg7 (by decide)).symm
        · exact (((pdats 3 c).arrAt_in 2 rfl _).trans (by rw [hp c]; rfl)).trans (hVp_ne c main_v6 (by decide)).symm
        · exact (by rw [hp c]; rfl : (pdats 3 c).arrAt 3 cfg3.N = out3arr V c).trans (hVp_out c).symm)
      (fun b hb => hVp_ne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W
    rw [show (pdats 3 c).owed (Fin.last _) = 0 from by rw [hp c]; rfl]
    iexact HO

end Cert.Kernel.Hand

end
-- ==== Proof.KB.R04Base.lean ====
/-
  Launch 4 of the program: one matrix product per grid point — the contraction is a single block —, from which the
  output block is stored at every point. The grid's third coordinate is always 0, so both conditions of the body —
  "the contraction's first block" and "its last block" — hold at every point: this module decides them over the
  grid's points, records that no window is ever idle, and names the staging memrefs the body is called with.
-/
import proofs.«113214_j66838281060556_2_alg».proof.Proof.Gen.Kernel.Launch
import proofs.«113214_j66838281060556_2_alg».proof.Proof.Gen.Kernel.Skeleton
import proofs.«113214_j66838281060556_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

/-- The accumulator is reset: the point starts a contraction (third grid coordinate 0). Here the third axis has one
    coordinate, so every point does. -/
abbrev cond4_0 (i : grid4.Coords) : Prop := (Scalar.cmpi .ne (Scalar.extui (Scalar.cmpi .eq (BitVec.ofNat 32 (i 2).val) 0#32)) 0#32) = 1#1
theorem hcond4_0 : ∀ t : Fin cfg4.N, cond4_0 (grid4.coords t) :=
  (by decide +kernel : ∀ t : Fin grid4.N, cond4_0 (grid4.coords t))

/-- The result is stored: the point ends a contraction. Every point does. -/
abbrev cond4_1 (i : grid4.Coords) : Prop := k4_cond2 i = 1#1
theorem hcond4_1 : ∀ t : Fin cfg4.N, cond4_1 (grid4.coords t) :=
  (by decide +kernel : ∀ t : Fin grid4.N, cond4_1 (grid4.coords t))

/-- No window is idle at any point: the two inputs never, the output because every point stores. -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel

/-- Each window's current staging memref at a point, as the pipeline passes it, and its wholeness. -/
abbrev ms4_0 (t : Fin cfg4.N) : Memref sig .tc .vmem S1024x1280 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1280x1024 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x1024 .bf16 := win4_2.stage (cfg4.slots t 2)
abbrev hs4_2 (t : Fin cfg4.N) : (ms4_2 t).IsWhole := hstage4_2 ((cfg4.slots t 2).cast nbuf4_2)
/-- The accumulator: a whole scoped buffer of the launch's own. -/
abbrev scM4 : Memref sig .tc .vmem S1024x1024 .f32 := Memref.whole cc4_scratch0
abbrev VS4 : View sig .tc .vmem S1024x1024 .f32 := scM4.view

end Cert.Kernel.Hand

end
-- ==== Proof.KB.R04Run.lean ====
/-
  Launch 4, the body run symbolically in its one control case: the accumulator reset, the product added, the output
  block stored from the sum. The run's witnesses are the lists of pieces its stores leave in the output block and in
  the accumulator.
-/
import proofs.«113214_j66838281060556_2_alg».proof.Proof.KB.R04Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

set_option maxHeartbeats 2000000 in
/-- The body at a point, run symbolically: the accumulator, found at anything, is reset and ends at the product of
    the two input blocks added to it; the output block, found at anything, is stored whole from that sum. The
    witnesses are the pieces the stores leave in the output block and in the accumulator. -/
noncomputable def run4 (c : Dev nD) (i : grid4.Coords) (arg3 : Memref sig .tc .vmem S1024x1280 .f32) (harg3 : arg3.IsWhole) (arg4 : Memref sig .tc .vmem S1280x1024 .f32) (harg4 : arg4.IsWhole) (arg5 : Memref sig .tc .vmem S1024x1024 .bf16) (harg5 : arg5.IsWhole) (arg6 : Memref sig .tc .vmem S1024x1024 .f32) (harg6 : arg6.IsWhole) (hc0 : cond4_0 i) (hc1 : cond4_1 i)
    (x0 : Vec F S1024x1280 .f32) (x1 : Vec F S1280x1024 .f32) :
    Σ' (LO : List (View.Piece (Elt F) S1024x1024 .bf16)), { LS : List (View.Piece (Elt F) S1024x1024 .f32) //
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc4__mm_kernel i arg3 harg3 arg4 harg4 arg5 harg5 arg6 harg6) K } := by
  refine ⟨?_, ?_, fun E K => ?run⟩
  case run =>
    simp only [cc4__mm_kernel_eq_skeleton]; unfold cc4__mm_kernel_skel
    unfold owns
    iintro ⟨⟨%f0, %hf0, H0⟩, ⟨%f1, %hf1, H1⟩, ⟨%d2, %f2, -, H2⟩, ⟨%ds, %fs, -, HS⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact HS

end Cert.Kernel.Hand

end
-- ==== Proof.KB.R04.lean ====
/-
  Launch 4 as a region of the program. The blocks the windows stage are read off the arrays as the region finds
  them; a point stores the output block its run leaves; the accumulator is reset at every point, so between points
  the launch's scoped buffers that no window stages are simply held whole at anything; the body obligation follows
  from the one symbolic run; and the region is stated over the thread state "every unscoped buffer at given
  contents, the core owing nothing", entered by splitting the three arrays out and left with the result's array
  at what the pipeline computes from the stored blocks.
-/
import proofs.«113214_j66838281060556_2_alg».proof.Proof.KB.R04Run
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

variable (V : (c : Dev nD) → (b : Ref sig .tc) → Buf (Elt F) ((c : Thread nD τ).loc b))

/-! ## The blocks the windows stage -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- A view of the output's staging buffer, through which contents are stated. -/
abbrev VO4 : View sig .tc .vmem S1024x1024 .bf16 := (Memref.whole cc4_stg2_0 : Memref sig .tc .vmem S1024x1024 .bf16).view

/-! ## What a point leaves -/

/-- The output block a point stores: what the run's pieces leave, read through the staging buffer's view. -/
def out4 (c : Dev nD) (t : Fin cfg4.N) : Vec F S1024x1024 .bf16 :=
  VO4.read (Elt F) (VO4.writes (Elt F) VO4.junk (run4 c (grid4.coords t) (ms4_0 t) (hs4_0 t) (ms4_1 t) (hs4_1 t) (ms4_2 t) (hs4_2 t) scM4 (Memref.isWhole_whole _) (hcond4_0 t) (hcond4_1 t) (iblk4 V c 0 t) (iblk4 V c 1 t)).1)

/-- The stores into the output block cover it. -/
theorem coverO4 (c : Dev nD) (t : Fin cfg4.N) (y : S1024x1024.Idx) :
    ∃ pc ∈ (run4 c (grid4.coords t) (ms4_0 t) (hs4_0 t) (ms4_1 t) (hs4_1 t) (ms4_2 t) (hs4_2 t) scM4 (Memref.isWhole_whole _) (hcond4_0 t) (hcond4_1 t) (iblk4 V c 0 t) (iblk4 V c 1 t)).1, y ∈ pc.1.set :=
  View.cover_of_tiledL _ S1024x1024.size (by sl_kernel_rfl) y

/-! ## The invariant between points -/

/-- The scoped rest with the accumulator split out as a memref owned at some contents. The accumulator is reset at
    every point, so the invariant between points is the scoped rest itself, the accumulator at anything. -/
theorem scopedRest4_eq (c : Dev nD) :
    (Pipeline.scopedRest (Ix := Unit) (Name := ℕ) (U := UR sig nD τ × Counters) (Lvl := ℕ) (Val := Elt F) spec4 c : sProp 𝕄)
      = iprop((∃ d, owns (c : Thread nD τ) scM4 fullShare d)
          ∗ Pipeline.scopedRestBut (Ix := Unit) (Name := ℕ) (U := UR sig nD τ × Counters) (Lvl := ℕ) (Val := Elt F) spec4 c [cc4_scratch0]) := by
  rw [scopedRest4_split]; simp only [scM4, owns_whole]; try rfl

/-! ## The proof data -/

def dat4 (c : Dev nD) : Dat τ (Elt F) Unit ℕ (UR sig nD τ × Counters) ℕ cfg4 c where
  A w := V c (Pipeline.arrRef spec4 w)
  after w t := match w with
    | ⟨0, _⟩ => iblk4 V c 0 t
    | ⟨1, _⟩ => iblk4 V c 1 t
    | ⟨2, _⟩ => out4 V c t
  Φ _ := Pipeline.scopedRest (Ix := Unit) (Name := ℕ) (U := UR sig nD τ × Counters) (Lvl := ℕ) (Val := Elt F) spec4 c
  q _ := fullShare
  owed _ := 0

theorem A4_eq (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4 V c t := by dsimp only [dat4]

/-- Each input window's current staging buffer holds its block at every point, fetched there or not. -/
theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A4_eq]; try rfl) t d).trans
    (by unfold Dat.fetched Dat.blockOf iblk4; rw [A4_eq]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A4_eq]; try rfl) t d).trans
    (by unfold Dat.fetched Dat.blockOf iblk4; rw [A4_eq]; try rfl)

/-! ## The body obligation at a generic point -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t ∗ (dat4 V c).leavesExact 1 t ∗ (dat4 V c).leavesExact 2 t)

set_option maxHeartbeats 4000000 in
/-- The body at any point. The two input buffers hold their blocks; the invariant hands over the accumulator at
    anything and takes it back at anything; the output buffer, found at anything, is handed back at the block the
    point stores; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = Pipeline.scopedRest (Ix := Unit) (Name := ℕ) (U := UR sig nD τ × Counters) (Lvl := ℕ) (Val := Elt F) spec4 c from rfl,
    show (dat4 V c).Φ t.castSucc = Pipeline.scopedRest (Ix := Unit) (Name := ℕ) (U := UR sig nD τ × Counters) (Lvl := ℕ) (Val := Elt F) spec4 c from rfl]
  rw [show (dat4 V c).leavesExact 0 t = owns (c : Thread nD τ) (ms4_0 t) fullShare (iblk4 V c 0 t) from by
    unfold Dat.leavesExact; rw [liveAt4_0 t, after4_0]]
  rw [show (dat4 V c).leavesExact 1 t = owns (c : Thread nD τ) (ms4_1 t) fullShare (iblk4 V c 1 t) from by
    unfold Dat.leavesExact; rw [liveAt4_1 t, after4_1]]
  rw [show (dat4 V c).leavesExact 2 t = owns (c : Thread nD τ) (ms4_2 t) fullShare (out4 V c t) from by
    unfold Dat.leavesExact; rw [liveAt4_2 t, after4_2]]
  rw [scopedRest4_eq]
  unfold out4
  iintro ⟨⟨HS, Hb⟩, Ho, ⟨%d0, H0⟩, ⟨%d1, H1⟩, ⟨%d2, H2⟩⟩
  iapply ((run4 c (grid4.coords t) (ms4_0 t) (hs4_0 t) (ms4_1 t) (hs4_1 t) (ms4_2 t) (hs4_2 t) scM4 (Memref.isWhole_whole _) (hcond4_0 t) (hcond4_1 t) (iblk4 V c 0 t) (iblk4 V c 1 t)).2.2 Set.univ _)
  isplitl [H0]; · iexact H0
  isplitl [H1]; · iexact H1
  isplitl [H2]; · iexists _; iexact H2
  isplitl [HS]; · iexact HS
  iintro ⟨H0, H1, ⟨%e2, H2⟩, ⟨%es, HS⟩⟩
  isplitl [HS Hb]
  · isplitl [HS]
    · iexists _; unfold owns; iexists _; isplitr
      swap; · iexact HS
      ipureintro; rfl
    iexact Hb
  isplitl [Ho]; · iexact Ho
  isplitl [H0]; · iexact H0
  isplitl [H1]; · iexact H1
  unfold owns; iexists _; isplitr
  swap; · iexact H2
  ipureintro; exact View.read_writes_of_cover _ _ _ _ _ (coverO4 V c t)

theorem body_obligation4 (c : Dev nD) : BodyObligation (dat4 V c) (defs₀ (F := F)) Variants.none () Set.univ := fun t => by
  rw [bigSep_W4, bigSep_W4]
  exact sound_body4 V c t

/-! ## The region over the thread state -/

variable (Vp : (c : Dev nD) → (b : Ref sig .tc) → Buf (Elt F) ((c : Thread nD τ).loc b))
variable (pdats : (p : Fin 22) → (c : Dev nD) → Dat τ (Elt F) Unit ℕ (UR sig nD τ × Counters) ℕ (cfgs p) c)

/-- The result's array after the region, as the pipeline library computes it from the proof data. -/
def out4arr (c : Dev nD) : Buf (Elt F) ((c : Thread nD τ).loc main_v8) := (dat4 V c).arrAt 2 cfg4.N

set_option backward.isDefEq.respectTransparency.types false in
set_option maxHeartbeats 2000000 in
/-- Launch 4 over the thread state "every unscoped buffer at `V c`, the core owing nothing": entered by
    splitting its three arrays out of the unscoped buffers, left with them put back at `Vp c`, which has the
    result's array at `out4arr` and agrees with `V c` elsewhere. -/
def reg4 (hp : ∀ c, pdats 4 c = dat4 V c)
    (hVp_out : ∀ c, Vp c main_v8 = out4arr V c)
    (hVp_ne : ∀ c (b : Ref sig .tc), b ≠ main_v8 → Vp c b = V c b) :
    Pipeline.RegionSeg (pcfgs (F := F)) (fun p => (cfgs p).toPCfg_adm) pdats () defs₀ Variants.none (fun _ => (∅ : Finset Unit)) (fun _ _ => (0 : ℕ)) 4 where
  win := launch4.win.to₀
  block_pos := launch4.block_pos
  stage_whole := launch4.stage_whole
  K := PEmpty
  osem k := k.elim
  ho := Pipeline.OwnSemFacts.none _
  hbody c := by rw [hp c]; exact (body_obligation4 V c).loose
  hwaits := Pipeline.hwaits_of_owed_zero _ _ _ _ _ _ 4 fun c t => by rw [hp c]; rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ × Counters) (Lvl := ℕ) spec4 c (V c)
  hentry c := by
    rw [Pipeline.ownSems0_none]
    have hsplit := Pipeline.arrays_of_unscopedBufs (p := 4) (pcfgs (F := F)) (fun p => (cfgs p).toPCfg_adm) pdats launch4.win launch4.arr_whole c
      ((pdats 4 c).share_full fun w => by rw [hp c]; rfl) (V c) (fun w => by rw [hp c]; rfl)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hp c]; exact trivial)
      rw [show (pdats 4 c).owed 0 = 0 from by rw [hp c]; rfl]
      iexact HO
    isplitr; · iempintro
    iexact Hrest
  hin c := by
    rw [hp c, show (dat4 V c).Φ 0 = Pipeline.scopedRest (Ix := Unit) (Name := ℕ) (U := UR sig nD τ × Counters) (Lvl := ℕ) (Val := Elt F) spec4 c from rfl]
    iintro ⟨-, -, Hr⟩; iexact Hr
  hout c := by
    rw [Pipeline.ownSems0_none, hp c]
    change (Pipeline.scopedRest (Ix := Unit) (Name := ℕ) (U := UR sig nD τ × Counters) (Lvl := ℕ) (Val := Elt F) spec4 c : sProp 𝕄) ⊢ _
    iintro Hr
    isplitr; · iempintro
    isplitr; · iempintro
    iexact Hr
  hexit c := by
    have hjoin := Pipeline.unscopedBufs_of_arrays (p := 4) (pcfgs (F := F)) (fun p => (cfgs p).toPCfg_adm) (Ix := Unit) (Name := ℕ) (U := UR sig nD τ × Counters) (Lvl := ℕ) launch4.win launch4.arr_whole c
      pdats ((pdats 4 c).share_full fun w => by rw [hp c]; rfl) (V c) (Vp c) ((pdats 4 c).arrAt · cfg4.N)
      (fun w => by
        fin_cases w
        · exact (((pdats 4 c).arrAt_in 0 rfl _).trans (by rw [hp c]; rfl)).trans (hVp_ne c main_arg1 (by decide)).symm
        · exact (((pdats 4 c).arrAt_in 1 rfl _).trans (by rw [hp c]; rfl)).trans (hVp_ne c main_arg9 (by decide)).symm
        · exact (by rw [hp c]; rfl : (pdats 4 c).arrAt 2 cfg4.N = out4arr V c).trans (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W
    rw [show (pdats 4 c).owed (Fin.last _) = 0 from by rw [hp c]; rfl]
    iexact HO

end Cert.Kernel.Hand

end
-- ==== Proof.KB.R05Base.lean ====
/-
  Launch 5 of the program: a matrix product accumulated over the third grid axis (grid 4 × 1 × 4: four row blocks,
  four contraction blocks), a bias row added and tanh applied when the
  last block has been added. This module names the two conditions of the body on the grid point — "the
  contraction's first block" (third coordinate 0) and "its last block" (third coordinate 3) —, decides them
  over the sixteen points, and records where the output window is idle and where its block is written back.
-/
import proofs.«113214_j66838281060556_2_alg».proof.Proof.Gen.Kernel.Launch
import proofs.«113214_j66838281060556_2_alg».proof.Proof.Gen.Kernel.Skeleton
import proofs.«113214_j66838281060556_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

/-- The accumulator is reset: the point starts a contraction (third grid coordinate 0). -/
abbrev cond5_0 (i : grid5.Coords) : Prop := (Scalar.cmpi .ne (Scalar.extui (Scalar.cmpi .eq (BitVec.ofNat 32 (i 2).val) 0#32)) 0#32) = 1#1
theorem hcond5_0 : ∀ t : Fin cfg5.N, cond5_0 (grid5.coords t) ↔ t.val % 4 = 0 :=
  (by decide +kernel : ∀ t : Fin grid5.N, cond5_0 (grid5.coords t) ↔ t.val % 4 = 0)

/-- The result is stored: the point ends a contraction (third grid coordinate 3). -/
abbrev cond5_1 (i : grid5.Coords) : Prop := k5_cond2 i = 1#1
theorem hcond5_1 : ∀ t : Fin cfg5.N, cond5_1 (grid5.coords t) ↔ t.val % 4 = 3 :=
  (by decide +kernel : ∀ t : Fin grid5.N, cond5_1 (grid5.coords t) ↔ t.val % 4 = 3)

/-- The three input windows are never idle. -/
theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
/-- Away from a contraction's last block the output window is idle and its block is not written back. -/
theorem idleAt5_3 : ∀ t : Fin cfg5.N, ¬cond5_1 (grid5.coords t) → cfg5.idle 3 (grid5.coords t) = true := by decide +kernel
theorem noFlush5_3 : ∀ t : Fin cfg5.N, ¬cond5_1 (grid5.coords t) → (cfg5.win 3).flush t = false := by decide +kernel
/-- At a contraction's last block the output window is live. -/
theorem liveAt5_3 : ∀ t : Fin cfg5.N, cond5_1 (grid5.coords t) → cfg5.idle 3 (grid5.coords t) = false := by decide +kernel

/-- Each window's current staging memref at a point, as the pipeline passes it, and its wholeness. -/
abbrev ms5_0 (t : Fin cfg5.N) : Memref sig .tc .vmem S1024x1024 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1024x1024 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x1024 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1024x1024 .f32 := win5_3.stage (cfg5.slots t 3)
abbrev hs5_3 (t : Fin cfg5.N) : (ms5_3 t).IsWhole := hstage5_3 ((cfg5.slots t 3).cast nbuf5_3)
/-- The accumulator: a whole scoped buffer of the launch's own. -/
abbrev scM5 : Memref sig .tc .vmem S1024x1024 .f32 := Memref.whole cc5_scratch0
abbrev VS5 : View sig .tc .vmem S1024x1024 .f32 := scM5.view

end Cert.Kernel.Hand

end
-- ==== Proof.KB.R05Run.lean ====
/-
  Launch 5, the body run symbolically in each of its three control cases: the first block of a contraction
  (the accumulator reset, then the first product added), a middle block (the product added), the last block
  (the product added, then the bias row added and tanh applied into the output block). Each run's witness is
  the list of pieces its stores leave in the accumulator (and, in the last case, in the output block).
-/
import proofs.«113214_j66838281060556_2_alg».proof.Proof.KB.R05Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

set_option maxHeartbeats 2000000 in
/-- The first block of a contraction that is not also its last: the accumulator, found at anything, is reset to
    zero and ends at the product of the two input blocks added to zero; the bias block and the idle output
    block are handed back untouched. -/
noncomputable def run5_A (c : Dev nD) (i : grid5.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond5_0 i) (hc1 : ¬cond5_1 i)
    (x0 : Vec F S1024x1024 .bf16) (x1 : Vec F S1024x1024 .bf16) (x2 : Vec F S1x1024 .f32) :
    { LS : List (View.Piece (Elt F) S1024x1024 .f32) //
      ∀ (xi : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc5__mm_kernel i arg3 harg3 arg4 harg4 arg5 harg5 arg6 harg6 arg7 harg7) K } := by
  refine ⟨?_, fun xi E K => ?run⟩
  case run =>
    simp only [cc5__mm_kernel_eq_skeleton]; unfold cc5__mm_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2
    obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 2000000 in
/-- A middle block of a contraction (neither condition holds): the accumulator, found at `xs`, ends at the
    product of the two input blocks added to `xs`; the bias block and the idle output block are handed back
    untouched. The pieces written into the accumulator are the witness the symbolic run finds. -/
noncomputable def run5_B (c : Dev nD) (i : grid5.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond5_0 i) (hc1 : ¬cond5_1 i)
    (x0 : Vec F S1024x1024 .bf16) (x1 : Vec F S1024x1024 .bf16) (x2 : Vec F S1x1024 .f32) (xs : Vec F S1024x1024 .f32) :
    { LS : List (View.Piece (Elt F) S1024x1024 .f32) //
      ∀ (xi : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi ∗ owns (c : Thread nD τ) arg7 fullShare xs
            ∗ (iprop(owns (c : Thread nD τ) arg3 fullShare x0 ∗ owns (c : Thread nD τ) arg4 fullShare x1 ∗ owns (c : Thread nD τ) arg5 fullShare x2
                ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc5__mm_kernel i arg3 harg3 arg4 harg4 arg5 harg5 arg6 harg6 arg7 harg7) K } := by
  refine ⟨?_, fun xi E K => ?run⟩
  case run =>
    simp only [cc5__mm_kernel_eq_skeleton]; unfold cc5__mm_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 2000000 in
/-- The last block of a contraction that is not also its first: the accumulator, found at `xs`, ends at the
    product of the two input blocks added to `xs`, and the output block, found at anything, is stored whole:
    tanh of that sum plus the bias row. -/
noncomputable def run5_C (c : Dev nD) (i : grid5.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond5_0 i) (hc1 : cond5_1 i)
    (x0 : Vec F S1024x1024 .bf16) (x1 : Vec F S1024x1024 .bf16) (x2 : Vec F S1x1024 .f32) (xs : Vec F S1024x1024 .f32) :
    Σ' (LO : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LS)) -∗ K ⟨⟩))
          ⊢ wp frame (wpE (defs₀ (F := F)) Variants.none c none) E (cc5__mm_kernel i arg3 harg3 arg4 harg4 arg5 harg5 arg6 harg6 arg7 harg7) K } := by
  refine ⟨?_, ?_, fun E K => ?run⟩
  case run =>
    simp only [cc5__mm_kernel_eq_skeleton]; unfold cc5__mm_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2
    obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    iexists _; iexact HS

end Cert.Kernel.Hand

end
-- ==== Proof.KB.R05.lean ====
/-
  Launch 5 as a segment of the program: tanh(A·B + bias) with A a graph matrix, B the right
  factor and a bias row, computed block by block on the grid 4 × 1 × 4 with an accumulator carried along the
  contraction. What the accumulator and the output block hold after each point is defined by recursion on the
  point (the first block of a contraction resets, a middle block adds, the last block adds and stores tanh of the
  sum plus the bias); the invariant between points is the accumulator at that value beside the launch's other
  scoped buffers; the proof data states each window's block after the body; the body obligation is the three
  symbolic runs put together by cases on the point's position in its contraction; and the segment record enters
  the launch from a thread state holding every unscoped buffer at an entry valuation and leaves it at the
  valuation updated at the result's array.
-/
import proofs.«113214_j66838281060556_2_alg».proof.Proof.KB.R05Run
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

variable (V : (c : Dev nD) → (b : Ref sig .tc) → Buf (Elt F) ((c : Thread nD τ).loc b))

/-! ## The blocks the windows stage -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- A view of the output's staging buffer and one of the accumulator, through which contents are stated. -/
abbrev VO5 : View sig .tc .vmem S1024x1024 .f32 := (Memref.whole cc5_stg3_0 : Memref sig .tc .vmem S1024x1024 .f32).view

/-! ## What each case leaves -/

/-- The accumulator after a first block. -/
def accA5 (c : Dev nD) (t : Fin cfg5.N) (h0 : t.val % 4 = 0) (h1 : ¬t.val % 4 = 3) : Vec F S1024x1024 .f32 :=
  VS5.read (Elt F) (VS5.writes (Elt F) VS5.junk (run5_A c (grid5.coords t) (ms5_0 t) (hs5_0 t) (ms5_1 t) (hs5_1 t) (ms5_2 t) (hs5_2 t) (ms5_3 t) (hs5_3 t) scM5 (Memref.isWhole_whole _) ((hcond5_0 t).mpr h0) (fun h => h1 ((hcond5_1 t).mp h)) (iblk5 V c 0 t) (iblk5 V c 1 t) (iblk5 V c 2 t)).1)
/-- The accumulator after a middle block, from what the point before left. -/
def accB5 (c : Dev nD) (t : Fin cfg5.N) (h0 : ¬t.val % 4 = 0) (h1 : ¬t.val % 4 = 3) (xs : Vec F S1024x1024 .f32) : Vec F S1024x1024 .f32 :=
  VS5.read (Elt F) (VS5.writes (Elt F) VS5.junk (run5_B c (grid5.coords t) (ms5_0 t) (hs5_0 t) (ms5_1 t) (hs5_1 t) (ms5_2 t) (hs5_2 t) (ms5_3 t) (hs5_3 t) scM5 (Memref.isWhole_whole _) (fun h => h0 ((hcond5_0 t).mp h)) (fun h => h1 ((hcond5_1 t).mp h)) (iblk5 V c 0 t) (iblk5 V c 1 t) (iblk5 V c 2 t) xs).1)
/-- The accumulator after a last block, -/
def accC5 (c : Dev nD) (t : Fin cfg5.N) (h0 : ¬t.val % 4 = 0) (h1 : t.val % 4 = 3) (xs : Vec F S1024x1024 .f32) : Vec F S1024x1024 .f32 :=
  VS5.read (Elt F) (VS5.writes (Elt F) VS5.junk (run5_C c (grid5.coords t) (ms5_0 t) (hs5_0 t) (ms5_1 t) (hs5_1 t) (ms5_2 t) (hs5_2 t) (ms5_3 t) (hs5_3 t) scM5 (Memref.isWhole_whole _) (fun h => h0 ((hcond5_0 t).mp h)) ((hcond5_1 t).mpr h1) (iblk5 V c 0 t) (iblk5 V c 1 t) (iblk5 V c 2 t) xs).2.1)
/-- and the output block stored there. -/
def outC5 (c : Dev nD) (t : Fin cfg5.N) (h0 : ¬t.val % 4 = 0) (h1 : t.val % 4 = 3) (xs : Vec F S1024x1024 .f32) : Vec F S1024x1024 .f32 :=
  VO5.read (Elt F) (VO5.writes (Elt F) VO5.junk (run5_C c (grid5.coords t) (ms5_0 t) (hs5_0 t) (ms5_1 t) (hs5_1 t) (ms5_2 t) (hs5_2 t) (ms5_3 t) (hs5_3 t) scM5 (Memref.isWhole_whole _) (fun h => h0 ((hcond5_0 t).mp h)) ((hcond5_1 t).mpr h1) (iblk5 V c 0 t) (iblk5 V c 1 t) (iblk5 V c 2 t) xs).1)

theorem coverA5 (c : Dev nD) (t : Fin cfg5.N) (h0 : t.val % 4 = 0) (h1 : ¬t.val % 4 = 3) (y : S1024x1024.Idx) :
    ∃ pc ∈ (run5_A c (grid5.coords t) (ms5_0 t) (hs5_0 t) (ms5_1 t) (hs5_1 t) (ms5_2 t) (hs5_2 t) (ms5_3 t) (hs5_3 t) scM5 (Memref.isWhole_whole _) ((hcond5_0 t).mpr h0) (fun h => h1 ((hcond5_1 t).mp h)) (iblk5 V c 0 t) (iblk5 V c 1 t) (iblk5 V c 2 t)).1, y ∈ pc.1.set :=
  View.cover_of_tiledL _ S1024x1024.size (by sl_kernel_rfl) y
theorem coverB5 (c : Dev nD) (t : Fin cfg5.N) (h0 : ¬t.val % 4 = 0) (h1 : ¬t.val % 4 = 3) (xs : Vec F S1024x1024 .f32) (y : S1024x1024.Idx) :
    ∃ pc ∈ (run5_B c (grid5.coords t) (ms5_0 t) (hs5_0 t) (ms5_1 t) (hs5_1 t) (ms5_2 t) (hs5_2 t) (ms5_3 t) (hs5_3 t) scM5 (Memref.isWhole_whole _) (fun h => h0 ((hcond5_0 t).mp h)) (fun h => h1 ((hcond5_1 t).mp h)) (iblk5 V c 0 t) (iblk5 V c 1 t) (iblk5 V c 2 t) xs).1, y ∈ pc.1.set :=
  View.cover_of_tiledL _ S1024x1024.size (by sl_kernel_rfl) y
theorem coverCs5 (c : Dev nD) (t : Fin cfg5.N) (h0 : ¬t.val % 4 = 0) (h1 : t.val % 4 = 3) (xs : Vec F S1024x1024 .f32) (y : S1024x1024.Idx) :
    ∃ pc ∈ (run5_C c (grid5.coords t) (ms5_0 t) (hs5_0 t) (ms5_1 t) (hs5_1 t) (ms5_2 t) (hs5_2 t) (ms5_3 t) (hs5_3 t) scM5 (Memref.isWhole_whole _) (fun h => h0 ((hcond5_0 t).mp h)) ((hcond5_1 t).mpr h1) (iblk5 V c 0 t) (iblk5 V c 1 t) (iblk5 V c 2 t) xs).2.1, y ∈ pc.1.set :=
  View.cover_of_tiledL _ S1024x1024.size (by sl_kernel_rfl) y
theorem coverCo5 (c : Dev nD) (t : Fin cfg5.N) (h0 : ¬t.val % 4 = 0) (h1 : t.val % 4 = 3) (xs : Vec F S1024x1024 .f32) (y : S1024x1024.Idx) :
    ∃ pc ∈ (run5_C c (grid5.coords t) (ms5_0 t) (hs5_0 t) (ms5_1 t) (hs5_1 t) (ms5_2 t) (hs5_2 t) (ms5_3 t) (hs5_3 t) scM5 (Memref.isWhole_whole _) (fun h => h0 ((hcond5_0 t).mp h)) ((hcond5_1 t).mpr h1) (iblk5 V c 0 t) (iblk5 V c 1 t) (iblk5 V c 2 t) xs).1, y ∈ pc.1.set :=
  View.cover_of_tiledL _ S1024x1024.size (by sl_kernel_rfl) y

/-! ## The accumulation, point by point -/

/-- What the output's staging buffer (first component; meaningful at a contraction's last block only) and the
    accumulator (second component) hold after the body at position `n`. -/
def outsAt5 (c : Dev nD) : (n : ℕ) → n < cfg5.N → Vec F S1024x1024 .f32 × Vec F S1024x1024 .f32
  | 0, hn => (VO5.read (Elt F) VO5.junk, accA5 V c ⟨0, hn⟩ (Nat.zero_mod _) (by simp))
  | n + 1, hn =>
    if h0 : (n + 1) % 4 = 0 then
      if h1 : (n + 1) % 4 = 3 then False.elim (by omega)
      else (VO5.read (Elt F) VO5.junk, accA5 V c ⟨n + 1, hn⟩ h0 h1)
    else
      if h1 : (n + 1) % 4 = 3 then
        (outC5 V c ⟨n + 1, hn⟩ h0 h1 (outsAt5 c n (Nat.lt_of_succ_lt hn)).2, accC5 V c ⟨n + 1, hn⟩ h0 h1 (outsAt5 c n (Nat.lt_of_succ_lt hn)).2)
      else
        (VO5.read (Elt F) VO5.junk, accB5 V c ⟨n + 1, hn⟩ h0 h1 (outsAt5 c n (Nat.lt_of_succ_lt hn)).2)

theorem outsAt5_A (c : Dev nD) (t : Fin cfg5.N) (h0 : t.val % 4 = 0) (h1 : ¬t.val % 4 = 3) :
    outsAt5 V c t.val t.isLt = (VO5.read (Elt F) VO5.junk, accA5 V c t h0 h1) := by
  obtain ⟨n, hn⟩ := t
  cases n with
  | zero => exact rfl
  | succ n => exact (dif_pos h0).trans ((dif_neg h1).trans rfl)

theorem outsAt5_B (c : Dev nD) (t : Fin cfg5.N) (h0 : ¬t.val % 4 = 0) (h1 : ¬t.val % 4 = 3) :
    outsAt5 V c t.val t.isLt = (VO5.read (Elt F) VO5.junk, accB5 V c t h0 h1 (outsAt5 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt5_C (c : Dev nD) (t : Fin cfg5.N) (h0 : ¬t.val % 4 = 0) (h1 : t.val % 4 = 3) :
    outsAt5 V c t.val t.isLt = (outC5 V c t h0 h1 (outsAt5 V c (t.val - 1) (Nat.lt_of_le_of_lt (Nat.sub_le _ _) t.isLt)).2,
      accC5 V c t h0 h1 (outsAt5 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant between points -/

/-- Before the first point the launch's scoped buffers that no window stages, whole; afterwards the accumulator at
    what the point before left, and the other such buffers unopened. -/
def PhiS5 (c : Dev nD) : (n : ℕ) → n ≤ cfg5.N → sProp 𝕄
  | 0, _ => Pipeline.scopedRest (Ix := Unit) (Name := ℕ) (U := UR sig nD τ × Counters) (Lvl := ℕ) (Val := Elt F) spec5 c
  | n + 1, hn => iprop(owns (c : Thread nD τ) scM5 fullShare (outsAt5 V c n hn).2
      ∗ Pipeline.scopedRestBut (Ix := Unit) (Name := ℕ) (U := UR sig nD τ × Counters) (Lvl := ℕ) (Val := Elt F) spec5 c [cc5_scratch0])

theorem PhiS5_pos (c : Dev nD) (n : ℕ) (h : n ≤ cfg5.N) (hz : n ≠ 0) :
    PhiS5 V c n h = iprop(owns (c : Thread nD τ) scM5 fullShare (outsAt5 V c (n - 1) (by omega)).2
      ∗ Pipeline.scopedRestBut (Ix := Unit) (Name := ℕ) (U := UR sig nD τ × Counters) (Lvl := ℕ) (Val := Elt F) spec5 c [cc5_scratch0]) := by
  cases n with
  | zero => exact absurd rfl hz
  | succ n => rfl

/-- The scoped rest with the accumulator split out as a memref owned at some contents. -/
theorem scopedRest5_eq (c : Dev nD) :
    (Pipeline.scopedRest (Ix := Unit) (Name := ℕ) (U := UR sig nD τ × Counters) (Lvl := ℕ) (Val := Elt F) spec5 c : sProp 𝕄)
      = iprop((∃ d, owns (c : Thread nD τ) scM5 fullShare d)
          ∗ Pipeline.scopedRestBut (Ix := Unit) (Name := ℕ) (U := UR sig nD τ × Counters) (Lvl := ℕ) (Val := Elt F) spec5 c [cc5_scratch0]) := by
  rw [scopedRest5_split]; simp only [scM5, owns_whole]; try rfl

/-! ## The proof data -/

def dat5 (c : Dev nD) : Dat τ (Elt F) Unit ℕ (UR sig nD τ × Counters) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := PhiS5 V c t.val (Nat.le_of_lt_succ t.isLt)
  q _ := fullShare
  owed _ := 0

theorem A5_eq (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (outsAt5 V c t.val t.isLt).1 := by dsimp only [dat5]

theorem Phi5_castSucc (c : Dev nD) (t : Fin cfg5.N) :
    (dat5 V c).Φ t.castSucc = PhiS5 V c t.val (Nat.le_of_lt t.isLt) := by
  dsimp only [dat5]; simp only [Fin.coe_castSucc]

/-- Each input window's current staging buffer holds its block at every point, fetched there or not. -/
theorem before5_0 (c : Dev nD) (t : Fin cfg5.N) (d) : (dat5 V c).before 0 t d = iblk5 V c 0 t :=
  ((dat5 V c).before_in_eq_fetched 0 rfl (fun _ => rfl) (fun _ _ _ => rfl) (fun t => by rw [after5_0]; unfold Dat.blockOf iblk5; rw [A5_eq]; try rfl) t d).trans
    (by unfold Dat.fetched Dat.blockOf iblk5; rw [A5_eq]; try rfl)
theorem before5_1 (c : Dev nD) (t : Fin cfg5.N) (d) : (dat5 V c).before 1 t d = iblk5 V c 1 t :=
  ((dat5 V c).before_in_eq_fetched 1 rfl (fun _ => rfl) (fun _ _ _ => rfl) (fun t => by rw [after5_1]; unfold Dat.blockOf iblk5; rw [A5_eq]; try rfl) t d).trans
    (by unfold Dat.fetched Dat.blockOf iblk5; rw [A5_eq]; try rfl)
theorem before5_2 (c : Dev nD) (t : Fin cfg5.N) (d) : (dat5 V c).before 2 t d = iblk5 V c 2 t :=
  ((dat5 V c).before_in_eq_fetched 2 rfl (fun _ => rfl) (fun _ _ _ => rfl) (fun t => by rw [after5_2]; unfold Dat.blockOf iblk5; rw [A5_eq]; try rfl) t d).trans
    (by unfold Dat.fetched Dat.blockOf iblk5; rw [A5_eq]; try rfl)

/-! ## The body obligation at a generic point -/

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t ∗ (dat5 V c).leavesExact 1 t ∗ (dat5 V c).leavesExact 2 t ∗ (dat5 V c).leavesExact 3 t)

set_option maxHeartbeats 4000000 in
/-- The body at any point. The three input buffers hold their blocks; the point's position in its contraction
    selects the case; the invariant hands over the accumulator (at anything before the very first point, else at
    what the point before left) and takes it back at this point's contents; an idle output buffer is handed back
    as found, a stored one at the case's block; the core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = iprop(owns (c : Thread nD τ) scM5 fullShare (outsAt5 V c t.val t.isLt).2
      ∗ Pipeline.scopedRestBut (Ix := Unit) (Name := ℕ) (U := UR sig nD τ × Counters) (Lvl := ℕ) (Val := Elt F) spec5 c [cc5_scratch0]) from rfl]
  have hN : t.val < 16 := lt_of_lt_of_eq t.isLt (show cfg5.N = 16 from N_5)
  rw [show (dat5 V c).leavesExact 0 t = owns (c : Thread nD τ) (ms5_0 t) fullShare (iblk5 V c 0 t) from by
    unfold Dat.leavesExact; rw [liveAt5_0 t, after5_0]]
  rw [show (dat5 V c).leavesExact 1 t = owns (c : Thread nD τ) (ms5_1 t) fullShare (iblk5 V c 1 t) from by
    unfold Dat.leavesExact; rw [liveAt5_1 t, after5_1]]
  rw [show (dat5 V c).leavesExact 2 t = owns (c : Thread nD τ) (ms5_2 t) fullShare (iblk5 V c 2 t) from by
    unfold Dat.leavesExact; rw [liveAt5_2 t, after5_2]]
  rw [Phi5_castSucc V c t]
  by_cases h1 : t.val % 4 = 3
  · -- the last block of a contraction
    have h0 : ¬t.val % 4 = 0 := by omega
    have hz : t.val ≠ 0 := by omega
    rw [show (dat5 V c).leavesExact 3 t = owns (c : Thread nD τ) (ms5_3 t) fullShare (outsAt5 V c t.val t.isLt).1 from by
      unfold Dat.leavesExact; rw [liveAt5_3 t ((hcond5_1 t).mpr h1), after5_3]]
    rw [outsAt5_C V c t h0 h1, PhiS5_pos V c _ _ hz]
    dsimp only
    unfold outC5 accC5
    iintro ⟨⟨HS, Hb⟩, Ho, ⟨%d0, H0⟩, ⟨%d1, H1⟩, ⟨%d2, H2⟩, ⟨%d3, H3⟩⟩
    iapply ((run5_C c (grid5.coords t) (ms5_0 t) (hs5_0 t) (ms5_1 t) (hs5_1 t) (ms5_2 t) (hs5_2 t) (ms5_3 t) (hs5_3 t) scM5 (Memref.isWhole_whole _) (fun h => h0 ((hcond5_0 t).mp h)) ((hcond5_1 t).mpr h1) (iblk5 V c 0 t) (iblk5 V c 1 t) (iblk5 V c 2 t) _).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hb]
    · isplitl [HS]
      · unfold owns; iexists _; isplitr
        swap; · iexact HS
        ipureintro; exact View.read_writes_of_cover _ _ _ _ _ (coverCs5 V c t h0 h1 _)
      iexact Hb
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverCo5 V c t h0 h1 _)
  · rw [Dat.leavesExact_idle (dat5 V c) 3 t (idleAt5_3 t (fun h => h1 ((hcond5_1 t).mp h))) (noFlush5_3 t (fun h => h1 ((hcond5_1 t).mp h)))]
    by_cases h0 : t.val % 4 = 0
    · -- the first block of a contraction
      rw [outsAt5_A V c t h0 h1]
      dsimp only
      unfold accA5
      by_cases hz : t.val = 0
      · rw [show PhiS5 V c t.val (Nat.le_of_lt t.isLt) = Pipeline.scopedRest (Ix := Unit) (Name := ℕ) (U := UR sig nD τ × Counters) (Lvl := ℕ) (Val := Elt F) spec5 c from by
          obtain ⟨n, hn⟩ := t; dsimp only at hz; subst hz; rfl, scopedRest5_eq]
        iintro ⟨⟨HS, Hb⟩, Ho, ⟨%d0, H0⟩, ⟨%d1, H1⟩, ⟨%d2, H2⟩, ⟨%d3, H3⟩⟩
        iapply ((run5_A c (grid5.coords t) (ms5_0 t) (hs5_0 t) (ms5_1 t) (hs5_1 t) (ms5_2 t) (hs5_2 t) (ms5_3 t) (hs5_3 t) scM5 (Memref.isWhole_whole _) ((hcond5_0 t).mpr h0) (fun h => h1 ((hcond5_1 t).mp h)) (iblk5 V c 0 t) (iblk5 V c 1 t) (iblk5 V c 2 t)).2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hb]
        · isplitl [HS]
          · unfold owns; iexists _; isplitr
            swap; · iexact HS
            ipureintro; exact View.read_writes_of_cover _ _ _ _ _ (coverA5 V c t h0 h1)
          iexact Hb
        isplitl [Ho]; · iexact Ho
        isplitl [H0]; · iexact H0
        isplitl [H1]; · iexact H1
        isplitl [H2]; · iexact H2
        iexists _; iexact H3
      · rw [PhiS5_pos V c _ _ hz]
        iintro ⟨⟨HS, Hb⟩, Ho, ⟨%d0, H0⟩, ⟨%d1, H1⟩, ⟨%d2, H2⟩, ⟨%d3, H3⟩⟩
        iapply ((run5_A c (grid5.coords t) (ms5_0 t) (hs5_0 t) (ms5_1 t) (hs5_1 t) (ms5_2 t) (hs5_2 t) (ms5_3 t) (hs5_3 t) scM5 (Memref.isWhole_whole _) ((hcond5_0 t).mpr h0) (fun h => h1 ((hcond5_1 t).mp h)) (iblk5 V c 0 t) (iblk5 V c 1 t) (iblk5 V c 2 t)).2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hb]
        · isplitl [HS]
          · unfold owns; iexists _; isplitr
            swap; · iexact HS
            ipureintro; exact View.read_writes_of_cover _ _ _ _ _ (coverA5 V c t h0 h1)
          iexact Hb
        isplitl [Ho]; · iexact Ho
        isplitl [H0]; · iexact H0
        isplitl [H1]; · iexact H1
        isplitl [H2]; · iexact H2
        iexists _; iexact H3
    · -- a middle block
      have hz : t.val ≠ 0 := by omega
      rw [outsAt5_B V c t h0 h1, PhiS5_pos V c _ _ hz]
      dsimp only
      unfold accB5
      iintro ⟨⟨HS, Hb⟩, Ho, ⟨%d0, H0⟩, ⟨%d1, H1⟩, ⟨%d2, H2⟩, ⟨%d3, H3⟩⟩
      iapply ((run5_B c (grid5.coords t) (ms5_0 t) (hs5_0 t) (ms5_1 t) (hs5_1 t) (ms5_2 t) (hs5_2 t) (ms5_3 t) (hs5_3 t) scM5 (Memref.isWhole_whole _) (fun h => h0 ((hcond5_0 t).mp h)) (fun h => h1 ((hcond5_1 t).mp h)) (iblk5 V c 0 t) (iblk5 V c 1 t) (iblk5 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hb]
      · isplitl [HS]
        · unfold owns; iexists _; isplitr
          swap; · iexact HS
          ipureintro; exact View.read_writes_of_cover _ _ _ _ _ (coverB5 V c t h0 h1 _)
        iexact Hb
      isplitl [Ho]; · iexact Ho
      isplitl [H0]; · iexact H0
      isplitl [H1]; · iexact H1
      isplitl [H2]; · iexact H2
      iexists _; iexact H3

theorem body_obligation5 (c : Dev nD) : BodyObligation (dat5 V c) (defs₀ (F := F)) Variants.none () Set.univ := fun t => by
  rw [bigSep_W5, bigSep_W5]
  exact sound_body5 V c t

/-! ## The region over the thread state -/

variable (Vp : (c : Dev nD) → (b : Ref sig .tc) → Buf (Elt F) ((c : Thread nD τ).loc b))
variable (pdats : (p : Fin 22) → (c : Dev nD) → Dat τ (Elt F) Unit ℕ (UR sig nD τ × Counters) ℕ (cfgs p) c)

/-- The result's array after the region, as the pipeline library computes it from the proof data. -/
def out5 (c : Dev nD) : Buf (Elt F) ((c : Thread nD τ).loc main_v10) := (dat5 V c).arrAt 3 cfg5.N

set_option backward.isDefEq.respectTransparency.types false in
set_option maxHeartbeats 2000000 in
/-- Launch 5 over the thread state "every unscoped buffer at `V c`, the core owing nothing": entered by
    splitting its four arrays out of the unscoped buffers, left with them put back at `Vp c`, which has the
    result's array at `out5` and agrees with `V c` elsewhere. -/
def reg5 (hp : ∀ c, pdats 5 c = dat5 V c)
    (hVp_out : ∀ c, Vp c main_v10 = out5 V c)
    (hVp_ne : ∀ c (b : Ref sig .tc), b ≠ main_v10 → Vp c b = V c b) :
    Pipeline.RegionSeg (pcfgs (F := F)) (fun p => (cfgs p).toPCfg_adm) pdats () defs₀ Variants.none (fun _ => (∅ : Finset Unit)) (fun _ _ => (0 : ℕ)) 5 where
  win := launch5.win.to₀
  block_pos := launch5.block_pos
  stage_whole := launch5.stage_whole
  K := PEmpty
  osem k := k.elim
  ho := Pipeline.OwnSemFacts.none _
  hbody c := by rw [hp c]; exact (body_obligation5 V c).loose
  hwaits := Pipeline.hwaits_of_owed_zero _ _ _ _ _ _ 5 fun c t => by rw [hp c]; rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ × Counters) (Lvl := ℕ) spec5 c (V c)
  hentry c := by
    rw [Pipeline.ownSems0_none]
    have hsplit := Pipeline.arrays_of_unscopedBufs (p := 5) (pcfgs (F := F)) (fun p => (cfgs p).toPCfg_adm) pdats launch5.win launch5.arr_whole c
      ((pdats 5 c).share_full fun w => by rw [hp c]; rfl) (V c) (fun w => by rw [hp c]; rfl)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hp c]
      unfold Pipeline.Dat.owesAt Pipeline.owesWithin
      icases HO with ⟨%W, HO⟩; iexists W; isplitr; · ipureintro; exact fun _ _ => Or.inl trivial
      iexact HO
    isplitr; · iempintro
    iexact Hrest
  hin c := by
    rw [hp c, show (dat5 V c).Φ 0 = Pipeline.scopedRest (Ix := Unit) (Name := ℕ) (U := UR sig nD τ × Counters) (Lvl := ℕ) (Val := Elt F) spec5 c from rfl]
    iintro ⟨-, -, Hr⟩; iexact Hr
  hout c := by
    rw [Pipeline.ownSems0_none, hp c]
    refine (Entails.of_eq ((show (dat5 V c).Φ (Fin.last _) = PhiS5 V c (Fin.last cfg5.N).val (Nat.le_of_lt_succ (Fin.last cfg5.N).isLt) from rfl).trans
      (PhiS5_pos V c _ _ (by rw [Fin.val_last]; have : cfg5.N = 16 := N_5; omega)))).trans ?_
    change _ ⊢ iprop(BI.emp ∗ BI.emp ∗ Pipeline.scopedRest (Ix := Unit) (Name := ℕ) (U := UR sig nD τ × Counters) (Lvl := ℕ) (Val := Elt F) spec5 c)
    rw [scopedRest5_eq]
    iintro ⟨HS, Hb⟩
    isplitr; · iempintro
    isplitr; · iempintro
    isplitl [HS]; · iexists _; iexact HS
    iexact Hb
  hexit c := by
    have hjoin := Pipeline.unscopedBufs_of_arrays (p := 5) (pcfgs (F := F)) (fun p => (cfgs p).toPCfg_adm) (Ix := Unit) (Name := ℕ) (U := UR sig nD τ × Counters) (Lvl := ℕ) launch5.win launch5.arr_whole c
      pdats ((pdats 5 c).share_full fun w => by rw [hp c]; rfl) (V c) (Vp c) ((pdats 5 c).arrAt · cfg5.N)
      (fun w => by
        fin_cases w
        · exact (((pdats 5 c).arrAt_in 0 rfl _).trans (by rw [hp c]; rfl)).trans (hVp_ne c main_v1 (by decide)).symm
        · exact (((pdats 5 c).arrAt_in 1 rfl _).trans (by rw [hp c]; rfl)).trans (hVp_ne c main_v8 (by decide)).symm
        · exact (((pdats 5 c).arrAt_in 2 rfl _).trans (by rw [hp c]; rfl)).trans (hVp_ne c main_v9 (by decide)).symm
        · exact (by rw [hp c]; rfl : (pdats 5 c).arrAt 3 cfg5.N = out5 V c).trans (hVp_out c).symm)
      (fun b hb => hVp_ne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W
    rw [show (pdats 5 c).owed (Fin.last _) = 0 from by rw [hp c]; rfl]
    iexact HO

end Cert.Kernel.Hand

end
-- ==== Proof.KB.R06Base.lean ====
/-
  Launch 6 of the program: one matrix product per grid point — the contraction is a single block —, from which the
  output block is stored at every point. The grid's third coordinate is always 0, so both conditions of the body —
  "the contraction's first block" and "its last block" — hold at every point: this module decides them over the
  grid's points, records that no window is ever idle, and names the staging memrefs the body is called with.
-/
import proofs.«113214_j66838281060556_2_alg».proof.Proof.Gen.Kernel.Launch
import proofs.«113214_j66838281060556_2_alg».proof.Proof.Gen.Kernel.Skeleton
import proofs.«113214_j66838281060556_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

/-- The accumulator is reset: the point starts a contraction (third grid coordinate 0). Here the third axis has one
    coordinate, so every point does. -/
abbrev cond6_0 (i : grid6.Coords) : Prop := (Scalar.cmpi .ne (Scalar.extui (Scalar.cmpi .eq (BitVec.ofNat 32 (i 2).val) 0#32)) 0#32) = 1#1
theorem hcond6_0 : ∀ t : Fin cfg6.N, cond6_0 (grid6.coords t) :=
  (by decide +kernel : ∀ t : Fin grid6.N, cond6_0 (grid6.coords t))

/-- The result is stored: the point ends a contraction. Every point does. -/
abbrev cond6_1 (i : grid6.Coords) : Prop := k6_cond2 i = 1#1
theorem hcond6_1 : ∀ t : Fin cfg6.N, cond6_1 (grid6.coords t) :=
  (by decide +kernel : ∀ t : Fin grid6.N, cond6_1 (grid6.coords t))

/-- No window is idle at any point: the two inputs never, the output because every point stores. -/
theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel

/-- Each window's current staging memref at a point, as the pipeline passes it, and its wholeness. -/
abbrev ms6_0 (t : Fin cfg6.N) : Memref sig .tc .vmem S1024x1024 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S1024x819 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1024x819 .bf16 := win6_2.stage (cfg6.slots t 2)
abbrev hs6_2 (t : Fin cfg6.N) : (ms6_2 t).IsWhole := hstage6_2 ((cfg6.slots t 2).cast nbuf6_2)
/-- The accumulator: a whole scoped buffer of the launch's own. -/
abbrev scM6 : Memref sig .tc .vmem S1024x819 .f32 := Memref.whole cc6_scratch0
abbrev VS6 : View sig .tc .vmem S1024x819 .f32 := scM6.view

end Cert.Kernel.Hand

end
-- ==== Proof.KB.R06Run.lean ====
/-
  Launch 6, the body run symbolically in its one control case: the accumulator reset, the product added, the output
  block stored from the sum. The run's witnesses are the lists of pieces its stores leave in the output block and in
  the accumulator.
-/
import proofs.«113214_j66838281060556_2_alg».proof.Proof.KB.R06Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

set_option maxHeartbeats 2000000 in
/-- The body at a point, run symbolically: the accumulator, found at anything, is reset and ends at the product of
    the two input blocks added to it; the output block, found at anything, is stored whole from that sum. The
    witnesses are the pieces the stores leave in the output block and in the accumulator. -/
noncomputable def run6 (c : Dev nD) (i : grid6.Coords) (arg3 : Memref sig .tc .vmem S1024x1024 .f32) (harg3 : arg3.IsWhole) (arg4 : Memref sig .tc .vmem S1024x819 .f32) (harg4 : arg4.IsWhole) (arg5 : Memref sig .tc .vmem S1024x819 .bf16) (harg5 : arg5.IsWhole) (arg6 : Memref sig .tc .vmem S1024x819 .f32) (harg6 : arg6.IsWhole) (hc0 : cond6_0 i) (hc1 : cond6_1 i)
    (x0 : Vec F S1024x1024 .f32) (x1 : Vec F S1024x819 .f32) :
    Σ' (LO : List (View.Piece (Elt F) S1024x819 .bf16)), { LS : List (View.Piece (Elt F) S1024x819 .f32) //
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc6__mm_kernel i arg3 harg3 arg4 harg4 arg5 harg5 arg6 harg6) K } := by
  refine ⟨?_, ?_, fun E K => ?run⟩
  case run =>
    simp only [cc6__mm_kernel_eq_skeleton]; unfold cc6__mm_kernel_skel
    unfold owns
    iintro ⟨⟨%f0, %hf0, H0⟩, ⟨%f1, %hf1, H1⟩, ⟨%d2, %f2, -, H2⟩, ⟨%ds, %fs, -, HS⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact HS

end Cert.Kernel.Hand

end
-- ==== Proof.KB.R06.lean ====
/-
  Launch 6 as a region of the program. The blocks the windows stage are read off the arrays as the region finds
  them; a point stores the output block its run leaves; the accumulator is reset at every point, so between points
  the launch's scoped buffers that no window stages are simply held whole at anything; the body obligation follows
  from the one symbolic run; and the region is stated over the thread state "every unscoped buffer at given
  contents, the core owing nothing", entered by splitting the three arrays out and left with the result's array
  at what the pipeline computes from the stored blocks.
-/
import proofs.«113214_j66838281060556_2_alg».proof.Proof.KB.R06Run
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

variable (V : (c : Dev nD) → (b : Ref sig .tc) → Buf (Elt F) ((c : Thread nD τ).loc b))

/-! ## The blocks the windows stage -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- A view of the output's staging buffer, through which contents are stated. -/
abbrev VO6 : View sig .tc .vmem S1024x819 .bf16 := (Memref.whole cc6_stg2_0 : Memref sig .tc .vmem S1024x819 .bf16).view

/-! ## What a point leaves -/

/-- The output block a point stores: what the run's pieces leave, read through the staging buffer's view. -/
def out6 (c : Dev nD) (t : Fin cfg6.N) : Vec F S1024x819 .bf16 :=
  VO6.read (Elt F) (VO6.writes (Elt F) VO6.junk (run6 c (grid6.coords t) (ms6_0 t) (hs6_0 t) (ms6_1 t) (hs6_1 t) (ms6_2 t) (hs6_2 t) scM6 (Memref.isWhole_whole _) (hcond6_0 t) (hcond6_1 t) (iblk6 V c 0 t) (iblk6 V c 1 t)).1)

/-- The stores into the output block cover it. -/
theorem coverO6 (c : Dev nD) (t : Fin cfg6.N) (y : S1024x819.Idx) :
    ∃ pc ∈ (run6 c (grid6.coords t) (ms6_0 t) (hs6_0 t) (ms6_1 t) (hs6_1 t) (ms6_2 t) (hs6_2 t) scM6 (Memref.isWhole_whole _) (hcond6_0 t) (hcond6_1 t) (iblk6 V c 0 t) (iblk6 V c 1 t)).1, y ∈ pc.1.set :=
  View.cover_of_tiledL _ S1024x819.size (by sl_kernel_rfl) y

/-! ## The invariant between points -/

/-- The scoped rest with the accumulator split out as a memref owned at some contents. The accumulator is reset at
    every point, so the invariant between points is the scoped rest itself, the accumulator at anything. -/
theorem scopedRest6_eq (c : Dev nD) :
    (Pipeline.scopedRest (Ix := Unit) (Name := ℕ) (U := UR sig nD τ × Counters) (Lvl := ℕ) (Val := Elt F) spec6 c : sProp 𝕄)
      = iprop((∃ d, owns (c : Thread nD τ) scM6 fullShare d)
          ∗ Pipeline.scopedRestBut (Ix := Unit) (Name := ℕ) (U := UR sig nD τ × Counters) (Lvl := ℕ) (Val := Elt F) spec6 c [cc6_scratch0]) := by
  rw [scopedRest6_split]; simp only [scM6, owns_whole]; try rfl

/-! ## The proof data -/

def dat6 (c : Dev nD) : Dat τ (Elt F) Unit ℕ (UR sig nD τ × Counters) ℕ cfg6 c where
  A w := V c (Pipeline.arrRef spec6 w)
  after w t := match w with
    | ⟨0, _⟩ => iblk6 V c 0 t
    | ⟨1, _⟩ => iblk6 V c 1 t
    | ⟨2, _⟩ => out6 V c t
  Φ _ := Pipeline.scopedRest (Ix := Unit) (Name := ℕ) (U := UR sig nD τ × Counters) (Lvl := ℕ) (Val := Elt F) spec6 c
  q _ := fullShare
  owed _ := 0

theorem A6_eq (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6 V c t := by dsimp only [dat6]

/-- Each input window's current staging buffer holds its block at every point, fetched there or not. -/
theorem before6_0 (c : Dev nD) (t : Fin cfg6.N) (d) : (dat6 V c).before 0 t d = iblk6 V c 0 t :=
  ((dat6 V c).before_in_eq_fetched 0 rfl (fun _ => rfl) (fun _ _ _ => rfl) (fun t => by rw [after6_0]; unfold Dat.blockOf iblk6; rw [A6_eq]; try rfl) t d).trans
    (by unfold Dat.fetched Dat.blockOf iblk6; rw [A6_eq]; try rfl)
theorem before6_1 (c : Dev nD) (t : Fin cfg6.N) (d) : (dat6 V c).before 1 t d = iblk6 V c 1 t :=
  ((dat6 V c).before_in_eq_fetched 1 rfl (fun _ => rfl) (fun _ _ _ => rfl) (fun t => by rw [after6_1]; unfold Dat.blockOf iblk6; rw [A6_eq]; try rfl) t d).trans
    (by unfold Dat.fetched Dat.blockOf iblk6; rw [A6_eq]; try rfl)

/-! ## The body obligation at a generic point -/

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d)))

def bodyPost6 (c : Dev nD) (t : Fin cfg6.N) : sProp 𝕄 :=
  iprop((dat6 V c).Φ t.succ ∗ (dat6 V c).owesAt () t.succ
    ∗ (dat6 V c).leavesExact 0 t ∗ (dat6 V c).leavesExact 1 t ∗ (dat6 V c).leavesExact 2 t)

set_option maxHeartbeats 4000000 in
/-- The body at any point. The two input buffers hold their blocks; the invariant hands over the accumulator at
    anything and takes it back at anything; the output buffer, found at anything, is handed back at the block the
    point stores; the core owes nothing throughout. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = Pipeline.scopedRest (Ix := Unit) (Name := ℕ) (U := UR sig nD τ × Counters) (Lvl := ℕ) (Val := Elt F) spec6 c from rfl,
    show (dat6 V c).Φ t.castSucc = Pipeline.scopedRest (Ix := Unit) (Name := ℕ) (U := UR sig nD τ × Counters) (Lvl := ℕ) (Val := Elt F) spec6 c from rfl]
  rw [show (dat6 V c).leavesExact 0 t = owns (c : Thread nD τ) (ms6_0 t) fullShare (iblk6 V c 0 t) from by
    unfold Dat.leavesExact; rw [liveAt6_0 t, after6_0]]
  rw [show (dat6 V c).leavesExact 1 t = owns (c : Thread nD τ) (ms6_1 t) fullShare (iblk6 V c 1 t) from by
    unfold Dat.leavesExact; rw [liveAt6_1 t, after6_1]]
  rw [show (dat6 V c).leavesExact 2 t = owns (c : Thread nD τ) (ms6_2 t) fullShare (out6 V c t) from by
    unfold Dat.leavesExact; rw [liveAt6_2 t, after6_2]]
  rw [scopedRest6_eq]
  unfold out6
  iintro ⟨⟨HS, Hb⟩, Ho, ⟨%d0, H0⟩, ⟨%d1, H1⟩, ⟨%d2, H2⟩⟩
  iapply ((run6 c (grid6.coords t) (ms6_0 t) (hs6_0 t) (ms6_1 t) (hs6_1 t) (ms6_2 t) (hs6_2 t) scM6 (Memref.isWhole_whole _) (hcond6_0 t) (hcond6_1 t) (iblk6 V c 0 t) (iblk6 V c 1 t)).2.2 Set.univ _)
  isplitl [H0]; · iexact H0
  isplitl [H1]; · iexact H1
  isplitl [H2]; · iexists _; iexact H2
  isplitl [HS]; · iexact HS
  iintro ⟨H0, H1, ⟨%e2, H2⟩, ⟨%es, HS⟩⟩
  isplitl [HS Hb]
  · isplitl [HS]
    · iexists _; unfold owns; iexists _; isplitr
      swap; · iexact HS
      ipureintro; rfl
    iexact Hb
  isplitl [Ho]; · iexact Ho
  isplitl [H0]; · iexact H0
  isplitl [H1]; · iexact H1
  unfold owns; iexists _; isplitr
  swap; · iexact H2
  ipureintro; exact View.read_writes_of_cover _ _ _ _ _ (coverO6 V c t)

theorem body_obligation6 (c : Dev nD) : BodyObligation (dat6 V c) (defs₀ (F := F)) Variants.none () Set.univ := fun t => by
  rw [bigSep_W6, bigSep_W6]
  exact sound_body6 V c t

/-! ## The region over the thread state -/

variable (Vp : (c : Dev nD) → (b : Ref sig .tc) → Buf (Elt F) ((c : Thread nD τ).loc b))
variable (pdats : (p : Fin 22) → (c : Dev nD) → Dat τ (Elt F) Unit ℕ (UR sig nD τ × Counters) ℕ (cfgs p) c)

/-- The result's array after the region, as the pipeline library computes it from the proof data. -/
def out6arr (c : Dev nD) : Buf (Elt F) ((c : Thread nD τ).loc main_v11) := (dat6 V c).arrAt 2 cfg6.N

set_option backward.isDefEq.respectTransparency.types false in
set_option maxHeartbeats 2000000 in
/-- Launch 6 over the thread state "every unscoped buffer at `V c`, the core owing nothing": entered by
    splitting its three arrays out of the unscoped buffers, left with them put back at `Vp c`, which has the
    result's array at `out6arr` and agrees with `V c` elsewhere. -/
def reg6 (hp : ∀ c, pdats 6 c = dat6 V c)
    (hVp_out : ∀ c, Vp c main_v11 = out6arr V c)
    (hVp_ne : ∀ c (b : Ref sig .tc), b ≠ main_v11 → Vp c b = V c b) :
    Pipeline.RegionSeg (pcfgs (F := F)) (fun p => (cfgs p).toPCfg_adm) pdats () defs₀ Variants.none (fun _ => (∅ : Finset Unit)) (fun _ _ => (0 : ℕ)) 6 where
  win := launch6.win.to₀
  block_pos := launch6.block_pos
  stage_whole := launch6.stage_whole
  K := PEmpty
  osem k := k.elim
  ho := Pipeline.OwnSemFacts.none _
  hbody c := by rw [hp c]; exact (body_obligation6 V c).loose
  hwaits := Pipeline.hwaits_of_owed_zero _ _ _ _ _ _ 6 fun c t => by rw [hp c]; rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ × Counters) (Lvl := ℕ) spec6 c (V c)
  hentry c := by
    rw [Pipeline.ownSems0_none]
    have hsplit := Pipeline.arrays_of_unscopedBufs (p := 6) (pcfgs (F := F)) (fun p => (cfgs p).toPCfg_adm) pdats launch6.win launch6.arr_whole c
      ((pdats 6 c).share_full fun w => by rw [hp c]; rfl) (V c) (fun w => by rw [hp c]; rfl)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hp c]; exact trivial)
      rw [show (pdats 6 c).owed 0 = 0 from by rw [hp c]; rfl]
      iexact HO
    isplitr; · iempintro
    iexact Hrest
  hin c := by
    rw [hp c, show (dat6 V c).Φ 0 = Pipeline.scopedRest (Ix := Unit) (Name := ℕ) (U := UR sig nD τ × Counters) (Lvl := ℕ) (Val := Elt F) spec6 c from rfl]
    iintro ⟨-, -, Hr⟩; iexact Hr
  hout c := by
    rw [Pipeline.ownSems0_none, hp c]
    change (Pipeline.scopedRest (Ix := Unit) (Name := ℕ) (U := UR sig nD τ × Counters) (Lvl := ℕ) (Val := Elt F) spec6 c : sProp 𝕄) ⊢ _
    iintro Hr
    isplitr; · iempintro
    isplitr; · iempintro
    iexact Hr
  hexit c := by
    have hjoin := Pipeline.unscopedBufs_of_arrays (p := 6) (pcfgs (F := F)) (fun p => (cfgs p).toPCfg_adm) (Ix := Unit) (Name := ℕ) (U := UR sig nD τ × Counters) (Lvl := ℕ) launch6.win launch6.arr_whole c
      pdats ((pdats 6 c).share_full fun w => by rw [hp c]; rfl) (V c) (Vp c) ((pdats 6 c).arrAt · cfg6.N)
      (fun w => by
        fin_cases w
        · exact (((pdats 6 c).arrAt_in 0 rfl _).trans (by rw [hp c]; rfl)).trans (hVp_ne c main_v10 (by decide)).symm
        · exact (((pdats 6 c).arrAt_in 1 rfl _).trans (by rw [hp c]; rfl)).trans (hVp_ne c main_arg11 (by decide)).symm
        · exact (by rw [hp c]; rfl : (pdats 6 c).arrAt 2 cfg6.N = out6arr V c).trans (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W
    rw [show (pdats 6 c).owed (Fin.last _) = 0 from by rw [hp c]; rfl]
    iexact HO

end Cert.Kernel.Hand

end
-- ==== Proof.KB.R07Base.lean ====
/-
  Launch 7 of the program: a matrix product accumulated over the third grid axis (grid 4 × 1 × 4: four row blocks,
  four contraction blocks), a bias row added and tanh applied when the
  last block has been added. This module names the two conditions of the body on the grid point — "the
  contraction's first block" (third coordinate 0) and "its last block" (third coordinate 3) —, decides them
  over the sixteen points, and records where the output window is idle and where its block is written back.
-/
import proofs.«113214_j66838281060556_2_alg».proof.Proof.Gen.Kernel.Launch
import proofs.«113214_j66838281060556_2_alg».proof.Proof.Gen.Kernel.Skeleton
import proofs.«113214_j66838281060556_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

/-- The accumulator is reset: the point starts a contraction (third grid coordinate 0). -/
abbrev cond7_0 (i : grid7.Coords) : Prop := (Scalar.cmpi .ne (Scalar.extui (Scalar.cmpi .eq (BitVec.ofNat 32 (i 2).val) 0#32)) 0#32) = 1#1
theorem hcond7_0 : ∀ t : Fin cfg7.N, cond7_0 (grid7.coords t) ↔ t.val % 4 = 0 :=
  (by decide +kernel : ∀ t : Fin grid7.N, cond7_0 (grid7.coords t) ↔ t.val % 4 = 0)

/-- The result is stored: the point ends a contraction (third grid coordinate 3). -/
abbrev cond7_1 (i : grid7.Coords) : Prop := k7_cond2 i = 1#1
theorem hcond7_1 : ∀ t : Fin cfg7.N, cond7_1 (grid7.coords t) ↔ t.val % 4 = 3 :=
  (by decide +kernel : ∀ t : Fin grid7.N, cond7_1 (grid7.coords t) ↔ t.val % 4 = 3)

/-- The three input windows are never idle. -/
theorem liveAt7_0 : ∀ t : Fin cfg7.N, cfg7.idle 0 (grid7.coords t) = false := by decide +kernel
theorem liveAt7_1 : ∀ t : Fin cfg7.N, cfg7.idle 1 (grid7.coords t) = false := by decide +kernel
theorem liveAt7_2 : ∀ t : Fin cfg7.N, cfg7.idle 2 (grid7.coords t) = false := by decide +kernel
/-- Away from a contraction's last block the output window is idle and its block is not written back. -/
theorem idleAt7_3 : ∀ t : Fin cfg7.N, ¬cond7_1 (grid7.coords t) → cfg7.idle 3 (grid7.coords t) = true := by decide +kernel
theorem noFlush7_3 : ∀ t : Fin cfg7.N, ¬cond7_1 (grid7.coords t) → (cfg7.win 3).flush t = false := by decide +kernel
/-- At a contraction's last block the output window is live. -/
theorem liveAt7_3 : ∀ t : Fin cfg7.N, cond7_1 (grid7.coords t) → cfg7.idle 3 (grid7.coords t) = false := by decide +kernel

/-- Each window's current staging memref at a point, as the pipeline passes it, and its wholeness. -/
abbrev ms7_0 (t : Fin cfg7.N) : Memref sig .tc .vmem S1024x1024 .bf16 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1024x819 .bf16 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x819 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1024x819 .f32 := win7_3.stage (cfg7.slots t 3)
abbrev hs7_3 (t : Fin cfg7.N) : (ms7_3 t).IsWhole := hstage7_3 ((cfg7.slots t 3).cast nbuf7_3)
/-- The accumulator: a whole scoped buffer of the launch's own. -/
abbrev scM7 : Memref sig .tc .vmem S1024x819 .f32 := Memref.whole cc7_scratch0
abbrev VS7 : View sig .tc .vmem S1024x819 .f32 := scM7.view

end Cert.Kernel.Hand

end
-- ==== Proof.KB.R07Run.lean ====
/-
  Launch 7, the body run symbolically in each of its three control cases: the first block of a contraction
  (the accumulator reset, then the first product added), a middle block (the product added), the last block
  (the product added, then the bias row added and tanh applied into the output block). Each run's witness is
  the list of pieces its stores leave in the accumulator (and, in the last case, in the output block).
-/
import proofs.«113214_j66838281060556_2_alg».proof.Proof.KB.R07Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

set_option maxHeartbeats 2000000 in
/-- The first block of a contraction that is not also its last: the accumulator, found at anything, is reset to
    zero and ends at the product of the two input blocks added to zero; the bias block and the idle output
    block are handed back untouched. -/
noncomputable def run7_A (c : Dev nD) (i : grid7.Coords) (arg3 : Memref sig .tc .vmem S1024x1024 .bf16) (harg3 : arg3.IsWhole) (arg4 : Memref sig .tc .vmem S1024x819 .bf16) (harg4 : arg4.IsWhole) (arg5 : Memref sig .tc .vmem S1x819 .f32) (harg5 : arg5.IsWhole) (arg6 : Memref sig .tc .vmem S1024x819 .f32) (harg6 : arg6.IsWhole) (arg7 : Memref sig .tc .vmem S1024x819 .f32) (harg7 : arg7.IsWhole) (hc0 : cond7_0 i) (hc1 : ¬cond7_1 i)
    (x0 : Vec F S1024x1024 .bf16) (x1 : Vec F S1024x819 .bf16) (x2 : Vec F S1x819 .f32) :
    { LS : List (View.Piece (Elt F) S1024x819 .f32) //
      ∀ (xi : Vec F S1024x819 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc7__mm_kernel i arg3 harg3 arg4 harg4 arg5 harg5 arg6 harg6 arg7 harg7) K } := by
  refine ⟨?_, fun xi E K => ?run⟩
  case run =>
    simp only [cc7__mm_kernel_eq_skeleton]; unfold cc7__mm_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2
    obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 2000000 in
/-- A middle block of a contraction (neither condition holds): the accumulator, found at `xs`, ends at the
    product of the two input blocks added to `xs`; the bias block and the idle output block are handed back
    untouched. The pieces written into the accumulator are the witness the symbolic run finds. -/
noncomputable def run7_B (c : Dev nD) (i : grid7.Coords) (arg3 : Memref sig .tc .vmem S1024x1024 .bf16) (harg3 : arg3.IsWhole) (arg4 : Memref sig .tc .vmem S1024x819 .bf16) (harg4 : arg4.IsWhole) (arg5 : Memref sig .tc .vmem S1x819 .f32) (harg5 : arg5.IsWhole) (arg6 : Memref sig .tc .vmem S1024x819 .f32) (harg6 : arg6.IsWhole) (arg7 : Memref sig .tc .vmem S1024x819 .f32) (harg7 : arg7.IsWhole) (hc0 : ¬cond7_0 i) (hc1 : ¬cond7_1 i)
    (x0 : Vec F S1024x1024 .bf16) (x1 : Vec F S1024x819 .bf16) (x2 : Vec F S1x819 .f32) (xs : Vec F S1024x819 .f32) :
    { LS : List (View.Piece (Elt F) S1024x819 .f32) //
      ∀ (xi : Vec F S1024x819 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi ∗ owns (c : Thread nD τ) arg7 fullShare xs
            ∗ (iprop(owns (c : Thread nD τ) arg3 fullShare x0 ∗ owns (c : Thread nD τ) arg4 fullShare x1 ∗ owns (c : Thread nD τ) arg5 fullShare x2
                ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc7__mm_kernel i arg3 harg3 arg4 harg4 arg5 harg5 arg6 harg6 arg7 harg7) K } := by
  refine ⟨?_, fun xi E K => ?run⟩
  case run =>
    simp only [cc7__mm_kernel_eq_skeleton]; unfold cc7__mm_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 2000000 in
/-- The last block of a contraction that is not also its first: the accumulator, found at `xs`, ends at the
    product of the two input blocks added to `xs`, and the output block, found at anything, is stored whole:
    tanh of that sum plus the bias row. -/
noncomputable def run7_C (c : Dev nD) (i : grid7.Coords) (arg3 : Memref sig .tc .vmem S1024x1024 .bf16) (harg3 : arg3.IsWhole) (arg4 : Memref sig .tc .vmem S1024x819 .bf16) (harg4 : arg4.IsWhole) (arg5 : Memref sig .tc .vmem S1x819 .f32) (harg5 : arg5.IsWhole) (arg6 : Memref sig .tc .vmem S1024x819 .f32) (harg6 : arg6.IsWhole) (arg7 : Memref sig .tc .vmem S1024x819 .f32) (harg7 : arg7.IsWhole) (hc0 : ¬cond7_0 i) (hc1 : cond7_1 i)
    (x0 : Vec F S1024x1024 .bf16) (x1 : Vec F S1024x819 .bf16) (x2 : Vec F S1x819 .f32) (xs : Vec F S1024x819 .f32) :
    Σ' (LO : List (View.Piece (Elt F) S1024x819 .f32)), { LS : List (View.Piece (Elt F) S1024x819 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LS)) -∗ K ⟨⟩))
          ⊢ wp frame (wpE (defs₀ (F := F)) Variants.none c none) E (cc7__mm_kernel i arg3 harg3 arg4 harg4 arg5 harg5 arg6 harg6 arg7 harg7) K } := by
  refine ⟨?_, ?_, fun E K => ?run⟩
  case run =>
    simp only [cc7__mm_kernel_eq_skeleton]; unfold cc7__mm_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2
    obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    iexists _; iexact HS

end Cert.Kernel.Hand

end
-- ==== Proof.KB.R07.lean ====
/-
  Launch 7 as a segment of the program: tanh(A·B + bias) with A a graph matrix, B the right
  factor and a bias row, computed block by block on the grid 4 × 1 × 4 with an accumulator carried along the
  contraction. What the accumulator and the output block hold after each point is defined by recursion on the
  point (the first block of a contraction resets, a middle block adds, the last block adds and stores tanh of the
  sum plus the bias); the invariant between points is the accumulator at that value beside the launch's other
  scoped buffers; the proof data states each window's block after the body; the body obligation is the three
  symbolic runs put together by cases on the point's position in its contraction; and the segment record enters
  the launch from a thread state holding every unscoped buffer at an entry valuation and leaves it at the
  valuation updated at the result's array.
-/
import proofs.«113214_j66838281060556_2_alg».proof.Proof.KB.R07Run
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

variable (V : (c : Dev nD) → (b : Ref sig .tc) → Buf (Elt F) ((c : Thread nD τ).loc b))

/-! ## The blocks the windows stage -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- A view of the output's staging buffer and one of the accumulator, through which contents are stated. -/
abbrev VO7 : View sig .tc .vmem S1024x819 .f32 := (Memref.whole cc7_stg3_0 : Memref sig .tc .vmem S1024x819 .f32).view

/-! ## What each case leaves -/

/-- The accumulator after a first block. -/
def accA7 (c : Dev nD) (t : Fin cfg7.N) (h0 : t.val % 4 = 0) (h1 : ¬t.val % 4 = 3) : Vec F S1024x819 .f32 :=
  VS7.read (Elt F) (VS7.writes (Elt F) VS7.junk (run7_A c (grid7.coords t) (ms7_0 t) (hs7_0 t) (ms7_1 t) (hs7_1 t) (ms7_2 t) (hs7_2 t) (ms7_3 t) (hs7_3 t) scM7 (Memref.isWhole_whole _) ((hcond7_0 t).mpr h0) (fun h => h1 ((hcond7_1 t).mp h)) (iblk7 V c 0 t) (iblk7 V c 1 t) (iblk7 V c 2 t)).1)
/-- The accumulator after a middle block, from what the point before left. -/
def accB7 (c : Dev nD) (t : Fin cfg7.N) (h0 : ¬t.val % 4 = 0) (h1 : ¬t.val % 4 = 3) (xs : Vec F S1024x819 .f32) : Vec F S1024x819 .f32 :=
  VS7.read (Elt F) (VS7.writes (Elt F) VS7.junk (run7_B c (grid7.coords t) (ms7_0 t) (hs7_0 t) (ms7_1 t) (hs7_1 t) (ms7_2 t) (hs7_2 t) (ms7_3 t) (hs7_3 t) scM7 (Memref.isWhole_whole _) (fun h => h0 ((hcond7_0 t).mp h)) (fun h => h1 ((hcond7_1 t).mp h)) (iblk7 V c 0 t) (iblk7 V c 1 t) (iblk7 V c 2 t) xs).1)
/-- The accumulator after a last block, -/
def accC7 (c : Dev nD) (t : Fin cfg7.N) (h0 : ¬t.val % 4 = 0) (h1 : t.val % 4 = 3) (xs : Vec F S1024x819 .f32) : Vec F S1024x819 .f32 :=
  VS7.read (Elt F) (VS7.writes (Elt F) VS7.junk (run7_C c (grid7.coords t) (ms7_0 t) (hs7_0 t) (ms7_1 t) (hs7_1 t) (ms7_2 t) (hs7_2 t) (ms7_3 t) (hs7_3 t) scM7 (Memref.isWhole_whole _) (fun h => h0 ((hcond7_0 t).mp h)) ((hcond7_1 t).mpr h1) (iblk7 V c 0 t) (iblk7 V c 1 t) (iblk7 V c 2 t) xs).2.1)
/-- and the output block stored there. -/
def outC7 (c : Dev nD) (t : Fin cfg7.N) (h0 : ¬t.val % 4 = 0) (h1 : t.val % 4 = 3) (xs : Vec F S1024x819 .f32) : Vec F S1024x819 .f32 :=
  VO7.read (Elt F) (VO7.writes (Elt F) VO7.junk (run7_C c (grid7.coords t) (ms7_0 t) (hs7_0 t) (ms7_1 t) (hs7_1 t) (ms7_2 t) (hs7_2 t) (ms7_3 t) (hs7_3 t) scM7 (Memref.isWhole_whole _) (fun h => h0 ((hcond7_0 t).mp h)) ((hcond7_1 t).mpr h1) (iblk7 V c 0 t) (iblk7 V c 1 t) (iblk7 V c 2 t) xs).1)

theorem coverA7 (c : Dev nD) (t : Fin cfg7.N) (h0 : t.val % 4 = 0) (h1 : ¬t.val % 4 = 3) (y : S1024x819.Idx) :
    ∃ pc ∈ (run7_A c (grid7.coords t) (ms7_0 t) (hs7_0 t) (ms7_1 t) (hs7_1 t) (ms7_2 t) (hs7_2 t) (ms7_3 t) (hs7_3 t) scM7 (Memref.isWhole_whole _) ((hcond7_0 t).mpr h0) (fun h => h1 ((hcond7_1 t).mp h)) (iblk7 V c 0 t) (iblk7 V c 1 t) (iblk7 V c 2 t)).1, y ∈ pc.1.set :=
  View.cover_of_tiledL _ S1024x819.size (by sl_kernel_rfl) y
theorem coverB7 (c : Dev nD) (t : Fin cfg7.N) (h0 : ¬t.val % 4 = 0) (h1 : ¬t.val % 4 = 3) (xs : Vec F S1024x819 .f32) (y : S1024x819.Idx) :
    ∃ pc ∈ (run7_B c (grid7.coords t) (ms7_0 t) (hs7_0 t) (ms7_1 t) (hs7_1 t) (ms7_2 t) (hs7_2 t) (ms7_3 t) (hs7_3 t) scM7 (Memref.isWhole_whole _) (fun h => h0 ((hcond7_0 t).mp h)) (fun h => h1 ((hcond7_1 t).mp h)) (iblk7 V c 0 t) (iblk7 V c 1 t) (iblk7 V c 2 t) xs).1, y ∈ pc.1.set :=
  View.cover_of_tiledL _ S1024x819.size (by sl_kernel_rfl) y
theorem coverCs7 (c : Dev nD) (t : Fin cfg7.N) (h0 : ¬t.val % 4 = 0) (h1 : t.val % 4 = 3) (xs : Vec F S1024x819 .f32) (y : S1024x819.Idx) :
    ∃ pc ∈ (run7_C c (grid7.coords t) (ms7_0 t) (hs7_0 t) (ms7_1 t) (hs7_1 t) (ms7_2 t) (hs7_2 t) (ms7_3 t) (hs7_3 t) scM7 (Memref.isWhole_whole _) (fun h => h0 ((hcond7_0 t).mp h)) ((hcond7_1 t).mpr h1) (iblk7 V c 0 t) (iblk7 V c 1 t) (iblk7 V c 2 t) xs).2.1, y ∈ pc.1.set :=
  View.cover_of_tiledL _ S1024x819.size (by sl_kernel_rfl) y
theorem coverCo7 (c : Dev nD) (t : Fin cfg7.N) (h0 : ¬t.val % 4 = 0) (h1 : t.val % 4 = 3) (xs : Vec F S1024x819 .f32) (y : S1024x819.Idx) :
    ∃ pc ∈ (run7_C c (grid7.coords t) (ms7_0 t) (hs7_0 t) (ms7_1 t) (hs7_1 t) (ms7_2 t) (hs7_2 t) (ms7_3 t) (hs7_3 t) scM7 (Memref.isWhole_whole _) (fun h => h0 ((hcond7_0 t).mp h)) ((hcond7_1 t).mpr h1) (iblk7 V c 0 t) (iblk7 V c 1 t) (iblk7 V c 2 t) xs).1, y ∈ pc.1.set :=
  View.cover_of_tiledL _ S1024x819.size (by sl_kernel_rfl) y

/-! ## The accumulation, point by point -/

/-- What the output's staging buffer (first component; meaningful at a contraction's last block only) and the
    accumulator (second component) hold after the body at position `n`. -/
def outsAt7 (c : Dev nD) : (n : ℕ) → n < cfg7.N → Vec F S1024x819 .f32 × Vec F S1024x819 .f32
  | 0, hn => (VO7.read (Elt F) VO7.junk, accA7 V c ⟨0, hn⟩ (Nat.zero_mod _) (by simp))
  | n + 1, hn =>
    if h0 : (n + 1) % 4 = 0 then
      if h1 : (n + 1) % 4 = 3 then False.elim (by omega)
      else (VO7.read (Elt F) VO7.junk, accA7 V c ⟨n + 1, hn⟩ h0 h1)
    else
      if h1 : (n + 1) % 4 = 3 then
        (outC7 V c ⟨n + 1, hn⟩ h0 h1 (outsAt7 c n (Nat.lt_of_succ_lt hn)).2, accC7 V c ⟨n + 1, hn⟩ h0 h1 (outsAt7 c n (Nat.lt_of_succ_lt hn)).2)
      else
        (VO7.read (Elt F) VO7.junk, accB7 V c ⟨n + 1, hn⟩ h0 h1 (outsAt7 c n (Nat.lt_of_succ_lt hn)).2)

theorem outsAt7_A (c : Dev nD) (t : Fin cfg7.N) (h0 : t.val % 4 = 0) (h1 : ¬t.val % 4 = 3) :
    outsAt7 V c t.val t.isLt = (VO7.read (Elt F) VO7.junk, accA7 V c t h0 h1) := by
  obtain ⟨n, hn⟩ := t
  cases n with
  | zero => exact rfl
  | succ n => exact (dif_pos h0).trans ((dif_neg h1).trans rfl)

theorem outsAt7_B (c : Dev nD) (t : Fin cfg7.N) (h0 : ¬t.val % 4 = 0) (h1 : ¬t.val % 4 = 3) :
    outsAt7 V c t.val t.isLt = (VO7.read (Elt F) VO7.junk, accB7 V c t h0 h1 (outsAt7 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt7_C (c : Dev nD) (t : Fin cfg7.N) (h0 : ¬t.val % 4 = 0) (h1 : t.val % 4 = 3) :
    outsAt7 V c t.val t.isLt = (outC7 V c t h0 h1 (outsAt7 V c (t.val - 1) (Nat.lt_of_le_of_lt (Nat.sub_le _ _) t.isLt)).2,
      accC7 V c t h0 h1 (outsAt7 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant between points -/

/-- Before the first point the launch's scoped buffers that no window stages, whole; afterwards the accumulator at
    what the point before left, and the other such buffers unopened. -/
def PhiS7 (c : Dev nD) : (n : ℕ) → n ≤ cfg7.N → sProp 𝕄
  | 0, _ => Pipeline.scopedRest (Ix := Unit) (Name := ℕ) (U := UR sig nD τ × Counters) (Lvl := ℕ) (Val := Elt F) spec7 c
  | n + 1, hn => iprop(owns (c : Thread nD τ) scM7 fullShare (outsAt7 V c n hn).2
      ∗ Pipeline.scopedRestBut (Ix := Unit) (Name := ℕ) (U := UR sig nD τ × Counters) (Lvl := ℕ) (Val := Elt F) spec7 c [cc7_scratch0])

theorem PhiS7_pos (c : Dev nD) (n : ℕ) (h : n ≤ cfg7.N) (hz : n ≠ 0) :
    PhiS7 V c n h = iprop(owns (c : Thread nD τ) scM7 fullShare (outsAt7 V c (n - 1) (by omega)).2
      ∗ Pipeline.scopedRestBut (Ix := Unit) (Name := ℕ) (U := UR sig nD τ × Counters) (Lvl := ℕ) (Val := Elt F) spec7 c [cc7_scratch0]) := by
  cases n with
  | zero => exact absurd rfl hz
  | succ n => rfl

/-- The scoped rest with the accumulator split out as a memref owned at some contents. -/
theorem scopedRest7_eq (c : Dev nD) :
    (Pipeline.scopedRest (Ix := Unit) (Name := ℕ) (U := UR sig nD τ × Counters) (Lvl := ℕ) (Val := Elt F) spec7 c : sProp 𝕄)
      = iprop((∃ d, owns (c : Thread nD τ) scM7 fullShare d)
          ∗ Pipeline.scopedRestBut (Ix := Unit) (Name := ℕ) (U := UR sig nD τ × Counters) (Lvl := ℕ) (Val := Elt F) spec7 c [cc7_scratch0]) := by
  rw [scopedRest7_split]; simp only [scM7, owns_whole]; try rfl

/-! ## The proof data -/

def dat7 (c : Dev nD) : Dat τ (Elt F) Unit ℕ (UR sig nD τ × Counters) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => (outsAt7 V c t.val t.isLt).1
  Φ t := PhiS7 V c t.val (Nat.le_of_lt_succ t.isLt)
  q _ := fullShare
  owed _ := 0

theorem A7_eq (c : Dev nD) (w : Fin cfg7.W) : (dat7 V c).A w = V c (Pipeline.arrRef spec7 w) := by
  dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = (outsAt7 V c t.val t.isLt).1 := by dsimp only [dat7]

theorem Phi7_castSucc (c : Dev nD) (t : Fin cfg7.N) :
    (dat7 V c).Φ t.castSucc = PhiS7 V c t.val (Nat.le_of_lt t.isLt) := by
  dsimp only [dat7]; simp only [Fin.coe_castSucc]

/-- Each input window's current staging buffer holds its block at every point, fetched there or not. -/
theorem before7_0 (c : Dev nD) (t : Fin cfg7.N) (d) : (dat7 V c).before 0 t d = iblk7 V c 0 t :=
  ((dat7 V c).before_in_eq_fetched 0 rfl (fun _ => rfl) (fun _ _ _ => rfl) (fun t => by rw [after7_0]; unfold Dat.blockOf iblk7; rw [A7_eq]; try rfl) t d).trans
    (by unfold Dat.fetched Dat.blockOf iblk7; rw [A7_eq]; try rfl)
theorem before7_1 (c : Dev nD) (t : Fin cfg7.N) (d) : (dat7 V c).before 1 t d = iblk7 V c 1 t :=
  ((dat7 V c).before_in_eq_fetched 1 rfl (fun _ => rfl) (fun _ _ _ => rfl) (fun t => by rw [after7_1]; unfold Dat.blockOf iblk7; rw [A7_eq]; try rfl) t d).trans
    (by unfold Dat.fetched Dat.blockOf iblk7; rw [A7_eq]; try rfl)
theorem before7_2 (c : Dev nD) (t : Fin cfg7.N) (d) : (dat7 V c).before 2 t d = iblk7 V c 2 t :=
  ((dat7 V c).before_in_eq_fetched 2 rfl (fun _ => rfl) (fun _ _ _ => rfl) (fun t => by rw [after7_2]; unfold Dat.blockOf iblk7; rw [A7_eq]; try rfl) t d).trans
    (by unfold Dat.fetched Dat.blockOf iblk7; rw [A7_eq]; try rfl)

/-! ## The body obligation at a generic point -/

def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d)))

def bodyPost7 (c : Dev nD) (t : Fin cfg7.N) : sProp 𝕄 :=
  iprop((dat7 V c).Φ t.succ ∗ (dat7 V c).owesAt () t.succ
    ∗ (dat7 V c).leavesExact 0 t ∗ (dat7 V c).leavesExact 1 t ∗ (dat7 V c).leavesExact 2 t ∗ (dat7 V c).leavesExact 3 t)

set_option maxHeartbeats 4000000 in
/-- The body at any point. The three input buffers hold their blocks; the point's position in its contraction
    selects the case; the invariant hands over the accumulator (at anything before the very first point, else at
    what the point before left) and takes it back at this point's contents; an idle output buffer is handed back
    as found, a stored one at the case's block; the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).owesAt () t.succ = (dat7 V c).owesAt () t.castSucc from rfl]
  rw [show (dat7 V c).Φ t.succ = iprop(owns (c : Thread nD τ) scM7 fullShare (outsAt7 V c t.val t.isLt).2
      ∗ Pipeline.scopedRestBut (Ix := Unit) (Name := ℕ) (U := UR sig nD τ × Counters) (Lvl := ℕ) (Val := Elt F) spec7 c [cc7_scratch0]) from rfl]
  have hN : t.val < 16 := lt_of_lt_of_eq t.isLt (show cfg7.N = 16 from N_7)
  rw [show (dat7 V c).leavesExact 0 t = owns (c : Thread nD τ) (ms7_0 t) fullShare (iblk7 V c 0 t) from by
    unfold Dat.leavesExact; rw [liveAt7_0 t, after7_0]]
  rw [show (dat7 V c).leavesExact 1 t = owns (c : Thread nD τ) (ms7_1 t) fullShare (iblk7 V c 1 t) from by
    unfold Dat.leavesExact; rw [liveAt7_1 t, after7_1]]
  rw [show (dat7 V c).leavesExact 2 t = owns (c : Thread nD τ) (ms7_2 t) fullShare (iblk7 V c 2 t) from by
    unfold Dat.leavesExact; rw [liveAt7_2 t, after7_2]]
  rw [Phi7_castSucc V c t]
  by_cases h1 : t.val % 4 = 3
  · -- the last block of a contraction
    have h0 : ¬t.val % 4 = 0 := by omega
    have hz : t.val ≠ 0 := by omega
    rw [show (dat7 V c).leavesExact 3 t = owns (c : Thread nD τ) (ms7_3 t) fullShare (outsAt7 V c t.val t.isLt).1 from by
      unfold Dat.leavesExact; rw [liveAt7_3 t ((hcond7_1 t).mpr h1), after7_3]]
    rw [outsAt7_C V c t h0 h1, PhiS7_pos V c _ _ hz]
    dsimp only
    unfold outC7 accC7
    iintro ⟨⟨HS, Hb⟩, Ho, ⟨%d0, H0⟩, ⟨%d1, H1⟩, ⟨%d2, H2⟩, ⟨%d3, H3⟩⟩
    iapply ((run7_C c (grid7.coords t) (ms7_0 t) (hs7_0 t) (ms7_1 t) (hs7_1 t) (ms7_2 t) (hs7_2 t) (ms7_3 t) (hs7_3 t) scM7 (Memref.isWhole_whole _) (fun h => h0 ((hcond7_0 t).mp h)) ((hcond7_1 t).mpr h1) (iblk7 V c 0 t) (iblk7 V c 1 t) (iblk7 V c 2 t) _).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hb]
    · isplitl [HS]
      · unfold owns; iexists _; isplitr
        swap; · iexact HS
        ipureintro; exact View.read_writes_of_cover _ _ _ _ _ (coverCs7 V c t h0 h1 _)
      iexact Hb
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverCo7 V c t h0 h1 _)
  · rw [Dat.leavesExact_idle (dat7 V c) 3 t (idleAt7_3 t (fun h => h1 ((hcond7_1 t).mp h))) (noFlush7_3 t (fun h => h1 ((hcond7_1 t).mp h)))]
    by_cases h0 : t.val % 4 = 0
    · -- the first block of a contraction
      rw [outsAt7_A V c t h0 h1]
      dsimp only
      unfold accA7
      by_cases hz : t.val = 0
      · rw [show PhiS7 V c t.val (Nat.le_of_lt t.isLt) = Pipeline.scopedRest (Ix := Unit) (Name := ℕ) (U := UR sig nD τ × Counters) (Lvl := ℕ) (Val := Elt F) spec7 c from by
          obtain ⟨n, hn⟩ := t; dsimp only at hz; subst hz; rfl, scopedRest7_eq]
        iintro ⟨⟨HS, Hb⟩, Ho, ⟨%d0, H0⟩, ⟨%d1, H1⟩, ⟨%d2, H2⟩, ⟨%d3, H3⟩⟩
        iapply ((run7_A c (grid7.coords t) (ms7_0 t) (hs7_0 t) (ms7_1 t) (hs7_1 t) (ms7_2 t) (hs7_2 t) (ms7_3 t) (hs7_3 t) scM7 (Memref.isWhole_whole _) ((hcond7_0 t).mpr h0) (fun h => h1 ((hcond7_1 t).mp h)) (iblk7 V c 0 t) (iblk7 V c 1 t) (iblk7 V c 2 t)).2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hb]
        · isplitl [HS]
          · unfold owns; iexists _; isplitr
            swap; · iexact HS
            ipureintro; exact View.read_writes_of_cover _ _ _ _ _ (coverA7 V c t h0 h1)
          iexact Hb
        isplitl [Ho]; · iexact Ho
        isplitl [H0]; · iexact H0
        isplitl [H1]; · iexact H1
        isplitl [H2]; · iexact H2
        iexists _; iexact H3
      · rw [PhiS7_pos V c _ _ hz]
        iintro ⟨⟨HS, Hb⟩, Ho, ⟨%d0, H0⟩, ⟨%d1, H1⟩, ⟨%d2, H2⟩, ⟨%d3, H3⟩⟩
        iapply ((run7_A c (grid7.coords t) (ms7_0 t) (hs7_0 t) (ms7_1 t) (hs7_1 t) (ms7_2 t) (hs7_2 t) (ms7_3 t) (hs7_3 t) scM7 (Memref.isWhole_whole _) ((hcond7_0 t).mpr h0) (fun h => h1 ((hcond7_1 t).mp h)) (iblk7 V c 0 t) (iblk7 V c 1 t) (iblk7 V c 2 t)).2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hb]
        · isplitl [HS]
          · unfold owns; iexists _; isplitr
            swap; · iexact HS
            ipureintro; exact View.read_writes_of_cover _ _ _ _ _ (coverA7 V c t h0 h1)
          iexact Hb
        isplitl [Ho]; · iexact Ho
        isplitl [H0]; · iexact H0
        isplitl [H1]; · iexact H1
        isplitl [H2]; · iexact H2
        iexists _; iexact H3
    · -- a middle block
      have hz : t.val ≠ 0 := by omega
      rw [outsAt7_B V c t h0 h1, PhiS7_pos V c _ _ hz]
      dsimp only
      unfold accB7
      iintro ⟨⟨HS, Hb⟩, Ho, ⟨%d0, H0⟩, ⟨%d1, H1⟩, ⟨%d2, H2⟩, ⟨%d3, H3⟩⟩
      iapply ((run7_B c (grid7.coords t) (ms7_0 t) (hs7_0 t) (ms7_1 t) (hs7_1 t) (ms7_2 t) (hs7_2 t) (ms7_3 t) (hs7_3 t) scM7 (Memref.isWhole_whole _) (fun h => h0 ((hcond7_0 t).mp h)) (fun h => h1 ((hcond7_1 t).mp h)) (iblk7 V c 0 t) (iblk7 V c 1 t) (iblk7 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hb]
      · isplitl [HS]
        · unfold owns; iexists _; isplitr
          swap; · iexact HS
          ipureintro; exact View.read_writes_of_cover _ _ _ _ _ (coverB7 V c t h0 h1 _)
        iexact Hb
      isplitl [Ho]; · iexact Ho
      isplitl [H0]; · iexact H0
      isplitl [H1]; · iexact H1
      isplitl [H2]; · iexact H2
      iexists _; iexact H3

theorem body_obligation7 (c : Dev nD) : BodyObligation (dat7 V c) (defs₀ (F := F)) Variants.none () Set.univ := fun t => by
  rw [bigSep_W7, bigSep_W7]
  exact sound_body7 V c t

/-! ## The region over the thread state -/

variable (Vp : (c : Dev nD) → (b : Ref sig .tc) → Buf (Elt F) ((c : Thread nD τ).loc b))
variable (pdats : (p : Fin 22) → (c : Dev nD) → Dat τ (Elt F) Unit ℕ (UR sig nD τ × Counters) ℕ (cfgs p) c)

/-- The result's array after the region, as the pipeline library computes it from the proof data. -/
def out7 (c : Dev nD) : Buf (Elt F) ((c : Thread nD τ).loc main_v13) := (dat7 V c).arrAt 3 cfg7.N

set_option backward.isDefEq.respectTransparency.types false in
set_option maxHeartbeats 2000000 in
/-- Launch 7 over the thread state "every unscoped buffer at `V c`, the core owing nothing": entered by
    splitting its four arrays out of the unscoped buffers, left with them put back at `Vp c`, which has the
    result's array at `out7` and agrees with `V c` elsewhere. -/
def reg7 (hp : ∀ c, pdats 7 c = dat7 V c)
    (hVp_out : ∀ c, Vp c main_v13 = out7 V c)
    (hVp_ne : ∀ c (b : Ref sig .tc), b ≠ main_v13 → Vp c b = V c b) :
    Pipeline.RegionSeg (pcfgs (F := F)) (fun p => (cfgs p).toPCfg_adm) pdats () defs₀ Variants.none (fun _ => (∅ : Finset Unit)) (fun _ _ => (0 : ℕ)) 7 where
  win := launch7.win.to₀
  block_pos := launch7.block_pos
  stage_whole := launch7.stage_whole
  K := PEmpty
  osem k := k.elim
  ho := Pipeline.OwnSemFacts.none _
  hbody c := by rw [hp c]; exact (body_obligation7 V c).loose
  hwaits := Pipeline.hwaits_of_owed_zero _ _ _ _ _ _ 7 fun c t => by rw [hp c]; rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ × Counters) (Lvl := ℕ) spec7 c (V c)
  hentry c := by
    rw [Pipeline.ownSems0_none]
    have hsplit := Pipeline.arrays_of_unscopedBufs (p := 7) (pcfgs (F := F)) (fun p => (cfgs p).toPCfg_adm) pdats launch7.win launch7.arr_whole c
      ((pdats 7 c).share_full fun w => by rw [hp c]; rfl) (V c) (fun w => by rw [hp c]; rfl)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hp c]
      unfold Pipeline.Dat.owesAt Pipeline.owesWithin
      icases HO with ⟨%W, HO⟩; iexists W; isplitr; · ipureintro; exact fun _ _ => Or.inl trivial
      iexact HO
    isplitr; · iempintro
    iexact Hrest
  hin c := by
    rw [hp c, show (dat7 V c).Φ 0 = Pipeline.scopedRest (Ix := Unit) (Name := ℕ) (U := UR sig nD τ × Counters) (Lvl := ℕ) (Val := Elt F) spec7 c from rfl]
    iintro ⟨-, -, Hr⟩; iexact Hr
  hout c := by
    rw [Pipeline.ownSems0_none, hp c]
    refine (Entails.of_eq ((show (dat7 V c).Φ (Fin.last _) = PhiS7 V c (Fin.last cfg7.N).val (Nat.le_of_lt_succ (Fin.last cfg7.N).isLt) from rfl).trans
      (PhiS7_pos V c _ _ (by rw [Fin.val_last]; have : cfg7.N = 16 := N_7; omega)))).trans ?_
    change _ ⊢ iprop(BI.emp ∗ BI.emp ∗ Pipeline.scopedRest (Ix := Unit) (Name := ℕ) (U := UR sig nD τ × Counters) (Lvl := ℕ) (Val := Elt F) spec7 c)
    rw [scopedRest7_eq]
    iintro ⟨HS, Hb⟩
    isplitr; · iempintro
    isplitr; · iempintro
    isplitl [HS]; · iexists _; iexact HS
    iexact Hb
  hexit c := by
    have hjoin := Pipeline.unscopedBufs_of_arrays (p := 7) (pcfgs (F := F)) (fun p => (cfgs p).toPCfg_adm) (Ix := Unit) (Name := ℕ) (U := UR sig nD τ × Counters) (Lvl := ℕ) launch7.win launch7.arr_whole c
      pdats ((pdats 7 c).share_full fun w => by rw [hp c]; rfl) (V c) (Vp c) ((pdats 7 c).arrAt · cfg7.N)
      (fun w => by
        fin_cases w
        · exact (((pdats 7 c).arrAt_in 0 rfl _).trans (by rw [hp c]; rfl)).trans (hVp_ne c main_v1 (by decide)).symm
        · exact (((pdats 7 c).arrAt_in 1 rfl _).trans (by rw [hp c]; rfl)).trans (hVp_ne c main_v11 (by decide)).symm
        · exact (((pdats 7 c).arrAt_in 2 rfl _).trans (by rw [hp c]; rfl)).trans (hVp_ne c main_v12 (by decide)).symm
        · exact (by rw [hp c]; rfl : (pdats 7 c).arrAt 3 cfg7.N = out7 V c).trans (hVp_out c).symm)
      (fun b hb => hVp_ne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W
    rw [show (pdats 7 c).owed (Fin.last _) = 0 from by rw [hp c]; rfl]
    iexact HO

end Cert.Kernel.Hand

end
-- ==== Proof.KB.R08Base.lean ====
/-
  Launch 8 of the program: one matrix product per grid point — the contraction is a single block —, from which the
  output block is stored at every point. The grid's third coordinate is always 0, so both conditions of the body —
  "the contraction's first block" and "its last block" — hold at every point: this module decides them over the
  grid's points, records that no window is ever idle, and names the staging memrefs the body is called with.
-/
import proofs.«113214_j66838281060556_2_alg».proof.Proof.Gen.Kernel.Launch
import proofs.«113214_j66838281060556_2_alg».proof.Proof.Gen.Kernel.Skeleton
import proofs.«113214_j66838281060556_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

/-- The accumulator is reset: the point starts a contraction (third grid coordinate 0). Here the third axis has one
    coordinate, so every point does. -/
abbrev cond8_0 (i : grid8.Coords) : Prop := (Scalar.cmpi .ne (Scalar.extui (Scalar.cmpi .eq (BitVec.ofNat 32 (i 2).val) 0#32)) 0#32) = 1#1
theorem hcond8_0 : ∀ t : Fin cfg8.N, cond8_0 (grid8.coords t) :=
  (by decide +kernel : ∀ t : Fin grid8.N, cond8_0 (grid8.coords t))

/-- The result is stored: the point ends a contraction. Every point does. -/
abbrev cond8_1 (i : grid8.Coords) : Prop := k8_cond2 i = 1#1
theorem hcond8_1 : ∀ t : Fin cfg8.N, cond8_1 (grid8.coords t) :=
  (by decide +kernel : ∀ t : Fin grid8.N, cond8_1 (grid8.coords t))

/-- No window is idle at any point: the two inputs never, the output because every point stores. -/
theorem liveAt8_0 : ∀ t : Fin cfg8.N, cfg8.idle 0 (grid8.coords t) = false := by decide +kernel
theorem liveAt8_1 : ∀ t : Fin cfg8.N, cfg8.idle 1 (grid8.coords t) = false := by decide +kernel
theorem liveAt8_2 : ∀ t : Fin cfg8.N, cfg8.idle 2 (grid8.coords t) = false := by decide +kernel

/-- Each window's current staging memref at a point, as the pipeline passes it, and its wholeness. -/
abbrev ms8_0 (t : Fin cfg8.N) : Memref sig .tc .vmem S1024x819 .f32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S819x819 .f32 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S1024x819 .bf16 := win8_2.stage (cfg8.slots t 2)
abbrev hs8_2 (t : Fin cfg8.N) : (ms8_2 t).IsWhole := hstage8_2 ((cfg8.slots t 2).cast nbuf8_2)
/-- The accumulator: a whole scoped buffer of the launch's own. -/
abbrev scM8 : Memref sig .tc .vmem S1024x819 .f32 := Memref.whole cc8_scratch0
abbrev VS8 : View sig .tc .vmem S1024x819 .f32 := scM8.view

end Cert.Kernel.Hand

end
-- ==== Proof.KB.R08Run.lean ====
/-
  Launch 8, the body run symbolically in its one control case: the accumulator reset, the product added, the output
  block stored from the sum. The run's witnesses are the lists of pieces its stores leave in the output block and in
  the accumulator.
-/
import proofs.«113214_j66838281060556_2_alg».proof.Proof.KB.R08Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

set_option maxHeartbeats 2000000 in
/-- The body at a point, run symbolically: the accumulator, found at anything, is reset and ends at the product of
    the two input blocks added to it; the output block, found at anything, is stored whole from that sum. The
    witnesses are the pieces the stores leave in the output block and in the accumulator. -/
noncomputable def run8 (c : Dev nD) (i : grid8.Coords) (arg3 : Memref sig .tc .vmem S1024x819 .f32) (harg3 : arg3.IsWhole) (arg4 : Memref sig .tc .vmem S819x819 .f32) (harg4 : arg4.IsWhole) (arg5 : Memref sig .tc .vmem S1024x819 .bf16) (harg5 : arg5.IsWhole) (arg6 : Memref sig .tc .vmem S1024x819 .f32) (harg6 : arg6.IsWhole) (hc0 : cond8_0 i) (hc1 : cond8_1 i)
    (x0 : Vec F S1024x819 .f32) (x1 : Vec F S819x819 .f32) :
    Σ' (LO : List (View.Piece (Elt F) S1024x819 .bf16)), { LS : List (View.Piece (Elt F) S1024x819 .f32) //
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc8__mm_kernel i arg3 harg3 arg4 harg4 arg5 harg5 arg6 harg6) K } := by
  refine ⟨?_, ?_, fun E K => ?run⟩
  case run =>
    simp only [cc8__mm_kernel_eq_skeleton]; unfold cc8__mm_kernel_skel
    unfold owns
    iintro ⟨⟨%f0, %hf0, H0⟩, ⟨%f1, %hf1, H1⟩, ⟨%d2, %f2, -, H2⟩, ⟨%ds, %fs, -, HS⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact HS

end Cert.Kernel.Hand

end
-- ==== Proof.KB.R08.lean ====
/-
  Launch 8 as a region of the program. The blocks the windows stage are read off the arrays as the region finds
  them; a point stores the output block its run leaves; the accumulator is reset at every point, so between points
  the launch's scoped buffers that no window stages are simply held whole at anything; the body obligation follows
  from the one symbolic run; and the region is stated over the thread state "every unscoped buffer at given
  contents, the core owing nothing", entered by splitting the three arrays out and left with the result's array
  at what the pipeline computes from the stored blocks.
-/
import proofs.«113214_j66838281060556_2_alg».proof.Proof.KB.R08Run
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

variable (V : (c : Dev nD) → (b : Ref sig .tc) → Buf (Elt F) ((c : Thread nD τ).loc b))

/-! ## The blocks the windows stage -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- A view of the output's staging buffer, through which contents are stated. -/
abbrev VO8 : View sig .tc .vmem S1024x819 .bf16 := (Memref.whole cc8_stg2_0 : Memref sig .tc .vmem S1024x819 .bf16).view

/-! ## What a point leaves -/

/-- The output block a point stores: what the run's pieces leave, read through the staging buffer's view. -/
def out8 (c : Dev nD) (t : Fin cfg8.N) : Vec F S1024x819 .bf16 :=
  VO8.read (Elt F) (VO8.writes (Elt F) VO8.junk (run8 c (grid8.coords t) (ms8_0 t) (hs8_0 t) (ms8_1 t) (hs8_1 t) (ms8_2 t) (hs8_2 t) scM8 (Memref.isWhole_whole _) (hcond8_0 t) (hcond8_1 t) (iblk8 V c 0 t) (iblk8 V c 1 t)).1)

/-- The stores into the output block cover it. -/
theorem coverO8 (c : Dev nD) (t : Fin cfg8.N) (y : S1024x819.Idx) :
    ∃ pc ∈ (run8 c (grid8.coords t) (ms8_0 t) (hs8_0 t) (ms8_1 t) (hs8_1 t) (ms8_2 t) (hs8_2 t) scM8 (Memref.isWhole_whole _) (hcond8_0 t) (hcond8_1 t) (iblk8 V c 0 t) (iblk8 V c 1 t)).1, y ∈ pc.1.set :=
  View.cover_of_tiledL _ S1024x819.size (by sl_kernel_rfl) y

/-! ## The invariant between points -/

/-- The scoped rest with the accumulator split out as a memref owned at some contents. The accumulator is reset at
    every point, so the invariant between points is the scoped rest itself, the accumulator at anything. -/
theorem scopedRest8_eq (c : Dev nD) :
    (Pipeline.scopedRest (Ix := Unit) (Name := ℕ) (U := UR sig nD τ × Counters) (Lvl := ℕ) (Val := Elt F) spec8 c : sProp 𝕄)
      = iprop((∃ d, owns (c : Thread nD τ) scM8 fullShare d)
          ∗ Pipeline.scopedRestBut (Ix := Unit) (Name := ℕ) (U := UR sig nD τ × Counters) (Lvl := ℕ) (Val := Elt F) spec8 c [cc8_scratch0]) := by
  rw [scopedRest8_split]; simp only [scM8, owns_whole]; try rfl

/-! ## The proof data -/

def dat8 (c : Dev nD) : Dat τ (Elt F) Unit ℕ (UR sig nD τ × Counters) ℕ cfg8 c where
  A w := V c (Pipeline.arrRef spec8 w)
  after w t := match w with
    | ⟨0, _⟩ => iblk8 V c 0 t
    | ⟨1, _⟩ => iblk8 V c 1 t
    | ⟨2, _⟩ => out8 V c t
  Φ _ := Pipeline.scopedRest (Ix := Unit) (Name := ℕ) (U := UR sig nD τ × Counters) (Lvl := ℕ) (Val := Elt F) spec8 c
  q _ := fullShare
  owed _ := 0

theorem A8_eq (c : Dev nD) (w : Fin cfg8.W) : (dat8 V c).A w = V c (Pipeline.arrRef spec8 w) := by
  dsimp only [dat8]
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = out8 V c t := by dsimp only [dat8]

/-- Each input window's current staging buffer holds its block at every point, fetched there or not. -/
theorem before8_0 (c : Dev nD) (t : Fin cfg8.N) (d) : (dat8 V c).before 0 t d = iblk8 V c 0 t :=
  ((dat8 V c).before_in_eq_fetched 0 rfl (fun _ => rfl) (fun _ _ _ => rfl) (fun t => by rw [after8_0]; unfold Dat.blockOf iblk8; rw [A8_eq]; try rfl) t d).trans
    (by unfold Dat.fetched Dat.blockOf iblk8; rw [A8_eq]; try rfl)
theorem before8_1 (c : Dev nD) (t : Fin cfg8.N) (d) : (dat8 V c).before 1 t d = iblk8 V c 1 t :=
  ((dat8 V c).before_in_eq_fetched 1 rfl (fun _ => rfl) (fun _ _ _ => rfl) (fun t => by rw [after8_1]; unfold Dat.blockOf iblk8; rw [A8_eq]; try rfl) t d).trans
    (by unfold Dat.fetched Dat.blockOf iblk8; rw [A8_eq]; try rfl)

/-! ## The body obligation at a generic point -/

def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d)))

def bodyPost8 (c : Dev nD) (t : Fin cfg8.N) : sProp 𝕄 :=
  iprop((dat8 V c).Φ t.succ ∗ (dat8 V c).owesAt () t.succ
    ∗ (dat8 V c).leavesExact 0 t ∗ (dat8 V c).leavesExact 1 t ∗ (dat8 V c).leavesExact 2 t)

set_option maxHeartbeats 4000000 in
/-- The body at any point. The two input buffers hold their blocks; the invariant hands over the accumulator at
    anything and takes it back at anything; the output buffer, found at anything, is handed back at the block the
    point stores; the core owes nothing throughout. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).owesAt () t.succ = (dat8 V c).owesAt () t.castSucc from rfl]
  rw [show (dat8 V c).Φ t.succ = Pipeline.scopedRest (Ix := Unit) (Name := ℕ) (U := UR sig nD τ × Counters) (Lvl := ℕ) (Val := Elt F) spec8 c from rfl,
    show (dat8 V c).Φ t.castSucc = Pipeline.scopedRest (Ix := Unit) (Name := ℕ) (U := UR sig nD τ × Counters) (Lvl := ℕ) (Val := Elt F) spec8 c from rfl]
  rw [show (dat8 V c).leavesExact 0 t = owns (c : Thread nD τ) (ms8_0 t) fullShare (iblk8 V c 0 t) from by
    unfold Dat.leavesExact; rw [liveAt8_0 t, after8_0]]
  rw [show (dat8 V c).leavesExact 1 t = owns (c : Thread nD τ) (ms8_1 t) fullShare (iblk8 V c 1 t) from by
    unfold Dat.leavesExact; rw [liveAt8_1 t, after8_1]]
  rw [show (dat8 V c).leavesExact 2 t = owns (c : Thread nD τ) (ms8_2 t) fullShare (out8 V c t) from by
    unfold Dat.leavesExact; rw [liveAt8_2 t, after8_2]]
  rw [scopedRest8_eq]
  unfold out8
  iintro ⟨⟨HS, Hb⟩, Ho, ⟨%d0, H0⟩, ⟨%d1, H1⟩, ⟨%d2, H2⟩⟩
  iapply ((run8 c (grid8.coords t) (ms8_0 t) (hs8_0 t) (ms8_1 t) (hs8_1 t) (ms8_2 t) (hs8_2 t) scM8 (Memref.isWhole_whole _) (hcond8_0 t) (hcond8_1 t) (iblk8 V c 0 t) (iblk8 V c 1 t)).2.2 Set.univ _)
  isplitl [H0]; · iexact H0
  isplitl [H1]; · iexact H1
  isplitl [H2]; · iexists _; iexact H2
  isplitl [HS]; · iexact HS
  iintro ⟨H0, H1, ⟨%e2, H2⟩, ⟨%es, HS⟩⟩
  isplitl [HS Hb]
  · isplitl [HS]
    · iexists _; unfold owns; iexists _; isplitr
      swap; · iexact HS
      ipureintro; rfl
    iexact Hb
  isplitl [Ho]; · iexact Ho
  isplitl [H0]; · iexact H0
  isplitl [H1]; · iexact H1
  unfold owns; iexists _; isplitr
  swap; · iexact H2
  ipureintro; exact View.read_writes_of_cover _ _ _ _ _ (coverO8 V c t)

theorem body_obligation8 (c : Dev nD) : BodyObligation (dat8 V c) (defs₀ (F := F)) Variants.none () Set.univ := fun t => by
  rw [bigSep_W8, bigSep_W8]
  exact sound_body8 V c t

/-! ## The region over the thread state -/

variable (Vp : (c : Dev nD) → (b : Ref sig .tc) → Buf (Elt F) ((c : Thread nD τ).loc b))
variable (pdats : (p : Fin 22) → (c : Dev nD) → Dat τ (Elt F) Unit ℕ (UR sig nD τ × Counters) ℕ (cfgs p) c)

/-- The result's array after the region, as the pipeline library computes it from the proof data. -/
def out8arr (c : Dev nD) : Buf (Elt F) ((c : Thread nD τ).loc main_v25) := (dat8 V c).arrAt 2 cfg8.N

set_option backward.isDefEq.respectTransparency.types false in
set_option maxHeartbeats 2000000 in
/-- Launch 8 over the thread state "every unscoped buffer at `V c`, the core owing nothing": entered by
    splitting its three arrays out of the unscoped buffers, left with them put back at `Vp c`, which has the
    result's array at `out8arr` and agrees with `V c` elsewhere. -/
def reg8 (hp : ∀ c, pdats 8 c = dat8 V c)
    (hVp_out : ∀ c, Vp c main_v25 = out8arr V c)
    (hVp_ne : ∀ c (b : Ref sig .tc), b ≠ main_v25 → Vp c b = V c b) :
    Pipeline.RegionSeg (pcfgs (F := F)) (fun p => (cfgs p).toPCfg_adm) pdats () defs₀ Variants.none (fun _ => (∅ : Finset Unit)) (fun _ _ => (0 : ℕ)) 8 where
  win := launch8.win.to₀
  block_pos := launch8.block_pos
  stage_whole := launch8.stage_whole
  K := PEmpty
  osem k := k.elim
  ho := Pipeline.OwnSemFacts.none _
  hbody c := by rw [hp c]; exact (body_obligation8 V c).loose
  hwaits := Pipeline.hwaits_of_owed_zero _ _ _ _ _ _ 8 fun c t => by rw [hp c]; rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ × Counters) (Lvl := ℕ) spec8 c (V c)
  hentry c := by
    rw [Pipeline.ownSems0_none]
    have hsplit := Pipeline.arrays_of_unscopedBufs (p := 8) (pcfgs (F := F)) (fun p => (cfgs p).toPCfg_adm) pdats launch8.win launch8.arr_whole c
      ((pdats 8 c).share_full fun w => by rw [hp c]; rfl) (V c) (fun w => by rw [hp c]; rfl)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hp c]; exact trivial)
      rw [show (pdats 8 c).owed 0 = 0 from by rw [hp c]; rfl]
      iexact HO
    isplitr; · iempintro
    iexact Hrest
  hin c := by
    rw [hp c, show (dat8 V c).Φ 0 = Pipeline.scopedRest (Ix := Unit) (Name := ℕ) (U := UR sig nD τ × Counters) (Lvl := ℕ) (Val := Elt F) spec8 c from rfl]
    iintro ⟨-, -, Hr⟩; iexact Hr
  hout c := by
    rw [Pipeline.ownSems0_none, hp c]
    change (Pipeline.scopedRest (Ix := Unit) (Name := ℕ) (U := UR sig nD τ × Counters) (Lvl := ℕ) (Val := Elt F) spec8 c : sProp 𝕄) ⊢ _
    iintro Hr
    isplitr; · iempintro
    isplitr; · iempintro
    iexact Hr
  hexit c := by
    have hjoin := Pipeline.unscopedBufs_of_arrays (p := 8) (pcfgs (F := F)) (fun p => (cfgs p).toPCfg_adm) (Ix := Unit) (Name := ℕ) (U := UR sig nD τ × Counters) (Lvl := ℕ) launch8.win launch8.arr_whole c
      pdats ((pdats 8 c).share_full fun w => by rw [hp c]; rfl) (V c) (Vp c) ((pdats 8 c).arrAt · cfg8.N)
      (fun w => by
        fin_cases w
        · exact (((pdats 8 c).arrAt_in 0 rfl _).trans (by rw [hp c]; rfl)).trans (hVp_ne c main_v24 (by decide)).symm
        · exact (((pdats 8 c).arrAt_in 1 rfl _).trans (by rw [hp c]; rfl)).trans (hVp_ne c main_arg21 (by decide)).symm
        · exact (by rw [hp c]; rfl : (pdats 8 c).arrAt 2 cfg8.N = out8arr V c).trans (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W
    rw [show (pdats 8 c).owed (Fin.last _) = 0 from by rw [hp c]; rfl]
    iexact HO

end Cert.Kernel.Hand

end
-- ==== Proof.KB.R09Base.lean ====
/-
  Launch 9 of the program: one matrix product per grid point — the contraction is a single block —, from which the
  output block is stored at every point. The grid's third coordinate is always 0, so both conditions of the body —
  "the contraction's first block" and "its last block" — hold at every point: this module decides them over the
  grid's points, records that no window is ever idle, and names the staging memrefs the body is called with.
-/
import proofs.«113214_j66838281060556_2_alg».proof.Proof.Gen.Kernel.Launch
import proofs.«113214_j66838281060556_2_alg».proof.Proof.Gen.Kernel.Skeleton
import proofs.«113214_j66838281060556_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

/-- The accumulator is reset: the point starts a contraction (third grid coordinate 0). Here the third axis has one
    coordinate, so every point does. -/
abbrev cond9_0 (i : grid9.Coords) : Prop := (Scalar.cmpi .ne (Scalar.extui (Scalar.cmpi .eq (BitVec.ofNat 32 (i 2).val) 0#32)) 0#32) = 1#1
theorem hcond9_0 : ∀ t : Fin cfg9.N, cond9_0 (grid9.coords t) :=
  (by decide +kernel : ∀ t : Fin grid9.N, cond9_0 (grid9.coords t))

/-- The result is stored: the point ends a contraction. Every point does. -/
abbrev cond9_1 (i : grid9.Coords) : Prop := k9_cond2 i = 1#1
theorem hcond9_1 : ∀ t : Fin cfg9.N, cond9_1 (grid9.coords t) :=
  (by decide +kernel : ∀ t : Fin grid9.N, cond9_1 (grid9.coords t))

/-- No window is idle at any point: the two inputs never, the output because every point stores. -/
theorem liveAt9_0 : ∀ t : Fin cfg9.N, cfg9.idle 0 (grid9.coords t) = false := by decide +kernel
theorem liveAt9_1 : ∀ t : Fin cfg9.N, cfg9.idle 1 (grid9.coords t) = false := by decide +kernel
theorem liveAt9_2 : ∀ t : Fin cfg9.N, cfg9.idle 2 (grid9.coords t) = false := by decide +kernel

/-- Each window's current staging memref at a point, as the pipeline passes it, and its wholeness. -/
abbrev ms9_0 (t : Fin cfg9.N) : Memref sig .tc .vmem S1024x819 .bf16 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S1024x819 .f32 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S1024x1024 .f32 := win9_2.stage (cfg9.slots t 2)
abbrev hs9_2 (t : Fin cfg9.N) : (ms9_2 t).IsWhole := hstage9_2 ((cfg9.slots t 2).cast nbuf9_2)
/-- The accumulator: a whole scoped buffer of the launch's own. -/
abbrev scM9 : Memref sig .tc .vmem S1024x1024 .f32 := Memref.whole cc9_scratch0
abbrev VS9 : View sig .tc .vmem S1024x1024 .f32 := scM9.view

end Cert.Kernel.Hand

end
-- ==== Proof.KB.R09Run.lean ====
/-
  Launch 9, the body run symbolically in its one control case: the accumulator reset, the product added, the output
  block stored from the sum. The run's witnesses are the lists of pieces its stores leave in the output block and in
  the accumulator.
-/
import proofs.«113214_j66838281060556_2_alg».proof.Proof.KB.R09Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

set_option maxHeartbeats 2000000 in
/-- The body at a point, run symbolically: the accumulator, found at anything, is reset and ends at the product of
    the two input blocks added to it; the output block, found at anything, is stored whole from that sum. The
    witnesses are the pieces the stores leave in the output block and in the accumulator. -/
noncomputable def run9 (c : Dev nD) (i : grid9.Coords) (arg3 : Memref sig .tc .vmem S1024x819 .bf16) (harg3 : arg3.IsWhole) (arg4 : Memref sig .tc .vmem S1024x819 .f32) (harg4 : arg4.IsWhole) (arg5 : Memref sig .tc .vmem S1024x1024 .f32) (harg5 : arg5.IsWhole) (arg6 : Memref sig .tc .vmem S1024x1024 .f32) (harg6 : arg6.IsWhole) (hc0 : cond9_0 i) (hc1 : cond9_1 i)
    (x0 : Vec F S1024x819 .bf16) (x1 : Vec F S1024x819 .f32) :
    Σ' (LO : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc9__mm_kernel i arg3 harg3 arg4 harg4 arg5 harg5 arg6 harg6) K } := by
  refine ⟨?_, ?_, fun E K => ?run⟩
  case run =>
    simp only [cc9__mm_kernel_eq_skeleton]; unfold cc9__mm_kernel_skel
    unfold owns
    iintro ⟨⟨%f0, %hf0, H0⟩, ⟨%f1, %hf1, H1⟩, ⟨%d2, %f2, -, H2⟩, ⟨%ds, %fs, -, HS⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact HS

end Cert.Kernel.Hand

end
-- ==== Proof.KB.R09.lean ====
/-
  Launch 9 as a region of the program. The blocks the windows stage are read off the arrays as the region finds
  them; a point stores the output block its run leaves; the accumulator is reset at every point, so between points
  the launch's scoped buffers that no window stages are simply held whole at anything; the body obligation follows
  from the one symbolic run; and the region is stated over the thread state "every unscoped buffer at given
  contents, the core owing nothing", entered by splitting the three arrays out and left with the result's array
  at what the pipeline computes from the stored blocks.
-/
import proofs.«113214_j66838281060556_2_alg».proof.Proof.KB.R09Run
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

variable (V : (c : Dev nD) → (b : Ref sig .tc) → Buf (Elt F) ((c : Thread nD τ).loc b))

/-! ## The blocks the windows stage -/

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- A view of the output's staging buffer, through which contents are stated. -/
abbrev VO9 : View sig .tc .vmem S1024x1024 .f32 := (Memref.whole cc9_stg2_0 : Memref sig .tc .vmem S1024x1024 .f32).view

/-! ## What a point leaves -/

/-- The output block a point stores: what the run's pieces leave, read through the staging buffer's view. -/
def out9 (c : Dev nD) (t : Fin cfg9.N) : Vec F S1024x1024 .f32 :=
  VO9.read (Elt F) (VO9.writes (Elt F) VO9.junk (run9 c (grid9.coords t) (ms9_0 t) (hs9_0 t) (ms9_1 t) (hs9_1 t) (ms9_2 t) (hs9_2 t) scM9 (Memref.isWhole_whole _) (hcond9_0 t) (hcond9_1 t) (iblk9 V c 0 t) (iblk9 V c 1 t)).1)

/-- The stores into the output block cover it. -/
theorem coverO9 (c : Dev nD) (t : Fin cfg9.N) (y : S1024x1024.Idx) :
    ∃ pc ∈ (run9 c (grid9.coords t) (ms9_0 t) (hs9_0 t) (ms9_1 t) (hs9_1 t) (ms9_2 t) (hs9_2 t) scM9 (Memref.isWhole_whole _) (hcond9_0 t) (hcond9_1 t) (iblk9 V c 0 t) (iblk9 V c 1 t)).1, y ∈ pc.1.set :=
  View.cover_of_tiledL _ S1024x1024.size (by sl_kernel_rfl) y

/-! ## The invariant between points -/

/-- The scoped rest with the accumulator split out as a memref owned at some contents. The accumulator is reset at
    every point, so the invariant between points is the scoped rest itself, the accumulator at anything. -/
theorem scopedRest9_eq (c : Dev nD) :
    (Pipeline.scopedRest (Ix := Unit) (Name := ℕ) (U := UR sig nD τ × Counters) (Lvl := ℕ) (Val := Elt F) spec9 c : sProp 𝕄)
      = iprop((∃ d, owns (c : Thread nD τ) scM9 fullShare d)
          ∗ Pipeline.scopedRestBut (Ix := Unit) (Name := ℕ) (U := UR sig nD τ × Counters) (Lvl := ℕ) (Val := Elt F) spec9 c [cc9_scratch0]) := by
  rw [scopedRest9_split]; simp only [scM9, owns_whole]; try rfl

/-! ## The proof data -/

def dat9 (c : Dev nD) : Dat τ (Elt F) Unit ℕ (UR sig nD τ × Counters) ℕ cfg9 c where
  A w := V c (Pipeline.arrRef spec9 w)
  after w t := match w with
    | ⟨0, _⟩ => iblk9 V c 0 t
    | ⟨1, _⟩ => iblk9 V c 1 t
    | ⟨2, _⟩ => out9 V c t
  Φ _ := Pipeline.scopedRest (Ix := Unit) (Name := ℕ) (U := UR sig nD τ × Counters) (Lvl := ℕ) (Val := Elt F) spec9 c
  q _ := fullShare
  owed _ := 0

theorem A9_eq (c : Dev nD) (w : Fin cfg9.W) : (dat9 V c).A w = V c (Pipeline.arrRef spec9 w) := by
  dsimp only [dat9]
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = out9 V c t := by dsimp only [dat9]

/-- Each input window's current staging buffer holds its block at every point, fetched there or not. -/
theorem before9_0 (c : Dev nD) (t : Fin cfg9.N) (d) : (dat9 V c).before 0 t d = iblk9 V c 0 t :=
  ((dat9 V c).before_in_eq_fetched 0 rfl (fun _ => rfl) (fun _ _ _ => rfl) (fun t => by rw [after9_0]; unfold Dat.blockOf iblk9; rw [A9_eq]; try rfl) t d).trans
    (by unfold Dat.fetched Dat.blockOf iblk9; rw [A9_eq]; try rfl)
theorem before9_1 (c : Dev nD) (t : Fin cfg9.N) (d) : (dat9 V c).before 1 t d = iblk9 V c 1 t :=
  ((dat9 V c).before_in_eq_fetched 1 rfl (fun _ => rfl) (fun _ _ _ => rfl) (fun t => by rw [after9_1]; unfold Dat.blockOf iblk9; rw [A9_eq]; try rfl) t d).trans
    (by unfold Dat.fetched Dat.blockOf iblk9; rw [A9_eq]; try rfl)

/-! ## The body obligation at a generic point -/

def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d)))

def bodyPost9 (c : Dev nD) (t : Fin cfg9.N) : sProp 𝕄 :=
  iprop((dat9 V c).Φ t.succ ∗ (dat9 V c).owesAt () t.succ
    ∗ (dat9 V c).leavesExact 0 t ∗ (dat9 V c).leavesExact 1 t ∗ (dat9 V c).leavesExact 2 t)

set_option maxHeartbeats 4000000 in
/-- The body at any point. The two input buffers hold their blocks; the invariant hands over the accumulator at
    anything and takes it back at anything; the output buffer, found at anything, is handed back at the block the
    point stores; the core owes nothing throughout. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).owesAt () t.succ = (dat9 V c).owesAt () t.castSucc from rfl]
  rw [show (dat9 V c).Φ t.succ = Pipeline.scopedRest (Ix := Unit) (Name := ℕ) (U := UR sig nD τ × Counters) (Lvl := ℕ) (Val := Elt F) spec9 c from rfl,
    show (dat9 V c).Φ t.castSucc = Pipeline.scopedRest (Ix := Unit) (Name := ℕ) (U := UR sig nD τ × Counters) (Lvl := ℕ) (Val := Elt F) spec9 c from rfl]
  rw [show (dat9 V c).leavesExact 0 t = owns (c : Thread nD τ) (ms9_0 t) fullShare (iblk9 V c 0 t) from by
    unfold Dat.leavesExact; rw [liveAt9_0 t, after9_0]]
  rw [show (dat9 V c).leavesExact 1 t = owns (c : Thread nD τ) (ms9_1 t) fullShare (iblk9 V c 1 t) from by
    unfold Dat.leavesExact; rw [liveAt9_1 t, after9_1]]
  rw [show (dat9 V c).leavesExact 2 t = owns (c : Thread nD τ) (ms9_2 t) fullShare (out9 V c t) from by
    unfold Dat.leavesExact; rw [liveAt9_2 t, after9_2]]
  rw [scopedRest9_eq]
  unfold out9
  iintro ⟨⟨HS, Hb⟩, Ho, ⟨%d0, H0⟩, ⟨%d1, H1⟩, ⟨%d2, H2⟩⟩
  iapply ((run9 c (grid9.coords t) (ms9_0 t) (hs9_0 t) (ms9_1 t) (hs9_1 t) (ms9_2 t) (hs9_2 t) scM9 (Memref.isWhole_whole _) (hcond9_0 t) (hcond9_1 t) (iblk9 V c 0 t) (iblk9 V c 1 t)).2.2 Set.univ _)
  isplitl [H0]; · iexact H0
  isplitl [H1]; · iexact H1
  isplitl [H2]; · iexists _; iexact H2
  isplitl [HS]; · iexact HS
  iintro ⟨H0, H1, ⟨%e2, H2⟩, ⟨%es, HS⟩⟩
  isplitl [HS Hb]
  · isplitl [HS]
    · iexists _; unfold owns; iexists _; isplitr
      swap; · iexact HS
      ipureintro; rfl
    iexact Hb
  isplitl [Ho]; · iexact Ho
  isplitl [H0]; · iexact H0
  isplitl [H1]; · iexact H1
  unfold owns; iexists _; isplitr
  swap; · iexact H2
  ipureintro; exact View.read_writes_of_cover _ _ _ _ _ (coverO9 V c t)

theorem body_obligation9 (c : Dev nD) : BodyObligation (dat9 V c) (defs₀ (F := F)) Variants.none () Set.univ := fun t => by
  rw [bigSep_W9, bigSep_W9]
  exact sound_body9 V c t

/-! ## The region over the thread state -/

variable (Vp : (c : Dev nD) → (b : Ref sig .tc) → Buf (Elt F) ((c : Thread nD τ).loc b))
variable (pdats : (p : Fin 22) → (c : Dev nD) → Dat τ (Elt F) Unit ℕ (UR sig nD τ × Counters) ℕ (cfgs p) c)

/-- The result's array after the region, as the pipeline library computes it from the proof data. -/
def out9arr (c : Dev nD) : Buf (Elt F) ((c : Thread nD τ).loc main_v26) := (dat9 V c).arrAt 2 cfg9.N

set_option backward.isDefEq.respectTransparency.types false in
set_option maxHeartbeats 2000000 in
/-- Launch 9 over the thread state "every unscoped buffer at `V c`, the core owing nothing": entered by
    splitting its three arrays out of the unscoped buffers, left with them put back at `Vp c`, which has the
    result's array at `out9arr` and agrees with `V c` elsewhere. -/
def reg9 (hp : ∀ c, pdats 9 c = dat9 V c)
    (hVp_out : ∀ c, Vp c main_v26 = out9arr V c)
    (hVp_ne : ∀ c (b : Ref sig .tc), b ≠ main_v26 → Vp c b = V c b) :
    Pipeline.RegionSeg (pcfgs (F := F)) (fun p => (cfgs p).toPCfg_adm) pdats () defs₀ Variants.none (fun _ => (∅ : Finset Unit)) (fun _ _ => (0 : ℕ)) 9 where
  win := launch9.win.to₀
  block_pos := launch9.block_pos
  stage_whole := launch9.stage_whole
  K := PEmpty
  osem k := k.elim
  ho := Pipeline.OwnSemFacts.none _
  hbody c := by rw [hp c]; exact (body_obligation9 V c).loose
  hwaits := Pipeline.hwaits_of_owed_zero _ _ _ _ _ _ 9 fun c t => by rw [hp c]; rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ × Counters) (Lvl := ℕ) spec9 c (V c)
  hentry c := by
    rw [Pipeline.ownSems0_none]
    have hsplit := Pipeline.arrays_of_unscopedBufs (p := 9) (pcfgs (F := F)) (fun p => (cfgs p).toPCfg_adm) pdats launch9.win launch9.arr_whole c
      ((pdats 9 c).share_full fun w => by rw [hp c]; rfl) (V c) (fun w => by rw [hp c]; rfl)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hp c]; exact trivial)
      rw [show (pdats 9 c).owed 0 = 0 from by rw [hp c]; rfl]
      iexact HO
    isplitr; · iempintro
    iexact Hrest
  hin c := by
    rw [hp c, show (dat9 V c).Φ 0 = Pipeline.scopedRest (Ix := Unit) (Name := ℕ) (U := UR sig nD τ × Counters) (Lvl := ℕ) (Val := Elt F) spec9 c from rfl]
    iintro ⟨-, -, Hr⟩; iexact Hr
  hout c := by
    rw [Pipeline.ownSems0_none, hp c]
    change (Pipeline.scopedRest (Ix := Unit) (Name := ℕ) (U := UR sig nD τ × Counters) (Lvl := ℕ) (Val := Elt F) spec9 c : sProp 𝕄) ⊢ _
    iintro Hr
    isplitr; · iempintro
    isplitr; · iempintro
    iexact Hr
  hexit c := by
    have hjoin := Pipeline.unscopedBufs_of_arrays (p := 9) (pcfgs (F := F)) (fun p => (cfgs p).toPCfg_adm) (Ix := Unit) (Name := ℕ) (U := UR sig nD τ × Counters) (Lvl := ℕ) launch9.win launch9.arr_whole c
      pdats ((pdats 9 c).share_full fun w => by rw [hp c]; rfl) (V c) (Vp c) ((pdats 9 c).arrAt · cfg9.N)
      (fun w => by
        fin_cases w
        · exact (((pdats 9 c).arrAt_in 0 rfl _).trans (by rw [hp c]; rfl)).trans (hVp_ne c main_v25 (by decide)).symm
        · exact (((pdats 9 c).arrAt_in 1 rfl _).trans (by rw [hp c]; rfl)).trans (hVp_ne c main_v24 (by decide)).symm
        · exact (by rw [hp c]; rfl : (pdats 9 c).arrAt 2 cfg9.N = out9arr V c).trans (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W
    rw [show (pdats 9 c).owed (Fin.last _) = 0 from by rw [hp c]; rfl]
    iexact HO

end Cert.Kernel.Hand

end
-- ==== Proof.KB.R10Base.lean ====
/-
  Launch 10 of the program: one matrix product per grid point — the contraction is a single block —, from which the
  output block is stored at every point. The grid's third coordinate is always 0, so both conditions of the body —
  "the contraction's first block" and "its last block" — hold at every point: this module decides them over the
  grid's points, records that no window is ever idle, and names the staging memrefs the body is called with.
-/
import proofs.«113214_j66838281060556_2_alg».proof.Proof.Gen.Kernel.Launch
import proofs.«113214_j66838281060556_2_alg».proof.Proof.Gen.Kernel.Skeleton
import proofs.«113214_j66838281060556_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

/-- The accumulator is reset: the point starts a contraction (third grid coordinate 0). Here the third axis has one
    coordinate, so every point does. -/
abbrev cond10_0 (i : grid10.Coords) : Prop := (Scalar.cmpi .ne (Scalar.extui (Scalar.cmpi .eq (BitVec.ofNat 32 (i 2).val) 0#32)) 0#32) = 1#1
theorem hcond10_0 : ∀ t : Fin cfg10.N, cond10_0 (grid10.coords t) :=
  (by decide +kernel : ∀ t : Fin grid10.N, cond10_0 (grid10.coords t))

/-- The result is stored: the point ends a contraction. Every point does. -/
abbrev cond10_1 (i : grid10.Coords) : Prop := k10_cond2 i = 1#1
theorem hcond10_1 : ∀ t : Fin cfg10.N, cond10_1 (grid10.coords t) :=
  (by decide +kernel : ∀ t : Fin grid10.N, cond10_1 (grid10.coords t))

/-- No window is idle at any point: the two inputs never, the output because every point stores. -/
theorem liveAt10_0 : ∀ t : Fin cfg10.N, cfg10.idle 0 (grid10.coords t) = false := by decide +kernel
theorem liveAt10_1 : ∀ t : Fin cfg10.N, cfg10.idle 1 (grid10.coords t) = false := by decide +kernel
theorem liveAt10_2 : ∀ t : Fin cfg10.N, cfg10.idle 2 (grid10.coords t) = false := by decide +kernel

/-- Each window's current staging memref at a point, as the pipeline passes it, and its wholeness. -/
abbrev ms10_0 (t : Fin cfg10.N) : Memref sig .tc .vmem S1024x819 .f32 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S819x819 .f32 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S1024x819 .bf16 := win10_2.stage (cfg10.slots t 2)
abbrev hs10_2 (t : Fin cfg10.N) : (ms10_2 t).IsWhole := hstage10_2 ((cfg10.slots t 2).cast nbuf10_2)
/-- The accumulator: a whole scoped buffer of the launch's own. -/
abbrev scM10 : Memref sig .tc .vmem S1024x819 .f32 := Memref.whole cc10_scratch0
abbrev VS10 : View sig .tc .vmem S1024x819 .f32 := scM10.view

end Cert.Kernel.Hand

end
-- ==== Proof.KB.R10Run.lean ====
/-
  Launch 10, the body run symbolically in its one control case: the accumulator reset, the product added, the output
  block stored from the sum. The run's witnesses are the lists of pieces its stores leave in the output block and in
  the accumulator.
-/
import proofs.«113214_j66838281060556_2_alg».proof.Proof.KB.R10Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

set_option maxHeartbeats 2000000 in
/-- The body at a point, run symbolically: the accumulator, found at anything, is reset and ends at the product of
    the two input blocks added to it; the output block, found at anything, is stored whole from that sum. The
    witnesses are the pieces the stores leave in the output block and in the accumulator. -/
noncomputable def run10 (c : Dev nD) (i : grid10.Coords) (arg3 : Memref sig .tc .vmem S1024x819 .f32) (harg3 : arg3.IsWhole) (arg4 : Memref sig .tc .vmem S819x819 .f32) (harg4 : arg4.IsWhole) (arg5 : Memref sig .tc .vmem S1024x819 .bf16) (harg5 : arg5.IsWhole) (arg6 : Memref sig .tc .vmem S1024x819 .f32) (harg6 : arg6.IsWhole) (hc0 : cond10_0 i) (hc1 : cond10_1 i)
    (x0 : Vec F S1024x819 .f32) (x1 : Vec F S819x819 .f32) :
    Σ' (LO : List (View.Piece (Elt F) S1024x819 .bf16)), { LS : List (View.Piece (Elt F) S1024x819 .f32) //
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc10__mm_kernel i arg3 harg3 arg4 harg4 arg5 harg5 arg6 harg6) K } := by
  refine ⟨?_, ?_, fun E K => ?run⟩
  case run =>
    simp only [cc10__mm_kernel_eq_skeleton]; unfold cc10__mm_kernel_skel
    unfold owns
    iintro ⟨⟨%f0, %hf0, H0⟩, ⟨%f1, %hf1, H1⟩, ⟨%d2, %f2, -, H2⟩, ⟨%ds, %fs, -, HS⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact HS

end Cert.Kernel.Hand

end
-- ==== Proof.KB.R10.lean ====
/-
  Launch 10 as a region of the program. The blocks the windows stage are read off the arrays as the region finds
  them; a point stores the output block its run leaves; the accumulator is reset at every point, so between points
  the launch's scoped buffers that no window stages are simply held whole at anything; the body obligation follows
  from the one symbolic run; and the region is stated over the thread state "every unscoped buffer at given
  contents, the core owing nothing", entered by splitting the three arrays out and left with the result's array
  at what the pipeline computes from the stored blocks.
-/
import proofs.«113214_j66838281060556_2_alg».proof.Proof.KB.R10Run
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

variable (V : (c : Dev nD) → (b : Ref sig .tc) → Buf (Elt F) ((c : Thread nD τ).loc b))

/-! ## The blocks the windows stage -/

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- A view of the output's staging buffer, through which contents are stated. -/
abbrev VO10 : View sig .tc .vmem S1024x819 .bf16 := (Memref.whole cc10_stg2_0 : Memref sig .tc .vmem S1024x819 .bf16).view

/-! ## What a point leaves -/

/-- The output block a point stores: what the run's pieces leave, read through the staging buffer's view. -/
def out10 (c : Dev nD) (t : Fin cfg10.N) : Vec F S1024x819 .bf16 :=
  VO10.read (Elt F) (VO10.writes (Elt F) VO10.junk (run10 c (grid10.coords t) (ms10_0 t) (hs10_0 t) (ms10_1 t) (hs10_1 t) (ms10_2 t) (hs10_2 t) scM10 (Memref.isWhole_whole _) (hcond10_0 t) (hcond10_1 t) (iblk10 V c 0 t) (iblk10 V c 1 t)).1)

/-- The stores into the output block cover it. -/
theorem coverO10 (c : Dev nD) (t : Fin cfg10.N) (y : S1024x819.Idx) :
    ∃ pc ∈ (run10 c (grid10.coords t) (ms10_0 t) (hs10_0 t) (ms10_1 t) (hs10_1 t) (ms10_2 t) (hs10_2 t) scM10 (Memref.isWhole_whole _) (hcond10_0 t) (hcond10_1 t) (iblk10 V c 0 t) (iblk10 V c 1 t)).1, y ∈ pc.1.set :=
  View.cover_of_tiledL _ S1024x819.size (by sl_kernel_rfl) y

/-! ## The invariant between points -/

/-- The scoped rest with the accumulator split out as a memref owned at some contents. The accumulator is reset at
    every point, so the invariant between points is the scoped rest itself, the accumulator at anything. -/
theorem scopedRest10_eq (c : Dev nD) :
    (Pipeline.scopedRest (Ix := Unit) (Name := ℕ) (U := UR sig nD τ × Counters) (Lvl := ℕ) (Val := Elt F) spec10 c : sProp 𝕄)
      = iprop((∃ d, owns (c : Thread nD τ) scM10 fullShare d)
          ∗ Pipeline.scopedRestBut (Ix := Unit) (Name := ℕ) (U := UR sig nD τ × Counters) (Lvl := ℕ) (Val := Elt F) spec10 c [cc10_scratch0]) := by
  rw [scopedRest10_split]; simp only [scM10, owns_whole]; try rfl

/-! ## The proof data -/

def dat10 (c : Dev nD) : Dat τ (Elt F) Unit ℕ (UR sig nD τ × Counters) ℕ cfg10 c where
  A w := V c (Pipeline.arrRef spec10 w)
  after w t := match w with
    | ⟨0, _⟩ => iblk10 V c 0 t
    | ⟨1, _⟩ => iblk10 V c 1 t
    | ⟨2, _⟩ => out10 V c t
  Φ _ := Pipeline.scopedRest (Ix := Unit) (Name := ℕ) (U := UR sig nD τ × Counters) (Lvl := ℕ) (Val := Elt F) spec10 c
  q _ := fullShare
  owed _ := 0

theorem A10_eq (c : Dev nD) (w : Fin cfg10.W) : (dat10 V c).A w = V c (Pipeline.arrRef spec10 w) := by
  dsimp only [dat10]
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = out10 V c t := by dsimp only [dat10]

/-- Each input window's current staging buffer holds its block at every point, fetched there or not. -/
theorem before10_0 (c : Dev nD) (t : Fin cfg10.N) (d) : (dat10 V c).before 0 t d = iblk10 V c 0 t :=
  ((dat10 V c).before_in_eq_fetched 0 rfl (fun _ => rfl) (fun _ _ _ => rfl) (fun t => by rw [after10_0]; unfold Dat.blockOf iblk10; rw [A10_eq]; try rfl) t d).trans
    (by unfold Dat.fetched Dat.blockOf iblk10; rw [A10_eq]; try rfl)
theorem before10_1 (c : Dev nD) (t : Fin cfg10.N) (d) : (dat10 V c).before 1 t d = iblk10 V c 1 t :=
  ((dat10 V c).before_in_eq_fetched 1 rfl (fun _ => rfl) (fun _ _ _ => rfl) (fun t => by rw [after10_1]; unfold Dat.blockOf iblk10; rw [A10_eq]; try rfl) t d).trans
    (by unfold Dat.fetched Dat.blockOf iblk10; rw [A10_eq]; try rfl)

/-! ## The body obligation at a generic point -/

def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d)))

def bodyPost10 (c : Dev nD) (t : Fin cfg10.N) : sProp 𝕄 :=
  iprop((dat10 V c).Φ t.succ ∗ (dat10 V c).owesAt () t.succ
    ∗ (dat10 V c).leavesExact 0 t ∗ (dat10 V c).leavesExact 1 t ∗ (dat10 V c).leavesExact 2 t)

set_option maxHeartbeats 4000000 in
/-- The body at any point. The two input buffers hold their blocks; the invariant hands over the accumulator at
    anything and takes it back at anything; the output buffer, found at anything, is handed back at the block the
    point stores; the core owes nothing throughout. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).owesAt () t.succ = (dat10 V c).owesAt () t.castSucc from rfl]
  rw [show (dat10 V c).Φ t.succ = Pipeline.scopedRest (Ix := Unit) (Name := ℕ) (U := UR sig nD τ × Counters) (Lvl := ℕ) (Val := Elt F) spec10 c from rfl,
    show (dat10 V c).Φ t.castSucc = Pipeline.scopedRest (Ix := Unit) (Name := ℕ) (U := UR sig nD τ × Counters) (Lvl := ℕ) (Val := Elt F) spec10 c from rfl]
  rw [show (dat10 V c).leavesExact 0 t = owns (c : Thread nD τ) (ms10_0 t) fullShare (iblk10 V c 0 t) from by
    unfold Dat.leavesExact; rw [liveAt10_0 t, after10_0]]
  rw [show (dat10 V c).leavesExact 1 t = owns (c : Thread nD τ) (ms10_1 t) fullShare (iblk10 V c 1 t) from by
    unfold Dat.leavesExact; rw [liveAt10_1 t, after10_1]]
  rw [show (dat10 V c).leavesExact 2 t = owns (c : Thread nD τ) (ms10_2 t) fullShare (out10 V c t) from by
    unfold Dat.leavesExact; rw [liveAt10_2 t, after10_2]]
  rw [scopedRest10_eq]
  unfold out10
  iintro ⟨⟨HS, Hb⟩, Ho, ⟨%d0, H0⟩, ⟨%d1, H1⟩, ⟨%d2, H2⟩⟩
  iapply ((run10 c (grid10.coords t) (ms10_0 t) (hs10_0 t) (ms10_1 t) (hs10_1 t) (ms10_2 t) (hs10_2 t) scM10 (Memref.isWhole_whole _) (hcond10_0 t) (hcond10_1 t) (iblk10 V c 0 t) (iblk10 V c 1 t)).2.2 Set.univ _)
  isplitl [H0]; · iexact H0
  isplitl [H1]; · iexact H1
  isplitl [H2]; · iexists _; iexact H2
  isplitl [HS]; · iexact HS
  iintro ⟨H0, H1, ⟨%e2, H2⟩, ⟨%es, HS⟩⟩
  isplitl [HS Hb]
  · isplitl [HS]
    · iexists _; unfold owns; iexists _; isplitr
      swap; · iexact HS
      ipureintro; rfl
    iexact Hb
  isplitl [Ho]; · iexact Ho
  isplitl [H0]; · iexact H0
  isplitl [H1]; · iexact H1
  unfold owns; iexists _; isplitr
  swap; · iexact H2
  ipureintro; exact View.read_writes_of_cover _ _ _ _ _ (coverO10 V c t)

theorem body_obligation10 (c : Dev nD) : BodyObligation (dat10 V c) (defs₀ (F := F)) Variants.none () Set.univ := fun t => by
  rw [bigSep_W10, bigSep_W10]
  exact sound_body10 V c t

/-! ## The region over the thread state -/

variable (Vp : (c : Dev nD) → (b : Ref sig .tc) → Buf (Elt F) ((c : Thread nD τ).loc b))
variable (pdats : (p : Fin 22) → (c : Dev nD) → Dat τ (Elt F) Unit ℕ (UR sig nD τ × Counters) ℕ (cfgs p) c)

/-- The result's array after the region, as the pipeline library computes it from the proof data. -/
def out10arr (c : Dev nD) : Buf (Elt F) ((c : Thread nD τ).loc main_v27) := (dat10 V c).arrAt 2 cfg10.N

set_option backward.isDefEq.respectTransparency.types false in
set_option maxHeartbeats 2000000 in
/-- Launch 10 over the thread state "every unscoped buffer at `V c`, the core owing nothing": entered by
    splitting its three arrays out of the unscoped buffers, left with them put back at `Vp c`, which has the
    result's array at `out10arr` and agrees with `V c` elsewhere. -/
def reg10 (hp : ∀ c, pdats 10 c = dat10 V c)
    (hVp_out : ∀ c, Vp c main_v27 = out10arr V c)
    (hVp_ne : ∀ c (b : Ref sig .tc), b ≠ main_v27 → Vp c b = V c b) :
    Pipeline.RegionSeg (pcfgs (F := F)) (fun p => (cfgs p).toPCfg_adm) pdats () defs₀ Variants.none (fun _ => (∅ : Finset Unit)) (fun _ _ => (0 : ℕ)) 10 where
  win := launch10.win.to₀
  block_pos := launch10.block_pos
  stage_whole := launch10.stage_whole
  K := PEmpty
  osem k := k.elim
  ho := Pipeline.OwnSemFacts.none _
  hbody c := by rw [hp c]; exact (body_obligation10 V c).loose
  hwaits := Pipeline.hwaits_of_owed_zero _ _ _ _ _ _ 10 fun c t => by rw [hp c]; rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ × Counters) (Lvl := ℕ) spec10 c (V c)
  hentry c := by
    rw [Pipeline.ownSems0_none]
    have hsplit := Pipeline.arrays_of_unscopedBufs (p := 10) (pcfgs (F := F)) (fun p => (cfgs p).toPCfg_adm) pdats launch10.win launch10.arr_whole c
      ((pdats 10 c).share_full fun w => by rw [hp c]; rfl) (V c) (fun w => by rw [hp c]; rfl)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hp c]; exact trivial)
      rw [show (pdats 10 c).owed 0 = 0 from by rw [hp c]; rfl]
      iexact HO
    isplitr; · iempintro
    iexact Hrest
  hin c := by
    rw [hp c, show (dat10 V c).Φ 0 = Pipeline.scopedRest (Ix := Unit) (Name := ℕ) (U := UR sig nD τ × Counters) (Lvl := ℕ) (Val := Elt F) spec10 c from rfl]
    iintro ⟨-, -, Hr⟩; iexact Hr
  hout c := by
    rw [Pipeline.ownSems0_none, hp c]
    change (Pipeline.scopedRest (Ix := Unit) (Name := ℕ) (U := UR sig nD τ × Counters) (Lvl := ℕ) (Val := Elt F) spec10 c : sProp 𝕄) ⊢ _
    iintro Hr
    isplitr; · iempintro
    isplitr; · iempintro
    iexact Hr
  hexit c := by
    have hjoin := Pipeline.unscopedBufs_of_arrays (p := 10) (pcfgs (F := F)) (fun p => (cfgs p).toPCfg_adm) (Ix := Unit) (Name := ℕ) (U := UR sig nD τ × Counters) (Lvl := ℕ) launch10.win launch10.arr_whole c
      pdats ((pdats 10 c).share_full fun w => by rw [hp c]; rfl) (V c) (Vp c) ((pdats 10 c).arrAt · cfg10.N)
      (fun w => by
        fin_cases w
        · exact (((pdats 10 c).arrAt_in 0 rfl _).trans (by rw [hp c]; rfl)).trans (hVp_ne c main_v24 (by decide)).symm
        · exact (((pdats 10 c).arrAt_in 1 rfl _).trans (by rw [hp c]; rfl)).trans (hVp_ne c main_arg22 (by decide)).symm
        · exact (by rw [hp c]; rfl : (pdats 10 c).arrAt 2 cfg10.N = out10arr V c).trans (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W
    rw [show (pdats 10 c).owed (Fin.last _) = 0 from by rw [hp c]; rfl]
    iexact HO

end Cert.Kernel.Hand

end
-- ==== Proof.KB.R11Base.lean ====
/-
  Launch 11 of the program: one matrix product per grid point — the contraction is a single block —, from which the
  output block is stored at every point. The grid's third coordinate is always 0, so both conditions of the body —
  "the contraction's first block" and "its last block" — hold at every point: this module decides them over the
  grid's points, records that no window is ever idle, and names the staging memrefs the body is called with.
-/
import proofs.«113214_j66838281060556_2_alg».proof.Proof.Gen.Kernel.Launch
import proofs.«113214_j66838281060556_2_alg».proof.Proof.Gen.Kernel.Skeleton
import proofs.«113214_j66838281060556_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

/-- The accumulator is reset: the point starts a contraction (third grid coordinate 0). Here the third axis has one
    coordinate, so every point does. -/
abbrev cond11_0 (i : grid11.Coords) : Prop := (Scalar.cmpi .ne (Scalar.extui (Scalar.cmpi .eq (BitVec.ofNat 32 (i 2).val) 0#32)) 0#32) = 1#1
theorem hcond11_0 : ∀ t : Fin cfg11.N, cond11_0 (grid11.coords t) :=
  (by decide +kernel : ∀ t : Fin grid11.N, cond11_0 (grid11.coords t))

/-- The result is stored: the point ends a contraction. Every point does. -/
abbrev cond11_1 (i : grid11.Coords) : Prop := k11_cond2 i = 1#1
theorem hcond11_1 : ∀ t : Fin cfg11.N, cond11_1 (grid11.coords t) :=
  (by decide +kernel : ∀ t : Fin grid11.N, cond11_1 (grid11.coords t))

/-- No window is idle at any point: the two inputs never, the output because every point stores. -/
theorem liveAt11_0 : ∀ t : Fin cfg11.N, cfg11.idle 0 (grid11.coords t) = false := by decide +kernel
theorem liveAt11_1 : ∀ t : Fin cfg11.N, cfg11.idle 1 (grid11.coords t) = false := by decide +kernel
theorem liveAt11_2 : ∀ t : Fin cfg11.N, cfg11.idle 2 (grid11.coords t) = false := by decide +kernel

/-- Each window's current staging memref at a point, as the pipeline passes it, and its wholeness. -/
abbrev ms11_0 (t : Fin cfg11.N) : Memref sig .tc .vmem S1024x819 .bf16 := win11_0.stage (cfg11.slots t 0)
abbrev hs11_0 (t : Fin cfg11.N) : (ms11_0 t).IsWhole := hstage11_0 ((cfg11.slots t 0).cast nbuf11_0)
abbrev ms11_1 (t : Fin cfg11.N) : Memref sig .tc .vmem S1024x819 .f32 := win11_1.stage (cfg11.slots t 1)
abbrev hs11_1 (t : Fin cfg11.N) : (ms11_1 t).IsWhole := hstage11_1 ((cfg11.slots t 1).cast nbuf11_1)
abbrev ms11_2 (t : Fin cfg11.N) : Memref sig .tc .vmem S1024x1024 .f32 := win11_2.stage (cfg11.slots t 2)
abbrev hs11_2 (t : Fin cfg11.N) : (ms11_2 t).IsWhole := hstage11_2 ((cfg11.slots t 2).cast nbuf11_2)
/-- The accumulator: a whole scoped buffer of the launch's own. -/
abbrev scM11 : Memref sig .tc .vmem S1024x1024 .f32 := Memref.whole cc11_scratch0
abbrev VS11 : View sig .tc .vmem S1024x1024 .f32 := scM11.view

end Cert.Kernel.Hand

end
-- ==== Proof.KB.R11Run.lean ====
/-
  Launch 11, the body run symbolically in its one control case: the accumulator reset, the product added, the output
  block stored from the sum. The run's witnesses are the lists of pieces its stores leave in the output block and in
  the accumulator.
-/
import proofs.«113214_j66838281060556_2_alg».proof.Proof.KB.R11Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

set_option maxHeartbeats 2000000 in
/-- The body at a point, run symbolically: the accumulator, found at anything, is reset and ends at the product of
    the two input blocks added to it; the output block, found at anything, is stored whole from that sum. The
    witnesses are the pieces the stores leave in the output block and in the accumulator. -/
noncomputable def run11 (c : Dev nD) (i : grid11.Coords) (arg3 : Memref sig .tc .vmem S1024x819 .bf16) (harg3 : arg3.IsWhole) (arg4 : Memref sig .tc .vmem S1024x819 .f32) (harg4 : arg4.IsWhole) (arg5 : Memref sig .tc .vmem S1024x1024 .f32) (harg5 : arg5.IsWhole) (arg6 : Memref sig .tc .vmem S1024x1024 .f32) (harg6 : arg6.IsWhole) (hc0 : cond11_0 i) (hc1 : cond11_1 i)
    (x0 : Vec F S1024x819 .bf16) (x1 : Vec F S1024x819 .f32) :
    Σ' (LO : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc11__mm_kernel i arg3 harg3 arg4 harg4 arg5 harg5 arg6 harg6) K } := by
  refine ⟨?_, ?_, fun E K => ?run⟩
  case run =>
    simp only [cc11__mm_kernel_eq_skeleton]; unfold cc11__mm_kernel_skel
    unfold owns
    iintro ⟨⟨%f0, %hf0, H0⟩, ⟨%f1, %hf1, H1⟩, ⟨%d2, %f2, -, H2⟩, ⟨%ds, %fs, -, HS⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact HS

end Cert.Kernel.Hand

end
-- ==== Proof.KB.R11.lean ====
/-
  Launch 11 as a region of the program. The blocks the windows stage are read off the arrays as the region finds
  them; a point stores the output block its run leaves; the accumulator is reset at every point, so between points
  the launch's scoped buffers that no window stages are simply held whole at anything; the body obligation follows
  from the one symbolic run; and the region is stated over the thread state "every unscoped buffer at given
  contents, the core owing nothing", entered by splitting the three arrays out and left with the result's array
  at what the pipeline computes from the stored blocks.
-/
import proofs.«113214_j66838281060556_2_alg».proof.Proof.KB.R11Run
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

variable (V : (c : Dev nD) → (b : Ref sig .tc) → Buf (Elt F) ((c : Thread nD τ).loc b))

/-! ## The blocks the windows stage -/

/-- Window `w`'s block at point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- A view of the output's staging buffer, through which contents are stated. -/
abbrev VO11 : View sig .tc .vmem S1024x1024 .f32 := (Memref.whole cc11_stg2_0 : Memref sig .tc .vmem S1024x1024 .f32).view

/-! ## What a point leaves -/

/-- The output block a point stores: what the run's pieces leave, read through the staging buffer's view. -/
def out11 (c : Dev nD) (t : Fin cfg11.N) : Vec F S1024x1024 .f32 :=
  VO11.read (Elt F) (VO11.writes (Elt F) VO11.junk (run11 c (grid11.coords t) (ms11_0 t) (hs11_0 t) (ms11_1 t) (hs11_1 t) (ms11_2 t) (hs11_2 t) scM11 (Memref.isWhole_whole _) (hcond11_0 t) (hcond11_1 t) (iblk11 V c 0 t) (iblk11 V c 1 t)).1)

/-- The stores into the output block cover it. -/
theorem coverO11 (c : Dev nD) (t : Fin cfg11.N) (y : S1024x1024.Idx) :
    ∃ pc ∈ (run11 c (grid11.coords t) (ms11_0 t) (hs11_0 t) (ms11_1 t) (hs11_1 t) (ms11_2 t) (hs11_2 t) scM11 (Memref.isWhole_whole _) (hcond11_0 t) (hcond11_1 t) (iblk11 V c 0 t) (iblk11 V c 1 t)).1, y ∈ pc.1.set :=
  View.cover_of_tiledL _ S1024x1024.size (by sl_kernel_rfl) y

/-! ## The invariant between points -/

/-- The scoped rest with the accumulator split out as a memref owned at some contents. The accumulator is reset at
    every point, so the invariant between points is the scoped rest itself, the accumulator at anything. -/
theorem scopedRest11_eq (c : Dev nD) :
    (Pipeline.scopedRest (Ix := Unit) (Name := ℕ) (U := UR sig nD τ × Counters) (Lvl := ℕ) (Val := Elt F) spec11 c : sProp 𝕄)
      = iprop((∃ d, owns (c : Thread nD τ) scM11 fullShare d)
          ∗ Pipeline.scopedRestBut (Ix := Unit) (Name := ℕ) (U := UR sig nD τ × Counters) (Lvl := ℕ) (Val := Elt F) spec11 c [cc11_scratch0]) := by
  rw [scopedRest11_split]; simp only [scM11, owns_whole]; try rfl

/-! ## The proof data -/

def dat11 (c : Dev nD) : Dat τ (Elt F) Unit ℕ (UR sig nD τ × Counters) ℕ cfg11 c where
  A w := V c (Pipeline.arrRef spec11 w)
  after w t := match w with
    | ⟨0, _⟩ => iblk11 V c 0 t
    | ⟨1, _⟩ => iblk11 V c 1 t
    | ⟨2, _⟩ => out11 V c t
  Φ _ := Pipeline.scopedRest (Ix := Unit) (Name := ℕ) (U := UR sig nD τ × Counters) (Lvl := ℕ) (Val := Elt F) spec11 c
  q _ := fullShare
  owed _ := 0

theorem A11_eq (c : Dev nD) (w : Fin cfg11.W) : (dat11 V c).A w = V c (Pipeline.arrRef spec11 w) := by
  dsimp only [dat11]
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = out11 V c t := by dsimp only [dat11]

/-- Each input window's current staging buffer holds its block at every point, fetched there or not. -/
theorem before11_0 (c : Dev nD) (t : Fin cfg11.N) (d) : (dat11 V c).before 0 t d = iblk11 V c 0 t :=
  ((dat11 V c).before_in_eq_fetched 0 rfl (fun _ => rfl) (fun _ _ _ => rfl) (fun t => by rw [after11_0]; unfold Dat.blockOf iblk11; rw [A11_eq]; try rfl) t d).trans
    (by unfold Dat.fetched Dat.blockOf iblk11; rw [A11_eq]; try rfl)
theorem before11_1 (c : Dev nD) (t : Fin cfg11.N) (d) : (dat11 V c).before 1 t d = iblk11 V c 1 t :=
  ((dat11 V c).before_in_eq_fetched 1 rfl (fun _ => rfl) (fun _ _ _ => rfl) (fun t => by rw [after11_1]; unfold Dat.blockOf iblk11; rw [A11_eq]; try rfl) t d).trans
    (by unfold Dat.fetched Dat.blockOf iblk11; rw [A11_eq]; try rfl)

/-! ## The body obligation at a generic point -/

def bodyPre11 (c : Dev nD) (t : Fin cfg11.N) : sProp 𝕄 :=
  iprop((dat11 V c).Φ t.castSucc ∗ (dat11 V c).owesAt () t.castSucc
    ∗ (∃ d, owns (c : Thread nD τ) (ms11_0 t) fullShare ((dat11 V c).before 0 t d))
    ∗ (∃ d, owns (c : Thread nD τ) (ms11_1 t) fullShare ((dat11 V c).before 1 t d))
    ∗ (∃ d, owns (c : Thread nD τ) (ms11_2 t) fullShare ((dat11 V c).before 2 t d)))

def bodyPost11 (c : Dev nD) (t : Fin cfg11.N) : sProp 𝕄 :=
  iprop((dat11 V c).Φ t.succ ∗ (dat11 V c).owesAt () t.succ
    ∗ (dat11 V c).leavesExact 0 t ∗ (dat11 V c).leavesExact 1 t ∗ (dat11 V c).leavesExact 2 t)

set_option maxHeartbeats 4000000 in
/-- The body at any point. The two input buffers hold their blocks; the invariant hands over the accumulator at
    anything and takes it back at anything; the output buffer, found at anything, is handed back at the block the
    point stores; the core owes nothing throughout. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1]
  rw [show (dat11 V c).owesAt () t.succ = (dat11 V c).owesAt () t.castSucc from rfl]
  rw [show (dat11 V c).Φ t.succ = Pipeline.scopedRest (Ix := Unit) (Name := ℕ) (U := UR sig nD τ × Counters) (Lvl := ℕ) (Val := Elt F) spec11 c from rfl,
    show (dat11 V c).Φ t.castSucc = Pipeline.scopedRest (Ix := Unit) (Name := ℕ) (U := UR sig nD τ × Counters) (Lvl := ℕ) (Val := Elt F) spec11 c from rfl]
  rw [show (dat11 V c).leavesExact 0 t = owns (c : Thread nD τ) (ms11_0 t) fullShare (iblk11 V c 0 t) from by
    unfold Dat.leavesExact; rw [liveAt11_0 t, after11_0]]
  rw [show (dat11 V c).leavesExact 1 t = owns (c : Thread nD τ) (ms11_1 t) fullShare (iblk11 V c 1 t) from by
    unfold Dat.leavesExact; rw [liveAt11_1 t, after11_1]]
  rw [show (dat11 V c).leavesExact 2 t = owns (c : Thread nD τ) (ms11_2 t) fullShare (out11 V c t) from by
    unfold Dat.leavesExact; rw [liveAt11_2 t, after11_2]]
  rw [scopedRest11_eq]
  unfold out11
  iintro ⟨⟨HS, Hb⟩, Ho, ⟨%d0, H0⟩, ⟨%d1, H1⟩, ⟨%d2, H2⟩⟩
  iapply ((run11 c (grid11.coords t) (ms11_0 t) (hs11_0 t) (ms11_1 t) (hs11_1 t) (ms11_2 t) (hs11_2 t) scM11 (Memref.isWhole_whole _) (hcond11_0 t) (hcond11_1 t) (iblk11 V c 0 t) (iblk11 V c 1 t)).2.2 Set.univ _)
  isplitl [H0]; · iexact H0
  isplitl [H1]; · iexact H1
  isplitl [H2]; · iexists _; iexact H2
  isplitl [HS]; · iexact HS
  iintro ⟨H0, H1, ⟨%e2, H2⟩, ⟨%es, HS⟩⟩
  isplitl [HS Hb]
  · isplitl [HS]
    · iexists _; unfold owns; iexists _; isplitr
      swap; · iexact HS
      ipureintro; rfl
    iexact Hb
  isplitl [Ho]; · iexact Ho
  isplitl [H0]; · iexact H0
  isplitl [H1]; · iexact H1
  unfold owns; iexists _; isplitr
  swap; · iexact H2
  ipureintro; exact View.read_writes_of_cover _ _ _ _ _ (coverO11 V c t)

theorem body_obligation11 (c : Dev nD) : BodyObligation (dat11 V c) (defs₀ (F := F)) Variants.none () Set.univ := fun t => by
  rw [bigSep_W11, bigSep_W11]
  exact sound_body11 V c t

/-! ## The region over the thread state -/

variable (Vp : (c : Dev nD) → (b : Ref sig .tc) → Buf (Elt F) ((c : Thread nD τ).loc b))
variable (pdats : (p : Fin 22) → (c : Dev nD) → Dat τ (Elt F) Unit ℕ (UR sig nD τ × Counters) ℕ (cfgs p) c)

/-- The result's array after the region, as the pipeline library computes it from the proof data. -/
def out11arr (c : Dev nD) : Buf (Elt F) ((c : Thread nD τ).loc main_v28) := (dat11 V c).arrAt 2 cfg11.N

set_option backward.isDefEq.respectTransparency.types false in
set_option maxHeartbeats 2000000 in
/-- Launch 11 over the thread state "every unscoped buffer at `V c`, the core owing nothing": entered by
    splitting its three arrays out of the unscoped buffers, left with them put back at `Vp c`, which has the
    result's array at `out11arr` and agrees with `V c` elsewhere. -/
def reg11 (hp : ∀ c, pdats 11 c = dat11 V c)
    (hVp_out : ∀ c, Vp c main_v28 = out11arr V c)
    (hVp_ne : ∀ c (b : Ref sig .tc), b ≠ main_v28 → Vp c b = V c b) :
    Pipeline.RegionSeg (pcfgs (F := F)) (fun p => (cfgs p).toPCfg_adm) pdats () defs₀ Variants.none (fun _ => (∅ : Finset Unit)) (fun _ _ => (0 : ℕ)) 11 where
  win := launch11.win.to₀
  block_pos := launch11.block_pos
  stage_whole := launch11.stage_whole
  K := PEmpty
  osem k := k.elim
  ho := Pipeline.OwnSemFacts.none _
  hbody c := by rw [hp c]; exact (body_obligation11 V c).loose
  hwaits := Pipeline.hwaits_of_owed_zero _ _ _ _ _ _ 11 fun c t => by rw [hp c]; rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ × Counters) (Lvl := ℕ) spec11 c (V c)
  hentry c := by
    rw [Pipeline.ownSems0_none]
    have hsplit := Pipeline.arrays_of_unscopedBufs (p := 11) (pcfgs (F := F)) (fun p => (cfgs p).toPCfg_adm) pdats launch11.win launch11.arr_whole c
      ((pdats 11 c).share_full fun w => by rw [hp c]; rfl) (V c) (fun w => by rw [hp c]; rfl)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hp c]; exact trivial)
      rw [show (pdats 11 c).owed 0 = 0 from by rw [hp c]; rfl]
      iexact HO
    isplitr; · iempintro
    iexact Hrest
  hin c := by
    rw [hp c, show (dat11 V c).Φ 0 = Pipeline.scopedRest (Ix := Unit) (Name := ℕ) (U := UR sig nD τ × Counters) (Lvl := ℕ) (Val := Elt F) spec11 c from rfl]
    iintro ⟨-, -, Hr⟩; iexact Hr
  hout c := by
    rw [Pipeline.ownSems0_none, hp c]
    change (Pipeline.scopedRest (Ix := Unit) (Name := ℕ) (U := UR sig nD τ × Counters) (Lvl := ℕ) (Val := Elt F) spec11 c : sProp 𝕄) ⊢ _
    iintro Hr
    isplitr; · iempintro
    isplitr; · iempintro
    iexact Hr
  hexit c := by
    have hjoin := Pipeline.unscopedBufs_of_arrays (p := 11) (pcfgs (F := F)) (fun p => (cfgs p).toPCfg_adm) (Ix := Unit) (Name := ℕ) (U := UR sig nD τ × Counters) (Lvl := ℕ) launch11.win launch11.arr_whole c
      pdats ((pdats 11 c).share_full fun w => by rw [hp c]; rfl) (V c) (Vp c) ((pdats 11 c).arrAt · cfg11.N)
      (fun w => by
        fin_cases w
        · exact (((pdats 11 c).arrAt_in 0 rfl _).trans (by rw [hp c]; rfl)).trans (hVp_ne c main_v27 (by decide)).symm
        · exact (((pdats 11 c).arrAt_in 1 rfl _).trans (by rw [hp c]; rfl)).trans (hVp_ne c main_v24 (by decide)).symm
        · exact (by rw [hp c]; rfl : (pdats 11 c).arrAt 2 cfg11.N = out11arr V c).trans (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W
    rw [show (pdats 11 c).owed (Fin.last _) = 0 from by rw [hp c]; rfl]
    iexact HO

end Cert.Kernel.Hand

end
-- ==== Proof.KB.R12Base.lean ====
/-
  Launch 12 of the program: one matrix product per grid point — the contraction is a single block —, from which the
  output block is stored at every point. The grid's third coordinate is always 0, so both conditions of the body —
  "the contraction's first block" and "its last block" — hold at every point: this module decides them over the
  grid's points, records that no window is ever idle, and names the staging memrefs the body is called with.
-/
import proofs.«113214_j66838281060556_2_alg».proof.Proof.Gen.Kernel.Launch
import proofs.«113214_j66838281060556_2_alg».proof.Proof.Gen.Kernel.Skeleton
import proofs.«113214_j66838281060556_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

/-- The accumulator is reset: the point starts a contraction (third grid coordinate 0). Here the third axis has one
    coordinate, so every point does. -/
abbrev cond12_0 (i : grid12.Coords) : Prop := (Scalar.cmpi .ne (Scalar.extui (Scalar.cmpi .eq (BitVec.ofNat 32 (i 2).val) 0#32)) 0#32) = 1#1
theorem hcond12_0 : ∀ t : Fin cfg12.N, cond12_0 (grid12.coords t) :=
  (by decide +kernel : ∀ t : Fin grid12.N, cond12_0 (grid12.coords t))

/-- The result is stored: the point ends a contraction. Every point does. -/
abbrev cond12_1 (i : grid12.Coords) : Prop := k12_cond2 i = 1#1
theorem hcond12_1 : ∀ t : Fin cfg12.N, cond12_1 (grid12.coords t) :=
  (by decide +kernel : ∀ t : Fin grid12.N, cond12_1 (grid12.coords t))

/-- No window is idle at any point: the two inputs never, the output because every point stores. -/
theorem liveAt12_0 : ∀ t : Fin cfg12.N, cfg12.idle 0 (grid12.coords t) = false := by decide +kernel
theorem liveAt12_1 : ∀ t : Fin cfg12.N, cfg12.idle 1 (grid12.coords t) = false := by decide +kernel
theorem liveAt12_2 : ∀ t : Fin cfg12.N, cfg12.idle 2 (grid12.coords t) = false := by decide +kernel

/-- Each window's current staging memref at a point, as the pipeline passes it, and its wholeness. -/
abbrev ms12_0 (t : Fin cfg12.N) : Memref sig .tc .vmem S1024x819 .f32 := win12_0.stage (cfg12.slots t 0)
abbrev hs12_0 (t : Fin cfg12.N) : (ms12_0 t).IsWhole := hstage12_0 ((cfg12.slots t 0).cast nbuf12_0)
abbrev ms12_1 (t : Fin cfg12.N) : Memref sig .tc .vmem S819x819 .f32 := win12_1.stage (cfg12.slots t 1)
abbrev hs12_1 (t : Fin cfg12.N) : (ms12_1 t).IsWhole := hstage12_1 ((cfg12.slots t 1).cast nbuf12_1)
abbrev ms12_2 (t : Fin cfg12.N) : Memref sig .tc .vmem S1024x819 .bf16 := win12_2.stage (cfg12.slots t 2)
abbrev hs12_2 (t : Fin cfg12.N) : (ms12_2 t).IsWhole := hstage12_2 ((cfg12.slots t 2).cast nbuf12_2)
/-- The accumulator: a whole scoped buffer of the launch's own. -/
abbrev scM12 : Memref sig .tc .vmem S1024x819 .f32 := Memref.whole cc12_scratch0
abbrev VS12 : View sig .tc .vmem S1024x819 .f32 := scM12.view

end Cert.Kernel.Hand

end
-- ==== Proof.KB.R12Run.lean ====
/-
  Launch 12, the body run symbolically in its one control case: the accumulator reset, the product added, the output
  block stored from the sum. The run's witnesses are the lists of pieces its stores leave in the output block and in
  the accumulator.
-/
import proofs.«113214_j66838281060556_2_alg».proof.Proof.KB.R12Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

set_option maxHeartbeats 2000000 in
/-- The body at a point, run symbolically: the accumulator, found at anything, is reset and ends at the product of
    the two input blocks added to it; the output block, found at anything, is stored whole from that sum. The
    witnesses are the pieces the stores leave in the output block and in the accumulator. -/
noncomputable def run12 (c : Dev nD) (i : grid12.Coords) (arg3 : Memref sig .tc .vmem S1024x819 .f32) (harg3 : arg3.IsWhole) (arg4 : Memref sig .tc .vmem S819x819 .f32) (harg4 : arg4.IsWhole) (arg5 : Memref sig .tc .vmem S1024x819 .bf16) (harg5 : arg5.IsWhole) (arg6 : Memref sig .tc .vmem S1024x819 .f32) (harg6 : arg6.IsWhole) (hc0 : cond12_0 i) (hc1 : cond12_1 i)
    (x0 : Vec F S1024x819 .f32) (x1 : Vec F S819x819 .f32) :
    Σ' (LO : List (View.Piece (Elt F) S1024x819 .bf16)), { LS : List (View.Piece (Elt F) S1024x819 .f32) //
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc12__mm_kernel i arg3 harg3 arg4 harg4 arg5 harg5 arg6 harg6) K } := by
  refine ⟨?_, ?_, fun E K => ?run⟩
  case run =>
    simp only [cc12__mm_kernel_eq_skeleton]; unfold cc12__mm_kernel_skel
    unfold owns
    iintro ⟨⟨%f0, %hf0, H0⟩, ⟨%f1, %hf1, H1⟩, ⟨%d2, %f2, -, H2⟩, ⟨%ds, %fs, -, HS⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact HS

end Cert.Kernel.Hand

end
-- ==== Proof.KB.R12.lean ====
/-
  Launch 12 as a region of the program. The blocks the windows stage are read off the arrays as the region finds
  them; a point stores the output block its run leaves; the accumulator is reset at every point, so between points
  the launch's scoped buffers that no window stages are simply held whole at anything; the body obligation follows
  from the one symbolic run; and the region is stated over the thread state "every unscoped buffer at given
  contents, the core owing nothing", entered by splitting the three arrays out and left with the result's array
  at what the pipeline computes from the stored blocks.
-/
import proofs.«113214_j66838281060556_2_alg».proof.Proof.KB.R12Run
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

variable (V : (c : Dev nD) → (b : Ref sig .tc) → Buf (Elt F) ((c : Thread nD τ).loc b))

/-! ## The blocks the windows stage -/

/-- Window `w`'s block at point `t`, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- A view of the output's staging buffer, through which contents are stated. -/
abbrev VO12 : View sig .tc .vmem S1024x819 .bf16 := (Memref.whole cc12_stg2_0 : Memref sig .tc .vmem S1024x819 .bf16).view

/-! ## What a point leaves -/

/-- The output block a point stores: what the run's pieces leave, read through the staging buffer's view. -/
def out12 (c : Dev nD) (t : Fin cfg12.N) : Vec F S1024x819 .bf16 :=
  VO12.read (Elt F) (VO12.writes (Elt F) VO12.junk (run12 c (grid12.coords t) (ms12_0 t) (hs12_0 t) (ms12_1 t) (hs12_1 t) (ms12_2 t) (hs12_2 t) scM12 (Memref.isWhole_whole _) (hcond12_0 t) (hcond12_1 t) (iblk12 V c 0 t) (iblk12 V c 1 t)).1)

/-- The stores into the output block cover it. -/
theorem coverO12 (c : Dev nD) (t : Fin cfg12.N) (y : S1024x819.Idx) :
    ∃ pc ∈ (run12 c (grid12.coords t) (ms12_0 t) (hs12_0 t) (ms12_1 t) (hs12_1 t) (ms12_2 t) (hs12_2 t) scM12 (Memref.isWhole_whole _) (hcond12_0 t) (hcond12_1 t) (iblk12 V c 0 t) (iblk12 V c 1 t)).1, y ∈ pc.1.set :=
  View.cover_of_tiledL _ S1024x819.size (by sl_kernel_rfl) y

/-! ## The invariant between points -/

/-- The scoped rest with the accumulator split out as a memref owned at some contents. The accumulator is reset at
    every point, so the invariant between points is the scoped rest itself, the accumulator at anything. -/
theorem scopedRest12_eq (c : Dev nD) :
    (Pipeline.scopedRest (Ix := Unit) (Name := ℕ) (U := UR sig nD τ × Counters) (Lvl := ℕ) (Val := Elt F) spec12 c : sProp 𝕄)
      = iprop((∃ d, owns (c : Thread nD τ) scM12 fullShare d)
          ∗ Pipeline.scopedRestBut (Ix := Unit) (Name := ℕ) (U := UR sig nD τ × Counters) (Lvl := ℕ) (Val := Elt F) spec12 c [cc12_scratch0]) := by
  rw [scopedRest12_split]; simp only [scM12, owns_whole]; try rfl

/-! ## The proof data -/

def dat12 (c : Dev nD) : Dat τ (Elt F) Unit ℕ (UR sig nD τ × Counters) ℕ cfg12 c where
  A w := V c (Pipeline.arrRef spec12 w)
  after w t := match w with
    | ⟨0, _⟩ => iblk12 V c 0 t
    | ⟨1, _⟩ => iblk12 V c 1 t
    | ⟨2, _⟩ => out12 V c t
  Φ _ := Pipeline.scopedRest (Ix := Unit) (Name := ℕ) (U := UR sig nD τ × Counters) (Lvl := ℕ) (Val := Elt F) spec12 c
  q _ := fullShare
  owed _ := 0

theorem A12_eq (c : Dev nD) (w : Fin cfg12.W) : (dat12 V c).A w = V c (Pipeline.arrRef spec12 w) := by
  dsimp only [dat12]
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = out12 V c t := by dsimp only [dat12]

/-- Each input window's current staging buffer holds its block at every point, fetched there or not. -/
theorem before12_0 (c : Dev nD) (t : Fin cfg12.N) (d) : (dat12 V c).before 0 t d = iblk12 V c 0 t :=
  ((dat12 V c).before_in_eq_fetched 0 rfl (fun _ => rfl) (fun _ _ _ => rfl) (fun t => by rw [after12_0]; unfold Dat.blockOf iblk12; rw [A12_eq]; try rfl) t d).trans
    (by unfold Dat.fetched Dat.blockOf iblk12; rw [A12_eq]; try rfl)
theorem before12_1 (c : Dev nD) (t : Fin cfg12.N) (d) : (dat12 V c).before 1 t d = iblk12 V c 1 t :=
  ((dat12 V c).before_in_eq_fetched 1 rfl (fun _ => rfl) (fun _ _ _ => rfl) (fun t => by rw [after12_1]; unfold Dat.blockOf iblk12; rw [A12_eq]; try rfl) t d).trans
    (by unfold Dat.fetched Dat.blockOf iblk12; rw [A12_eq]; try rfl)

/-! ## The body obligation at a generic point -/

def bodyPre12 (c : Dev nD) (t : Fin cfg12.N) : sProp 𝕄 :=
  iprop((dat12 V c).Φ t.castSucc ∗ (dat12 V c).owesAt () t.castSucc
    ∗ (∃ d, owns (c : Thread nD τ) (ms12_0 t) fullShare ((dat12 V c).before 0 t d))
    ∗ (∃ d, owns (c : Thread nD τ) (ms12_1 t) fullShare ((dat12 V c).before 1 t d))
    ∗ (∃ d, owns (c : Thread nD τ) (ms12_2 t) fullShare ((dat12 V c).before 2 t d)))

def bodyPost12 (c : Dev nD) (t : Fin cfg12.N) : sProp 𝕄 :=
  iprop((dat12 V c).Φ t.succ ∗ (dat12 V c).owesAt () t.succ
    ∗ (dat12 V c).leavesExact 0 t ∗ (dat12 V c).leavesExact 1 t ∗ (dat12 V c).leavesExact 2 t)

set_option maxHeartbeats 4000000 in
/-- The body at any point. The two input buffers hold their blocks; the invariant hands over the accumulator at
    anything and takes it back at anything; the output buffer, found at anything, is handed back at the block the
    point stores; the core owes nothing throughout. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).owesAt () t.succ = (dat12 V c).owesAt () t.castSucc from rfl]
  rw [show (dat12 V c).Φ t.succ = Pipeline.scopedRest (Ix := Unit) (Name := ℕ) (U := UR sig nD τ × Counters) (Lvl := ℕ) (Val := Elt F) spec12 c from rfl,
    show (dat12 V c).Φ t.castSucc = Pipeline.scopedRest (Ix := Unit) (Name := ℕ) (U := UR sig nD τ × Counters) (Lvl := ℕ) (Val := Elt F) spec12 c from rfl]
  rw [show (dat12 V c).leavesExact 0 t = owns (c : Thread nD τ) (ms12_0 t) fullShare (iblk12 V c 0 t) from by
    unfold Dat.leavesExact; rw [liveAt12_0 t, after12_0]]
  rw [show (dat12 V c).leavesExact 1 t = owns (c : Thread nD τ) (ms12_1 t) fullShare (iblk12 V c 1 t) from by
    unfold Dat.leavesExact; rw [liveAt12_1 t, after12_1]]
  rw [show (dat12 V c).leavesExact 2 t = owns (c : Thread nD τ) (ms12_2 t) fullShare (out12 V c t) from by
    unfold Dat.leavesExact; rw [liveAt12_2 t, after12_2]]
  rw [scopedRest12_eq]
  unfold out12
  iintro ⟨⟨HS, Hb⟩, Ho, ⟨%d0, H0⟩, ⟨%d1, H1⟩, ⟨%d2, H2⟩⟩
  iapply ((run12 c (grid12.coords t) (ms12_0 t) (hs12_0 t) (ms12_1 t) (hs12_1 t) (ms12_2 t) (hs12_2 t) scM12 (Memref.isWhole_whole _) (hcond12_0 t) (hcond12_1 t) (iblk12 V c 0 t) (iblk12 V c 1 t)).2.2 Set.univ _)
  isplitl [H0]; · iexact H0
  isplitl [H1]; · iexact H1
  isplitl [H2]; · iexists _; iexact H2
  isplitl [HS]; · iexact HS
  iintro ⟨H0, H1, ⟨%e2, H2⟩, ⟨%es, HS⟩⟩
  isplitl [HS Hb]
  · isplitl [HS]
    · iexists _; unfold owns; iexists _; isplitr
      swap; · iexact HS
      ipureintro; rfl
    iexact Hb
  isplitl [Ho]; · iexact Ho
  isplitl [H0]; · iexact H0
  isplitl [H1]; · iexact H1
  unfold owns; iexists _; isplitr
  swap; · iexact H2
  ipureintro; exact View.read_writes_of_cover _ _ _ _ _ (coverO12 V c t)

theorem body_obligation12 (c : Dev nD) : BodyObligation (dat12 V c) (defs₀ (F := F)) Variants.none () Set.univ := fun t => by
  rw [bigSep_W12, bigSep_W12]
  exact sound_body12 V c t

/-! ## The region over the thread state -/

variable (Vp : (c : Dev nD) → (b : Ref sig .tc) → Buf (Elt F) ((c : Thread nD τ).loc b))
variable (pdats : (p : Fin 22) → (c : Dev nD) → Dat τ (Elt F) Unit ℕ (UR sig nD τ × Counters) ℕ (cfgs p) c)

/-- The result's array after the region, as the pipeline library computes it from the proof data. -/
def out12arr (c : Dev nD) : Buf (Elt F) ((c : Thread nD τ).loc main_v29) := (dat12 V c).arrAt 2 cfg12.N

set_option backward.isDefEq.respectTransparency.types false in
set_option maxHeartbeats 2000000 in
/-- Launch 12 over the thread state "every unscoped buffer at `V c`, the core owing nothing": entered by
    splitting its three arrays out of the unscoped buffers, left with them put back at `Vp c`, which has the
    result's array at `out12arr` and agrees with `V c` elsewhere. -/
def reg12 (hp : ∀ c, pdats 12 c = dat12 V c)
    (hVp_out : ∀ c, Vp c main_v29 = out12arr V c)
    (hVp_ne : ∀ c (b : Ref sig .tc), b ≠ main_v29 → Vp c b = V c b) :
    Pipeline.RegionSeg (pcfgs (F := F)) (fun p => (cfgs p).toPCfg_adm) pdats () defs₀ Variants.none (fun _ => (∅ : Finset Unit)) (fun _ _ => (0 : ℕ)) 12 where
  win := launch12.win.to₀
  block_pos := launch12.block_pos
  stage_whole := launch12.stage_whole
  K := PEmpty
  osem k := k.elim
  ho := Pipeline.OwnSemFacts.none _
  hbody c := by rw [hp c]; exact (body_obligation12 V c).loose
  hwaits := Pipeline.hwaits_of_owed_zero _ _ _ _ _ _ 12 fun c t => by rw [hp c]; rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ × Counters) (Lvl := ℕ) spec12 c (V c)
  hentry c := by
    rw [Pipeline.ownSems0_none]
    have hsplit := Pipeline.arrays_of_unscopedBufs (p := 12) (pcfgs (F := F)) (fun p => (cfgs p).toPCfg_adm) pdats launch12.win launch12.arr_whole c
      ((pdats 12 c).share_full fun w => by rw [hp c]; rfl) (V c) (fun w => by rw [hp c]; rfl)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hp c]; exact trivial)
      rw [show (pdats 12 c).owed 0 = 0 from by rw [hp c]; rfl]
      iexact HO
    isplitr; · iempintro
    iexact Hrest
  hin c := by
    rw [hp c, show (dat12 V c).Φ 0 = Pipeline.scopedRest (Ix := Unit) (Name := ℕ) (U := UR sig nD τ × Counters) (Lvl := ℕ) (Val := Elt F) spec12 c from rfl]
    iintro ⟨-, -, Hr⟩; iexact Hr
  hout c := by
    rw [Pipeline.ownSems0_none, hp c]
    change (Pipeline.scopedRest (Ix := Unit) (Name := ℕ) (U := UR sig nD τ × Counters) (Lvl := ℕ) (Val := Elt F) spec12 c : sProp 𝕄) ⊢ _
    iintro Hr
    isplitr; · iempintro
    isplitr; · iempintro
    iexact Hr
  hexit c := by
    have hjoin := Pipeline.unscopedBufs_of_arrays (p := 12) (pcfgs (F := F)) (fun p => (cfgs p).toPCfg_adm) (Ix := Unit) (Name := ℕ) (U := UR sig nD τ × Counters) (Lvl := ℕ) launch12.win launch12.arr_whole c
      pdats ((pdats 12 c).share_full fun w => by rw [hp c]; rfl) (V c) (Vp c) ((pdats 12 c).arrAt · cfg12.N)
      (fun w => by
        fin_cases w
        · exact (((pdats 12 c).arrAt_in 0 rfl _).trans (by rw [hp c]; rfl)).trans (hVp_ne c main_v24 (by decide)).symm
        · exact (((pdats 12 c).arrAt_in 1 rfl _).trans (by rw [hp c]; rfl)).trans (hVp_ne c main_arg23 (by decide)).symm
        · exact (by rw [hp c]; rfl : (pdats 12 c).arrAt 2 cfg12.N = out12arr V c).trans (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W
    rw [show (pdats 12 c).owed (Fin.last _) = 0 from by rw [hp c]; rfl]
    iexact HO

end Cert.Kernel.Hand

end
-- ==== Proof.KB.R13Base.lean ====
/-
  Launch 13 of the program: a matrix product accumulated over the third grid axis (grid 4 × 1 × 4: four row blocks,
  four contraction blocks), stored — with no bias and no activation — when
  the last block has been added. This module names the two conditions of the body on the grid point ("the
  contraction's first block", "its last block"), decides them over the sixteen points, and records where the
  output window is idle and where its block is written back.
-/
import proofs.«113214_j66838281060556_2_alg».proof.Proof.Gen.Kernel.Launch
import proofs.«113214_j66838281060556_2_alg».proof.Proof.Gen.Kernel.Skeleton
import proofs.«113214_j66838281060556_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

/-- The accumulator is reset: the point starts a contraction (third grid coordinate 0). -/
abbrev cond13_0 (i : grid13.Coords) : Prop := (Scalar.cmpi .ne (Scalar.extui (Scalar.cmpi .eq (BitVec.ofNat 32 (i 2).val) 0#32)) 0#32) = 1#1
theorem hcond13_0 : ∀ t : Fin cfg13.N, cond13_0 (grid13.coords t) ↔ t.val % 4 = 0 :=
  (by decide +kernel : ∀ t : Fin grid13.N, cond13_0 (grid13.coords t) ↔ t.val % 4 = 0)

/-- The result is stored: the point ends a contraction (third grid coordinate 3). -/
abbrev cond13_1 (i : grid13.Coords) : Prop := k13_cond2 i = 1#1
theorem hcond13_1 : ∀ t : Fin cfg13.N, cond13_1 (grid13.coords t) ↔ t.val % 4 = 3 :=
  (by decide +kernel : ∀ t : Fin grid13.N, cond13_1 (grid13.coords t) ↔ t.val % 4 = 3)

/-- The two input windows are never idle. -/
theorem liveAt13_0 : ∀ t : Fin cfg13.N, cfg13.idle 0 (grid13.coords t) = false := by decide +kernel
theorem liveAt13_1 : ∀ t : Fin cfg13.N, cfg13.idle 1 (grid13.coords t) = false := by decide +kernel
/-- Away from a contraction's last block the output window is idle and its block is not written back. -/
theorem idleAt13_2 : ∀ t : Fin cfg13.N, ¬cond13_1 (grid13.coords t) → cfg13.idle 2 (grid13.coords t) = true := by decide +kernel
theorem noFlush13_2 : ∀ t : Fin cfg13.N, ¬cond13_1 (grid13.coords t) → (cfg13.win 2).flush t = false := by decide +kernel
/-- At a contraction's last block the output window is live. -/
theorem liveAt13_2 : ∀ t : Fin cfg13.N, cond13_1 (grid13.coords t) → cfg13.idle 2 (grid13.coords t) = false := by decide +kernel

/-- Each window's current staging memref at a point, as the pipeline passes it, and its wholeness. -/
abbrev ms13_0 (t : Fin cfg13.N) : Memref sig .tc .vmem S1024x1024 .bf16 := win13_0.stage (cfg13.slots t 0)
abbrev hs13_0 (t : Fin cfg13.N) : (ms13_0 t).IsWhole := hstage13_0 ((cfg13.slots t 0).cast nbuf13_0)
abbrev ms13_1 (t : Fin cfg13.N) : Memref sig .tc .vmem S1024x819 .bf16 := win13_1.stage (cfg13.slots t 1)
abbrev hs13_1 (t : Fin cfg13.N) : (ms13_1 t).IsWhole := hstage13_1 ((cfg13.slots t 1).cast nbuf13_1)
abbrev ms13_2 (t : Fin cfg13.N) : Memref sig .tc .vmem S1024x819 .bf16 := win13_2.stage (cfg13.slots t 2)
abbrev hs13_2 (t : Fin cfg13.N) : (ms13_2 t).IsWhole := hstage13_2 ((cfg13.slots t 2).cast nbuf13_2)
/-- The accumulator: a whole scoped buffer of the launch's own. -/
abbrev scM13 : Memref sig .tc .vmem S1024x819 .f32 := Memref.whole cc13_scratch0
abbrev VS13 : View sig .tc .vmem S1024x819 .f32 := scM13.view

end Cert.Kernel.Hand

end
-- ==== Proof.KB.R13Run.lean ====
/-
  Launch 13, the body run symbolically in each of its three control cases: the first block of a contraction
  (the accumulator reset, then the first product added), a middle block (the product added), the last block
  (the product added, then the sum stored into the output block in the output's format). Each run's witness
  is the list of pieces its stores leave in the accumulator (and, in the last case, in the output block).
-/
import proofs.«113214_j66838281060556_2_alg».proof.Proof.KB.R13Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

set_option maxHeartbeats 2000000 in
/-- The first block of a contraction that is not also its last: the accumulator, found at anything, is reset to
    zero and ends at the product of the two input blocks added to zero; the idle output block is handed back
    untouched. The pieces written into the accumulator are the witness the symbolic run finds. -/
noncomputable def run13_A (c : Dev nD) (i : grid13.Coords) (arg3 : Memref sig .tc .vmem S1024x1024 .bf16) (harg3 : arg3.IsWhole) (arg4 : Memref sig .tc .vmem S1024x819 .bf16) (harg4 : arg4.IsWhole) (arg5 : Memref sig .tc .vmem S1024x819 .bf16) (harg5 : arg5.IsWhole) (arg6 : Memref sig .tc .vmem S1024x819 .f32) (harg6 : arg6.IsWhole) (hc0 : cond13_0 i) (hc1 : ¬cond13_1 i)
    (x0 : Vec F S1024x1024 .bf16) (x1 : Vec F S1024x819 .bf16) :
    { LS : List (View.Piece (Elt F) S1024x819 .f32) //
      ∀ (xi : Vec F S1024x819 .bf16) (E : Set ℕ) (K : PUnit → sProp 𝕄),
        iprop(owns (c : Thread nD τ) arg3 fullShare x0 ∗ owns (c : Thread nD τ) arg4 fullShare x1 ∗ owns (c : Thread nD τ) arg5 fullShare xi ∗ (∃ d, owns (c : Thread nD τ) arg6 fullShare d)
            ∗ (iprop(owns (c : Thread nD τ) arg3 fullShare x0 ∗ owns (c : Thread nD τ) arg4 fullShare x1 ∗ owns (c : Thread nD τ) arg5 fullShare xi
                ∗ (∃ f, arg6.view.loc (c : Thread nD τ) ↦[arg6.view.set]{fullShare} arg6.view.writes (Elt F) f LS)) -∗ K ⟨⟩))
          ⊢ wp frame (wpE (defs₀ (F := F)) Variants.none c none) E (cc13__mm_kernel i arg3 harg3 arg4 harg4 arg5 harg5 arg6 harg6) K } := by
  refine ⟨?_, fun xi E K => ?run⟩
  case run =>
    simp only [cc13__mm_kernel_eq_skeleton]; unfold cc13__mm_kernel_skel
    unfold owns
    iintro ⟨⟨%f0, %hf0, H0⟩, ⟨%f1, %hf1, H1⟩, ⟨%f3, %hf3, H3⟩, ⟨%ds, %fs, -, HS⟩, Hk⟩
    obtain rfl := harg3.eq_unread hf0; obtain rfl := harg4.eq_unread hf1; obtain rfl := harg5.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H3]
    · iexists _; isplitr; · ipureintro; exact harg5.read_unread _
      iexact H3
    iexists _; iexact HS

set_option maxHeartbeats 2000000 in
/-- A middle block of a contraction: the accumulator, found at `xs`, ends at the product of the two input
    blocks added to `xs`; the idle output block is handed back untouched. -/
noncomputable def run13_B (c : Dev nD) (i : grid13.Coords) (arg3 : Memref sig .tc .vmem S1024x1024 .bf16) (harg3 : arg3.IsWhole) (arg4 : Memref sig .tc .vmem S1024x819 .bf16) (harg4 : arg4.IsWhole) (arg5 : Memref sig .tc .vmem S1024x819 .bf16) (harg5 : arg5.IsWhole) (arg6 : Memref sig .tc .vmem S1024x819 .f32) (harg6 : arg6.IsWhole) (hc0 : ¬cond13_0 i) (hc1 : ¬cond13_1 i)
    (x0 : Vec F S1024x1024 .bf16) (x1 : Vec F S1024x819 .bf16) (xs : Vec F S1024x819 .f32) :
    { LS : List (View.Piece (Elt F) S1024x819 .f32) //
      ∀ (xi : Vec F S1024x819 .bf16) (E : Set ℕ) (K : PUnit → sProp 𝕄),
        iprop(owns (c : Thread nD τ) arg3 fullShare x0 ∗ owns (c : Thread nD τ) arg4 fullShare x1 ∗ owns (c : Thread nD τ) arg5 fullShare xi ∗ owns (c : Thread nD τ) arg6 fullShare xs
            ∗ (iprop(owns (c : Thread nD τ) arg3 fullShare x0 ∗ owns (c : Thread nD τ) arg4 fullShare x1 ∗ owns (c : Thread nD τ) arg5 fullShare xi
                ∗ (∃ f, arg6.view.loc (c : Thread nD τ) ↦[arg6.view.set]{fullShare} arg6.view.writes (Elt F) f LS)) -∗ K ⟨⟩))
          ⊢ wp frame (wpE (defs₀ (F := F)) Variants.none c none) E (cc13__mm_kernel i arg3 harg3 arg4 harg4 arg5 harg5 arg6 harg6) K } := by
  refine ⟨?_, fun xi E K => ?run⟩
  case run =>
    simp only [cc13__mm_kernel_eq_skeleton]; unfold cc13__mm_kernel_skel
    unfold owns
    iintro ⟨⟨%f0, %hf0, H0⟩, ⟨%f1, %hf1, H1⟩, ⟨%f3, %hf3, H3⟩, ⟨%fs, %hfs, HS⟩, Hk⟩
    obtain rfl := harg3.eq_unread hf0; obtain rfl := harg4.eq_unread hf1; obtain rfl := harg5.eq_unread hf3
    obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H3]
    · iexists _; isplitr; · ipureintro; exact harg5.read_unread _
      iexact H3
    iexists _; iexact HS

set_option maxHeartbeats 2000000 in
/-- The last block of a contraction that is not also its first: the accumulator, found at `xs`, ends at the
    product of the two input blocks added to `xs`, and the output block, found at anything, is stored whole:
    that sum in the output's format. -/
noncomputable def run13_C (c : Dev nD) (i : grid13.Coords) (arg3 : Memref sig .tc .vmem S1024x1024 .bf16) (harg3 : arg3.IsWhole) (arg4 : Memref sig .tc .vmem S1024x819 .bf16) (harg4 : arg4.IsWhole) (arg5 : Memref sig .tc .vmem S1024x819 .bf16) (harg5 : arg5.IsWhole) (arg6 : Memref sig .tc .vmem S1024x819 .f32) (harg6 : arg6.IsWhole) (hc0 : ¬cond13_0 i) (hc1 : cond13_1 i)
    (x0 : Vec F S1024x1024 .bf16) (x1 : Vec F S1024x819 .bf16) (xs : Vec F S1024x819 .f32) :
    Σ' (LO : List (View.Piece (Elt F) S1024x819 .bf16)), { LS : List (View.Piece (Elt F) S1024x819 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc13__mm_kernel i arg3 harg3 arg4 harg4 arg5 harg5 arg6 harg6) K } := by
  refine ⟨?_, ?_, fun E K => ?run⟩
  case run =>
    simp only [cc13__mm_kernel_eq_skeleton]; unfold cc13__mm_kernel_skel
    unfold owns
    iintro ⟨⟨%f0, %hf0, H0⟩, ⟨%f1, %hf1, H1⟩, ⟨%d3, %f3, -, H3⟩, ⟨%fs, %hfs, HS⟩, Hk⟩
    obtain rfl := harg3.eq_unread hf0; obtain rfl := harg4.eq_unread hf1
    obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H3]
    · iexists _; iexact H3
    iexists _; iexact HS

end Cert.Kernel.Hand

end
-- ==== Proof.KB.R13.lean ====
/-
  Launch 13 as a segment of the program: the product A·B of a graph matrix with the right
  factor, computed block by block on the grid 4 × 1 × 4 with an accumulator carried along the contraction and
  stored in the output's format when a contraction ends. What the accumulator and the output block hold after
  each point is defined by recursion on the point; the invariant between points is the accumulator at that value
  beside the launch's other scoped buffers; the proof data states each window's block after the body; the body
  obligation is the three symbolic runs put together by cases on the point's position in its contraction; and
  the segment record enters the launch from a thread state holding every unscoped buffer at an entry valuation
  and leaves it at the valuation updated at the result's array.
-/
import proofs.«113214_j66838281060556_2_alg».proof.Proof.KB.R13Run
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

variable (V : (c : Dev nD) → (b : Ref sig .tc) → Buf (Elt F) ((c : Thread nD τ).loc b))

/-! ## The blocks the windows stage -/

/-- Window `w`'s block at point `t`, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- A view of the output's staging buffer and one of the accumulator, through which contents are stated. -/
abbrev VO13 : View sig .tc .vmem S1024x819 .bf16 := (Memref.whole cc13_stg2_0 : Memref sig .tc .vmem S1024x819 .bf16).view

/-! ## What each case leaves -/

/-- The accumulator after a first block. -/
def accA13 (c : Dev nD) (t : Fin cfg13.N) (h0 : t.val % 4 = 0) (h1 : ¬t.val % 4 = 3) : Vec F S1024x819 .f32 :=
  VS13.read (Elt F) (VS13.writes (Elt F) VS13.junk (run13_A c (grid13.coords t) (ms13_0 t) (hs13_0 t) (ms13_1 t) (hs13_1 t) (ms13_2 t) (hs13_2 t) scM13 (Memref.isWhole_whole _) ((hcond13_0 t).mpr h0) (fun h => h1 ((hcond13_1 t).mp h)) (iblk13 V c 0 t) (iblk13 V c 1 t)).1)
/-- The accumulator after a middle block, from what the point before left. -/
def accB13 (c : Dev nD) (t : Fin cfg13.N) (h0 : ¬t.val % 4 = 0) (h1 : ¬t.val % 4 = 3) (xs : Vec F S1024x819 .f32) : Vec F S1024x819 .f32 :=
  VS13.read (Elt F) (VS13.writes (Elt F) VS13.junk (run13_B c (grid13.coords t) (ms13_0 t) (hs13_0 t) (ms13_1 t) (hs13_1 t) (ms13_2 t) (hs13_2 t) scM13 (Memref.isWhole_whole _) (fun h => h0 ((hcond13_0 t).mp h)) (fun h => h1 ((hcond13_1 t).mp h)) (iblk13 V c 0 t) (iblk13 V c 1 t) xs).1)
/-- The accumulator after a last block, -/
def accC13 (c : Dev nD) (t : Fin cfg13.N) (h0 : ¬t.val % 4 = 0) (h1 : t.val % 4 = 3) (xs : Vec F S1024x819 .f32) : Vec F S1024x819 .f32 :=
  VS13.read (Elt F) (VS13.writes (Elt F) VS13.junk (run13_C c (grid13.coords t) (ms13_0 t) (hs13_0 t) (ms13_1 t) (hs13_1 t) (ms13_2 t) (hs13_2 t) scM13 (Memref.isWhole_whole _) (fun h => h0 ((hcond13_0 t).mp h)) ((hcond13_1 t).mpr h1) (iblk13 V c 0 t) (iblk13 V c 1 t) xs).2.1)
/-- and the output block stored there. -/
def outC13 (c : Dev nD) (t : Fin cfg13.N) (h0 : ¬t.val % 4 = 0) (h1 : t.val % 4 = 3) (xs : Vec F S1024x819 .f32) : Vec F S1024x819 .bf16 :=
  VO13.read (Elt F) (VO13.writes (Elt F) VO13.junk (run13_C c (grid13.coords t) (ms13_0 t) (hs13_0 t) (ms13_1 t) (hs13_1 t) (ms13_2 t) (hs13_2 t) scM13 (Memref.isWhole_whole _) (fun h => h0 ((hcond13_0 t).mp h)) ((hcond13_1 t).mpr h1) (iblk13 V c 0 t) (iblk13 V c 1 t) xs).1)

theorem coverA13 (c : Dev nD) (t : Fin cfg13.N) (h0 : t.val % 4 = 0) (h1 : ¬t.val % 4 = 3) (y : S1024x819.Idx) :
    ∃ pc ∈ (run13_A c (grid13.coords t) (ms13_0 t) (hs13_0 t) (ms13_1 t) (hs13_1 t) (ms13_2 t) (hs13_2 t) scM13 (Memref.isWhole_whole _) ((hcond13_0 t).mpr h0) (fun h => h1 ((hcond13_1 t).mp h)) (iblk13 V c 0 t) (iblk13 V c 1 t)).1, y ∈ pc.1.set :=
  View.cover_of_tiledL _ S1024x819.size (by sl_kernel_rfl) y
theorem coverB13 (c : Dev nD) (t : Fin cfg13.N) (h0 : ¬t.val % 4 = 0) (h1 : ¬t.val % 4 = 3) (xs : Vec F S1024x819 .f32) (y : S1024x819.Idx) :
    ∃ pc ∈ (run13_B c (grid13.coords t) (ms13_0 t) (hs13_0 t) (ms13_1 t) (hs13_1 t) (ms13_2 t) (hs13_2 t) scM13 (Memref.isWhole_whole _) (fun h => h0 ((hcond13_0 t).mp h)) (fun h => h1 ((hcond13_1 t).mp h)) (iblk13 V c 0 t) (iblk13 V c 1 t) xs).1, y ∈ pc.1.set :=
  View.cover_of_tiledL _ S1024x819.size (by sl_kernel_rfl) y
theorem coverCs13 (c : Dev nD) (t : Fin cfg13.N) (h0 : ¬t.val % 4 = 0) (h1 : t.val % 4 = 3) (xs : Vec F S1024x819 .f32) (y : S1024x819.Idx) :
    ∃ pc ∈ (run13_C c (grid13.coords t) (ms13_0 t) (hs13_0 t) (ms13_1 t) (hs13_1 t) (ms13_2 t) (hs13_2 t) scM13 (Memref.isWhole_whole _) (fun h => h0 ((hcond13_0 t).mp h)) ((hcond13_1 t).mpr h1) (iblk13 V c 0 t) (iblk13 V c 1 t) xs).2.1, y ∈ pc.1.set :=
  View.cover_of_tiledL _ S1024x819.size (by sl_kernel_rfl) y
theorem coverCo13 (c : Dev nD) (t : Fin cfg13.N) (h0 : ¬t.val % 4 = 0) (h1 : t.val % 4 = 3) (xs : Vec F S1024x819 .f32) (y : S1024x819.Idx) :
    ∃ pc ∈ (run13_C c (grid13.coords t) (ms13_0 t) (hs13_0 t) (ms13_1 t) (hs13_1 t) (ms13_2 t) (hs13_2 t) scM13 (Memref.isWhole_whole _) (fun h => h0 ((hcond13_0 t).mp h)) ((hcond13_1 t).mpr h1) (iblk13 V c 0 t) (iblk13 V c 1 t) xs).1, y ∈ pc.1.set :=
  View.cover_of_tiledL _ S1024x819.size (by sl_kernel_rfl) y

/-! ## The accumulation, point by point -/

/-- What the output's staging buffer (first component; meaningful at a contraction's last block only) and the
    accumulator (second component) hold after the body at position `n`. -/
def outsAt13 (c : Dev nD) : (n : ℕ) → n < cfg13.N → Vec F S1024x819 .bf16 × Vec F S1024x819 .f32
  | 0, hn => (VO13.read (Elt F) VO13.junk, accA13 V c ⟨0, hn⟩ (Nat.zero_mod _) (by simp))
  | n + 1, hn =>
    if h0 : (n + 1) % 4 = 0 then
      if h1 : (n + 1) % 4 = 3 then False.elim (by omega)
      else (VO13.read (Elt F) VO13.junk, accA13 V c ⟨n + 1, hn⟩ h0 h1)
    else
      if h1 : (n + 1) % 4 = 3 then
        (outC13 V c ⟨n + 1, hn⟩ h0 h1 (outsAt13 c n (Nat.lt_of_succ_lt hn)).2, accC13 V c ⟨n + 1, hn⟩ h0 h1 (outsAt13 c n (Nat.lt_of_succ_lt hn)).2)
      else
        (VO13.read (Elt F) VO13.junk, accB13 V c ⟨n + 1, hn⟩ h0 h1 (outsAt13 c n (Nat.lt_of_succ_lt hn)).2)

theorem outsAt13_A (c : Dev nD) (t : Fin cfg13.N) (h0 : t.val % 4 = 0) (h1 : ¬t.val % 4 = 3) :
    outsAt13 V c t.val t.isLt = (VO13.read (Elt F) VO13.junk, accA13 V c t h0 h1) := by
  obtain ⟨n, hn⟩ := t
  cases n with
  | zero => exact rfl
  | succ n => exact (dif_pos h0).trans ((dif_neg h1).trans rfl)

theorem outsAt13_B (c : Dev nD) (t : Fin cfg13.N) (h0 : ¬t.val % 4 = 0) (h1 : ¬t.val % 4 = 3) :
    outsAt13 V c t.val t.isLt = (VO13.read (Elt F) VO13.junk, accB13 V c t h0 h1 (outsAt13 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt13_C (c : Dev nD) (t : Fin cfg13.N) (h0 : ¬t.val % 4 = 0) (h1 : t.val % 4 = 3) :
    outsAt13 V c t.val t.isLt = (outC13 V c t h0 h1 (outsAt13 V c (t.val - 1) (Nat.lt_of_le_of_lt (Nat.sub_le _ _) t.isLt)).2,
      accC13 V c t h0 h1 (outsAt13 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant between points -/

/-- Before the first point the launch's scoped buffers that no window stages, whole; afterwards the accumulator at
    what the point before left, and the other such buffers unopened. -/
def PhiS13 (c : Dev nD) : (n : ℕ) → n ≤ cfg13.N → sProp 𝕄
  | 0, _ => Pipeline.scopedRest (Ix := Unit) (Name := ℕ) (U := UR sig nD τ × Counters) (Lvl := ℕ) (Val := Elt F) spec13 c
  | n + 1, hn => iprop(owns (c : Thread nD τ) scM13 fullShare (outsAt13 V c n hn).2
      ∗ Pipeline.scopedRestBut (Ix := Unit) (Name := ℕ) (U := UR sig nD τ × Counters) (Lvl := ℕ) (Val := Elt F) spec13 c [cc13_scratch0])

theorem PhiS13_pos (c : Dev nD) (n : ℕ) (h : n ≤ cfg13.N) (hz : n ≠ 0) :
    PhiS13 V c n h = iprop(owns (c : Thread nD τ) scM13 fullShare (outsAt13 V c (n - 1) (by omega)).2
      ∗ Pipeline.scopedRestBut (Ix := Unit) (Name := ℕ) (U := UR sig nD τ × Counters) (Lvl := ℕ) (Val := Elt F) spec13 c [cc13_scratch0]) := by
  cases n with
  | zero => exact absurd rfl hz
  | succ n => rfl

/-- The scoped rest with the accumulator split out as a memref owned at some contents. -/
theorem scopedRest13_eq (c : Dev nD) :
    (Pipeline.scopedRest (Ix := Unit) (Name := ℕ) (U := UR sig nD τ × Counters) (Lvl := ℕ) (Val := Elt F) spec13 c : sProp 𝕄)
      = iprop((∃ d, owns (c : Thread nD τ) scM13 fullShare d)
          ∗ Pipeline.scopedRestBut (Ix := Unit) (Name := ℕ) (U := UR sig nD τ × Counters) (Lvl := ℕ) (Val := Elt F) spec13 c [cc13_scratch0]) := by
  rw [scopedRest13_split]; simp only [scM13, owns_whole]; try rfl

/-! ## The proof data -/

def dat13 (c : Dev nD) : Dat τ (Elt F) Unit ℕ (UR sig nD τ × Counters) ℕ cfg13 c where
  A w := V c (Pipeline.arrRef spec13 w)
  after w t := match w with
    | ⟨0, _⟩ => iblk13 V c 0 t
    | ⟨1, _⟩ => iblk13 V c 1 t
    | ⟨2, _⟩ => (outsAt13 V c t.val t.isLt).1
  Φ t := PhiS13 V c t.val (Nat.le_of_lt_succ t.isLt)
  q _ := fullShare
  owed _ := 0

theorem A13_eq (c : Dev nD) (w : Fin cfg13.W) : (dat13 V c).A w = V c (Pipeline.arrRef spec13 w) := by
  dsimp only [dat13]
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = (outsAt13 V c t.val t.isLt).1 := by dsimp only [dat13]

theorem Phi13_castSucc (c : Dev nD) (t : Fin cfg13.N) :
    (dat13 V c).Φ t.castSucc = PhiS13 V c t.val (Nat.le_of_lt t.isLt) := by
  dsimp only [dat13]; simp only [Fin.coe_castSucc]

/-- Each input window's current staging buffer holds its block at every point, fetched there or not. -/
theorem before13_0 (c : Dev nD) (t : Fin cfg13.N) (d) : (dat13 V c).before 0 t d = iblk13 V c 0 t :=
  ((dat13 V c).before_in_eq_fetched 0 rfl (fun _ => rfl) (fun _ _ _ => rfl) (fun t => by rw [after13_0]; unfold Dat.blockOf iblk13; rw [A13_eq]; try rfl) t d).trans
    (by unfold Dat.fetched Dat.blockOf iblk13; rw [A13_eq]; try rfl)
theorem before13_1 (c : Dev nD) (t : Fin cfg13.N) (d) : (dat13 V c).before 1 t d = iblk13 V c 1 t :=
  ((dat13 V c).before_in_eq_fetched 1 rfl (fun _ => rfl) (fun _ _ _ => rfl) (fun t => by rw [after13_1]; unfold Dat.blockOf iblk13; rw [A13_eq]; try rfl) t d).trans
    (by unfold Dat.fetched Dat.blockOf iblk13; rw [A13_eq]; try rfl)

/-! ## The body obligation at a generic point -/

def bodyPre13 (c : Dev nD) (t : Fin cfg13.N) : sProp 𝕄 :=
  iprop((dat13 V c).Φ t.castSucc ∗ (dat13 V c).owesAt () t.castSucc
    ∗ (∃ d, owns (c : Thread nD τ) (ms13_0 t) fullShare ((dat13 V c).before 0 t d))
    ∗ (∃ d, owns (c : Thread nD τ) (ms13_1 t) fullShare ((dat13 V c).before 1 t d))
    ∗ (∃ d, owns (c : Thread nD τ) (ms13_2 t) fullShare ((dat13 V c).before 2 t d)))

def bodyPost13 (c : Dev nD) (t : Fin cfg13.N) : sProp 𝕄 :=
  iprop((dat13 V c).Φ t.succ ∗ (dat13 V c).owesAt () t.succ
    ∗ (dat13 V c).leavesExact 0 t ∗ (dat13 V c).leavesExact 1 t ∗ (dat13 V c).leavesExact 2 t)

set_option maxHeartbeats 4000000 in
/-- The body at any point. The three input buffers hold their blocks; the point's position in its contraction
    selects the case; the invariant hands over the accumulator (at anything before the very first point, else at
    what the point before left) and takes it back at this point's contents; an idle output buffer is handed back
    as found, a stored one at the case's block; the core owes nothing throughout. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1]
  rw [show (dat13 V c).owesAt () t.succ = (dat13 V c).owesAt () t.castSucc from rfl]
  rw [show (dat13 V c).Φ t.succ = iprop(owns (c : Thread nD τ) scM13 fullShare (outsAt13 V c t.val t.isLt).2
      ∗ Pipeline.scopedRestBut (Ix := Unit) (Name := ℕ) (U := UR sig nD τ × Counters) (Lvl := ℕ) (Val := Elt F) spec13 c [cc13_scratch0]) from rfl]
  have hN : t.val < 16 := lt_of_lt_of_eq t.isLt (show cfg13.N = 16 from N_13)
  rw [show (dat13 V c).leavesExact 0 t = owns (c : Thread nD τ) (ms13_0 t) fullShare (iblk13 V c 0 t) from by
    unfold Dat.leavesExact; rw [liveAt13_0 t, after13_0]]
  rw [show (dat13 V c).leavesExact 1 t = owns (c : Thread nD τ) (ms13_1 t) fullShare (iblk13 V c 1 t) from by
    unfold Dat.leavesExact; rw [liveAt13_1 t, after13_1]]
  rw [Phi13_castSucc V c t]
  by_cases h1 : t.val % 4 = 3
  · -- the last block of a contraction
    have h0 : ¬t.val % 4 = 0 := by omega
    have hz : t.val ≠ 0 := by omega
    rw [show (dat13 V c).leavesExact 2 t = owns (c : Thread nD τ) (ms13_2 t) fullShare (outsAt13 V c t.val t.isLt).1 from by
      unfold Dat.leavesExact; rw [liveAt13_2 t ((hcond13_1 t).mpr h1), after13_2]]
    rw [outsAt13_C V c t h0 h1, PhiS13_pos V c _ _ hz]
    dsimp only
    unfold outC13 accC13
    iintro ⟨⟨HS, Hb⟩, Ho, ⟨%d0, H0⟩, ⟨%d1, H1⟩, ⟨%d3, H3⟩⟩
    iapply ((run13_C c (grid13.coords t) (ms13_0 t) (hs13_0 t) (ms13_1 t) (hs13_1 t) (ms13_2 t) (hs13_2 t) scM13 (Memref.isWhole_whole _) (fun h => h0 ((hcond13_0 t).mp h)) ((hcond13_1 t).mpr h1) (iblk13 V c 0 t) (iblk13 V c 1 t) _).2.2 Set.univ _)
    isplitl [H0]; · iexact H0
    isplitl [H1]; · iexact H1
    isplitl [H3]; · iexists _; iexact H3
    isplitl [HS]; · iexact HS
    iintro ⟨H0, H1, ⟨%e3, H3⟩, ⟨%es, HS⟩⟩
    isplitl [HS Hb]
    · isplitl [HS]
      · unfold owns; iexists _; isplitr
        swap; · iexact HS
        ipureintro; exact View.read_writes_of_cover _ _ _ _ _ (coverCs13 V c t h0 h1 _)
      iexact Hb
    isplitl [Ho]; · iexact Ho
    isplitl [H0]; · iexact H0
    isplitl [H1]; · iexact H1
    unfold owns; iexists _; isplitr
    swap; · iexact H3
    ipureintro; exact View.read_writes_of_cover _ _ _ _ _ (coverCo13 V c t h0 h1 _)
  · rw [Dat.leavesExact_idle (dat13 V c) 2 t (idleAt13_2 t (fun h => h1 ((hcond13_1 t).mp h))) (noFlush13_2 t (fun h => h1 ((hcond13_1 t).mp h)))]
    by_cases h0 : t.val % 4 = 0
    · -- the first block of a contraction
      rw [outsAt13_A V c t h0 h1]
      dsimp only
      unfold accA13
      by_cases hz : t.val = 0
      · rw [show PhiS13 V c t.val (Nat.le_of_lt t.isLt) = Pipeline.scopedRest (Ix := Unit) (Name := ℕ) (U := UR sig nD τ × Counters) (Lvl := ℕ) (Val := Elt F) spec13 c from by
          obtain ⟨n, hn⟩ := t; dsimp only at hz; subst hz; rfl, scopedRest13_eq]
        iintro ⟨⟨HS, Hb⟩, Ho, ⟨%d0, H0⟩, ⟨%d1, H1⟩, ⟨%d3, H3⟩⟩
        iapply ((run13_A c (grid13.coords t) (ms13_0 t) (hs13_0 t) (ms13_1 t) (hs13_1 t) (ms13_2 t) (hs13_2 t) scM13 (Memref.isWhole_whole _) ((hcond13_0 t).mpr h0) (fun h => h1 ((hcond13_1 t).mp h)) (iblk13 V c 0 t) (iblk13 V c 1 t)).2 _ Set.univ _)
        isplitl [H0]; · iexact H0
        isplitl [H1]; · iexact H1
        isplitl [H3]; · iexact H3
        isplitl [HS]; · iexact HS
        iintro ⟨H0, H1, H3, ⟨%es, HS⟩⟩
        isplitl [HS Hb]
        · isplitl [HS]
          · unfold owns; iexists _; isplitr
            swap; · iexact HS
            ipureintro; exact View.read_writes_of_cover _ _ _ _ _ (coverA13 V c t h0 h1)
          iexact Hb
        isplitl [Ho]; · iexact Ho
        isplitl [H0]; · iexact H0
        isplitl [H1]; · iexact H1
        iexists _; iexact H3
      · rw [PhiS13_pos V c _ _ hz]
        iintro ⟨⟨HS, Hb⟩, Ho, ⟨%d0, H0⟩, ⟨%d1, H1⟩, ⟨%d3, H3⟩⟩
        iapply ((run13_A c (grid13.coords t) (ms13_0 t) (hs13_0 t) (ms13_1 t) (hs13_1 t) (ms13_2 t) (hs13_2 t) scM13 (Memref.isWhole_whole _) ((hcond13_0 t).mpr h0) (fun h => h1 ((hcond13_1 t).mp h)) (iblk13 V c 0 t) (iblk13 V c 1 t)).2 _ Set.univ _)
        isplitl [H0]; · iexact H0
        isplitl [H1]; · iexact H1
        isplitl [H3]; · iexact H3
        isplitl [HS]; · iexists _; iexact HS
        iintro ⟨H0, H1, H3, ⟨%es, HS⟩⟩
        isplitl [HS Hb]
        · isplitl [HS]
          · unfold owns; iexists _; isplitr
            swap; · iexact HS
            ipureintro; exact View.read_writes_of_cover _ _ _ _ _ (coverA13 V c t h0 h1)
          iexact Hb
        isplitl [Ho]; · iexact Ho
        isplitl [H0]; · iexact H0
        isplitl [H1]; · iexact H1
        iexists _; iexact H3
    · -- a middle block
      have hz : t.val ≠ 0 := by omega
      rw [outsAt13_B V c t h0 h1, PhiS13_pos V c _ _ hz]
      dsimp only
      unfold accB13
      iintro ⟨⟨HS, Hb⟩, Ho, ⟨%d0, H0⟩, ⟨%d1, H1⟩, ⟨%d3, H3⟩⟩
      iapply ((run13_B c (grid13.coords t) (ms13_0 t) (hs13_0 t) (ms13_1 t) (hs13_1 t) (ms13_2 t) (hs13_2 t) scM13 (Memref.isWhole_whole _) (fun h => h0 ((hcond13_0 t).mp h)) (fun h => h1 ((hcond13_1 t).mp h)) (iblk13 V c 0 t) (iblk13 V c 1 t) _).2 _ Set.univ _)
      isplitl [H0]; · iexact H0
      isplitl [H1]; · iexact H1
      isplitl [H3]; · iexact H3
      isplitl [HS]; · iexact HS
      iintro ⟨H0, H1, H3, ⟨%es, HS⟩⟩
      isplitl [HS Hb]
      · isplitl [HS]
        · unfold owns; iexists _; isplitr
          swap; · iexact HS
          ipureintro; exact View.read_writes_of_cover _ _ _ _ _ (coverB13 V c t h0 h1 _)
        iexact Hb
      isplitl [Ho]; · iexact Ho
      isplitl [H0]; · iexact H0
      isplitl [H1]; · iexact H1
      iexists _; iexact H3

theorem body_obligation13 (c : Dev nD) : BodyObligation (dat13 V c) (defs₀ (F := F)) Variants.none () Set.univ := fun t => by
  rw [bigSep_W13, bigSep_W13]
  exact sound_body13 V c t

/-! ## The region over the thread state -/

variable (Vp : (c : Dev nD) → (b : Ref sig .tc) → Buf (Elt F) ((c : Thread nD τ).loc b))
variable (pdats : (p : Fin 22) → (c : Dev nD) → Dat τ (Elt F) Unit ℕ (UR sig nD τ × Counters) ℕ (cfgs p) c)

/-- The result's array after the region, as the pipeline library computes it from the proof data. -/
def out13 (c : Dev nD) : Buf (Elt F) ((c : Thread nD τ).loc main_v30) := (dat13 V c).arrAt 2 cfg13.N

set_option backward.isDefEq.respectTransparency.types false in
set_option maxHeartbeats 2000000 in
/-- Launch 13 over the thread state "every unscoped buffer at `V c`, the core owing nothing": entered by
    splitting its three arrays out of the unscoped buffers, left with them put back at `Vp c`, which has the
    result's array at `out13` and agrees with `V c` elsewhere. -/
def reg13 (hp : ∀ c, pdats 13 c = dat13 V c)
    (hVp_out : ∀ c, Vp c main_v30 = out13 V c)
    (hVp_ne : ∀ c (b : Ref sig .tc), b ≠ main_v30 → Vp c b = V c b) :
    Pipeline.RegionSeg (pcfgs (F := F)) (fun p => (cfgs p).toPCfg_adm) pdats () defs₀ Variants.none (fun _ => (∅ : Finset Unit)) (fun _ _ => (0 : ℕ)) 13 where
  win := launch13.win.to₀
  block_pos := launch13.block_pos
  stage_whole := launch13.stage_whole
  K := PEmpty
  osem k := k.elim
  ho := Pipeline.OwnSemFacts.none _
  hbody c := by rw [hp c]; exact (body_obligation13 V c).loose
  hwaits := Pipeline.hwaits_of_owed_zero _ _ _ _ _ _ 13 fun c t => by rw [hp c]; rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ × Counters) (Lvl := ℕ) spec13 c (V c)
  hentry c := by
    rw [Pipeline.ownSems0_none]
    have hsplit := Pipeline.arrays_of_unscopedBufs (p := 13) (pcfgs (F := F)) (fun p => (cfgs p).toPCfg_adm) pdats launch13.win launch13.arr_whole c
      ((pdats 13 c).share_full fun w => by rw [hp c]; rfl) (V c) (fun w => by rw [hp c]; rfl)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hp c]
      unfold Pipeline.Dat.owesAt Pipeline.owesWithin
      icases HO with ⟨%W, HO⟩; iexists W; isplitr; · ipureintro; exact fun _ _ => Or.inl trivial
      iexact HO
    isplitr; · iempintro
    iexact Hrest
  hin c := by
    rw [hp c, show (dat13 V c).Φ 0 = Pipeline.scopedRest (Ix := Unit) (Name := ℕ) (U := UR sig nD τ × Counters) (Lvl := ℕ) (Val := Elt F) spec13 c from rfl]
    iintro ⟨-, -, Hr⟩; iexact Hr
  hout c := by
    rw [Pipeline.ownSems0_none, hp c]
    refine (Entails.of_eq ((show (dat13 V c).Φ (Fin.last _) = PhiS13 V c (Fin.last cfg13.N).val (Nat.le_of_lt_succ (Fin.last cfg13.N).isLt) from rfl).trans
      (PhiS13_pos V c _ _ (by rw [Fin.val_last]; have : cfg13.N = 16 := N_13; omega)))).trans ?_
    change _ ⊢ iprop(BI.emp ∗ BI.emp ∗ Pipeline.scopedRest (Ix := Unit) (Name := ℕ) (U := UR sig nD τ × Counters) (Lvl := ℕ) (Val := Elt F) spec13 c)
    rw [scopedRest13_eq]
    iintro ⟨HS, Hb⟩
    isplitr; · iempintro
    isplitr; · iempintro
    isplitl [HS]; · iexists _; iexact HS
    iexact Hb
  hexit c := by
    have hjoin := Pipeline.unscopedBufs_of_arrays (p := 13) (pcfgs (F := F)) (fun p => (cfgs p).toPCfg_adm) (Ix := Unit) (Name := ℕ) (U := UR sig nD τ × Counters) (Lvl := ℕ) launch13.win launch13.arr_whole c
      pdats ((pdats 13 c).share_full fun w => by rw [hp c]; rfl) (V c) (Vp c) ((pdats 13 c).arrAt · cfg13.N)
      (fun w => by
        fin_cases w
        · exact (((pdats 13 c).arrAt_in 0 rfl _).trans (by rw [hp c]; rfl)).trans (hVp_ne c main_v0 (by decide)).symm
        · exact (((pdats 13 c).arrAt_in 1 rfl _).trans (by rw [hp c]; rfl)).trans (hVp_ne c main_v29 (by decide)).symm
        · exact (by rw [hp c]; rfl : (pdats 13 c).arrAt 2 cfg13.N = out13 V c).trans (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W
    rw [show (pdats 13 c).owed (Fin.last _) = 0 from by rw [hp c]; rfl]
    iexact HO

end Cert.Kernel.Hand

end
-- ==== Proof.KB.R14Base.lean ====
/-
  Launch 14 of the program: one matrix product per grid point — the contraction is a single block —, a bias row
  added and tanh applied, the output block stored at every point. The grid's third coordinate is always 0, so both
  conditions of the body — "the contraction's first block" and "its last block" — hold at every point: this module
  decides them over the grid's points, records that no window is ever idle, and names the staging memrefs the body
  is called with.
-/
import proofs.«113214_j66838281060556_2_alg».proof.Proof.Gen.Kernel.Launch
import proofs.«113214_j66838281060556_2_alg».proof.Proof.Gen.Kernel.Skeleton
import proofs.«113214_j66838281060556_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

/-- The accumulator is reset: the point starts a contraction (third grid coordinate 0). Here the third axis has one
    coordinate, so every point does. -/
abbrev cond14_0 (i : grid14.Coords) : Prop := (Scalar.cmpi .ne (Scalar.extui (Scalar.cmpi .eq (BitVec.ofNat 32 (i 2).val) 0#32)) 0#32) = 1#1
theorem hcond14_0 : ∀ t : Fin cfg14.N, cond14_0 (grid14.coords t) :=
  (by decide +kernel : ∀ t : Fin grid14.N, cond14_0 (grid14.coords t))

/-- The result is stored: the point ends a contraction. Every point does. -/
abbrev cond14_1 (i : grid14.Coords) : Prop := k14_cond2 i = 1#1
theorem hcond14_1 : ∀ t : Fin cfg14.N, cond14_1 (grid14.coords t) :=
  (by decide +kernel : ∀ t : Fin grid14.N, cond14_1 (grid14.coords t))

/-- No window is idle at any point: the three inputs never, the output because every point stores. -/
theorem liveAt14_0 : ∀ t : Fin cfg14.N, cfg14.idle 0 (grid14.coords t) = false := by decide +kernel
theorem liveAt14_1 : ∀ t : Fin cfg14.N, cfg14.idle 1 (grid14.coords t) = false := by decide +kernel
theorem liveAt14_2 : ∀ t : Fin cfg14.N, cfg14.idle 2 (grid14.coords t) = false := by decide +kernel
theorem liveAt14_3 : ∀ t : Fin cfg14.N, cfg14.idle 3 (grid14.coords t) = false := by decide +kernel

/-- Each window's current staging memref at a point, as the pipeline passes it, and its wholeness. -/
abbrev ms14_0 (t : Fin cfg14.N) : Memref sig .tc .vmem S1024x819 .bf16 := win14_0.stage (cfg14.slots t 0)
abbrev hs14_0 (t : Fin cfg14.N) : (ms14_0 t).IsWhole := hstage14_0 ((cfg14.slots t 0).cast nbuf14_0)
abbrev ms14_1 (t : Fin cfg14.N) : Memref sig .tc .vmem S819x819 .f32 := win14_1.stage (cfg14.slots t 1)
abbrev hs14_1 (t : Fin cfg14.N) : (ms14_1 t).IsWhole := hstage14_1 ((cfg14.slots t 1).cast nbuf14_1)
abbrev ms14_2 (t : Fin cfg14.N) : Memref sig .tc .vmem S1x819 .f32 := win14_2.stage (cfg14.slots t 2)
abbrev hs14_2 (t : Fin cfg14.N) : (ms14_2 t).IsWhole := hstage14_2 ((cfg14.slots t 2).cast nbuf14_2)
abbrev ms14_3 (t : Fin cfg14.N) : Memref sig .tc .vmem S1024x819 .f32 := win14_3.stage (cfg14.slots t 3)
abbrev hs14_3 (t : Fin cfg14.N) : (ms14_3 t).IsWhole := hstage14_3 ((cfg14.slots t 3).cast nbuf14_3)
/-- The accumulator: a whole scoped buffer of the launch's own. -/
abbrev scM14 : Memref sig .tc .vmem S1024x819 .f32 := Memref.whole cc14_scratch0
abbrev VS14 : View sig .tc .vmem S1024x819 .f32 := scM14.view

end Cert.Kernel.Hand

end
-- ==== Proof.KB.R14Run.lean ====
/-
  Launch 14, the body run symbolically in its one control case: the accumulator reset, the product added, the bias
  row added and tanh applied into the output block. The run's witnesses are the lists of pieces its stores leave in
  the output block and in the accumulator.
-/
import proofs.«113214_j66838281060556_2_alg».proof.Proof.KB.R14Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

set_option maxHeartbeats 2000000 in
/-- The body at a point, run symbolically: the accumulator, found at anything, is reset to zero and ends at the
    product of the two input blocks added to zero; the output block, found at anything, is stored whole: tanh of
    that sum plus the bias row. The witnesses are the pieces the stores leave in the output block and in the
    accumulator. -/
noncomputable def run14 (c : Dev nD) (i : grid14.Coords) (arg3 : Memref sig .tc .vmem S1024x819 .bf16) (harg3 : arg3.IsWhole) (arg4 : Memref sig .tc .vmem S819x819 .f32) (harg4 : arg4.IsWhole) (arg5 : Memref sig .tc .vmem S1x819 .f32) (harg5 : arg5.IsWhole) (arg6 : Memref sig .tc .vmem S1024x819 .f32) (harg6 : arg6.IsWhole) (arg7 : Memref sig .tc .vmem S1024x819 .f32) (harg7 : arg7.IsWhole) (hc0 : cond14_0 i) (hc1 : cond14_1 i)
    (x0 : Vec F S1024x819 .bf16) (x1 : Vec F S819x819 .f32) (x2 : Vec F S1x819 .f32) :
    Σ' (LO : List (View.Piece (Elt F) S1024x819 .f32)), { LS : List (View.Piece (Elt F) S1024x819 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LS)) -∗ K ⟨⟩))
          ⊢ wp frame (wpE (defs₀ (F := F)) Variants.none c none) E (cc14__mm_kernel i arg3 harg3 arg4 harg4 arg5 harg5 arg6 harg6 arg7 harg7) K } := by
  refine ⟨?_, ?_, fun E K => ?run⟩
  case run =>
    simp only [cc14__mm_kernel_eq_skeleton]; unfold cc14__mm_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    iexists _; iexact HS

end Cert.Kernel.Hand

end
-- ==== Proof.KB.R14.lean ====
/-
  Launch 14 as a region of the program. The blocks the windows stage are read off the arrays as the region finds
  them; a point stores the output block its run leaves; the accumulator is reset at every point, so between points
  the launch's scoped buffers that no window stages are simply held whole at anything; the body obligation follows
  from the one symbolic run; and the region is stated over the thread state "every unscoped buffer at given
  contents, the core owing nothing", entered by splitting its arrays out and left with the result's array
  at what the pipeline computes from the stored blocks.
-/
import proofs.«113214_j66838281060556_2_alg».proof.Proof.KB.R14Run
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

variable (V : (c : Dev nD) → (b : Ref sig .tc) → Buf (Elt F) ((c : Thread nD τ).loc b))

/-! ## The blocks the windows stage -/

/-- Window `w`'s block at point `t`, read off its array as the region finds it. -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- A view of the output's staging buffer, through which contents are stated. -/
abbrev VO14 : View sig .tc .vmem S1024x819 .f32 := (Memref.whole cc14_stg3_0 : Memref sig .tc .vmem S1024x819 .f32).view

/-! ## What a point leaves -/

/-- The output block a point stores: what the run's pieces leave, read through the staging buffer's view. -/
def out14 (c : Dev nD) (t : Fin cfg14.N) : Vec F S1024x819 .f32 :=
  VO14.read (Elt F) (VO14.writes (Elt F) VO14.junk (run14 c (grid14.coords t) (ms14_0 t) (hs14_0 t) (ms14_1 t) (hs14_1 t) (ms14_2 t) (hs14_2 t) (ms14_3 t) (hs14_3 t) scM14 (Memref.isWhole_whole _) (hcond14_0 t) (hcond14_1 t) (iblk14 V c 0 t) (iblk14 V c 1 t) (iblk14 V c 2 t)).1)

/-- The stores into the output block cover it. -/
theorem coverO14 (c : Dev nD) (t : Fin cfg14.N) (y : S1024x819.Idx) :
    ∃ pc ∈ (run14 c (grid14.coords t) (ms14_0 t) (hs14_0 t) (ms14_1 t) (hs14_1 t) (ms14_2 t) (hs14_2 t) (ms14_3 t) (hs14_3 t) scM14 (Memref.isWhole_whole _) (hcond14_0 t) (hcond14_1 t) (iblk14 V c 0 t) (iblk14 V c 1 t) (iblk14 V c 2 t)).1, y ∈ pc.1.set :=
  View.cover_of_tiledL _ S1024x819.size (by sl_kernel_rfl) y

/-! ## The invariant between points -/

/-- The scoped rest with the accumulator split out as a memref owned at some contents. The accumulator is reset at
    every point, so the invariant between points is the scoped rest itself, the accumulator at anything. -/
theorem scopedRest14_eq (c : Dev nD) :
    (Pipeline.scopedRest (Ix := Unit) (Name := ℕ) (U := UR sig nD τ × Counters) (Lvl := ℕ) (Val := Elt F) spec14 c : sProp 𝕄)
      = iprop((∃ d, owns (c : Thread nD τ) scM14 fullShare d)
          ∗ Pipeline.scopedRestBut (Ix := Unit) (Name := ℕ) (U := UR sig nD τ × Counters) (Lvl := ℕ) (Val := Elt F) spec14 c [cc14_scratch0]) := by
  rw [scopedRest14_split]; simp only [scM14, owns_whole]; try rfl

/-! ## The proof data -/

def dat14 (c : Dev nD) : Dat τ (Elt F) Unit ℕ (UR sig nD τ × Counters) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => out14 V c t
  Φ _ := Pipeline.scopedRest (Ix := Unit) (Name := ℕ) (U := UR sig nD τ × Counters) (Lvl := ℕ) (Val := Elt F) spec14 c
  q _ := fullShare
  owed _ := 0

theorem A14_eq (c : Dev nD) (w : Fin cfg14.W) : (dat14 V c).A w = V c (Pipeline.arrRef spec14 w) := by
  dsimp only [dat14]
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = out14 V c t := by dsimp only [dat14]

/-- Each input window's current staging buffer holds its block at every point, fetched there or not. -/
theorem before14_0 (c : Dev nD) (t : Fin cfg14.N) (d) : (dat14 V c).before 0 t d = iblk14 V c 0 t :=
  ((dat14 V c).before_in_eq_fetched 0 rfl (fun _ => rfl) (fun _ _ _ => rfl) (fun t => by rw [after14_0]; unfold Dat.blockOf iblk14; rw [A14_eq]; try rfl) t d).trans
    (by unfold Dat.fetched Dat.blockOf iblk14; rw [A14_eq]; try rfl)
theorem before14_1 (c : Dev nD) (t : Fin cfg14.N) (d) : (dat14 V c).before 1 t d = iblk14 V c 1 t :=
  ((dat14 V c).before_in_eq_fetched 1 rfl (fun _ => rfl) (fun _ _ _ => rfl) (fun t => by rw [after14_1]; unfold Dat.blockOf iblk14; rw [A14_eq]; try rfl) t d).trans
    (by unfold Dat.fetched Dat.blockOf iblk14; rw [A14_eq]; try rfl)
theorem before14_2 (c : Dev nD) (t : Fin cfg14.N) (d) : (dat14 V c).before 2 t d = iblk14 V c 2 t :=
  ((dat14 V c).before_in_eq_fetched 2 rfl (fun _ => rfl) (fun _ _ _ => rfl) (fun t => by rw [after14_2]; unfold Dat.blockOf iblk14; rw [A14_eq]; try rfl) t d).trans
    (by unfold Dat.fetched Dat.blockOf iblk14; rw [A14_eq]; try rfl)

/-! ## The body obligation at a generic point -/

def bodyPre14 (c : Dev nD) (t : Fin cfg14.N) : sProp 𝕄 :=
  iprop((dat14 V c).Φ t.castSucc ∗ (dat14 V c).owesAt () t.castSucc
    ∗ (∃ d, owns (c : Thread nD τ) (ms14_0 t) fullShare ((dat14 V c).before 0 t d))
    ∗ (∃ d, owns (c : Thread nD τ) (ms14_1 t) fullShare ((dat14 V c).before 1 t d))
    ∗ (∃ d, owns (c : Thread nD τ) (ms14_2 t) fullShare ((dat14 V c).before 2 t d))
    ∗ (∃ d, owns (c : Thread nD τ) (ms14_3 t) fullShare ((dat14 V c).before 3 t d)))

def bodyPost14 (c : Dev nD) (t : Fin cfg14.N) : sProp 𝕄 :=
  iprop((dat14 V c).Φ t.succ ∗ (dat14 V c).owesAt () t.succ
    ∗ (dat14 V c).leavesExact 0 t ∗ (dat14 V c).leavesExact 1 t ∗ (dat14 V c).leavesExact 2 t ∗ (dat14 V c).leavesExact 3 t)

set_option maxHeartbeats 4000000 in
/-- The body at any point. The input buffers hold their blocks; the invariant hands over the accumulator at
    anything and takes it back at anything; the output buffer, found at anything, is handed back at the block the
    point stores; the core owes nothing throughout. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2]
  rw [show (dat14 V c).owesAt () t.succ = (dat14 V c).owesAt () t.castSucc from rfl]
  rw [show (dat14 V c).Φ t.succ = Pipeline.scopedRest (Ix := Unit) (Name := ℕ) (U := UR sig nD τ × Counters) (Lvl := ℕ) (Val := Elt F) spec14 c from rfl,
    show (dat14 V c).Φ t.castSucc = Pipeline.scopedRest (Ix := Unit) (Name := ℕ) (U := UR sig nD τ × Counters) (Lvl := ℕ) (Val := Elt F) spec14 c from rfl]
  rw [show (dat14 V c).leavesExact 0 t = owns (c : Thread nD τ) (ms14_0 t) fullShare (iblk14 V c 0 t) from by
    unfold Dat.leavesExact; rw [liveAt14_0 t, after14_0]]
  rw [show (dat14 V c).leavesExact 1 t = owns (c : Thread nD τ) (ms14_1 t) fullShare (iblk14 V c 1 t) from by
    unfold Dat.leavesExact; rw [liveAt14_1 t, after14_1]]
  rw [show (dat14 V c).leavesExact 2 t = owns (c : Thread nD τ) (ms14_2 t) fullShare (iblk14 V c 2 t) from by
    unfold Dat.leavesExact; rw [liveAt14_2 t, after14_2]]
  rw [show (dat14 V c).leavesExact 3 t = owns (c : Thread nD τ) (ms14_3 t) fullShare (out14 V c t) from by
    unfold Dat.leavesExact; rw [liveAt14_3 t, after14_3]]
  rw [scopedRest14_eq]
  unfold out14
  iintro ⟨⟨HS, Hb⟩, Ho, ⟨%d0, H0⟩, ⟨%d1, H1⟩, ⟨%d2, H2⟩, ⟨%d3, H3⟩⟩
  iapply ((run14 c (grid14.coords t) (ms14_0 t) (hs14_0 t) (ms14_1 t) (hs14_1 t) (ms14_2 t) (hs14_2 t) (ms14_3 t) (hs14_3 t) scM14 (Memref.isWhole_whole _) (hcond14_0 t) (hcond14_1 t) (iblk14 V c 0 t) (iblk14 V c 1 t) (iblk14 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS Hb]
  · isplitl [HS]
    · iexists _; unfold owns; iexists _; isplitr
      swap; · iexact HS
      ipureintro; rfl
    iexact Hb
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (coverO14 V c t)

theorem body_obligation14 (c : Dev nD) : BodyObligation (dat14 V c) (defs₀ (F := F)) Variants.none () Set.univ := fun t => by
  rw [bigSep_W14, bigSep_W14]
  exact sound_body14 V c t

/-! ## The region over the thread state -/

variable (Vp : (c : Dev nD) → (b : Ref sig .tc) → Buf (Elt F) ((c : Thread nD τ).loc b))
variable (pdats : (p : Fin 22) → (c : Dev nD) → Dat τ (Elt F) Unit ℕ (UR sig nD τ × Counters) ℕ (cfgs p) c)

/-- The result's array after the region, as the pipeline library computes it from the proof data. -/
def out14arr (c : Dev nD) : Buf (Elt F) ((c : Thread nD τ).loc main_v32) := (dat14 V c).arrAt 3 cfg14.N

set_option backward.isDefEq.respectTransparency.types false in
set_option maxHeartbeats 2000000 in
/-- Launch 14 over the thread state "every unscoped buffer at `V c`, the core owing nothing": entered by
    splitting its arrays out of the unscoped buffers, left with them put back at `Vp c`, which has the
    result's array at `out14arr` and agrees with `V c` elsewhere. -/
def reg14 (hp : ∀ c, pdats 14 c = dat14 V c)
    (hVp_out : ∀ c, Vp c main_v32 = out14arr V c)
    (hVp_ne : ∀ c (b : Ref sig .tc), b ≠ main_v32 → Vp c b = V c b) :
    Pipeline.RegionSeg (pcfgs (F := F)) (fun p => (cfgs p).toPCfg_adm) pdats () defs₀ Variants.none (fun _ => (∅ : Finset Unit)) (fun _ _ => (0 : ℕ)) 14 where
  win := launch14.win.to₀
  block_pos := launch14.block_pos
  stage_whole := launch14.stage_whole
  K := PEmpty
  osem k := k.elim
  ho := Pipeline.OwnSemFacts.none _
  hbody c := by rw [hp c]; exact (body_obligation14 V c).loose
  hwaits := Pipeline.hwaits_of_owed_zero _ _ _ _ _ _ 14 fun c t => by rw [hp c]; rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ × Counters) (Lvl := ℕ) spec14 c (V c)
  hentry c := by
    rw [Pipeline.ownSems0_none]
    have hsplit := Pipeline.arrays_of_unscopedBufs (p := 14) (pcfgs (F := F)) (fun p => (cfgs p).toPCfg_adm) pdats launch14.win launch14.arr_whole c
      ((pdats 14 c).share_full fun w => by rw [hp c]; rfl) (V c) (fun w => by rw [hp c]; rfl)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hp c]; exact trivial)
      rw [show (pdats 14 c).owed 0 = 0 from by rw [hp c]; rfl]
      iexact HO
    isplitr; · iempintro
    iexact Hrest
  hin c := by
    rw [hp c, show (dat14 V c).Φ 0 = Pipeline.scopedRest (Ix := Unit) (Name := ℕ) (U := UR sig nD τ × Counters) (Lvl := ℕ) (Val := Elt F) spec14 c from rfl]
    iintro ⟨-, -, Hr⟩; iexact Hr
  hout c := by
    rw [Pipeline.ownSems0_none, hp c]
    change (Pipeline.scopedRest (Ix := Unit) (Name := ℕ) (U := UR sig nD τ × Counters) (Lvl := ℕ) (Val := Elt F) spec14 c : sProp 𝕄) ⊢ _
    iintro Hr
    isplitr; · iempintro
    isplitr; · iempintro
    iexact Hr
  hexit c := by
    have hjoin := Pipeline.unscopedBufs_of_arrays (p := 14) (pcfgs (F := F)) (fun p => (cfgs p).toPCfg_adm) (Ix := Unit) (Name := ℕ) (U := UR sig nD τ × Counters) (Lvl := ℕ) launch14.win launch14.arr_whole c
      pdats ((pdats 14 c).share_full fun w => by rw [hp c]; rfl) (V c) (Vp c) ((pdats 14 c).arrAt · cfg14.N)
      (fun w => by
        fin_cases w
        · exact (((pdats 14 c).arrAt_in 0 rfl _).trans (by rw [hp c]; rfl)).trans (hVp_ne c main_v30 (by decide)).symm
        · exact (((pdats 14 c).arrAt_in 1 rfl _).trans (by rw [hp c]; rfl)).trans (hVp_ne c main_arg13 (by decide)).symm
        · exact (((pdats 14 c).arrAt_in 2 rfl _).trans (by rw [hp c]; rfl)).trans (hVp_ne c main_v31 (by decide)).symm
        · exact (by rw [hp c]; rfl : (pdats 14 c).arrAt 3 cfg14.N = out14arr V c).trans (hVp_out c).symm)
      (fun b hb => hVp_ne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W
    rw [show (pdats 14 c).owed (Fin.last _) = 0 from by rw [hp c]; rfl]
    iexact HO

end Cert.Kernel.Hand

end
-- ==== Proof.KB.R15Base.lean ====
/-
  Launch 15 of the program: a matrix product accumulated over the third grid axis (grid 4 × 1 × 4: four row blocks,
  four contraction blocks), stored — with no bias and no activation — when
  the last block has been added. This module names the two conditions of the body on the grid point ("the
  contraction's first block", "its last block"), decides them over the sixteen points, and records where the
  output window is idle and where its block is written back.
-/
import proofs.«113214_j66838281060556_2_alg».proof.Proof.Gen.Kernel.Launch
import proofs.«113214_j66838281060556_2_alg».proof.Proof.Gen.Kernel.Skeleton
import proofs.«113214_j66838281060556_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

/-- The accumulator is reset: the point starts a contraction (third grid coordinate 0). -/
abbrev cond15_0 (i : grid15.Coords) : Prop := (Scalar.cmpi .ne (Scalar.extui (Scalar.cmpi .eq (BitVec.ofNat 32 (i 2).val) 0#32)) 0#32) = 1#1
theorem hcond15_0 : ∀ t : Fin cfg15.N, cond15_0 (grid15.coords t) ↔ t.val % 4 = 0 :=
  (by decide +kernel : ∀ t : Fin grid15.N, cond15_0 (grid15.coords t) ↔ t.val % 4 = 0)

/-- The result is stored: the point ends a contraction (third grid coordinate 3). -/
abbrev cond15_1 (i : grid15.Coords) : Prop := k15_cond2 i = 1#1
theorem hcond15_1 : ∀ t : Fin cfg15.N, cond15_1 (grid15.coords t) ↔ t.val % 4 = 3 :=
  (by decide +kernel : ∀ t : Fin grid15.N, cond15_1 (grid15.coords t) ↔ t.val % 4 = 3)

/-- The two input windows are never idle. -/
theorem liveAt15_0 : ∀ t : Fin cfg15.N, cfg15.idle 0 (grid15.coords t) = false := by decide +kernel
theorem liveAt15_1 : ∀ t : Fin cfg15.N, cfg15.idle 1 (grid15.coords t) = false := by decide +kernel
/-- Away from a contraction's last block the output window is idle and its block is not written back. -/
theorem idleAt15_2 : ∀ t : Fin cfg15.N, ¬cond15_1 (grid15.coords t) → cfg15.idle 2 (grid15.coords t) = true := by decide +kernel
theorem noFlush15_2 : ∀ t : Fin cfg15.N, ¬cond15_1 (grid15.coords t) → (cfg15.win 2).flush t = false := by decide +kernel
/-- At a contraction's last block the output window is live. -/
theorem liveAt15_2 : ∀ t : Fin cfg15.N, cond15_1 (grid15.coords t) → cfg15.idle 2 (grid15.coords t) = false := by decide +kernel

/-- Each window's current staging memref at a point, as the pipeline passes it, and its wholeness. -/
abbrev ms15_0 (t : Fin cfg15.N) : Memref sig .tc .vmem S1024x1024 .bf16 := win15_0.stage (cfg15.slots t 0)
abbrev hs15_0 (t : Fin cfg15.N) : (ms15_0 t).IsWhole := hstage15_0 ((cfg15.slots t 0).cast nbuf15_0)
abbrev ms15_1 (t : Fin cfg15.N) : Memref sig .tc .vmem S1024x819 .f32 := win15_1.stage (cfg15.slots t 1)
abbrev hs15_1 (t : Fin cfg15.N) : (ms15_1 t).IsWhole := hstage15_1 ((cfg15.slots t 1).cast nbuf15_1)
abbrev ms15_2 (t : Fin cfg15.N) : Memref sig .tc .vmem S1024x819 .bf16 := win15_2.stage (cfg15.slots t 2)
abbrev hs15_2 (t : Fin cfg15.N) : (ms15_2 t).IsWhole := hstage15_2 ((cfg15.slots t 2).cast nbuf15_2)
/-- The accumulator: a whole scoped buffer of the launch's own. -/
abbrev scM15 : Memref sig .tc .vmem S1024x819 .f32 := Memref.whole cc15_scratch0
abbrev VS15 : View sig .tc .vmem S1024x819 .f32 := scM15.view

end Cert.Kernel.Hand

end
-- ==== Proof.KB.R15Run.lean ====
/-
  Launch 15, the body run symbolically in each of its three control cases: the first block of a contraction
  (the accumulator reset, then the first product added), a middle block (the product added), the last block
  (the product added, then the sum stored into the output block in the output's format). Each run's witness
  is the list of pieces its stores leave in the accumulator (and, in the last case, in the output block).
-/
import proofs.«113214_j66838281060556_2_alg».proof.Proof.KB.R15Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

set_option maxHeartbeats 2000000 in
/-- The first block of a contraction that is not also its last: the accumulator, found at anything, is reset to
    zero and ends at the product of the two input blocks added to zero; the idle output block is handed back
    untouched. The pieces written into the accumulator are the witness the symbolic run finds. -/
noncomputable def run15_A (c : Dev nD) (i : grid15.Coords) (arg3 : Memref sig .tc .vmem S1024x1024 .bf16) (harg3 : arg3.IsWhole) (arg4 : Memref sig .tc .vmem S1024x819 .f32) (harg4 : arg4.IsWhole) (arg5 : Memref sig .tc .vmem S1024x819 .bf16) (harg5 : arg5.IsWhole) (arg6 : Memref sig .tc .vmem S1024x819 .f32) (harg6 : arg6.IsWhole) (hc0 : cond15_0 i) (hc1 : ¬cond15_1 i)
    (x0 : Vec F S1024x1024 .bf16) (x1 : Vec F S1024x819 .f32) :
    { LS : List (View.Piece (Elt F) S1024x819 .f32) //
      ∀ (xi : Vec F S1024x819 .bf16) (E : Set ℕ) (K : PUnit → sProp 𝕄),
        iprop(owns (c : Thread nD τ) arg3 fullShare x0 ∗ owns (c : Thread nD τ) arg4 fullShare x1 ∗ owns (c : Thread nD τ) arg5 fullShare xi ∗ (∃ d, owns (c : Thread nD τ) arg6 fullShare d)
            ∗ (iprop(owns (c : Thread nD τ) arg3 fullShare x0 ∗ owns (c : Thread nD τ) arg4 fullShare x1 ∗ owns (c : Thread nD τ) arg5 fullShare xi
                ∗ (∃ f, arg6.view.loc (c : Thread nD τ) ↦[arg6.view.set]{fullShare} arg6.view.writes (Elt F) f LS)) -∗ K ⟨⟩))
          ⊢ wp frame (wpE (defs₀ (F := F)) Variants.none c none) E (cc15__mm_kernel i arg3 harg3 arg4 harg4 arg5 harg5 arg6 harg6) K } := by
  refine ⟨?_, fun xi E K => ?run⟩
  case run =>
    simp only [cc15__mm_kernel_eq_skeleton]; unfold cc15__mm_kernel_skel
    unfold owns
    iintro ⟨⟨%f0, %hf0, H0⟩, ⟨%f1, %hf1, H1⟩, ⟨%f3, %hf3, H3⟩, ⟨%ds, %fs, -, HS⟩, Hk⟩
    obtain rfl := harg3.eq_unread hf0; obtain rfl := harg4.eq_unread hf1; obtain rfl := harg5.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H3]
    · iexists _; isplitr; · ipureintro; exact harg5.read_unread _
      iexact H3
    iexists _; iexact HS

set_option maxHeartbeats 2000000 in
/-- A middle block of a contraction: the accumulator, found at `xs`, ends at the product of the two input
    blocks added to `xs`; the idle output block is handed back untouched. -/
noncomputable def run15_B (c : Dev nD) (i : grid15.Coords) (arg3 : Memref sig .tc .vmem S1024x1024 .bf16) (harg3 : arg3.IsWhole) (arg4 : Memref sig .tc .vmem S1024x819 .f32) (harg4 : arg4.IsWhole) (arg5 : Memref sig .tc .vmem S1024x819 .bf16) (harg5 : arg5.IsWhole) (arg6 : Memref sig .tc .vmem S1024x819 .f32) (harg6 : arg6.IsWhole) (hc0 : ¬cond15_0 i) (hc1 : ¬cond15_1 i)
    (x0 : Vec F S1024x1024 .bf16) (x1 : Vec F S1024x819 .f32) (xs : Vec F S1024x819 .f32) :
    { LS : List (View.Piece (Elt F) S1024x819 .f32) //
      ∀ (xi : Vec F S1024x819 .bf16) (E : Set ℕ) (K : PUnit → sProp 𝕄),
        iprop(owns (c : Thread nD τ) arg3 fullShare x0 ∗ owns (c : Thread nD τ) arg4 fullShare x1 ∗ owns (c : Thread nD τ) arg5 fullShare xi ∗ owns (c : Thread nD τ) arg6 fullShare xs
            ∗ (iprop(owns (c : Thread nD τ) arg3 fullShare x0 ∗ owns (c : Thread nD τ) arg4 fullShare x1 ∗ owns (c : Thread nD τ) arg5 fullShare xi
                ∗ (∃ f, arg6.view.loc (c : Thread nD τ) ↦[arg6.view.set]{fullShare} arg6.view.writes (Elt F) f LS)) -∗ K ⟨⟩))
          ⊢ wp frame (wpE (defs₀ (F := F)) Variants.none c none) E (cc15__mm_kernel i arg3 harg3 arg4 harg4 arg5 harg5 arg6 harg6) K } := by
  refine ⟨?_, fun xi E K => ?run⟩
  case run =>
    simp only [cc15__mm_kernel_eq_skeleton]; unfold cc15__mm_kernel_skel
    unfold owns
    iintro ⟨⟨%f0, %hf0, H0⟩, ⟨%f1, %hf1, H1⟩, ⟨%f3, %hf3, H3⟩, ⟨%fs, %hfs, HS⟩, Hk⟩
    obtain rfl := harg3.eq_unread hf0; obtain rfl := harg4.eq_unread hf1; obtain rfl := harg5.eq_unread hf3
    obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H3]
    · iexists _; isplitr; · ipureintro; exact harg5.read_unread _
      iexact H3
    iexists _; iexact HS

set_option maxHeartbeats 2000000 in
/-- The last block of a contraction that is not also its first: the accumulator, found at `xs`, ends at the
    product of the two input blocks added to `xs`, and the output block, found at anything, is stored whole:
    that sum in the output's format. -/
noncomputable def run15_C (c : Dev nD) (i : grid15.Coords) (arg3 : Memref sig .tc .vmem S1024x1024 .bf16) (harg3 : arg3.IsWhole) (arg4 : Memref sig .tc .vmem S1024x819 .f32) (harg4 : arg4.IsWhole) (arg5 : Memref sig .tc .vmem S1024x819 .bf16) (harg5 : arg5.IsWhole) (arg6 : Memref sig .tc .vmem S1024x819 .f32) (harg6 : arg6.IsWhole) (hc0 : ¬cond15_0 i) (hc1 : cond15_1 i)
    (x0 : Vec F S1024x1024 .bf16) (x1 : Vec F S1024x819 .f32) (xs : Vec F S1024x819 .f32) :
    Σ' (LO : List (View.Piece (Elt F) S1024x819 .bf16)), { LS : List (View.Piece (Elt F) S1024x819 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc15__mm_kernel i arg3 harg3 arg4 harg4 arg5 harg5 arg6 harg6) K } := by
  refine ⟨?_, ?_, fun E K => ?run⟩
  case run =>
    simp only [cc15__mm_kernel_eq_skeleton]; unfold cc15__mm_kernel_skel
    unfold owns
    iintro ⟨⟨%f0, %hf0, H0⟩, ⟨%f1, %hf1, H1⟩, ⟨%d3, %f3, -, H3⟩, ⟨%fs, %hfs, HS⟩, Hk⟩
    obtain rfl := harg3.eq_unread hf0; obtain rfl := harg4.eq_unread hf1
    obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H3]
    · iexists _; iexact H3
    iexists _; iexact HS

end Cert.Kernel.Hand

end
-- ==== Proof.KB.R15.lean ====
/-
  Launch 15 as a segment of the program: the product A·B of a graph matrix with the right
  factor, computed block by block on the grid 4 × 1 × 4 with an accumulator carried along the contraction and
  stored in the output's format when a contraction ends. What the accumulator and the output block hold after
  each point is defined by recursion on the point; the invariant between points is the accumulator at that value
  beside the launch's other scoped buffers; the proof data states each window's block after the body; the body
  obligation is the three symbolic runs put together by cases on the point's position in its contraction; and
  the segment record enters the launch from a thread state holding every unscoped buffer at an entry valuation
  and leaves it at the valuation updated at the result's array.
-/
import proofs.«113214_j66838281060556_2_alg».proof.Proof.KB.R15Run
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

variable (V : (c : Dev nD) → (b : Ref sig .tc) → Buf (Elt F) ((c : Thread nD τ).loc b))

/-! ## The blocks the windows stage -/

/-- Window `w`'s block at point `t`, read off its array as the region finds it. -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- A view of the output's staging buffer and one of the accumulator, through which contents are stated. -/
abbrev VO15 : View sig .tc .vmem S1024x819 .bf16 := (Memref.whole cc15_stg2_0 : Memref sig .tc .vmem S1024x819 .bf16).view

/-! ## What each case leaves -/

/-- The accumulator after a first block. -/
def accA15 (c : Dev nD) (t : Fin cfg15.N) (h0 : t.val % 4 = 0) (h1 : ¬t.val % 4 = 3) : Vec F S1024x819 .f32 :=
  VS15.read (Elt F) (VS15.writes (Elt F) VS15.junk (run15_A c (grid15.coords t) (ms15_0 t) (hs15_0 t) (ms15_1 t) (hs15_1 t) (ms15_2 t) (hs15_2 t) scM15 (Memref.isWhole_whole _) ((hcond15_0 t).mpr h0) (fun h => h1 ((hcond15_1 t).mp h)) (iblk15 V c 0 t) (iblk15 V c 1 t)).1)
/-- The accumulator after a middle block, from what the point before left. -/
def accB15 (c : Dev nD) (t : Fin cfg15.N) (h0 : ¬t.val % 4 = 0) (h1 : ¬t.val % 4 = 3) (xs : Vec F S1024x819 .f32) : Vec F S1024x819 .f32 :=
  VS15.read (Elt F) (VS15.writes (Elt F) VS15.junk (run15_B c (grid15.coords t) (ms15_0 t) (hs15_0 t) (ms15_1 t) (hs15_1 t) (ms15_2 t) (hs15_2 t) scM15 (Memref.isWhole_whole _) (fun h => h0 ((hcond15_0 t).mp h)) (fun h => h1 ((hcond15_1 t).mp h)) (iblk15 V c 0 t) (iblk15 V c 1 t) xs).1)
/-- The accumulator after a last block, -/
def accC15 (c : Dev nD) (t : Fin cfg15.N) (h0 : ¬t.val % 4 = 0) (h1 : t.val % 4 = 3) (xs : Vec F S1024x819 .f32) : Vec F S1024x819 .f32 :=
  VS15.read (Elt F) (VS15.writes (Elt F) VS15.junk (run15_C c (grid15.coords t) (ms15_0 t) (hs15_0 t) (ms15_1 t) (hs15_1 t) (ms15_2 t) (hs15_2 t) scM15 (Memref.isWhole_whole _) (fun h => h0 ((hcond15_0 t).mp h)) ((hcond15_1 t).mpr h1) (iblk15 V c 0 t) (iblk15 V c 1 t) xs).2.1)
/-- and the output block stored there. -/
def outC15 (c : Dev nD) (t : Fin cfg15.N) (h0 : ¬t.val % 4 = 0) (h1 : t.val % 4 = 3) (xs : Vec F S1024x819 .f32) : Vec F S1024x819 .bf16 :=
  VO15.read (Elt F) (VO15.writes (Elt F) VO15.junk (run15_C c (grid15.coords t) (ms15_0 t) (hs15_0 t) (ms15_1 t) (hs15_1 t) (ms15_2 t) (hs15_2 t) scM15 (Memref.isWhole_whole _) (fun h => h0 ((hcond15_0 t).mp h)) ((hcond15_1 t).mpr h1) (iblk15 V c 0 t) (iblk15 V c 1 t) xs).1)

theorem coverA15 (c : Dev nD) (t : Fin cfg15.N) (h0 : t.val % 4 = 0) (h1 : ¬t.val % 4 = 3) (y : S1024x819.Idx) :
    ∃ pc ∈ (run15_A c (grid15.coords t) (ms15_0 t) (hs15_0 t) (ms15_1 t) (hs15_1 t) (ms15_2 t) (hs15_2 t) scM15 (Memref.isWhole_whole _) ((hcond15_0 t).mpr h0) (fun h => h1 ((hcond15_1 t).mp h)) (iblk15 V c 0 t) (iblk15 V c 1 t)).1, y ∈ pc.1.set :=
  View.cover_of_tiledL _ S1024x819.size (by sl_kernel_rfl) y
theorem coverB15 (c : Dev nD) (t : Fin cfg15.N) (h0 : ¬t.val % 4 = 0) (h1 : ¬t.val % 4 = 3) (xs : Vec F S1024x819 .f32) (y : S1024x819.Idx) :
    ∃ pc ∈ (run15_B c (grid15.coords t) (ms15_0 t) (hs15_0 t) (ms15_1 t) (hs15_1 t) (ms15_2 t) (hs15_2 t) scM15 (Memref.isWhole_whole _) (fun h => h0 ((hcond15_0 t).mp h)) (fun h => h1 ((hcond15_1 t).mp h)) (iblk15 V c 0 t) (iblk15 V c 1 t) xs).1, y ∈ pc.1.set :=
  View.cover_of_tiledL _ S1024x819.size (by sl_kernel_rfl) y
theorem coverCs15 (c : Dev nD) (t : Fin cfg15.N) (h0 : ¬t.val % 4 = 0) (h1 : t.val % 4 = 3) (xs : Vec F S1024x819 .f32) (y : S1024x819.Idx) :
    ∃ pc ∈ (run15_C c (grid15.coords t) (ms15_0 t) (hs15_0 t) (ms15_1 t) (hs15_1 t) (ms15_2 t) (hs15_2 t) scM15 (Memref.isWhole_whole _) (fun h => h0 ((hcond15_0 t).mp h)) ((hcond15_1 t).mpr h1) (iblk15 V c 0 t) (iblk15 V c 1 t) xs).2.1, y ∈ pc.1.set :=
  View.cover_of_tiledL _ S1024x819.size (by sl_kernel_rfl) y
theorem coverCo15 (c : Dev nD) (t : Fin cfg15.N) (h0 : ¬t.val % 4 = 0) (h1 : t.val % 4 = 3) (xs : Vec F S1024x819 .f32) (y : S1024x819.Idx) :
    ∃ pc ∈ (run15_C c (grid15.coords t) (ms15_0 t) (hs15_0 t) (ms15_1 t) (hs15_1 t) (ms15_2 t) (hs15_2 t) scM15 (Memref.isWhole_whole _) (fun h => h0 ((hcond15_0 t).mp h)) ((hcond15_1 t).mpr h1) (iblk15 V c 0 t) (iblk15 V c 1 t) xs).1, y ∈ pc.1.set :=
  View.cover_of_tiledL _ S1024x819.size (by sl_kernel_rfl) y

/-! ## The accumulation, point by point -/

/-- What the output's staging buffer (first component; meaningful at a contraction's last block only) and the
    accumulator (second component) hold after the body at position `n`. -/
def outsAt15 (c : Dev nD) : (n : ℕ) → n < cfg15.N → Vec F S1024x819 .bf16 × Vec F S1024x819 .f32
  | 0, hn => (VO15.read (Elt F) VO15.junk, accA15 V c ⟨0, hn⟩ (Nat.zero_mod _) (by simp))
  | n + 1, hn =>
    if h0 : (n + 1) % 4 = 0 then
      if h1 : (n + 1) % 4 = 3 then False.elim (by omega)
      else (VO15.read (Elt F) VO15.junk, accA15 V c ⟨n + 1, hn⟩ h0 h1)
    else
      if h1 : (n + 1) % 4 = 3 then
        (outC15 V c ⟨n + 1, hn⟩ h0 h1 (outsAt15 c n (Nat.lt_of_succ_lt hn)).2, accC15 V c ⟨n + 1, hn⟩ h0 h1 (outsAt15 c n (Nat.lt_of_succ_lt hn)).2)
      else
        (VO15.read (Elt F) VO15.junk, accB15 V c ⟨n + 1, hn⟩ h0 h1 (outsAt15 c n (Nat.lt_of_succ_lt hn)).2)

theorem outsAt15_A (c : Dev nD) (t : Fin cfg15.N) (h0 : t.val % 4 = 0) (h1 : ¬t.val % 4 = 3) :
    outsAt15 V c t.val t.isLt = (VO15.read (Elt F) VO15.junk, accA15 V c t h0 h1) := by
  obtain ⟨n, hn⟩ := t
  cases n with
  | zero => exact rfl
  | succ n => exact (dif_pos h0).trans ((dif_neg h1).trans rfl)

theorem outsAt15_B (c : Dev nD) (t : Fin cfg15.N) (h0 : ¬t.val % 4 = 0) (h1 : ¬t.val % 4 = 3) :
    outsAt15 V c t.val t.isLt = (VO15.read (Elt F) VO15.junk, accB15 V c t h0 h1 (outsAt15 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt15_C (c : Dev nD) (t : Fin cfg15.N) (h0 : ¬t.val % 4 = 0) (h1 : t.val % 4 = 3) :
    outsAt15 V c t.val t.isLt = (outC15 V c t h0 h1 (outsAt15 V c (t.val - 1) (Nat.lt_of_le_of_lt (Nat.sub_le _ _) t.isLt)).2,
      accC15 V c t h0 h1 (outsAt15 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant between points -/

/-- Before the first point the launch's scoped buffers that no window stages, whole; afterwards the accumulator at
    what the point before left, and the other such buffers unopened. -/
def PhiS15 (c : Dev nD) : (n : ℕ) → n ≤ cfg15.N → sProp 𝕄
  | 0, _ => Pipeline.scopedRest (Ix := Unit) (Name := ℕ) (U := UR sig nD τ × Counters) (Lvl := ℕ) (Val := Elt F) spec15 c
  | n + 1, hn => iprop(owns (c : Thread nD τ) scM15 fullShare (outsAt15 V c n hn).2
      ∗ Pipeline.scopedRestBut (Ix := Unit) (Name := ℕ) (U := UR sig nD τ × Counters) (Lvl := ℕ) (Val := Elt F) spec15 c [cc15_scratch0])

theorem PhiS15_pos (c : Dev nD) (n : ℕ) (h : n ≤ cfg15.N) (hz : n ≠ 0) :
    PhiS15 V c n h = iprop(owns (c : Thread nD τ) scM15 fullShare (outsAt15 V c (n - 1) (by omega)).2
      ∗ Pipeline.scopedRestBut (Ix := Unit) (Name := ℕ) (U := UR sig nD τ × Counters) (Lvl := ℕ) (Val := Elt F) spec15 c [cc15_scratch0]) := by
  cases n with
  | zero => exact absurd rfl hz
  | succ n => rfl

/-- The scoped rest with the accumulator split out as a memref owned at some contents. -/
theorem scopedRest15_eq (c : Dev nD) :
    (Pipeline.scopedRest (Ix := Unit) (Name := ℕ) (U := UR sig nD τ × Counters) (Lvl := ℕ) (Val := Elt F) spec15 c : sProp 𝕄)
      = iprop((∃ d, owns (c : Thread nD τ) scM15 fullShare d)
          ∗ Pipeline.scopedRestBut (Ix := Unit) (Name := ℕ) (U := UR sig nD τ × Counters) (Lvl := ℕ) (Val := Elt F) spec15 c [cc15_scratch0]) := by
  rw [scopedRest15_split]; simp only [scM15, owns_whole]; try rfl

/-! ## The proof data -/

def dat15 (c : Dev nD) : Dat τ (Elt F) Unit ℕ (UR sig nD τ × Counters) ℕ cfg15 c where
  A w := V c (Pipeline.arrRef spec15 w)
  after w t := match w with
    | ⟨0, _⟩ => iblk15 V c 0 t
    | ⟨1, _⟩ => iblk15 V c 1 t
    | ⟨2, _⟩ => (outsAt15 V c t.val t.isLt).1
  Φ t := PhiS15 V c t.val (Nat.le_of_lt_succ t.isLt)
  q _ := fullShare
  owed _ := 0

theorem A15_eq (c : Dev nD) (w : Fin cfg15.W) : (dat15 V c).A w = V c (Pipeline.arrRef spec15 w) := by
  dsimp only [dat15]
theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = (outsAt15 V c t.val t.isLt).1 := by dsimp only [dat15]

theorem Phi15_castSucc (c : Dev nD) (t : Fin cfg15.N) :
    (dat15 V c).Φ t.castSucc = PhiS15 V c t.val (Nat.le_of_lt t.isLt) := by
  dsimp only [dat15]; simp only [Fin.coe_castSucc]

/-- Each input window's current staging buffer holds its block at every point, fetched there or not. -/
theorem before15_0 (c : Dev nD) (t : Fin cfg15.N) (d) : (dat15 V c).before 0 t d = iblk15 V c 0 t :=
  ((dat15 V c).before_in_eq_fetched 0 rfl (fun _ => rfl) (fun _ _ _ => rfl) (fun t => by rw [after15_0]; unfold Dat.blockOf iblk15; rw [A15_eq]; try rfl) t d).trans
    (by unfold Dat.fetched Dat.blockOf iblk15; rw [A15_eq]; try rfl)
theorem before15_1 (c : Dev nD) (t : Fin cfg15.N) (d) : (dat15 V c).before 1 t d = iblk15 V c 1 t :=
  ((dat15 V c).before_in_eq_fetched 1 rfl (fun _ => rfl) (fun _ _ _ => rfl) (fun t => by rw [after15_1]; unfold Dat.blockOf iblk15; rw [A15_eq]; try rfl) t d).trans
    (by unfold Dat.fetched Dat.blockOf iblk15; rw [A15_eq]; try rfl)

/-! ## The body obligation at a generic point -/

def bodyPre15 (c : Dev nD) (t : Fin cfg15.N) : sProp 𝕄 :=
  iprop((dat15 V c).Φ t.castSucc ∗ (dat15 V c).owesAt () t.castSucc
    ∗ (∃ d, owns (c : Thread nD τ) (ms15_0 t) fullShare ((dat15 V c).before 0 t d))
    ∗ (∃ d, owns (c : Thread nD τ) (ms15_1 t) fullShare ((dat15 V c).before 1 t d))
    ∗ (∃ d, owns (c : Thread nD τ) (ms15_2 t) fullShare ((dat15 V c).before 2 t d)))

def bodyPost15 (c : Dev nD) (t : Fin cfg15.N) : sProp 𝕄 :=
  iprop((dat15 V c).Φ t.succ ∗ (dat15 V c).owesAt () t.succ
    ∗ (dat15 V c).leavesExact 0 t ∗ (dat15 V c).leavesExact 1 t ∗ (dat15 V c).leavesExact 2 t)

set_option maxHeartbeats 4000000 in
/-- The body at any point. The three input buffers hold their blocks; the point's position in its contraction
    selects the case; the invariant hands over the accumulator (at anything before the very first point, else at
    what the point before left) and takes it back at this point's contents; an idle output buffer is handed back
    as found, a stored one at the case's block; the core owes nothing throughout. -/
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1]
  rw [show (dat15 V c).owesAt () t.succ = (dat15 V c).owesAt () t.castSucc from rfl]
  rw [show (dat15 V c).Φ t.succ = iprop(owns (c : Thread nD τ) scM15 fullShare (outsAt15 V c t.val t.isLt).2
      ∗ Pipeline.scopedRestBut (Ix := Unit) (Name := ℕ) (U := UR sig nD τ × Counters) (Lvl := ℕ) (Val := Elt F) spec15 c [cc15_scratch0]) from rfl]
  have hN : t.val < 16 := lt_of_lt_of_eq t.isLt (show cfg15.N = 16 from N_15)
  rw [show (dat15 V c).leavesExact 0 t = owns (c : Thread nD τ) (ms15_0 t) fullShare (iblk15 V c 0 t) from by
    unfold Dat.leavesExact; rw [liveAt15_0 t, after15_0]]
  rw [show (dat15 V c).leavesExact 1 t = owns (c : Thread nD τ) (ms15_1 t) fullShare (iblk15 V c 1 t) from by
    unfold Dat.leavesExact; rw [liveAt15_1 t, after15_1]]
  rw [Phi15_castSucc V c t]
  by_cases h1 : t.val % 4 = 3
  · -- the last block of a contraction
    have h0 : ¬t.val % 4 = 0 := by omega
    have hz : t.val ≠ 0 := by omega
    rw [show (dat15 V c).leavesExact 2 t = owns (c : Thread nD τ) (ms15_2 t) fullShare (outsAt15 V c t.val t.isLt).1 from by
      unfold Dat.leavesExact; rw [liveAt15_2 t ((hcond15_1 t).mpr h1), after15_2]]
    rw [outsAt15_C V c t h0 h1, PhiS15_pos V c _ _ hz]
    dsimp only
    unfold outC15 accC15
    iintro ⟨⟨HS, Hb⟩, Ho, ⟨%d0, H0⟩, ⟨%d1, H1⟩, ⟨%d3, H3⟩⟩
    iapply ((run15_C c (grid15.coords t) (ms15_0 t) (hs15_0 t) (ms15_1 t) (hs15_1 t) (ms15_2 t) (hs15_2 t) scM15 (Memref.isWhole_whole _) (fun h => h0 ((hcond15_0 t).mp h)) ((hcond15_1 t).mpr h1) (iblk15 V c 0 t) (iblk15 V c 1 t) _).2.2 Set.univ _)
    isplitl [H0]; · iexact H0
    isplitl [H1]; · iexact H1
    isplitl [H3]; · iexists _; iexact H3
    isplitl [HS]; · iexact HS
    iintro ⟨H0, H1, ⟨%e3, H3⟩, ⟨%es, HS⟩⟩
    isplitl [HS Hb]
    · isplitl [HS]
      · unfold owns; iexists _; isplitr
        swap; · iexact HS
        ipureintro; exact View.read_writes_of_cover _ _ _ _ _ (coverCs15 V c t h0 h1 _)
      iexact Hb
    isplitl [Ho]; · iexact Ho
    isplitl [H0]; · iexact H0
    isplitl [H1]; · iexact H1
    unfold owns; iexists _; isplitr
    swap; · iexact H3
    ipureintro; exact View.read_writes_of_cover _ _ _ _ _ (coverCo15 V c t h0 h1 _)
  · rw [Dat.leavesExact_idle (dat15 V c) 2 t (idleAt15_2 t (fun h => h1 ((hcond15_1 t).mp h))) (noFlush15_2 t (fun h => h1 ((hcond15_1 t).mp h)))]
    by_cases h0 : t.val % 4 = 0
    · -- the first block of a contraction
      rw [outsAt15_A V c t h0 h1]
      dsimp only
      unfold accA15
      by_cases hz : t.val = 0
      · rw [show PhiS15 V c t.val (Nat.le_of_lt t.isLt) = Pipeline.scopedRest (Ix := Unit) (Name := ℕ) (U := UR sig nD τ × Counters) (Lvl := ℕ) (Val := Elt F) spec15 c from by
          obtain ⟨n, hn⟩ := t; dsimp only at hz; subst hz; rfl, scopedRest15_eq]
        iintro ⟨⟨HS, Hb⟩, Ho, ⟨%d0, H0⟩, ⟨%d1, H1⟩, ⟨%d3, H3⟩⟩
        iapply ((run15_A c (grid15.coords t) (ms15_0 t) (hs15_0 t) (ms15_1 t) (hs15_1 t) (ms15_2 t) (hs15_2 t) scM15 (Memref.isWhole_whole _) ((hcond15_0 t).mpr h0) (fun h => h1 ((hcond15_1 t).mp h)) (iblk15 V c 0 t) (iblk15 V c 1 t)).2 _ Set.univ _)
        isplitl [H0]; · iexact H0
        isplitl [H1]; · iexact H1
        isplitl [H3]; · iexact H3
        isplitl [HS]; · iexact HS
        iintro ⟨H0, H1, H3, ⟨%es, HS⟩⟩
        isplitl [HS Hb]
        · isplitl [HS]
          · unfold owns; iexists _; isplitr
            swap; · iexact HS
            ipureintro; exact View.read_writes_of_cover _ _ _ _ _ (coverA15 V c t h0 h1)
          iexact Hb
        isplitl [Ho]; · iexact Ho
        isplitl [H0]; · iexact H0
        isplitl [H1]; · iexact H1
        iexists _; iexact H3
      · rw [PhiS15_pos V c _ _ hz]
        iintro ⟨⟨HS, Hb⟩, Ho, ⟨%d0, H0⟩, ⟨%d1, H1⟩, ⟨%d3, H3⟩⟩
        iapply ((run15_A c (grid15.coords t) (ms15_0 t) (hs15_0 t) (ms15_1 t) (hs15_1 t) (ms15_2 t) (hs15_2 t) scM15 (Memref.isWhole_whole _) ((hcond15_0 t).mpr h0) (fun h => h1 ((hcond15_1 t).mp h)) (iblk15 V c 0 t) (iblk15 V c 1 t)).2 _ Set.univ _)
        isplitl [H0]; · iexact H0
        isplitl [H1]; · iexact H1
        isplitl [H3]; · iexact H3
        isplitl [HS]; · iexists _; iexact HS
        iintro ⟨H0, H1, H3, ⟨%es, HS⟩⟩
        isplitl [HS Hb]
        · isplitl [HS]
          · unfold owns; iexists _; isplitr
            swap; · iexact HS
            ipureintro; exact View.read_writes_of_cover _ _ _ _ _ (coverA15 V c t h0 h1)
          iexact Hb
        isplitl [Ho]; · iexact Ho
        isplitl [H0]; · iexact H0
        isplitl [H1]; · iexact H1
        iexists _; iexact H3
    · -- a middle block
      have hz : t.val ≠ 0 := by omega
      rw [outsAt15_B V c t h0 h1, PhiS15_pos V c _ _ hz]
      dsimp only
      unfold accB15
      iintro ⟨⟨HS, Hb⟩, Ho, ⟨%d0, H0⟩, ⟨%d1, H1⟩, ⟨%d3, H3⟩⟩
      iapply ((run15_B c (grid15.coords t) (ms15_0 t) (hs15_0 t) (ms15_1 t) (hs15_1 t) (ms15_2 t) (hs15_2 t) scM15 (Memref.isWhole_whole _) (fun h => h0 ((hcond15_0 t).mp h)) (fun h => h1 ((hcond15_1 t).mp h)) (iblk15 V c 0 t) (iblk15 V c 1 t) _).2 _ Set.univ _)
      isplitl [H0]; · iexact H0
      isplitl [H1]; · iexact H1
      isplitl [H3]; · iexact H3
      isplitl [HS]; · iexact HS
      iintro ⟨H0, H1, H3, ⟨%es, HS⟩⟩
      isplitl [HS Hb]
      · isplitl [HS]
        · unfold owns; iexists _; isplitr
          swap; · iexact HS
          ipureintro; exact View.read_writes_of_cover _ _ _ _ _ (coverB15 V c t h0 h1 _)
        iexact Hb
      isplitl [Ho]; · iexact Ho
      isplitl [H0]; · iexact H0
      isplitl [H1]; · iexact H1
      iexists _; iexact H3

theorem body_obligation15 (c : Dev nD) : BodyObligation (dat15 V c) (defs₀ (F := F)) Variants.none () Set.univ := fun t => by
  rw [bigSep_W15, bigSep_W15]
  exact sound_body15 V c t

/-! ## The region over the thread state -/

variable (Vp : (c : Dev nD) → (b : Ref sig .tc) → Buf (Elt F) ((c : Thread nD τ).loc b))
variable (pdats : (p : Fin 22) → (c : Dev nD) → Dat τ (Elt F) Unit ℕ (UR sig nD τ × Counters) ℕ (cfgs p) c)

/-- The result's array after the region, as the pipeline library computes it from the proof data. -/
def out15 (c : Dev nD) : Buf (Elt F) ((c : Thread nD τ).loc main_v33) := (dat15 V c).arrAt 2 cfg15.N

set_option backward.isDefEq.respectTransparency.types false in
set_option maxHeartbeats 2000000 in
/-- Launch 15 over the thread state "every unscoped buffer at `V c`, the core owing nothing": entered by
    splitting its three arrays out of the unscoped buffers, left with them put back at `Vp c`, which has the
    result's array at `out15` and agrees with `V c` elsewhere. -/
def reg15 (hp : ∀ c, pdats 15 c = dat15 V c)
    (hVp_out : ∀ c, Vp c main_v33 = out15 V c)
    (hVp_ne : ∀ c (b : Ref sig .tc), b ≠ main_v33 → Vp c b = V c b) :
    Pipeline.RegionSeg (pcfgs (F := F)) (fun p => (cfgs p).toPCfg_adm) pdats () defs₀ Variants.none (fun _ => (∅ : Finset Unit)) (fun _ _ => (0 : ℕ)) 15 where
  win := launch15.win.to₀
  block_pos := launch15.block_pos
  stage_whole := launch15.stage_whole
  K := PEmpty
  osem k := k.elim
  ho := Pipeline.OwnSemFacts.none _
  hbody c := by rw [hp c]; exact (body_obligation15 V c).loose
  hwaits := Pipeline.hwaits_of_owed_zero _ _ _ _ _ _ 15 fun c t => by rw [hp c]; rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ × Counters) (Lvl := ℕ) spec15 c (V c)
  hentry c := by
    rw [Pipeline.ownSems0_none]
    have hsplit := Pipeline.arrays_of_unscopedBufs (p := 15) (pcfgs (F := F)) (fun p => (cfgs p).toPCfg_adm) pdats launch15.win launch15.arr_whole c
      ((pdats 15 c).share_full fun w => by rw [hp c]; rfl) (V c) (fun w => by rw [hp c]; rfl)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hp c]
      unfold Pipeline.Dat.owesAt Pipeline.owesWithin
      icases HO with ⟨%W, HO⟩; iexists W; isplitr; · ipureintro; exact fun _ _ => Or.inl trivial
      iexact HO
    isplitr; · iempintro
    iexact Hrest
  hin c := by
    rw [hp c, show (dat15 V c).Φ 0 = Pipeline.scopedRest (Ix := Unit) (Name := ℕ) (U := UR sig nD τ × Counters) (Lvl := ℕ) (Val := Elt F) spec15 c from rfl]
    iintro ⟨-, -, Hr⟩; iexact Hr
  hout c := by
    rw [Pipeline.ownSems0_none, hp c]
    refine (Entails.of_eq ((show (dat15 V c).Φ (Fin.last _) = PhiS15 V c (Fin.last cfg15.N).val (Nat.le_of_lt_succ (Fin.last cfg15.N).isLt) from rfl).trans
      (PhiS15_pos V c _ _ (by rw [Fin.val_last]; have : cfg15.N = 16 := N_15; omega)))).trans ?_
    change _ ⊢ iprop(BI.emp ∗ BI.emp ∗ Pipeline.scopedRest (Ix := Unit) (Name := ℕ) (U := UR sig nD τ × Counters) (Lvl := ℕ) (Val := Elt F) spec15 c)
    rw [scopedRest15_eq]
    iintro ⟨HS, Hb⟩
    isplitr; · iempintro
    isplitr; · iempintro
    isplitl [HS]; · iexists _; iexact HS
    iexact Hb
  hexit c := by
    have hjoin := Pipeline.unscopedBufs_of_arrays (p := 15) (pcfgs (F := F)) (fun p => (cfgs p).toPCfg_adm) (Ix := Unit) (Name := ℕ) (U := UR sig nD τ × Counters) (Lvl := ℕ) launch15.win launch15.arr_whole c
      pdats ((pdats 15 c).share_full fun w => by rw [hp c]; rfl) (V c) (Vp c) ((pdats 15 c).arrAt · cfg15.N)
      (fun w => by
        fin_cases w
        · exact (((pdats 15 c).arrAt_in 0 rfl _).trans (by rw [hp c]; rfl)).trans (hVp_ne c main_v0 (by decide)).symm
        · exact (((pdats 15 c).arrAt_in 1 rfl _).trans (by rw [hp c]; rfl)).trans (hVp_ne c main_v32 (by decide)).symm
        · exact (by rw [hp c]; rfl : (pdats 15 c).arrAt 2 cfg15.N = out15 V c).trans (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W
    rw [show (pdats 15 c).owed (Fin.last _) = 0 from by rw [hp c]; rfl]
    iexact HO

end Cert.Kernel.Hand

end
-- ==== Proof.KB.R16Base.lean ====
/-
  Launch 16 of the program: one matrix product per grid point — the contraction is a single block —, a bias row
  added and tanh applied, the output block stored at every point. The grid's third coordinate is always 0, so both
  conditions of the body — "the contraction's first block" and "its last block" — hold at every point: this module
  decides them over the grid's points, records that no window is ever idle, and names the staging memrefs the body
  is called with.
-/
import proofs.«113214_j66838281060556_2_alg».proof.Proof.Gen.Kernel.Launch
import proofs.«113214_j66838281060556_2_alg».proof.Proof.Gen.Kernel.Skeleton
import proofs.«113214_j66838281060556_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

/-- The accumulator is reset: the point starts a contraction (third grid coordinate 0). Here the third axis has one
    coordinate, so every point does. -/
abbrev cond16_0 (i : grid16.Coords) : Prop := (Scalar.cmpi .ne (Scalar.extui (Scalar.cmpi .eq (BitVec.ofNat 32 (i 2).val) 0#32)) 0#32) = 1#1
theorem hcond16_0 : ∀ t : Fin cfg16.N, cond16_0 (grid16.coords t) :=
  (by decide +kernel : ∀ t : Fin grid16.N, cond16_0 (grid16.coords t))

/-- The result is stored: the point ends a contraction. Every point does. -/
abbrev cond16_1 (i : grid16.Coords) : Prop := k16_cond2 i = 1#1
theorem hcond16_1 : ∀ t : Fin cfg16.N, cond16_1 (grid16.coords t) :=
  (by decide +kernel : ∀ t : Fin grid16.N, cond16_1 (grid16.coords t))

/-- No window is idle at any point: the three inputs never, the output because every point stores. -/
theorem liveAt16_0 : ∀ t : Fin cfg16.N, cfg16.idle 0 (grid16.coords t) = false := by decide +kernel
theorem liveAt16_1 : ∀ t : Fin cfg16.N, cfg16.idle 1 (grid16.coords t) = false := by decide +kernel
theorem liveAt16_2 : ∀ t : Fin cfg16.N, cfg16.idle 2 (grid16.coords t) = false := by decide +kernel
theorem liveAt16_3 : ∀ t : Fin cfg16.N, cfg16.idle 3 (grid16.coords t) = false := by decide +kernel

/-- Each window's current staging memref at a point, as the pipeline passes it, and its wholeness. -/
abbrev ms16_0 (t : Fin cfg16.N) : Memref sig .tc .vmem S1024x819 .bf16 := win16_0.stage (cfg16.slots t 0)
abbrev hs16_0 (t : Fin cfg16.N) : (ms16_0 t).IsWhole := hstage16_0 ((cfg16.slots t 0).cast nbuf16_0)
abbrev ms16_1 (t : Fin cfg16.N) : Memref sig .tc .vmem S819x1024 .f32 := win16_1.stage (cfg16.slots t 1)
abbrev hs16_1 (t : Fin cfg16.N) : (ms16_1 t).IsWhole := hstage16_1 ((cfg16.slots t 1).cast nbuf16_1)
abbrev ms16_2 (t : Fin cfg16.N) : Memref sig .tc .vmem S1x1024 .f32 := win16_2.stage (cfg16.slots t 2)
abbrev hs16_2 (t : Fin cfg16.N) : (ms16_2 t).IsWhole := hstage16_2 ((cfg16.slots t 2).cast nbuf16_2)
abbrev ms16_3 (t : Fin cfg16.N) : Memref sig .tc .vmem S1024x1024 .f32 := win16_3.stage (cfg16.slots t 3)
abbrev hs16_3 (t : Fin cfg16.N) : (ms16_3 t).IsWhole := hstage16_3 ((cfg16.slots t 3).cast nbuf16_3)
/-- The accumulator: a whole scoped buffer of the launch's own. -/
abbrev scM16 : Memref sig .tc .vmem S1024x1024 .f32 := Memref.whole cc16_scratch0
abbrev VS16 : View sig .tc .vmem S1024x1024 .f32 := scM16.view

end Cert.Kernel.Hand

end
-- ==== Proof.KB.R16Run.lean ====
/-
  Launch 16, the body run symbolically in its one control case: the accumulator reset, the product added, the bias
  row added and tanh applied into the output block. The run's witnesses are the lists of pieces its stores leave in
  the output block and in the accumulator.
-/
import proofs.«113214_j66838281060556_2_alg».proof.Proof.KB.R16Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

set_option maxHeartbeats 2000000 in
/-- The body at a point, run symbolically: the accumulator, found at anything, is reset to zero and ends at the
    product of the two input blocks added to zero; the output block, found at anything, is stored whole: tanh of
    that sum plus the bias row. The witnesses are the pieces the stores leave in the output block and in the
    accumulator. -/
noncomputable def run16 (c : Dev nD) (i : grid16.Coords) (arg3 : Memref sig .tc .vmem S1024x819 .bf16) (harg3 : arg3.IsWhole) (arg4 : Memref sig .tc .vmem S819x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond16_0 i) (hc1 : cond16_1 i)
    (x0 : Vec F S1024x819 .bf16) (x1 : Vec F S819x1024 .f32) (x2 : Vec F S1x1024 .f32) :
    Σ' (LO : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LS)) -∗ K ⟨⟩))
          ⊢ wp frame (wpE (defs₀ (F := F)) Variants.none c none) E (cc16__mm_kernel i arg3 harg3 arg4 harg4 arg5 harg5 arg6 harg6 arg7 harg7) K } := by
  refine ⟨?_, ?_, fun E K => ?run⟩
  case run =>
    simp only [cc16__mm_kernel_eq_skeleton]; unfold cc16__mm_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    iexists _; iexact HS

end Cert.Kernel.Hand

end
-- ==== Proof.KB.R16.lean ====
/-
  Launch 16 as a region of the program. The blocks the windows stage are read off the arrays as the region finds
  them; a point stores the output block its run leaves; the accumulator is reset at every point, so between points
  the launch's scoped buffers that no window stages are simply held whole at anything; the body obligation follows
  from the one symbolic run; and the region is stated over the thread state "every unscoped buffer at given
  contents, the core owing nothing", entered by splitting its arrays out and left with the result's array
  at what the pipeline computes from the stored blocks.
-/
import proofs.«113214_j66838281060556_2_alg».proof.Proof.KB.R16Run
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

variable (V : (c : Dev nD) → (b : Ref sig .tc) → Buf (Elt F) ((c : Thread nD τ).loc b))

/-! ## The blocks the windows stage -/

/-- Window `w`'s block at point `t`, read off its array as the region finds it. -/
def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-- A view of the output's staging buffer, through which contents are stated. -/
abbrev VO16 : View sig .tc .vmem S1024x1024 .f32 := (Memref.whole cc16_stg3_0 : Memref sig .tc .vmem S1024x1024 .f32).view

/-! ## What a point leaves -/

/-- The output block a point stores: what the run's pieces leave, read through the staging buffer's view. -/
def out16 (c : Dev nD) (t : Fin cfg16.N) : Vec F S1024x1024 .f32 :=
  VO16.read (Elt F) (VO16.writes (Elt F) VO16.junk (run16 c (grid16.coords t) (ms16_0 t) (hs16_0 t) (ms16_1 t) (hs16_1 t) (ms16_2 t) (hs16_2 t) (ms16_3 t) (hs16_3 t) scM16 (Memref.isWhole_whole _) (hcond16_0 t) (hcond16_1 t) (iblk16 V c 0 t) (iblk16 V c 1 t) (iblk16 V c 2 t)).1)

/-- The stores into the output block cover it. -/
theorem coverO16 (c : Dev nD) (t : Fin cfg16.N) (y : S1024x1024.Idx) :
    ∃ pc ∈ (run16 c (grid16.coords t) (ms16_0 t) (hs16_0 t) (ms16_1 t) (hs16_1 t) (ms16_2 t) (hs16_2 t) (ms16_3 t) (hs16_3 t) scM16 (Memref.isWhole_whole _) (hcond16_0 t) (hcond16_1 t) (iblk16 V c 0 t) (iblk16 V c 1 t) (iblk16 V c 2 t)).1, y ∈ pc.1.set :=
  View.cover_of_tiledL _ S1024x1024.size (by sl_kernel_rfl) y

/-! ## The invariant between points -/

/-- The scoped rest with the accumulator split out as a memref owned at some contents. The accumulator is reset at
    every point, so the invariant between points is the scoped rest itself, the accumulator at anything. -/
theorem scopedRest16_eq (c : Dev nD) :
    (Pipeline.scopedRest (Ix := Unit) (Name := ℕ) (U := UR sig nD τ × Counters) (Lvl := ℕ) (Val := Elt F) spec16 c : sProp 𝕄)
      = iprop((∃ d, owns (c : Thread nD τ) scM16 fullShare d)
          ∗ Pipeline.scopedRestBut (Ix := Unit) (Name := ℕ) (U := UR sig nD τ × Counters) (Lvl := ℕ) (Val := Elt F) spec16 c [cc16_scratch0]) := by
  rw [scopedRest16_split]; simp only [scM16, owns_whole]; try rfl

/-! ## The proof data -/

def dat16 (c : Dev nD) : Dat τ (Elt F) Unit ℕ (UR sig nD τ × Counters) ℕ cfg16 c where
  A w := V c (Pipeline.arrRef spec16 w)
  after w t := match w with
    | ⟨0, _⟩ => iblk16 V c 0 t
    | ⟨1, _⟩ => iblk16 V c 1 t
    | ⟨2, _⟩ => iblk16 V c 2 t
    | ⟨3, _⟩ => out16 V c t
  Φ _ := Pipeline.scopedRest (Ix := Unit) (Name := ℕ) (U := UR sig nD τ × Counters) (Lvl := ℕ) (Val := Elt F) spec16 c
  q _ := fullShare
  owed _ := 0

theorem A16_eq (c : Dev nD) (w : Fin cfg16.W) : (dat16 V c).A w = V c (Pipeline.arrRef spec16 w) := by
  dsimp only [dat16]
theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = iblk16 V c 2 t := by dsimp only [dat16]
theorem after16_3 (c : Dev nD) (t : Fin cfg16.N) : (dat16 V c).after 3 t = out16 V c t := by dsimp only [dat16]

/-- Each input window's current staging buffer holds its block at every point, fetched there or not. -/
theorem before16_0 (c : Dev nD) (t : Fin cfg16.N) (d) : (dat16 V c).before 0 t d = iblk16 V c 0 t :=
  ((dat16 V c).before_in_eq_fetched 0 rfl (fun _ => rfl) (fun _ _ _ => rfl) (fun t => by rw [after16_0]; unfold Dat.blockOf iblk16; rw [A16_eq]; try rfl) t d).trans
    (by unfold Dat.fetched Dat.blockOf iblk16; rw [A16_eq]; try rfl)
theorem before16_1 (c : Dev nD) (t : Fin cfg16.N) (d) : (dat16 V c).before 1 t d = iblk16 V c 1 t :=
  ((dat16 V c).before_in_eq_fetched 1 rfl (fun _ => rfl) (fun _ _ _ => rfl) (fun t => by rw [after16_1]; unfold Dat.blockOf iblk16; rw [A16_eq]; try rfl) t d).trans
    (by unfold Dat.fetched Dat.blockOf iblk16; rw [A16_eq]; try rfl)
theorem before16_2 (c : Dev nD) (t : Fin cfg16.N) (d) : (dat16 V c).before 2 t d = iblk16 V c 2 t :=
  ((dat16 V c).before_in_eq_fetched 2 rfl (fun _ => rfl) (fun _ _ _ => rfl) (fun t => by rw [after16_2]; unfold Dat.blockOf iblk16; rw [A16_eq]; try rfl) t d).trans
    (by unfold Dat.fetched Dat.blockOf iblk16; rw [A16_eq]; try rfl)

/-! ## The body obligation at a generic point -/

def bodyPre16 (c : Dev nD) (t : Fin cfg16.N) : sProp 𝕄 :=
  iprop((dat16 V c).Φ t.castSucc ∗ (dat16 V c).owesAt () t.castSucc
    ∗ (∃ d, owns (c : Thread nD τ) (ms16_0 t) fullShare ((dat16 V c).before 0 t d))
    ∗ (∃ d, owns (c : Thread nD τ) (ms16_1 t) fullShare ((dat16 V c).before 1 t d))
    ∗ (∃ d, owns (c : Thread nD τ) (ms16_2 t) fullShare ((dat16 V c).before 2 t d))
    ∗ (∃ d, owns (c : Thread nD τ) (ms16_3 t) fullShare ((dat16 V c).before 3 t d)))

def bodyPost16 (c : Dev nD) (t : Fin cfg16.N) : sProp 𝕄 :=
  iprop((dat16 V c).Φ t.succ ∗ (dat16 V c).owesAt () t.succ
    ∗ (dat16 V c).leavesExact 0 t ∗ (dat16 V c).leavesExact 1 t ∗ (dat16 V c).leavesExact 2 t ∗ (dat16 V c).leavesExact 3 t)

set_option maxHeartbeats 4000000 in
/-- The body at any point. The input buffers hold their blocks; the invariant hands over the accumulator at
    anything and takes it back at anything; the output buffer, found at anything, is handed back at the block the
    point stores; the core owes nothing throughout. -/
theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1, before16_2]
  rw [show (dat16 V c).owesAt () t.succ = (dat16 V c).owesAt () t.castSucc from rfl]
  rw [show (dat16 V c).Φ t.succ = Pipeline.scopedRest (Ix := Unit) (Name := ℕ) (U := UR sig nD τ × Counters) (Lvl := ℕ) (Val := Elt F) spec16 c from rfl,
    show (dat16 V c).Φ t.castSucc = Pipeline.scopedRest (Ix := Unit) (Name := ℕ) (U := UR sig nD τ × Counters) (Lvl := ℕ) (Val := Elt F) spec16 c from rfl]
  rw [show (dat16 V c).leavesExact 0 t = owns (c : Thread nD τ) (ms16_0 t) fullShare (iblk16 V c 0 t) from by
    unfold Dat.leavesExact; rw [liveAt16_0 t, after16_0]]
  rw [show (dat16 V c).leavesExact 1 t = owns (c : Thread nD τ) (ms16_1 t) fullShare (iblk16 V c 1 t) from by
    unfold Dat.leavesExact; rw [liveAt16_1 t, after16_1]]
  rw [show (dat16 V c).leavesExact 2 t = owns (c : Thread nD τ) (ms16_2 t) fullShare (iblk16 V c 2 t) from by
    unfold Dat.leavesExact; rw [liveAt16_2 t, after16_2]]
  rw [show (dat16 V c).leavesExact 3 t = owns (c : Thread nD τ) (ms16_3 t) fullShare (out16 V c t) from by
    unfold Dat.leavesExact; rw [liveAt16_3 t, after16_3]]
  rw [scopedRest16_eq]
  unfold out16
  iintro ⟨⟨HS, Hb⟩, Ho, ⟨%d0, H0⟩, ⟨%d1, H1⟩, ⟨%d2, H2⟩, ⟨%d3, H3⟩⟩
  iapply ((run16 c (grid16.coords t) (ms16_0 t) (hs16_0 t) (ms16_1 t) (hs16_1 t) (ms16_2 t) (hs16_2 t) (ms16_3 t) (hs16_3 t) scM16 (Memref.isWhole_whole _) (hcond16_0 t) (hcond16_1 t) (iblk16 V c 0 t) (iblk16 V c 1 t) (iblk16 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS Hb]
  · isplitl [HS]
    · iexists _; unfold owns; iexists _; isplitr
      swap; · iexact HS
      ipureintro; rfl
    iexact Hb
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (coverO16 V c t)

theorem body_obligation16 (c : Dev nD) : BodyObligation (dat16 V c) (defs₀ (F := F)) Variants.none () Set.univ := fun t => by
  rw [bigSep_W16, bigSep_W16]
  exact sound_body16 V c t

/-! ## The region over the thread state -/

variable (Vp : (c : Dev nD) → (b : Ref sig .tc) → Buf (Elt F) ((c : Thread nD τ).loc b))
variable (pdats : (p : Fin 22) → (c : Dev nD) → Dat τ (Elt F) Unit ℕ (UR sig nD τ × Counters) ℕ (cfgs p) c)

/-- The result's array after the region, as the pipeline library computes it from the proof data. -/
def out16arr (c : Dev nD) : Buf (Elt F) ((c : Thread nD τ).loc main_v35) := (dat16 V c).arrAt 3 cfg16.N

set_option backward.isDefEq.respectTransparency.types false in
set_option maxHeartbeats 2000000 in
/-- Launch 16 over the thread state "every unscoped buffer at `V c`, the core owing nothing": entered by
    splitting its arrays out of the unscoped buffers, left with them put back at `Vp c`, which has the
    result's array at `out16arr` and agrees with `V c` elsewhere. -/
def reg16 (hp : ∀ c, pdats 16 c = dat16 V c)
    (hVp_out : ∀ c, Vp c main_v35 = out16arr V c)
    (hVp_ne : ∀ c (b : Ref sig .tc), b ≠ main_v35 → Vp c b = V c b) :
    Pipeline.RegionSeg (pcfgs (F := F)) (fun p => (cfgs p).toPCfg_adm) pdats () defs₀ Variants.none (fun _ => (∅ : Finset Unit)) (fun _ _ => (0 : ℕ)) 16 where
  win := launch16.win.to₀
  block_pos := launch16.block_pos
  stage_whole := launch16.stage_whole
  K := PEmpty
  osem k := k.elim
  ho := Pipeline.OwnSemFacts.none _
  hbody c := by rw [hp c]; exact (body_obligation16 V c).loose
  hwaits := Pipeline.hwaits_of_owed_zero _ _ _ _ _ _ 16 fun c t => by rw [hp c]; rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ × Counters) (Lvl := ℕ) spec16 c (V c)
  hentry c := by
    rw [Pipeline.ownSems0_none]
    have hsplit := Pipeline.arrays_of_unscopedBufs (p := 16) (pcfgs (F := F)) (fun p => (cfgs p).toPCfg_adm) pdats launch16.win launch16.arr_whole c
      ((pdats 16 c).share_full fun w => by rw [hp c]; rfl) (V c) (fun w => by rw [hp c]; rfl)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hp c]; exact trivial)
      rw [show (pdats 16 c).owed 0 = 0 from by rw [hp c]; rfl]
      iexact HO
    isplitr; · iempintro
    iexact Hrest
  hin c := by
    rw [hp c, show (dat16 V c).Φ 0 = Pipeline.scopedRest (Ix := Unit) (Name := ℕ) (U := UR sig nD τ × Counters) (Lvl := ℕ) (Val := Elt F) spec16 c from rfl]
    iintro ⟨-, -, Hr⟩; iexact Hr
  hout c := by
    rw [Pipeline.ownSems0_none, hp c]
    change (Pipeline.scopedRest (Ix := Unit) (Name := ℕ) (U := UR sig nD τ × Counters) (Lvl := ℕ) (Val := Elt F) spec16 c : sProp 𝕄) ⊢ _
    iintro Hr
    isplitr; · iempintro
    isplitr; · iempintro
    iexact Hr
  hexit c := by
    have hjoin := Pipeline.unscopedBufs_of_arrays (p := 16) (pcfgs (F := F)) (fun p => (cfgs p).toPCfg_adm) (Ix := Unit) (Name := ℕ) (U := UR sig nD τ × Counters) (Lvl := ℕ) launch16.win launch16.arr_whole c
      pdats ((pdats 16 c).share_full fun w => by rw [hp c]; rfl) (V c) (Vp c) ((pdats 16 c).arrAt · cfg16.N)
      (fun w => by
        fin_cases w
        · exact (((pdats 16 c).arrAt_in 0 rfl _).trans (by rw [hp c]; rfl)).trans (hVp_ne c main_v33 (by decide)).symm
        · exact (((pdats 16 c).arrAt_in 1 rfl _).trans (by rw [hp c]; rfl)).trans (hVp_ne c main_arg15 (by decide)).symm
        · exact (((pdats 16 c).arrAt_in 2 rfl _).trans (by rw [hp c]; rfl)).trans (hVp_ne c main_v34 (by decide)).symm
        · exact (by rw [hp c]; rfl : (pdats 16 c).arrAt 3 cfg16.N = out16arr V c).trans (hVp_out c).symm)
      (fun b hb => hVp_ne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W
    rw [show (pdats 16 c).owed (Fin.last _) = 0 from by rw [hp c]; rfl]
    iexact HO

end Cert.Kernel.Hand

end
-- ==== Proof.KB.R17Base.lean ====
/-
  Launch 17 of the program: one matrix product per grid point — the contraction is a single block —, from which the
  output block is stored at every point. The grid's third coordinate is always 0, so both conditions of the body —
  "the contraction's first block" and "its last block" — hold at every point: this module decides them over the
  grid's points, records that no window is ever idle, and names the staging memrefs the body is called with.
-/
import proofs.«113214_j66838281060556_2_alg».proof.Proof.Gen.Kernel.Launch
import proofs.«113214_j66838281060556_2_alg».proof.Proof.Gen.Kernel.Skeleton
import proofs.«113214_j66838281060556_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

/-- The accumulator is reset: the point starts a contraction (third grid coordinate 0). Here the third axis has one
    coordinate, so every point does. -/
abbrev cond17_0 (i : grid17.Coords) : Prop := (Scalar.cmpi .ne (Scalar.extui (Scalar.cmpi .eq (BitVec.ofNat 32 (i 2).val) 0#32)) 0#32) = 1#1
theorem hcond17_0 : ∀ t : Fin cfg17.N, cond17_0 (grid17.coords t) :=
  (by decide +kernel : ∀ t : Fin grid17.N, cond17_0 (grid17.coords t))

/-- The result is stored: the point ends a contraction. Every point does. -/
abbrev cond17_1 (i : grid17.Coords) : Prop := k17_cond2 i = 1#1
theorem hcond17_1 : ∀ t : Fin cfg17.N, cond17_1 (grid17.coords t) :=
  (by decide +kernel : ∀ t : Fin grid17.N, cond17_1 (grid17.coords t))

/-- No window is idle at any point: the two inputs never, the output because every point stores. -/
theorem liveAt17_0 : ∀ t : Fin cfg17.N, cfg17.idle 0 (grid17.coords t) = false := by decide +kernel
theorem liveAt17_1 : ∀ t : Fin cfg17.N, cfg17.idle 1 (grid17.coords t) = false := by decide +kernel
theorem liveAt17_2 : ∀ t : Fin cfg17.N, cfg17.idle 2 (grid17.coords t) = false := by decide +kernel

/-- Each window's current staging memref at a point, as the pipeline passes it, and its wholeness. -/
abbrev ms17_0 (t : Fin cfg17.N) : Memref sig .tc .vmem S1024x819 .f32 := win17_0.stage (cfg17.slots t 0)
abbrev hs17_0 (t : Fin cfg17.N) : (ms17_0 t).IsWhole := hstage17_0 ((cfg17.slots t 0).cast nbuf17_0)
abbrev ms17_1 (t : Fin cfg17.N) : Memref sig .tc .vmem S819x819 .f32 := win17_1.stage (cfg17.slots t 1)
abbrev hs17_1 (t : Fin cfg17.N) : (ms17_1 t).IsWhole := hstage17_1 ((cfg17.slots t 1).cast nbuf17_1)
abbrev ms17_2 (t : Fin cfg17.N) : Memref sig .tc .vmem S1024x819 .bf16 := win17_2.stage (cfg17.slots t 2)
abbrev hs17_2 (t : Fin cfg17.N) : (ms17_2 t).IsWhole := hstage17_2 ((cfg17.slots t 2).cast nbuf17_2)
/-- The accumulator: a whole scoped buffer of the launch's own. -/
abbrev scM17 : Memref sig .tc .vmem S1024x819 .f32 := Memref.whole cc17_scratch0
abbrev VS17 : View sig .tc .vmem S1024x819 .f32 := scM17.view

end Cert.Kernel.Hand

end
-- ==== Proof.KB.R17Run.lean ====
/-
  Launch 17, the body run symbolically in its one control case: the accumulator reset, the product added, the output
  block stored from the sum. The run's witnesses are the lists of pieces its stores leave in the output block and in
  the accumulator.
-/
import proofs.«113214_j66838281060556_2_alg».proof.Proof.KB.R17Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

set_option maxHeartbeats 2000000 in
/-- The body at a point, run symbolically: the accumulator, found at anything, is reset and ends at the product of
    the two input blocks added to it; the output block, found at anything, is stored whole from that sum. The
    witnesses are the pieces the stores leave in the output block and in the accumulator. -/
noncomputable def run17 (c : Dev nD) (i : grid17.Coords) (arg3 : Memref sig .tc .vmem S1024x819 .f32) (harg3 : arg3.IsWhole) (arg4 : Memref sig .tc .vmem S819x819 .f32) (harg4 : arg4.IsWhole) (arg5 : Memref sig .tc .vmem S1024x819 .bf16) (harg5 : arg5.IsWhole) (arg6 : Memref sig .tc .vmem S1024x819 .f32) (harg6 : arg6.IsWhole) (hc0 : cond17_0 i) (hc1 : cond17_1 i)
    (x0 : Vec F S1024x819 .f32) (x1 : Vec F S819x819 .f32) :
    Σ' (LO : List (View.Piece (Elt F) S1024x819 .bf16)), { LS : List (View.Piece (Elt F) S1024x819 .f32) //
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc17__mm_kernel i arg3 harg3 arg4 harg4 arg5 harg5 arg6 harg6) K } := by
  refine ⟨?_, ?_, fun E K => ?run⟩
  case run =>
    simp only [cc17__mm_kernel_eq_skeleton]; unfold cc17__mm_kernel_skel
    unfold owns
    iintro ⟨⟨%f0, %hf0, H0⟩, ⟨%f1, %hf1, H1⟩, ⟨%d2, %f2, -, H2⟩, ⟨%ds, %fs, -, HS⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact HS

end Cert.Kernel.Hand

end
-- ==== Proof.KB.R17.lean ====
/-
  Launch 17 as a region of the program. The blocks the windows stage are read off the arrays as the region finds
  them; a point stores the output block its run leaves; the accumulator is reset at every point, so between points
  the launch's scoped buffers that no window stages are simply held whole at anything; the body obligation follows
  from the one symbolic run; and the region is stated over the thread state "every unscoped buffer at given
  contents, the core owing nothing", entered by splitting the three arrays out and left with the result's array
  at what the pipeline computes from the stored blocks.
-/
import proofs.«113214_j66838281060556_2_alg».proof.Proof.KB.R17Run
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

variable (V : (c : Dev nD) → (b : Ref sig .tc) → Buf (Elt F) ((c : Thread nD τ).loc b))

/-! ## The blocks the windows stage -/

/-- Window `w`'s block at point `t`, read off its array as the region finds it. -/
def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

/-- A view of the output's staging buffer, through which contents are stated. -/
abbrev VO17 : View sig .tc .vmem S1024x819 .bf16 := (Memref.whole cc17_stg2_0 : Memref sig .tc .vmem S1024x819 .bf16).view

/-! ## What a point leaves -/

/-- The output block a point stores: what the run's pieces leave, read through the staging buffer's view. -/
def out17 (c : Dev nD) (t : Fin cfg17.N) : Vec F S1024x819 .bf16 :=
  VO17.read (Elt F) (VO17.writes (Elt F) VO17.junk (run17 c (grid17.coords t) (ms17_0 t) (hs17_0 t) (ms17_1 t) (hs17_1 t) (ms17_2 t) (hs17_2 t) scM17 (Memref.isWhole_whole _) (hcond17_0 t) (hcond17_1 t) (iblk17 V c 0 t) (iblk17 V c 1 t)).1)

/-- The stores into the output block cover it. -/
theorem coverO17 (c : Dev nD) (t : Fin cfg17.N) (y : S1024x819.Idx) :
    ∃ pc ∈ (run17 c (grid17.coords t) (ms17_0 t) (hs17_0 t) (ms17_1 t) (hs17_1 t) (ms17_2 t) (hs17_2 t) scM17 (Memref.isWhole_whole _) (hcond17_0 t) (hcond17_1 t) (iblk17 V c 0 t) (iblk17 V c 1 t)).1, y ∈ pc.1.set :=
  View.cover_of_tiledL _ S1024x819.size (by sl_kernel_rfl) y

/-! ## The invariant between points -/

/-- The scoped rest with the accumulator split out as a memref owned at some contents. The accumulator is reset at
    every point, so the invariant between points is the scoped rest itself, the accumulator at anything. -/
theorem scopedRest17_eq (c : Dev nD) :
    (Pipeline.scopedRest (Ix := Unit) (Name := ℕ) (U := UR sig nD τ × Counters) (Lvl := ℕ) (Val := Elt F) spec17 c : sProp 𝕄)
      = iprop((∃ d, owns (c : Thread nD τ) scM17 fullShare d)
          ∗ Pipeline.scopedRestBut (Ix := Unit) (Name := ℕ) (U := UR sig nD τ × Counters) (Lvl := ℕ) (Val := Elt F) spec17 c [cc17_scratch0]) := by
  rw [scopedRest17_split]; simp only [scM17, owns_whole]; try rfl

/-! ## The proof data -/

def dat17 (c : Dev nD) : Dat τ (Elt F) Unit ℕ (UR sig nD τ × Counters) ℕ cfg17 c where
  A w := V c (Pipeline.arrRef spec17 w)
  after w t := match w with
    | ⟨0, _⟩ => iblk17 V c 0 t
    | ⟨1, _⟩ => iblk17 V c 1 t
    | ⟨2, _⟩ => out17 V c t
  Φ _ := Pipeline.scopedRest (Ix := Unit) (Name := ℕ) (U := UR sig nD τ × Counters) (Lvl := ℕ) (Val := Elt F) spec17 c
  q _ := fullShare
  owed _ := 0

theorem A17_eq (c : Dev nD) (w : Fin cfg17.W) : (dat17 V c).A w = V c (Pipeline.arrRef spec17 w) := by
  dsimp only [dat17]
theorem after17_0 (c : Dev nD) (t : Fin cfg17.N) : (dat17 V c).after 0 t = iblk17 V c 0 t := by dsimp only [dat17]
theorem after17_1 (c : Dev nD) (t : Fin cfg17.N) : (dat17 V c).after 1 t = iblk17 V c 1 t := by dsimp only [dat17]
theorem after17_2 (c : Dev nD) (t : Fin cfg17.N) : (dat17 V c).after 2 t = out17 V c t := by dsimp only [dat17]

/-- Each input window's current staging buffer holds its block at every point, fetched there or not. -/
theorem before17_0 (c : Dev nD) (t : Fin cfg17.N) (d) : (dat17 V c).before 0 t d = iblk17 V c 0 t :=
  ((dat17 V c).before_in_eq_fetched 0 rfl (fun _ => rfl) (fun _ _ _ => rfl) (fun t => by rw [after17_0]; unfold Dat.blockOf iblk17; rw [A17_eq]; try rfl) t d).trans
    (by unfold Dat.fetched Dat.blockOf iblk17; rw [A17_eq]; try rfl)
theorem before17_1 (c : Dev nD) (t : Fin cfg17.N) (d) : (dat17 V c).before 1 t d = iblk17 V c 1 t :=
  ((dat17 V c).before_in_eq_fetched 1 rfl (fun _ => rfl) (fun _ _ _ => rfl) (fun t => by rw [after17_1]; unfold Dat.blockOf iblk17; rw [A17_eq]; try rfl) t d).trans
    (by unfold Dat.fetched Dat.blockOf iblk17; rw [A17_eq]; try rfl)

/-! ## The body obligation at a generic point -/

def bodyPre17 (c : Dev nD) (t : Fin cfg17.N) : sProp 𝕄 :=
  iprop((dat17 V c).Φ t.castSucc ∗ (dat17 V c).owesAt () t.castSucc
    ∗ (∃ d, owns (c : Thread nD τ) (ms17_0 t) fullShare ((dat17 V c).before 0 t d))
    ∗ (∃ d, owns (c : Thread nD τ) (ms17_1 t) fullShare ((dat17 V c).before 1 t d))
    ∗ (∃ d, owns (c : Thread nD τ) (ms17_2 t) fullShare ((dat17 V c).before 2 t d)))

def bodyPost17 (c : Dev nD) (t : Fin cfg17.N) : sProp 𝕄 :=
  iprop((dat17 V c).Φ t.succ ∗ (dat17 V c).owesAt () t.succ
    ∗ (dat17 V c).leavesExact 0 t ∗ (dat17 V c).leavesExact 1 t ∗ (dat17 V c).leavesExact 2 t)

set_option maxHeartbeats 4000000 in
/-- The body at any point. The two input buffers hold their blocks; the invariant hands over the accumulator at
    anything and takes it back at anything; the output buffer, found at anything, is handed back at the block the
    point stores; the core owes nothing throughout. -/
theorem sound_body17 (c : Dev nD) (t : Fin cfg17.N) :
    bodyPre17 V c t ⊢ wp frame (wpE (defs₀ (F := F)) Variants.none c none) Set.univ (bodyAt17 t) (fun _ => bodyPost17 V c t) := by
  unfold bodyPre17 bodyPost17 bodyAt17
  simp only [before17_0, before17_1]
  rw [show (dat17 V c).owesAt () t.succ = (dat17 V c).owesAt () t.castSucc from rfl]
  rw [show (dat17 V c).Φ t.succ = Pipeline.scopedRest (Ix := Unit) (Name := ℕ) (U := UR sig nD τ × Counters) (Lvl := ℕ) (Val := Elt F) spec17 c from rfl,
    show (dat17 V c).Φ t.castSucc = Pipeline.scopedRest (Ix := Unit) (Name := ℕ) (U := UR sig nD τ × Counters) (Lvl := ℕ) (Val := Elt F) spec17 c from rfl]
  rw [show (dat17 V c).leavesExact 0 t = owns (c : Thread nD τ) (ms17_0 t) fullShare (iblk17 V c 0 t) from by
    unfold Dat.leavesExact; rw [liveAt17_0 t, after17_0]]
  rw [show (dat17 V c).leavesExact 1 t = owns (c : Thread nD τ) (ms17_1 t) fullShare (iblk17 V c 1 t) from by
    unfold Dat.leavesExact; rw [liveAt17_1 t, after17_1]]
  rw [show (dat17 V c).leavesExact 2 t = owns (c : Thread nD τ) (ms17_2 t) fullShare (out17 V c t) from by
    unfold Dat.leavesExact; rw [liveAt17_2 t, after17_2]]
  rw [scopedRest17_eq]
  unfold out17
  iintro ⟨⟨HS, Hb⟩, Ho, ⟨%d0, H0⟩, ⟨%d1, H1⟩, ⟨%d2, H2⟩⟩
  iapply ((run17 c (grid17.coords t) (ms17_0 t) (hs17_0 t) (ms17_1 t) (hs17_1 t) (ms17_2 t) (hs17_2 t) scM17 (Memref.isWhole_whole _) (hcond17_0 t) (hcond17_1 t) (iblk17 V c 0 t) (iblk17 V c 1 t)).2.2 Set.univ _)
  isplitl [H0]; · iexact H0
  isplitl [H1]; · iexact H1
  isplitl [H2]; · iexists _; iexact H2
  isplitl [HS]; · iexact HS
  iintro ⟨H0, H1, ⟨%e2, H2⟩, ⟨%es, HS⟩⟩
  isplitl [HS Hb]
  · isplitl [HS]
    · iexists _; unfold owns; iexists _; isplitr
      swap; · iexact HS
      ipureintro; rfl
    iexact Hb
  isplitl [Ho]; · iexact Ho
  isplitl [H0]; · iexact H0
  isplitl [H1]; · iexact H1
  unfold owns; iexists _; isplitr
  swap; · iexact H2
  ipureintro; exact View.read_writes_of_cover _ _ _ _ _ (coverO17 V c t)

theorem body_obligation17 (c : Dev nD) : BodyObligation (dat17 V c) (defs₀ (F := F)) Variants.none () Set.univ := fun t => by
  rw [bigSep_W17, bigSep_W17]
  exact sound_body17 V c t

/-! ## The region over the thread state -/

variable (Vp : (c : Dev nD) → (b : Ref sig .tc) → Buf (Elt F) ((c : Thread nD τ).loc b))
variable (pdats : (p : Fin 22) → (c : Dev nD) → Dat τ (Elt F) Unit ℕ (UR sig nD τ × Counters) ℕ (cfgs p) c)

/-- The result's array after the region, as the pipeline library computes it from the proof data. -/
def out17arr (c : Dev nD) : Buf (Elt F) ((c : Thread nD τ).loc main_v36) := (dat17 V c).arrAt 2 cfg17.N

set_option backward.isDefEq.respectTransparency.types false in
set_option maxHeartbeats 2000000 in
/-- Launch 17 over the thread state "every unscoped buffer at `V c`, the core owing nothing": entered by
    splitting its three arrays out of the unscoped buffers, left with them put back at `Vp c`, which has the
    result's array at `out17arr` and agrees with `V c` elsewhere. -/
def reg17 (hp : ∀ c, pdats 17 c = dat17 V c)
    (hVp_out : ∀ c, Vp c main_v36 = out17arr V c)
    (hVp_ne : ∀ c (b : Ref sig .tc), b ≠ main_v36 → Vp c b = V c b) :
    Pipeline.RegionSeg (pcfgs (F := F)) (fun p => (cfgs p).toPCfg_adm) pdats () defs₀ Variants.none (fun _ => (∅ : Finset Unit)) (fun _ _ => (0 : ℕ)) 17 where
  win := launch17.win.to₀
  block_pos := launch17.block_pos
  stage_whole := launch17.stage_whole
  K := PEmpty
  osem k := k.elim
  ho := Pipeline.OwnSemFacts.none _
  hbody c := by rw [hp c]; exact (body_obligation17 V c).loose
  hwaits := Pipeline.hwaits_of_owed_zero _ _ _ _ _ _ 17 fun c t => by rw [hp c]; rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ × Counters) (Lvl := ℕ) spec17 c (V c)
  hentry c := by
    rw [Pipeline.ownSems0_none]
    have hsplit := Pipeline.arrays_of_unscopedBufs (p := 17) (pcfgs (F := F)) (fun p => (cfgs p).toPCfg_adm) pdats launch17.win launch17.arr_whole c
      ((pdats 17 c).share_full fun w => by rw [hp c]; rfl) (V c) (fun w => by rw [hp c]; rfl)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hp c]; exact trivial)
      rw [show (pdats 17 c).owed 0 = 0 from by rw [hp c]; rfl]
      iexact HO
    isplitr; · iempintro
    iexact Hrest
  hin c := by
    rw [hp c, show (dat17 V c).Φ 0 = Pipeline.scopedRest (Ix := Unit) (Name := ℕ) (U := UR sig nD τ × Counters) (Lvl := ℕ) (Val := Elt F) spec17 c from rfl]
    iintro ⟨-, -, Hr⟩; iexact Hr
  hout c := by
    rw [Pipeline.ownSems0_none, hp c]
    change (Pipeline.scopedRest (Ix := Unit) (Name := ℕ) (U := UR sig nD τ × Counters) (Lvl := ℕ) (Val := Elt F) spec17 c : sProp 𝕄) ⊢ _
    iintro Hr
    isplitr; · iempintro
    isplitr; · iempintro
    iexact Hr
  hexit c := by
    have hjoin := Pipeline.unscopedBufs_of_arrays (p := 17) (pcfgs (F := F)) (fun p => (cfgs p).toPCfg_adm) (Ix := Unit) (Name := ℕ) (U := UR sig nD τ × Counters) (Lvl := ℕ) launch17.win launch17.arr_whole c
      pdats ((pdats 17 c).share_full fun w => by rw [hp c]; rfl) (V c) (Vp c) ((pdats 17 c).arrAt · cfg17.N)
      (fun w => by
        fin_cases w
        · exact (((pdats 17 c).arrAt_in 0 rfl _).trans (by rw [hp c]; rfl)).trans (hVp_ne c main_v24 (by decide)).symm
        · exact (((pdats 17 c).arrAt_in 1 rfl _).trans (by rw [hp c]; rfl)).trans (hVp_ne c main_arg24 (by decide)).symm
        · exact (by rw [hp c]; rfl : (pdats 17 c).arrAt 2 cfg17.N = out17arr V c).trans (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W
    rw [show (pdats 17 c).owed (Fin.last _) = 0 from by rw [hp c]; rfl]
    iexact HO

end Cert.Kernel.Hand

end
-- ==== Proof.KB.R18Base.lean ====
/-
  Launch 18 of the program: a matrix product accumulated over the third grid axis (grid 4 × 1 × 4: four row blocks,
  four contraction blocks), stored — with no bias and no activation — when
  the last block has been added. This module names the two conditions of the body on the grid point ("the
  contraction's first block", "its last block"), decides them over the sixteen points, and records where the
  output window is idle and where its block is written back.
-/
import proofs.«113214_j66838281060556_2_alg».proof.Proof.Gen.Kernel.Launch
import proofs.«113214_j66838281060556_2_alg».proof.Proof.Gen.Kernel.Skeleton
import proofs.«113214_j66838281060556_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

/-- The accumulator is reset: the point starts a contraction (third grid coordinate 0). -/
abbrev cond18_0 (i : grid18.Coords) : Prop := (Scalar.cmpi .ne (Scalar.extui (Scalar.cmpi .eq (BitVec.ofNat 32 (i 2).val) 0#32)) 0#32) = 1#1
theorem hcond18_0 : ∀ t : Fin cfg18.N, cond18_0 (grid18.coords t) ↔ t.val % 4 = 0 :=
  (by decide +kernel : ∀ t : Fin grid18.N, cond18_0 (grid18.coords t) ↔ t.val % 4 = 0)

/-- The result is stored: the point ends a contraction (third grid coordinate 3). -/
abbrev cond18_1 (i : grid18.Coords) : Prop := k18_cond2 i = 1#1
theorem hcond18_1 : ∀ t : Fin cfg18.N, cond18_1 (grid18.coords t) ↔ t.val % 4 = 3 :=
  (by decide +kernel : ∀ t : Fin grid18.N, cond18_1 (grid18.coords t) ↔ t.val % 4 = 3)

/-- The two input windows are never idle. -/
theorem liveAt18_0 : ∀ t : Fin cfg18.N, cfg18.idle 0 (grid18.coords t) = false := by decide +kernel
theorem liveAt18_1 : ∀ t : Fin cfg18.N, cfg18.idle 1 (grid18.coords t) = false := by decide +kernel
/-- Away from a contraction's last block the output window is idle and its block is not written back. -/
theorem idleAt18_2 : ∀ t : Fin cfg18.N, ¬cond18_1 (grid18.coords t) → cfg18.idle 2 (grid18.coords t) = true := by decide +kernel
theorem noFlush18_2 : ∀ t : Fin cfg18.N, ¬cond18_1 (grid18.coords t) → (cfg18.win 2).flush t = false := by decide +kernel
/-- At a contraction's last block the output window is live. -/
theorem liveAt18_2 : ∀ t : Fin cfg18.N, cond18_1 (grid18.coords t) → cfg18.idle 2 (grid18.coords t) = false := by decide +kernel

/-- Each window's current staging memref at a point, as the pipeline passes it, and its wholeness. -/
abbrev ms18_0 (t : Fin cfg18.N) : Memref sig .tc .vmem S1024x1024 .bf16 := win18_0.stage (cfg18.slots t 0)
abbrev hs18_0 (t : Fin cfg18.N) : (ms18_0 t).IsWhole := hstage18_0 ((cfg18.slots t 0).cast nbuf18_0)
abbrev ms18_1 (t : Fin cfg18.N) : Memref sig .tc .vmem S1024x819 .bf16 := win18_1.stage (cfg18.slots t 1)
abbrev hs18_1 (t : Fin cfg18.N) : (ms18_1 t).IsWhole := hstage18_1 ((cfg18.slots t 1).cast nbuf18_1)
abbrev ms18_2 (t : Fin cfg18.N) : Memref sig .tc .vmem S1024x819 .bf16 := win18_2.stage (cfg18.slots t 2)
abbrev hs18_2 (t : Fin cfg18.N) : (ms18_2 t).IsWhole := hstage18_2 ((cfg18.slots t 2).cast nbuf18_2)
/-- The accumulator: a whole scoped buffer of the launch's own. -/
abbrev scM18 : Memref sig .tc .vmem S1024x819 .f32 := Memref.whole cc18_scratch0
abbrev VS18 : View sig .tc .vmem S1024x819 .f32 := scM18.view

end Cert.Kernel.Hand

end
-- ==== Proof.KB.R18Run.lean ====
/-
  Launch 18, the body run symbolically in each of its three control cases: the first block of a contraction
  (the accumulator reset, then the first product added), a middle block (the product added), the last block
  (the product added, then the sum stored into the output block in the output's format). Each run's witness
  is the list of pieces its stores leave in the accumulator (and, in the last case, in the output block).
-/
import proofs.«113214_j66838281060556_2_alg».proof.Proof.KB.R18Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

set_option maxHeartbeats 2000000 in
/-- The first block of a contraction that is not also its last: the accumulator, found at anything, is reset to
    zero and ends at the product of the two input blocks added to zero; the idle output block is handed back
    untouched. The pieces written into the accumulator are the witness the symbolic run finds. -/
noncomputable def run18_A (c : Dev nD) (i : grid18.Coords) (arg3 : Memref sig .tc .vmem S1024x1024 .bf16) (harg3 : arg3.IsWhole) (arg4 : Memref sig .tc .vmem S1024x819 .bf16) (harg4 : arg4.IsWhole) (arg5 : Memref sig .tc .vmem S1024x819 .bf16) (harg5 : arg5.IsWhole) (arg6 : Memref sig .tc .vmem S1024x819 .f32) (harg6 : arg6.IsWhole) (hc0 : cond18_0 i) (hc1 : ¬cond18_1 i)
    (x0 : Vec F S1024x1024 .bf16) (x1 : Vec F S1024x819 .bf16) :
    { LS : List (View.Piece (Elt F) S1024x819 .f32) //
      ∀ (xi : Vec F S1024x819 .bf16) (E : Set ℕ) (K : PUnit → sProp 𝕄),
        iprop(owns (c : Thread nD τ) arg3 fullShare x0 ∗ owns (c : Thread nD τ) arg4 fullShare x1 ∗ owns (c : Thread nD τ) arg5 fullShare xi ∗ (∃ d, owns (c : Thread nD τ) arg6 fullShare d)
            ∗ (iprop(owns (c : Thread nD τ) arg3 fullShare x0 ∗ owns (c : Thread nD τ) arg4 fullShare x1 ∗ owns (c : Thread nD τ) arg5 fullShare xi
                ∗ (∃ f, arg6.view.loc (c : Thread nD τ) ↦[arg6.view.set]{fullShare} arg6.view.writes (Elt F) f LS)) -∗ K ⟨⟩))
          ⊢ wp frame (wpE (defs₀ (F := F)) Variants.none c none) E (cc18__mm_kernel i arg3 harg3 arg4 harg4 arg5 harg5 arg6 harg6) K } := by
  refine ⟨?_, fun xi E K => ?run⟩
  case run =>
    simp only [cc18__mm_kernel_eq_skeleton]; unfold cc18__mm_kernel_skel
    unfold owns
    iintro ⟨⟨%f0, %hf0, H0⟩, ⟨%f1, %hf1, H1⟩, ⟨%f3, %hf3, H3⟩, ⟨%ds, %fs, -, HS⟩, Hk⟩
    obtain rfl := harg3.eq_unread hf0; obtain rfl := harg4.eq_unread hf1; obtain rfl := harg5.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H3]
    · iexists _; isplitr; · ipureintro; exact harg5.read_unread _
      iexact H3
    iexists _; iexact HS

set_option maxHeartbeats 2000000 in
/-- A middle block of a contraction: the accumulator, found at `xs`, ends at the product of the two input
    blocks added to `xs`; the idle output block is handed back untouched. -/
noncomputable def run18_B (c : Dev nD) (i : grid18.Coords) (arg3 : Memref sig .tc .vmem S1024x1024 .bf16) (harg3 : arg3.IsWhole) (arg4 : Memref sig .tc .vmem S1024x819 .bf16) (harg4 : arg4.IsWhole) (arg5 : Memref sig .tc .vmem S1024x819 .bf16) (harg5 : arg5.IsWhole) (arg6 : Memref sig .tc .vmem S1024x819 .f32) (harg6 : arg6.IsWhole) (hc0 : ¬cond18_0 i) (hc1 : ¬cond18_1 i)
    (x0 : Vec F S1024x1024 .bf16) (x1 : Vec F S1024x819 .bf16) (xs : Vec F S1024x819 .f32) :
    { LS : List (View.Piece (Elt F) S1024x819 .f32) //
      ∀ (xi : Vec F S1024x819 .bf16) (E : Set ℕ) (K : PUnit → sProp 𝕄),
        iprop(owns (c : Thread nD τ) arg3 fullShare x0 ∗ owns (c : Thread nD τ) arg4 fullShare x1 ∗ owns (c : Thread nD τ) arg5 fullShare xi ∗ owns (c : Thread nD τ) arg6 fullShare xs
            ∗ (iprop(owns (c : Thread nD τ) arg3 fullShare x0 ∗ owns (c : Thread nD τ) arg4 fullShare x1 ∗ owns (c : Thread nD τ) arg5 fullShare xi
                ∗ (∃ f, arg6.view.loc (c : Thread nD τ) ↦[arg6.view.set]{fullShare} arg6.view.writes (Elt F) f LS)) -∗ K ⟨⟩))
          ⊢ wp frame (wpE (defs₀ (F := F)) Variants.none c none) E (cc18__mm_kernel i arg3 harg3 arg4 harg4 arg5 harg5 arg6 harg6) K } := by
  refine ⟨?_, fun xi E K => ?run⟩
  case run =>
    simp only [cc18__mm_kernel_eq_skeleton]; unfold cc18__mm_kernel_skel
    unfold owns
    iintro ⟨⟨%f0, %hf0, H0⟩, ⟨%f1, %hf1, H1⟩, ⟨%f3, %hf3, H3⟩, ⟨%fs, %hfs, HS⟩, Hk⟩
    obtain rfl := harg3.eq_unread hf0; obtain rfl := harg4.eq_unread hf1; obtain rfl := harg5.eq_unread hf3
    obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H3]
    · iexists _; isplitr; · ipureintro; exact harg5.read_unread _
      iexact H3
    iexists _; iexact HS

set_option maxHeartbeats 2000000 in
/-- The last block of a contraction that is not also its first: the accumulator, found at `xs`, ends at the
    product of the two input blocks added to `xs`, and the output block, found at anything, is stored whole:
    that sum in the output's format. -/
noncomputable def run18_C (c : Dev nD) (i : grid18.Coords) (arg3 : Memref sig .tc .vmem S1024x1024 .bf16) (harg3 : arg3.IsWhole) (arg4 : Memref sig .tc .vmem S1024x819 .bf16) (harg4 : arg4.IsWhole) (arg5 : Memref sig .tc .vmem S1024x819 .bf16) (harg5 : arg5.IsWhole) (arg6 : Memref sig .tc .vmem S1024x819 .f32) (harg6 : arg6.IsWhole) (hc0 : ¬cond18_0 i) (hc1 : cond18_1 i)
    (x0 : Vec F S1024x1024 .bf16) (x1 : Vec F S1024x819 .bf16) (xs : Vec F S1024x819 .f32) :
    Σ' (LO : List (View.Piece (Elt F) S1024x819 .bf16)), { LS : List (View.Piece (Elt F) S1024x819 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc18__mm_kernel i arg3 harg3 arg4 harg4 arg5 harg5 arg6 harg6) K } := by
  refine ⟨?_, ?_, fun E K => ?run⟩
  case run =>
    simp only [cc18__mm_kernel_eq_skeleton]; unfold cc18__mm_kernel_skel
    unfold owns
    iintro ⟨⟨%f0, %hf0, H0⟩, ⟨%f1, %hf1, H1⟩, ⟨%d3, %f3, -, H3⟩, ⟨%fs, %hfs, HS⟩, Hk⟩
    obtain rfl := harg3.eq_unread hf0; obtain rfl := harg4.eq_unread hf1
    obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H3]
    · iexists _; iexact H3
    iexists _; iexact HS

end Cert.Kernel.Hand

end
-- ==== Proof.KB.R18.lean ====
/-
  Launch 18 as a segment of the program: the product A·B of a graph matrix with the right
  factor, computed block by block on the grid 4 × 1 × 4 with an accumulator carried along the contraction and
  stored in the output's format when a contraction ends. What the accumulator and the output block hold after
  each point is defined by recursion on the point; the invariant between points is the accumulator at that value
  beside the launch's other scoped buffers; the proof data states each window's block after the body; the body
  obligation is the three symbolic runs put together by cases on the point's position in its contraction; and
  the segment record enters the launch from a thread state holding every unscoped buffer at an entry valuation
  and leaves it at the valuation updated at the result's array.
-/
import proofs.«113214_j66838281060556_2_alg».proof.Proof.KB.R18Run
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

variable (V : (c : Dev nD) → (b : Ref sig .tc) → Buf (Elt F) ((c : Thread nD τ).loc b))

/-! ## The blocks the windows stage -/

/-- Window `w`'s block at point `t`, read off its array as the region finds it. -/
def iblk18 (c : Dev nD) (w : Fin cfg18.W) (t : Fin cfg18.N) : ((cfg18.win w).xblock (cfg18.grid.coords t)).Idx → Elt F (cfg18.win w).elt :=
  ((cfg18.win w).blk t).view.read (Elt F) (V c (Pipeline.arrRef spec18 w))

/-- A view of the output's staging buffer and one of the accumulator, through which contents are stated. -/
abbrev VO18 : View sig .tc .vmem S1024x819 .bf16 := (Memref.whole cc18_stg2_0 : Memref sig .tc .vmem S1024x819 .bf16).view

/-! ## What each case leaves -/

/-- The accumulator after a first block. -/
def accA18 (c : Dev nD) (t : Fin cfg18.N) (h0 : t.val % 4 = 0) (h1 : ¬t.val % 4 = 3) : Vec F S1024x819 .f32 :=
  VS18.read (Elt F) (VS18.writes (Elt F) VS18.junk (run18_A c (grid18.coords t) (ms18_0 t) (hs18_0 t) (ms18_1 t) (hs18_1 t) (ms18_2 t) (hs18_2 t) scM18 (Memref.isWhole_whole _) ((hcond18_0 t).mpr h0) (fun h => h1 ((hcond18_1 t).mp h)) (iblk18 V c 0 t) (iblk18 V c 1 t)).1)
/-- The accumulator after a middle block, from what the point before left. -/
def accB18 (c : Dev nD) (t : Fin cfg18.N) (h0 : ¬t.val % 4 = 0) (h1 : ¬t.val % 4 = 3) (xs : Vec F S1024x819 .f32) : Vec F S1024x819 .f32 :=
  VS18.read (Elt F) (VS18.writes (Elt F) VS18.junk (run18_B c (grid18.coords t) (ms18_0 t) (hs18_0 t) (ms18_1 t) (hs18_1 t) (ms18_2 t) (hs18_2 t) scM18 (Memref.isWhole_whole _) (fun h => h0 ((hcond18_0 t).mp h)) (fun h => h1 ((hcond18_1 t).mp h)) (iblk18 V c 0 t) (iblk18 V c 1 t) xs).1)
/-- The accumulator after a last block, -/
def accC18 (c : Dev nD) (t : Fin cfg18.N) (h0 : ¬t.val % 4 = 0) (h1 : t.val % 4 = 3) (xs : Vec F S1024x819 .f32) : Vec F S1024x819 .f32 :=
  VS18.read (Elt F) (VS18.writes (Elt F) VS18.junk (run18_C c (grid18.coords t) (ms18_0 t) (hs18_0 t) (ms18_1 t) (hs18_1 t) (ms18_2 t) (hs18_2 t) scM18 (Memref.isWhole_whole _) (fun h => h0 ((hcond18_0 t).mp h)) ((hcond18_1 t).mpr h1) (iblk18 V c 0 t) (iblk18 V c 1 t) xs).2.1)
/-- and the output block stored there. -/
def outC18 (c : Dev nD) (t : Fin cfg18.N) (h0 : ¬t.val % 4 = 0) (h1 : t.val % 4 = 3) (xs : Vec F S1024x819 .f32) : Vec F S1024x819 .bf16 :=
  VO18.read (Elt F) (VO18.writes (Elt F) VO18.junk (run18_C c (grid18.coords t) (ms18_0 t) (hs18_0 t) (ms18_1 t) (hs18_1 t) (ms18_2 t) (hs18_2 t) scM18 (Memref.isWhole_whole _) (fun h => h0 ((hcond18_0 t).mp h)) ((hcond18_1 t).mpr h1) (iblk18 V c 0 t) (iblk18 V c 1 t) xs).1)

theorem coverA18 (c : Dev nD) (t : Fin cfg18.N) (h0 : t.val % 4 = 0) (h1 : ¬t.val % 4 = 3) (y : S1024x819.Idx) :
    ∃ pc ∈ (run18_A c (grid18.coords t) (ms18_0 t) (hs18_0 t) (ms18_1 t) (hs18_1 t) (ms18_2 t) (hs18_2 t) scM18 (Memref.isWhole_whole _) ((hcond18_0 t).mpr h0) (fun h => h1 ((hcond18_1 t).mp h)) (iblk18 V c 0 t) (iblk18 V c 1 t)).1, y ∈ pc.1.set :=
  View.cover_of_tiledL _ S1024x819.size (by sl_kernel_rfl) y
theorem coverB18 (c : Dev nD) (t : Fin cfg18.N) (h0 : ¬t.val % 4 = 0) (h1 : ¬t.val % 4 = 3) (xs : Vec F S1024x819 .f32) (y : S1024x819.Idx) :
    ∃ pc ∈ (run18_B c (grid18.coords t) (ms18_0 t) (hs18_0 t) (ms18_1 t) (hs18_1 t) (ms18_2 t) (hs18_2 t) scM18 (Memref.isWhole_whole _) (fun h => h0 ((hcond18_0 t).mp h)) (fun h => h1 ((hcond18_1 t).mp h)) (iblk18 V c 0 t) (iblk18 V c 1 t) xs).1, y ∈ pc.1.set :=
  View.cover_of_tiledL _ S1024x819.size (by sl_kernel_rfl) y
theorem coverCs18 (c : Dev nD) (t : Fin cfg18.N) (h0 : ¬t.val % 4 = 0) (h1 : t.val % 4 = 3) (xs : Vec F S1024x819 .f32) (y : S1024x819.Idx) :
    ∃ pc ∈ (run18_C c (grid18.coords t) (ms18_0 t) (hs18_0 t) (ms18_1 t) (hs18_1 t) (ms18_2 t) (hs18_2 t) scM18 (Memref.isWhole_whole _) (fun h => h0 ((hcond18_0 t).mp h)) ((hcond18_1 t).mpr h1) (iblk18 V c 0 t) (iblk18 V c 1 t) xs).2.1, y ∈ pc.1.set :=
  View.cover_of_tiledL _ S1024x819.size (by sl_kernel_rfl) y
theorem coverCo18 (c : Dev nD) (t : Fin cfg18.N) (h0 : ¬t.val % 4 = 0) (h1 : t.val % 4 = 3) (xs : Vec F S1024x819 .f32) (y : S1024x819.Idx) :
    ∃ pc ∈ (run18_C c (grid18.coords t) (ms18_0 t) (hs18_0 t) (ms18_1 t) (hs18_1 t) (ms18_2 t) (hs18_2 t) scM18 (Memref.isWhole_whole _) (fun h => h0 ((hcond18_0 t).mp h)) ((hcond18_1 t).mpr h1) (iblk18 V c 0 t) (iblk18 V c 1 t) xs).1, y ∈ pc.1.set :=
  View.cover_of_tiledL _ S1024x819.size (by sl_kernel_rfl) y

/-! ## The accumulation, point by point -/

/-- What the output's staging buffer (first component; meaningful at a contraction's last block only) and the
    accumulator (second component) hold after the body at position `n`. -/
def outsAt18 (c : Dev nD) : (n : ℕ) → n < cfg18.N → Vec F S1024x819 .bf16 × Vec F S1024x819 .f32
  | 0, hn => (VO18.read (Elt F) VO18.junk, accA18 V c ⟨0, hn⟩ (Nat.zero_mod _) (by simp))
  | n + 1, hn =>
    if h0 : (n + 1) % 4 = 0 then
      if h1 : (n + 1) % 4 = 3 then False.elim (by omega)
      else (VO18.read (Elt F) VO18.junk, accA18 V c ⟨n + 1, hn⟩ h0 h1)
    else
      if h1 : (n + 1) % 4 = 3 then
        (outC18 V c ⟨n + 1, hn⟩ h0 h1 (outsAt18 c n (Nat.lt_of_succ_lt hn)).2, accC18 V c ⟨n + 1, hn⟩ h0 h1 (outsAt18 c n (Nat.lt_of_succ_lt hn)).2)
      else
        (VO18.read (Elt F) VO18.junk, accB18 V c ⟨n + 1, hn⟩ h0 h1 (outsAt18 c n (Nat.lt_of_succ_lt hn)).2)

theorem outsAt18_A (c : Dev nD) (t : Fin cfg18.N) (h0 : t.val % 4 = 0) (h1 : ¬t.val % 4 = 3) :
    outsAt18 V c t.val t.isLt = (VO18.read (Elt F) VO18.junk, accA18 V c t h0 h1) := by
  obtain ⟨n, hn⟩ := t
  cases n with
  | zero => exact rfl
  | succ n => exact (dif_pos h0).trans ((dif_neg h1).trans rfl)

theorem outsAt18_B (c : Dev nD) (t : Fin cfg18.N) (h0 : ¬t.val % 4 = 0) (h1 : ¬t.val % 4 = 3) :
    outsAt18 V c t.val t.isLt = (VO18.read (Elt F) VO18.junk, accB18 V c t h0 h1 (outsAt18 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt18_C (c : Dev nD) (t : Fin cfg18.N) (h0 : ¬t.val % 4 = 0) (h1 : t.val % 4 = 3) :
    outsAt18 V c t.val t.isLt = (outC18 V c t h0 h1 (outsAt18 V c (t.val - 1) (Nat.lt_of_le_of_lt (Nat.sub_le _ _) t.isLt)).2,
      accC18 V c t h0 h1 (outsAt18 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant between points -/

/-- Before the first point the launch's scoped buffers that no window stages, whole; afterwards the accumulator at
    what the point before left, and the other such buffers unopened. -/
def PhiS18 (c : Dev nD) : (n : ℕ) → n ≤ cfg18.N → sProp 𝕄
  | 0, _ => Pipeline.scopedRest (Ix := Unit) (Name := ℕ) (U := UR sig nD τ × Counters) (Lvl := ℕ) (Val := Elt F) spec18 c
  | n + 1, hn => iprop(owns (c : Thread nD τ) scM18 fullShare (outsAt18 V c n hn).2
      ∗ Pipeline.scopedRestBut (Ix := Unit) (Name := ℕ) (U := UR sig nD τ × Counters) (Lvl := ℕ) (Val := Elt F) spec18 c [cc18_scratch0])

theorem PhiS18_pos (c : Dev nD) (n : ℕ) (h : n ≤ cfg18.N) (hz : n ≠ 0) :
    PhiS18 V c n h = iprop(owns (c : Thread nD τ) scM18 fullShare (outsAt18 V c (n - 1) (by omega)).2
      ∗ Pipeline.scopedRestBut (Ix := Unit) (Name := ℕ) (U := UR sig nD τ × Counters) (Lvl := ℕ) (Val := Elt F) spec18 c [cc18_scratch0]) := by
  cases n with
  | zero => exact absurd rfl hz
  | succ n => rfl

/-- The scoped rest with the accumulator split out as a memref owned at some contents. -/
theorem scopedRest18_eq (c : Dev nD) :
    (Pipeline.scopedRest (Ix := Unit) (Name := ℕ) (U := UR sig nD τ × Counters) (Lvl := ℕ) (Val := Elt F) spec18 c : sProp 𝕄)
      = iprop((∃ d, owns (c : Thread nD τ) scM18 fullShare d)
          ∗ Pipeline.scopedRestBut (Ix := Unit) (Name := ℕ) (U := UR sig nD τ × Counters) (Lvl := ℕ) (Val := Elt F) spec18 c [cc18_scratch0]) := by
  rw [scopedRest18_split]; simp only [scM18, owns_whole]; try rfl

/-! ## The proof data -/

def dat18 (c : Dev nD) : Dat τ (Elt F) Unit ℕ (UR sig nD τ × Counters) ℕ cfg18 c where
  A w := V c (Pipeline.arrRef spec18 w)
  after w t := match w with
    | ⟨0, _⟩ => iblk18 V c 0 t
    | ⟨1, _⟩ => iblk18 V c 1 t
    | ⟨2, _⟩ => (outsAt18 V c t.val t.isLt).1
  Φ t := PhiS18 V c t.val (Nat.le_of_lt_succ t.isLt)
  q _ := fullShare
  owed _ := 0

theorem A18_eq (c : Dev nD) (w : Fin cfg18.W) : (dat18 V c).A w = V c (Pipeline.arrRef spec18 w) := by
  dsimp only [dat18]
theorem after18_0 (c : Dev nD) (t : Fin cfg18.N) : (dat18 V c).after 0 t = iblk18 V c 0 t := by dsimp only [dat18]
theorem after18_1 (c : Dev nD) (t : Fin cfg18.N) : (dat18 V c).after 1 t = iblk18 V c 1 t := by dsimp only [dat18]
theorem after18_2 (c : Dev nD) (t : Fin cfg18.N) : (dat18 V c).after 2 t = (outsAt18 V c t.val t.isLt).1 := by dsimp only [dat18]

theorem Phi18_castSucc (c : Dev nD) (t : Fin cfg18.N) :
    (dat18 V c).Φ t.castSucc = PhiS18 V c t.val (Nat.le_of_lt t.isLt) := by
  dsimp only [dat18]; simp only [Fin.coe_castSucc]

/-- Each input window's current staging buffer holds its block at every point, fetched there or not. -/
theorem before18_0 (c : Dev nD) (t : Fin cfg18.N) (d) : (dat18 V c).before 0 t d = iblk18 V c 0 t :=
  ((dat18 V c).before_in_eq_fetched 0 rfl (fun _ => rfl) (fun _ _ _ => rfl) (fun t => by rw [after18_0]; unfold Dat.blockOf iblk18; rw [A18_eq]; try rfl) t d).trans
    (by unfold Dat.fetched Dat.blockOf iblk18; rw [A18_eq]; try rfl)
theorem before18_1 (c : Dev nD) (t : Fin cfg18.N) (d) : (dat18 V c).before 1 t d = iblk18 V c 1 t :=
  ((dat18 V c).before_in_eq_fetched 1 rfl (fun _ => rfl) (fun _ _ _ => rfl) (fun t => by rw [after18_1]; unfold Dat.blockOf iblk18; rw [A18_eq]; try rfl) t d).trans
    (by unfold Dat.fetched Dat.blockOf iblk18; rw [A18_eq]; try rfl)

/-! ## The body obligation at a generic point -/

def bodyPre18 (c : Dev nD) (t : Fin cfg18.N) : sProp 𝕄 :=
  iprop((dat18 V c).Φ t.castSucc ∗ (dat18 V c).owesAt () t.castSucc
    ∗ (∃ d, owns (c : Thread nD τ) (ms18_0 t) fullShare ((dat18 V c).before 0 t d))
    ∗ (∃ d, owns (c : Thread nD τ) (ms18_1 t) fullShare ((dat18 V c).before 1 t d))
    ∗ (∃ d, owns (c : Thread nD τ) (ms18_2 t) fullShare ((dat18 V c).before 2 t d)))

def bodyPost18 (c : Dev nD) (t : Fin cfg18.N) : sProp 𝕄 :=
  iprop((dat18 V c).Φ t.succ ∗ (dat18 V c).owesAt () t.succ
    ∗ (dat18 V c).leavesExact 0 t ∗ (dat18 V c).leavesExact 1 t ∗ (dat18 V c).leavesExact 2 t)

set_option maxHeartbeats 4000000 in
/-- The body at any point. The three input buffers hold their blocks; the point's position in its contraction
    selects the case; the invariant hands over the accumulator (at anything before the very first point, else at
    what the point before left) and takes it back at this point's contents; an idle output buffer is handed back
    as found, a stored one at the case's block; the core owes nothing throughout. -/
theorem sound_body18 (c : Dev nD) (t : Fin cfg18.N) :
    bodyPre18 V c t ⊢ wp frame (wpE (defs₀ (F := F)) Variants.none c none) Set.univ (bodyAt18 t) (fun _ => bodyPost18 V c t) := by
  unfold bodyPre18 bodyPost18 bodyAt18
  simp only [before18_0, before18_1]
  rw [show (dat18 V c).owesAt () t.succ = (dat18 V c).owesAt () t.castSucc from rfl]
  rw [show (dat18 V c).Φ t.succ = iprop(owns (c : Thread nD τ) scM18 fullShare (outsAt18 V c t.val t.isLt).2
      ∗ Pipeline.scopedRestBut (Ix := Unit) (Name := ℕ) (U := UR sig nD τ × Counters) (Lvl := ℕ) (Val := Elt F) spec18 c [cc18_scratch0]) from rfl]
  have hN : t.val < 16 := lt_of_lt_of_eq t.isLt (show cfg18.N = 16 from N_18)
  rw [show (dat18 V c).leavesExact 0 t = owns (c : Thread nD τ) (ms18_0 t) fullShare (iblk18 V c 0 t) from by
    unfold Dat.leavesExact; rw [liveAt18_0 t, after18_0]]
  rw [show (dat18 V c).leavesExact 1 t = owns (c : Thread nD τ) (ms18_1 t) fullShare (iblk18 V c 1 t) from by
    unfold Dat.leavesExact; rw [liveAt18_1 t, after18_1]]
  rw [Phi18_castSucc V c t]
  by_cases h1 : t.val % 4 = 3
  · -- the last block of a contraction
    have h0 : ¬t.val % 4 = 0 := by omega
    have hz : t.val ≠ 0 := by omega
    rw [show (dat18 V c).leavesExact 2 t = owns (c : Thread nD τ) (ms18_2 t) fullShare (outsAt18 V c t.val t.isLt).1 from by
      unfold Dat.leavesExact; rw [liveAt18_2 t ((hcond18_1 t).mpr h1), after18_2]]
    rw [outsAt18_C V c t h0 h1, PhiS18_pos V c _ _ hz]
    dsimp only
    unfold outC18 accC18
    iintro ⟨⟨HS, Hb⟩, Ho, ⟨%d0, H0⟩, ⟨%d1, H1⟩, ⟨%d3, H3⟩⟩
    iapply ((run18_C c (grid18.coords t) (ms18_0 t) (hs18_0 t) (ms18_1 t) (hs18_1 t) (ms18_2 t) (hs18_2 t) scM18 (Memref.isWhole_whole _) (fun h => h0 ((hcond18_0 t).mp h)) ((hcond18_1 t).mpr h1) (iblk18 V c 0 t) (iblk18 V c 1 t) _).2.2 Set.univ _)
    isplitl [H0]; · iexact H0
    isplitl [H1]; · iexact H1
    isplitl [H3]; · iexists _; iexact H3
    isplitl [HS]; · iexact HS
    iintro ⟨H0, H1, ⟨%e3, H3⟩, ⟨%es, HS⟩⟩
    isplitl [HS Hb]
    · isplitl [HS]
      · unfold owns; iexists _; isplitr
        swap; · iexact HS
        ipureintro; exact View.read_writes_of_cover _ _ _ _ _ (coverCs18 V c t h0 h1 _)
      iexact Hb
    isplitl [Ho]; · iexact Ho
    isplitl [H0]; · iexact H0
    isplitl [H1]; · iexact H1
    unfold owns; iexists _; isplitr
    swap; · iexact H3
    ipureintro; exact View.read_writes_of_cover _ _ _ _ _ (coverCo18 V c t h0 h1 _)
  · rw [Dat.leavesExact_idle (dat18 V c) 2 t (idleAt18_2 t (fun h => h1 ((hcond18_1 t).mp h))) (noFlush18_2 t (fun h => h1 ((hcond18_1 t).mp h)))]
    by_cases h0 : t.val % 4 = 0
    · -- the first block of a contraction
      rw [outsAt18_A V c t h0 h1]
      dsimp only
      unfold accA18
      by_cases hz : t.val = 0
      · rw [show PhiS18 V c t.val (Nat.le_of_lt t.isLt) = Pipeline.scopedRest (Ix := Unit) (Name := ℕ) (U := UR sig nD τ × Counters) (Lvl := ℕ) (Val := Elt F) spec18 c from by
          obtain ⟨n, hn⟩ := t; dsimp only at hz; subst hz; rfl, scopedRest18_eq]
        iintro ⟨⟨HS, Hb⟩, Ho, ⟨%d0, H0⟩, ⟨%d1, H1⟩, ⟨%d3, H3⟩⟩
        iapply ((run18_A c (grid18.coords t) (ms18_0 t) (hs18_0 t) (ms18_1 t) (hs18_1 t) (ms18_2 t) (hs18_2 t) scM18 (Memref.isWhole_whole _) ((hcond18_0 t).mpr h0) (fun h => h1 ((hcond18_1 t).mp h)) (iblk18 V c 0 t) (iblk18 V c 1 t)).2 _ Set.univ _)
        isplitl [H0]; · iexact H0
        isplitl [H1]; · iexact H1
        isplitl [H3]; · iexact H3
        isplitl [HS]; · iexact HS
        iintro ⟨H0, H1, H3, ⟨%es, HS⟩⟩
        isplitl [HS Hb]
        · isplitl [HS]
          · unfold owns; iexists _; isplitr
            swap; · iexact HS
            ipureintro; exact View.read_writes_of_cover _ _ _ _ _ (coverA18 V c t h0 h1)
          iexact Hb
        isplitl [Ho]; · iexact Ho
        isplitl [H0]; · iexact H0
        isplitl [H1]; · iexact H1
        iexists _; iexact H3
      · rw [PhiS18_pos V c _ _ hz]
        iintro ⟨⟨HS, Hb⟩, Ho, ⟨%d0, H0⟩, ⟨%d1, H1⟩, ⟨%d3, H3⟩⟩
        iapply ((run18_A c (grid18.coords t) (ms18_0 t) (hs18_0 t) (ms18_1 t) (hs18_1 t) (ms18_2 t) (hs18_2 t) scM18 (Memref.isWhole_whole _) ((hcond18_0 t).mpr h0) (fun h => h1 ((hcond18_1 t).mp h)) (iblk18 V c 0 t) (iblk18 V c 1 t)).2 _ Set.univ _)
        isplitl [H0]; · iexact H0
        isplitl [H1]; · iexact H1
        isplitl [H3]; · iexact H3
        isplitl [HS]; · iexists _; iexact HS
        iintro ⟨H0, H1, H3, ⟨%es, HS⟩⟩
        isplitl [HS Hb]
        · isplitl [HS]
          · unfold owns; iexists _; isplitr
            swap; · iexact HS
            ipureintro; exact View.read_writes_of_cover _ _ _ _ _ (coverA18 V c t h0 h1)
          iexact Hb
        isplitl [Ho]; · iexact Ho
        isplitl [H0]; · iexact H0
        isplitl [H1]; · iexact H1
        iexists _; iexact H3
    · -- a middle block
      have hz : t.val ≠ 0 := by omega
      rw [outsAt18_B V c t h0 h1, PhiS18_pos V c _ _ hz]
      dsimp only
      unfold accB18
      iintro ⟨⟨HS, Hb⟩, Ho, ⟨%d0, H0⟩, ⟨%d1, H1⟩, ⟨%d3, H3⟩⟩
      iapply ((run18_B c (grid18.coords t) (ms18_0 t) (hs18_0 t) (ms18_1 t) (hs18_1 t) (ms18_2 t) (hs18_2 t) scM18 (Memref.isWhole_whole _) (fun h => h0 ((hcond18_0 t).mp h)) (fun h => h1 ((hcond18_1 t).mp h)) (iblk18 V c 0 t) (iblk18 V c 1 t) _).2 _ Set.univ _)
      isplitl [H0]; · iexact H0
      isplitl [H1]; · iexact H1
      isplitl [H3]; · iexact H3
      isplitl [HS]; · iexact HS
      iintro ⟨H0, H1, H3, ⟨%es, HS⟩⟩
      isplitl [HS Hb]
      · isplitl [HS]
        · unfold owns; iexists _; isplitr
          swap; · iexact HS
          ipureintro; exact View.read_writes_of_cover _ _ _ _ _ (coverB18 V c t h0 h1 _)
        iexact Hb
      isplitl [Ho]; · iexact Ho
      isplitl [H0]; · iexact H0
      isplitl [H1]; · iexact H1
      iexists _; iexact H3

theorem body_obligation18 (c : Dev nD) : BodyObligation (dat18 V c) (defs₀ (F := F)) Variants.none () Set.univ := fun t => by
  rw [bigSep_W18, bigSep_W18]
  exact sound_body18 V c t

/-! ## The region over the thread state -/

variable (Vp : (c : Dev nD) → (b : Ref sig .tc) → Buf (Elt F) ((c : Thread nD τ).loc b))
variable (pdats : (p : Fin 22) → (c : Dev nD) → Dat τ (Elt F) Unit ℕ (UR sig nD τ × Counters) ℕ (cfgs p) c)

/-- The result's array after the region, as the pipeline library computes it from the proof data. -/
def out18 (c : Dev nD) : Buf (Elt F) ((c : Thread nD τ).loc main_v37) := (dat18 V c).arrAt 2 cfg18.N

set_option backward.isDefEq.respectTransparency.types false in
set_option maxHeartbeats 2000000 in
/-- Launch 18 over the thread state "every unscoped buffer at `V c`, the core owing nothing": entered by
    splitting its three arrays out of the unscoped buffers, left with them put back at `Vp c`, which has the
    result's array at `out18` and agrees with `V c` elsewhere. -/
def reg18 (hp : ∀ c, pdats 18 c = dat18 V c)
    (hVp_out : ∀ c, Vp c main_v37 = out18 V c)
    (hVp_ne : ∀ c (b : Ref sig .tc), b ≠ main_v37 → Vp c b = V c b) :
    Pipeline.RegionSeg (pcfgs (F := F)) (fun p => (cfgs p).toPCfg_adm) pdats () defs₀ Variants.none (fun _ => (∅ : Finset Unit)) (fun _ _ => (0 : ℕ)) 18 where
  win := launch18.win.to₀
  block_pos := launch18.block_pos
  stage_whole := launch18.stage_whole
  K := PEmpty
  osem k := k.elim
  ho := Pipeline.OwnSemFacts.none _
  hbody c := by rw [hp c]; exact (body_obligation18 V c).loose
  hwaits := Pipeline.hwaits_of_owed_zero _ _ _ _ _ _ 18 fun c t => by rw [hp c]; rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ × Counters) (Lvl := ℕ) spec18 c (V c)
  hentry c := by
    rw [Pipeline.ownSems0_none]
    have hsplit := Pipeline.arrays_of_unscopedBufs (p := 18) (pcfgs (F := F)) (fun p => (cfgs p).toPCfg_adm) pdats launch18.win launch18.arr_whole c
      ((pdats 18 c).share_full fun w => by rw [hp c]; rfl) (V c) (fun w => by rw [hp c]; rfl)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hp c]
      unfold Pipeline.Dat.owesAt Pipeline.owesWithin
      icases HO with ⟨%W, HO⟩; iexists W; isplitr; · ipureintro; exact fun _ _ => Or.inl trivial
      iexact HO
    isplitr; · iempintro
    iexact Hrest
  hin c := by
    rw [hp c, show (dat18 V c).Φ 0 = Pipeline.scopedRest (Ix := Unit) (Name := ℕ) (U := UR sig nD τ × Counters) (Lvl := ℕ) (Val := Elt F) spec18 c from rfl]
    iintro ⟨-, -, Hr⟩; iexact Hr
  hout c := by
    rw [Pipeline.ownSems0_none, hp c]
    refine (Entails.of_eq ((show (dat18 V c).Φ (Fin.last _) = PhiS18 V c (Fin.last cfg18.N).val (Nat.le_of_lt_succ (Fin.last cfg18.N).isLt) from rfl).trans
      (PhiS18_pos V c _ _ (by rw [Fin.val_last]; have : cfg18.N = 16 := N_18; omega)))).trans ?_
    change _ ⊢ iprop(BI.emp ∗ BI.emp ∗ Pipeline.scopedRest (Ix := Unit) (Name := ℕ) (U := UR sig nD τ × Counters) (Lvl := ℕ) (Val := Elt F) spec18 c)
    rw [scopedRest18_eq]
    iintro ⟨HS, Hb⟩
    isplitr; · iempintro
    isplitr; · iempintro
    isplitl [HS]; · iexists _; iexact HS
    iexact Hb
  hexit c := by
    have hjoin := Pipeline.unscopedBufs_of_arrays (p := 18) (pcfgs (F := F)) (fun p => (cfgs p).toPCfg_adm) (Ix := Unit) (Name := ℕ) (U := UR sig nD τ × Counters) (Lvl := ℕ) launch18.win launch18.arr_whole c
      pdats ((pdats 18 c).share_full fun w => by rw [hp c]; rfl) (V c) (Vp c) ((pdats 18 c).arrAt · cfg18.N)
      (fun w => by
        fin_cases w
        · exact (((pdats 18 c).arrAt_in 0 rfl _).trans (by rw [hp c]; rfl)).trans (hVp_ne c main_v1 (by decide)).symm
        · exact (((pdats 18 c).arrAt_in 1 rfl _).trans (by rw [hp c]; rfl)).trans (hVp_ne c main_v36 (by decide)).symm
        · exact (by rw [hp c]; rfl : (pdats 18 c).arrAt 2 cfg18.N = out18 V c).trans (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W
    rw [show (pdats 18 c).owed (Fin.last _) = 0 from by rw [hp c]; rfl]
    iexact HO

end Cert.Kernel.Hand

end
-- ==== Proof.KB.R19Base.lean ====
/-
  Launch 19 of the program: one matrix product per grid point — the contraction is a single block —, a bias row
  added and tanh applied, the output block stored at every point. The grid's third coordinate is always 0, so both
  conditions of the body — "the contraction's first block" and "its last block" — hold at every point: this module
  decides them over the grid's points, records that no window is ever idle, and names the staging memrefs the body
  is called with.
-/
import proofs.«113214_j66838281060556_2_alg».proof.Proof.Gen.Kernel.Launch
import proofs.«113214_j66838281060556_2_alg».proof.Proof.Gen.Kernel.Skeleton
import proofs.«113214_j66838281060556_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

/-- The accumulator is reset: the point starts a contraction (third grid coordinate 0). Here the third axis has one
    coordinate, so every point does. -/
abbrev cond19_0 (i : grid19.Coords) : Prop := (Scalar.cmpi .ne (Scalar.extui (Scalar.cmpi .eq (BitVec.ofNat 32 (i 2).val) 0#32)) 0#32) = 1#1
theorem hcond19_0 : ∀ t : Fin cfg19.N, cond19_0 (grid19.coords t) :=
  (by decide +kernel : ∀ t : Fin grid19.N, cond19_0 (grid19.coords t))

/-- The result is stored: the point ends a contraction. Every point does. -/
abbrev cond19_1 (i : grid19.Coords) : Prop := k19_cond2 i = 1#1
theorem hcond19_1 : ∀ t : Fin cfg19.N, cond19_1 (grid19.coords t) :=
  (by decide +kernel : ∀ t : Fin grid19.N, cond19_1 (grid19.coords t))

/-- No window is idle at any point: the three inputs never, the output because every point stores. -/
theorem liveAt19_0 : ∀ t : Fin cfg19.N, cfg19.idle 0 (grid19.coords t) = false := by decide +kernel
theorem liveAt19_1 : ∀ t : Fin cfg19.N, cfg19.idle 1 (grid19.coords t) = false := by decide +kernel
theorem liveAt19_2 : ∀ t : Fin cfg19.N, cfg19.idle 2 (grid19.coords t) = false := by decide +kernel
theorem liveAt19_3 : ∀ t : Fin cfg19.N, cfg19.idle 3 (grid19.coords t) = false := by decide +kernel

/-- Each window's current staging memref at a point, as the pipeline passes it, and its wholeness. -/
abbrev ms19_0 (t : Fin cfg19.N) : Memref sig .tc .vmem S1024x819 .bf16 := win19_0.stage (cfg19.slots t 0)
abbrev hs19_0 (t : Fin cfg19.N) : (ms19_0 t).IsWhole := hstage19_0 ((cfg19.slots t 0).cast nbuf19_0)
abbrev ms19_1 (t : Fin cfg19.N) : Memref sig .tc .vmem S819x1024 .f32 := win19_1.stage (cfg19.slots t 1)
abbrev hs19_1 (t : Fin cfg19.N) : (ms19_1 t).IsWhole := hstage19_1 ((cfg19.slots t 1).cast nbuf19_1)
abbrev ms19_2 (t : Fin cfg19.N) : Memref sig .tc .vmem S1x1024 .f32 := win19_2.stage (cfg19.slots t 2)
abbrev hs19_2 (t : Fin cfg19.N) : (ms19_2 t).IsWhole := hstage19_2 ((cfg19.slots t 2).cast nbuf19_2)
abbrev ms19_3 (t : Fin cfg19.N) : Memref sig .tc .vmem S1024x1024 .f32 := win19_3.stage (cfg19.slots t 3)
abbrev hs19_3 (t : Fin cfg19.N) : (ms19_3 t).IsWhole := hstage19_3 ((cfg19.slots t 3).cast nbuf19_3)
/-- The accumulator: a whole scoped buffer of the launch's own. -/
abbrev scM19 : Memref sig .tc .vmem S1024x1024 .f32 := Memref.whole cc19_scratch0
abbrev VS19 : View sig .tc .vmem S1024x1024 .f32 := scM19.view

end Cert.Kernel.Hand

end
-- ==== Proof.KB.R19Run.lean ====
/-
  Launch 19, the body run symbolically in its one control case: the accumulator reset, the product added, the bias
  row added and tanh applied into the output block. The run's witnesses are the lists of pieces its stores leave in
  the output block and in the accumulator.
-/
import proofs.«113214_j66838281060556_2_alg».proof.Proof.KB.R19Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

set_option maxHeartbeats 2000000 in
/-- The body at a point, run symbolically: the accumulator, found at anything, is reset to zero and ends at the
    product of the two input blocks added to zero; the output block, found at anything, is stored whole: tanh of
    that sum plus the bias row. The witnesses are the pieces the stores leave in the output block and in the
    accumulator. -/
noncomputable def run19 (c : Dev nD) (i : grid19.Coords) (arg3 : Memref sig .tc .vmem S1024x819 .bf16) (harg3 : arg3.IsWhole) (arg4 : Memref sig .tc .vmem S819x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond19_0 i) (hc1 : cond19_1 i)
    (x0 : Vec F S1024x819 .bf16) (x1 : Vec F S819x1024 .f32) (x2 : Vec F S1x1024 .f32) :
    Σ' (LO : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LS)) -∗ K ⟨⟩))
          ⊢ wp frame (wpE (defs₀ (F := F)) Variants.none c none) E (cc19__mm_kernel i arg3 harg3 arg4 harg4 arg5 harg5 arg6 harg6 arg7 harg7) K } := by
  refine ⟨?_, ?_, fun E K => ?run⟩
  case run =>
    simp only [cc19__mm_kernel_eq_skeleton]; unfold cc19__mm_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    iexists _; iexact HS

end Cert.Kernel.Hand

end
-- ==== Proof.KB.R19.lean ====
/-
  Launch 19 as a region of the program. The blocks the windows stage are read off the arrays as the region finds
  them; a point stores the output block its run leaves; the accumulator is reset at every point, so between points
  the launch's scoped buffers that no window stages are simply held whole at anything; the body obligation follows
  from the one symbolic run; and the region is stated over the thread state "every unscoped buffer at given
  contents, the core owing nothing", entered by splitting its arrays out and left with the result's array
  at what the pipeline computes from the stored blocks.
-/
import proofs.«113214_j66838281060556_2_alg».proof.Proof.KB.R19Run
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

variable (V : (c : Dev nD) → (b : Ref sig .tc) → Buf (Elt F) ((c : Thread nD τ).loc b))

/-! ## The blocks the windows stage -/

/-- Window `w`'s block at point `t`, read off its array as the region finds it. -/
def iblk19 (c : Dev nD) (w : Fin cfg19.W) (t : Fin cfg19.N) : ((cfg19.win w).xblock (cfg19.grid.coords t)).Idx → Elt F (cfg19.win w).elt :=
  ((cfg19.win w).blk t).view.read (Elt F) (V c (Pipeline.arrRef spec19 w))

/-- A view of the output's staging buffer, through which contents are stated. -/
abbrev VO19 : View sig .tc .vmem S1024x1024 .f32 := (Memref.whole cc19_stg3_0 : Memref sig .tc .vmem S1024x1024 .f32).view

/-! ## What a point leaves -/

/-- The output block a point stores: what the run's pieces leave, read through the staging buffer's view. -/
def out19 (c : Dev nD) (t : Fin cfg19.N) : Vec F S1024x1024 .f32 :=
  VO19.read (Elt F) (VO19.writes (Elt F) VO19.junk (run19 c (grid19.coords t) (ms19_0 t) (hs19_0 t) (ms19_1 t) (hs19_1 t) (ms19_2 t) (hs19_2 t) (ms19_3 t) (hs19_3 t) scM19 (Memref.isWhole_whole _) (hcond19_0 t) (hcond19_1 t) (iblk19 V c 0 t) (iblk19 V c 1 t) (iblk19 V c 2 t)).1)

/-- The stores into the output block cover it. -/
theorem coverO19 (c : Dev nD) (t : Fin cfg19.N) (y : S1024x1024.Idx) :
    ∃ pc ∈ (run19 c (grid19.coords t) (ms19_0 t) (hs19_0 t) (ms19_1 t) (hs19_1 t) (ms19_2 t) (hs19_2 t) (ms19_3 t) (hs19_3 t) scM19 (Memref.isWhole_whole _) (hcond19_0 t) (hcond19_1 t) (iblk19 V c 0 t) (iblk19 V c 1 t) (iblk19 V c 2 t)).1, y ∈ pc.1.set :=
  View.cover_of_tiledL _ S1024x1024.size (by sl_kernel_rfl) y

/-! ## The invariant between points -/

/-- The scoped rest with the accumulator split out as a memref owned at some contents. The accumulator is reset at
    every point, so the invariant between points is the scoped rest itself, the accumulator at anything. -/
theorem scopedRest19_eq (c : Dev nD) :
    (Pipeline.scopedRest (Ix := Unit) (Name := ℕ) (U := UR sig nD τ × Counters) (Lvl := ℕ) (Val := Elt F) spec19 c : sProp 𝕄)
      = iprop((∃ d, owns (c : Thread nD τ) scM19 fullShare d)
          ∗ Pipeline.scopedRestBut (Ix := Unit) (Name := ℕ) (U := UR sig nD τ × Counters) (Lvl := ℕ) (Val := Elt F) spec19 c [cc19_scratch0]) := by
  rw [scopedRest19_split]; simp only [scM19, owns_whole]; try rfl

/-! ## The proof data -/

def dat19 (c : Dev nD) : Dat τ (Elt F) Unit ℕ (UR sig nD τ × Counters) ℕ cfg19 c where
  A w := V c (Pipeline.arrRef spec19 w)
  after w t := match w with
    | ⟨0, _⟩ => iblk19 V c 0 t
    | ⟨1, _⟩ => iblk19 V c 1 t
    | ⟨2, _⟩ => iblk19 V c 2 t
    | ⟨3, _⟩ => out19 V c t
  Φ _ := Pipeline.scopedRest (Ix := Unit) (Name := ℕ) (U := UR sig nD τ × Counters) (Lvl := ℕ) (Val := Elt F) spec19 c
  q _ := fullShare
  owed _ := 0

theorem A19_eq (c : Dev nD) (w : Fin cfg19.W) : (dat19 V c).A w = V c (Pipeline.arrRef spec19 w) := by
  dsimp only [dat19]
theorem after19_0 (c : Dev nD) (t : Fin cfg19.N) : (dat19 V c).after 0 t = iblk19 V c 0 t := by dsimp only [dat19]
theorem after19_1 (c : Dev nD) (t : Fin cfg19.N) : (dat19 V c).after 1 t = iblk19 V c 1 t := by dsimp only [dat19]
theorem after19_2 (c : Dev nD) (t : Fin cfg19.N) : (dat19 V c).after 2 t = iblk19 V c 2 t := by dsimp only [dat19]
theorem after19_3 (c : Dev nD) (t : Fin cfg19.N) : (dat19 V c).after 3 t = out19 V c t := by dsimp only [dat19]

/-- Each input window's current staging buffer holds its block at every point, fetched there or not. -/
theorem before19_0 (c : Dev nD) (t : Fin cfg19.N) (d) : (dat19 V c).before 0 t d = iblk19 V c 0 t :=
  ((dat19 V c).before_in_eq_fetched 0 rfl (fun _ => rfl) (fun _ _ _ => rfl) (fun t => by rw [after19_0]; unfold Dat.blockOf iblk19; rw [A19_eq]; try rfl) t d).trans
    (by unfold Dat.fetched Dat.blockOf iblk19; rw [A19_eq]; try rfl)
theorem before19_1 (c : Dev nD) (t : Fin cfg19.N) (d) : (dat19 V c).before 1 t d = iblk19 V c 1 t :=
  ((dat19 V c).before_in_eq_fetched 1 rfl (fun _ => rfl) (fun _ _ _ => rfl) (fun t => by rw [after19_1]; unfold Dat.blockOf iblk19; rw [A19_eq]; try rfl) t d).trans
    (by unfold Dat.fetched Dat.blockOf iblk19; rw [A19_eq]; try rfl)
theorem before19_2 (c : Dev nD) (t : Fin cfg19.N) (d) : (dat19 V c).before 2 t d = iblk19 V c 2 t :=
  ((dat19 V c).before_in_eq_fetched 2 rfl (fun _ => rfl) (fun _ _ _ => rfl) (fun t => by rw [after19_2]; unfold Dat.blockOf iblk19; rw [A19_eq]; try rfl) t d).trans
    (by unfold Dat.fetched Dat.blockOf iblk19; rw [A19_eq]; try rfl)

/-! ## The body obligation at a generic point -/

def bodyPre19 (c : Dev nD) (t : Fin cfg19.N) : sProp 𝕄 :=
  iprop((dat19 V c).Φ t.castSucc ∗ (dat19 V c).owesAt () t.castSucc
    ∗ (∃ d, owns (c : Thread nD τ) (ms19_0 t) fullShare ((dat19 V c).before 0 t d))
    ∗ (∃ d, owns (c : Thread nD τ) (ms19_1 t) fullShare ((dat19 V c).before 1 t d))
    ∗ (∃ d, owns (c : Thread nD τ) (ms19_2 t) fullShare ((dat19 V c).before 2 t d))
    ∗ (∃ d, owns (c : Thread nD τ) (ms19_3 t) fullShare ((dat19 V c).before 3 t d)))

def bodyPost19 (c : Dev nD) (t : Fin cfg19.N) : sProp 𝕄 :=
  iprop((dat19 V c).Φ t.succ ∗ (dat19 V c).owesAt () t.succ
    ∗ (dat19 V c).leavesExact 0 t ∗ (dat19 V c).leavesExact 1 t ∗ (dat19 V c).leavesExact 2 t ∗ (dat19 V c).leavesExact 3 t)

set_option maxHeartbeats 4000000 in
/-- The body at any point. The input buffers hold their blocks; the invariant hands over the accumulator at
    anything and takes it back at anything; the output buffer, found at anything, is handed back at the block the
    point stores; the core owes nothing throughout. -/
theorem sound_body19 (c : Dev nD) (t : Fin cfg19.N) :
    bodyPre19 V c t ⊢ wp frame (wpE (defs₀ (F := F)) Variants.none c none) Set.univ (bodyAt19 t) (fun _ => bodyPost19 V c t) := by
  unfold bodyPre19 bodyPost19 bodyAt19
  simp only [before19_0, before19_1, before19_2]
  rw [show (dat19 V c).owesAt () t.succ = (dat19 V c).owesAt () t.castSucc from rfl]
  rw [show (dat19 V c).Φ t.succ = Pipeline.scopedRest (Ix := Unit) (Name := ℕ) (U := UR sig nD τ × Counters) (Lvl := ℕ) (Val := Elt F) spec19 c from rfl,
    show (dat19 V c).Φ t.castSucc = Pipeline.scopedRest (Ix := Unit) (Name := ℕ) (U := UR sig nD τ × Counters) (Lvl := ℕ) (Val := Elt F) spec19 c from rfl]
  rw [show (dat19 V c).leavesExact 0 t = owns (c : Thread nD τ) (ms19_0 t) fullShare (iblk19 V c 0 t) from by
    unfold Dat.leavesExact; rw [liveAt19_0 t, after19_0]]
  rw [show (dat19 V c).leavesExact 1 t = owns (c : Thread nD τ) (ms19_1 t) fullShare (iblk19 V c 1 t) from by
    unfold Dat.leavesExact; rw [liveAt19_1 t, after19_1]]
  rw [show (dat19 V c).leavesExact 2 t = owns (c : Thread nD τ) (ms19_2 t) fullShare (iblk19 V c 2 t) from by
    unfold Dat.leavesExact; rw [liveAt19_2 t, after19_2]]
  rw [show (dat19 V c).leavesExact 3 t = owns (c : Thread nD τ) (ms19_3 t) fullShare (out19 V c t) from by
    unfold Dat.leavesExact; rw [liveAt19_3 t, after19_3]]
  rw [scopedRest19_eq]
  unfold out19
  iintro ⟨⟨HS, Hb⟩, Ho, ⟨%d0, H0⟩, ⟨%d1, H1⟩, ⟨%d2, H2⟩, ⟨%d3, H3⟩⟩
  iapply ((run19 c (grid19.coords t) (ms19_0 t) (hs19_0 t) (ms19_1 t) (hs19_1 t) (ms19_2 t) (hs19_2 t) (ms19_3 t) (hs19_3 t) scM19 (Memref.isWhole_whole _) (hcond19_0 t) (hcond19_1 t) (iblk19 V c 0 t) (iblk19 V c 1 t) (iblk19 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS Hb]
  · isplitl [HS]
    · iexists _; unfold owns; iexists _; isplitr
      swap; · iexact HS
      ipureintro; rfl
    iexact Hb
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (coverO19 V c t)

theorem body_obligation19 (c : Dev nD) : BodyObligation (dat19 V c) (defs₀ (F := F)) Variants.none () Set.univ := fun t => by
  rw [bigSep_W19, bigSep_W19]
  exact sound_body19 V c t

/-! ## The region over the thread state -/

variable (Vp : (c : Dev nD) → (b : Ref sig .tc) → Buf (Elt F) ((c : Thread nD τ).loc b))
variable (pdats : (p : Fin 22) → (c : Dev nD) → Dat τ (Elt F) Unit ℕ (UR sig nD τ × Counters) ℕ (cfgs p) c)

/-- The result's array after the region, as the pipeline library computes it from the proof data. -/
def out19arr (c : Dev nD) : Buf (Elt F) ((c : Thread nD τ).loc main_v39) := (dat19 V c).arrAt 3 cfg19.N

set_option backward.isDefEq.respectTransparency.types false in
set_option maxHeartbeats 2000000 in
/-- Launch 19 over the thread state "every unscoped buffer at `V c`, the core owing nothing": entered by
    splitting its arrays out of the unscoped buffers, left with them put back at `Vp c`, which has the
    result's array at `out19arr` and agrees with `V c` elsewhere. -/
def reg19 (hp : ∀ c, pdats 19 c = dat19 V c)
    (hVp_out : ∀ c, Vp c main_v39 = out19arr V c)
    (hVp_ne : ∀ c (b : Ref sig .tc), b ≠ main_v39 → Vp c b = V c b) :
    Pipeline.RegionSeg (pcfgs (F := F)) (fun p => (cfgs p).toPCfg_adm) pdats () defs₀ Variants.none (fun _ => (∅ : Finset Unit)) (fun _ _ => (0 : ℕ)) 19 where
  win := launch19.win.to₀
  block_pos := launch19.block_pos
  stage_whole := launch19.stage_whole
  K := PEmpty
  osem k := k.elim
  ho := Pipeline.OwnSemFacts.none _
  hbody c := by rw [hp c]; exact (body_obligation19 V c).loose
  hwaits := Pipeline.hwaits_of_owed_zero _ _ _ _ _ _ 19 fun c t => by rw [hp c]; rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ × Counters) (Lvl := ℕ) spec19 c (V c)
  hentry c := by
    rw [Pipeline.ownSems0_none]
    have hsplit := Pipeline.arrays_of_unscopedBufs (p := 19) (pcfgs (F := F)) (fun p => (cfgs p).toPCfg_adm) pdats launch19.win launch19.arr_whole c
      ((pdats 19 c).share_full fun w => by rw [hp c]; rfl) (V c) (fun w => by rw [hp c]; rfl)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hp c]; exact trivial)
      rw [show (pdats 19 c).owed 0 = 0 from by rw [hp c]; rfl]
      iexact HO
    isplitr; · iempintro
    iexact Hrest
  hin c := by
    rw [hp c, show (dat19 V c).Φ 0 = Pipeline.scopedRest (Ix := Unit) (Name := ℕ) (U := UR sig nD τ × Counters) (Lvl := ℕ) (Val := Elt F) spec19 c from rfl]
    iintro ⟨-, -, Hr⟩; iexact Hr
  hout c := by
    rw [Pipeline.ownSems0_none, hp c]
    change (Pipeline.scopedRest (Ix := Unit) (Name := ℕ) (U := UR sig nD τ × Counters) (Lvl := ℕ) (Val := Elt F) spec19 c : sProp 𝕄) ⊢ _
    iintro Hr
    isplitr; · iempintro
    isplitr; · iempintro
    iexact Hr
  hexit c := by
    have hjoin := Pipeline.unscopedBufs_of_arrays (p := 19) (pcfgs (F := F)) (fun p => (cfgs p).toPCfg_adm) (Ix := Unit) (Name := ℕ) (U := UR sig nD τ × Counters) (Lvl := ℕ) launch19.win launch19.arr_whole c
      pdats ((pdats 19 c).share_full fun w => by rw [hp c]; rfl) (V c) (Vp c) ((pdats 19 c).arrAt · cfg19.N)
      (fun w => by
        fin_cases w
        · exact (((pdats 19 c).arrAt_in 0 rfl _).trans (by rw [hp c]; rfl)).trans (hVp_ne c main_v37 (by decide)).symm
        · exact (((pdats 19 c).arrAt_in 1 rfl _).trans (by rw [hp c]; rfl)).trans (hVp_ne c main_arg17 (by decide)).symm
        · exact (((pdats 19 c).arrAt_in 2 rfl _).trans (by rw [hp c]; rfl)).trans (hVp_ne c main_v38 (by decide)).symm
        · exact (by rw [hp c]; rfl : (pdats 19 c).arrAt 3 cfg19.N = out19arr V c).trans (hVp_out c).symm)
      (fun b hb => hVp_ne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W
    rw [show (pdats 19 c).owed (Fin.last _) = 0 from by rw [hp c]; rfl]
    iexact HO

end Cert.Kernel.Hand

end
-- ==== Proof.KB.R20Base.lean ====
/-
  Launch 20 of the program: a matrix product accumulated over the third grid axis (grid 4 × 1 × 4: four row blocks,
  four contraction blocks), stored — with no bias and no activation — when
  the last block has been added. This module names the two conditions of the body on the grid point ("the
  contraction's first block", "its last block"), decides them over the sixteen points, and records where the
  output window is idle and where its block is written back.
-/
import proofs.«113214_j66838281060556_2_alg».proof.Proof.Gen.Kernel.Launch
import proofs.«113214_j66838281060556_2_alg».proof.Proof.Gen.Kernel.Skeleton
import proofs.«113214_j66838281060556_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

/-- The accumulator is reset: the point starts a contraction (third grid coordinate 0). -/
abbrev cond20_0 (i : grid20.Coords) : Prop := (Scalar.cmpi .ne (Scalar.extui (Scalar.cmpi .eq (BitVec.ofNat 32 (i 2).val) 0#32)) 0#32) = 1#1
theorem hcond20_0 : ∀ t : Fin cfg20.N, cond20_0 (grid20.coords t) ↔ t.val % 4 = 0 :=
  (by decide +kernel : ∀ t : Fin grid20.N, cond20_0 (grid20.coords t) ↔ t.val % 4 = 0)

/-- The result is stored: the point ends a contraction (third grid coordinate 3). -/
abbrev cond20_1 (i : grid20.Coords) : Prop := k20_cond2 i = 1#1
theorem hcond20_1 : ∀ t : Fin cfg20.N, cond20_1 (grid20.coords t) ↔ t.val % 4 = 3 :=
  (by decide +kernel : ∀ t : Fin grid20.N, cond20_1 (grid20.coords t) ↔ t.val % 4 = 3)

/-- The two input windows are never idle. -/
theorem liveAt20_0 : ∀ t : Fin cfg20.N, cfg20.idle 0 (grid20.coords t) = false := by decide +kernel
theorem liveAt20_1 : ∀ t : Fin cfg20.N, cfg20.idle 1 (grid20.coords t) = false := by decide +kernel
/-- Away from a contraction's last block the output window is idle and its block is not written back. -/
theorem idleAt20_2 : ∀ t : Fin cfg20.N, ¬cond20_1 (grid20.coords t) → cfg20.idle 2 (grid20.coords t) = true := by decide +kernel
theorem noFlush20_2 : ∀ t : Fin cfg20.N, ¬cond20_1 (grid20.coords t) → (cfg20.win 2).flush t = false := by decide +kernel
/-- At a contraction's last block the output window is live. -/
theorem liveAt20_2 : ∀ t : Fin cfg20.N, cond20_1 (grid20.coords t) → cfg20.idle 2 (grid20.coords t) = false := by decide +kernel

/-- Each window's current staging memref at a point, as the pipeline passes it, and its wholeness. -/
abbrev ms20_0 (t : Fin cfg20.N) : Memref sig .tc .vmem S1024x1024 .bf16 := win20_0.stage (cfg20.slots t 0)
abbrev hs20_0 (t : Fin cfg20.N) : (ms20_0 t).IsWhole := hstage20_0 ((cfg20.slots t 0).cast nbuf20_0)
abbrev ms20_1 (t : Fin cfg20.N) : Memref sig .tc .vmem S1024x1024 .f32 := win20_1.stage (cfg20.slots t 1)
abbrev hs20_1 (t : Fin cfg20.N) : (ms20_1 t).IsWhole := hstage20_1 ((cfg20.slots t 1).cast nbuf20_1)
abbrev ms20_2 (t : Fin cfg20.N) : Memref sig .tc .vmem S1024x1024 .bf16 := win20_2.stage (cfg20.slots t 2)
abbrev hs20_2 (t : Fin cfg20.N) : (ms20_2 t).IsWhole := hstage20_2 ((cfg20.slots t 2).cast nbuf20_2)
/-- The accumulator: a whole scoped buffer of the launch's own. -/
abbrev scM20 : Memref sig .tc .vmem S1024x1024 .f32 := Memref.whole cc20_scratch0
abbrev VS20 : View sig .tc .vmem S1024x1024 .f32 := scM20.view

end Cert.Kernel.Hand

end
-- ==== Proof.KB.R20Run.lean ====
/-
  Launch 20, the body run symbolically in each of its three control cases: the first block of a contraction
  (the accumulator reset, then the first product added), a middle block (the product added), the last block
  (the product added, then the sum stored into the output block in the output's format). Each run's witness
  is the list of pieces its stores leave in the accumulator (and, in the last case, in the output block).
-/
import proofs.«113214_j66838281060556_2_alg».proof.Proof.KB.R20Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

set_option maxHeartbeats 2000000 in
/-- The first block of a contraction that is not also its last: the accumulator, found at anything, is reset to
    zero and ends at the product of the two input blocks added to zero; the idle output block is handed back
    untouched. The pieces written into the accumulator are the witness the symbolic run finds. -/
noncomputable def run20_A (c : Dev nD) (i : grid20.Coords) (arg3 : Memref sig .tc .vmem S1024x1024 .bf16) (harg3 : arg3.IsWhole) (arg4 : Memref sig .tc .vmem S1024x1024 .f32) (harg4 : arg4.IsWhole) (arg5 : Memref sig .tc .vmem S1024x1024 .bf16) (harg5 : arg5.IsWhole) (arg6 : Memref sig .tc .vmem S1024x1024 .f32) (harg6 : arg6.IsWhole) (hc0 : cond20_0 i) (hc1 : ¬cond20_1 i)
    (x0 : Vec F S1024x1024 .bf16) (x1 : Vec F S1024x1024 .f32) :
    { LS : List (View.Piece (Elt F) S1024x1024 .f32) //
      ∀ (xi : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi ∗ (∃ d, owns (c : Thread nD τ) arg6 fullShare d)
            ∗ (iprop(owns (c : Thread nD τ) arg3 fullShare x0 ∗ owns (c : Thread nD τ) arg4 fullShare x1 ∗ owns (c : Thread nD τ) arg5 fullShare xi
                ∗ (∃ f, arg6.view.loc (c : Thread nD τ) ↦[arg6.view.set]{fullShare} arg6.view.writes (Elt F) f LS)) -∗ K ⟨⟩))
          ⊢ wp frame (wpE (defs₀ (F := F)) Variants.none c none) E (cc20__mm_kernel i arg3 harg3 arg4 harg4 arg5 harg5 arg6 harg6) K } := by
  refine ⟨?_, fun xi E K => ?run⟩
  case run =>
    simp only [cc20__mm_kernel_eq_skeleton]; unfold cc20__mm_kernel_skel
    unfold owns
    iintro ⟨⟨%f0, %hf0, H0⟩, ⟨%f1, %hf1, H1⟩, ⟨%f3, %hf3, H3⟩, ⟨%ds, %fs, -, HS⟩, Hk⟩
    obtain rfl := harg3.eq_unread hf0; obtain rfl := harg4.eq_unread hf1; obtain rfl := harg5.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H3]
    · iexists _; isplitr; · ipureintro; exact harg5.read_unread _
      iexact H3
    iexists _; iexact HS

set_option maxHeartbeats 2000000 in
/-- A middle block of a contraction: the accumulator, found at `xs`, ends at the product of the two input
    blocks added to `xs`; the idle output block is handed back untouched. -/
noncomputable def run20_B (c : Dev nD) (i : grid20.Coords) (arg3 : Memref sig .tc .vmem S1024x1024 .bf16) (harg3 : arg3.IsWhole) (arg4 : Memref sig .tc .vmem S1024x1024 .f32) (harg4 : arg4.IsWhole) (arg5 : Memref sig .tc .vmem S1024x1024 .bf16) (harg5 : arg5.IsWhole) (arg6 : Memref sig .tc .vmem S1024x1024 .f32) (harg6 : arg6.IsWhole) (hc0 : ¬cond20_0 i) (hc1 : ¬cond20_1 i)
    (x0 : Vec F S1024x1024 .bf16) (x1 : Vec F S1024x1024 .f32) (xs : Vec F S1024x1024 .f32) :
    { LS : List (View.Piece (Elt F) S1024x1024 .f32) //
      ∀ (xi : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi ∗ owns (c : Thread nD τ) arg6 fullShare xs
            ∗ (iprop(owns (c : Thread nD τ) arg3 fullShare x0 ∗ owns (c : Thread nD τ) arg4 fullShare x1 ∗ owns (c : Thread nD τ) arg5 fullShare xi
                ∗ (∃ f, arg6.view.loc (c : Thread nD τ) ↦[arg6.view.set]{fullShare} arg6.view.writes (Elt F) f LS)) -∗ K ⟨⟩))
          ⊢ wp frame (wpE (defs₀ (F := F)) Variants.none c none) E (cc20__mm_kernel i arg3 harg3 arg4 harg4 arg5 harg5 arg6 harg6) K } := by
  refine ⟨?_, fun xi E K => ?run⟩
  case run =>
    simp only [cc20__mm_kernel_eq_skeleton]; unfold cc20__mm_kernel_skel
    unfold owns
    iintro ⟨⟨%f0, %hf0, H0⟩, ⟨%f1, %hf1, H1⟩, ⟨%f3, %hf3, H3⟩, ⟨%fs, %hfs, HS⟩, Hk⟩
    obtain rfl := harg3.eq_unread hf0; obtain rfl := harg4.eq_unread hf1; obtain rfl := harg5.eq_unread hf3
    obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H3]
    · iexists _; isplitr; · ipureintro; exact harg5.read_unread _
      iexact H3
    iexists _; iexact HS

set_option maxHeartbeats 2000000 in
/-- The last block of a contraction that is not also its first: the accumulator, found at `xs`, ends at the
    product of the two input blocks added to `xs`, and the output block, found at anything, is stored whole:
    that sum in the output's format. -/
noncomputable def run20_C (c : Dev nD) (i : grid20.Coords) (arg3 : Memref sig .tc .vmem S1024x1024 .bf16) (harg3 : arg3.IsWhole) (arg4 : Memref sig .tc .vmem S1024x1024 .f32) (harg4 : arg4.IsWhole) (arg5 : Memref sig .tc .vmem S1024x1024 .bf16) (harg5 : arg5.IsWhole) (arg6 : Memref sig .tc .vmem S1024x1024 .f32) (harg6 : arg6.IsWhole) (hc0 : ¬cond20_0 i) (hc1 : cond20_1 i)
    (x0 : Vec F S1024x1024 .bf16) (x1 : Vec F S1024x1024 .f32) (xs : Vec F S1024x1024 .f32) :
    Σ' (LO : List (View.Piece (Elt F) S1024x1024 .bf16)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc20__mm_kernel i arg3 harg3 arg4 harg4 arg5 harg5 arg6 harg6) K } := by
  refine ⟨?_, ?_, fun E K => ?run⟩
  case run =>
    simp only [cc20__mm_kernel_eq_skeleton]; unfold cc20__mm_kernel_skel
    unfold owns
    iintro ⟨⟨%f0, %hf0, H0⟩, ⟨%f1, %hf1, H1⟩, ⟨%d3, %f3, -, H3⟩, ⟨%fs, %hfs, HS⟩, Hk⟩
    obtain rfl := harg3.eq_unread hf0; obtain rfl := harg4.eq_unread hf1
    obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H3]
    · iexists _; iexact H3
    iexists _; iexact HS

end Cert.Kernel.Hand

end
-- ==== Proof.KB.R20.lean ====
/-
  Launch 20 as a segment of the program: the product A·B of a graph matrix with the right
  factor, computed block by block on the grid 4 × 1 × 4 with an accumulator carried along the contraction and
  stored in the output's format when a contraction ends. What the accumulator and the output block hold after
  each point is defined by recursion on the point; the invariant between points is the accumulator at that value
  beside the launch's other scoped buffers; the proof data states each window's block after the body; the body
  obligation is the three symbolic runs put together by cases on the point's position in its contraction; and
  the segment record enters the launch from a thread state holding every unscoped buffer at an entry valuation
  and leaves it at the valuation updated at the result's array.
-/
import proofs.«113214_j66838281060556_2_alg».proof.Proof.KB.R20Run
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

variable (V : (c : Dev nD) → (b : Ref sig .tc) → Buf (Elt F) ((c : Thread nD τ).loc b))

/-! ## The blocks the windows stage -/

/-- Window `w`'s block at point `t`, read off its array as the region finds it. -/
def iblk20 (c : Dev nD) (w : Fin cfg20.W) (t : Fin cfg20.N) : ((cfg20.win w).xblock (cfg20.grid.coords t)).Idx → Elt F (cfg20.win w).elt :=
  ((cfg20.win w).blk t).view.read (Elt F) (V c (Pipeline.arrRef spec20 w))

/-- A view of the output's staging buffer and one of the accumulator, through which contents are stated. -/
abbrev VO20 : View sig .tc .vmem S1024x1024 .bf16 := (Memref.whole cc20_stg2_0 : Memref sig .tc .vmem S1024x1024 .bf16).view

/-! ## What each case leaves -/

/-- The accumulator after a first block. -/
def accA20 (c : Dev nD) (t : Fin cfg20.N) (h0 : t.val % 4 = 0) (h1 : ¬t.val % 4 = 3) : Vec F S1024x1024 .f32 :=
  VS20.read (Elt F) (VS20.writes (Elt F) VS20.junk (run20_A c (grid20.coords t) (ms20_0 t) (hs20_0 t) (ms20_1 t) (hs20_1 t) (ms20_2 t) (hs20_2 t) scM20 (Memref.isWhole_whole _) ((hcond20_0 t).mpr h0) (fun h => h1 ((hcond20_1 t).mp h)) (iblk20 V c 0 t) (iblk20 V c 1 t)).1)
/-- The accumulator after a middle block, from what the point before left. -/
def accB20 (c : Dev nD) (t : Fin cfg20.N) (h0 : ¬t.val % 4 = 0) (h1 : ¬t.val % 4 = 3) (xs : Vec F S1024x1024 .f32) : Vec F S1024x1024 .f32 :=
  VS20.read (Elt F) (VS20.writes (Elt F) VS20.junk (run20_B c (grid20.coords t) (ms20_0 t) (hs20_0 t) (ms20_1 t) (hs20_1 t) (ms20_2 t) (hs20_2 t) scM20 (Memref.isWhole_whole _) (fun h => h0 ((hcond20_0 t).mp h)) (fun h => h1 ((hcond20_1 t).mp h)) (iblk20 V c 0 t) (iblk20 V c 1 t) xs).1)
/-- The accumulator after a last block, -/
def accC20 (c : Dev nD) (t : Fin cfg20.N) (h0 : ¬t.val % 4 = 0) (h1 : t.val % 4 = 3) (xs : Vec F S1024x1024 .f32) : Vec F S1024x1024 .f32 :=
  VS20.read (Elt F) (VS20.writes (Elt F) VS20.junk (run20_C c (grid20.coords t) (ms20_0 t) (hs20_0 t) (ms20_1 t) (hs20_1 t) (ms20_2 t) (hs20_2 t) scM20 (Memref.isWhole_whole _) (fun h => h0 ((hcond20_0 t).mp h)) ((hcond20_1 t).mpr h1) (iblk20 V c 0 t) (iblk20 V c 1 t) xs).2.1)
/-- and the output block stored there. -/
def outC20 (c : Dev nD) (t : Fin cfg20.N) (h0 : ¬t.val % 4 = 0) (h1 : t.val % 4 = 3) (xs : Vec F S1024x1024 .f32) : Vec F S1024x1024 .bf16 :=
  VO20.read (Elt F) (VO20.writes (Elt F) VO20.junk (run20_C c (grid20.coords t) (ms20_0 t) (hs20_0 t) (ms20_1 t) (hs20_1 t) (ms20_2 t) (hs20_2 t) scM20 (Memref.isWhole_whole _) (fun h => h0 ((hcond20_0 t).mp h)) ((hcond20_1 t).mpr h1) (iblk20 V c 0 t) (iblk20 V c 1 t) xs).1)

theorem coverA20 (c : Dev nD) (t : Fin cfg20.N) (h0 : t.val % 4 = 0) (h1 : ¬t.val % 4 = 3) (y : S1024x1024.Idx) :
    ∃ pc ∈ (run20_A c (grid20.coords t) (ms20_0 t) (hs20_0 t) (ms20_1 t) (hs20_1 t) (ms20_2 t) (hs20_2 t) scM20 (Memref.isWhole_whole _) ((hcond20_0 t).mpr h0) (fun h => h1 ((hcond20_1 t).mp h)) (iblk20 V c 0 t) (iblk20 V c 1 t)).1, y ∈ pc.1.set :=
  View.cover_of_tiledL _ S1024x1024.size (by sl_kernel_rfl) y
theorem coverB20 (c : Dev nD) (t : Fin cfg20.N) (h0 : ¬t.val % 4 = 0) (h1 : ¬t.val % 4 = 3) (xs : Vec F S1024x1024 .f32) (y : S1024x1024.Idx) :
    ∃ pc ∈ (run20_B c (grid20.coords t) (ms20_0 t) (hs20_0 t) (ms20_1 t) (hs20_1 t) (ms20_2 t) (hs20_2 t) scM20 (Memref.isWhole_whole _) (fun h => h0 ((hcond20_0 t).mp h)) (fun h => h1 ((hcond20_1 t).mp h)) (iblk20 V c 0 t) (iblk20 V c 1 t) xs).1, y ∈ pc.1.set :=
  View.cover_of_tiledL _ S1024x1024.size (by sl_kernel_rfl) y
theorem coverCs20 (c : Dev nD) (t : Fin cfg20.N) (h0 : ¬t.val % 4 = 0) (h1 : t.val % 4 = 3) (xs : Vec F S1024x1024 .f32) (y : S1024x1024.Idx) :
    ∃ pc ∈ (run20_C c (grid20.coords t) (ms20_0 t) (hs20_0 t) (ms20_1 t) (hs20_1 t) (ms20_2 t) (hs20_2 t) scM20 (Memref.isWhole_whole _) (fun h => h0 ((hcond20_0 t).mp h)) ((hcond20_1 t).mpr h1) (iblk20 V c 0 t) (iblk20 V c 1 t) xs).2.1, y ∈ pc.1.set :=
  View.cover_of_tiledL _ S1024x1024.size (by sl_kernel_rfl) y
theorem coverCo20 (c : Dev nD) (t : Fin cfg20.N) (h0 : ¬t.val % 4 = 0) (h1 : t.val % 4 = 3) (xs : Vec F S1024x1024 .f32) (y : S1024x1024.Idx) :
    ∃ pc ∈ (run20_C c (grid20.coords t) (ms20_0 t) (hs20_0 t) (ms20_1 t) (hs20_1 t) (ms20_2 t) (hs20_2 t) scM20 (Memref.isWhole_whole _) (fun h => h0 ((hcond20_0 t).mp h)) ((hcond20_1 t).mpr h1) (iblk20 V c 0 t) (iblk20 V c 1 t) xs).1, y ∈ pc.1.set :=
  View.cover_of_tiledL _ S1024x1024.size (by sl_kernel_rfl) y

/-! ## The accumulation, point by point -/

/-- What the output's staging buffer (first component; meaningful at a contraction's last block only) and the
    accumulator (second component) hold after the body at position `n`. -/
def outsAt20 (c : Dev nD) : (n : ℕ) → n < cfg20.N → Vec F S1024x1024 .bf16 × Vec F S1024x1024 .f32
  | 0, hn => (VO20.read (Elt F) VO20.junk, accA20 V c ⟨0, hn⟩ (Nat.zero_mod _) (by simp))
  | n + 1, hn =>
    if h0 : (n + 1) % 4 = 0 then
      if h1 : (n + 1) % 4 = 3 then False.elim (by omega)
      else (VO20.read (Elt F) VO20.junk, accA20 V c ⟨n + 1, hn⟩ h0 h1)
    else
      if h1 : (n + 1) % 4 = 3 then
        (outC20 V c ⟨n + 1, hn⟩ h0 h1 (outsAt20 c n (Nat.lt_of_succ_lt hn)).2, accC20 V c ⟨n + 1, hn⟩ h0 h1 (outsAt20 c n (Nat.lt_of_succ_lt hn)).2)
      else
        (VO20.read (Elt F) VO20.junk, accB20 V c ⟨n + 1, hn⟩ h0 h1 (outsAt20 c n (Nat.lt_of_succ_lt hn)).2)

theorem outsAt20_A (c : Dev nD) (t : Fin cfg20.N) (h0 : t.val % 4 = 0) (h1 : ¬t.val % 4 = 3) :
    outsAt20 V c t.val t.isLt = (VO20.read (Elt F) VO20.junk, accA20 V c t h0 h1) := by
  obtain ⟨n, hn⟩ := t
  cases n with
  | zero => exact rfl
  | succ n => exact (dif_pos h0).trans ((dif_neg h1).trans rfl)

theorem outsAt20_B (c : Dev nD) (t : Fin cfg20.N) (h0 : ¬t.val % 4 = 0) (h1 : ¬t.val % 4 = 3) :
    outsAt20 V c t.val t.isLt = (VO20.read (Elt F) VO20.junk, accB20 V c t h0 h1 (outsAt20 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt20_C (c : Dev nD) (t : Fin cfg20.N) (h0 : ¬t.val % 4 = 0) (h1 : t.val % 4 = 3) :
    outsAt20 V c t.val t.isLt = (outC20 V c t h0 h1 (outsAt20 V c (t.val - 1) (Nat.lt_of_le_of_lt (Nat.sub_le _ _) t.isLt)).2,
      accC20 V c t h0 h1 (outsAt20 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant between points -/

/-- Before the first point the launch's scoped buffers that no window stages, whole; afterwards the accumulator at
    what the point before left, and the other such buffers unopened. -/
def PhiS20 (c : Dev nD) : (n : ℕ) → n ≤ cfg20.N → sProp 𝕄
  | 0, _ => Pipeline.scopedRest (Ix := Unit) (Name := ℕ) (U := UR sig nD τ × Counters) (Lvl := ℕ) (Val := Elt F) spec20 c
  | n + 1, hn => iprop(owns (c : Thread nD τ) scM20 fullShare (outsAt20 V c n hn).2
      ∗ Pipeline.scopedRestBut (Ix := Unit) (Name := ℕ) (U := UR sig nD τ × Counters) (Lvl := ℕ) (Val := Elt F) spec20 c [cc20_scratch0])

theorem PhiS20_pos (c : Dev nD) (n : ℕ) (h : n ≤ cfg20.N) (hz : n ≠ 0) :
    PhiS20 V c n h = iprop(owns (c : Thread nD τ) scM20 fullShare (outsAt20 V c (n - 1) (by omega)).2
      ∗ Pipeline.scopedRestBut (Ix := Unit) (Name := ℕ) (U := UR sig nD τ × Counters) (Lvl := ℕ) (Val := Elt F) spec20 c [cc20_scratch0]) := by
  cases n with
  | zero => exact absurd rfl hz
  | succ n => rfl

/-- The scoped rest with the accumulator split out as a memref owned at some contents. -/
theorem scopedRest20_eq (c : Dev nD) :
    (Pipeline.scopedRest (Ix := Unit) (Name := ℕ) (U := UR sig nD τ × Counters) (Lvl := ℕ) (Val := Elt F) spec20 c : sProp 𝕄)
      = iprop((∃ d, owns (c : Thread nD τ) scM20 fullShare d)
          ∗ Pipeline.scopedRestBut (Ix := Unit) (Name := ℕ) (U := UR sig nD τ × Counters) (Lvl := ℕ) (Val := Elt F) spec20 c [cc20_scratch0]) := by
  rw [scopedRest20_split]; simp only [scM20, owns_whole]; try rfl

/-! ## The proof data -/

def dat20 (c : Dev nD) : Dat τ (Elt F) Unit ℕ (UR sig nD τ × Counters) ℕ cfg20 c where
  A w := V c (Pipeline.arrRef spec20 w)
  after w t := match w with
    | ⟨0, _⟩ => iblk20 V c 0 t
    | ⟨1, _⟩ => iblk20 V c 1 t
    | ⟨2, _⟩ => (outsAt20 V c t.val t.isLt).1
  Φ t := PhiS20 V c t.val (Nat.le_of_lt_succ t.isLt)
  q _ := fullShare
  owed _ := 0

theorem A20_eq (c : Dev nD) (w : Fin cfg20.W) : (dat20 V c).A w = V c (Pipeline.arrRef spec20 w) := by
  dsimp only [dat20]
theorem after20_0 (c : Dev nD) (t : Fin cfg20.N) : (dat20 V c).after 0 t = iblk20 V c 0 t := by dsimp only [dat20]
theorem after20_1 (c : Dev nD) (t : Fin cfg20.N) : (dat20 V c).after 1 t = iblk20 V c 1 t := by dsimp only [dat20]
theorem after20_2 (c : Dev nD) (t : Fin cfg20.N) : (dat20 V c).after 2 t = (outsAt20 V c t.val t.isLt).1 := by dsimp only [dat20]

theorem Phi20_castSucc (c : Dev nD) (t : Fin cfg20.N) :
    (dat20 V c).Φ t.castSucc = PhiS20 V c t.val (Nat.le_of_lt t.isLt) := by
  dsimp only [dat20]; simp only [Fin.coe_castSucc]

/-- Each input window's current staging buffer holds its block at every point, fetched there or not. -/
theorem before20_0 (c : Dev nD) (t : Fin cfg20.N) (d) : (dat20 V c).before 0 t d = iblk20 V c 0 t :=
  ((dat20 V c).before_in_eq_fetched 0 rfl (fun _ => rfl) (fun _ _ _ => rfl) (fun t => by rw [after20_0]; unfold Dat.blockOf iblk20; rw [A20_eq]; try rfl) t d).trans
    (by unfold Dat.fetched Dat.blockOf iblk20; rw [A20_eq]; try rfl)
theorem before20_1 (c : Dev nD) (t : Fin cfg20.N) (d) : (dat20 V c).before 1 t d = iblk20 V c 1 t :=
  ((dat20 V c).before_in_eq_fetched 1 rfl (fun _ => rfl) (fun _ _ _ => rfl) (fun t => by rw [after20_1]; unfold Dat.blockOf iblk20; rw [A20_eq]; try rfl) t d).trans
    (by unfold Dat.fetched Dat.blockOf iblk20; rw [A20_eq]; try rfl)

/-! ## The body obligation at a generic point -/

def bodyPre20 (c : Dev nD) (t : Fin cfg20.N) : sProp 𝕄 :=
  iprop((dat20 V c).Φ t.castSucc ∗ (dat20 V c).owesAt () t.castSucc
    ∗ (∃ d, owns (c : Thread nD τ) (ms20_0 t) fullShare ((dat20 V c).before 0 t d))
    ∗ (∃ d, owns (c : Thread nD τ) (ms20_1 t) fullShare ((dat20 V c).before 1 t d))
    ∗ (∃ d, owns (c : Thread nD τ) (ms20_2 t) fullShare ((dat20 V c).before 2 t d)))

def bodyPost20 (c : Dev nD) (t : Fin cfg20.N) : sProp 𝕄 :=
  iprop((dat20 V c).Φ t.succ ∗ (dat20 V c).owesAt () t.succ
    ∗ (dat20 V c).leavesExact 0 t ∗ (dat20 V c).leavesExact 1 t ∗ (dat20 V c).leavesExact 2 t)

set_option maxHeartbeats 4000000 in
/-- The body at any point. The three input buffers hold their blocks; the point's position in its contraction
    selects the case; the invariant hands over the accumulator (at anything before the very first point, else at
    what the point before left) and takes it back at this point's contents; an idle output buffer is handed back
    as found, a stored one at the case's block; the core owes nothing throughout. -/
theorem sound_body20 (c : Dev nD) (t : Fin cfg20.N) :
    bodyPre20 V c t ⊢ wp frame (wpE (defs₀ (F := F)) Variants.none c none) Set.univ (bodyAt20 t) (fun _ => bodyPost20 V c t) := by
  unfold bodyPre20 bodyPost20 bodyAt20
  simp only [before20_0, before20_1]
  rw [show (dat20 V c).owesAt () t.succ = (dat20 V c).owesAt () t.castSucc from rfl]
  rw [show (dat20 V c).Φ t.succ = iprop(owns (c : Thread nD τ) scM20 fullShare (outsAt20 V c t.val t.isLt).2
      ∗ Pipeline.scopedRestBut (Ix := Unit) (Name := ℕ) (U := UR sig nD τ × Counters) (Lvl := ℕ) (Val := Elt F) spec20 c [cc20_scratch0]) from rfl]
  have hN : t.val < 16 := lt_of_lt_of_eq t.isLt (show cfg20.N = 16 from N_20)
  rw [show (dat20 V c).leavesExact 0 t = owns (c : Thread nD τ) (ms20_0 t) fullShare (iblk20 V c 0 t) from by
    unfold Dat.leavesExact; rw [liveAt20_0 t, after20_0]]
  rw [show (dat20 V c).leavesExact 1 t = owns (c : Thread nD τ) (ms20_1 t) fullShare (iblk20 V c 1 t) from by
    unfold Dat.leavesExact; rw [liveAt20_1 t, after20_1]]
  rw [Phi20_castSucc V c t]
  by_cases h1 : t.val % 4 = 3
  · -- the last block of a contraction
    have h0 : ¬t.val % 4 = 0 := by omega
    have hz : t.val ≠ 0 := by omega
    rw [show (dat20 V c).leavesExact 2 t = owns (c : Thread nD τ) (ms20_2 t) fullShare (outsAt20 V c t.val t.isLt).1 from by
      unfold Dat.leavesExact; rw [liveAt20_2 t ((hcond20_1 t).mpr h1), after20_2]]
    rw [outsAt20_C V c t h0 h1, PhiS20_pos V c _ _ hz]
    dsimp only
    unfold outC20 accC20
    iintro ⟨⟨HS, Hb⟩, Ho, ⟨%d0, H0⟩, ⟨%d1, H1⟩, ⟨%d3, H3⟩⟩
    iapply ((run20_C c (grid20.coords t) (ms20_0 t) (hs20_0 t) (ms20_1 t) (hs20_1 t) (ms20_2 t) (hs20_2 t) scM20 (Memref.isWhole_whole _) (fun h => h0 ((hcond20_0 t).mp h)) ((hcond20_1 t).mpr h1) (iblk20 V c 0 t) (iblk20 V c 1 t) _).2.2 Set.univ _)
    isplitl [H0]; · iexact H0
    isplitl [H1]; · iexact H1
    isplitl [H3]; · iexists _; iexact H3
    isplitl [HS]; · iexact HS
    iintro ⟨H0, H1, ⟨%e3, H3⟩, ⟨%es, HS⟩⟩
    isplitl [HS Hb]
    · isplitl [HS]
      · unfold owns; iexists _; isplitr
        swap; · iexact HS
        ipureintro; exact View.read_writes_of_cover _ _ _ _ _ (coverCs20 V c t h0 h1 _)
      iexact Hb
    isplitl [Ho]; · iexact Ho
    isplitl [H0]; · iexact H0
    isplitl [H1]; · iexact H1
    unfold owns; iexists _; isplitr
    swap; · iexact H3
    ipureintro; exact View.read_writes_of_cover _ _ _ _ _ (coverCo20 V c t h0 h1 _)
  · rw [Dat.leavesExact_idle (dat20 V c) 2 t (idleAt20_2 t (fun h => h1 ((hcond20_1 t).mp h))) (noFlush20_2 t (fun h => h1 ((hcond20_1 t).mp h)))]
    by_cases h0 : t.val % 4 = 0
    · -- the first block of a contraction
      rw [outsAt20_A V c t h0 h1]
      dsimp only
      unfold accA20
      by_cases hz : t.val = 0
      · rw [show PhiS20 V c t.val (Nat.le_of_lt t.isLt) = Pipeline.scopedRest (Ix := Unit) (Name := ℕ) (U := UR sig nD τ × Counters) (Lvl := ℕ) (Val := Elt F) spec20 c from by
          obtain ⟨n, hn⟩ := t; dsimp only at hz; subst hz; rfl, scopedRest20_eq]
        iintro ⟨⟨HS, Hb⟩, Ho, ⟨%d0, H0⟩, ⟨%d1, H1⟩, ⟨%d3, H3⟩⟩
        iapply ((run20_A c (grid20.coords t) (ms20_0 t) (hs20_0 t) (ms20_1 t) (hs20_1 t) (ms20_2 t) (hs20_2 t) scM20 (Memref.isWhole_whole _) ((hcond20_0 t).mpr h0) (fun h => h1 ((hcond20_1 t).mp h)) (iblk20 V c 0 t) (iblk20 V c 1 t)).2 _ Set.univ _)
        isplitl [H0]; · iexact H0
        isplitl [H1]; · iexact H1
        isplitl [H3]; · iexact H3
        isplitl [HS]; · iexact HS
        iintro ⟨H0, H1, H3, ⟨%es, HS⟩⟩
        isplitl [HS Hb]
        · isplitl [HS]
          · unfold owns; iexists _; isplitr
            swap; · iexact HS
            ipureintro; exact View.read_writes_of_cover _ _ _ _ _ (coverA20 V c t h0 h1)
          iexact Hb
        isplitl [Ho]; · iexact Ho
        isplitl [H0]; · iexact H0
        isplitl [H1]; · iexact H1
        iexists _; iexact H3
      · rw [PhiS20_pos V c _ _ hz]
        iintro ⟨⟨HS, Hb⟩, Ho, ⟨%d0, H0⟩, ⟨%d1, H1⟩, ⟨%d3, H3⟩⟩
        iapply ((run20_A c (grid20.coords t) (ms20_0 t) (hs20_0 t) (ms20_1 t) (hs20_1 t) (ms20_2 t) (hs20_2 t) scM20 (Memref.isWhole_whole _) ((hcond20_0 t).mpr h0) (fun h => h1 ((hcond20_1 t).mp h)) (iblk20 V c 0 t) (iblk20 V c 1 t)).2 _ Set.univ _)
        isplitl [H0]; · iexact H0
        isplitl [H1]; · iexact H1
        isplitl [H3]; · iexact H3
        isplitl [HS]; · iexists _; iexact HS
        iintro ⟨H0, H1, H3, ⟨%es, HS⟩⟩
        isplitl [HS Hb]
        · isplitl [HS]
          · unfold owns; iexists _; isplitr
            swap; · iexact HS
            ipureintro; exact View.read_writes_of_cover _ _ _ _ _ (coverA20 V c t h0 h1)
          iexact Hb
        isplitl [Ho]; · iexact Ho
        isplitl [H0]; · iexact H0
        isplitl [H1]; · iexact H1
        iexists _; iexact H3
    · -- a middle block
      have hz : t.val ≠ 0 := by omega
      rw [outsAt20_B V c t h0 h1, PhiS20_pos V c _ _ hz]
      dsimp only
      unfold accB20
      iintro ⟨⟨HS, Hb⟩, Ho, ⟨%d0, H0⟩, ⟨%d1, H1⟩, ⟨%d3, H3⟩⟩
      iapply ((run20_B c (grid20.coords t) (ms20_0 t) (hs20_0 t) (ms20_1 t) (hs20_1 t) (ms20_2 t) (hs20_2 t) scM20 (Memref.isWhole_whole _) (fun h => h0 ((hcond20_0 t).mp h)) (fun h => h1 ((hcond20_1 t).mp h)) (iblk20 V c 0 t) (iblk20 V c 1 t) _).2 _ Set.univ _)
      isplitl [H0]; · iexact H0
      isplitl [H1]; · iexact H1
      isplitl [H3]; · iexact H3
      isplitl [HS]; · iexact HS
      iintro ⟨H0, H1, H3, ⟨%es, HS⟩⟩
      isplitl [HS Hb]
      · isplitl [HS]
        · unfold owns; iexists _; isplitr
          swap; · iexact HS
          ipureintro; exact View.read_writes_of_cover _ _ _ _ _ (coverB20 V c t h0 h1 _)
        iexact Hb
      isplitl [Ho]; · iexact Ho
      isplitl [H0]; · iexact H0
      isplitl [H1]; · iexact H1
      iexists _; iexact H3

theorem body_obligation20 (c : Dev nD) : BodyObligation (dat20 V c) (defs₀ (F := F)) Variants.none () Set.univ := fun t => by
  rw [bigSep_W20, bigSep_W20]
  exact sound_body20 V c t

/-! ## The region over the thread state -/

variable (Vp : (c : Dev nD) → (b : Ref sig .tc) → Buf (Elt F) ((c : Thread nD τ).loc b))
variable (pdats : (p : Fin 22) → (c : Dev nD) → Dat τ (Elt F) Unit ℕ (UR sig nD τ × Counters) ℕ (cfgs p) c)

/-- The result's array after the region, as the pipeline library computes it from the proof data. -/
def out20 (c : Dev nD) : Buf (Elt F) ((c : Thread nD τ).loc main_v40) := (dat20 V c).arrAt 2 cfg20.N

set_option backward.isDefEq.respectTransparency.types false in
set_option maxHeartbeats 2000000 in
/-- Launch 20 over the thread state "every unscoped buffer at `V c`, the core owing nothing": entered by
    splitting its three arrays out of the unscoped buffers, left with them put back at `Vp c`, which has the
    result's array at `out20` and agrees with `V c` elsewhere. -/
def reg20 (hp : ∀ c, pdats 20 c = dat20 V c)
    (hVp_out : ∀ c, Vp c main_v40 = out20 V c)
    (hVp_ne : ∀ c (b : Ref sig .tc), b ≠ main_v40 → Vp c b = V c b) :
    Pipeline.RegionSeg (pcfgs (F := F)) (fun p => (cfgs p).toPCfg_adm) pdats () defs₀ Variants.none (fun _ => (∅ : Finset Unit)) (fun _ _ => (0 : ℕ)) 20 where
  win := launch20.win.to₀
  block_pos := launch20.block_pos
  stage_whole := launch20.stage_whole
  K := PEmpty
  osem k := k.elim
  ho := Pipeline.OwnSemFacts.none _
  hbody c := by rw [hp c]; exact (body_obligation20 V c).loose
  hwaits := Pipeline.hwaits_of_owed_zero _ _ _ _ _ _ 20 fun c t => by rw [hp c]; rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ × Counters) (Lvl := ℕ) spec20 c (V c)
  hentry c := by
    rw [Pipeline.ownSems0_none]
    have hsplit := Pipeline.arrays_of_unscopedBufs (p := 20) (pcfgs (F := F)) (fun p => (cfgs p).toPCfg_adm) pdats launch20.win launch20.arr_whole c
      ((pdats 20 c).share_full fun w => by rw [hp c]; rfl) (V c) (fun w => by rw [hp c]; rfl)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hp c]
      unfold Pipeline.Dat.owesAt Pipeline.owesWithin
      icases HO with ⟨%W, HO⟩; iexists W; isplitr; · ipureintro; exact fun _ _ => Or.inl trivial
      iexact HO
    isplitr; · iempintro
    iexact Hrest
  hin c := by
    rw [hp c, show (dat20 V c).Φ 0 = Pipeline.scopedRest (Ix := Unit) (Name := ℕ) (U := UR sig nD τ × Counters) (Lvl := ℕ) (Val := Elt F) spec20 c from rfl]
    iintro ⟨-, -, Hr⟩; iexact Hr
  hout c := by
    rw [Pipeline.ownSems0_none, hp c]
    refine (Entails.of_eq ((show (dat20 V c).Φ (Fin.last _) = PhiS20 V c (Fin.last cfg20.N).val (Nat.le_of_lt_succ (Fin.last cfg20.N).isLt) from rfl).trans
      (PhiS20_pos V c _ _ (by rw [Fin.val_last]; have : cfg20.N = 16 := N_20; omega)))).trans ?_
    change _ ⊢ iprop(BI.emp ∗ BI.emp ∗ Pipeline.scopedRest (Ix := Unit) (Name := ℕ) (U := UR sig nD τ × Counters) (Lvl := ℕ) (Val := Elt F) spec20 c)
    rw [scopedRest20_eq]
    iintro ⟨HS, Hb⟩
    isplitr; · iempintro
    isplitr; · iempintro
    isplitl [HS]; · iexists _; iexact HS
    iexact Hb
  hexit c := by
    have hjoin := Pipeline.unscopedBufs_of_arrays (p := 20) (pcfgs (F := F)) (fun p => (cfgs p).toPCfg_adm) (Ix := Unit) (Name := ℕ) (U := UR sig nD τ × Counters) (Lvl := ℕ) launch20.win launch20.arr_whole c
      pdats ((pdats 20 c).share_full fun w => by rw [hp c]; rfl) (V c) (Vp c) ((pdats 20 c).arrAt · cfg20.N)
      (fun w => by
        fin_cases w
        · exact (((pdats 20 c).arrAt_in 0 rfl _).trans (by rw [hp c]; rfl)).trans (hVp_ne c main_v1 (by decide)).symm
        · exact (((pdats 20 c).arrAt_in 1 rfl _).trans (by rw [hp c]; rfl)).trans (hVp_ne c main_v39 (by decide)).symm
        · exact (by rw [hp c]; rfl : (pdats 20 c).arrAt 2 cfg20.N = out20 V c).trans (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W
    rw [show (pdats 20 c).owed (Fin.last _) = 0 from by rw [hp c]; rfl]
    iexact HO

end Cert.Kernel.Hand

end
-- ==== Proof.KB.R21Base.lean ====
/-
  Launch 21 of the program: one matrix product per grid point — the contraction is a single block —, a bias row
  added and tanh applied, the output block stored at every point. The grid's third coordinate is always 0, so both
  conditions of the body — "the contraction's first block" and "its last block" — hold at every point: this module
  decides them over the grid's points, records that no window is ever idle, and names the staging memrefs the body
  is called with.
-/
import proofs.«113214_j66838281060556_2_alg».proof.Proof.Gen.Kernel.Launch
import proofs.«113214_j66838281060556_2_alg».proof.Proof.Gen.Kernel.Skeleton
import proofs.«113214_j66838281060556_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

/-- The accumulator is reset: the point starts a contraction (third grid coordinate 0). Here the third axis has one
    coordinate, so every point does. -/
abbrev cond21_0 (i : grid21.Coords) : Prop := (Scalar.cmpi .ne (Scalar.extui (Scalar.cmpi .eq (BitVec.ofNat 32 (i 2).val) 0#32)) 0#32) = 1#1
theorem hcond21_0 : ∀ t : Fin cfg21.N, cond21_0 (grid21.coords t) :=
  (by decide +kernel : ∀ t : Fin grid21.N, cond21_0 (grid21.coords t))

/-- The result is stored: the point ends a contraction. Every point does. -/
abbrev cond21_1 (i : grid21.Coords) : Prop := k21_cond2 i = 1#1
theorem hcond21_1 : ∀ t : Fin cfg21.N, cond21_1 (grid21.coords t) :=
  (by decide +kernel : ∀ t : Fin grid21.N, cond21_1 (grid21.coords t))

/-- No window is idle at any point: the three inputs never, the output because every point stores. -/
theorem liveAt21_0 : ∀ t : Fin cfg21.N, cfg21.idle 0 (grid21.coords t) = false := by decide +kernel
theorem liveAt21_1 : ∀ t : Fin cfg21.N, cfg21.idle 1 (grid21.coords t) = false := by decide +kernel
theorem liveAt21_2 : ∀ t : Fin cfg21.N, cfg21.idle 2 (grid21.coords t) = false := by decide +kernel
theorem liveAt21_3 : ∀ t : Fin cfg21.N, cfg21.idle 3 (grid21.coords t) = false := by decide +kernel

/-- Each window's current staging memref at a point, as the pipeline passes it, and its wholeness. -/
abbrev ms21_0 (t : Fin cfg21.N) : Memref sig .tc .vmem S1024x1024 .bf16 := win21_0.stage (cfg21.slots t 0)
abbrev hs21_0 (t : Fin cfg21.N) : (ms21_0 t).IsWhole := hstage21_0 ((cfg21.slots t 0).cast nbuf21_0)
abbrev ms21_1 (t : Fin cfg21.N) : Memref sig .tc .vmem S1024x1280 .f32 := win21_1.stage (cfg21.slots t 1)
abbrev hs21_1 (t : Fin cfg21.N) : (ms21_1 t).IsWhole := hstage21_1 ((cfg21.slots t 1).cast nbuf21_1)
abbrev ms21_2 (t : Fin cfg21.N) : Memref sig .tc .vmem S1x1280 .f32 := win21_2.stage (cfg21.slots t 2)
abbrev hs21_2 (t : Fin cfg21.N) : (ms21_2 t).IsWhole := hstage21_2 ((cfg21.slots t 2).cast nbuf21_2)
abbrev ms21_3 (t : Fin cfg21.N) : Memref sig .tc .vmem S1024x1280 .f32 := win21_3.stage (cfg21.slots t 3)
abbrev hs21_3 (t : Fin cfg21.N) : (ms21_3 t).IsWhole := hstage21_3 ((cfg21.slots t 3).cast nbuf21_3)
/-- The accumulator: a whole scoped buffer of the launch's own. -/
abbrev scM21 : Memref sig .tc .vmem S1024x1280 .f32 := Memref.whole cc21_scratch0
abbrev VS21 : View sig .tc .vmem S1024x1280 .f32 := scM21.view

end Cert.Kernel.Hand

end
-- ==== Proof.KB.R21Run.lean ====
/-
  Launch 21, the body run symbolically in its one control case: the accumulator reset, the product added, the bias
  row added and tanh applied into the output block. The run's witnesses are the lists of pieces its stores leave in
  the output block and in the accumulator.
-/
import proofs.«113214_j66838281060556_2_alg».proof.Proof.KB.R21Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

set_option maxHeartbeats 2000000 in
/-- The body at a point, run symbolically: the accumulator, found at anything, is reset to zero and ends at the
    product of the two input blocks added to zero; the output block, found at anything, is stored whole: tanh of
    that sum plus the bias row. The witnesses are the pieces the stores leave in the output block and in the
    accumulator. -/
noncomputable def run21 (c : Dev nD) (i : grid21.Coords) (arg3 : Memref sig .tc .vmem S1024x1024 .bf16) (harg3 : arg3.IsWhole) (arg4 : Memref sig .tc .vmem S1024x1280 .f32) (harg4 : arg4.IsWhole) (arg5 : Memref sig .tc .vmem S1x1280 .f32) (harg5 : arg5.IsWhole) (arg6 : Memref sig .tc .vmem S1024x1280 .f32) (harg6 : arg6.IsWhole) (arg7 : Memref sig .tc .vmem S1024x1280 .f32) (harg7 : arg7.IsWhole) (hc0 : cond21_0 i) (hc1 : cond21_1 i)
    (x0 : Vec F S1024x1024 .bf16) (x1 : Vec F S1024x1280 .f32) (x2 : Vec F S1x1280 .f32) :
    Σ' (LO : List (View.Piece (Elt F) S1024x1280 .f32)), { LS : List (View.Piece (Elt F) S1024x1280 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LS)) -∗ K ⟨⟩))
          ⊢ wp frame (wpE (defs₀ (F := F)) Variants.none c none) E (cc21__mm_kernel i arg3 harg3 arg4 harg4 arg5 harg5 arg6 harg6 arg7 harg7) K } := by
  refine ⟨?_, ?_, fun E K => ?run⟩
  case run =>
    simp only [cc21__mm_kernel_eq_skeleton]; unfold cc21__mm_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    iexists _; iexact HS

end Cert.Kernel.Hand

end
-- ==== Proof.KB.R21.lean ====
/-
  Launch 21 as a region of the program. The blocks the windows stage are read off the arrays as the region finds
  them; a point stores the output block its run leaves; the accumulator is reset at every point, so between points
  the launch's scoped buffers that no window stages are simply held whole at anything; the body obligation follows
  from the one symbolic run; and the region is stated over the thread state "every unscoped buffer at given
  contents, the core owing nothing", entered by splitting its arrays out and left with the result's array
  at what the pipeline computes from the stored blocks.
-/
import proofs.«113214_j66838281060556_2_alg».proof.Proof.KB.R21Run
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

variable (V : (c : Dev nD) → (b : Ref sig .tc) → Buf (Elt F) ((c : Thread nD τ).loc b))

/-! ## The blocks the windows stage -/

/-- Window `w`'s block at point `t`, read off its array as the region finds it. -/
def iblk21 (c : Dev nD) (w : Fin cfg21.W) (t : Fin cfg21.N) : ((cfg21.win w).xblock (cfg21.grid.coords t)).Idx → Elt F (cfg21.win w).elt :=
  ((cfg21.win w).blk t).view.read (Elt F) (V c (Pipeline.arrRef spec21 w))

/-- A view of the output's staging buffer, through which contents are stated. -/
abbrev VO21 : View sig .tc .vmem S1024x1280 .f32 := (Memref.whole cc21_stg3_0 : Memref sig .tc .vmem S1024x1280 .f32).view

/-! ## What a point leaves -/

/-- The output block a point stores: what the run's pieces leave, read through the staging buffer's view. -/
def out21 (c : Dev nD) (t : Fin cfg21.N) : Vec F S1024x1280 .f32 :=
  VO21.read (Elt F) (VO21.writes (Elt F) VO21.junk (run21 c (grid21.coords t) (ms21_0 t) (hs21_0 t) (ms21_1 t) (hs21_1 t) (ms21_2 t) (hs21_2 t) (ms21_3 t) (hs21_3 t) scM21 (Memref.isWhole_whole _) (hcond21_0 t) (hcond21_1 t) (iblk21 V c 0 t) (iblk21 V c 1 t) (iblk21 V c 2 t)).1)

/-- The stores into the output block cover it. -/
theorem coverO21 (c : Dev nD) (t : Fin cfg21.N) (y : S1024x1280.Idx) :
    ∃ pc ∈ (run21 c (grid21.coords t) (ms21_0 t) (hs21_0 t) (ms21_1 t) (hs21_1 t) (ms21_2 t) (hs21_2 t) (ms21_3 t) (hs21_3 t) scM21 (Memref.isWhole_whole _) (hcond21_0 t) (hcond21_1 t) (iblk21 V c 0 t) (iblk21 V c 1 t) (iblk21 V c 2 t)).1, y ∈ pc.1.set :=
  View.cover_of_tiledL _ S1024x1280.size (by sl_kernel_rfl) y

/-! ## The invariant between points -/

/-- The scoped rest with the accumulator split out as a memref owned at some contents. The accumulator is reset at
    every point, so the invariant between points is the scoped rest itself, the accumulator at anything. -/
theorem scopedRest21_eq (c : Dev nD) :
    (Pipeline.scopedRest (Ix := Unit) (Name := ℕ) (U := UR sig nD τ × Counters) (Lvl := ℕ) (Val := Elt F) spec21 c : sProp 𝕄)
      = iprop((∃ d, owns (c : Thread nD τ) scM21 fullShare d)
          ∗ Pipeline.scopedRestBut (Ix := Unit) (Name := ℕ) (U := UR sig nD τ × Counters) (Lvl := ℕ) (Val := Elt F) spec21 c [cc21_scratch0]) := by
  rw [scopedRest21_split]; simp only [scM21, owns_whole]; try rfl

/-! ## The proof data -/

def dat21 (c : Dev nD) : Dat τ (Elt F) Unit ℕ (UR sig nD τ × Counters) ℕ cfg21 c where
  A w := V c (Pipeline.arrRef spec21 w)
  after w t := match w with
    | ⟨0, _⟩ => iblk21 V c 0 t
    | ⟨1, _⟩ => iblk21 V c 1 t
    | ⟨2, _⟩ => iblk21 V c 2 t
    | ⟨3, _⟩ => out21 V c t
  Φ _ := Pipeline.scopedRest (Ix := Unit) (Name := ℕ) (U := UR sig nD τ × Counters) (Lvl := ℕ) (Val := Elt F) spec21 c
  q _ := fullShare
  owed _ := 0

theorem A21_eq (c : Dev nD) (w : Fin cfg21.W) : (dat21 V c).A w = V c (Pipeline.arrRef spec21 w) := by
  dsimp only [dat21]
theorem after21_0 (c : Dev nD) (t : Fin cfg21.N) : (dat21 V c).after 0 t = iblk21 V c 0 t := by dsimp only [dat21]
theorem after21_1 (c : Dev nD) (t : Fin cfg21.N) : (dat21 V c).after 1 t = iblk21 V c 1 t := by dsimp only [dat21]
theorem after21_2 (c : Dev nD) (t : Fin cfg21.N) : (dat21 V c).after 2 t = iblk21 V c 2 t := by dsimp only [dat21]
theorem after21_3 (c : Dev nD) (t : Fin cfg21.N) : (dat21 V c).after 3 t = out21 V c t := by dsimp only [dat21]

/-- Each input window's current staging buffer holds its block at every point, fetched there or not. -/
theorem before21_0 (c : Dev nD) (t : Fin cfg21.N) (d) : (dat21 V c).before 0 t d = iblk21 V c 0 t :=
  ((dat21 V c).before_in_eq_fetched 0 rfl (fun _ => rfl) (fun _ _ _ => rfl) (fun t => by rw [after21_0]; unfold Dat.blockOf iblk21; rw [A21_eq]; try rfl) t d).trans
    (by unfold Dat.fetched Dat.blockOf iblk21; rw [A21_eq]; try rfl)
theorem before21_1 (c : Dev nD) (t : Fin cfg21.N) (d) : (dat21 V c).before 1 t d = iblk21 V c 1 t :=
  ((dat21 V c).before_in_eq_fetched 1 rfl (fun _ => rfl) (fun _ _ _ => rfl) (fun t => by rw [after21_1]; unfold Dat.blockOf iblk21; rw [A21_eq]; try rfl) t d).trans
    (by unfold Dat.fetched Dat.blockOf iblk21; rw [A21_eq]; try rfl)
theorem before21_2 (c : Dev nD) (t : Fin cfg21.N) (d) : (dat21 V c).before 2 t d = iblk21 V c 2 t :=
  ((dat21 V c).before_in_eq_fetched 2 rfl (fun _ => rfl) (fun _ _ _ => rfl) (fun t => by rw [after21_2]; unfold Dat.blockOf iblk21; rw [A21_eq]; try rfl) t d).trans
    (by unfold Dat.fetched Dat.blockOf iblk21; rw [A21_eq]; try rfl)

/-! ## The body obligation at a generic point -/

def bodyPre21 (c : Dev nD) (t : Fin cfg21.N) : sProp 𝕄 :=
  iprop((dat21 V c).Φ t.castSucc ∗ (dat21 V c).owesAt () t.castSucc
    ∗ (∃ d, owns (c : Thread nD τ) (ms21_0 t) fullShare ((dat21 V c).before 0 t d))
    ∗ (∃ d, owns (c : Thread nD τ) (ms21_1 t) fullShare ((dat21 V c).before 1 t d))
    ∗ (∃ d, owns (c : Thread nD τ) (ms21_2 t) fullShare ((dat21 V c).before 2 t d))
    ∗ (∃ d, owns (c : Thread nD τ) (ms21_3 t) fullShare ((dat21 V c).before 3 t d)))

def bodyPost21 (c : Dev nD) (t : Fin cfg21.N) : sProp 𝕄 :=
  iprop((dat21 V c).Φ t.succ ∗ (dat21 V c).owesAt () t.succ
    ∗ (dat21 V c).leavesExact 0 t ∗ (dat21 V c).leavesExact 1 t ∗ (dat21 V c).leavesExact 2 t ∗ (dat21 V c).leavesExact 3 t)

set_option maxHeartbeats 4000000 in
/-- The body at any point. The input buffers hold their blocks; the invariant hands over the accumulator at
    anything and takes it back at anything; the output buffer, found at anything, is handed back at the block the
    point stores; the core owes nothing throughout. -/
theorem sound_body21 (c : Dev nD) (t : Fin cfg21.N) :
    bodyPre21 V c t ⊢ wp frame (wpE (defs₀ (F := F)) Variants.none c none) Set.univ (bodyAt21 t) (fun _ => bodyPost21 V c t) := by
  unfold bodyPre21 bodyPost21 bodyAt21
  simp only [before21_0, before21_1, before21_2]
  rw [show (dat21 V c).owesAt () t.succ = (dat21 V c).owesAt () t.castSucc from rfl]
  rw [show (dat21 V c).Φ t.succ = Pipeline.scopedRest (Ix := Unit) (Name := ℕ) (U := UR sig nD τ × Counters) (Lvl := ℕ) (Val := Elt F) spec21 c from rfl,
    show (dat21 V c).Φ t.castSucc = Pipeline.scopedRest (Ix := Unit) (Name := ℕ) (U := UR sig nD τ × Counters) (Lvl := ℕ) (Val := Elt F) spec21 c from rfl]
  rw [show (dat21 V c).leavesExact 0 t = owns (c : Thread nD τ) (ms21_0 t) fullShare (iblk21 V c 0 t) from by
    unfold Dat.leavesExact; rw [liveAt21_0 t, after21_0]]
  rw [show (dat21 V c).leavesExact 1 t = owns (c : Thread nD τ) (ms21_1 t) fullShare (iblk21 V c 1 t) from by
    unfold Dat.leavesExact; rw [liveAt21_1 t, after21_1]]
  rw [show (dat21 V c).leavesExact 2 t = owns (c : Thread nD τ) (ms21_2 t) fullShare (iblk21 V c 2 t) from by
    unfold Dat.leavesExact; rw [liveAt21_2 t, after21_2]]
  rw [show (dat21 V c).leavesExact 3 t = owns (c : Thread nD τ) (ms21_3 t) fullShare (out21 V c t) from by
    unfold Dat.leavesExact; rw [liveAt21_3 t, after21_3]]
  rw [scopedRest21_eq]
  unfold out21
  iintro ⟨⟨HS, Hb⟩, Ho, ⟨%d0, H0⟩, ⟨%d1, H1⟩, ⟨%d2, H2⟩, ⟨%d3, H3⟩⟩
  iapply ((run21 c (grid21.coords t) (ms21_0 t) (hs21_0 t) (ms21_1 t) (hs21_1 t) (ms21_2 t) (hs21_2 t) (ms21_3 t) (hs21_3 t) scM21 (Memref.isWhole_whole _) (hcond21_0 t) (hcond21_1 t) (iblk21 V c 0 t) (iblk21 V c 1 t) (iblk21 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS Hb]
  · isplitl [HS]
    · iexists _; unfold owns; iexists _; isplitr
      swap; · iexact HS
      ipureintro; rfl
    iexact Hb
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (coverO21 V c t)

theorem body_obligation21 (c : Dev nD) : BodyObligation (dat21 V c) (defs₀ (F := F)) Variants.none () Set.univ := fun t => by
  rw [bigSep_W21, bigSep_W21]
  exact sound_body21 V c t

/-! ## The region over the thread state -/

variable (Vp : (c : Dev nD) → (b : Ref sig .tc) → Buf (Elt F) ((c : Thread nD τ).loc b))
variable (pdats : (p : Fin 22) → (c : Dev nD) → Dat τ (Elt F) Unit ℕ (UR sig nD τ × Counters) ℕ (cfgs p) c)

/-- The result's array after the region, as the pipeline library computes it from the proof data. -/
def out21arr (c : Dev nD) : Buf (Elt F) ((c : Thread nD τ).loc main_v42) := (dat21 V c).arrAt 3 cfg21.N

set_option backward.isDefEq.respectTransparency.types false in
set_option maxHeartbeats 2000000 in
/-- Launch 21 over the thread state "every unscoped buffer at `V c`, the core owing nothing": entered by
    splitting its arrays out of the unscoped buffers, left with them put back at `Vp c`, which has the
    result's array at `out21arr` and agrees with `V c` elsewhere. -/
def reg21 (hp : ∀ c, pdats 21 c = dat21 V c)
    (hVp_out : ∀ c, Vp c main_v42 = out21arr V c)
    (hVp_ne : ∀ c (b : Ref sig .tc), b ≠ main_v42 → Vp c b = V c b) :
    Pipeline.RegionSeg (pcfgs (F := F)) (fun p => (cfgs p).toPCfg_adm) pdats () defs₀ Variants.none (fun _ => (∅ : Finset Unit)) (fun _ _ => (0 : ℕ)) 21 where
  win := launch21.win.to₀
  block_pos := launch21.block_pos
  stage_whole := launch21.stage_whole
  K := PEmpty
  osem k := k.elim
  ho := Pipeline.OwnSemFacts.none _
  hbody c := by rw [hp c]; exact (body_obligation21 V c).loose
  hwaits := Pipeline.hwaits_of_owed_zero _ _ _ _ _ _ 21 fun c t => by rw [hp c]; rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ × Counters) (Lvl := ℕ) spec21 c (V c)
  hentry c := by
    rw [Pipeline.ownSems0_none]
    have hsplit := Pipeline.arrays_of_unscopedBufs (p := 21) (pcfgs (F := F)) (fun p => (cfgs p).toPCfg_adm) pdats launch21.win launch21.arr_whole c
      ((pdats 21 c).share_full fun w => by rw [hp c]; rfl) (V c) (fun w => by rw [hp c]; rfl)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hp c]; exact trivial)
      rw [show (pdats 21 c).owed 0 = 0 from by rw [hp c]; rfl]
      iexact HO
    isplitr; · iempintro
    iexact Hrest
  hin c := by
    rw [hp c, show (dat21 V c).Φ 0 = Pipeline.scopedRest (Ix := Unit) (Name := ℕ) (U := UR sig nD τ × Counters) (Lvl := ℕ) (Val := Elt F) spec21 c from rfl]
    iintro ⟨-, -, Hr⟩; iexact Hr
  hout c := by
    rw [Pipeline.ownSems0_none, hp c]
    change (Pipeline.scopedRest (Ix := Unit) (Name := ℕ) (U := UR sig nD τ × Counters) (Lvl := ℕ) (Val := Elt F) spec21 c : sProp 𝕄) ⊢ _
    iintro Hr
    isplitr; · iempintro
    isplitr; · iempintro
    iexact Hr
  hexit c := by
    have hjoin := Pipeline.unscopedBufs_of_arrays (p := 21) (pcfgs (F := F)) (fun p => (cfgs p).toPCfg_adm) (Ix := Unit) (Name := ℕ) (U := UR sig nD τ × Counters) (Lvl := ℕ) launch21.win launch21.arr_whole c
      pdats ((pdats 21 c).share_full fun w => by rw [hp c]; rfl) (V c) (Vp c) ((pdats 21 c).arrAt · cfg21.N)
      (fun w => by
        fin_cases w
        · exact (((pdats 21 c).arrAt_in 0 rfl _).trans (by rw [hp c]; rfl)).trans (hVp_ne c main_v40 (by decide)).symm
        · exact (((pdats 21 c).arrAt_in 1 rfl _).trans (by rw [hp c]; rfl)).trans (hVp_ne c main_arg19 (by decide)).symm
        · exact (((pdats 21 c).arrAt_in 2 rfl _).trans (by rw [hp c]; rfl)).trans (hVp_ne c main_v41 (by decide)).symm
        · exact (by rw [hp c]; rfl : (pdats 21 c).arrAt 3 cfg21.N = out21arr V c).trans (hVp_out c).symm)
      (fun b hb => hVp_ne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W
    rw [show (pdats 21 c).owed (Fin.last _) = 0 from by rw [hp c]; rfl]
    iexact HO

end Cert.Kernel.Hand

end
-- ==== Proof.KB.Chain.lean ====
/-
  The program as a chain: the contents of every unscoped buffer between two items of @main — after a stretch
  of host operations, the valuation before it run through the stretch; after a kernel launch, the valuation
  before it updated at the launch's result, which is what the launch's proof data computes from the entry
  valuation —, the family of the 22 launches' proof data over those valuations, each launch's segment record
  entered from the valuation before it and left at the one after it, and the two assembled runs: every argument
  ends unchanged (the frame), and every unscoped buffer ends at the last valuation (what the value claim reads).
-/
import proofs.«113214_j66838281060556_2_alg».proof.Proof.KB.Launch
import proofs.«113214_j66838281060556_2_alg».proof.Proof.KB.R00
import proofs.«113214_j66838281060556_2_alg».proof.Proof.KB.R01
import proofs.«113214_j66838281060556_2_alg».proof.Proof.KB.R02
import proofs.«113214_j66838281060556_2_alg».proof.Proof.KB.R03
import proofs.«113214_j66838281060556_2_alg».proof.Proof.KB.R04
import proofs.«113214_j66838281060556_2_alg».proof.Proof.KB.R05
import proofs.«113214_j66838281060556_2_alg».proof.Proof.KB.R06
import proofs.«113214_j66838281060556_2_alg».proof.Proof.KB.R07
import proofs.«113214_j66838281060556_2_alg».proof.Proof.KB.R08
import proofs.«113214_j66838281060556_2_alg».proof.Proof.KB.R09
import proofs.«113214_j66838281060556_2_alg».proof.Proof.KB.R10
import proofs.«113214_j66838281060556_2_alg».proof.Proof.KB.R11
import proofs.«113214_j66838281060556_2_alg».proof.Proof.KB.R12
import proofs.«113214_j66838281060556_2_alg».proof.Proof.KB.R13
import proofs.«113214_j66838281060556_2_alg».proof.Proof.KB.R14
import proofs.«113214_j66838281060556_2_alg».proof.Proof.KB.R15
import proofs.«113214_j66838281060556_2_alg».proof.Proof.KB.R16
import proofs.«113214_j66838281060556_2_alg».proof.Proof.KB.R17
import proofs.«113214_j66838281060556_2_alg».proof.Proof.KB.R18
import proofs.«113214_j66838281060556_2_alg».proof.Proof.KB.R19
import proofs.«113214_j66838281060556_2_alg».proof.Proof.KB.R20
import proofs.«113214_j66838281060556_2_alg».proof.Proof.KB.R21

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

variable (m : (ℓ : Loc nD τ sig) → Buf (Elt F) ℓ)

/-- A valuation per core, read at the TensorCore references. -/
abbrev rd (W : Dev nD → Valuation τ sig (Elt F)) : (c : Dev nD) → (b : Ref sig .tc) → Buf (Elt F) ((c : Thread nD τ).loc b) := fun c b => W c b

/-! ## The valuations between items -/

def U1 (c : Dev nD) : Valuation τ sig (Elt F) := StableHlo.after hostOps0 (fun b => m (c, b))
def U2 (c : Dev nD) : Valuation τ sig (Elt F) := Function.update (U1 m c) main_v2 (out0arr (rd (U1 m)) c)
def U3 (c : Dev nD) : Valuation τ sig (Elt F) := StableHlo.after hostOps1 (U2 m c)
def U4 (c : Dev nD) : Valuation τ sig (Elt F) := Function.update (U3 m c) main_v4 (out1 (rd (U3 m)) c)
def U5 (c : Dev nD) : Valuation τ sig (Elt F) := Function.update (U4 m c) main_v5 (out2 (rd (U4 m)) c)
def U6 (c : Dev nD) : Valuation τ sig (Elt F) := StableHlo.after hostOps3 (U5 m c)
def U7 (c : Dev nD) : Valuation τ sig (Elt F) := Function.update (U6 m c) main_v7 (out3arr (rd (U6 m)) c)
def U8 (c : Dev nD) : Valuation τ sig (Elt F) := Function.update (U7 m c) main_v8 (out4arr (rd (U7 m)) c)
def U9 (c : Dev nD) : Valuation τ sig (Elt F) := StableHlo.after hostOps5 (U8 m c)
def U10 (c : Dev nD) : Valuation τ sig (Elt F) := Function.update (U9 m c) main_v10 (out5 (rd (U9 m)) c)
def U11 (c : Dev nD) : Valuation τ sig (Elt F) := Function.update (U10 m c) main_v11 (out6arr (rd (U10 m)) c)
def U12 (c : Dev nD) : Valuation τ sig (Elt F) := StableHlo.after hostOps7 (U11 m c)
def U13 (c : Dev nD) : Valuation τ sig (Elt F) := Function.update (U12 m c) main_v13 (out7 (rd (U12 m)) c)
def U14 (c : Dev nD) : Valuation τ sig (Elt F) := StableHlo.after hostOps8 (U13 m c)
def U15 (c : Dev nD) : Valuation τ sig (Elt F) := Function.update (U14 m c) main_v25 (out8arr (rd (U14 m)) c)
def U16 (c : Dev nD) : Valuation τ sig (Elt F) := Function.update (U15 m c) main_v26 (out9arr (rd (U15 m)) c)
def U17 (c : Dev nD) : Valuation τ sig (Elt F) := Function.update (U16 m c) main_v27 (out10arr (rd (U16 m)) c)
def U18 (c : Dev nD) : Valuation τ sig (Elt F) := Function.update (U17 m c) main_v28 (out11arr (rd (U17 m)) c)
def U19 (c : Dev nD) : Valuation τ sig (Elt F) := Function.update (U18 m c) main_v29 (out12arr (rd (U18 m)) c)
def U20 (c : Dev nD) : Valuation τ sig (Elt F) := Function.update (U19 m c) main_v30 (out13 (rd (U19 m)) c)
def U21 (c : Dev nD) : Valuation τ sig (Elt F) := StableHlo.after hostOps14 (U20 m c)
def U22 (c : Dev nD) : Valuation τ sig (Elt F) := Function.update (U21 m c) main_v32 (out14arr (rd (U21 m)) c)
def U23 (c : Dev nD) : Valuation τ sig (Elt F) := Function.update (U22 m c) main_v33 (out15 (rd (U22 m)) c)
def U24 (c : Dev nD) : Valuation τ sig (Elt F) := StableHlo.after hostOps16 (U23 m c)
def U25 (c : Dev nD) : Valuation τ sig (Elt F) := Function.update (U24 m c) main_v35 (out16arr (rd (U24 m)) c)
def U26 (c : Dev nD) : Valuation τ sig (Elt F) := Function.update (U25 m c) main_v36 (out17arr (rd (U25 m)) c)
def U27 (c : Dev nD) : Valuation τ sig (Elt F) := Function.update (U26 m c) main_v37 (out18 (rd (U26 m)) c)
def U28 (c : Dev nD) : Valuation τ sig (Elt F) := StableHlo.after hostOps19 (U27 m c)
def U29 (c : Dev nD) : Valuation τ sig (Elt F) := Function.update (U28 m c) main_v39 (out19arr (rd (U28 m)) c)
def U30 (c : Dev nD) : Valuation τ sig (Elt F) := Function.update (U29 m c) main_v40 (out20 (rd (U29 m)) c)
def U31 (c : Dev nD) : Valuation τ sig (Elt F) := StableHlo.after hostOps21 (U30 m c)
def U32 (c : Dev nD) : Valuation τ sig (Elt F) := Function.update (U31 m c) main_v42 (out21arr (rd (U31 m)) c)
def U33 (c : Dev nD) : Valuation τ sig (Elt F) := StableHlo.after hostOps22 (U32 m c)

/-- What the launches leave, as the unknowns the conditional frame is stated over: item J's buffers after it. -/
def outs : GenP.Outs (F := F) := fun J r c =>
  match J with
  | 2 => U2 m c r
  | 4 => U4 m c r
  | 5 => U5 m c r
  | 7 => U7 m c r
  | 8 => U8 m c r
  | 10 => U10 m c r
  | 11 => U11 m c r
  | 13 => U13 m c r
  | 15 => U15 m c r
  | 16 => U16 m c r
  | 17 => U17 m c r
  | 18 => U18 m c r
  | 19 => U19 m c r
  | 20 => U20 m c r
  | 22 => U22 m c r
  | 23 => U23 m c r
  | 25 => U25 m c r
  | 26 => U26 m c r
  | 27 => U27 m c r
  | 29 => U29 m c r
  | 30 => U30 m c r
  | 32 => U32 m c r
  | _ => U1 m c r

/-! ## The conditional frame's valuations are these -/

theorem V1_eq (c : Dev nD) : GenP.V1 m c = U1 m c := rfl
theorem V2_eq (c : Dev nD) : GenP.V2 m (outs m) c = U2 m c := by
  unfold GenP.V2; rw [V1_eq]
  show Function.update (U1 m c) main_v2 (U2 m c main_v2) = U2 m c
  unfold U2; rw [Function.update_self]
theorem V3_eq (c : Dev nD) : GenP.V3 m (outs m) c = U3 m c := by
  unfold GenP.V3; rw [V2_eq]; rfl
theorem V4_eq (c : Dev nD) : GenP.V4 m (outs m) c = U4 m c := by
  unfold GenP.V4; rw [V3_eq]
  show Function.update (U3 m c) main_v4 (U4 m c main_v4) = U4 m c
  unfold U4; rw [Function.update_self]
theorem V5_eq (c : Dev nD) : GenP.V5 m (outs m) c = U5 m c := by
  unfold GenP.V5; rw [V4_eq]
  show Function.update (U4 m c) main_v5 (U5 m c main_v5) = U5 m c
  unfold U5; rw [Function.update_self]
theorem V6_eq (c : Dev nD) : GenP.V6 m (outs m) c = U6 m c := by
  unfold GenP.V6; rw [V5_eq]; rfl
theorem V7_eq (c : Dev nD) : GenP.V7 m (outs m) c = U7 m c := by
  unfold GenP.V7; rw [V6_eq]
  show Function.update (U6 m c) main_v7 (U7 m c main_v7) = U7 m c
  unfold U7; rw [Function.update_self]
theorem V8_eq (c : Dev nD) : GenP.V8 m (outs m) c = U8 m c := by
  unfold GenP.V8; rw [V7_eq]
  show Function.update (U7 m c) main_v8 (U8 m c main_v8) = U8 m c
  unfold U8; rw [Function.update_self]
theorem V9_eq (c : Dev nD) : GenP.V9 m (outs m) c = U9 m c := by
  unfold GenP.V9; rw [V8_eq]; rfl
theorem V10_eq (c : Dev nD) : GenP.V10 m (outs m) c = U10 m c := by
  unfold GenP.V10; rw [V9_eq]
  show Function.update (U9 m c) main_v10 (U10 m c main_v10) = U10 m c
  unfold U10; rw [Function.update_self]
theorem V11_eq (c : Dev nD) : GenP.V11 m (outs m) c = U11 m c := by
  unfold GenP.V11; rw [V10_eq]
  show Function.update (U10 m c) main_v11 (U11 m c main_v11) = U11 m c
  unfold U11; rw [Function.update_self]
theorem V12_eq (c : Dev nD) : GenP.V12 m (outs m) c = U12 m c := by
  unfold GenP.V12; rw [V11_eq]; rfl
theorem V13_eq (c : Dev nD) : GenP.V13 m (outs m) c = U13 m c := by
  unfold GenP.V13; rw [V12_eq]
  show Function.update (U12 m c) main_v13 (U13 m c main_v13) = U13 m c
  unfold U13; rw [Function.update_self]
theorem V14_eq (c : Dev nD) : GenP.V14 m (outs m) c = U14 m c := by
  unfold GenP.V14; rw [V13_eq]; rfl
theorem V15_eq (c : Dev nD) : GenP.V15 m (outs m) c = U15 m c := by
  unfold GenP.V15; rw [V14_eq]
  show Function.update (U14 m c) main_v25 (U15 m c main_v25) = U15 m c
  unfold U15; rw [Function.update_self]
theorem V16_eq (c : Dev nD) : GenP.V16 m (outs m) c = U16 m c := by
  unfold GenP.V16; rw [V15_eq]
  show Function.update (U15 m c) main_v26 (U16 m c main_v26) = U16 m c
  unfold U16; rw [Function.update_self]
theorem V17_eq (c : Dev nD) : GenP.V17 m (outs m) c = U17 m c := by
  unfold GenP.V17; rw [V16_eq]
  show Function.update (U16 m c) main_v27 (U17 m c main_v27) = U17 m c
  unfold U17; rw [Function.update_self]
theorem V18_eq (c : Dev nD) : GenP.V18 m (outs m) c = U18 m c := by
  unfold GenP.V18; rw [V17_eq]
  show Function.update (U17 m c) main_v28 (U18 m c main_v28) = U18 m c
  unfold U18; rw [Function.update_self]
theorem V19_eq (c : Dev nD) : GenP.V19 m (outs m) c = U19 m c := by
  unfold GenP.V19; rw [V18_eq]
  show Function.update (U18 m c) main_v29 (U19 m c main_v29) = U19 m c
  unfold U19; rw [Function.update_self]
theorem V20_eq (c : Dev nD) : GenP.V20 m (outs m) c = U20 m c := by
  unfold GenP.V20; rw [V19_eq]
  show Function.update (U19 m c) main_v30 (U20 m c main_v30) = U20 m c
  unfold U20; rw [Function.update_self]
theorem V21_eq (c : Dev nD) : GenP.V21 m (outs m) c = U21 m c := by
  unfold GenP.V21; rw [V20_eq]; rfl
theorem V22_eq (c : Dev nD) : GenP.V22 m (outs m) c = U22 m c := by
  unfold GenP.V22; rw [V21_eq]
  show Function.update (U21 m c) main_v32 (U22 m c main_v32) = U22 m c
  unfold U22; rw [Function.update_self]
theorem V23_eq (c : Dev nD) : GenP.V23 m (outs m) c = U23 m c := by
  unfold GenP.V23; rw [V22_eq]
  show Function.update (U22 m c) main_v33 (U23 m c main_v33) = U23 m c
  unfold U23; rw [Function.update_self]
theorem V24_eq (c : Dev nD) : GenP.V24 m (outs m) c = U24 m c := by
  unfold GenP.V24; rw [V23_eq]; rfl
theorem V25_eq (c : Dev nD) : GenP.V25 m (outs m) c = U25 m c := by
  unfold GenP.V25; rw [V24_eq]
  show Function.update (U24 m c) main_v35 (U25 m c main_v35) = U25 m c
  unfold U25; rw [Function.update_self]
theorem V26_eq (c : Dev nD) : GenP.V26 m (outs m) c = U26 m c := by
  unfold GenP.V26; rw [V25_eq]
  show Function.update (U25 m c) main_v36 (U26 m c main_v36) = U26 m c
  unfold U26; rw [Function.update_self]
theorem V27_eq (c : Dev nD) : GenP.V27 m (outs m) c = U27 m c := by
  unfold GenP.V27; rw [V26_eq]
  show Function.update (U26 m c) main_v37 (U27 m c main_v37) = U27 m c
  unfold U27; rw [Function.update_self]
theorem V28_eq (c : Dev nD) : GenP.V28 m (outs m) c = U28 m c := by
  unfold GenP.V28; rw [V27_eq]; rfl
theorem V29_eq (c : Dev nD) : GenP.V29 m (outs m) c = U29 m c := by
  unfold GenP.V29; rw [V28_eq]
  show Function.update (U28 m c) main_v39 (U29 m c main_v39) = U29 m c
  unfold U29; rw [Function.update_self]
theorem V30_eq (c : Dev nD) : GenP.V30 m (outs m) c = U30 m c := by
  unfold GenP.V30; rw [V29_eq]
  show Function.update (U29 m c) main_v40 (U30 m c main_v40) = U30 m c
  unfold U30; rw [Function.update_self]
theorem V31_eq (c : Dev nD) : GenP.V31 m (outs m) c = U31 m c := by
  unfold GenP.V31; rw [V30_eq]; rfl
theorem V32_eq (c : Dev nD) : GenP.V32 m (outs m) c = U32 m c := by
  unfold GenP.V32; rw [V31_eq]
  show Function.update (U31 m c) main_v42 (U32 m c main_v42) = U32 m c
  unfold U32; rw [Function.update_self]
theorem V33_eq (c : Dev nD) : GenP.V33 m (outs m) c = U33 m c := by
  unfold GenP.V33; rw [V32_eq]; rfl

/-! ## The proof data of the 22 launches -/

def pdats : (p : Fin 22) → (c : Dev nD) → Dat τ (Elt F) Unit ℕ (UR sig nD τ × Counters) ℕ (cfgs p) c
  | ⟨0, _⟩ => fun c => dat0 (rd (U1 m)) c
  | ⟨1, _⟩ => fun c => dat1 (rd (U3 m)) c
  | ⟨2, _⟩ => fun c => dat2 (rd (U4 m)) c
  | ⟨3, _⟩ => fun c => dat3 (rd (U6 m)) c
  | ⟨4, _⟩ => fun c => dat4 (rd (U7 m)) c
  | ⟨5, _⟩ => fun c => dat5 (rd (U9 m)) c
  | ⟨6, _⟩ => fun c => dat6 (rd (U10 m)) c
  | ⟨7, _⟩ => fun c => dat7 (rd (U12 m)) c
  | ⟨8, _⟩ => fun c => dat8 (rd (U14 m)) c
  | ⟨9, _⟩ => fun c => dat9 (rd (U15 m)) c
  | ⟨10, _⟩ => fun c => dat10 (rd (U16 m)) c
  | ⟨11, _⟩ => fun c => dat11 (rd (U17 m)) c
  | ⟨12, _⟩ => fun c => dat12 (rd (U18 m)) c
  | ⟨13, _⟩ => fun c => dat13 (rd (U19 m)) c
  | ⟨14, _⟩ => fun c => dat14 (rd (U21 m)) c
  | ⟨15, _⟩ => fun c => dat15 (rd (U22 m)) c
  | ⟨16, _⟩ => fun c => dat16 (rd (U24 m)) c
  | ⟨17, _⟩ => fun c => dat17 (rd (U25 m)) c
  | ⟨18, _⟩ => fun c => dat18 (rd (U26 m)) c
  | ⟨19, _⟩ => fun c => dat19 (rd (U28 m)) c
  | ⟨20, _⟩ => fun c => dat20 (rd (U29 m)) c
  | ⟨21, _⟩ => fun c => dat21 (rd (U31 m)) c
  | ⟨_ + 22, h⟩ => absurd h (Nat.not_lt.2 (Nat.le_add_left _ _))

/-! ## Each launch's segment record, between its two valuations -/

def R0 := reg0 (rd (U1 m)) (rd (U2 m)) (pdats m) (fun _ => rfl)
  (fun c => by show U2 m c main_v2 = _; unfold U2; rw [Function.update_self])
  (fun c b hb => by show U2 m c b = U1 m c b; unfold U2; exact Function.update_of_ne (StableHlo.devRef_ne_of_ne hb : (Proc.devRef .tc b : DevRef τ sig) ≠ Proc.devRef .tc main_v2) _ _)
theorem hpre0 (c : Dev nD) : iprop(StableHlo.held (c : Thread nD τ) (Pipeline.ucRefs τ sig) (GenP.V1 m c) ∗ Erest (F := F) 0 c) ⊢ (R0 m).pre c := by
  rw [V1_eq, ← Pipeline.unscopedBufs_held]; exact .rfl
theorem hpost0 (c : Dev nD) : (R0 m).post c ⊢ iprop(StableHlo.held (c : Thread nD τ) (Pipeline.ucRefs τ sig) (GenP.V2 m (outs m) c) ∗ Erest (F := F) 1 c) := by
  rw [V2_eq, ← Pipeline.unscopedBufs_held]; exact .rfl

def R1 := reg1 (rd (U3 m)) (rd (U4 m)) (pdats m) (fun _ => rfl)
  (fun c => by show U4 m c main_v4 = _; unfold U4; rw [Function.update_self])
  (fun c b hb => by show U4 m c b = U3 m c b; unfold U4; exact Function.update_of_ne (StableHlo.devRef_ne_of_ne hb : (Proc.devRef .tc b : DevRef τ sig) ≠ Proc.devRef .tc main_v4) _ _)
theorem hpre1 (c : Dev nD) : iprop(StableHlo.held (c : Thread nD τ) (Pipeline.ucRefs τ sig) (GenP.V3 m (outs m) c) ∗ Erest (F := F) 1 c) ⊢ (R1 m).pre c := by
  rw [V3_eq, ← Pipeline.unscopedBufs_held]; exact .rfl
theorem hpost1 (c : Dev nD) : (R1 m).post c ⊢ iprop(StableHlo.held (c : Thread nD τ) (Pipeline.ucRefs τ sig) (GenP.V4 m (outs m) c) ∗ Erest (F := F) 2 c) := by
  rw [V4_eq, ← Pipeline.unscopedBufs_held]; exact .rfl

def R2 := reg2 (rd (U4 m)) (rd (U5 m)) (pdats m) (fun _ => rfl)
  (fun c => by show U5 m c main_v5 = _; unfold U5; rw [Function.update_self])
  (fun c b hb => by show U5 m c b = U4 m c b; unfold U5; exact Function.update_of_ne (StableHlo.devRef_ne_of_ne hb : (Proc.devRef .tc b : DevRef τ sig) ≠ Proc.devRef .tc main_v5) _ _)
theorem hpre2 (c : Dev nD) : iprop(StableHlo.held (c : Thread nD τ) (Pipeline.ucRefs τ sig) (GenP.V4 m (outs m) c) ∗ Erest (F := F) 2 c) ⊢ (R2 m).pre c := by
  rw [V4_eq, ← Pipeline.unscopedBufs_held]; exact .rfl
theorem hpost2 (c : Dev nD) : (R2 m).post c ⊢ iprop(StableHlo.held (c : Thread nD τ) (Pipeline.ucRefs τ sig) (GenP.V5 m (outs m) c) ∗ Erest (F := F) 3 c) := by
  rw [V5_eq, ← Pipeline.unscopedBufs_held]; exact .rfl

def R3 := reg3 (rd (U6 m)) (rd (U7 m)) (pdats m) (fun _ => rfl)
  (fun c => by show U7 m c main_v7 = _; unfold U7; rw [Function.update_self])
  (fun c b hb => by show U7 m c b = U6 m c b; unfold U7; exact Function.update_of_ne (StableHlo.devRef_ne_of_ne hb : (Proc.devRef .tc b : DevRef τ sig) ≠ Proc.devRef .tc main_v7) _ _)
theorem hpre3 (c : Dev nD) : iprop(StableHlo.held (c : Thread nD τ) (Pipeline.ucRefs τ sig) (GenP.V6 m (outs m) c) ∗ Erest (F := F) 3 c) ⊢ (R3 m).pre c := by
  rw [V6_eq, ← Pipeline.unscopedBufs_held]; exact .rfl
theorem hpost3 (c : Dev nD) : (R3 m).post c ⊢ iprop(StableHlo.held (c : Thread nD τ) (Pipeline.ucRefs τ sig) (GenP.V7 m (outs m) c) ∗ Erest (F := F) 4 c) := by
  rw [V7_eq, ← Pipeline.unscopedBufs_held]; exact .rfl

def R4 := reg4 (rd (U7 m)) (rd (U8 m)) (pdats m) (fun _ => rfl)
  (fun c => by show U8 m c main_v8 = _; unfold U8; rw [Function.update_self])
  (fun c b hb => by show U8 m c b = U7 m c b; unfold U8; exact Function.update_of_ne (StableHlo.devRef_ne_of_ne hb : (Proc.devRef .tc b : DevRef τ sig) ≠ Proc.devRef .tc main_v8) _ _)
theorem hpre4 (c : Dev nD) : iprop(StableHlo.held (c : Thread nD τ) (Pipeline.ucRefs τ sig) (GenP.V7 m (outs m) c) ∗ Erest (F := F) 4 c) ⊢ (R4 m).pre c := by
  rw [V7_eq, ← Pipeline.unscopedBufs_held]; exact .rfl
theorem hpost4 (c : Dev nD) : (R4 m).post c ⊢ iprop(StableHlo.held (c : Thread nD τ) (Pipeline.ucRefs τ sig) (GenP.V8 m (outs m) c) ∗ Erest (F := F) 5 c) := by
  rw [V8_eq, ← Pipeline.unscopedBufs_held]; exact .rfl

def R5 := reg5 (rd (U9 m)) (rd (U10 m)) (pdats m) (fun _ => rfl)
  (fun c => by show U10 m c main_v10 = _; unfold U10; rw [Function.update_self])
  (fun c b hb => by show U10 m c b = U9 m c b; unfold U10; exact Function.update_of_ne (StableHlo.devRef_ne_of_ne hb : (Proc.devRef .tc b : DevRef τ sig) ≠ Proc.devRef .tc main_v10) _ _)
theorem hpre5 (c : Dev nD) : iprop(StableHlo.held (c : Thread nD τ) (Pipeline.ucRefs τ sig) (GenP.V9 m (outs m) c) ∗ Erest (F := F) 5 c) ⊢ (R5 m).pre c := by
  rw [V9_eq, ← Pipeline.unscopedBufs_held]; exact .rfl
theorem hpost5 (c : Dev nD) : (R5 m).post c ⊢ iprop(StableHlo.held (c : Thread nD τ) (Pipeline.ucRefs τ sig) (GenP.V10 m (outs m) c) ∗ Erest (F := F) 6 c) := by
  rw [V10_eq, ← Pipeline.unscopedBufs_held]; exact .rfl

def R6 := reg6 (rd (U10 m)) (rd (U11 m)) (pdats m) (fun _ => rfl)
  (fun c => by show U11 m c main_v11 = _; unfold U11; rw [Function.update_self])
  (fun c b hb => by show U11 m c b = U10 m c b; unfold U11; exact Function.update_of_ne (StableHlo.devRef_ne_of_ne hb : (Proc.devRef .tc b : DevRef τ sig) ≠ Proc.devRef .tc main_v11) _ _)
theorem hpre6 (c : Dev nD) : iprop(StableHlo.held (c : Thread nD τ) (Pipeline.ucRefs τ sig) (GenP.V10 m (outs m) c) ∗ Erest (F := F) 6 c) ⊢ (R6 m).pre c := by
  rw [V10_eq, ← Pipeline.unscopedBufs_held]; exact .rfl
theorem hpost6 (c : Dev nD) : (R6 m).post c ⊢ iprop(StableHlo.held (c : Thread nD τ) (Pipeline.ucRefs τ sig) (GenP.V11 m (outs m) c) ∗ Erest (F := F) 7 c) := by
  rw [V11_eq, ← Pipeline.unscopedBufs_held]; exact .rfl

def R7 := reg7 (rd (U12 m)) (rd (U13 m)) (pdats m) (fun _ => rfl)
  (fun c => by show U13 m c main_v13 = _; unfold U13; rw [Function.update_self])
  (fun c b hb => by show U13 m c b = U12 m c b; unfold U13; exact Function.update_of_ne (StableHlo.devRef_ne_of_ne hb : (Proc.devRef .tc b : DevRef τ sig) ≠ Proc.devRef .tc main_v13) _ _)
theorem hpre7 (c : Dev nD) : iprop(StableHlo.held (c : Thread nD τ) (Pipeline.ucRefs τ sig) (GenP.V12 m (outs m) c) ∗ Erest (F := F) 7 c) ⊢ (R7 m).pre c := by
  rw [V12_eq, ← Pipeline.unscopedBufs_held]; exact .rfl
theorem hpost7 (c : Dev nD) : (R7 m).post c ⊢ iprop(StableHlo.held (c : Thread nD τ) (Pipeline.ucRefs τ sig) (GenP.V13 m (outs m) c) ∗ Erest (F := F) 8 c) := by
  rw [V13_eq, ← Pipeline.unscopedBufs_held]; exact .rfl

def R8 := reg8 (rd (U14 m)) (rd (U15 m)) (pdats m) (fun _ => rfl)
  (fun c => by show U15 m c main_v25 = _; unfold U15; rw [Function.update_self])
  (fun c b hb => by show U15 m c b = U14 m c b; unfold U15; exact Function.update_of_ne (StableHlo.devRef_ne_of_ne hb : (Proc.devRef .tc b : DevRef τ sig) ≠ Proc.devRef .tc main_v25) _ _)
theorem hpre8 (c : Dev nD) : iprop(StableHlo.held (c : Thread nD τ) (Pipeline.ucRefs τ sig) (GenP.V14 m (outs m) c) ∗ Erest (F := F) 8 c) ⊢ (R8 m).pre c := by
  rw [V14_eq, ← Pipeline.unscopedBufs_held]; exact .rfl
theorem hpost8 (c : Dev nD) : (R8 m).post c ⊢ iprop(StableHlo.held (c : Thread nD τ) (Pipeline.ucRefs τ sig) (GenP.V15 m (outs m) c) ∗ Erest (F := F) 9 c) := by
  rw [V15_eq, ← Pipeline.unscopedBufs_held]; exact .rfl

def R9 := reg9 (rd (U15 m)) (rd (U16 m)) (pdats m) (fun _ => rfl)
  (fun c => by show U16 m c main_v26 = _; unfold U16; rw [Function.update_self])
  (fun c b hb => by show U16 m c b = U15 m c b; unfold U16; exact Function.update_of_ne (StableHlo.devRef_ne_of_ne hb : (Proc.devRef .tc b : DevRef τ sig) ≠ Proc.devRef .tc main_v26) _ _)
theorem hpre9 (c : Dev nD) : iprop(StableHlo.held (c : Thread nD τ) (Pipeline.ucRefs τ sig) (GenP.V15 m (outs m) c) ∗ Erest (F := F) 9 c) ⊢ (R9 m).pre c := by
  rw [V15_eq, ← Pipeline.unscopedBufs_held]; exact .rfl
theorem hpost9 (c : Dev nD) : (R9 m).post c ⊢ iprop(StableHlo.held (c : Thread nD τ) (Pipeline.ucRefs τ sig) (GenP.V16 m (outs m) c) ∗ Erest (F := F) 10 c) := by
  rw [V16_eq, ← Pipeline.unscopedBufs_held]; exact .rfl

def R10 := reg10 (rd (U16 m)) (rd (U17 m)) (pdats m) (fun _ => rfl)
  (fun c => by show U17 m c main_v27 = _; unfold U17; rw [Function.update_self])
  (fun c b hb => by show U17 m c b = U16 m c b; unfold U17; exact Function.update_of_ne (StableHlo.devRef_ne_of_ne hb : (Proc.devRef .tc b : DevRef τ sig) ≠ Proc.devRef .tc main_v27) _ _)
theorem hpre10 (c : Dev nD) : iprop(StableHlo.held (c : Thread nD τ) (Pipeline.ucRefs τ sig) (GenP.V16 m (outs m) c) ∗ Erest (F := F) 10 c) ⊢ (R10 m).pre c := by
  rw [V16_eq, ← Pipeline.unscopedBufs_held]; exact .rfl
theorem hpost10 (c : Dev nD) : (R10 m).post c ⊢ iprop(StableHlo.held (c : Thread nD τ) (Pipeline.ucRefs τ sig) (GenP.V17 m (outs m) c) ∗ Erest (F := F) 11 c) := by
  rw [V17_eq, ← Pipeline.unscopedBufs_held]; exact .rfl

def R11 := reg11 (rd (U17 m)) (rd (U18 m)) (pdats m) (fun _ => rfl)
  (fun c => by show U18 m c main_v28 = _; unfold U18; rw [Function.update_self])
  (fun c b hb => by show U18 m c b = U17 m c b; unfold U18; exact Function.update_of_ne (StableHlo.devRef_ne_of_ne hb : (Proc.devRef .tc b : DevRef τ sig) ≠ Proc.devRef .tc main_v28) _ _)
theorem hpre11 (c : Dev nD) : iprop(StableHlo.held (c : Thread nD τ) (Pipeline.ucRefs τ sig) (GenP.V17 m (outs m) c) ∗ Erest (F := F) 11 c) ⊢ (R11 m).pre c := by
  rw [V17_eq, ← Pipeline.unscopedBufs_held]; exact .rfl
theorem hpost11 (c : Dev nD) : (R11 m).post c ⊢ iprop(StableHlo.held (c : Thread nD τ) (Pipeline.ucRefs τ sig) (GenP.V18 m (outs m) c) ∗ Erest (F := F) 12 c) := by
  rw [V18_eq, ← Pipeline.unscopedBufs_held]; exact .rfl

def R12 := reg12 (rd (U18 m)) (rd (U19 m)) (pdats m) (fun _ => rfl)
  (fun c => by show U19 m c main_v29 = _; unfold U19; rw [Function.update_self])
  (fun c b hb => by show U19 m c b = U18 m c b; unfold U19; exact Function.update_of_ne (StableHlo.devRef_ne_of_ne hb : (Proc.devRef .tc b : DevRef τ sig) ≠ Proc.devRef .tc main_v29) _ _)
theorem hpre12 (c : Dev nD) : iprop(StableHlo.held (c : Thread nD τ) (Pipeline.ucRefs τ sig) (GenP.V18 m (outs m) c) ∗ Erest (F := F) 12 c) ⊢ (R12 m).pre c := by
  rw [V18_eq, ← Pipeline.unscopedBufs_held]; exact .rfl
theorem hpost12 (c : Dev nD) : (R12 m).post c ⊢ iprop(StableHlo.held (c : Thread nD τ) (Pipeline.ucRefs τ sig) (GenP.V19 m (outs m) c) ∗ Erest (F := F) 13 c) := by
  rw [V19_eq, ← Pipeline.unscopedBufs_held]; exact .rfl

def R13 := reg13 (rd (U19 m)) (rd (U20 m)) (pdats m) (fun _ => rfl)
  (fun c => by show U20 m c main_v30 = _; unfold U20; rw [Function.update_self])
  (fun c b hb => by show U20 m c b = U19 m c b; unfold U20; exact Function.update_of_ne (StableHlo.devRef_ne_of_ne hb : (Proc.devRef .tc b : DevRef τ sig) ≠ Proc.devRef .tc main_v30) _ _)
theorem hpre13 (c : Dev nD) : iprop(StableHlo.held (c : Thread nD τ) (Pipeline.ucRefs τ sig) (GenP.V19 m (outs m) c) ∗ Erest (F := F) 13 c) ⊢ (R13 m).pre c := by
  rw [V19_eq, ← Pipeline.unscopedBufs_held]; exact .rfl
theorem hpost13 (c : Dev nD) : (R13 m).post c ⊢ iprop(StableHlo.held (c : Thread nD τ) (Pipeline.ucRefs τ sig) (GenP.V20 m (outs m) c) ∗ Erest (F := F) 14 c) := by
  rw [V20_eq, ← Pipeline.unscopedBufs_held]; exact .rfl

def R14 := reg14 (rd (U21 m)) (rd (U22 m)) (pdats m) (fun _ => rfl)
  (fun c => by show U22 m c main_v32 = _; unfold U22; rw [Function.update_self])
  (fun c b hb => by show U22 m c b = U21 m c b; unfold U22; exact Function.update_of_ne (StableHlo.devRef_ne_of_ne hb : (Proc.devRef .tc b : DevRef τ sig) ≠ Proc.devRef .tc main_v32) _ _)
theorem hpre14 (c : Dev nD) : iprop(StableHlo.held (c : Thread nD τ) (Pipeline.ucRefs τ sig) (GenP.V21 m (outs m) c) ∗ Erest (F := F) 14 c) ⊢ (R14 m).pre c := by
  rw [V21_eq, ← Pipeline.unscopedBufs_held]; exact .rfl
theorem hpost14 (c : Dev nD) : (R14 m).post c ⊢ iprop(StableHlo.held (c : Thread nD τ) (Pipeline.ucRefs τ sig) (GenP.V22 m (outs m) c) ∗ Erest (F := F) 15 c) := by
  rw [V22_eq, ← Pipeline.unscopedBufs_held]; exact .rfl

def R15 := reg15 (rd (U22 m)) (rd (U23 m)) (pdats m) (fun _ => rfl)
  (fun c => by show U23 m c main_v33 = _; unfold U23; rw [Function.update_self])
  (fun c b hb => by show U23 m c b = U22 m c b; unfold U23; exact Function.update_of_ne (StableHlo.devRef_ne_of_ne hb : (Proc.devRef .tc b : DevRef τ sig) ≠ Proc.devRef .tc main_v33) _ _)
theorem hpre15 (c : Dev nD) : iprop(StableHlo.held (c : Thread nD τ) (Pipeline.ucRefs τ sig) (GenP.V22 m (outs m) c) ∗ Erest (F := F) 15 c) ⊢ (R15 m).pre c := by
  rw [V22_eq, ← Pipeline.unscopedBufs_held]; exact .rfl
theorem hpost15 (c : Dev nD) : (R15 m).post c ⊢ iprop(StableHlo.held (c : Thread nD τ) (Pipeline.ucRefs τ sig) (GenP.V23 m (outs m) c) ∗ Erest (F := F) 16 c) := by
  rw [V23_eq, ← Pipeline.unscopedBufs_held]; exact .rfl

def R16 := reg16 (rd (U24 m)) (rd (U25 m)) (pdats m) (fun _ => rfl)
  (fun c => by show U25 m c main_v35 = _; unfold U25; rw [Function.update_self])
  (fun c b hb => by show U25 m c b = U24 m c b; unfold U25; exact Function.update_of_ne (StableHlo.devRef_ne_of_ne hb : (Proc.devRef .tc b : DevRef τ sig) ≠ Proc.devRef .tc main_v35) _ _)
theorem hpre16 (c : Dev nD) : iprop(StableHlo.held (c : Thread nD τ) (Pipeline.ucRefs τ sig) (GenP.V24 m (outs m) c) ∗ Erest (F := F) 16 c) ⊢ (R16 m).pre c := by
  rw [V24_eq, ← Pipeline.unscopedBufs_held]; exact .rfl
theorem hpost16 (c : Dev nD) : (R16 m).post c ⊢ iprop(StableHlo.held (c : Thread nD τ) (Pipeline.ucRefs τ sig) (GenP.V25 m (outs m) c) ∗ Erest (F := F) 17 c) := by
  rw [V25_eq, ← Pipeline.unscopedBufs_held]; exact .rfl

def R17 := reg17 (rd (U25 m)) (rd (U26 m)) (pdats m) (fun _ => rfl)
  (fun c => by show U26 m c main_v36 = _; unfold U26; rw [Function.update_self])
  (fun c b hb => by show U26 m c b = U25 m c b; unfold U26; exact Function.update_of_ne (StableHlo.devRef_ne_of_ne hb : (Proc.devRef .tc b : DevRef τ sig) ≠ Proc.devRef .tc main_v36) _ _)
theorem hpre17 (c : Dev nD) : iprop(StableHlo.held (c : Thread nD τ) (Pipeline.ucRefs τ sig) (GenP.V25 m (outs m) c) ∗ Erest (F := F) 17 c) ⊢ (R17 m).pre c := by
  rw [V25_eq, ← Pipeline.unscopedBufs_held]; exact .rfl
theorem hpost17 (c : Dev nD) : (R17 m).post c ⊢ iprop(StableHlo.held (c : Thread nD τ) (Pipeline.ucRefs τ sig) (GenP.V26 m (outs m) c) ∗ Erest (F := F) 18 c) := by
  rw [V26_eq, ← Pipeline.unscopedBufs_held]; exact .rfl

def R18 := reg18 (rd (U26 m)) (rd (U27 m)) (pdats m) (fun _ => rfl)
  (fun c => by show U27 m c main_v37 = _; unfold U27; rw [Function.update_self])
  (fun c b hb => by show U27 m c b = U26 m c b; unfold U27; exact Function.update_of_ne (StableHlo.devRef_ne_of_ne hb : (Proc.devRef .tc b : DevRef τ sig) ≠ Proc.devRef .tc main_v37) _ _)
theorem hpre18 (c : Dev nD) : iprop(StableHlo.held (c : Thread nD τ) (Pipeline.ucRefs τ sig) (GenP.V26 m (outs m) c) ∗ Erest (F := F) 18 c) ⊢ (R18 m).pre c := by
  rw [V26_eq, ← Pipeline.unscopedBufs_held]; exact .rfl
theorem hpost18 (c : Dev nD) : (R18 m).post c ⊢ iprop(StableHlo.held (c : Thread nD τ) (Pipeline.ucRefs τ sig) (GenP.V27 m (outs m) c) ∗ Erest (F := F) 19 c) := by
  rw [V27_eq, ← Pipeline.unscopedBufs_held]; exact .rfl

def R19 := reg19 (rd (U28 m)) (rd (U29 m)) (pdats m) (fun _ => rfl)
  (fun c => by show U29 m c main_v39 = _; unfold U29; rw [Function.update_self])
  (fun c b hb => by show U29 m c b = U28 m c b; unfold U29; exact Function.update_of_ne (StableHlo.devRef_ne_of_ne hb : (Proc.devRef .tc b : DevRef τ sig) ≠ Proc.devRef .tc main_v39) _ _)
theorem hpre19 (c : Dev nD) : iprop(StableHlo.held (c : Thread nD τ) (Pipeline.ucRefs τ sig) (GenP.V28 m (outs m) c) ∗ Erest (F := F) 19 c) ⊢ (R19 m).pre c := by
  rw [V28_eq, ← Pipeline.unscopedBufs_held]; exact .rfl
theorem hpost19 (c : Dev nD) : (R19 m).post c ⊢ iprop(StableHlo.held (c : Thread nD τ) (Pipeline.ucRefs τ sig) (GenP.V29 m (outs m) c) ∗ Erest (F := F) 20 c) := by
  rw [V29_eq, ← Pipeline.unscopedBufs_held]; exact .rfl

def R20 := reg20 (rd (U29 m)) (rd (U30 m)) (pdats m) (fun _ => rfl)
  (fun c => by show U30 m c main_v40 = _; unfold U30; rw [Function.update_self])
  (fun c b hb => by show U30 m c b = U29 m c b; unfold U30; exact Function.update_of_ne (StableHlo.devRef_ne_of_ne hb : (Proc.devRef .tc b : DevRef τ sig) ≠ Proc.devRef .tc main_v40) _ _)
theorem hpre20 (c : Dev nD) : iprop(StableHlo.held (c : Thread nD τ) (Pipeline.ucRefs τ sig) (GenP.V29 m (outs m) c) ∗ Erest (F := F) 20 c) ⊢ (R20 m).pre c := by
  rw [V29_eq, ← Pipeline.unscopedBufs_held]; exact .rfl
theorem hpost20 (c : Dev nD) : (R20 m).post c ⊢ iprop(StableHlo.held (c : Thread nD τ) (Pipeline.ucRefs τ sig) (GenP.V30 m (outs m) c) ∗ Erest (F := F) 21 c) := by
  rw [V30_eq, ← Pipeline.unscopedBufs_held]; exact .rfl

def R21 := reg21 (rd (U31 m)) (rd (U32 m)) (pdats m) (fun _ => rfl)
  (fun c => by show U32 m c main_v42 = _; unfold U32; rw [Function.update_self])
  (fun c b hb => by show U32 m c b = U31 m c b; unfold U32; exact Function.update_of_ne (StableHlo.devRef_ne_of_ne hb : (Proc.devRef .tc b : DevRef τ sig) ≠ Proc.devRef .tc main_v42) _ _)
theorem hpre21 (c : Dev nD) : iprop(StableHlo.held (c : Thread nD τ) (Pipeline.ucRefs τ sig) (GenP.V31 m (outs m) c) ∗ Erest (F := F) 21 c) ⊢ (R21 m).pre c := by
  rw [V31_eq, ← Pipeline.unscopedBufs_held]; exact .rfl
theorem hpost21 (c : Dev nD) : (R21 m).post c ⊢ iprop(StableHlo.held (c : Thread nD τ) (Pipeline.ucRefs τ sig) (GenP.V32 m (outs m) c) ∗ Erest (F := F) 22 c) := by
  rw [V32_eq, ← Pipeline.unscopedBufs_held]; exact .rfl

/-! ## The assembled runs -/

/-- Every weakly fair execution of @main terminates and leaves every argument array as launched. -/
def frame_main (ρ : Dev nD → PrngReg) :=
  frame_of_regions m ρ (outs m) (pdats m) (R0 m) (hpre0 m) (hpost0 m) (R1 m) (hpre1 m) (hpost1 m) (R2 m) (hpre2 m) (hpost2 m) (R3 m) (hpre3 m) (hpost3 m) (R4 m) (hpre4 m) (hpost4 m) (R5 m) (hpre5 m) (hpost5 m) (R6 m) (hpre6 m) (hpost6 m) (R7 m) (hpre7 m) (hpost7 m) (R8 m) (hpre8 m) (hpost8 m) (R9 m) (hpre9 m) (hpost9 m) (R10 m) (hpre10 m) (hpost10 m) (R11 m) (hpre11 m) (hpost11 m) (R12 m) (hpre12 m) (hpost12 m) (R13 m) (hpre13 m) (hpost13 m) (R14 m) (hpre14 m) (hpost14 m) (R15 m) (hpre15 m) (hpost15 m) (R16 m) (hpre16 m) (hpost16 m) (R17 m) (hpre17 m) (hpost17 m) (R18 m) (hpre18 m) (hpost18 m) (R19 m) (hpre19 m) (hpost19 m) (R20 m) (hpre20 m) (hpost20 m) (R21 m) (hpre21 m) (hpost21 m)

/-- Every weakly fair execution of @main terminates with every unscoped buffer at the last valuation. -/
def run_main (ρ : Dev nD → PrngReg) :=
  run_of_regions m ρ (outs m) (pdats m) (R0 m) (hpre0 m) (hpost0 m) (R1 m) (hpre1 m) (hpost1 m) (R2 m) (hpre2 m) (hpost2 m) (R3 m) (hpre3 m) (hpost3 m) (R4 m) (hpre4 m) (hpost4 m) (R5 m) (hpre5 m) (hpost5 m) (R6 m) (hpre6 m) (hpost6 m) (R7 m) (hpre7 m) (hpost7 m) (R8 m) (hpre8 m) (hpost8 m) (R9 m) (hpre9 m) (hpost9 m) (R10 m) (hpre10 m) (hpost10 m) (R11 m) (hpre11 m) (hpost11 m) (R12 m) (hpre12 m) (hpost12 m) (R13 m) (hpre13 m) (hpost13 m) (R14 m) (hpre14 m) (hpost14 m) (R15 m) (hpre15 m) (hpost15 m) (R16 m) (hpre16 m) (hpost16 m) (R17 m) (hpre17 m) (hpost17 m) (R18 m) (hpre18 m) (hpost18 m) (R19 m) (hpre19 m) (hpost19 m) (R20 m) (hpre20 m) (hpost20 m) (R21 m) (hpre21 m) (hpost21 m)

end Cert.Kernel.Hand

end
-- ==== Proof.KI.Launch.lean ====
/-
  The launch of the whole program, given one segment record per kernel region: the resource algebra (one copy
  of the pipeline library's algebra beside the transfer counters), its launch element, the trivial level
  assignment (no core owes another anything), and the rest state carried between items (the core owing
  nothing). With these fixed, the program's run from any memory with zero counters terminates, every argument
  ends as launched, and every unscoped buffer of the core ends at the last valuation of the chain — the launch
  contents, then after each host stretch its operations' results, then after each region what that region
  leaves.
-/
import proofs.«113214_j66838281060556_2_alg».proof.Proof.RegionsKernelIdeal
import Idealize.ShloMosaic.Adequacy
import Idealize.ShloMosaic.Init
import Idealize.ShloMosaic.Lib.Tactic
import Idealize.ShloMosaic.Lib.Pipeline.Kit
import Idealize.ShloMosaic.Lib.Pipeline.Frame
import Idealize.ShloMosaic.Lib.Pipeline.Regions

set_option maxRecDepth 1560

noncomputable section

namespace Cert.KernelIdeal.Hand

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-! ## The run, for any algebra: every unscoped buffer ends at the last valuation -/

variable (m : (ℓ : Loc nD τ sig) → Buf (Elt F) ℓ)

set_option backward.isDefEq.respectTransparency.types false in
set_option maxHeartbeats 4000000 in
set_option maxRecDepth 16384 in
/-- Given, per region, a segment record entered from the thread state before it and left at the one after it: every
    weakly fair execution of the program from memory m with zero counters terminates, and in every final memory each
    unscoped buffer b of core c holds the last valuation's contents at b. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : GenP.Outs (F := F))
    (pdats : (p : Fin 22) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 23 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE22 : ∀ c : Dev nD, E 22 c ⊢ (iprop(∃ W, owes (c : Thread nD τ) (0 : CellTallies nD τ sig Ix) W) : sProp (MT nD τ sig Ix (Elt F) ℕ U Lvl)))
    (R0 : RegionSeg (pcfgs (F := F)) GenP.adm pdats ι defs₀ 𝒱₀ L lv 0)
    (hpre0 : ∀ c : Dev nD, iprop(StableHlo.held (c : Thread nD τ) (Pipeline.ucRefs τ sig) (GenP.V1 m c) ∗ E 0 c) ⊢ R0.pre c)
    (hpost0 : ∀ c : Dev nD, R0.post c ⊢ iprop(StableHlo.held (c : Thread nD τ) (Pipeline.ucRefs τ sig) (GenP.V2 m outs c) ∗ E 1 c))
    (R1 : RegionSeg (pcfgs (F := F)) GenP.adm pdats ι defs₀ 𝒱₀ L lv 1)
    (hpre1 : ∀ c : Dev nD, iprop(StableHlo.held (c : Thread nD τ) (Pipeline.ucRefs τ sig) (GenP.V3 m outs c) ∗ E 1 c) ⊢ R1.pre c)
    (hpost1 : ∀ c : Dev nD, R1.post c ⊢ iprop(StableHlo.held (c : Thread nD τ) (Pipeline.ucRefs τ sig) (GenP.V4 m outs c) ∗ E 2 c))
    (R2 : RegionSeg (pcfgs (F := F)) GenP.adm pdats ι defs₀ 𝒱₀ L lv 2)
    (hpre2 : ∀ c : Dev nD, iprop(StableHlo.held (c : Thread nD τ) (Pipeline.ucRefs τ sig) (GenP.V4 m outs c) ∗ E 2 c) ⊢ R2.pre c)
    (hpost2 : ∀ c : Dev nD, R2.post c ⊢ iprop(StableHlo.held (c : Thread nD τ) (Pipeline.ucRefs τ sig) (GenP.V5 m outs c) ∗ E 3 c))
    (R3 : RegionSeg (pcfgs (F := F)) GenP.adm pdats ι defs₀ 𝒱₀ L lv 3)
    (hpre3 : ∀ c : Dev nD, iprop(StableHlo.held (c : Thread nD τ) (Pipeline.ucRefs τ sig) (GenP.V6 m outs c) ∗ E 3 c) ⊢ R3.pre c)
    (hpost3 : ∀ c : Dev nD, R3.post c ⊢ iprop(StableHlo.held (c : Thread nD τ) (Pipeline.ucRefs τ sig) (GenP.V7 m outs c) ∗ E 4 c))
    (R4 : RegionSeg (pcfgs (F := F)) GenP.adm pdats ι defs₀ 𝒱₀ L lv 4)
    (hpre4 : ∀ c : Dev nD, iprop(StableHlo.held (c : Thread nD τ) (Pipeline.ucRefs τ sig) (GenP.V7 m outs c) ∗ E 4 c) ⊢ R4.pre c)
    (hpost4 : ∀ c : Dev nD, R4.post c ⊢ iprop(StableHlo.held (c : Thread nD τ) (Pipeline.ucRefs τ sig) (GenP.V8 m outs c) ∗ E 5 c))
    (R5 : RegionSeg (pcfgs (F := F)) GenP.adm pdats ι defs₀ 𝒱₀ L lv 5)
    (hpre5 : ∀ c : Dev nD, iprop(StableHlo.held (c : Thread nD τ) (Pipeline.ucRefs τ sig) (GenP.V9 m outs c) ∗ E 5 c) ⊢ R5.pre c)
    (hpost5 : ∀ c : Dev nD, R5.post c ⊢ iprop(StableHlo.held (c : Thread nD τ) (Pipeline.ucRefs τ sig) (GenP.V10 m outs c) ∗ E 6 c))
    (R6 : RegionSeg (pcfgs (F := F)) GenP.adm pdats ι defs₀ 𝒱₀ L lv 6)
    (hpre6 : ∀ c : Dev nD, iprop(StableHlo.held (c : Thread nD τ) (Pipeline.ucRefs τ sig) (GenP.V10 m outs c) ∗ E 6 c) ⊢ R6.pre c)
    (hpost6 : ∀ c : Dev nD, R6.post c ⊢ iprop(StableHlo.held (c : Thread nD τ) (Pipeline.ucRefs τ sig) (GenP.V11 m outs c) ∗ E 7 c))
    (R7 : RegionSeg (pcfgs (F := F)) GenP.adm pdats ι defs₀ 𝒱₀ L lv 7)
    (hpre7 : ∀ c : Dev nD, iprop(StableHlo.held (c : Thread nD τ) (Pipeline.ucRefs τ sig) (GenP.V12 m outs c) ∗ E 7 c) ⊢ R7.pre c)
    (hpost7 : ∀ c : Dev nD, R7.post c ⊢ iprop(StableHlo.held (c : Thread nD τ) (Pipeline.ucRefs τ sig) (GenP.V13 m outs c) ∗ E 8 c))
    (R8 : RegionSeg (pcfgs (F := F)) GenP.adm pdats ι defs₀ 𝒱₀ L lv 8)
    (hpre8 : ∀ c : Dev nD, iprop(StableHlo.held (c : Thread nD τ) (Pipeline.ucRefs τ sig) (GenP.V14 m outs c) ∗ E 8 c) ⊢ R8.pre c)
    (hpost8 : ∀ c : Dev nD, R8.post c ⊢ iprop(StableHlo.held (c : Thread nD τ) (Pipeline.ucRefs τ sig) (GenP.V15 m outs c) ∗ E 9 c))
    (R9 : RegionSeg (pcfgs (F := F)) GenP.adm pdats ι defs₀ 𝒱₀ L lv 9)
    (hpre9 : ∀ c : Dev nD, iprop(StableHlo.held (c : Thread nD τ) (Pipeline.ucRefs τ sig) (GenP.V15 m outs c) ∗ E 9 c) ⊢ R9.pre c)
    (hpost9 : ∀ c : Dev nD, R9.post c ⊢ iprop(StableHlo.held (c : Thread nD τ) (Pipeline.ucRefs τ sig) (GenP.V16 m outs c) ∗ E 10 c))
    (R10 : RegionSeg (pcfgs (F := F)) GenP.adm pdats ι defs₀ 𝒱₀ L lv 10)
    (hpre10 : ∀ c : Dev nD, iprop(StableHlo.held (c : Thread nD τ) (Pipeline.ucRefs τ sig) (GenP.V16 m outs c) ∗ E 10 c) ⊢ R10.pre c)
    (hpost10 : ∀ c : Dev nD, R10.post c ⊢ iprop(StableHlo.held (c : Thread nD τ) (Pipeline.ucRefs τ sig) (GenP.V17 m outs c) ∗ E 11 c))
    (R11 : RegionSeg (pcfgs (F := F)) GenP.adm pdats ι defs₀ 𝒱₀ L lv 11)
    (hpre11 : ∀ c : Dev nD, iprop(StableHlo.held (c : Thread nD τ) (Pipeline.ucRefs τ sig) (GenP.V17 m outs c) ∗ E 11 c) ⊢ R11.pre c)
    (hpost11 : ∀ c : Dev nD, R11.post c ⊢ iprop(StableHlo.held (c : Thread nD τ) (Pipeline.ucRefs τ sig) (GenP.V18 m outs c) ∗ E 12 c))
    (R12 : RegionSeg (pcfgs (F := F)) GenP.adm pdats ι defs₀ 𝒱₀ L lv 12)
    (hpre12 : ∀ c : Dev nD, iprop(StableHlo.held (c : Thread nD τ) (Pipeline.ucRefs τ sig) (GenP.V18 m outs c) ∗ E 12 c) ⊢ R12.pre c)
    (hpost12 : ∀ c : Dev nD, R12.post c ⊢ iprop(StableHlo.held (c : Thread nD τ) (Pipeline.ucRefs τ sig) (GenP.V19 m outs c) ∗ E 13 c))
    (R13 : RegionSeg (pcfgs (F := F)) GenP.adm pdats ι defs₀ 𝒱₀ L lv 13)
    (hpre13 : ∀ c : Dev nD, iprop(StableHlo.held (c : Thread nD τ) (Pipeline.ucRefs τ sig) (GenP.V19 m outs c) ∗ E 13 c) ⊢ R13.pre c)
    (hpost13 : ∀ c : Dev nD, R13.post c ⊢ iprop(StableHlo.held (c : Thread nD τ) (Pipeline.ucRefs τ sig) (GenP.V20 m outs c) ∗ E 14 c))
    (R14 : RegionSeg (pcfgs (F := F)) GenP.adm pdats ι defs₀ 𝒱₀ L lv 14)
    (hpre14 : ∀ c : Dev nD, iprop(StableHlo.held (c : Thread nD τ) (Pipeline.ucRefs τ sig) (GenP.V21 m outs c) ∗ E 14 c) ⊢ R14.pre c)
    (hpost14 : ∀ c : Dev nD, R14.post c ⊢ iprop(StableHlo.held (c : Thread nD τ) (Pipeline.ucRefs τ sig) (GenP.V22 m outs c) ∗ E 15 c))
    (R15 : RegionSeg (pcfgs (F := F)) GenP.adm pdats ι defs₀ 𝒱₀ L lv 15)
    (hpre15 : ∀ c : Dev nD, iprop(StableHlo.held (c : Thread nD τ) (Pipeline.ucRefs τ sig) (GenP.V22 m outs c) ∗ E 15 c) ⊢ R15.pre c)
    (hpost15 : ∀ c : Dev nD, R15.post c ⊢ iprop(StableHlo.held (c : Thread nD τ) (Pipeline.ucRefs τ sig) (GenP.V23 m outs c) ∗ E 16 c))
    (R16 : RegionSeg (pcfgs (F := F)) GenP.adm pdats ι defs₀ 𝒱₀ L lv 16)
    (hpre16 : ∀ c : Dev nD, iprop(StableHlo.held (c : Thread nD τ) (Pipeline.ucRefs τ sig) (GenP.V24 m outs c) ∗ E 16 c) ⊢ R16.pre c)
    (hpost16 : ∀ c : Dev nD, R16.post c ⊢ iprop(StableHlo.held (c : Thread nD τ) (Pipeline.ucRefs τ sig) (GenP.V25 m outs c) ∗ E 17 c))
    (R17 : RegionSeg (pcfgs (F := F)) GenP.adm pdats ι defs₀ 𝒱₀ L lv 17)
    (hpre17 : ∀ c : Dev nD, iprop(StableHlo.held (c : Thread nD τ) (Pipeline.ucRefs τ sig) (GenP.V25 m outs c) ∗ E 17 c) ⊢ R17.pre c)
    (hpost17 : ∀ c : Dev nD, R17.post c ⊢ iprop(StableHlo.held (c : Thread nD τ) (Pipeline.ucRefs τ sig) (GenP.V26 m outs c) ∗ E 18 c))
    (R18 : RegionSeg (pcfgs (F := F)) GenP.adm pdats ι defs₀ 𝒱₀ L lv 18)
    (hpre18 : ∀ c : Dev nD, iprop(StableHlo.held (c : Thread nD τ) (Pipeline.ucRefs τ sig) (GenP.V26 m outs c) ∗ E 18 c) ⊢ R18.pre c)
    (hpost18 : ∀ c : Dev nD, R18.post c ⊢ iprop(StableHlo.held (c : Thread nD τ) (Pipeline.ucRefs τ sig) (GenP.V27 m outs c) ∗ E 19 c))
    (R19 : RegionSeg (pcfgs (F := F)) GenP.adm pdats ι defs₀ 𝒱₀ L lv 19)
    (hpre19 : ∀ c : Dev nD, iprop(StableHlo.held (c : Thread nD τ) (Pipeline.ucRefs τ sig) (GenP.V28 m outs c) ∗ E 19 c) ⊢ R19.pre c)
    (hpost19 : ∀ c : Dev nD, R19.post c ⊢ iprop(StableHlo.held (c : Thread nD τ) (Pipeline.ucRefs τ sig) (GenP.V29 m outs c) ∗ E 20 c))
    (R20 : RegionSeg (pcfgs (F := F)) GenP.adm pdats ι defs₀ 𝒱₀ L lv 20)
    (hpre20 : ∀ c : Dev nD, iprop(StableHlo.held (c : Thread nD τ) (Pipeline.ucRefs τ sig) (GenP.V29 m outs c) ∗ E 20 c) ⊢ R20.pre c)
    (hpost20 : ∀ c : Dev nD, R20.post c ⊢ iprop(StableHlo.held (c : Thread nD τ) (Pipeline.ucRefs τ sig) (GenP.V30 m outs c) ∗ E 21 c))
    (R21 : RegionSeg (pcfgs (F := F)) GenP.adm pdats ι defs₀ 𝒱₀ L lv 21)
    (hpre21 : ∀ c : Dev nD, iprop(StableHlo.held (c : Thread nD τ) (Pipeline.ucRefs τ sig) (GenP.V31 m outs c) ∗ E 21 c) ⊢ R21.pre c)
    (hpost21 : ∀ c : Dev nD, R21.post c ⊢ iprop(StableHlo.held (c : Thread nD τ) (Pipeline.ucRefs τ sig) (GenP.V32 m outs c) ∗ E 22 c)) :
    θ_run defs (onTc (τ := τ) (main (F := F))) ⟨m, fun _ => 0, ρ⟩ (fun r => ∀ c : Dev nD, ∀ b ∈ Pipeline.ucRefs τ sig, r.2.mem ((c : Thread nD τ).1, b) = GenP.V33 m outs c b) := by
  refine Pipeline.θ_run_regions_kit_dev (pcfgs (F := F)) GenP.adm pdats ι cellOf_inj EP defs₀ 𝒱₀ L lv m ρ main
    (GenP.segs m outs 𝒱₀ L lv E ι pdats R0 R1 R2 R3 R4 R5 R6 R7 R8 R9 R10 R11 R12 R13 R14 R15 R16 R17 R18 R19 R20 R21)
    (fun c Q => by
      rewrite [main_chain c, Seg.run_eq_chain,
        show (GenP.segs m outs 𝒱₀ L lv E ι pdats R0 R1 R2 R3 R4 R5 R6 R7 R8 R9 R10 R11 R12 R13 R14 R15 R16 R17 R18 R19 R20 R21 c).map Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          Prog.lift (.customCall (Pipeline.entry 6) ()),
          StableHlo.seq hostOps7,
          Prog.lift (.customCall (Pipeline.entry 7) ()),
          StableHlo.seq hostOps8,
          Prog.lift (.customCall (Pipeline.entry 8) ()),
          Prog.lift (.customCall (Pipeline.entry 9) ()),
          Prog.lift (.customCall (Pipeline.entry 10) ()),
          Prog.lift (.customCall (Pipeline.entry 11) ()),
          Prog.lift (.customCall (Pipeline.entry 12) ()),
          Prog.lift (.customCall (Pipeline.entry 13) ()),
          StableHlo.seq hostOps14,
          Prog.lift (.customCall (Pipeline.entry 14) ()),
          Prog.lift (.customCall (Pipeline.entry 15) ()),
          StableHlo.seq hostOps16,
          Prog.lift (.customCall (Pipeline.entry 16) ()),
          Prog.lift (.customCall (Pipeline.entry 17) ()),
          Prog.lift (.customCall (Pipeline.entry 18) ()),
          StableHlo.seq hostOps19,
          Prog.lift (.customCall (Pipeline.entry 19) ()),
          Prog.lift (.customCall (Pipeline.entry 20) ()),
          StableHlo.seq hostOps21,
          Prog.lift (.customCall (Pipeline.entry 21) ()),
          StableHlo.seq hostOps22 ] from rfl]
      with_reducible exact .rfl)
    (fun c => by simp only [GenP.segs, Seg.pipes_host, Seg.pipes_region, Seg.pipes_nil]; decide) O₀ hL G u₀ hu₀
    (T₀ := fun c => iprop(StableHlo.held (c : Thread nD τ) (Pipeline.ucRefs τ sig) (GenP.V0 m c) ∗ E 0 c))
    (Tₙ := fun c => StableHlo.held (c : Thread nD τ) (Pipeline.ucRefs τ sig) (GenP.V33 m outs c))
    (hch := fun c => ⟨.rfl, hpre0 c, hpost0 c, hpre1 c, (hpost1 c).trans (hpre2 c), hpost2 c, hpre3 c, (hpost3 c).trans (hpre4 c), hpost4 c, hpre5 c, (hpost5 c).trans (hpre6 c), hpost6 c, hpre7 c, hpost7 c, hpre8 c, (hpost8 c).trans (hpre9 c), (hpost9 c).trans (hpre10 c), (hpost10 c).trans (hpre11 c), (hpost11 c).trans (hpre12 c), (hpost12 c).trans (hpre13 c), hpost13 c, hpre14 c, (hpost14 c).trans (hpre15 c), hpost15 c, hpre16 c, (hpost16 c).trans (hpre17 c), (hpost17 c).trans (hpre18 c), hpost18 c, hpre19 c, (hpost19 c).trans (hpre20 c), hpost20 c, hpre21 c, hpost21 c, sep_mono .rfl (hE22 c)⟩)
    (hinit := ?_) (QY := fun c s => ∀ b ∈ Pipeline.ucRefs τ sig, s.mem ((c : Thread nD τ).1, b) = GenP.V33 m outs c b)
    (hfin := fun c s' => ?_) (hQ := fun _ h => h)
  · -- at launch the unscoped buffers are held at the first valuation; the rest makes the first rest state on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (GenP.V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (GenP.V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- at the end every unscoped buffer is read off the last valuation
    unfold StableHlo.held
    iintro ⟨Hh, HSI⟩
    ihave Hr := (pointsTo_read_all (Pipeline.ucRefs τ sig) (fun b => ((c : Thread nD τ).1, b)) (GenP.V33 m outs c) s') $$ [Hh HSI]
    · isplitl [Hh] <;> iassumption
    icases Hr with ⟨%h, HSI⟩
    imodintro
    isplitr
    · ipureintro
      exact h
    · iexact HSI

/-! ## The concrete choices -/

/-- The resource algebra: one copy of the pipeline library's algebra for the staging cells of all twenty-two
    pipelines, beside the counters a transfer's invariant takes its tokens from. -/
abbrev UU : Type := UR sig nD τ × Counters

local notation "𝕄" => MT nD τ sig Unit (Elt F) ℕ UU ℕ

/-- The pipeline library's algebra is the left component. -/
abbrev EP : Emb (UR sig nD τ) (MT nD τ sig Unit (Elt F) ℕ UU ℕ) := embL

instance EP_landsIn : (EP (F := F)).LandsIn (upEmb : UEmb _ (MT nD τ sig Unit (Elt F) ℕ UU ℕ)) := by
  unfold EP; infer_instance

/-- The launch element: the pipeline library's at every pipeline's staging cells and transfers; no counter yet. -/
def u₀ : UU := (initOf (Pipeline.cells cfgs cellOf_inj) (Pipeline.launchToks cfgs cellOf_inj), 1)

/-- No pipeline variant is named. -/
abbrev 𝒱₀ : Variants := Variants.none
/-- No core owes another anything: no pair has a level, and every level is zero. -/
abbrev L : GSem nD τ sig → Finset Unit := fun _ => ∅
abbrev lv : GSem nD τ sig → Unit → ℕ := fun _ _ => 0
theorem hL : ∀ g : GSem nD τ sig, g.1.2 ≠ .tc → L g = ∅ := fun _ _ => rfl
/-- Nothing is owed at launch, and no ghost resource is dealt to a core. -/
abbrev O₀ : Dev nD → CellTallies nD τ sig Unit := 0
abbrev G : Dev nD → sProp 𝕄 := fun _ => iprop(emp)

/-- The rest state beside the unscoped buffers, the same between any two items: the core owes nothing. -/
abbrev Erest : Fin 23 → Dev nD → sProp 𝕄 :=
  fun _ c => iprop(∃ W, owes (c : Thread nD τ) (0 : CellTallies nD τ sig Unit) W)

/-- The launch element yields the pipeline library's, and the (empty) ghost resources of every core. -/
theorem hu₀ : (ownU u₀ : sProp 𝕄)
    ⊢ |={Set.univ}=> iprop(BI.own (EP (F := F) (initOf (Pipeline.cells cfgs cellOf_inj) (Pipeline.launchToks cfgs cellOf_inj))) ∗ bigSep Finset.univ (G (F := F))) := by
  unfold u₀
  iintro Hu
  ihave H := (ownU_pair _ _) $$ Hu
  icases H with ⟨HP, -⟩
  imodintro
  isplitl [HP]; · iexact HP
  iapply (show (BI.emp : sProp 𝕄) ⊢ bigSep Finset.univ (fun _ : Dev nD => (BI.emp : sProp 𝕄)) from by rw [BI.bigSep_emp_const])
  iempintro

/-- What the launch deals each core makes the first rest state: the core owes nothing, with no wait recorded. -/
theorem hE0 (ρ : Dev nD → PrngReg) :
    iprop((bigSep Finset.univ fun c : Dev nD => iprop(unscopedSems0 c ∗ owes (c : Thread nD τ) (O₀ c) ∅ ∗ Pipeline.launchCred O₀ c ∗ prngReg c (ρ c) ∗ G (F := F) c)) ∗ levAts L lv)
      ⊢ (|={Set.univ}=> bigSep Finset.univ (Erest (F := F) 0) : sProp 𝕄) := by
  refine Pipeline.initEach L lv fun c => ?_
  iintro ⟨⟨-, HO, -, -, -⟩, -⟩
  imodintro
  iexists ∅; iexact HO

/-- The last rest state is the core owing nothing. -/
theorem hE22 (c : Dev nD) :
    Erest (F := F) 22 c ⊢ (iprop(∃ W, owes (c : Thread nD τ) (0 : CellTallies nD τ sig Unit) W) : sProp 𝕄) := .rfl

/-! ## The frame and the run, given the regions' records -/

variable (ρ : Dev nD → PrngReg) (outs : GenP.Outs (F := F))
  (pdats : (p : Fin 22) → (c : Dev nD) → Dat τ (Elt F) Unit ℕ UU ℕ (cfgs p) c)

set_option backward.isDefEq.respectTransparency.types false in
set_option maxHeartbeats 4000000 in
set_option maxRecDepth 16384 in
/-- Every argument ends as launched. -/
theorem frame_of_regions
    (R0 : RegionSeg (pcfgs (F := F)) GenP.adm pdats () defs₀ 𝒱₀ L lv 0)
    (hpre0 : ∀ c : Dev nD, iprop(StableHlo.held (c : Thread nD τ) (Pipeline.ucRefs τ sig) (GenP.V1 m c) ∗ Erest 0 c) ⊢ R0.pre c)
    (hpost0 : ∀ c : Dev nD, R0.post c ⊢ iprop(StableHlo.held (c : Thread nD τ) (Pipeline.ucRefs τ sig) (GenP.V2 m outs c) ∗ Erest 1 c))
    (R1 : RegionSeg (pcfgs (F := F)) GenP.adm pdats () defs₀ 𝒱₀ L lv 1)
    (hpre1 : ∀ c : Dev nD, iprop(StableHlo.held (c : Thread nD τ) (Pipeline.ucRefs τ sig) (GenP.V3 m outs c) ∗ Erest 1 c) ⊢ R1.pre c)
    (hpost1 : ∀ c : Dev nD, R1.post c ⊢ iprop(StableHlo.held (c : Thread nD τ) (Pipeline.ucRefs τ sig) (GenP.V4 m outs c) ∗ Erest 2 c))
    (R2 : RegionSeg (pcfgs (F := F)) GenP.adm pdats () defs₀ 𝒱₀ L lv 2)
    (hpre2 : ∀ c : Dev nD, iprop(StableHlo.held (c : Thread nD τ) (Pipeline.ucRefs τ sig) (GenP.V4 m outs c) ∗ Erest 2 c) ⊢ R2.pre c)
    (hpost2 : ∀ c : Dev nD, R2.post c ⊢ iprop(StableHlo.held (c : Thread nD τ) (Pipeline.ucRefs τ sig) (GenP.V5 m outs c) ∗ Erest 3 c))
    (R3 : RegionSeg (pcfgs (F := F)) GenP.adm pdats () defs₀ 𝒱₀ L lv 3)
    (hpre3 : ∀ c : Dev nD, iprop(StableHlo.held (c : Thread nD τ) (Pipeline.ucRefs τ sig) (GenP.V6 m outs c) ∗ Erest 3 c) ⊢ R3.pre c)
    (hpost3 : ∀ c : Dev nD, R3.post c ⊢ iprop(StableHlo.held (c : Thread nD τ) (Pipeline.ucRefs τ sig) (GenP.V7 m outs c) ∗ Erest 4 c))
    (R4 : RegionSeg (pcfgs (F := F)) GenP.adm pdats () defs₀ 𝒱₀ L lv 4)
    (hpre4 : ∀ c : Dev nD, iprop(StableHlo.held (c : Thread nD τ) (Pipeline.ucRefs τ sig) (GenP.V7 m outs c) ∗ Erest 4 c) ⊢ R4.pre c)
    (hpost4 : ∀ c : Dev nD, R4.post c ⊢ iprop(StableHlo.held (c : Thread nD τ) (Pipeline.ucRefs τ sig) (GenP.V8 m outs c) ∗ Erest 5 c))
    (R5 : RegionSeg (pcfgs (F := F)) GenP.adm pdats () defs₀ 𝒱₀ L lv 5)
    (hpre5 : ∀ c : Dev nD, iprop(StableHlo.held (c : Thread nD τ) (Pipeline.ucRefs τ sig) (GenP.V9 m outs c) ∗ Erest 5 c) ⊢ R5.pre c)
    (hpost5 : ∀ c : Dev nD, R5.post c ⊢ iprop(StableHlo.held (c : Thread nD τ) (Pipeline.ucRefs τ sig) (GenP.V10 m outs c) ∗ Erest 6 c))
    (R6 : RegionSeg (pcfgs (F := F)) GenP.adm pdats () defs₀ 𝒱₀ L lv 6)
    (hpre6 : ∀ c : Dev nD, iprop(StableHlo.held (c : Thread nD τ) (Pipeline.ucRefs τ sig) (GenP.V10 m outs c) ∗ Erest 6 c) ⊢ R6.pre c)
    (hpost6 : ∀ c : Dev nD, R6.post c ⊢ iprop(StableHlo.held (c : Thread nD τ) (Pipeline.ucRefs τ sig) (GenP.V11 m outs c) ∗ Erest 7 c))
    (R7 : RegionSeg (pcfgs (F := F)) GenP.adm pdats () defs₀ 𝒱₀ L lv 7)
    (hpre7 : ∀ c : Dev nD, iprop(StableHlo.held (c : Thread nD τ) (Pipeline.ucRefs τ sig) (GenP.V12 m outs c) ∗ Erest 7 c) ⊢ R7.pre c)
    (hpost7 : ∀ c : Dev nD, R7.post c ⊢ iprop(StableHlo.held (c : Thread nD τ) (Pipeline.ucRefs τ sig) (GenP.V13 m outs c) ∗ Erest 8 c))
    (R8 : RegionSeg (pcfgs (F := F)) GenP.adm pdats () defs₀ 𝒱₀ L lv 8)
    (hpre8 : ∀ c : Dev nD, iprop(StableHlo.held (c : Thread nD τ) (Pipeline.ucRefs τ sig) (GenP.V14 m outs c) ∗ Erest 8 c) ⊢ R8.pre c)
    (hpost8 : ∀ c : Dev nD, R8.post c ⊢ iprop(StableHlo.held (c : Thread nD τ) (Pipeline.ucRefs τ sig) (GenP.V15 m outs c) ∗ Erest 9 c))
    (R9 : RegionSeg (pcfgs (F := F)) GenP.adm pdats () defs₀ 𝒱₀ L lv 9)
    (hpre9 : ∀ c : Dev nD, iprop(StableHlo.held (c : Thread nD τ) (Pipeline.ucRefs τ sig) (GenP.V15 m outs c) ∗ Erest 9 c) ⊢ R9.pre c)
    (hpost9 : ∀ c : Dev nD, R9.post c ⊢ iprop(StableHlo.held (c : Thread nD τ) (Pipeline.ucRefs τ sig) (GenP.V16 m outs c) ∗ Erest 10 c))
    (R10 : RegionSeg (pcfgs (F := F)) GenP.adm pdats () defs₀ 𝒱₀ L lv 10)
    (hpre10 : ∀ c : Dev nD, iprop(StableHlo.held (c : Thread nD τ) (Pipeline.ucRefs τ sig) (GenP.V16 m outs c) ∗ Erest 10 c) ⊢ R10.pre c)
    (hpost10 : ∀ c : Dev nD, R10.post c ⊢ iprop(StableHlo.held (c : Thread nD τ) (Pipeline.ucRefs τ sig) (GenP.V17 m outs c) ∗ Erest 11 c))
    (R11 : RegionSeg (pcfgs (F := F)) GenP.adm pdats () defs₀ 𝒱₀ L lv 11)
    (hpre11 : ∀ c : Dev nD, iprop(StableHlo.held (c : Thread nD τ) (Pipeline.ucRefs τ sig) (GenP.V17 m outs c) ∗ Erest 11 c) ⊢ R11.pre c)
    (hpost11 : ∀ c : Dev nD, R11.post c ⊢ iprop(StableHlo.held (c : Thread nD τ) (Pipeline.ucRefs τ sig) (GenP.V18 m outs c) ∗ Erest 12 c))
    (R12 : RegionSeg (pcfgs (F := F)) GenP.adm pdats () defs₀ 𝒱₀ L lv 12)
    (hpre12 : ∀ c : Dev nD, iprop(StableHlo.held (c : Thread nD τ) (Pipeline.ucRefs τ sig) (GenP.V18 m outs c) ∗ Erest 12 c) ⊢ R12.pre c)
    (hpost12 : ∀ c : Dev nD, R12.post c ⊢ iprop(StableHlo.held (c : Thread nD τ) (Pipeline.ucRefs τ sig) (GenP.V19 m outs c) ∗ Erest 13 c))
    (R13 : RegionSeg (pcfgs (F := F)) GenP.adm pdats () defs₀ 𝒱₀ L lv 13)
    (hpre13 : ∀ c : Dev nD, iprop(StableHlo.held (c : Thread nD τ) (Pipeline.ucRefs τ sig) (GenP.V19 m outs c) ∗ Erest 13 c) ⊢ R13.pre c)
    (hpost13 : ∀ c : Dev nD, R13.post c ⊢ iprop(StableHlo.held (c : Thread nD τ) (Pipeline.ucRefs τ sig) (GenP.V20 m outs c) ∗ Erest 14 c))
    (R14 : RegionSeg (pcfgs (F := F)) GenP.adm pdats () defs₀ 𝒱₀ L lv 14)
    (hpre14 : ∀ c : Dev nD, iprop(StableHlo.held (c : Thread nD τ) (Pipeline.ucRefs τ sig) (GenP.V21 m outs c) ∗ Erest 14 c) ⊢ R14.pre c)
    (hpost14 : ∀ c : Dev nD, R14.post c ⊢ iprop(StableHlo.held (c : Thread nD τ) (Pipeline.ucRefs τ sig) (GenP.V22 m outs c) ∗ Erest 15 c))
    (R15 : RegionSeg (pcfgs (F := F)) GenP.adm pdats () defs₀ 𝒱₀ L lv 15)
    (hpre15 : ∀ c : Dev nD, iprop(StableHlo.held (c : Thread nD τ) (Pipeline.ucRefs τ sig) (GenP.V22 m outs c) ∗ Erest 15 c) ⊢ R15.pre c)
    (hpost15 : ∀ c : Dev nD, R15.post c ⊢ iprop(StableHlo.held (c : Thread nD τ) (Pipeline.ucRefs τ sig) (GenP.V23 m outs c) ∗ Erest 16 c))
    (R16 : RegionSeg (pcfgs (F := F)) GenP.adm pdats () defs₀ 𝒱₀ L lv 16)
    (hpre16 : ∀ c : Dev nD, iprop(StableHlo.held (c : Thread nD τ) (Pipeline.ucRefs τ sig) (GenP.V24 m outs c) ∗ Erest 16 c) ⊢ R16.pre c)
    (hpost16 : ∀ c : Dev nD, R16.post c ⊢ iprop(StableHlo.held (c : Thread nD τ) (Pipeline.ucRefs τ sig) (GenP.V25 m outs c) ∗ Erest 17 c))
    (R17 : RegionSeg (pcfgs (F := F)) GenP.adm pdats () defs₀ 𝒱₀ L lv 17)
    (hpre17 : ∀ c : Dev nD, iprop(StableHlo.held (c : Thread nD τ) (Pipeline.ucRefs τ sig) (GenP.V25 m outs c) ∗ Erest 17 c) ⊢ R17.pre c)
    (hpost17 : ∀ c : Dev nD, R17.post c ⊢ iprop(StableHlo.held (c : Thread nD τ) (Pipeline.ucRefs τ sig) (GenP.V26 m outs c) ∗ Erest 18 c))
    (R18 : RegionSeg (pcfgs (F := F)) GenP.adm pdats () defs₀ 𝒱₀ L lv 18)
    (hpre18 : ∀ c : Dev nD, iprop(StableHlo.held (c : Thread nD τ) (Pipeline.ucRefs τ sig) (GenP.V26 m outs c) ∗ Erest 18 c) ⊢ R18.pre c)
    (hpost18 : ∀ c : Dev nD, R18.post c ⊢ iprop(StableHlo.held (c : Thread nD τ) (Pipeline.ucRefs τ sig) (GenP.V27 m outs c) ∗ Erest 19 c))
    (R19 : RegionSeg (pcfgs (F := F)) GenP.adm pdats () defs₀ 𝒱₀ L lv 19)
    (hpre19 : ∀ c : Dev nD, iprop(StableHlo.held (c : Thread nD τ) (Pipeline.ucRefs τ sig) (GenP.V28 m outs c) ∗ Erest 19 c) ⊢ R19.pre c)
    (hpost19 : ∀ c : Dev nD, R19.post c ⊢ iprop(StableHlo.held (c : Thread nD τ) (Pipeline.ucRefs τ sig) (GenP.V29 m outs c) ∗ Erest 20 c))
    (R20 : RegionSeg (pcfgs (F := F)) GenP.adm pdats () defs₀ 𝒱₀ L lv 20)
    (hpre20 : ∀ c : Dev nD, iprop(StableHlo.held (c : Thread nD τ) (Pipeline.ucRefs τ sig) (GenP.V29 m outs c) ∗ Erest 20 c) ⊢ R20.pre c)
    (hpost20 : ∀ c : Dev nD, R20.post c ⊢ iprop(StableHlo.held (c : Thread nD τ) (Pipeline.ucRefs τ sig) (GenP.V30 m outs c) ∗ Erest 21 c))
    (R21 : RegionSeg (pcfgs (F := F)) GenP.adm pdats () defs₀ 𝒱₀ L lv 21)
    (hpre21 : ∀ c : Dev nD, iprop(StableHlo.held (c : Thread nD τ) (Pipeline.ucRefs τ sig) (GenP.V31 m outs c) ∗ Erest 21 c) ⊢ R21.pre c)
    (hpost21 : ∀ c : Dev nD, R21.post c ⊢ iprop(StableHlo.held (c : Thread nD τ) (Pipeline.ucRefs τ sig) (GenP.V32 m outs c) ∗ Erest 22 c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  GenP.frame_cond m EP () 𝒱₀ L lv hL ρ outs pdats O₀ G u₀ hu₀ Erest (hE0 ρ) hE22
    R0 hpre0 hpost0 R1 hpre1 hpost1 R2 hpre2 hpost2 R3 hpre3 hpost3 R4 hpre4 hpost4 R5 hpre5 hpost5 R6 hpre6 hpost6 R7 hpre7 hpost7 R8 hpre8 hpost8 R9 hpre9 hpost9 R10 hpre10 hpost10 R11 hpre11 hpost11 R12 hpre12 hpost12 R13 hpre13 hpost13 R14 hpre14 hpost14 R15 hpre15 hpost15 R16 hpre16 hpost16 R17 hpre17 hpost17 R18 hpre18 hpost18 R19 hpre19 hpost19 R20 hpre20 hpost20 R21 hpre21 hpost21

set_option backward.isDefEq.respectTransparency.types false in
set_option maxHeartbeats 4000000 in
set_option maxRecDepth 16384 in
/-- Every unscoped buffer of every core ends at the last valuation. -/
theorem run_of_regions
    (R0 : RegionSeg (pcfgs (F := F)) GenP.adm pdats () defs₀ 𝒱₀ L lv 0)
    (hpre0 : ∀ c : Dev nD, iprop(StableHlo.held (c : Thread nD τ) (Pipeline.ucRefs τ sig) (GenP.V1 m c) ∗ Erest 0 c) ⊢ R0.pre c)
    (hpost0 : ∀ c : Dev nD, R0.post c ⊢ iprop(StableHlo.held (c : Thread nD τ) (Pipeline.ucRefs τ sig) (GenP.V2 m outs c) ∗ Erest 1 c))
    (R1 : RegionSeg (pcfgs (F := F)) GenP.adm pdats () defs₀ 𝒱₀ L lv 1)
    (hpre1 : ∀ c : Dev nD, iprop(StableHlo.held (c : Thread nD τ) (Pipeline.ucRefs τ sig) (GenP.V3 m outs c) ∗ Erest 1 c) ⊢ R1.pre c)
    (hpost1 : ∀ c : Dev nD, R1.post c ⊢ iprop(StableHlo.held (c : Thread nD τ) (Pipeline.ucRefs τ sig) (GenP.V4 m outs c) ∗ Erest 2 c))
    (R2 : RegionSeg (pcfgs (F := F)) GenP.adm pdats () defs₀ 𝒱₀ L lv 2)
    (hpre2 : ∀ c : Dev nD, iprop(StableHlo.held (c : Thread nD τ) (Pipeline.ucRefs τ sig) (GenP.V4 m outs c) ∗ Erest 2 c) ⊢ R2.pre c)
    (hpost2 : ∀ c : Dev nD, R2.post c ⊢ iprop(StableHlo.held (c : Thread nD τ) (Pipeline.ucRefs τ sig) (GenP.V5 m outs c) ∗ Erest 3 c))
    (R3 : RegionSeg (pcfgs (F := F)) GenP.adm pdats () defs₀ 𝒱₀ L lv 3)
    (hpre3 : ∀ c : Dev nD, iprop(StableHlo.held (c : Thread nD τ) (Pipeline.ucRefs τ sig) (GenP.V6 m outs c) ∗ Erest 3 c) ⊢ R3.pre c)
    (hpost3 : ∀ c : Dev nD, R3.post c ⊢ iprop(StableHlo.held (c : Thread nD τ) (Pipeline.ucRefs τ sig) (GenP.V7 m outs c) ∗ Erest 4 c))
    (R4 : RegionSeg (pcfgs (F := F)) GenP.adm pdats () defs₀ 𝒱₀ L lv 4)
    (hpre4 : ∀ c : Dev nD, iprop(StableHlo.held (c : Thread nD τ) (Pipeline.ucRefs τ sig) (GenP.V7 m outs c) ∗ Erest 4 c) ⊢ R4.pre c)
    (hpost4 : ∀ c : Dev nD, R4.post c ⊢ iprop(StableHlo.held (c : Thread nD τ) (Pipeline.ucRefs τ sig) (GenP.V8 m outs c) ∗ Erest 5 c))
    (R5 : RegionSeg (pcfgs (F := F)) GenP.adm pdats () defs₀ 𝒱₀ L lv 5)
    (hpre5 : ∀ c : Dev nD, iprop(StableHlo.held (c : Thread nD τ) (Pipeline.ucRefs τ sig) (GenP.V9 m outs c) ∗ Erest 5 c) ⊢ R5.pre c)
    (hpost5 : ∀ c : Dev nD, R5.post c ⊢ iprop(StableHlo.held (c : Thread nD τ) (Pipeline.ucRefs τ sig) (GenP.V10 m outs c) ∗ Erest 6 c))
    (R6 : RegionSeg (pcfgs (F := F)) GenP.adm pdats () defs₀ 𝒱₀ L lv 6)
    (hpre6 : ∀ c : Dev nD, iprop(StableHlo.held (c : Thread nD τ) (Pipeline.ucRefs τ sig) (GenP.V10 m outs c) ∗ Erest 6 c) ⊢ R6.pre c)
    (hpost6 : ∀ c : Dev nD, R6.post c ⊢ iprop(StableHlo.held (c : Thread nD τ) (Pipeline.ucRefs τ sig) (GenP.V11 m outs c) ∗ Erest 7 c))
    (R7 : RegionSeg (pcfgs (F := F)) GenP.adm pdats () defs₀ 𝒱₀ L lv 7)
    (hpre7 : ∀ c : Dev nD, iprop(StableHlo.held (c : Thread nD τ) (Pipeline.ucRefs τ sig) (GenP.V12 m outs c) ∗ Erest 7 c) ⊢ R7.pre c)
    (hpost7 : ∀ c : Dev nD, R7.post c ⊢ iprop(StableHlo.held (c : Thread nD τ) (Pipeline.ucRefs τ sig) (GenP.V13 m outs c) ∗ Erest 8 c))
    (R8 : RegionSeg (pcfgs (F := F)) GenP.adm pdats () defs₀ 𝒱₀ L lv 8)
    (hpre8 : ∀ c : Dev nD, iprop(StableHlo.held (c : Thread nD τ) (Pipeline.ucRefs τ sig) (GenP.V14 m outs c) ∗ Erest 8 c) ⊢ R8.pre c)
    (hpost8 : ∀ c : Dev nD, R8.post c ⊢ iprop(StableHlo.held (c : Thread nD τ) (Pipeline.ucRefs τ sig) (GenP.V15 m outs c) ∗ Erest 9 c))
    (R9 : RegionSeg (pcfgs (F := F)) GenP.adm pdats () defs₀ 𝒱₀ L lv 9)
    (hpre9 : ∀ c : Dev nD, iprop(StableHlo.held (c : Thread nD τ) (Pipeline.ucRefs τ sig) (GenP.V15 m outs c) ∗ Erest 9 c) ⊢ R9.pre c)
    (hpost9 : ∀ c : Dev nD, R9.post c ⊢ iprop(StableHlo.held (c : Thread nD τ) (Pipeline.ucRefs τ sig) (GenP.V16 m outs c) ∗ Erest 10 c))
    (R10 : RegionSeg (pcfgs (F := F)) GenP.adm pdats () defs₀ 𝒱₀ L lv 10)
    (hpre10 : ∀ c : Dev nD, iprop(StableHlo.held (c : Thread nD τ) (Pipeline.ucRefs τ sig) (GenP.V16 m outs c) ∗ Erest 10 c) ⊢ R10.pre c)
    (hpost10 : ∀ c : Dev nD, R10.post c ⊢ iprop(StableHlo.held (c : Thread nD τ) (Pipeline.ucRefs τ sig) (GenP.V17 m outs c) ∗ Erest 11 c))
    (R11 : RegionSeg (pcfgs (F := F)) GenP.adm pdats () defs₀ 𝒱₀ L lv 11)
    (hpre11 : ∀ c : Dev nD, iprop(StableHlo.held (c : Thread nD τ) (Pipeline.ucRefs τ sig) (GenP.V17 m outs c) ∗ Erest 11 c) ⊢ R11.pre c)
    (hpost11 : ∀ c : Dev nD, R11.post c ⊢ iprop(StableHlo.held (c : Thread nD τ) (Pipeline.ucRefs τ sig) (GenP.V18 m outs c) ∗ Erest 12 c))
    (R12 : RegionSeg (pcfgs (F := F)) GenP.adm pdats () defs₀ 𝒱₀ L lv 12)
    (hpre12 : ∀ c : Dev nD, iprop(StableHlo.held (c : Thread nD τ) (Pipeline.ucRefs τ sig) (GenP.V18 m outs c) ∗ Erest 12 c) ⊢ R12.pre c)
    (hpost12 : ∀ c : Dev nD, R12.post c ⊢ iprop(StableHlo.held (c : Thread nD τ) (Pipeline.ucRefs τ sig) (GenP.V19 m outs c) ∗ Erest 13 c))
    (R13 : RegionSeg (pcfgs (F := F)) GenP.adm pdats () defs₀ 𝒱₀ L lv 13)
    (hpre13 : ∀ c : Dev nD, iprop(StableHlo.held (c : Thread nD τ) (Pipeline.ucRefs τ sig) (GenP.V19 m outs c) ∗ Erest 13 c) ⊢ R13.pre c)
    (hpost13 : ∀ c : Dev nD, R13.post c ⊢ iprop(StableHlo.held (c : Thread nD τ) (Pipeline.ucRefs τ sig) (GenP.V20 m outs c) ∗ Erest 14 c))
    (R14 : RegionSeg (pcfgs (F := F)) GenP.adm pdats () defs₀ 𝒱₀ L lv 14)
    (hpre14 : ∀ c : Dev nD, iprop(StableHlo.held (c : Thread nD τ) (Pipeline.ucRefs τ sig) (GenP.V21 m outs c) ∗ Erest 14 c) ⊢ R14.pre c)
    (hpost14 : ∀ c : Dev nD, R14.post c ⊢ iprop(StableHlo.held (c : Thread nD τ) (Pipeline.ucRefs τ sig) (GenP.V22 m outs c) ∗ Erest 15 c))
    (R15 : RegionSeg (pcfgs (F := F)) GenP.adm pdats () defs₀ 𝒱₀ L lv 15)
    (hpre15 : ∀ c : Dev nD, iprop(StableHlo.held (c : Thread nD τ) (Pipeline.ucRefs τ sig) (GenP.V22 m outs c) ∗ Erest 15 c) ⊢ R15.pre c)
    (hpost15 : ∀ c : Dev nD, R15.post c ⊢ iprop(StableHlo.held (c : Thread nD τ) (Pipeline.ucRefs τ sig) (GenP.V23 m outs c) ∗ Erest 16 c))
    (R16 : RegionSeg (pcfgs (F := F)) GenP.adm pdats () defs₀ 𝒱₀ L lv 16)
    (hpre16 : ∀ c : Dev nD, iprop(StableHlo.held (c : Thread nD τ) (Pipeline.ucRefs τ sig) (GenP.V24 m outs c) ∗ Erest 16 c) ⊢ R16.pre c)
    (hpost16 : ∀ c : Dev nD, R16.post c ⊢ iprop(StableHlo.held (c : Thread nD τ) (Pipeline.ucRefs τ sig) (GenP.V25 m outs c) ∗ Erest 17 c))
    (R17 : RegionSeg (pcfgs (F := F)) GenP.adm pdats () defs₀ 𝒱₀ L lv 17)
    (hpre17 : ∀ c : Dev nD, iprop(StableHlo.held (c : Thread nD τ) (Pipeline.ucRefs τ sig) (GenP.V25 m outs c) ∗ Erest 17 c) ⊢ R17.pre c)
    (hpost17 : ∀ c : Dev nD, R17.post c ⊢ iprop(StableHlo.held (c : Thread nD τ) (Pipeline.ucRefs τ sig) (GenP.V26 m outs c) ∗ Erest 18 c))
    (R18 : RegionSeg (pcfgs (F := F)) GenP.adm pdats () defs₀ 𝒱₀ L lv 18)
    (hpre18 : ∀ c : Dev nD, iprop(StableHlo.held (c : Thread nD τ) (Pipeline.ucRefs τ sig) (GenP.V26 m outs c) ∗ Erest 18 c) ⊢ R18.pre c)
    (hpost18 : ∀ c : Dev nD, R18.post c ⊢ iprop(StableHlo.held (c : Thread nD τ) (Pipeline.ucRefs τ sig) (GenP.V27 m outs c) ∗ Erest 19 c))
    (R19 : RegionSeg (pcfgs (F := F)) GenP.adm pdats () defs₀ 𝒱₀ L lv 19)
    (hpre19 : ∀ c : Dev nD, iprop(StableHlo.held (c : Thread nD τ) (Pipeline.ucRefs τ sig) (GenP.V28 m outs c) ∗ Erest 19 c) ⊢ R19.pre c)
    (hpost19 : ∀ c : Dev nD, R19.post c ⊢ iprop(StableHlo.held (c : Thread nD τ) (Pipeline.ucRefs τ sig) (GenP.V29 m outs c) ∗ Erest 20 c))
    (R20 : RegionSeg (pcfgs (F := F)) GenP.adm pdats () defs₀ 𝒱₀ L lv 20)
    (hpre20 : ∀ c : Dev nD, iprop(StableHlo.held (c : Thread nD τ) (Pipeline.ucRefs τ sig) (GenP.V29 m outs c) ∗ Erest 20 c) ⊢ R20.pre c)
    (hpost20 : ∀ c : Dev nD, R20.post c ⊢ iprop(StableHlo.held (c : Thread nD τ) (Pipeline.ucRefs τ sig) (GenP.V30 m outs c) ∗ Erest 21 c))
    (R21 : RegionSeg (pcfgs (F := F)) GenP.adm pdats () defs₀ 𝒱₀ L lv 21)
    (hpre21 : ∀ c : Dev nD, iprop(StableHlo.held (c : Thread nD τ) (Pipeline.ucRefs τ sig) (GenP.V31 m outs c) ∗ Erest 21 c) ⊢ R21.pre c)
    (hpost21 : ∀ c : Dev nD, R21.post c ⊢ iprop(StableHlo.held (c : Thread nD τ) (Pipeline.ucRefs τ sig) (GenP.V32 m outs c) ∗ Erest 22 c)) :
    θ_run defs (onTc (τ := τ) (main (F := F))) ⟨m, fun _ => 0, ρ⟩ (fun r => ∀ c : Dev nD, ∀ b ∈ Pipeline.ucRefs τ sig, r.2.mem ((c : Thread nD τ).1, b) = GenP.V33 m outs c b) :=
  run_cond m EP () 𝒱₀ L lv hL ρ outs pdats O₀ G u₀ hu₀ Erest (hE0 ρ) hE22
    R0 hpre0 hpost0 R1 hpre1 hpost1 R2 hpre2 hpost2 R3 hpre3 hpost3 R4 hpre4 hpost4 R5 hpre5 hpost5 R6 hpre6 hpost6 R7 hpre7 hpost7 R8 hpre8 hpost8 R9 hpre9 hpost9 R10 hpre10 hpost10 R11 hpre11 hpost11 R12 hpre12 hpost12 R13 hpre13 hpost13 R14 hpre14 hpost14 R15 hpre15 hpost15 R16 hpre16 hpost16 R17 hpre17 hpost17 R18 hpre18 hpost18 R19 hpre19 hpost19 R20 hpre20 hpost20 R21 hpre21 hpost21

end Cert.KernelIdeal.Hand

end
-- ==== Proof.KI.R00Base.lean ====
/-
  Launch 0 of the program: one matrix product per grid point — the contraction is a single block —, from which the
  output block is stored at every point. The grid's third coordinate is always 0, so both conditions of the body —
  "the contraction's first block" and "its last block" — hold at every point: this module decides them over the
  grid's points, records that no window is ever idle, and names the staging memrefs the body is called with.
-/
import proofs.«113214_j66838281060556_2_alg».proof.Proof.Gen.KernelIdeal.Launch
import proofs.«113214_j66838281060556_2_alg».proof.Proof.Gen.KernelIdeal.Skeleton
import proofs.«113214_j66838281060556_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

/-- The accumulator is reset: the point starts a contraction (third grid coordinate 0). Here the third axis has one
    coordinate, so every point does. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) :=
  (by decide +kernel : ∀ t : Fin grid0.N, cond0_0 (grid0.coords t))

/-- The result is stored: the point ends a contraction. Every point does. -/
abbrev cond0_1 (i : grid0.Coords) : Prop := k0_cond2 i = 1#1
theorem hcond0_1 : ∀ t : Fin cfg0.N, cond0_1 (grid0.coords t) :=
  (by decide +kernel : ∀ t : Fin grid0.N, cond0_1 (grid0.coords t))

/-- No window is idle at any point: the two inputs never, the output because every point stores. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

/-- Each window's current staging memref at a point, as the pipeline passes it, and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x819 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x819 .bf16 := win0_2.stage (cfg0.slots t 2)
abbrev hs0_2 (t : Fin cfg0.N) : (ms0_2 t).IsWhole := hstage0_2 ((cfg0.slots t 2).cast nbuf0_2)
/-- The accumulator: a whole scoped buffer of the launch's own. -/
abbrev scM0 : Memref sig .tc .vmem S1024x819 .f32 := Memref.whole cc0_scratch0
abbrev VS0 : View sig .tc .vmem S1024x819 .f32 := scM0.view

end Cert.KernelIdeal.Hand

end
-- ==== Proof.KI.R00Run.lean ====
/-
  Launch 0, the body run symbolically in its one control case: the accumulator reset, the product added, the output
  block stored from the sum. The run's witnesses are the lists of pieces its stores leave in the output block and in
  the accumulator.
-/
import proofs.«113214_j66838281060556_2_alg».proof.Proof.KI.R00Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

set_option maxHeartbeats 2000000 in
/-- The body at a point, run symbolically: the accumulator, found at anything, is reset and ends at the product of
    the two input blocks added to it; the output block, found at anything, is stored whole from that sum. The
    witnesses are the pieces the stores leave in the output block and in the accumulator. -/
noncomputable def run0 (c : Dev nD) (i : grid0.Coords) (arg3 : Memref sig .tc .vmem S1024x1024 .f32) (harg3 : arg3.IsWhole) (arg4 : Memref sig .tc .vmem S1024x819 .f32) (harg4 : arg4.IsWhole) (arg5 : Memref sig .tc .vmem S1024x819 .bf16) (harg5 : arg5.IsWhole) (arg6 : Memref sig .tc .vmem S1024x819 .f32) (harg6 : arg6.IsWhole) (hc0 : cond0_0 i) (hc1 : cond0_1 i)
    (x0 : Vec F S1024x1024 .f32) (x1 : Vec F S1024x819 .f32) :
    Σ' (LO : List (View.Piece (Elt F) S1024x819 .bf16)), { LS : List (View.Piece (Elt F) S1024x819 .f32) //
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc0__mm_kernel i arg3 harg3 arg4 harg4 arg5 harg5 arg6 harg6) K } := by
  refine ⟨?_, ?_, fun E K => ?run⟩
  case run =>
    simp only [cc0__mm_kernel_eq_skeleton]; unfold cc0__mm_kernel_skel
    unfold owns
    iintro ⟨⟨%f0, %hf0, H0⟩, ⟨%f1, %hf1, H1⟩, ⟨%d2, %f2, -, H2⟩, ⟨%ds, %fs, -, HS⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact HS

end Cert.KernelIdeal.Hand

end
-- ==== Proof.KI.R00.lean ====
/-
  Launch 0 as a region of the program. The blocks the windows stage are read off the arrays as the region finds
  them; a point stores the output block its run leaves; the accumulator is reset at every point, so between points
  the launch's scoped buffers that no window stages are simply held whole at anything; the body obligation follows
  from the one symbolic run; and the region is stated over the thread state "every unscoped buffer at given
  contents, the core owing nothing", entered by splitting the three arrays out and left with the result's array
  at what the pipeline computes from the stored blocks.
-/
import proofs.«113214_j66838281060556_2_alg».proof.Proof.KI.R00Run
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

variable (V : (c : Dev nD) → (b : Ref sig .tc) → Buf (Elt F) ((c : Thread nD τ).loc b))

/-! ## The blocks the windows stage -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- A view of the output's staging buffer, through which contents are stated. -/
abbrev VO0 : View sig .tc .vmem S1024x819 .bf16 := (Memref.whole cc0_stg2_0 : Memref sig .tc .vmem S1024x819 .bf16).view

/-! ## What a point leaves -/

/-- The output block a point stores: what the run's pieces leave, read through the staging buffer's view. -/
def out0 (c : Dev nD) (t : Fin cfg0.N) : Vec F S1024x819 .bf16 :=
  VO0.read (Elt F) (VO0.writes (Elt F) VO0.junk (run0 c (grid0.coords t) (ms0_0 t) (hs0_0 t) (ms0_1 t) (hs0_1 t) (ms0_2 t) (hs0_2 t) scM0 (Memref.isWhole_whole _) (hcond0_0 t) (hcond0_1 t) (iblk0 V c 0 t) (iblk0 V c 1 t)).1)

/-- The stores into the output block cover it. -/
theorem coverO0 (c : Dev nD) (t : Fin cfg0.N) (y : S1024x819.Idx) :
    ∃ pc ∈ (run0 c (grid0.coords t) (ms0_0 t) (hs0_0 t) (ms0_1 t) (hs0_1 t) (ms0_2 t) (hs0_2 t) scM0 (Memref.isWhole_whole _) (hcond0_0 t) (hcond0_1 t) (iblk0 V c 0 t) (iblk0 V c 1 t)).1, y ∈ pc.1.set :=
  View.cover_of_tiledL _ S1024x819.size (by sl_kernel_rfl) y

/-! ## The invariant between points -/

/-- The scoped rest with the accumulator split out as a memref owned at some contents. The accumulator is reset at
    every point, so the invariant between points is the scoped rest itself, the accumulator at anything. -/
theorem scopedRest0_eq (c : Dev nD) :
    (Pipeline.scopedRest (Ix := Unit) (Name := ℕ) (U := UR sig nD τ × Counters) (Lvl := ℕ) (Val := Elt F) spec0 c : sProp 𝕄)
      = iprop((∃ d, owns (c : Thread nD τ) scM0 fullShare d)
          ∗ Pipeline.scopedRestBut (Ix := Unit) (Name := ℕ) (U := UR sig nD τ × Counters) (Lvl := ℕ) (Val := Elt F) spec0 c [cc0_scratch0]) := by
  rw [scopedRest0_split]; simp only [scM0, owns_whole]; try rfl

/-! ## The proof data -/

def dat0 (c : Dev nD) : Dat τ (Elt F) Unit ℕ (UR sig nD τ × Counters) ℕ cfg0 c where
  A w := V c (Pipeline.arrRef spec0 w)
  after w t := match w with
    | ⟨0, _⟩ => iblk0 V c 0 t
    | ⟨1, _⟩ => iblk0 V c 1 t
    | ⟨2, _⟩ => out0 V c t
  Φ _ := Pipeline.scopedRest (Ix := Unit) (Name := ℕ) (U := UR sig nD τ × Counters) (Lvl := ℕ) (Val := Elt F) spec0 c
  q _ := fullShare
  owed _ := 0

theorem A0_eq (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 V c t := by dsimp only [dat0]

/-- Each input window's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A0_eq]; try rfl) t d).trans
    (by unfold Dat.fetched Dat.blockOf iblk0; rw [A0_eq]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A0_eq]; try rfl) t d).trans
    (by unfold Dat.fetched Dat.blockOf iblk0; rw [A0_eq]; try rfl)

/-! ## The body obligation at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t)

set_option maxHeartbeats 4000000 in
/-- The body at any point. The two input buffers hold their blocks; the invariant hands over the accumulator at
    anything and takes it back at anything; the output buffer, found at anything, is handed back at the block the
    point stores; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Pipeline.scopedRest (Ix := Unit) (Name := ℕ) (U := UR sig nD τ × Counters) (Lvl := ℕ) (Val := Elt F) spec0 c from rfl,
    show (dat0 V c).Φ t.castSucc = Pipeline.scopedRest (Ix := Unit) (Name := ℕ) (U := UR sig nD τ × Counters) (Lvl := ℕ) (Val := Elt F) spec0 c from rfl]
  rw [show (dat0 V c).leavesExact 0 t = owns (c : Thread nD τ) (ms0_0 t) fullShare (iblk0 V c 0 t) from by
    unfold Dat.leavesExact; rw [liveAt0_0 t, after0_0]]
  rw [show (dat0 V c).leavesExact 1 t = owns (c : Thread nD τ) (ms0_1 t) fullShare (iblk0 V c 1 t) from by
    unfold Dat.leavesExact; rw [liveAt0_1 t, after0_1]]
  rw [show (dat0 V c).leavesExact 2 t = owns (c : Thread nD τ) (ms0_2 t) fullShare (out0 V c t) from by
    unfold Dat.leavesExact; rw [liveAt0_2 t, after0_2]]
  rw [scopedRest0_eq]
  unfold out0
  iintro ⟨⟨HS, Hb⟩, Ho, ⟨%d0, H0⟩, ⟨%d1, H1⟩, ⟨%d2, H2⟩⟩
  iapply ((run0 c (grid0.coords t) (ms0_0 t) (hs0_0 t) (ms0_1 t) (hs0_1 t) (ms0_2 t) (hs0_2 t) scM0 (Memref.isWhole_whole _) (hcond0_0 t) (hcond0_1 t) (iblk0 V c 0 t) (iblk0 V c 1 t)).2.2 Set.univ _)
  isplitl [H0]; · iexact H0
  isplitl [H1]; · iexact H1
  isplitl [H2]; · iexists _; iexact H2
  isplitl [HS]; · iexact HS
  iintro ⟨H0, H1, ⟨%e2, H2⟩, ⟨%es, HS⟩⟩
  isplitl [HS Hb]
  · isplitl [HS]
    · iexists _; unfold owns; iexists _; isplitr
      swap; · iexact HS
      ipureintro; rfl
    iexact Hb
  isplitl [Ho]; · iexact Ho
  isplitl [H0]; · iexact H0
  isplitl [H1]; · iexact H1
  unfold owns; iexists _; isplitr
  swap; · iexact H2
  ipureintro; exact View.read_writes_of_cover _ _ _ _ _ (coverO0 V c t)

theorem body_obligation0 (c : Dev nD) : BodyObligation (dat0 V c) (defs₀ (F := F)) Variants.none () Set.univ := fun t => by
  rw [bigSep_W0, bigSep_W0]
  exact sound_body0 V c t

/-! ## The region over the thread state -/

variable (Vp : (c : Dev nD) → (b : Ref sig .tc) → Buf (Elt F) ((c : Thread nD τ).loc b))
variable (pdats : (p : Fin 22) → (c : Dev nD) → Dat τ (Elt F) Unit ℕ (UR sig nD τ × Counters) ℕ (cfgs p) c)

/-- The result's array after the region, as the pipeline library computes it from the proof data. -/
def out0arr (c : Dev nD) : Buf (Elt F) ((c : Thread nD τ).loc main_v2) := (dat0 V c).arrAt 2 cfg0.N

set_option backward.isDefEq.respectTransparency.types false in
set_option maxHeartbeats 2000000 in
/-- Launch 0 over the thread state "every unscoped buffer at `V c`, the core owing nothing": entered by
    splitting its three arrays out of the unscoped buffers, left with them put back at `Vp c`, which has the
    result's array at `out0arr` and agrees with `V c` elsewhere. -/
def reg0 (hp : ∀ c, pdats 0 c = dat0 V c)
    (hVp_out : ∀ c, Vp c main_v2 = out0arr V c)
    (hVp_ne : ∀ c (b : Ref sig .tc), b ≠ main_v2 → Vp c b = V c b) :
    Pipeline.RegionSeg (pcfgs (F := F)) (fun p => (cfgs p).toPCfg_adm) pdats () defs₀ Variants.none (fun _ => (∅ : Finset Unit)) (fun _ _ => (0 : ℕ)) 0 where
  win := launch0.win.to₀
  block_pos := launch0.block_pos
  stage_whole := launch0.stage_whole
  K := PEmpty
  osem k := k.elim
  ho := Pipeline.OwnSemFacts.none _
  hbody c := by rw [hp c]; exact (body_obligation0 V c).loose
  hwaits := Pipeline.hwaits_of_owed_zero _ _ _ _ _ _ 0 fun c t => by rw [hp c]; rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ × Counters) (Lvl := ℕ) spec0 c (V c)
  hentry c := by
    rw [Pipeline.ownSems0_none]
    have hsplit := Pipeline.arrays_of_unscopedBufs (p := 0) (pcfgs (F := F)) (fun p => (cfgs p).toPCfg_adm) pdats launch0.win launch0.arr_whole c
      ((pdats 0 c).share_full fun w => by rw [hp c]; rfl) (V c) (fun w => by rw [hp c]; rfl)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hp c]; exact trivial)
      rw [show (pdats 0 c).owed 0 = 0 from by rw [hp c]; rfl]
      iexact HO
    isplitr; · iempintro
    iexact Hrest
  hin c := by
    rw [hp c, show (dat0 V c).Φ 0 = Pipeline.scopedRest (Ix := Unit) (Name := ℕ) (U := UR sig nD τ × Counters) (Lvl := ℕ) (Val := Elt F) spec0 c from rfl]
    iintro ⟨-, -, Hr⟩; iexact Hr
  hout c := by
    rw [Pipeline.ownSems0_none, hp c]
    change (Pipeline.scopedRest (Ix := Unit) (Name := ℕ) (U := UR sig nD τ × Counters) (Lvl := ℕ) (Val := Elt F) spec0 c : sProp 𝕄) ⊢ _
    iintro Hr
    isplitr; · iempintro
    isplitr; · iempintro
    iexact Hr
  hexit c := by
    have hjoin := Pipeline.unscopedBufs_of_arrays (p := 0) (pcfgs (F := F)) (fun p => (cfgs p).toPCfg_adm) (Ix := Unit) (Name := ℕ) (U := UR sig nD τ × Counters) (Lvl := ℕ) launch0.win launch0.arr_whole c
      pdats ((pdats 0 c).share_full fun w => by rw [hp c]; rfl) (V c) (Vp c) ((pdats 0 c).arrAt · cfg0.N)
      (fun w => by
        fin_cases w
        · exact (((pdats 0 c).arrAt_in 0 rfl _).trans (by rw [hp c]; rfl)).trans (hVp_ne c main_arg0 (by decide)).symm
        · exact (((pdats 0 c).arrAt_in 1 rfl _).trans (by rw [hp c]; rfl)).trans (hVp_ne c main_arg5 (by decide)).symm
        · exact (by rw [hp c]; rfl : (pdats 0 c).arrAt 2 cfg0.N = out0arr V c).trans (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W
    rw [show (pdats 0 c).owed (Fin.last _) = 0 from by rw [hp c]; rfl]
    iexact HO

end Cert.KernelIdeal.Hand

end
-- ==== Proof.KI.R01Base.lean ====
/-
  Launch 1 of the program: a matrix product accumulated over the third grid axis (grid 4 × 1 × 4: four row blocks,
  four contraction blocks), a bias row added and tanh applied when the
  last block has been added. This module names the two conditions of the body on the grid point — "the
  contraction's first block" (third coordinate 0) and "its last block" (third coordinate 3) —, decides them
  over the sixteen points, and records where the output window is idle and where its block is written back.
-/
import proofs.«113214_j66838281060556_2_alg».proof.Proof.Gen.KernelIdeal.Launch
import proofs.«113214_j66838281060556_2_alg».proof.Proof.Gen.KernelIdeal.Skeleton
import proofs.«113214_j66838281060556_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

/-- The accumulator is reset: the point starts a contraction (third grid coordinate 0). -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The result is stored: the point ends a contraction (third grid coordinate 3). -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-- The three input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from a contraction's last block the output window is idle and its block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At a contraction's last block the output window is live. -/
theorem liveAt1_3 : ∀ t : Fin cfg1.N, cond1_1 (grid1.coords t) → cfg1.idle 3 (grid1.coords t) = false := by decide +kernel

/-- Each window's current staging memref at a point, as the pipeline passes it, and its wholeness. -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x819 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x819 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x819 .f32 := win1_3.stage (cfg1.slots t 3)
abbrev hs1_3 (t : Fin cfg1.N) : (ms1_3 t).IsWhole := hstage1_3 ((cfg1.slots t 3).cast nbuf1_3)
/-- The accumulator: a whole scoped buffer of the launch's own. -/
abbrev scM1 : Memref sig .tc .vmem S1024x819 .f32 := Memref.whole cc1_scratch0
abbrev VS1 : View sig .tc .vmem S1024x819 .f32 := scM1.view

end Cert.KernelIdeal.Hand

end
-- ==== Proof.KI.R01Run.lean ====
/-
  Launch 1, the body run symbolically in each of its three control cases: the first block of a contraction
  (the accumulator reset, then the first product added), a middle block (the product added), the last block
  (the product added, then the bias row added and tanh applied into the output block). Each run's witness is
  the list of pieces its stores leave in the accumulator (and, in the last case, in the output block).
-/
import proofs.«113214_j66838281060556_2_alg».proof.Proof.KI.R01Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

set_option maxHeartbeats 2000000 in
/-- The first block of a contraction that is not also its last: the accumulator, found at anything, is reset to
    zero and ends at the product of the two input blocks added to zero; the bias block and the idle output
    block are handed back untouched. -/
noncomputable def run1_A (c : Dev nD) (i : grid1.Coords) (arg3 : Memref sig .tc .vmem S1024x1024 .bf16) (harg3 : arg3.IsWhole) (arg4 : Memref sig .tc .vmem S1024x819 .bf16) (harg4 : arg4.IsWhole) (arg5 : Memref sig .tc .vmem S1x819 .f32) (harg5 : arg5.IsWhole) (arg6 : Memref sig .tc .vmem S1024x819 .f32) (harg6 : arg6.IsWhole) (arg7 : Memref sig .tc .vmem S1024x819 .f32) (harg7 : arg7.IsWhole) (hc0 : cond1_0 i) (hc1 : ¬cond1_1 i)
    (x0 : Vec F S1024x1024 .bf16) (x1 : Vec F S1024x819 .bf16) (x2 : Vec F S1x819 .f32) :
    { LS : List (View.Piece (Elt F) S1024x819 .f32) //
      ∀ (xi : Vec F S1024x819 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc1__mm_kernel i arg3 harg3 arg4 harg4 arg5 harg5 arg6 harg6 arg7 harg7) K } := by
  refine ⟨?_, fun xi E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2
    obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 2000000 in
/-- A middle block of a contraction (neither condition holds): the accumulator, found at `xs`, ends at the
    product of the two input blocks added to `xs`; the bias block and the idle output block are handed back
    untouched. The pieces written into the accumulator are the witness the symbolic run finds. -/
noncomputable def run1_B (c : Dev nD) (i : grid1.Coords) (arg3 : Memref sig .tc .vmem S1024x1024 .bf16) (harg3 : arg3.IsWhole) (arg4 : Memref sig .tc .vmem S1024x819 .bf16) (harg4 : arg4.IsWhole) (arg5 : Memref sig .tc .vmem S1x819 .f32) (harg5 : arg5.IsWhole) (arg6 : Memref sig .tc .vmem S1024x819 .f32) (harg6 : arg6.IsWhole) (arg7 : Memref sig .tc .vmem S1024x819 .f32) (harg7 : arg7.IsWhole) (hc0 : ¬cond1_0 i) (hc1 : ¬cond1_1 i)
    (x0 : Vec F S1024x1024 .bf16) (x1 : Vec F S1024x819 .bf16) (x2 : Vec F S1x819 .f32) (xs : Vec F S1024x819 .f32) :
    { LS : List (View.Piece (Elt F) S1024x819 .f32) //
      ∀ (xi : Vec F S1024x819 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi ∗ owns (c : Thread nD τ) arg7 fullShare xs
            ∗ (iprop(owns (c : Thread nD τ) arg3 fullShare x0 ∗ owns (c : Thread nD τ) arg4 fullShare x1 ∗ owns (c : Thread nD τ) arg5 fullShare x2
                ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc1__mm_kernel i arg3 harg3 arg4 harg4 arg5 harg5 arg6 harg6 arg7 harg7) K } := by
  refine ⟨?_, fun xi E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 2000000 in
/-- The last block of a contraction that is not also its first: the accumulator, found at `xs`, ends at the
    product of the two input blocks added to `xs`, and the output block, found at anything, is stored whole:
    tanh of that sum plus the bias row. -/
noncomputable def run1_C (c : Dev nD) (i : grid1.Coords) (arg3 : Memref sig .tc .vmem S1024x1024 .bf16) (harg3 : arg3.IsWhole) (arg4 : Memref sig .tc .vmem S1024x819 .bf16) (harg4 : arg4.IsWhole) (arg5 : Memref sig .tc .vmem S1x819 .f32) (harg5 : arg5.IsWhole) (arg6 : Memref sig .tc .vmem S1024x819 .f32) (harg6 : arg6.IsWhole) (arg7 : Memref sig .tc .vmem S1024x819 .f32) (harg7 : arg7.IsWhole) (hc0 : ¬cond1_0 i) (hc1 : cond1_1 i)
    (x0 : Vec F S1024x1024 .bf16) (x1 : Vec F S1024x819 .bf16) (x2 : Vec F S1x819 .f32) (xs : Vec F S1024x819 .f32) :
    Σ' (LO : List (View.Piece (Elt F) S1024x819 .f32)), { LS : List (View.Piece (Elt F) S1024x819 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LS)) -∗ K ⟨⟩))
          ⊢ wp frame (wpE (defs₀ (F := F)) Variants.none c none) E (cc1__mm_kernel i arg3 harg3 arg4 harg4 arg5 harg5 arg6 harg6 arg7 harg7) K } := by
  refine ⟨?_, ?_, fun E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2
    obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    iexists _; iexact HS

end Cert.KernelIdeal.Hand

end
-- ==== Proof.KI.R01.lean ====
/-
  Launch 1 as a segment of the program: tanh(A·B + bias) with A a graph matrix, B the right
  factor and a bias row, computed block by block on the grid 4 × 1 × 4 with an accumulator carried along the
  contraction. What the accumulator and the output block hold after each point is defined by recursion on the
  point (the first block of a contraction resets, a middle block adds, the last block adds and stores tanh of the
  sum plus the bias); the invariant between points is the accumulator at that value beside the launch's other
  scoped buffers; the proof data states each window's block after the body; the body obligation is the three
  symbolic runs put together by cases on the point's position in its contraction; and the segment record enters
  the launch from a thread state holding every unscoped buffer at an entry valuation and leaves it at the
  valuation updated at the result's array.
-/
import proofs.«113214_j66838281060556_2_alg».proof.Proof.KI.R01Run
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

variable (V : (c : Dev nD) → (b : Ref sig .tc) → Buf (Elt F) ((c : Thread nD τ).loc b))

/-! ## The blocks the windows stage -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- A view of the output's staging buffer and one of the accumulator, through which contents are stated. -/
abbrev VO1 : View sig .tc .vmem S1024x819 .f32 := (Memref.whole cc1_stg3_0 : Memref sig .tc .vmem S1024x819 .f32).view

/-! ## What each case leaves -/

/-- The accumulator after a first block. -/
def accA1 (c : Dev nD) (t : Fin cfg1.N) (h0 : t.val % 4 = 0) (h1 : ¬t.val % 4 = 3) : Vec F S1024x819 .f32 :=
  VS1.read (Elt F) (VS1.writes (Elt F) VS1.junk (run1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)).1)
/-- The accumulator after a middle block, from what the point before left. -/
def accB1 (c : Dev nD) (t : Fin cfg1.N) (h0 : ¬t.val % 4 = 0) (h1 : ¬t.val % 4 = 3) (xs : Vec F S1024x819 .f32) : Vec F S1024x819 .f32 :=
  VS1.read (Elt F) (VS1.writes (Elt F) VS1.junk (run1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) xs).1)
/-- The accumulator after a last block, -/
def accC1 (c : Dev nD) (t : Fin cfg1.N) (h0 : ¬t.val % 4 = 0) (h1 : t.val % 4 = 3) (xs : Vec F S1024x819 .f32) : Vec F S1024x819 .f32 :=
  VS1.read (Elt F) (VS1.writes (Elt F) VS1.junk (run1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) xs).2.1)
/-- and the output block stored there. -/
def outC1 (c : Dev nD) (t : Fin cfg1.N) (h0 : ¬t.val % 4 = 0) (h1 : t.val % 4 = 3) (xs : Vec F S1024x819 .f32) : Vec F S1024x819 .f32 :=
  VO1.read (Elt F) (VO1.writes (Elt F) VO1.junk (run1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) xs).1)

theorem coverA1 (c : Dev nD) (t : Fin cfg1.N) (h0 : t.val % 4 = 0) (h1 : ¬t.val % 4 = 3) (y : S1024x819.Idx) :
    ∃ pc ∈ (run1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)).1, y ∈ pc.1.set :=
  View.cover_of_tiledL _ S1024x819.size (by sl_kernel_rfl) y
theorem coverB1 (c : Dev nD) (t : Fin cfg1.N) (h0 : ¬t.val % 4 = 0) (h1 : ¬t.val % 4 = 3) (xs : Vec F S1024x819 .f32) (y : S1024x819.Idx) :
    ∃ pc ∈ (run1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) xs).1, y ∈ pc.1.set :=
  View.cover_of_tiledL _ S1024x819.size (by sl_kernel_rfl) y
theorem coverCs1 (c : Dev nD) (t : Fin cfg1.N) (h0 : ¬t.val % 4 = 0) (h1 : t.val % 4 = 3) (xs : Vec F S1024x819 .f32) (y : S1024x819.Idx) :
    ∃ pc ∈ (run1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) xs).2.1, y ∈ pc.1.set :=
  View.cover_of_tiledL _ S1024x819.size (by sl_kernel_rfl) y
theorem coverCo1 (c : Dev nD) (t : Fin cfg1.N) (h0 : ¬t.val % 4 = 0) (h1 : t.val % 4 = 3) (xs : Vec F S1024x819 .f32) (y : S1024x819.Idx) :
    ∃ pc ∈ (run1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) xs).1, y ∈ pc.1.set :=
  View.cover_of_tiledL _ S1024x819.size (by sl_kernel_rfl) y

/-! ## The accumulation, point by point -/

/-- What the output's staging buffer (first component; meaningful at a contraction's last block only) and the
    accumulator (second component) hold after the body at position `n`. -/
def outsAt1 (c : Dev nD) : (n : ℕ) → n < cfg1.N → Vec F S1024x819 .f32 × Vec F S1024x819 .f32
  | 0, hn => (VO1.read (Elt F) VO1.junk, accA1 V c ⟨0, hn⟩ (Nat.zero_mod _) (by simp))
  | n + 1, hn =>
    if h0 : (n + 1) % 4 = 0 then
      if h1 : (n + 1) % 4 = 3 then False.elim (by omega)
      else (VO1.read (Elt F) VO1.junk, accA1 V c ⟨n + 1, hn⟩ h0 h1)
    else
      if h1 : (n + 1) % 4 = 3 then
        (outC1 V c ⟨n + 1, hn⟩ h0 h1 (outsAt1 c n (Nat.lt_of_succ_lt hn)).2, accC1 V c ⟨n + 1, hn⟩ h0 h1 (outsAt1 c n (Nat.lt_of_succ_lt hn)).2)
      else
        (VO1.read (Elt F) VO1.junk, accB1 V c ⟨n + 1, hn⟩ h0 h1 (outsAt1 c n (Nat.lt_of_succ_lt hn)).2)

theorem outsAt1_A (c : Dev nD) (t : Fin cfg1.N) (h0 : t.val % 4 = 0) (h1 : ¬t.val % 4 = 3) :
    outsAt1 V c t.val t.isLt = (VO1.read (Elt F) VO1.junk, accA1 V c t h0 h1) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (VO1.read (Elt F) VO1.junk, accB1 V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (outC1 V c t h0 h1 (outsAt1 V c (t.val - 1) (Nat.lt_of_le_of_lt (Nat.sub_le _ _) t.isLt)).2,
      accC1 V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant between points -/

/-- Before the first point the launch's scoped buffers that no window stages, whole; afterwards the accumulator at
    what the point before left, and the other such buffers unopened. -/
def PhiS1 (c : Dev nD) : (n : ℕ) → n ≤ cfg1.N → sProp 𝕄
  | 0, _ => Pipeline.scopedRest (Ix := Unit) (Name := ℕ) (U := UR sig nD τ × Counters) (Lvl := ℕ) (Val := Elt F) spec1 c
  | n + 1, hn => iprop(owns (c : Thread nD τ) scM1 fullShare (outsAt1 V c n hn).2
      ∗ Pipeline.scopedRestBut (Ix := Unit) (Name := ℕ) (U := UR sig nD τ × Counters) (Lvl := ℕ) (Val := Elt F) spec1 c [cc1_scratch0])

theorem PhiS1_pos (c : Dev nD) (n : ℕ) (h : n ≤ cfg1.N) (hz : n ≠ 0) :
    PhiS1 V c n h = iprop(owns (c : Thread nD τ) scM1 fullShare (outsAt1 V c (n - 1) (by omega)).2
      ∗ Pipeline.scopedRestBut (Ix := Unit) (Name := ℕ) (U := UR sig nD τ × Counters) (Lvl := ℕ) (Val := Elt F) spec1 c [cc1_scratch0]) := by
  cases n with
  | zero => exact absurd rfl hz
  | succ n => rfl

/-- The scoped rest with the accumulator split out as a memref owned at some contents. -/
theorem scopedRest1_eq (c : Dev nD) :
    (Pipeline.scopedRest (Ix := Unit) (Name := ℕ) (U := UR sig nD τ × Counters) (Lvl := ℕ) (Val := Elt F) spec1 c : sProp 𝕄)
      = iprop((∃ d, owns (c : Thread nD τ) scM1 fullShare d)
          ∗ Pipeline.scopedRestBut (Ix := Unit) (Name := ℕ) (U := UR sig nD τ × Counters) (Lvl := ℕ) (Val := Elt F) spec1 c [cc1_scratch0]) := by
  rw [scopedRest1_split]; simp only [scM1, owns_whole]; try rfl

/-! ## The proof data -/

def dat1 (c : Dev nD) : Dat τ (Elt F) Unit ℕ (UR sig nD τ × Counters) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A1_eq (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem Phi1_castSucc (c : Dev nD) (t : Fin cfg1.N) :
    (dat1 V c).Φ t.castSucc = PhiS1 V c t.val (Nat.le_of_lt t.isLt) := by
  dsimp only [dat1]; simp only [Fin.coe_castSucc]

/-- Each input window's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A1_eq]; try rfl) t d).trans
    (by unfold Dat.fetched Dat.blockOf iblk1; rw [A1_eq]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A1_eq]; try rfl) t d).trans
    (by unfold Dat.fetched Dat.blockOf iblk1; rw [A1_eq]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A1_eq]; try rfl) t d).trans
    (by unfold Dat.fetched Dat.blockOf iblk1; rw [A1_eq]; try rfl)

/-! ## The body obligation at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4000000 in
/-- The body at any point. The three input buffers hold their blocks; the point's position in its contraction
    selects the case; the invariant hands over the accumulator (at anything before the very first point, else at
    what the point before left) and takes it back at this point's contents; an idle output buffer is handed back
    as found, a stored one at the case's block; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = iprop(owns (c : Thread nD τ) scM1 fullShare (outsAt1 V c t.val t.isLt).2
      ∗ Pipeline.scopedRestBut (Ix := Unit) (Name := ℕ) (U := UR sig nD τ × Counters) (Lvl := ℕ) (Val := Elt F) spec1 c [cc1_scratch0]) from rfl]
  have hN : t.val < 16 := lt_of_lt_of_eq t.isLt (show cfg1.N = 16 from N_1)
  rw [show (dat1 V c).leavesExact 0 t = owns (c : Thread nD τ) (ms1_0 t) fullShare (iblk1 V c 0 t) from by
    unfold Dat.leavesExact; rw [liveAt1_0 t, after1_0]]
  rw [show (dat1 V c).leavesExact 1 t = owns (c : Thread nD τ) (ms1_1 t) fullShare (iblk1 V c 1 t) from by
    unfold Dat.leavesExact; rw [liveAt1_1 t, after1_1]]
  rw [show (dat1 V c).leavesExact 2 t = owns (c : Thread nD τ) (ms1_2 t) fullShare (iblk1 V c 2 t) from by
    unfold Dat.leavesExact; rw [liveAt1_2 t, after1_2]]
  rw [Phi1_castSucc V c t]
  by_cases h1 : t.val % 4 = 3
  · -- the last block of a contraction
    have h0 : ¬t.val % 4 = 0 := by omega
    have hz : t.val ≠ 0 := by omega
    rw [show (dat1 V c).leavesExact 3 t = owns (c : Thread nD τ) (ms1_3 t) fullShare (outsAt1 V c t.val t.isLt).1 from by
      unfold Dat.leavesExact; rw [liveAt1_3 t ((hcond1_1 t).mpr h1), after1_3]]
    rw [outsAt1_C V c t h0 h1, PhiS1_pos V c _ _ hz]
    dsimp only
    unfold outC1 accC1
    iintro ⟨⟨HS, Hb⟩, Ho, ⟨%d0, H0⟩, ⟨%d1, H1⟩, ⟨%d2, H2⟩, ⟨%d3, H3⟩⟩
    iapply ((run1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hb]
    · isplitl [HS]
      · unfold owns; iexists _; isplitr
        swap; · iexact HS
        ipureintro; exact View.read_writes_of_cover _ _ _ _ _ (coverCs1 V c t h0 h1 _)
      iexact Hb
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverCo1 V c t h0 h1 _)
  · rw [Dat.leavesExact_idle (dat1 V c) 3 t (idleAt1_3 t (fun h => h1 ((hcond1_1 t).mp h))) (noFlush1_3 t (fun h => h1 ((hcond1_1 t).mp h)))]
    by_cases h0 : t.val % 4 = 0
    · -- the first block of a contraction
      rw [outsAt1_A V c t h0 h1]
      dsimp only
      unfold accA1
      by_cases hz : t.val = 0
      · rw [show PhiS1 V c t.val (Nat.le_of_lt t.isLt) = Pipeline.scopedRest (Ix := Unit) (Name := ℕ) (U := UR sig nD τ × Counters) (Lvl := ℕ) (Val := Elt F) spec1 c from by
          obtain ⟨n, hn⟩ := t; dsimp only at hz; subst hz; rfl, scopedRest1_eq]
        iintro ⟨⟨HS, Hb⟩, Ho, ⟨%d0, H0⟩, ⟨%d1, H1⟩, ⟨%d2, H2⟩, ⟨%d3, H3⟩⟩
        iapply ((run1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)).2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hb]
        · isplitl [HS]
          · unfold owns; iexists _; isplitr
            swap; · iexact HS
            ipureintro; exact View.read_writes_of_cover _ _ _ _ _ (coverA1 V c t h0 h1)
          iexact Hb
        isplitl [Ho]; · iexact Ho
        isplitl [H0]; · iexact H0
        isplitl [H1]; · iexact H1
        isplitl [H2]; · iexact H2
        iexists _; iexact H3
      · rw [PhiS1_pos V c _ _ hz]
        iintro ⟨⟨HS, Hb⟩, Ho, ⟨%d0, H0⟩, ⟨%d1, H1⟩, ⟨%d2, H2⟩, ⟨%d3, H3⟩⟩
        iapply ((run1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)).2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hb]
        · isplitl [HS]
          · unfold owns; iexists _; isplitr
            swap; · iexact HS
            ipureintro; exact View.read_writes_of_cover _ _ _ _ _ (coverA1 V c t h0 h1)
          iexact Hb
        isplitl [Ho]; · iexact Ho
        isplitl [H0]; · iexact H0
        isplitl [H1]; · iexact H1
        isplitl [H2]; · iexact H2
        iexists _; iexact H3
    · -- a middle block
      have hz : t.val ≠ 0 := by omega
      rw [outsAt1_B V c t h0 h1, PhiS1_pos V c _ _ hz]
      dsimp only
      unfold accB1
      iintro ⟨⟨HS, Hb⟩, Ho, ⟨%d0, H0⟩, ⟨%d1, H1⟩, ⟨%d2, H2⟩, ⟨%d3, H3⟩⟩
      iapply ((run1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hb]
      · isplitl [HS]
        · unfold owns; iexists _; isplitr
          swap; · iexact HS
          ipureintro; exact View.read_writes_of_cover _ _ _ _ _ (coverB1 V c t h0 h1 _)
        iexact Hb
      isplitl [Ho]; · iexact Ho
      isplitl [H0]; · iexact H0
      isplitl [H1]; · iexact H1
      isplitl [H2]; · iexact H2
      iexists _; iexact H3

theorem body_obligation1 (c : Dev nD) : BodyObligation (dat1 V c) (defs₀ (F := F)) Variants.none () Set.univ := fun t => by
  rw [bigSep_W1, bigSep_W1]
  exact sound_body1 V c t

/-! ## The region over the thread state -/

variable (Vp : (c : Dev nD) → (b : Ref sig .tc) → Buf (Elt F) ((c : Thread nD τ).loc b))
variable (pdats : (p : Fin 22) → (c : Dev nD) → Dat τ (Elt F) Unit ℕ (UR sig nD τ × Counters) ℕ (cfgs p) c)

/-- The result's array after the region, as the pipeline library computes it from the proof data. -/
def out1 (c : Dev nD) : Buf (Elt F) ((c : Thread nD τ).loc main_v4) := (dat1 V c).arrAt 3 cfg1.N

set_option backward.isDefEq.respectTransparency.types false in
set_option maxHeartbeats 2000000 in
/-- Launch 1 over the thread state "every unscoped buffer at `V c`, the core owing nothing": entered by
    splitting its four arrays out of the unscoped buffers, left with them put back at `Vp c`, which has the
    result's array at `out1` and agrees with `V c` elsewhere. -/
def reg1 (hp : ∀ c, pdats 1 c = dat1 V c)
    (hVp_out : ∀ c, Vp c main_v4 = out1 V c)
    (hVp_ne : ∀ c (b : Ref sig .tc), b ≠ main_v4 → Vp c b = V c b) :
    Pipeline.RegionSeg (pcfgs (F := F)) (fun p => (cfgs p).toPCfg_adm) pdats () defs₀ Variants.none (fun _ => (∅ : Finset Unit)) (fun _ _ => (0 : ℕ)) 1 where
  win := launch1.win.to₀
  block_pos := launch1.block_pos
  stage_whole := launch1.stage_whole
  K := PEmpty
  osem k := k.elim
  ho := Pipeline.OwnSemFacts.none _
  hbody c := by rw [hp c]; exact (body_obligation1 V c).loose
  hwaits := Pipeline.hwaits_of_owed_zero _ _ _ _ _ _ 1 fun c t => by rw [hp c]; rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ × Counters) (Lvl := ℕ) spec1 c (V c)
  hentry c := by
    rw [Pipeline.ownSems0_none]
    have hsplit := Pipeline.arrays_of_unscopedBufs (p := 1) (pcfgs (F := F)) (fun p => (cfgs p).toPCfg_adm) pdats launch1.win launch1.arr_whole c
      ((pdats 1 c).share_full fun w => by rw [hp c]; rfl) (V c) (fun w => by rw [hp c]; rfl)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hp c]
      unfold Pipeline.Dat.owesAt Pipeline.owesWithin
      icases HO with ⟨%W, HO⟩; iexists W; isplitr; · ipureintro; exact fun _ _ => Or.inl trivial
      iexact HO
    isplitr; · iempintro
    iexact Hrest
  hin c := by
    rw [hp c, show (dat1 V c).Φ 0 = Pipeline.scopedRest (Ix := Unit) (Name := ℕ) (U := UR sig nD τ × Counters) (Lvl := ℕ) (Val := Elt F) spec1 c from rfl]
    iintro ⟨-, -, Hr⟩; iexact Hr
  hout c := by
    rw [Pipeline.ownSems0_none, hp c]
    refine (Entails.of_eq ((show (dat1 V c).Φ (Fin.last _) = PhiS1 V c (Fin.last cfg1.N).val (Nat.le_of_lt_succ (Fin.last cfg1.N).isLt) from rfl).trans
      (PhiS1_pos V c _ _ (by rw [Fin.val_last]; have : cfg1.N = 16 := N_1; omega)))).trans ?_
    change _ ⊢ iprop(BI.emp ∗ BI.emp ∗ Pipeline.scopedRest (Ix := Unit) (Name := ℕ) (U := UR sig nD τ × Counters) (Lvl := ℕ) (Val := Elt F) spec1 c)
    rw [scopedRest1_eq]
    iintro ⟨HS, Hb⟩
    isplitr; · iempintro
    isplitr; · iempintro
    isplitl [HS]; · iexists _; iexact HS
    iexact Hb
  hexit c := by
    have hjoin := Pipeline.unscopedBufs_of_arrays (p := 1) (pcfgs (F := F)) (fun p => (cfgs p).toPCfg_adm) (Ix := Unit) (Name := ℕ) (U := UR sig nD τ × Counters) (Lvl := ℕ) launch1.win launch1.arr_whole c
      pdats ((pdats 1 c).share_full fun w => by rw [hp c]; rfl) (V c) (Vp c) ((pdats 1 c).arrAt · cfg1.N)
      (fun w => by
        fin_cases w
        · exact (((pdats 1 c).arrAt_in 0 rfl _).trans (by rw [hp c]; rfl)).trans (hVp_ne c main_v0 (by decide)).symm
        · exact (((pdats 1 c).arrAt_in 1 rfl _).trans (by rw [hp c]; rfl)).trans (hVp_ne c main_v2 (by decide)).symm
        · exact (((pdats 1 c).arrAt_in 2 rfl _).trans (by rw [hp c]; rfl)).trans (hVp_ne c main_v3 (by decide)).symm
        · exact (by rw [hp c]; rfl : (pdats 1 c).arrAt 3 cfg1.N = out1 V c).trans (hVp_out c).symm)
      (fun b hb => hVp_ne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W
    rw [show (pdats 1 c).owed (Fin.last _) = 0 from by rw [hp c]; rfl]
    iexact HO

end Cert.KernelIdeal.Hand

end
-- ==== Proof.KI.R02Base.lean ====
/-
  Launch 2 of the program: a matrix product accumulated over the third grid axis (grid 4 × 1 × 4: four row blocks,
  four contraction blocks), stored — with no bias and no activation — when
  the last block has been added. This module names the two conditions of the body on the grid point ("the
  contraction's first block", "its last block"), decides them over the sixteen points, and records where the
  output window is idle and where its block is written back.
-/
import proofs.«113214_j66838281060556_2_alg».proof.Proof.Gen.KernelIdeal.Launch
import proofs.«113214_j66838281060556_2_alg».proof.Proof.Gen.KernelIdeal.Skeleton
import proofs.«113214_j66838281060556_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

/-- The accumulator is reset: the point starts a contraction (third grid coordinate 0). -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- The result is stored: the point ends a contraction (third grid coordinate 3). -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-- The two input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
/-- Away from a contraction's last block the output window is idle and its block is not written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
/-- At a contraction's last block the output window is live. -/
theorem liveAt2_2 : ∀ t : Fin cfg2.N, cond2_1 (grid2.coords t) → cfg2.idle 2 (grid2.coords t) = false := by decide +kernel

/-- Each window's current staging memref at a point, as the pipeline passes it, and its wholeness. -/
abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x819 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x819 .bf16 := win2_2.stage (cfg2.slots t 2)
abbrev hs2_2 (t : Fin cfg2.N) : (ms2_2 t).IsWhole := hstage2_2 ((cfg2.slots t 2).cast nbuf2_2)
/-- The accumulator: a whole scoped buffer of the launch's own. -/
abbrev scM2 : Memref sig .tc .vmem S1024x819 .f32 := Memref.whole cc2_scratch0
abbrev VS2 : View sig .tc .vmem S1024x819 .f32 := scM2.view

end Cert.KernelIdeal.Hand

end
-- ==== Proof.KI.R02Run.lean ====
/-
  Launch 2, the body run symbolically in each of its three control cases: the first block of a contraction
  (the accumulator reset, then the first product added), a middle block (the product added), the last block
  (the product added, then the sum stored into the output block in the output's format). Each run's witness
  is the list of pieces its stores leave in the accumulator (and, in the last case, in the output block).
-/
import proofs.«113214_j66838281060556_2_alg».proof.Proof.KI.R02Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

set_option maxHeartbeats 2000000 in
/-- The first block of a contraction that is not also its last: the accumulator, found at anything, is reset to
    zero and ends at the product of the two input blocks added to zero; the idle output block is handed back
    untouched. The pieces written into the accumulator are the witness the symbolic run finds. -/
noncomputable def run2_A (c : Dev nD) (i : grid2.Coords) (arg3 : Memref sig .tc .vmem S1024x1024 .bf16) (harg3 : arg3.IsWhole) (arg4 : Memref sig .tc .vmem S1024x819 .f32) (harg4 : arg4.IsWhole) (arg5 : Memref sig .tc .vmem S1024x819 .bf16) (harg5 : arg5.IsWhole) (arg6 : Memref sig .tc .vmem S1024x819 .f32) (harg6 : arg6.IsWhole) (hc0 : cond2_0 i) (hc1 : ¬cond2_1 i)
    (x0 : Vec F S1024x1024 .bf16) (x1 : Vec F S1024x819 .f32) :
    { LS : List (View.Piece (Elt F) S1024x819 .f32) //
      ∀ (xi : Vec F S1024x819 .bf16) (E : Set ℕ) (K : PUnit → sProp 𝕄),
        iprop(owns (c : Thread nD τ) arg3 fullShare x0 ∗ owns (c : Thread nD τ) arg4 fullShare x1 ∗ owns (c : Thread nD τ) arg5 fullShare xi ∗ (∃ d, owns (c : Thread nD τ) arg6 fullShare d)
            ∗ (iprop(owns (c : Thread nD τ) arg3 fullShare x0 ∗ owns (c : Thread nD τ) arg4 fullShare x1 ∗ owns (c : Thread nD τ) arg5 fullShare xi
                ∗ (∃ f, arg6.view.loc (c : Thread nD τ) ↦[arg6.view.set]{fullShare} arg6.view.writes (Elt F) f LS)) -∗ K ⟨⟩))
          ⊢ wp frame (wpE (defs₀ (F := F)) Variants.none c none) E (cc2__mm_kernel i arg3 harg3 arg4 harg4 arg5 harg5 arg6 harg6) K } := by
  refine ⟨?_, fun xi E K => ?run⟩
  case run =>
    simp only [cc2__mm_kernel_eq_skeleton]; unfold cc2__mm_kernel_skel
    unfold owns
    iintro ⟨⟨%f0, %hf0, H0⟩, ⟨%f1, %hf1, H1⟩, ⟨%f3, %hf3, H3⟩, ⟨%ds, %fs, -, HS⟩, Hk⟩
    obtain rfl := harg3.eq_unread hf0; obtain rfl := harg4.eq_unread hf1; obtain rfl := harg5.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H3]
    · iexists _; isplitr; · ipureintro; exact harg5.read_unread _
      iexact H3
    iexists _; iexact HS

set_option maxHeartbeats 2000000 in
/-- A middle block of a contraction: the accumulator, found at `xs`, ends at the product of the two input
    blocks added to `xs`; the idle output block is handed back untouched. -/
noncomputable def run2_B (c : Dev nD) (i : grid2.Coords) (arg3 : Memref sig .tc .vmem S1024x1024 .bf16) (harg3 : arg3.IsWhole) (arg4 : Memref sig .tc .vmem S1024x819 .f32) (harg4 : arg4.IsWhole) (arg5 : Memref sig .tc .vmem S1024x819 .bf16) (harg5 : arg5.IsWhole) (arg6 : Memref sig .tc .vmem S1024x819 .f32) (harg6 : arg6.IsWhole) (hc0 : ¬cond2_0 i) (hc1 : ¬cond2_1 i)
    (x0 : Vec F S1024x1024 .bf16) (x1 : Vec F S1024x819 .f32) (xs : Vec F S1024x819 .f32) :
    { LS : List (View.Piece (Elt F) S1024x819 .f32) //
      ∀ (xi : Vec F S1024x819 .bf16) (E : Set ℕ) (K : PUnit → sProp 𝕄),
        iprop(owns (c : Thread nD τ) arg3 fullShare x0 ∗ owns (c : Thread nD τ) arg4 fullShare x1 ∗ owns (c : Thread nD τ) arg5 fullShare xi ∗ owns (c : Thread nD τ) arg6 fullShare xs
            ∗ (iprop(owns (c : Thread nD τ) arg3 fullShare x0 ∗ owns (c : Thread nD τ) arg4 fullShare x1 ∗ owns (c : Thread nD τ) arg5 fullShare xi
                ∗ (∃ f, arg6.view.loc (c : Thread nD τ) ↦[arg6.view.set]{fullShare} arg6.view.writes (Elt F) f LS)) -∗ K ⟨⟩))
          ⊢ wp frame (wpE (defs₀ (F := F)) Variants.none c none) E (cc2__mm_kernel i arg3 harg3 arg4 harg4 arg5 harg5 arg6 harg6) K } := by
  refine ⟨?_, fun xi E K => ?run⟩
  case run =>
    simp only [cc2__mm_kernel_eq_skeleton]; unfold cc2__mm_kernel_skel
    unfold owns
    iintro ⟨⟨%f0, %hf0, H0⟩, ⟨%f1, %hf1, H1⟩, ⟨%f3, %hf3, H3⟩, ⟨%fs, %hfs, HS⟩, Hk⟩
    obtain rfl := harg3.eq_unread hf0; obtain rfl := harg4.eq_unread hf1; obtain rfl := harg5.eq_unread hf3
    obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H3]
    · iexists _; isplitr; · ipureintro; exact harg5.read_unread _
      iexact H3
    iexists _; iexact HS

set_option maxHeartbeats 2000000 in
/-- The last block of a contraction that is not also its first: the accumulator, found at `xs`, ends at the
    product of the two input blocks added to `xs`, and the output block, found at anything, is stored whole:
    that sum in the output's format. -/
noncomputable def run2_C (c : Dev nD) (i : grid2.Coords) (arg3 : Memref sig .tc .vmem S1024x1024 .bf16) (harg3 : arg3.IsWhole) (arg4 : Memref sig .tc .vmem S1024x819 .f32) (harg4 : arg4.IsWhole) (arg5 : Memref sig .tc .vmem S1024x819 .bf16) (harg5 : arg5.IsWhole) (arg6 : Memref sig .tc .vmem S1024x819 .f32) (harg6 : arg6.IsWhole) (hc0 : ¬cond2_0 i) (hc1 : cond2_1 i)
    (x0 : Vec F S1024x1024 .bf16) (x1 : Vec F S1024x819 .f32) (xs : Vec F S1024x819 .f32) :
    Σ' (LO : List (View.Piece (Elt F) S1024x819 .bf16)), { LS : List (View.Piece (Elt F) S1024x819 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc2__mm_kernel i arg3 harg3 arg4 harg4 arg5 harg5 arg6 harg6) K } := by
  refine ⟨?_, ?_, fun E K => ?run⟩
  case run =>
    simp only [cc2__mm_kernel_eq_skeleton]; unfold cc2__mm_kernel_skel
    unfold owns
    iintro ⟨⟨%f0, %hf0, H0⟩, ⟨%f1, %hf1, H1⟩, ⟨%d3, %f3, -, H3⟩, ⟨%fs, %hfs, HS⟩, Hk⟩
    obtain rfl := harg3.eq_unread hf0; obtain rfl := harg4.eq_unread hf1
    obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H3]
    · iexists _; iexact H3
    iexists _; iexact HS

end Cert.KernelIdeal.Hand

end
-- ==== Proof.KI.R02.lean ====
/-
  Launch 2 as a segment of the program: the product A·B of a graph matrix with the right
  factor, computed block by block on the grid 4 × 1 × 4 with an accumulator carried along the contraction and
  stored in the output's format when a contraction ends. What the accumulator and the output block hold after
  each point is defined by recursion on the point; the invariant between points is the accumulator at that value
  beside the launch's other scoped buffers; the proof data states each window's block after the body; the body
  obligation is the three symbolic runs put together by cases on the point's position in its contraction; and
  the segment record enters the launch from a thread state holding every unscoped buffer at an entry valuation
  and leaves it at the valuation updated at the result's array.
-/
import proofs.«113214_j66838281060556_2_alg».proof.Proof.KI.R02Run
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

variable (V : (c : Dev nD) → (b : Ref sig .tc) → Buf (Elt F) ((c : Thread nD τ).loc b))

/-! ## The blocks the windows stage -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- A view of the output's staging buffer and one of the accumulator, through which contents are stated. -/
abbrev VO2 : View sig .tc .vmem S1024x819 .bf16 := (Memref.whole cc2_stg2_0 : Memref sig .tc .vmem S1024x819 .bf16).view

/-! ## What each case leaves -/

/-- The accumulator after a first block. -/
def accA2 (c : Dev nD) (t : Fin cfg2.N) (h0 : t.val % 4 = 0) (h1 : ¬t.val % 4 = 3) : Vec F S1024x819 .f32 :=
  VS2.read (Elt F) (VS2.writes (Elt F) VS2.junk (run2_A c (grid2.coords t) (ms2_0 t) (hs2_0 t) (ms2_1 t) (hs2_1 t) (ms2_2 t) (hs2_2 t) scM2 (Memref.isWhole_whole _) ((hcond2_0 t).mpr h0) (fun h => h1 ((hcond2_1 t).mp h)) (iblk2 V c 0 t) (iblk2 V c 1 t)).1)
/-- The accumulator after a middle block, from what the point before left. -/
def accB2 (c : Dev nD) (t : Fin cfg2.N) (h0 : ¬t.val % 4 = 0) (h1 : ¬t.val % 4 = 3) (xs : Vec F S1024x819 .f32) : Vec F S1024x819 .f32 :=
  VS2.read (Elt F) (VS2.writes (Elt F) VS2.junk (run2_B c (grid2.coords t) (ms2_0 t) (hs2_0 t) (ms2_1 t) (hs2_1 t) (ms2_2 t) (hs2_2 t) scM2 (Memref.isWhole_whole _) (fun h => h0 ((hcond2_0 t).mp h)) (fun h => h1 ((hcond2_1 t).mp h)) (iblk2 V c 0 t) (iblk2 V c 1 t) xs).1)
/-- The accumulator after a last block, -/
def accC2 (c : Dev nD) (t : Fin cfg2.N) (h0 : ¬t.val % 4 = 0) (h1 : t.val % 4 = 3) (xs : Vec F S1024x819 .f32) : Vec F S1024x819 .f32 :=
  VS2.read (Elt F) (VS2.writes (Elt F) VS2.junk (run2_C c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) xs).2.1)
/-- and the output block stored there. -/
def outC2 (c : Dev nD) (t : Fin cfg2.N) (h0 : ¬t.val % 4 = 0) (h1 : t.val % 4 = 3) (xs : Vec F S1024x819 .f32) : Vec F S1024x819 .bf16 :=
  VO2.read (Elt F) (VO2.writes (Elt F) VO2.junk (run2_C c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) xs).1)

theorem coverA2 (c : Dev nD) (t : Fin cfg2.N) (h0 : t.val % 4 = 0) (h1 : ¬t.val % 4 = 3) (y : S1024x819.Idx) :
    ∃ pc ∈ (run2_A c (grid2.coords t) (ms2_0 t) (hs2_0 t) (ms2_1 t) (hs2_1 t) (ms2_2 t) (hs2_2 t) scM2 (Memref.isWhole_whole _) ((hcond2_0 t).mpr h0) (fun h => h1 ((hcond2_1 t).mp h)) (iblk2 V c 0 t) (iblk2 V c 1 t)).1, y ∈ pc.1.set :=
  View.cover_of_tiledL _ S1024x819.size (by sl_kernel_rfl) y
theorem coverB2 (c : Dev nD) (t : Fin cfg2.N) (h0 : ¬t.val % 4 = 0) (h1 : ¬t.val % 4 = 3) (xs : Vec F S1024x819 .f32) (y : S1024x819.Idx) :
    ∃ pc ∈ (run2_B c (grid2.coords t) (ms2_0 t) (hs2_0 t) (ms2_1 t) (hs2_1 t) (ms2_2 t) (hs2_2 t) scM2 (Memref.isWhole_whole _) (fun h => h0 ((hcond2_0 t).mp h)) (fun h => h1 ((hcond2_1 t).mp h)) (iblk2 V c 0 t) (iblk2 V c 1 t) xs).1, y ∈ pc.1.set :=
  View.cover_of_tiledL _ S1024x819.size (by sl_kernel_rfl) y
theorem coverCs2 (c : Dev nD) (t : Fin cfg2.N) (h0 : ¬t.val % 4 = 0) (h1 : t.val % 4 = 3) (xs : Vec F S1024x819 .f32) (y : S1024x819.Idx) :
    ∃ pc ∈ (run2_C c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) xs).2.1, y ∈ pc.1.set :=
  View.cover_of_tiledL _ S1024x819.size (by sl_kernel_rfl) y
theorem coverCo2 (c : Dev nD) (t : Fin cfg2.N) (h0 : ¬t.val % 4 = 0) (h1 : t.val % 4 = 3) (xs : Vec F S1024x819 .f32) (y : S1024x819.Idx) :
    ∃ pc ∈ (run2_C c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) xs).1, y ∈ pc.1.set :=
  View.cover_of_tiledL _ S1024x819.size (by sl_kernel_rfl) y

/-! ## The accumulation, point by point -/

/-- What the output's staging buffer (first component; meaningful at a contraction's last block only) and the
    accumulator (second component) hold after the body at position `n`. -/
def outsAt2 (c : Dev nD) : (n : ℕ) → n < cfg2.N → Vec F S1024x819 .bf16 × Vec F S1024x819 .f32
  | 0, hn => (VO2.read (Elt F) VO2.junk, accA2 V c ⟨0, hn⟩ (Nat.zero_mod _) (by simp))
  | n + 1, hn =>
    if h0 : (n + 1) % 4 = 0 then
      if h1 : (n + 1) % 4 = 3 then False.elim (by omega)
      else (VO2.read (Elt F) VO2.junk, accA2 V c ⟨n + 1, hn⟩ h0 h1)
    else
      if h1 : (n + 1) % 4 = 3 then
        (outC2 V c ⟨n + 1, hn⟩ h0 h1 (outsAt2 c n (Nat.lt_of_succ_lt hn)).2, accC2 V c ⟨n + 1, hn⟩ h0 h1 (outsAt2 c n (Nat.lt_of_succ_lt hn)).2)
      else
        (VO2.read (Elt F) VO2.junk, accB2 V c ⟨n + 1, hn⟩ h0 h1 (outsAt2 c n (Nat.lt_of_succ_lt hn)).2)

theorem outsAt2_A (c : Dev nD) (t : Fin cfg2.N) (h0 : t.val % 4 = 0) (h1 : ¬t.val % 4 = 3) :
    outsAt2 V c t.val t.isLt = (VO2.read (Elt F) VO2.junk, accA2 V c t h0 h1) := by
  obtain ⟨n, hn⟩ := t
  cases n with
  | zero => exact rfl
  | succ n => exact (dif_pos h0).trans ((dif_neg h1).trans rfl)

theorem outsAt2_B (c : Dev nD) (t : Fin cfg2.N) (h0 : ¬t.val % 4 = 0) (h1 : ¬t.val % 4 = 3) :
    outsAt2 V c t.val t.isLt = (VO2.read (Elt F) VO2.junk, accB2 V c t h0 h1 (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (outC2 V c t h0 h1 (outsAt2 V c (t.val - 1) (Nat.lt_of_le_of_lt (Nat.sub_le _ _) t.isLt)).2,
      accC2 V c t h0 h1 (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant between points -/

/-- Before the first point the launch's scoped buffers that no window stages, whole; afterwards the accumulator at
    what the point before left, and the other such buffers unopened. -/
def PhiS2 (c : Dev nD) : (n : ℕ) → n ≤ cfg2.N → sProp 𝕄
  | 0, _ => Pipeline.scopedRest (Ix := Unit) (Name := ℕ) (U := UR sig nD τ × Counters) (Lvl := ℕ) (Val := Elt F) spec2 c
  | n + 1, hn => iprop(owns (c : Thread nD τ) scM2 fullShare (outsAt2 V c n hn).2
      ∗ Pipeline.scopedRestBut (Ix := Unit) (Name := ℕ) (U := UR sig nD τ × Counters) (Lvl := ℕ) (Val := Elt F) spec2 c [cc2_scratch0])

theorem PhiS2_pos (c : Dev nD) (n : ℕ) (h : n ≤ cfg2.N) (hz : n ≠ 0) :
    PhiS2 V c n h = iprop(owns (c : Thread nD τ) scM2 fullShare (outsAt2 V c (n - 1) (by omega)).2
      ∗ Pipeline.scopedRestBut (Ix := Unit) (Name := ℕ) (U := UR sig nD τ × Counters) (Lvl := ℕ) (Val := Elt F) spec2 c [cc2_scratch0]) := by
  cases n with
  | zero => exact absurd rfl hz
  | succ n => rfl

/-- The scoped rest with the accumulator split out as a memref owned at some contents. -/
theorem scopedRest2_eq (c : Dev nD) :
    (Pipeline.scopedRest (Ix := Unit) (Name := ℕ) (U := UR sig nD τ × Counters) (Lvl := ℕ) (Val := Elt F) spec2 c : sProp 𝕄)
      = iprop((∃ d, owns (c : Thread nD τ) scM2 fullShare d)
          ∗ Pipeline.scopedRestBut (Ix := Unit) (Name := ℕ) (U := UR sig nD τ × Counters) (Lvl := ℕ) (Val := Elt F) spec2 c [cc2_scratch0]) := by
  rw [scopedRest2_split]; simp only [scM2, owns_whole]; try rfl

/-! ## The proof data -/

def dat2 (c : Dev nD) : Dat τ (Elt F) Unit ℕ (UR sig nD τ × Counters) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A2_eq (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

theorem Phi2_castSucc (c : Dev nD) (t : Fin cfg2.N) :
    (dat2 V c).Φ t.castSucc = PhiS2 V c t.val (Nat.le_of_lt t.isLt) := by
  dsimp only [dat2]; simp only [Fin.coe_castSucc]

/-- Each input window's current staging buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A2_eq]; try rfl) t d).trans
    (by unfold Dat.fetched Dat.blockOf iblk2; rw [A2_eq]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A2_eq]; try rfl) t d).trans
    (by unfold Dat.fetched Dat.blockOf iblk2; rw [A2_eq]; try rfl)

/-! ## The body obligation at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t)

set_option maxHeartbeats 4000000 in
/-- The body at any point. The three input buffers hold their blocks; the point's position in its contraction
    selects the case; the invariant hands over the accumulator (at anything before the very first point, else at
    what the point before left) and takes it back at this point's contents; an idle output buffer is handed back
    as found, a stored one at the case's block; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = iprop(owns (c : Thread nD τ) scM2 fullShare (outsAt2 V c t.val t.isLt).2
      ∗ Pipeline.scopedRestBut (Ix := Unit) (Name := ℕ) (U := UR sig nD τ × Counters) (Lvl := ℕ) (Val := Elt F) spec2 c [cc2_scratch0]) from rfl]
  have hN : t.val < 16 := lt_of_lt_of_eq t.isLt (show cfg2.N = 16 from N_2)
  rw [show (dat2 V c).leavesExact 0 t = owns (c : Thread nD τ) (ms2_0 t) fullShare (iblk2 V c 0 t) from by
    unfold Dat.leavesExact; rw [liveAt2_0 t, after2_0]]
  rw [show (dat2 V c).leavesExact 1 t = owns (c : Thread nD τ) (ms2_1 t) fullShare (iblk2 V c 1 t) from by
    unfold Dat.leavesExact; rw [liveAt2_1 t, after2_1]]
  rw [Phi2_castSucc V c t]
  by_cases h1 : t.val % 4 = 3
  · -- the last block of a contraction
    have h0 : ¬t.val % 4 = 0 := by omega
    have hz : t.val ≠ 0 := by omega
    rw [show (dat2 V c).leavesExact 2 t = owns (c : Thread nD τ) (ms2_2 t) fullShare (outsAt2 V c t.val t.isLt).1 from by
      unfold Dat.leavesExact; rw [liveAt2_2 t ((hcond2_1 t).mpr h1), after2_2]]
    rw [outsAt2_C V c t h0 h1, PhiS2_pos V c _ _ hz]
    dsimp only
    unfold outC2 accC2
    iintro ⟨⟨HS, Hb⟩, Ho, ⟨%d0, H0⟩, ⟨%d1, H1⟩, ⟨%d3, H3⟩⟩
    iapply ((run2_C c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) _).2.2 Set.univ _)
    isplitl [H0]; · iexact H0
    isplitl [H1]; · iexact H1
    isplitl [H3]; · iexists _; iexact H3
    isplitl [HS]; · iexact HS
    iintro ⟨H0, H1, ⟨%e3, H3⟩, ⟨%es, HS⟩⟩
    isplitl [HS Hb]
    · isplitl [HS]
      · unfold owns; iexists _; isplitr
        swap; · iexact HS
        ipureintro; exact View.read_writes_of_cover _ _ _ _ _ (coverCs2 V c t h0 h1 _)
      iexact Hb
    isplitl [Ho]; · iexact Ho
    isplitl [H0]; · iexact H0
    isplitl [H1]; · iexact H1
    unfold owns; iexists _; isplitr
    swap; · iexact H3
    ipureintro; exact View.read_writes_of_cover _ _ _ _ _ (coverCo2 V c t h0 h1 _)
  · rw [Dat.leavesExact_idle (dat2 V c) 2 t (idleAt2_2 t (fun h => h1 ((hcond2_1 t).mp h))) (noFlush2_2 t (fun h => h1 ((hcond2_1 t).mp h)))]
    by_cases h0 : t.val % 4 = 0
    · -- the first block of a contraction
      rw [outsAt2_A V c t h0 h1]
      dsimp only
      unfold accA2
      by_cases hz : t.val = 0
      · rw [show PhiS2 V c t.val (Nat.le_of_lt t.isLt) = Pipeline.scopedRest (Ix := Unit) (Name := ℕ) (U := UR sig nD τ × Counters) (Lvl := ℕ) (Val := Elt F) spec2 c from by
          obtain ⟨n, hn⟩ := t; dsimp only at hz; subst hz; rfl, scopedRest2_eq]
        iintro ⟨⟨HS, Hb⟩, Ho, ⟨%d0, H0⟩, ⟨%d1, H1⟩, ⟨%d3, H3⟩⟩
        iapply ((run2_A c (grid2.coords t) (ms2_0 t) (hs2_0 t) (ms2_1 t) (hs2_1 t) (ms2_2 t) (hs2_2 t) scM2 (Memref.isWhole_whole _) ((hcond2_0 t).mpr h0) (fun h => h1 ((hcond2_1 t).mp h)) (iblk2 V c 0 t) (iblk2 V c 1 t)).2 _ Set.univ _)
        isplitl [H0]; · iexact H0
        isplitl [H1]; · iexact H1
        isplitl [H3]; · iexact H3
        isplitl [HS]; · iexact HS
        iintro ⟨H0, H1, H3, ⟨%es, HS⟩⟩
        isplitl [HS Hb]
        · isplitl [HS]
          · unfold owns; iexists _; isplitr
            swap; · iexact HS
            ipureintro; exact View.read_writes_of_cover _ _ _ _ _ (coverA2 V c t h0 h1)
          iexact Hb
        isplitl [Ho]; · iexact Ho
        isplitl [H0]; · iexact H0
        isplitl [H1]; · iexact H1
        iexists _; iexact H3
      · rw [PhiS2_pos V c _ _ hz]
        iintro ⟨⟨HS, Hb⟩, Ho, ⟨%d0, H0⟩, ⟨%d1, H1⟩, ⟨%d3, H3⟩⟩
        iapply ((run2_A c (grid2.coords t) (ms2_0 t) (hs2_0 t) (ms2_1 t) (hs2_1 t) (ms2_2 t) (hs2_2 t) scM2 (Memref.isWhole_whole _) ((hcond2_0 t).mpr h0) (fun h => h1 ((hcond2_1 t).mp h)) (iblk2 V c 0 t) (iblk2 V c 1 t)).2 _ Set.univ _)
        isplitl [H0]; · iexact H0
        isplitl [H1]; · iexact H1
        isplitl [H3]; · iexact H3
        isplitl [HS]; · iexists _; iexact HS
        iintro ⟨H0, H1, H3, ⟨%es, HS⟩⟩
        isplitl [HS Hb]
        · isplitl [HS]
          · unfold owns; iexists _; isplitr
            swap; · iexact HS
            ipureintro; exact View.read_writes_of_cover _ _ _ _ _ (coverA2 V c t h0 h1)
          iexact Hb
        isplitl [Ho]; · iexact Ho
        isplitl [H0]; · iexact H0
        isplitl [H1]; · iexact H1
        iexists _; iexact H3
    · -- a middle block
      have hz : t.val ≠ 0 := by omega
      rw [outsAt2_B V c t h0 h1, PhiS2_pos V c _ _ hz]
      dsimp only
      unfold accB2
      iintro ⟨⟨HS, Hb⟩, Ho, ⟨%d0, H0⟩, ⟨%d1, H1⟩, ⟨%d3, H3⟩⟩
      iapply ((run2_B c (grid2.coords t) (ms2_0 t) (hs2_0 t) (ms2_1 t) (hs2_1 t) (ms2_2 t) (hs2_2 t) scM2 (Memref.isWhole_whole _) (fun h => h0 ((hcond2_0 t).mp h)) (fun h => h1 ((hcond2_1 t).mp h)) (iblk2 V c 0 t) (iblk2 V c 1 t) _).2 _ Set.univ _)
      isplitl [H0]; · iexact H0
      isplitl [H1]; · iexact H1
      isplitl [H3]; · iexact H3
      isplitl [HS]; · iexact HS
      iintro ⟨H0, H1, H3, ⟨%es, HS⟩⟩
      isplitl [HS Hb]
      · isplitl [HS]
        · unfold owns; iexists _; isplitr
          swap; · iexact HS
          ipureintro; exact View.read_writes_of_cover _ _ _ _ _ (coverB2 V c t h0 h1 _)
        iexact Hb
      isplitl [Ho]; · iexact Ho
      isplitl [H0]; · iexact H0
      isplitl [H1]; · iexact H1
      iexists _; iexact H3

theorem body_obligation2 (c : Dev nD) : BodyObligation (dat2 V c) (defs₀ (F := F)) Variants.none () Set.univ := fun t => by
  rw [bigSep_W2, bigSep_W2]
  exact sound_body2 V c t

/-! ## The region over the thread state -/

variable (Vp : (c : Dev nD) → (b : Ref sig .tc) → Buf (Elt F) ((c : Thread nD τ).loc b))
variable (pdats : (p : Fin 22) → (c : Dev nD) → Dat τ (Elt F) Unit ℕ (UR sig nD τ × Counters) ℕ (cfgs p) c)

/-- The result's array after the region, as the pipeline library computes it from the proof data. -/
def out2 (c : Dev nD) : Buf (Elt F) ((c : Thread nD τ).loc main_v5) := (dat2 V c).arrAt 2 cfg2.N

set_option backward.isDefEq.respectTransparency.types false in
set_option maxHeartbeats 2000000 in
/-- Launch 2 over the thread state "every unscoped buffer at `V c`, the core owing nothing": entered by
    splitting its three arrays out of the unscoped buffers, left with them put back at `Vp c`, which has the
    result's array at `out2` and agrees with `V c` elsewhere. -/
def reg2 (hp : ∀ c, pdats 2 c = dat2 V c)
    (hVp_out : ∀ c, Vp c main_v5 = out2 V c)
    (hVp_ne : ∀ c (b : Ref sig .tc), b ≠ main_v5 → Vp c b = V c b) :
    Pipeline.RegionSeg (pcfgs (F := F)) (fun p => (cfgs p).toPCfg_adm) pdats () defs₀ Variants.none (fun _ => (∅ : Finset Unit)) (fun _ _ => (0 : ℕ)) 2 where
  win := launch2.win.to₀
  block_pos := launch2.block_pos
  stage_whole := launch2.stage_whole
  K := PEmpty
  osem k := k.elim
  ho := Pipeline.OwnSemFacts.none _
  hbody c := by rw [hp c]; exact (body_obligation2 V c).loose
  hwaits := Pipeline.hwaits_of_owed_zero _ _ _ _ _ _ 2 fun c t => by rw [hp c]; rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ × Counters) (Lvl := ℕ) spec2 c (V c)
  hentry c := by
    rw [Pipeline.ownSems0_none]
    have hsplit := Pipeline.arrays_of_unscopedBufs (p := 2) (pcfgs (F := F)) (fun p => (cfgs p).toPCfg_adm) pdats launch2.win launch2.arr_whole c
      ((pdats 2 c).share_full fun w => by rw [hp c]; rfl) (V c) (fun w => by rw [hp c]; rfl)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hp c]
      unfold Pipeline.Dat.owesAt Pipeline.owesWithin
      icases HO with ⟨%W, HO⟩; iexists W; isplitr; · ipureintro; exact fun _ _ => Or.inl trivial
      iexact HO
    isplitr; · iempintro
    iexact Hrest
  hin c := by
    rw [hp c, show (dat2 V c).Φ 0 = Pipeline.scopedRest (Ix := Unit) (Name := ℕ) (U := UR sig nD τ × Counters) (Lvl := ℕ) (Val := Elt F) spec2 c from rfl]
    iintro ⟨-, -, Hr⟩; iexact Hr
  hout c := by
    rw [Pipeline.ownSems0_none, hp c]
    refine (Entails.of_eq ((show (dat2 V c).Φ (Fin.last _) = PhiS2 V c (Fin.last cfg2.N).val (Nat.le_of_lt_succ (Fin.last cfg2.N).isLt) from rfl).trans
      (PhiS2_pos V c _ _ (by rw [Fin.val_last]; have : cfg2.N = 16 := N_2; omega)))).trans ?_
    change _ ⊢ iprop(BI.emp ∗ BI.emp ∗ Pipeline.scopedRest (Ix := Unit) (Name := ℕ) (U := UR sig nD τ × Counters) (Lvl := ℕ) (Val := Elt F) spec2 c)
    rw [scopedRest2_eq]
    iintro ⟨HS, Hb⟩
    isplitr; · iempintro
    isplitr; · iempintro
    isplitl [HS]; · iexists _; iexact HS
    iexact Hb
  hexit c := by
    have hjoin := Pipeline.unscopedBufs_of_arrays (p := 2) (pcfgs (F := F)) (fun p => (cfgs p).toPCfg_adm) (Ix := Unit) (Name := ℕ) (U := UR sig nD τ × Counters) (Lvl := ℕ) launch2.win launch2.arr_whole c
      pdats ((pdats 2 c).share_full fun w => by rw [hp c]; rfl) (V c) (Vp c) ((pdats 2 c).arrAt · cfg2.N)
      (fun w => by
        fin_cases w
        · exact (((pdats 2 c).arrAt_in 0 rfl _).trans (by rw [hp c]; rfl)).trans (hVp_ne c main_v0 (by decide)).symm
        · exact (((pdats 2 c).arrAt_in 1 rfl _).trans (by rw [hp c]; rfl)).trans (hVp_ne c main_v4 (by decide)).symm
        · exact (by rw [hp c]; rfl : (pdats 2 c).arrAt 2 cfg2.N = out2 V c).trans (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W
    rw [show (pdats 2 c).owed (Fin.last _) = 0 from by rw [hp c]; rfl]
    iexact HO

end Cert.KernelIdeal.Hand

end
-- ==== Proof.KI.R03Base.lean ====
/-
  Launch 3 of the program: one matrix product per grid point — the contraction is a single block —, a bias row
  added and tanh applied, the output block stored at every point. The grid's third coordinate is always 0, so both
  conditions of the body — "the contraction's first block" and "its last block" — hold at every point: this module
  decides them over the grid's points, records that no window is ever idle, and names the staging memrefs the body
  is called with.
-/
import proofs.«113214_j66838281060556_2_alg».proof.Proof.Gen.KernelIdeal.Launch
import proofs.«113214_j66838281060556_2_alg».proof.Proof.Gen.KernelIdeal.Skeleton
import proofs.«113214_j66838281060556_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

/-- The accumulator is reset: the point starts a contraction (third grid coordinate 0). Here the third axis has one
    coordinate, so every point does. -/
abbrev cond3_0 (i : grid3.Coords) : Prop := (Scalar.cmpi .ne (Scalar.extui (Scalar.cmpi .eq (BitVec.ofNat 32 (i 2).val) 0#32)) 0#32) = 1#1
theorem hcond3_0 : ∀ t : Fin cfg3.N, cond3_0 (grid3.coords t) :=
  (by decide +kernel : ∀ t : Fin grid3.N, cond3_0 (grid3.coords t))

/-- The result is stored: the point ends a contraction. Every point does. -/
abbrev cond3_1 (i : grid3.Coords) : Prop := k3_cond2 i = 1#1
theorem hcond3_1 : ∀ t : Fin cfg3.N, cond3_1 (grid3.coords t) :=
  (by decide +kernel : ∀ t : Fin grid3.N, cond3_1 (grid3.coords t))

/-- No window is idle at any point: the three inputs never, the output because every point stores. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel

/-- Each window's current staging memref at a point, as the pipeline passes it, and its wholeness. -/
abbrev ms3_0 (t : Fin cfg3.N) : Memref sig .tc .vmem S1024x819 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S819x819 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x819 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x819 .f32 := win3_3.stage (cfg3.slots t 3)
abbrev hs3_3 (t : Fin cfg3.N) : (ms3_3 t).IsWhole := hstage3_3 ((cfg3.slots t 3).cast nbuf3_3)
/-- The accumulator: a whole scoped buffer of the launch's own. -/
abbrev scM3 : Memref sig .tc .vmem S1024x819 .f32 := Memref.whole cc3_scratch0
abbrev VS3 : View sig .tc .vmem S1024x819 .f32 := scM3.view

end Cert.KernelIdeal.Hand

end
-- ==== Proof.KI.R03Run.lean ====
/-
  Launch 3, the body run symbolically in its one control case: the accumulator reset, the product added, the bias
  row added and tanh applied into the output block. The run's witnesses are the lists of pieces its stores leave in
  the output block and in the accumulator.
-/
import proofs.«113214_j66838281060556_2_alg».proof.Proof.KI.R03Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

set_option maxHeartbeats 2000000 in
/-- The body at a point, run symbolically: the accumulator, found at anything, is reset to zero and ends at the
    product of the two input blocks added to zero; the output block, found at anything, is stored whole: tanh of
    that sum plus the bias row. The witnesses are the pieces the stores leave in the output block and in the
    accumulator. -/
noncomputable def run3 (c : Dev nD) (i : grid3.Coords) (arg3 : Memref sig .tc .vmem S1024x819 .bf16) (harg3 : arg3.IsWhole) (arg4 : Memref sig .tc .vmem S819x819 .f32) (harg4 : arg4.IsWhole) (arg5 : Memref sig .tc .vmem S1x819 .f32) (harg5 : arg5.IsWhole) (arg6 : Memref sig .tc .vmem S1024x819 .f32) (harg6 : arg6.IsWhole) (arg7 : Memref sig .tc .vmem S1024x819 .f32) (harg7 : arg7.IsWhole) (hc0 : cond3_0 i) (hc1 : cond3_1 i)
    (x0 : Vec F S1024x819 .bf16) (x1 : Vec F S819x819 .f32) (x2 : Vec F S1x819 .f32) :
    Σ' (LO : List (View.Piece (Elt F) S1024x819 .f32)), { LS : List (View.Piece (Elt F) S1024x819 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LS)) -∗ K ⟨⟩))
          ⊢ wp frame (wpE (defs₀ (F := F)) Variants.none c none) E (cc3__mm_kernel i arg3 harg3 arg4 harg4 arg5 harg5 arg6 harg6 arg7 harg7) K } := by
  refine ⟨?_, ?_, fun E K => ?run⟩
  case run =>
    simp only [cc3__mm_kernel_eq_skeleton]; unfold cc3__mm_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    iexists _; iexact HS

end Cert.KernelIdeal.Hand

end
-- ==== Proof.KI.R03.lean ====
/-
  Launch 3 as a region of the program. The blocks the windows stage are read off the arrays as the region finds
  them; a point stores the output block its run leaves; the accumulator is reset at every point, so between points
  the launch's scoped buffers that no window stages are simply held whole at anything; the body obligation follows
  from the one symbolic run; and the region is stated over the thread state "every unscoped buffer at given
  contents, the core owing nothing", entered by splitting its arrays out and left with the result's array
  at what the pipeline computes from the stored blocks.
-/
import proofs.«113214_j66838281060556_2_alg».proof.Proof.KI.R03Run
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

variable (V : (c : Dev nD) → (b : Ref sig .tc) → Buf (Elt F) ((c : Thread nD τ).loc b))

/-! ## The blocks the windows stage -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- A view of the output's staging buffer, through which contents are stated. -/
abbrev VO3 : View sig .tc .vmem S1024x819 .f32 := (Memref.whole cc3_stg3_0 : Memref sig .tc .vmem S1024x819 .f32).view

/-! ## What a point leaves -/

/-- The output block a point stores: what the run's pieces leave, read through the staging buffer's view. -/
def out3 (c : Dev nD) (t : Fin cfg3.N) : Vec F S1024x819 .f32 :=
  VO3.read (Elt F) (VO3.writes (Elt F) VO3.junk (run3 c (grid3.coords t) (ms3_0 t) (hs3_0 t) (ms3_1 t) (hs3_1 t) (ms3_2 t) (hs3_2 t) (ms3_3 t) (hs3_3 t) scM3 (Memref.isWhole_whole _) (hcond3_0 t) (hcond3_1 t) (iblk3 V c 0 t) (iblk3 V c 1 t) (iblk3 V c 2 t)).1)

/-- The stores into the output block cover it. -/
theorem coverO3 (c : Dev nD) (t : Fin cfg3.N) (y : S1024x819.Idx) :
    ∃ pc ∈ (run3 c (grid3.coords t) (ms3_0 t) (hs3_0 t) (ms3_1 t) (hs3_1 t) (ms3_2 t) (hs3_2 t) (ms3_3 t) (hs3_3 t) scM3 (Memref.isWhole_whole _) (hcond3_0 t) (hcond3_1 t) (iblk3 V c 0 t) (iblk3 V c 1 t) (iblk3 V c 2 t)).1, y ∈ pc.1.set :=
  View.cover_of_tiledL _ S1024x819.size (by sl_kernel_rfl) y

/-! ## The invariant between points -/

/-- The scoped rest with the accumulator split out as a memref owned at some contents. The accumulator is reset at
    every point, so the invariant between points is the scoped rest itself, the accumulator at anything. -/
theorem scopedRest3_eq (c : Dev nD) :
    (Pipeline.scopedRest (Ix := Unit) (Name := ℕ) (U := UR sig nD τ × Counters) (Lvl := ℕ) (Val := Elt F) spec3 c : sProp 𝕄)
      = iprop((∃ d, owns (c : Thread nD τ) scM3 fullShare d)
          ∗ Pipeline.scopedRestBut (Ix := Unit) (Name := ℕ) (U := UR sig nD τ × Counters) (Lvl := ℕ) (Val := Elt F) spec3 c [cc3_scratch0]) := by
  rw [scopedRest3_split]; simp only [scM3, owns_whole]; try rfl

/-! ## The proof data -/

def dat3 (c : Dev nD) : Dat τ (Elt F) Unit ℕ (UR sig nD τ × Counters) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3 V c t
  Φ _ := Pipeline.scopedRest (Ix := Unit) (Name := ℕ) (U := UR sig nD τ × Counters) (Lvl := ℕ) (Val := Elt F) spec3 c
  q _ := fullShare
  owed _ := 0

theorem A3_eq (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3 V c t := by dsimp only [dat3]

/-- Each input window's current staging buffer holds its block at every point, fetched there or not. -/
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A3_eq]; try rfl) t d).trans
    (by unfold Dat.fetched Dat.blockOf iblk3; rw [A3_eq]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A3_eq]; try rfl) t d).trans
    (by unfold Dat.fetched Dat.blockOf iblk3; rw [A3_eq]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A3_eq]; try rfl) t d).trans
    (by unfold Dat.fetched Dat.blockOf iblk3; rw [A3_eq]; try rfl)

/-! ## The body obligation at a generic point -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t ∗ (dat3 V c).leavesExact 1 t ∗ (dat3 V c).leavesExact 2 t ∗ (dat3 V c).leavesExact 3 t)

set_option maxHeartbeats 4000000 in
/-- The body at any point. The input buffers hold their blocks; the invariant hands over the accumulator at
    anything and takes it back at anything; the output buffer, found at anything, is handed back at the block the
    point stores; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = Pipeline.scopedRest (Ix := Unit) (Name := ℕ) (U := UR sig nD τ × Counters) (Lvl := ℕ) (Val := Elt F) spec3 c from rfl,
    show (dat3 V c).Φ t.castSucc = Pipeline.scopedRest (Ix := Unit) (Name := ℕ) (U := UR sig nD τ × Counters) (Lvl := ℕ) (Val := Elt F) spec3 c from rfl]
  rw [show (dat3 V c).leavesExact 0 t = owns (c : Thread nD τ) (ms3_0 t) fullShare (iblk3 V c 0 t) from by
    unfold Dat.leavesExact; rw [liveAt3_0 t, after3_0]]
  rw [show (dat3 V c).leavesExact 1 t = owns (c : Thread nD τ) (ms3_1 t) fullShare (iblk3 V c 1 t) from by
    unfold Dat.leavesExact; rw [liveAt3_1 t, after3_1]]
  rw [show (dat3 V c).leavesExact 2 t = owns (c : Thread nD τ) (ms3_2 t) fullShare (iblk3 V c 2 t) from by
    unfold Dat.leavesExact; rw [liveAt3_2 t, after3_2]]
  rw [show (dat3 V c).leavesExact 3 t = owns (c : Thread nD τ) (ms3_3 t) fullShare (out3 V c t) from by
    unfold Dat.leavesExact; rw [liveAt3_3 t, after3_3]]
  rw [scopedRest3_eq]
  unfold out3
  iintro ⟨⟨HS, Hb⟩, Ho, ⟨%d0, H0⟩, ⟨%d1, H1⟩, ⟨%d2, H2⟩, ⟨%d3, H3⟩⟩
  iapply ((run3 c (grid3.coords t) (ms3_0 t) (hs3_0 t) (ms3_1 t) (hs3_1 t) (ms3_2 t) (hs3_2 t) (ms3_3 t) (hs3_3 t) scM3 (Memref.isWhole_whole _) (hcond3_0 t) (hcond3_1 t) (iblk3 V c 0 t) (iblk3 V c 1 t) (iblk3 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS Hb]
  · isplitl [HS]
    · iexists _; unfold owns; iexists _; isplitr
      swap; · iexact HS
      ipureintro; rfl
    iexact Hb
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (coverO3 V c t)

theorem body_obligation3 (c : Dev nD) : BodyObligation (dat3 V c) (defs₀ (F := F)) Variants.none () Set.univ := fun t => by
  rw [bigSep_W3, bigSep_W3]
  exact sound_body3 V c t

/-! ## The region over the thread state -/

variable (Vp : (c : Dev nD) → (b : Ref sig .tc) → Buf (Elt F) ((c : Thread nD τ).loc b))
variable (pdats : (p : Fin 22) → (c : Dev nD) → Dat τ (Elt F) Unit ℕ (UR sig nD τ × Counters) ℕ (cfgs p) c)

/-- The result's array after the region, as the pipeline library computes it from the proof data. -/
def out3arr (c : Dev nD) : Buf (Elt F) ((c : Thread nD τ).loc main_v7) := (dat3 V c).arrAt 3 cfg3.N

set_option backward.isDefEq.respectTransparency.types false in
set_option maxHeartbeats 2000000 in
/-- Launch 3 over the thread state "every unscoped buffer at `V c`, the core owing nothing": entered by
    splitting its arrays out of the unscoped buffers, left with them put back at `Vp c`, which has the
    result's array at `out3arr` and agrees with `V c` elsewhere. -/
def reg3 (hp : ∀ c, pdats 3 c = dat3 V c)
    (hVp_out : ∀ c, Vp c main_v7 = out3arr V c)
    (hVp_ne : ∀ c (b : Ref sig .tc), b ≠ main_v7 → Vp c b = V c b) :
    Pipeline.RegionSeg (pcfgs (F := F)) (fun p => (cfgs p).toPCfg_adm) pdats () defs₀ Variants.none (fun _ => (∅ : Finset Unit)) (fun _ _ => (0 : ℕ)) 3 where
  win := launch3.win.to₀
  block_pos := launch3.block_pos
  stage_whole := launch3.stage_whole
  K := PEmpty
  osem k := k.elim
  ho := Pipeline.OwnSemFacts.none _
  hbody c := by rw [hp c]; exact (body_obligation3 V c).loose
  hwaits := Pipeline.hwaits_of_owed_zero _ _ _ _ _ _ 3 fun c t => by rw [hp c]; rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ × Counters) (Lvl := ℕ) spec3 c (V c)
  hentry c := by
    rw [Pipeline.ownSems0_none]
    have hsplit := Pipeline.arrays_of_unscopedBufs (p := 3) (pcfgs (F := F)) (fun p => (cfgs p).toPCfg_adm) pdats launch3.win launch3.arr_whole c
      ((pdats 3 c).share_full fun w => by rw [hp c]; rfl) (V c) (fun w => by rw [hp c]; rfl)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hp c]; exact trivial)
      rw [show (pdats 3 c).owed 0 = 0 from by rw [hp c]; rfl]
      iexact HO
    isplitr; · iempintro
    iexact Hrest
  hin c := by
    rw [hp c, show (dat3 V c).Φ 0 = Pipeline.scopedRest (Ix := Unit) (Name := ℕ) (U := UR sig nD τ × Counters) (Lvl := ℕ) (Val := Elt F) spec3 c from rfl]
    iintro ⟨-, -, Hr⟩; iexact Hr
  hout c := by
    rw [Pipeline.ownSems0_none, hp c]
    change (Pipeline.scopedRest (Ix := Unit) (Name := ℕ) (U := UR sig nD τ × Counters) (Lvl := ℕ) (Val := Elt F) spec3 c : sProp 𝕄) ⊢ _
    iintro Hr
    isplitr; · iempintro
    isplitr; · iempintro
    iexact Hr
  hexit c := by
    have hjoin := Pipeline.unscopedBufs_of_arrays (p := 3) (pcfgs (F := F)) (fun p => (cfgs p).toPCfg_adm) (Ix := Unit) (Name := ℕ) (U := UR sig nD τ × Counters) (Lvl := ℕ) launch3.win launch3.arr_whole c
      pdats ((pdats 3 c).share_full fun w => by rw [hp c]; rfl) (V c) (Vp c) ((pdats 3 c).arrAt · cfg3.N)
      (fun w => by
        fin_cases w
        · exact (((pdats 3 c).arrAt_in 0 rfl _).trans (by rw [hp c]; rfl)).trans (hVp_ne c main_v5 (by decide)).symm
        · exact (((pdats 3 c).arrAt_in 1 rfl _).trans (by rw [hp c]; rfl)).trans (hVp_ne c main_arg7 (by decide)).symm
        · exact (((pdats 3 c).arrAt_in 2 rfl _).trans (by rw [hp c]; rfl)).trans (hVp_ne c main_v6 (by decide)).symm
        · exact (by rw [hp c]; rfl : (pdats 3 c).arrAt 3 cfg3.N = out3arr V c).trans (hVp_out c).symm)
      (fun b hb => hVp_ne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W
    rw [show (pdats 3 c).owed (Fin.last _) = 0 from by rw [hp c]; rfl]
    iexact HO

end Cert.KernelIdeal.Hand

end
-- ==== Proof.KI.R04Base.lean ====
/-
  Launch 4 of the program: one matrix product per grid point — the contraction is a single block —, from which the
  output block is stored at every point. The grid's third coordinate is always 0, so both conditions of the body —
  "the contraction's first block" and "its last block" — hold at every point: this module decides them over the
  grid's points, records that no window is ever idle, and names the staging memrefs the body is called with.
-/
import proofs.«113214_j66838281060556_2_alg».proof.Proof.Gen.KernelIdeal.Launch
import proofs.«113214_j66838281060556_2_alg».proof.Proof.Gen.KernelIdeal.Skeleton
import proofs.«113214_j66838281060556_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

/-- The accumulator is reset: the point starts a contraction (third grid coordinate 0). Here the third axis has one
    coordinate, so every point does. -/
abbrev cond4_0 (i : grid4.Coords) : Prop := (Scalar.cmpi .ne (Scalar.extui (Scalar.cmpi .eq (BitVec.ofNat 32 (i 2).val) 0#32)) 0#32) = 1#1
theorem hcond4_0 : ∀ t : Fin cfg4.N, cond4_0 (grid4.coords t) :=
  (by decide +kernel : ∀ t : Fin grid4.N, cond4_0 (grid4.coords t))

/-- The result is stored: the point ends a contraction. Every point does. -/
abbrev cond4_1 (i : grid4.Coords) : Prop := k4_cond2 i = 1#1
theorem hcond4_1 : ∀ t : Fin cfg4.N, cond4_1 (grid4.coords t) :=
  (by decide +kernel : ∀ t : Fin grid4.N, cond4_1 (grid4.coords t))

/-- No window is idle at any point: the two inputs never, the output because every point stores. -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel

/-- Each window's current staging memref at a point, as the pipeline passes it, and its wholeness. -/
abbrev ms4_0 (t : Fin cfg4.N) : Memref sig .tc .vmem S1024x1280 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1280x1024 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x1024 .bf16 := win4_2.stage (cfg4.slots t 2)
abbrev hs4_2 (t : Fin cfg4.N) : (ms4_2 t).IsWhole := hstage4_2 ((cfg4.slots t 2).cast nbuf4_2)
/-- The accumulator: a whole scoped buffer of the launch's own. -/
abbrev scM4 : Memref sig .tc .vmem S1024x1024 .f32 := Memref.whole cc4_scratch0
abbrev VS4 : View sig .tc .vmem S1024x1024 .f32 := scM4.view

end Cert.KernelIdeal.Hand

end
-- ==== Proof.KI.R04Run.lean ====
/-
  Launch 4, the body run symbolically in its one control case: the accumulator reset, the product added, the output
  block stored from the sum. The run's witnesses are the lists of pieces its stores leave in the output block and in
  the accumulator.
-/
import proofs.«113214_j66838281060556_2_alg».proof.Proof.KI.R04Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

set_option maxHeartbeats 2000000 in
/-- The body at a point, run symbolically: the accumulator, found at anything, is reset and ends at the product of
    the two input blocks added to it; the output block, found at anything, is stored whole from that sum. The
    witnesses are the pieces the stores leave in the output block and in the accumulator. -/
noncomputable def run4 (c : Dev nD) (i : grid4.Coords) (arg3 : Memref sig .tc .vmem S1024x1280 .f32) (harg3 : arg3.IsWhole) (arg4 : Memref sig .tc .vmem S1280x1024 .f32) (harg4 : arg4.IsWhole) (arg5 : Memref sig .tc .vmem S1024x1024 .bf16) (harg5 : arg5.IsWhole) (arg6 : Memref sig .tc .vmem S1024x1024 .f32) (harg6 : arg6.IsWhole) (hc0 : cond4_0 i) (hc1 : cond4_1 i)
    (x0 : Vec F S1024x1280 .f32) (x1 : Vec F S1280x1024 .f32) :
    Σ' (LO : List (View.Piece (Elt F) S1024x1024 .bf16)), { LS : List (View.Piece (Elt F) S1024x1024 .f32) //
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc4__mm_kernel i arg3 harg3 arg4 harg4 arg5 harg5 arg6 harg6) K } := by
  refine ⟨?_, ?_, fun E K => ?run⟩
  case run =>
    simp only [cc4__mm_kernel_eq_skeleton]; unfold cc4__mm_kernel_skel
    unfold owns
    iintro ⟨⟨%f0, %hf0, H0⟩, ⟨%f1, %hf1, H1⟩, ⟨%d2, %f2, -, H2⟩, ⟨%ds, %fs, -, HS⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact HS

end Cert.KernelIdeal.Hand

end
-- ==== Proof.KI.R04.lean ====
/-
  Launch 4 as a region of the program. The blocks the windows stage are read off the arrays as the region finds
  them; a point stores the output block its run leaves; the accumulator is reset at every point, so between points
  the launch's scoped buffers that no window stages are simply held whole at anything; the body obligation follows
  from the one symbolic run; and the region is stated over the thread state "every unscoped buffer at given
  contents, the core owing nothing", entered by splitting the three arrays out and left with the result's array
  at what the pipeline computes from the stored blocks.
-/
import proofs.«113214_j66838281060556_2_alg».proof.Proof.KI.R04Run
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

variable (V : (c : Dev nD) → (b : Ref sig .tc) → Buf (Elt F) ((c : Thread nD τ).loc b))

/-! ## The blocks the windows stage -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- A view of the output's staging buffer, through which contents are stated. -/
abbrev VO4 : View sig .tc .vmem S1024x1024 .bf16 := (Memref.whole cc4_stg2_0 : Memref sig .tc .vmem S1024x1024 .bf16).view

/-! ## What a point leaves -/

/-- The output block a point stores: what the run's pieces leave, read through the staging buffer's view. -/
def out4 (c : Dev nD) (t : Fin cfg4.N) : Vec F S1024x1024 .bf16 :=
  VO4.read (Elt F) (VO4.writes (Elt F) VO4.junk (run4 c (grid4.coords t) (ms4_0 t) (hs4_0 t) (ms4_1 t) (hs4_1 t) (ms4_2 t) (hs4_2 t) scM4 (Memref.isWhole_whole _) (hcond4_0 t) (hcond4_1 t) (iblk4 V c 0 t) (iblk4 V c 1 t)).1)

/-- The stores into the output block cover it. -/
theorem coverO4 (c : Dev nD) (t : Fin cfg4.N) (y : S1024x1024.Idx) :
    ∃ pc ∈ (run4 c (grid4.coords t) (ms4_0 t) (hs4_0 t) (ms4_1 t) (hs4_1 t) (ms4_2 t) (hs4_2 t) scM4 (Memref.isWhole_whole _) (hcond4_0 t) (hcond4_1 t) (iblk4 V c 0 t) (iblk4 V c 1 t)).1, y ∈ pc.1.set :=
  View.cover_of_tiledL _ S1024x1024.size (by sl_kernel_rfl) y

/-! ## The invariant between points -/

/-- The scoped rest with the accumulator split out as a memref owned at some contents. The accumulator is reset at
    every point, so the invariant between points is the scoped rest itself, the accumulator at anything. -/
theorem scopedRest4_eq (c : Dev nD) :
    (Pipeline.scopedRest (Ix := Unit) (Name := ℕ) (U := UR sig nD τ × Counters) (Lvl := ℕ) (Val := Elt F) spec4 c : sProp 𝕄)
      = iprop((∃ d, owns (c : Thread nD τ) scM4 fullShare d)
          ∗ Pipeline.scopedRestBut (Ix := Unit) (Name := ℕ) (U := UR sig nD τ × Counters) (Lvl := ℕ) (Val := Elt F) spec4 c [cc4_scratch0]) := by
  rw [scopedRest4_split]; simp only [scM4, owns_whole]; try rfl

/-! ## The proof data -/

def dat4 (c : Dev nD) : Dat τ (Elt F) Unit ℕ (UR sig nD τ × Counters) ℕ cfg4 c where
  A w := V c (Pipeline.arrRef spec4 w)
  after w t := match w with
    | ⟨0, _⟩ => iblk4 V c 0 t
    | ⟨1, _⟩ => iblk4 V c 1 t
    | ⟨2, _⟩ => out4 V c t
  Φ _ := Pipeline.scopedRest (Ix := Unit) (Name := ℕ) (U := UR sig nD τ × Counters) (Lvl := ℕ) (Val := Elt F) spec4 c
  q _ := fullShare
  owed _ := 0

theorem A4_eq (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4 V c t := by dsimp only [dat4]

/-- Each input window's current staging buffer holds its block at every point, fetched there or not. -/
theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A4_eq]; try rfl) t d).trans
    (by unfold Dat.fetched Dat.blockOf iblk4; rw [A4_eq]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A4_eq]; try rfl) t d).trans
    (by unfold Dat.fetched Dat.blockOf iblk4; rw [A4_eq]; try rfl)

/-! ## The body obligation at a generic point -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t ∗ (dat4 V c).leavesExact 1 t ∗ (dat4 V c).leavesExact 2 t)

set_option maxHeartbeats 4000000 in
/-- The body at any point. The two input buffers hold their blocks; the invariant hands over the accumulator at
    anything and takes it back at anything; the output buffer, found at anything, is handed back at the block the
    point stores; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = Pipeline.scopedRest (Ix := Unit) (Name := ℕ) (U := UR sig nD τ × Counters) (Lvl := ℕ) (Val := Elt F) spec4 c from rfl,
    show (dat4 V c).Φ t.castSucc = Pipeline.scopedRest (Ix := Unit) (Name := ℕ) (U := UR sig nD τ × Counters) (Lvl := ℕ) (Val := Elt F) spec4 c from rfl]
  rw [show (dat4 V c).leavesExact 0 t = owns (c : Thread nD τ) (ms4_0 t) fullShare (iblk4 V c 0 t) from by
    unfold Dat.leavesExact; rw [liveAt4_0 t, after4_0]]
  rw [show (dat4 V c).leavesExact 1 t = owns (c : Thread nD τ) (ms4_1 t) fullShare (iblk4 V c 1 t) from by
    unfold Dat.leavesExact; rw [liveAt4_1 t, after4_1]]
  rw [show (dat4 V c).leavesExact 2 t = owns (c : Thread nD τ) (ms4_2 t) fullShare (out4 V c t) from by
    unfold Dat.leavesExact; rw [liveAt4_2 t, after4_2]]
  rw [scopedRest4_eq]
  unfold out4
  iintro ⟨⟨HS, Hb⟩, Ho, ⟨%d0, H0⟩, ⟨%d1, H1⟩, ⟨%d2, H2⟩⟩
  iapply ((run4 c (grid4.coords t) (ms4_0 t) (hs4_0 t) (ms4_1 t) (hs4_1 t) (ms4_2 t) (hs4_2 t) scM4 (Memref.isWhole_whole _) (hcond4_0 t) (hcond4_1 t) (iblk4 V c 0 t) (iblk4 V c 1 t)).2.2 Set.univ _)
  isplitl [H0]; · iexact H0
  isplitl [H1]; · iexact H1
  isplitl [H2]; · iexists _; iexact H2
  isplitl [HS]; · iexact HS
  iintro ⟨H0, H1, ⟨%e2, H2⟩, ⟨%es, HS⟩⟩
  isplitl [HS Hb]
  · isplitl [HS]
    · iexists _; unfold owns; iexists _; isplitr
      swap; · iexact HS
      ipureintro; rfl
    iexact Hb
  isplitl [Ho]; · iexact Ho
  isplitl [H0]; · iexact H0
  isplitl [H1]; · iexact H1
  unfold owns; iexists _; isplitr
  swap; · iexact H2
  ipureintro; exact View.read_writes_of_cover _ _ _ _ _ (coverO4 V c t)

theorem body_obligation4 (c : Dev nD) : BodyObligation (dat4 V c) (defs₀ (F := F)) Variants.none () Set.univ := fun t => by
  rw [bigSep_W4, bigSep_W4]
  exact sound_body4 V c t

/-! ## The region over the thread state -/

variable (Vp : (c : Dev nD) → (b : Ref sig .tc) → Buf (Elt F) ((c : Thread nD τ).loc b))
variable (pdats : (p : Fin 22) → (c : Dev nD) → Dat τ (Elt F) Unit ℕ (UR sig nD τ × Counters) ℕ (cfgs p) c)

/-- The result's array after the region, as the pipeline library computes it from the proof data. -/
def out4arr (c : Dev nD) : Buf (Elt F) ((c : Thread nD τ).loc main_v8) := (dat4 V c).arrAt 2 cfg4.N

set_option backward.isDefEq.respectTransparency.types false in
set_option maxHeartbeats 2000000 in
/-- Launch 4 over the thread state "every unscoped buffer at `V c`, the core owing nothing": entered by
    splitting its three arrays out of the unscoped buffers, left with them put back at `Vp c`, which has the
    result's array at `out4arr` and agrees with `V c` elsewhere. -/
def reg4 (hp : ∀ c, pdats 4 c = dat4 V c)
    (hVp_out : ∀ c, Vp c main_v8 = out4arr V c)
    (hVp_ne : ∀ c (b : Ref sig .tc), b ≠ main_v8 → Vp c b = V c b) :
    Pipeline.RegionSeg (pcfgs (F := F)) (fun p => (cfgs p).toPCfg_adm) pdats () defs₀ Variants.none (fun _ => (∅ : Finset Unit)) (fun _ _ => (0 : ℕ)) 4 where
  win := launch4.win.to₀
  block_pos := launch4.block_pos
  stage_whole := launch4.stage_whole
  K := PEmpty
  osem k := k.elim
  ho := Pipeline.OwnSemFacts.none _
  hbody c := by rw [hp c]; exact (body_obligation4 V c).loose
  hwaits := Pipeline.hwaits_of_owed_zero _ _ _ _ _ _ 4 fun c t => by rw [hp c]; rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ × Counters) (Lvl := ℕ) spec4 c (V c)
  hentry c := by
    rw [Pipeline.ownSems0_none]
    have hsplit := Pipeline.arrays_of_unscopedBufs (p := 4) (pcfgs (F := F)) (fun p => (cfgs p).toPCfg_adm) pdats launch4.win launch4.arr_whole c
      ((pdats 4 c).share_full fun w => by rw [hp c]; rfl) (V c) (fun w => by rw [hp c]; rfl)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hp c]; exact trivial)
      rw [show (pdats 4 c).owed 0 = 0 from by rw [hp c]; rfl]
      iexact HO
    isplitr; · iempintro
    iexact Hrest
  hin c := by
    rw [hp c, show (dat4 V c).Φ 0 = Pipeline.scopedRest (Ix := Unit) (Name := ℕ) (U := UR sig nD τ × Counters) (Lvl := ℕ) (Val := Elt F) spec4 c from rfl]
    iintro ⟨-, -, Hr⟩; iexact Hr
  hout c := by
    rw [Pipeline.ownSems0_none, hp c]
    change (Pipeline.scopedRest (Ix := Unit) (Name := ℕ) (U := UR sig nD τ × Counters) (Lvl := ℕ) (Val := Elt F) spec4 c : sProp 𝕄) ⊢ _
    iintro Hr
    isplitr; · iempintro
    isplitr; · iempintro
    iexact Hr
  hexit c := by
    have hjoin := Pipeline.unscopedBufs_of_arrays (p := 4) (pcfgs (F := F)) (fun p => (cfgs p).toPCfg_adm) (Ix := Unit) (Name := ℕ) (U := UR sig nD τ × Counters) (Lvl := ℕ) launch4.win launch4.arr_whole c
      pdats ((pdats 4 c).share_full fun w => by rw [hp c]; rfl) (V c) (Vp c) ((pdats 4 c).arrAt · cfg4.N)
      (fun w => by
        fin_cases w
        · exact (((pdats 4 c).arrAt_in 0 rfl _).trans (by rw [hp c]; rfl)).trans (hVp_ne c main_arg1 (by decide)).symm
        · exact (((pdats 4 c).arrAt_in 1 rfl _).trans (by rw [hp c]; rfl)).trans (hVp_ne c main_arg9 (by decide)).symm
        · exact (by rw [hp c]; rfl : (pdats 4 c).arrAt 2 cfg4.N = out4arr V c).trans (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W
    rw [show (pdats 4 c).owed (Fin.last _) = 0 from by rw [hp c]; rfl]
    iexact HO

end Cert.KernelIdeal.Hand

end
-- ==== Proof.KI.R05Base.lean ====
/-
  Launch 5 of the program: a matrix product accumulated over the third grid axis (grid 4 × 1 × 4: four row blocks,
  four contraction blocks), a bias row added and tanh applied when the
  last block has been added. This module names the two conditions of the body on the grid point — "the
  contraction's first block" (third coordinate 0) and "its last block" (third coordinate 3) —, decides them
  over the sixteen points, and records where the output window is idle and where its block is written back.
-/
import proofs.«113214_j66838281060556_2_alg».proof.Proof.Gen.KernelIdeal.Launch
import proofs.«113214_j66838281060556_2_alg».proof.Proof.Gen.KernelIdeal.Skeleton
import proofs.«113214_j66838281060556_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

/-- The accumulator is reset: the point starts a contraction (third grid coordinate 0). -/
abbrev cond5_0 (i : grid5.Coords) : Prop := (Scalar.cmpi .ne (Scalar.extui (Scalar.cmpi .eq (BitVec.ofNat 32 (i 2).val) 0#32)) 0#32) = 1#1
theorem hcond5_0 : ∀ t : Fin cfg5.N, cond5_0 (grid5.coords t) ↔ t.val % 4 = 0 :=
  (by decide +kernel : ∀ t : Fin grid5.N, cond5_0 (grid5.coords t) ↔ t.val % 4 = 0)

/-- The result is stored: the point ends a contraction (third grid coordinate 3). -/
abbrev cond5_1 (i : grid5.Coords) : Prop := k5_cond2 i = 1#1
theorem hcond5_1 : ∀ t : Fin cfg5.N, cond5_1 (grid5.coords t) ↔ t.val % 4 = 3 :=
  (by decide +kernel : ∀ t : Fin grid5.N, cond5_1 (grid5.coords t) ↔ t.val % 4 = 3)

/-- The three input windows are never idle. -/
theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
/-- Away from a contraction's last block the output window is idle and its block is not written back. -/
theorem idleAt5_3 : ∀ t : Fin cfg5.N, ¬cond5_1 (grid5.coords t) → cfg5.idle 3 (grid5.coords t) = true := by decide +kernel
theorem noFlush5_3 : ∀ t : Fin cfg5.N, ¬cond5_1 (grid5.coords t) → (cfg5.win 3).flush t = false := by decide +kernel
/-- At a contraction's last block the output window is live. -/
theorem liveAt5_3 : ∀ t : Fin cfg5.N, cond5_1 (grid5.coords t) → cfg5.idle 3 (grid5.coords t) = false := by decide +kernel

/-- Each window's current staging memref at a point, as the pipeline passes it, and its wholeness. -/
abbrev ms5_0 (t : Fin cfg5.N) : Memref sig .tc .vmem S1024x1024 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1024x1024 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x1024 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1024x1024 .f32 := win5_3.stage (cfg5.slots t 3)
abbrev hs5_3 (t : Fin cfg5.N) : (ms5_3 t).IsWhole := hstage5_3 ((cfg5.slots t 3).cast nbuf5_3)
/-- The accumulator: a whole scoped buffer of the launch's own. -/
abbrev scM5 : Memref sig .tc .vmem S1024x1024 .f32 := Memref.whole cc5_scratch0
abbrev VS5 : View sig .tc .vmem S1024x1024 .f32 := scM5.view

end Cert.KernelIdeal.Hand

end
-- ==== Proof.KI.R05Run.lean ====
/-
  Launch 5, the body run symbolically in each of its three control cases: the first block of a contraction
  (the accumulator reset, then the first product added), a middle block (the product added), the last block
  (the product added, then the bias row added and tanh applied into the output block). Each run's witness is
  the list of pieces its stores leave in the accumulator (and, in the last case, in the output block).
-/
import proofs.«113214_j66838281060556_2_alg».proof.Proof.KI.R05Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

set_option maxHeartbeats 2000000 in
/-- The first block of a contraction that is not also its last: the accumulator, found at anything, is reset to
    zero and ends at the product of the two input blocks added to zero; the bias block and the idle output
    block are handed back untouched. -/
noncomputable def run5_A (c : Dev nD) (i : grid5.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond5_0 i) (hc1 : ¬cond5_1 i)
    (x0 : Vec F S1024x1024 .bf16) (x1 : Vec F S1024x1024 .bf16) (x2 : Vec F S1x1024 .f32) :
    { LS : List (View.Piece (Elt F) S1024x1024 .f32) //
      ∀ (xi : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc5__mm_kernel i arg3 harg3 arg4 harg4 arg5 harg5 arg6 harg6 arg7 harg7) K } := by
  refine ⟨?_, fun xi E K => ?run⟩
  case run =>
    simp only [cc5__mm_kernel_eq_skeleton]; unfold cc5__mm_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2
    obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 2000000 in
/-- A middle block of a contraction (neither condition holds): the accumulator, found at `xs`, ends at the
    product of the two input blocks added to `xs`; the bias block and the idle output block are handed back
    untouched. The pieces written into the accumulator are the witness the symbolic run finds. -/
noncomputable def run5_B (c : Dev nD) (i : grid5.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond5_0 i) (hc1 : ¬cond5_1 i)
    (x0 : Vec F S1024x1024 .bf16) (x1 : Vec F S1024x1024 .bf16) (x2 : Vec F S1x1024 .f32) (xs : Vec F S1024x1024 .f32) :
    { LS : List (View.Piece (Elt F) S1024x1024 .f32) //
      ∀ (xi : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi ∗ owns (c : Thread nD τ) arg7 fullShare xs
            ∗ (iprop(owns (c : Thread nD τ) arg3 fullShare x0 ∗ owns (c : Thread nD τ) arg4 fullShare x1 ∗ owns (c : Thread nD τ) arg5 fullShare x2
                ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc5__mm_kernel i arg3 harg3 arg4 harg4 arg5 harg5 arg6 harg6 arg7 harg7) K } := by
  refine ⟨?_, fun xi E K => ?run⟩
  case run =>
    simp only [cc5__mm_kernel_eq_skeleton]; unfold cc5__mm_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 2000000 in
/-- The last block of a contraction that is not also its first: the accumulator, found at `xs`, ends at the
    product of the two input blocks added to `xs`, and the output block, found at anything, is stored whole:
    tanh of that sum plus the bias row. -/
noncomputable def run5_C (c : Dev nD) (i : grid5.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond5_0 i) (hc1 : cond5_1 i)
    (x0 : Vec F S1024x1024 .bf16) (x1 : Vec F S1024x1024 .bf16) (x2 : Vec F S1x1024 .f32) (xs : Vec F S1024x1024 .f32) :
    Σ' (LO : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LS)) -∗ K ⟨⟩))
          ⊢ wp frame (wpE (defs₀ (F := F)) Variants.none c none) E (cc5__mm_kernel i arg3 harg3 arg4 harg4 arg5 harg5 arg6 harg6 arg7 harg7) K } := by
  refine ⟨?_, ?_, fun E K => ?run⟩
  case run =>
    simp only [cc5__mm_kernel_eq_skeleton]; unfold cc5__mm_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2
    obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    iexists _; iexact HS

end Cert.KernelIdeal.Hand

end
-- ==== Proof.KI.R05.lean ====
/-
  Launch 5 as a segment of the program: tanh(A·B + bias) with A a graph matrix, B the right
  factor and a bias row, computed block by block on the grid 4 × 1 × 4 with an accumulator carried along the
  contraction. What the accumulator and the output block hold after each point is defined by recursion on the
  point (the first block of a contraction resets, a middle block adds, the last block adds and stores tanh of the
  sum plus the bias); the invariant between points is the accumulator at that value beside the launch's other
  scoped buffers; the proof data states each window's block after the body; the body obligation is the three
  symbolic runs put together by cases on the point's position in its contraction; and the segment record enters
  the launch from a thread state holding every unscoped buffer at an entry valuation and leaves it at the
  valuation updated at the result's array.
-/
import proofs.«113214_j66838281060556_2_alg».proof.Proof.KI.R05Run
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

variable (V : (c : Dev nD) → (b : Ref sig .tc) → Buf (Elt F) ((c : Thread nD τ).loc b))

/-! ## The blocks the windows stage -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- A view of the output's staging buffer and one of the accumulator, through which contents are stated. -/
abbrev VO5 : View sig .tc .vmem S1024x1024 .f32 := (Memref.whole cc5_stg3_0 : Memref sig .tc .vmem S1024x1024 .f32).view

/-! ## What each case leaves -/

/-- The accumulator after a first block. -/
def accA5 (c : Dev nD) (t : Fin cfg5.N) (h0 : t.val % 4 = 0) (h1 : ¬t.val % 4 = 3) : Vec F S1024x1024 .f32 :=
  VS5.read (Elt F) (VS5.writes (Elt F) VS5.junk (run5_A c (grid5.coords t) (ms5_0 t) (hs5_0 t) (ms5_1 t) (hs5_1 t) (ms5_2 t) (hs5_2 t) (ms5_3 t) (hs5_3 t) scM5 (Memref.isWhole_whole _) ((hcond5_0 t).mpr h0) (fun h => h1 ((hcond5_1 t).mp h)) (iblk5 V c 0 t) (iblk5 V c 1 t) (iblk5 V c 2 t)).1)
/-- The accumulator after a middle block, from what the point before left. -/
def accB5 (c : Dev nD) (t : Fin cfg5.N) (h0 : ¬t.val % 4 = 0) (h1 : ¬t.val % 4 = 3) (xs : Vec F S1024x1024 .f32) : Vec F S1024x1024 .f32 :=
  VS5.read (Elt F) (VS5.writes (Elt F) VS5.junk (run5_B c (grid5.coords t) (ms5_0 t) (hs5_0 t) (ms5_1 t) (hs5_1 t) (ms5_2 t) (hs5_2 t) (ms5_3 t) (hs5_3 t) scM5 (Memref.isWhole_whole _) (fun h => h0 ((hcond5_0 t).mp h)) (fun h => h1 ((hcond5_1 t).mp h)) (iblk5 V c 0 t) (iblk5 V c 1 t) (iblk5 V c 2 t) xs).1)
/-- The accumulator after a last block, -/
def accC5 (c : Dev nD) (t : Fin cfg5.N) (h0 : ¬t.val % 4 = 0) (h1 : t.val % 4 = 3) (xs : Vec F S1024x1024 .f32) : Vec F S1024x1024 .f32 :=
  VS5.read (Elt F) (VS5.writes (Elt F) VS5.junk (run5_C c (grid5.coords t) (ms5_0 t) (hs5_0 t) (ms5_1 t) (hs5_1 t) (ms5_2 t) (hs5_2 t) (ms5_3 t) (hs5_3 t) scM5 (Memref.isWhole_whole _) (fun h => h0 ((hcond5_0 t).mp h)) ((hcond5_1 t).mpr h1) (iblk5 V c 0 t) (iblk5 V c 1 t) (iblk5 V c 2 t) xs).2.1)
/-- and the output block stored there. -/
def outC5 (c : Dev nD) (t : Fin cfg5.N) (h0 : ¬t.val % 4 = 0) (h1 : t.val % 4 = 3) (xs : Vec F S1024x1024 .f32) : Vec F S1024x1024 .f32 :=
  VO5.read (Elt F) (VO5.writes (Elt F) VO5.junk (run5_C c (grid5.coords t) (ms5_0 t) (hs5_0 t) (ms5_1 t) (hs5_1 t) (ms5_2 t) (hs5_2 t) (ms5_3 t) (hs5_3 t) scM5 (Memref.isWhole_whole _) (fun h => h0 ((hcond5_0 t).mp h)) ((hcond5_1 t).mpr h1) (iblk5 V c 0 t) (iblk5 V c 1 t) (iblk5 V c 2 t) xs).1)

theorem coverA5 (c : Dev nD) (t : Fin cfg5.N) (h0 : t.val % 4 = 0) (h1 : ¬t.val % 4 = 3) (y : S1024x1024.Idx) :
    ∃ pc ∈ (run5_A c (grid5.coords t) (ms5_0 t) (hs5_0 t) (ms5_1 t) (hs5_1 t) (ms5_2 t) (hs5_2 t) (ms5_3 t) (hs5_3 t) scM5 (Memref.isWhole_whole _) ((hcond5_0 t).mpr h0) (fun h => h1 ((hcond5_1 t).mp h)) (iblk5 V c 0 t) (iblk5 V c 1 t) (iblk5 V c 2 t)).1, y ∈ pc.1.set :=
  View.cover_of_tiledL _ S1024x1024.size (by sl_kernel_rfl) y
theorem coverB5 (c : Dev nD) (t : Fin cfg5.N) (h0 : ¬t.val % 4 = 0) (h1 : ¬t.val % 4 = 3) (xs : Vec F S1024x1024 .f32) (y : S1024x1024.Idx) :
    ∃ pc ∈ (run5_B c (grid5.coords t) (ms5_0 t) (hs5_0 t) (ms5_1 t) (hs5_1 t) (ms5_2 t) (hs5_2 t) (ms5_3 t) (hs5_3 t) scM5 (Memref.isWhole_whole _) (fun h => h0 ((hcond5_0 t).mp h)) (fun h => h1 ((hcond5_1 t).mp h)) (iblk5 V c 0 t) (iblk5 V c 1 t) (iblk5 V c 2 t) xs).1, y ∈ pc.1.set :=
  View.cover_of_tiledL _ S1024x1024.size (by sl_kernel_rfl) y
theorem coverCs5 (c : Dev nD) (t : Fin cfg5.N) (h0 : ¬t.val % 4 = 0) (h1 : t.val % 4 = 3) (xs : Vec F S1024x1024 .f32) (y : S1024x1024.Idx) :
    ∃ pc ∈ (run5_C c (grid5.coords t) (ms5_0 t) (hs5_0 t) (ms5_1 t) (hs5_1 t) (ms5_2 t) (hs5_2 t) (ms5_3 t) (hs5_3 t) scM5 (Memref.isWhole_whole _) (fun h => h0 ((hcond5_0 t).mp h)) ((hcond5_1 t).mpr h1) (iblk5 V c 0 t) (iblk5 V c 1 t) (iblk5 V c 2 t) xs).2.1, y ∈ pc.1.set :=
  View.cover_of_tiledL _ S1024x1024.size (by sl_kernel_rfl) y
theorem coverCo5 (c : Dev nD) (t : Fin cfg5.N) (h0 : ¬t.val % 4 = 0) (h1 : t.val % 4 = 3) (xs : Vec F S1024x1024 .f32) (y : S1024x1024.Idx) :
    ∃ pc ∈ (run5_C c (grid5.coords t) (ms5_0 t) (hs5_0 t) (ms5_1 t) (hs5_1 t) (ms5_2 t) (hs5_2 t) (ms5_3 t) (hs5_3 t) scM5 (Memref.isWhole_whole _) (fun h => h0 ((hcond5_0 t).mp h)) ((hcond5_1 t).mpr h1) (iblk5 V c 0 t) (iblk5 V c 1 t) (iblk5 V c 2 t) xs).1, y ∈ pc.1.set :=
  View.cover_of_tiledL _ S1024x1024.size (by sl_kernel_rfl) y

/-! ## The accumulation, point by point -/

/-- What the output's staging buffer (first component; meaningful at a contraction's last block only) and the
    accumulator (second component) hold after the body at position `n`. -/
def outsAt5 (c : Dev nD) : (n : ℕ) → n < cfg5.N → Vec F S1024x1024 .f32 × Vec F S1024x1024 .f32
  | 0, hn => (VO5.read (Elt F) VO5.junk, accA5 V c ⟨0, hn⟩ (Nat.zero_mod _) (by simp))
  | n + 1, hn =>
    if h0 : (n + 1) % 4 = 0 then
      if h1 : (n + 1) % 4 = 3 then False.elim (by omega)
      else (VO5.read (Elt F) VO5.junk, accA5 V c ⟨n + 1, hn⟩ h0 h1)
    else
      if h1 : (n + 1) % 4 = 3 then
        (outC5 V c ⟨n + 1, hn⟩ h0 h1 (outsAt5 c n (Nat.lt_of_succ_lt hn)).2, accC5 V c ⟨n + 1, hn⟩ h0 h1 (outsAt5 c n (Nat.lt_of_succ_lt hn)).2)
      else
        (VO5.read (Elt F) VO5.junk, accB5 V c ⟨n + 1, hn⟩ h0 h1 (outsAt5 c n (Nat.lt_of_succ_lt hn)).2)

theorem outsAt5_A (c : Dev nD) (t : Fin cfg5.N) (h0 : t.val % 4 = 0) (h1 : ¬t.val % 4 = 3) :
    outsAt5 V c t.val t.isLt = (VO5.read (Elt F) VO5.junk, accA5 V c t h0 h1) := by
  obtain ⟨n, hn⟩ := t
  cases n with
  | zero => exact rfl
  | succ n => exact (dif_pos h0).trans ((dif_neg h1).trans rfl)

theorem outsAt5_B (c : Dev nD) (t : Fin cfg5.N) (h0 : ¬t.val % 4 = 0) (h1 : ¬t.val % 4 = 3) :
    outsAt5 V c t.val t.isLt = (VO5.read (Elt F) VO5.junk, accB5 V c t h0 h1 (outsAt5 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt5_C (c : Dev nD) (t : Fin cfg5.N) (h0 : ¬t.val % 4 = 0) (h1 : t.val % 4 = 3) :
    outsAt5 V c t.val t.isLt = (outC5 V c t h0 h1 (outsAt5 V c (t.val - 1) (Nat.lt_of_le_of_lt (Nat.sub_le _ _) t.isLt)).2,
      accC5 V c t h0 h1 (outsAt5 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant between points -/

/-- Before the first point the launch's scoped buffers that no window stages, whole; afterwards the accumulator at
    what the point before left, and the other such buffers unopened. -/
def PhiS5 (c : Dev nD) : (n : ℕ) → n ≤ cfg5.N → sProp 𝕄
  | 0, _ => Pipeline.scopedRest (Ix := Unit) (Name := ℕ) (U := UR sig nD τ × Counters) (Lvl := ℕ) (Val := Elt F) spec5 c
  | n + 1, hn => iprop(owns (c : Thread nD τ) scM5 fullShare (outsAt5 V c n hn).2
      ∗ Pipeline.scopedRestBut (Ix := Unit) (Name := ℕ) (U := UR sig nD τ × Counters) (Lvl := ℕ) (Val := Elt F) spec5 c [cc5_scratch0])

theorem PhiS5_pos (c : Dev nD) (n : ℕ) (h : n ≤ cfg5.N) (hz : n ≠ 0) :
    PhiS5 V c n h = iprop(owns (c : Thread nD τ) scM5 fullShare (outsAt5 V c (n - 1) (by omega)).2
      ∗ Pipeline.scopedRestBut (Ix := Unit) (Name := ℕ) (U := UR sig nD τ × Counters) (Lvl := ℕ) (Val := Elt F) spec5 c [cc5_scratch0]) := by
  cases n with
  | zero => exact absurd rfl hz
  | succ n => rfl

/-- The scoped rest with the accumulator split out as a memref owned at some contents. -/
theorem scopedRest5_eq (c : Dev nD) :
    (Pipeline.scopedRest (Ix := Unit) (Name := ℕ) (U := UR sig nD τ × Counters) (Lvl := ℕ) (Val := Elt F) spec5 c : sProp 𝕄)
      = iprop((∃ d, owns (c : Thread nD τ) scM5 fullShare d)
          ∗ Pipeline.scopedRestBut (Ix := Unit) (Name := ℕ) (U := UR sig nD τ × Counters) (Lvl := ℕ) (Val := Elt F) spec5 c [cc5_scratch0]) := by
  rw [scopedRest5_split]; simp only [scM5, owns_whole]; try rfl

/-! ## The proof data -/

def dat5 (c : Dev nD) : Dat τ (Elt F) Unit ℕ (UR sig nD τ × Counters) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := PhiS5 V c t.val (Nat.le_of_lt_succ t.isLt)
  q _ := fullShare
  owed _ := 0

theorem A5_eq (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (outsAt5 V c t.val t.isLt).1 := by dsimp only [dat5]

theorem Phi5_castSucc (c : Dev nD) (t : Fin cfg5.N) :
    (dat5 V c).Φ t.castSucc = PhiS5 V c t.val (Nat.le_of_lt t.isLt) := by
  dsimp only [dat5]; simp only [Fin.coe_castSucc]

/-- Each input window's current staging buffer holds its block at every point, fetched there or not. -/
theorem before5_0 (c : Dev nD) (t : Fin cfg5.N) (d) : (dat5 V c).before 0 t d = iblk5 V c 0 t :=
  ((dat5 V c).before_in_eq_fetched 0 rfl (fun _ => rfl) (fun _ _ _ => rfl) (fun t => by rw [after5_0]; unfold Dat.blockOf iblk5; rw [A5_eq]; try rfl) t d).trans
    (by unfold Dat.fetched Dat.blockOf iblk5; rw [A5_eq]; try rfl)
theorem before5_1 (c : Dev nD) (t : Fin cfg5.N) (d) : (dat5 V c).before 1 t d = iblk5 V c 1 t :=
  ((dat5 V c).before_in_eq_fetched 1 rfl (fun _ => rfl) (fun _ _ _ => rfl) (fun t => by rw [after5_1]; unfold Dat.blockOf iblk5; rw [A5_eq]; try rfl) t d).trans
    (by unfold Dat.fetched Dat.blockOf iblk5; rw [A5_eq]; try rfl)
theorem before5_2 (c : Dev nD) (t : Fin cfg5.N) (d) : (dat5 V c).before 2 t d = iblk5 V c 2 t :=
  ((dat5 V c).before_in_eq_fetched 2 rfl (fun _ => rfl) (fun _ _ _ => rfl) (fun t => by rw [after5_2]; unfold Dat.blockOf iblk5; rw [A5_eq]; try rfl) t d).trans
    (by unfold Dat.fetched Dat.blockOf iblk5; rw [A5_eq]; try rfl)

/-! ## The body obligation at a generic point -/

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t ∗ (dat5 V c).leavesExact 1 t ∗ (dat5 V c).leavesExact 2 t ∗ (dat5 V c).leavesExact 3 t)

set_option maxHeartbeats 4000000 in
/-- The body at any point. The three input buffers hold their blocks; the point's position in its contraction
    selects the case; the invariant hands over the accumulator (at anything before the very first point, else at
    what the point before left) and takes it back at this point's contents; an idle output buffer is handed back
    as found, a stored one at the case's block; the core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = iprop(owns (c : Thread nD τ) scM5 fullShare (outsAt5 V c t.val t.isLt).2
      ∗ Pipeline.scopedRestBut (Ix := Unit) (Name := ℕ) (U := UR sig nD τ × Counters) (Lvl := ℕ) (Val := Elt F) spec5 c [cc5_scratch0]) from rfl]
  have hN : t.val < 16 := lt_of_lt_of_eq t.isLt (show cfg5.N = 16 from N_5)
  rw [show (dat5 V c).leavesExact 0 t = owns (c : Thread nD τ) (ms5_0 t) fullShare (iblk5 V c 0 t) from by
    unfold Dat.leavesExact; rw [liveAt5_0 t, after5_0]]
  rw [show (dat5 V c).leavesExact 1 t = owns (c : Thread nD τ) (ms5_1 t) fullShare (iblk5 V c 1 t) from by
    unfold Dat.leavesExact; rw [liveAt5_1 t, after5_1]]
  rw [show (dat5 V c).leavesExact 2 t = owns (c : Thread nD τ) (ms5_2 t) fullShare (iblk5 V c 2 t) from by
    unfold Dat.leavesExact; rw [liveAt5_2 t, after5_2]]
  rw [Phi5_castSucc V c t]
  by_cases h1 : t.val % 4 = 3
  · -- the last block of a contraction
    have h0 : ¬t.val % 4 = 0 := by omega
    have hz : t.val ≠ 0 := by omega
    rw [show (dat5 V c).leavesExact 3 t = owns (c : Thread nD τ) (ms5_3 t) fullShare (outsAt5 V c t.val t.isLt).1 from by
      unfold Dat.leavesExact; rw [liveAt5_3 t ((hcond5_1 t).mpr h1), after5_3]]
    rw [outsAt5_C V c t h0 h1, PhiS5_pos V c _ _ hz]
    dsimp only
    unfold outC5 accC5
    iintro ⟨⟨HS, Hb⟩, Ho, ⟨%d0, H0⟩, ⟨%d1, H1⟩, ⟨%d2, H2⟩, ⟨%d3, H3⟩⟩
    iapply ((run5_C c (grid5.coords t) (ms5_0 t) (hs5_0 t) (ms5_1 t) (hs5_1 t) (ms5_2 t) (hs5_2 t) (ms5_3 t) (hs5_3 t) scM5 (Memref.isWhole_whole _) (fun h => h0 ((hcond5_0 t).mp h)) ((hcond5_1 t).mpr h1) (iblk5 V c 0 t) (iblk5 V c 1 t) (iblk5 V c 2 t) _).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hb]
    · isplitl [HS]
      · unfold owns; iexists _; isplitr
        swap; · iexact HS
        ipureintro; exact View.read_writes_of_cover _ _ _ _ _ (coverCs5 V c t h0 h1 _)
      iexact Hb
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverCo5 V c t h0 h1 _)
  · rw [Dat.leavesExact_idle (dat5 V c) 3 t (idleAt5_3 t (fun h => h1 ((hcond5_1 t).mp h))) (noFlush5_3 t (fun h => h1 ((hcond5_1 t).mp h)))]
    by_cases h0 : t.val % 4 = 0
    · -- the first block of a contraction
      rw [outsAt5_A V c t h0 h1]
      dsimp only
      unfold accA5
      by_cases hz : t.val = 0
      · rw [show PhiS5 V c t.val (Nat.le_of_lt t.isLt) = Pipeline.scopedRest (Ix := Unit) (Name := ℕ) (U := UR sig nD τ × Counters) (Lvl := ℕ) (Val := Elt F) spec5 c from by
          obtain ⟨n, hn⟩ := t; dsimp only at hz; subst hz; rfl, scopedRest5_eq]
        iintro ⟨⟨HS, Hb⟩, Ho, ⟨%d0, H0⟩, ⟨%d1, H1⟩, ⟨%d2, H2⟩, ⟨%d3, H3⟩⟩
        iapply ((run5_A c (grid5.coords t) (ms5_0 t) (hs5_0 t) (ms5_1 t) (hs5_1 t) (ms5_2 t) (hs5_2 t) (ms5_3 t) (hs5_3 t) scM5 (Memref.isWhole_whole _) ((hcond5_0 t).mpr h0) (fun h => h1 ((hcond5_1 t).mp h)) (iblk5 V c 0 t) (iblk5 V c 1 t) (iblk5 V c 2 t)).2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hb]
        · isplitl [HS]
          · unfold owns; iexists _; isplitr
            swap; · iexact HS
            ipureintro; exact View.read_writes_of_cover _ _ _ _ _ (coverA5 V c t h0 h1)
          iexact Hb
        isplitl [Ho]; · iexact Ho
        isplitl [H0]; · iexact H0
        isplitl [H1]; · iexact H1
        isplitl [H2]; · iexact H2
        iexists _; iexact H3
      · rw [PhiS5_pos V c _ _ hz]
        iintro ⟨⟨HS, Hb⟩, Ho, ⟨%d0, H0⟩, ⟨%d1, H1⟩, ⟨%d2, H2⟩, ⟨%d3, H3⟩⟩
        iapply ((run5_A c (grid5.coords t) (ms5_0 t) (hs5_0 t) (ms5_1 t) (hs5_1 t) (ms5_2 t) (hs5_2 t) (ms5_3 t) (hs5_3 t) scM5 (Memref.isWhole_whole _) ((hcond5_0 t).mpr h0) (fun h => h1 ((hcond5_1 t).mp h)) (iblk5 V c 0 t) (iblk5 V c 1 t) (iblk5 V c 2 t)).2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hb]
        · isplitl [HS]
          · unfold owns; iexists _; isplitr
            swap; · iexact HS
            ipureintro; exact View.read_writes_of_cover _ _ _ _ _ (coverA5 V c t h0 h1)
          iexact Hb
        isplitl [Ho]; · iexact Ho
        isplitl [H0]; · iexact H0
        isplitl [H1]; · iexact H1
        isplitl [H2]; · iexact H2
        iexists _; iexact H3
    · -- a middle block
      have hz : t.val ≠ 0 := by omega
      rw [outsAt5_B V c t h0 h1, PhiS5_pos V c _ _ hz]
      dsimp only
      unfold accB5
      iintro ⟨⟨HS, Hb⟩, Ho, ⟨%d0, H0⟩, ⟨%d1, H1⟩, ⟨%d2, H2⟩, ⟨%d3, H3⟩⟩
      iapply ((run5_B c (grid5.coords t) (ms5_0 t) (hs5_0 t) (ms5_1 t) (hs5_1 t) (ms5_2 t) (hs5_2 t) (ms5_3 t) (hs5_3 t) scM5 (Memref.isWhole_whole _) (fun h => h0 ((hcond5_0 t).mp h)) (fun h => h1 ((hcond5_1 t).mp h)) (iblk5 V c 0 t) (iblk5 V c 1 t) (iblk5 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hb]
      · isplitl [HS]
        · unfold owns; iexists _; isplitr
          swap; · iexact HS
          ipureintro; exact View.read_writes_of_cover _ _ _ _ _ (coverB5 V c t h0 h1 _)
        iexact Hb
      isplitl [Ho]; · iexact Ho
      isplitl [H0]; · iexact H0
      isplitl [H1]; · iexact H1
      isplitl [H2]; · iexact H2
      iexists _; iexact H3

theorem body_obligation5 (c : Dev nD) : BodyObligation (dat5 V c) (defs₀ (F := F)) Variants.none () Set.univ := fun t => by
  rw [bigSep_W5, bigSep_W5]
  exact sound_body5 V c t

/-! ## The region over the thread state -/

variable (Vp : (c : Dev nD) → (b : Ref sig .tc) → Buf (Elt F) ((c : Thread nD τ).loc b))
variable (pdats : (p : Fin 22) → (c : Dev nD) → Dat τ (Elt F) Unit ℕ (UR sig nD τ × Counters) ℕ (cfgs p) c)

/-- The result's array after the region, as the pipeline library computes it from the proof data. -/
def out5 (c : Dev nD) : Buf (Elt F) ((c : Thread nD τ).loc main_v10) := (dat5 V c).arrAt 3 cfg5.N

set_option backward.isDefEq.respectTransparency.types false in
set_option maxHeartbeats 2000000 in
/-- Launch 5 over the thread state "every unscoped buffer at `V c`, the core owing nothing": entered by
    splitting its four arrays out of the unscoped buffers, left with them put back at `Vp c`, which has the
    result's array at `out5` and agrees with `V c` elsewhere. -/
def reg5 (hp : ∀ c, pdats 5 c = dat5 V c)
    (hVp_out : ∀ c, Vp c main_v10 = out5 V c)
    (hVp_ne : ∀ c (b : Ref sig .tc), b ≠ main_v10 → Vp c b = V c b) :
    Pipeline.RegionSeg (pcfgs (F := F)) (fun p => (cfgs p).toPCfg_adm) pdats () defs₀ Variants.none (fun _ => (∅ : Finset Unit)) (fun _ _ => (0 : ℕ)) 5 where
  win := launch5.win.to₀
  block_pos := launch5.block_pos
  stage_whole := launch5.stage_whole
  K := PEmpty
  osem k := k.elim
  ho := Pipeline.OwnSemFacts.none _
  hbody c := by rw [hp c]; exact (body_obligation5 V c).loose
  hwaits := Pipeline.hwaits_of_owed_zero _ _ _ _ _ _ 5 fun c t => by rw [hp c]; rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ × Counters) (Lvl := ℕ) spec5 c (V c)
  hentry c := by
    rw [Pipeline.ownSems0_none]
    have hsplit := Pipeline.arrays_of_unscopedBufs (p := 5) (pcfgs (F := F)) (fun p => (cfgs p).toPCfg_adm) pdats launch5.win launch5.arr_whole c
      ((pdats 5 c).share_full fun w => by rw [hp c]; rfl) (V c) (fun w => by rw [hp c]; rfl)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hp c]
      unfold Pipeline.Dat.owesAt Pipeline.owesWithin
      icases HO with ⟨%W, HO⟩; iexists W; isplitr; · ipureintro; exact fun _ _ => Or.inl trivial
      iexact HO
    isplitr; · iempintro
    iexact Hrest
  hin c := by
    rw [hp c, show (dat5 V c).Φ 0 = Pipeline.scopedRest (Ix := Unit) (Name := ℕ) (U := UR sig nD τ × Counters) (Lvl := ℕ) (Val := Elt F) spec5 c from rfl]
    iintro ⟨-, -, Hr⟩; iexact Hr
  hout c := by
    rw [Pipeline.ownSems0_none, hp c]
    refine (Entails.of_eq ((show (dat5 V c).Φ (Fin.last _) = PhiS5 V c (Fin.last cfg5.N).val (Nat.le_of_lt_succ (Fin.last cfg5.N).isLt) from rfl).trans
      (PhiS5_pos V c _ _ (by rw [Fin.val_last]; have : cfg5.N = 16 := N_5; omega)))).trans ?_
    change _ ⊢ iprop(BI.emp ∗ BI.emp ∗ Pipeline.scopedRest (Ix := Unit) (Name := ℕ) (U := UR sig nD τ × Counters) (Lvl := ℕ) (Val := Elt F) spec5 c)
    rw [scopedRest5_eq]
    iintro ⟨HS, Hb⟩
    isplitr; · iempintro
    isplitr; · iempintro
    isplitl [HS]; · iexists _; iexact HS
    iexact Hb
  hexit c := by
    have hjoin := Pipeline.unscopedBufs_of_arrays (p := 5) (pcfgs (F := F)) (fun p => (cfgs p).toPCfg_adm) (Ix := Unit) (Name := ℕ) (U := UR sig nD τ × Counters) (Lvl := ℕ) launch5.win launch5.arr_whole c
      pdats ((pdats 5 c).share_full fun w => by rw [hp c]; rfl) (V c) (Vp c) ((pdats 5 c).arrAt · cfg5.N)
      (fun w => by
        fin_cases w
        · exact (((pdats 5 c).arrAt_in 0 rfl _).trans (by rw [hp c]; rfl)).trans (hVp_ne c main_v1 (by decide)).symm
        · exact (((pdats 5 c).arrAt_in 1 rfl _).trans (by rw [hp c]; rfl)).trans (hVp_ne c main_v8 (by decide)).symm
        · exact (((pdats 5 c).arrAt_in 2 rfl _).trans (by rw [hp c]; rfl)).trans (hVp_ne c main_v9 (by decide)).symm
        · exact (by rw [hp c]; rfl : (pdats 5 c).arrAt 3 cfg5.N = out5 V c).trans (hVp_out c).symm)
      (fun b hb => hVp_ne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W
    rw [show (pdats 5 c).owed (Fin.last _) = 0 from by rw [hp c]; rfl]
    iexact HO

end Cert.KernelIdeal.Hand

end
-- ==== Proof.KI.R06Base.lean ====
/-
  Launch 6 of the program: one matrix product per grid point — the contraction is a single block —, from which the
  output block is stored at every point. The grid's third coordinate is always 0, so both conditions of the body —
  "the contraction's first block" and "its last block" — hold at every point: this module decides them over the
  grid's points, records that no window is ever idle, and names the staging memrefs the body is called with.
-/
import proofs.«113214_j66838281060556_2_alg».proof.Proof.Gen.KernelIdeal.Launch
import proofs.«113214_j66838281060556_2_alg».proof.Proof.Gen.KernelIdeal.Skeleton
import proofs.«113214_j66838281060556_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

/-- The accumulator is reset: the point starts a contraction (third grid coordinate 0). Here the third axis has one
    coordinate, so every point does. -/
abbrev cond6_0 (i : grid6.Coords) : Prop := (Scalar.cmpi .ne (Scalar.extui (Scalar.cmpi .eq (BitVec.ofNat 32 (i 2).val) 0#32)) 0#32) = 1#1
theorem hcond6_0 : ∀ t : Fin cfg6.N, cond6_0 (grid6.coords t) :=
  (by decide +kernel : ∀ t : Fin grid6.N, cond6_0 (grid6.coords t))

/-- The result is stored: the point ends a contraction. Every point does. -/
abbrev cond6_1 (i : grid6.Coords) : Prop := k6_cond2 i = 1#1
theorem hcond6_1 : ∀ t : Fin cfg6.N, cond6_1 (grid6.coords t) :=
  (by decide +kernel : ∀ t : Fin grid6.N, cond6_1 (grid6.coords t))

/-- No window is idle at any point: the two inputs never, the output because every point stores. -/
theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel

/-- Each window's current staging memref at a point, as the pipeline passes it, and its wholeness. -/
abbrev ms6_0 (t : Fin cfg6.N) : Memref sig .tc .vmem S1024x1024 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S1024x819 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1024x819 .bf16 := win6_2.stage (cfg6.slots t 2)
abbrev hs6_2 (t : Fin cfg6.N) : (ms6_2 t).IsWhole := hstage6_2 ((cfg6.slots t 2).cast nbuf6_2)
/-- The accumulator: a whole scoped buffer of the launch's own. -/
abbrev scM6 : Memref sig .tc .vmem S1024x819 .f32 := Memref.whole cc6_scratch0
abbrev VS6 : View sig .tc .vmem S1024x819 .f32 := scM6.view

end Cert.KernelIdeal.Hand

end
-- ==== Proof.KI.R06Run.lean ====
/-
  Launch 6, the body run symbolically in its one control case: the accumulator reset, the product added, the output
  block stored from the sum. The run's witnesses are the lists of pieces its stores leave in the output block and in
  the accumulator.
-/
import proofs.«113214_j66838281060556_2_alg».proof.Proof.KI.R06Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

set_option maxHeartbeats 2000000 in
/-- The body at a point, run symbolically: the accumulator, found at anything, is reset and ends at the product of
    the two input blocks added to it; the output block, found at anything, is stored whole from that sum. The
    witnesses are the pieces the stores leave in the output block and in the accumulator. -/
noncomputable def run6 (c : Dev nD) (i : grid6.Coords) (arg3 : Memref sig .tc .vmem S1024x1024 .f32) (harg3 : arg3.IsWhole) (arg4 : Memref sig .tc .vmem S1024x819 .f32) (harg4 : arg4.IsWhole) (arg5 : Memref sig .tc .vmem S1024x819 .bf16) (harg5 : arg5.IsWhole) (arg6 : Memref sig .tc .vmem S1024x819 .f32) (harg6 : arg6.IsWhole) (hc0 : cond6_0 i) (hc1 : cond6_1 i)
    (x0 : Vec F S1024x1024 .f32) (x1 : Vec F S1024x819 .f32) :
    Σ' (LO : List (View.Piece (Elt F) S1024x819 .bf16)), { LS : List (View.Piece (Elt F) S1024x819 .f32) //
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc6__mm_kernel i arg3 harg3 arg4 harg4 arg5 harg5 arg6 harg6) K } := by
  refine ⟨?_, ?_, fun E K => ?run⟩
  case run =>
    simp only [cc6__mm_kernel_eq_skeleton]; unfold cc6__mm_kernel_skel
    unfold owns
    iintro ⟨⟨%f0, %hf0, H0⟩, ⟨%f1, %hf1, H1⟩, ⟨%d2, %f2, -, H2⟩, ⟨%ds, %fs, -, HS⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact HS

end Cert.KernelIdeal.Hand

end
-- ==== Proof.KI.R06.lean ====
/-
  Launch 6 as a region of the program. The blocks the windows stage are read off the arrays as the region finds
  them; a point stores the output block its run leaves; the accumulator is reset at every point, so between points
  the launch's scoped buffers that no window stages are simply held whole at anything; the body obligation follows
  from the one symbolic run; and the region is stated over the thread state "every unscoped buffer at given
  contents, the core owing nothing", entered by splitting the three arrays out and left with the result's array
  at what the pipeline computes from the stored blocks.
-/
import proofs.«113214_j66838281060556_2_alg».proof.Proof.KI.R06Run
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

variable (V : (c : Dev nD) → (b : Ref sig .tc) → Buf (Elt F) ((c : Thread nD τ).loc b))

/-! ## The blocks the windows stage -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- A view of the output's staging buffer, through which contents are stated. -/
abbrev VO6 : View sig .tc .vmem S1024x819 .bf16 := (Memref.whole cc6_stg2_0 : Memref sig .tc .vmem S1024x819 .bf16).view

/-! ## What a point leaves -/

/-- The output block a point stores: what the run's pieces leave, read through the staging buffer's view. -/
def out6 (c : Dev nD) (t : Fin cfg6.N) : Vec F S1024x819 .bf16 :=
  VO6.read (Elt F) (VO6.writes (Elt F) VO6.junk (run6 c (grid6.coords t) (ms6_0 t) (hs6_0 t) (ms6_1 t) (hs6_1 t) (ms6_2 t) (hs6_2 t) scM6 (Memref.isWhole_whole _) (hcond6_0 t) (hcond6_1 t) (iblk6 V c 0 t) (iblk6 V c 1 t)).1)

/-- The stores into the output block cover it. -/
theorem coverO6 (c : Dev nD) (t : Fin cfg6.N) (y : S1024x819.Idx) :
    ∃ pc ∈ (run6 c (grid6.coords t) (ms6_0 t) (hs6_0 t) (ms6_1 t) (hs6_1 t) (ms6_2 t) (hs6_2 t) scM6 (Memref.isWhole_whole _) (hcond6_0 t) (hcond6_1 t) (iblk6 V c 0 t) (iblk6 V c 1 t)).1, y ∈ pc.1.set :=
  View.cover_of_tiledL _ S1024x819.size (by sl_kernel_rfl) y

/-! ## The invariant between points -/

/-- The scoped rest with the accumulator split out as a memref owned at some contents. The accumulator is reset at
    every point, so the invariant between points is the scoped rest itself, the accumulator at anything. -/
theorem scopedRest6_eq (c : Dev nD) :
    (Pipeline.scopedRest (Ix := Unit) (Name := ℕ) (U := UR sig nD τ × Counters) (Lvl := ℕ) (Val := Elt F) spec6 c : sProp 𝕄)
      = iprop((∃ d, owns (c : Thread nD τ) scM6 fullShare d)
          ∗ Pipeline.scopedRestBut (Ix := Unit) (Name := ℕ) (U := UR sig nD τ × Counters) (Lvl := ℕ) (Val := Elt F) spec6 c [cc6_scratch0]) := by
  rw [scopedRest6_split]; simp only [scM6, owns_whole]; try rfl

/-! ## The proof data -/

def dat6 (c : Dev nD) : Dat τ (Elt F) Unit ℕ (UR sig nD τ × Counters) ℕ cfg6 c where
  A w := V c (Pipeline.arrRef spec6 w)
  after w t := match w with
    | ⟨0, _⟩ => iblk6 V c 0 t
    | ⟨1, _⟩ => iblk6 V c 1 t
    | ⟨2, _⟩ => out6 V c t
  Φ _ := Pipeline.scopedRest (Ix := Unit) (Name := ℕ) (U := UR sig nD τ × Counters) (Lvl := ℕ) (Val := Elt F) spec6 c
  q _ := fullShare
  owed _ := 0

theorem A6_eq (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6 V c t := by dsimp only [dat6]

/-- Each input window's current staging buffer holds its block at every point, fetched there or not. -/
theorem before6_0 (c : Dev nD) (t : Fin cfg6.N) (d) : (dat6 V c).before 0 t d = iblk6 V c 0 t :=
  ((dat6 V c).before_in_eq_fetched 0 rfl (fun _ => rfl) (fun _ _ _ => rfl) (fun t => by rw [after6_0]; unfold Dat.blockOf iblk6; rw [A6_eq]; try rfl) t d).trans
    (by unfold Dat.fetched Dat.blockOf iblk6; rw [A6_eq]; try rfl)
theorem before6_1 (c : Dev nD) (t : Fin cfg6.N) (d) : (dat6 V c).before 1 t d = iblk6 V c 1 t :=
  ((dat6 V c).before_in_eq_fetched 1 rfl (fun _ => rfl) (fun _ _ _ => rfl) (fun t => by rw [after6_1]; unfold Dat.blockOf iblk6; rw [A6_eq]; try rfl) t d).trans
    (by unfold Dat.fetched Dat.blockOf iblk6; rw [A6_eq]; try rfl)

/-! ## The body obligation at a generic point -/

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d)))

def bodyPost6 (c : Dev nD) (t : Fin cfg6.N) : sProp 𝕄 :=
  iprop((dat6 V c).Φ t.succ ∗ (dat6 V c).owesAt () t.succ
    ∗ (dat6 V c).leavesExact 0 t ∗ (dat6 V c).leavesExact 1 t ∗ (dat6 V c).leavesExact 2 t)

set_option maxHeartbeats 4000000 in
/-- The body at any point. The two input buffers hold their blocks; the invariant hands over the accumulator at
    anything and takes it back at anything; the output buffer, found at anything, is handed back at the block the
    point stores; the core owes nothing throughout. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = Pipeline.scopedRest (Ix := Unit) (Name := ℕ) (U := UR sig nD τ × Counters) (Lvl := ℕ) (Val := Elt F) spec6 c from rfl,
    show (dat6 V c).Φ t.castSucc = Pipeline.scopedRest (Ix := Unit) (Name := ℕ) (U := UR sig nD τ × Counters) (Lvl := ℕ) (Val := Elt F) spec6 c from rfl]
  rw [show (dat6 V c).leavesExact 0 t = owns (c : Thread nD τ) (ms6_0 t) fullShare (iblk6 V c 0 t) from by
    unfold Dat.leavesExact; rw [liveAt6_0 t, after6_0]]
  rw [show (dat6 V c).leavesExact 1 t = owns (c : Thread nD τ) (ms6_1 t) fullShare (iblk6 V c 1 t) from by
    unfold Dat.leavesExact; rw [liveAt6_1 t, after6_1]]
  rw [show (dat6 V c).leavesExact 2 t = owns (c : Thread nD τ) (ms6_2 t) fullShare (out6 V c t) from by
    unfold Dat.leavesExact; rw [liveAt6_2 t, after6_2]]
  rw [scopedRest6_eq]
  unfold out6
  iintro ⟨⟨HS, Hb⟩, Ho, ⟨%d0, H0⟩, ⟨%d1, H1⟩, ⟨%d2, H2⟩⟩
  iapply ((run6 c (grid6.coords t) (ms6_0 t) (hs6_0 t) (ms6_1 t) (hs6_1 t) (ms6_2 t) (hs6_2 t) scM6 (Memref.isWhole_whole _) (hcond6_0 t) (hcond6_1 t) (iblk6 V c 0 t) (iblk6 V c 1 t)).2.2 Set.univ _)
  isplitl [H0]; · iexact H0
  isplitl [H1]; · iexact H1
  isplitl [H2]; · iexists _; iexact H2
  isplitl [HS]; · iexact HS
  iintro ⟨H0, H1, ⟨%e2, H2⟩, ⟨%es, HS⟩⟩
  isplitl [HS Hb]
  · isplitl [HS]
    · iexists _; unfold owns; iexists _; isplitr
      swap; · iexact HS
      ipureintro; rfl
    iexact Hb
  isplitl [Ho]; · iexact Ho
  isplitl [H0]; · iexact H0
  isplitl [H1]; · iexact H1
  unfold owns; iexists _; isplitr
  swap; · iexact H2
  ipureintro; exact View.read_writes_of_cover _ _ _ _ _ (coverO6 V c t)

theorem body_obligation6 (c : Dev nD) : BodyObligation (dat6 V c) (defs₀ (F := F)) Variants.none () Set.univ := fun t => by
  rw [bigSep_W6, bigSep_W6]
  exact sound_body6 V c t

/-! ## The region over the thread state -/

variable (Vp : (c : Dev nD) → (b : Ref sig .tc) → Buf (Elt F) ((c : Thread nD τ).loc b))
variable (pdats : (p : Fin 22) → (c : Dev nD) → Dat τ (Elt F) Unit ℕ (UR sig nD τ × Counters) ℕ (cfgs p) c)

/-- The result's array after the region, as the pipeline library computes it from the proof data. -/
def out6arr (c : Dev nD) : Buf (Elt F) ((c : Thread nD τ).loc main_v11) := (dat6 V c).arrAt 2 cfg6.N

set_option backward.isDefEq.respectTransparency.types false in
set_option maxHeartbeats 2000000 in
/-- Launch 6 over the thread state "every unscoped buffer at `V c`, the core owing nothing": entered by
    splitting its three arrays out of the unscoped buffers, left with them put back at `Vp c`, which has the
    result's array at `out6arr` and agrees with `V c` elsewhere. -/
def reg6 (hp : ∀ c, pdats 6 c = dat6 V c)
    (hVp_out : ∀ c, Vp c main_v11 = out6arr V c)
    (hVp_ne : ∀ c (b : Ref sig .tc), b ≠ main_v11 → Vp c b = V c b) :
    Pipeline.RegionSeg (pcfgs (F := F)) (fun p => (cfgs p).toPCfg_adm) pdats () defs₀ Variants.none (fun _ => (∅ : Finset Unit)) (fun _ _ => (0 : ℕ)) 6 where
  win := launch6.win.to₀
  block_pos := launch6.block_pos
  stage_whole := launch6.stage_whole
  K := PEmpty
  osem k := k.elim
  ho := Pipeline.OwnSemFacts.none _
  hbody c := by rw [hp c]; exact (body_obligation6 V c).loose
  hwaits := Pipeline.hwaits_of_owed_zero _ _ _ _ _ _ 6 fun c t => by rw [hp c]; rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ × Counters) (Lvl := ℕ) spec6 c (V c)
  hentry c := by
    rw [Pipeline.ownSems0_none]
    have hsplit := Pipeline.arrays_of_unscopedBufs (p := 6) (pcfgs (F := F)) (fun p => (cfgs p).toPCfg_adm) pdats launch6.win launch6.arr_whole c
      ((pdats 6 c).share_full fun w => by rw [hp c]; rfl) (V c) (fun w => by rw [hp c]; rfl)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hp c]; exact trivial)
      rw [show (pdats 6 c).owed 0 = 0 from by rw [hp c]; rfl]
      iexact HO
    isplitr; · iempintro
    iexact Hrest
  hin c := by
    rw [hp c, show (dat6 V c).Φ 0 = Pipeline.scopedRest (Ix := Unit) (Name := ℕ) (U := UR sig nD τ × Counters) (Lvl := ℕ) (Val := Elt F) spec6 c from rfl]
    iintro ⟨-, -, Hr⟩; iexact Hr
  hout c := by
    rw [Pipeline.ownSems0_none, hp c]
    change (Pipeline.scopedRest (Ix := Unit) (Name := ℕ) (U := UR sig nD τ × Counters) (Lvl := ℕ) (Val := Elt F) spec6 c : sProp 𝕄) ⊢ _
    iintro Hr
    isplitr; · iempintro
    isplitr; · iempintro
    iexact Hr
  hexit c := by
    have hjoin := Pipeline.unscopedBufs_of_arrays (p := 6) (pcfgs (F := F)) (fun p => (cfgs p).toPCfg_adm) (Ix := Unit) (Name := ℕ) (U := UR sig nD τ × Counters) (Lvl := ℕ) launch6.win launch6.arr_whole c
      pdats ((pdats 6 c).share_full fun w => by rw [hp c]; rfl) (V c) (Vp c) ((pdats 6 c).arrAt · cfg6.N)
      (fun w => by
        fin_cases w
        · exact (((pdats 6 c).arrAt_in 0 rfl _).trans (by rw [hp c]; rfl)).trans (hVp_ne c main_v10 (by decide)).symm
        · exact (((pdats 6 c).arrAt_in 1 rfl _).trans (by rw [hp c]; rfl)).trans (hVp_ne c main_arg11 (by decide)).symm
        · exact (by rw [hp c]; rfl : (pdats 6 c).arrAt 2 cfg6.N = out6arr V c).trans (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W
    rw [show (pdats 6 c).owed (Fin.last _) = 0 from by rw [hp c]; rfl]
    iexact HO

end Cert.KernelIdeal.Hand

end
-- ==== Proof.KI.R07Base.lean ====
/-
  Launch 7 of the program: a matrix product accumulated over the third grid axis (grid 4 × 1 × 4: four row blocks,
  four contraction blocks), a bias row added and tanh applied when the
  last block has been added. This module names the two conditions of the body on the grid point — "the
  contraction's first block" (third coordinate 0) and "its last block" (third coordinate 3) —, decides them
  over the sixteen points, and records where the output window is idle and where its block is written back.
-/
import proofs.«113214_j66838281060556_2_alg».proof.Proof.Gen.KernelIdeal.Launch
import proofs.«113214_j66838281060556_2_alg».proof.Proof.Gen.KernelIdeal.Skeleton
import proofs.«113214_j66838281060556_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

/-- The accumulator is reset: the point starts a contraction (third grid coordinate 0). -/
abbrev cond7_0 (i : grid7.Coords) : Prop := (Scalar.cmpi .ne (Scalar.extui (Scalar.cmpi .eq (BitVec.ofNat 32 (i 2).val) 0#32)) 0#32) = 1#1
theorem hcond7_0 : ∀ t : Fin cfg7.N, cond7_0 (grid7.coords t) ↔ t.val % 4 = 0 :=
  (by decide +kernel : ∀ t : Fin grid7.N, cond7_0 (grid7.coords t) ↔ t.val % 4 = 0)

/-- The result is stored: the point ends a contraction (third grid coordinate 3). -/
abbrev cond7_1 (i : grid7.Coords) : Prop := k7_cond2 i = 1#1
theorem hcond7_1 : ∀ t : Fin cfg7.N, cond7_1 (grid7.coords t) ↔ t.val % 4 = 3 :=
  (by decide +kernel : ∀ t : Fin grid7.N, cond7_1 (grid7.coords t) ↔ t.val % 4 = 3)

/-- The three input windows are never idle. -/
theorem liveAt7_0 : ∀ t : Fin cfg7.N, cfg7.idle 0 (grid7.coords t) = false := by decide +kernel
theorem liveAt7_1 : ∀ t : Fin cfg7.N, cfg7.idle 1 (grid7.coords t) = false := by decide +kernel
theorem liveAt7_2 : ∀ t : Fin cfg7.N, cfg7.idle 2 (grid7.coords t) = false := by decide +kernel
/-- Away from a contraction's last block the output window is idle and its block is not written back. -/
theorem idleAt7_3 : ∀ t : Fin cfg7.N, ¬cond7_1 (grid7.coords t) → cfg7.idle 3 (grid7.coords t) = true := by decide +kernel
theorem noFlush7_3 : ∀ t : Fin cfg7.N, ¬cond7_1 (grid7.coords t) → (cfg7.win 3).flush t = false := by decide +kernel
/-- At a contraction's last block the output window is live. -/
theorem liveAt7_3 : ∀ t : Fin cfg7.N, cond7_1 (grid7.coords t) → cfg7.idle 3 (grid7.coords t) = false := by decide +kernel

/-- Each window's current staging memref at a point, as the pipeline passes it, and its wholeness. -/
abbrev ms7_0 (t : Fin cfg7.N) : Memref sig .tc .vmem S1024x1024 .bf16 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1024x819 .bf16 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x819 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1024x819 .f32 := win7_3.stage (cfg7.slots t 3)
abbrev hs7_3 (t : Fin cfg7.N) : (ms7_3 t).IsWhole := hstage7_3 ((cfg7.slots t 3).cast nbuf7_3)
/-- The accumulator: a whole scoped buffer of the launch's own. -/
abbrev scM7 : Memref sig .tc .vmem S1024x819 .f32 := Memref.whole cc7_scratch0
abbrev VS7 : View sig .tc .vmem S1024x819 .f32 := scM7.view

end Cert.KernelIdeal.Hand

end
-- ==== Proof.KI.R07Run.lean ====
/-
  Launch 7, the body run symbolically in each of its three control cases: the first block of a contraction
  (the accumulator reset, then the first product added), a middle block (the product added), the last block
  (the product added, then the bias row added and tanh applied into the output block). Each run's witness is
  the list of pieces its stores leave in the accumulator (and, in the last case, in the output block).
-/
import proofs.«113214_j66838281060556_2_alg».proof.Proof.KI.R07Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

set_option maxHeartbeats 2000000 in
/-- The first block of a contraction that is not also its last: the accumulator, found at anything, is reset to
    zero and ends at the product of the two input blocks added to zero; the bias block and the idle output
    block are handed back untouched. -/
noncomputable def run7_A (c : Dev nD) (i : grid7.Coords) (arg3 : Memref sig .tc .vmem S1024x1024 .bf16) (harg3 : arg3.IsWhole) (arg4 : Memref sig .tc .vmem S1024x819 .bf16) (harg4 : arg4.IsWhole) (arg5 : Memref sig .tc .vmem S1x819 .f32) (harg5 : arg5.IsWhole) (arg6 : Memref sig .tc .vmem S1024x819 .f32) (harg6 : arg6.IsWhole) (arg7 : Memref sig .tc .vmem S1024x819 .f32) (harg7 : arg7.IsWhole) (hc0 : cond7_0 i) (hc1 : ¬cond7_1 i)
    (x0 : Vec F S1024x1024 .bf16) (x1 : Vec F S1024x819 .bf16) (x2 : Vec F S1x819 .f32) :
    { LS : List (View.Piece (Elt F) S1024x819 .f32) //
      ∀ (xi : Vec F S1024x819 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc7__mm_kernel i arg3 harg3 arg4 harg4 arg5 harg5 arg6 harg6 arg7 harg7) K } := by
  refine ⟨?_, fun xi E K => ?run⟩
  case run =>
    simp only [cc7__mm_kernel_eq_skeleton]; unfold cc7__mm_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2
    obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 2000000 in
/-- A middle block of a contraction (neither condition holds): the accumulator, found at `xs`, ends at the
    product of the two input blocks added to `xs`; the bias block and the idle output block are handed back
    untouched. The pieces written into the accumulator are the witness the symbolic run finds. -/
noncomputable def run7_B (c : Dev nD) (i : grid7.Coords) (arg3 : Memref sig .tc .vmem S1024x1024 .bf16) (harg3 : arg3.IsWhole) (arg4 : Memref sig .tc .vmem S1024x819 .bf16) (harg4 : arg4.IsWhole) (arg5 : Memref sig .tc .vmem S1x819 .f32) (harg5 : arg5.IsWhole) (arg6 : Memref sig .tc .vmem S1024x819 .f32) (harg6 : arg6.IsWhole) (arg7 : Memref sig .tc .vmem S1024x819 .f32) (harg7 : arg7.IsWhole) (hc0 : ¬cond7_0 i) (hc1 : ¬cond7_1 i)
    (x0 : Vec F S1024x1024 .bf16) (x1 : Vec F S1024x819 .bf16) (x2 : Vec F S1x819 .f32) (xs : Vec F S1024x819 .f32) :
    { LS : List (View.Piece (Elt F) S1024x819 .f32) //
      ∀ (xi : Vec F S1024x819 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi ∗ owns (c : Thread nD τ) arg7 fullShare xs
            ∗ (iprop(owns (c : Thread nD τ) arg3 fullShare x0 ∗ owns (c : Thread nD τ) arg4 fullShare x1 ∗ owns (c : Thread nD τ) arg5 fullShare x2
                ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc7__mm_kernel i arg3 harg3 arg4 harg4 arg5 harg5 arg6 harg6 arg7 harg7) K } := by
  refine ⟨?_, fun xi E K => ?run⟩
  case run =>
    simp only [cc7__mm_kernel_eq_skeleton]; unfold cc7__mm_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 2000000 in
/-- The last block of a contraction that is not also its first: the accumulator, found at `xs`, ends at the
    product of the two input blocks added to `xs`, and the output block, found at anything, is stored whole:
    tanh of that sum plus the bias row. -/
noncomputable def run7_C (c : Dev nD) (i : grid7.Coords) (arg3 : Memref sig .tc .vmem S1024x1024 .bf16) (harg3 : arg3.IsWhole) (arg4 : Memref sig .tc .vmem S1024x819 .bf16) (harg4 : arg4.IsWhole) (arg5 : Memref sig .tc .vmem S1x819 .f32) (harg5 : arg5.IsWhole) (arg6 : Memref sig .tc .vmem S1024x819 .f32) (harg6 : arg6.IsWhole) (arg7 : Memref sig .tc .vmem S1024x819 .f32) (harg7 : arg7.IsWhole) (hc0 : ¬cond7_0 i) (hc1 : cond7_1 i)
    (x0 : Vec F S1024x1024 .bf16) (x1 : Vec F S1024x819 .bf16) (x2 : Vec F S1x819 .f32) (xs : Vec F S1024x819 .f32) :
    Σ' (LO : List (View.Piece (Elt F) S1024x819 .f32)), { LS : List (View.Piece (Elt F) S1024x819 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LS)) -∗ K ⟨⟩))
          ⊢ wp frame (wpE (defs₀ (F := F)) Variants.none c none) E (cc7__mm_kernel i arg3 harg3 arg4 harg4 arg5 harg5 arg6 harg6 arg7 harg7) K } := by
  refine ⟨?_, ?_, fun E K => ?run⟩
  case run =>
    simp only [cc7__mm_kernel_eq_skeleton]; unfold cc7__mm_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2
    obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    iexists _; iexact HS

end Cert.KernelIdeal.Hand

end
-- ==== Proof.KI.R07.lean ====
/-
  Launch 7 as a segment of the program: tanh(A·B + bias) with A a graph matrix, B the right
  factor and a bias row, computed block by block on the grid 4 × 1 × 4 with an accumulator carried along the
  contraction. What the accumulator and the output block hold after each point is defined by recursion on the
  point (the first block of a contraction resets, a middle block adds, the last block adds and stores tanh of the
  sum plus the bias); the invariant between points is the accumulator at that value beside the launch's other
  scoped buffers; the proof data states each window's block after the body; the body obligation is the three
  symbolic runs put together by cases on the point's position in its contraction; and the segment record enters
  the launch from a thread state holding every unscoped buffer at an entry valuation and leaves it at the
  valuation updated at the result's array.
-/
import proofs.«113214_j66838281060556_2_alg».proof.Proof.KI.R07Run
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

variable (V : (c : Dev nD) → (b : Ref sig .tc) → Buf (Elt F) ((c : Thread nD τ).loc b))

/-! ## The blocks the windows stage -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- A view of the output's staging buffer and one of the accumulator, through which contents are stated. -/
abbrev VO7 : View sig .tc .vmem S1024x819 .f32 := (Memref.whole cc7_stg3_0 : Memref sig .tc .vmem S1024x819 .f32).view

/-! ## What each case leaves -/

/-- The accumulator after a first block. -/
def accA7 (c : Dev nD) (t : Fin cfg7.N) (h0 : t.val % 4 = 0) (h1 : ¬t.val % 4 = 3) : Vec F S1024x819 .f32 :=
  VS7.read (Elt F) (VS7.writes (Elt F) VS7.junk (run7_A c (grid7.coords t) (ms7_0 t) (hs7_0 t) (ms7_1 t) (hs7_1 t) (ms7_2 t) (hs7_2 t) (ms7_3 t) (hs7_3 t) scM7 (Memref.isWhole_whole _) ((hcond7_0 t).mpr h0) (fun h => h1 ((hcond7_1 t).mp h)) (iblk7 V c 0 t) (iblk7 V c 1 t) (iblk7 V c 2 t)).1)
/-- The accumulator after a middle block, from what the point before left. -/
def accB7 (c : Dev nD) (t : Fin cfg7.N) (h0 : ¬t.val % 4 = 0) (h1 : ¬t.val % 4 = 3) (xs : Vec F S1024x819 .f32) : Vec F S1024x819 .f32 :=
  VS7.read (Elt F) (VS7.writes (Elt F) VS7.junk (run7_B c (grid7.coords t) (ms7_0 t) (hs7_0 t) (ms7_1 t) (hs7_1 t) (ms7_2 t) (hs7_2 t) (ms7_3 t) (hs7_3 t) scM7 (Memref.isWhole_whole _) (fun h => h0 ((hcond7_0 t).mp h)) (fun h => h1 ((hcond7_1 t).mp h)) (iblk7 V c 0 t) (iblk7 V c 1 t) (iblk7 V c 2 t) xs).1)
/-- The accumulator after a last block, -/
def accC7 (c : Dev nD) (t : Fin cfg7.N) (h0 : ¬t.val % 4 = 0) (h1 : t.val % 4 = 3) (xs : Vec F S1024x819 .f32) : Vec F S1024x819 .f32 :=
  VS7.read (Elt F) (VS7.writes (Elt F) VS7.junk (run7_C c (grid7.coords t) (ms7_0 t) (hs7_0 t) (ms7_1 t) (hs7_1 t) (ms7_2 t) (hs7_2 t) (ms7_3 t) (hs7_3 t) scM7 (Memref.isWhole_whole _) (fun h => h0 ((hcond7_0 t).mp h)) ((hcond7_1 t).mpr h1) (iblk7 V c 0 t) (iblk7 V c 1 t) (iblk7 V c 2 t) xs).2.1)
/-- and the output block stored there. -/
def outC7 (c : Dev nD) (t : Fin cfg7.N) (h0 : ¬t.val % 4 = 0) (h1 : t.val % 4 = 3) (xs : Vec F S1024x819 .f32) : Vec F S1024x819 .f32 :=
  VO7.read (Elt F) (VO7.writes (Elt F) VO7.junk (run7_C c (grid7.coords t) (ms7_0 t) (hs7_0 t) (ms7_1 t) (hs7_1 t) (ms7_2 t) (hs7_2 t) (ms7_3 t) (hs7_3 t) scM7 (Memref.isWhole_whole _) (fun h => h0 ((hcond7_0 t).mp h)) ((hcond7_1 t).mpr h1) (iblk7 V c 0 t) (iblk7 V c 1 t) (iblk7 V c 2 t) xs).1)

theorem coverA7 (c : Dev nD) (t : Fin cfg7.N) (h0 : t.val % 4 = 0) (h1 : ¬t.val % 4 = 3) (y : S1024x819.Idx) :
    ∃ pc ∈ (run7_A c (grid7.coords t) (ms7_0 t) (hs7_0 t) (ms7_1 t) (hs7_1 t) (ms7_2 t) (hs7_2 t) (ms7_3 t) (hs7_3 t) scM7 (Memref.isWhole_whole _) ((hcond7_0 t).mpr h0) (fun h => h1 ((hcond7_1 t).mp h)) (iblk7 V c 0 t) (iblk7 V c 1 t) (iblk7 V c 2 t)).1, y ∈ pc.1.set :=
  View.cover_of_tiledL _ S1024x819.size (by sl_kernel_rfl) y
theorem coverB7 (c : Dev nD) (t : Fin cfg7.N) (h0 : ¬t.val % 4 = 0) (h1 : ¬t.val % 4 = 3) (xs : Vec F S1024x819 .f32) (y : S1024x819.Idx) :
    ∃ pc ∈ (run7_B c (grid7.coords t) (ms7_0 t) (hs7_0 t) (ms7_1 t) (hs7_1 t) (ms7_2 t) (hs7_2 t) (ms7_3 t) (hs7_3 t) scM7 (Memref.isWhole_whole _) (fun h => h0 ((hcond7_0 t).mp h)) (fun h => h1 ((hcond7_1 t).mp h)) (iblk7 V c 0 t) (iblk7 V c 1 t) (iblk7 V c 2 t) xs).1, y ∈ pc.1.set :=
  View.cover_of_tiledL _ S1024x819.size (by sl_kernel_rfl) y
theorem coverCs7 (c : Dev nD) (t : Fin cfg7.N) (h0 : ¬t.val % 4 = 0) (h1 : t.val % 4 = 3) (xs : Vec F S1024x819 .f32) (y : S1024x819.Idx) :
    ∃ pc ∈ (run7_C c (grid7.coords t) (ms7_0 t) (hs7_0 t) (ms7_1 t) (hs7_1 t) (ms7_2 t) (hs7_2 t) (ms7_3 t) (hs7_3 t) scM7 (Memref.isWhole_whole _) (fun h => h0 ((hcond7_0 t).mp h)) ((hcond7_1 t).mpr h1) (iblk7 V c 0 t) (iblk7 V c 1 t) (iblk7 V c 2 t) xs).2.1, y ∈ pc.1.set :=
  View.cover_of_tiledL _ S1024x819.size (by sl_kernel_rfl) y
theorem coverCo7 (c : Dev nD) (t : Fin cfg7.N) (h0 : ¬t.val % 4 = 0) (h1 : t.val % 4 = 3) (xs : Vec F S1024x819 .f32) (y : S1024x819.Idx) :
    ∃ pc ∈ (run7_C c (grid7.coords t) (ms7_0 t) (hs7_0 t) (ms7_1 t) (hs7_1 t) (ms7_2 t) (hs7_2 t) (ms7_3 t) (hs7_3 t) scM7 (Memref.isWhole_whole _) (fun h => h0 ((hcond7_0 t).mp h)) ((hcond7_1 t).mpr h1) (iblk7 V c 0 t) (iblk7 V c 1 t) (iblk7 V c 2 t) xs).1, y ∈ pc.1.set :=
  View.cover_of_tiledL _ S1024x819.size (by sl_kernel_rfl) y

/-! ## The accumulation, point by point -/

/-- What the output's staging buffer (first component; meaningful at a contraction's last block only) and the
    accumulator (second component) hold after the body at position `n`. -/
def outsAt7 (c : Dev nD) : (n : ℕ) → n < cfg7.N → Vec F S1024x819 .f32 × Vec F S1024x819 .f32
  | 0, hn => (VO7.read (Elt F) VO7.junk, accA7 V c ⟨0, hn⟩ (Nat.zero_mod _) (by simp))
  | n + 1, hn =>
    if h0 : (n + 1) % 4 = 0 then
      if h1 : (n + 1) % 4 = 3 then False.elim (by omega)
      else (VO7.read (Elt F) VO7.junk, accA7 V c ⟨n + 1, hn⟩ h0 h1)
    else
      if h1 : (n + 1) % 4 = 3 then
        (outC7 V c ⟨n + 1, hn⟩ h0 h1 (outsAt7 c n (Nat.lt_of_succ_lt hn)).2, accC7 V c ⟨n + 1, hn⟩ h0 h1 (outsAt7 c n (Nat.lt_of_succ_lt hn)).2)
      else
        (VO7.read (Elt F) VO7.junk, accB7 V c ⟨n + 1, hn⟩ h0 h1 (outsAt7 c n (Nat.lt_of_succ_lt hn)).2)

theorem outsAt7_A (c : Dev nD) (t : Fin cfg7.N) (h0 : t.val % 4 = 0) (h1 : ¬t.val % 4 = 3) :
    outsAt7 V c t.val t.isLt = (VO7.read (Elt F) VO7.junk, accA7 V c t h0 h1) := by
  obtain ⟨n, hn⟩ := t
  cases n with
  | zero => exact rfl
  | succ n => exact (dif_pos h0).trans ((dif_neg h1).trans rfl)

theorem outsAt7_B (c : Dev nD) (t : Fin cfg7.N) (h0 : ¬t.val % 4 = 0) (h1 : ¬t.val % 4 = 3) :
    outsAt7 V c t.val t.isLt = (VO7.read (Elt F) VO7.junk, accB7 V c t h0 h1 (outsAt7 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt7_C (c : Dev nD) (t : Fin cfg7.N) (h0 : ¬t.val % 4 = 0) (h1 : t.val % 4 = 3) :
    outsAt7 V c t.val t.isLt = (outC7 V c t h0 h1 (outsAt7 V c (t.val - 1) (Nat.lt_of_le_of_lt (Nat.sub_le _ _) t.isLt)).2,
      accC7 V c t h0 h1 (outsAt7 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant between points -/

/-- Before the first point the launch's scoped buffers that no window stages, whole; afterwards the accumulator at
    what the point before left, and the other such buffers unopened. -/
def PhiS7 (c : Dev nD) : (n : ℕ) → n ≤ cfg7.N → sProp 𝕄
  | 0, _ => Pipeline.scopedRest (Ix := Unit) (Name := ℕ) (U := UR sig nD τ × Counters) (Lvl := ℕ) (Val := Elt F) spec7 c
  | n + 1, hn => iprop(owns (c : Thread nD τ) scM7 fullShare (outsAt7 V c n hn).2
      ∗ Pipeline.scopedRestBut (Ix := Unit) (Name := ℕ) (U := UR sig nD τ × Counters) (Lvl := ℕ) (Val := Elt F) spec7 c [cc7_scratch0])

theorem PhiS7_pos (c : Dev nD) (n : ℕ) (h : n ≤ cfg7.N) (hz : n ≠ 0) :
    PhiS7 V c n h = iprop(owns (c : Thread nD τ) scM7 fullShare (outsAt7 V c (n - 1) (by omega)).2
      ∗ Pipeline.scopedRestBut (Ix := Unit) (Name := ℕ) (U := UR sig nD τ × Counters) (Lvl := ℕ) (Val := Elt F) spec7 c [cc7_scratch0]) := by
  cases n with
  | zero => exact absurd rfl hz
  | succ n => rfl

/-- The scoped rest with the accumulator split out as a memref owned at some contents. -/
theorem scopedRest7_eq (c : Dev nD) :
    (Pipeline.scopedRest (Ix := Unit) (Name := ℕ) (U := UR sig nD τ × Counters) (Lvl := ℕ) (Val := Elt F) spec7 c : sProp 𝕄)
      = iprop((∃ d, owns (c : Thread nD τ) scM7 fullShare d)
          ∗ Pipeline.scopedRestBut (Ix := Unit) (Name := ℕ) (U := UR sig nD τ × Counters) (Lvl := ℕ) (Val := Elt F) spec7 c [cc7_scratch0]) := by
  rw [scopedRest7_split]; simp only [scM7, owns_whole]; try rfl

/-! ## The proof data -/

def dat7 (c : Dev nD) : Dat τ (Elt F) Unit ℕ (UR sig nD τ × Counters) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => (outsAt7 V c t.val t.isLt).1
  Φ t := PhiS7 V c t.val (Nat.le_of_lt_succ t.isLt)
  q _ := fullShare
  owed _ := 0

theorem A7_eq (c : Dev nD) (w : Fin cfg7.W) : (dat7 V c).A w = V c (Pipeline.arrRef spec7 w) := by
  dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = (outsAt7 V c t.val t.isLt).1 := by dsimp only [dat7]

theorem Phi7_castSucc (c : Dev nD) (t : Fin cfg7.N) :
    (dat7 V c).Φ t.castSucc = PhiS7 V c t.val (Nat.le_of_lt t.isLt) := by
  dsimp only [dat7]; simp only [Fin.coe_castSucc]

/-- Each input window's current staging buffer holds its block at every point, fetched there or not. -/
theorem before7_0 (c : Dev nD) (t : Fin cfg7.N) (d) : (dat7 V c).before 0 t d = iblk7 V c 0 t :=
  ((dat7 V c).before_in_eq_fetched 0 rfl (fun _ => rfl) (fun _ _ _ => rfl) (fun t => by rw [after7_0]; unfold Dat.blockOf iblk7; rw [A7_eq]; try rfl) t d).trans
    (by unfold Dat.fetched Dat.blockOf iblk7; rw [A7_eq]; try rfl)
theorem before7_1 (c : Dev nD) (t : Fin cfg7.N) (d) : (dat7 V c).before 1 t d = iblk7 V c 1 t :=
  ((dat7 V c).before_in_eq_fetched 1 rfl (fun _ => rfl) (fun _ _ _ => rfl) (fun t => by rw [after7_1]; unfold Dat.blockOf iblk7; rw [A7_eq]; try rfl) t d).trans
    (by unfold Dat.fetched Dat.blockOf iblk7; rw [A7_eq]; try rfl)
theorem before7_2 (c : Dev nD) (t : Fin cfg7.N) (d) : (dat7 V c).before 2 t d = iblk7 V c 2 t :=
  ((dat7 V c).before_in_eq_fetched 2 rfl (fun _ => rfl) (fun _ _ _ => rfl) (fun t => by rw [after7_2]; unfold Dat.blockOf iblk7; rw [A7_eq]; try rfl) t d).trans
    (by unfold Dat.fetched Dat.blockOf iblk7; rw [A7_eq]; try rfl)

/-! ## The body obligation at a generic point -/

def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d)))

def bodyPost7 (c : Dev nD) (t : Fin cfg7.N) : sProp 𝕄 :=
  iprop((dat7 V c).Φ t.succ ∗ (dat7 V c).owesAt () t.succ
    ∗ (dat7 V c).leavesExact 0 t ∗ (dat7 V c).leavesExact 1 t ∗ (dat7 V c).leavesExact 2 t ∗ (dat7 V c).leavesExact 3 t)

set_option maxHeartbeats 4000000 in
/-- The body at any point. The three input buffers hold their blocks; the point's position in its contraction
    selects the case; the invariant hands over the accumulator (at anything before the very first point, else at
    what the point before left) and takes it back at this point's contents; an idle output buffer is handed back
    as found, a stored one at the case's block; the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).owesAt () t.succ = (dat7 V c).owesAt () t.castSucc from rfl]
  rw [show (dat7 V c).Φ t.succ = iprop(owns (c : Thread nD τ) scM7 fullShare (outsAt7 V c t.val t.isLt).2
      ∗ Pipeline.scopedRestBut (Ix := Unit) (Name := ℕ) (U := UR sig nD τ × Counters) (Lvl := ℕ) (Val := Elt F) spec7 c [cc7_scratch0]) from rfl]
  have hN : t.val < 16 := lt_of_lt_of_eq t.isLt (show cfg7.N = 16 from N_7)
  rw [show (dat7 V c).leavesExact 0 t = owns (c : Thread nD τ) (ms7_0 t) fullShare (iblk7 V c 0 t) from by
    unfold Dat.leavesExact; rw [liveAt7_0 t, after7_0]]
  rw [show (dat7 V c).leavesExact 1 t = owns (c : Thread nD τ) (ms7_1 t) fullShare (iblk7 V c 1 t) from by
    unfold Dat.leavesExact; rw [liveAt7_1 t, after7_1]]
  rw [show (dat7 V c).leavesExact 2 t = owns (c : Thread nD τ) (ms7_2 t) fullShare (iblk7 V c 2 t) from by
    unfold Dat.leavesExact; rw [liveAt7_2 t, after7_2]]
  rw [Phi7_castSucc V c t]
  by_cases h1 : t.val % 4 = 3
  · -- the last block of a contraction
    have h0 : ¬t.val % 4 = 0 := by omega
    have hz : t.val ≠ 0 := by omega
    rw [show (dat7 V c).leavesExact 3 t = owns (c : Thread nD τ) (ms7_3 t) fullShare (outsAt7 V c t.val t.isLt).1 from by
      unfold Dat.leavesExact; rw [liveAt7_3 t ((hcond7_1 t).mpr h1), after7_3]]
    rw [outsAt7_C V c t h0 h1, PhiS7_pos V c _ _ hz]
    dsimp only
    unfold outC7 accC7
    iintro ⟨⟨HS, Hb⟩, Ho, ⟨%d0, H0⟩, ⟨%d1, H1⟩, ⟨%d2, H2⟩, ⟨%d3, H3⟩⟩
    iapply ((run7_C c (grid7.coords t) (ms7_0 t) (hs7_0 t) (ms7_1 t) (hs7_1 t) (ms7_2 t) (hs7_2 t) (ms7_3 t) (hs7_3 t) scM7 (Memref.isWhole_whole _) (fun h => h0 ((hcond7_0 t).mp h)) ((hcond7_1 t).mpr h1) (iblk7 V c 0 t) (iblk7 V c 1 t) (iblk7 V c 2 t) _).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hb]
    · isplitl [HS]
      · unfold owns; iexists _; isplitr
        swap; · iexact HS
        ipureintro; exact View.read_writes_of_cover _ _ _ _ _ (coverCs7 V c t h0 h1 _)
      iexact Hb
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverCo7 V c t h0 h1 _)
  · rw [Dat.leavesExact_idle (dat7 V c) 3 t (idleAt7_3 t (fun h => h1 ((hcond7_1 t).mp h))) (noFlush7_3 t (fun h => h1 ((hcond7_1 t).mp h)))]
    by_cases h0 : t.val % 4 = 0
    · -- the first block of a contraction
      rw [outsAt7_A V c t h0 h1]
      dsimp only
      unfold accA7
      by_cases hz : t.val = 0
      · rw [show PhiS7 V c t.val (Nat.le_of_lt t.isLt) = Pipeline.scopedRest (Ix := Unit) (Name := ℕ) (U := UR sig nD τ × Counters) (Lvl := ℕ) (Val := Elt F) spec7 c from by
          obtain ⟨n, hn⟩ := t; dsimp only at hz; subst hz; rfl, scopedRest7_eq]
        iintro ⟨⟨HS, Hb⟩, Ho, ⟨%d0, H0⟩, ⟨%d1, H1⟩, ⟨%d2, H2⟩, ⟨%d3, H3⟩⟩
        iapply ((run7_A c (grid7.coords t) (ms7_0 t) (hs7_0 t) (ms7_1 t) (hs7_1 t) (ms7_2 t) (hs7_2 t) (ms7_3 t) (hs7_3 t) scM7 (Memref.isWhole_whole _) ((hcond7_0 t).mpr h0) (fun h => h1 ((hcond7_1 t).mp h)) (iblk7 V c 0 t) (iblk7 V c 1 t) (iblk7 V c 2 t)).2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hb]
        · isplitl [HS]
          · unfold owns; iexists _; isplitr
            swap; · iexact HS
            ipureintro; exact View.read_writes_of_cover _ _ _ _ _ (coverA7 V c t h0 h1)
          iexact Hb
        isplitl [Ho]; · iexact Ho
        isplitl [H0]; · iexact H0
        isplitl [H1]; · iexact H1
        isplitl [H2]; · iexact H2
        iexists _; iexact H3
      · rw [PhiS7_pos V c _ _ hz]
        iintro ⟨⟨HS, Hb⟩, Ho, ⟨%d0, H0⟩, ⟨%d1, H1⟩, ⟨%d2, H2⟩, ⟨%d3, H3⟩⟩
        iapply ((run7_A c (grid7.coords t) (ms7_0 t) (hs7_0 t) (ms7_1 t) (hs7_1 t) (ms7_2 t) (hs7_2 t) (ms7_3 t) (hs7_3 t) scM7 (Memref.isWhole_whole _) ((hcond7_0 t).mpr h0) (fun h => h1 ((hcond7_1 t).mp h)) (iblk7 V c 0 t) (iblk7 V c 1 t) (iblk7 V c 2 t)).2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hb]
        · isplitl [HS]
          · unfold owns; iexists _; isplitr
            swap; · iexact HS
            ipureintro; exact View.read_writes_of_cover _ _ _ _ _ (coverA7 V c t h0 h1)
          iexact Hb
        isplitl [Ho]; · iexact Ho
        isplitl [H0]; · iexact H0
        isplitl [H1]; · iexact H1
        isplitl [H2]; · iexact H2
        iexists _; iexact H3
    · -- a middle block
      have hz : t.val ≠ 0 := by omega
      rw [outsAt7_B V c t h0 h1, PhiS7_pos V c _ _ hz]
      dsimp only
      unfold accB7
      iintro ⟨⟨HS, Hb⟩, Ho, ⟨%d0, H0⟩, ⟨%d1, H1⟩, ⟨%d2, H2⟩, ⟨%d3, H3⟩⟩
      iapply ((run7_B c (grid7.coords t) (ms7_0 t) (hs7_0 t) (ms7_1 t) (hs7_1 t) (ms7_2 t) (hs7_2 t) (ms7_3 t) (hs7_3 t) scM7 (Memref.isWhole_whole _) (fun h => h0 ((hcond7_0 t).mp h)) (fun h => h1 ((hcond7_1 t).mp h)) (iblk7 V c 0 t) (iblk7 V c 1 t) (iblk7 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hb]
      · isplitl [HS]
        · unfold owns; iexists _; isplitr
          swap; · iexact HS
          ipureintro; exact View.read_writes_of_cover _ _ _ _ _ (coverB7 V c t h0 h1 _)
        iexact Hb
      isplitl [Ho]; · iexact Ho
      isplitl [H0]; · iexact H0
      isplitl [H1]; · iexact H1
      isplitl [H2]; · iexact H2
      iexists _; iexact H3

theorem body_obligation7 (c : Dev nD) : BodyObligation (dat7 V c) (defs₀ (F := F)) Variants.none () Set.univ := fun t => by
  rw [bigSep_W7, bigSep_W7]
  exact sound_body7 V c t

/-! ## The region over the thread state -/

variable (Vp : (c : Dev nD) → (b : Ref sig .tc) → Buf (Elt F) ((c : Thread nD τ).loc b))
variable (pdats : (p : Fin 22) → (c : Dev nD) → Dat τ (Elt F) Unit ℕ (UR sig nD τ × Counters) ℕ (cfgs p) c)

/-- The result's array after the region, as the pipeline library computes it from the proof data. -/
def out7 (c : Dev nD) : Buf (Elt F) ((c : Thread nD τ).loc main_v13) := (dat7 V c).arrAt 3 cfg7.N

set_option backward.isDefEq.respectTransparency.types false in
set_option maxHeartbeats 2000000 in
/-- Launch 7 over the thread state "every unscoped buffer at `V c`, the core owing nothing": entered by
    splitting its four arrays out of the unscoped buffers, left with them put back at `Vp c`, which has the
    result's array at `out7` and agrees with `V c` elsewhere. -/
def reg7 (hp : ∀ c, pdats 7 c = dat7 V c)
    (hVp_out : ∀ c, Vp c main_v13 = out7 V c)
    (hVp_ne : ∀ c (b : Ref sig .tc), b ≠ main_v13 → Vp c b = V c b) :
    Pipeline.RegionSeg (pcfgs (F := F)) (fun p => (cfgs p).toPCfg_adm) pdats () defs₀ Variants.none (fun _ => (∅ : Finset Unit)) (fun _ _ => (0 : ℕ)) 7 where
  win := launch7.win.to₀
  block_pos := launch7.block_pos
  stage_whole := launch7.stage_whole
  K := PEmpty
  osem k := k.elim
  ho := Pipeline.OwnSemFacts.none _
  hbody c := by rw [hp c]; exact (body_obligation7 V c).loose
  hwaits := Pipeline.hwaits_of_owed_zero _ _ _ _ _ _ 7 fun c t => by rw [hp c]; rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ × Counters) (Lvl := ℕ) spec7 c (V c)
  hentry c := by
    rw [Pipeline.ownSems0_none]
    have hsplit := Pipeline.arrays_of_unscopedBufs (p := 7) (pcfgs (F := F)) (fun p => (cfgs p).toPCfg_adm) pdats launch7.win launch7.arr_whole c
      ((pdats 7 c).share_full fun w => by rw [hp c]; rfl) (V c) (fun w => by rw [hp c]; rfl)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hp c]
      unfold Pipeline.Dat.owesAt Pipeline.owesWithin
      icases HO with ⟨%W, HO⟩; iexists W; isplitr; · ipureintro; exact fun _ _ => Or.inl trivial
      iexact HO
    isplitr; · iempintro
    iexact Hrest
  hin c := by
    rw [hp c, show (dat7 V c).Φ 0 = Pipeline.scopedRest (Ix := Unit) (Name := ℕ) (U := UR sig nD τ × Counters) (Lvl := ℕ) (Val := Elt F) spec7 c from rfl]
    iintro ⟨-, -, Hr⟩; iexact Hr
  hout c := by
    rw [Pipeline.ownSems0_none, hp c]
    refine (Entails.of_eq ((show (dat7 V c).Φ (Fin.last _) = PhiS7 V c (Fin.last cfg7.N).val (Nat.le_of_lt_succ (Fin.last cfg7.N).isLt) from rfl).trans
      (PhiS7_pos V c _ _ (by rw [Fin.val_last]; have : cfg7.N = 16 := N_7; omega)))).trans ?_
    change _ ⊢ iprop(BI.emp ∗ BI.emp ∗ Pipeline.scopedRest (Ix := Unit) (Name := ℕ) (U := UR sig nD τ × Counters) (Lvl := ℕ) (Val := Elt F) spec7 c)
    rw [scopedRest7_eq]
    iintro ⟨HS, Hb⟩
    isplitr; · iempintro
    isplitr; · iempintro
    isplitl [HS]; · iexists _; iexact HS
    iexact Hb
  hexit c := by
    have hjoin := Pipeline.unscopedBufs_of_arrays (p := 7) (pcfgs (F := F)) (fun p => (cfgs p).toPCfg_adm) (Ix := Unit) (Name := ℕ) (U := UR sig nD τ × Counters) (Lvl := ℕ) launch7.win launch7.arr_whole c
      pdats ((pdats 7 c).share_full fun w => by rw [hp c]; rfl) (V c) (Vp c) ((pdats 7 c).arrAt · cfg7.N)
      (fun w => by
        fin_cases w
        · exact (((pdats 7 c).arrAt_in 0 rfl _).trans (by rw [hp c]; rfl)).trans (hVp_ne c main_v1 (by decide)).symm
        · exact (((pdats 7 c).arrAt_in 1 rfl _).trans (by rw [hp c]; rfl)).trans (hVp_ne c main_v11 (by decide)).symm
        · exact (((pdats 7 c).arrAt_in 2 rfl _).trans (by rw [hp c]; rfl)).trans (hVp_ne c main_v12 (by decide)).symm
        · exact (by rw [hp c]; rfl : (pdats 7 c).arrAt 3 cfg7.N = out7 V c).trans (hVp_out c).symm)
      (fun b hb => hVp_ne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W
    rw [show (pdats 7 c).owed (Fin.last _) = 0 from by rw [hp c]; rfl]
    iexact HO

end Cert.KernelIdeal.Hand

end
-- ==== Proof.KI.R08Base.lean ====
/-
  Launch 8 of the program: one matrix product per grid point — the contraction is a single block —, from which the
  output block is stored at every point. The grid's third coordinate is always 0, so both conditions of the body —
  "the contraction's first block" and "its last block" — hold at every point: this module decides them over the
  grid's points, records that no window is ever idle, and names the staging memrefs the body is called with.
-/
import proofs.«113214_j66838281060556_2_alg».proof.Proof.Gen.KernelIdeal.Launch
import proofs.«113214_j66838281060556_2_alg».proof.Proof.Gen.KernelIdeal.Skeleton
import proofs.«113214_j66838281060556_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

/-- The accumulator is reset: the point starts a contraction (third grid coordinate 0). Here the third axis has one
    coordinate, so every point does. -/
abbrev cond8_0 (i : grid8.Coords) : Prop := (Scalar.cmpi .ne (Scalar.extui (Scalar.cmpi .eq (BitVec.ofNat 32 (i 2).val) 0#32)) 0#32) = 1#1
theorem hcond8_0 : ∀ t : Fin cfg8.N, cond8_0 (grid8.coords t) :=
  (by decide +kernel : ∀ t : Fin grid8.N, cond8_0 (grid8.coords t))

/-- The result is stored: the point ends a contraction. Every point does. -/
abbrev cond8_1 (i : grid8.Coords) : Prop := k8_cond2 i = 1#1
theorem hcond8_1 : ∀ t : Fin cfg8.N, cond8_1 (grid8.coords t) :=
  (by decide +kernel : ∀ t : Fin grid8.N, cond8_1 (grid8.coords t))

/-- No window is idle at any point: the two inputs never, the output because every point stores. -/
theorem liveAt8_0 : ∀ t : Fin cfg8.N, cfg8.idle 0 (grid8.coords t) = false := by decide +kernel
theorem liveAt8_1 : ∀ t : Fin cfg8.N, cfg8.idle 1 (grid8.coords t) = false := by decide +kernel
theorem liveAt8_2 : ∀ t : Fin cfg8.N, cfg8.idle 2 (grid8.coords t) = false := by decide +kernel

/-- Each window's current staging memref at a point, as the pipeline passes it, and its wholeness. -/
abbrev ms8_0 (t : Fin cfg8.N) : Memref sig .tc .vmem S1024x819 .f32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S819x819 .f32 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S1024x819 .bf16 := win8_2.stage (cfg8.slots t 2)
abbrev hs8_2 (t : Fin cfg8.N) : (ms8_2 t).IsWhole := hstage8_2 ((cfg8.slots t 2).cast nbuf8_2)
/-- The accumulator: a whole scoped buffer of the launch's own. -/
abbrev scM8 : Memref sig .tc .vmem S1024x819 .f32 := Memref.whole cc8_scratch0
abbrev VS8 : View sig .tc .vmem S1024x819 .f32 := scM8.view

end Cert.KernelIdeal.Hand

end
-- ==== Proof.KI.R08Run.lean ====
/-
  Launch 8, the body run symbolically in its one control case: the accumulator reset, the product added, the output
  block stored from the sum. The run's witnesses are the lists of pieces its stores leave in the output block and in
  the accumulator.
-/
import proofs.«113214_j66838281060556_2_alg».proof.Proof.KI.R08Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

set_option maxHeartbeats 2000000 in
/-- The body at a point, run symbolically: the accumulator, found at anything, is reset and ends at the product of
    the two input blocks added to it; the output block, found at anything, is stored whole from that sum. The
    witnesses are the pieces the stores leave in the output block and in the accumulator. -/
noncomputable def run8 (c : Dev nD) (i : grid8.Coords) (arg3 : Memref sig .tc .vmem S1024x819 .f32) (harg3 : arg3.IsWhole) (arg4 : Memref sig .tc .vmem S819x819 .f32) (harg4 : arg4.IsWhole) (arg5 : Memref sig .tc .vmem S1024x819 .bf16) (harg5 : arg5.IsWhole) (arg6 : Memref sig .tc .vmem S1024x819 .f32) (harg6 : arg6.IsWhole) (hc0 : cond8_0 i) (hc1 : cond8_1 i)
    (x0 : Vec F S1024x819 .f32) (x1 : Vec F S819x819 .f32) :
    Σ' (LO : List (View.Piece (Elt F) S1024x819 .bf16)), { LS : List (View.Piece (Elt F) S1024x819 .f32) //
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc8__mm_kernel i arg3 harg3 arg4 harg4 arg5 harg5 arg6 harg6) K } := by
  refine ⟨?_, ?_, fun E K => ?run⟩
  case run =>
    simp only [cc8__mm_kernel_eq_skeleton]; unfold cc8__mm_kernel_skel
    unfold owns
    iintro ⟨⟨%f0, %hf0, H0⟩, ⟨%f1, %hf1, H1⟩, ⟨%d2, %f2, -, H2⟩, ⟨%ds, %fs, -, HS⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact HS

end Cert.KernelIdeal.Hand

end
-- ==== Proof.KI.R08.lean ====
/-
  Launch 8 as a region of the program. The blocks the windows stage are read off the arrays as the region finds
  them; a point stores the output block its run leaves; the accumulator is reset at every point, so between points
  the launch's scoped buffers that no window stages are simply held whole at anything; the body obligation follows
  from the one symbolic run; and the region is stated over the thread state "every unscoped buffer at given
  contents, the core owing nothing", entered by splitting the three arrays out and left with the result's array
  at what the pipeline computes from the stored blocks.
-/
import proofs.«113214_j66838281060556_2_alg».proof.Proof.KI.R08Run
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

variable (V : (c : Dev nD) → (b : Ref sig .tc) → Buf (Elt F) ((c : Thread nD τ).loc b))

/-! ## The blocks the windows stage -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- A view of the output's staging buffer, through which contents are stated. -/
abbrev VO8 : View sig .tc .vmem S1024x819 .bf16 := (Memref.whole cc8_stg2_0 : Memref sig .tc .vmem S1024x819 .bf16).view

/-! ## What a point leaves -/

/-- The output block a point stores: what the run's pieces leave, read through the staging buffer's view. -/
def out8 (c : Dev nD) (t : Fin cfg8.N) : Vec F S1024x819 .bf16 :=
  VO8.read (Elt F) (VO8.writes (Elt F) VO8.junk (run8 c (grid8.coords t) (ms8_0 t) (hs8_0 t) (ms8_1 t) (hs8_1 t) (ms8_2 t) (hs8_2 t) scM8 (Memref.isWhole_whole _) (hcond8_0 t) (hcond8_1 t) (iblk8 V c 0 t) (iblk8 V c 1 t)).1)

/-- The stores into the output block cover it. -/
theorem coverO8 (c : Dev nD) (t : Fin cfg8.N) (y : S1024x819.Idx) :
    ∃ pc ∈ (run8 c (grid8.coords t) (ms8_0 t) (hs8_0 t) (ms8_1 t) (hs8_1 t) (ms8_2 t) (hs8_2 t) scM8 (Memref.isWhole_whole _) (hcond8_0 t) (hcond8_1 t) (iblk8 V c 0 t) (iblk8 V c 1 t)).1, y ∈ pc.1.set :=
  View.cover_of_tiledL _ S1024x819.size (by sl_kernel_rfl) y

/-! ## The invariant between points -/

/-- The scoped rest with the accumulator split out as a memref owned at some contents. The accumulator is reset at
    every point, so the invariant between points is the scoped rest itself, the accumulator at anything. -/
theorem scopedRest8_eq (c : Dev nD) :
    (Pipeline.scopedRest (Ix := Unit) (Name := ℕ) (U := UR sig nD τ × Counters) (Lvl := ℕ) (Val := Elt F) spec8 c : sProp 𝕄)
      = iprop((∃ d, owns (c : Thread nD τ) scM8 fullShare d)
          ∗ Pipeline.scopedRestBut (Ix := Unit) (Name := ℕ) (U := UR sig nD τ × Counters) (Lvl := ℕ) (Val := Elt F) spec8 c [cc8_scratch0]) := by
  rw [scopedRest8_split]; simp only [scM8, owns_whole]; try rfl

/-! ## The proof data -/

def dat8 (c : Dev nD) : Dat τ (Elt F) Unit ℕ (UR sig nD τ × Counters) ℕ cfg8 c where
  A w := V c (Pipeline.arrRef spec8 w)
  after w t := match w with
    | ⟨0, _⟩ => iblk8 V c 0 t
    | ⟨1, _⟩ => iblk8 V c 1 t
    | ⟨2, _⟩ => out8 V c t
  Φ _ := Pipeline.scopedRest (Ix := Unit) (Name := ℕ) (U := UR sig nD τ × Counters) (Lvl := ℕ) (Val := Elt F) spec8 c
  q _ := fullShare
  owed _ := 0

theorem A8_eq (c : Dev nD) (w : Fin cfg8.W) : (dat8 V c).A w = V c (Pipeline.arrRef spec8 w) := by
  dsimp only [dat8]
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = out8 V c t := by dsimp only [dat8]

/-- Each input window's current staging buffer holds its block at every point, fetched there or not. -/
theorem before8_0 (c : Dev nD) (t : Fin cfg8.N) (d) : (dat8 V c).before 0 t d = iblk8 V c 0 t :=
  ((dat8 V c).before_in_eq_fetched 0 rfl (fun _ => rfl) (fun _ _ _ => rfl) (fun t => by rw [after8_0]; unfold Dat.blockOf iblk8; rw [A8_eq]; try rfl) t d).trans
    (by unfold Dat.fetched Dat.blockOf iblk8; rw [A8_eq]; try rfl)
theorem before8_1 (c : Dev nD) (t : Fin cfg8.N) (d) : (dat8 V c).before 1 t d = iblk8 V c 1 t :=
  ((dat8 V c).before_in_eq_fetched 1 rfl (fun _ => rfl) (fun _ _ _ => rfl) (fun t => by rw [after8_1]; unfold Dat.blockOf iblk8; rw [A8_eq]; try rfl) t d).trans
    (by unfold Dat.fetched Dat.blockOf iblk8; rw [A8_eq]; try rfl)

/-! ## The body obligation at a generic point -/

def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d)))

def bodyPost8 (c : Dev nD) (t : Fin cfg8.N) : sProp 𝕄 :=
  iprop((dat8 V c).Φ t.succ ∗ (dat8 V c).owesAt () t.succ
    ∗ (dat8 V c).leavesExact 0 t ∗ (dat8 V c).leavesExact 1 t ∗ (dat8 V c).leavesExact 2 t)

set_option maxHeartbeats 4000000 in
/-- The body at any point. The two input buffers hold their blocks; the invariant hands over the accumulator at
    anything and takes it back at anything; the output buffer, found at anything, is handed back at the block the
    point stores; the core owes nothing throughout. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).owesAt () t.succ = (dat8 V c).owesAt () t.castSucc from rfl]
  rw [show (dat8 V c).Φ t.succ = Pipeline.scopedRest (Ix := Unit) (Name := ℕ) (U := UR sig nD τ × Counters) (Lvl := ℕ) (Val := Elt F) spec8 c from rfl,
    show (dat8 V c).Φ t.castSucc = Pipeline.scopedRest (Ix := Unit) (Name := ℕ) (U := UR sig nD τ × Counters) (Lvl := ℕ) (Val := Elt F) spec8 c from rfl]
  rw [show (dat8 V c).leavesExact 0 t = owns (c : Thread nD τ) (ms8_0 t) fullShare (iblk8 V c 0 t) from by
    unfold Dat.leavesExact; rw [liveAt8_0 t, after8_0]]
  rw [show (dat8 V c).leavesExact 1 t = owns (c : Thread nD τ) (ms8_1 t) fullShare (iblk8 V c 1 t) from by
    unfold Dat.leavesExact; rw [liveAt8_1 t, after8_1]]
  rw [show (dat8 V c).leavesExact 2 t = owns (c : Thread nD τ) (ms8_2 t) fullShare (out8 V c t) from by
    unfold Dat.leavesExact; rw [liveAt8_2 t, after8_2]]
  rw [scopedRest8_eq]
  unfold out8
  iintro ⟨⟨HS, Hb⟩, Ho, ⟨%d0, H0⟩, ⟨%d1, H1⟩, ⟨%d2, H2⟩⟩
  iapply ((run8 c (grid8.coords t) (ms8_0 t) (hs8_0 t) (ms8_1 t) (hs8_1 t) (ms8_2 t) (hs8_2 t) scM8 (Memref.isWhole_whole _) (hcond8_0 t) (hcond8_1 t) (iblk8 V c 0 t) (iblk8 V c 1 t)).2.2 Set.univ _)
  isplitl [H0]; · iexact H0
  isplitl [H1]; · iexact H1
  isplitl [H2]; · iexists _; iexact H2
  isplitl [HS]; · iexact HS
  iintro ⟨H0, H1, ⟨%e2, H2⟩, ⟨%es, HS⟩⟩
  isplitl [HS Hb]
  · isplitl [HS]
    · iexists _; unfold owns; iexists _; isplitr
      swap; · iexact HS
      ipureintro; rfl
    iexact Hb
  isplitl [Ho]; · iexact Ho
  isplitl [H0]; · iexact H0
  isplitl [H1]; · iexact H1
  unfold owns; iexists _; isplitr
  swap; · iexact H2
  ipureintro; exact View.read_writes_of_cover _ _ _ _ _ (coverO8 V c t)

theorem body_obligation8 (c : Dev nD) : BodyObligation (dat8 V c) (defs₀ (F := F)) Variants.none () Set.univ := fun t => by
  rw [bigSep_W8, bigSep_W8]
  exact sound_body8 V c t

/-! ## The region over the thread state -/

variable (Vp : (c : Dev nD) → (b : Ref sig .tc) → Buf (Elt F) ((c : Thread nD τ).loc b))
variable (pdats : (p : Fin 22) → (c : Dev nD) → Dat τ (Elt F) Unit ℕ (UR sig nD τ × Counters) ℕ (cfgs p) c)

/-- The result's array after the region, as the pipeline library computes it from the proof data. -/
def out8arr (c : Dev nD) : Buf (Elt F) ((c : Thread nD τ).loc main_v25) := (dat8 V c).arrAt 2 cfg8.N

set_option backward.isDefEq.respectTransparency.types false in
set_option maxHeartbeats 2000000 in
/-- Launch 8 over the thread state "every unscoped buffer at `V c`, the core owing nothing": entered by
    splitting its three arrays out of the unscoped buffers, left with them put back at `Vp c`, which has the
    result's array at `out8arr` and agrees with `V c` elsewhere. -/
def reg8 (hp : ∀ c, pdats 8 c = dat8 V c)
    (hVp_out : ∀ c, Vp c main_v25 = out8arr V c)
    (hVp_ne : ∀ c (b : Ref sig .tc), b ≠ main_v25 → Vp c b = V c b) :
    Pipeline.RegionSeg (pcfgs (F := F)) (fun p => (cfgs p).toPCfg_adm) pdats () defs₀ Variants.none (fun _ => (∅ : Finset Unit)) (fun _ _ => (0 : ℕ)) 8 where
  win := launch8.win.to₀
  block_pos := launch8.block_pos
  stage_whole := launch8.stage_whole
  K := PEmpty
  osem k := k.elim
  ho := Pipeline.OwnSemFacts.none _
  hbody c := by rw [hp c]; exact (body_obligation8 V c).loose
  hwaits := Pipeline.hwaits_of_owed_zero _ _ _ _ _ _ 8 fun c t => by rw [hp c]; rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ × Counters) (Lvl := ℕ) spec8 c (V c)
  hentry c := by
    rw [Pipeline.ownSems0_none]
    have hsplit := Pipeline.arrays_of_unscopedBufs (p := 8) (pcfgs (F := F)) (fun p => (cfgs p).toPCfg_adm) pdats launch8.win launch8.arr_whole c
      ((pdats 8 c).share_full fun w => by rw [hp c]; rfl) (V c) (fun w => by rw [hp c]; rfl)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hp c]; exact trivial)
      rw [show (pdats 8 c).owed 0 = 0 from by rw [hp c]; rfl]
      iexact HO
    isplitr; · iempintro
    iexact Hrest
  hin c := by
    rw [hp c, show (dat8 V c).Φ 0 = Pipeline.scopedRest (Ix := Unit) (Name := ℕ) (U := UR sig nD τ × Counters) (Lvl := ℕ) (Val := Elt F) spec8 c from rfl]
    iintro ⟨-, -, Hr⟩; iexact Hr
  hout c := by
    rw [Pipeline.ownSems0_none, hp c]
    change (Pipeline.scopedRest (Ix := Unit) (Name := ℕ) (U := UR sig nD τ × Counters) (Lvl := ℕ) (Val := Elt F) spec8 c : sProp 𝕄) ⊢ _
    iintro Hr
    isplitr; · iempintro
    isplitr; · iempintro
    iexact Hr
  hexit c := by
    have hjoin := Pipeline.unscopedBufs_of_arrays (p := 8) (pcfgs (F := F)) (fun p => (cfgs p).toPCfg_adm) (Ix := Unit) (Name := ℕ) (U := UR sig nD τ × Counters) (Lvl := ℕ) launch8.win launch8.arr_whole c
      pdats ((pdats 8 c).share_full fun w => by rw [hp c]; rfl) (V c) (Vp c) ((pdats 8 c).arrAt · cfg8.N)
      (fun w => by
        fin_cases w
        · exact (((pdats 8 c).arrAt_in 0 rfl _).trans (by rw [hp c]; rfl)).trans (hVp_ne c main_v24 (by decide)).symm
        · exact (((pdats 8 c).arrAt_in 1 rfl _).trans (by rw [hp c]; rfl)).trans (hVp_ne c main_arg21 (by decide)).symm
        · exact (by rw [hp c]; rfl : (pdats 8 c).arrAt 2 cfg8.N = out8arr V c).trans (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W
    rw [show (pdats 8 c).owed (Fin.last _) = 0 from by rw [hp c]; rfl]
    iexact HO

end Cert.KernelIdeal.Hand

end
-- ==== Proof.KI.R09Base.lean ====
/-
  Launch 9 of the program: one matrix product per grid point — the contraction is a single block —, from which the
  output block is stored at every point. The grid's third coordinate is always 0, so both conditions of the body —
  "the contraction's first block" and "its last block" — hold at every point: this module decides them over the
  grid's points, records that no window is ever idle, and names the staging memrefs the body is called with.
-/
import proofs.«113214_j66838281060556_2_alg».proof.Proof.Gen.KernelIdeal.Launch
import proofs.«113214_j66838281060556_2_alg».proof.Proof.Gen.KernelIdeal.Skeleton
import proofs.«113214_j66838281060556_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

/-- The accumulator is reset: the point starts a contraction (third grid coordinate 0). Here the third axis has one
    coordinate, so every point does. -/
abbrev cond9_0 (i : grid9.Coords) : Prop := (Scalar.cmpi .ne (Scalar.extui (Scalar.cmpi .eq (BitVec.ofNat 32 (i 2).val) 0#32)) 0#32) = 1#1
theorem hcond9_0 : ∀ t : Fin cfg9.N, cond9_0 (grid9.coords t) :=
  (by decide +kernel : ∀ t : Fin grid9.N, cond9_0 (grid9.coords t))

/-- The result is stored: the point ends a contraction. Every point does. -/
abbrev cond9_1 (i : grid9.Coords) : Prop := k9_cond2 i = 1#1
theorem hcond9_1 : ∀ t : Fin cfg9.N, cond9_1 (grid9.coords t) :=
  (by decide +kernel : ∀ t : Fin grid9.N, cond9_1 (grid9.coords t))

/-- No window is idle at any point: the two inputs never, the output because every point stores. -/
theorem liveAt9_0 : ∀ t : Fin cfg9.N, cfg9.idle 0 (grid9.coords t) = false := by decide +kernel
theorem liveAt9_1 : ∀ t : Fin cfg9.N, cfg9.idle 1 (grid9.coords t) = false := by decide +kernel
theorem liveAt9_2 : ∀ t : Fin cfg9.N, cfg9.idle 2 (grid9.coords t) = false := by decide +kernel

/-- Each window's current staging memref at a point, as the pipeline passes it, and its wholeness. -/
abbrev ms9_0 (t : Fin cfg9.N) : Memref sig .tc .vmem S1024x819 .bf16 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S1024x819 .f32 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S1024x1024 .f32 := win9_2.stage (cfg9.slots t 2)
abbrev hs9_2 (t : Fin cfg9.N) : (ms9_2 t).IsWhole := hstage9_2 ((cfg9.slots t 2).cast nbuf9_2)
/-- The accumulator: a whole scoped buffer of the launch's own. -/
abbrev scM9 : Memref sig .tc .vmem S1024x1024 .f32 := Memref.whole cc9_scratch0
abbrev VS9 : View sig .tc .vmem S1024x1024 .f32 := scM9.view

end Cert.KernelIdeal.Hand

end
-- ==== Proof.KI.R09Run.lean ====
/-
  Launch 9, the body run symbolically in its one control case: the accumulator reset, the product added, the output
  block stored from the sum. The run's witnesses are the lists of pieces its stores leave in the output block and in
  the accumulator.
-/
import proofs.«113214_j66838281060556_2_alg».proof.Proof.KI.R09Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

set_option maxHeartbeats 2000000 in
/-- The body at a point, run symbolically: the accumulator, found at anything, is reset and ends at the product of
    the two input blocks added to it; the output block, found at anything, is stored whole from that sum. The
    witnesses are the pieces the stores leave in the output block and in the accumulator. -/
noncomputable def run9 (c : Dev nD) (i : grid9.Coords) (arg3 : Memref sig .tc .vmem S1024x819 .bf16) (harg3 : arg3.IsWhole) (arg4 : Memref sig .tc .vmem S1024x819 .f32) (harg4 : arg4.IsWhole) (arg5 : Memref sig .tc .vmem S1024x1024 .f32) (harg5 : arg5.IsWhole) (arg6 : Memref sig .tc .vmem S1024x1024 .f32) (harg6 : arg6.IsWhole) (hc0 : cond9_0 i) (hc1 : cond9_1 i)
    (x0 : Vec F S1024x819 .bf16) (x1 : Vec F S1024x819 .f32) :
    Σ' (LO : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc9__mm_kernel i arg3 harg3 arg4 harg4 arg5 harg5 arg6 harg6) K } := by
  refine ⟨?_, ?_, fun E K => ?run⟩
  case run =>
    simp only [cc9__mm_kernel_eq_skeleton]; unfold cc9__mm_kernel_skel
    unfold owns
    iintro ⟨⟨%f0, %hf0, H0⟩, ⟨%f1, %hf1, H1⟩, ⟨%d2, %f2, -, H2⟩, ⟨%ds, %fs, -, HS⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact HS

end Cert.KernelIdeal.Hand

end
-- ==== Proof.KI.R09.lean ====
/-
  Launch 9 as a region of the program. The blocks the windows stage are read off the arrays as the region finds
  them; a point stores the output block its run leaves; the accumulator is reset at every point, so between points
  the launch's scoped buffers that no window stages are simply held whole at anything; the body obligation follows
  from the one symbolic run; and the region is stated over the thread state "every unscoped buffer at given
  contents, the core owing nothing", entered by splitting the three arrays out and left with the result's array
  at what the pipeline computes from the stored blocks.
-/
import proofs.«113214_j66838281060556_2_alg».proof.Proof.KI.R09Run
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

variable (V : (c : Dev nD) → (b : Ref sig .tc) → Buf (Elt F) ((c : Thread nD τ).loc b))

/-! ## The blocks the windows stage -/

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- A view of the output's staging buffer, through which contents are stated. -/
abbrev VO9 : View sig .tc .vmem S1024x1024 .f32 := (Memref.whole cc9_stg2_0 : Memref sig .tc .vmem S1024x1024 .f32).view

/-! ## What a point leaves -/

/-- The output block a point stores: what the run's pieces leave, read through the staging buffer's view. -/
def out9 (c : Dev nD) (t : Fin cfg9.N) : Vec F S1024x1024 .f32 :=
  VO9.read (Elt F) (VO9.writes (Elt F) VO9.junk (run9 c (grid9.coords t) (ms9_0 t) (hs9_0 t) (ms9_1 t) (hs9_1 t) (ms9_2 t) (hs9_2 t) scM9 (Memref.isWhole_whole _) (hcond9_0 t) (hcond9_1 t) (iblk9 V c 0 t) (iblk9 V c 1 t)).1)

/-- The stores into the output block cover it. -/
theorem coverO9 (c : Dev nD) (t : Fin cfg9.N) (y : S1024x1024.Idx) :
    ∃ pc ∈ (run9 c (grid9.coords t) (ms9_0 t) (hs9_0 t) (ms9_1 t) (hs9_1 t) (ms9_2 t) (hs9_2 t) scM9 (Memref.isWhole_whole _) (hcond9_0 t) (hcond9_1 t) (iblk9 V c 0 t) (iblk9 V c 1 t)).1, y ∈ pc.1.set :=
  View.cover_of_tiledL _ S1024x1024.size (by sl_kernel_rfl) y

/-! ## The invariant between points -/

/-- The scoped rest with the accumulator split out as a memref owned at some contents. The accumulator is reset at
    every point, so the invariant between points is the scoped rest itself, the accumulator at anything. -/
theorem scopedRest9_eq (c : Dev nD) :
    (Pipeline.scopedRest (Ix := Unit) (Name := ℕ) (U := UR sig nD τ × Counters) (Lvl := ℕ) (Val := Elt F) spec9 c : sProp 𝕄)
      = iprop((∃ d, owns (c : Thread nD τ) scM9 fullShare d)
          ∗ Pipeline.scopedRestBut (Ix := Unit) (Name := ℕ) (U := UR sig nD τ × Counters) (Lvl := ℕ) (Val := Elt F) spec9 c [cc9_scratch0]) := by
  rw [scopedRest9_split]; simp only [scM9, owns_whole]; try rfl

/-! ## The proof data -/

def dat9 (c : Dev nD) : Dat τ (Elt F) Unit ℕ (UR sig nD τ × Counters) ℕ cfg9 c where
  A w := V c (Pipeline.arrRef spec9 w)
  after w t := match w with
    | ⟨0, _⟩ => iblk9 V c 0 t
    | ⟨1, _⟩ => iblk9 V c 1 t
    | ⟨2, _⟩ => out9 V c t
  Φ _ := Pipeline.scopedRest (Ix := Unit) (Name := ℕ) (U := UR sig nD τ × Counters) (Lvl := ℕ) (Val := Elt F) spec9 c
  q _ := fullShare
  owed _ := 0

theorem A9_eq (c : Dev nD) (w : Fin cfg9.W) : (dat9 V c).A w = V c (Pipeline.arrRef spec9 w) := by
  dsimp only [dat9]
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = out9 V c t := by dsimp only [dat9]

/-- Each input window's current staging buffer holds its block at every point, fetched there or not. -/
theorem before9_0 (c : Dev nD) (t : Fin cfg9.N) (d) : (dat9 V c).before 0 t d = iblk9 V c 0 t :=
  ((dat9 V c).before_in_eq_fetched 0 rfl (fun _ => rfl) (fun _ _ _ => rfl) (fun t => by rw [after9_0]; unfold Dat.blockOf iblk9; rw [A9_eq]; try rfl) t d).trans
    (by unfold Dat.fetched Dat.blockOf iblk9; rw [A9_eq]; try rfl)
theorem before9_1 (c : Dev nD) (t : Fin cfg9.N) (d) : (dat9 V c).before 1 t d = iblk9 V c 1 t :=
  ((dat9 V c).before_in_eq_fetched 1 rfl (fun _ => rfl) (fun _ _ _ => rfl) (fun t => by rw [after9_1]; unfold Dat.blockOf iblk9; rw [A9_eq]; try rfl) t d).trans
    (by unfold Dat.fetched Dat.blockOf iblk9; rw [A9_eq]; try rfl)

/-! ## The body obligation at a generic point -/

def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d)))

def bodyPost9 (c : Dev nD) (t : Fin cfg9.N) : sProp 𝕄 :=
  iprop((dat9 V c).Φ t.succ ∗ (dat9 V c).owesAt () t.succ
    ∗ (dat9 V c).leavesExact 0 t ∗ (dat9 V c).leavesExact 1 t ∗ (dat9 V c).leavesExact 2 t)

set_option maxHeartbeats 4000000 in
/-- The body at any point. The two input buffers hold their blocks; the invariant hands over the accumulator at
    anything and takes it back at anything; the output buffer, found at anything, is handed back at the block the
    point stores; the core owes nothing throughout. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).owesAt () t.succ = (dat9 V c).owesAt () t.castSucc from rfl]
  rw [show (dat9 V c).Φ t.succ = Pipeline.scopedRest (Ix := Unit) (Name := ℕ) (U := UR sig nD τ × Counters) (Lvl := ℕ) (Val := Elt F) spec9 c from rfl,
    show (dat9 V c).Φ t.castSucc = Pipeline.scopedRest (Ix := Unit) (Name := ℕ) (U := UR sig nD τ × Counters) (Lvl := ℕ) (Val := Elt F) spec9 c from rfl]
  rw [show (dat9 V c).leavesExact 0 t = owns (c : Thread nD τ) (ms9_0 t) fullShare (iblk9 V c 0 t) from by
    unfold Dat.leavesExact; rw [liveAt9_0 t, after9_0]]
  rw [show (dat9 V c).leavesExact 1 t = owns (c : Thread nD τ) (ms9_1 t) fullShare (iblk9 V c 1 t) from by
    unfold Dat.leavesExact; rw [liveAt9_1 t, after9_1]]
  rw [show (dat9 V c).leavesExact 2 t = owns (c : Thread nD τ) (ms9_2 t) fullShare (out9 V c t) from by
    unfold Dat.leavesExact; rw [liveAt9_2 t, after9_2]]
  rw [scopedRest9_eq]
  unfold out9
  iintro ⟨⟨HS, Hb⟩, Ho, ⟨%d0, H0⟩, ⟨%d1, H1⟩, ⟨%d2, H2⟩⟩
  iapply ((run9 c (grid9.coords t) (ms9_0 t) (hs9_0 t) (ms9_1 t) (hs9_1 t) (ms9_2 t) (hs9_2 t) scM9 (Memref.isWhole_whole _) (hcond9_0 t) (hcond9_1 t) (iblk9 V c 0 t) (iblk9 V c 1 t)).2.2 Set.univ _)
  isplitl [H0]; · iexact H0
  isplitl [H1]; · iexact H1
  isplitl [H2]; · iexists _; iexact H2
  isplitl [HS]; · iexact HS
  iintro ⟨H0, H1, ⟨%e2, H2⟩, ⟨%es, HS⟩⟩
  isplitl [HS Hb]
  · isplitl [HS]
    · iexists _; unfold owns; iexists _; isplitr
      swap; · iexact HS
      ipureintro; rfl
    iexact Hb
  isplitl [Ho]; · iexact Ho
  isplitl [H0]; · iexact H0
  isplitl [H1]; · iexact H1
  unfold owns; iexists _; isplitr
  swap; · iexact H2
  ipureintro; exact View.read_writes_of_cover _ _ _ _ _ (coverO9 V c t)

theorem body_obligation9 (c : Dev nD) : BodyObligation (dat9 V c) (defs₀ (F := F)) Variants.none () Set.univ := fun t => by
  rw [bigSep_W9, bigSep_W9]
  exact sound_body9 V c t

/-! ## The region over the thread state -/

variable (Vp : (c : Dev nD) → (b : Ref sig .tc) → Buf (Elt F) ((c : Thread nD τ).loc b))
variable (pdats : (p : Fin 22) → (c : Dev nD) → Dat τ (Elt F) Unit ℕ (UR sig nD τ × Counters) ℕ (cfgs p) c)

/-- The result's array after the region, as the pipeline library computes it from the proof data. -/
def out9arr (c : Dev nD) : Buf (Elt F) ((c : Thread nD τ).loc main_v26) := (dat9 V c).arrAt 2 cfg9.N

set_option backward.isDefEq.respectTransparency.types false in
set_option maxHeartbeats 2000000 in
/-- Launch 9 over the thread state "every unscoped buffer at `V c`, the core owing nothing": entered by
    splitting its three arrays out of the unscoped buffers, left with them put back at `Vp c`, which has the
    result's array at `out9arr` and agrees with `V c` elsewhere. -/
def reg9 (hp : ∀ c, pdats 9 c = dat9 V c)
    (hVp_out : ∀ c, Vp c main_v26 = out9arr V c)
    (hVp_ne : ∀ c (b : Ref sig .tc), b ≠ main_v26 → Vp c b = V c b) :
    Pipeline.RegionSeg (pcfgs (F := F)) (fun p => (cfgs p).toPCfg_adm) pdats () defs₀ Variants.none (fun _ => (∅ : Finset Unit)) (fun _ _ => (0 : ℕ)) 9 where
  win := launch9.win.to₀
  block_pos := launch9.block_pos
  stage_whole := launch9.stage_whole
  K := PEmpty
  osem k := k.elim
  ho := Pipeline.OwnSemFacts.none _
  hbody c := by rw [hp c]; exact (body_obligation9 V c).loose
  hwaits := Pipeline.hwaits_of_owed_zero _ _ _ _ _ _ 9 fun c t => by rw [hp c]; rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ × Counters) (Lvl := ℕ) spec9 c (V c)
  hentry c := by
    rw [Pipeline.ownSems0_none]
    have hsplit := Pipeline.arrays_of_unscopedBufs (p := 9) (pcfgs (F := F)) (fun p => (cfgs p).toPCfg_adm) pdats launch9.win launch9.arr_whole c
      ((pdats 9 c).share_full fun w => by rw [hp c]; rfl) (V c) (fun w => by rw [hp c]; rfl)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hp c]; exact trivial)
      rw [show (pdats 9 c).owed 0 = 0 from by rw [hp c]; rfl]
      iexact HO
    isplitr; · iempintro
    iexact Hrest
  hin c := by
    rw [hp c, show (dat9 V c).Φ 0 = Pipeline.scopedRest (Ix := Unit) (Name := ℕ) (U := UR sig nD τ × Counters) (Lvl := ℕ) (Val := Elt F) spec9 c from rfl]
    iintro ⟨-, -, Hr⟩; iexact Hr
  hout c := by
    rw [Pipeline.ownSems0_none, hp c]
    change (Pipeline.scopedRest (Ix := Unit) (Name := ℕ) (U := UR sig nD τ × Counters) (Lvl := ℕ) (Val := Elt F) spec9 c : sProp 𝕄) ⊢ _
    iintro Hr
    isplitr; · iempintro
    isplitr; · iempintro
    iexact Hr
  hexit c := by
    have hjoin := Pipeline.unscopedBufs_of_arrays (p := 9) (pcfgs (F := F)) (fun p => (cfgs p).toPCfg_adm) (Ix := Unit) (Name := ℕ) (U := UR sig nD τ × Counters) (Lvl := ℕ) launch9.win launch9.arr_whole c
      pdats ((pdats 9 c).share_full fun w => by rw [hp c]; rfl) (V c) (Vp c) ((pdats 9 c).arrAt · cfg9.N)
      (fun w => by
        fin_cases w
        · exact (((pdats 9 c).arrAt_in 0 rfl _).trans (by rw [hp c]; rfl)).trans (hVp_ne c main_v25 (by decide)).symm
        · exact (((pdats 9 c).arrAt_in 1 rfl _).trans (by rw [hp c]; rfl)).trans (hVp_ne c main_v24 (by decide)).symm
        · exact (by rw [hp c]; rfl : (pdats 9 c).arrAt 2 cfg9.N = out9arr V c).trans (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W
    rw [show (pdats 9 c).owed (Fin.last _) = 0 from by rw [hp c]; rfl]
    iexact HO

end Cert.KernelIdeal.Hand

end
-- ==== Proof.KI.R10Base.lean ====
/-
  Launch 10 of the program: one matrix product per grid point — the contraction is a single block —, from which the
  output block is stored at every point. The grid's third coordinate is always 0, so both conditions of the body —
  "the contraction's first block" and "its last block" — hold at every point: this module decides them over the
  grid's points, records that no window is ever idle, and names the staging memrefs the body is called with.
-/
import proofs.«113214_j66838281060556_2_alg».proof.Proof.Gen.KernelIdeal.Launch
import proofs.«113214_j66838281060556_2_alg».proof.Proof.Gen.KernelIdeal.Skeleton
import proofs.«113214_j66838281060556_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

/-- The accumulator is reset: the point starts a contraction (third grid coordinate 0). Here the third axis has one
    coordinate, so every point does. -/
abbrev cond10_0 (i : grid10.Coords) : Prop := (Scalar.cmpi .ne (Scalar.extui (Scalar.cmpi .eq (BitVec.ofNat 32 (i 2).val) 0#32)) 0#32) = 1#1
theorem hcond10_0 : ∀ t : Fin cfg10.N, cond10_0 (grid10.coords t) :=
  (by decide +kernel : ∀ t : Fin grid10.N, cond10_0 (grid10.coords t))

/-- The result is stored: the point ends a contraction. Every point does. -/
abbrev cond10_1 (i : grid10.Coords) : Prop := k10_cond2 i = 1#1
theorem hcond10_1 : ∀ t : Fin cfg10.N, cond10_1 (grid10.coords t) :=
  (by decide +kernel : ∀ t : Fin grid10.N, cond10_1 (grid10.coords t))

/-- No window is idle at any point: the two inputs never, the output because every point stores. -/
theorem liveAt10_0 : ∀ t : Fin cfg10.N, cfg10.idle 0 (grid10.coords t) = false := by decide +kernel
theorem liveAt10_1 : ∀ t : Fin cfg10.N, cfg10.idle 1 (grid10.coords t) = false := by decide +kernel
theorem liveAt10_2 : ∀ t : Fin cfg10.N, cfg10.idle 2 (grid10.coords t) = false := by decide +kernel

/-- Each window's current staging memref at a point, as the pipeline passes it, and its wholeness. -/
abbrev ms10_0 (t : Fin cfg10.N) : Memref sig .tc .vmem S1024x819 .f32 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S819x819 .f32 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S1024x819 .bf16 := win10_2.stage (cfg10.slots t 2)
abbrev hs10_2 (t : Fin cfg10.N) : (ms10_2 t).IsWhole := hstage10_2 ((cfg10.slots t 2).cast nbuf10_2)
/-- The accumulator: a whole scoped buffer of the launch's own. -/
abbrev scM10 : Memref sig .tc .vmem S1024x819 .f32 := Memref.whole cc10_scratch0
abbrev VS10 : View sig .tc .vmem S1024x819 .f32 := scM10.view

end Cert.KernelIdeal.Hand

end
-- ==== Proof.KI.R10Run.lean ====
/-
  Launch 10, the body run symbolically in its one control case: the accumulator reset, the product added, the output
  block stored from the sum. The run's witnesses are the lists of pieces its stores leave in the output block and in
  the accumulator.
-/
import proofs.«113214_j66838281060556_2_alg».proof.Proof.KI.R10Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

set_option maxHeartbeats 2000000 in
/-- The body at a point, run symbolically: the accumulator, found at anything, is reset and ends at the product of
    the two input blocks added to it; the output block, found at anything, is stored whole from that sum. The
    witnesses are the pieces the stores leave in the output block and in the accumulator. -/
noncomputable def run10 (c : Dev nD) (i : grid10.Coords) (arg3 : Memref sig .tc .vmem S1024x819 .f32) (harg3 : arg3.IsWhole) (arg4 : Memref sig .tc .vmem S819x819 .f32) (harg4 : arg4.IsWhole) (arg5 : Memref sig .tc .vmem S1024x819 .bf16) (harg5 : arg5.IsWhole) (arg6 : Memref sig .tc .vmem S1024x819 .f32) (harg6 : arg6.IsWhole) (hc0 : cond10_0 i) (hc1 : cond10_1 i)
    (x0 : Vec F S1024x819 .f32) (x1 : Vec F S819x819 .f32) :
    Σ' (LO : List (View.Piece (Elt F) S1024x819 .bf16)), { LS : List (View.Piece (Elt F) S1024x819 .f32) //
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc10__mm_kernel i arg3 harg3 arg4 harg4 arg5 harg5 arg6 harg6) K } := by
  refine ⟨?_, ?_, fun E K => ?run⟩
  case run =>
    simp only [cc10__mm_kernel_eq_skeleton]; unfold cc10__mm_kernel_skel
    unfold owns
    iintro ⟨⟨%f0, %hf0, H0⟩, ⟨%f1, %hf1, H1⟩, ⟨%d2, %f2, -, H2⟩, ⟨%ds, %fs, -, HS⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact HS

end Cert.KernelIdeal.Hand

end
-- ==== Proof.KI.R10.lean ====
/-
  Launch 10 as a region of the program. The blocks the windows stage are read off the arrays as the region finds
  them; a point stores the output block its run leaves; the accumulator is reset at every point, so between points
  the launch's scoped buffers that no window stages are simply held whole at anything; the body obligation follows
  from the one symbolic run; and the region is stated over the thread state "every unscoped buffer at given
  contents, the core owing nothing", entered by splitting the three arrays out and left with the result's array
  at what the pipeline computes from the stored blocks.
-/
import proofs.«113214_j66838281060556_2_alg».proof.Proof.KI.R10Run
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

variable (V : (c : Dev nD) → (b : Ref sig .tc) → Buf (Elt F) ((c : Thread nD τ).loc b))

/-! ## The blocks the windows stage -/

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- A view of the output's staging buffer, through which contents are stated. -/
abbrev VO10 : View sig .tc .vmem S1024x819 .bf16 := (Memref.whole cc10_stg2_0 : Memref sig .tc .vmem S1024x819 .bf16).view

/-! ## What a point leaves -/

/-- The output block a point stores: what the run's pieces leave, read through the staging buffer's view. -/
def out10 (c : Dev nD) (t : Fin cfg10.N) : Vec F S1024x819 .bf16 :=
  VO10.read (Elt F) (VO10.writes (Elt F) VO10.junk (run10 c (grid10.coords t) (ms10_0 t) (hs10_0 t) (ms10_1 t) (hs10_1 t) (ms10_2 t) (hs10_2 t) scM10 (Memref.isWhole_whole _) (hcond10_0 t) (hcond10_1 t) (iblk10 V c 0 t) (iblk10 V c 1 t)).1)

/-- The stores into the output block cover it. -/
theorem coverO10 (c : Dev nD) (t : Fin cfg10.N) (y : S1024x819.Idx) :
    ∃ pc ∈ (run10 c (grid10.coords t) (ms10_0 t) (hs10_0 t) (ms10_1 t) (hs10_1 t) (ms10_2 t) (hs10_2 t) scM10 (Memref.isWhole_whole _) (hcond10_0 t) (hcond10_1 t) (iblk10 V c 0 t) (iblk10 V c 1 t)).1, y ∈ pc.1.set :=
  View.cover_of_tiledL _ S1024x819.size (by sl_kernel_rfl) y

/-! ## The invariant between points -/

/-- The scoped rest with the accumulator split out as a memref owned at some contents. The accumulator is reset at
    every point, so the invariant between points is the scoped rest itself, the accumulator at anything. -/
theorem scopedRest10_eq (c : Dev nD) :
    (Pipeline.scopedRest (Ix := Unit) (Name := ℕ) (U := UR sig nD τ × Counters) (Lvl := ℕ) (Val := Elt F) spec10 c : sProp 𝕄)
      = iprop((∃ d, owns (c : Thread nD τ) scM10 fullShare d)
          ∗ Pipeline.scopedRestBut (Ix := Unit) (Name := ℕ) (U := UR sig nD τ × Counters) (Lvl := ℕ) (Val := Elt F) spec10 c [cc10_scratch0]) := by
  rw [scopedRest10_split]; simp only [scM10, owns_whole]; try rfl

/-! ## The proof data -/

def dat10 (c : Dev nD) : Dat τ (Elt F) Unit ℕ (UR sig nD τ × Counters) ℕ cfg10 c where
  A w := V c (Pipeline.arrRef spec10 w)
  after w t := match w with
    | ⟨0, _⟩ => iblk10 V c 0 t
    | ⟨1, _⟩ => iblk10 V c 1 t
    | ⟨2, _⟩ => out10 V c t
  Φ _ := Pipeline.scopedRest (Ix := Unit) (Name := ℕ) (U := UR sig nD τ × Counters) (Lvl := ℕ) (Val := Elt F) spec10 c
  q _ := fullShare
  owed _ := 0

theorem A10_eq (c : Dev nD) (w : Fin cfg10.W) : (dat10 V c).A w = V c (Pipeline.arrRef spec10 w) := by
  dsimp only [dat10]
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = out10 V c t := by dsimp only [dat10]

/-- Each input window's current staging buffer holds its block at every point, fetched there or not. -/
theorem before10_0 (c : Dev nD) (t : Fin cfg10.N) (d) : (dat10 V c).before 0 t d = iblk10 V c 0 t :=
  ((dat10 V c).before_in_eq_fetched 0 rfl (fun _ => rfl) (fun _ _ _ => rfl) (fun t => by rw [after10_0]; unfold Dat.blockOf iblk10; rw [A10_eq]; try rfl) t d).trans
    (by unfold Dat.fetched Dat.blockOf iblk10; rw [A10_eq]; try rfl)
theorem before10_1 (c : Dev nD) (t : Fin cfg10.N) (d) : (dat10 V c).before 1 t d = iblk10 V c 1 t :=
  ((dat10 V c).before_in_eq_fetched 1 rfl (fun _ => rfl) (fun _ _ _ => rfl) (fun t => by rw [after10_1]; unfold Dat.blockOf iblk10; rw [A10_eq]; try rfl) t d).trans
    (by unfold Dat.fetched Dat.blockOf iblk10; rw [A10_eq]; try rfl)

/-! ## The body obligation at a generic point -/

def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d)))

def bodyPost10 (c : Dev nD) (t : Fin cfg10.N) : sProp 𝕄 :=
  iprop((dat10 V c).Φ t.succ ∗ (dat10 V c).owesAt () t.succ
    ∗ (dat10 V c).leavesExact 0 t ∗ (dat10 V c).leavesExact 1 t ∗ (dat10 V c).leavesExact 2 t)

set_option maxHeartbeats 4000000 in
/-- The body at any point. The two input buffers hold their blocks; the invariant hands over the accumulator at
    anything and takes it back at anything; the output buffer, found at anything, is handed back at the block the
    point stores; the core owes nothing throughout. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).owesAt () t.succ = (dat10 V c).owesAt () t.castSucc from rfl]
  rw [show (dat10 V c).Φ t.succ = Pipeline.scopedRest (Ix := Unit) (Name := ℕ) (U := UR sig nD τ × Counters) (Lvl := ℕ) (Val := Elt F) spec10 c from rfl,
    show (dat10 V c).Φ t.castSucc = Pipeline.scopedRest (Ix := Unit) (Name := ℕ) (U := UR sig nD τ × Counters) (Lvl := ℕ) (Val := Elt F) spec10 c from rfl]
  rw [show (dat10 V c).leavesExact 0 t = owns (c : Thread nD τ) (ms10_0 t) fullShare (iblk10 V c 0 t) from by
    unfold Dat.leavesExact; rw [liveAt10_0 t, after10_0]]
  rw [show (dat10 V c).leavesExact 1 t = owns (c : Thread nD τ) (ms10_1 t) fullShare (iblk10 V c 1 t) from by
    unfold Dat.leavesExact; rw [liveAt10_1 t, after10_1]]
  rw [show (dat10 V c).leavesExact 2 t = owns (c : Thread nD τ) (ms10_2 t) fullShare (out10 V c t) from by
    unfold Dat.leavesExact; rw [liveAt10_2 t, after10_2]]
  rw [scopedRest10_eq]
  unfold out10
  iintro ⟨⟨HS, Hb⟩, Ho, ⟨%d0, H0⟩, ⟨%d1, H1⟩, ⟨%d2, H2⟩⟩
  iapply ((run10 c (grid10.coords t) (ms10_0 t) (hs10_0 t) (ms10_1 t) (hs10_1 t) (ms10_2 t) (hs10_2 t) scM10 (Memref.isWhole_whole _) (hcond10_0 t) (hcond10_1 t) (iblk10 V c 0 t) (iblk10 V c 1 t)).2.2 Set.univ _)
  isplitl [H0]; · iexact H0
  isplitl [H1]; · iexact H1
  isplitl [H2]; · iexists _; iexact H2
  isplitl [HS]; · iexact HS
  iintro ⟨H0, H1, ⟨%e2, H2⟩, ⟨%es, HS⟩⟩
  isplitl [HS Hb]
  · isplitl [HS]
    · iexists _; unfold owns; iexists _; isplitr
      swap; · iexact HS
      ipureintro; rfl
    iexact Hb
  isplitl [Ho]; · iexact Ho
  isplitl [H0]; · iexact H0
  isplitl [H1]; · iexact H1
  unfold owns; iexists _; isplitr
  swap; · iexact H2
  ipureintro; exact View.read_writes_of_cover _ _ _ _ _ (coverO10 V c t)

theorem body_obligation10 (c : Dev nD) : BodyObligation (dat10 V c) (defs₀ (F := F)) Variants.none () Set.univ := fun t => by
  rw [bigSep_W10, bigSep_W10]
  exact sound_body10 V c t

/-! ## The region over the thread state -/

variable (Vp : (c : Dev nD) → (b : Ref sig .tc) → Buf (Elt F) ((c : Thread nD τ).loc b))
variable (pdats : (p : Fin 22) → (c : Dev nD) → Dat τ (Elt F) Unit ℕ (UR sig nD τ × Counters) ℕ (cfgs p) c)

/-- The result's array after the region, as the pipeline library computes it from the proof data. -/
def out10arr (c : Dev nD) : Buf (Elt F) ((c : Thread nD τ).loc main_v27) := (dat10 V c).arrAt 2 cfg10.N

set_option backward.isDefEq.respectTransparency.types false in
set_option maxHeartbeats 2000000 in
/-- Launch 10 over the thread state "every unscoped buffer at `V c`, the core owing nothing": entered by
    splitting its three arrays out of the unscoped buffers, left with them put back at `Vp c`, which has the
    result's array at `out10arr` and agrees with `V c` elsewhere. -/
def reg10 (hp : ∀ c, pdats 10 c = dat10 V c)
    (hVp_out : ∀ c, Vp c main_v27 = out10arr V c)
    (hVp_ne : ∀ c (b : Ref sig .tc), b ≠ main_v27 → Vp c b = V c b) :
    Pipeline.RegionSeg (pcfgs (F := F)) (fun p => (cfgs p).toPCfg_adm) pdats () defs₀ Variants.none (fun _ => (∅ : Finset Unit)) (fun _ _ => (0 : ℕ)) 10 where
  win := launch10.win.to₀
  block_pos := launch10.block_pos
  stage_whole := launch10.stage_whole
  K := PEmpty
  osem k := k.elim
  ho := Pipeline.OwnSemFacts.none _
  hbody c := by rw [hp c]; exact (body_obligation10 V c).loose
  hwaits := Pipeline.hwaits_of_owed_zero _ _ _ _ _ _ 10 fun c t => by rw [hp c]; rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ × Counters) (Lvl := ℕ) spec10 c (V c)
  hentry c := by
    rw [Pipeline.ownSems0_none]
    have hsplit := Pipeline.arrays_of_unscopedBufs (p := 10) (pcfgs (F := F)) (fun p => (cfgs p).toPCfg_adm) pdats launch10.win launch10.arr_whole c
      ((pdats 10 c).share_full fun w => by rw [hp c]; rfl) (V c) (fun w => by rw [hp c]; rfl)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hp c]; exact trivial)
      rw [show (pdats 10 c).owed 0 = 0 from by rw [hp c]; rfl]
      iexact HO
    isplitr; · iempintro
    iexact Hrest
  hin c := by
    rw [hp c, show (dat10 V c).Φ 0 = Pipeline.scopedRest (Ix := Unit) (Name := ℕ) (U := UR sig nD τ × Counters) (Lvl := ℕ) (Val := Elt F) spec10 c from rfl]
    iintro ⟨-, -, Hr⟩; iexact Hr
  hout c := by
    rw [Pipeline.ownSems0_none, hp c]
    change (Pipeline.scopedRest (Ix := Unit) (Name := ℕ) (U := UR sig nD τ × Counters) (Lvl := ℕ) (Val := Elt F) spec10 c : sProp 𝕄) ⊢ _
    iintro Hr
    isplitr; · iempintro
    isplitr; · iempintro
    iexact Hr
  hexit c := by
    have hjoin := Pipeline.unscopedBufs_of_arrays (p := 10) (pcfgs (F := F)) (fun p => (cfgs p).toPCfg_adm) (Ix := Unit) (Name := ℕ) (U := UR sig nD τ × Counters) (Lvl := ℕ) launch10.win launch10.arr_whole c
      pdats ((pdats 10 c).share_full fun w => by rw [hp c]; rfl) (V c) (Vp c) ((pdats 10 c).arrAt · cfg10.N)
      (fun w => by
        fin_cases w
        · exact (((pdats 10 c).arrAt_in 0 rfl _).trans (by rw [hp c]; rfl)).trans (hVp_ne c main_v24 (by decide)).symm
        · exact (((pdats 10 c).arrAt_in 1 rfl _).trans (by rw [hp c]; rfl)).trans (hVp_ne c main_arg22 (by decide)).symm
        · exact (by rw [hp c]; rfl : (pdats 10 c).arrAt 2 cfg10.N = out10arr V c).trans (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W
    rw [show (pdats 10 c).owed (Fin.last _) = 0 from by rw [hp c]; rfl]
    iexact HO

end Cert.KernelIdeal.Hand

end
-- ==== Proof.KI.R11Base.lean ====
/-
  Launch 11 of the program: one matrix product per grid point — the contraction is a single block —, from which the
  output block is stored at every point. The grid's third coordinate is always 0, so both conditions of the body —
  "the contraction's first block" and "its last block" — hold at every point: this module decides them over the
  grid's points, records that no window is ever idle, and names the staging memrefs the body is called with.
-/
import proofs.«113214_j66838281060556_2_alg».proof.Proof.Gen.KernelIdeal.Launch
import proofs.«113214_j66838281060556_2_alg».proof.Proof.Gen.KernelIdeal.Skeleton
import proofs.«113214_j66838281060556_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

/-- The accumulator is reset: the point starts a contraction (third grid coordinate 0). Here the third axis has one
    coordinate, so every point does. -/
abbrev cond11_0 (i : grid11.Coords) : Prop := (Scalar.cmpi .ne (Scalar.extui (Scalar.cmpi .eq (BitVec.ofNat 32 (i 2).val) 0#32)) 0#32) = 1#1
theorem hcond11_0 : ∀ t : Fin cfg11.N, cond11_0 (grid11.coords t) :=
  (by decide +kernel : ∀ t : Fin grid11.N, cond11_0 (grid11.coords t))

/-- The result is stored: the point ends a contraction. Every point does. -/
abbrev cond11_1 (i : grid11.Coords) : Prop := k11_cond2 i = 1#1
theorem hcond11_1 : ∀ t : Fin cfg11.N, cond11_1 (grid11.coords t) :=
  (by decide +kernel : ∀ t : Fin grid11.N, cond11_1 (grid11.coords t))

/-- No window is idle at any point: the two inputs never, the output because every point stores. -/
theorem liveAt11_0 : ∀ t : Fin cfg11.N, cfg11.idle 0 (grid11.coords t) = false := by decide +kernel
theorem liveAt11_1 : ∀ t : Fin cfg11.N, cfg11.idle 1 (grid11.coords t) = false := by decide +kernel
theorem liveAt11_2 : ∀ t : Fin cfg11.N, cfg11.idle 2 (grid11.coords t) = false := by decide +kernel

/-- Each window's current staging memref at a point, as the pipeline passes it, and its wholeness. -/
abbrev ms11_0 (t : Fin cfg11.N) : Memref sig .tc .vmem S1024x819 .bf16 := win11_0.stage (cfg11.slots t 0)
abbrev hs11_0 (t : Fin cfg11.N) : (ms11_0 t).IsWhole := hstage11_0 ((cfg11.slots t 0).cast nbuf11_0)
abbrev ms11_1 (t : Fin cfg11.N) : Memref sig .tc .vmem S1024x819 .f32 := win11_1.stage (cfg11.slots t 1)
abbrev hs11_1 (t : Fin cfg11.N) : (ms11_1 t).IsWhole := hstage11_1 ((cfg11.slots t 1).cast nbuf11_1)
abbrev ms11_2 (t : Fin cfg11.N) : Memref sig .tc .vmem S1024x1024 .f32 := win11_2.stage (cfg11.slots t 2)
abbrev hs11_2 (t : Fin cfg11.N) : (ms11_2 t).IsWhole := hstage11_2 ((cfg11.slots t 2).cast nbuf11_2)
/-- The accumulator: a whole scoped buffer of the launch's own. -/
abbrev scM11 : Memref sig .tc .vmem S1024x1024 .f32 := Memref.whole cc11_scratch0
abbrev VS11 : View sig .tc .vmem S1024x1024 .f32 := scM11.view

end Cert.KernelIdeal.Hand

end
-- ==== Proof.KI.R11Run.lean ====
/-
  Launch 11, the body run symbolically in its one control case: the accumulator reset, the product added, the output
  block stored from the sum. The run's witnesses are the lists of pieces its stores leave in the output block and in
  the accumulator.
-/
import proofs.«113214_j66838281060556_2_alg».proof.Proof.KI.R11Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

set_option maxHeartbeats 2000000 in
/-- The body at a point, run symbolically: the accumulator, found at anything, is reset and ends at the product of
    the two input blocks added to it; the output block, found at anything, is stored whole from that sum. The
    witnesses are the pieces the stores leave in the output block and in the accumulator. -/
noncomputable def run11 (c : Dev nD) (i : grid11.Coords) (arg3 : Memref sig .tc .vmem S1024x819 .bf16) (harg3 : arg3.IsWhole) (arg4 : Memref sig .tc .vmem S1024x819 .f32) (harg4 : arg4.IsWhole) (arg5 : Memref sig .tc .vmem S1024x1024 .f32) (harg5 : arg5.IsWhole) (arg6 : Memref sig .tc .vmem S1024x1024 .f32) (harg6 : arg6.IsWhole) (hc0 : cond11_0 i) (hc1 : cond11_1 i)
    (x0 : Vec F S1024x819 .bf16) (x1 : Vec F S1024x819 .f32) :
    Σ' (LO : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc11__mm_kernel i arg3 harg3 arg4 harg4 arg5 harg5 arg6 harg6) K } := by
  refine ⟨?_, ?_, fun E K => ?run⟩
  case run =>
    simp only [cc11__mm_kernel_eq_skeleton]; unfold cc11__mm_kernel_skel
    unfold owns
    iintro ⟨⟨%f0, %hf0, H0⟩, ⟨%f1, %hf1, H1⟩, ⟨%d2, %f2, -, H2⟩, ⟨%ds, %fs, -, HS⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact HS

end Cert.KernelIdeal.Hand

end
-- ==== Proof.KI.R11.lean ====
/-
  Launch 11 as a region of the program. The blocks the windows stage are read off the arrays as the region finds
  them; a point stores the output block its run leaves; the accumulator is reset at every point, so between points
  the launch's scoped buffers that no window stages are simply held whole at anything; the body obligation follows
  from the one symbolic run; and the region is stated over the thread state "every unscoped buffer at given
  contents, the core owing nothing", entered by splitting the three arrays out and left with the result's array
  at what the pipeline computes from the stored blocks.
-/
import proofs.«113214_j66838281060556_2_alg».proof.Proof.KI.R11Run
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

variable (V : (c : Dev nD) → (b : Ref sig .tc) → Buf (Elt F) ((c : Thread nD τ).loc b))

/-! ## The blocks the windows stage -/

/-- Window `w`'s block at point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- A view of the output's staging buffer, through which contents are stated. -/
abbrev VO11 : View sig .tc .vmem S1024x1024 .f32 := (Memref.whole cc11_stg2_0 : Memref sig .tc .vmem S1024x1024 .f32).view

/-! ## What a point leaves -/

/-- The output block a point stores: what the run's pieces leave, read through the staging buffer's view. -/
def out11 (c : Dev nD) (t : Fin cfg11.N) : Vec F S1024x1024 .f32 :=
  VO11.read (Elt F) (VO11.writes (Elt F) VO11.junk (run11 c (grid11.coords t) (ms11_0 t) (hs11_0 t) (ms11_1 t) (hs11_1 t) (ms11_2 t) (hs11_2 t) scM11 (Memref.isWhole_whole _) (hcond11_0 t) (hcond11_1 t) (iblk11 V c 0 t) (iblk11 V c 1 t)).1)

/-- The stores into the output block cover it. -/
theorem coverO11 (c : Dev nD) (t : Fin cfg11.N) (y : S1024x1024.Idx) :
    ∃ pc ∈ (run11 c (grid11.coords t) (ms11_0 t) (hs11_0 t) (ms11_1 t) (hs11_1 t) (ms11_2 t) (hs11_2 t) scM11 (Memref.isWhole_whole _) (hcond11_0 t) (hcond11_1 t) (iblk11 V c 0 t) (iblk11 V c 1 t)).1, y ∈ pc.1.set :=
  View.cover_of_tiledL _ S1024x1024.size (by sl_kernel_rfl) y

/-! ## The invariant between points -/

/-- The scoped rest with the accumulator split out as a memref owned at some contents. The accumulator is reset at
    every point, so the invariant between points is the scoped rest itself, the accumulator at anything. -/
theorem scopedRest11_eq (c : Dev nD) :
    (Pipeline.scopedRest (Ix := Unit) (Name := ℕ) (U := UR sig nD τ × Counters) (Lvl := ℕ) (Val := Elt F) spec11 c : sProp 𝕄)
      = iprop((∃ d, owns (c : Thread nD τ) scM11 fullShare d)
          ∗ Pipeline.scopedRestBut (Ix := Unit) (Name := ℕ) (U := UR sig nD τ × Counters) (Lvl := ℕ) (Val := Elt F) spec11 c [cc11_scratch0]) := by
  rw [scopedRest11_split]; simp only [scM11, owns_whole]; try rfl

/-! ## The proof data -/

def dat11 (c : Dev nD) : Dat τ (Elt F) Unit ℕ (UR sig nD τ × Counters) ℕ cfg11 c where
  A w := V c (Pipeline.arrRef spec11 w)
  after w t := match w with
    | ⟨0, _⟩ => iblk11 V c 0 t
    | ⟨1, _⟩ => iblk11 V c 1 t
    | ⟨2, _⟩ => out11 V c t
  Φ _ := Pipeline.scopedRest (Ix := Unit) (Name := ℕ) (U := UR sig nD τ × Counters) (Lvl := ℕ) (Val := Elt F) spec11 c
  q _ := fullShare
  owed _ := 0

theorem A11_eq (c : Dev nD) (w : Fin cfg11.W) : (dat11 V c).A w = V c (Pipeline.arrRef spec11 w) := by
  dsimp only [dat11]
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = out11 V c t := by dsimp only [dat11]

/-- Each input window's current staging buffer holds its block at every point, fetched there or not. -/
theorem before11_0 (c : Dev nD) (t : Fin cfg11.N) (d) : (dat11 V c).before 0 t d = iblk11 V c 0 t :=
  ((dat11 V c).before_in_eq_fetched 0 rfl (fun _ => rfl) (fun _ _ _ => rfl) (fun t => by rw [after11_0]; unfold Dat.blockOf iblk11; rw [A11_eq]; try rfl) t d).trans
    (by unfold Dat.fetched Dat.blockOf iblk11; rw [A11_eq]; try rfl)
theorem before11_1 (c : Dev nD) (t : Fin cfg11.N) (d) : (dat11 V c).before 1 t d = iblk11 V c 1 t :=
  ((dat11 V c).before_in_eq_fetched 1 rfl (fun _ => rfl) (fun _ _ _ => rfl) (fun t => by rw [after11_1]; unfold Dat.blockOf iblk11; rw [A11_eq]; try rfl) t d).trans
    (by unfold Dat.fetched Dat.blockOf iblk11; rw [A11_eq]; try rfl)

/-! ## The body obligation at a generic point -/

def bodyPre11 (c : Dev nD) (t : Fin cfg11.N) : sProp 𝕄 :=
  iprop((dat11 V c).Φ t.castSucc ∗ (dat11 V c).owesAt () t.castSucc
    ∗ (∃ d, owns (c : Thread nD τ) (ms11_0 t) fullShare ((dat11 V c).before 0 t d))
    ∗ (∃ d, owns (c : Thread nD τ) (ms11_1 t) fullShare ((dat11 V c).before 1 t d))
    ∗ (∃ d, owns (c : Thread nD τ) (ms11_2 t) fullShare ((dat11 V c).before 2 t d)))

def bodyPost11 (c : Dev nD) (t : Fin cfg11.N) : sProp 𝕄 :=
  iprop((dat11 V c).Φ t.succ ∗ (dat11 V c).owesAt () t.succ
    ∗ (dat11 V c).leavesExact 0 t ∗ (dat11 V c).leavesExact 1 t ∗ (dat11 V c).leavesExact 2 t)

set_option maxHeartbeats 4000000 in
/-- The body at any point. The two input buffers hold their blocks; the invariant hands over the accumulator at
    anything and takes it back at anything; the output buffer, found at anything, is handed back at the block the
    point stores; the core owes nothing throughout. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1]
  rw [show (dat11 V c).owesAt () t.succ = (dat11 V c).owesAt () t.castSucc from rfl]
  rw [show (dat11 V c).Φ t.succ = Pipeline.scopedRest (Ix := Unit) (Name := ℕ) (U := UR sig nD τ × Counters) (Lvl := ℕ) (Val := Elt F) spec11 c from rfl,
    show (dat11 V c).Φ t.castSucc = Pipeline.scopedRest (Ix := Unit) (Name := ℕ) (U := UR sig nD τ × Counters) (Lvl := ℕ) (Val := Elt F) spec11 c from rfl]
  rw [show (dat11 V c).leavesExact 0 t = owns (c : Thread nD τ) (ms11_0 t) fullShare (iblk11 V c 0 t) from by
    unfold Dat.leavesExact; rw [liveAt11_0 t, after11_0]]
  rw [show (dat11 V c).leavesExact 1 t = owns (c : Thread nD τ) (ms11_1 t) fullShare (iblk11 V c 1 t) from by
    unfold Dat.leavesExact; rw [liveAt11_1 t, after11_1]]
  rw [show (dat11 V c).leavesExact 2 t = owns (c : Thread nD τ) (ms11_2 t) fullShare (out11 V c t) from by
    unfold Dat.leavesExact; rw [liveAt11_2 t, after11_2]]
  rw [scopedRest11_eq]
  unfold out11
  iintro ⟨⟨HS, Hb⟩, Ho, ⟨%d0, H0⟩, ⟨%d1, H1⟩, ⟨%d2, H2⟩⟩
  iapply ((run11 c (grid11.coords t) (ms11_0 t) (hs11_0 t) (ms11_1 t) (hs11_1 t) (ms11_2 t) (hs11_2 t) scM11 (Memref.isWhole_whole _) (hcond11_0 t) (hcond11_1 t) (iblk11 V c 0 t) (iblk11 V c 1 t)).2.2 Set.univ _)
  isplitl [H0]; · iexact H0
  isplitl [H1]; · iexact H1
  isplitl [H2]; · iexists _; iexact H2
  isplitl [HS]; · iexact HS
  iintro ⟨H0, H1, ⟨%e2, H2⟩, ⟨%es, HS⟩⟩
  isplitl [HS Hb]
  · isplitl [HS]
    · iexists _; unfold owns; iexists _; isplitr
      swap; · iexact HS
      ipureintro; rfl
    iexact Hb
  isplitl [Ho]; · iexact Ho
  isplitl [H0]; · iexact H0
  isplitl [H1]; · iexact H1
  unfold owns; iexists _; isplitr
  swap; · iexact H2
  ipureintro; exact View.read_writes_of_cover _ _ _ _ _ (coverO11 V c t)

theorem body_obligation11 (c : Dev nD) : BodyObligation (dat11 V c) (defs₀ (F := F)) Variants.none () Set.univ := fun t => by
  rw [bigSep_W11, bigSep_W11]
  exact sound_body11 V c t

/-! ## The region over the thread state -/

variable (Vp : (c : Dev nD) → (b : Ref sig .tc) → Buf (Elt F) ((c : Thread nD τ).loc b))
variable (pdats : (p : Fin 22) → (c : Dev nD) → Dat τ (Elt F) Unit ℕ (UR sig nD τ × Counters) ℕ (cfgs p) c)

/-- The result's array after the region, as the pipeline library computes it from the proof data. -/
def out11arr (c : Dev nD) : Buf (Elt F) ((c : Thread nD τ).loc main_v28) := (dat11 V c).arrAt 2 cfg11.N

set_option backward.isDefEq.respectTransparency.types false in
set_option maxHeartbeats 2000000 in
/-- Launch 11 over the thread state "every unscoped buffer at `V c`, the core owing nothing": entered by
    splitting its three arrays out of the unscoped buffers, left with them put back at `Vp c`, which has the
    result's array at `out11arr` and agrees with `V c` elsewhere. -/
def reg11 (hp : ∀ c, pdats 11 c = dat11 V c)
    (hVp_out : ∀ c, Vp c main_v28 = out11arr V c)
    (hVp_ne : ∀ c (b : Ref sig .tc), b ≠ main_v28 → Vp c b = V c b) :
    Pipeline.RegionSeg (pcfgs (F := F)) (fun p => (cfgs p).toPCfg_adm) pdats () defs₀ Variants.none (fun _ => (∅ : Finset Unit)) (fun _ _ => (0 : ℕ)) 11 where
  win := launch11.win.to₀
  block_pos := launch11.block_pos
  stage_whole := launch11.stage_whole
  K := PEmpty
  osem k := k.elim
  ho := Pipeline.OwnSemFacts.none _
  hbody c := by rw [hp c]; exact (body_obligation11 V c).loose
  hwaits := Pipeline.hwaits_of_owed_zero _ _ _ _ _ _ 11 fun c t => by rw [hp c]; rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ × Counters) (Lvl := ℕ) spec11 c (V c)
  hentry c := by
    rw [Pipeline.ownSems0_none]
    have hsplit := Pipeline.arrays_of_unscopedBufs (p := 11) (pcfgs (F := F)) (fun p => (cfgs p).toPCfg_adm) pdats launch11.win launch11.arr_whole c
      ((pdats 11 c).share_full fun w => by rw [hp c]; rfl) (V c) (fun w => by rw [hp c]; rfl)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hp c]; exact trivial)
      rw [show (pdats 11 c).owed 0 = 0 from by rw [hp c]; rfl]
      iexact HO
    isplitr; · iempintro
    iexact Hrest
  hin c := by
    rw [hp c, show (dat11 V c).Φ 0 = Pipeline.scopedRest (Ix := Unit) (Name := ℕ) (U := UR sig nD τ × Counters) (Lvl := ℕ) (Val := Elt F) spec11 c from rfl]
    iintro ⟨-, -, Hr⟩; iexact Hr
  hout c := by
    rw [Pipeline.ownSems0_none, hp c]
    change (Pipeline.scopedRest (Ix := Unit) (Name := ℕ) (U := UR sig nD τ × Counters) (Lvl := ℕ) (Val := Elt F) spec11 c : sProp 𝕄) ⊢ _
    iintro Hr
    isplitr; · iempintro
    isplitr; · iempintro
    iexact Hr
  hexit c := by
    have hjoin := Pipeline.unscopedBufs_of_arrays (p := 11) (pcfgs (F := F)) (fun p => (cfgs p).toPCfg_adm) (Ix := Unit) (Name := ℕ) (U := UR sig nD τ × Counters) (Lvl := ℕ) launch11.win launch11.arr_whole c
      pdats ((pdats 11 c).share_full fun w => by rw [hp c]; rfl) (V c) (Vp c) ((pdats 11 c).arrAt · cfg11.N)
      (fun w => by
        fin_cases w
        · exact (((pdats 11 c).arrAt_in 0 rfl _).trans (by rw [hp c]; rfl)).trans (hVp_ne c main_v27 (by decide)).symm
        · exact (((pdats 11 c).arrAt_in 1 rfl _).trans (by rw [hp c]; rfl)).trans (hVp_ne c main_v24 (by decide)).symm
        · exact (by rw [hp c]; rfl : (pdats 11 c).arrAt 2 cfg11.N = out11arr V c).trans (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W
    rw [show (pdats 11 c).owed (Fin.last _) = 0 from by rw [hp c]; rfl]
    iexact HO

end Cert.KernelIdeal.Hand

end
-- ==== Proof.KI.R12Base.lean ====
/-
  Launch 12 of the program: one matrix product per grid point — the contraction is a single block —, from which the
  output block is stored at every point. The grid's third coordinate is always 0, so both conditions of the body —
  "the contraction's first block" and "its last block" — hold at every point: this module decides them over the
  grid's points, records that no window is ever idle, and names the staging memrefs the body is called with.
-/
import proofs.«113214_j66838281060556_2_alg».proof.Proof.Gen.KernelIdeal.Launch
import proofs.«113214_j66838281060556_2_alg».proof.Proof.Gen.KernelIdeal.Skeleton
import proofs.«113214_j66838281060556_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

/-- The accumulator is reset: the point starts a contraction (third grid coordinate 0). Here the third axis has one
    coordinate, so every point does. -/
abbrev cond12_0 (i : grid12.Coords) : Prop := (Scalar.cmpi .ne (Scalar.extui (Scalar.cmpi .eq (BitVec.ofNat 32 (i 2).val) 0#32)) 0#32) = 1#1
theorem hcond12_0 : ∀ t : Fin cfg12.N, cond12_0 (grid12.coords t) :=
  (by decide +kernel : ∀ t : Fin grid12.N, cond12_0 (grid12.coords t))

/-- The result is stored: the point ends a contraction. Every point does. -/
abbrev cond12_1 (i : grid12.Coords) : Prop := k12_cond2 i = 1#1
theorem hcond12_1 : ∀ t : Fin cfg12.N, cond12_1 (grid12.coords t) :=
  (by decide +kernel : ∀ t : Fin grid12.N, cond12_1 (grid12.coords t))

/-- No window is idle at any point: the two inputs never, the output because every point stores. -/
theorem liveAt12_0 : ∀ t : Fin cfg12.N, cfg12.idle 0 (grid12.coords t) = false := by decide +kernel
theorem liveAt12_1 : ∀ t : Fin cfg12.N, cfg12.idle 1 (grid12.coords t) = false := by decide +kernel
theorem liveAt12_2 : ∀ t : Fin cfg12.N, cfg12.idle 2 (grid12.coords t) = false := by decide +kernel

/-- Each window's current staging memref at a point, as the pipeline passes it, and its wholeness. -/
abbrev ms12_0 (t : Fin cfg12.N) : Memref sig .tc .vmem S1024x819 .f32 := win12_0.stage (cfg12.slots t 0)
abbrev hs12_0 (t : Fin cfg12.N) : (ms12_0 t).IsWhole := hstage12_0 ((cfg12.slots t 0).cast nbuf12_0)
abbrev ms12_1 (t : Fin cfg12.N) : Memref sig .tc .vmem S819x819 .f32 := win12_1.stage (cfg12.slots t 1)
abbrev hs12_1 (t : Fin cfg12.N) : (ms12_1 t).IsWhole := hstage12_1 ((cfg12.slots t 1).cast nbuf12_1)
abbrev ms12_2 (t : Fin cfg12.N) : Memref sig .tc .vmem S1024x819 .bf16 := win12_2.stage (cfg12.slots t 2)
abbrev hs12_2 (t : Fin cfg12.N) : (ms12_2 t).IsWhole := hstage12_2 ((cfg12.slots t 2).cast nbuf12_2)
/-- The accumulator: a whole scoped buffer of the launch's own. -/
abbrev scM12 : Memref sig .tc .vmem S1024x819 .f32 := Memref.whole cc12_scratch0
abbrev VS12 : View sig .tc .vmem S1024x819 .f32 := scM12.view

end Cert.KernelIdeal.Hand

end
-- ==== Proof.KI.R12Run.lean ====
/-
  Launch 12, the body run symbolically in its one control case: the accumulator reset, the product added, the output
  block stored from the sum. The run's witnesses are the lists of pieces its stores leave in the output block and in
  the accumulator.
-/
import proofs.«113214_j66838281060556_2_alg».proof.Proof.KI.R12Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

set_option maxHeartbeats 2000000 in
/-- The body at a point, run symbolically: the accumulator, found at anything, is reset and ends at the product of
    the two input blocks added to it; the output block, found at anything, is stored whole from that sum. The
    witnesses are the pieces the stores leave in the output block and in the accumulator. -/
noncomputable def run12 (c : Dev nD) (i : grid12.Coords) (arg3 : Memref sig .tc .vmem S1024x819 .f32) (harg3 : arg3.IsWhole) (arg4 : Memref sig .tc .vmem S819x819 .f32) (harg4 : arg4.IsWhole) (arg5 : Memref sig .tc .vmem S1024x819 .bf16) (harg5 : arg5.IsWhole) (arg6 : Memref sig .tc .vmem S1024x819 .f32) (harg6 : arg6.IsWhole) (hc0 : cond12_0 i) (hc1 : cond12_1 i)
    (x0 : Vec F S1024x819 .f32) (x1 : Vec F S819x819 .f32) :
    Σ' (LO : List (View.Piece (Elt F) S1024x819 .bf16)), { LS : List (View.Piece (Elt F) S1024x819 .f32) //
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc12__mm_kernel i arg3 harg3 arg4 harg4 arg5 harg5 arg6 harg6) K } := by
  refine ⟨?_, ?_, fun E K => ?run⟩
  case run =>
    simp only [cc12__mm_kernel_eq_skeleton]; unfold cc12__mm_kernel_skel
    unfold owns
    iintro ⟨⟨%f0, %hf0, H0⟩, ⟨%f1, %hf1, H1⟩, ⟨%d2, %f2, -, H2⟩, ⟨%ds, %fs, -, HS⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact HS

end Cert.KernelIdeal.Hand

end
-- ==== Proof.KI.R12.lean ====
/-
  Launch 12 as a region of the program. The blocks the windows stage are read off the arrays as the region finds
  them; a point stores the output block its run leaves; the accumulator is reset at every point, so between points
  the launch's scoped buffers that no window stages are simply held whole at anything; the body obligation follows
  from the one symbolic run; and the region is stated over the thread state "every unscoped buffer at given
  contents, the core owing nothing", entered by splitting the three arrays out and left with the result's array
  at what the pipeline computes from the stored blocks.
-/
import proofs.«113214_j66838281060556_2_alg».proof.Proof.KI.R12Run
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

variable (V : (c : Dev nD) → (b : Ref sig .tc) → Buf (Elt F) ((c : Thread nD τ).loc b))

/-! ## The blocks the windows stage -/

/-- Window `w`'s block at point `t`, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- A view of the output's staging buffer, through which contents are stated. -/
abbrev VO12 : View sig .tc .vmem S1024x819 .bf16 := (Memref.whole cc12_stg2_0 : Memref sig .tc .vmem S1024x819 .bf16).view

/-! ## What a point leaves -/

/-- The output block a point stores: what the run's pieces leave, read through the staging buffer's view. -/
def out12 (c : Dev nD) (t : Fin cfg12.N) : Vec F S1024x819 .bf16 :=
  VO12.read (Elt F) (VO12.writes (Elt F) VO12.junk (run12 c (grid12.coords t) (ms12_0 t) (hs12_0 t) (ms12_1 t) (hs12_1 t) (ms12_2 t) (hs12_2 t) scM12 (Memref.isWhole_whole _) (hcond12_0 t) (hcond12_1 t) (iblk12 V c 0 t) (iblk12 V c 1 t)).1)

/-- The stores into the output block cover it. -/
theorem coverO12 (c : Dev nD) (t : Fin cfg12.N) (y : S1024x819.Idx) :
    ∃ pc ∈ (run12 c (grid12.coords t) (ms12_0 t) (hs12_0 t) (ms12_1 t) (hs12_1 t) (ms12_2 t) (hs12_2 t) scM12 (Memref.isWhole_whole _) (hcond12_0 t) (hcond12_1 t) (iblk12 V c 0 t) (iblk12 V c 1 t)).1, y ∈ pc.1.set :=
  View.cover_of_tiledL _ S1024x819.size (by sl_kernel_rfl) y

/-! ## The invariant between points -/

/-- The scoped rest with the accumulator split out as a memref owned at some contents. The accumulator is reset at
    every point, so the invariant between points is the scoped rest itself, the accumulator at anything. -/
theorem scopedRest12_eq (c : Dev nD) :
    (Pipeline.scopedRest (Ix := Unit) (Name := ℕ) (U := UR sig nD τ × Counters) (Lvl := ℕ) (Val := Elt F) spec12 c : sProp 𝕄)
      = iprop((∃ d, owns (c : Thread nD τ) scM12 fullShare d)
          ∗ Pipeline.scopedRestBut (Ix := Unit) (Name := ℕ) (U := UR sig nD τ × Counters) (Lvl := ℕ) (Val := Elt F) spec12 c [cc12_scratch0]) := by
  rw [scopedRest12_split]; simp only [scM12, owns_whole]; try rfl

/-! ## The proof data -/

def dat12 (c : Dev nD) : Dat τ (Elt F) Unit ℕ (UR sig nD τ × Counters) ℕ cfg12 c where
  A w := V c (Pipeline.arrRef spec12 w)
  after w t := match w with
    | ⟨0, _⟩ => iblk12 V c 0 t
    | ⟨1, _⟩ => iblk12 V c 1 t
    | ⟨2, _⟩ => out12 V c t
  Φ _ := Pipeline.scopedRest (Ix := Unit) (Name := ℕ) (U := UR sig nD τ × Counters) (Lvl := ℕ) (Val := Elt F) spec12 c
  q _ := fullShare
  owed _ := 0

theorem A12_eq (c : Dev nD) (w : Fin cfg12.W) : (dat12 V c).A w = V c (Pipeline.arrRef spec12 w) := by
  dsimp only [dat12]
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = out12 V c t := by dsimp only [dat12]

/-- Each input window's current staging buffer holds its block at every point, fetched there or not. -/
theorem before12_0 (c : Dev nD) (t : Fin cfg12.N) (d) : (dat12 V c).before 0 t d = iblk12 V c 0 t :=
  ((dat12 V c).before_in_eq_fetched 0 rfl (fun _ => rfl) (fun _ _ _ => rfl) (fun t => by rw [after12_0]; unfold Dat.blockOf iblk12; rw [A12_eq]; try rfl) t d).trans
    (by unfold Dat.fetched Dat.blockOf iblk12; rw [A12_eq]; try rfl)
theorem before12_1 (c : Dev nD) (t : Fin cfg12.N) (d) : (dat12 V c).before 1 t d = iblk12 V c 1 t :=
  ((dat12 V c).before_in_eq_fetched 1 rfl (fun _ => rfl) (fun _ _ _ => rfl) (fun t => by rw [after12_1]; unfold Dat.blockOf iblk12; rw [A12_eq]; try rfl) t d).trans
    (by unfold Dat.fetched Dat.blockOf iblk12; rw [A12_eq]; try rfl)

/-! ## The body obligation at a generic point -/

def bodyPre12 (c : Dev nD) (t : Fin cfg12.N) : sProp 𝕄 :=
  iprop((dat12 V c).Φ t.castSucc ∗ (dat12 V c).owesAt () t.castSucc
    ∗ (∃ d, owns (c : Thread nD τ) (ms12_0 t) fullShare ((dat12 V c).before 0 t d))
    ∗ (∃ d, owns (c : Thread nD τ) (ms12_1 t) fullShare ((dat12 V c).before 1 t d))
    ∗ (∃ d, owns (c : Thread nD τ) (ms12_2 t) fullShare ((dat12 V c).before 2 t d)))

def bodyPost12 (c : Dev nD) (t : Fin cfg12.N) : sProp 𝕄 :=
  iprop((dat12 V c).Φ t.succ ∗ (dat12 V c).owesAt () t.succ
    ∗ (dat12 V c).leavesExact 0 t ∗ (dat12 V c).leavesExact 1 t ∗ (dat12 V c).leavesExact 2 t)

set_option maxHeartbeats 4000000 in
/-- The body at any point. The two input buffers hold their blocks; the invariant hands over the accumulator at
    anything and takes it back at anything; the output buffer, found at anything, is handed back at the block the
    point stores; the core owes nothing throughout. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).owesAt () t.succ = (dat12 V c).owesAt () t.castSucc from rfl]
  rw [show (dat12 V c).Φ t.succ = Pipeline.scopedRest (Ix := Unit) (Name := ℕ) (U := UR sig nD τ × Counters) (Lvl := ℕ) (Val := Elt F) spec12 c from rfl,
    show (dat12 V c).Φ t.castSucc = Pipeline.scopedRest (Ix := Unit) (Name := ℕ) (U := UR sig nD τ × Counters) (Lvl := ℕ) (Val := Elt F) spec12 c from rfl]
  rw [show (dat12 V c).leavesExact 0 t = owns (c : Thread nD τ) (ms12_0 t) fullShare (iblk12 V c 0 t) from by
    unfold Dat.leavesExact; rw [liveAt12_0 t, after12_0]]
  rw [show (dat12 V c).leavesExact 1 t = owns (c : Thread nD τ) (ms12_1 t) fullShare (iblk12 V c 1 t) from by
    unfold Dat.leavesExact; rw [liveAt12_1 t, after12_1]]
  rw [show (dat12 V c).leavesExact 2 t = owns (c : Thread nD τ) (ms12_2 t) fullShare (out12 V c t) from by
    unfold Dat.leavesExact; rw [liveAt12_2 t, after12_2]]
  rw [scopedRest12_eq]
  unfold out12
  iintro ⟨⟨HS, Hb⟩, Ho, ⟨%d0, H0⟩, ⟨%d1, H1⟩, ⟨%d2, H2⟩⟩
  iapply ((run12 c (grid12.coords t) (ms12_0 t) (hs12_0 t) (ms12_1 t) (hs12_1 t) (ms12_2 t) (hs12_2 t) scM12 (Memref.isWhole_whole _) (hcond12_0 t) (hcond12_1 t) (iblk12 V c 0 t) (iblk12 V c 1 t)).2.2 Set.univ _)
  isplitl [H0]; · iexact H0
  isplitl [H1]; · iexact H1
  isplitl [H2]; · iexists _; iexact H2
  isplitl [HS]; · iexact HS
  iintro ⟨H0, H1, ⟨%e2, H2⟩, ⟨%es, HS⟩⟩
  isplitl [HS Hb]
  · isplitl [HS]
    · iexists _; unfold owns; iexists _; isplitr
      swap; · iexact HS
      ipureintro; rfl
    iexact Hb
  isplitl [Ho]; · iexact Ho
  isplitl [H0]; · iexact H0
  isplitl [H1]; · iexact H1
  unfold owns; iexists _; isplitr
  swap; · iexact H2
  ipureintro; exact View.read_writes_of_cover _ _ _ _ _ (coverO12 V c t)

theorem body_obligation12 (c : Dev nD) : BodyObligation (dat12 V c) (defs₀ (F := F)) Variants.none () Set.univ := fun t => by
  rw [bigSep_W12, bigSep_W12]
  exact sound_body12 V c t

/-! ## The region over the thread state -/

variable (Vp : (c : Dev nD) → (b : Ref sig .tc) → Buf (Elt F) ((c : Thread nD τ).loc b))
variable (pdats : (p : Fin 22) → (c : Dev nD) → Dat τ (Elt F) Unit ℕ (UR sig nD τ × Counters) ℕ (cfgs p) c)

/-- The result's array after the region, as the pipeline library computes it from the proof data. -/
def out12arr (c : Dev nD) : Buf (Elt F) ((c : Thread nD τ).loc main_v29) := (dat12 V c).arrAt 2 cfg12.N

set_option backward.isDefEq.respectTransparency.types false in
set_option maxHeartbeats 2000000 in
/-- Launch 12 over the thread state "every unscoped buffer at `V c`, the core owing nothing": entered by
    splitting its three arrays out of the unscoped buffers, left with them put back at `Vp c`, which has the
    result's array at `out12arr` and agrees with `V c` elsewhere. -/
def reg12 (hp : ∀ c, pdats 12 c = dat12 V c)
    (hVp_out : ∀ c, Vp c main_v29 = out12arr V c)
    (hVp_ne : ∀ c (b : Ref sig .tc), b ≠ main_v29 → Vp c b = V c b) :
    Pipeline.RegionSeg (pcfgs (F := F)) (fun p => (cfgs p).toPCfg_adm) pdats () defs₀ Variants.none (fun _ => (∅ : Finset Unit)) (fun _ _ => (0 : ℕ)) 12 where
  win := launch12.win.to₀
  block_pos := launch12.block_pos
  stage_whole := launch12.stage_whole
  K := PEmpty
  osem k := k.elim
  ho := Pipeline.OwnSemFacts.none _
  hbody c := by rw [hp c]; exact (body_obligation12 V c).loose
  hwaits := Pipeline.hwaits_of_owed_zero _ _ _ _ _ _ 12 fun c t => by rw [hp c]; rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ × Counters) (Lvl := ℕ) spec12 c (V c)
  hentry c := by
    rw [Pipeline.ownSems0_none]
    have hsplit := Pipeline.arrays_of_unscopedBufs (p := 12) (pcfgs (F := F)) (fun p => (cfgs p).toPCfg_adm) pdats launch12.win launch12.arr_whole c
      ((pdats 12 c).share_full fun w => by rw [hp c]; rfl) (V c) (fun w => by rw [hp c]; rfl)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hp c]; exact trivial)
      rw [show (pdats 12 c).owed 0 = 0 from by rw [hp c]; rfl]
      iexact HO
    isplitr; · iempintro
    iexact Hrest
  hin c := by
    rw [hp c, show (dat12 V c).Φ 0 = Pipeline.scopedRest (Ix := Unit) (Name := ℕ) (U := UR sig nD τ × Counters) (Lvl := ℕ) (Val := Elt F) spec12 c from rfl]
    iintro ⟨-, -, Hr⟩; iexact Hr
  hout c := by
    rw [Pipeline.ownSems0_none, hp c]
    change (Pipeline.scopedRest (Ix := Unit) (Name := ℕ) (U := UR sig nD τ × Counters) (Lvl := ℕ) (Val := Elt F) spec12 c : sProp 𝕄) ⊢ _
    iintro Hr
    isplitr; · iempintro
    isplitr; · iempintro
    iexact Hr
  hexit c := by
    have hjoin := Pipeline.unscopedBufs_of_arrays (p := 12) (pcfgs (F := F)) (fun p => (cfgs p).toPCfg_adm) (Ix := Unit) (Name := ℕ) (U := UR sig nD τ × Counters) (Lvl := ℕ) launch12.win launch12.arr_whole c
      pdats ((pdats 12 c).share_full fun w => by rw [hp c]; rfl) (V c) (Vp c) ((pdats 12 c).arrAt · cfg12.N)
      (fun w => by
        fin_cases w
        · exact (((pdats 12 c).arrAt_in 0 rfl _).trans (by rw [hp c]; rfl)).trans (hVp_ne c main_v24 (by decide)).symm
        · exact (((pdats 12 c).arrAt_in 1 rfl _).trans (by rw [hp c]; rfl)).trans (hVp_ne c main_arg23 (by decide)).symm
        · exact (by rw [hp c]; rfl : (pdats 12 c).arrAt 2 cfg12.N = out12arr V c).trans (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W
    rw [show (pdats 12 c).owed (Fin.last _) = 0 from by rw [hp c]; rfl]
    iexact HO

end Cert.KernelIdeal.Hand

end
-- ==== Proof.KI.R13Base.lean ====
/-
  Launch 13 of the program: a matrix product accumulated over the third grid axis (grid 4 × 1 × 4: four row blocks,
  four contraction blocks), stored — with no bias and no activation — when
  the last block has been added. This module names the two conditions of the body on the grid point ("the
  contraction's first block", "its last block"), decides them over the sixteen points, and records where the
  output window is idle and where its block is written back.
-/
import proofs.«113214_j66838281060556_2_alg».proof.Proof.Gen.KernelIdeal.Launch
import proofs.«113214_j66838281060556_2_alg».proof.Proof.Gen.KernelIdeal.Skeleton
import proofs.«113214_j66838281060556_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

/-- The accumulator is reset: the point starts a contraction (third grid coordinate 0). -/
abbrev cond13_0 (i : grid13.Coords) : Prop := (Scalar.cmpi .ne (Scalar.extui (Scalar.cmpi .eq (BitVec.ofNat 32 (i 2).val) 0#32)) 0#32) = 1#1
theorem hcond13_0 : ∀ t : Fin cfg13.N, cond13_0 (grid13.coords t) ↔ t.val % 4 = 0 :=
  (by decide +kernel : ∀ t : Fin grid13.N, cond13_0 (grid13.coords t) ↔ t.val % 4 = 0)

/-- The result is stored: the point ends a contraction (third grid coordinate 3). -/
abbrev cond13_1 (i : grid13.Coords) : Prop := k13_cond2 i = 1#1
theorem hcond13_1 : ∀ t : Fin cfg13.N, cond13_1 (grid13.coords t) ↔ t.val % 4 = 3 :=
  (by decide +kernel : ∀ t : Fin grid13.N, cond13_1 (grid13.coords t) ↔ t.val % 4 = 3)

/-- The two input windows are never idle. -/
theorem liveAt13_0 : ∀ t : Fin cfg13.N, cfg13.idle 0 (grid13.coords t) = false := by decide +kernel
theorem liveAt13_1 : ∀ t : Fin cfg13.N, cfg13.idle 1 (grid13.coords t) = false := by decide +kernel
/-- Away from a contraction's last block the output window is idle and its block is not written back. -/
theorem idleAt13_2 : ∀ t : Fin cfg13.N, ¬cond13_1 (grid13.coords t) → cfg13.idle 2 (grid13.coords t) = true := by decide +kernel
theorem noFlush13_2 : ∀ t : Fin cfg13.N, ¬cond13_1 (grid13.coords t) → (cfg13.win 2).flush t = false := by decide +kernel
/-- At a contraction's last block the output window is live. -/
theorem liveAt13_2 : ∀ t : Fin cfg13.N, cond13_1 (grid13.coords t) → cfg13.idle 2 (grid13.coords t) = false := by decide +kernel

/-- Each window's current staging memref at a point, as the pipeline passes it, and its wholeness. -/
abbrev ms13_0 (t : Fin cfg13.N) : Memref sig .tc .vmem S1024x1024 .bf16 := win13_0.stage (cfg13.slots t 0)
abbrev hs13_0 (t : Fin cfg13.N) : (ms13_0 t).IsWhole := hstage13_0 ((cfg13.slots t 0).cast nbuf13_0)
abbrev ms13_1 (t : Fin cfg13.N) : Memref sig .tc .vmem S1024x819 .bf16 := win13_1.stage (cfg13.slots t 1)
abbrev hs13_1 (t : Fin cfg13.N) : (ms13_1 t).IsWhole := hstage13_1 ((cfg13.slots t 1).cast nbuf13_1)
abbrev ms13_2 (t : Fin cfg13.N) : Memref sig .tc .vmem S1024x819 .bf16 := win13_2.stage (cfg13.slots t 2)
abbrev hs13_2 (t : Fin cfg13.N) : (ms13_2 t).IsWhole := hstage13_2 ((cfg13.slots t 2).cast nbuf13_2)
/-- The accumulator: a whole scoped buffer of the launch's own. -/
abbrev scM13 : Memref sig .tc .vmem S1024x819 .f32 := Memref.whole cc13_scratch0
abbrev VS13 : View sig .tc .vmem S1024x819 .f32 := scM13.view

end Cert.KernelIdeal.Hand

end
-- ==== Proof.KI.R13Run.lean ====
/-
  Launch 13, the body run symbolically in each of its three control cases: the first block of a contraction
  (the accumulator reset, then the first product added), a middle block (the product added), the last block
  (the product added, then the sum stored into the output block in the output's format). Each run's witness
  is the list of pieces its stores leave in the accumulator (and, in the last case, in the output block).
-/
import proofs.«113214_j66838281060556_2_alg».proof.Proof.KI.R13Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

set_option maxHeartbeats 2000000 in
/-- The first block of a contraction that is not also its last: the accumulator, found at anything, is reset to
    zero and ends at the product of the two input blocks added to zero; the idle output block is handed back
    untouched. The pieces written into the accumulator are the witness the symbolic run finds. -/
noncomputable def run13_A (c : Dev nD) (i : grid13.Coords) (arg3 : Memref sig .tc .vmem S1024x1024 .bf16) (harg3 : arg3.IsWhole) (arg4 : Memref sig .tc .vmem S1024x819 .bf16) (harg4 : arg4.IsWhole) (arg5 : Memref sig .tc .vmem S1024x819 .bf16) (harg5 : arg5.IsWhole) (arg6 : Memref sig .tc .vmem S1024x819 .f32) (harg6 : arg6.IsWhole) (hc0 : cond13_0 i) (hc1 : ¬cond13_1 i)
    (x0 : Vec F S1024x1024 .bf16) (x1 : Vec F S1024x819 .bf16) :
    { LS : List (View.Piece (Elt F) S1024x819 .f32) //
      ∀ (xi : Vec F S1024x819 .bf16) (E : Set ℕ) (K : PUnit → sProp 𝕄),
        iprop(owns (c : Thread nD τ) arg3 fullShare x0 ∗ owns (c : Thread nD τ) arg4 fullShare x1 ∗ owns (c : Thread nD τ) arg5 fullShare xi ∗ (∃ d, owns (c : Thread nD τ) arg6 fullShare d)
            ∗ (iprop(owns (c : Thread nD τ) arg3 fullShare x0 ∗ owns (c : Thread nD τ) arg4 fullShare x1 ∗ owns (c : Thread nD τ) arg5 fullShare xi
                ∗ (∃ f, arg6.view.loc (c : Thread nD τ) ↦[arg6.view.set]{fullShare} arg6.view.writes (Elt F) f LS)) -∗ K ⟨⟩))
          ⊢ wp frame (wpE (defs₀ (F := F)) Variants.none c none) E (cc13__mm_kernel i arg3 harg3 arg4 harg4 arg5 harg5 arg6 harg6) K } := by
  refine ⟨?_, fun xi E K => ?run⟩
  case run =>
    simp only [cc13__mm_kernel_eq_skeleton]; unfold cc13__mm_kernel_skel
    unfold owns
    iintro ⟨⟨%f0, %hf0, H0⟩, ⟨%f1, %hf1, H1⟩, ⟨%f3, %hf3, H3⟩, ⟨%ds, %fs, -, HS⟩, Hk⟩
    obtain rfl := harg3.eq_unread hf0; obtain rfl := harg4.eq_unread hf1; obtain rfl := harg5.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H3]
    · iexists _; isplitr; · ipureintro; exact harg5.read_unread _
      iexact H3
    iexists _; iexact HS

set_option maxHeartbeats 2000000 in
/-- A middle block of a contraction: the accumulator, found at `xs`, ends at the product of the two input
    blocks added to `xs`; the idle output block is handed back untouched. -/
noncomputable def run13_B (c : Dev nD) (i : grid13.Coords) (arg3 : Memref sig .tc .vmem S1024x1024 .bf16) (harg3 : arg3.IsWhole) (arg4 : Memref sig .tc .vmem S1024x819 .bf16) (harg4 : arg4.IsWhole) (arg5 : Memref sig .tc .vmem S1024x819 .bf16) (harg5 : arg5.IsWhole) (arg6 : Memref sig .tc .vmem S1024x819 .f32) (harg6 : arg6.IsWhole) (hc0 : ¬cond13_0 i) (hc1 : ¬cond13_1 i)
    (x0 : Vec F S1024x1024 .bf16) (x1 : Vec F S1024x819 .bf16) (xs : Vec F S1024x819 .f32) :
    { LS : List (View.Piece (Elt F) S1024x819 .f32) //
      ∀ (xi : Vec F S1024x819 .bf16) (E : Set ℕ) (K : PUnit → sProp 𝕄),
        iprop(owns (c : Thread nD τ) arg3 fullShare x0 ∗ owns (c : Thread nD τ) arg4 fullShare x1 ∗ owns (c : Thread nD τ) arg5 fullShare xi ∗ owns (c : Thread nD τ) arg6 fullShare xs
            ∗ (iprop(owns (c : Thread nD τ) arg3 fullShare x0 ∗ owns (c : Thread nD τ) arg4 fullShare x1 ∗ owns (c : Thread nD τ) arg5 fullShare xi
                ∗ (∃ f, arg6.view.loc (c : Thread nD τ) ↦[arg6.view.set]{fullShare} arg6.view.writes (Elt F) f LS)) -∗ K ⟨⟩))
          ⊢ wp frame (wpE (defs₀ (F := F)) Variants.none c none) E (cc13__mm_kernel i arg3 harg3 arg4 harg4 arg5 harg5 arg6 harg6) K } := by
  refine ⟨?_, fun xi E K => ?run⟩
  case run =>
    simp only [cc13__mm_kernel_eq_skeleton]; unfold cc13__mm_kernel_skel
    unfold owns
    iintro ⟨⟨%f0, %hf0, H0⟩, ⟨%f1, %hf1, H1⟩, ⟨%f3, %hf3, H3⟩, ⟨%fs, %hfs, HS⟩, Hk⟩
    obtain rfl := harg3.eq_unread hf0; obtain rfl := harg4.eq_unread hf1; obtain rfl := harg5.eq_unread hf3
    obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H3]
    · iexists _; isplitr; · ipureintro; exact harg5.read_unread _
      iexact H3
    iexists _; iexact HS

set_option maxHeartbeats 2000000 in
/-- The last block of a contraction that is not also its first: the accumulator, found at `xs`, ends at the
    product of the two input blocks added to `xs`, and the output block, found at anything, is stored whole:
    that sum in the output's format. -/
noncomputable def run13_C (c : Dev nD) (i : grid13.Coords) (arg3 : Memref sig .tc .vmem S1024x1024 .bf16) (harg3 : arg3.IsWhole) (arg4 : Memref sig .tc .vmem S1024x819 .bf16) (harg4 : arg4.IsWhole) (arg5 : Memref sig .tc .vmem S1024x819 .bf16) (harg5 : arg5.IsWhole) (arg6 : Memref sig .tc .vmem S1024x819 .f32) (harg6 : arg6.IsWhole) (hc0 : ¬cond13_0 i) (hc1 : cond13_1 i)
    (x0 : Vec F S1024x1024 .bf16) (x1 : Vec F S1024x819 .bf16) (xs : Vec F S1024x819 .f32) :
    Σ' (LO : List (View.Piece (Elt F) S1024x819 .bf16)), { LS : List (View.Piece (Elt F) S1024x819 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc13__mm_kernel i arg3 harg3 arg4 harg4 arg5 harg5 arg6 harg6) K } := by
  refine ⟨?_, ?_, fun E K => ?run⟩
  case run =>
    simp only [cc13__mm_kernel_eq_skeleton]; unfold cc13__mm_kernel_skel
    unfold owns
    iintro ⟨⟨%f0, %hf0, H0⟩, ⟨%f1, %hf1, H1⟩, ⟨%d3, %f3, -, H3⟩, ⟨%fs, %hfs, HS⟩, Hk⟩
    obtain rfl := harg3.eq_unread hf0; obtain rfl := harg4.eq_unread hf1
    obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H3]
    · iexists _; iexact H3
    iexists _; iexact HS

end Cert.KernelIdeal.Hand

end
-- ==== Proof.KI.R13.lean ====
/-
  Launch 13 as a segment of the program: the product A·B of a graph matrix with the right
  factor, computed block by block on the grid 4 × 1 × 4 with an accumulator carried along the contraction and
  stored in the output's format when a contraction ends. What the accumulator and the output block hold after
  each point is defined by recursion on the point; the invariant between points is the accumulator at that value
  beside the launch's other scoped buffers; the proof data states each window's block after the body; the body
  obligation is the three symbolic runs put together by cases on the point's position in its contraction; and
  the segment record enters the launch from a thread state holding every unscoped buffer at an entry valuation
  and leaves it at the valuation updated at the result's array.
-/
import proofs.«113214_j66838281060556_2_alg».proof.Proof.KI.R13Run
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

variable (V : (c : Dev nD) → (b : Ref sig .tc) → Buf (Elt F) ((c : Thread nD τ).loc b))

/-! ## The blocks the windows stage -/

/-- Window `w`'s block at point `t`, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- A view of the output's staging buffer and one of the accumulator, through which contents are stated. -/
abbrev VO13 : View sig .tc .vmem S1024x819 .bf16 := (Memref.whole cc13_stg2_0 : Memref sig .tc .vmem S1024x819 .bf16).view

/-! ## What each case leaves -/

/-- The accumulator after a first block. -/
def accA13 (c : Dev nD) (t : Fin cfg13.N) (h0 : t.val % 4 = 0) (h1 : ¬t.val % 4 = 3) : Vec F S1024x819 .f32 :=
  VS13.read (Elt F) (VS13.writes (Elt F) VS13.junk (run13_A c (grid13.coords t) (ms13_0 t) (hs13_0 t) (ms13_1 t) (hs13_1 t) (ms13_2 t) (hs13_2 t) scM13 (Memref.isWhole_whole _) ((hcond13_0 t).mpr h0) (fun h => h1 ((hcond13_1 t).mp h)) (iblk13 V c 0 t) (iblk13 V c 1 t)).1)
/-- The accumulator after a middle block, from what the point before left. -/
def accB13 (c : Dev nD) (t : Fin cfg13.N) (h0 : ¬t.val % 4 = 0) (h1 : ¬t.val % 4 = 3) (xs : Vec F S1024x819 .f32) : Vec F S1024x819 .f32 :=
  VS13.read (Elt F) (VS13.writes (Elt F) VS13.junk (run13_B c (grid13.coords t) (ms13_0 t) (hs13_0 t) (ms13_1 t) (hs13_1 t) (ms13_2 t) (hs13_2 t) scM13 (Memref.isWhole_whole _) (fun h => h0 ((hcond13_0 t).mp h)) (fun h => h1 ((hcond13_1 t).mp h)) (iblk13 V c 0 t) (iblk13 V c 1 t) xs).1)
/-- The accumulator after a last block, -/
def accC13 (c : Dev nD) (t : Fin cfg13.N) (h0 : ¬t.val % 4 = 0) (h1 : t.val % 4 = 3) (xs : Vec F S1024x819 .f32) : Vec F S1024x819 .f32 :=
  VS13.read (Elt F) (VS13.writes (Elt F) VS13.junk (run13_C c (grid13.coords t) (ms13_0 t) (hs13_0 t) (ms13_1 t) (hs13_1 t) (ms13_2 t) (hs13_2 t) scM13 (Memref.isWhole_whole _) (fun h => h0 ((hcond13_0 t).mp h)) ((hcond13_1 t).mpr h1) (iblk13 V c 0 t) (iblk13 V c 1 t) xs).2.1)
/-- and the output block stored there. -/
def outC13 (c : Dev nD) (t : Fin cfg13.N) (h0 : ¬t.val % 4 = 0) (h1 : t.val % 4 = 3) (xs : Vec F S1024x819 .f32) : Vec F S1024x819 .bf16 :=
  VO13.read (Elt F) (VO13.writes (Elt F) VO13.junk (run13_C c (grid13.coords t) (ms13_0 t) (hs13_0 t) (ms13_1 t) (hs13_1 t) (ms13_2 t) (hs13_2 t) scM13 (Memref.isWhole_whole _) (fun h => h0 ((hcond13_0 t).mp h)) ((hcond13_1 t).mpr h1) (iblk13 V c 0 t) (iblk13 V c 1 t) xs).1)

theorem coverA13 (c : Dev nD) (t : Fin cfg13.N) (h0 : t.val % 4 = 0) (h1 : ¬t.val % 4 = 3) (y : S1024x819.Idx) :
    ∃ pc ∈ (run13_A c (grid13.coords t) (ms13_0 t) (hs13_0 t) (ms13_1 t) (hs13_1 t) (ms13_2 t) (hs13_2 t) scM13 (Memref.isWhole_whole _) ((hcond13_0 t).mpr h0) (fun h => h1 ((hcond13_1 t).mp h)) (iblk13 V c 0 t) (iblk13 V c 1 t)).1, y ∈ pc.1.set :=
  View.cover_of_tiledL _ S1024x819.size (by sl_kernel_rfl) y
theorem coverB13 (c : Dev nD) (t : Fin cfg13.N) (h0 : ¬t.val % 4 = 0) (h1 : ¬t.val % 4 = 3) (xs : Vec F S1024x819 .f32) (y : S1024x819.Idx) :
    ∃ pc ∈ (run13_B c (grid13.coords t) (ms13_0 t) (hs13_0 t) (ms13_1 t) (hs13_1 t) (ms13_2 t) (hs13_2 t) scM13 (Memref.isWhole_whole _) (fun h => h0 ((hcond13_0 t).mp h)) (fun h => h1 ((hcond13_1 t).mp h)) (iblk13 V c 0 t) (iblk13 V c 1 t) xs).1, y ∈ pc.1.set :=
  View.cover_of_tiledL _ S1024x819.size (by sl_kernel_rfl) y
theorem coverCs13 (c : Dev nD) (t : Fin cfg13.N) (h0 : ¬t.val % 4 = 0) (h1 : t.val % 4 = 3) (xs : Vec F S1024x819 .f32) (y : S1024x819.Idx) :
    ∃ pc ∈ (run13_C c (grid13.coords t) (ms13_0 t) (hs13_0 t) (ms13_1 t) (hs13_1 t) (ms13_2 t) (hs13_2 t) scM13 (Memref.isWhole_whole _) (fun h => h0 ((hcond13_0 t).mp h)) ((hcond13_1 t).mpr h1) (iblk13 V c 0 t) (iblk13 V c 1 t) xs).2.1, y ∈ pc.1.set :=
  View.cover_of_tiledL _ S1024x819.size (by sl_kernel_rfl) y
theorem coverCo13 (c : Dev nD) (t : Fin cfg13.N) (h0 : ¬t.val % 4 = 0) (h1 : t.val % 4 = 3) (xs : Vec F S1024x819 .f32) (y : S1024x819.Idx) :
    ∃ pc ∈ (run13_C c (grid13.coords t) (ms13_0 t) (hs13_0 t) (ms13_1 t) (hs13_1 t) (ms13_2 t) (hs13_2 t) scM13 (Memref.isWhole_whole _) (fun h => h0 ((hcond13_0 t).mp h)) ((hcond13_1 t).mpr h1) (iblk13 V c 0 t) (iblk13 V c 1 t) xs).1, y ∈ pc.1.set :=
  View.cover_of_tiledL _ S1024x819.size (by sl_kernel_rfl) y

/-! ## The accumulation, point by point -/

/-- What the output's staging buffer (first component; meaningful at a contraction's last block only) and the
    accumulator (second component) hold after the body at position `n`. -/
def outsAt13 (c : Dev nD) : (n : ℕ) → n < cfg13.N → Vec F S1024x819 .bf16 × Vec F S1024x819 .f32
  | 0, hn => (VO13.read (Elt F) VO13.junk, accA13 V c ⟨0, hn⟩ (Nat.zero_mod _) (by simp))
  | n + 1, hn =>
    if h0 : (n + 1) % 4 = 0 then
      if h1 : (n + 1) % 4 = 3 then False.elim (by omega)
      else (VO13.read (Elt F) VO13.junk, accA13 V c ⟨n + 1, hn⟩ h0 h1)
    else
      if h1 : (n + 1) % 4 = 3 then
        (outC13 V c ⟨n + 1, hn⟩ h0 h1 (outsAt13 c n (Nat.lt_of_succ_lt hn)).2, accC13 V c ⟨n + 1, hn⟩ h0 h1 (outsAt13 c n (Nat.lt_of_succ_lt hn)).2)
      else
        (VO13.read (Elt F) VO13.junk, accB13 V c ⟨n + 1, hn⟩ h0 h1 (outsAt13 c n (Nat.lt_of_succ_lt hn)).2)

theorem outsAt13_A (c : Dev nD) (t : Fin cfg13.N) (h0 : t.val % 4 = 0) (h1 : ¬t.val % 4 = 3) :
    outsAt13 V c t.val t.isLt = (VO13.read (Elt F) VO13.junk, accA13 V c t h0 h1) := by
  obtain ⟨n, hn⟩ := t
  cases n with
  | zero => exact rfl
  | succ n => exact (dif_pos h0).trans ((dif_neg h1).trans rfl)

theorem outsAt13_B (c : Dev nD) (t : Fin cfg13.N) (h0 : ¬t.val % 4 = 0) (h1 : ¬t.val % 4 = 3) :
    outsAt13 V c t.val t.isLt = (VO13.read (Elt F) VO13.junk, accB13 V c t h0 h1 (outsAt13 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt13_C (c : Dev nD) (t : Fin cfg13.N) (h0 : ¬t.val % 4 = 0) (h1 : t.val % 4 = 3) :
    outsAt13 V c t.val t.isLt = (outC13 V c t h0 h1 (outsAt13 V c (t.val - 1) (Nat.lt_of_le_of_lt (Nat.sub_le _ _) t.isLt)).2,
      accC13 V c t h0 h1 (outsAt13 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant between points -/

/-- Before the first point the launch's scoped buffers that no window stages, whole; afterwards the accumulator at
    what the point before left, and the other such buffers unopened. -/
def PhiS13 (c : Dev nD) : (n : ℕ) → n ≤ cfg13.N → sProp 𝕄
  | 0, _ => Pipeline.scopedRest (Ix := Unit) (Name := ℕ) (U := UR sig nD τ × Counters) (Lvl := ℕ) (Val := Elt F) spec13 c
  | n + 1, hn => iprop(owns (c : Thread nD τ) scM13 fullShare (outsAt13 V c n hn).2
      ∗ Pipeline.scopedRestBut (Ix := Unit) (Name := ℕ) (U := UR sig nD τ × Counters) (Lvl := ℕ) (Val := Elt F) spec13 c [cc13_scratch0])

theorem PhiS13_pos (c : Dev nD) (n : ℕ) (h : n ≤ cfg13.N) (hz : n ≠ 0) :
    PhiS13 V c n h = iprop(owns (c : Thread nD τ) scM13 fullShare (outsAt13 V c (n - 1) (by omega)).2
      ∗ Pipeline.scopedRestBut (Ix := Unit) (Name := ℕ) (U := UR sig nD τ × Counters) (Lvl := ℕ) (Val := Elt F) spec13 c [cc13_scratch0]) := by
  cases n with
  | zero => exact absurd rfl hz
  | succ n => rfl

/-- The scoped rest with the accumulator split out as a memref owned at some contents. -/
theorem scopedRest13_eq (c : Dev nD) :
    (Pipeline.scopedRest (Ix := Unit) (Name := ℕ) (U := UR sig nD τ × Counters) (Lvl := ℕ) (Val := Elt F) spec13 c : sProp 𝕄)
      = iprop((∃ d, owns (c : Thread nD τ) scM13 fullShare d)
          ∗ Pipeline.scopedRestBut (Ix := Unit) (Name := ℕ) (U := UR sig nD τ × Counters) (Lvl := ℕ) (Val := Elt F) spec13 c [cc13_scratch0]) := by
  rw [scopedRest13_split]; simp only [scM13, owns_whole]; try rfl

/-! ## The proof data -/

def dat13 (c : Dev nD) : Dat τ (Elt F) Unit ℕ (UR sig nD τ × Counters) ℕ cfg13 c where
  A w := V c (Pipeline.arrRef spec13 w)
  after w t := match w with
    | ⟨0, _⟩ => iblk13 V c 0 t
    | ⟨1, _⟩ => iblk13 V c 1 t
    | ⟨2, _⟩ => (outsAt13 V c t.val t.isLt).1
  Φ t := PhiS13 V c t.val (Nat.le_of_lt_succ t.isLt)
  q _ := fullShare
  owed _ := 0

theorem A13_eq (c : Dev nD) (w : Fin cfg13.W) : (dat13 V c).A w = V c (Pipeline.arrRef spec13 w) := by
  dsimp only [dat13]
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = (outsAt13 V c t.val t.isLt).1 := by dsimp only [dat13]

theorem Phi13_castSucc (c : Dev nD) (t : Fin cfg13.N) :
    (dat13 V c).Φ t.castSucc = PhiS13 V c t.val (Nat.le_of_lt t.isLt) := by
  dsimp only [dat13]; simp only [Fin.coe_castSucc]

/-- Each input window's current staging buffer holds its block at every point, fetched there or not. -/
theorem before13_0 (c : Dev nD) (t : Fin cfg13.N) (d) : (dat13 V c).before 0 t d = iblk13 V c 0 t :=
  ((dat13 V c).before_in_eq_fetched 0 rfl (fun _ => rfl) (fun _ _ _ => rfl) (fun t => by rw [after13_0]; unfold Dat.blockOf iblk13; rw [A13_eq]; try rfl) t d).trans
    (by unfold Dat.fetched Dat.blockOf iblk13; rw [A13_eq]; try rfl)
theorem before13_1 (c : Dev nD) (t : Fin cfg13.N) (d) : (dat13 V c).before 1 t d = iblk13 V c 1 t :=
  ((dat13 V c).before_in_eq_fetched 1 rfl (fun _ => rfl) (fun _ _ _ => rfl) (fun t => by rw [after13_1]; unfold Dat.blockOf iblk13; rw [A13_eq]; try rfl) t d).trans
    (by unfold Dat.fetched Dat.blockOf iblk13; rw [A13_eq]; try rfl)

/-! ## The body obligation at a generic point -/

def bodyPre13 (c : Dev nD) (t : Fin cfg13.N) : sProp 𝕄 :=
  iprop((dat13 V c).Φ t.castSucc ∗ (dat13 V c).owesAt () t.castSucc
    ∗ (∃ d, owns (c : Thread nD τ) (ms13_0 t) fullShare ((dat13 V c).before 0 t d))
    ∗ (∃ d, owns (c : Thread nD τ) (ms13_1 t) fullShare ((dat13 V c).before 1 t d))
    ∗ (∃ d, owns (c : Thread nD τ) (ms13_2 t) fullShare ((dat13 V c).before 2 t d)))

def bodyPost13 (c : Dev nD) (t : Fin cfg13.N) : sProp 𝕄 :=
  iprop((dat13 V c).Φ t.succ ∗ (dat13 V c).owesAt () t.succ
    ∗ (dat13 V c).leavesExact 0 t ∗ (dat13 V c).leavesExact 1 t ∗ (dat13 V c).leavesExact 2 t)

set_option maxHeartbeats 4000000 in
/-- The body at any point. The three input buffers hold their blocks; the point's position in its contraction
    selects the case; the invariant hands over the accumulator (at anything before the very first point, else at
    what the point before left) and takes it back at this point's contents; an idle output buffer is handed back
    as found, a stored one at the case's block; the core owes nothing throughout. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1]
  rw [show (dat13 V c).owesAt () t.succ = (dat13 V c).owesAt () t.castSucc from rfl]
  rw [show (dat13 V c).Φ t.succ = iprop(owns (c : Thread nD τ) scM13 fullShare (outsAt13 V c t.val t.isLt).2
      ∗ Pipeline.scopedRestBut (Ix := Unit) (Name := ℕ) (U := UR sig nD τ × Counters) (Lvl := ℕ) (Val := Elt F) spec13 c [cc13_scratch0]) from rfl]
  have hN : t.val < 16 := lt_of_lt_of_eq t.isLt (show cfg13.N = 16 from N_13)
  rw [show (dat13 V c).leavesExact 0 t = owns (c : Thread nD τ) (ms13_0 t) fullShare (iblk13 V c 0 t) from by
    unfold Dat.leavesExact; rw [liveAt13_0 t, after13_0]]
  rw [show (dat13 V c).leavesExact 1 t = owns (c : Thread nD τ) (ms13_1 t) fullShare (iblk13 V c 1 t) from by
    unfold Dat.leavesExact; rw [liveAt13_1 t, after13_1]]
  rw [Phi13_castSucc V c t]
  by_cases h1 : t.val % 4 = 3
  · -- the last block of a contraction
    have h0 : ¬t.val % 4 = 0 := by omega
    have hz : t.val ≠ 0 := by omega
    rw [show (dat13 V c).leavesExact 2 t = owns (c : Thread nD τ) (ms13_2 t) fullShare (outsAt13 V c t.val t.isLt).1 from by
      unfold Dat.leavesExact; rw [liveAt13_2 t ((hcond13_1 t).mpr h1), after13_2]]
    rw [outsAt13_C V c t h0 h1, PhiS13_pos V c _ _ hz]
    dsimp only
    unfold outC13 accC13
    iintro ⟨⟨HS, Hb⟩, Ho, ⟨%d0, H0⟩, ⟨%d1, H1⟩, ⟨%d3, H3⟩⟩
    iapply ((run13_C c (grid13.coords t) (ms13_0 t) (hs13_0 t) (ms13_1 t) (hs13_1 t) (ms13_2 t) (hs13_2 t) scM13 (Memref.isWhole_whole _) (fun h => h0 ((hcond13_0 t).mp h)) ((hcond13_1 t).mpr h1) (iblk13 V c 0 t) (iblk13 V c 1 t) _).2.2 Set.univ _)
    isplitl [H0]; · iexact H0
    isplitl [H1]; · iexact H1
    isplitl [H3]; · iexists _; iexact H3
    isplitl [HS]; · iexact HS
    iintro ⟨H0, H1, ⟨%e3, H3⟩, ⟨%es, HS⟩⟩
    isplitl [HS Hb]
    · isplitl [HS]
      · unfold owns; iexists _; isplitr
        swap; · iexact HS
        ipureintro; exact View.read_writes_of_cover _ _ _ _ _ (coverCs13 V c t h0 h1 _)
      iexact Hb
    isplitl [Ho]; · iexact Ho
    isplitl [H0]; · iexact H0
    isplitl [H1]; · iexact H1
    unfold owns; iexists _; isplitr
    swap; · iexact H3
    ipureintro; exact View.read_writes_of_cover _ _ _ _ _ (coverCo13 V c t h0 h1 _)
  · rw [Dat.leavesExact_idle (dat13 V c) 2 t (idleAt13_2 t (fun h => h1 ((hcond13_1 t).mp h))) (noFlush13_2 t (fun h => h1 ((hcond13_1 t).mp h)))]
    by_cases h0 : t.val % 4 = 0
    · -- the first block of a contraction
      rw [outsAt13_A V c t h0 h1]
      dsimp only
      unfold accA13
      by_cases hz : t.val = 0
      · rw [show PhiS13 V c t.val (Nat.le_of_lt t.isLt) = Pipeline.scopedRest (Ix := Unit) (Name := ℕ) (U := UR sig nD τ × Counters) (Lvl := ℕ) (Val := Elt F) spec13 c from by
          obtain ⟨n, hn⟩ := t; dsimp only at hz; subst hz; rfl, scopedRest13_eq]
        iintro ⟨⟨HS, Hb⟩, Ho, ⟨%d0, H0⟩, ⟨%d1, H1⟩, ⟨%d3, H3⟩⟩
        iapply ((run13_A c (grid13.coords t) (ms13_0 t) (hs13_0 t) (ms13_1 t) (hs13_1 t) (ms13_2 t) (hs13_2 t) scM13 (Memref.isWhole_whole _) ((hcond13_0 t).mpr h0) (fun h => h1 ((hcond13_1 t).mp h)) (iblk13 V c 0 t) (iblk13 V c 1 t)).2 _ Set.univ _)
        isplitl [H0]; · iexact H0
        isplitl [H1]; · iexact H1
        isplitl [H3]; · iexact H3
        isplitl [HS]; · iexact HS
        iintro ⟨H0, H1, H3, ⟨%es, HS⟩⟩
        isplitl [HS Hb]
        · isplitl [HS]
          · unfold owns; iexists _; isplitr
            swap; · iexact HS
            ipureintro; exact View.read_writes_of_cover _ _ _ _ _ (coverA13 V c t h0 h1)
          iexact Hb
        isplitl [Ho]; · iexact Ho
        isplitl [H0]; · iexact H0
        isplitl [H1]; · iexact H1
        iexists _; iexact H3
      · rw [PhiS13_pos V c _ _ hz]
        iintro ⟨⟨HS, Hb⟩, Ho, ⟨%d0, H0⟩, ⟨%d1, H1⟩, ⟨%d3, H3⟩⟩
        iapply ((run13_A c (grid13.coords t) (ms13_0 t) (hs13_0 t) (ms13_1 t) (hs13_1 t) (ms13_2 t) (hs13_2 t) scM13 (Memref.isWhole_whole _) ((hcond13_0 t).mpr h0) (fun h => h1 ((hcond13_1 t).mp h)) (iblk13 V c 0 t) (iblk13 V c 1 t)).2 _ Set.univ _)
        isplitl [H0]; · iexact H0
        isplitl [H1]; · iexact H1
        isplitl [H3]; · iexact H3
        isplitl [HS]; · iexists _; iexact HS
        iintro ⟨H0, H1, H3, ⟨%es, HS⟩⟩
        isplitl [HS Hb]
        · isplitl [HS]
          · unfold owns; iexists _; isplitr
            swap; · iexact HS
            ipureintro; exact View.read_writes_of_cover _ _ _ _ _ (coverA13 V c t h0 h1)
          iexact Hb
        isplitl [Ho]; · iexact Ho
        isplitl [H0]; · iexact H0
        isplitl [H1]; · iexact H1
        iexists _; iexact H3
    · -- a middle block
      have hz : t.val ≠ 0 := by omega
      rw [outsAt13_B V c t h0 h1, PhiS13_pos V c _ _ hz]
      dsimp only
      unfold accB13
      iintro ⟨⟨HS, Hb⟩, Ho, ⟨%d0, H0⟩, ⟨%d1, H1⟩, ⟨%d3, H3⟩⟩
      iapply ((run13_B c (grid13.coords t) (ms13_0 t) (hs13_0 t) (ms13_1 t) (hs13_1 t) (ms13_2 t) (hs13_2 t) scM13 (Memref.isWhole_whole _) (fun h => h0 ((hcond13_0 t).mp h)) (fun h => h1 ((hcond13_1 t).mp h)) (iblk13 V c 0 t) (iblk13 V c 1 t) _).2 _ Set.univ _)
      isplitl [H0]; · iexact H0
      isplitl [H1]; · iexact H1
      isplitl [H3]; · iexact H3
      isplitl [HS]; · iexact HS
      iintro ⟨H0, H1, H3, ⟨%es, HS⟩⟩
      isplitl [HS Hb]
      · isplitl [HS]
        · unfold owns; iexists _; isplitr
          swap; · iexact HS
          ipureintro; exact View.read_writes_of_cover _ _ _ _ _ (coverB13 V c t h0 h1 _)
        iexact Hb
      isplitl [Ho]; · iexact Ho
      isplitl [H0]; · iexact H0
      isplitl [H1]; · iexact H1
      iexists _; iexact H3

theorem body_obligation13 (c : Dev nD) : BodyObligation (dat13 V c) (defs₀ (F := F)) Variants.none () Set.univ := fun t => by
  rw [bigSep_W13, bigSep_W13]
  exact sound_body13 V c t

/-! ## The region over the thread state -/

variable (Vp : (c : Dev nD) → (b : Ref sig .tc) → Buf (Elt F) ((c : Thread nD τ).loc b))
variable (pdats : (p : Fin 22) → (c : Dev nD) → Dat τ (Elt F) Unit ℕ (UR sig nD τ × Counters) ℕ (cfgs p) c)

/-- The result's array after the region, as the pipeline library computes it from the proof data. -/
def out13 (c : Dev nD) : Buf (Elt F) ((c : Thread nD τ).loc main_v30) := (dat13 V c).arrAt 2 cfg13.N

set_option backward.isDefEq.respectTransparency.types false in
set_option maxHeartbeats 2000000 in
/-- Launch 13 over the thread state "every unscoped buffer at `V c`, the core owing nothing": entered by
    splitting its three arrays out of the unscoped buffers, left with them put back at `Vp c`, which has the
    result's array at `out13` and agrees with `V c` elsewhere. -/
def reg13 (hp : ∀ c, pdats 13 c = dat13 V c)
    (hVp_out : ∀ c, Vp c main_v30 = out13 V c)
    (hVp_ne : ∀ c (b : Ref sig .tc), b ≠ main_v30 → Vp c b = V c b) :
    Pipeline.RegionSeg (pcfgs (F := F)) (fun p => (cfgs p).toPCfg_adm) pdats () defs₀ Variants.none (fun _ => (∅ : Finset Unit)) (fun _ _ => (0 : ℕ)) 13 where
  win := launch13.win.to₀
  block_pos := launch13.block_pos
  stage_whole := launch13.stage_whole
  K := PEmpty
  osem k := k.elim
  ho := Pipeline.OwnSemFacts.none _
  hbody c := by rw [hp c]; exact (body_obligation13 V c).loose
  hwaits := Pipeline.hwaits_of_owed_zero _ _ _ _ _ _ 13 fun c t => by rw [hp c]; rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ × Counters) (Lvl := ℕ) spec13 c (V c)
  hentry c := by
    rw [Pipeline.ownSems0_none]
    have hsplit := Pipeline.arrays_of_unscopedBufs (p := 13) (pcfgs (F := F)) (fun p => (cfgs p).toPCfg_adm) pdats launch13.win launch13.arr_whole c
      ((pdats 13 c).share_full fun w => by rw [hp c]; rfl) (V c) (fun w => by rw [hp c]; rfl)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hp c]
      unfold Pipeline.Dat.owesAt Pipeline.owesWithin
      icases HO with ⟨%W, HO⟩; iexists W; isplitr; · ipureintro; exact fun _ _ => Or.inl trivial
      iexact HO
    isplitr; · iempintro
    iexact Hrest
  hin c := by
    rw [hp c, show (dat13 V c).Φ 0 = Pipeline.scopedRest (Ix := Unit) (Name := ℕ) (U := UR sig nD τ × Counters) (Lvl := ℕ) (Val := Elt F) spec13 c from rfl]
    iintro ⟨-, -, Hr⟩; iexact Hr
  hout c := by
    rw [Pipeline.ownSems0_none, hp c]
    refine (Entails.of_eq ((show (dat13 V c).Φ (Fin.last _) = PhiS13 V c (Fin.last cfg13.N).val (Nat.le_of_lt_succ (Fin.last cfg13.N).isLt) from rfl).trans
      (PhiS13_pos V c _ _ (by rw [Fin.val_last]; have : cfg13.N = 16 := N_13; omega)))).trans ?_
    change _ ⊢ iprop(BI.emp ∗ BI.emp ∗ Pipeline.scopedRest (Ix := Unit) (Name := ℕ) (U := UR sig nD τ × Counters) (Lvl := ℕ) (Val := Elt F) spec13 c)
    rw [scopedRest13_eq]
    iintro ⟨HS, Hb⟩
    isplitr; · iempintro
    isplitr; · iempintro
    isplitl [HS]; · iexists _; iexact HS
    iexact Hb
  hexit c := by
    have hjoin := Pipeline.unscopedBufs_of_arrays (p := 13) (pcfgs (F := F)) (fun p => (cfgs p).toPCfg_adm) (Ix := Unit) (Name := ℕ) (U := UR sig nD τ × Counters) (Lvl := ℕ) launch13.win launch13.arr_whole c
      pdats ((pdats 13 c).share_full fun w => by rw [hp c]; rfl) (V c) (Vp c) ((pdats 13 c).arrAt · cfg13.N)
      (fun w => by
        fin_cases w
        · exact (((pdats 13 c).arrAt_in 0 rfl _).trans (by rw [hp c]; rfl)).trans (hVp_ne c main_v0 (by decide)).symm
        · exact (((pdats 13 c).arrAt_in 1 rfl _).trans (by rw [hp c]; rfl)).trans (hVp_ne c main_v29 (by decide)).symm
        · exact (by rw [hp c]; rfl : (pdats 13 c).arrAt 2 cfg13.N = out13 V c).trans (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W
    rw [show (pdats 13 c).owed (Fin.last _) = 0 from by rw [hp c]; rfl]
    iexact HO

end Cert.KernelIdeal.Hand

end
-- ==== Proof.KI.R14Base.lean ====
/-
  Launch 14 of the program: one matrix product per grid point — the contraction is a single block —, a bias row
  added and tanh applied, the output block stored at every point. The grid's third coordinate is always 0, so both
  conditions of the body — "the contraction's first block" and "its last block" — hold at every point: this module
  decides them over the grid's points, records that no window is ever idle, and names the staging memrefs the body
  is called with.
-/
import proofs.«113214_j66838281060556_2_alg».proof.Proof.Gen.KernelIdeal.Launch
import proofs.«113214_j66838281060556_2_alg».proof.Proof.Gen.KernelIdeal.Skeleton
import proofs.«113214_j66838281060556_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

/-- The accumulator is reset: the point starts a contraction (third grid coordinate 0). Here the third axis has one
    coordinate, so every point does. -/
abbrev cond14_0 (i : grid14.Coords) : Prop := (Scalar.cmpi .ne (Scalar.extui (Scalar.cmpi .eq (BitVec.ofNat 32 (i 2).val) 0#32)) 0#32) = 1#1
theorem hcond14_0 : ∀ t : Fin cfg14.N, cond14_0 (grid14.coords t) :=
  (by decide +kernel : ∀ t : Fin grid14.N, cond14_0 (grid14.coords t))

/-- The result is stored: the point ends a contraction. Every point does. -/
abbrev cond14_1 (i : grid14.Coords) : Prop := k14_cond2 i = 1#1
theorem hcond14_1 : ∀ t : Fin cfg14.N, cond14_1 (grid14.coords t) :=
  (by decide +kernel : ∀ t : Fin grid14.N, cond14_1 (grid14.coords t))

/-- No window is idle at any point: the three inputs never, the output because every point stores. -/
theorem liveAt14_0 : ∀ t : Fin cfg14.N, cfg14.idle 0 (grid14.coords t) = false := by decide +kernel
theorem liveAt14_1 : ∀ t : Fin cfg14.N, cfg14.idle 1 (grid14.coords t) = false := by decide +kernel
theorem liveAt14_2 : ∀ t : Fin cfg14.N, cfg14.idle 2 (grid14.coords t) = false := by decide +kernel
theorem liveAt14_3 : ∀ t : Fin cfg14.N, cfg14.idle 3 (grid14.coords t) = false := by decide +kernel

/-- Each window's current staging memref at a point, as the pipeline passes it, and its wholeness. -/
abbrev ms14_0 (t : Fin cfg14.N) : Memref sig .tc .vmem S1024x819 .bf16 := win14_0.stage (cfg14.slots t 0)
abbrev hs14_0 (t : Fin cfg14.N) : (ms14_0 t).IsWhole := hstage14_0 ((cfg14.slots t 0).cast nbuf14_0)
abbrev ms14_1 (t : Fin cfg14.N) : Memref sig .tc .vmem S819x819 .f32 := win14_1.stage (cfg14.slots t 1)
abbrev hs14_1 (t : Fin cfg14.N) : (ms14_1 t).IsWhole := hstage14_1 ((cfg14.slots t 1).cast nbuf14_1)
abbrev ms14_2 (t : Fin cfg14.N) : Memref sig .tc .vmem S1x819 .f32 := win14_2.stage (cfg14.slots t 2)
abbrev hs14_2 (t : Fin cfg14.N) : (ms14_2 t).IsWhole := hstage14_2 ((cfg14.slots t 2).cast nbuf14_2)
abbrev ms14_3 (t : Fin cfg14.N) : Memref sig .tc .vmem S1024x819 .f32 := win14_3.stage (cfg14.slots t 3)
abbrev hs14_3 (t : Fin cfg14.N) : (ms14_3 t).IsWhole := hstage14_3 ((cfg14.slots t 3).cast nbuf14_3)
/-- The accumulator: a whole scoped buffer of the launch's own. -/
abbrev scM14 : Memref sig .tc .vmem S1024x819 .f32 := Memref.whole cc14_scratch0
abbrev VS14 : View sig .tc .vmem S1024x819 .f32 := scM14.view

end Cert.KernelIdeal.Hand

end
-- ==== Proof.KI.R14Run.lean ====
/-
  Launch 14, the body run symbolically in its one control case: the accumulator reset, the product added, the bias
  row added and tanh applied into the output block. The run's witnesses are the lists of pieces its stores leave in
  the output block and in the accumulator.
-/
import proofs.«113214_j66838281060556_2_alg».proof.Proof.KI.R14Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

set_option maxHeartbeats 2000000 in
/-- The body at a point, run symbolically: the accumulator, found at anything, is reset to zero and ends at the
    product of the two input blocks added to zero; the output block, found at anything, is stored whole: tanh of
    that sum plus the bias row. The witnesses are the pieces the stores leave in the output block and in the
    accumulator. -/
noncomputable def run14 (c : Dev nD) (i : grid14.Coords) (arg3 : Memref sig .tc .vmem S1024x819 .bf16) (harg3 : arg3.IsWhole) (arg4 : Memref sig .tc .vmem S819x819 .f32) (harg4 : arg4.IsWhole) (arg5 : Memref sig .tc .vmem S1x819 .f32) (harg5 : arg5.IsWhole) (arg6 : Memref sig .tc .vmem S1024x819 .f32) (harg6 : arg6.IsWhole) (arg7 : Memref sig .tc .vmem S1024x819 .f32) (harg7 : arg7.IsWhole) (hc0 : cond14_0 i) (hc1 : cond14_1 i)
    (x0 : Vec F S1024x819 .bf16) (x1 : Vec F S819x819 .f32) (x2 : Vec F S1x819 .f32) :
    Σ' (LO : List (View.Piece (Elt F) S1024x819 .f32)), { LS : List (View.Piece (Elt F) S1024x819 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LS)) -∗ K ⟨⟩))
          ⊢ wp frame (wpE (defs₀ (F := F)) Variants.none c none) E (cc14__mm_kernel i arg3 harg3 arg4 harg4 arg5 harg5 arg6 harg6 arg7 harg7) K } := by
  refine ⟨?_, ?_, fun E K => ?run⟩
  case run =>
    simp only [cc14__mm_kernel_eq_skeleton]; unfold cc14__mm_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    iexists _; iexact HS

end Cert.KernelIdeal.Hand

end
-- ==== Proof.KI.R14.lean ====
/-
  Launch 14 as a region of the program. The blocks the windows stage are read off the arrays as the region finds
  them; a point stores the output block its run leaves; the accumulator is reset at every point, so between points
  the launch's scoped buffers that no window stages are simply held whole at anything; the body obligation follows
  from the one symbolic run; and the region is stated over the thread state "every unscoped buffer at given
  contents, the core owing nothing", entered by splitting its arrays out and left with the result's array
  at what the pipeline computes from the stored blocks.
-/
import proofs.«113214_j66838281060556_2_alg».proof.Proof.KI.R14Run
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

variable (V : (c : Dev nD) → (b : Ref sig .tc) → Buf (Elt F) ((c : Thread nD τ).loc b))

/-! ## The blocks the windows stage -/

/-- Window `w`'s block at point `t`, read off its array as the region finds it. -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- A view of the output's staging buffer, through which contents are stated. -/
abbrev VO14 : View sig .tc .vmem S1024x819 .f32 := (Memref.whole cc14_stg3_0 : Memref sig .tc .vmem S1024x819 .f32).view

/-! ## What a point leaves -/

/-- The output block a point stores: what the run's pieces leave, read through the staging buffer's view. -/
def out14 (c : Dev nD) (t : Fin cfg14.N) : Vec F S1024x819 .f32 :=
  VO14.read (Elt F) (VO14.writes (Elt F) VO14.junk (run14 c (grid14.coords t) (ms14_0 t) (hs14_0 t) (ms14_1 t) (hs14_1 t) (ms14_2 t) (hs14_2 t) (ms14_3 t) (hs14_3 t) scM14 (Memref.isWhole_whole _) (hcond14_0 t) (hcond14_1 t) (iblk14 V c 0 t) (iblk14 V c 1 t) (iblk14 V c 2 t)).1)

/-- The stores into the output block cover it. -/
theorem coverO14 (c : Dev nD) (t : Fin cfg14.N) (y : S1024x819.Idx) :
    ∃ pc ∈ (run14 c (grid14.coords t) (ms14_0 t) (hs14_0 t) (ms14_1 t) (hs14_1 t) (ms14_2 t) (hs14_2 t) (ms14_3 t) (hs14_3 t) scM14 (Memref.isWhole_whole _) (hcond14_0 t) (hcond14_1 t) (iblk14 V c 0 t) (iblk14 V c 1 t) (iblk14 V c 2 t)).1, y ∈ pc.1.set :=
  View.cover_of_tiledL _ S1024x819.size (by sl_kernel_rfl) y

/-! ## The invariant between points -/

/-- The scoped rest with the accumulator split out as a memref owned at some contents. The accumulator is reset at
    every point, so the invariant between points is the scoped rest itself, the accumulator at anything. -/
theorem scopedRest14_eq (c : Dev nD) :
    (Pipeline.scopedRest (Ix := Unit) (Name := ℕ) (U := UR sig nD τ × Counters) (Lvl := ℕ) (Val := Elt F) spec14 c : sProp 𝕄)
      = iprop((∃ d, owns (c : Thread nD τ) scM14 fullShare d)
          ∗ Pipeline.scopedRestBut (Ix := Unit) (Name := ℕ) (U := UR sig nD τ × Counters) (Lvl := ℕ) (Val := Elt F) spec14 c [cc14_scratch0]) := by
  rw [scopedRest14_split]; simp only [scM14, owns_whole]; try rfl

/-! ## The proof data -/

def dat14 (c : Dev nD) : Dat τ (Elt F) Unit ℕ (UR sig nD τ × Counters) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => out14 V c t
  Φ _ := Pipeline.scopedRest (Ix := Unit) (Name := ℕ) (U := UR sig nD τ × Counters) (Lvl := ℕ) (Val := Elt F) spec14 c
  q _ := fullShare
  owed _ := 0

theorem A14_eq (c : Dev nD) (w : Fin cfg14.W) : (dat14 V c).A w = V c (Pipeline.arrRef spec14 w) := by
  dsimp only [dat14]
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = out14 V c t := by dsimp only [dat14]

/-- Each input window's current staging buffer holds its block at every point, fetched there or not. -/
theorem before14_0 (c : Dev nD) (t : Fin cfg14.N) (d) : (dat14 V c).before 0 t d = iblk14 V c 0 t :=
  ((dat14 V c).before_in_eq_fetched 0 rfl (fun _ => rfl) (fun _ _ _ => rfl) (fun t => by rw [after14_0]; unfold Dat.blockOf iblk14; rw [A14_eq]; try rfl) t d).trans
    (by unfold Dat.fetched Dat.blockOf iblk14; rw [A14_eq]; try rfl)
theorem before14_1 (c : Dev nD) (t : Fin cfg14.N) (d) : (dat14 V c).before 1 t d = iblk14 V c 1 t :=
  ((dat14 V c).before_in_eq_fetched 1 rfl (fun _ => rfl) (fun _ _ _ => rfl) (fun t => by rw [after14_1]; unfold Dat.blockOf iblk14; rw [A14_eq]; try rfl) t d).trans
    (by unfold Dat.fetched Dat.blockOf iblk14; rw [A14_eq]; try rfl)
theorem before14_2 (c : Dev nD) (t : Fin cfg14.N) (d) : (dat14 V c).before 2 t d = iblk14 V c 2 t :=
  ((dat14 V c).before_in_eq_fetched 2 rfl (fun _ => rfl) (fun _ _ _ => rfl) (fun t => by rw [after14_2]; unfold Dat.blockOf iblk14; rw [A14_eq]; try rfl) t d).trans
    (by unfold Dat.fetched Dat.blockOf iblk14; rw [A14_eq]; try rfl)

/-! ## The body obligation at a generic point -/

def bodyPre14 (c : Dev nD) (t : Fin cfg14.N) : sProp 𝕄 :=
  iprop((dat14 V c).Φ t.castSucc ∗ (dat14 V c).owesAt () t.castSucc
    ∗ (∃ d, owns (c : Thread nD τ) (ms14_0 t) fullShare ((dat14 V c).before 0 t d))
    ∗ (∃ d, owns (c : Thread nD τ) (ms14_1 t) fullShare ((dat14 V c).before 1 t d))
    ∗ (∃ d, owns (c : Thread nD τ) (ms14_2 t) fullShare ((dat14 V c).before 2 t d))
    ∗ (∃ d, owns (c : Thread nD τ) (ms14_3 t) fullShare ((dat14 V c).before 3 t d)))

def bodyPost14 (c : Dev nD) (t : Fin cfg14.N) : sProp 𝕄 :=
  iprop((dat14 V c).Φ t.succ ∗ (dat14 V c).owesAt () t.succ
    ∗ (dat14 V c).leavesExact 0 t ∗ (dat14 V c).leavesExact 1 t ∗ (dat14 V c).leavesExact 2 t ∗ (dat14 V c).leavesExact 3 t)

set_option maxHeartbeats 4000000 in
/-- The body at any point. The input buffers hold their blocks; the invariant hands over the accumulator at
    anything and takes it back at anything; the output buffer, found at anything, is handed back at the block the
    point stores; the core owes nothing throughout. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2]
  rw [show (dat14 V c).owesAt () t.succ = (dat14 V c).owesAt () t.castSucc from rfl]
  rw [show (dat14 V c).Φ t.succ = Pipeline.scopedRest (Ix := Unit) (Name := ℕ) (U := UR sig nD τ × Counters) (Lvl := ℕ) (Val := Elt F) spec14 c from rfl,
    show (dat14 V c).Φ t.castSucc = Pipeline.scopedRest (Ix := Unit) (Name := ℕ) (U := UR sig nD τ × Counters) (Lvl := ℕ) (Val := Elt F) spec14 c from rfl]
  rw [show (dat14 V c).leavesExact 0 t = owns (c : Thread nD τ) (ms14_0 t) fullShare (iblk14 V c 0 t) from by
    unfold Dat.leavesExact; rw [liveAt14_0 t, after14_0]]
  rw [show (dat14 V c).leavesExact 1 t = owns (c : Thread nD τ) (ms14_1 t) fullShare (iblk14 V c 1 t) from by
    unfold Dat.leavesExact; rw [liveAt14_1 t, after14_1]]
  rw [show (dat14 V c).leavesExact 2 t = owns (c : Thread nD τ) (ms14_2 t) fullShare (iblk14 V c 2 t) from by
    unfold Dat.leavesExact; rw [liveAt14_2 t, after14_2]]
  rw [show (dat14 V c).leavesExact 3 t = owns (c : Thread nD τ) (ms14_3 t) fullShare (out14 V c t) from by
    unfold Dat.leavesExact; rw [liveAt14_3 t, after14_3]]
  rw [scopedRest14_eq]
  unfold out14
  iintro ⟨⟨HS, Hb⟩, Ho, ⟨%d0, H0⟩, ⟨%d1, H1⟩, ⟨%d2, H2⟩, ⟨%d3, H3⟩⟩
  iapply ((run14 c (grid14.coords t) (ms14_0 t) (hs14_0 t) (ms14_1 t) (hs14_1 t) (ms14_2 t) (hs14_2 t) (ms14_3 t) (hs14_3 t) scM14 (Memref.isWhole_whole _) (hcond14_0 t) (hcond14_1 t) (iblk14 V c 0 t) (iblk14 V c 1 t) (iblk14 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS Hb]
  · isplitl [HS]
    · iexists _; unfold owns; iexists _; isplitr
      swap; · iexact HS
      ipureintro; rfl
    iexact Hb
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (coverO14 V c t)

theorem body_obligation14 (c : Dev nD) : BodyObligation (dat14 V c) (defs₀ (F := F)) Variants.none () Set.univ := fun t => by
  rw [bigSep_W14, bigSep_W14]
  exact sound_body14 V c t

/-! ## The region over the thread state -/

variable (Vp : (c : Dev nD) → (b : Ref sig .tc) → Buf (Elt F) ((c : Thread nD τ).loc b))
variable (pdats : (p : Fin 22) → (c : Dev nD) → Dat τ (Elt F) Unit ℕ (UR sig nD τ × Counters) ℕ (cfgs p) c)

/-- The result's array after the region, as the pipeline library computes it from the proof data. -/
def out14arr (c : Dev nD) : Buf (Elt F) ((c : Thread nD τ).loc main_v32) := (dat14 V c).arrAt 3 cfg14.N

set_option backward.isDefEq.respectTransparency.types false in
set_option maxHeartbeats 2000000 in
/-- Launch 14 over the thread state "every unscoped buffer at `V c`, the core owing nothing": entered by
    splitting its arrays out of the unscoped buffers, left with them put back at `Vp c`, which has the
    result's array at `out14arr` and agrees with `V c` elsewhere. -/
def reg14 (hp : ∀ c, pdats 14 c = dat14 V c)
    (hVp_out : ∀ c, Vp c main_v32 = out14arr V c)
    (hVp_ne : ∀ c (b : Ref sig .tc), b ≠ main_v32 → Vp c b = V c b) :
    Pipeline.RegionSeg (pcfgs (F := F)) (fun p => (cfgs p).toPCfg_adm) pdats () defs₀ Variants.none (fun _ => (∅ : Finset Unit)) (fun _ _ => (0 : ℕ)) 14 where
  win := launch14.win.to₀
  block_pos := launch14.block_pos
  stage_whole := launch14.stage_whole
  K := PEmpty
  osem k := k.elim
  ho := Pipeline.OwnSemFacts.none _
  hbody c := by rw [hp c]; exact (body_obligation14 V c).loose
  hwaits := Pipeline.hwaits_of_owed_zero _ _ _ _ _ _ 14 fun c t => by rw [hp c]; rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ × Counters) (Lvl := ℕ) spec14 c (V c)
  hentry c := by
    rw [Pipeline.ownSems0_none]
    have hsplit := Pipeline.arrays_of_unscopedBufs (p := 14) (pcfgs (F := F)) (fun p => (cfgs p).toPCfg_adm) pdats launch14.win launch14.arr_whole c
      ((pdats 14 c).share_full fun w => by rw [hp c]; rfl) (V c) (fun w => by rw [hp c]; rfl)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hp c]; exact trivial)
      rw [show (pdats 14 c).owed 0 = 0 from by rw [hp c]; rfl]
      iexact HO
    isplitr; · iempintro
    iexact Hrest
  hin c := by
    rw [hp c, show (dat14 V c).Φ 0 = Pipeline.scopedRest (Ix := Unit) (Name := ℕ) (U := UR sig nD τ × Counters) (Lvl := ℕ) (Val := Elt F) spec14 c from rfl]
    iintro ⟨-, -, Hr⟩; iexact Hr
  hout c := by
    rw [Pipeline.ownSems0_none, hp c]
    change (Pipeline.scopedRest (Ix := Unit) (Name := ℕ) (U := UR sig nD τ × Counters) (Lvl := ℕ) (Val := Elt F) spec14 c : sProp 𝕄) ⊢ _
    iintro Hr
    isplitr; · iempintro
    isplitr; · iempintro
    iexact Hr
  hexit c := by
    have hjoin := Pipeline.unscopedBufs_of_arrays (p := 14) (pcfgs (F := F)) (fun p => (cfgs p).toPCfg_adm) (Ix := Unit) (Name := ℕ) (U := UR sig nD τ × Counters) (Lvl := ℕ) launch14.win launch14.arr_whole c
      pdats ((pdats 14 c).share_full fun w => by rw [hp c]; rfl) (V c) (Vp c) ((pdats 14 c).arrAt · cfg14.N)
      (fun w => by
        fin_cases w
        · exact (((pdats 14 c).arrAt_in 0 rfl _).trans (by rw [hp c]; rfl)).trans (hVp_ne c main_v30 (by decide)).symm
        · exact (((pdats 14 c).arrAt_in 1 rfl _).trans (by rw [hp c]; rfl)).trans (hVp_ne c main_arg13 (by decide)).symm
        · exact (((pdats 14 c).arrAt_in 2 rfl _).trans (by rw [hp c]; rfl)).trans (hVp_ne c main_v31 (by decide)).symm
        · exact (by rw [hp c]; rfl : (pdats 14 c).arrAt 3 cfg14.N = out14arr V c).trans (hVp_out c).symm)
      (fun b hb => hVp_ne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W
    rw [show (pdats 14 c).owed (Fin.last _) = 0 from by rw [hp c]; rfl]
    iexact HO

end Cert.KernelIdeal.Hand

end
-- ==== Proof.KI.R15Base.lean ====
/-
  Launch 15 of the program: a matrix product accumulated over the third grid axis (grid 4 × 1 × 4: four row blocks,
  four contraction blocks), stored — with no bias and no activation — when
  the last block has been added. This module names the two conditions of the body on the grid point ("the
  contraction's first block", "its last block"), decides them over the sixteen points, and records where the
  output window is idle and where its block is written back.
-/
import proofs.«113214_j66838281060556_2_alg».proof.Proof.Gen.KernelIdeal.Launch
import proofs.«113214_j66838281060556_2_alg».proof.Proof.Gen.KernelIdeal.Skeleton
import proofs.«113214_j66838281060556_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

/-- The accumulator is reset: the point starts a contraction (third grid coordinate 0). -/
abbrev cond15_0 (i : grid15.Coords) : Prop := (Scalar.cmpi .ne (Scalar.extui (Scalar.cmpi .eq (BitVec.ofNat 32 (i 2).val) 0#32)) 0#32) = 1#1
theorem hcond15_0 : ∀ t : Fin cfg15.N, cond15_0 (grid15.coords t) ↔ t.val % 4 = 0 :=
  (by decide +kernel : ∀ t : Fin grid15.N, cond15_0 (grid15.coords t) ↔ t.val % 4 = 0)

/-- The result is stored: the point ends a contraction (third grid coordinate 3). -/
abbrev cond15_1 (i : grid15.Coords) : Prop := k15_cond2 i = 1#1
theorem hcond15_1 : ∀ t : Fin cfg15.N, cond15_1 (grid15.coords t) ↔ t.val % 4 = 3 :=
  (by decide +kernel : ∀ t : Fin grid15.N, cond15_1 (grid15.coords t) ↔ t.val % 4 = 3)

/-- The two input windows are never idle. -/
theorem liveAt15_0 : ∀ t : Fin cfg15.N, cfg15.idle 0 (grid15.coords t) = false := by decide +kernel
theorem liveAt15_1 : ∀ t : Fin cfg15.N, cfg15.idle 1 (grid15.coords t) = false := by decide +kernel
/-- Away from a contraction's last block the output window is idle and its block is not written back. -/
theorem idleAt15_2 : ∀ t : Fin cfg15.N, ¬cond15_1 (grid15.coords t) → cfg15.idle 2 (grid15.coords t) = true := by decide +kernel
theorem noFlush15_2 : ∀ t : Fin cfg15.N, ¬cond15_1 (grid15.coords t) → (cfg15.win 2).flush t = false := by decide +kernel
/-- At a contraction's last block the output window is live. -/
theorem liveAt15_2 : ∀ t : Fin cfg15.N, cond15_1 (grid15.coords t) → cfg15.idle 2 (grid15.coords t) = false := by decide +kernel

/-- Each window's current staging memref at a point, as the pipeline passes it, and its wholeness. -/
abbrev ms15_0 (t : Fin cfg15.N) : Memref sig .tc .vmem S1024x1024 .bf16 := win15_0.stage (cfg15.slots t 0)
abbrev hs15_0 (t : Fin cfg15.N) : (ms15_0 t).IsWhole := hstage15_0 ((cfg15.slots t 0).cast nbuf15_0)
abbrev ms15_1 (t : Fin cfg15.N) : Memref sig .tc .vmem S1024x819 .f32 := win15_1.stage (cfg15.slots t 1)
abbrev hs15_1 (t : Fin cfg15.N) : (ms15_1 t).IsWhole := hstage15_1 ((cfg15.slots t 1).cast nbuf15_1)
abbrev ms15_2 (t : Fin cfg15.N) : Memref sig .tc .vmem S1024x819 .bf16 := win15_2.stage (cfg15.slots t 2)
abbrev hs15_2 (t : Fin cfg15.N) : (ms15_2 t).IsWhole := hstage15_2 ((cfg15.slots t 2).cast nbuf15_2)
/-- The accumulator: a whole scoped buffer of the launch's own. -/
abbrev scM15 : Memref sig .tc .vmem S1024x819 .f32 := Memref.whole cc15_scratch0
abbrev VS15 : View sig .tc .vmem S1024x819 .f32 := scM15.view

end Cert.KernelIdeal.Hand

end
-- ==== Proof.KI.R15Run.lean ====
/-
  Launch 15, the body run symbolically in each of its three control cases: the first block of a contraction
  (the accumulator reset, then the first product added), a middle block (the product added), the last block
  (the product added, then the sum stored into the output block in the output's format). Each run's witness
  is the list of pieces its stores leave in the accumulator (and, in the last case, in the output block).
-/
import proofs.«113214_j66838281060556_2_alg».proof.Proof.KI.R15Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

set_option maxHeartbeats 2000000 in
/-- The first block of a contraction that is not also its last: the accumulator, found at anything, is reset to
    zero and ends at the product of the two input blocks added to zero; the idle output block is handed back
    untouched. The pieces written into the accumulator are the witness the symbolic run finds. -/
noncomputable def run15_A (c : Dev nD) (i : grid15.Coords) (arg3 : Memref sig .tc .vmem S1024x1024 .bf16) (harg3 : arg3.IsWhole) (arg4 : Memref sig .tc .vmem S1024x819 .f32) (harg4 : arg4.IsWhole) (arg5 : Memref sig .tc .vmem S1024x819 .bf16) (harg5 : arg5.IsWhole) (arg6 : Memref sig .tc .vmem S1024x819 .f32) (harg6 : arg6.IsWhole) (hc0 : cond15_0 i) (hc1 : ¬cond15_1 i)
    (x0 : Vec F S1024x1024 .bf16) (x1 : Vec F S1024x819 .f32) :
    { LS : List (View.Piece (Elt F) S1024x819 .f32) //
      ∀ (xi : Vec F S1024x819 .bf16) (E : Set ℕ) (K : PUnit → sProp 𝕄),
        iprop(owns (c : Thread nD τ) arg3 fullShare x0 ∗ owns (c : Thread nD τ) arg4 fullShare x1 ∗ owns (c : Thread nD τ) arg5 fullShare xi ∗ (∃ d, owns (c : Thread nD τ) arg6 fullShare d)
            ∗ (iprop(owns (c : Thread nD τ) arg3 fullShare x0 ∗ owns (c : Thread nD τ) arg4 fullShare x1 ∗ owns (c : Thread nD τ) arg5 fullShare xi
                ∗ (∃ f, arg6.view.loc (c : Thread nD τ) ↦[arg6.view.set]{fullShare} arg6.view.writes (Elt F) f LS)) -∗ K ⟨⟩))
          ⊢ wp frame (wpE (defs₀ (F := F)) Variants.none c none) E (cc15__mm_kernel i arg3 harg3 arg4 harg4 arg5 harg5 arg6 harg6) K } := by
  refine ⟨?_, fun xi E K => ?run⟩
  case run =>
    simp only [cc15__mm_kernel_eq_skeleton]; unfold cc15__mm_kernel_skel
    unfold owns
    iintro ⟨⟨%f0, %hf0, H0⟩, ⟨%f1, %hf1, H1⟩, ⟨%f3, %hf3, H3⟩, ⟨%ds, %fs, -, HS⟩, Hk⟩
    obtain rfl := harg3.eq_unread hf0; obtain rfl := harg4.eq_unread hf1; obtain rfl := harg5.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H3]
    · iexists _; isplitr; · ipureintro; exact harg5.read_unread _
      iexact H3
    iexists _; iexact HS

set_option maxHeartbeats 2000000 in
/-- A middle block of a contraction: the accumulator, found at `xs`, ends at the product of the two input
    blocks added to `xs`; the idle output block is handed back untouched. -/
noncomputable def run15_B (c : Dev nD) (i : grid15.Coords) (arg3 : Memref sig .tc .vmem S1024x1024 .bf16) (harg3 : arg3.IsWhole) (arg4 : Memref sig .tc .vmem S1024x819 .f32) (harg4 : arg4.IsWhole) (arg5 : Memref sig .tc .vmem S1024x819 .bf16) (harg5 : arg5.IsWhole) (arg6 : Memref sig .tc .vmem S1024x819 .f32) (harg6 : arg6.IsWhole) (hc0 : ¬cond15_0 i) (hc1 : ¬cond15_1 i)
    (x0 : Vec F S1024x1024 .bf16) (x1 : Vec F S1024x819 .f32) (xs : Vec F S1024x819 .f32) :
    { LS : List (View.Piece (Elt F) S1024x819 .f32) //
      ∀ (xi : Vec F S1024x819 .bf16) (E : Set ℕ) (K : PUnit → sProp 𝕄),
        iprop(owns (c : Thread nD τ) arg3 fullShare x0 ∗ owns (c : Thread nD τ) arg4 fullShare x1 ∗ owns (c : Thread nD τ) arg5 fullShare xi ∗ owns (c : Thread nD τ) arg6 fullShare xs
            ∗ (iprop(owns (c : Thread nD τ) arg3 fullShare x0 ∗ owns (c : Thread nD τ) arg4 fullShare x1 ∗ owns (c : Thread nD τ) arg5 fullShare xi
                ∗ (∃ f, arg6.view.loc (c : Thread nD τ) ↦[arg6.view.set]{fullShare} arg6.view.writes (Elt F) f LS)) -∗ K ⟨⟩))
          ⊢ wp frame (wpE (defs₀ (F := F)) Variants.none c none) E (cc15__mm_kernel i arg3 harg3 arg4 harg4 arg5 harg5 arg6 harg6) K } := by
  refine ⟨?_, fun xi E K => ?run⟩
  case run =>
    simp only [cc15__mm_kernel_eq_skeleton]; unfold cc15__mm_kernel_skel
    unfold owns
    iintro ⟨⟨%f0, %hf0, H0⟩, ⟨%f1, %hf1, H1⟩, ⟨%f3, %hf3, H3⟩, ⟨%fs, %hfs, HS⟩, Hk⟩
    obtain rfl := harg3.eq_unread hf0; obtain rfl := harg4.eq_unread hf1; obtain rfl := harg5.eq_unread hf3
    obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H3]
    · iexists _; isplitr; · ipureintro; exact harg5.read_unread _
      iexact H3
    iexists _; iexact HS

set_option maxHeartbeats 2000000 in
/-- The last block of a contraction that is not also its first: the accumulator, found at `xs`, ends at the
    product of the two input blocks added to `xs`, and the output block, found at anything, is stored whole:
    that sum in the output's format. -/
noncomputable def run15_C (c : Dev nD) (i : grid15.Coords) (arg3 : Memref sig .tc .vmem S1024x1024 .bf16) (harg3 : arg3.IsWhole) (arg4 : Memref sig .tc .vmem S1024x819 .f32) (harg4 : arg4.IsWhole) (arg5 : Memref sig .tc .vmem S1024x819 .bf16) (harg5 : arg5.IsWhole) (arg6 : Memref sig .tc .vmem S1024x819 .f32) (harg6 : arg6.IsWhole) (hc0 : ¬cond15_0 i) (hc1 : cond15_1 i)
    (x0 : Vec F S1024x1024 .bf16) (x1 : Vec F S1024x819 .f32) (xs : Vec F S1024x819 .f32) :
    Σ' (LO : List (View.Piece (Elt F) S1024x819 .bf16)), { LS : List (View.Piece (Elt F) S1024x819 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc15__mm_kernel i arg3 harg3 arg4 harg4 arg5 harg5 arg6 harg6) K } := by
  refine ⟨?_, ?_, fun E K => ?run⟩
  case run =>
    simp only [cc15__mm_kernel_eq_skeleton]; unfold cc15__mm_kernel_skel
    unfold owns
    iintro ⟨⟨%f0, %hf0, H0⟩, ⟨%f1, %hf1, H1⟩, ⟨%d3, %f3, -, H3⟩, ⟨%fs, %hfs, HS⟩, Hk⟩
    obtain rfl := harg3.eq_unread hf0; obtain rfl := harg4.eq_unread hf1
    obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H3]
    · iexists _; iexact H3
    iexists _; iexact HS

end Cert.KernelIdeal.Hand

end
-- ==== Proof.KI.R15.lean ====
/-
  Launch 15 as a segment of the program: the product A·B of a graph matrix with the right
  factor, computed block by block on the grid 4 × 1 × 4 with an accumulator carried along the contraction and
  stored in the output's format when a contraction ends. What the accumulator and the output block hold after
  each point is defined by recursion on the point; the invariant between points is the accumulator at that value
  beside the launch's other scoped buffers; the proof data states each window's block after the body; the body
  obligation is the three symbolic runs put together by cases on the point's position in its contraction; and
  the segment record enters the launch from a thread state holding every unscoped buffer at an entry valuation
  and leaves it at the valuation updated at the result's array.
-/
import proofs.«113214_j66838281060556_2_alg».proof.Proof.KI.R15Run
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

variable (V : (c : Dev nD) → (b : Ref sig .tc) → Buf (Elt F) ((c : Thread nD τ).loc b))

/-! ## The blocks the windows stage -/

/-- Window `w`'s block at point `t`, read off its array as the region finds it. -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- A view of the output's staging buffer and one of the accumulator, through which contents are stated. -/
abbrev VO15 : View sig .tc .vmem S1024x819 .bf16 := (Memref.whole cc15_stg2_0 : Memref sig .tc .vmem S1024x819 .bf16).view

/-! ## What each case leaves -/

/-- The accumulator after a first block. -/
def accA15 (c : Dev nD) (t : Fin cfg15.N) (h0 : t.val % 4 = 0) (h1 : ¬t.val % 4 = 3) : Vec F S1024x819 .f32 :=
  VS15.read (Elt F) (VS15.writes (Elt F) VS15.junk (run15_A c (grid15.coords t) (ms15_0 t) (hs15_0 t) (ms15_1 t) (hs15_1 t) (ms15_2 t) (hs15_2 t) scM15 (Memref.isWhole_whole _) ((hcond15_0 t).mpr h0) (fun h => h1 ((hcond15_1 t).mp h)) (iblk15 V c 0 t) (iblk15 V c 1 t)).1)
/-- The accumulator after a middle block, from what the point before left. -/
def accB15 (c : Dev nD) (t : Fin cfg15.N) (h0 : ¬t.val % 4 = 0) (h1 : ¬t.val % 4 = 3) (xs : Vec F S1024x819 .f32) : Vec F S1024x819 .f32 :=
  VS15.read (Elt F) (VS15.writes (Elt F) VS15.junk (run15_B c (grid15.coords t) (ms15_0 t) (hs15_0 t) (ms15_1 t) (hs15_1 t) (ms15_2 t) (hs15_2 t) scM15 (Memref.isWhole_whole _) (fun h => h0 ((hcond15_0 t).mp h)) (fun h => h1 ((hcond15_1 t).mp h)) (iblk15 V c 0 t) (iblk15 V c 1 t) xs).1)
/-- The accumulator after a last block, -/
def accC15 (c : Dev nD) (t : Fin cfg15.N) (h0 : ¬t.val % 4 = 0) (h1 : t.val % 4 = 3) (xs : Vec F S1024x819 .f32) : Vec F S1024x819 .f32 :=
  VS15.read (Elt F) (VS15.writes (Elt F) VS15.junk (run15_C c (grid15.coords t) (ms15_0 t) (hs15_0 t) (ms15_1 t) (hs15_1 t) (ms15_2 t) (hs15_2 t) scM15 (Memref.isWhole_whole _) (fun h => h0 ((hcond15_0 t).mp h)) ((hcond15_1 t).mpr h1) (iblk15 V c 0 t) (iblk15 V c 1 t) xs).2.1)
/-- and the output block stored there. -/
def outC15 (c : Dev nD) (t : Fin cfg15.N) (h0 : ¬t.val % 4 = 0) (h1 : t.val % 4 = 3) (xs : Vec F S1024x819 .f32) : Vec F S1024x819 .bf16 :=
  VO15.read (Elt F) (VO15.writes (Elt F) VO15.junk (run15_C c (grid15.coords t) (ms15_0 t) (hs15_0 t) (ms15_1 t) (hs15_1 t) (ms15_2 t) (hs15_2 t) scM15 (Memref.isWhole_whole _) (fun h => h0 ((hcond15_0 t).mp h)) ((hcond15_1 t).mpr h1) (iblk15 V c 0 t) (iblk15 V c 1 t) xs).1)

theorem coverA15 (c : Dev nD) (t : Fin cfg15.N) (h0 : t.val % 4 = 0) (h1 : ¬t.val % 4 = 3) (y : S1024x819.Idx) :
    ∃ pc ∈ (run15_A c (grid15.coords t) (ms15_0 t) (hs15_0 t) (ms15_1 t) (hs15_1 t) (ms15_2 t) (hs15_2 t) scM15 (Memref.isWhole_whole _) ((hcond15_0 t).mpr h0) (fun h => h1 ((hcond15_1 t).mp h)) (iblk15 V c 0 t) (iblk15 V c 1 t)).1, y ∈ pc.1.set :=
  View.cover_of_tiledL _ S1024x819.size (by sl_kernel_rfl) y
theorem coverB15 (c : Dev nD) (t : Fin cfg15.N) (h0 : ¬t.val % 4 = 0) (h1 : ¬t.val % 4 = 3) (xs : Vec F S1024x819 .f32) (y : S1024x819.Idx) :
    ∃ pc ∈ (run15_B c (grid15.coords t) (ms15_0 t) (hs15_0 t) (ms15_1 t) (hs15_1 t) (ms15_2 t) (hs15_2 t) scM15 (Memref.isWhole_whole _) (fun h => h0 ((hcond15_0 t).mp h)) (fun h => h1 ((hcond15_1 t).mp h)) (iblk15 V c 0 t) (iblk15 V c 1 t) xs).1, y ∈ pc.1.set :=
  View.cover_of_tiledL _ S1024x819.size (by sl_kernel_rfl) y
theorem coverCs15 (c : Dev nD) (t : Fin cfg15.N) (h0 : ¬t.val % 4 = 0) (h1 : t.val % 4 = 3) (xs : Vec F S1024x819 .f32) (y : S1024x819.Idx) :
    ∃ pc ∈ (run15_C c (grid15.coords t) (ms15_0 t) (hs15_0 t) (ms15_1 t) (hs15_1 t) (ms15_2 t) (hs15_2 t) scM15 (Memref.isWhole_whole _) (fun h => h0 ((hcond15_0 t).mp h)) ((hcond15_1 t).mpr h1) (iblk15 V c 0 t) (iblk15 V c 1 t) xs).2.1, y ∈ pc.1.set :=
  View.cover_of_tiledL _ S1024x819.size (by sl_kernel_rfl) y
theorem coverCo15 (c : Dev nD) (t : Fin cfg15.N) (h0 : ¬t.val % 4 = 0) (h1 : t.val % 4 = 3) (xs : Vec F S1024x819 .f32) (y : S1024x819.Idx) :
    ∃ pc ∈ (run15_C c (grid15.coords t) (ms15_0 t) (hs15_0 t) (ms15_1 t) (hs15_1 t) (ms15_2 t) (hs15_2 t) scM15 (Memref.isWhole_whole _) (fun h => h0 ((hcond15_0 t).mp h)) ((hcond15_1 t).mpr h1) (iblk15 V c 0 t) (iblk15 V c 1 t) xs).1, y ∈ pc.1.set :=
  View.cover_of_tiledL _ S1024x819.size (by sl_kernel_rfl) y

/-! ## The accumulation, point by point -/

/-- What the output's staging buffer (first component; meaningful at a contraction's last block only) and the
    accumulator (second component) hold after the body at position `n`. -/
def outsAt15 (c : Dev nD) : (n : ℕ) → n < cfg15.N → Vec F S1024x819 .bf16 × Vec F S1024x819 .f32
  | 0, hn => (VO15.read (Elt F) VO15.junk, accA15 V c ⟨0, hn⟩ (Nat.zero_mod _) (by simp))
  | n + 1, hn =>
    if h0 : (n + 1) % 4 = 0 then
      if h1 : (n + 1) % 4 = 3 then False.elim (by omega)
      else (VO15.read (Elt F) VO15.junk, accA15 V c ⟨n + 1, hn⟩ h0 h1)
    else
      if h1 : (n + 1) % 4 = 3 then
        (outC15 V c ⟨n + 1, hn⟩ h0 h1 (outsAt15 c n (Nat.lt_of_succ_lt hn)).2, accC15 V c ⟨n + 1, hn⟩ h0 h1 (outsAt15 c n (Nat.lt_of_succ_lt hn)).2)
      else
        (VO15.read (Elt F) VO15.junk, accB15 V c ⟨n + 1, hn⟩ h0 h1 (outsAt15 c n (Nat.lt_of_succ_lt hn)).2)

theorem outsAt15_A (c : Dev nD) (t : Fin cfg15.N) (h0 : t.val % 4 = 0) (h1 : ¬t.val % 4 = 3) :
    outsAt15 V c t.val t.isLt = (VO15.read (Elt F) VO15.junk, accA15 V c t h0 h1) := by
  obtain ⟨n, hn⟩ := t
  cases n with
  | zero => exact rfl
  | succ n => exact (dif_pos h0).trans ((dif_neg h1).trans rfl)

theorem outsAt15_B (c : Dev nD) (t : Fin cfg15.N) (h0 : ¬t.val % 4 = 0) (h1 : ¬t.val % 4 = 3) :
    outsAt15 V c t.val t.isLt = (VO15.read (Elt F) VO15.junk, accB15 V c t h0 h1 (outsAt15 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt15_C (c : Dev nD) (t : Fin cfg15.N) (h0 : ¬t.val % 4 = 0) (h1 : t.val % 4 = 3) :
    outsAt15 V c t.val t.isLt = (outC15 V c t h0 h1 (outsAt15 V c (t.val - 1) (Nat.lt_of_le_of_lt (Nat.sub_le _ _) t.isLt)).2,
      accC15 V c t h0 h1 (outsAt15 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant between points -/

/-- Before the first point the launch's scoped buffers that no window stages, whole; afterwards the accumulator at
    what the point before left, and the other such buffers unopened. -/
def PhiS15 (c : Dev nD) : (n : ℕ) → n ≤ cfg15.N → sProp 𝕄
  | 0, _ => Pipeline.scopedRest (Ix := Unit) (Name := ℕ) (U := UR sig nD τ × Counters) (Lvl := ℕ) (Val := Elt F) spec15 c
  | n + 1, hn => iprop(owns (c : Thread nD τ) scM15 fullShare (outsAt15 V c n hn).2
      ∗ Pipeline.scopedRestBut (Ix := Unit) (Name := ℕ) (U := UR sig nD τ × Counters) (Lvl := ℕ) (Val := Elt F) spec15 c [cc15_scratch0])

theorem PhiS15_pos (c : Dev nD) (n : ℕ) (h : n ≤ cfg15.N) (hz : n ≠ 0) :
    PhiS15 V c n h = iprop(owns (c : Thread nD τ) scM15 fullShare (outsAt15 V c (n - 1) (by omega)).2
      ∗ Pipeline.scopedRestBut (Ix := Unit) (Name := ℕ) (U := UR sig nD τ × Counters) (Lvl := ℕ) (Val := Elt F) spec15 c [cc15_scratch0]) := by
  cases n with
  | zero => exact absurd rfl hz
  | succ n => rfl

/-- The scoped rest with the accumulator split out as a memref owned at some contents. -/
theorem scopedRest15_eq (c : Dev nD) :
    (Pipeline.scopedRest (Ix := Unit) (Name := ℕ) (U := UR sig nD τ × Counters) (Lvl := ℕ) (Val := Elt F) spec15 c : sProp 𝕄)
      = iprop((∃ d, owns (c : Thread nD τ) scM15 fullShare d)
          ∗ Pipeline.scopedRestBut (Ix := Unit) (Name := ℕ) (U := UR sig nD τ × Counters) (Lvl := ℕ) (Val := Elt F) spec15 c [cc15_scratch0]) := by
  rw [scopedRest15_split]; simp only [scM15, owns_whole]; try rfl

/-! ## The proof data -/

def dat15 (c : Dev nD) : Dat τ (Elt F) Unit ℕ (UR sig nD τ × Counters) ℕ cfg15 c where
  A w := V c (Pipeline.arrRef spec15 w)
  after w t := match w with
    | ⟨0, _⟩ => iblk15 V c 0 t
    | ⟨1, _⟩ => iblk15 V c 1 t
    | ⟨2, _⟩ => (outsAt15 V c t.val t.isLt).1
  Φ t := PhiS15 V c t.val (Nat.le_of_lt_succ t.isLt)
  q _ := fullShare
  owed _ := 0

theorem A15_eq (c : Dev nD) (w : Fin cfg15.W) : (dat15 V c).A w = V c (Pipeline.arrRef spec15 w) := by
  dsimp only [dat15]
theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = (outsAt15 V c t.val t.isLt).1 := by dsimp only [dat15]

theorem Phi15_castSucc (c : Dev nD) (t : Fin cfg15.N) :
    (dat15 V c).Φ t.castSucc = PhiS15 V c t.val (Nat.le_of_lt t.isLt) := by
  dsimp only [dat15]; simp only [Fin.coe_castSucc]

/-- Each input window's current staging buffer holds its block at every point, fetched there or not. -/
theorem before15_0 (c : Dev nD) (t : Fin cfg15.N) (d) : (dat15 V c).before 0 t d = iblk15 V c 0 t :=
  ((dat15 V c).before_in_eq_fetched 0 rfl (fun _ => rfl) (fun _ _ _ => rfl) (fun t => by rw [after15_0]; unfold Dat.blockOf iblk15; rw [A15_eq]; try rfl) t d).trans
    (by unfold Dat.fetched Dat.blockOf iblk15; rw [A15_eq]; try rfl)
theorem before15_1 (c : Dev nD) (t : Fin cfg15.N) (d) : (dat15 V c).before 1 t d = iblk15 V c 1 t :=
  ((dat15 V c).before_in_eq_fetched 1 rfl (fun _ => rfl) (fun _ _ _ => rfl) (fun t => by rw [after15_1]; unfold Dat.blockOf iblk15; rw [A15_eq]; try rfl) t d).trans
    (by unfold Dat.fetched Dat.blockOf iblk15; rw [A15_eq]; try rfl)

/-! ## The body obligation at a generic point -/

def bodyPre15 (c : Dev nD) (t : Fin cfg15.N) : sProp 𝕄 :=
  iprop((dat15 V c).Φ t.castSucc ∗ (dat15 V c).owesAt () t.castSucc
    ∗ (∃ d, owns (c : Thread nD τ) (ms15_0 t) fullShare ((dat15 V c).before 0 t d))
    ∗ (∃ d, owns (c : Thread nD τ) (ms15_1 t) fullShare ((dat15 V c).before 1 t d))
    ∗ (∃ d, owns (c : Thread nD τ) (ms15_2 t) fullShare ((dat15 V c).before 2 t d)))

def bodyPost15 (c : Dev nD) (t : Fin cfg15.N) : sProp 𝕄 :=
  iprop((dat15 V c).Φ t.succ ∗ (dat15 V c).owesAt () t.succ
    ∗ (dat15 V c).leavesExact 0 t ∗ (dat15 V c).leavesExact 1 t ∗ (dat15 V c).leavesExact 2 t)

set_option maxHeartbeats 4000000 in
/-- The body at any point. The three input buffers hold their blocks; the point's position in its contraction
    selects the case; the invariant hands over the accumulator (at anything before the very first point, else at
    what the point before left) and takes it back at this point's contents; an idle output buffer is handed back
    as found, a stored one at the case's block; the core owes nothing throughout. -/
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1]
  rw [show (dat15 V c).owesAt () t.succ = (dat15 V c).owesAt () t.castSucc from rfl]
  rw [show (dat15 V c).Φ t.succ = iprop(owns (c : Thread nD τ) scM15 fullShare (outsAt15 V c t.val t.isLt).2
      ∗ Pipeline.scopedRestBut (Ix := Unit) (Name := ℕ) (U := UR sig nD τ × Counters) (Lvl := ℕ) (Val := Elt F) spec15 c [cc15_scratch0]) from rfl]
  have hN : t.val < 16 := lt_of_lt_of_eq t.isLt (show cfg15.N = 16 from N_15)
  rw [show (dat15 V c).leavesExact 0 t = owns (c : Thread nD τ) (ms15_0 t) fullShare (iblk15 V c 0 t) from by
    unfold Dat.leavesExact; rw [liveAt15_0 t, after15_0]]
  rw [show (dat15 V c).leavesExact 1 t = owns (c : Thread nD τ) (ms15_1 t) fullShare (iblk15 V c 1 t) from by
    unfold Dat.leavesExact; rw [liveAt15_1 t, after15_1]]
  rw [Phi15_castSucc V c t]
  by_cases h1 : t.val % 4 = 3
  · -- the last block of a contraction
    have h0 : ¬t.val % 4 = 0 := by omega
    have hz : t.val ≠ 0 := by omega
    rw [show (dat15 V c).leavesExact 2 t = owns (c : Thread nD τ) (ms15_2 t) fullShare (outsAt15 V c t.val t.isLt).1 from by
      unfold Dat.leavesExact; rw [liveAt15_2 t ((hcond15_1 t).mpr h1), after15_2]]
    rw [outsAt15_C V c t h0 h1, PhiS15_pos V c _ _ hz]
    dsimp only
    unfold outC15 accC15
    iintro ⟨⟨HS, Hb⟩, Ho, ⟨%d0, H0⟩, ⟨%d1, H1⟩, ⟨%d3, H3⟩⟩
    iapply ((run15_C c (grid15.coords t) (ms15_0 t) (hs15_0 t) (ms15_1 t) (hs15_1 t) (ms15_2 t) (hs15_2 t) scM15 (Memref.isWhole_whole _) (fun h => h0 ((hcond15_0 t).mp h)) ((hcond15_1 t).mpr h1) (iblk15 V c 0 t) (iblk15 V c 1 t) _).2.2 Set.univ _)
    isplitl [H0]; · iexact H0
    isplitl [H1]; · iexact H1
    isplitl [H3]; · iexists _; iexact H3
    isplitl [HS]; · iexact HS
    iintro ⟨H0, H1, ⟨%e3, H3⟩, ⟨%es, HS⟩⟩
    isplitl [HS Hb]
    · isplitl [HS]
      · unfold owns; iexists _; isplitr
        swap; · iexact HS
        ipureintro; exact View.read_writes_of_cover _ _ _ _ _ (coverCs15 V c t h0 h1 _)
      iexact Hb
    isplitl [Ho]; · iexact Ho
    isplitl [H0]; · iexact H0
    isplitl [H1]; · iexact H1
    unfold owns; iexists _; isplitr
    swap; · iexact H3
    ipureintro; exact View.read_writes_of_cover _ _ _ _ _ (coverCo15 V c t h0 h1 _)
  · rw [Dat.leavesExact_idle (dat15 V c) 2 t (idleAt15_2 t (fun h => h1 ((hcond15_1 t).mp h))) (noFlush15_2 t (fun h => h1 ((hcond15_1 t).mp h)))]
    by_cases h0 : t.val % 4 = 0
    · -- the first block of a contraction
      rw [outsAt15_A V c t h0 h1]
      dsimp only
      unfold accA15
      by_cases hz : t.val = 0
      · rw [show PhiS15 V c t.val (Nat.le_of_lt t.isLt) = Pipeline.scopedRest (Ix := Unit) (Name := ℕ) (U := UR sig nD τ × Counters) (Lvl := ℕ) (Val := Elt F) spec15 c from by
          obtain ⟨n, hn⟩ := t; dsimp only at hz; subst hz; rfl, scopedRest15_eq]
        iintro ⟨⟨HS, Hb⟩, Ho, ⟨%d0, H0⟩, ⟨%d1, H1⟩, ⟨%d3, H3⟩⟩
        iapply ((run15_A c (grid15.coords t) (ms15_0 t) (hs15_0 t) (ms15_1 t) (hs15_1 t) (ms15_2 t) (hs15_2 t) scM15 (Memref.isWhole_whole _) ((hcond15_0 t).mpr h0) (fun h => h1 ((hcond15_1 t).mp h)) (iblk15 V c 0 t) (iblk15 V c 1 t)).2 _ Set.univ _)
        isplitl [H0]; · iexact H0
        isplitl [H1]; · iexact H1
        isplitl [H3]; · iexact H3
        isplitl [HS]; · iexact HS
        iintro ⟨H0, H1, H3, ⟨%es, HS⟩⟩
        isplitl [HS Hb]
        · isplitl [HS]
          · unfold owns; iexists _; isplitr
            swap; · iexact HS
            ipureintro; exact View.read_writes_of_cover _ _ _ _ _ (coverA15 V c t h0 h1)
          iexact Hb
        isplitl [Ho]; · iexact Ho
        isplitl [H0]; · iexact H0
        isplitl [H1]; · iexact H1
        iexists _; iexact H3
      · rw [PhiS15_pos V c _ _ hz]
        iintro ⟨⟨HS, Hb⟩, Ho, ⟨%d0, H0⟩, ⟨%d1, H1⟩, ⟨%d3, H3⟩⟩
        iapply ((run15_A c (grid15.coords t) (ms15_0 t) (hs15_0 t) (ms15_1 t) (hs15_1 t) (ms15_2 t) (hs15_2 t) scM15 (Memref.isWhole_whole _) ((hcond15_0 t).mpr h0) (fun h => h1 ((hcond15_1 t).mp h)) (iblk15 V c 0 t) (iblk15 V c 1 t)).2 _ Set.univ _)
        isplitl [H0]; · iexact H0
        isplitl [H1]; · iexact H1
        isplitl [H3]; · iexact H3
        isplitl [HS]; · iexists _; iexact HS
        iintro ⟨H0, H1, H3, ⟨%es, HS⟩⟩
        isplitl [HS Hb]
        · isplitl [HS]
          · unfold owns; iexists _; isplitr
            swap; · iexact HS
            ipureintro; exact View.read_writes_of_cover _ _ _ _ _ (coverA15 V c t h0 h1)
          iexact Hb
        isplitl [Ho]; · iexact Ho
        isplitl [H0]; · iexact H0
        isplitl [H1]; · iexact H1
        iexists _; iexact H3
    · -- a middle block
      have hz : t.val ≠ 0 := by omega
      rw [outsAt15_B V c t h0 h1, PhiS15_pos V c _ _ hz]
      dsimp only
      unfold accB15
      iintro ⟨⟨HS, Hb⟩, Ho, ⟨%d0, H0⟩, ⟨%d1, H1⟩, ⟨%d3, H3⟩⟩
      iapply ((run15_B c (grid15.coords t) (ms15_0 t) (hs15_0 t) (ms15_1 t) (hs15_1 t) (ms15_2 t) (hs15_2 t) scM15 (Memref.isWhole_whole _) (fun h => h0 ((hcond15_0 t).mp h)) (fun h => h1 ((hcond15_1 t).mp h)) (iblk15 V c 0 t) (iblk15 V c 1 t) _).2 _ Set.univ _)
      isplitl [H0]; · iexact H0
      isplitl [H1]; · iexact H1
      isplitl [H3]; · iexact H3
      isplitl [HS]; · iexact HS
      iintro ⟨H0, H1, H3, ⟨%es, HS⟩⟩
      isplitl [HS Hb]
      · isplitl [HS]
        · unfold owns; iexists _; isplitr
          swap; · iexact HS
          ipureintro; exact View.read_writes_of_cover _ _ _ _ _ (coverB15 V c t h0 h1 _)
        iexact Hb
      isplitl [Ho]; · iexact Ho
      isplitl [H0]; · iexact H0
      isplitl [H1]; · iexact H1
      iexists _; iexact H3

theorem body_obligation15 (c : Dev nD) : BodyObligation (dat15 V c) (defs₀ (F := F)) Variants.none () Set.univ := fun t => by
  rw [bigSep_W15, bigSep_W15]
  exact sound_body15 V c t

/-! ## The region over the thread state -/

variable (Vp : (c : Dev nD) → (b : Ref sig .tc) → Buf (Elt F) ((c : Thread nD τ).loc b))
variable (pdats : (p : Fin 22) → (c : Dev nD) → Dat τ (Elt F) Unit ℕ (UR sig nD τ × Counters) ℕ (cfgs p) c)

/-- The result's array after the region, as the pipeline library computes it from the proof data. -/
def out15 (c : Dev nD) : Buf (Elt F) ((c : Thread nD τ).loc main_v33) := (dat15 V c).arrAt 2 cfg15.N

set_option backward.isDefEq.respectTransparency.types false in
set_option maxHeartbeats 2000000 in
/-- Launch 15 over the thread state "every unscoped buffer at `V c`, the core owing nothing": entered by
    splitting its three arrays out of the unscoped buffers, left with them put back at `Vp c`, which has the
    result's array at `out15` and agrees with `V c` elsewhere. -/
def reg15 (hp : ∀ c, pdats 15 c = dat15 V c)
    (hVp_out : ∀ c, Vp c main_v33 = out15 V c)
    (hVp_ne : ∀ c (b : Ref sig .tc), b ≠ main_v33 → Vp c b = V c b) :
    Pipeline.RegionSeg (pcfgs (F := F)) (fun p => (cfgs p).toPCfg_adm) pdats () defs₀ Variants.none (fun _ => (∅ : Finset Unit)) (fun _ _ => (0 : ℕ)) 15 where
  win := launch15.win.to₀
  block_pos := launch15.block_pos
  stage_whole := launch15.stage_whole
  K := PEmpty
  osem k := k.elim
  ho := Pipeline.OwnSemFacts.none _
  hbody c := by rw [hp c]; exact (body_obligation15 V c).loose
  hwaits := Pipeline.hwaits_of_owed_zero _ _ _ _ _ _ 15 fun c t => by rw [hp c]; rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ × Counters) (Lvl := ℕ) spec15 c (V c)
  hentry c := by
    rw [Pipeline.ownSems0_none]
    have hsplit := Pipeline.arrays_of_unscopedBufs (p := 15) (pcfgs (F := F)) (fun p => (cfgs p).toPCfg_adm) pdats launch15.win launch15.arr_whole c
      ((pdats 15 c).share_full fun w => by rw [hp c]; rfl) (V c) (fun w => by rw [hp c]; rfl)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hp c]
      unfold Pipeline.Dat.owesAt Pipeline.owesWithin
      icases HO with ⟨%W, HO⟩; iexists W; isplitr; · ipureintro; exact fun _ _ => Or.inl trivial
      iexact HO
    isplitr; · iempintro
    iexact Hrest
  hin c := by
    rw [hp c, show (dat15 V c).Φ 0 = Pipeline.scopedRest (Ix := Unit) (Name := ℕ) (U := UR sig nD τ × Counters) (Lvl := ℕ) (Val := Elt F) spec15 c from rfl]
    iintro ⟨-, -, Hr⟩; iexact Hr
  hout c := by
    rw [Pipeline.ownSems0_none, hp c]
    refine (Entails.of_eq ((show (dat15 V c).Φ (Fin.last _) = PhiS15 V c (Fin.last cfg15.N).val (Nat.le_of_lt_succ (Fin.last cfg15.N).isLt) from rfl).trans
      (PhiS15_pos V c _ _ (by rw [Fin.val_last]; have : cfg15.N = 16 := N_15; omega)))).trans ?_
    change _ ⊢ iprop(BI.emp ∗ BI.emp ∗ Pipeline.scopedRest (Ix := Unit) (Name := ℕ) (U := UR sig nD τ × Counters) (Lvl := ℕ) (Val := Elt F) spec15 c)
    rw [scopedRest15_eq]
    iintro ⟨HS, Hb⟩
    isplitr; · iempintro
    isplitr; · iempintro
    isplitl [HS]; · iexists _; iexact HS
    iexact Hb
  hexit c := by
    have hjoin := Pipeline.unscopedBufs_of_arrays (p := 15) (pcfgs (F := F)) (fun p => (cfgs p).toPCfg_adm) (Ix := Unit) (Name := ℕ) (U := UR sig nD τ × Counters) (Lvl := ℕ) launch15.win launch15.arr_whole c
      pdats ((pdats 15 c).share_full fun w => by rw [hp c]; rfl) (V c) (Vp c) ((pdats 15 c).arrAt · cfg15.N)
      (fun w => by
        fin_cases w
        · exact (((pdats 15 c).arrAt_in 0 rfl _).trans (by rw [hp c]; rfl)).trans (hVp_ne c main_v0 (by decide)).symm
        · exact (((pdats 15 c).arrAt_in 1 rfl _).trans (by rw [hp c]; rfl)).trans (hVp_ne c main_v32 (by decide)).symm
        · exact (by rw [hp c]; rfl : (pdats 15 c).arrAt 2 cfg15.N = out15 V c).trans (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W
    rw [show (pdats 15 c).owed (Fin.last _) = 0 from by rw [hp c]; rfl]
    iexact HO

end Cert.KernelIdeal.Hand

end
-- ==== Proof.KI.R16Base.lean ====
/-
  Launch 16 of the program: one matrix product per grid point — the contraction is a single block —, a bias row
  added and tanh applied, the output block stored at every point. The grid's third coordinate is always 0, so both
  conditions of the body — "the contraction's first block" and "its last block" — hold at every point: this module
  decides them over the grid's points, records that no window is ever idle, and names the staging memrefs the body
  is called with.
-/
import proofs.«113214_j66838281060556_2_alg».proof.Proof.Gen.KernelIdeal.Launch
import proofs.«113214_j66838281060556_2_alg».proof.Proof.Gen.KernelIdeal.Skeleton
import proofs.«113214_j66838281060556_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

/-- The accumulator is reset: the point starts a contraction (third grid coordinate 0). Here the third axis has one
    coordinate, so every point does. -/
abbrev cond16_0 (i : grid16.Coords) : Prop := (Scalar.cmpi .ne (Scalar.extui (Scalar.cmpi .eq (BitVec.ofNat 32 (i 2).val) 0#32)) 0#32) = 1#1
theorem hcond16_0 : ∀ t : Fin cfg16.N, cond16_0 (grid16.coords t) :=
  (by decide +kernel : ∀ t : Fin grid16.N, cond16_0 (grid16.coords t))

/-- The result is stored: the point ends a contraction. Every point does. -/
abbrev cond16_1 (i : grid16.Coords) : Prop := k16_cond2 i = 1#1
theorem hcond16_1 : ∀ t : Fin cfg16.N, cond16_1 (grid16.coords t) :=
  (by decide +kernel : ∀ t : Fin grid16.N, cond16_1 (grid16.coords t))

/-- No window is idle at any point: the three inputs never, the output because every point stores. -/
theorem liveAt16_0 : ∀ t : Fin cfg16.N, cfg16.idle 0 (grid16.coords t) = false := by decide +kernel
theorem liveAt16_1 : ∀ t : Fin cfg16.N, cfg16.idle 1 (grid16.coords t) = false := by decide +kernel
theorem liveAt16_2 : ∀ t : Fin cfg16.N, cfg16.idle 2 (grid16.coords t) = false := by decide +kernel
theorem liveAt16_3 : ∀ t : Fin cfg16.N, cfg16.idle 3 (grid16.coords t) = false := by decide +kernel

/-- Each window's current staging memref at a point, as the pipeline passes it, and its wholeness. -/
abbrev ms16_0 (t : Fin cfg16.N) : Memref sig .tc .vmem S1024x819 .bf16 := win16_0.stage (cfg16.slots t 0)
abbrev hs16_0 (t : Fin cfg16.N) : (ms16_0 t).IsWhole := hstage16_0 ((cfg16.slots t 0).cast nbuf16_0)
abbrev ms16_1 (t : Fin cfg16.N) : Memref sig .tc .vmem S819x1024 .f32 := win16_1.stage (cfg16.slots t 1)
abbrev hs16_1 (t : Fin cfg16.N) : (ms16_1 t).IsWhole := hstage16_1 ((cfg16.slots t 1).cast nbuf16_1)
abbrev ms16_2 (t : Fin cfg16.N) : Memref sig .tc .vmem S1x1024 .f32 := win16_2.stage (cfg16.slots t 2)
abbrev hs16_2 (t : Fin cfg16.N) : (ms16_2 t).IsWhole := hstage16_2 ((cfg16.slots t 2).cast nbuf16_2)
abbrev ms16_3 (t : Fin cfg16.N) : Memref sig .tc .vmem S1024x1024 .f32 := win16_3.stage (cfg16.slots t 3)
abbrev hs16_3 (t : Fin cfg16.N) : (ms16_3 t).IsWhole := hstage16_3 ((cfg16.slots t 3).cast nbuf16_3)
/-- The accumulator: a whole scoped buffer of the launch's own. -/
abbrev scM16 : Memref sig .tc .vmem S1024x1024 .f32 := Memref.whole cc16_scratch0
abbrev VS16 : View sig .tc .vmem S1024x1024 .f32 := scM16.view

end Cert.KernelIdeal.Hand

end
-- ==== Proof.KI.R16Run.lean ====
/-
  Launch 16, the body run symbolically in its one control case: the accumulator reset, the product added, the bias
  row added and tanh applied into the output block. The run's witnesses are the lists of pieces its stores leave in
  the output block and in the accumulator.
-/
import proofs.«113214_j66838281060556_2_alg».proof.Proof.KI.R16Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

set_option maxHeartbeats 2000000 in
/-- The body at a point, run symbolically: the accumulator, found at anything, is reset to zero and ends at the
    product of the two input blocks added to zero; the output block, found at anything, is stored whole: tanh of
    that sum plus the bias row. The witnesses are the pieces the stores leave in the output block and in the
    accumulator. -/
noncomputable def run16 (c : Dev nD) (i : grid16.Coords) (arg3 : Memref sig .tc .vmem S1024x819 .bf16) (harg3 : arg3.IsWhole) (arg4 : Memref sig .tc .vmem S819x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond16_0 i) (hc1 : cond16_1 i)
    (x0 : Vec F S1024x819 .bf16) (x1 : Vec F S819x1024 .f32) (x2 : Vec F S1x1024 .f32) :
    Σ' (LO : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LS)) -∗ K ⟨⟩))
          ⊢ wp frame (wpE (defs₀ (F := F)) Variants.none c none) E (cc16__mm_kernel i arg3 harg3 arg4 harg4 arg5 harg5 arg6 harg6 arg7 harg7) K } := by
  refine ⟨?_, ?_, fun E K => ?run⟩
  case run =>
    simp only [cc16__mm_kernel_eq_skeleton]; unfold cc16__mm_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    iexists _; iexact HS

end Cert.KernelIdeal.Hand

end
-- ==== Proof.KI.R16.lean ====
/-
  Launch 16 as a region of the program. The blocks the windows stage are read off the arrays as the region finds
  them; a point stores the output block its run leaves; the accumulator is reset at every point, so between points
  the launch's scoped buffers that no window stages are simply held whole at anything; the body obligation follows
  from the one symbolic run; and the region is stated over the thread state "every unscoped buffer at given
  contents, the core owing nothing", entered by splitting its arrays out and left with the result's array
  at what the pipeline computes from the stored blocks.
-/
import proofs.«113214_j66838281060556_2_alg».proof.Proof.KI.R16Run
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

variable (V : (c : Dev nD) → (b : Ref sig .tc) → Buf (Elt F) ((c : Thread nD τ).loc b))

/-! ## The blocks the windows stage -/

/-- Window `w`'s block at point `t`, read off its array as the region finds it. -/
def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-- A view of the output's staging buffer, through which contents are stated. -/
abbrev VO16 : View sig .tc .vmem S1024x1024 .f32 := (Memref.whole cc16_stg3_0 : Memref sig .tc .vmem S1024x1024 .f32).view

/-! ## What a point leaves -/

/-- The output block a point stores: what the run's pieces leave, read through the staging buffer's view. -/
def out16 (c : Dev nD) (t : Fin cfg16.N) : Vec F S1024x1024 .f32 :=
  VO16.read (Elt F) (VO16.writes (Elt F) VO16.junk (run16 c (grid16.coords t) (ms16_0 t) (hs16_0 t) (ms16_1 t) (hs16_1 t) (ms16_2 t) (hs16_2 t) (ms16_3 t) (hs16_3 t) scM16 (Memref.isWhole_whole _) (hcond16_0 t) (hcond16_1 t) (iblk16 V c 0 t) (iblk16 V c 1 t) (iblk16 V c 2 t)).1)

/-- The stores into the output block cover it. -/
theorem coverO16 (c : Dev nD) (t : Fin cfg16.N) (y : S1024x1024.Idx) :
    ∃ pc ∈ (run16 c (grid16.coords t) (ms16_0 t) (hs16_0 t) (ms16_1 t) (hs16_1 t) (ms16_2 t) (hs16_2 t) (ms16_3 t) (hs16_3 t) scM16 (Memref.isWhole_whole _) (hcond16_0 t) (hcond16_1 t) (iblk16 V c 0 t) (iblk16 V c 1 t) (iblk16 V c 2 t)).1, y ∈ pc.1.set :=
  View.cover_of_tiledL _ S1024x1024.size (by sl_kernel_rfl) y

/-! ## The invariant between points -/

/-- The scoped rest with the accumulator split out as a memref owned at some contents. The accumulator is reset at
    every point, so the invariant between points is the scoped rest itself, the accumulator at anything. -/
theorem scopedRest16_eq (c : Dev nD) :
    (Pipeline.scopedRest (Ix := Unit) (Name := ℕ) (U := UR sig nD τ × Counters) (Lvl := ℕ) (Val := Elt F) spec16 c : sProp 𝕄)
      = iprop((∃ d, owns (c : Thread nD τ) scM16 fullShare d)
          ∗ Pipeline.scopedRestBut (Ix := Unit) (Name := ℕ) (U := UR sig nD τ × Counters) (Lvl := ℕ) (Val := Elt F) spec16 c [cc16_scratch0]) := by
  rw [scopedRest16_split]; simp only [scM16, owns_whole]; try rfl

/-! ## The proof data -/

def dat16 (c : Dev nD) : Dat τ (Elt F) Unit ℕ (UR sig nD τ × Counters) ℕ cfg16 c where
  A w := V c (Pipeline.arrRef spec16 w)
  after w t := match w with
    | ⟨0, _⟩ => iblk16 V c 0 t
    | ⟨1, _⟩ => iblk16 V c 1 t
    | ⟨2, _⟩ => iblk16 V c 2 t
    | ⟨3, _⟩ => out16 V c t
  Φ _ := Pipeline.scopedRest (Ix := Unit) (Name := ℕ) (U := UR sig nD τ × Counters) (Lvl := ℕ) (Val := Elt F) spec16 c
  q _ := fullShare
  owed _ := 0

theorem A16_eq (c : Dev nD) (w : Fin cfg16.W) : (dat16 V c).A w = V c (Pipeline.arrRef spec16 w) := by
  dsimp only [dat16]
theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = iblk16 V c 2 t := by dsimp only [dat16]
theorem after16_3 (c : Dev nD) (t : Fin cfg16.N) : (dat16 V c).after 3 t = out16 V c t := by dsimp only [dat16]

/-- Each input window's current staging buffer holds its block at every point, fetched there or not. -/
theorem before16_0 (c : Dev nD) (t : Fin cfg16.N) (d) : (dat16 V c).before 0 t d = iblk16 V c 0 t :=
  ((dat16 V c).before_in_eq_fetched 0 rfl (fun _ => rfl) (fun _ _ _ => rfl) (fun t => by rw [after16_0]; unfold Dat.blockOf iblk16; rw [A16_eq]; try rfl) t d).trans
    (by unfold Dat.fetched Dat.blockOf iblk16; rw [A16_eq]; try rfl)
theorem before16_1 (c : Dev nD) (t : Fin cfg16.N) (d) : (dat16 V c).before 1 t d = iblk16 V c 1 t :=
  ((dat16 V c).before_in_eq_fetched 1 rfl (fun _ => rfl) (fun _ _ _ => rfl) (fun t => by rw [after16_1]; unfold Dat.blockOf iblk16; rw [A16_eq]; try rfl) t d).trans
    (by unfold Dat.fetched Dat.blockOf iblk16; rw [A16_eq]; try rfl)
theorem before16_2 (c : Dev nD) (t : Fin cfg16.N) (d) : (dat16 V c).before 2 t d = iblk16 V c 2 t :=
  ((dat16 V c).before_in_eq_fetched 2 rfl (fun _ => rfl) (fun _ _ _ => rfl) (fun t => by rw [after16_2]; unfold Dat.blockOf iblk16; rw [A16_eq]; try rfl) t d).trans
    (by unfold Dat.fetched Dat.blockOf iblk16; rw [A16_eq]; try rfl)

/-! ## The body obligation at a generic point -/

def bodyPre16 (c : Dev nD) (t : Fin cfg16.N) : sProp 𝕄 :=
  iprop((dat16 V c).Φ t.castSucc ∗ (dat16 V c).owesAt () t.castSucc
    ∗ (∃ d, owns (c : Thread nD τ) (ms16_0 t) fullShare ((dat16 V c).before 0 t d))
    ∗ (∃ d, owns (c : Thread nD τ) (ms16_1 t) fullShare ((dat16 V c).before 1 t d))
    ∗ (∃ d, owns (c : Thread nD τ) (ms16_2 t) fullShare ((dat16 V c).before 2 t d))
    ∗ (∃ d, owns (c : Thread nD τ) (ms16_3 t) fullShare ((dat16 V c).before 3 t d)))

def bodyPost16 (c : Dev nD) (t : Fin cfg16.N) : sProp 𝕄 :=
  iprop((dat16 V c).Φ t.succ ∗ (dat16 V c).owesAt () t.succ
    ∗ (dat16 V c).leavesExact 0 t ∗ (dat16 V c).leavesExact 1 t ∗ (dat16 V c).leavesExact 2 t ∗ (dat16 V c).leavesExact 3 t)

set_option maxHeartbeats 4000000 in
/-- The body at any point. The input buffers hold their blocks; the invariant hands over the accumulator at
    anything and takes it back at anything; the output buffer, found at anything, is handed back at the block the
    point stores; the core owes nothing throughout. -/
theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1, before16_2]
  rw [show (dat16 V c).owesAt () t.succ = (dat16 V c).owesAt () t.castSucc from rfl]
  rw [show (dat16 V c).Φ t.succ = Pipeline.scopedRest (Ix := Unit) (Name := ℕ) (U := UR sig nD τ × Counters) (Lvl := ℕ) (Val := Elt F) spec16 c from rfl,
    show (dat16 V c).Φ t.castSucc = Pipeline.scopedRest (Ix := Unit) (Name := ℕ) (U := UR sig nD τ × Counters) (Lvl := ℕ) (Val := Elt F) spec16 c from rfl]
  rw [show (dat16 V c).leavesExact 0 t = owns (c : Thread nD τ) (ms16_0 t) fullShare (iblk16 V c 0 t) from by
    unfold Dat.leavesExact; rw [liveAt16_0 t, after16_0]]
  rw [show (dat16 V c).leavesExact 1 t = owns (c : Thread nD τ) (ms16_1 t) fullShare (iblk16 V c 1 t) from by
    unfold Dat.leavesExact; rw [liveAt16_1 t, after16_1]]
  rw [show (dat16 V c).leavesExact 2 t = owns (c : Thread nD τ) (ms16_2 t) fullShare (iblk16 V c 2 t) from by
    unfold Dat.leavesExact; rw [liveAt16_2 t, after16_2]]
  rw [show (dat16 V c).leavesExact 3 t = owns (c : Thread nD τ) (ms16_3 t) fullShare (out16 V c t) from by
    unfold Dat.leavesExact; rw [liveAt16_3 t, after16_3]]
  rw [scopedRest16_eq]
  unfold out16
  iintro ⟨⟨HS, Hb⟩, Ho, ⟨%d0, H0⟩, ⟨%d1, H1⟩, ⟨%d2, H2⟩, ⟨%d3, H3⟩⟩
  iapply ((run16 c (grid16.coords t) (ms16_0 t) (hs16_0 t) (ms16_1 t) (hs16_1 t) (ms16_2 t) (hs16_2 t) (ms16_3 t) (hs16_3 t) scM16 (Memref.isWhole_whole _) (hcond16_0 t) (hcond16_1 t) (iblk16 V c 0 t) (iblk16 V c 1 t) (iblk16 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS Hb]
  · isplitl [HS]
    · iexists _; unfold owns; iexists _; isplitr
      swap; · iexact HS
      ipureintro; rfl
    iexact Hb
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (coverO16 V c t)

theorem body_obligation16 (c : Dev nD) : BodyObligation (dat16 V c) (defs₀ (F := F)) Variants.none () Set.univ := fun t => by
  rw [bigSep_W16, bigSep_W16]
  exact sound_body16 V c t

/-! ## The region over the thread state -/

variable (Vp : (c : Dev nD) → (b : Ref sig .tc) → Buf (Elt F) ((c : Thread nD τ).loc b))
variable (pdats : (p : Fin 22) → (c : Dev nD) → Dat τ (Elt F) Unit ℕ (UR sig nD τ × Counters) ℕ (cfgs p) c)

/-- The result's array after the region, as the pipeline library computes it from the proof data. -/
def out16arr (c : Dev nD) : Buf (Elt F) ((c : Thread nD τ).loc main_v35) := (dat16 V c).arrAt 3 cfg16.N

set_option backward.isDefEq.respectTransparency.types false in
set_option maxHeartbeats 2000000 in
/-- Launch 16 over the thread state "every unscoped buffer at `V c`, the core owing nothing": entered by
    splitting its arrays out of the unscoped buffers, left with them put back at `Vp c`, which has the
    result's array at `out16arr` and agrees with `V c` elsewhere. -/
def reg16 (hp : ∀ c, pdats 16 c = dat16 V c)
    (hVp_out : ∀ c, Vp c main_v35 = out16arr V c)
    (hVp_ne : ∀ c (b : Ref sig .tc), b ≠ main_v35 → Vp c b = V c b) :
    Pipeline.RegionSeg (pcfgs (F := F)) (fun p => (cfgs p).toPCfg_adm) pdats () defs₀ Variants.none (fun _ => (∅ : Finset Unit)) (fun _ _ => (0 : ℕ)) 16 where
  win := launch16.win.to₀
  block_pos := launch16.block_pos
  stage_whole := launch16.stage_whole
  K := PEmpty
  osem k := k.elim
  ho := Pipeline.OwnSemFacts.none _
  hbody c := by rw [hp c]; exact (body_obligation16 V c).loose
  hwaits := Pipeline.hwaits_of_owed_zero _ _ _ _ _ _ 16 fun c t => by rw [hp c]; rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ × Counters) (Lvl := ℕ) spec16 c (V c)
  hentry c := by
    rw [Pipeline.ownSems0_none]
    have hsplit := Pipeline.arrays_of_unscopedBufs (p := 16) (pcfgs (F := F)) (fun p => (cfgs p).toPCfg_adm) pdats launch16.win launch16.arr_whole c
      ((pdats 16 c).share_full fun w => by rw [hp c]; rfl) (V c) (fun w => by rw [hp c]; rfl)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hp c]; exact trivial)
      rw [show (pdats 16 c).owed 0 = 0 from by rw [hp c]; rfl]
      iexact HO
    isplitr; · iempintro
    iexact Hrest
  hin c := by
    rw [hp c, show (dat16 V c).Φ 0 = Pipeline.scopedRest (Ix := Unit) (Name := ℕ) (U := UR sig nD τ × Counters) (Lvl := ℕ) (Val := Elt F) spec16 c from rfl]
    iintro ⟨-, -, Hr⟩; iexact Hr
  hout c := by
    rw [Pipeline.ownSems0_none, hp c]
    change (Pipeline.scopedRest (Ix := Unit) (Name := ℕ) (U := UR sig nD τ × Counters) (Lvl := ℕ) (Val := Elt F) spec16 c : sProp 𝕄) ⊢ _
    iintro Hr
    isplitr; · iempintro
    isplitr; · iempintro
    iexact Hr
  hexit c := by
    have hjoin := Pipeline.unscopedBufs_of_arrays (p := 16) (pcfgs (F := F)) (fun p => (cfgs p).toPCfg_adm) (Ix := Unit) (Name := ℕ) (U := UR sig nD τ × Counters) (Lvl := ℕ) launch16.win launch16.arr_whole c
      pdats ((pdats 16 c).share_full fun w => by rw [hp c]; rfl) (V c) (Vp c) ((pdats 16 c).arrAt · cfg16.N)
      (fun w => by
        fin_cases w
        · exact (((pdats 16 c).arrAt_in 0 rfl _).trans (by rw [hp c]; rfl)).trans (hVp_ne c main_v33 (by decide)).symm
        · exact (((pdats 16 c).arrAt_in 1 rfl _).trans (by rw [hp c]; rfl)).trans (hVp_ne c main_arg15 (by decide)).symm
        · exact (((pdats 16 c).arrAt_in 2 rfl _).trans (by rw [hp c]; rfl)).trans (hVp_ne c main_v34 (by decide)).symm
        · exact (by rw [hp c]; rfl : (pdats 16 c).arrAt 3 cfg16.N = out16arr V c).trans (hVp_out c).symm)
      (fun b hb => hVp_ne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W
    rw [show (pdats 16 c).owed (Fin.last _) = 0 from by rw [hp c]; rfl]
    iexact HO

end Cert.KernelIdeal.Hand

end
-- ==== Proof.KI.R17Base.lean ====
/-
  Launch 17 of the program: one matrix product per grid point — the contraction is a single block —, from which the
  output block is stored at every point. The grid's third coordinate is always 0, so both conditions of the body —
  "the contraction's first block" and "its last block" — hold at every point: this module decides them over the
  grid's points, records that no window is ever idle, and names the staging memrefs the body is called with.
-/
import proofs.«113214_j66838281060556_2_alg».proof.Proof.Gen.KernelIdeal.Launch
import proofs.«113214_j66838281060556_2_alg».proof.Proof.Gen.KernelIdeal.Skeleton
import proofs.«113214_j66838281060556_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

/-- The accumulator is reset: the point starts a contraction (third grid coordinate 0). Here the third axis has one
    coordinate, so every point does. -/
abbrev cond17_0 (i : grid17.Coords) : Prop := (Scalar.cmpi .ne (Scalar.extui (Scalar.cmpi .eq (BitVec.ofNat 32 (i 2).val) 0#32)) 0#32) = 1#1
theorem hcond17_0 : ∀ t : Fin cfg17.N, cond17_0 (grid17.coords t) :=
  (by decide +kernel : ∀ t : Fin grid17.N, cond17_0 (grid17.coords t))

/-- The result is stored: the point ends a contraction. Every point does. -/
abbrev cond17_1 (i : grid17.Coords) : Prop := k17_cond2 i = 1#1
theorem hcond17_1 : ∀ t : Fin cfg17.N, cond17_1 (grid17.coords t) :=
  (by decide +kernel : ∀ t : Fin grid17.N, cond17_1 (grid17.coords t))

/-- No window is idle at any point: the two inputs never, the output because every point stores. -/
theorem liveAt17_0 : ∀ t : Fin cfg17.N, cfg17.idle 0 (grid17.coords t) = false := by decide +kernel
theorem liveAt17_1 : ∀ t : Fin cfg17.N, cfg17.idle 1 (grid17.coords t) = false := by decide +kernel
theorem liveAt17_2 : ∀ t : Fin cfg17.N, cfg17.idle 2 (grid17.coords t) = false := by decide +kernel

/-- Each window's current staging memref at a point, as the pipeline passes it, and its wholeness. -/
abbrev ms17_0 (t : Fin cfg17.N) : Memref sig .tc .vmem S1024x819 .f32 := win17_0.stage (cfg17.slots t 0)
abbrev hs17_0 (t : Fin cfg17.N) : (ms17_0 t).IsWhole := hstage17_0 ((cfg17.slots t 0).cast nbuf17_0)
abbrev ms17_1 (t : Fin cfg17.N) : Memref sig .tc .vmem S819x819 .f32 := win17_1.stage (cfg17.slots t 1)
abbrev hs17_1 (t : Fin cfg17.N) : (ms17_1 t).IsWhole := hstage17_1 ((cfg17.slots t 1).cast nbuf17_1)
abbrev ms17_2 (t : Fin cfg17.N) : Memref sig .tc .vmem S1024x819 .bf16 := win17_2.stage (cfg17.slots t 2)
abbrev hs17_2 (t : Fin cfg17.N) : (ms17_2 t).IsWhole := hstage17_2 ((cfg17.slots t 2).cast nbuf17_2)
/-- The accumulator: a whole scoped buffer of the launch's own. -/
abbrev scM17 : Memref sig .tc .vmem S1024x819 .f32 := Memref.whole cc17_scratch0
abbrev VS17 : View sig .tc .vmem S1024x819 .f32 := scM17.view

end Cert.KernelIdeal.Hand

end
-- ==== Proof.KI.R17Run.lean ====
/-
  Launch 17, the body run symbolically in its one control case: the accumulator reset, the product added, the output
  block stored from the sum. The run's witnesses are the lists of pieces its stores leave in the output block and in
  the accumulator.
-/
import proofs.«113214_j66838281060556_2_alg».proof.Proof.KI.R17Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

set_option maxHeartbeats 2000000 in
/-- The body at a point, run symbolically: the accumulator, found at anything, is reset and ends at the product of
    the two input blocks added to it; the output block, found at anything, is stored whole from that sum. The
    witnesses are the pieces the stores leave in the output block and in the accumulator. -/
noncomputable def run17 (c : Dev nD) (i : grid17.Coords) (arg3 : Memref sig .tc .vmem S1024x819 .f32) (harg3 : arg3.IsWhole) (arg4 : Memref sig .tc .vmem S819x819 .f32) (harg4 : arg4.IsWhole) (arg5 : Memref sig .tc .vmem S1024x819 .bf16) (harg5 : arg5.IsWhole) (arg6 : Memref sig .tc .vmem S1024x819 .f32) (harg6 : arg6.IsWhole) (hc0 : cond17_0 i) (hc1 : cond17_1 i)
    (x0 : Vec F S1024x819 .f32) (x1 : Vec F S819x819 .f32) :
    Σ' (LO : List (View.Piece (Elt F) S1024x819 .bf16)), { LS : List (View.Piece (Elt F) S1024x819 .f32) //
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc17__mm_kernel i arg3 harg3 arg4 harg4 arg5 harg5 arg6 harg6) K } := by
  refine ⟨?_, ?_, fun E K => ?run⟩
  case run =>
    simp only [cc17__mm_kernel_eq_skeleton]; unfold cc17__mm_kernel_skel
    unfold owns
    iintro ⟨⟨%f0, %hf0, H0⟩, ⟨%f1, %hf1, H1⟩, ⟨%d2, %f2, -, H2⟩, ⟨%ds, %fs, -, HS⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact HS

end Cert.KernelIdeal.Hand

end
-- ==== Proof.KI.R17.lean ====
/-
  Launch 17 as a region of the program. The blocks the windows stage are read off the arrays as the region finds
  them; a point stores the output block its run leaves; the accumulator is reset at every point, so between points
  the launch's scoped buffers that no window stages are simply held whole at anything; the body obligation follows
  from the one symbolic run; and the region is stated over the thread state "every unscoped buffer at given
  contents, the core owing nothing", entered by splitting the three arrays out and left with the result's array
  at what the pipeline computes from the stored blocks.
-/
import proofs.«113214_j66838281060556_2_alg».proof.Proof.KI.R17Run
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

variable (V : (c : Dev nD) → (b : Ref sig .tc) → Buf (Elt F) ((c : Thread nD τ).loc b))

/-! ## The blocks the windows stage -/

/-- Window `w`'s block at point `t`, read off its array as the region finds it. -/
def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

/-- A view of the output's staging buffer, through which contents are stated. -/
abbrev VO17 : View sig .tc .vmem S1024x819 .bf16 := (Memref.whole cc17_stg2_0 : Memref sig .tc .vmem S1024x819 .bf16).view

/-! ## What a point leaves -/

/-- The output block a point stores: what the run's pieces leave, read through the staging buffer's view. -/
def out17 (c : Dev nD) (t : Fin cfg17.N) : Vec F S1024x819 .bf16 :=
  VO17.read (Elt F) (VO17.writes (Elt F) VO17.junk (run17 c (grid17.coords t) (ms17_0 t) (hs17_0 t) (ms17_1 t) (hs17_1 t) (ms17_2 t) (hs17_2 t) scM17 (Memref.isWhole_whole _) (hcond17_0 t) (hcond17_1 t) (iblk17 V c 0 t) (iblk17 V c 1 t)).1)

/-- The stores into the output block cover it. -/
theorem coverO17 (c : Dev nD) (t : Fin cfg17.N) (y : S1024x819.Idx) :
    ∃ pc ∈ (run17 c (grid17.coords t) (ms17_0 t) (hs17_0 t) (ms17_1 t) (hs17_1 t) (ms17_2 t) (hs17_2 t) scM17 (Memref.isWhole_whole _) (hcond17_0 t) (hcond17_1 t) (iblk17 V c 0 t) (iblk17 V c 1 t)).1, y ∈ pc.1.set :=
  View.cover_of_tiledL _ S1024x819.size (by sl_kernel_rfl) y

/-! ## The invariant between points -/

/-- The scoped rest with the accumulator split out as a memref owned at some contents. The accumulator is reset at
    every point, so the invariant between points is the scoped rest itself, the accumulator at anything. -/
theorem scopedRest17_eq (c : Dev nD) :
    (Pipeline.scopedRest (Ix := Unit) (Name := ℕ) (U := UR sig nD τ × Counters) (Lvl := ℕ) (Val := Elt F) spec17 c : sProp 𝕄)
      = iprop((∃ d, owns (c : Thread nD τ) scM17 fullShare d)
          ∗ Pipeline.scopedRestBut (Ix := Unit) (Name := ℕ) (U := UR sig nD τ × Counters) (Lvl := ℕ) (Val := Elt F) spec17 c [cc17_scratch0]) := by
  rw [scopedRest17_split]; simp only [scM17, owns_whole]; try rfl

/-! ## The proof data -/

def dat17 (c : Dev nD) : Dat τ (Elt F) Unit ℕ (UR sig nD τ × Counters) ℕ cfg17 c where
  A w := V c (Pipeline.arrRef spec17 w)
  after w t := match w with
    | ⟨0, _⟩ => iblk17 V c 0 t
    | ⟨1, _⟩ => iblk17 V c 1 t
    | ⟨2, _⟩ => out17 V c t
  Φ _ := Pipeline.scopedRest (Ix := Unit) (Name := ℕ) (U := UR sig nD τ × Counters) (Lvl := ℕ) (Val := Elt F) spec17 c
  q _ := fullShare
  owed _ := 0

theorem A17_eq (c : Dev nD) (w : Fin cfg17.W) : (dat17 V c).A w = V c (Pipeline.arrRef spec17 w) := by
  dsimp only [dat17]
theorem after17_0 (c : Dev nD) (t : Fin cfg17.N) : (dat17 V c).after 0 t = iblk17 V c 0 t := by dsimp only [dat17]
theorem after17_1 (c : Dev nD) (t : Fin cfg17.N) : (dat17 V c).after 1 t = iblk17 V c 1 t := by dsimp only [dat17]
theorem after17_2 (c : Dev nD) (t : Fin cfg17.N) : (dat17 V c).after 2 t = out17 V c t := by dsimp only [dat17]

/-- Each input window's current staging buffer holds its block at every point, fetched there or not. -/
theorem before17_0 (c : Dev nD) (t : Fin cfg17.N) (d) : (dat17 V c).before 0 t d = iblk17 V c 0 t :=
  ((dat17 V c).before_in_eq_fetched 0 rfl (fun _ => rfl) (fun _ _ _ => rfl) (fun t => by rw [after17_0]; unfold Dat.blockOf iblk17; rw [A17_eq]; try rfl) t d).trans
    (by unfold Dat.fetched Dat.blockOf iblk17; rw [A17_eq]; try rfl)
theorem before17_1 (c : Dev nD) (t : Fin cfg17.N) (d) : (dat17 V c).before 1 t d = iblk17 V c 1 t :=
  ((dat17 V c).before_in_eq_fetched 1 rfl (fun _ => rfl) (fun _ _ _ => rfl) (fun t => by rw [after17_1]; unfold Dat.blockOf iblk17; rw [A17_eq]; try rfl) t d).trans
    (by unfold Dat.fetched Dat.blockOf iblk17; rw [A17_eq]; try rfl)

/-! ## The body obligation at a generic point -/

def bodyPre17 (c : Dev nD) (t : Fin cfg17.N) : sProp 𝕄 :=
  iprop((dat17 V c).Φ t.castSucc ∗ (dat17 V c).owesAt () t.castSucc
    ∗ (∃ d, owns (c : Thread nD τ) (ms17_0 t) fullShare ((dat17 V c).before 0 t d))
    ∗ (∃ d, owns (c : Thread nD τ) (ms17_1 t) fullShare ((dat17 V c).before 1 t d))
    ∗ (∃ d, owns (c : Thread nD τ) (ms17_2 t) fullShare ((dat17 V c).before 2 t d)))

def bodyPost17 (c : Dev nD) (t : Fin cfg17.N) : sProp 𝕄 :=
  iprop((dat17 V c).Φ t.succ ∗ (dat17 V c).owesAt () t.succ
    ∗ (dat17 V c).leavesExact 0 t ∗ (dat17 V c).leavesExact 1 t ∗ (dat17 V c).leavesExact 2 t)

set_option maxHeartbeats 4000000 in
/-- The body at any point. The two input buffers hold their blocks; the invariant hands over the accumulator at
    anything and takes it back at anything; the output buffer, found at anything, is handed back at the block the
    point stores; the core owes nothing throughout. -/
theorem sound_body17 (c : Dev nD) (t : Fin cfg17.N) :
    bodyPre17 V c t ⊢ wp frame (wpE (defs₀ (F := F)) Variants.none c none) Set.univ (bodyAt17 t) (fun _ => bodyPost17 V c t) := by
  unfold bodyPre17 bodyPost17 bodyAt17
  simp only [before17_0, before17_1]
  rw [show (dat17 V c).owesAt () t.succ = (dat17 V c).owesAt () t.castSucc from rfl]
  rw [show (dat17 V c).Φ t.succ = Pipeline.scopedRest (Ix := Unit) (Name := ℕ) (U := UR sig nD τ × Counters) (Lvl := ℕ) (Val := Elt F) spec17 c from rfl,
    show (dat17 V c).Φ t.castSucc = Pipeline.scopedRest (Ix := Unit) (Name := ℕ) (U := UR sig nD τ × Counters) (Lvl := ℕ) (Val := Elt F) spec17 c from rfl]
  rw [show (dat17 V c).leavesExact 0 t = owns (c : Thread nD τ) (ms17_0 t) fullShare (iblk17 V c 0 t) from by
    unfold Dat.leavesExact; rw [liveAt17_0 t, after17_0]]
  rw [show (dat17 V c).leavesExact 1 t = owns (c : Thread nD τ) (ms17_1 t) fullShare (iblk17 V c 1 t) from by
    unfold Dat.leavesExact; rw [liveAt17_1 t, after17_1]]
  rw [show (dat17 V c).leavesExact 2 t = owns (c : Thread nD τ) (ms17_2 t) fullShare (out17 V c t) from by
    unfold Dat.leavesExact; rw [liveAt17_2 t, after17_2]]
  rw [scopedRest17_eq]
  unfold out17
  iintro ⟨⟨HS, Hb⟩, Ho, ⟨%d0, H0⟩, ⟨%d1, H1⟩, ⟨%d2, H2⟩⟩
  iapply ((run17 c (grid17.coords t) (ms17_0 t) (hs17_0 t) (ms17_1 t) (hs17_1 t) (ms17_2 t) (hs17_2 t) scM17 (Memref.isWhole_whole _) (hcond17_0 t) (hcond17_1 t) (iblk17 V c 0 t) (iblk17 V c 1 t)).2.2 Set.univ _)
  isplitl [H0]; · iexact H0
  isplitl [H1]; · iexact H1
  isplitl [H2]; · iexists _; iexact H2
  isplitl [HS]; · iexact HS
  iintro ⟨H0, H1, ⟨%e2, H2⟩, ⟨%es, HS⟩⟩
  isplitl [HS Hb]
  · isplitl [HS]
    · iexists _; unfold owns; iexists _; isplitr
      swap; · iexact HS
      ipureintro; rfl
    iexact Hb
  isplitl [Ho]; · iexact Ho
  isplitl [H0]; · iexact H0
  isplitl [H1]; · iexact H1
  unfold owns; iexists _; isplitr
  swap; · iexact H2
  ipureintro; exact View.read_writes_of_cover _ _ _ _ _ (coverO17 V c t)

theorem body_obligation17 (c : Dev nD) : BodyObligation (dat17 V c) (defs₀ (F := F)) Variants.none () Set.univ := fun t => by
  rw [bigSep_W17, bigSep_W17]
  exact sound_body17 V c t

/-! ## The region over the thread state -/

variable (Vp : (c : Dev nD) → (b : Ref sig .tc) → Buf (Elt F) ((c : Thread nD τ).loc b))
variable (pdats : (p : Fin 22) → (c : Dev nD) → Dat τ (Elt F) Unit ℕ (UR sig nD τ × Counters) ℕ (cfgs p) c)

/-- The result's array after the region, as the pipeline library computes it from the proof data. -/
def out17arr (c : Dev nD) : Buf (Elt F) ((c : Thread nD τ).loc main_v36) := (dat17 V c).arrAt 2 cfg17.N

set_option backward.isDefEq.respectTransparency.types false in
set_option maxHeartbeats 2000000 in
/-- Launch 17 over the thread state "every unscoped buffer at `V c`, the core owing nothing": entered by
    splitting its three arrays out of the unscoped buffers, left with them put back at `Vp c`, which has the
    result's array at `out17arr` and agrees with `V c` elsewhere. -/
def reg17 (hp : ∀ c, pdats 17 c = dat17 V c)
    (hVp_out : ∀ c, Vp c main_v36 = out17arr V c)
    (hVp_ne : ∀ c (b : Ref sig .tc), b ≠ main_v36 → Vp c b = V c b) :
    Pipeline.RegionSeg (pcfgs (F := F)) (fun p => (cfgs p).toPCfg_adm) pdats () defs₀ Variants.none (fun _ => (∅ : Finset Unit)) (fun _ _ => (0 : ℕ)) 17 where
  win := launch17.win.to₀
  block_pos := launch17.block_pos
  stage_whole := launch17.stage_whole
  K := PEmpty
  osem k := k.elim
  ho := Pipeline.OwnSemFacts.none _
  hbody c := by rw [hp c]; exact (body_obligation17 V c).loose
  hwaits := Pipeline.hwaits_of_owed_zero _ _ _ _ _ _ 17 fun c t => by rw [hp c]; rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ × Counters) (Lvl := ℕ) spec17 c (V c)
  hentry c := by
    rw [Pipeline.ownSems0_none]
    have hsplit := Pipeline.arrays_of_unscopedBufs (p := 17) (pcfgs (F := F)) (fun p => (cfgs p).toPCfg_adm) pdats launch17.win launch17.arr_whole c
      ((pdats 17 c).share_full fun w => by rw [hp c]; rfl) (V c) (fun w => by rw [hp c]; rfl)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hp c]; exact trivial)
      rw [show (pdats 17 c).owed 0 = 0 from by rw [hp c]; rfl]
      iexact HO
    isplitr; · iempintro
    iexact Hrest
  hin c := by
    rw [hp c, show (dat17 V c).Φ 0 = Pipeline.scopedRest (Ix := Unit) (Name := ℕ) (U := UR sig nD τ × Counters) (Lvl := ℕ) (Val := Elt F) spec17 c from rfl]
    iintro ⟨-, -, Hr⟩; iexact Hr
  hout c := by
    rw [Pipeline.ownSems0_none, hp c]
    change (Pipeline.scopedRest (Ix := Unit) (Name := ℕ) (U := UR sig nD τ × Counters) (Lvl := ℕ) (Val := Elt F) spec17 c : sProp 𝕄) ⊢ _
    iintro Hr
    isplitr; · iempintro
    isplitr; · iempintro
    iexact Hr
  hexit c := by
    have hjoin := Pipeline.unscopedBufs_of_arrays (p := 17) (pcfgs (F := F)) (fun p => (cfgs p).toPCfg_adm) (Ix := Unit) (Name := ℕ) (U := UR sig nD τ × Counters) (Lvl := ℕ) launch17.win launch17.arr_whole c
      pdats ((pdats 17 c).share_full fun w => by rw [hp c]; rfl) (V c) (Vp c) ((pdats 17 c).arrAt · cfg17.N)
      (fun w => by
        fin_cases w
        · exact (((pdats 17 c).arrAt_in 0 rfl _).trans (by rw [hp c]; rfl)).trans (hVp_ne c main_v24 (by decide)).symm
        · exact (((pdats 17 c).arrAt_in 1 rfl _).trans (by rw [hp c]; rfl)).trans (hVp_ne c main_arg24 (by decide)).symm
        · exact (by rw [hp c]; rfl : (pdats 17 c).arrAt 2 cfg17.N = out17arr V c).trans (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W
    rw [show (pdats 17 c).owed (Fin.last _) = 0 from by rw [hp c]; rfl]
    iexact HO

end Cert.KernelIdeal.Hand

end
-- ==== Proof.KI.R18Base.lean ====
/-
  Launch 18 of the program: a matrix product accumulated over the third grid axis (grid 4 × 1 × 4: four row blocks,
  four contraction blocks), stored — with no bias and no activation — when
  the last block has been added. This module names the two conditions of the body on the grid point ("the
  contraction's first block", "its last block"), decides them over the sixteen points, and records where the
  output window is idle and where its block is written back.
-/
import proofs.«113214_j66838281060556_2_alg».proof.Proof.Gen.KernelIdeal.Launch
import proofs.«113214_j66838281060556_2_alg».proof.Proof.Gen.KernelIdeal.Skeleton
import proofs.«113214_j66838281060556_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

/-- The accumulator is reset: the point starts a contraction (third grid coordinate 0). -/
abbrev cond18_0 (i : grid18.Coords) : Prop := (Scalar.cmpi .ne (Scalar.extui (Scalar.cmpi .eq (BitVec.ofNat 32 (i 2).val) 0#32)) 0#32) = 1#1
theorem hcond18_0 : ∀ t : Fin cfg18.N, cond18_0 (grid18.coords t) ↔ t.val % 4 = 0 :=
  (by decide +kernel : ∀ t : Fin grid18.N, cond18_0 (grid18.coords t) ↔ t.val % 4 = 0)

/-- The result is stored: the point ends a contraction (third grid coordinate 3). -/
abbrev cond18_1 (i : grid18.Coords) : Prop := k18_cond2 i = 1#1
theorem hcond18_1 : ∀ t : Fin cfg18.N, cond18_1 (grid18.coords t) ↔ t.val % 4 = 3 :=
  (by decide +kernel : ∀ t : Fin grid18.N, cond18_1 (grid18.coords t) ↔ t.val % 4 = 3)

/-- The two input windows are never idle. -/
theorem liveAt18_0 : ∀ t : Fin cfg18.N, cfg18.idle 0 (grid18.coords t) = false := by decide +kernel
theorem liveAt18_1 : ∀ t : Fin cfg18.N, cfg18.idle 1 (grid18.coords t) = false := by decide +kernel
/-- Away from a contraction's last block the output window is idle and its block is not written back. -/
theorem idleAt18_2 : ∀ t : Fin cfg18.N, ¬cond18_1 (grid18.coords t) → cfg18.idle 2 (grid18.coords t) = true := by decide +kernel
theorem noFlush18_2 : ∀ t : Fin cfg18.N, ¬cond18_1 (grid18.coords t) → (cfg18.win 2).flush t = false := by decide +kernel
/-- At a contraction's last block the output window is live. -/
theorem liveAt18_2 : ∀ t : Fin cfg18.N, cond18_1 (grid18.coords t) → cfg18.idle 2 (grid18.coords t) = false := by decide +kernel

/-- Each window's current staging memref at a point, as the pipeline passes it, and its wholeness. -/
abbrev ms18_0 (t : Fin cfg18.N) : Memref sig .tc .vmem S1024x1024 .bf16 := win18_0.stage (cfg18.slots t 0)
abbrev hs18_0 (t : Fin cfg18.N) : (ms18_0 t).IsWhole := hstage18_0 ((cfg18.slots t 0).cast nbuf18_0)
abbrev ms18_1 (t : Fin cfg18.N) : Memref sig .tc .vmem S1024x819 .bf16 := win18_1.stage (cfg18.slots t 1)
abbrev hs18_1 (t : Fin cfg18.N) : (ms18_1 t).IsWhole := hstage18_1 ((cfg18.slots t 1).cast nbuf18_1)
abbrev ms18_2 (t : Fin cfg18.N) : Memref sig .tc .vmem S1024x819 .bf16 := win18_2.stage (cfg18.slots t 2)
abbrev hs18_2 (t : Fin cfg18.N) : (ms18_2 t).IsWhole := hstage18_2 ((cfg18.slots t 2).cast nbuf18_2)
/-- The accumulator: a whole scoped buffer of the launch's own. -/
abbrev scM18 : Memref sig .tc .vmem S1024x819 .f32 := Memref.whole cc18_scratch0
abbrev VS18 : View sig .tc .vmem S1024x819 .f32 := scM18.view

end Cert.KernelIdeal.Hand

end
-- ==== Proof.KI.R18Run.lean ====
/-
  Launch 18, the body run symbolically in each of its three control cases: the first block of a contraction
  (the accumulator reset, then the first product added), a middle block (the product added), the last block
  (the product added, then the sum stored into the output block in the output's format). Each run's witness
  is the list of pieces its stores leave in the accumulator (and, in the last case, in the output block).
-/
import proofs.«113214_j66838281060556_2_alg».proof.Proof.KI.R18Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

set_option maxHeartbeats 2000000 in
/-- The first block of a contraction that is not also its last: the accumulator, found at anything, is reset to
    zero and ends at the product of the two input blocks added to zero; the idle output block is handed back
    untouched. The pieces written into the accumulator are the witness the symbolic run finds. -/
noncomputable def run18_A (c : Dev nD) (i : grid18.Coords) (arg3 : Memref sig .tc .vmem S1024x1024 .bf16) (harg3 : arg3.IsWhole) (arg4 : Memref sig .tc .vmem S1024x819 .bf16) (harg4 : arg4.IsWhole) (arg5 : Memref sig .tc .vmem S1024x819 .bf16) (harg5 : arg5.IsWhole) (arg6 : Memref sig .tc .vmem S1024x819 .f32) (harg6 : arg6.IsWhole) (hc0 : cond18_0 i) (hc1 : ¬cond18_1 i)
    (x0 : Vec F S1024x1024 .bf16) (x1 : Vec F S1024x819 .bf16) :
    { LS : List (View.Piece (Elt F) S1024x819 .f32) //
      ∀ (xi : Vec F S1024x819 .bf16) (E : Set ℕ) (K : PUnit → sProp 𝕄),
        iprop(owns (c : Thread nD τ) arg3 fullShare x0 ∗ owns (c : Thread nD τ) arg4 fullShare x1 ∗ owns (c : Thread nD τ) arg5 fullShare xi ∗ (∃ d, owns (c : Thread nD τ) arg6 fullShare d)
            ∗ (iprop(owns (c : Thread nD τ) arg3 fullShare x0 ∗ owns (c : Thread nD τ) arg4 fullShare x1 ∗ owns (c : Thread nD τ) arg5 fullShare xi
                ∗ (∃ f, arg6.view.loc (c : Thread nD τ) ↦[arg6.view.set]{fullShare} arg6.view.writes (Elt F) f LS)) -∗ K ⟨⟩))
          ⊢ wp frame (wpE (defs₀ (F := F)) Variants.none c none) E (cc18__mm_kernel i arg3 harg3 arg4 harg4 arg5 harg5 arg6 harg6) K } := by
  refine ⟨?_, fun xi E K => ?run⟩
  case run =>
    simp only [cc18__mm_kernel_eq_skeleton]; unfold cc18__mm_kernel_skel
    unfold owns
    iintro ⟨⟨%f0, %hf0, H0⟩, ⟨%f1, %hf1, H1⟩, ⟨%f3, %hf3, H3⟩, ⟨%ds, %fs, -, HS⟩, Hk⟩
    obtain rfl := harg3.eq_unread hf0; obtain rfl := harg4.eq_unread hf1; obtain rfl := harg5.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H3]
    · iexists _; isplitr; · ipureintro; exact harg5.read_unread _
      iexact H3
    iexists _; iexact HS

set_option maxHeartbeats 2000000 in
/-- A middle block of a contraction: the accumulator, found at `xs`, ends at the product of the two input
    blocks added to `xs`; the idle output block is handed back untouched. -/
noncomputable def run18_B (c : Dev nD) (i : grid18.Coords) (arg3 : Memref sig .tc .vmem S1024x1024 .bf16) (harg3 : arg3.IsWhole) (arg4 : Memref sig .tc .vmem S1024x819 .bf16) (harg4 : arg4.IsWhole) (arg5 : Memref sig .tc .vmem S1024x819 .bf16) (harg5 : arg5.IsWhole) (arg6 : Memref sig .tc .vmem S1024x819 .f32) (harg6 : arg6.IsWhole) (hc0 : ¬cond18_0 i) (hc1 : ¬cond18_1 i)
    (x0 : Vec F S1024x1024 .bf16) (x1 : Vec F S1024x819 .bf16) (xs : Vec F S1024x819 .f32) :
    { LS : List (View.Piece (Elt F) S1024x819 .f32) //
      ∀ (xi : Vec F S1024x819 .bf16) (E : Set ℕ) (K : PUnit → sProp 𝕄),
        iprop(owns (c : Thread nD τ) arg3 fullShare x0 ∗ owns (c : Thread nD τ) arg4 fullShare x1 ∗ owns (c : Thread nD τ) arg5 fullShare xi ∗ owns (c : Thread nD τ) arg6 fullShare xs
            ∗ (iprop(owns (c : Thread nD τ) arg3 fullShare x0 ∗ owns (c : Thread nD τ) arg4 fullShare x1 ∗ owns (c : Thread nD τ) arg5 fullShare xi
                ∗ (∃ f, arg6.view.loc (c : Thread nD τ) ↦[arg6.view.set]{fullShare} arg6.view.writes (Elt F) f LS)) -∗ K ⟨⟩))
          ⊢ wp frame (wpE (defs₀ (F := F)) Variants.none c none) E (cc18__mm_kernel i arg3 harg3 arg4 harg4 arg5 harg5 arg6 harg6) K } := by
  refine ⟨?_, fun xi E K => ?run⟩
  case run =>
    simp only [cc18__mm_kernel_eq_skeleton]; unfold cc18__mm_kernel_skel
    unfold owns
    iintro ⟨⟨%f0, %hf0, H0⟩, ⟨%f1, %hf1, H1⟩, ⟨%f3, %hf3, H3⟩, ⟨%fs, %hfs, HS⟩, Hk⟩
    obtain rfl := harg3.eq_unread hf0; obtain rfl := harg4.eq_unread hf1; obtain rfl := harg5.eq_unread hf3
    obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H3]
    · iexists _; isplitr; · ipureintro; exact harg5.read_unread _
      iexact H3
    iexists _; iexact HS

set_option maxHeartbeats 2000000 in
/-- The last block of a contraction that is not also its first: the accumulator, found at `xs`, ends at the
    product of the two input blocks added to `xs`, and the output block, found at anything, is stored whole:
    that sum in the output's format. -/
noncomputable def run18_C (c : Dev nD) (i : grid18.Coords) (arg3 : Memref sig .tc .vmem S1024x1024 .bf16) (harg3 : arg3.IsWhole) (arg4 : Memref sig .tc .vmem S1024x819 .bf16) (harg4 : arg4.IsWhole) (arg5 : Memref sig .tc .vmem S1024x819 .bf16) (harg5 : arg5.IsWhole) (arg6 : Memref sig .tc .vmem S1024x819 .f32) (harg6 : arg6.IsWhole) (hc0 : ¬cond18_0 i) (hc1 : cond18_1 i)
    (x0 : Vec F S1024x1024 .bf16) (x1 : Vec F S1024x819 .bf16) (xs : Vec F S1024x819 .f32) :
    Σ' (LO : List (View.Piece (Elt F) S1024x819 .bf16)), { LS : List (View.Piece (Elt F) S1024x819 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc18__mm_kernel i arg3 harg3 arg4 harg4 arg5 harg5 arg6 harg6) K } := by
  refine ⟨?_, ?_, fun E K => ?run⟩
  case run =>
    simp only [cc18__mm_kernel_eq_skeleton]; unfold cc18__mm_kernel_skel
    unfold owns
    iintro ⟨⟨%f0, %hf0, H0⟩, ⟨%f1, %hf1, H1⟩, ⟨%d3, %f3, -, H3⟩, ⟨%fs, %hfs, HS⟩, Hk⟩
    obtain rfl := harg3.eq_unread hf0; obtain rfl := harg4.eq_unread hf1
    obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H3]
    · iexists _; iexact H3
    iexists _; iexact HS

end Cert.KernelIdeal.Hand

end
-- ==== Proof.KI.R18.lean ====
/-
  Launch 18 as a segment of the program: the product A·B of a graph matrix with the right
  factor, computed block by block on the grid 4 × 1 × 4 with an accumulator carried along the contraction and
  stored in the output's format when a contraction ends. What the accumulator and the output block hold after
  each point is defined by recursion on the point; the invariant between points is the accumulator at that value
  beside the launch's other scoped buffers; the proof data states each window's block after the body; the body
  obligation is the three symbolic runs put together by cases on the point's position in its contraction; and
  the segment record enters the launch from a thread state holding every unscoped buffer at an entry valuation
  and leaves it at the valuation updated at the result's array.
-/
import proofs.«113214_j66838281060556_2_alg».proof.Proof.KI.R18Run
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

variable (V : (c : Dev nD) → (b : Ref sig .tc) → Buf (Elt F) ((c : Thread nD τ).loc b))

/-! ## The blocks the windows stage -/

/-- Window `w`'s block at point `t`, read off its array as the region finds it. -/
def iblk18 (c : Dev nD) (w : Fin cfg18.W) (t : Fin cfg18.N) : ((cfg18.win w).xblock (cfg18.grid.coords t)).Idx → Elt F (cfg18.win w).elt :=
  ((cfg18.win w).blk t).view.read (Elt F) (V c (Pipeline.arrRef spec18 w))

/-- A view of the output's staging buffer and one of the accumulator, through which contents are stated. -/
abbrev VO18 : View sig .tc .vmem S1024x819 .bf16 := (Memref.whole cc18_stg2_0 : Memref sig .tc .vmem S1024x819 .bf16).view

/-! ## What each case leaves -/

/-- The accumulator after a first block. -/
def accA18 (c : Dev nD) (t : Fin cfg18.N) (h0 : t.val % 4 = 0) (h1 : ¬t.val % 4 = 3) : Vec F S1024x819 .f32 :=
  VS18.read (Elt F) (VS18.writes (Elt F) VS18.junk (run18_A c (grid18.coords t) (ms18_0 t) (hs18_0 t) (ms18_1 t) (hs18_1 t) (ms18_2 t) (hs18_2 t) scM18 (Memref.isWhole_whole _) ((hcond18_0 t).mpr h0) (fun h => h1 ((hcond18_1 t).mp h)) (iblk18 V c 0 t) (iblk18 V c 1 t)).1)
/-- The accumulator after a middle block, from what the point before left. -/
def accB18 (c : Dev nD) (t : Fin cfg18.N) (h0 : ¬t.val % 4 = 0) (h1 : ¬t.val % 4 = 3) (xs : Vec F S1024x819 .f32) : Vec F S1024x819 .f32 :=
  VS18.read (Elt F) (VS18.writes (Elt F) VS18.junk (run18_B c (grid18.coords t) (ms18_0 t) (hs18_0 t) (ms18_1 t) (hs18_1 t) (ms18_2 t) (hs18_2 t) scM18 (Memref.isWhole_whole _) (fun h => h0 ((hcond18_0 t).mp h)) (fun h => h1 ((hcond18_1 t).mp h)) (iblk18 V c 0 t) (iblk18 V c 1 t) xs).1)
/-- The accumulator after a last block, -/
def accC18 (c : Dev nD) (t : Fin cfg18.N) (h0 : ¬t.val % 4 = 0) (h1 : t.val % 4 = 3) (xs : Vec F S1024x819 .f32) : Vec F S1024x819 .f32 :=
  VS18.read (Elt F) (VS18.writes (Elt F) VS18.junk (run18_C c (grid18.coords t) (ms18_0 t) (hs18_0 t) (ms18_1 t) (hs18_1 t) (ms18_2 t) (hs18_2 t) scM18 (Memref.isWhole_whole _) (fun h => h0 ((hcond18_0 t).mp h)) ((hcond18_1 t).mpr h1) (iblk18 V c 0 t) (iblk18 V c 1 t) xs).2.1)
/-- and the output block stored there. -/
def outC18 (c : Dev nD) (t : Fin cfg18.N) (h0 : ¬t.val % 4 = 0) (h1 : t.val % 4 = 3) (xs : Vec F S1024x819 .f32) : Vec F S1024x819 .bf16 :=
  VO18.read (Elt F) (VO18.writes (Elt F) VO18.junk (run18_C c (grid18.coords t) (ms18_0 t) (hs18_0 t) (ms18_1 t) (hs18_1 t) (ms18_2 t) (hs18_2 t) scM18 (Memref.isWhole_whole _) (fun h => h0 ((hcond18_0 t).mp h)) ((hcond18_1 t).mpr h1) (iblk18 V c 0 t) (iblk18 V c 1 t) xs).1)

theorem coverA18 (c : Dev nD) (t : Fin cfg18.N) (h0 : t.val % 4 = 0) (h1 : ¬t.val % 4 = 3) (y : S1024x819.Idx) :
    ∃ pc ∈ (run18_A c (grid18.coords t) (ms18_0 t) (hs18_0 t) (ms18_1 t) (hs18_1 t) (ms18_2 t) (hs18_2 t) scM18 (Memref.isWhole_whole _) ((hcond18_0 t).mpr h0) (fun h => h1 ((hcond18_1 t).mp h)) (iblk18 V c 0 t) (iblk18 V c 1 t)).1, y ∈ pc.1.set :=
  View.cover_of_tiledL _ S1024x819.size (by sl_kernel_rfl) y
theorem coverB18 (c : Dev nD) (t : Fin cfg18.N) (h0 : ¬t.val % 4 = 0) (h1 : ¬t.val % 4 = 3) (xs : Vec F S1024x819 .f32) (y : S1024x819.Idx) :
    ∃ pc ∈ (run18_B c (grid18.coords t) (ms18_0 t) (hs18_0 t) (ms18_1 t) (hs18_1 t) (ms18_2 t) (hs18_2 t) scM18 (Memref.isWhole_whole _) (fun h => h0 ((hcond18_0 t).mp h)) (fun h => h1 ((hcond18_1 t).mp h)) (iblk18 V c 0 t) (iblk18 V c 1 t) xs).1, y ∈ pc.1.set :=
  View.cover_of_tiledL _ S1024x819.size (by sl_kernel_rfl) y
theorem coverCs18 (c : Dev nD) (t : Fin cfg18.N) (h0 : ¬t.val % 4 = 0) (h1 : t.val % 4 = 3) (xs : Vec F S1024x819 .f32) (y : S1024x819.Idx) :
    ∃ pc ∈ (run18_C c (grid18.coords t) (ms18_0 t) (hs18_0 t) (ms18_1 t) (hs18_1 t) (ms18_2 t) (hs18_2 t) scM18 (Memref.isWhole_whole _) (fun h => h0 ((hcond18_0 t).mp h)) ((hcond18_1 t).mpr h1) (iblk18 V c 0 t) (iblk18 V c 1 t) xs).2.1, y ∈ pc.1.set :=
  View.cover_of_tiledL _ S1024x819.size (by sl_kernel_rfl) y
theorem coverCo18 (c : Dev nD) (t : Fin cfg18.N) (h0 : ¬t.val % 4 = 0) (h1 : t.val % 4 = 3) (xs : Vec F S1024x819 .f32) (y : S1024x819.Idx) :
    ∃ pc ∈ (run18_C c (grid18.coords t) (ms18_0 t) (hs18_0 t) (ms18_1 t) (hs18_1 t) (ms18_2 t) (hs18_2 t) scM18 (Memref.isWhole_whole _) (fun h => h0 ((hcond18_0 t).mp h)) ((hcond18_1 t).mpr h1) (iblk18 V c 0 t) (iblk18 V c 1 t) xs).1, y ∈ pc.1.set :=
  View.cover_of_tiledL _ S1024x819.size (by sl_kernel_rfl) y

/-! ## The accumulation, point by point -/

/-- What the output's staging buffer (first component; meaningful at a contraction's last block only) and the
    accumulator (second component) hold after the body at position `n`. -/
def outsAt18 (c : Dev nD) : (n : ℕ) → n < cfg18.N → Vec F S1024x819 .bf16 × Vec F S1024x819 .f32
  | 0, hn => (VO18.read (Elt F) VO18.junk, accA18 V c ⟨0, hn⟩ (Nat.zero_mod _) (by simp))
  | n + 1, hn =>
    if h0 : (n + 1) % 4 = 0 then
      if h1 : (n + 1) % 4 = 3 then False.elim (by omega)
      else (VO18.read (Elt F) VO18.junk, accA18 V c ⟨n + 1, hn⟩ h0 h1)
    else
      if h1 : (n + 1) % 4 = 3 then
        (outC18 V c ⟨n + 1, hn⟩ h0 h1 (outsAt18 c n (Nat.lt_of_succ_lt hn)).2, accC18 V c ⟨n + 1, hn⟩ h0 h1 (outsAt18 c n (Nat.lt_of_succ_lt hn)).2)
      else
        (VO18.read (Elt F) VO18.junk, accB18 V c ⟨n + 1, hn⟩ h0 h1 (outsAt18 c n (Nat.lt_of_succ_lt hn)).2)

theorem outsAt18_A (c : Dev nD) (t : Fin cfg18.N) (h0 : t.val % 4 = 0) (h1 : ¬t.val % 4 = 3) :
    outsAt18 V c t.val t.isLt = (VO18.read (Elt F) VO18.junk, accA18 V c t h0 h1) := by
  obtain ⟨n, hn⟩ := t
  cases n with
  | zero => exact rfl
  | succ n => exact (dif_pos h0).trans ((dif_neg h1).trans rfl)

theorem outsAt18_B (c : Dev nD) (t : Fin cfg18.N) (h0 : ¬t.val % 4 = 0) (h1 : ¬t.val % 4 = 3) :
    outsAt18 V c t.val t.isLt = (VO18.read (Elt F) VO18.junk, accB18 V c t h0 h1 (outsAt18 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt18_C (c : Dev nD) (t : Fin cfg18.N) (h0 : ¬t.val % 4 = 0) (h1 : t.val % 4 = 3) :
    outsAt18 V c t.val t.isLt = (outC18 V c t h0 h1 (outsAt18 V c (t.val - 1) (Nat.lt_of_le_of_lt (Nat.sub_le _ _) t.isLt)).2,
      accC18 V c t h0 h1 (outsAt18 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant between points -/

/-- Before the first point the launch's scoped buffers that no window stages, whole; afterwards the accumulator at
    what the point before left, and the other such buffers unopened. -/
def PhiS18 (c : Dev nD) : (n : ℕ) → n ≤ cfg18.N → sProp 𝕄
  | 0, _ => Pipeline.scopedRest (Ix := Unit) (Name := ℕ) (U := UR sig nD τ × Counters) (Lvl := ℕ) (Val := Elt F) spec18 c
  | n + 1, hn => iprop(owns (c : Thread nD τ) scM18 fullShare (outsAt18 V c n hn).2
      ∗ Pipeline.scopedRestBut (Ix := Unit) (Name := ℕ) (U := UR sig nD τ × Counters) (Lvl := ℕ) (Val := Elt F) spec18 c [cc18_scratch0])

theorem PhiS18_pos (c : Dev nD) (n : ℕ) (h : n ≤ cfg18.N) (hz : n ≠ 0) :
    PhiS18 V c n h = iprop(owns (c : Thread nD τ) scM18 fullShare (outsAt18 V c (n - 1) (by omega)).2
      ∗ Pipeline.scopedRestBut (Ix := Unit) (Name := ℕ) (U := UR sig nD τ × Counters) (Lvl := ℕ) (Val := Elt F) spec18 c [cc18_scratch0]) := by
  cases n with
  | zero => exact absurd rfl hz
  | succ n => rfl

/-- The scoped rest with the accumulator split out as a memref owned at some contents. -/
theorem scopedRest18_eq (c : Dev nD) :
    (Pipeline.scopedRest (Ix := Unit) (Name := ℕ) (U := UR sig nD τ × Counters) (Lvl := ℕ) (Val := Elt F) spec18 c : sProp 𝕄)
      = iprop((∃ d, owns (c : Thread nD τ) scM18 fullShare d)
          ∗ Pipeline.scopedRestBut (Ix := Unit) (Name := ℕ) (U := UR sig nD τ × Counters) (Lvl := ℕ) (Val := Elt F) spec18 c [cc18_scratch0]) := by
  rw [scopedRest18_split]; simp only [scM18, owns_whole]; try rfl

/-! ## The proof data -/

def dat18 (c : Dev nD) : Dat τ (Elt F) Unit ℕ (UR sig nD τ × Counters) ℕ cfg18 c where
  A w := V c (Pipeline.arrRef spec18 w)
  after w t := match w with
    | ⟨0, _⟩ => iblk18 V c 0 t
    | ⟨1, _⟩ => iblk18 V c 1 t
    | ⟨2, _⟩ => (outsAt18 V c t.val t.isLt).1
  Φ t := PhiS18 V c t.val (Nat.le_of_lt_succ t.isLt)
  q _ := fullShare
  owed _ := 0

theorem A18_eq (c : Dev nD) (w : Fin cfg18.W) : (dat18 V c).A w = V c (Pipeline.arrRef spec18 w) := by
  dsimp only [dat18]
theorem after18_0 (c : Dev nD) (t : Fin cfg18.N) : (dat18 V c).after 0 t = iblk18 V c 0 t := by dsimp only [dat18]
theorem after18_1 (c : Dev nD) (t : Fin cfg18.N) : (dat18 V c).after 1 t = iblk18 V c 1 t := by dsimp only [dat18]
theorem after18_2 (c : Dev nD) (t : Fin cfg18.N) : (dat18 V c).after 2 t = (outsAt18 V c t.val t.isLt).1 := by dsimp only [dat18]

theorem Phi18_castSucc (c : Dev nD) (t : Fin cfg18.N) :
    (dat18 V c).Φ t.castSucc = PhiS18 V c t.val (Nat.le_of_lt t.isLt) := by
  dsimp only [dat18]; simp only [Fin.coe_castSucc]

/-- Each input window's current staging buffer holds its block at every point, fetched there or not. -/
theorem before18_0 (c : Dev nD) (t : Fin cfg18.N) (d) : (dat18 V c).before 0 t d = iblk18 V c 0 t :=
  ((dat18 V c).before_in_eq_fetched 0 rfl (fun _ => rfl) (fun _ _ _ => rfl) (fun t => by rw [after18_0]; unfold Dat.blockOf iblk18; rw [A18_eq]; try rfl) t d).trans
    (by unfold Dat.fetched Dat.blockOf iblk18; rw [A18_eq]; try rfl)
theorem before18_1 (c : Dev nD) (t : Fin cfg18.N) (d) : (dat18 V c).before 1 t d = iblk18 V c 1 t :=
  ((dat18 V c).before_in_eq_fetched 1 rfl (fun _ => rfl) (fun _ _ _ => rfl) (fun t => by rw [after18_1]; unfold Dat.blockOf iblk18; rw [A18_eq]; try rfl) t d).trans
    (by unfold Dat.fetched Dat.blockOf iblk18; rw [A18_eq]; try rfl)

/-! ## The body obligation at a generic point -/

def bodyPre18 (c : Dev nD) (t : Fin cfg18.N) : sProp 𝕄 :=
  iprop((dat18 V c).Φ t.castSucc ∗ (dat18 V c).owesAt () t.castSucc
    ∗ (∃ d, owns (c : Thread nD τ) (ms18_0 t) fullShare ((dat18 V c).before 0 t d))
    ∗ (∃ d, owns (c : Thread nD τ) (ms18_1 t) fullShare ((dat18 V c).before 1 t d))
    ∗ (∃ d, owns (c : Thread nD τ) (ms18_2 t) fullShare ((dat18 V c).before 2 t d)))

def bodyPost18 (c : Dev nD) (t : Fin cfg18.N) : sProp 𝕄 :=
  iprop((dat18 V c).Φ t.succ ∗ (dat18 V c).owesAt () t.succ
    ∗ (dat18 V c).leavesExact 0 t ∗ (dat18 V c).leavesExact 1 t ∗ (dat18 V c).leavesExact 2 t)

set_option maxHeartbeats 4000000 in
/-- The body at any point. The three input buffers hold their blocks; the point's position in its contraction
    selects the case; the invariant hands over the accumulator (at anything before the very first point, else at
    what the point before left) and takes it back at this point's contents; an idle output buffer is handed back
    as found, a stored one at the case's block; the core owes nothing throughout. -/
theorem sound_body18 (c : Dev nD) (t : Fin cfg18.N) :
    bodyPre18 V c t ⊢ wp frame (wpE (defs₀ (F := F)) Variants.none c none) Set.univ (bodyAt18 t) (fun _ => bodyPost18 V c t) := by
  unfold bodyPre18 bodyPost18 bodyAt18
  simp only [before18_0, before18_1]
  rw [show (dat18 V c).owesAt () t.succ = (dat18 V c).owesAt () t.castSucc from rfl]
  rw [show (dat18 V c).Φ t.succ = iprop(owns (c : Thread nD τ) scM18 fullShare (outsAt18 V c t.val t.isLt).2
      ∗ Pipeline.scopedRestBut (Ix := Unit) (Name := ℕ) (U := UR sig nD τ × Counters) (Lvl := ℕ) (Val := Elt F) spec18 c [cc18_scratch0]) from rfl]
  have hN : t.val < 16 := lt_of_lt_of_eq t.isLt (show cfg18.N = 16 from N_18)
  rw [show (dat18 V c).leavesExact 0 t = owns (c : Thread nD τ) (ms18_0 t) fullShare (iblk18 V c 0 t) from by
    unfold Dat.leavesExact; rw [liveAt18_0 t, after18_0]]
  rw [show (dat18 V c).leavesExact 1 t = owns (c : Thread nD τ) (ms18_1 t) fullShare (iblk18 V c 1 t) from by
    unfold Dat.leavesExact; rw [liveAt18_1 t, after18_1]]
  rw [Phi18_castSucc V c t]
  by_cases h1 : t.val % 4 = 3
  · -- the last block of a contraction
    have h0 : ¬t.val % 4 = 0 := by omega
    have hz : t.val ≠ 0 := by omega
    rw [show (dat18 V c).leavesExact 2 t = owns (c : Thread nD τ) (ms18_2 t) fullShare (outsAt18 V c t.val t.isLt).1 from by
      unfold Dat.leavesExact; rw [liveAt18_2 t ((hcond18_1 t).mpr h1), after18_2]]
    rw [outsAt18_C V c t h0 h1, PhiS18_pos V c _ _ hz]
    dsimp only
    unfold outC18 accC18
    iintro ⟨⟨HS, Hb⟩, Ho, ⟨%d0, H0⟩, ⟨%d1, H1⟩, ⟨%d3, H3⟩⟩
    iapply ((run18_C c (grid18.coords t) (ms18_0 t) (hs18_0 t) (ms18_1 t) (hs18_1 t) (ms18_2 t) (hs18_2 t) scM18 (Memref.isWhole_whole _) (fun h => h0 ((hcond18_0 t).mp h)) ((hcond18_1 t).mpr h1) (iblk18 V c 0 t) (iblk18 V c 1 t) _).2.2 Set.univ _)
    isplitl [H0]; · iexact H0
    isplitl [H1]; · iexact H1
    isplitl [H3]; · iexists _; iexact H3
    isplitl [HS]; · iexact HS
    iintro ⟨H0, H1, ⟨%e3, H3⟩, ⟨%es, HS⟩⟩
    isplitl [HS Hb]
    · isplitl [HS]
      · unfold owns; iexists _; isplitr
        swap; · iexact HS
        ipureintro; exact View.read_writes_of_cover _ _ _ _ _ (coverCs18 V c t h0 h1 _)
      iexact Hb
    isplitl [Ho]; · iexact Ho
    isplitl [H0]; · iexact H0
    isplitl [H1]; · iexact H1
    unfold owns; iexists _; isplitr
    swap; · iexact H3
    ipureintro; exact View.read_writes_of_cover _ _ _ _ _ (coverCo18 V c t h0 h1 _)
  · rw [Dat.leavesExact_idle (dat18 V c) 2 t (idleAt18_2 t (fun h => h1 ((hcond18_1 t).mp h))) (noFlush18_2 t (fun h => h1 ((hcond18_1 t).mp h)))]
    by_cases h0 : t.val % 4 = 0
    · -- the first block of a contraction
      rw [outsAt18_A V c t h0 h1]
      dsimp only
      unfold accA18
      by_cases hz : t.val = 0
      · rw [show PhiS18 V c t.val (Nat.le_of_lt t.isLt) = Pipeline.scopedRest (Ix := Unit) (Name := ℕ) (U := UR sig nD τ × Counters) (Lvl := ℕ) (Val := Elt F) spec18 c from by
          obtain ⟨n, hn⟩ := t; dsimp only at hz; subst hz; rfl, scopedRest18_eq]
        iintro ⟨⟨HS, Hb⟩, Ho, ⟨%d0, H0⟩, ⟨%d1, H1⟩, ⟨%d3, H3⟩⟩
        iapply ((run18_A c (grid18.coords t) (ms18_0 t) (hs18_0 t) (ms18_1 t) (hs18_1 t) (ms18_2 t) (hs18_2 t) scM18 (Memref.isWhole_whole _) ((hcond18_0 t).mpr h0) (fun h => h1 ((hcond18_1 t).mp h)) (iblk18 V c 0 t) (iblk18 V c 1 t)).2 _ Set.univ _)
        isplitl [H0]; · iexact H0
        isplitl [H1]; · iexact H1
        isplitl [H3]; · iexact H3
        isplitl [HS]; · iexact HS
        iintro ⟨H0, H1, H3, ⟨%es, HS⟩⟩
        isplitl [HS Hb]
        · isplitl [HS]
          · unfold owns; iexists _; isplitr
            swap; · iexact HS
            ipureintro; exact View.read_writes_of_cover _ _ _ _ _ (coverA18 V c t h0 h1)
          iexact Hb
        isplitl [Ho]; · iexact Ho
        isplitl [H0]; · iexact H0
        isplitl [H1]; · iexact H1
        iexists _; iexact H3
      · rw [PhiS18_pos V c _ _ hz]
        iintro ⟨⟨HS, Hb⟩, Ho, ⟨%d0, H0⟩, ⟨%d1, H1⟩, ⟨%d3, H3⟩⟩
        iapply ((run18_A c (grid18.coords t) (ms18_0 t) (hs18_0 t) (ms18_1 t) (hs18_1 t) (ms18_2 t) (hs18_2 t) scM18 (Memref.isWhole_whole _) ((hcond18_0 t).mpr h0) (fun h => h1 ((hcond18_1 t).mp h)) (iblk18 V c 0 t) (iblk18 V c 1 t)).2 _ Set.univ _)
        isplitl [H0]; · iexact H0
        isplitl [H1]; · iexact H1
        isplitl [H3]; · iexact H3
        isplitl [HS]; · iexists _; iexact HS
        iintro ⟨H0, H1, H3, ⟨%es, HS⟩⟩
        isplitl [HS Hb]
        · isplitl [HS]
          · unfold owns; iexists _; isplitr
            swap; · iexact HS
            ipureintro; exact View.read_writes_of_cover _ _ _ _ _ (coverA18 V c t h0 h1)
          iexact Hb
        isplitl [Ho]; · iexact Ho
        isplitl [H0]; · iexact H0
        isplitl [H1]; · iexact H1
        iexists _; iexact H3
    · -- a middle block
      have hz : t.val ≠ 0 := by omega
      rw [outsAt18_B V c t h0 h1, PhiS18_pos V c _ _ hz]
      dsimp only
      unfold accB18
      iintro ⟨⟨HS, Hb⟩, Ho, ⟨%d0, H0⟩, ⟨%d1, H1⟩, ⟨%d3, H3⟩⟩
      iapply ((run18_B c (grid18.coords t) (ms18_0 t) (hs18_0 t) (ms18_1 t) (hs18_1 t) (ms18_2 t) (hs18_2 t) scM18 (Memref.isWhole_whole _) (fun h => h0 ((hcond18_0 t).mp h)) (fun h => h1 ((hcond18_1 t).mp h)) (iblk18 V c 0 t) (iblk18 V c 1 t) _).2 _ Set.univ _)
      isplitl [H0]; · iexact H0
      isplitl [H1]; · iexact H1
      isplitl [H3]; · iexact H3
      isplitl [HS]; · iexact HS
      iintro ⟨H0, H1, H3, ⟨%es, HS⟩⟩
      isplitl [HS Hb]
      · isplitl [HS]
        · unfold owns; iexists _; isplitr
          swap; · iexact HS
          ipureintro; exact View.read_writes_of_cover _ _ _ _ _ (coverB18 V c t h0 h1 _)
        iexact Hb
      isplitl [Ho]; · iexact Ho
      isplitl [H0]; · iexact H0
      isplitl [H1]; · iexact H1
      iexists _; iexact H3

theorem body_obligation18 (c : Dev nD) : BodyObligation (dat18 V c) (defs₀ (F := F)) Variants.none () Set.univ := fun t => by
  rw [bigSep_W18, bigSep_W18]
  exact sound_body18 V c t

/-! ## The region over the thread state -/

variable (Vp : (c : Dev nD) → (b : Ref sig .tc) → Buf (Elt F) ((c : Thread nD τ).loc b))
variable (pdats : (p : Fin 22) → (c : Dev nD) → Dat τ (Elt F) Unit ℕ (UR sig nD τ × Counters) ℕ (cfgs p) c)

/-- The result's array after the region, as the pipeline library computes it from the proof data. -/
def out18 (c : Dev nD) : Buf (Elt F) ((c : Thread nD τ).loc main_v37) := (dat18 V c).arrAt 2 cfg18.N

set_option backward.isDefEq.respectTransparency.types false in
set_option maxHeartbeats 2000000 in
/-- Launch 18 over the thread state "every unscoped buffer at `V c`, the core owing nothing": entered by
    splitting its three arrays out of the unscoped buffers, left with them put back at `Vp c`, which has the
    result's array at `out18` and agrees with `V c` elsewhere. -/
def reg18 (hp : ∀ c, pdats 18 c = dat18 V c)
    (hVp_out : ∀ c, Vp c main_v37 = out18 V c)
    (hVp_ne : ∀ c (b : Ref sig .tc), b ≠ main_v37 → Vp c b = V c b) :
    Pipeline.RegionSeg (pcfgs (F := F)) (fun p => (cfgs p).toPCfg_adm) pdats () defs₀ Variants.none (fun _ => (∅ : Finset Unit)) (fun _ _ => (0 : ℕ)) 18 where
  win := launch18.win.to₀
  block_pos := launch18.block_pos
  stage_whole := launch18.stage_whole
  K := PEmpty
  osem k := k.elim
  ho := Pipeline.OwnSemFacts.none _
  hbody c := by rw [hp c]; exact (body_obligation18 V c).loose
  hwaits := Pipeline.hwaits_of_owed_zero _ _ _ _ _ _ 18 fun c t => by rw [hp c]; rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ × Counters) (Lvl := ℕ) spec18 c (V c)
  hentry c := by
    rw [Pipeline.ownSems0_none]
    have hsplit := Pipeline.arrays_of_unscopedBufs (p := 18) (pcfgs (F := F)) (fun p => (cfgs p).toPCfg_adm) pdats launch18.win launch18.arr_whole c
      ((pdats 18 c).share_full fun w => by rw [hp c]; rfl) (V c) (fun w => by rw [hp c]; rfl)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hp c]
      unfold Pipeline.Dat.owesAt Pipeline.owesWithin
      icases HO with ⟨%W, HO⟩; iexists W; isplitr; · ipureintro; exact fun _ _ => Or.inl trivial
      iexact HO
    isplitr; · iempintro
    iexact Hrest
  hin c := by
    rw [hp c, show (dat18 V c).Φ 0 = Pipeline.scopedRest (Ix := Unit) (Name := ℕ) (U := UR sig nD τ × Counters) (Lvl := ℕ) (Val := Elt F) spec18 c from rfl]
    iintro ⟨-, -, Hr⟩; iexact Hr
  hout c := by
    rw [Pipeline.ownSems0_none, hp c]
    refine (Entails.of_eq ((show (dat18 V c).Φ (Fin.last _) = PhiS18 V c (Fin.last cfg18.N).val (Nat.le_of_lt_succ (Fin.last cfg18.N).isLt) from rfl).trans
      (PhiS18_pos V c _ _ (by rw [Fin.val_last]; have : cfg18.N = 16 := N_18; omega)))).trans ?_
    change _ ⊢ iprop(BI.emp ∗ BI.emp ∗ Pipeline.scopedRest (Ix := Unit) (Name := ℕ) (U := UR sig nD τ × Counters) (Lvl := ℕ) (Val := Elt F) spec18 c)
    rw [scopedRest18_eq]
    iintro ⟨HS, Hb⟩
    isplitr; · iempintro
    isplitr; · iempintro
    isplitl [HS]; · iexists _; iexact HS
    iexact Hb
  hexit c := by
    have hjoin := Pipeline.unscopedBufs_of_arrays (p := 18) (pcfgs (F := F)) (fun p => (cfgs p).toPCfg_adm) (Ix := Unit) (Name := ℕ) (U := UR sig nD τ × Counters) (Lvl := ℕ) launch18.win launch18.arr_whole c
      pdats ((pdats 18 c).share_full fun w => by rw [hp c]; rfl) (V c) (Vp c) ((pdats 18 c).arrAt · cfg18.N)
      (fun w => by
        fin_cases w
        · exact (((pdats 18 c).arrAt_in 0 rfl _).trans (by rw [hp c]; rfl)).trans (hVp_ne c main_v1 (by decide)).symm
        · exact (((pdats 18 c).arrAt_in 1 rfl _).trans (by rw [hp c]; rfl)).trans (hVp_ne c main_v36 (by decide)).symm
        · exact (by rw [hp c]; rfl : (pdats 18 c).arrAt 2 cfg18.N = out18 V c).trans (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W
    rw [show (pdats 18 c).owed (Fin.last _) = 0 from by rw [hp c]; rfl]
    iexact HO

end Cert.KernelIdeal.Hand

end
-- ==== Proof.KI.R19Base.lean ====
/-
  Launch 19 of the program: one matrix product per grid point — the contraction is a single block —, a bias row
  added and tanh applied, the output block stored at every point. The grid's third coordinate is always 0, so both
  conditions of the body — "the contraction's first block" and "its last block" — hold at every point: this module
  decides them over the grid's points, records that no window is ever idle, and names the staging memrefs the body
  is called with.
-/
import proofs.«113214_j66838281060556_2_alg».proof.Proof.Gen.KernelIdeal.Launch
import proofs.«113214_j66838281060556_2_alg».proof.Proof.Gen.KernelIdeal.Skeleton
import proofs.«113214_j66838281060556_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

/-- The accumulator is reset: the point starts a contraction (third grid coordinate 0). Here the third axis has one
    coordinate, so every point does. -/
abbrev cond19_0 (i : grid19.Coords) : Prop := (Scalar.cmpi .ne (Scalar.extui (Scalar.cmpi .eq (BitVec.ofNat 32 (i 2).val) 0#32)) 0#32) = 1#1
theorem hcond19_0 : ∀ t : Fin cfg19.N, cond19_0 (grid19.coords t) :=
  (by decide +kernel : ∀ t : Fin grid19.N, cond19_0 (grid19.coords t))

/-- The result is stored: the point ends a contraction. Every point does. -/
abbrev cond19_1 (i : grid19.Coords) : Prop := k19_cond2 i = 1#1
theorem hcond19_1 : ∀ t : Fin cfg19.N, cond19_1 (grid19.coords t) :=
  (by decide +kernel : ∀ t : Fin grid19.N, cond19_1 (grid19.coords t))

/-- No window is idle at any point: the three inputs never, the output because every point stores. -/
theorem liveAt19_0 : ∀ t : Fin cfg19.N, cfg19.idle 0 (grid19.coords t) = false := by decide +kernel
theorem liveAt19_1 : ∀ t : Fin cfg19.N, cfg19.idle 1 (grid19.coords t) = false := by decide +kernel
theorem liveAt19_2 : ∀ t : Fin cfg19.N, cfg19.idle 2 (grid19.coords t) = false := by decide +kernel
theorem liveAt19_3 : ∀ t : Fin cfg19.N, cfg19.idle 3 (grid19.coords t) = false := by decide +kernel

/-- Each window's current staging memref at a point, as the pipeline passes it, and its wholeness. -/
abbrev ms19_0 (t : Fin cfg19.N) : Memref sig .tc .vmem S1024x819 .bf16 := win19_0.stage (cfg19.slots t 0)
abbrev hs19_0 (t : Fin cfg19.N) : (ms19_0 t).IsWhole := hstage19_0 ((cfg19.slots t 0).cast nbuf19_0)
abbrev ms19_1 (t : Fin cfg19.N) : Memref sig .tc .vmem S819x1024 .f32 := win19_1.stage (cfg19.slots t 1)
abbrev hs19_1 (t : Fin cfg19.N) : (ms19_1 t).IsWhole := hstage19_1 ((cfg19.slots t 1).cast nbuf19_1)
abbrev ms19_2 (t : Fin cfg19.N) : Memref sig .tc .vmem S1x1024 .f32 := win19_2.stage (cfg19.slots t 2)
abbrev hs19_2 (t : Fin cfg19.N) : (ms19_2 t).IsWhole := hstage19_2 ((cfg19.slots t 2).cast nbuf19_2)
abbrev ms19_3 (t : Fin cfg19.N) : Memref sig .tc .vmem S1024x1024 .f32 := win19_3.stage (cfg19.slots t 3)
abbrev hs19_3 (t : Fin cfg19.N) : (ms19_3 t).IsWhole := hstage19_3 ((cfg19.slots t 3).cast nbuf19_3)
/-- The accumulator: a whole scoped buffer of the launch's own. -/
abbrev scM19 : Memref sig .tc .vmem S1024x1024 .f32 := Memref.whole cc19_scratch0
abbrev VS19 : View sig .tc .vmem S1024x1024 .f32 := scM19.view

end Cert.KernelIdeal.Hand

end
-- ==== Proof.KI.R19Run.lean ====
/-
  Launch 19, the body run symbolically in its one control case: the accumulator reset, the product added, the bias
  row added and tanh applied into the output block. The run's witnesses are the lists of pieces its stores leave in
  the output block and in the accumulator.
-/
import proofs.«113214_j66838281060556_2_alg».proof.Proof.KI.R19Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

set_option maxHeartbeats 2000000 in
/-- The body at a point, run symbolically: the accumulator, found at anything, is reset to zero and ends at the
    product of the two input blocks added to zero; the output block, found at anything, is stored whole: tanh of
    that sum plus the bias row. The witnesses are the pieces the stores leave in the output block and in the
    accumulator. -/
noncomputable def run19 (c : Dev nD) (i : grid19.Coords) (arg3 : Memref sig .tc .vmem S1024x819 .bf16) (harg3 : arg3.IsWhole) (arg4 : Memref sig .tc .vmem S819x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond19_0 i) (hc1 : cond19_1 i)
    (x0 : Vec F S1024x819 .bf16) (x1 : Vec F S819x1024 .f32) (x2 : Vec F S1x1024 .f32) :
    Σ' (LO : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LS)) -∗ K ⟨⟩))
          ⊢ wp frame (wpE (defs₀ (F := F)) Variants.none c none) E (cc19__mm_kernel i arg3 harg3 arg4 harg4 arg5 harg5 arg6 harg6 arg7 harg7) K } := by
  refine ⟨?_, ?_, fun E K => ?run⟩
  case run =>
    simp only [cc19__mm_kernel_eq_skeleton]; unfold cc19__mm_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    iexists _; iexact HS

end Cert.KernelIdeal.Hand

end
-- ==== Proof.KI.R19.lean ====
/-
  Launch 19 as a region of the program. The blocks the windows stage are read off the arrays as the region finds
  them; a point stores the output block its run leaves; the accumulator is reset at every point, so between points
  the launch's scoped buffers that no window stages are simply held whole at anything; the body obligation follows
  from the one symbolic run; and the region is stated over the thread state "every unscoped buffer at given
  contents, the core owing nothing", entered by splitting its arrays out and left with the result's array
  at what the pipeline computes from the stored blocks.
-/
import proofs.«113214_j66838281060556_2_alg».proof.Proof.KI.R19Run
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

variable (V : (c : Dev nD) → (b : Ref sig .tc) → Buf (Elt F) ((c : Thread nD τ).loc b))

/-! ## The blocks the windows stage -/

/-- Window `w`'s block at point `t`, read off its array as the region finds it. -/
def iblk19 (c : Dev nD) (w : Fin cfg19.W) (t : Fin cfg19.N) : ((cfg19.win w).xblock (cfg19.grid.coords t)).Idx → Elt F (cfg19.win w).elt :=
  ((cfg19.win w).blk t).view.read (Elt F) (V c (Pipeline.arrRef spec19 w))

/-- A view of the output's staging buffer, through which contents are stated. -/
abbrev VO19 : View sig .tc .vmem S1024x1024 .f32 := (Memref.whole cc19_stg3_0 : Memref sig .tc .vmem S1024x1024 .f32).view

/-! ## What a point leaves -/

/-- The output block a point stores: what the run's pieces leave, read through the staging buffer's view. -/
def out19 (c : Dev nD) (t : Fin cfg19.N) : Vec F S1024x1024 .f32 :=
  VO19.read (Elt F) (VO19.writes (Elt F) VO19.junk (run19 c (grid19.coords t) (ms19_0 t) (hs19_0 t) (ms19_1 t) (hs19_1 t) (ms19_2 t) (hs19_2 t) (ms19_3 t) (hs19_3 t) scM19 (Memref.isWhole_whole _) (hcond19_0 t) (hcond19_1 t) (iblk19 V c 0 t) (iblk19 V c 1 t) (iblk19 V c 2 t)).1)

/-- The stores into the output block cover it. -/
theorem coverO19 (c : Dev nD) (t : Fin cfg19.N) (y : S1024x1024.Idx) :
    ∃ pc ∈ (run19 c (grid19.coords t) (ms19_0 t) (hs19_0 t) (ms19_1 t) (hs19_1 t) (ms19_2 t) (hs19_2 t) (ms19_3 t) (hs19_3 t) scM19 (Memref.isWhole_whole _) (hcond19_0 t) (hcond19_1 t) (iblk19 V c 0 t) (iblk19 V c 1 t) (iblk19 V c 2 t)).1, y ∈ pc.1.set :=
  View.cover_of_tiledL _ S1024x1024.size (by sl_kernel_rfl) y

/-! ## The invariant between points -/

/-- The scoped rest with the accumulator split out as a memref owned at some contents. The accumulator is reset at
    every point, so the invariant between points is the scoped rest itself, the accumulator at anything. -/
theorem scopedRest19_eq (c : Dev nD) :
    (Pipeline.scopedRest (Ix := Unit) (Name := ℕ) (U := UR sig nD τ × Counters) (Lvl := ℕ) (Val := Elt F) spec19 c : sProp 𝕄)
      = iprop((∃ d, owns (c : Thread nD τ) scM19 fullShare d)
          ∗ Pipeline.scopedRestBut (Ix := Unit) (Name := ℕ) (U := UR sig nD τ × Counters) (Lvl := ℕ) (Val := Elt F) spec19 c [cc19_scratch0]) := by
  rw [scopedRest19_split]; simp only [scM19, owns_whole]; try rfl

/-! ## The proof data -/

def dat19 (c : Dev nD) : Dat τ (Elt F) Unit ℕ (UR sig nD τ × Counters) ℕ cfg19 c where
  A w := V c (Pipeline.arrRef spec19 w)
  after w t := match w with
    | ⟨0, _⟩ => iblk19 V c 0 t
    | ⟨1, _⟩ => iblk19 V c 1 t
    | ⟨2, _⟩ => iblk19 V c 2 t
    | ⟨3, _⟩ => out19 V c t
  Φ _ := Pipeline.scopedRest (Ix := Unit) (Name := ℕ) (U := UR sig nD τ × Counters) (Lvl := ℕ) (Val := Elt F) spec19 c
  q _ := fullShare
  owed _ := 0

theorem A19_eq (c : Dev nD) (w : Fin cfg19.W) : (dat19 V c).A w = V c (Pipeline.arrRef spec19 w) := by
  dsimp only [dat19]
theorem after19_0 (c : Dev nD) (t : Fin cfg19.N) : (dat19 V c).after 0 t = iblk19 V c 0 t := by dsimp only [dat19]
theorem after19_1 (c : Dev nD) (t : Fin cfg19.N) : (dat19 V c).after 1 t = iblk19 V c 1 t := by dsimp only [dat19]
theorem after19_2 (c : Dev nD) (t : Fin cfg19.N) : (dat19 V c).after 2 t = iblk19 V c 2 t := by dsimp only [dat19]
theorem after19_3 (c : Dev nD) (t : Fin cfg19.N) : (dat19 V c).after 3 t = out19 V c t := by dsimp only [dat19]

/-- Each input window's current staging buffer holds its block at every point, fetched there or not. -/
theorem before19_0 (c : Dev nD) (t : Fin cfg19.N) (d) : (dat19 V c).before 0 t d = iblk19 V c 0 t :=
  ((dat19 V c).before_in_eq_fetched 0 rfl (fun _ => rfl) (fun _ _ _ => rfl) (fun t => by rw [after19_0]; unfold Dat.blockOf iblk19; rw [A19_eq]; try rfl) t d).trans
    (by unfold Dat.fetched Dat.blockOf iblk19; rw [A19_eq]; try rfl)
theorem before19_1 (c : Dev nD) (t : Fin cfg19.N) (d) : (dat19 V c).before 1 t d = iblk19 V c 1 t :=
  ((dat19 V c).before_in_eq_fetched 1 rfl (fun _ => rfl) (fun _ _ _ => rfl) (fun t => by rw [after19_1]; unfold Dat.blockOf iblk19; rw [A19_eq]; try rfl) t d).trans
    (by unfold Dat.fetched Dat.blockOf iblk19; rw [A19_eq]; try rfl)
theorem before19_2 (c : Dev nD) (t : Fin cfg19.N) (d) : (dat19 V c).before 2 t d = iblk19 V c 2 t :=
  ((dat19 V c).before_in_eq_fetched 2 rfl (fun _ => rfl) (fun _ _ _ => rfl) (fun t => by rw [after19_2]; unfold Dat.blockOf iblk19; rw [A19_eq]; try rfl) t d).trans
    (by unfold Dat.fetched Dat.blockOf iblk19; rw [A19_eq]; try rfl)

/-! ## The body obligation at a generic point -/

def bodyPre19 (c : Dev nD) (t : Fin cfg19.N) : sProp 𝕄 :=
  iprop((dat19 V c).Φ t.castSucc ∗ (dat19 V c).owesAt () t.castSucc
    ∗ (∃ d, owns (c : Thread nD τ) (ms19_0 t) fullShare ((dat19 V c).before 0 t d))
    ∗ (∃ d, owns (c : Thread nD τ) (ms19_1 t) fullShare ((dat19 V c).before 1 t d))
    ∗ (∃ d, owns (c : Thread nD τ) (ms19_2 t) fullShare ((dat19 V c).before 2 t d))
    ∗ (∃ d, owns (c : Thread nD τ) (ms19_3 t) fullShare ((dat19 V c).before 3 t d)))

def bodyPost19 (c : Dev nD) (t : Fin cfg19.N) : sProp 𝕄 :=
  iprop((dat19 V c).Φ t.succ ∗ (dat19 V c).owesAt () t.succ
    ∗ (dat19 V c).leavesExact 0 t ∗ (dat19 V c).leavesExact 1 t ∗ (dat19 V c).leavesExact 2 t ∗ (dat19 V c).leavesExact 3 t)

set_option maxHeartbeats 4000000 in
/-- The body at any point. The input buffers hold their blocks; the invariant hands over the accumulator at
    anything and takes it back at anything; the output buffer, found at anything, is handed back at the block the
    point stores; the core owes nothing throughout. -/
theorem sound_body19 (c : Dev nD) (t : Fin cfg19.N) :
    bodyPre19 V c t ⊢ wp frame (wpE (defs₀ (F := F)) Variants.none c none) Set.univ (bodyAt19 t) (fun _ => bodyPost19 V c t) := by
  unfold bodyPre19 bodyPost19 bodyAt19
  simp only [before19_0, before19_1, before19_2]
  rw [show (dat19 V c).owesAt () t.succ = (dat19 V c).owesAt () t.castSucc from rfl]
  rw [show (dat19 V c).Φ t.succ = Pipeline.scopedRest (Ix := Unit) (Name := ℕ) (U := UR sig nD τ × Counters) (Lvl := ℕ) (Val := Elt F) spec19 c from rfl,
    show (dat19 V c).Φ t.castSucc = Pipeline.scopedRest (Ix := Unit) (Name := ℕ) (U := UR sig nD τ × Counters) (Lvl := ℕ) (Val := Elt F) spec19 c from rfl]
  rw [show (dat19 V c).leavesExact 0 t = owns (c : Thread nD τ) (ms19_0 t) fullShare (iblk19 V c 0 t) from by
    unfold Dat.leavesExact; rw [liveAt19_0 t, after19_0]]
  rw [show (dat19 V c).leavesExact 1 t = owns (c : Thread nD τ) (ms19_1 t) fullShare (iblk19 V c 1 t) from by
    unfold Dat.leavesExact; rw [liveAt19_1 t, after19_1]]
  rw [show (dat19 V c).leavesExact 2 t = owns (c : Thread nD τ) (ms19_2 t) fullShare (iblk19 V c 2 t) from by
    unfold Dat.leavesExact; rw [liveAt19_2 t, after19_2]]
  rw [show (dat19 V c).leavesExact 3 t = owns (c : Thread nD τ) (ms19_3 t) fullShare (out19 V c t) from by
    unfold Dat.leavesExact; rw [liveAt19_3 t, after19_3]]
  rw [scopedRest19_eq]
  unfold out19
  iintro ⟨⟨HS, Hb⟩, Ho, ⟨%d0, H0⟩, ⟨%d1, H1⟩, ⟨%d2, H2⟩, ⟨%d3, H3⟩⟩
  iapply ((run19 c (grid19.coords t) (ms19_0 t) (hs19_0 t) (ms19_1 t) (hs19_1 t) (ms19_2 t) (hs19_2 t) (ms19_3 t) (hs19_3 t) scM19 (Memref.isWhole_whole _) (hcond19_0 t) (hcond19_1 t) (iblk19 V c 0 t) (iblk19 V c 1 t) (iblk19 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS Hb]
  · isplitl [HS]
    · iexists _; unfold owns; iexists _; isplitr
      swap; · iexact HS
      ipureintro; rfl
    iexact Hb
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (coverO19 V c t)

theorem body_obligation19 (c : Dev nD) : BodyObligation (dat19 V c) (defs₀ (F := F)) Variants.none () Set.univ := fun t => by
  rw [bigSep_W19, bigSep_W19]
  exact sound_body19 V c t

/-! ## The region over the thread state -/

variable (Vp : (c : Dev nD) → (b : Ref sig .tc) → Buf (Elt F) ((c : Thread nD τ).loc b))
variable (pdats : (p : Fin 22) → (c : Dev nD) → Dat τ (Elt F) Unit ℕ (UR sig nD τ × Counters) ℕ (cfgs p) c)

/-- The result's array after the region, as the pipeline library computes it from the proof data. -/
def out19arr (c : Dev nD) : Buf (Elt F) ((c : Thread nD τ).loc main_v39) := (dat19 V c).arrAt 3 cfg19.N

set_option backward.isDefEq.respectTransparency.types false in
set_option maxHeartbeats 2000000 in
/-- Launch 19 over the thread state "every unscoped buffer at `V c`, the core owing nothing": entered by
    splitting its arrays out of the unscoped buffers, left with them put back at `Vp c`, which has the
    result's array at `out19arr` and agrees with `V c` elsewhere. -/
def reg19 (hp : ∀ c, pdats 19 c = dat19 V c)
    (hVp_out : ∀ c, Vp c main_v39 = out19arr V c)
    (hVp_ne : ∀ c (b : Ref sig .tc), b ≠ main_v39 → Vp c b = V c b) :
    Pipeline.RegionSeg (pcfgs (F := F)) (fun p => (cfgs p).toPCfg_adm) pdats () defs₀ Variants.none (fun _ => (∅ : Finset Unit)) (fun _ _ => (0 : ℕ)) 19 where
  win := launch19.win.to₀
  block_pos := launch19.block_pos
  stage_whole := launch19.stage_whole
  K := PEmpty
  osem k := k.elim
  ho := Pipeline.OwnSemFacts.none _
  hbody c := by rw [hp c]; exact (body_obligation19 V c).loose
  hwaits := Pipeline.hwaits_of_owed_zero _ _ _ _ _ _ 19 fun c t => by rw [hp c]; rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ × Counters) (Lvl := ℕ) spec19 c (V c)
  hentry c := by
    rw [Pipeline.ownSems0_none]
    have hsplit := Pipeline.arrays_of_unscopedBufs (p := 19) (pcfgs (F := F)) (fun p => (cfgs p).toPCfg_adm) pdats launch19.win launch19.arr_whole c
      ((pdats 19 c).share_full fun w => by rw [hp c]; rfl) (V c) (fun w => by rw [hp c]; rfl)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hp c]; exact trivial)
      rw [show (pdats 19 c).owed 0 = 0 from by rw [hp c]; rfl]
      iexact HO
    isplitr; · iempintro
    iexact Hrest
  hin c := by
    rw [hp c, show (dat19 V c).Φ 0 = Pipeline.scopedRest (Ix := Unit) (Name := ℕ) (U := UR sig nD τ × Counters) (Lvl := ℕ) (Val := Elt F) spec19 c from rfl]
    iintro ⟨-, -, Hr⟩; iexact Hr
  hout c := by
    rw [Pipeline.ownSems0_none, hp c]
    change (Pipeline.scopedRest (Ix := Unit) (Name := ℕ) (U := UR sig nD τ × Counters) (Lvl := ℕ) (Val := Elt F) spec19 c : sProp 𝕄) ⊢ _
    iintro Hr
    isplitr; · iempintro
    isplitr; · iempintro
    iexact Hr
  hexit c := by
    have hjoin := Pipeline.unscopedBufs_of_arrays (p := 19) (pcfgs (F := F)) (fun p => (cfgs p).toPCfg_adm) (Ix := Unit) (Name := ℕ) (U := UR sig nD τ × Counters) (Lvl := ℕ) launch19.win launch19.arr_whole c
      pdats ((pdats 19 c).share_full fun w => by rw [hp c]; rfl) (V c) (Vp c) ((pdats 19 c).arrAt · cfg19.N)
      (fun w => by
        fin_cases w
        · exact (((pdats 19 c).arrAt_in 0 rfl _).trans (by rw [hp c]; rfl)).trans (hVp_ne c main_v37 (by decide)).symm
        · exact (((pdats 19 c).arrAt_in 1 rfl _).trans (by rw [hp c]; rfl)).trans (hVp_ne c main_arg17 (by decide)).symm
        · exact (((pdats 19 c).arrAt_in 2 rfl _).trans (by rw [hp c]; rfl)).trans (hVp_ne c main_v38 (by decide)).symm
        · exact (by rw [hp c]; rfl : (pdats 19 c).arrAt 3 cfg19.N = out19arr V c).trans (hVp_out c).symm)
      (fun b hb => hVp_ne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W
    rw [show (pdats 19 c).owed (Fin.last _) = 0 from by rw [hp c]; rfl]
    iexact HO

end Cert.KernelIdeal.Hand

end
-- ==== Proof.KI.R20Base.lean ====
/-
  Launch 20 of the program: a matrix product accumulated over the third grid axis (grid 4 × 1 × 4: four row blocks,
  four contraction blocks), stored — with no bias and no activation — when
  the last block has been added. This module names the two conditions of the body on the grid point ("the
  contraction's first block", "its last block"), decides them over the sixteen points, and records where the
  output window is idle and where its block is written back.
-/
import proofs.«113214_j66838281060556_2_alg».proof.Proof.Gen.KernelIdeal.Launch
import proofs.«113214_j66838281060556_2_alg».proof.Proof.Gen.KernelIdeal.Skeleton
import proofs.«113214_j66838281060556_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

/-- The accumulator is reset: the point starts a contraction (third grid coordinate 0). -/
abbrev cond20_0 (i : grid20.Coords) : Prop := (Scalar.cmpi .ne (Scalar.extui (Scalar.cmpi .eq (BitVec.ofNat 32 (i 2).val) 0#32)) 0#32) = 1#1
theorem hcond20_0 : ∀ t : Fin cfg20.N, cond20_0 (grid20.coords t) ↔ t.val % 4 = 0 :=
  (by decide +kernel : ∀ t : Fin grid20.N, cond20_0 (grid20.coords t) ↔ t.val % 4 = 0)

/-- The result is stored: the point ends a contraction (third grid coordinate 3). -/
abbrev cond20_1 (i : grid20.Coords) : Prop := k20_cond2 i = 1#1
theorem hcond20_1 : ∀ t : Fin cfg20.N, cond20_1 (grid20.coords t) ↔ t.val % 4 = 3 :=
  (by decide +kernel : ∀ t : Fin grid20.N, cond20_1 (grid20.coords t) ↔ t.val % 4 = 3)

/-- The two input windows are never idle. -/
theorem liveAt20_0 : ∀ t : Fin cfg20.N, cfg20.idle 0 (grid20.coords t) = false := by decide +kernel
theorem liveAt20_1 : ∀ t : Fin cfg20.N, cfg20.idle 1 (grid20.coords t) = false := by decide +kernel
/-- Away from a contraction's last block the output window is idle and its block is not written back. -/
theorem idleAt20_2 : ∀ t : Fin cfg20.N, ¬cond20_1 (grid20.coords t) → cfg20.idle 2 (grid20.coords t) = true := by decide +kernel
theorem noFlush20_2 : ∀ t : Fin cfg20.N, ¬cond20_1 (grid20.coords t) → (cfg20.win 2).flush t = false := by decide +kernel
/-- At a contraction's last block the output window is live. -/
theorem liveAt20_2 : ∀ t : Fin cfg20.N, cond20_1 (grid20.coords t) → cfg20.idle 2 (grid20.coords t) = false := by decide +kernel

/-- Each window's current staging memref at a point, as the pipeline passes it, and its wholeness. -/
abbrev ms20_0 (t : Fin cfg20.N) : Memref sig .tc .vmem S1024x1024 .bf16 := win20_0.stage (cfg20.slots t 0)
abbrev hs20_0 (t : Fin cfg20.N) : (ms20_0 t).IsWhole := hstage20_0 ((cfg20.slots t 0).cast nbuf20_0)
abbrev ms20_1 (t : Fin cfg20.N) : Memref sig .tc .vmem S1024x1024 .f32 := win20_1.stage (cfg20.slots t 1)
abbrev hs20_1 (t : Fin cfg20.N) : (ms20_1 t).IsWhole := hstage20_1 ((cfg20.slots t 1).cast nbuf20_1)
abbrev ms20_2 (t : Fin cfg20.N) : Memref sig .tc .vmem S1024x1024 .bf16 := win20_2.stage (cfg20.slots t 2)
abbrev hs20_2 (t : Fin cfg20.N) : (ms20_2 t).IsWhole := hstage20_2 ((cfg20.slots t 2).cast nbuf20_2)
/-- The accumulator: a whole scoped buffer of the launch's own. -/
abbrev scM20 : Memref sig .tc .vmem S1024x1024 .f32 := Memref.whole cc20_scratch0
abbrev VS20 : View sig .tc .vmem S1024x1024 .f32 := scM20.view

end Cert.KernelIdeal.Hand

end
-- ==== Proof.KI.R20Run.lean ====
/-
  Launch 20, the body run symbolically in each of its three control cases: the first block of a contraction
  (the accumulator reset, then the first product added), a middle block (the product added), the last block
  (the product added, then the sum stored into the output block in the output's format). Each run's witness
  is the list of pieces its stores leave in the accumulator (and, in the last case, in the output block).
-/
import proofs.«113214_j66838281060556_2_alg».proof.Proof.KI.R20Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

set_option maxHeartbeats 2000000 in
/-- The first block of a contraction that is not also its last: the accumulator, found at anything, is reset to
    zero and ends at the product of the two input blocks added to zero; the idle output block is handed back
    untouched. The pieces written into the accumulator are the witness the symbolic run finds. -/
noncomputable def run20_A (c : Dev nD) (i : grid20.Coords) (arg3 : Memref sig .tc .vmem S1024x1024 .bf16) (harg3 : arg3.IsWhole) (arg4 : Memref sig .tc .vmem S1024x1024 .f32) (harg4 : arg4.IsWhole) (arg5 : Memref sig .tc .vmem S1024x1024 .bf16) (harg5 : arg5.IsWhole) (arg6 : Memref sig .tc .vmem S1024x1024 .f32) (harg6 : arg6.IsWhole) (hc0 : cond20_0 i) (hc1 : ¬cond20_1 i)
    (x0 : Vec F S1024x1024 .bf16) (x1 : Vec F S1024x1024 .f32) :
    { LS : List (View.Piece (Elt F) S1024x1024 .f32) //
      ∀ (xi : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi ∗ (∃ d, owns (c : Thread nD τ) arg6 fullShare d)
            ∗ (iprop(owns (c : Thread nD τ) arg3 fullShare x0 ∗ owns (c : Thread nD τ) arg4 fullShare x1 ∗ owns (c : Thread nD τ) arg5 fullShare xi
                ∗ (∃ f, arg6.view.loc (c : Thread nD τ) ↦[arg6.view.set]{fullShare} arg6.view.writes (Elt F) f LS)) -∗ K ⟨⟩))
          ⊢ wp frame (wpE (defs₀ (F := F)) Variants.none c none) E (cc20__mm_kernel i arg3 harg3 arg4 harg4 arg5 harg5 arg6 harg6) K } := by
  refine ⟨?_, fun xi E K => ?run⟩
  case run =>
    simp only [cc20__mm_kernel_eq_skeleton]; unfold cc20__mm_kernel_skel
    unfold owns
    iintro ⟨⟨%f0, %hf0, H0⟩, ⟨%f1, %hf1, H1⟩, ⟨%f3, %hf3, H3⟩, ⟨%ds, %fs, -, HS⟩, Hk⟩
    obtain rfl := harg3.eq_unread hf0; obtain rfl := harg4.eq_unread hf1; obtain rfl := harg5.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H3]
    · iexists _; isplitr; · ipureintro; exact harg5.read_unread _
      iexact H3
    iexists _; iexact HS

set_option maxHeartbeats 2000000 in
/-- A middle block of a contraction: the accumulator, found at `xs`, ends at the product of the two input
    blocks added to `xs`; the idle output block is handed back untouched. -/
noncomputable def run20_B (c : Dev nD) (i : grid20.Coords) (arg3 : Memref sig .tc .vmem S1024x1024 .bf16) (harg3 : arg3.IsWhole) (arg4 : Memref sig .tc .vmem S1024x1024 .f32) (harg4 : arg4.IsWhole) (arg5 : Memref sig .tc .vmem S1024x1024 .bf16) (harg5 : arg5.IsWhole) (arg6 : Memref sig .tc .vmem S1024x1024 .f32) (harg6 : arg6.IsWhole) (hc0 : ¬cond20_0 i) (hc1 : ¬cond20_1 i)
    (x0 : Vec F S1024x1024 .bf16) (x1 : Vec F S1024x1024 .f32) (xs : Vec F S1024x1024 .f32) :
    { LS : List (View.Piece (Elt F) S1024x1024 .f32) //
      ∀ (xi : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi ∗ owns (c : Thread nD τ) arg6 fullShare xs
            ∗ (iprop(owns (c : Thread nD τ) arg3 fullShare x0 ∗ owns (c : Thread nD τ) arg4 fullShare x1 ∗ owns (c : Thread nD τ) arg5 fullShare xi
                ∗ (∃ f, arg6.view.loc (c : Thread nD τ) ↦[arg6.view.set]{fullShare} arg6.view.writes (Elt F) f LS)) -∗ K ⟨⟩))
          ⊢ wp frame (wpE (defs₀ (F := F)) Variants.none c none) E (cc20__mm_kernel i arg3 harg3 arg4 harg4 arg5 harg5 arg6 harg6) K } := by
  refine ⟨?_, fun xi E K => ?run⟩
  case run =>
    simp only [cc20__mm_kernel_eq_skeleton]; unfold cc20__mm_kernel_skel
    unfold owns
    iintro ⟨⟨%f0, %hf0, H0⟩, ⟨%f1, %hf1, H1⟩, ⟨%f3, %hf3, H3⟩, ⟨%fs, %hfs, HS⟩, Hk⟩
    obtain rfl := harg3.eq_unread hf0; obtain rfl := harg4.eq_unread hf1; obtain rfl := harg5.eq_unread hf3
    obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H3]
    · iexists _; isplitr; · ipureintro; exact harg5.read_unread _
      iexact H3
    iexists _; iexact HS

set_option maxHeartbeats 2000000 in
/-- The last block of a contraction that is not also its first: the accumulator, found at `xs`, ends at the
    product of the two input blocks added to `xs`, and the output block, found at anything, is stored whole:
    that sum in the output's format. -/
noncomputable def run20_C (c : Dev nD) (i : grid20.Coords) (arg3 : Memref sig .tc .vmem S1024x1024 .bf16) (harg3 : arg3.IsWhole) (arg4 : Memref sig .tc .vmem S1024x1024 .f32) (harg4 : arg4.IsWhole) (arg5 : Memref sig .tc .vmem S1024x1024 .bf16) (harg5 : arg5.IsWhole) (arg6 : Memref sig .tc .vmem S1024x1024 .f32) (harg6 : arg6.IsWhole) (hc0 : ¬cond20_0 i) (hc1 : cond20_1 i)
    (x0 : Vec F S1024x1024 .bf16) (x1 : Vec F S1024x1024 .f32) (xs : Vec F S1024x1024 .f32) :
    Σ' (LO : List (View.Piece (Elt F) S1024x1024 .bf16)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc20__mm_kernel i arg3 harg3 arg4 harg4 arg5 harg5 arg6 harg6) K } := by
  refine ⟨?_, ?_, fun E K => ?run⟩
  case run =>
    simp only [cc20__mm_kernel_eq_skeleton]; unfold cc20__mm_kernel_skel
    unfold owns
    iintro ⟨⟨%f0, %hf0, H0⟩, ⟨%f1, %hf1, H1⟩, ⟨%d3, %f3, -, H3⟩, ⟨%fs, %hfs, HS⟩, Hk⟩
    obtain rfl := harg3.eq_unread hf0; obtain rfl := harg4.eq_unread hf1
    obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H3]
    · iexists _; iexact H3
    iexists _; iexact HS

end Cert.KernelIdeal.Hand

end
-- ==== Proof.KI.R20.lean ====
/-
  Launch 20 as a segment of the program: the product A·B of a graph matrix with the right
  factor, computed block by block on the grid 4 × 1 × 4 with an accumulator carried along the contraction and
  stored in the output's format when a contraction ends. What the accumulator and the output block hold after
  each point is defined by recursion on the point; the invariant between points is the accumulator at that value
  beside the launch's other scoped buffers; the proof data states each window's block after the body; the body
  obligation is the three symbolic runs put together by cases on the point's position in its contraction; and
  the segment record enters the launch from a thread state holding every unscoped buffer at an entry valuation
  and leaves it at the valuation updated at the result's array.
-/
import proofs.«113214_j66838281060556_2_alg».proof.Proof.KI.R20Run
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

variable (V : (c : Dev nD) → (b : Ref sig .tc) → Buf (Elt F) ((c : Thread nD τ).loc b))

/-! ## The blocks the windows stage -/

/-- Window `w`'s block at point `t`, read off its array as the region finds it. -/
def iblk20 (c : Dev nD) (w : Fin cfg20.W) (t : Fin cfg20.N) : ((cfg20.win w).xblock (cfg20.grid.coords t)).Idx → Elt F (cfg20.win w).elt :=
  ((cfg20.win w).blk t).view.read (Elt F) (V c (Pipeline.arrRef spec20 w))

/-- A view of the output's staging buffer and one of the accumulator, through which contents are stated. -/
abbrev VO20 : View sig .tc .vmem S1024x1024 .bf16 := (Memref.whole cc20_stg2_0 : Memref sig .tc .vmem S1024x1024 .bf16).view

/-! ## What each case leaves -/

/-- The accumulator after a first block. -/
def accA20 (c : Dev nD) (t : Fin cfg20.N) (h0 : t.val % 4 = 0) (h1 : ¬t.val % 4 = 3) : Vec F S1024x1024 .f32 :=
  VS20.read (Elt F) (VS20.writes (Elt F) VS20.junk (run20_A c (grid20.coords t) (ms20_0 t) (hs20_0 t) (ms20_1 t) (hs20_1 t) (ms20_2 t) (hs20_2 t) scM20 (Memref.isWhole_whole _) ((hcond20_0 t).mpr h0) (fun h => h1 ((hcond20_1 t).mp h)) (iblk20 V c 0 t) (iblk20 V c 1 t)).1)
/-- The accumulator after a middle block, from what the point before left. -/
def accB20 (c : Dev nD) (t : Fin cfg20.N) (h0 : ¬t.val % 4 = 0) (h1 : ¬t.val % 4 = 3) (xs : Vec F S1024x1024 .f32) : Vec F S1024x1024 .f32 :=
  VS20.read (Elt F) (VS20.writes (Elt F) VS20.junk (run20_B c (grid20.coords t) (ms20_0 t) (hs20_0 t) (ms20_1 t) (hs20_1 t) (ms20_2 t) (hs20_2 t) scM20 (Memref.isWhole_whole _) (fun h => h0 ((hcond20_0 t).mp h)) (fun h => h1 ((hcond20_1 t).mp h)) (iblk20 V c 0 t) (iblk20 V c 1 t) xs).1)
/-- The accumulator after a last block, -/
def accC20 (c : Dev nD) (t : Fin cfg20.N) (h0 : ¬t.val % 4 = 0) (h1 : t.val % 4 = 3) (xs : Vec F S1024x1024 .f32) : Vec F S1024x1024 .f32 :=
  VS20.read (Elt F) (VS20.writes (Elt F) VS20.junk (run20_C c (grid20.coords t) (ms20_0 t) (hs20_0 t) (ms20_1 t) (hs20_1 t) (ms20_2 t) (hs20_2 t) scM20 (Memref.isWhole_whole _) (fun h => h0 ((hcond20_0 t).mp h)) ((hcond20_1 t).mpr h1) (iblk20 V c 0 t) (iblk20 V c 1 t) xs).2.1)
/-- and the output block stored there. -/
def outC20 (c : Dev nD) (t : Fin cfg20.N) (h0 : ¬t.val % 4 = 0) (h1 : t.val % 4 = 3) (xs : Vec F S1024x1024 .f32) : Vec F S1024x1024 .bf16 :=
  VO20.read (Elt F) (VO20.writes (Elt F) VO20.junk (run20_C c (grid20.coords t) (ms20_0 t) (hs20_0 t) (ms20_1 t) (hs20_1 t) (ms20_2 t) (hs20_2 t) scM20 (Memref.isWhole_whole _) (fun h => h0 ((hcond20_0 t).mp h)) ((hcond20_1 t).mpr h1) (iblk20 V c 0 t) (iblk20 V c 1 t) xs).1)

theorem coverA20 (c : Dev nD) (t : Fin cfg20.N) (h0 : t.val % 4 = 0) (h1 : ¬t.val % 4 = 3) (y : S1024x1024.Idx) :
    ∃ pc ∈ (run20_A c (grid20.coords t) (ms20_0 t) (hs20_0 t) (ms20_1 t) (hs20_1 t) (ms20_2 t) (hs20_2 t) scM20 (Memref.isWhole_whole _) ((hcond20_0 t).mpr h0) (fun h => h1 ((hcond20_1 t).mp h)) (iblk20 V c 0 t) (iblk20 V c 1 t)).1, y ∈ pc.1.set :=
  View.cover_of_tiledL _ S1024x1024.size (by sl_kernel_rfl) y
theorem coverB20 (c : Dev nD) (t : Fin cfg20.N) (h0 : ¬t.val % 4 = 0) (h1 : ¬t.val % 4 = 3) (xs : Vec F S1024x1024 .f32) (y : S1024x1024.Idx) :
    ∃ pc ∈ (run20_B c (grid20.coords t) (ms20_0 t) (hs20_0 t) (ms20_1 t) (hs20_1 t) (ms20_2 t) (hs20_2 t) scM20 (Memref.isWhole_whole _) (fun h => h0 ((hcond20_0 t).mp h)) (fun h => h1 ((hcond20_1 t).mp h)) (iblk20 V c 0 t) (iblk20 V c 1 t) xs).1, y ∈ pc.1.set :=
  View.cover_of_tiledL _ S1024x1024.size (by sl_kernel_rfl) y
theorem coverCs20 (c : Dev nD) (t : Fin cfg20.N) (h0 : ¬t.val % 4 = 0) (h1 : t.val % 4 = 3) (xs : Vec F S1024x1024 .f32) (y : S1024x1024.Idx) :
    ∃ pc ∈ (run20_C c (grid20.coords t) (ms20_0 t) (hs20_0 t) (ms20_1 t) (hs20_1 t) (ms20_2 t) (hs20_2 t) scM20 (Memref.isWhole_whole _) (fun h => h0 ((hcond20_0 t).mp h)) ((hcond20_1 t).mpr h1) (iblk20 V c 0 t) (iblk20 V c 1 t) xs).2.1, y ∈ pc.1.set :=
  View.cover_of_tiledL _ S1024x1024.size (by sl_kernel_rfl) y
theorem coverCo20 (c : Dev nD) (t : Fin cfg20.N) (h0 : ¬t.val % 4 = 0) (h1 : t.val % 4 = 3) (xs : Vec F S1024x1024 .f32) (y : S1024x1024.Idx) :
    ∃ pc ∈ (run20_C c (grid20.coords t) (ms20_0 t) (hs20_0 t) (ms20_1 t) (hs20_1 t) (ms20_2 t) (hs20_2 t) scM20 (Memref.isWhole_whole _) (fun h => h0 ((hcond20_0 t).mp h)) ((hcond20_1 t).mpr h1) (iblk20 V c 0 t) (iblk20 V c 1 t) xs).1, y ∈ pc.1.set :=
  View.cover_of_tiledL _ S1024x1024.size (by sl_kernel_rfl) y

/-! ## The accumulation, point by point -/

/-- What the output's staging buffer (first component; meaningful at a contraction's last block only) and the
    accumulator (second component) hold after the body at position `n`. -/
def outsAt20 (c : Dev nD) : (n : ℕ) → n < cfg20.N → Vec F S1024x1024 .bf16 × Vec F S1024x1024 .f32
  | 0, hn => (VO20.read (Elt F) VO20.junk, accA20 V c ⟨0, hn⟩ (Nat.zero_mod _) (by simp))
  | n + 1, hn =>
    if h0 : (n + 1) % 4 = 0 then
      if h1 : (n + 1) % 4 = 3 then False.elim (by omega)
      else (VO20.read (Elt F) VO20.junk, accA20 V c ⟨n + 1, hn⟩ h0 h1)
    else
      if h1 : (n + 1) % 4 = 3 then
        (outC20 V c ⟨n + 1, hn⟩ h0 h1 (outsAt20 c n (Nat.lt_of_succ_lt hn)).2, accC20 V c ⟨n + 1, hn⟩ h0 h1 (outsAt20 c n (Nat.lt_of_succ_lt hn)).2)
      else
        (VO20.read (Elt F) VO20.junk, accB20 V c ⟨n + 1, hn⟩ h0 h1 (outsAt20 c n (Nat.lt_of_succ_lt hn)).2)

theorem outsAt20_A (c : Dev nD) (t : Fin cfg20.N) (h0 : t.val % 4 = 0) (h1 : ¬t.val % 4 = 3) :
    outsAt20 V c t.val t.isLt = (VO20.read (Elt F) VO20.junk, accA20 V c t h0 h1) := by
  obtain ⟨n, hn⟩ := t
  cases n with
  | zero => exact rfl
  | succ n => exact (dif_pos h0).trans ((dif_neg h1).trans rfl)

theorem outsAt20_B (c : Dev nD) (t : Fin cfg20.N) (h0 : ¬t.val % 4 = 0) (h1 : ¬t.val % 4 = 3) :
    outsAt20 V c t.val t.isLt = (VO20.read (Elt F) VO20.junk, accB20 V c t h0 h1 (outsAt20 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt20_C (c : Dev nD) (t : Fin cfg20.N) (h0 : ¬t.val % 4 = 0) (h1 : t.val % 4 = 3) :
    outsAt20 V c t.val t.isLt = (outC20 V c t h0 h1 (outsAt20 V c (t.val - 1) (Nat.lt_of_le_of_lt (Nat.sub_le _ _) t.isLt)).2,
      accC20 V c t h0 h1 (outsAt20 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant between points -/

/-- Before the first point the launch's scoped buffers that no window stages, whole; afterwards the accumulator at
    what the point before left, and the other such buffers unopened. -/
def PhiS20 (c : Dev nD) : (n : ℕ) → n ≤ cfg20.N → sProp 𝕄
  | 0, _ => Pipeline.scopedRest (Ix := Unit) (Name := ℕ) (U := UR sig nD τ × Counters) (Lvl := ℕ) (Val := Elt F) spec20 c
  | n + 1, hn => iprop(owns (c : Thread nD τ) scM20 fullShare (outsAt20 V c n hn).2
      ∗ Pipeline.scopedRestBut (Ix := Unit) (Name := ℕ) (U := UR sig nD τ × Counters) (Lvl := ℕ) (Val := Elt F) spec20 c [cc20_scratch0])

theorem PhiS20_pos (c : Dev nD) (n : ℕ) (h : n ≤ cfg20.N) (hz : n ≠ 0) :
    PhiS20 V c n h = iprop(owns (c : Thread nD τ) scM20 fullShare (outsAt20 V c (n - 1) (by omega)).2
      ∗ Pipeline.scopedRestBut (Ix := Unit) (Name := ℕ) (U := UR sig nD τ × Counters) (Lvl := ℕ) (Val := Elt F) spec20 c [cc20_scratch0]) := by
  cases n with
  | zero => exact absurd rfl hz
  | succ n => rfl

/-- The scoped rest with the accumulator split out as a memref owned at some contents. -/
theorem scopedRest20_eq (c : Dev nD) :
    (Pipeline.scopedRest (Ix := Unit) (Name := ℕ) (U := UR sig nD τ × Counters) (Lvl := ℕ) (Val := Elt F) spec20 c : sProp 𝕄)
      = iprop((∃ d, owns (c : Thread nD τ) scM20 fullShare d)
          ∗ Pipeline.scopedRestBut (Ix := Unit) (Name := ℕ) (U := UR sig nD τ × Counters) (Lvl := ℕ) (Val := Elt F) spec20 c [cc20_scratch0]) := by
  rw [scopedRest20_split]; simp only [scM20, owns_whole]; try rfl

/-! ## The proof data -/

def dat20 (c : Dev nD) : Dat τ (Elt F) Unit ℕ (UR sig nD τ × Counters) ℕ cfg20 c where
  A w := V c (Pipeline.arrRef spec20 w)
  after w t := match w with
    | ⟨0, _⟩ => iblk20 V c 0 t
    | ⟨1, _⟩ => iblk20 V c 1 t
    | ⟨2, _⟩ => (outsAt20 V c t.val t.isLt).1
  Φ t := PhiS20 V c t.val (Nat.le_of_lt_succ t.isLt)
  q _ := fullShare
  owed _ := 0

theorem A20_eq (c : Dev nD) (w : Fin cfg20.W) : (dat20 V c).A w = V c (Pipeline.arrRef spec20 w) := by
  dsimp only [dat20]
theorem after20_0 (c : Dev nD) (t : Fin cfg20.N) : (dat20 V c).after 0 t = iblk20 V c 0 t := by dsimp only [dat20]
theorem after20_1 (c : Dev nD) (t : Fin cfg20.N) : (dat20 V c).after 1 t = iblk20 V c 1 t := by dsimp only [dat20]
theorem after20_2 (c : Dev nD) (t : Fin cfg20.N) : (dat20 V c).after 2 t = (outsAt20 V c t.val t.isLt).1 := by dsimp only [dat20]

theorem Phi20_castSucc (c : Dev nD) (t : Fin cfg20.N) :
    (dat20 V c).Φ t.castSucc = PhiS20 V c t.val (Nat.le_of_lt t.isLt) := by
  dsimp only [dat20]; simp only [Fin.coe_castSucc]

/-- Each input window's current staging buffer holds its block at every point, fetched there or not. -/
theorem before20_0 (c : Dev nD) (t : Fin cfg20.N) (d) : (dat20 V c).before 0 t d = iblk20 V c 0 t :=
  ((dat20 V c).before_in_eq_fetched 0 rfl (fun _ => rfl) (fun _ _ _ => rfl) (fun t => by rw [after20_0]; unfold Dat.blockOf iblk20; rw [A20_eq]; try rfl) t d).trans
    (by unfold Dat.fetched Dat.blockOf iblk20; rw [A20_eq]; try rfl)
theorem before20_1 (c : Dev nD) (t : Fin cfg20.N) (d) : (dat20 V c).before 1 t d = iblk20 V c 1 t :=
  ((dat20 V c).before_in_eq_fetched 1 rfl (fun _ => rfl) (fun _ _ _ => rfl) (fun t => by rw [after20_1]; unfold Dat.blockOf iblk20; rw [A20_eq]; try rfl) t d).trans
    (by unfold Dat.fetched Dat.blockOf iblk20; rw [A20_eq]; try rfl)

/-! ## The body obligation at a generic point -/

def bodyPre20 (c : Dev nD) (t : Fin cfg20.N) : sProp 𝕄 :=
  iprop((dat20 V c).Φ t.castSucc ∗ (dat20 V c).owesAt () t.castSucc
    ∗ (∃ d, owns (c : Thread nD τ) (ms20_0 t) fullShare ((dat20 V c).before 0 t d))
    ∗ (∃ d, owns (c : Thread nD τ) (ms20_1 t) fullShare ((dat20 V c).before 1 t d))
    ∗ (∃ d, owns (c : Thread nD τ) (ms20_2 t) fullShare ((dat20 V c).before 2 t d)))

def bodyPost20 (c : Dev nD) (t : Fin cfg20.N) : sProp 𝕄 :=
  iprop((dat20 V c).Φ t.succ ∗ (dat20 V c).owesAt () t.succ
    ∗ (dat20 V c).leavesExact 0 t ∗ (dat20 V c).leavesExact 1 t ∗ (dat20 V c).leavesExact 2 t)

set_option maxHeartbeats 4000000 in
/-- The body at any point. The three input buffers hold their blocks; the point's position in its contraction
    selects the case; the invariant hands over the accumulator (at anything before the very first point, else at
    what the point before left) and takes it back at this point's contents; an idle output buffer is handed back
    as found, a stored one at the case's block; the core owes nothing throughout. -/
theorem sound_body20 (c : Dev nD) (t : Fin cfg20.N) :
    bodyPre20 V c t ⊢ wp frame (wpE (defs₀ (F := F)) Variants.none c none) Set.univ (bodyAt20 t) (fun _ => bodyPost20 V c t) := by
  unfold bodyPre20 bodyPost20 bodyAt20
  simp only [before20_0, before20_1]
  rw [show (dat20 V c).owesAt () t.succ = (dat20 V c).owesAt () t.castSucc from rfl]
  rw [show (dat20 V c).Φ t.succ = iprop(owns (c : Thread nD τ) scM20 fullShare (outsAt20 V c t.val t.isLt).2
      ∗ Pipeline.scopedRestBut (Ix := Unit) (Name := ℕ) (U := UR sig nD τ × Counters) (Lvl := ℕ) (Val := Elt F) spec20 c [cc20_scratch0]) from rfl]
  have hN : t.val < 16 := lt_of_lt_of_eq t.isLt (show cfg20.N = 16 from N_20)
  rw [show (dat20 V c).leavesExact 0 t = owns (c : Thread nD τ) (ms20_0 t) fullShare (iblk20 V c 0 t) from by
    unfold Dat.leavesExact; rw [liveAt20_0 t, after20_0]]
  rw [show (dat20 V c).leavesExact 1 t = owns (c : Thread nD τ) (ms20_1 t) fullShare (iblk20 V c 1 t) from by
    unfold Dat.leavesExact; rw [liveAt20_1 t, after20_1]]
  rw [Phi20_castSucc V c t]
  by_cases h1 : t.val % 4 = 3
  · -- the last block of a contraction
    have h0 : ¬t.val % 4 = 0 := by omega
    have hz : t.val ≠ 0 := by omega
    rw [show (dat20 V c).leavesExact 2 t = owns (c : Thread nD τ) (ms20_2 t) fullShare (outsAt20 V c t.val t.isLt).1 from by
      unfold Dat.leavesExact; rw [liveAt20_2 t ((hcond20_1 t).mpr h1), after20_2]]
    rw [outsAt20_C V c t h0 h1, PhiS20_pos V c _ _ hz]
    dsimp only
    unfold outC20 accC20
    iintro ⟨⟨HS, Hb⟩, Ho, ⟨%d0, H0⟩, ⟨%d1, H1⟩, ⟨%d3, H3⟩⟩
    iapply ((run20_C c (grid20.coords t) (ms20_0 t) (hs20_0 t) (ms20_1 t) (hs20_1 t) (ms20_2 t) (hs20_2 t) scM20 (Memref.isWhole_whole _) (fun h => h0 ((hcond20_0 t).mp h)) ((hcond20_1 t).mpr h1) (iblk20 V c 0 t) (iblk20 V c 1 t) _).2.2 Set.univ _)
    isplitl [H0]; · iexact H0
    isplitl [H1]; · iexact H1
    isplitl [H3]; · iexists _; iexact H3
    isplitl [HS]; · iexact HS
    iintro ⟨H0, H1, ⟨%e3, H3⟩, ⟨%es, HS⟩⟩
    isplitl [HS Hb]
    · isplitl [HS]
      · unfold owns; iexists _; isplitr
        swap; · iexact HS
        ipureintro; exact View.read_writes_of_cover _ _ _ _ _ (coverCs20 V c t h0 h1 _)
      iexact Hb
    isplitl [Ho]; · iexact Ho
    isplitl [H0]; · iexact H0
    isplitl [H1]; · iexact H1
    unfold owns; iexists _; isplitr
    swap; · iexact H3
    ipureintro; exact View.read_writes_of_cover _ _ _ _ _ (coverCo20 V c t h0 h1 _)
  · rw [Dat.leavesExact_idle (dat20 V c) 2 t (idleAt20_2 t (fun h => h1 ((hcond20_1 t).mp h))) (noFlush20_2 t (fun h => h1 ((hcond20_1 t).mp h)))]
    by_cases h0 : t.val % 4 = 0
    · -- the first block of a contraction
      rw [outsAt20_A V c t h0 h1]
      dsimp only
      unfold accA20
      by_cases hz : t.val = 0
      · rw [show PhiS20 V c t.val (Nat.le_of_lt t.isLt) = Pipeline.scopedRest (Ix := Unit) (Name := ℕ) (U := UR sig nD τ × Counters) (Lvl := ℕ) (Val := Elt F) spec20 c from by
          obtain ⟨n, hn⟩ := t; dsimp only at hz; subst hz; rfl, scopedRest20_eq]
        iintro ⟨⟨HS, Hb⟩, Ho, ⟨%d0, H0⟩, ⟨%d1, H1⟩, ⟨%d3, H3⟩⟩
        iapply ((run20_A c (grid20.coords t) (ms20_0 t) (hs20_0 t) (ms20_1 t) (hs20_1 t) (ms20_2 t) (hs20_2 t) scM20 (Memref.isWhole_whole _) ((hcond20_0 t).mpr h0) (fun h => h1 ((hcond20_1 t).mp h)) (iblk20 V c 0 t) (iblk20 V c 1 t)).2 _ Set.univ _)
        isplitl [H0]; · iexact H0
        isplitl [H1]; · iexact H1
        isplitl [H3]; · iexact H3
        isplitl [HS]; · iexact HS
        iintro ⟨H0, H1, H3, ⟨%es, HS⟩⟩
        isplitl [HS Hb]
        · isplitl [HS]
          · unfold owns; iexists _; isplitr
            swap; · iexact HS
            ipureintro; exact View.read_writes_of_cover _ _ _ _ _ (coverA20 V c t h0 h1)
          iexact Hb
        isplitl [Ho]; · iexact Ho
        isplitl [H0]; · iexact H0
        isplitl [H1]; · iexact H1
        iexists _; iexact H3
      · rw [PhiS20_pos V c _ _ hz]
        iintro ⟨⟨HS, Hb⟩, Ho, ⟨%d0, H0⟩, ⟨%d1, H1⟩, ⟨%d3, H3⟩⟩
        iapply ((run20_A c (grid20.coords t) (ms20_0 t) (hs20_0 t) (ms20_1 t) (hs20_1 t) (ms20_2 t) (hs20_2 t) scM20 (Memref.isWhole_whole _) ((hcond20_0 t).mpr h0) (fun h => h1 ((hcond20_1 t).mp h)) (iblk20 V c 0 t) (iblk20 V c 1 t)).2 _ Set.univ _)
        isplitl [H0]; · iexact H0
        isplitl [H1]; · iexact H1
        isplitl [H3]; · iexact H3
        isplitl [HS]; · iexists _; iexact HS
        iintro ⟨H0, H1, H3, ⟨%es, HS⟩⟩
        isplitl [HS Hb]
        · isplitl [HS]
          · unfold owns; iexists _; isplitr
            swap; · iexact HS
            ipureintro; exact View.read_writes_of_cover _ _ _ _ _ (coverA20 V c t h0 h1)
          iexact Hb
        isplitl [Ho]; · iexact Ho
        isplitl [H0]; · iexact H0
        isplitl [H1]; · iexact H1
        iexists _; iexact H3
    · -- a middle block
      have hz : t.val ≠ 0 := by omega
      rw [outsAt20_B V c t h0 h1, PhiS20_pos V c _ _ hz]
      dsimp only
      unfold accB20
      iintro ⟨⟨HS, Hb⟩, Ho, ⟨%d0, H0⟩, ⟨%d1, H1⟩, ⟨%d3, H3⟩⟩
      iapply ((run20_B c (grid20.coords t) (ms20_0 t) (hs20_0 t) (ms20_1 t) (hs20_1 t) (ms20_2 t) (hs20_2 t) scM20 (Memref.isWhole_whole _) (fun h => h0 ((hcond20_0 t).mp h)) (fun h => h1 ((hcond20_1 t).mp h)) (iblk20 V c 0 t) (iblk20 V c 1 t) _).2 _ Set.univ _)
      isplitl [H0]; · iexact H0
      isplitl [H1]; · iexact H1
      isplitl [H3]; · iexact H3
      isplitl [HS]; · iexact HS
      iintro ⟨H0, H1, H3, ⟨%es, HS⟩⟩
      isplitl [HS Hb]
      · isplitl [HS]
        · unfold owns; iexists _; isplitr
          swap; · iexact HS
          ipureintro; exact View.read_writes_of_cover _ _ _ _ _ (coverB20 V c t h0 h1 _)
        iexact Hb
      isplitl [Ho]; · iexact Ho
      isplitl [H0]; · iexact H0
      isplitl [H1]; · iexact H1
      iexists _; iexact H3

theorem body_obligation20 (c : Dev nD) : BodyObligation (dat20 V c) (defs₀ (F := F)) Variants.none () Set.univ := fun t => by
  rw [bigSep_W20, bigSep_W20]
  exact sound_body20 V c t

/-! ## The region over the thread state -/

variable (Vp : (c : Dev nD) → (b : Ref sig .tc) → Buf (Elt F) ((c : Thread nD τ).loc b))
variable (pdats : (p : Fin 22) → (c : Dev nD) → Dat τ (Elt F) Unit ℕ (UR sig nD τ × Counters) ℕ (cfgs p) c)

/-- The result's array after the region, as the pipeline library computes it from the proof data. -/
def out20 (c : Dev nD) : Buf (Elt F) ((c : Thread nD τ).loc main_v40) := (dat20 V c).arrAt 2 cfg20.N

set_option backward.isDefEq.respectTransparency.types false in
set_option maxHeartbeats 2000000 in
/-- Launch 20 over the thread state "every unscoped buffer at `V c`, the core owing nothing": entered by
    splitting its three arrays out of the unscoped buffers, left with them put back at `Vp c`, which has the
    result's array at `out20` and agrees with `V c` elsewhere. -/
def reg20 (hp : ∀ c, pdats 20 c = dat20 V c)
    (hVp_out : ∀ c, Vp c main_v40 = out20 V c)
    (hVp_ne : ∀ c (b : Ref sig .tc), b ≠ main_v40 → Vp c b = V c b) :
    Pipeline.RegionSeg (pcfgs (F := F)) (fun p => (cfgs p).toPCfg_adm) pdats () defs₀ Variants.none (fun _ => (∅ : Finset Unit)) (fun _ _ => (0 : ℕ)) 20 where
  win := launch20.win.to₀
  block_pos := launch20.block_pos
  stage_whole := launch20.stage_whole
  K := PEmpty
  osem k := k.elim
  ho := Pipeline.OwnSemFacts.none _
  hbody c := by rw [hp c]; exact (body_obligation20 V c).loose
  hwaits := Pipeline.hwaits_of_owed_zero _ _ _ _ _ _ 20 fun c t => by rw [hp c]; rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ × Counters) (Lvl := ℕ) spec20 c (V c)
  hentry c := by
    rw [Pipeline.ownSems0_none]
    have hsplit := Pipeline.arrays_of_unscopedBufs (p := 20) (pcfgs (F := F)) (fun p => (cfgs p).toPCfg_adm) pdats launch20.win launch20.arr_whole c
      ((pdats 20 c).share_full fun w => by rw [hp c]; rfl) (V c) (fun w => by rw [hp c]; rfl)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hp c]
      unfold Pipeline.Dat.owesAt Pipeline.owesWithin
      icases HO with ⟨%W, HO⟩; iexists W; isplitr; · ipureintro; exact fun _ _ => Or.inl trivial
      iexact HO
    isplitr; · iempintro
    iexact Hrest
  hin c := by
    rw [hp c, show (dat20 V c).Φ 0 = Pipeline.scopedRest (Ix := Unit) (Name := ℕ) (U := UR sig nD τ × Counters) (Lvl := ℕ) (Val := Elt F) spec20 c from rfl]
    iintro ⟨-, -, Hr⟩; iexact Hr
  hout c := by
    rw [Pipeline.ownSems0_none, hp c]
    refine (Entails.of_eq ((show (dat20 V c).Φ (Fin.last _) = PhiS20 V c (Fin.last cfg20.N).val (Nat.le_of_lt_succ (Fin.last cfg20.N).isLt) from rfl).trans
      (PhiS20_pos V c _ _ (by rw [Fin.val_last]; have : cfg20.N = 16 := N_20; omega)))).trans ?_
    change _ ⊢ iprop(BI.emp ∗ BI.emp ∗ Pipeline.scopedRest (Ix := Unit) (Name := ℕ) (U := UR sig nD τ × Counters) (Lvl := ℕ) (Val := Elt F) spec20 c)
    rw [scopedRest20_eq]
    iintro ⟨HS, Hb⟩
    isplitr; · iempintro
    isplitr; · iempintro
    isplitl [HS]; · iexists _; iexact HS
    iexact Hb
  hexit c := by
    have hjoin := Pipeline.unscopedBufs_of_arrays (p := 20) (pcfgs (F := F)) (fun p => (cfgs p).toPCfg_adm) (Ix := Unit) (Name := ℕ) (U := UR sig nD τ × Counters) (Lvl := ℕ) launch20.win launch20.arr_whole c
      pdats ((pdats 20 c).share_full fun w => by rw [hp c]; rfl) (V c) (Vp c) ((pdats 20 c).arrAt · cfg20.N)
      (fun w => by
        fin_cases w
        · exact (((pdats 20 c).arrAt_in 0 rfl _).trans (by rw [hp c]; rfl)).trans (hVp_ne c main_v1 (by decide)).symm
        · exact (((pdats 20 c).arrAt_in 1 rfl _).trans (by rw [hp c]; rfl)).trans (hVp_ne c main_v39 (by decide)).symm
        · exact (by rw [hp c]; rfl : (pdats 20 c).arrAt 2 cfg20.N = out20 V c).trans (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W
    rw [show (pdats 20 c).owed (Fin.last _) = 0 from by rw [hp c]; rfl]
    iexact HO

end Cert.KernelIdeal.Hand

end
-- ==== Proof.KI.R21Base.lean ====
/-
  Launch 21 of the program: one matrix product per grid point — the contraction is a single block —, a bias row
  added and tanh applied, the output block stored at every point. The grid's third coordinate is always 0, so both
  conditions of the body — "the contraction's first block" and "its last block" — hold at every point: this module
  decides them over the grid's points, records that no window is ever idle, and names the staging memrefs the body
  is called with.
-/
import proofs.«113214_j66838281060556_2_alg».proof.Proof.Gen.KernelIdeal.Launch
import proofs.«113214_j66838281060556_2_alg».proof.Proof.Gen.KernelIdeal.Skeleton
import proofs.«113214_j66838281060556_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

/-- The accumulator is reset: the point starts a contraction (third grid coordinate 0). Here the third axis has one
    coordinate, so every point does. -/
abbrev cond21_0 (i : grid21.Coords) : Prop := (Scalar.cmpi .ne (Scalar.extui (Scalar.cmpi .eq (BitVec.ofNat 32 (i 2).val) 0#32)) 0#32) = 1#1
theorem hcond21_0 : ∀ t : Fin cfg21.N, cond21_0 (grid21.coords t) :=
  (by decide +kernel : ∀ t : Fin grid21.N, cond21_0 (grid21.coords t))

/-- The result is stored: the point ends a contraction. Every point does. -/
abbrev cond21_1 (i : grid21.Coords) : Prop := k21_cond2 i = 1#1
theorem hcond21_1 : ∀ t : Fin cfg21.N, cond21_1 (grid21.coords t) :=
  (by decide +kernel : ∀ t : Fin grid21.N, cond21_1 (grid21.coords t))

/-- No window is idle at any point: the three inputs never, the output because every point stores. -/
theorem liveAt21_0 : ∀ t : Fin cfg21.N, cfg21.idle 0 (grid21.coords t) = false := by decide +kernel
theorem liveAt21_1 : ∀ t : Fin cfg21.N, cfg21.idle 1 (grid21.coords t) = false := by decide +kernel
theorem liveAt21_2 : ∀ t : Fin cfg21.N, cfg21.idle 2 (grid21.coords t) = false := by decide +kernel
theorem liveAt21_3 : ∀ t : Fin cfg21.N, cfg21.idle 3 (grid21.coords t) = false := by decide +kernel

/-- Each window's current staging memref at a point, as the pipeline passes it, and its wholeness. -/
abbrev ms21_0 (t : Fin cfg21.N) : Memref sig .tc .vmem S1024x1024 .bf16 := win21_0.stage (cfg21.slots t 0)
abbrev hs21_0 (t : Fin cfg21.N) : (ms21_0 t).IsWhole := hstage21_0 ((cfg21.slots t 0).cast nbuf21_0)
abbrev ms21_1 (t : Fin cfg21.N) : Memref sig .tc .vmem S1024x1280 .f32 := win21_1.stage (cfg21.slots t 1)
abbrev hs21_1 (t : Fin cfg21.N) : (ms21_1 t).IsWhole := hstage21_1 ((cfg21.slots t 1).cast nbuf21_1)
abbrev ms21_2 (t : Fin cfg21.N) : Memref sig .tc .vmem S1x1280 .f32 := win21_2.stage (cfg21.slots t 2)
abbrev hs21_2 (t : Fin cfg21.N) : (ms21_2 t).IsWhole := hstage21_2 ((cfg21.slots t 2).cast nbuf21_2)
abbrev ms21_3 (t : Fin cfg21.N) : Memref sig .tc .vmem S1024x1280 .f32 := win21_3.stage (cfg21.slots t 3)
abbrev hs21_3 (t : Fin cfg21.N) : (ms21_3 t).IsWhole := hstage21_3 ((cfg21.slots t 3).cast nbuf21_3)
/-- The accumulator: a whole scoped buffer of the launch's own. -/
abbrev scM21 : Memref sig .tc .vmem S1024x1280 .f32 := Memref.whole cc21_scratch0
abbrev VS21 : View sig .tc .vmem S1024x1280 .f32 := scM21.view

end Cert.KernelIdeal.Hand

end
-- ==== Proof.KI.R21Run.lean ====
/-
  Launch 21, the body run symbolically in its one control case: the accumulator reset, the product added, the bias
  row added and tanh applied into the output block. The run's witnesses are the lists of pieces its stores leave in
  the output block and in the accumulator.
-/
import proofs.«113214_j66838281060556_2_alg».proof.Proof.KI.R21Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

set_option maxHeartbeats 2000000 in
/-- The body at a point, run symbolically: the accumulator, found at anything, is reset to zero and ends at the
    product of the two input blocks added to zero; the output block, found at anything, is stored whole: tanh of
    that sum plus the bias row. The witnesses are the pieces the stores leave in the output block and in the
    accumulator. -/
noncomputable def run21 (c : Dev nD) (i : grid21.Coords) (arg3 : Memref sig .tc .vmem S1024x1024 .bf16) (harg3 : arg3.IsWhole) (arg4 : Memref sig .tc .vmem S1024x1280 .f32) (harg4 : arg4.IsWhole) (arg5 : Memref sig .tc .vmem S1x1280 .f32) (harg5 : arg5.IsWhole) (arg6 : Memref sig .tc .vmem S1024x1280 .f32) (harg6 : arg6.IsWhole) (arg7 : Memref sig .tc .vmem S1024x1280 .f32) (harg7 : arg7.IsWhole) (hc0 : cond21_0 i) (hc1 : cond21_1 i)
    (x0 : Vec F S1024x1024 .bf16) (x1 : Vec F S1024x1280 .f32) (x2 : Vec F S1x1280 .f32) :
    Σ' (LO : List (View.Piece (Elt F) S1024x1280 .f32)), { LS : List (View.Piece (Elt F) S1024x1280 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LS)) -∗ K ⟨⟩))
          ⊢ wp frame (wpE (defs₀ (F := F)) Variants.none c none) E (cc21__mm_kernel i arg3 harg3 arg4 harg4 arg5 harg5 arg6 harg6 arg7 harg7) K } := by
  refine ⟨?_, ?_, fun E K => ?run⟩
  case run =>
    simp only [cc21__mm_kernel_eq_skeleton]; unfold cc21__mm_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    iexists _; iexact HS

end Cert.KernelIdeal.Hand

end
-- ==== Proof.KI.R21.lean ====
/-
  Launch 21 as a region of the program. The blocks the windows stage are read off the arrays as the region finds
  them; a point stores the output block its run leaves; the accumulator is reset at every point, so between points
  the launch's scoped buffers that no window stages are simply held whole at anything; the body obligation follows
  from the one symbolic run; and the region is stated over the thread state "every unscoped buffer at given
  contents, the core owing nothing", entered by splitting its arrays out and left with the result's array
  at what the pipeline computes from the stored blocks.
-/
import proofs.«113214_j66838281060556_2_alg».proof.Proof.KI.R21Run
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

variable (V : (c : Dev nD) → (b : Ref sig .tc) → Buf (Elt F) ((c : Thread nD τ).loc b))

/-! ## The blocks the windows stage -/

/-- Window `w`'s block at point `t`, read off its array as the region finds it. -/
def iblk21 (c : Dev nD) (w : Fin cfg21.W) (t : Fin cfg21.N) : ((cfg21.win w).xblock (cfg21.grid.coords t)).Idx → Elt F (cfg21.win w).elt :=
  ((cfg21.win w).blk t).view.read (Elt F) (V c (Pipeline.arrRef spec21 w))

/-- A view of the output's staging buffer, through which contents are stated. -/
abbrev VO21 : View sig .tc .vmem S1024x1280 .f32 := (Memref.whole cc21_stg3_0 : Memref sig .tc .vmem S1024x1280 .f32).view

/-! ## What a point leaves -/

/-- The output block a point stores: what the run's pieces leave, read through the staging buffer's view. -/
def out21 (c : Dev nD) (t : Fin cfg21.N) : Vec F S1024x1280 .f32 :=
  VO21.read (Elt F) (VO21.writes (Elt F) VO21.junk (run21 c (grid21.coords t) (ms21_0 t) (hs21_0 t) (ms21_1 t) (hs21_1 t) (ms21_2 t) (hs21_2 t) (ms21_3 t) (hs21_3 t) scM21 (Memref.isWhole_whole _) (hcond21_0 t) (hcond21_1 t) (iblk21 V c 0 t) (iblk21 V c 1 t) (iblk21 V c 2 t)).1)

/-- The stores into the output block cover it. -/
theorem coverO21 (c : Dev nD) (t : Fin cfg21.N) (y : S1024x1280.Idx) :
    ∃ pc ∈ (run21 c (grid21.coords t) (ms21_0 t) (hs21_0 t) (ms21_1 t) (hs21_1 t) (ms21_2 t) (hs21_2 t) (ms21_3 t) (hs21_3 t) scM21 (Memref.isWhole_whole _) (hcond21_0 t) (hcond21_1 t) (iblk21 V c 0 t) (iblk21 V c 1 t) (iblk21 V c 2 t)).1, y ∈ pc.1.set :=
  View.cover_of_tiledL _ S1024x1280.size (by sl_kernel_rfl) y

/-! ## The invariant between points -/

/-- The scoped rest with the accumulator split out as a memref owned at some contents. The accumulator is reset at
    every point, so the invariant between points is the scoped rest itself, the accumulator at anything. -/
theorem scopedRest21_eq (c : Dev nD) :
    (Pipeline.scopedRest (Ix := Unit) (Name := ℕ) (U := UR sig nD τ × Counters) (Lvl := ℕ) (Val := Elt F) spec21 c : sProp 𝕄)
      = iprop((∃ d, owns (c : Thread nD τ) scM21 fullShare d)
          ∗ Pipeline.scopedRestBut (Ix := Unit) (Name := ℕ) (U := UR sig nD τ × Counters) (Lvl := ℕ) (Val := Elt F) spec21 c [cc21_scratch0]) := by
  rw [scopedRest21_split]; simp only [scM21, owns_whole]; try rfl

/-! ## The proof data -/

def dat21 (c : Dev nD) : Dat τ (Elt F) Unit ℕ (UR sig nD τ × Counters) ℕ cfg21 c where
  A w := V c (Pipeline.arrRef spec21 w)
  after w t := match w with
    | ⟨0, _⟩ => iblk21 V c 0 t
    | ⟨1, _⟩ => iblk21 V c 1 t
    | ⟨2, _⟩ => iblk21 V c 2 t
    | ⟨3, _⟩ => out21 V c t
  Φ _ := Pipeline.scopedRest (Ix := Unit) (Name := ℕ) (U := UR sig nD τ × Counters) (Lvl := ℕ) (Val := Elt F) spec21 c
  q _ := fullShare
  owed _ := 0

theorem A21_eq (c : Dev nD) (w : Fin cfg21.W) : (dat21 V c).A w = V c (Pipeline.arrRef spec21 w) := by
  dsimp only [dat21]
theorem after21_0 (c : Dev nD) (t : Fin cfg21.N) : (dat21 V c).after 0 t = iblk21 V c 0 t := by dsimp only [dat21]
theorem after21_1 (c : Dev nD) (t : Fin cfg21.N) : (dat21 V c).after 1 t = iblk21 V c 1 t := by dsimp only [dat21]
theorem after21_2 (c : Dev nD) (t : Fin cfg21.N) : (dat21 V c).after 2 t = iblk21 V c 2 t := by dsimp only [dat21]
theorem after21_3 (c : Dev nD) (t : Fin cfg21.N) : (dat21 V c).after 3 t = out21 V c t := by dsimp only [dat21]

/-- Each input window's current staging buffer holds its block at every point, fetched there or not. -/
theorem before21_0 (c : Dev nD) (t : Fin cfg21.N) (d) : (dat21 V c).before 0 t d = iblk21 V c 0 t :=
  ((dat21 V c).before_in_eq_fetched 0 rfl (fun _ => rfl) (fun _ _ _ => rfl) (fun t => by rw [after21_0]; unfold Dat.blockOf iblk21; rw [A21_eq]; try rfl) t d).trans
    (by unfold Dat.fetched Dat.blockOf iblk21; rw [A21_eq]; try rfl)
theorem before21_1 (c : Dev nD) (t : Fin cfg21.N) (d) : (dat21 V c).before 1 t d = iblk21 V c 1 t :=
  ((dat21 V c).before_in_eq_fetched 1 rfl (fun _ => rfl) (fun _ _ _ => rfl) (fun t => by rw [after21_1]; unfold Dat.blockOf iblk21; rw [A21_eq]; try rfl) t d).trans
    (by unfold Dat.fetched Dat.blockOf iblk21; rw [A21_eq]; try rfl)
theorem before21_2 (c : Dev nD) (t : Fin cfg21.N) (d) : (dat21 V c).before 2 t d = iblk21 V c 2 t :=
  ((dat21 V c).before_in_eq_fetched 2 rfl (fun _ => rfl) (fun _ _ _ => rfl) (fun t => by rw [after21_2]; unfold Dat.blockOf iblk21; rw [A21_eq]; try rfl) t d).trans
    (by unfold Dat.fetched Dat.blockOf iblk21; rw [A21_eq]; try rfl)

/-! ## The body obligation at a generic point -/

def bodyPre21 (c : Dev nD) (t : Fin cfg21.N) : sProp 𝕄 :=
  iprop((dat21 V c).Φ t.castSucc ∗ (dat21 V c).owesAt () t.castSucc
    ∗ (∃ d, owns (c : Thread nD τ) (ms21_0 t) fullShare ((dat21 V c).before 0 t d))
    ∗ (∃ d, owns (c : Thread nD τ) (ms21_1 t) fullShare ((dat21 V c).before 1 t d))
    ∗ (∃ d, owns (c : Thread nD τ) (ms21_2 t) fullShare ((dat21 V c).before 2 t d))
    ∗ (∃ d, owns (c : Thread nD τ) (ms21_3 t) fullShare ((dat21 V c).before 3 t d)))

def bodyPost21 (c : Dev nD) (t : Fin cfg21.N) : sProp 𝕄 :=
  iprop((dat21 V c).Φ t.succ ∗ (dat21 V c).owesAt () t.succ
    ∗ (dat21 V c).leavesExact 0 t ∗ (dat21 V c).leavesExact 1 t ∗ (dat21 V c).leavesExact 2 t ∗ (dat21 V c).leavesExact 3 t)

set_option maxHeartbeats 4000000 in
/-- The body at any point. The input buffers hold their blocks; the invariant hands over the accumulator at
    anything and takes it back at anything; the output buffer, found at anything, is handed back at the block the
    point stores; the core owes nothing throughout. -/
theorem sound_body21 (c : Dev nD) (t : Fin cfg21.N) :
    bodyPre21 V c t ⊢ wp frame (wpE (defs₀ (F := F)) Variants.none c none) Set.univ (bodyAt21 t) (fun _ => bodyPost21 V c t) := by
  unfold bodyPre21 bodyPost21 bodyAt21
  simp only [before21_0, before21_1, before21_2]
  rw [show (dat21 V c).owesAt () t.succ = (dat21 V c).owesAt () t.castSucc from rfl]
  rw [show (dat21 V c).Φ t.succ = Pipeline.scopedRest (Ix := Unit) (Name := ℕ) (U := UR sig nD τ × Counters) (Lvl := ℕ) (Val := Elt F) spec21 c from rfl,
    show (dat21 V c).Φ t.castSucc = Pipeline.scopedRest (Ix := Unit) (Name := ℕ) (U := UR sig nD τ × Counters) (Lvl := ℕ) (Val := Elt F) spec21 c from rfl]
  rw [show (dat21 V c).leavesExact 0 t = owns (c : Thread nD τ) (ms21_0 t) fullShare (iblk21 V c 0 t) from by
    unfold Dat.leavesExact; rw [liveAt21_0 t, after21_0]]
  rw [show (dat21 V c).leavesExact 1 t = owns (c : Thread nD τ) (ms21_1 t) fullShare (iblk21 V c 1 t) from by
    unfold Dat.leavesExact; rw [liveAt21_1 t, after21_1]]
  rw [show (dat21 V c).leavesExact 2 t = owns (c : Thread nD τ) (ms21_2 t) fullShare (iblk21 V c 2 t) from by
    unfold Dat.leavesExact; rw [liveAt21_2 t, after21_2]]
  rw [show (dat21 V c).leavesExact 3 t = owns (c : Thread nD τ) (ms21_3 t) fullShare (out21 V c t) from by
    unfold Dat.leavesExact; rw [liveAt21_3 t, after21_3]]
  rw [scopedRest21_eq]
  unfold out21
  iintro ⟨⟨HS, Hb⟩, Ho, ⟨%d0, H0⟩, ⟨%d1, H1⟩, ⟨%d2, H2⟩, ⟨%d3, H3⟩⟩
  iapply ((run21 c (grid21.coords t) (ms21_0 t) (hs21_0 t) (ms21_1 t) (hs21_1 t) (ms21_2 t) (hs21_2 t) (ms21_3 t) (hs21_3 t) scM21 (Memref.isWhole_whole _) (hcond21_0 t) (hcond21_1 t) (iblk21 V c 0 t) (iblk21 V c 1 t) (iblk21 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS Hb]
  · isplitl [HS]
    · iexists _; unfold owns; iexists _; isplitr
      swap; · iexact HS
      ipureintro; rfl
    iexact Hb
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (coverO21 V c t)

theorem body_obligation21 (c : Dev nD) : BodyObligation (dat21 V c) (defs₀ (F := F)) Variants.none () Set.univ := fun t => by
  rw [bigSep_W21, bigSep_W21]
  exact sound_body21 V c t

/-! ## The region over the thread state -/

variable (Vp : (c : Dev nD) → (b : Ref sig .tc) → Buf (Elt F) ((c : Thread nD τ).loc b))
variable (pdats : (p : Fin 22) → (c : Dev nD) → Dat τ (Elt F) Unit ℕ (UR sig nD τ × Counters) ℕ (cfgs p) c)

/-- The result's array after the region, as the pipeline library computes it from the proof data. -/
def out21arr (c : Dev nD) : Buf (Elt F) ((c : Thread nD τ).loc main_v42) := (dat21 V c).arrAt 3 cfg21.N

set_option backward.isDefEq.respectTransparency.types false in
set_option maxHeartbeats 2000000 in
/-- Launch 21 over the thread state "every unscoped buffer at `V c`, the core owing nothing": entered by
    splitting its arrays out of the unscoped buffers, left with them put back at `Vp c`, which has the
    result's array at `out21arr` and agrees with `V c` elsewhere. -/
def reg21 (hp : ∀ c, pdats 21 c = dat21 V c)
    (hVp_out : ∀ c, Vp c main_v42 = out21arr V c)
    (hVp_ne : ∀ c (b : Ref sig .tc), b ≠ main_v42 → Vp c b = V c b) :
    Pipeline.RegionSeg (pcfgs (F := F)) (fun p => (cfgs p).toPCfg_adm) pdats () defs₀ Variants.none (fun _ => (∅ : Finset Unit)) (fun _ _ => (0 : ℕ)) 21 where
  win := launch21.win.to₀
  block_pos := launch21.block_pos
  stage_whole := launch21.stage_whole
  K := PEmpty
  osem k := k.elim
  ho := Pipeline.OwnSemFacts.none _
  hbody c := by rw [hp c]; exact (body_obligation21 V c).loose
  hwaits := Pipeline.hwaits_of_owed_zero _ _ _ _ _ _ 21 fun c t => by rw [hp c]; rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ × Counters) (Lvl := ℕ) spec21 c (V c)
  hentry c := by
    rw [Pipeline.ownSems0_none]
    have hsplit := Pipeline.arrays_of_unscopedBufs (p := 21) (pcfgs (F := F)) (fun p => (cfgs p).toPCfg_adm) pdats launch21.win launch21.arr_whole c
      ((pdats 21 c).share_full fun w => by rw [hp c]; rfl) (V c) (fun w => by rw [hp c]; rfl)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hp c]; exact trivial)
      rw [show (pdats 21 c).owed 0 = 0 from by rw [hp c]; rfl]
      iexact HO
    isplitr; · iempintro
    iexact Hrest
  hin c := by
    rw [hp c, show (dat21 V c).Φ 0 = Pipeline.scopedRest (Ix := Unit) (Name := ℕ) (U := UR sig nD τ × Counters) (Lvl := ℕ) (Val := Elt F) spec21 c from rfl]
    iintro ⟨-, -, Hr⟩; iexact Hr
  hout c := by
    rw [Pipeline.ownSems0_none, hp c]
    change (Pipeline.scopedRest (Ix := Unit) (Name := ℕ) (U := UR sig nD τ × Counters) (Lvl := ℕ) (Val := Elt F) spec21 c : sProp 𝕄) ⊢ _
    iintro Hr
    isplitr; · iempintro
    isplitr; · iempintro
    iexact Hr
  hexit c := by
    have hjoin := Pipeline.unscopedBufs_of_arrays (p := 21) (pcfgs (F := F)) (fun p => (cfgs p).toPCfg_adm) (Ix := Unit) (Name := ℕ) (U := UR sig nD τ × Counters) (Lvl := ℕ) launch21.win launch21.arr_whole c
      pdats ((pdats 21 c).share_full fun w => by rw [hp c]; rfl) (V c) (Vp c) ((pdats 21 c).arrAt · cfg21.N)
      (fun w => by
        fin_cases w
        · exact (((pdats 21 c).arrAt_in 0 rfl _).trans (by rw [hp c]; rfl)).trans (hVp_ne c main_v40 (by decide)).symm
        · exact (((pdats 21 c).arrAt_in 1 rfl _).trans (by rw [hp c]; rfl)).trans (hVp_ne c main_arg19 (by decide)).symm
        · exact (((pdats 21 c).arrAt_in 2 rfl _).trans (by rw [hp c]; rfl)).trans (hVp_ne c main_v41 (by decide)).symm
        · exact (by rw [hp c]; rfl : (pdats 21 c).arrAt 3 cfg21.N = out21arr V c).trans (hVp_out c).symm)
      (fun b hb => hVp_ne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W
    rw [show (pdats 21 c).owed (Fin.last _) = 0 from by rw [hp c]; rfl]
    iexact HO

end Cert.KernelIdeal.Hand

end
-- ==== Proof.KI.Chain.lean ====
/-
  The program as a chain: the contents of every unscoped buffer between two items of @main — after a stretch
  of host operations, the valuation before it run through the stretch; after a kernel launch, the valuation
  before it updated at the launch's result, which is what the launch's proof data computes from the entry
  valuation —, the family of the 22 launches' proof data over those valuations, each launch's segment record
  entered from the valuation before it and left at the one after it, and the two assembled runs: every argument
  ends unchanged (the frame), and every unscoped buffer ends at the last valuation (what the value claim reads).
-/
import proofs.«113214_j66838281060556_2_alg».proof.Proof.KI.Launch
import proofs.«113214_j66838281060556_2_alg».proof.Proof.KI.R00
import proofs.«113214_j66838281060556_2_alg».proof.Proof.KI.R01
import proofs.«113214_j66838281060556_2_alg».proof.Proof.KI.R02
import proofs.«113214_j66838281060556_2_alg».proof.Proof.KI.R03
import proofs.«113214_j66838281060556_2_alg».proof.Proof.KI.R04
import proofs.«113214_j66838281060556_2_alg».proof.Proof.KI.R05
import proofs.«113214_j66838281060556_2_alg».proof.Proof.KI.R06
import proofs.«113214_j66838281060556_2_alg».proof.Proof.KI.R07
import proofs.«113214_j66838281060556_2_alg».proof.Proof.KI.R08
import proofs.«113214_j66838281060556_2_alg».proof.Proof.KI.R09
import proofs.«113214_j66838281060556_2_alg».proof.Proof.KI.R10
import proofs.«113214_j66838281060556_2_alg».proof.Proof.KI.R11
import proofs.«113214_j66838281060556_2_alg».proof.Proof.KI.R12
import proofs.«113214_j66838281060556_2_alg».proof.Proof.KI.R13
import proofs.«113214_j66838281060556_2_alg».proof.Proof.KI.R14
import proofs.«113214_j66838281060556_2_alg».proof.Proof.KI.R15
import proofs.«113214_j66838281060556_2_alg».proof.Proof.KI.R16
import proofs.«113214_j66838281060556_2_alg».proof.Proof.KI.R17
import proofs.«113214_j66838281060556_2_alg».proof.Proof.KI.R18
import proofs.«113214_j66838281060556_2_alg».proof.Proof.KI.R19
import proofs.«113214_j66838281060556_2_alg».proof.Proof.KI.R20
import proofs.«113214_j66838281060556_2_alg».proof.Proof.KI.R21

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

variable (m : (ℓ : Loc nD τ sig) → Buf (Elt F) ℓ)

/-- A valuation per core, read at the TensorCore references. -/
abbrev rd (W : Dev nD → Valuation τ sig (Elt F)) : (c : Dev nD) → (b : Ref sig .tc) → Buf (Elt F) ((c : Thread nD τ).loc b) := fun c b => W c b

/-! ## The valuations between items -/

def U1 (c : Dev nD) : Valuation τ sig (Elt F) := StableHlo.after hostOps0 (fun b => m (c, b))
def U2 (c : Dev nD) : Valuation τ sig (Elt F) := Function.update (U1 m c) main_v2 (out0arr (rd (U1 m)) c)
def U3 (c : Dev nD) : Valuation τ sig (Elt F) := StableHlo.after hostOps1 (U2 m c)
def U4 (c : Dev nD) : Valuation τ sig (Elt F) := Function.update (U3 m c) main_v4 (out1 (rd (U3 m)) c)
def U5 (c : Dev nD) : Valuation τ sig (Elt F) := Function.update (U4 m c) main_v5 (out2 (rd (U4 m)) c)
def U6 (c : Dev nD) : Valuation τ sig (Elt F) := StableHlo.after hostOps3 (U5 m c)
def U7 (c : Dev nD) : Valuation τ sig (Elt F) := Function.update (U6 m c) main_v7 (out3arr (rd (U6 m)) c)
def U8 (c : Dev nD) : Valuation τ sig (Elt F) := Function.update (U7 m c) main_v8 (out4arr (rd (U7 m)) c)
def U9 (c : Dev nD) : Valuation τ sig (Elt F) := StableHlo.after hostOps5 (U8 m c)
def U10 (c : Dev nD) : Valuation τ sig (Elt F) := Function.update (U9 m c) main_v10 (out5 (rd (U9 m)) c)
def U11 (c : Dev nD) : Valuation τ sig (Elt F) := Function.update (U10 m c) main_v11 (out6arr (rd (U10 m)) c)
def U12 (c : Dev nD) : Valuation τ sig (Elt F) := StableHlo.after hostOps7 (U11 m c)
def U13 (c : Dev nD) : Valuation τ sig (Elt F) := Function.update (U12 m c) main_v13 (out7 (rd (U12 m)) c)
def U14 (c : Dev nD) : Valuation τ sig (Elt F) := StableHlo.after hostOps8 (U13 m c)
def U15 (c : Dev nD) : Valuation τ sig (Elt F) := Function.update (U14 m c) main_v25 (out8arr (rd (U14 m)) c)
def U16 (c : Dev nD) : Valuation τ sig (Elt F) := Function.update (U15 m c) main_v26 (out9arr (rd (U15 m)) c)
def U17 (c : Dev nD) : Valuation τ sig (Elt F) := Function.update (U16 m c) main_v27 (out10arr (rd (U16 m)) c)
def U18 (c : Dev nD) : Valuation τ sig (Elt F) := Function.update (U17 m c) main_v28 (out11arr (rd (U17 m)) c)
def U19 (c : Dev nD) : Valuation τ sig (Elt F) := Function.update (U18 m c) main_v29 (out12arr (rd (U18 m)) c)
def U20 (c : Dev nD) : Valuation τ sig (Elt F) := Function.update (U19 m c) main_v30 (out13 (rd (U19 m)) c)
def U21 (c : Dev nD) : Valuation τ sig (Elt F) := StableHlo.after hostOps14 (U20 m c)
def U22 (c : Dev nD) : Valuation τ sig (Elt F) := Function.update (U21 m c) main_v32 (out14arr (rd (U21 m)) c)
def U23 (c : Dev nD) : Valuation τ sig (Elt F) := Function.update (U22 m c) main_v33 (out15 (rd (U22 m)) c)
def U24 (c : Dev nD) : Valuation τ sig (Elt F) := StableHlo.after hostOps16 (U23 m c)
def U25 (c : Dev nD) : Valuation τ sig (Elt F) := Function.update (U24 m c) main_v35 (out16arr (rd (U24 m)) c)
def U26 (c : Dev nD) : Valuation τ sig (Elt F) := Function.update (U25 m c) main_v36 (out17arr (rd (U25 m)) c)
def U27 (c : Dev nD) : Valuation τ sig (Elt F) := Function.update (U26 m c) main_v37 (out18 (rd (U26 m)) c)
def U28 (c : Dev nD) : Valuation τ sig (Elt F) := StableHlo.after hostOps19 (U27 m c)
def U29 (c : Dev nD) : Valuation τ sig (Elt F) := Function.update (U28 m c) main_v39 (out19arr (rd (U28 m)) c)
def U30 (c : Dev nD) : Valuation τ sig (Elt F) := Function.update (U29 m c) main_v40 (out20 (rd (U29 m)) c)
def U31 (c : Dev nD) : Valuation τ sig (Elt F) := StableHlo.after hostOps21 (U30 m c)
def U32 (c : Dev nD) : Valuation τ sig (Elt F) := Function.update (U31 m c) main_v42 (out21arr (rd (U31 m)) c)
def U33 (c : Dev nD) : Valuation τ sig (Elt F) := StableHlo.after hostOps22 (U32 m c)

/-- What the launches leave, as the unknowns the conditional frame is stated over: item J's buffers after it. -/
def outs : GenP.Outs (F := F) := fun J r c =>
  match J with
  | 2 => U2 m c r
  | 4 => U4 m c r
  | 5 => U5 m c r
  | 7 => U7 m c r
  | 8 => U8 m c r
  | 10 => U10 m c r
  | 11 => U11 m c r
  | 13 => U13 m c r
  | 15 => U15 m c r
  | 16 => U16 m c r
  | 17 => U17 m c r
  | 18 => U18 m c r
  | 19 => U19 m c r
  | 20 => U20 m c r
  | 22 => U22 m c r
  | 23 => U23 m c r
  | 25 => U25 m c r
  | 26 => U26 m c r
  | 27 => U27 m c r
  | 29 => U29 m c r
  | 30 => U30 m c r
  | 32 => U32 m c r
  | _ => U1 m c r

/-! ## The conditional frame's valuations are these -/

theorem V1_eq (c : Dev nD) : GenP.V1 m c = U1 m c := rfl
theorem V2_eq (c : Dev nD) : GenP.V2 m (outs m) c = U2 m c := by
  unfold GenP.V2; rw [V1_eq]
  show Function.update (U1 m c) main_v2 (U2 m c main_v2) = U2 m c
  unfold U2; rw [Function.update_self]
theorem V3_eq (c : Dev nD) : GenP.V3 m (outs m) c = U3 m c := by
  unfold GenP.V3; rw [V2_eq]; rfl
theorem V4_eq (c : Dev nD) : GenP.V4 m (outs m) c = U4 m c := by
  unfold GenP.V4; rw [V3_eq]
  show Function.update (U3 m c) main_v4 (U4 m c main_v4) = U4 m c
  unfold U4; rw [Function.update_self]
theorem V5_eq (c : Dev nD) : GenP.V5 m (outs m) c = U5 m c := by
  unfold GenP.V5; rw [V4_eq]
  show Function.update (U4 m c) main_v5 (U5 m c main_v5) = U5 m c
  unfold U5; rw [Function.update_self]
theorem V6_eq (c : Dev nD) : GenP.V6 m (outs m) c = U6 m c := by
  unfold GenP.V6; rw [V5_eq]; rfl
theorem V7_eq (c : Dev nD) : GenP.V7 m (outs m) c = U7 m c := by
  unfold GenP.V7; rw [V6_eq]
  show Function.update (U6 m c) main_v7 (U7 m c main_v7) = U7 m c
  unfold U7; rw [Function.update_self]
theorem V8_eq (c : Dev nD) : GenP.V8 m (outs m) c = U8 m c := by
  unfold GenP.V8; rw [V7_eq]
  show Function.update (U7 m c) main_v8 (U8 m c main_v8) = U8 m c
  unfold U8; rw [Function.update_self]
theorem V9_eq (c : Dev nD) : GenP.V9 m (outs m) c = U9 m c := by
  unfold GenP.V9; rw [V8_eq]; rfl
theorem V10_eq (c : Dev nD) : GenP.V10 m (outs m) c = U10 m c := by
  unfold GenP.V10; rw [V9_eq]
  show Function.update (U9 m c) main_v10 (U10 m c main_v10) = U10 m c
  unfold U10; rw [Function.update_self]
theorem V11_eq (c : Dev nD) : GenP.V11 m (outs m) c = U11 m c := by
  unfold GenP.V11; rw [V10_eq]
  show Function.update (U10 m c) main_v11 (U11 m c main_v11) = U11 m c
  unfold U11; rw [Function.update_self]
theorem V12_eq (c : Dev nD) : GenP.V12 m (outs m) c = U12 m c := by
  unfold GenP.V12; rw [V11_eq]; rfl
theorem V13_eq (c : Dev nD) : GenP.V13 m (outs m) c = U13 m c := by
  unfold GenP.V13; rw [V12_eq]
  show Function.update (U12 m c) main_v13 (U13 m c main_v13) = U13 m c
  unfold U13; rw [Function.update_self]
theorem V14_eq (c : Dev nD) : GenP.V14 m (outs m) c = U14 m c := by
  unfold GenP.V14; rw [V13_eq]; rfl
theorem V15_eq (c : Dev nD) : GenP.V15 m (outs m) c = U15 m c := by
  unfold GenP.V15; rw [V14_eq]
  show Function.update (U14 m c) main_v25 (U15 m c main_v25) = U15 m c
  unfold U15; rw [Function.update_self]
theorem V16_eq (c : Dev nD) : GenP.V16 m (outs m) c = U16 m c := by
  unfold GenP.V16; rw [V15_eq]
  show Function.update (U15 m c) main_v26 (U16 m c main_v26) = U16 m c
  unfold U16; rw [Function.update_self]
theorem V17_eq (c : Dev nD) : GenP.V17 m (outs m) c = U17 m c := by
  unfold GenP.V17; rw [V16_eq]
  show Function.update (U16 m c) main_v27 (U17 m c main_v27) = U17 m c
  unfold U17; rw [Function.update_self]
theorem V18_eq (c : Dev nD) : GenP.V18 m (outs m) c = U18 m c := by
  unfold GenP.V18; rw [V17_eq]
  show Function.update (U17 m c) main_v28 (U18 m c main_v28) = U18 m c
  unfold U18; rw [Function.update_self]
theorem V19_eq (c : Dev nD) : GenP.V19 m (outs m) c = U19 m c := by
  unfold GenP.V19; rw [V18_eq]
  show Function.update (U18 m c) main_v29 (U19 m c main_v29) = U19 m c
  unfold U19; rw [Function.update_self]
theorem V20_eq (c : Dev nD) : GenP.V20 m (outs m) c = U20 m c := by
  unfold GenP.V20; rw [V19_eq]
  show Function.update (U19 m c) main_v30 (U20 m c main_v30) = U20 m c
  unfold U20; rw [Function.update_self]
theorem V21_eq (c : Dev nD) : GenP.V21 m (outs m) c = U21 m c := by
  unfold GenP.V21; rw [V20_eq]; rfl
theorem V22_eq (c : Dev nD) : GenP.V22 m (outs m) c = U22 m c := by
  unfold GenP.V22; rw [V21_eq]
  show Function.update (U21 m c) main_v32 (U22 m c main_v32) = U22 m c
  unfold U22; rw [Function.update_self]
theorem V23_eq (c : Dev nD) : GenP.V23 m (outs m) c = U23 m c := by
  unfold GenP.V23; rw [V22_eq]
  show Function.update (U22 m c) main_v33 (U23 m c main_v33) = U23 m c
  unfold U23; rw [Function.update_self]
theorem V24_eq (c : Dev nD) : GenP.V24 m (outs m) c = U24 m c := by
  unfold GenP.V24; rw [V23_eq]; rfl
theorem V25_eq (c : Dev nD) : GenP.V25 m (outs m) c = U25 m c := by
  unfold GenP.V25; rw [V24_eq]
  show Function.update (U24 m c) main_v35 (U25 m c main_v35) = U25 m c
  unfold U25; rw [Function.update_self]
theorem V26_eq (c : Dev nD) : GenP.V26 m (outs m) c = U26 m c := by
  unfold GenP.V26; rw [V25_eq]
  show Function.update (U25 m c) main_v36 (U26 m c main_v36) = U26 m c
  unfold U26; rw [Function.update_self]
theorem V27_eq (c : Dev nD) : GenP.V27 m (outs m) c = U27 m c := by
  unfold GenP.V27; rw [V26_eq]
  show Function.update (U26 m c) main_v37 (U27 m c main_v37) = U27 m c
  unfold U27; rw [Function.update_self]
theorem V28_eq (c : Dev nD) : GenP.V28 m (outs m) c = U28 m c := by
  unfold GenP.V28; rw [V27_eq]; rfl
theorem V29_eq (c : Dev nD) : GenP.V29 m (outs m) c = U29 m c := by
  unfold GenP.V29; rw [V28_eq]
  show Function.update (U28 m c) main_v39 (U29 m c main_v39) = U29 m c
  unfold U29; rw [Function.update_self]
theorem V30_eq (c : Dev nD) : GenP.V30 m (outs m) c = U30 m c := by
  unfold GenP.V30; rw [V29_eq]
  show Function.update (U29 m c) main_v40 (U30 m c main_v40) = U30 m c
  unfold U30; rw [Function.update_self]
theorem V31_eq (c : Dev nD) : GenP.V31 m (outs m) c = U31 m c := by
  unfold GenP.V31; rw [V30_eq]; rfl
theorem V32_eq (c : Dev nD) : GenP.V32 m (outs m) c = U32 m c := by
  unfold GenP.V32; rw [V31_eq]
  show Function.update (U31 m c) main_v42 (U32 m c main_v42) = U32 m c
  unfold U32; rw [Function.update_self]
theorem V33_eq (c : Dev nD) : GenP.V33 m (outs m) c = U33 m c := by
  unfold GenP.V33; rw [V32_eq]; rfl

/-! ## The proof data of the 22 launches -/

def pdats : (p : Fin 22) → (c : Dev nD) → Dat τ (Elt F) Unit ℕ (UR sig nD τ × Counters) ℕ (cfgs p) c
  | ⟨0, _⟩ => fun c => dat0 (rd (U1 m)) c
  | ⟨1, _⟩ => fun c => dat1 (rd (U3 m)) c
  | ⟨2, _⟩ => fun c => dat2 (rd (U4 m)) c
  | ⟨3, _⟩ => fun c => dat3 (rd (U6 m)) c
  | ⟨4, _⟩ => fun c => dat4 (rd (U7 m)) c
  | ⟨5, _⟩ => fun c => dat5 (rd (U9 m)) c
  | ⟨6, _⟩ => fun c => dat6 (rd (U10 m)) c
  | ⟨7, _⟩ => fun c => dat7 (rd (U12 m)) c
  | ⟨8, _⟩ => fun c => dat8 (rd (U14 m)) c
  | ⟨9, _⟩ => fun c => dat9 (rd (U15 m)) c
  | ⟨10, _⟩ => fun c => dat10 (rd (U16 m)) c
  | ⟨11, _⟩ => fun c => dat11 (rd (U17 m)) c
  | ⟨12, _⟩ => fun c => dat12 (rd (U18 m)) c
  | ⟨13, _⟩ => fun c => dat13 (rd (U19 m)) c
  | ⟨14, _⟩ => fun c => dat14 (rd (U21 m)) c
  | ⟨15, _⟩ => fun c => dat15 (rd (U22 m)) c
  | ⟨16, _⟩ => fun c => dat16 (rd (U24 m)) c
  | ⟨17, _⟩ => fun c => dat17 (rd (U25 m)) c
  | ⟨18, _⟩ => fun c => dat18 (rd (U26 m)) c
  | ⟨19, _⟩ => fun c => dat19 (rd (U28 m)) c
  | ⟨20, _⟩ => fun c => dat20 (rd (U29 m)) c
  | ⟨21, _⟩ => fun c => dat21 (rd (U31 m)) c
  | ⟨_ + 22, h⟩ => absurd h (Nat.not_lt.2 (Nat.le_add_left _ _))

/-! ## Each launch's segment record, between its two valuations -/

def R0 := reg0 (rd (U1 m)) (rd (U2 m)) (pdats m) (fun _ => rfl)
  (fun c => by show U2 m c main_v2 = _; unfold U2; rw [Function.update_self])
  (fun c b hb => by show U2 m c b = U1 m c b; unfold U2; exact Function.update_of_ne (StableHlo.devRef_ne_of_ne hb : (Proc.devRef .tc b : DevRef τ sig) ≠ Proc.devRef .tc main_v2) _ _)
theorem hpre0 (c : Dev nD) : iprop(StableHlo.held (c : Thread nD τ) (Pipeline.ucRefs τ sig) (GenP.V1 m c) ∗ Erest (F := F) 0 c) ⊢ (R0 m).pre c := by
  rw [V1_eq, ← Pipeline.unscopedBufs_held]; exact .rfl
theorem hpost0 (c : Dev nD) : (R0 m).post c ⊢ iprop(StableHlo.held (c : Thread nD τ) (Pipeline.ucRefs τ sig) (GenP.V2 m (outs m) c) ∗ Erest (F := F) 1 c) := by
  rw [V2_eq, ← Pipeline.unscopedBufs_held]; exact .rfl

def R1 := reg1 (rd (U3 m)) (rd (U4 m)) (pdats m) (fun _ => rfl)
  (fun c => by show U4 m c main_v4 = _; unfold U4; rw [Function.update_self])
  (fun c b hb => by show U4 m c b = U3 m c b; unfold U4; exact Function.update_of_ne (StableHlo.devRef_ne_of_ne hb : (Proc.devRef .tc b : DevRef τ sig) ≠ Proc.devRef .tc main_v4) _ _)
theorem hpre1 (c : Dev nD) : iprop(StableHlo.held (c : Thread nD τ) (Pipeline.ucRefs τ sig) (GenP.V3 m (outs m) c) ∗ Erest (F := F) 1 c) ⊢ (R1 m).pre c := by
  rw [V3_eq, ← Pipeline.unscopedBufs_held]; exact .rfl
theorem hpost1 (c : Dev nD) : (R1 m).post c ⊢ iprop(StableHlo.held (c : Thread nD τ) (Pipeline.ucRefs τ sig) (GenP.V4 m (outs m) c) ∗ Erest (F := F) 2 c) := by
  rw [V4_eq, ← Pipeline.unscopedBufs_held]; exact .rfl

def R2 := reg2 (rd (U4 m)) (rd (U5 m)) (pdats m) (fun _ => rfl)
  (fun c => by show U5 m c main_v5 = _; unfold U5; rw [Function.update_self])
  (fun c b hb => by show U5 m c b = U4 m c b; unfold U5; exact Function.update_of_ne (StableHlo.devRef_ne_of_ne hb : (Proc.devRef .tc b : DevRef τ sig) ≠ Proc.devRef .tc main_v5) _ _)
theorem hpre2 (c : Dev nD) : iprop(StableHlo.held (c : Thread nD τ) (Pipeline.ucRefs τ sig) (GenP.V4 m (outs m) c) ∗ Erest (F := F) 2 c) ⊢ (R2 m).pre c := by
  rw [V4_eq, ← Pipeline.unscopedBufs_held]; exact .rfl
theorem hpost2 (c : Dev nD) : (R2 m).post c ⊢ iprop(StableHlo.held (c : Thread nD τ) (Pipeline.ucRefs τ sig) (GenP.V5 m (outs m) c) ∗ Erest (F := F) 3 c) := by
  rw [V5_eq, ← Pipeline.unscopedBufs_held]; exact .rfl

def R3 := reg3 (rd (U6 m)) (rd (U7 m)) (pdats m) (fun _ => rfl)
  (fun c => by show U7 m c main_v7 = _; unfold U7; rw [Function.update_self])
  (fun c b hb => by show U7 m c b = U6 m c b; unfold U7; exact Function.update_of_ne (StableHlo.devRef_ne_of_ne hb : (Proc.devRef .tc b : DevRef τ sig) ≠ Proc.devRef .tc main_v7) _ _)
theorem hpre3 (c : Dev nD) : iprop(StableHlo.held (c : Thread nD τ) (Pipeline.ucRefs τ sig) (GenP.V6 m (outs m) c) ∗ Erest (F := F) 3 c) ⊢ (R3 m).pre c := by
  rw [V6_eq, ← Pipeline.unscopedBufs_held]; exact .rfl
theorem hpost3 (c : Dev nD) : (R3 m).post c ⊢ iprop(StableHlo.held (c : Thread nD τ) (Pipeline.ucRefs τ sig) (GenP.V7 m (outs m) c) ∗ Erest (F := F) 4 c) := by
  rw [V7_eq, ← Pipeline.unscopedBufs_held]; exact .rfl

def R4 := reg4 (rd (U7 m)) (rd (U8 m)) (pdats m) (fun _ => rfl)
  (fun c => by show U8 m c main_v8 = _; unfold U8; rw [Function.update_self])
  (fun c b hb => by show U8 m c b = U7 m c b; unfold U8; exact Function.update_of_ne (StableHlo.devRef_ne_of_ne hb : (Proc.devRef .tc b : DevRef τ sig) ≠ Proc.devRef .tc main_v8) _ _)
theorem hpre4 (c : Dev nD) : iprop(StableHlo.held (c : Thread nD τ) (Pipeline.ucRefs τ sig) (GenP.V7 m (outs m) c) ∗ Erest (F := F) 4 c) ⊢ (R4 m).pre c := by
  rw [V7_eq, ← Pipeline.unscopedBufs_held]; exact .rfl
theorem hpost4 (c : Dev nD) : (R4 m).post c ⊢ iprop(StableHlo.held (c : Thread nD τ) (Pipeline.ucRefs τ sig) (GenP.V8 m (outs m) c) ∗ Erest (F := F) 5 c) := by
  rw [V8_eq, ← Pipeline.unscopedBufs_held]; exact .rfl

def R5 := reg5 (rd (U9 m)) (rd (U10 m)) (pdats m) (fun _ => rfl)
  (fun c => by show U10 m c main_v10 = _; unfold U10; rw [Function.update_self])
  (fun c b hb => by show U10 m c b = U9 m c b; unfold U10; exact Function.update_of_ne (StableHlo.devRef_ne_of_ne hb : (Proc.devRef .tc b : DevRef τ sig) ≠ Proc.devRef .tc main_v10) _ _)
theorem hpre5 (c : Dev nD) : iprop(StableHlo.held (c : Thread nD τ) (Pipeline.ucRefs τ sig) (GenP.V9 m (outs m) c) ∗ Erest (F := F) 5 c) ⊢ (R5 m).pre c := by
  rw [V9_eq, ← Pipeline.unscopedBufs_held]; exact .rfl
theorem hpost5 (c : Dev nD) : (R5 m).post c ⊢ iprop(StableHlo.held (c : Thread nD τ) (Pipeline.ucRefs τ sig) (GenP.V10 m (outs m) c) ∗ Erest (F := F) 6 c) := by
  rw [V10_eq, ← Pipeline.unscopedBufs_held]; exact .rfl

def R6 := reg6 (rd (U10 m)) (rd (U11 m)) (pdats m) (fun _ => rfl)
  (fun c => by show U11 m c main_v11 = _; unfold U11; rw [Function.update_self])
  (fun c b hb => by show U11 m c b = U10 m c b; unfold U11; exact Function.update_of_ne (StableHlo.devRef_ne_of_ne hb : (Proc.devRef .tc b : DevRef τ sig) ≠ Proc.devRef .tc main_v11) _ _)
theorem hpre6 (c : Dev nD) : iprop(StableHlo.held (c : Thread nD τ) (Pipeline.ucRefs τ sig) (GenP.V10 m (outs m) c) ∗ Erest (F := F) 6 c) ⊢ (R6 m).pre c := by
  rw [V10_eq, ← Pipeline.unscopedBufs_held]; exact .rfl
theorem hpost6 (c : Dev nD) : (R6 m).post c ⊢ iprop(StableHlo.held (c : Thread nD τ) (Pipeline.ucRefs τ sig) (GenP.V11 m (outs m) c) ∗ Erest (F := F) 7 c) := by
  rw [V11_eq, ← Pipeline.unscopedBufs_held]; exact .rfl

def R7 := reg7 (rd (U12 m)) (rd (U13 m)) (pdats m) (fun _ => rfl)
  (fun c => by show U13 m c main_v13 = _; unfold U13; rw [Function.update_self])
  (fun c b hb => by show U13 m c b = U12 m c b; unfold U13; exact Function.update_of_ne (StableHlo.devRef_ne_of_ne hb : (Proc.devRef .tc b : DevRef τ sig) ≠ Proc.devRef .tc main_v13) _ _)
theorem hpre7 (c : Dev nD) : iprop(StableHlo.held (c : Thread nD τ) (Pipeline.ucRefs τ sig) (GenP.V12 m (outs m) c) ∗ Erest (F := F) 7 c) ⊢ (R7 m).pre c := by
  rw [V12_eq, ← Pipeline.unscopedBufs_held]; exact .rfl
theorem hpost7 (c : Dev nD) : (R7 m).post c ⊢ iprop(StableHlo.held (c : Thread nD τ) (Pipeline.ucRefs τ sig) (GenP.V13 m (outs m) c) ∗ Erest (F := F) 8 c) := by
  rw [V13_eq, ← Pipeline.unscopedBufs_held]; exact .rfl

def R8 := reg8 (rd (U14 m)) (rd (U15 m)) (pdats m) (fun _ => rfl)
  (fun c => by show U15 m c main_v25 = _; unfold U15; rw [Function.update_self])
  (fun c b hb => by show U15 m c b = U14 m c b; unfold U15; exact Function.update_of_ne (StableHlo.devRef_ne_of_ne hb : (Proc.devRef .tc b : DevRef τ sig) ≠ Proc.devRef .tc main_v25) _ _)
theorem hpre8 (c : Dev nD) : iprop(StableHlo.held (c : Thread nD τ) (Pipeline.ucRefs τ sig) (GenP.V14 m (outs m) c) ∗ Erest (F := F) 8 c) ⊢ (R8 m).pre c := by
  rw [V14_eq, ← Pipeline.unscopedBufs_held]; exact .rfl
theorem hpost8 (c : Dev nD) : (R8 m).post c ⊢ iprop(StableHlo.held (c : Thread nD τ) (Pipeline.ucRefs τ sig) (GenP.V15 m (outs m) c) ∗ Erest (F := F) 9 c) := by
  rw [V15_eq, ← Pipeline.unscopedBufs_held]; exact .rfl

def R9 := reg9 (rd (U15 m)) (rd (U16 m)) (pdats m) (fun _ => rfl)
  (fun c => by show U16 m c main_v26 = _; unfold U16; rw [Function.update_self])
  (fun c b hb => by show U16 m c b = U15 m c b; unfold U16; exact Function.update_of_ne (StableHlo.devRef_ne_of_ne hb : (Proc.devRef .tc b : DevRef τ sig) ≠ Proc.devRef .tc main_v26) _ _)
theorem hpre9 (c : Dev nD) : iprop(StableHlo.held (c : Thread nD τ) (Pipeline.ucRefs τ sig) (GenP.V15 m (outs m) c) ∗ Erest (F := F) 9 c) ⊢ (R9 m).pre c := by
  rw [V15_eq, ← Pipeline.unscopedBufs_held]; exact .rfl
theorem hpost9 (c : Dev nD) : (R9 m).post c ⊢ iprop(StableHlo.held (c : Thread nD τ) (Pipeline.ucRefs τ sig) (GenP.V16 m (outs m) c) ∗ Erest (F := F) 10 c) := by
  rw [V16_eq, ← Pipeline.unscopedBufs_held]; exact .rfl

def R10 := reg10 (rd (U16 m)) (rd (U17 m)) (pdats m) (fun _ => rfl)
  (fun c => by show U17 m c main_v27 = _; unfold U17; rw [Function.update_self])
  (fun c b hb => by show U17 m c b = U16 m c b; unfold U17; exact Function.update_of_ne (StableHlo.devRef_ne_of_ne hb : (Proc.devRef .tc b : DevRef τ sig) ≠ Proc.devRef .tc main_v27) _ _)
theorem hpre10 (c : Dev nD) : iprop(StableHlo.held (c : Thread nD τ) (Pipeline.ucRefs τ sig) (GenP.V16 m (outs m) c) ∗ Erest (F := F) 10 c) ⊢ (R10 m).pre c := by
  rw [V16_eq, ← Pipeline.unscopedBufs_held]; exact .rfl
theorem hpost10 (c : Dev nD) : (R10 m).post c ⊢ iprop(StableHlo.held (c : Thread nD τ) (Pipeline.ucRefs τ sig) (GenP.V17 m (outs m) c) ∗ Erest (F := F) 11 c) := by
  rw [V17_eq, ← Pipeline.unscopedBufs_held]; exact .rfl

def R11 := reg11 (rd (U17 m)) (rd (U18 m)) (pdats m) (fun _ => rfl)
  (fun c => by show U18 m c main_v28 = _; unfold U18; rw [Function.update_self])
  (fun c b hb => by show U18 m c b = U17 m c b; unfold U18; exact Function.update_of_ne (StableHlo.devRef_ne_of_ne hb : (Proc.devRef .tc b : DevRef τ sig) ≠ Proc.devRef .tc main_v28) _ _)
theorem hpre11 (c : Dev nD) : iprop(StableHlo.held (c : Thread nD τ) (Pipeline.ucRefs τ sig) (GenP.V17 m (outs m) c) ∗ Erest (F := F) 11 c) ⊢ (R11 m).pre c := by
  rw [V17_eq, ← Pipeline.unscopedBufs_held]; exact .rfl
theorem hpost11 (c : Dev nD) : (R11 m).post c ⊢ iprop(StableHlo.held (c : Thread nD τ) (Pipeline.ucRefs τ sig) (GenP.V18 m (outs m) c) ∗ Erest (F := F) 12 c) := by
  rw [V18_eq, ← Pipeline.unscopedBufs_held]; exact .rfl

def R12 := reg12 (rd (U18 m)) (rd (U19 m)) (pdats m) (fun _ => rfl)
  (fun c => by show U19 m c main_v29 = _; unfold U19; rw [Function.update_self])
  (fun c b hb => by show U19 m c b = U18 m c b; unfold U19; exact Function.update_of_ne (StableHlo.devRef_ne_of_ne hb : (Proc.devRef .tc b : DevRef τ sig) ≠ Proc.devRef .tc main_v29) _ _)
theorem hpre12 (c : Dev nD) : iprop(StableHlo.held (c : Thread nD τ) (Pipeline.ucRefs τ sig) (GenP.V18 m (outs m) c) ∗ Erest (F := F) 12 c) ⊢ (R12 m).pre c := by
  rw [V18_eq, ← Pipeline.unscopedBufs_held]; exact .rfl
theorem hpost12 (c : Dev nD) : (R12 m).post c ⊢ iprop(StableHlo.held (c : Thread nD τ) (Pipeline.ucRefs τ sig) (GenP.V19 m (outs m) c) ∗ Erest (F := F) 13 c) := by
  rw [V19_eq, ← Pipeline.unscopedBufs_held]; exact .rfl

def R13 := reg13 (rd (U19 m)) (rd (U20 m)) (pdats m) (fun _ => rfl)
  (fun c => by show U20 m c main_v30 = _; unfold U20; rw [Function.update_self])
  (fun c b hb => by show U20 m c b = U19 m c b; unfold U20; exact Function.update_of_ne (StableHlo.devRef_ne_of_ne hb : (Proc.devRef .tc b : DevRef τ sig) ≠ Proc.devRef .tc main_v30) _ _)
theorem hpre13 (c : Dev nD) : iprop(StableHlo.held (c : Thread nD τ) (Pipeline.ucRefs τ sig) (GenP.V19 m (outs m) c) ∗ Erest (F := F) 13 c) ⊢ (R13 m).pre c := by
  rw [V19_eq, ← Pipeline.unscopedBufs_held]; exact .rfl
theorem hpost13 (c : Dev nD) : (R13 m).post c ⊢ iprop(StableHlo.held (c : Thread nD τ) (Pipeline.ucRefs τ sig) (GenP.V20 m (outs m) c) ∗ Erest (F := F) 14 c) := by
  rw [V20_eq, ← Pipeline.unscopedBufs_held]; exact .rfl

def R14 := reg14 (rd (U21 m)) (rd (U22 m)) (pdats m) (fun _ => rfl)
  (fun c => by show U22 m c main_v32 = _; unfold U22; rw [Function.update_self])
  (fun c b hb => by show U22 m c b = U21 m c b; unfold U22; exact Function.update_of_ne (StableHlo.devRef_ne_of_ne hb : (Proc.devRef .tc b : DevRef τ sig) ≠ Proc.devRef .tc main_v32) _ _)
theorem hpre14 (c : Dev nD) : iprop(StableHlo.held (c : Thread nD τ) (Pipeline.ucRefs τ sig) (GenP.V21 m (outs m) c) ∗ Erest (F := F) 14 c) ⊢ (R14 m).pre c := by
  rw [V21_eq, ← Pipeline.unscopedBufs_held]; exact .rfl
theorem hpost14 (c : Dev nD) : (R14 m).post c ⊢ iprop(StableHlo.held (c : Thread nD τ) (Pipeline.ucRefs τ sig) (GenP.V22 m (outs m) c) ∗ Erest (F := F) 15 c) := by
  rw [V22_eq, ← Pipeline.unscopedBufs_held]; exact .rfl

def R15 := reg15 (rd (U22 m)) (rd (U23 m)) (pdats m) (fun _ => rfl)
  (fun c => by show U23 m c main_v33 = _; unfold U23; rw [Function.update_self])
  (fun c b hb => by show U23 m c b = U22 m c b; unfold U23; exact Function.update_of_ne (StableHlo.devRef_ne_of_ne hb : (Proc.devRef .tc b : DevRef τ sig) ≠ Proc.devRef .tc main_v33) _ _)
theorem hpre15 (c : Dev nD) : iprop(StableHlo.held (c : Thread nD τ) (Pipeline.ucRefs τ sig) (GenP.V22 m (outs m) c) ∗ Erest (F := F) 15 c) ⊢ (R15 m).pre c := by
  rw [V22_eq, ← Pipeline.unscopedBufs_held]; exact .rfl
theorem hpost15 (c : Dev nD) : (R15 m).post c ⊢ iprop(StableHlo.held (c : Thread nD τ) (Pipeline.ucRefs τ sig) (GenP.V23 m (outs m) c) ∗ Erest (F := F) 16 c) := by
  rw [V23_eq, ← Pipeline.unscopedBufs_held]; exact .rfl

def R16 := reg16 (rd (U24 m)) (rd (U25 m)) (pdats m) (fun _ => rfl)
  (fun c => by show U25 m c main_v35 = _; unfold U25; rw [Function.update_self])
  (fun c b hb => by show U25 m c b = U24 m c b; unfold U25; exact Function.update_of_ne (StableHlo.devRef_ne_of_ne hb : (Proc.devRef .tc b : DevRef τ sig) ≠ Proc.devRef .tc main_v35) _ _)
theorem hpre16 (c : Dev nD) : iprop(StableHlo.held (c : Thread nD τ) (Pipeline.ucRefs τ sig) (GenP.V24 m (outs m) c) ∗ Erest (F := F) 16 c) ⊢ (R16 m).pre c := by
  rw [V24_eq, ← Pipeline.unscopedBufs_held]; exact .rfl
theorem hpost16 (c : Dev nD) : (R16 m).post c ⊢ iprop(StableHlo.held (c : Thread nD τ) (Pipeline.ucRefs τ sig) (GenP.V25 m (outs m) c) ∗ Erest (F := F) 17 c) := by
  rw [V25_eq, ← Pipeline.unscopedBufs_held]; exact .rfl

def R17 := reg17 (rd (U25 m)) (rd (U26 m)) (pdats m) (fun _ => rfl)
  (fun c => by show U26 m c main_v36 = _; unfold U26; rw [Function.update_self])
  (fun c b hb => by show U26 m c b = U25 m c b; unfold U26; exact Function.update_of_ne (StableHlo.devRef_ne_of_ne hb : (Proc.devRef .tc b : DevRef τ sig) ≠ Proc.devRef .tc main_v36) _ _)
theorem hpre17 (c : Dev nD) : iprop(StableHlo.held (c : Thread nD τ) (Pipeline.ucRefs τ sig) (GenP.V25 m (outs m) c) ∗ Erest (F := F) 17 c) ⊢ (R17 m).pre c := by
  rw [V25_eq, ← Pipeline.unscopedBufs_held]; exact .rfl
theorem hpost17 (c : Dev nD) : (R17 m).post c ⊢ iprop(StableHlo.held (c : Thread nD τ) (Pipeline.ucRefs τ sig) (GenP.V26 m (outs m) c) ∗ Erest (F := F) 18 c) := by
  rw [V26_eq, ← Pipeline.unscopedBufs_held]; exact .rfl

def R18 := reg18 (rd (U26 m)) (rd (U27 m)) (pdats m) (fun _ => rfl)
  (fun c => by show U27 m c main_v37 = _; unfold U27; rw [Function.update_self])
  (fun c b hb => by show U27 m c b = U26 m c b; unfold U27; exact Function.update_of_ne (StableHlo.devRef_ne_of_ne hb : (Proc.devRef .tc b : DevRef τ sig) ≠ Proc.devRef .tc main_v37) _ _)
theorem hpre18 (c : Dev nD) : iprop(StableHlo.held (c : Thread nD τ) (Pipeline.ucRefs τ sig) (GenP.V26 m (outs m) c) ∗ Erest (F := F) 18 c) ⊢ (R18 m).pre c := by
  rw [V26_eq, ← Pipeline.unscopedBufs_held]; exact .rfl
theorem hpost18 (c : Dev nD) : (R18 m).post c ⊢ iprop(StableHlo.held (c : Thread nD τ) (Pipeline.ucRefs τ sig) (GenP.V27 m (outs m) c) ∗ Erest (F := F) 19 c) := by
  rw [V27_eq, ← Pipeline.unscopedBufs_held]; exact .rfl

def R19 := reg19 (rd (U28 m)) (rd (U29 m)) (pdats m) (fun _ => rfl)
  (fun c => by show U29 m c main_v39 = _; unfold U29; rw [Function.update_self])
  (fun c b hb => by show U29 m c b = U28 m c b; unfold U29; exact Function.update_of_ne (StableHlo.devRef_ne_of_ne hb : (Proc.devRef .tc b : DevRef τ sig) ≠ Proc.devRef .tc main_v39) _ _)
theorem hpre19 (c : Dev nD) : iprop(StableHlo.held (c : Thread nD τ) (Pipeline.ucRefs τ sig) (GenP.V28 m (outs m) c) ∗ Erest (F := F) 19 c) ⊢ (R19 m).pre c := by
  rw [V28_eq, ← Pipeline.unscopedBufs_held]; exact .rfl
theorem hpost19 (c : Dev nD) : (R19 m).post c ⊢ iprop(StableHlo.held (c : Thread nD τ) (Pipeline.ucRefs τ sig) (GenP.V29 m (outs m) c) ∗ Erest (F := F) 20 c) := by
  rw [V29_eq, ← Pipeline.unscopedBufs_held]; exact .rfl

def R20 := reg20 (rd (U29 m)) (rd (U30 m)) (pdats m) (fun _ => rfl)
  (fun c => by show U30 m c main_v40 = _; unfold U30; rw [Function.update_self])
  (fun c b hb => by show U30 m c b = U29 m c b; unfold U30; exact Function.update_of_ne (StableHlo.devRef_ne_of_ne hb : (Proc.devRef .tc b : DevRef τ sig) ≠ Proc.devRef .tc main_v40) _ _)
theorem hpre20 (c : Dev nD) : iprop(StableHlo.held (c : Thread nD τ) (Pipeline.ucRefs τ sig) (GenP.V29 m (outs m) c) ∗ Erest (F := F) 20 c) ⊢ (R20 m).pre c := by
  rw [V29_eq, ← Pipeline.unscopedBufs_held]; exact .rfl
theorem hpost20 (c : Dev nD) : (R20 m).post c ⊢ iprop(StableHlo.held (c : Thread nD τ) (Pipeline.ucRefs τ sig) (GenP.V30 m (outs m) c) ∗ Erest (F := F) 21 c) := by
  rw [V30_eq, ← Pipeline.unscopedBufs_held]; exact .rfl

def R21 := reg21 (rd (U31 m)) (rd (U32 m)) (pdats m) (fun _ => rfl)
  (fun c => by show U32 m c main_v42 = _; unfold U32; rw [Function.update_self])
  (fun c b hb => by show U32 m c b = U31 m c b; unfold U32; exact Function.update_of_ne (StableHlo.devRef_ne_of_ne hb : (Proc.devRef .tc b : DevRef τ sig) ≠ Proc.devRef .tc main_v42) _ _)
theorem hpre21 (c : Dev nD) : iprop(StableHlo.held (c : Thread nD τ) (Pipeline.ucRefs τ sig) (GenP.V31 m (outs m) c) ∗ Erest (F := F) 21 c) ⊢ (R21 m).pre c := by
  rw [V31_eq, ← Pipeline.unscopedBufs_held]; exact .rfl
theorem hpost21 (c : Dev nD) : (R21 m).post c ⊢ iprop(StableHlo.held (c : Thread nD τ) (Pipeline.ucRefs τ sig) (GenP.V32 m (outs m) c) ∗ Erest (F := F) 22 c) := by
  rw [V32_eq, ← Pipeline.unscopedBufs_held]; exact .rfl

/-! ## The assembled runs -/

/-- Every weakly fair execution of @main terminates and leaves every argument array as launched. -/
def frame_main (ρ : Dev nD → PrngReg) :=
  frame_of_regions m ρ (outs m) (pdats m) (R0 m) (hpre0 m) (hpost0 m) (R1 m) (hpre1 m) (hpost1 m) (R2 m) (hpre2 m) (hpost2 m) (R3 m) (hpre3 m) (hpost3 m) (R4 m) (hpre4 m) (hpost4 m) (R5 m) (hpre5 m) (hpost5 m) (R6 m) (hpre6 m) (hpost6 m) (R7 m) (hpre7 m) (hpost7 m) (R8 m) (hpre8 m) (hpost8 m) (R9 m) (hpre9 m) (hpost9 m) (R10 m) (hpre10 m) (hpost10 m) (R11 m) (hpre11 m) (hpost11 m) (R12 m) (hpre12 m) (hpost12 m) (R13 m) (hpre13 m) (hpost13 m) (R14 m) (hpre14 m) (hpost14 m) (R15 m) (hpre15 m) (hpost15 m) (R16 m) (hpre16 m) (hpost16 m) (R17 m) (hpre17 m) (hpost17 m) (R18 m) (hpre18 m) (hpost18 m) (R19 m) (hpre19 m) (hpost19 m) (R20 m) (hpre20 m) (hpost20 m) (R21 m) (hpre21 m) (hpost21 m)

/-- Every weakly fair execution of @main terminates with every unscoped buffer at the last valuation. -/
def run_main (ρ : Dev nD → PrngReg) :=
  run_of_regions m ρ (outs m) (pdats m) (R0 m) (hpre0 m) (hpost0 m) (R1 m) (hpre1 m) (hpost1 m) (R2 m) (hpre2 m) (hpost2 m) (R3 m) (hpre3 m) (hpost3 m) (R4 m) (hpre4 m) (hpost4 m) (R5 m) (hpre5 m) (hpost5 m) (R6 m) (hpre6 m) (hpost6 m) (R7 m) (hpre7 m) (hpost7 m) (R8 m) (hpre8 m) (hpost8 m) (R9 m) (hpre9 m) (hpost9 m) (R10 m) (hpre10 m) (hpost10 m) (R11 m) (hpre11 m) (hpost11 m) (R12 m) (hpre12 m) (hpost12 m) (R13 m) (hpre13 m) (hpost13 m) (R14 m) (hpre14 m) (hpost14 m) (R15 m) (hpre15 m) (hpost15 m) (R16 m) (hpre16 m) (hpost16 m) (R17 m) (hpre17 m) (hpost17 m) (R18 m) (hpre18 m) (hpost18 m) (R19 m) (hpre19 m) (hpost19 m) (R20 m) (hpre20 m) (hpost20 m) (R21 m) (hpre21 m) (hpost21 m)

end Cert.KernelIdeal.Hand

end
-- ==== Proof.GcnSpec.lean ====
/-
  The mathematics of the certificate, free of any program: matrices over the extended reals as functions of two
  coordinates, the matrix product as a finite sum, and the network both programs compute — two two-layer graph
  convolutions, their row-weighted mean, the inner-product adjacency heads, the two decoders, and the Student-t
  soft assignment — written once, index by index, in the reference's association. The kernel differs from it by
  three re-associations of a triple matrix product and by the expanded square |z|² − 2 z·c + |c|² clamped at zero;
  the laws that join them are in GcnAlgebra.lean.
-/
import Idealize.ShloMosaic.PureOps.Ideal
import Idealize.ShloMosaic.Lib.ValueIdx

noncomputable section

namespace GcnSpec

open Idealize.ShloMosaic

/-- A matrix of extended reals, by row and column. -/
abbrev Mat (r c : ℕ) : Type := Fin r → Fin c → EReal

/-- Every entry is a real number. -/
def IsReal {r c : ℕ} (A : Mat r c) : Prop := ∀ i j, ∃ x : ℝ, A i j = (x : EReal)
/-- Every entry of a vector is a real number. -/
def IsRealV {n : ℕ} (v : Fin n → EReal) : Prop := ∀ i, ∃ x : ℝ, v i = (x : EReal)

/-- A rank-2 array read as a matrix. -/
def toMat {r c : ℕ} (a : (⟨2, ![r, c]⟩ : Shape).Idx → EReal) : Mat r c := fun i j => a (ValueIdx.ix2 i j)
/-- A rank-1 array read as a vector. -/
def toVec {n : ℕ} (a : (⟨1, ![n]⟩ : Shape).Idx → EReal) : Fin n → EReal := fun i => a (ValueIdx.ix1 i)

/-- The matrix product A·B. -/
def mm {n k p : ℕ} (A : Mat n k) (B : Mat k p) : Mat n p := fun i j => ∑ l, A i l * B l j
/-- The product with the second factor transposed, A·Bᵀ. -/
def mmT {n k p : ℕ} (A : Mat n k) (B : Mat p k) : Mat n p := fun i j => ∑ l, A i l * B j l

/-- tanh of a matrix plus a row vector broadcast down the rows. -/
def tanhB {n p : ℕ} (A : Mat n p) (b : Fin p → EReal) : Mat n p := fun i j => Ideal.tanh (A i j + b j)
/-- tanh entry by entry. -/
def tanhM {n p : ℕ} (A : Mat n p) : Mat n p := fun i j => Ideal.tanh (A i j)
/-- The logistic function as both programs spell it: 1 / (1 + exp (−x)). -/
def sig (x : EReal) : EReal := Ideal.div 1 (1 + Ideal.exp (-x))
def sigM {n p : ℕ} (A : Mat n p) : Mat n p := fun i j => sig (A i j)

/-- One graph-convolution pair in the reference's association: tanh((g·h₁)·W₂ + b₂) with h₁ = tanh((g·x)·W₁ + b₁). -/
def gconv {n d h s : ℕ} (g : Mat n n) (x : Mat n d) (W1 : Mat d h) (b1 : Fin h → EReal) (W2 : Mat h s) (b2 : Fin s → EReal) : Mat n s :=
  tanhB (mm (mm g (tanhB (mm (mm g x) W1) b1)) W2) b2

/-- The row-weighted mean of the two encodings: (we₀·h₀ + we₁·h₁) / (we₀ + we₁), row by row. -/
def zOf {n s : ℕ} (we : Mat n 2) (h0 h1 : Mat n s) : Mat n s :=
  fun i j => Ideal.div (we i 0 * h0 i j + we i 1 * h1 i j) (we i 0 + we i 1)

/-- An adjacency head: σ((z·W)·zᵀ). -/
def adjOf {n s : ℕ} (z : Mat n s) (W : Mat s s) : Mat n n := sigM (mmT (mm z W) z)

/-- The squared distance of row n of z to centre k, as the reference sums it. -/
def d2Ref {n k s : ℕ} (z : Mat n s) (c : Mat k s) : Mat n k := fun i j => ∑ l, (z i l - c j l) * (z i l - c j l)
/-- The same distance as the kernel expands it, clamped at zero. -/
def d2Ker {n k s : ℕ} (z : Mat n s) (c : Mat k s) : Mat n k :=
  fun i j => max ((∑ l, z i l * z i l) - 2 * (∑ l, z i l * c j l) + ∑ l, c j l * c j l) 0

/-- Student-t soft assignment from the squared distances: q₀ = 1/(1 + d²), q = q₀ / Σₖ q₀. -/
def qOf {n k : ℕ} (d2 : Mat n k) : Mat n k :=
  fun i j => Ideal.div (Ideal.div 1 (1 + d2 i j)) (∑ j', Ideal.div 1 (1 + d2 i j'))
/-- The target distribution: w = q² / Σₙ q, p = w / Σₖ w. -/
def pOf {n k : ℕ} (q : Mat n k) : Mat n k :=
  fun i j => Ideal.div (Ideal.div (q i j * q i j) (∑ i', q i' j)) (∑ j', Ideal.div (q i j' * q i j') (∑ i', q i' j'))

end GcnSpec

end
-- ==== Proof.KI.HostValue.lean ====
/-
  What the kernel program's host operations compute at the ideal values, read index by index, from ANY contents of
  the buffers before them: the converted adjacency copies and the reshaped bias rows are the arguments themselves; the
  stretch before the adjacency heads leaves the row-weighted mean of the two encodings; the last stretch leaves the
  Student-t soft assignment of the clamped expanded squared distances, and its target distribution.
-/
import proofs.«113214_j66838281060556_2_alg».proof.Proof.RegionsKernelIdeal
import proofs.«113214_j66838281060556_2_alg».proof.Proof.GcnSpec
import Idealize.ShloMosaic.Lib.StableHlo.Run
import Idealize.ShloMosaic.Lib.ValueIdx
import Idealize.ShloMosaic.Lib.ValueLayout
import Idealize.ShloMosaic.Lib.IdealHost
import Idealize.ShloMosaic.Lib.StackMember
import Idealize.ShloMosaic.PureOps.Ideal.Laws

noncomputable section

namespace Cert.KernelIdeal.HostValue

open Cert.KernelIdeal Cert.KernelIdeal.Gen
open Idealize.ShloMosaic Idealize.ShloMosaic.TcCoe Idealize.ShloMosaic.ValueIdx
open GcnSpec

variable (W : Valuation τ sig (Elt Ideal))

/-! ## Layout and reduction operations read at an index -/

section Index
variable {α : Type}

/-- A column `[n, 1]` broadcast to `[n, p]` reads, at `(i, j)`, the column at `i`. -/
theorem bcast_col_apply {n p : ℕ} (x : (⟨2, ![n, 1]⟩ : Shape).Idx → α)
    (h : (⟨2, ![n, 1]⟩ : Shape).BroadcastsInDim ⟨2, ![n, p]⟩ ![0, 1]) (i : Fin n) (j : Fin p) :
    broadcastInDim ⟨2, ![n, p]⟩ ![0, 1] h x (ix2 i j) = x (ix2 i (0 : Fin 1)) :=
  broadcastInDim_apply _ h x _ _ fun a => by
    match a with
    | ⟨0, _⟩ =>
      show i.val = if n = 1 then 0 else i.val
      split
      · have := i.isLt; omega
      · rfl
    | ⟨1, _⟩ => rfl

/-- A row `[1, p]` broadcast to `[n, p]` reads, at `(i, j)`, the row at `j`. -/
theorem bcast_row_apply {n p : ℕ} (x : (⟨2, ![1, p]⟩ : Shape).Idx → α)
    (h : (⟨2, ![1, p]⟩ : Shape).BroadcastsInDim ⟨2, ![n, p]⟩ ![0, 1]) (i : Fin n) (j : Fin p) :
    broadcastInDim ⟨2, ![n, p]⟩ ![0, 1] h x (ix2 i j) = x (ix2 (0 : Fin 1) j) :=
  broadcastInDim_apply _ h x _ _ fun a => by
    match a with
    | ⟨0, _⟩ => rfl
    | ⟨1, _⟩ =>
      show j.val = if p = 1 then 0 else j.val
      split
      · have := j.isLt; omega
      · rfl

/-- A vector `[n]` made a column `[n, 1]` reads, at `(i, u)`, the vector at `i`. -/
theorem bcast_vec_col_apply {n : ℕ} (x : (⟨1, ![n]⟩ : Shape).Idx → α)
    (h : (⟨1, ![n]⟩ : Shape).BroadcastsInDim ⟨2, ![n, 1]⟩ ![0]) (i : Fin n) (u : Fin 1) :
    broadcastInDim ⟨2, ![n, 1]⟩ ![0] h x (ix2 i u) = x (ix1 i) :=
  broadcastInDim_apply _ h x _ _ fun a => by
    match a with
    | ⟨0, _⟩ =>
      show i.val = if n = 1 then 0 else i.val
      split
      · have := i.isLt; omega
      · rfl

/-- A vector `[p]` made a row `[1, p]` reads, at `(u, j)`, the vector at `j`. -/
theorem bcast_vec_row_apply {p : ℕ} (x : (⟨1, ![p]⟩ : Shape).Idx → α)
    (h : (⟨1, ![p]⟩ : Shape).BroadcastsInDim ⟨2, ![1, p]⟩ ![1]) (u : Fin 1) (j : Fin p) :
    broadcastInDim ⟨2, ![1, p]⟩ ![1] h x (ix2 u j) = x (ix1 j) :=
  broadcastInDim_apply _ h x _ _ fun a => by
    match a with
    | ⟨0, _⟩ =>
      show j.val = if p = 1 then 0 else j.val
      split
      · have := j.isLt; omega
      · rfl

end Index

/-- The host's sum over the second axis of a matrix, from an initial value that is zero: at row `i` the sum of the row. -/
theorem reduceAdd_axis1_apply {n p : ℕ} {u : Shape} (x : FVec Ideal ⟨2, ![n, p]⟩ .f32) (init : u.Idx → Ideal .f32)
    (hr : (⟨2, ![n, p]⟩ : Shape).ReducesTo [1] ⟨1, ![n]⟩) (hu : 0 < u.numel) (h0 : init (Shape.Idx.first hu) = 0) (i : Fin n) :
    Host.reduceAdd x init hr hu (ix1 i) = ∑ k : Fin p, x (ix2 i k) := by
  have hR : (⟨2, ![n, p]⟩ : Shape).Reduces [1] ⟨1, ![n]⟩ :=
    ⟨rfl, Nat.one_pos, fun b => by match b with | ⟨0, _⟩ => rfl⟩
  show Ideal.hostReduceAdd hr x (init (Shape.Idx.first hu)) (ix1 i) = _
  rw [Ideal.hostReduceAdd_single hr hR, h0, zero_add]
  refine Finset.sum_congr rfl fun k _ => congrArg x ?_
  funext c
  match c with
  | ⟨0, _⟩ => exact Fin.ext rfl
  | ⟨1, _⟩ => exact Fin.ext rfl

/-- The host's sum over the first axis of a matrix, from an initial value that is zero: at column `j` the sum of the column. -/
theorem reduceAdd_axis0_apply {n p : ℕ} {u : Shape} (x : FVec Ideal ⟨2, ![n, p]⟩ .f32) (init : u.Idx → Ideal .f32)
    (hr : (⟨2, ![n, p]⟩ : Shape).ReducesTo [0] ⟨1, ![p]⟩) (hu : 0 < u.numel) (h0 : init (Shape.Idx.first hu) = 0) (j : Fin p) :
    Host.reduceAdd x init hr hu (ix1 j) = ∑ k : Fin n, x (ix2 k j) := by
  have hR : (⟨2, ![n, p]⟩ : Shape).Reduces [0] ⟨1, ![p]⟩ :=
    ⟨rfl, Nat.one_pos, fun b => by match b with | ⟨0, _⟩ => rfl⟩
  show Ideal.hostReduceAdd hr x (init (Shape.Idx.first hu)) (ix1 j) = _
  rw [Ideal.hostReduceAdd_single hr hR, h0, zero_add]
  refine Finset.sum_congr rfl fun k _ => congrArg x ?_
  funext c
  match c with
  | ⟨0, _⟩ => exact Fin.ext rfl
  | ⟨1, _⟩ => exact Fin.ext rfl

/-! ## The conversions and the reshapes -/

/-- A conversion of format is the identity on the ideal values: the first adjacency's converted copy is the argument. -/
theorem cast_g0 : (StableHlo.after hostOps0 W main_v0 : S4096x4096.Idx → EReal) = W main_arg3 := by
  dsimp only [hostOps0]
  after_results
  rfl

/-- The second adjacency's converted copy is the argument. -/
theorem cast_g1 : (StableHlo.after hostOps0 W main_v1 : S4096x4096.Idx → EReal) = W main_arg4 := by
  dsimp only [hostOps0]
  after_results
  rfl

/-- A bias vector reshaped to one row: the row's entry `j` is the vector's. -/
theorem bias_v3 (j : Fin 819) :
    (StableHlo.after hostOps1 W main_v3) (ValueIdx.ix2 (0 : Fin 1) j) = W main_arg6 (ValueIdx.ix1 j) := by
  dsimp only [hostOps1]
  after_results
  exact shapeCast_a_1a_apply (W main_arg6) shapeCasts_S819_S1x819 0 j

/-- A bias vector reshaped to one row: the row's entry `j` is the vector's. -/
theorem bias_v6 (j : Fin 819) :
    (StableHlo.after hostOps3 W main_v6) (ValueIdx.ix2 (0 : Fin 1) j) = W main_arg8 (ValueIdx.ix1 j) := by
  dsimp only [hostOps3]
  after_results
  exact shapeCast_a_1a_apply (W main_arg8) shapeCasts_S819_S1x819 0 j

/-- A bias vector reshaped to one row: the row's entry `j` is the vector's. -/
theorem bias_v9 (j : Fin 1024) :
    (StableHlo.after hostOps5 W main_v9) (ValueIdx.ix2 (0 : Fin 1) j) = W main_arg10 (ValueIdx.ix1 j) := by
  dsimp only [hostOps5]
  after_results
  exact shapeCast_a_1a_apply (W main_arg10) shapeCasts_S1024_S1x1024 0 j

/-- A bias vector reshaped to one row: the row's entry `j` is the vector's. -/
theorem bias_v12 (j : Fin 819) :
    (StableHlo.after hostOps7 W main_v12) (ValueIdx.ix2 (0 : Fin 1) j) = W main_arg12 (ValueIdx.ix1 j) := by
  dsimp only [hostOps7]
  after_results
  exact shapeCast_a_1a_apply (W main_arg12) shapeCasts_S819_S1x819 0 j

/-- A bias vector reshaped to one row: the row's entry `j` is the vector's. -/
theorem bias_v31 (j : Fin 819) :
    (StableHlo.after hostOps14 W main_v31) (ValueIdx.ix2 (0 : Fin 1) j) = W main_arg14 (ValueIdx.ix1 j) := by
  dsimp only [hostOps14]
  after_results
  exact shapeCast_a_1a_apply (W main_arg14) shapeCasts_S819_S1x819 0 j

/-- A bias vector reshaped to one row: the row's entry `j` is the vector's. -/
theorem bias_v34 (j : Fin 1024) :
    (StableHlo.after hostOps16 W main_v34) (ValueIdx.ix2 (0 : Fin 1) j) = W main_arg16 (ValueIdx.ix1 j) := by
  dsimp only [hostOps16]
  after_results
  exact shapeCast_a_1a_apply (W main_arg16) shapeCasts_S1024_S1x1024 0 j

/-- A bias vector reshaped to one row: the row's entry `j` is the vector's. -/
theorem bias_v38 (j : Fin 1024) :
    (StableHlo.after hostOps19 W main_v38) (ValueIdx.ix2 (0 : Fin 1) j) = W main_arg18 (ValueIdx.ix1 j) := by
  dsimp only [hostOps19]
  after_results
  exact shapeCast_a_1a_apply (W main_arg18) shapeCasts_S1024_S1x1024 0 j

/-- A bias vector reshaped to one row: the row's entry `j` is the vector's. -/
theorem bias_v41 (j : Fin 1280) :
    (StableHlo.after hostOps21 W main_v41) (ValueIdx.ix2 (0 : Fin 1) j) = W main_arg20 (ValueIdx.ix1 j) := by
  dsimp only [hostOps21]
  after_results
  exact shapeCast_a_1a_apply (W main_arg20) shapeCasts_S1280_S1x1280 0 j

/-! ## The weighted mean of the two encodings -/

/-- The stretch that ends in the weighted mean: at `(i, j)` it is `(we i 0 * h0 i j + we i 1 * h1 i j) / (we i 0 + we i 1)`,
    the divisor being the host's sum over the two columns of `we` from a zero initial value. -/
theorem z_stage : toMat (StableHlo.after hostOps8 W main_v24)
    = zOf (toMat (W main_arg2)) (toMat (W main_v7)) (toMat (W main_v13)) := by
  funext i j
  unfold toMat zOf
  dsimp only [hostOps8]
  after_results
  rw [hostDivf_apply, addf_apply, mulf_apply, mulf_apply, bcast_col_apply, bcast_col_apply, bcast_col_apply,
    bcast_vec_col_apply, slice2_axis1_apply 0 _ _ i (0 : Fin 1) (0 : Fin 2) rfl,
    slice2_axis1_apply 1 _ _ i (0 : Fin 1) (1 : Fin 2) rfl,
    reduceAdd_axis1_apply _ _ _ _ Ideal.ofBits_zero_f32, Fin.sum_univ_two]

/-! ## The soft assignment and its target: the last stretch as pure terms -/

/-- The last stretch's squared distances: row sums of `z*z`, minus twice `z·cᵀ`, plus row sums of `c*c`, clamped at zero. -/
def d2Term (z : FVec Ideal S4096x819 .f32) (c : FVec Ideal S5x819 .f32) : FVec Ideal S4096x5 .f32 :=
  maximumf
    (addf
      (subf
        (broadcastInDim S4096x5 ![0, 1] bcast_S4096x1_S4096x5_0_1
          (broadcastInDim S4096x1 ![0] bcast_S4096_S4096x1_0
            (Host.reduceAdd (mulf z z) (constant (F := Ideal) S_ .f32 0x00000000#32) reducesTo_S4096x819_S4096_d1 h_S_)))
        (mulf (broadcastInDim S4096x5 ![] bcast_S_S4096x5 (constant (F := Ideal) S_ .f32 0x40000000#32))
          (Host.dotGeneral dot_S4096x819_S819x5_S4096x5_1_0_0_1_n_n none z
            (transpose S819x5 [1, 0] c transposes_S5x819_S819x5_1_0))))
      (broadcastInDim S4096x5 ![0, 1] bcast_S1x5_S4096x5_0_1
        (broadcastInDim S1x5 ![1] bcast_S5_S1x5_1
          (Host.reduceAdd (mulf c c) (constant (F := Ideal) S_ .f32 0x00000000#32) reducesTo_S5x819_S5_d1 h_S_))))
    (broadcastInDim S4096x5 ![] bcast_S_S4096x5 (constant (F := Ideal) S_ .f32 0x00000000#32))

/-- `1 / (1 + d²)`. -/
def q0Term (z : FVec Ideal S4096x819 .f32) (c : FVec Ideal S5x819 .f32) : FVec Ideal S4096x5 .f32 :=
  Host.divf (broadcastInDim S4096x5 ![] bcast_S_S4096x5 (constant (F := Ideal) S_ .f32 0x3F800000#32))
    (addf (broadcastInDim S4096x5 ![] bcast_S_S4096x5 (constant (F := Ideal) S_ .f32 0x3F800000#32)) (d2Term z c))

/-- Each row divided by its sum. -/
def rowNorm (x : FVec Ideal S4096x5 .f32) : FVec Ideal S4096x5 .f32 :=
  Host.divf x
    (broadcastInDim S4096x5 ![0, 1] bcast_S4096x1_S4096x5_0_1
      (broadcastInDim S4096x1 ![0] bcast_S4096_S4096x1_0
        (Host.reduceAdd x (constant (F := Ideal) S_ .f32 0x00000000#32) reducesTo_S4096x5_S4096_d1 h_S_)))

/-- The square of each entry divided by its column's sum. -/
def wTerm (q : FVec Ideal S4096x5 .f32) : FVec Ideal S4096x5 .f32 :=
  Host.divf (mulf q q)
    (broadcastInDim S4096x5 ![0, 1] bcast_S1x5_S4096x5_0_1
      (broadcastInDim S1x5 ![1] bcast_S5_S1x5_1
        (Host.reduceAdd q (constant (F := Ideal) S_ .f32 0x00000000#32) reducesTo_S4096x5_S5_d0 h_S_)))

/-- What the last stretch leaves in the soft assignment's buffer, as the operations' term of the two arrays it reads. -/
theorem v66_term : (StableHlo.after hostOps22 W main_v66 : S4096x5.Idx → EReal)
    = rowNorm (q0Term (W main_v24) (W main_arg25)) := by
  dsimp only [hostOps22]
  after_results_simp
  rfl

/-- What it leaves in the target distribution's buffer. -/
theorem v75_term : (StableHlo.after hostOps22 W main_v75 : S4096x5.Idx → EReal)
    = rowNorm (wTerm (rowNorm (q0Term (W main_v24) (W main_arg25)))) := by
  dsimp only [hostOps22]
  after_results_simp
  rfl

/-! ## The terms read at an index -/

/-- The f32 pattern `0x40000000` is the real two. -/
theorem ofBits_two_f32 : Ideal.ofBits .f32 0x40000000#32 = (2 : EReal) := by
  simp [Ideal.ofBits, Ideal.ieee, -EReal.coe_mul]; norm_num; rfl

/-- The host's product of a `4096 × 819` by an `819 × 5` matrix at `(i, j)`: the sum over the contracted coordinate. -/
theorem dot_apply (A : FVec Ideal S4096x819 .f32) (B : FVec Ideal S819x5 .f32) (i : Fin 4096) (j : Fin 5) :
    Host.dotGeneral dot_S4096x819_S819x5_S4096x5_1_0_0_1_n_n none A B (ix2 i j) = ∑ k : Fin 819, A (ix2 i k) * B (ix2 k j) :=
  StackMember.dotGeneral_plain_apply (m := 4096) (n := 5) (k := 819) none A B i j

/-- The squared distances, entry by entry: the expanded square clamped at zero. -/
theorem d2Term_apply (z : FVec Ideal S4096x819 .f32) (c : FVec Ideal S5x819 .f32) (i : Fin 4096) (j : Fin 5) :
    d2Term z c (ix2 i j) = d2Ker (toMat z) (toMat c) i j := by
  unfold d2Term d2Ker toMat
  rw [maximumf_apply, addf_apply, subf_apply, mulf_apply, bcast_col_apply, bcast_vec_col_apply,
    reduceAdd_axis1_apply _ _ _ _ Ideal.ofBits_zero_f32, bcast_row_apply, bcast_vec_row_apply,
    reduceAdd_axis1_apply _ _ _ _ Ideal.ofBits_zero_f32, broadcastInDim_scalar_apply, broadcastInDim_scalar_apply,
    constant_apply, constant_apply, ofBits_two_f32, Ideal.ofBits_zero_f32, dot_apply]
  have ht : ∀ k : Fin 819, transpose S819x5 [1, 0] c transposes_S5x819_S819x5_1_0 (ix2 k j) = c (ix2 j k) :=
    fun k => transpose_ix2_apply c transposes_S5x819_S819x5_1_0 k j
  simp only [mulf_apply, ht]

/-- `1 / (1 + d²)`, entry by entry. -/
theorem q0Term_apply (z : FVec Ideal S4096x819 .f32) (c : FVec Ideal S5x819 .f32) (i : Fin 4096) (j : Fin 5) :
    q0Term z c (ix2 i j) = Ideal.div 1 (1 + d2Ker (toMat z) (toMat c) i j) := by
  unfold q0Term
  rw [hostDivf_apply, addf_apply, broadcastInDim_scalar_apply, constant_apply, Ideal.ofBits_one_f32, d2Term_apply]

/-- A row normalisation, entry by entry. -/
theorem rowNorm_apply (x : FVec Ideal S4096x5 .f32) (i : Fin 4096) (j : Fin 5) :
    rowNorm x (ix2 i j) = Ideal.div (x (ix2 i j)) (∑ k : Fin 5, x (ix2 i k)) := by
  unfold rowNorm
  rw [hostDivf_apply, bcast_col_apply, bcast_vec_col_apply, reduceAdd_axis1_apply _ _ _ _ Ideal.ofBits_zero_f32]

/-- The squared entry over its column's sum, entry by entry. -/
theorem wTerm_apply (q : FVec Ideal S4096x5 .f32) (i : Fin 4096) (j : Fin 5) :
    wTerm q (ix2 i j) = Ideal.div (q (ix2 i j) * q (ix2 i j)) (∑ k : Fin 4096, q (ix2 k j)) := by
  unfold wTerm
  rw [hostDivf_apply, mulf_apply, bcast_row_apply, bcast_vec_row_apply, reduceAdd_axis0_apply _ _ _ _ Ideal.ofBits_zero_f32]

/-- The soft assignment's term is the Student-t assignment of the clamped expanded distances. -/
theorem toMat_qTerm (z : FVec Ideal S4096x819 .f32) (c : FVec Ideal S5x819 .f32) :
    toMat (rowNorm (q0Term z c)) = qOf (d2Ker (toMat z) (toMat c)) := by
  funext i j
  show rowNorm (q0Term z c) (ix2 i j) = _
  rw [rowNorm_apply]
  unfold qOf
  simp only [q0Term_apply]

/-- The target's term is the target distribution of the matrix it is computed from. -/
theorem toMat_pTerm (q : FVec Ideal S4096x5 .f32) : toMat (rowNorm (wTerm q)) = pOf (toMat q) := by
  funext i j
  show rowNorm (wTerm q) (ix2 i j) = _
  rw [rowNorm_apply]
  unfold pOf toMat
  simp only [wTerm_apply]

theorem q_stage : toMat (StableHlo.after hostOps22 W main_v66)
    = qOf (d2Ker (toMat (W main_v24)) (toMat (W main_arg25))) := by
  show toMat (StableHlo.after hostOps22 W main_v66 : S4096x5.Idx → EReal) = _
  rw [v66_term, toMat_qTerm]

theorem p_stage : toMat (StableHlo.after hostOps22 W main_v75)
    = pOf (qOf (d2Ker (toMat (W main_v24)) (toMat (W main_arg25)))) := by
  show toMat (StableHlo.after hostOps22 W main_v75 : S4096x5.Idx → EReal) = _
  rw [v75_term, toMat_pTerm, toMat_qTerm]

end Cert.KernelIdeal.HostValue
-- ==== Proof.GcnAlgebra.lean ====
/-
  The algebra over the extended reals that joins the two programs: a matrix product of real matrices is real and
  associates; tanh of anything is a real number; the row-weighted mean of real encodings with nonzero weight sums
  is real; the expanded square |z|² − 2 z·c + |c|², clamped at zero, is the sum of (z − c)²; a sum regroups into
  consecutive blocks; and the float words for one and two denote 1 and 2. Distributivity fails at the infinities
  of the extended reals, so every law about products takes "every entry is a real number" hypotheses.
-/
import proofs.«113214_j66838281060556_2_alg».proof.Proof.GcnSpec
import Mathlib.Algebra.BigOperators.Ring.Finset
import Mathlib.Algebra.Order.BigOperators.Group.Finset
import Mathlib.Algebra.BigOperators.Fin
import Mathlib.Data.Fintype.BigOperators
import Mathlib.Logic.Equiv.Fin.Basic
import Mathlib.Tactic.Ring
import Mathlib.Tactic.Linarith
import Mathlib.Tactic.NormNum

noncomputable section

namespace GcnSpec

open Idealize.ShloMosaic

/-! ### Sums of real numbers inside the extended reals -/

/-- The coercion of a finite sum of real numbers is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real matrix is the coercion of a matrix of real numbers. -/
theorem IsReal.exists_eq {r c : ℕ} {A : Mat r c} (hA : IsReal A) :
    ∃ a : Fin r → Fin c → ℝ, ∀ i j, A i j = (a i j : EReal) := by
  choose a ha using hA
  exact ⟨a, ha⟩

/-! ### Matrix products of real matrices -/

/-- The product of real matrices, entry by entry, as the coercion of the real sum. -/
theorem mm_coe {n k p : ℕ} (a : Fin n → Fin k → ℝ) (b : Fin k → Fin p → ℝ) (i : Fin n) (j : Fin p) :
    mm (fun i l => (a i l : EReal)) (fun l j => (b l j : EReal)) i j = ((∑ l, a i l * b l j : ℝ) : EReal) := by
  simp only [mm, ← EReal.coe_mul, ← coe_sum]

theorem isReal_mm {n k p : ℕ} {A : Mat n k} {B : Mat k p} (hA : IsReal A) (hB : IsReal B) : IsReal (mm A B) := by
  obtain ⟨a, ha⟩ := hA.exists_eq
  obtain ⟨b, hb⟩ := hB.exists_eq
  intro i j
  refine ⟨∑ l, a i l * b l j, ?_⟩
  simp only [mm, ha, hb, ← EReal.coe_mul, ← coe_sum]

theorem isReal_mmT {n k p : ℕ} {A : Mat n k} {B : Mat p k} (hA : IsReal A) (hB : IsReal B) : IsReal (mmT A B) := by
  obtain ⟨a, ha⟩ := hA.exists_eq
  obtain ⟨b, hb⟩ := hB.exists_eq
  intro i j
  refine ⟨∑ l, a i l * b j l, ?_⟩
  simp only [mmT, ha, hb, ← EReal.coe_mul, ← coe_sum]

/-- The matrix product of real matrices is associative: (G·X)·W = G·(X·W). -/
theorem mm_assoc {n k p q : ℕ} {G : Mat n k} {X : Mat k p} {W : Mat p q}
    (hG : IsReal G) (hX : IsReal X) (hW : IsReal W) : mm (mm G X) W = mm G (mm X W) := by
  obtain ⟨g, hg⟩ := hG.exists_eq
  obtain ⟨x, hx⟩ := hX.exists_eq
  obtain ⟨w, hw⟩ := hW.exists_eq
  funext i j
  simp only [mm, hg, hx, hw, ← EReal.coe_mul, ← coe_sum]
  rw [EReal.coe_eq_coe_iff]
  simp only [Finset.sum_mul, Finset.mul_sum]
  rw [Finset.sum_comm]
  refine Finset.sum_congr rfl fun m _ => Finset.sum_congr rfl fun l _ => ?_
  ring

/-! ### tanh is real -/

/-- tanh of any extended real is a real number: −1 at −∞, 1 at +∞, the real tanh otherwise. -/
theorem tanh_isReal (x : EReal) : ∃ y : ℝ, Ideal.tanh x = (y : EReal) := by
  induction x with
  | bot => exact ⟨-1, by rw [Ideal.tanh_bot, EReal.coe_neg, EReal.coe_one]⟩
  | coe r => exact ⟨Real.tanh r, rfl⟩
  | top => exact ⟨1, by rw [Ideal.tanh_top, EReal.coe_one]⟩

theorem isReal_tanhM {n p : ℕ} (A : Mat n p) : IsReal (tanhM A) := fun i j => tanh_isReal (A i j)

theorem isReal_tanhB {n p : ℕ} (A : Mat n p) (b : Fin p → EReal) : IsReal (tanhB A b) :=
  fun i j => tanh_isReal (A i j + b j)

/-! ### The row-weighted mean -/

/-- A quotient of real numbers by a nonzero real number, as the programs divide, is the real quotient. -/
theorem div_coe {a b : ℝ} (hb : b ≠ 0) : Ideal.div (a : EReal) (b : EReal) = ((a / b : ℝ) : EReal) := by
  have hb' : (b : EReal) ≠ 0 := EReal.coe_ne_zero.2 hb
  rw [Ideal.div, if_neg hb', ← EReal.coe_inv, ← EReal.coe_mul, div_eq_mul_inv]

theorem isReal_zOf {n s : ℕ} {we : Mat n 2} {h0 h1 : Mat n s} (hwe : IsReal we) (h0r : IsReal h0) (h1r : IsReal h1)
    (hne : ∀ i, we i 0 + we i 1 ≠ 0) : IsReal (zOf we h0 h1) := by
  obtain ⟨w, hw⟩ := hwe.exists_eq
  obtain ⟨a, ha⟩ := h0r.exists_eq
  obtain ⟨b, hb⟩ := h1r.exists_eq
  intro i j
  have hne' : w i 0 + w i 1 ≠ 0 := by
    have := hne i
    rw [hw, hw, ← EReal.coe_add] at this
    exact EReal.coe_ne_zero.1 this
  refine ⟨(w i 0 * a i j + w i 1 * b i j) / (w i 0 + w i 1), ?_⟩
  simp only [zOf, hw, ha, hb, ← EReal.coe_mul, ← EReal.coe_add]
  exact div_coe hne'

/-! ### The squared distance -/

/-- Over the real numbers the expanded square is the sum of squared differences, so it is not negative and the
    clamp at zero is the identity: max(Σz² − 2Σzc + Σc², 0) = Σ(z − c)². -/
theorem d2Ker_eq_d2Ref {n k s : ℕ} {z : Mat n s} {c : Mat k s} (hz : IsReal z) (hc : IsReal c) :
    d2Ker z c = d2Ref z c := by
  obtain ⟨a, ha⟩ := hz.exists_eq
  obtain ⟨b, hb⟩ := hc.exists_eq
  funext i j
  have h2 : (2 : EReal) = ((2 : ℝ) : EReal) := rfl
  have hexp : (∑ l, a i l * a i l) - 2 * (∑ l, a i l * b j l) + ∑ l, b j l * b j l
      = ∑ l, (a i l - b j l) * (a i l - b j l) := by
    rw [Finset.mul_sum, ← Finset.sum_sub_distrib, ← Finset.sum_add_distrib]
    refine Finset.sum_congr rfl fun l _ => ?_
    ring
  have hnn : (0 : ℝ) ≤ ∑ l, (a i l - b j l) * (a i l - b j l) :=
    Finset.sum_nonneg fun l _ => mul_self_nonneg _
  simp only [d2Ker, d2Ref, ha, hb, h2, ← EReal.coe_mul, ← EReal.coe_sub, ← EReal.coe_add, ← coe_sum]
  rw [hexp, max_eq_left (EReal.coe_nonneg.2 hnn)]

/-! ### Regrouping a sum into consecutive blocks -/

theorem sum_blocks (nb b : ℕ) (f : Fin (nb * b) → EReal) :
    (∑ q : Fin nb, ∑ r : Fin b, f ⟨q.val * b + r.val, by have := q.isLt; have := r.isLt; nlinarith⟩) = ∑ l, f l := by
  rw [← (finProdFinEquiv (m := nb) (n := b)).sum_comp f, Fintype.sum_prod_type]
  refine Finset.sum_congr rfl fun q _ => Finset.sum_congr rfl fun r _ => ?_
  congr 1
  apply Fin.ext
  simp only [finProdFinEquiv_apply_val]
  rw [Nat.mul_comm, Nat.add_comm]

/-! ### The float words for one and two -/

theorem ofBits_one : Ideal.ofBits .f32 0x3F800000#32 = (1 : EReal) := by
  simp [Ideal.ofBits, Ideal.ieee, -EReal.coe_mul]; norm_num

theorem ofBits_two : Ideal.ofBits .f32 0x40000000#32 = (2 : EReal) := by
  simp [Ideal.ofBits, Ideal.ieee, -EReal.coe_mul]; norm_num; rfl

/-! ### The re-association inside a graph convolution -/

/-- The first layer of a graph convolution: g·(x·W₁) and (g·x)·W₁ agree for real g, x, W₁. -/
theorem gconv_assoc1 {n d h : ℕ} {g : Mat n n} {x : Mat n d} {W1 : Mat d h} (b1 : Fin h → EReal)
    (hg : IsReal g) (hx : IsReal x) (hW : IsReal W1) :
    tanhB (mm g (mm x W1)) b1 = tanhB (mm (mm g x) W1) b1 := by
  rw [mm_assoc hg hx hW]

end GcnSpec

end
-- ==== Proof.KI.R00ValueA.lean ====
/-
  Launch 0 computes out = A·B, one row block of A per grid point: the point t multiplies A's row block t by the
  whole of B into an accumulator reset at that point, and stores the accumulator, converted to the output's format,
  into the output's row block t. This module reads the body's three pure terms at an index over the extended reals
  (where a change of format is the identity) and reads a window's block at an index of its array; nothing here
  depends on the symbolic run.
-/
import proofs.«113214_j66838281060556_2_alg».proof.Proof.Gen.KernelIdeal.Launch
import proofs.«113214_j66838281060556_2_alg».proof.Proof.Gen.KernelIdeal.Skeleton
import proofs.«113214_j66838281060556_2_alg».proof.Proof.Gen.KernelIdeal.Points
import proofs.«113214_j66838281060556_2_alg».proof.Proof.GcnSpec
import proofs.«113214_j66838281060556_2_alg».proof.Proof.GcnAlgebra
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.ValueIdx (ix2 eq_ix2)

/-! ## The body's pure terms at an index, over the extended reals -/

/-- The product's contraction record, by a short name. -/
abbrev D0 : DotDims S1024x1024 S1024x819 S1024x819 := dot_S1024x1024_S1024x819_S1024x819_1_0_0_1_n_n

theorem lhs_D0_0 (i : S1024x819.Idx) (q : dot_S1024x1024_S1024x819_S1024x819_1_0_0_1_n_n.contr.Idx) :
    (dot_S1024x1024_S1024x819_S1024x819_1_0_0_1_n_n.lhsIdx i q 0).val = (i 0).val := by
  unfold DotDims.lhsIdx
  rw [dif_neg (show ¬(0 : Fin S1024x1024.rank) ∈ dot_S1024x1024_S1024x819_S1024x819_1_0_0_1_n_n.lhsBatch by decide), dif_pos (show (0 : Fin S1024x1024.rank) ∈ dot_S1024x1024_S1024x819_S1024x819_1_0_0_1_n_n.lhsNonContracting by decide)]
  rfl
theorem lhs_D0_1 (i : S1024x819.Idx) (q : dot_S1024x1024_S1024x819_S1024x819_1_0_0_1_n_n.contr.Idx) :
    (dot_S1024x1024_S1024x819_S1024x819_1_0_0_1_n_n.lhsIdx i q 1).val = (q ⟨0, by decide⟩).val :=
  dot_S1024x1024_S1024x819_S1024x819_1_0_0_1_n_n.lhsIdx_val_of_single rfl i q
theorem rhs_D0_0 (i : S1024x819.Idx) (q : dot_S1024x1024_S1024x819_S1024x819_1_0_0_1_n_n.contr.Idx) :
    (dot_S1024x1024_S1024x819_S1024x819_1_0_0_1_n_n.rhsIdx i q 0).val = (q ⟨0, by decide⟩).val :=
  dot_S1024x1024_S1024x819_S1024x819_1_0_0_1_n_n.rhsIdx_val_of_single rfl i q
theorem rhs_D0_1 (i : S1024x819.Idx) (q : dot_S1024x1024_S1024x819_S1024x819_1_0_0_1_n_n.contr.Idx) :
    (dot_S1024x1024_S1024x819_S1024x819_1_0_0_1_n_n.rhsIdx i q 1).val = (i 1).val := by
  unfold DotDims.rhsIdx
  rw [dif_neg (show ¬(1 : Fin S1024x819.rank) ∈ dot_S1024x1024_S1024x819_S1024x819_1_0_0_1_n_n.rhsBatch by decide), dif_pos (show (1 : Fin S1024x819.rank) ∈ dot_S1024x1024_S1024x819_S1024x819_1_0_0_1_n_n.rhsNonContracting by decide)]
  rfl

/-- The block product at (p, q) is the sum over the 1024 contracted columns. -/
theorem matmul0_apply (x0 : Vec Ideal S1024x1024 .bf16) (x1 : Vec Ideal S1024x819 .bf16) (p : Fin 1024) (q : Fin 819) :
    matmul (F := Ideal) (φ₁ := .bf16) (φ₂ := .bf16) dot_S1024x1024_S1024x819_S1024x819_1_0_0_1_n_n none x0 x1 (constant S1024x819 .f32 0x00000000#32) (ix2 p q)
      = ∑ l : Fin 1024, x0 (ix2 p l) * x1 (ix2 l q) := by
  refine (Ideal.matmul_constant_zero_apply (φ₁ := .bf16) (φ₂ := .bf16) dot_S1024x1024_S1024x819_S1024x819_1_0_0_1_n_n none x0 x1 (ix2 p q)).trans ?_
  rw [← Equiv.sum_comp (ValueIdx.contrEquiv1 dot_S1024x1024_S1024x819_S1024x819_1_0_0_1_n_n 1024 rfl rfl).symm]
  refine Finset.sum_congr rfl fun k _ => ?_
  have hk := ValueIdx.contrEquiv1_symm_val dot_S1024x1024_S1024x819_S1024x819_1_0_0_1_n_n 1024 rfl rfl k
  have el : dot_S1024x1024_S1024x819_S1024x819_1_0_0_1_n_n.lhsIdx (ix2 p q) ((ValueIdx.contrEquiv1 dot_S1024x1024_S1024x819_S1024x819_1_0_0_1_n_n 1024 rfl rfl).symm k) = ix2 p k := funext fun a => Fin.ext (by
    match a with
    | ⟨0, _⟩ => exact lhs_D0_0 _ _
    | ⟨1, _⟩ => exact (lhs_D0_1 _ _).trans hk)
  have er : dot_S1024x1024_S1024x819_S1024x819_1_0_0_1_n_n.rhsIdx (ix2 p q) ((ValueIdx.contrEquiv1 dot_S1024x1024_S1024x819_S1024x819_1_0_0_1_n_n 1024 rfl rfl).symm k) = ix2 k q := funext fun a => Fin.ext (by
    match a with
    | ⟨0, _⟩ => exact (rhs_D0_0 _ _).trans hk
    | ⟨1, _⟩ => exact rhs_D0_1 _ _)
  rw [el, er]

/-- The reset block is zero everywhere. -/
theorem pay1_0_apply (p : Fin 1024) (q : Fin 819) : k0_pay1 (F := Ideal) (ix2 p q) = 0 := by
  unfold k0_pay1
  simp only [shapeCast_self]
  exact Ideal.ofBits_zero_f32

/-- The update adds the block product to what the accumulator held; the two factors' change of format is the
    identity on the extended reals. -/
theorem pay2_0_apply (x0 : Vec Ideal S1024x1024 .f32) (x1 : Vec Ideal S1024x819 .f32) (xs : Vec Ideal S1024x819 .f32)
    (p : Fin 1024) (q : Fin 819) :
    k0_pay2 (F := Ideal) x0 x1 xs (ix2 p q) = xs (ix2 p q) + ∑ l : Fin 1024, x0 (ix2 p l) * x1 (ix2 l q) := by
  unfold k0_pay2
  simp only [shapeCast_self]
  exact congrArg (xs (ix2 p q) + ·) (matmul0_apply x0 x1 p q)

/-- The stored output block is the accumulator: its change of format is the identity on the extended reals. -/
theorem pay3_0_apply (v16 : Vec Ideal S1024x819 .f32) (p : Fin 1024) (q : Fin 819) :
    k0_pay3 (F := Ideal) v16 (ix2 p q) = v16 (ix2 p q) := rfl

/-! ## A window's block at an index of its array -/

theorem N0_eq : cfg0.N = 4 := N_0

/-- The printed index maps, decided over the grid's points: the left factor's block is (t, 0), the right factor's
    (0, 0), the output's (t, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section Blocks

variable {F : FTy → Type}

/-- Entry (p, l) of the left factor's block at point t is the array at row t·1024 + p, column l. -/
theorem read_blk0_0 (X : Vec F S4096x1024 .f32) (t : Fin cfg0.N) (p : Fin 1024) (l : Fin 1024) :
    (((cfg0.win 0).blk t).view.read (Elt F) X : Vec F S1024x1024 .f32) (ix2 p l)
      = X (ix2 (⟨t.val * 1024 + p.val, by have := t.isLt; have := N0_eq; omega⟩ : Fin 4096) l) := by
  obtain ⟨e0, e1, -⟩ := idx_facts0 t
  rw [View.read_apply]
  show X _ = X _
  congr 1
  funext a
  apply Fin.ext
  match a with
  | ⟨0, _⟩ => show win0_0.index t (0 : Fin 2) * 1024 + 1 * p.val = t.val * 1024 + p.val; rw [e0]; omega
  | ⟨1, _⟩ => show win0_0.index t (1 : Fin 2) * 1024 + 1 * l.val = l.val; rw [e1]; omega

/-- The right factor's block at any point is the whole array. -/
theorem read_blk0_1 (X : Vec F S1024x819 .f32) (t : Fin cfg0.N) (l : Fin 1024) (q : Fin 819) :
    (((cfg0.win 1).blk t).view.read (Elt F) X : Vec F S1024x819 .f32) (ix2 l q) = X (ix2 l q) := by
  obtain ⟨-, -, e0, e1, -⟩ := idx_facts0 t
  rw [View.read_apply]
  show X _ = X _
  congr 1
  funext a
  apply Fin.ext
  match a with
  | ⟨0, _⟩ => show win0_1.index t (0 : Fin 2) * 1024 + 1 * l.val = l.val; rw [e0]; omega
  | ⟨1, _⟩ => show win0_1.index t (1 : Fin 2) * 819 + 1 * q.val = q.val; rw [e1]; omega

/-- Entry (p, q) of the output's block at point t is the output at row t·1024 + p, column q. -/
theorem read_blk0_2 (X : Vec F S4096x819 .bf16) (t : Fin cfg0.N) (p : Fin 1024) (q : Fin 819) :
    (((cfg0.win 2).blk t).view.read (Elt F) X : Vec F S1024x819 .bf16) (ix2 p q)
      = X (ix2 (⟨t.val * 1024 + p.val, by have := t.isLt; have := N0_eq; omega⟩ : Fin 4096) q) := by
  obtain ⟨-, -, -, -, e0, e1⟩ := idx_facts0 t
  rw [View.read_apply]
  show X _ = X _
  congr 1
  funext a
  apply Fin.ext
  match a with
  | ⟨0, _⟩ => show win0_2.index t (0 : Fin 2) * 1024 + 1 * p.val = t.val * 1024 + p.val; rw [e0]; omega
  | ⟨1, _⟩ => show win0_2.index t (1 : Fin 2) * 819 + 1 * q.val = q.val; rw [e1]; omega

end Blocks

/-! ## The result, index by index -/

/-- What the output array holds after the launch: row i of A·B at column j. -/
def G0 (A : Vec Ideal S4096x1024 .f32) (B : Vec Ideal S1024x819 .f32) : Vec Ideal S4096x819 .bf16 :=
  fun y => ∑ k : Fin 1024, A (ix2 (y 0) k) * B (ix2 k (y 1))

/-- In matrix form it is A·B. -/
theorem toMat_G0 (A : Vec Ideal S4096x1024 .f32) (B : Vec Ideal S1024x819 .f32) :
    GcnSpec.toMat (G0 A B) = GcnSpec.mm (GcnSpec.toMat A) (GcnSpec.toMat B) := rfl

end Cert.KernelIdeal.Hand

end
-- ==== Proof.KI.R00Value.lean ====
/-
  The value of launch 0: out = A·B. The symbolic run left the list of pieces stored into the output block; it is
  read back as the body's three pure terms of the staged blocks: the accumulator reset, the product of the two
  staged blocks added, that sum stored in the output's format. One point's block is thus a row block of the result;
  those blocks cover the output array, and so the array ends holding the result.
-/
import proofs.«113214_j66838281060556_2_alg».proof.Proof.KI.R00
import proofs.«113214_j66838281060556_2_alg».proof.Proof.KI.R00ValueA
import proofs.«113214_j66838281060556_2_alg».proof.Proof.GcnSpec
import proofs.«113214_j66838281060556_2_alg».proof.Proof.GcnAlgebra
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat)
open Idealize.ShloMosaic.ValueIdx (ix2 eq_ix2)

/-! ## What a point stores, as the body's pure terms -/

section Pieces
variable {F : FTy → Type} [FloatOps F]
variable (V : (c : Dev nD) → (b : Ref sig .tc) → Buf (Elt F) ((c : Thread nD τ).loc b))

theorem hz0 : (![0, 0] : Fin 2 → Nat) = fun _ => 0 := funext fun a => by fin_cases a <;> rfl

/-- The accumulator read whole gives back the contents it is held at. -/
theorem scM0_read_unread (h : (scM0 : Memref sig .tc .vmem S1024x819 .f32).IsWhole) (xs : Vec F S1024x819 .f32) :
    View.read (Elt F) (View.whole cc0_scratch0) (h.unread xs) = xs := h.read_unread xs

/-- The output block a point stores: the accumulator is reset, read back, updated by the product of the two staged
    blocks, read back, and the stored term of it is what the output's buffer holds. -/
theorem outO0_eq (c : Dev nD) (t : Fin cfg0.N) :
    out0 V c t = k0_pay3 (k0_pay2 (iblk0 V c 0 t) (iblk0 V c 1 t) (k0_pay1 (F := F))) := by
  unfold out0
  rw [View.read_writes_eq_canon _ _ _ (coverO0 V c t)]
  unfold run0
  dsimp only
  sl_unfold_words
  rw [View.canon_unit_zero hz0]
  simp only [View.readAt_eq_ld, Memref.IsWhole.read_unread, scM0_read_unread, View.ld_unit_zero (S := S1024x1024) hz0, View.ld_unit_zero (S := S1024x819) hz0,
    View.readCov_unit_zero (S := S1024x819) _ hz0, View.readCov_cons_toLoadRect]

end Pieces

/-! ## The stored block, over the extended reals -/

section Value
variable (V : (c : Dev nD) → (b : Ref sig .tc) → Buf (Elt Ideal) ((c : Thread nD τ).loc b))

/-- The two arrays the launch reads, at their literal types: A and B. -/
abbrev arrA0 (c : Dev nD) : Vec Ideal S4096x1024 .f32 := V c main_arg0
abbrev arrB0 (c : Dev nD) : Vec Ideal S1024x819 .f32 := V c main_arg5
/-- The blocks the two input windows stage at a point, at their literal types. -/
abbrev blkA0 (c : Dev nD) (t : Fin cfg0.N) : Vec Ideal S1024x1024 .f32 := iblk0 V c 0 t
abbrev blkB0 (c : Dev nD) (t : Fin cfg0.N) : Vec Ideal S1024x819 .f32 := iblk0 V c 1 t

theorem blkA0_apply (c : Dev nD) (t : Fin cfg0.N) (p : Fin 1024) (l : Fin 1024) :
    blkA0 V c t (ix2 p l) = arrA0 V c (ix2 (⟨t.val * 1024 + p.val, by have := t.isLt; have := N0_eq; omega⟩ : Fin 4096) l) :=
  read_blk0_0 (F := Ideal) (arrA0 V c) t p l

theorem blkB0_apply (c : Dev nD) (t : Fin cfg0.N) (l : Fin 1024) (q : Fin 819) :
    blkB0 V c t (ix2 l q) = arrB0 V c (ix2 l q) :=
  read_blk0_1 (F := Ideal) (arrB0 V c) t l q

/-- The block a point stores is, at (p, q), row t·1024 + p of A·B at column q. -/
theorem out0_pt (c : Dev nD) (t : Fin cfg0.N) (p : Fin 1024) (q : Fin 819) :
    out0 V c t (ix2 p q)
      = ∑ l : Fin 1024, arrA0 V c (ix2 (⟨t.val * 1024 + p.val, by have := t.isLt; have := N0_eq; omega⟩ : Fin 4096) l) * arrB0 V c (ix2 l q) := by
  refine (congrFun (outO0_eq (F := Ideal) V c t) (ix2 p q)).trans ?_
  refine (pay3_0_apply (k0_pay2 (blkA0 V c t) (blkB0 V c t) (k0_pay1 (F := Ideal))) p q).trans ?_
  rw [pay2_0_apply (blkA0 V c t) (blkB0 V c t) (k0_pay1 (F := Ideal)) p q, pay1_0_apply p q, zero_add]
  exact Finset.sum_congr rfl fun l _ => by rw [blkA0_apply, blkB0_apply]

end Value

/-! ## From the flushed blocks to the output array -/

section Final
variable (V : (c : Dev nD) → (b : Ref sig .tc) → Buf (Elt Ideal) ((c : Thread nD τ).loc b))

/-- What the launch leaves in the output array: A·B, index by index. -/
abbrev res0 (c : Dev nD) : Vec Ideal S4096x819 .bf16 := G0 (arrA0 V c) (arrB0 V c)

/-- The block a point writes back is that point's row block of the result. -/
theorem flushed0_eq (c : Dev nD) (t : Fin cfg0.N) (hf : (cfg0.win 2).flush t = true) :
    (dat0 V c).flushed 2 t = ((cfg0.win 2).blk t).view.read (Elt Ideal) (res0 V c) := by
  have hN := N0_eq
  have ht := t.isLt
  show (cfg0.win 2).cut (grid0.coords t) ((dat0 V c).after 2 t) = _
  rw [after0_2]
  refine funext fun (y : S1024x819.Idx) => ?_
  obtain ⟨p, q, rfl⟩ : ∃ (p : Fin 1024) (q : Fin 819), y = ix2 p q := ⟨y 0, y 1, eq_ix2 y⟩
  show out0 V c t (ix2 p q) = (((cfg0.win 2).blk t).view.read (Elt Ideal) (res0 V c) : Vec Ideal S1024x819 .bf16) (ix2 p q)
  rw [out0_pt V c t p q, read_blk0_2 (F := Ideal) (res0 V c) t p q]
  rfl

/-- An index of the output array lies in point t's block iff each coordinate is in the block's range. -/
theorem mem_blk0_2 (t : Fin cfg0.N) (i : S4096x819.Idx) :
    i ∈ ((cfg0.win 2).blk t).view.set ↔ ∀ a : Fin 2, win0_2.index t a * S1024x819.size a ≤ (i a).val ∧ (i a).val < win0_2.index t a * S1024x819.size a + S1024x819.size a := by
  show i ∈ ((View.whole main_v2).slice (win0_2.rect t)).set ↔ _
  rw [View.set_slice_whole, Rect.mem_set_unit]
  exact Iff.rfl

/-- Row r of the output lies in the block written back at point r / 1024. -/
theorem cover0 (i : S4096x819.Idx) : ∃ t : Fin cfg0.N, (cfg0.win 2).flush t = true ∧ i ∈ ((cfg0.win 2).blk t).view.set := by
  have hi0 : (i 0).val < 4096 := (i 0).isLt
  have hi1 : (i 1).val < 819 := (i 1).isLt
  have hN := N0_eq
  refine ⟨⟨(i 0).val / 1024, by omega⟩, flush0_2 _, ?_⟩
  rw [mem_blk0_2]
  obtain ⟨-, -, -, -, e0, e1⟩ := idx_facts0 ⟨(i 0).val / 1024, by omega⟩
  intro a
  match a with
  | ⟨0, _⟩ =>
    show win0_2.index _ (0 : Fin 2) * 1024 ≤ (i 0).val ∧ (i 0).val < win0_2.index _ (0 : Fin 2) * 1024 + 1024
    rw [e0]; dsimp only; omega
  | ⟨1, _⟩ =>
    show win0_2.index _ (1 : Fin 2) * 819 ≤ (i 1).val ∧ (i 1).val < win0_2.index _ (1 : Fin 2) * 819 + 819
    rw [e1]; omega

/-- So the output array ends holding A·B. -/
theorem out0arr_eq (c : Dev nD) : out0arr V c = res0 V c :=
  (dat0 V c).arrAt_eq_of_cover 2 (res0 V c) (flushed0_eq V c) cover0

/-- THE VALUE OF LAUNCH 0, in matrix form: the output is the product of the two input matrices. -/
theorem out0_value (c : Dev nD) :
    GcnSpec.toMat (out0arr V c : S4096x819.Idx → EReal)
      = GcnSpec.mm (GcnSpec.toMat (V c main_arg0 : S4096x1024.Idx → EReal)) (GcnSpec.toMat (V c main_arg5 : S1024x819.Idx → EReal)) := by
  rw [out0arr_eq V c]
  exact toMat_G0 (arrA0 V c) (arrB0 V c)

end Final

end Cert.KernelIdeal.Hand

end
-- ==== Proof.KI.MatmulValue.lean ====
/-
  What the four-block matrix-product launches share. Each computes A·B for A 4096 × 4096 and B 4096 × n (n = 819
  or 1024) block by block: the grid point t handles the row block t / 4 and the contraction block t % 4 (blocks of
  1024), adding the product of A's block (t/4, t%4) and B's block (t%4, 0) into an accumulator. Here: the block
  product at an index over the extended reals, for both widths; matrices extended by zero to all pairs of natural
  numbers, over which the part of a row of A·B that the first k contraction blocks contribute is stated; the
  regrouping of four blocks of 1024 columns into the whole contraction; and the two results, A·B and
  tanh(A·B + bias), index by index and in matrix form.
-/
import proofs.«113214_j66838281060556_2_alg».proof.Proof.Gen.KernelIdeal
import proofs.«113214_j66838281060556_2_alg».proof.Proof.GcnSpec
import proofs.«113214_j66838281060556_2_alg».proof.Proof.GcnAlgebra
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic
open Idealize.ShloMosaic.ValueIdx (ix2 eq_ix2)

/-- Offsets (0, 0), as a constant function. -/
theorem hz00 : (![0, 0] : Fin 2 → Nat) = fun _ => 0 := funext fun a => by fin_cases a <;> rfl

/-! ## The block product at an index -/

theorem lhs_dot819_0 (i : S1024x819.Idx) (q : dot_S1024x1024_S1024x819_S1024x819_1_0_0_1_n_n.contr.Idx) :
    (dot_S1024x1024_S1024x819_S1024x819_1_0_0_1_n_n.lhsIdx i q 0).val = (i 0).val := by
  unfold DotDims.lhsIdx
  rw [dif_neg (show ¬(0 : Fin S1024x1024.rank) ∈ dot_S1024x1024_S1024x819_S1024x819_1_0_0_1_n_n.lhsBatch by decide), dif_pos (show (0 : Fin S1024x1024.rank) ∈ dot_S1024x1024_S1024x819_S1024x819_1_0_0_1_n_n.lhsNonContracting by decide)]
  rfl
theorem lhs_dot819_1 (i : S1024x819.Idx) (q : dot_S1024x1024_S1024x819_S1024x819_1_0_0_1_n_n.contr.Idx) :
    (dot_S1024x1024_S1024x819_S1024x819_1_0_0_1_n_n.lhsIdx i q 1).val = (q ⟨0, by decide⟩).val :=
  dot_S1024x1024_S1024x819_S1024x819_1_0_0_1_n_n.lhsIdx_val_of_single rfl i q
theorem rhs_dot819_0 (i : S1024x819.Idx) (q : dot_S1024x1024_S1024x819_S1024x819_1_0_0_1_n_n.contr.Idx) :
    (dot_S1024x1024_S1024x819_S1024x819_1_0_0_1_n_n.rhsIdx i q 0).val = (q ⟨0, by decide⟩).val :=
  dot_S1024x1024_S1024x819_S1024x819_1_0_0_1_n_n.rhsIdx_val_of_single rfl i q
theorem rhs_dot819_1 (i : S1024x819.Idx) (q : dot_S1024x1024_S1024x819_S1024x819_1_0_0_1_n_n.contr.Idx) :
    (dot_S1024x1024_S1024x819_S1024x819_1_0_0_1_n_n.rhsIdx i q 1).val = (i 1).val := by
  unfold DotDims.rhsIdx
  rw [dif_neg (show ¬(1 : Fin S1024x819.rank) ∈ dot_S1024x1024_S1024x819_S1024x819_1_0_0_1_n_n.rhsBatch by decide), dif_pos (show (1 : Fin S1024x819.rank) ∈ dot_S1024x1024_S1024x819_S1024x819_1_0_0_1_n_n.rhsNonContracting by decide)]
  rfl

/-- The product of a 1024 × 1024 block and a 1024 × 819 block, into the zero block, at (p, q): the sum over the
    block's 1024 columns. -/
theorem matmul819_apply (x0 : S1024x1024.Idx → EReal) (x1 : S1024x819.Idx → EReal) (p : Fin 1024) (q : Fin 819) :
    matmul (F := Ideal) (φ₁ := .bf16) (φ₂ := .bf16) dot_S1024x1024_S1024x819_S1024x819_1_0_0_1_n_n none x0 x1 (constant S1024x819 .f32 0x00000000#32) (ix2 p q)
      = ∑ l : Fin 1024, x0 (ix2 p l) * x1 (ix2 l q) := by
  refine (Ideal.matmul_constant_zero_apply (φ₁ := .bf16) (φ₂ := .bf16) dot_S1024x1024_S1024x819_S1024x819_1_0_0_1_n_n none x0 x1 (ix2 p q)).trans ?_
  rw [← Equiv.sum_comp (ValueIdx.contrEquiv1 dot_S1024x1024_S1024x819_S1024x819_1_0_0_1_n_n 1024 rfl rfl).symm]
  refine Finset.sum_congr rfl fun k _ => ?_
  have hk := ValueIdx.contrEquiv1_symm_val dot_S1024x1024_S1024x819_S1024x819_1_0_0_1_n_n 1024 rfl rfl k
  have el : dot_S1024x1024_S1024x819_S1024x819_1_0_0_1_n_n.lhsIdx (ix2 p q) ((ValueIdx.contrEquiv1 dot_S1024x1024_S1024x819_S1024x819_1_0_0_1_n_n 1024 rfl rfl).symm k) = ix2 p k := funext fun a => Fin.ext (by
    match a with
    | ⟨0, _⟩ => exact lhs_dot819_0 _ _
    | ⟨1, _⟩ => exact (lhs_dot819_1 _ _).trans hk)
  have er : dot_S1024x1024_S1024x819_S1024x819_1_0_0_1_n_n.rhsIdx (ix2 p q) ((ValueIdx.contrEquiv1 dot_S1024x1024_S1024x819_S1024x819_1_0_0_1_n_n 1024 rfl rfl).symm k) = ix2 k q := funext fun a => Fin.ext (by
    match a with
    | ⟨0, _⟩ => exact (rhs_dot819_0 _ _).trans hk
    | ⟨1, _⟩ => exact rhs_dot819_1 _ _)
  rw [el, er]

theorem lhs_dot1024_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_dot1024_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_dot1024_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_dot1024_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The product of a 1024 × 1024 block and a 1024 × 1024 block, into the zero block, at (p, q): the sum over the
    block's 1024 columns. -/
theorem matmul1024_apply (x0 : S1024x1024.Idx → EReal) (x1 : S1024x1024.Idx → EReal) (p : Fin 1024) (q : Fin 1024) :
    matmul (F := Ideal) (φ₁ := .bf16) (φ₂ := .bf16) dot_S1024x1024_S1024x1024_S1024x1024_1_0_0_1_n_n none x0 x1 (constant S1024x1024 .f32 0x00000000#32) (ix2 p q)
      = ∑ l : Fin 1024, x0 (ix2 p l) * x1 (ix2 l q) := by
  refine (Ideal.matmul_constant_zero_apply (φ₁ := .bf16) (φ₂ := .bf16) dot_S1024x1024_S1024x1024_S1024x1024_1_0_0_1_n_n none x0 x1 (ix2 p q)).trans ?_
  rw [← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact lhs_dot1024_0 _ _
    | ⟨1, _⟩ => exact (lhs_dot1024_1 _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (rhs_dot1024_0 _ _).trans hk
    | ⟨1, _⟩ => exact rhs_dot1024_1 _ _)
  rw [el, er]

/-! ## Sums over blocks -/

/-- A matrix of extended reals extended by zero to all pairs of natural numbers: sums over blocks are stated
    over it, so that a block's row "index × 1024 + offset" needs no bound in the statement. -/
def natMat {r c : ℕ} (X : (⟨2, ![r, c]⟩ : Shape).Idx → EReal) (i j : ℕ) : EReal :=
  if h : i < r ∧ j < c then X (ix2 ⟨i, h.1⟩ ⟨j, h.2⟩) else 0

theorem natMat_val {r c : ℕ} (X : (⟨2, ![r, c]⟩ : Shape).Idx → EReal) (i : Fin r) (j : Fin c) :
    natMat X i.val j.val = X (ix2 i j) := dif_pos ⟨i.isLt, j.isLt⟩

section Blocks

variable {n : ℕ} (A : (⟨2, ![4096, 4096]⟩ : Shape).Idx → EReal) (B : (⟨2, ![4096, n]⟩ : Shape).Idx → EReal)

/-- The product of A's block (i, kb) and B's block (kb, 0) at (p, q): the part of row i·1024 + p of A·B that
    comes from the columns kb·1024 … kb·1024 + 1023. -/
def blockTerm (i kb : ℕ) (p : Fin 1024) (q : Fin n) : EReal :=
  ∑ l : Fin 1024, natMat A (i * 1024 + p.val) (kb * 1024 + l.val) * natMat B (kb * 1024 + l.val) q.val

/-- What the accumulator holds at (p, q) after the first k contraction blocks of row block i. -/
def partialSum (i k : ℕ) (p : Fin 1024) (q : Fin n) : EReal :=
  ∑ kb ∈ Finset.range k, blockTerm A B i kb p q

theorem partialSum_succ (i k : ℕ) (p : Fin 1024) (q : Fin n) :
    partialSum A B i (k + 1) p q = partialSum A B i k p q + blockTerm A B i k p q :=
  Finset.sum_range_succ _ _

theorem partialSum_one (i : ℕ) (p : Fin 1024) (q : Fin n) :
    partialSum A B i 1 p q = 0 + blockTerm A B i 0 p q := by
  rw [partialSum_succ]; rfl

/-- Four blocks of 1024 columns are the whole contraction: the sum regroups into one over the 4096 columns. -/
theorem partialSum_four (i : ℕ) (hi : i < 4) (p : Fin 1024) (q : Fin n) :
    partialSum A B i 4 p q
      = ∑ k : Fin 4096, A (ix2 (⟨i * 1024 + p.val, by omega⟩ : Fin 4096) k) * B (ix2 k q) := by
  unfold partialSum blockTerm
  rw [Finset.sum_range (fun kb => ∑ l : Fin 1024, natMat A (i * 1024 + p.val) (kb * 1024 + l.val) * natMat B (kb * 1024 + l.val) q.val)]
  refine (GcnSpec.sum_blocks 4 1024 (fun k => natMat A (i * 1024 + p.val) k.val * natMat B k.val q.val)).trans ?_
  show ∑ k : Fin 4096, natMat A (i * 1024 + p.val) k.val * natMat B k.val q.val = _
  refine Finset.sum_congr rfl fun k _ => ?_
  exact congrArg₂ (· * ·) (natMat_val A (⟨i * 1024 + p.val, by omega⟩ : Fin 4096) k) (natMat_val B k q)

/-! ## The results, index by index -/

/-- Row i of A·B at column j. -/
def prodG : (⟨2, ![4096, n]⟩ : Shape).Idx → EReal :=
  fun y => ∑ k : Fin 4096, A (ix2 (y 0) k) * B (ix2 k (y 1))

/-- tanh of row i of A·B plus the bias row, at column j. -/
def tanhG (bias : (⟨2, ![1, n]⟩ : Shape).Idx → EReal) : (⟨2, ![4096, n]⟩ : Shape).Idx → EReal :=
  fun y => Ideal.tanh ((∑ k : Fin 4096, A (ix2 (y 0) k) * B (ix2 k (y 1))) + bias (ix2 (0 : Fin 1) (y 1)))

/-- In matrix form the first is A·B, -/
theorem toMat_prodG : GcnSpec.toMat (prodG A B) = GcnSpec.mm (GcnSpec.toMat A) (GcnSpec.toMat B) := rfl

/-- and the second tanh(A·B + bias), the bias broadcast down the rows. -/
theorem toMat_tanhG (bias : (⟨2, ![1, n]⟩ : Shape).Idx → EReal) :
    GcnSpec.toMat (tanhG A B bias)
      = GcnSpec.tanhB (GcnSpec.mm (GcnSpec.toMat A) (GcnSpec.toMat B)) (fun j => bias (ix2 (0 : Fin 1) j)) := rfl

end Blocks

end Cert.KernelIdeal.Hand

end
-- ==== Proof.KI.R01ValueA.lean ====
/-
  Launch 1 computes out = tanh(A·B + bias) for A 4096 × 4096, B 4096 × 819 and a bias row, block by block:
  the grid point t handles the row block t / 4 and the contraction block t % 4 (blocks of 1024), adding the
  product of A's block (t/4, t%4) and B's block (t%4, 0) into an accumulator that is reset at t % 4 = 0, and
  storing tanh(accumulator + bias) into the output's row block at t % 4 = 3. This module reads the body's three
  pure terms at an index over the extended reals and reads each window's block at an index of its array;
  nothing here depends on the symbolic runs.
-/
import proofs.«113214_j66838281060556_2_alg».proof.Proof.Gen.KernelIdeal.Launch
import proofs.«113214_j66838281060556_2_alg».proof.Proof.Gen.KernelIdeal.Skeleton
import proofs.«113214_j66838281060556_2_alg».proof.Proof.Gen.KernelIdeal.Points
import proofs.«113214_j66838281060556_2_alg».proof.Proof.KI.MatmulValue
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.ValueIdx (ix2 eq_ix2)

/-! ## The body's pure terms at an index, over the extended reals -/

/-- The reset block is zero everywhere. -/
theorem pay1_1_apply (p : Fin 1024) (q : Fin 819) : k1_pay1 (F := Ideal) (ix2 p q) = 0 := by
  unfold k1_pay1
  simp only [shapeCast_self]
  exact Ideal.ofBits_zero_f32

/-- The update adds the block product to what the accumulator held. -/
theorem pay2_1_apply (x0 : S1024x1024.Idx → EReal) (x1 : S1024x819.Idx → EReal) (xs : S1024x819.Idx → EReal)
    (p : Fin 1024) (q : Fin 819) :
    k1_pay2 (F := Ideal) x0 x1 xs (ix2 p q) = xs (ix2 p q) + ∑ l : Fin 1024, x0 (ix2 p l) * x1 (ix2 l q) := by
  unfold k1_pay2
  simp only [shapeCast_self]
  exact congrArg (xs (ix2 p q) + ·) (matmul819_apply x0 x1 p q)

/-- The stored output block is tanh of the accumulator plus the bias row. -/
theorem pay3_1_apply (v16 : S1024x819.Idx → EReal) (v17 : S1x819.Idx → EReal) (p : Fin 1024) (q : Fin 819) :
    k1_pay3 (F := Ideal) v16 v17 (ix2 p q) = Ideal.tanh (v16 (ix2 p q) + v17 (ix2 (0 : Fin 1) q)) := by
  unfold k1_pay3
  simp only [shapeCast_self]
  refine congrArg (fun z => Ideal.tanh (v16 (ix2 p q) + z)) ?_
  exact broadcastTo_apply v17 broadcasts_S1x819_S1024x819 (ix2 p q) (ix2 (0 : Fin 1) q) (fun a => by
    match a with
    | ⟨0, _⟩ => rfl
    | ⟨1, _⟩ => rfl)

/-! ## A window's block at an index of its array -/

theorem gridN1_eq : cfg1.N = 16 := N_1

/-- The printed index maps, decided over the sixteen points: A's block is (t / 4, t % 4), B's (t % 4, 0), the bias
    row's (0, 0), the output's (t / 4, 0). -/
theorem idx_facts1 : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = 0 ∧ win1_2.index t (1 : Fin 2) = 0
    ∧ win1_3.index t (0 : Fin 2) = t.val / 4 ∧ win1_3.index t (1 : Fin 2) = 0 :=
  (by decide +kernel : ∀ t : Fin grid1.N, _)

/-- Entry (p, l) of A's block at point t is A at row (t/4)·1024 + p, column (t%4)·1024 + l. -/
theorem read_blk1_0 (X : S4096x4096.Idx → EReal) (t : Fin cfg1.N) (p l : Fin 1024) :
    (((cfg1.win 0).blk t).view.read (Elt Ideal) X : S1024x1024.Idx → EReal) (ix2 p l)
      = X (ix2 (⟨t.val / 4 * 1024 + p.val, by have := t.isLt; have := gridN1_eq; omega⟩ : Fin 4096)
            (⟨t.val % 4 * 1024 + l.val, by omega⟩ : Fin 4096)) := by
  obtain ⟨e0, e1, -⟩ := idx_facts1 t
  rw [View.read_apply]
  show X _ = X _
  congr 1
  funext a
  apply Fin.ext
  match a with
  | ⟨0, _⟩ => show win1_0.index t (0 : Fin 2) * 1024 + 1 * p.val = t.val / 4 * 1024 + p.val; rw [e0]; omega
  | ⟨1, _⟩ => show win1_0.index t (1 : Fin 2) * 1024 + 1 * l.val = t.val % 4 * 1024 + l.val; rw [e1]; omega

/-- Entry (l, q) of B's block at point t is B at row (t%4)·1024 + l, column q. -/
theorem read_blk1_1 (X : S4096x819.Idx → EReal) (t : Fin cfg1.N) (l : Fin 1024) (q : Fin 819) :
    (((cfg1.win 1).blk t).view.read (Elt Ideal) X : S1024x819.Idx → EReal) (ix2 l q)
      = X (ix2 (⟨t.val % 4 * 1024 + l.val, by omega⟩ : Fin 4096) q) := by
  obtain ⟨-, -, e0, e1, -⟩ := idx_facts1 t
  rw [View.read_apply]
  show X _ = X _
  congr 1
  funext a
  apply Fin.ext
  match a with
  | ⟨0, _⟩ => show win1_1.index t (0 : Fin 2) * 1024 + 1 * l.val = t.val % 4 * 1024 + l.val; rw [e0]; omega
  | ⟨1, _⟩ => show win1_1.index t (1 : Fin 2) * 819 + 1 * q.val = q.val; rw [e1]; omega

/-- The bias window's block at any point is the whole bias row. -/
theorem read_blk1_2 (X : S1x819.Idx → EReal) (t : Fin cfg1.N) (q : Fin 819) :
    (((cfg1.win 2).blk t).view.read (Elt Ideal) X : S1x819.Idx → EReal) (ix2 (0 : Fin 1) q) = X (ix2 (0 : Fin 1) q) := by
  obtain ⟨-, -, -, -, e0, e1, -⟩ := idx_facts1 t
  rw [View.read_apply]
  show X _ = X _
  congr 1
  funext a
  apply Fin.ext
  match a with
  | ⟨0, _⟩ => show win1_2.index t (0 : Fin 2) * 1 + 1 * (0 : Fin 1).val = (0 : Fin 1).val; rw [e0]; rfl
  | ⟨1, _⟩ => show win1_2.index t (1 : Fin 2) * 819 + 1 * q.val = q.val; rw [e1]; omega

/-- Entry (p, q) of the output's block at point t is the output at row (t/4)·1024 + p, column q. -/
theorem read_blk1_3 (X : S4096x819.Idx → EReal) (t : Fin cfg1.N) (p : Fin 1024) (q : Fin 819) :
    (((cfg1.win 3).blk t).view.read (Elt Ideal) X : S1024x819.Idx → EReal) (ix2 p q)
      = X (ix2 (⟨t.val / 4 * 1024 + p.val, by have := t.isLt; have := gridN1_eq; omega⟩ : Fin 4096) q) := by
  obtain ⟨-, -, -, -, -, -, e0, e1⟩ := idx_facts1 t
  rw [View.read_apply]
  show X _ = X _
  congr 1
  funext a
  apply Fin.ext
  match a with
  | ⟨0, _⟩ => show win1_3.index t (0 : Fin 2) * 1024 + 1 * p.val = t.val / 4 * 1024 + p.val; rw [e0]; omega
  | ⟨1, _⟩ => show win1_3.index t (1 : Fin 2) * 819 + 1 * q.val = q.val; rw [e1]; omega

end Cert.KernelIdeal.Hand

end
-- ==== Proof.KI.R01Value.lean ====
/-
  The value of launch 1: out = tanh(A·B + bias). The symbolic runs left, per control case, lists of stored pieces;
  each is read back as one of the body's three pure terms of the staged blocks. By induction on the grid point the
  accumulator after point n holds the first n % 4 + 1 contraction blocks' part of the row block n / 4 of A·B;
  at a contraction's last block the stored output block is tanh of the whole row sum plus the bias row; those
  blocks are the row blocks of the result, they cover the output array, and so the array ends holding the result.
-/
import proofs.«113214_j66838281060556_2_alg».proof.Proof.KI.R01
import proofs.«113214_j66838281060556_2_alg».proof.Proof.KI.R01ValueA
import proofs.«113214_j66838281060556_2_alg».proof.Proof.KI.MatmulValue
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat)
open Idealize.ShloMosaic.ValueIdx (ix2 eq_ix2)

/-! ## What each case leaves, as the body's pure terms -/

section Pieces
variable {F : FTy → Type} [FloatOps F]
variable (V : (c : Dev nD) → (b : Ref sig .tc) → Buf (Elt F) ((c : Thread nD τ).loc b))

/-- The accumulator read whole gives back the contents it is held at. -/
theorem scM1_read_unread (h : (scM1 : Memref sig .tc .vmem S1024x819 .f32).IsWhole) (xs : Vec F S1024x819 .f32) :
    View.read (Elt F) (View.whole cc1_scratch0) (h.unread xs) = xs := h.read_unread xs

/-- A middle block: the accumulator ends at the update of what it held. -/
theorem accB1_eq (c : Dev nD) (t : Fin cfg1.N) (h0 : ¬t.val % 4 = 0) (h1 : ¬t.val % 4 = 3) (xs : Vec F S1024x819 .f32) :
    accB1 V c t h0 h1 xs = k1_pay2 (iblk1 V c 0 t) (iblk1 V c 1 t) xs := by
  unfold accB1
  rw [View.read_writes_eq_canon _ _ _ (coverB1 V c t h0 h1 xs)]
  unfold run1_B
  dsimp only
  sl_unfold_words
  rw [View.canon_unit_zero hz00]
  simp only [View.readAt_eq_ld, Memref.IsWhole.read_unread, scM1_read_unread, View.ld_unit_zero (S := S1024x1024) hz00, View.ld_unit_zero (S := S1024x819) hz00]

/-- A first block: the accumulator is reset, read back, and ends at the update of the zero block. -/
theorem accA1_eq (c : Dev nD) (t : Fin cfg1.N) (h0 : t.val % 4 = 0) (h1 : ¬t.val % 4 = 3) :
    accA1 V c t h0 h1 = k1_pay2 (iblk1 V c 0 t) (iblk1 V c 1 t) (k1_pay1 (F := F)) := by
  unfold accA1
  rw [View.read_writes_eq_canon _ _ _ (coverA1 V c t h0 h1)]
  unfold run1_A
  dsimp only
  sl_unfold_words
  rw [View.canon_cons_unit_zero (S := S1024x819) hz00]
  simp only [View.readAt_eq_ld, Memref.IsWhole.read_unread, scM1_read_unread, View.ld_unit_zero (S := S1024x1024) hz00, View.ld_unit_zero (S := S1024x819) hz00,
    View.readCov_unit_zero (S := S1024x819) _ hz00]

/-- A last block: the accumulator ends at the update of what it held, -/
theorem accC1_eq (c : Dev nD) (t : Fin cfg1.N) (h0 : ¬t.val % 4 = 0) (h1 : t.val % 4 = 3) (xs : Vec F S1024x819 .f32) :
    accC1 V c t h0 h1 xs = k1_pay2 (iblk1 V c 0 t) (iblk1 V c 1 t) xs := by
  unfold accC1
  rw [View.read_writes_eq_canon _ _ _ (coverCs1 V c t h0 h1 xs)]
  unfold run1_C
  dsimp only
  sl_unfold_words
  rw [View.canon_unit_zero hz00]
  simp only [View.readAt_eq_ld, Memref.IsWhole.read_unread, scM1_read_unread, View.ld_unit_zero (S := S1024x1024) hz00, View.ld_unit_zero (S := S1024x819) hz00]

/-- and the output block is the stored term of that accumulator, read back, and the bias block. -/
theorem outC1_eq (c : Dev nD) (t : Fin cfg1.N) (h0 : ¬t.val % 4 = 0) (h1 : t.val % 4 = 3) (xs : Vec F S1024x819 .f32) :
    outC1 V c t h0 h1 xs = k1_pay3 (k1_pay2 (iblk1 V c 0 t) (iblk1 V c 1 t) xs) (iblk1 V c 2 t) := by
  unfold outC1
  rw [View.read_writes_eq_canon _ _ _ (coverCo1 V c t h0 h1 xs)]
  unfold run1_C
  dsimp only
  sl_unfold_words
  rw [View.canon_unit_zero hz00]
  simp only [View.readAt_eq_ld, Memref.IsWhole.read_unread, scM1_read_unread, View.ld_unit_zero (S := S1024x1024) hz00, View.ld_unit_zero (S := S1024x819) hz00,
    View.ld_unit_zero (S := S1x819) hz00, View.readCov_unit_zero (S := S1024x819) _ hz00]

end Pieces

/-! ## The accumulator and the output block after each point, over the extended reals -/

section Value
variable (V : (c : Dev nD) → (b : Ref sig .tc) → Buf (Elt Ideal) ((c : Thread nD τ).loc b))

/-- The three arrays the launch reads, at their literal types: A, B and the bias row. -/
abbrev arrA1 (c : Dev nD) : S4096x4096.Idx → EReal := V c main_v0
abbrev arrB1 (c : Dev nD) : S4096x819.Idx → EReal := V c main_v2
abbrev arrC1 (c : Dev nD) : S1x819.Idx → EReal := V c main_v3
/-- The blocks the three input windows stage at a point, at their literal types. -/
abbrev blkA1 (c : Dev nD) (t : Fin cfg1.N) : S1024x1024.Idx → EReal := iblk1 V c 0 t
abbrev blkB1 (c : Dev nD) (t : Fin cfg1.N) : S1024x819.Idx → EReal := iblk1 V c 1 t
abbrev blkC1 (c : Dev nD) (t : Fin cfg1.N) : S1x819.Idx → EReal := iblk1 V c 2 t

theorem blkA1_apply (c : Dev nD) (t : Fin cfg1.N) (p l : Fin 1024) :
    blkA1 V c t (ix2 p l) = natMat (arrA1 V c) (t.val / 4 * 1024 + p.val) (t.val % 4 * 1024 + l.val) :=
  (read_blk1_0 (arrA1 V c) t p l).trans (natMat_val (arrA1 V c) _ _).symm

theorem blkB1_apply (c : Dev nD) (t : Fin cfg1.N) (l : Fin 1024) (q : Fin 819) :
    blkB1 V c t (ix2 l q) = natMat (arrB1 V c) (t.val % 4 * 1024 + l.val) q.val :=
  (read_blk1_1 (arrB1 V c) t l q).trans (natMat_val (arrB1 V c) _ _).symm

theorem blkC1_apply (c : Dev nD) (t : Fin cfg1.N) (q : Fin 819) :
    blkC1 V c t (ix2 (0 : Fin 1) q) = arrC1 V c (ix2 (0 : Fin 1) q) :=
  read_blk1_2 (arrC1 V c) t q

/-- The product of the two staged blocks at (p, q) is the contraction block's part of the row of A·B. -/
theorem block_sum1 (c : Dev nD) (t : Fin cfg1.N) (p : Fin 1024) (q : Fin 819) :
    ∑ l : Fin 1024, blkA1 V c t (ix2 p l) * blkB1 V c t (ix2 l q)
      = blockTerm (arrA1 V c) (arrB1 V c) (t.val / 4) (t.val % 4) p q :=
  Finset.sum_congr rfl fun l _ => by rw [blkA1_apply, blkB1_apply]

/-- A contraction's first block leaves its own part of the sum. -/
theorem acc1_A (c : Dev nD) (t : Fin cfg1.N) (h0 : t.val % 4 = 0) (h1 : ¬t.val % 4 = 3) (p : Fin 1024) (q : Fin 819) :
    (outsAt1 V c t.val t.isLt).2 (ix2 p q) = partialSum (arrA1 V c) (arrB1 V c) (t.val / 4) (t.val % 4 + 1) p q := by
  rw [outsAt1_A V c t h0 h1]
  dsimp only
  refine (congrFun (accA1_eq (F := Ideal) V c t h0 h1) (ix2 p q)).trans ?_
  refine (pay2_1_apply (blkA1 V c t) (blkB1 V c t) (k1_pay1 (F := Ideal)) p q).trans ?_
  rw [pay1_1_apply p q, block_sum1 V c t p q, h0]
  exact (partialSum_one (arrA1 V c) (arrB1 V c) (t.val / 4) p q).symm

/-- A later block adds its part to what the point before left. -/
theorem acc1_BC (c : Dev nD) (t : Fin cfg1.N) (h0 : ¬t.val % 4 = 0)
    (ih : ∀ (p : Fin 1024) (q : Fin 819), (outsAt1 V c (t.val - 1) (Nat.lt_of_le_of_lt (Nat.sub_le _ _) t.isLt)).2 (ix2 p q)
      = partialSum (arrA1 V c) (arrB1 V c) ((t.val - 1) / 4) ((t.val - 1) % 4 + 1) p q)
    (p : Fin 1024) (q : Fin 819) :
    (outsAt1 V c t.val t.isLt).2 (ix2 p q) = partialSum (arrA1 V c) (arrB1 V c) (t.val / 4) (t.val % 4 + 1) p q := by
  have e1 : (t.val - 1) / 4 = t.val / 4 := by omega
  have e2 : (t.val - 1) % 4 + 1 = t.val % 4 := by omega
  have step : (outsAt1 V c (t.val - 1) (Nat.lt_of_le_of_lt (Nat.sub_le _ _) t.isLt)).2 (ix2 p q)
      + ∑ l : Fin 1024, blkA1 V c t (ix2 p l) * blkB1 V c t (ix2 l q)
      = partialSum (arrA1 V c) (arrB1 V c) (t.val / 4) (t.val % 4 + 1) p q := by
    rw [ih p q, block_sum1 V c t p q, e1, e2]
    exact (partialSum_succ (arrA1 V c) (arrB1 V c) (t.val / 4) (t.val % 4) p q).symm
  by_cases h1 : t.val % 4 = 3
  · rw [outsAt1_C V c t h0 h1]
    dsimp only
    refine (congrFun (accC1_eq (F := Ideal) V c t h0 h1 (outsAt1 V c (t.val - 1) (Nat.lt_of_le_of_lt (Nat.sub_le _ _) t.isLt)).2) (ix2 p q)).trans ?_
    exact (pay2_1_apply (blkA1 V c t) (blkB1 V c t) (outsAt1 V c (t.val - 1) (Nat.lt_of_le_of_lt (Nat.sub_le _ _) t.isLt)).2 p q).trans step
  · rw [outsAt1_B V c t h0 h1]
    dsimp only
    refine (congrFun (accB1_eq (F := Ideal) V c t h0 h1 (outsAt1 V c (t.val - 1) (Nat.lt_of_le_of_lt (Nat.sub_le _ _) t.isLt)).2) (ix2 p q)).trans ?_
    exact (pay2_1_apply (blkA1 V c t) (blkB1 V c t) (outsAt1 V c (t.val - 1) (Nat.lt_of_le_of_lt (Nat.sub_le _ _) t.isLt)).2 p q).trans step

/-- THE INVARIANT: after point n the accumulator holds, at (p, q), the first n % 4 + 1 blocks' part of row
    (n/4)·1024 + p of A·B at column q. By induction on the point. -/
theorem acc1_inv (c : Dev nD) (n : ℕ) : ∀ (hn : n < cfg1.N) (p : Fin 1024) (q : Fin 819),
    (outsAt1 V c n hn).2 (ix2 p q) = partialSum (arrA1 V c) (arrB1 V c) (n / 4) (n % 4 + 1) p q := by
  induction n with
  | zero => intro hn p q; exact acc1_A V c ⟨0, hn⟩ rfl (by show ¬(0 % 4 = 3); decide) p q
  | succ n ih =>
    intro hn p q
    by_cases h0 : (n + 1) % 4 = 0
    · exact acc1_A V c ⟨n + 1, hn⟩ h0 (by show ¬((n + 1) % 4 = 3); omega) p q
    · exact acc1_BC V c ⟨n + 1, hn⟩ h0 (fun p q => ih (Nat.lt_of_succ_lt hn) p q) p q

/-- At a contraction's last block the stored output block is tanh of the whole row sum plus the bias. -/
theorem out1_C (c : Dev nD) (t : Fin cfg1.N) (h1 : t.val % 4 = 3) (p : Fin 1024) (q : Fin 819) :
    (outsAt1 V c t.val t.isLt).1 (ix2 p q)
      = Ideal.tanh (partialSum (arrA1 V c) (arrB1 V c) (t.val / 4) 4 p q + arrC1 V c (ix2 (0 : Fin 1) q)) := by
  have h0 : ¬t.val % 4 = 0 := by omega
  have hacc := acc1_inv V c t.val t.isLt p q
  rw [outsAt1_C V c t h0 h1] at hacc ⊢
  dsimp only at hacc ⊢
  refine (congrFun (outC1_eq (F := Ideal) V c t h0 h1 (outsAt1 V c (t.val - 1) (Nat.lt_of_le_of_lt (Nat.sub_le _ _) t.isLt)).2) (ix2 p q)).trans ?_
  refine (pay3_1_apply (k1_pay2 (F := Ideal) (blkA1 V c t) (blkB1 V c t) (outsAt1 V c (t.val - 1) (Nat.lt_of_le_of_lt (Nat.sub_le _ _) t.isLt)).2) (blkC1 V c t) p q).trans ?_
  have hacc' : k1_pay2 (F := Ideal) (blkA1 V c t) (blkB1 V c t) (outsAt1 V c (t.val - 1) (Nat.lt_of_le_of_lt (Nat.sub_le _ _) t.isLt)).2 (ix2 p q)
      = partialSum (arrA1 V c) (arrB1 V c) (t.val / 4) 4 p q := by
    refine (congrFun (accC1_eq (F := Ideal) V c t h0 h1 (outsAt1 V c (t.val - 1) (Nat.lt_of_le_of_lt (Nat.sub_le _ _) t.isLt)).2) (ix2 p q)).symm.trans ?_
    rw [hacc, h1]
  rw [hacc', blkC1_apply V c t q]

end Value

/-! ## From the flushed blocks to the output array -/

section Final
variable (V : (c : Dev nD) → (b : Ref sig .tc) → Buf (Elt Ideal) ((c : Thread nD τ).loc b))

/-- What the launch leaves in the output array: tanh(A·B + bias), index by index. -/
abbrev res1 (c : Dev nD) : S4096x819.Idx → EReal := tanhG (arrA1 V c) (arrB1 V c) (arrC1 V c)

/-- The block a contraction's last point writes back is that point's row block of the result. -/
theorem flushed1_eq (c : Dev nD) (t : Fin cfg1.N) (hf : (cfg1.win 3).flush t = true) :
    (dat1 V c).flushed 3 t = ((cfg1.win 3).blk t).view.read (Elt Ideal) (res1 V c) := by
  have h1 : t.val % 4 = 3 := (flush1_3 t).mp hf
  have hN := gridN1_eq
  have ht := t.isLt
  show (cfg1.win 3).cut (grid1.coords t) ((dat1 V c).after 3 t) = _
  rw [after1_3]
  refine funext fun (y : S1024x819.Idx) => ?_
  obtain ⟨p, q, rfl⟩ : ∃ (p : Fin 1024) (q : Fin 819), y = ix2 p q := ⟨y 0, y 1, eq_ix2 y⟩
  show (outsAt1 V c t.val t.isLt).1 (ix2 p q) = (((cfg1.win 3).blk t).view.read (Elt Ideal) (res1 V c) : S1024x819.Idx → EReal) (ix2 p q)
  rw [out1_C V c t h1 p q, read_blk1_3 (res1 V c) t p q,
    partialSum_four (arrA1 V c) (arrB1 V c) (t.val / 4) (by omega) p q]
  rfl

/-- An index of the output array lies in point t's block iff each coordinate is in the block's range. -/
theorem mem_blk1_3 (t : Fin cfg1.N) (i : S4096x819.Idx) :
    i ∈ ((cfg1.win 3).blk t).view.set ↔ ∀ a : Fin 2, win1_3.index t a * S1024x819.size a ≤ (i a).val ∧ (i a).val < win1_3.index t a * S1024x819.size a + S1024x819.size a := by
  show i ∈ ((View.whole main_v4).slice (win1_3.rect t)).set ↔ _
  rw [View.set_slice_whole, Rect.mem_set_unit]
  exact Iff.rfl

/-- Row r of the output lies in the block written back at point 4·(r / 1024) + 3. -/
theorem cover1 (i : S4096x819.Idx) : ∃ t : Fin cfg1.N, (cfg1.win 3).flush t = true ∧ i ∈ ((cfg1.win 3).blk t).view.set := by
  have hi0 : (i 0).val < 4096 := (i 0).isLt
  have hi1 : (i 1).val < 819 := (i 1).isLt
  have hN := gridN1_eq
  refine ⟨⟨4 * ((i 0).val / 1024) + 3, by omega⟩, (flush1_3 _).mpr (by show (4 * ((i 0).val / 1024) + 3) % 4 = 3; omega), ?_⟩
  rw [mem_blk1_3]
  obtain ⟨-, -, -, -, -, -, e0, e1⟩ := idx_facts1 ⟨4 * ((i 0).val / 1024) + 3, by omega⟩
  intro a
  match a with
  | ⟨0, _⟩ =>
    show win1_3.index _ (0 : Fin 2) * 1024 ≤ (i 0).val ∧ (i 0).val < win1_3.index _ (0 : Fin 2) * 1024 + 1024
    rw [e0]; dsimp only; omega
  | ⟨1, _⟩ =>
    show win1_3.index _ (1 : Fin 2) * 819 ≤ (i 1).val ∧ (i 1).val < win1_3.index _ (1 : Fin 2) * 819 + 819
    rw [e1]; omega

/-- So the output array ends holding tanh(A·B + bias). -/
theorem out1_eq (c : Dev nD) : out1 V c = res1 V c :=
  (dat1 V c).arrAt_eq_of_cover 3 (res1 V c) (flushed1_eq V c) cover1

/-- THE VALUE OF LAUNCH 1, in matrix form: the output is tanh of the product of the two input matrices plus the
    bias row broadcast down the rows. -/
theorem out1_value (c : Dev nD) :
    GcnSpec.toMat (out1 V c : S4096x819.Idx → EReal)
      = GcnSpec.tanhB (GcnSpec.mm (GcnSpec.toMat (V c main_v0 : S4096x4096.Idx → EReal)) (GcnSpec.toMat (V c main_v2 : S4096x819.Idx → EReal)))
          (fun j => (V c main_v3 : S1x819.Idx → EReal) (ix2 (0 : Fin 1) j)) := by
  rw [out1_eq V c]
  exact toMat_tanhG (arrA1 V c) (arrB1 V c) (arrC1 V c)

end Final

end Cert.KernelIdeal.Hand

end
-- ==== Proof.KI.R02ValueA.lean ====
/-
  Launch 2 computes out = A·B for A 4096 × 4096 and B 4096 × 819, block by block: the grid point t handles the
  row block t / 4 and the contraction block t % 4 (blocks of 1024), adding the product of A's block (t/4, t%4)
  and B's block (t%4, 0) into an accumulator that is reset at t % 4 = 0, and storing the accumulator, in the
  output's format, into the output's row block at t % 4 = 3. This module reads the body's three pure terms at an
  index over the extended reals, where a change of format is the identity, and reads each window's block at an
  index of its array; nothing here depends on the symbolic runs.
-/
import proofs.«113214_j66838281060556_2_alg».proof.Proof.Gen.KernelIdeal.Launch
import proofs.«113214_j66838281060556_2_alg».proof.Proof.Gen.KernelIdeal.Skeleton
import proofs.«113214_j66838281060556_2_alg».proof.Proof.Gen.KernelIdeal.Points
import proofs.«113214_j66838281060556_2_alg».proof.Proof.KI.MatmulValue
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.ValueIdx (ix2 eq_ix2)

/-! ## The body's pure terms at an index, over the extended reals -/

/-- The reset block is zero everywhere. -/
theorem pay1_2_apply (p : Fin 1024) (q : Fin 819) : k2_pay1 (F := Ideal) (ix2 p q) = 0 := by
  unfold k2_pay1
  simp only [shapeCast_self]
  exact Ideal.ofBits_zero_f32

/-- The update adds the block product to what the accumulator held. -/
theorem pay2_2_apply (x0 : S1024x1024.Idx → EReal) (x1 : S1024x819.Idx → EReal) (xs : S1024x819.Idx → EReal)
    (p : Fin 1024) (q : Fin 819) :
    k2_pay2 (F := Ideal) x0 x1 xs (ix2 p q) = xs (ix2 p q) + ∑ l : Fin 1024, x0 (ix2 p l) * x1 (ix2 l q) := by
  unfold k2_pay2
  simp only [shapeCast_self]
  exact congrArg (xs (ix2 p q) + ·) (matmul819_apply x0 x1 p q)

/-- The stored output block is the accumulator: the change of format is the identity on extended reals. -/
theorem pay3_2_apply (v17 : S1024x819.Idx → EReal) (p : Fin 1024) (q : Fin 819) :
    k2_pay3 (F := Ideal) v17 (ix2 p q) = v17 (ix2 p q) := rfl

/-! ## A window's block at an index of its array -/

theorem gridN2_eq : cfg2.N = 16 := N_2

/-- The printed index maps, decided over the sixteen points: A's block is (t / 4, t % 4), B's (t % 4, 0), the
    output's (t / 4, 0). -/
theorem idx_facts2 : ∀ t : Fin cfg2.N,
    win2_0.index t (0 : Fin 2) = t.val / 4 ∧ win2_0.index t (1 : Fin 2) = t.val % 4
    ∧ win2_1.index t (0 : Fin 2) = t.val % 4 ∧ win2_1.index t (1 : Fin 2) = 0
    ∧ win2_2.index t (0 : Fin 2) = t.val / 4 ∧ win2_2.index t (1 : Fin 2) = 0 :=
  (by decide +kernel : ∀ t : Fin grid2.N, _)

/-- Entry (p, l) of A's block at point t is A at row (t/4)·1024 + p, column (t%4)·1024 + l. -/
theorem read_blk2_0 (X : S4096x4096.Idx → EReal) (t : Fin cfg2.N) (p l : Fin 1024) :
    (((cfg2.win 0).blk t).view.read (Elt Ideal) X : S1024x1024.Idx → EReal) (ix2 p l)
      = X (ix2 (⟨t.val / 4 * 1024 + p.val, by have := t.isLt; have := gridN2_eq; omega⟩ : Fin 4096)
            (⟨t.val % 4 * 1024 + l.val, by omega⟩ : Fin 4096)) := by
  obtain ⟨e0, e1, -⟩ := idx_facts2 t
  rw [View.read_apply]
  show X _ = X _
  congr 1
  funext a
  apply Fin.ext
  match a with
  | ⟨0, _⟩ => show win2_0.index t (0 : Fin 2) * 1024 + 1 * p.val = t.val / 4 * 1024 + p.val; rw [e0]; omega
  | ⟨1, _⟩ => show win2_0.index t (1 : Fin 2) * 1024 + 1 * l.val = t.val % 4 * 1024 + l.val; rw [e1]; omega

/-- Entry (l, q) of B's block at point t is B at row (t%4)·1024 + l, column q. -/
theorem read_blk2_1 (X : S4096x819.Idx → EReal) (t : Fin cfg2.N) (l : Fin 1024) (q : Fin 819) :
    (((cfg2.win 1).blk t).view.read (Elt Ideal) X : S1024x819.Idx → EReal) (ix2 l q)
      = X (ix2 (⟨t.val % 4 * 1024 + l.val, by omega⟩ : Fin 4096) q) := by
  obtain ⟨-, -, e0, e1, -⟩ := idx_facts2 t
  rw [View.read_apply]
  show X _ = X _
  congr 1
  funext a
  apply Fin.ext
  match a with
  | ⟨0, _⟩ => show win2_1.index t (0 : Fin 2) * 1024 + 1 * l.val = t.val % 4 * 1024 + l.val; rw [e0]; omega
  | ⟨1, _⟩ => show win2_1.index t (1 : Fin 2) * 819 + 1 * q.val = q.val; rw [e1]; omega

/-- Entry (p, q) of the output's block at point t is the output at row (t/4)·1024 + p, column q. -/
theorem read_blk2_2 (X : S4096x819.Idx → EReal) (t : Fin cfg2.N) (p : Fin 1024) (q : Fin 819) :
    (((cfg2.win 2).blk t).view.read (Elt Ideal) X : S1024x819.Idx → EReal) (ix2 p q)
      = X (ix2 (⟨t.val / 4 * 1024 + p.val, by have := t.isLt; have := gridN2_eq; omega⟩ : Fin 4096) q) := by
  obtain ⟨-, -, -, -, e0, e1⟩ := idx_facts2 t
  rw [View.read_apply]
  show X _ = X _
  congr 1
  funext a
  apply Fin.ext
  match a with
  | ⟨0, _⟩ => show win2_2.index t (0 : Fin 2) * 1024 + 1 * p.val = t.val / 4 * 1024 + p.val; rw [e0]; omega
  | ⟨1, _⟩ => show win2_2.index t (1 : Fin 2) * 819 + 1 * q.val = q.val; rw [e1]; omega

end Cert.KernelIdeal.Hand

end
-- ==== Proof.KI.R02Value.lean ====
/-
  The value of launch 2: out = A·B. The symbolic runs left, per control case, lists of stored pieces; each is read
  back as one of the body's three pure terms of the staged blocks. By induction on the grid point the accumulator
  after point n holds the first n % 4 + 1 contraction blocks' part of the row block n / 4 of A·B; at a
  contraction's last block the stored output block is the whole row sum; those blocks are the row blocks of the
  result, they cover the output array, and so the array ends holding the result.
-/
import proofs.«113214_j66838281060556_2_alg».proof.Proof.KI.R02
import proofs.«113214_j66838281060556_2_alg».proof.Proof.KI.R02ValueA
import proofs.«113214_j66838281060556_2_alg».proof.Proof.KI.MatmulValue
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat)
open Idealize.ShloMosaic.ValueIdx (ix2 eq_ix2)

/-! ## What each case leaves, as the body's pure terms -/

section Pieces
variable {F : FTy → Type} [FloatOps F]
variable (V : (c : Dev nD) → (b : Ref sig .tc) → Buf (Elt F) ((c : Thread nD τ).loc b))

/-- The accumulator read whole gives back the contents it is held at. -/
theorem scM2_read_unread (h : (scM2 : Memref sig .tc .vmem S1024x819 .f32).IsWhole) (xs : Vec F S1024x819 .f32) :
    View.read (Elt F) (View.whole cc2_scratch0) (h.unread xs) = xs := h.read_unread xs

/-- A middle block: the accumulator ends at the update of what it held. -/
theorem accB2_eq (c : Dev nD) (t : Fin cfg2.N) (h0 : ¬t.val % 4 = 0) (h1 : ¬t.val % 4 = 3) (xs : Vec F S1024x819 .f32) :
    accB2 V c t h0 h1 xs = k2_pay2 (iblk2 V c 0 t) (iblk2 V c 1 t) xs := by
  unfold accB2
  rw [View.read_writes_eq_canon _ _ _ (coverB2 V c t h0 h1 xs)]
  unfold run2_B
  dsimp only
  sl_unfold_words
  rw [View.canon_unit_zero hz00]
  simp only [View.readAt_eq_ld, Memref.IsWhole.read_unread, scM2_read_unread, View.ld_unit_zero (S := S1024x1024) hz00, View.ld_unit_zero (S := S1024x819) hz00]

/-- A first block: the accumulator is reset, read back, and ends at the update of the zero block. -/
theorem accA2_eq (c : Dev nD) (t : Fin cfg2.N) (h0 : t.val % 4 = 0) (h1 : ¬t.val % 4 = 3) :
    accA2 V c t h0 h1 = k2_pay2 (iblk2 V c 0 t) (iblk2 V c 1 t) (k2_pay1 (F := F)) := by
  unfold accA2
  rw [View.read_writes_eq_canon _ _ _ (coverA2 V c t h0 h1)]
  unfold run2_A
  dsimp only
  sl_unfold_words
  rw [View.canon_cons_unit_zero (S := S1024x819) hz00]
  simp only [View.readAt_eq_ld, Memref.IsWhole.read_unread, scM2_read_unread, View.ld_unit_zero (S := S1024x1024) hz00, View.ld_unit_zero (S := S1024x819) hz00,
    View.readCov_unit_zero (S := S1024x819) _ hz00]

/-- A last block: the accumulator ends at the update of what it held, -/
theorem accC2_eq (c : Dev nD) (t : Fin cfg2.N) (h0 : ¬t.val % 4 = 0) (h1 : t.val % 4 = 3) (xs : Vec F S1024x819 .f32) :
    accC2 V c t h0 h1 xs = k2_pay2 (iblk2 V c 0 t) (iblk2 V c 1 t) xs := by
  unfold accC2
  rw [View.read_writes_eq_canon _ _ _ (coverCs2 V c t h0 h1 xs)]
  unfold run2_C
  dsimp only
  sl_unfold_words
  rw [View.canon_unit_zero hz00]
  simp only [View.readAt_eq_ld, Memref.IsWhole.read_unread, scM2_read_unread, View.ld_unit_zero (S := S1024x1024) hz00, View.ld_unit_zero (S := S1024x819) hz00]

/-- and the output block is the stored term of that accumulator, read back. -/
theorem outC2_eq (c : Dev nD) (t : Fin cfg2.N) (h0 : ¬t.val % 4 = 0) (h1 : t.val % 4 = 3) (xs : Vec F S1024x819 .f32) :
    outC2 V c t h0 h1 xs = k2_pay3 (k2_pay2 (iblk2 V c 0 t) (iblk2 V c 1 t) xs) := by
  unfold outC2
  rw [View.read_writes_eq_canon _ _ _ (coverCo2 V c t h0 h1 xs)]
  unfold run2_C
  dsimp only
  sl_unfold_words
  rw [View.canon_unit_zero hz00]
  simp only [View.readAt_eq_ld, Memref.IsWhole.read_unread, scM2_read_unread, View.ld_unit_zero (S := S1024x1024) hz00, View.ld_unit_zero (S := S1024x819) hz00,
    View.readCov_unit_zero (S := S1024x819) _ hz00]

end Pieces

/-! ## The accumulator and the output block after each point, over the extended reals -/

section Value
variable (V : (c : Dev nD) → (b : Ref sig .tc) → Buf (Elt Ideal) ((c : Thread nD τ).loc b))

/-- The two arrays the launch reads, at their literal shapes: A and B. -/
abbrev arrA2 (c : Dev nD) : S4096x4096.Idx → EReal := V c main_v0
abbrev arrB2 (c : Dev nD) : S4096x819.Idx → EReal := V c main_v4
/-- The blocks the two input windows stage at a point, at their literal shapes. -/
abbrev blkA2 (c : Dev nD) (t : Fin cfg2.N) : S1024x1024.Idx → EReal := iblk2 V c 0 t
abbrev blkB2 (c : Dev nD) (t : Fin cfg2.N) : S1024x819.Idx → EReal := iblk2 V c 1 t

theorem blkA2_apply (c : Dev nD) (t : Fin cfg2.N) (p l : Fin 1024) :
    blkA2 V c t (ix2 p l) = natMat (arrA2 V c) (t.val / 4 * 1024 + p.val) (t.val % 4 * 1024 + l.val) :=
  (read_blk2_0 (arrA2 V c) t p l).trans (natMat_val (arrA2 V c) _ _).symm

theorem blkB2_apply (c : Dev nD) (t : Fin cfg2.N) (l : Fin 1024) (q : Fin 819) :
    blkB2 V c t (ix2 l q) = natMat (arrB2 V c) (t.val % 4 * 1024 + l.val) q.val :=
  (read_blk2_1 (arrB2 V c) t l q).trans (natMat_val (arrB2 V c) _ _).symm

/-- The product of the two staged blocks at (p, q) is the contraction block's part of the row of A·B. -/
theorem block_sum2 (c : Dev nD) (t : Fin cfg2.N) (p : Fin 1024) (q : Fin 819) :
    ∑ l : Fin 1024, blkA2 V c t (ix2 p l) * blkB2 V c t (ix2 l q)
      = blockTerm (arrA2 V c) (arrB2 V c) (t.val / 4) (t.val % 4) p q :=
  Finset.sum_congr rfl fun l _ => by rw [blkA2_apply, blkB2_apply]

/-- A contraction's first block leaves its own part of the sum. -/
theorem acc2_A (c : Dev nD) (t : Fin cfg2.N) (h0 : t.val % 4 = 0) (h1 : ¬t.val % 4 = 3) (p : Fin 1024) (q : Fin 819) :
    (outsAt2 V c t.val t.isLt).2 (ix2 p q) = partialSum (arrA2 V c) (arrB2 V c) (t.val / 4) (t.val % 4 + 1) p q := by
  rw [outsAt2_A V c t h0 h1]
  dsimp only
  refine (congrFun (accA2_eq (F := Ideal) V c t h0 h1) (ix2 p q)).trans ?_
  refine (pay2_2_apply (blkA2 V c t) (blkB2 V c t) (k2_pay1 (F := Ideal)) p q).trans ?_
  rw [pay1_2_apply p q, block_sum2 V c t p q, h0]
  exact (partialSum_one (arrA2 V c) (arrB2 V c) (t.val / 4) p q).symm

/-- A later block adds its part to what the point before left. -/
theorem acc2_BC (c : Dev nD) (t : Fin cfg2.N) (h0 : ¬t.val % 4 = 0)
    (ih : ∀ (p : Fin 1024) (q : Fin 819), (outsAt2 V c (t.val - 1) (Nat.lt_of_le_of_lt (Nat.sub_le _ _) t.isLt)).2 (ix2 p q)
      = partialSum (arrA2 V c) (arrB2 V c) ((t.val - 1) / 4) ((t.val - 1) % 4 + 1) p q)
    (p : Fin 1024) (q : Fin 819) :
    (outsAt2 V c t.val t.isLt).2 (ix2 p q) = partialSum (arrA2 V c) (arrB2 V c) (t.val / 4) (t.val % 4 + 1) p q := by
  have e1 : (t.val - 1) / 4 = t.val / 4 := by omega
  have e2 : (t.val - 1) % 4 + 1 = t.val % 4 := by omega
  have step : (outsAt2 V c (t.val - 1) (Nat.lt_of_le_of_lt (Nat.sub_le _ _) t.isLt)).2 (ix2 p q)
      + ∑ l : Fin 1024, blkA2 V c t (ix2 p l) * blkB2 V c t (ix2 l q)
      = partialSum (arrA2 V c) (arrB2 V c) (t.val / 4) (t.val % 4 + 1) p q := by
    rw [ih p q, block_sum2 V c t p q, e1, e2]
    exact (partialSum_succ (arrA2 V c) (arrB2 V c) (t.val / 4) (t.val % 4) p q).symm
  by_cases h1 : t.val % 4 = 3
  · rw [outsAt2_C V c t h0 h1]
    dsimp only
    refine (congrFun (accC2_eq (F := Ideal) V c t h0 h1 (outsAt2 V c (t.val - 1) (Nat.lt_of_le_of_lt (Nat.sub_le _ _) t.isLt)).2) (ix2 p q)).trans ?_
    exact (pay2_2_apply (blkA2 V c t) (blkB2 V c t) (outsAt2 V c (t.val - 1) (Nat.lt_of_le_of_lt (Nat.sub_le _ _) t.isLt)).2 p q).trans step
  · rw [outsAt2_B V c t h0 h1]
    dsimp only
    refine (congrFun (accB2_eq (F := Ideal) V c t h0 h1 (outsAt2 V c (t.val - 1) (Nat.lt_of_le_of_lt (Nat.sub_le _ _) t.isLt)).2) (ix2 p q)).trans ?_
    exact (pay2_2_apply (blkA2 V c t) (blkB2 V c t) (outsAt2 V c (t.val - 1) (Nat.lt_of_le_of_lt (Nat.sub_le _ _) t.isLt)).2 p q).trans step

/-- THE INVARIANT: after point n the accumulator holds, at (p, q), the first n % 4 + 1 blocks' part of row
    (n/4)·1024 + p of A·B at column q. By induction on the point. -/
theorem acc2_inv (c : Dev nD) (n : ℕ) : ∀ (hn : n < cfg2.N) (p : Fin 1024) (q : Fin 819),
    (outsAt2 V c n hn).2 (ix2 p q) = partialSum (arrA2 V c) (arrB2 V c) (n / 4) (n % 4 + 1) p q := by
  induction n with
  | zero => intro hn p q; exact acc2_A V c ⟨0, hn⟩ rfl (by show ¬(0 % 4 = 3); decide) p q
  | succ n ih =>
    intro hn p q
    by_cases h0 : (n + 1) % 4 = 0
    · exact acc2_A V c ⟨n + 1, hn⟩ h0 (by show ¬((n + 1) % 4 = 3); omega) p q
    · exact acc2_BC V c ⟨n + 1, hn⟩ h0 (fun p q => ih (Nat.lt_of_succ_lt hn) p q) p q

/-- At a contraction's last block the stored output block is the whole row sum. -/
theorem out2_C (c : Dev nD) (t : Fin cfg2.N) (h1 : t.val % 4 = 3) (p : Fin 1024) (q : Fin 819) :
    (outsAt2 V c t.val t.isLt).1 (ix2 p q) = partialSum (arrA2 V c) (arrB2 V c) (t.val / 4) 4 p q := by
  have h0 : ¬t.val % 4 = 0 := by omega
  have hacc := acc2_inv V c t.val t.isLt p q
  rw [outsAt2_C V c t h0 h1] at hacc ⊢
  dsimp only at hacc ⊢
  refine (congrFun (outC2_eq (F := Ideal) V c t h0 h1 (outsAt2 V c (t.val - 1) (Nat.lt_of_le_of_lt (Nat.sub_le _ _) t.isLt)).2) (ix2 p q)).trans ?_
  refine (pay3_2_apply (k2_pay2 (F := Ideal) (blkA2 V c t) (blkB2 V c t) (outsAt2 V c (t.val - 1) (Nat.lt_of_le_of_lt (Nat.sub_le _ _) t.isLt)).2) p q).trans ?_
  refine (congrFun (accC2_eq (F := Ideal) V c t h0 h1 (outsAt2 V c (t.val - 1) (Nat.lt_of_le_of_lt (Nat.sub_le _ _) t.isLt)).2) (ix2 p q)).symm.trans ?_
  rw [hacc, h1]

end Value

/-! ## From the flushed blocks to the output array -/

section Final
variable (V : (c : Dev nD) → (b : Ref sig .tc) → Buf (Elt Ideal) ((c : Thread nD τ).loc b))

/-- What the launch leaves in the output array: A·B, index by index. -/
abbrev res2 (c : Dev nD) : S4096x819.Idx → EReal := prodG (arrA2 V c) (arrB2 V c)

/-- The block a contraction's last point writes back is that point's row block of the result. -/
theorem flushed2_eq (c : Dev nD) (t : Fin cfg2.N) (hf : (cfg2.win 2).flush t = true) :
    (dat2 V c).flushed 2 t = ((cfg2.win 2).blk t).view.read (Elt Ideal) (res2 V c) := by
  have h1 : t.val % 4 = 3 := (flush2_2 t).mp hf
  have hN := gridN2_eq
  have ht := t.isLt
  show (cfg2.win 2).cut (grid2.coords t) ((dat2 V c).after 2 t) = _
  rw [after2_2]
  refine funext fun (y : S1024x819.Idx) => ?_
  obtain ⟨p, q, rfl⟩ : ∃ (p : Fin 1024) (q : Fin 819), y = ix2 p q := ⟨y 0, y 1, eq_ix2 y⟩
  show (outsAt2 V c t.val t.isLt).1 (ix2 p q) = (((cfg2.win 2).blk t).view.read (Elt Ideal) (res2 V c) : S1024x819.Idx → EReal) (ix2 p q)
  rw [out2_C V c t h1 p q, read_blk2_2 (res2 V c) t p q,
    partialSum_four (arrA2 V c) (arrB2 V c) (t.val / 4) (by omega) p q]
  rfl

/-- An index of the output array lies in point t's block iff each coordinate is in the block's range. -/
theorem mem_blk2_2 (t : Fin cfg2.N) (i : S4096x819.Idx) :
    i ∈ ((cfg2.win 2).blk t).view.set ↔ ∀ a : Fin 2, win2_2.index t a * S1024x819.size a ≤ (i a).val ∧ (i a).val < win2_2.index t a * S1024x819.size a + S1024x819.size a := by
  show i ∈ ((View.whole main_v5).slice (win2_2.rect t)).set ↔ _
  rw [View.set_slice_whole, Rect.mem_set_unit]
  exact Iff.rfl

/-- Row r of the output lies in the block written back at point 4·(r / 1024) + 3. -/
theorem cover2 (i : S4096x819.Idx) : ∃ t : Fin cfg2.N, (cfg2.win 2).flush t = true ∧ i ∈ ((cfg2.win 2).blk t).view.set := by
  have hi0 : (i 0).val < 4096 := (i 0).isLt
  have hi1 : (i 1).val < 819 := (i 1).isLt
  have hN := gridN2_eq
  refine ⟨⟨4 * ((i 0).val / 1024) + 3, by omega⟩, (flush2_2 _).mpr (by show (4 * ((i 0).val / 1024) + 3) % 4 = 3; omega), ?_⟩
  rw [mem_blk2_2]
  obtain ⟨-, -, -, -, e0, e1⟩ := idx_facts2 ⟨4 * ((i 0).val / 1024) + 3, by omega⟩
  intro a
  match a with
  | ⟨0, _⟩ =>
    show win2_2.index _ (0 : Fin 2) * 1024 ≤ (i 0).val ∧ (i 0).val < win2_2.index _ (0 : Fin 2) * 1024 + 1024
    rw [e0]; dsimp only; omega
  | ⟨1, _⟩ =>
    show win2_2.index _ (1 : Fin 2) * 819 ≤ (i 1).val ∧ (i 1).val < win2_2.index _ (1 : Fin 2) * 819 + 819
    rw [e1]; omega

/-- So the output array ends holding A·B. -/
theorem out2_eq (c : Dev nD) : out2 V c = res2 V c :=
  (dat2 V c).arrAt_eq_of_cover 2 (res2 V c) (flushed2_eq V c) cover2

/-- THE VALUE OF LAUNCH 2, in matrix form: the output is the product of the two input matrices. -/
theorem out2_value (c : Dev nD) :
    GcnSpec.toMat (out2 V c : S4096x819.Idx → EReal)
      = GcnSpec.mm (GcnSpec.toMat (V c main_v0 : S4096x4096.Idx → EReal)) (GcnSpec.toMat (V c main_v4 : S4096x819.Idx → EReal)) := by
  rw [out2_eq V c]
  exact toMat_prodG (arrA2 V c) (arrB2 V c)

end Final

end Cert.KernelIdeal.Hand

end
-- ==== Proof.KI.R03ValueA.lean ====
/-
  Launch 3 computes out = tanh(A·B + bias) for A with 819 columns, B 819 × 819 and a bias row, one row block of A
  per grid point: the point t multiplies A's row block t by the whole of B into an accumulator reset at that point,
  and stores tanh(accumulator + bias) into the output's row block t. This module reads the body's three pure terms
  at an index over the extended reals and reads a window's block at an index of its array; nothing here depends on
  the symbolic run.
-/
import proofs.«113214_j66838281060556_2_alg».proof.Proof.Gen.KernelIdeal.Launch
import proofs.«113214_j66838281060556_2_alg».proof.Proof.Gen.KernelIdeal.Skeleton
import proofs.«113214_j66838281060556_2_alg».proof.Proof.Gen.KernelIdeal.Points
import proofs.«113214_j66838281060556_2_alg».proof.Proof.GcnSpec
import proofs.«113214_j66838281060556_2_alg».proof.Proof.GcnAlgebra
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.ValueIdx (ix2 eq_ix2)

/-! ## The body's pure terms at an index, over the extended reals -/

/-- The product's contraction record, by a short name. -/
abbrev D3 : DotDims S1024x819 S819x819 S1024x819 := dot_S1024x819_S819x819_S1024x819_1_0_0_1_n_n

theorem lhs_D3_0 (i : S1024x819.Idx) (q : dot_S1024x819_S819x819_S1024x819_1_0_0_1_n_n.contr.Idx) :
    (dot_S1024x819_S819x819_S1024x819_1_0_0_1_n_n.lhsIdx i q 0).val = (i 0).val := by
  unfold DotDims.lhsIdx
  rw [dif_neg (show ¬(0 : Fin S1024x819.rank) ∈ dot_S1024x819_S819x819_S1024x819_1_0_0_1_n_n.lhsBatch by decide), dif_pos (show (0 : Fin S1024x819.rank) ∈ dot_S1024x819_S819x819_S1024x819_1_0_0_1_n_n.lhsNonContracting by decide)]
  rfl
theorem lhs_D3_1 (i : S1024x819.Idx) (q : dot_S1024x819_S819x819_S1024x819_1_0_0_1_n_n.contr.Idx) :
    (dot_S1024x819_S819x819_S1024x819_1_0_0_1_n_n.lhsIdx i q 1).val = (q ⟨0, by decide⟩).val :=
  dot_S1024x819_S819x819_S1024x819_1_0_0_1_n_n.lhsIdx_val_of_single rfl i q
theorem rhs_D3_0 (i : S1024x819.Idx) (q : dot_S1024x819_S819x819_S1024x819_1_0_0_1_n_n.contr.Idx) :
    (dot_S1024x819_S819x819_S1024x819_1_0_0_1_n_n.rhsIdx i q 0).val = (q ⟨0, by decide⟩).val :=
  dot_S1024x819_S819x819_S1024x819_1_0_0_1_n_n.rhsIdx_val_of_single rfl i q
theorem rhs_D3_1 (i : S1024x819.Idx) (q : dot_S1024x819_S819x819_S1024x819_1_0_0_1_n_n.contr.Idx) :
    (dot_S1024x819_S819x819_S1024x819_1_0_0_1_n_n.rhsIdx i q 1).val = (i 1).val := by
  unfold DotDims.rhsIdx
  rw [dif_neg (show ¬(1 : Fin S819x819.rank) ∈ dot_S1024x819_S819x819_S1024x819_1_0_0_1_n_n.rhsBatch by decide), dif_pos (show (1 : Fin S819x819.rank) ∈ dot_S1024x819_S819x819_S1024x819_1_0_0_1_n_n.rhsNonContracting by decide)]
  rfl

/-- The block product at (p, q) is the sum over the 819 contracted columns. -/
theorem matmul3_apply (x0 : Vec Ideal S1024x819 .bf16) (x1 : Vec Ideal S819x819 .bf16) (p : Fin 1024) (q : Fin 819) :
    matmul (F := Ideal) (φ₁ := .bf16) (φ₂ := .bf16) dot_S1024x819_S819x819_S1024x819_1_0_0_1_n_n none x0 x1 (constant S1024x819 .f32 0x00000000#32) (ix2 p q)
      = ∑ l : Fin 819, x0 (ix2 p l) * x1 (ix2 l q) := by
  refine (Ideal.matmul_constant_zero_apply (φ₁ := .bf16) (φ₂ := .bf16) dot_S1024x819_S819x819_S1024x819_1_0_0_1_n_n none x0 x1 (ix2 p q)).trans ?_
  rw [← Equiv.sum_comp (ValueIdx.contrEquiv1 dot_S1024x819_S819x819_S1024x819_1_0_0_1_n_n 819 rfl rfl).symm]
  refine Finset.sum_congr rfl fun k _ => ?_
  have hk := ValueIdx.contrEquiv1_symm_val dot_S1024x819_S819x819_S1024x819_1_0_0_1_n_n 819 rfl rfl k
  have el : dot_S1024x819_S819x819_S1024x819_1_0_0_1_n_n.lhsIdx (ix2 p q) ((ValueIdx.contrEquiv1 dot_S1024x819_S819x819_S1024x819_1_0_0_1_n_n 819 rfl rfl).symm k) = ix2 p k := funext fun a => Fin.ext (by
    match a with
    | ⟨0, _⟩ => exact lhs_D3_0 _ _
    | ⟨1, _⟩ => exact (lhs_D3_1 _ _).trans hk)
  have er : dot_S1024x819_S819x819_S1024x819_1_0_0_1_n_n.rhsIdx (ix2 p q) ((ValueIdx.contrEquiv1 dot_S1024x819_S819x819_S1024x819_1_0_0_1_n_n 819 rfl rfl).symm k) = ix2 k q := funext fun a => Fin.ext (by
    match a with
    | ⟨0, _⟩ => exact (rhs_D3_0 _ _).trans hk
    | ⟨1, _⟩ => exact rhs_D3_1 _ _)
  rw [el, er]

/-- The reset block is zero everywhere. -/
theorem pay1_3_apply (p : Fin 1024) (q : Fin 819) : k3_pay1 (F := Ideal) (ix2 p q) = 0 := by
  unfold k3_pay1
  simp only [shapeCast_self]
  exact Ideal.ofBits_zero_f32

/-- The update adds the block product to what the accumulator held; the right factor's change of format is the
    identity on the extended reals. -/
theorem pay2_3_apply (x0 : Vec Ideal S1024x819 .bf16) (x1 : Vec Ideal S819x819 .f32) (xs : Vec Ideal S1024x819 .f32)
    (p : Fin 1024) (q : Fin 819) :
    k3_pay2 (F := Ideal) x0 x1 xs (ix2 p q) = xs (ix2 p q) + ∑ l : Fin 819, x0 (ix2 p l) * x1 (ix2 l q) := by
  unfold k3_pay2
  simp only [shapeCast_self]
  exact congrArg (xs (ix2 p q) + ·) (matmul3_apply x0 x1 p q)

/-- The stored output block is tanh of the accumulator plus the bias row. -/
theorem pay3_3_apply (v16 : Vec Ideal S1024x819 .f32) (v17 : Vec Ideal S1x819 .f32) (p : Fin 1024) (q : Fin 819) :
    k3_pay3 (F := Ideal) v16 v17 (ix2 p q) = Ideal.tanh (v16 (ix2 p q) + v17 (ix2 (0 : Fin 1) q)) := by
  unfold k3_pay3
  simp only [shapeCast_self]
  refine congrArg (fun z => Ideal.tanh (v16 (ix2 p q) + z)) ?_
  exact broadcastTo_apply v17 broadcasts_S1x819_S1024x819 (ix2 p q) (ix2 (0 : Fin 1) q) (fun a => by
    match a with
    | ⟨0, _⟩ => rfl
    | ⟨1, _⟩ => rfl)

/-! ## A window's block at an index of its array -/

theorem N3_eq : cfg3.N = 4 := N_3

/-- The printed index maps, decided over the grid's points: the left factor's block is (t, 0), the right factor's
    and the bias row's (0, 0), the output's (t, 0). -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

section Blocks

variable {F : FTy → Type}

/-- Entry (p, l) of the left factor's block at point t is the array at row t·1024 + p, column l. -/
theorem read_blk3_0 (X : Vec F S4096x819 .bf16) (t : Fin cfg3.N) (p : Fin 1024) (l : Fin 819) :
    (((cfg3.win 0).blk t).view.read (Elt F) X : Vec F S1024x819 .bf16) (ix2 p l)
      = X (ix2 (⟨t.val * 1024 + p.val, by have := t.isLt; have := N3_eq; omega⟩ : Fin 4096) l) := by
  obtain ⟨e0, e1, -⟩ := idx_facts3 t
  rw [View.read_apply]
  show X _ = X _
  congr 1
  funext a
  apply Fin.ext
  match a with
  | ⟨0, _⟩ => show win3_0.index t (0 : Fin 2) * 1024 + 1 * p.val = t.val * 1024 + p.val; rw [e0]; omega
  | ⟨1, _⟩ => show win3_0.index t (1 : Fin 2) * 819 + 1 * l.val = l.val; rw [e1]; omega

/-- The right factor's block at any point is the whole array. -/
theorem read_blk3_1 (X : Vec F S819x819 .f32) (t : Fin cfg3.N) (l : Fin 819) (q : Fin 819) :
    (((cfg3.win 1).blk t).view.read (Elt F) X : Vec F S819x819 .f32) (ix2 l q) = X (ix2 l q) := by
  obtain ⟨-, -, e0, e1, -⟩ := idx_facts3 t
  rw [View.read_apply]
  show X _ = X _
  congr 1
  funext a
  apply Fin.ext
  match a with
  | ⟨0, _⟩ => show win3_1.index t (0 : Fin 2) * 819 + 1 * l.val = l.val; rw [e0]; omega
  | ⟨1, _⟩ => show win3_1.index t (1 : Fin 2) * 819 + 1 * q.val = q.val; rw [e1]; omega

/-- The bias window's block at any point is the whole bias row. -/
theorem read_blk3_2 (X : Vec F S1x819 .f32) (t : Fin cfg3.N) (q : Fin 819) :
    (((cfg3.win 2).blk t).view.read (Elt F) X : Vec F S1x819 .f32) (ix2 (0 : Fin 1) q) = X (ix2 (0 : Fin 1) q) := by
  obtain ⟨-, -, -, -, e0, e1, -⟩ := idx_facts3 t
  rw [View.read_apply]
  show X _ = X _
  congr 1
  funext a
  apply Fin.ext
  match a with
  | ⟨0, _⟩ => show win3_2.index t (0 : Fin 2) * 1 + 1 * (0 : Fin 1).val = (0 : Fin 1).val; rw [e0]; rfl
  | ⟨1, _⟩ => show win3_2.index t (1 : Fin 2) * 819 + 1 * q.val = q.val; rw [e1]; omega

/-- Entry (p, q) of the output's block at point t is the output at row t·1024 + p, column q. -/
theorem read_blk3_3 (X : Vec F S4096x819 .f32) (t : Fin cfg3.N) (p : Fin 1024) (q : Fin 819) :
    (((cfg3.win 3).blk t).view.read (Elt F) X : Vec F S1024x819 .f32) (ix2 p q)
      = X (ix2 (⟨t.val * 1024 + p.val, by have := t.isLt; have := N3_eq; omega⟩ : Fin 4096) q) := by
  obtain ⟨-, -, -, -, -, -, e0, e1⟩ := idx_facts3 t
  rw [View.read_apply]
  show X _ = X _
  congr 1
  funext a
  apply Fin.ext
  match a with
  | ⟨0, _⟩ => show win3_3.index t (0 : Fin 2) * 1024 + 1 * p.val = t.val * 1024 + p.val; rw [e0]; omega
  | ⟨1, _⟩ => show win3_3.index t (1 : Fin 2) * 819 + 1 * q.val = q.val; rw [e1]; omega

end Blocks

/-! ## The result, index by index -/

/-- What the output array holds after the launch: tanh of row i of A·B plus the bias row, at column j. -/
def G3 (A : Vec Ideal S4096x819 .bf16) (B : Vec Ideal S819x819 .f32) (bias : Vec Ideal S1x819 .f32) : Vec Ideal S4096x819 .f32 :=
  fun y => Ideal.tanh ((∑ k : Fin 819, A (ix2 (y 0) k) * B (ix2 k (y 1))) + bias (ix2 (0 : Fin 1) (y 1)))

/-- In matrix form it is tanh(A·B + bias), the bias broadcast down the rows. -/
theorem toMat_G3 (A : Vec Ideal S4096x819 .bf16) (B : Vec Ideal S819x819 .f32) (bias : Vec Ideal S1x819 .f32) :
    GcnSpec.toMat (G3 A B bias)
      = GcnSpec.tanhB (GcnSpec.mm (GcnSpec.toMat A) (GcnSpec.toMat B)) (fun j => bias (ix2 (0 : Fin 1) j)) := rfl

end Cert.KernelIdeal.Hand

end
-- ==== Proof.KI.R03Value.lean ====
/-
  The value of launch 3: out = tanh(A·B + bias). The symbolic run left the list of pieces stored into the output
  block; it is read back as the body's three pure terms of the staged blocks: the accumulator reset, the product of
  the two staged blocks added, tanh of that sum plus the bias row stored. One point's block is thus a row block of
  the result; those blocks cover the output array, and so the array ends holding the result.
-/
import proofs.«113214_j66838281060556_2_alg».proof.Proof.KI.R03
import proofs.«113214_j66838281060556_2_alg».proof.Proof.KI.R03ValueA
import proofs.«113214_j66838281060556_2_alg».proof.Proof.GcnSpec
import proofs.«113214_j66838281060556_2_alg».proof.Proof.GcnAlgebra
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat)
open Idealize.ShloMosaic.ValueIdx (ix2 eq_ix2)

/-! ## What a point stores, as the body's pure terms -/

section Pieces
variable {F : FTy → Type} [FloatOps F]
variable (V : (c : Dev nD) → (b : Ref sig .tc) → Buf (Elt F) ((c : Thread nD τ).loc b))

theorem hz3 : (![0, 0] : Fin 2 → Nat) = fun _ => 0 := funext fun a => by fin_cases a <;> rfl

/-- The accumulator read whole gives back the contents it is held at. -/
theorem scM3_read_unread (h : (scM3 : Memref sig .tc .vmem S1024x819 .f32).IsWhole) (xs : Vec F S1024x819 .f32) :
    View.read (Elt F) (View.whole cc3_scratch0) (h.unread xs) = xs := h.read_unread xs

/-- The output block a point stores: the accumulator is reset, read back, updated by the product of the two staged
    blocks, read back, and the stored term of it and the bias block is what the output's buffer holds. -/
theorem outO3_eq (c : Dev nD) (t : Fin cfg3.N) :
    out3 V c t = k3_pay3 (k3_pay2 (iblk3 V c 0 t) (iblk3 V c 1 t) (k3_pay1 (F := F))) (iblk3 V c 2 t) := by
  unfold out3
  rw [View.read_writes_eq_canon _ _ _ (coverO3 V c t)]
  unfold run3
  dsimp only
  sl_unfold_words
  rw [View.canon_unit_zero hz3]
  simp only [View.readAt_eq_ld, Memref.IsWhole.read_unread, scM3_read_unread, View.ld_unit_zero (S := S1024x819) hz3, View.ld_unit_zero (S := S819x819) hz3,
    View.ld_unit_zero (S := S1x819) hz3, View.readCov_unit_zero (S := S1024x819) _ hz3, View.readCov_cons_toLoadRect]

end Pieces

/-! ## The stored block, over the extended reals -/

section Value
variable (V : (c : Dev nD) → (b : Ref sig .tc) → Buf (Elt Ideal) ((c : Thread nD τ).loc b))

/-- The three arrays the launch reads, at their literal types: A, B and the bias row. -/
abbrev arrA3 (c : Dev nD) : Vec Ideal S4096x819 .bf16 := V c main_v5
abbrev arrB3 (c : Dev nD) : Vec Ideal S819x819 .f32 := V c main_arg7
abbrev arrC3 (c : Dev nD) : Vec Ideal S1x819 .f32 := V c main_v6
/-- The blocks the three input windows stage at a point, at their literal types. -/
abbrev blkA3 (c : Dev nD) (t : Fin cfg3.N) : Vec Ideal S1024x819 .bf16 := iblk3 V c 0 t
abbrev blkB3 (c : Dev nD) (t : Fin cfg3.N) : Vec Ideal S819x819 .f32 := iblk3 V c 1 t
abbrev blkC3 (c : Dev nD) (t : Fin cfg3.N) : Vec Ideal S1x819 .f32 := iblk3 V c 2 t

theorem blkA3_apply (c : Dev nD) (t : Fin cfg3.N) (p : Fin 1024) (l : Fin 819) :
    blkA3 V c t (ix2 p l) = arrA3 V c (ix2 (⟨t.val * 1024 + p.val, by have := t.isLt; have := N3_eq; omega⟩ : Fin 4096) l) :=
  read_blk3_0 (F := Ideal) (arrA3 V c) t p l

theorem blkB3_apply (c : Dev nD) (t : Fin cfg3.N) (l : Fin 819) (q : Fin 819) :
    blkB3 V c t (ix2 l q) = arrB3 V c (ix2 l q) :=
  read_blk3_1 (F := Ideal) (arrB3 V c) t l q

theorem blkC3_apply (c : Dev nD) (t : Fin cfg3.N) (q : Fin 819) :
    blkC3 V c t (ix2 (0 : Fin 1) q) = arrC3 V c (ix2 (0 : Fin 1) q) :=
  read_blk3_2 (F := Ideal) (arrC3 V c) t q

/-- The block a point stores is, at (p, q), tanh of row t·1024 + p of A·B at column q plus the bias there. -/
theorem out3_pt (c : Dev nD) (t : Fin cfg3.N) (p : Fin 1024) (q : Fin 819) :
    out3 V c t (ix2 p q)
      = Ideal.tanh ((∑ l : Fin 819, arrA3 V c (ix2 (⟨t.val * 1024 + p.val, by have := t.isLt; have := N3_eq; omega⟩ : Fin 4096) l) * arrB3 V c (ix2 l q))
          + arrC3 V c (ix2 (0 : Fin 1) q)) := by
  refine (congrFun (outO3_eq (F := Ideal) V c t) (ix2 p q)).trans ?_
  refine (pay3_3_apply (k3_pay2 (blkA3 V c t) (blkB3 V c t) (k3_pay1 (F := Ideal))) (blkC3 V c t) p q).trans ?_
  rw [pay2_3_apply (blkA3 V c t) (blkB3 V c t) (k3_pay1 (F := Ideal)) p q, pay1_3_apply p q, zero_add, blkC3_apply V c t q]
  refine congrArg (fun z => Ideal.tanh (z + arrC3 V c (ix2 (0 : Fin 1) q))) ?_
  exact Finset.sum_congr rfl fun l _ => by rw [blkA3_apply, blkB3_apply]

end Value

/-! ## From the flushed blocks to the output array -/

section Final
variable (V : (c : Dev nD) → (b : Ref sig .tc) → Buf (Elt Ideal) ((c : Thread nD τ).loc b))

/-- What the launch leaves in the output array: tanh(A·B + bias), index by index. -/
abbrev res3 (c : Dev nD) : Vec Ideal S4096x819 .f32 := G3 (arrA3 V c) (arrB3 V c) (arrC3 V c)

/-- The block a point writes back is that point's row block of the result. -/
theorem flushed3_eq (c : Dev nD) (t : Fin cfg3.N) (hf : (cfg3.win 3).flush t = true) :
    (dat3 V c).flushed 3 t = ((cfg3.win 3).blk t).view.read (Elt Ideal) (res3 V c) := by
  have hN := N3_eq
  have ht := t.isLt
  show (cfg3.win 3).cut (grid3.coords t) ((dat3 V c).after 3 t) = _
  rw [after3_3]
  refine funext fun (y : S1024x819.Idx) => ?_
  obtain ⟨p, q, rfl⟩ : ∃ (p : Fin 1024) (q : Fin 819), y = ix2 p q := ⟨y 0, y 1, eq_ix2 y⟩
  show out3 V c t (ix2 p q) = (((cfg3.win 3).blk t).view.read (Elt Ideal) (res3 V c) : Vec Ideal S1024x819 .f32) (ix2 p q)
  rw [out3_pt V c t p q, read_blk3_3 (F := Ideal) (res3 V c) t p q]
  rfl

/-- An index of the output array lies in point t's block iff each coordinate is in the block's range. -/
theorem mem_blk3_3 (t : Fin cfg3.N) (i : S4096x819.Idx) :
    i ∈ ((cfg3.win 3).blk t).view.set ↔ ∀ a : Fin 2, win3_3.index t a * S1024x819.size a ≤ (i a).val ∧ (i a).val < win3_3.index t a * S1024x819.size a + S1024x819.size a := by
  show i ∈ ((View.whole main_v7).slice (win3_3.rect t)).set ↔ _
  rw [View.set_slice_whole, Rect.mem_set_unit]
  exact Iff.rfl

/-- Row r of the output lies in the block written back at point r / 1024. -/
theorem cover3 (i : S4096x819.Idx) : ∃ t : Fin cfg3.N, (cfg3.win 3).flush t = true ∧ i ∈ ((cfg3.win 3).blk t).view.set := by
  have hi0 : (i 0).val < 4096 := (i 0).isLt
  have hi1 : (i 1).val < 819 := (i 1).isLt
  have hN := N3_eq
  refine ⟨⟨(i 0).val / 1024, by omega⟩, flush3_3 _, ?_⟩
  rw [mem_blk3_3]
  obtain ⟨-, -, -, -, -, -, e0, e1⟩ := idx_facts3 ⟨(i 0).val / 1024, by omega⟩
  intro a
  match a with
  | ⟨0, _⟩ =>
    show win3_3.index _ (0 : Fin 2) * 1024 ≤ (i 0).val ∧ (i 0).val < win3_3.index _ (0 : Fin 2) * 1024 + 1024
    rw [e0]; dsimp only; omega
  | ⟨1, _⟩ =>
    show win3_3.index _ (1 : Fin 2) * 819 ≤ (i 1).val ∧ (i 1).val < win3_3.index _ (1 : Fin 2) * 819 + 819
    rw [e1]; omega

/-- So the output array ends holding tanh(A·B + bias). -/
theorem out3arr_eq (c : Dev nD) : out3arr V c = res3 V c :=
  (dat3 V c).arrAt_eq_of_cover 3 (res3 V c) (flushed3_eq V c) cover3

/-- THE VALUE OF LAUNCH 3, in matrix form: the output is tanh of the product of the two input matrices plus the
    bias row broadcast down the rows. -/
theorem out3_value (c : Dev nD) :
    GcnSpec.toMat (out3arr V c : S4096x819.Idx → EReal)
      = GcnSpec.tanhB (GcnSpec.mm (GcnSpec.toMat (V c main_v5 : S4096x819.Idx → EReal)) (GcnSpec.toMat (V c main_arg7 : S819x819.Idx → EReal)))
          (fun j => (V c main_v6 : S1x819.Idx → EReal) (ix2 (0 : Fin 1) j)) := by
  rw [out3arr_eq V c]
  exact toMat_G3 (arrA3 V c) (arrB3 V c) (arrC3 V c)

end Final

end Cert.KernelIdeal.Hand

end
-- ==== Proof.KI.R04ValueA.lean ====
/-
  Launch 4 computes out = A·B, one row block of A per grid point: the point t multiplies A's row block t by the
  whole of B into an accumulator reset at that point, and stores the accumulator, converted to the output's format,
  into the output's row block t. This module reads the body's three pure terms at an index over the extended reals
  (where a change of format is the identity) and reads a window's block at an index of its array; nothing here
  depends on the symbolic run.
-/
import proofs.«113214_j66838281060556_2_alg».proof.Proof.Gen.KernelIdeal.Launch
import proofs.«113214_j66838281060556_2_alg».proof.Proof.Gen.KernelIdeal.Skeleton
import proofs.«113214_j66838281060556_2_alg».proof.Proof.Gen.KernelIdeal.Points
import proofs.«113214_j66838281060556_2_alg».proof.Proof.GcnSpec
import proofs.«113214_j66838281060556_2_alg».proof.Proof.GcnAlgebra
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.ValueIdx (ix2 eq_ix2)

/-! ## The body's pure terms at an index, over the extended reals -/

/-- The product's contraction record, by a short name. -/
abbrev D4 : DotDims S1024x1280 S1280x1024 S1024x1024 := dot_S1024x1280_S1280x1024_S1024x1024_1_0_0_1_n_n

theorem lhs_D4_0 (i : S1024x1024.Idx) (q : dot_S1024x1280_S1280x1024_S1024x1024_1_0_0_1_n_n.contr.Idx) :
    (dot_S1024x1280_S1280x1024_S1024x1024_1_0_0_1_n_n.lhsIdx i q 0).val = (i 0).val := by
  unfold DotDims.lhsIdx
  rw [dif_neg (show ¬(0 : Fin S1024x1280.rank) ∈ dot_S1024x1280_S1280x1024_S1024x1024_1_0_0_1_n_n.lhsBatch by decide), dif_pos (show (0 : Fin S1024x1280.rank) ∈ dot_S1024x1280_S1280x1024_S1024x1024_1_0_0_1_n_n.lhsNonContracting by decide)]
  rfl
theorem lhs_D4_1 (i : S1024x1024.Idx) (q : dot_S1024x1280_S1280x1024_S1024x1024_1_0_0_1_n_n.contr.Idx) :
    (dot_S1024x1280_S1280x1024_S1024x1024_1_0_0_1_n_n.lhsIdx i q 1).val = (q ⟨0, by decide⟩).val :=
  dot_S1024x1280_S1280x1024_S1024x1024_1_0_0_1_n_n.lhsIdx_val_of_single rfl i q
theorem rhs_D4_0 (i : S1024x1024.Idx) (q : dot_S1024x1280_S1280x1024_S1024x1024_1_0_0_1_n_n.contr.Idx) :
    (dot_S1024x1280_S1280x1024_S1024x1024_1_0_0_1_n_n.rhsIdx i q 0).val = (q ⟨0, by decide⟩).val :=
  dot_S1024x1280_S1280x1024_S1024x1024_1_0_0_1_n_n.rhsIdx_val_of_single rfl i q
theorem rhs_D4_1 (i : S1024x1024.Idx) (q : dot_S1024x1280_S1280x1024_S1024x1024_1_0_0_1_n_n.contr.Idx) :
    (dot_S1024x1280_S1280x1024_S1024x1024_1_0_0_1_n_n.rhsIdx i q 1).val = (i 1).val := by
  unfold DotDims.rhsIdx
  rw [dif_neg (show ¬(1 : Fin S1280x1024.rank) ∈ dot_S1024x1280_S1280x1024_S1024x1024_1_0_0_1_n_n.rhsBatch by decide), dif_pos (show (1 : Fin S1280x1024.rank) ∈ dot_S1024x1280_S1280x1024_S1024x1024_1_0_0_1_n_n.rhsNonContracting by decide)]
  rfl

/-- The block product at (p, q) is the sum over the 1280 contracted columns. -/
theorem matmul4_apply (x0 : Vec Ideal S1024x1280 .bf16) (x1 : Vec Ideal S1280x1024 .bf16) (p : Fin 1024) (q : Fin 1024) :
    matmul (F := Ideal) (φ₁ := .bf16) (φ₂ := .bf16) dot_S1024x1280_S1280x1024_S1024x1024_1_0_0_1_n_n none x0 x1 (constant S1024x1024 .f32 0x00000000#32) (ix2 p q)
      = ∑ l : Fin 1280, x0 (ix2 p l) * x1 (ix2 l q) := by
  refine (Ideal.matmul_constant_zero_apply (φ₁ := .bf16) (φ₂ := .bf16) dot_S1024x1280_S1280x1024_S1024x1024_1_0_0_1_n_n none x0 x1 (ix2 p q)).trans ?_
  rw [← Equiv.sum_comp (ValueIdx.contrEquiv1 dot_S1024x1280_S1280x1024_S1024x1024_1_0_0_1_n_n 1280 rfl rfl).symm]
  refine Finset.sum_congr rfl fun k _ => ?_
  have hk := ValueIdx.contrEquiv1_symm_val dot_S1024x1280_S1280x1024_S1024x1024_1_0_0_1_n_n 1280 rfl rfl k
  have el : dot_S1024x1280_S1280x1024_S1024x1024_1_0_0_1_n_n.lhsIdx (ix2 p q) ((ValueIdx.contrEquiv1 dot_S1024x1280_S1280x1024_S1024x1024_1_0_0_1_n_n 1280 rfl rfl).symm k) = ix2 p k := funext fun a => Fin.ext (by
    match a with
    | ⟨0, _⟩ => exact lhs_D4_0 _ _
    | ⟨1, _⟩ => exact (lhs_D4_1 _ _).trans hk)
  have er : dot_S1024x1280_S1280x1024_S1024x1024_1_0_0_1_n_n.rhsIdx (ix2 p q) ((ValueIdx.contrEquiv1 dot_S1024x1280_S1280x1024_S1024x1024_1_0_0_1_n_n 1280 rfl rfl).symm k) = ix2 k q := funext fun a => Fin.ext (by
    match a with
    | ⟨0, _⟩ => exact (rhs_D4_0 _ _).trans hk
    | ⟨1, _⟩ => exact rhs_D4_1 _ _)
  rw [el, er]

/-- The reset block is zero everywhere. -/
theorem pay1_4_apply (p : Fin 1024) (q : Fin 1024) : k4_pay1 (F := Ideal) (ix2 p q) = 0 := by
  unfold k4_pay1
  simp only [shapeCast_self]
  exact Ideal.ofBits_zero_f32

/-- The update adds the block product to what the accumulator held; the two factors' change of format is the
    identity on the extended reals. -/
theorem pay2_4_apply (x0 : Vec Ideal S1024x1280 .f32) (x1 : Vec Ideal S1280x1024 .f32) (xs : Vec Ideal S1024x1024 .f32)
    (p : Fin 1024) (q : Fin 1024) :
    k4_pay2 (F := Ideal) x0 x1 xs (ix2 p q) = xs (ix2 p q) + ∑ l : Fin 1280, x0 (ix2 p l) * x1 (ix2 l q) := by
  unfold k4_pay2
  simp only [shapeCast_self]
  exact congrArg (xs (ix2 p q) + ·) (matmul4_apply x0 x1 p q)

/-- The stored output block is the accumulator: its change of format is the identity on the extended reals. -/
theorem pay3_4_apply (v16 : Vec Ideal S1024x1024 .f32) (p : Fin 1024) (q : Fin 1024) :
    k4_pay3 (F := Ideal) v16 (ix2 p q) = v16 (ix2 p q) := rfl

/-! ## A window's block at an index of its array -/

theorem N4_eq : cfg4.N = 4 := N_4

/-- The printed index maps, decided over the grid's points: the left factor's block is (t, 0), the right factor's
    (0, 0), the output's (t, 0). -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

section Blocks

variable {F : FTy → Type}

/-- Entry (p, l) of the left factor's block at point t is the array at row t·1024 + p, column l. -/
theorem read_blk4_0 (X : Vec F S4096x1280 .f32) (t : Fin cfg4.N) (p : Fin 1024) (l : Fin 1280) :
    (((cfg4.win 0).blk t).view.read (Elt F) X : Vec F S1024x1280 .f32) (ix2 p l)
      = X (ix2 (⟨t.val * 1024 + p.val, by have := t.isLt; have := N4_eq; omega⟩ : Fin 4096) l) := by
  obtain ⟨e0, e1, -⟩ := idx_facts4 t
  rw [View.read_apply]
  show X _ = X _
  congr 1
  funext a
  apply Fin.ext
  match a with
  | ⟨0, _⟩ => show win4_0.index t (0 : Fin 2) * 1024 + 1 * p.val = t.val * 1024 + p.val; rw [e0]; omega
  | ⟨1, _⟩ => show win4_0.index t (1 : Fin 2) * 1280 + 1 * l.val = l.val; rw [e1]; omega

/-- The right factor's block at any point is the whole array. -/
theorem read_blk4_1 (X : Vec F S1280x1024 .f32) (t : Fin cfg4.N) (l : Fin 1280) (q : Fin 1024) :
    (((cfg4.win 1).blk t).view.read (Elt F) X : Vec F S1280x1024 .f32) (ix2 l q) = X (ix2 l q) := by
  obtain ⟨-, -, e0, e1, -⟩ := idx_facts4 t
  rw [View.read_apply]
  show X _ = X _
  congr 1
  funext a
  apply Fin.ext
  match a with
  | ⟨0, _⟩ => show win4_1.index t (0 : Fin 2) * 1280 + 1 * l.val = l.val; rw [e0]; omega
  | ⟨1, _⟩ => show win4_1.index t (1 : Fin 2) * 1024 + 1 * q.val = q.val; rw [e1]; omega

/-- Entry (p, q) of the output's block at point t is the output at row t·1024 + p, column q. -/
theorem read_blk4_2 (X : Vec F S4096x1024 .bf16) (t : Fin cfg4.N) (p : Fin 1024) (q : Fin 1024) :
    (((cfg4.win 2).blk t).view.read (Elt F) X : Vec F S1024x1024 .bf16) (ix2 p q)
      = X (ix2 (⟨t.val * 1024 + p.val, by have := t.isLt; have := N4_eq; omega⟩ : Fin 4096) q) := by
  obtain ⟨-, -, -, -, e0, e1⟩ := idx_facts4 t
  rw [View.read_apply]
  show X _ = X _
  congr 1
  funext a
  apply Fin.ext
  match a with
  | ⟨0, _⟩ => show win4_2.index t (0 : Fin 2) * 1024 + 1 * p.val = t.val * 1024 + p.val; rw [e0]; omega
  | ⟨1, _⟩ => show win4_2.index t (1 : Fin 2) * 1024 + 1 * q.val = q.val; rw [e1]; omega

end Blocks

/-! ## The result, index by index -/

/-- What the output array holds after the launch: row i of A·B at column j. -/
def G4 (A : Vec Ideal S4096x1280 .f32) (B : Vec Ideal S1280x1024 .f32) : Vec Ideal S4096x1024 .bf16 :=
  fun y => ∑ k : Fin 1280, A (ix2 (y 0) k) * B (ix2 k (y 1))

/-- In matrix form it is A·B. -/
theorem toMat_G4 (A : Vec Ideal S4096x1280 .f32) (B : Vec Ideal S1280x1024 .f32) :
    GcnSpec.toMat (G4 A B) = GcnSpec.mm (GcnSpec.toMat A) (GcnSpec.toMat B) := rfl

end Cert.KernelIdeal.Hand

end
-- ==== Proof.KI.R04Value.lean ====
/-
  The value of launch 4: out = A·B. The symbolic run left the list of pieces stored into the output block; it is
  read back as the body's three pure terms of the staged blocks: the accumulator reset, the product of the two
  staged blocks added, that sum stored in the output's format. One point's block is thus a row block of the result;
  those blocks cover the output array, and so the array ends holding the result.
-/
import proofs.«113214_j66838281060556_2_alg».proof.Proof.KI.R04
import proofs.«113214_j66838281060556_2_alg».proof.Proof.KI.R04ValueA
import proofs.«113214_j66838281060556_2_alg».proof.Proof.GcnSpec
import proofs.«113214_j66838281060556_2_alg».proof.Proof.GcnAlgebra
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat)
open Idealize.ShloMosaic.ValueIdx (ix2 eq_ix2)

/-! ## What a point stores, as the body's pure terms -/

section Pieces
variable {F : FTy → Type} [FloatOps F]
variable (V : (c : Dev nD) → (b : Ref sig .tc) → Buf (Elt F) ((c : Thread nD τ).loc b))

theorem hz4 : (![0, 0] : Fin 2 → Nat) = fun _ => 0 := funext fun a => by fin_cases a <;> rfl

/-- The accumulator read whole gives back the contents it is held at. -/
theorem scM4_read_unread (h : (scM4 : Memref sig .tc .vmem S1024x1024 .f32).IsWhole) (xs : Vec F S1024x1024 .f32) :
    View.read (Elt F) (View.whole cc4_scratch0) (h.unread xs) = xs := h.read_unread xs

/-- The output block a point stores: the accumulator is reset, read back, updated by the product of the two staged
    blocks, read back, and the stored term of it is what the output's buffer holds. -/
theorem outO4_eq (c : Dev nD) (t : Fin cfg4.N) :
    out4 V c t = k4_pay3 (k4_pay2 (iblk4 V c 0 t) (iblk4 V c 1 t) (k4_pay1 (F := F))) := by
  unfold out4
  rw [View.read_writes_eq_canon _ _ _ (coverO4 V c t)]
  unfold run4
  dsimp only
  sl_unfold_words
  rw [View.canon_unit_zero hz4]
  simp only [View.readAt_eq_ld, Memref.IsWhole.read_unread, scM4_read_unread, View.ld_unit_zero (S := S1024x1280) hz4, View.ld_unit_zero (S := S1280x1024) hz4,
    View.readCov_unit_zero (S := S1024x1024) _ hz4, View.readCov_cons_toLoadRect]

end Pieces

/-! ## The stored block, over the extended reals -/

section Value
variable (V : (c : Dev nD) → (b : Ref sig .tc) → Buf (Elt Ideal) ((c : Thread nD τ).loc b))

/-- The two arrays the launch reads, at their literal types: A and B. -/
abbrev arrA4 (c : Dev nD) : Vec Ideal S4096x1280 .f32 := V c main_arg1
abbrev arrB4 (c : Dev nD) : Vec Ideal S1280x1024 .f32 := V c main_arg9
/-- The blocks the two input windows stage at a point, at their literal types. -/
abbrev blkA4 (c : Dev nD) (t : Fin cfg4.N) : Vec Ideal S1024x1280 .f32 := iblk4 V c 0 t
abbrev blkB4 (c : Dev nD) (t : Fin cfg4.N) : Vec Ideal S1280x1024 .f32 := iblk4 V c 1 t

theorem blkA4_apply (c : Dev nD) (t : Fin cfg4.N) (p : Fin 1024) (l : Fin 1280) :
    blkA4 V c t (ix2 p l) = arrA4 V c (ix2 (⟨t.val * 1024 + p.val, by have := t.isLt; have := N4_eq; omega⟩ : Fin 4096) l) :=
  read_blk4_0 (F := Ideal) (arrA4 V c) t p l

theorem blkB4_apply (c : Dev nD) (t : Fin cfg4.N) (l : Fin 1280) (q : Fin 1024) :
    blkB4 V c t (ix2 l q) = arrB4 V c (ix2 l q) :=
  read_blk4_1 (F := Ideal) (arrB4 V c) t l q

/-- The block a point stores is, at (p, q), row t·1024 + p of A·B at column q. -/
theorem out4_pt (c : Dev nD) (t : Fin cfg4.N) (p : Fin 1024) (q : Fin 1024) :
    out4 V c t (ix2 p q)
      = ∑ l : Fin 1280, arrA4 V c (ix2 (⟨t.val * 1024 + p.val, by have := t.isLt; have := N4_eq; omega⟩ : Fin 4096) l) * arrB4 V c (ix2 l q) := by
  refine (congrFun (outO4_eq (F := Ideal) V c t) (ix2 p q)).trans ?_
  refine (pay3_4_apply (k4_pay2 (blkA4 V c t) (blkB4 V c t) (k4_pay1 (F := Ideal))) p q).trans ?_
  rw [pay2_4_apply (blkA4 V c t) (blkB4 V c t) (k4_pay1 (F := Ideal)) p q, pay1_4_apply p q, zero_add]
  exact Finset.sum_congr rfl fun l _ => by rw [blkA4_apply, blkB4_apply]

end Value

/-! ## From the flushed blocks to the output array -/

section Final
variable (V : (c : Dev nD) → (b : Ref sig .tc) → Buf (Elt Ideal) ((c : Thread nD τ).loc b))

/-- What the launch leaves in the output array: A·B, index by index. -/
abbrev res4 (c : Dev nD) : Vec Ideal S4096x1024 .bf16 := G4 (arrA4 V c) (arrB4 V c)

/-- The block a point writes back is that point's row block of the result. -/
theorem flushed4_eq (c : Dev nD) (t : Fin cfg4.N) (hf : (cfg4.win 2).flush t = true) :
    (dat4 V c).flushed 2 t = ((cfg4.win 2).blk t).view.read (Elt Ideal) (res4 V c) := by
  have hN := N4_eq
  have ht := t.isLt
  show (cfg4.win 2).cut (grid4.coords t) ((dat4 V c).after 2 t) = _
  rw [after4_2]
  refine funext fun (y : S1024x1024.Idx) => ?_
  obtain ⟨p, q, rfl⟩ : ∃ (p : Fin 1024) (q : Fin 1024), y = ix2 p q := ⟨y 0, y 1, eq_ix2 y⟩
  show out4 V c t (ix2 p q) = (((cfg4.win 2).blk t).view.read (Elt Ideal) (res4 V c) : Vec Ideal S1024x1024 .bf16) (ix2 p q)
  rw [out4_pt V c t p q, read_blk4_2 (F := Ideal) (res4 V c) t p q]
  rfl

/-- An index of the output array lies in point t's block iff each coordinate is in the block's range. -/
theorem mem_blk4_2 (t : Fin cfg4.N) (i : S4096x1024.Idx) :
    i ∈ ((cfg4.win 2).blk t).view.set ↔ ∀ a : Fin 2, win4_2.index t a * S1024x1024.size a ≤ (i a).val ∧ (i a).val < win4_2.index t a * S1024x1024.size a + S1024x1024.size a := by
  show i ∈ ((View.whole main_v8).slice (win4_2.rect t)).set ↔ _
  rw [View.set_slice_whole, Rect.mem_set_unit]
  exact Iff.rfl

/-- Row r of the output lies in the block written back at point r / 1024. -/
theorem cover4 (i : S4096x1024.Idx) : ∃ t : Fin cfg4.N, (cfg4.win 2).flush t = true ∧ i ∈ ((cfg4.win 2).blk t).view.set := by
  have hi0 : (i 0).val < 4096 := (i 0).isLt
  have hi1 : (i 1).val < 1024 := (i 1).isLt
  have hN := N4_eq
  refine ⟨⟨(i 0).val / 1024, by omega⟩, flush4_2 _, ?_⟩
  rw [mem_blk4_2]
  obtain ⟨-, -, -, -, e0, e1⟩ := idx_facts4 ⟨(i 0).val / 1024, by omega⟩
  intro a
  match a with
  | ⟨0, _⟩ =>
    show win4_2.index _ (0 : Fin 2) * 1024 ≤ (i 0).val ∧ (i 0).val < win4_2.index _ (0 : Fin 2) * 1024 + 1024
    rw [e0]; dsimp only; omega
  | ⟨1, _⟩ =>
    show win4_2.index _ (1 : Fin 2) * 1024 ≤ (i 1).val ∧ (i 1).val < win4_2.index _ (1 : Fin 2) * 1024 + 1024
    rw [e1]; omega

/-- So the output array ends holding A·B. -/
theorem out4arr_eq (c : Dev nD) : out4arr V c = res4 V c :=
  (dat4 V c).arrAt_eq_of_cover 2 (res4 V c) (flushed4_eq V c) cover4

/-- THE VALUE OF LAUNCH 4, in matrix form: the output is the product of the two input matrices. -/
theorem out4_value (c : Dev nD) :
    GcnSpec.toMat (out4arr V c : S4096x1024.Idx → EReal)
      = GcnSpec.mm (GcnSpec.toMat (V c main_arg1 : S4096x1280.Idx → EReal)) (GcnSpec.toMat (V c main_arg9 : S1280x1024.Idx → EReal)) := by
  rw [out4arr_eq V c]
  exact toMat_G4 (arrA4 V c) (arrB4 V c)

end Final

end Cert.KernelIdeal.Hand

end
-- ==== Proof.KI.R05ValueA.lean ====
/-
  Launch 5 computes out = tanh(A·B + bias) for A 4096 × 4096, B 4096 × 1024 and a bias row, block by block:
  the grid point t handles the row block t / 4 and the contraction block t % 4 (blocks of 1024), adding the
  product of A's block (t/4, t%4) and B's block (t%4, 0) into an accumulator that is reset at t % 4 = 0, and
  storing tanh(accumulator + bias) into the output's row block at t % 4 = 3. This module reads the body's three
  pure terms at an index over the extended reals and reads each window's block at an index of its array;
  nothing here depends on the symbolic runs.
-/
import proofs.«113214_j66838281060556_2_alg».proof.Proof.Gen.KernelIdeal.Launch
import proofs.«113214_j66838281060556_2_alg».proof.Proof.Gen.KernelIdeal.Skeleton
import proofs.«113214_j66838281060556_2_alg».proof.Proof.Gen.KernelIdeal.Points
import proofs.«113214_j66838281060556_2_alg».proof.Proof.KI.MatmulValue
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.ValueIdx (ix2 eq_ix2)

/-! ## The body's pure terms at an index, over the extended reals -/

/-- The reset block is zero everywhere. -/
theorem pay1_5_apply (p : Fin 1024) (q : Fin 1024) : k5_pay1 (F := Ideal) (ix2 p q) = 0 := by
  unfold k5_pay1
  simp only [shapeCast_self]
  exact Ideal.ofBits_zero_f32

/-- The update adds the block product to what the accumulator held. -/
theorem pay2_5_apply (x0 : S1024x1024.Idx → EReal) (x1 : S1024x1024.Idx → EReal) (xs : S1024x1024.Idx → EReal)
    (p : Fin 1024) (q : Fin 1024) :
    k5_pay2 (F := Ideal) x0 x1 xs (ix2 p q) = xs (ix2 p q) + ∑ l : Fin 1024, x0 (ix2 p l) * x1 (ix2 l q) := by
  unfold k5_pay2
  simp only [shapeCast_self]
  exact congrArg (xs (ix2 p q) + ·) (matmul1024_apply x0 x1 p q)

/-- The stored output block is tanh of the accumulator plus the bias row. -/
theorem pay3_5_apply (v16 : S1024x1024.Idx → EReal) (v17 : S1x1024.Idx → EReal) (p : Fin 1024) (q : Fin 1024) :
    k5_pay3 (F := Ideal) v16 v17 (ix2 p q) = Ideal.tanh (v16 (ix2 p q) + v17 (ix2 (0 : Fin 1) q)) := by
  unfold k5_pay3
  simp only [shapeCast_self]
  refine congrArg (fun z => Ideal.tanh (v16 (ix2 p q) + z)) ?_
  exact broadcastTo_apply v17 broadcasts_S1x1024_S1024x1024 (ix2 p q) (ix2 (0 : Fin 1) q) (fun a => by
    match a with
    | ⟨0, _⟩ => rfl
    | ⟨1, _⟩ => rfl)

/-! ## A window's block at an index of its array -/

theorem gridN5_eq : cfg5.N = 16 := N_5

/-- The printed index maps, decided over the sixteen points: A's block is (t / 4, t % 4), B's (t % 4, 0), the bias
    row's (0, 0), the output's (t / 4, 0). -/
theorem idx_facts5 : ∀ t : Fin cfg5.N,
    win5_0.index t (0 : Fin 2) = t.val / 4 ∧ win5_0.index t (1 : Fin 2) = t.val % 4
    ∧ win5_1.index t (0 : Fin 2) = t.val % 4 ∧ win5_1.index t (1 : Fin 2) = 0
    ∧ win5_2.index t (0 : Fin 2) = 0 ∧ win5_2.index t (1 : Fin 2) = 0
    ∧ win5_3.index t (0 : Fin 2) = t.val / 4 ∧ win5_3.index t (1 : Fin 2) = 0 :=
  (by decide +kernel : ∀ t : Fin grid5.N, _)

/-- Entry (p, l) of A's block at point t is A at row (t/4)·1024 + p, column (t%4)·1024 + l. -/
theorem read_blk5_0 (X : S4096x4096.Idx → EReal) (t : Fin cfg5.N) (p l : Fin 1024) :
    (((cfg5.win 0).blk t).view.read (Elt Ideal) X : S1024x1024.Idx → EReal) (ix2 p l)
      = X (ix2 (⟨t.val / 4 * 1024 + p.val, by have := t.isLt; have := gridN5_eq; omega⟩ : Fin 4096)
            (⟨t.val % 4 * 1024 + l.val, by omega⟩ : Fin 4096)) := by
  obtain ⟨e0, e1, -⟩ := idx_facts5 t
  rw [View.read_apply]
  show X _ = X _
  congr 1
  funext a
  apply Fin.ext
  match a with
  | ⟨0, _⟩ => show win5_0.index t (0 : Fin 2) * 1024 + 1 * p.val = t.val / 4 * 1024 + p.val; rw [e0]; omega
  | ⟨1, _⟩ => show win5_0.index t (1 : Fin 2) * 1024 + 1 * l.val = t.val % 4 * 1024 + l.val; rw [e1]; omega

/-- Entry (l, q) of B's block at point t is B at row (t%4)·1024 + l, column q. -/
theorem read_blk5_1 (X : S4096x1024.Idx → EReal) (t : Fin cfg5.N) (l : Fin 1024) (q : Fin 1024) :
    (((cfg5.win 1).blk t).view.read (Elt Ideal) X : S1024x1024.Idx → EReal) (ix2 l q)
      = X (ix2 (⟨t.val % 4 * 1024 + l.val, by omega⟩ : Fin 4096) q) := by
  obtain ⟨-, -, e0, e1, -⟩ := idx_facts5 t
  rw [View.read_apply]
  show X _ = X _
  congr 1
  funext a
  apply Fin.ext
  match a with
  | ⟨0, _⟩ => show win5_1.index t (0 : Fin 2) * 1024 + 1 * l.val = t.val % 4 * 1024 + l.val; rw [e0]; omega
  | ⟨1, _⟩ => show win5_1.index t (1 : Fin 2) * 1024 + 1 * q.val = q.val; rw [e1]; omega

/-- The bias window's block at any point is the whole bias row. -/
theorem read_blk5_2 (X : S1x1024.Idx → EReal) (t : Fin cfg5.N) (q : Fin 1024) :
    (((cfg5.win 2).blk t).view.read (Elt Ideal) X : S1x1024.Idx → EReal) (ix2 (0 : Fin 1) q) = X (ix2 (0 : Fin 1) q) := by
  obtain ⟨-, -, -, -, e0, e1, -⟩ := idx_facts5 t
  rw [View.read_apply]
  show X _ = X _
  congr 1
  funext a
  apply Fin.ext
  match a with
  | ⟨0, _⟩ => show win5_2.index t (0 : Fin 2) * 1 + 1 * (0 : Fin 1).val = (0 : Fin 1).val; rw [e0]; rfl
  | ⟨1, _⟩ => show win5_2.index t (1 : Fin 2) * 1024 + 1 * q.val = q.val; rw [e1]; omega

/-- Entry (p, q) of the output's block at point t is the output at row (t/4)·1024 + p, column q. -/
theorem read_blk5_3 (X : S4096x1024.Idx → EReal) (t : Fin cfg5.N) (p : Fin 1024) (q : Fin 1024) :
    (((cfg5.win 3).blk t).view.read (Elt Ideal) X : S1024x1024.Idx → EReal) (ix2 p q)
      = X (ix2 (⟨t.val / 4 * 1024 + p.val, by have := t.isLt; have := gridN5_eq; omega⟩ : Fin 4096) q) := by
  obtain ⟨-, -, -, -, -, -, e0, e1⟩ := idx_facts5 t
  rw [View.read_apply]
  show X _ = X _
  congr 1
  funext a
  apply Fin.ext
  match a with
  | ⟨0, _⟩ => show win5_3.index t (0 : Fin 2) * 1024 + 1 * p.val = t.val / 4 * 1024 + p.val; rw [e0]; omega
  | ⟨1, _⟩ => show win5_3.index t (1 : Fin 2) * 1024 + 1 * q.val = q.val; rw [e1]; omega

end Cert.KernelIdeal.Hand

end
-- ==== Proof.KI.R05Value.lean ====
/-
  The value of launch 5: out = tanh(A·B + bias). The symbolic runs left, per control case, lists of stored pieces;
  each is read back as one of the body's three pure terms of the staged blocks. By induction on the grid point the
  accumulator after point n holds the first n % 4 + 1 contraction blocks' part of the row block n / 4 of A·B;
  at a contraction's last block the stored output block is tanh of the whole row sum plus the bias row; those
  blocks are the row blocks of the result, they cover the output array, and so the array ends holding the result.
-/
import proofs.«113214_j66838281060556_2_alg».proof.Proof.KI.R05
import proofs.«113214_j66838281060556_2_alg».proof.Proof.KI.R05ValueA
import proofs.«113214_j66838281060556_2_alg».proof.Proof.KI.MatmulValue
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat)
open Idealize.ShloMosaic.ValueIdx (ix2 eq_ix2)

/-! ## What each case leaves, as the body's pure terms -/

section Pieces
variable {F : FTy → Type} [FloatOps F]
variable (V : (c : Dev nD) → (b : Ref sig .tc) → Buf (Elt F) ((c : Thread nD τ).loc b))

/-- The accumulator read whole gives back the contents it is held at. -/
theorem scM5_read_unread (h : (scM5 : Memref sig .tc .vmem S1024x1024 .f32).IsWhole) (xs : Vec F S1024x1024 .f32) :
    View.read (Elt F) (View.whole cc5_scratch0) (h.unread xs) = xs := h.read_unread xs

/-- A middle block: the accumulator ends at the update of what it held. -/
theorem accB5_eq (c : Dev nD) (t : Fin cfg5.N) (h0 : ¬t.val % 4 = 0) (h1 : ¬t.val % 4 = 3) (xs : Vec F S1024x1024 .f32) :
    accB5 V c t h0 h1 xs = k5_pay2 (iblk5 V c 0 t) (iblk5 V c 1 t) xs := by
  unfold accB5
  rw [View.read_writes_eq_canon _ _ _ (coverB5 V c t h0 h1 xs)]
  unfold run5_B
  dsimp only
  sl_unfold_words
  rw [View.canon_unit_zero hz00]
  simp only [View.readAt_eq_ld, Memref.IsWhole.read_unread, scM5_read_unread, View.ld_unit_zero (S := S1024x1024) hz00, View.ld_unit_zero (S := S1024x1024) hz00]

/-- A first block: the accumulator is reset, read back, and ends at the update of the zero block. -/
theorem accA5_eq (c : Dev nD) (t : Fin cfg5.N) (h0 : t.val % 4 = 0) (h1 : ¬t.val % 4 = 3) :
    accA5 V c t h0 h1 = k5_pay2 (iblk5 V c 0 t) (iblk5 V c 1 t) (k5_pay1 (F := F)) := by
  unfold accA5
  rw [View.read_writes_eq_canon _ _ _ (coverA5 V c t h0 h1)]
  unfold run5_A
  dsimp only
  sl_unfold_words
  rw [View.canon_cons_unit_zero (S := S1024x1024) hz00]
  simp only [View.readAt_eq_ld, Memref.IsWhole.read_unread, scM5_read_unread, View.ld_unit_zero (S := S1024x1024) hz00, View.ld_unit_zero (S := S1024x1024) hz00,
    View.readCov_unit_zero (S := S1024x1024) _ hz00]

/-- A last block: the accumulator ends at the update of what it held, -/
theorem accC5_eq (c : Dev nD) (t : Fin cfg5.N) (h0 : ¬t.val % 4 = 0) (h1 : t.val % 4 = 3) (xs : Vec F S1024x1024 .f32) :
    accC5 V c t h0 h1 xs = k5_pay2 (iblk5 V c 0 t) (iblk5 V c 1 t) xs := by
  unfold accC5
  rw [View.read_writes_eq_canon _ _ _ (coverCs5 V c t h0 h1 xs)]
  unfold run5_C
  dsimp only
  sl_unfold_words
  rw [View.canon_unit_zero hz00]
  simp only [View.readAt_eq_ld, Memref.IsWhole.read_unread, scM5_read_unread, View.ld_unit_zero (S := S1024x1024) hz00, View.ld_unit_zero (S := S1024x1024) hz00]

/-- and the output block is the stored term of that accumulator, read back, and the bias block. -/
theorem outC5_eq (c : Dev nD) (t : Fin cfg5.N) (h0 : ¬t.val % 4 = 0) (h1 : t.val % 4 = 3) (xs : Vec F S1024x1024 .f32) :
    outC5 V c t h0 h1 xs = k5_pay3 (k5_pay2 (iblk5 V c 0 t) (iblk5 V c 1 t) xs) (iblk5 V c 2 t) := by
  unfold outC5
  rw [View.read_writes_eq_canon _ _ _ (coverCo5 V c t h0 h1 xs)]
  unfold run5_C
  dsimp only
  sl_unfold_words
  rw [View.canon_unit_zero hz00]
  simp only [View.readAt_eq_ld, Memref.IsWhole.read_unread, scM5_read_unread, View.ld_unit_zero (S := S1024x1024) hz00, View.ld_unit_zero (S := S1024x1024) hz00,
    View.ld_unit_zero (S := S1x1024) hz00, View.readCov_unit_zero (S := S1024x1024) _ hz00]

end Pieces

/-! ## The accumulator and the output block after each point, over the extended reals -/

section Value
variable (V : (c : Dev nD) → (b : Ref sig .tc) → Buf (Elt Ideal) ((c : Thread nD τ).loc b))

/-- The three arrays the launch reads, at their literal types: A, B and the bias row. -/
abbrev arrA5 (c : Dev nD) : S4096x4096.Idx → EReal := V c main_v1
abbrev arrB5 (c : Dev nD) : S4096x1024.Idx → EReal := V c main_v8
abbrev arrC5 (c : Dev nD) : S1x1024.Idx → EReal := V c main_v9
/-- The blocks the three input windows stage at a point, at their literal types. -/
abbrev blkA5 (c : Dev nD) (t : Fin cfg5.N) : S1024x1024.Idx → EReal := iblk5 V c 0 t
abbrev blkB5 (c : Dev nD) (t : Fin cfg5.N) : S1024x1024.Idx → EReal := iblk5 V c 1 t
abbrev blkC5 (c : Dev nD) (t : Fin cfg5.N) : S1x1024.Idx → EReal := iblk5 V c 2 t

theorem blkA5_apply (c : Dev nD) (t : Fin cfg5.N) (p l : Fin 1024) :
    blkA5 V c t (ix2 p l) = natMat (arrA5 V c) (t.val / 4 * 1024 + p.val) (t.val % 4 * 1024 + l.val) :=
  (read_blk5_0 (arrA5 V c) t p l).trans (natMat_val (arrA5 V c) _ _).symm

theorem blkB5_apply (c : Dev nD) (t : Fin cfg5.N) (l : Fin 1024) (q : Fin 1024) :
    blkB5 V c t (ix2 l q) = natMat (arrB5 V c) (t.val % 4 * 1024 + l.val) q.val :=
  (read_blk5_1 (arrB5 V c) t l q).trans (natMat_val (arrB5 V c) _ _).symm

theorem blkC5_apply (c : Dev nD) (t : Fin cfg5.N) (q : Fin 1024) :
    blkC5 V c t (ix2 (0 : Fin 1) q) = arrC5 V c (ix2 (0 : Fin 1) q) :=
  read_blk5_2 (arrC5 V c) t q

/-- The product of the two staged blocks at (p, q) is the contraction block's part of the row of A·B. -/
theorem block_sum5 (c : Dev nD) (t : Fin cfg5.N) (p : Fin 1024) (q : Fin 1024) :
    ∑ l : Fin 1024, blkA5 V c t (ix2 p l) * blkB5 V c t (ix2 l q)
      = blockTerm (arrA5 V c) (arrB5 V c) (t.val / 4) (t.val % 4) p q :=
  Finset.sum_congr rfl fun l _ => by rw [blkA5_apply, blkB5_apply]

/-- A contraction's first block leaves its own part of the sum. -/
theorem acc5_A (c : Dev nD) (t : Fin cfg5.N) (h0 : t.val % 4 = 0) (h1 : ¬t.val % 4 = 3) (p : Fin 1024) (q : Fin 1024) :
    (outsAt5 V c t.val t.isLt).2 (ix2 p q) = partialSum (arrA5 V c) (arrB5 V c) (t.val / 4) (t.val % 4 + 1) p q := by
  rw [outsAt5_A V c t h0 h1]
  dsimp only
  refine (congrFun (accA5_eq (F := Ideal) V c t h0 h1) (ix2 p q)).trans ?_
  refine (pay2_5_apply (blkA5 V c t) (blkB5 V c t) (k5_pay1 (F := Ideal)) p q).trans ?_
  rw [pay1_5_apply p q, block_sum5 V c t p q, h0]
  exact (partialSum_one (arrA5 V c) (arrB5 V c) (t.val / 4) p q).symm

/-- A later block adds its part to what the point before left. -/
theorem acc5_BC (c : Dev nD) (t : Fin cfg5.N) (h0 : ¬t.val % 4 = 0)
    (ih : ∀ (p : Fin 1024) (q : Fin 1024), (outsAt5 V c (t.val - 1) (Nat.lt_of_le_of_lt (Nat.sub_le _ _) t.isLt)).2 (ix2 p q)
      = partialSum (arrA5 V c) (arrB5 V c) ((t.val - 1) / 4) ((t.val - 1) % 4 + 1) p q)
    (p : Fin 1024) (q : Fin 1024) :
    (outsAt5 V c t.val t.isLt).2 (ix2 p q) = partialSum (arrA5 V c) (arrB5 V c) (t.val / 4) (t.val % 4 + 1) p q := by
  have e1 : (t.val - 1) / 4 = t.val / 4 := by omega
  have e2 : (t.val - 1) % 4 + 1 = t.val % 4 := by omega
  have step : (outsAt5 V c (t.val - 1) (Nat.lt_of_le_of_lt (Nat.sub_le _ _) t.isLt)).2 (ix2 p q)
      + ∑ l : Fin 1024, blkA5 V c t (ix2 p l) * blkB5 V c t (ix2 l q)
      = partialSum (arrA5 V c) (arrB5 V c) (t.val / 4) (t.val % 4 + 1) p q := by
    rw [ih p q, block_sum5 V c t p q, e1, e2]
    exact (partialSum_succ (arrA5 V c) (arrB5 V c) (t.val / 4) (t.val % 4) p q).symm
  by_cases h1 : t.val % 4 = 3
  · rw [outsAt5_C V c t h0 h1]
    dsimp only
    refine (congrFun (accC5_eq (F := Ideal) V c t h0 h1 (outsAt5 V c (t.val - 1) (Nat.lt_of_le_of_lt (Nat.sub_le _ _) t.isLt)).2) (ix2 p q)).trans ?_
    exact (pay2_5_apply (blkA5 V c t) (blkB5 V c t) (outsAt5 V c (t.val - 1) (Nat.lt_of_le_of_lt (Nat.sub_le _ _) t.isLt)).2 p q).trans step
  · rw [outsAt5_B V c t h0 h1]
    dsimp only
    refine (congrFun (accB5_eq (F := Ideal) V c t h0 h1 (outsAt5 V c (t.val - 1) (Nat.lt_of_le_of_lt (Nat.sub_le _ _) t.isLt)).2) (ix2 p q)).trans ?_
    exact (pay2_5_apply (blkA5 V c t) (blkB5 V c t) (outsAt5 V c (t.val - 1) (Nat.lt_of_le_of_lt (Nat.sub_le _ _) t.isLt)).2 p q).trans step

/-- THE INVARIANT: after point n the accumulator holds, at (p, q), the first n % 4 + 1 blocks' part of row
    (n/4)·1024 + p of A·B at column q. By induction on the point. -/
theorem acc5_inv (c : Dev nD) (n : ℕ) : ∀ (hn : n < cfg5.N) (p : Fin 1024) (q : Fin 1024),
    (outsAt5 V c n hn).2 (ix2 p q) = partialSum (arrA5 V c) (arrB5 V c) (n / 4) (n % 4 + 1) p q := by
  induction n with
  | zero => intro hn p q; exact acc5_A V c ⟨0, hn⟩ rfl (by show ¬(0 % 4 = 3); decide) p q
  | succ n ih =>
    intro hn p q
    by_cases h0 : (n + 1) % 4 = 0
    · exact acc5_A V c ⟨n + 1, hn⟩ h0 (by show ¬((n + 1) % 4 = 3); omega) p q
    · exact acc5_BC V c ⟨n + 1, hn⟩ h0 (fun p q => ih (Nat.lt_of_succ_lt hn) p q) p q

/-- At a contraction's last block the stored output block is tanh of the whole row sum plus the bias. -/
theorem out5_C (c : Dev nD) (t : Fin cfg5.N) (h1 : t.val % 4 = 3) (p : Fin 1024) (q : Fin 1024) :
    (outsAt5 V c t.val t.isLt).1 (ix2 p q)
      = Ideal.tanh (partialSum (arrA5 V c) (arrB5 V c) (t.val / 4) 4 p q + arrC5 V c (ix2 (0 : Fin 1) q)) := by
  have h0 : ¬t.val % 4 = 0 := by omega
  have hacc := acc5_inv V c t.val t.isLt p q
  rw [outsAt5_C V c t h0 h1] at hacc ⊢
  dsimp only at hacc ⊢
  refine (congrFun (outC5_eq (F := Ideal) V c t h0 h1 (outsAt5 V c (t.val - 1) (Nat.lt_of_le_of_lt (Nat.sub_le _ _) t.isLt)).2) (ix2 p q)).trans ?_
  refine (pay3_5_apply (k5_pay2 (F := Ideal) (blkA5 V c t) (blkB5 V c t) (outsAt5 V c (t.val - 1) (Nat.lt_of_le_of_lt (Nat.sub_le _ _) t.isLt)).2) (blkC5 V c t) p q).trans ?_
  have hacc' : k5_pay2 (F := Ideal) (blkA5 V c t) (blkB5 V c t) (outsAt5 V c (t.val - 1) (Nat.lt_of_le_of_lt (Nat.sub_le _ _) t.isLt)).2 (ix2 p q)
      = partialSum (arrA5 V c) (arrB5 V c) (t.val / 4) 4 p q := by
    refine (congrFun (accC5_eq (F := Ideal) V c t h0 h1 (outsAt5 V c (t.val - 1) (Nat.lt_of_le_of_lt (Nat.sub_le _ _) t.isLt)).2) (ix2 p q)).symm.trans ?_
    rw [hacc, h1]
  rw [hacc', blkC5_apply V c t q]

end Value

/-! ## From the flushed blocks to the output array -/

section Final
variable (V : (c : Dev nD) → (b : Ref sig .tc) → Buf (Elt Ideal) ((c : Thread nD τ).loc b))

/-- What the launch leaves in the output array: tanh(A·B + bias), index by index. -/
abbrev res5 (c : Dev nD) : S4096x1024.Idx → EReal := tanhG (arrA5 V c) (arrB5 V c) (arrC5 V c)

/-- The block a contraction's last point writes back is that point's row block of the result. -/
theorem flushed5_eq (c : Dev nD) (t : Fin cfg5.N) (hf : (cfg5.win 3).flush t = true) :
    (dat5 V c).flushed 3 t = ((cfg5.win 3).blk t).view.read (Elt Ideal) (res5 V c) := by
  have h1 : t.val % 4 = 3 := (flush5_3 t).mp hf
  have hN := gridN5_eq
  have ht := t.isLt
  show (cfg5.win 3).cut (grid5.coords t) ((dat5 V c).after 3 t) = _
  rw [after5_3]
  refine funext fun (y : S1024x1024.Idx) => ?_
  obtain ⟨p, q, rfl⟩ : ∃ (p : Fin 1024) (q : Fin 1024), y = ix2 p q := ⟨y 0, y 1, eq_ix2 y⟩
  show (outsAt5 V c t.val t.isLt).1 (ix2 p q) = (((cfg5.win 3).blk t).view.read (Elt Ideal) (res5 V c) : S1024x1024.Idx → EReal) (ix2 p q)
  rw [out5_C V c t h1 p q, read_blk5_3 (res5 V c) t p q,
    partialSum_four (arrA5 V c) (arrB5 V c) (t.val / 4) (by omega) p q]
  rfl

/-- An index of the output array lies in point t's block iff each coordinate is in the block's range. -/
theorem mem_blk5_3 (t : Fin cfg5.N) (i : S4096x1024.Idx) :
    i ∈ ((cfg5.win 3).blk t).view.set ↔ ∀ a : Fin 2, win5_3.index t a * S1024x1024.size a ≤ (i a).val ∧ (i a).val < win5_3.index t a * S1024x1024.size a + S1024x1024.size a := by
  show i ∈ ((View.whole main_v10).slice (win5_3.rect t)).set ↔ _
  rw [View.set_slice_whole, Rect.mem_set_unit]
  exact Iff.rfl

/-- Row r of the output lies in the block written back at point 4·(r / 1024) + 3. -/
theorem cover5 (i : S4096x1024.Idx) : ∃ t : Fin cfg5.N, (cfg5.win 3).flush t = true ∧ i ∈ ((cfg5.win 3).blk t).view.set := by
  have hi0 : (i 0).val < 4096 := (i 0).isLt
  have hi1 : (i 1).val < 1024 := (i 1).isLt
  have hN := gridN5_eq
  refine ⟨⟨4 * ((i 0).val / 1024) + 3, by omega⟩, (flush5_3 _).mpr (by show (4 * ((i 0).val / 1024) + 3) % 4 = 3; omega), ?_⟩
  rw [mem_blk5_3]
  obtain ⟨-, -, -, -, -, -, e0, e1⟩ := idx_facts5 ⟨4 * ((i 0).val / 1024) + 3, by omega⟩
  intro a
  match a with
  | ⟨0, _⟩ =>
    show win5_3.index _ (0 : Fin 2) * 1024 ≤ (i 0).val ∧ (i 0).val < win5_3.index _ (0 : Fin 2) * 1024 + 1024
    rw [e0]; dsimp only; omega
  | ⟨1, _⟩ =>
    show win5_3.index _ (1 : Fin 2) * 1024 ≤ (i 1).val ∧ (i 1).val < win5_3.index _ (1 : Fin 2) * 1024 + 1024
    rw [e1]; omega

/-- So the output array ends holding tanh(A·B + bias). -/
theorem out5_eq (c : Dev nD) : out5 V c = res5 V c :=
  (dat5 V c).arrAt_eq_of_cover 3 (res5 V c) (flushed5_eq V c) cover5

/-- THE VALUE OF LAUNCH 5, in matrix form: the output is tanh of the product of the two input matrices plus the
    bias row broadcast down the rows. -/
theorem out5_value (c : Dev nD) :
    GcnSpec.toMat (out5 V c : S4096x1024.Idx → EReal)
      = GcnSpec.tanhB (GcnSpec.mm (GcnSpec.toMat (V c main_v1 : S4096x4096.Idx → EReal)) (GcnSpec.toMat (V c main_v8 : S4096x1024.Idx → EReal)))
          (fun j => (V c main_v9 : S1x1024.Idx → EReal) (ix2 (0 : Fin 1) j)) := by
  rw [out5_eq V c]
  exact toMat_tanhG (arrA5 V c) (arrB5 V c) (arrC5 V c)

end Final

end Cert.KernelIdeal.Hand

end
-- ==== Proof.KI.R06ValueA.lean ====
/-
  Launch 6 computes out = A·B, one row block of A per grid point: the point t multiplies A's row block t by the
  whole of B into an accumulator reset at that point, and stores the accumulator, converted to the output's format,
  into the output's row block t. This module reads the body's three pure terms at an index over the extended reals
  (where a change of format is the identity) and reads a window's block at an index of its array; nothing here
  depends on the symbolic run.
-/
import proofs.«113214_j66838281060556_2_alg».proof.Proof.Gen.KernelIdeal.Launch
import proofs.«113214_j66838281060556_2_alg».proof.Proof.Gen.KernelIdeal.Skeleton
import proofs.«113214_j66838281060556_2_alg».proof.Proof.Gen.KernelIdeal.Points
import proofs.«113214_j66838281060556_2_alg».proof.Proof.GcnSpec
import proofs.«113214_j66838281060556_2_alg».proof.Proof.GcnAlgebra
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.ValueIdx (ix2 eq_ix2)

/-! ## The body's pure terms at an index, over the extended reals -/

/-- The product's contraction record, by a short name. -/
abbrev D6 : DotDims S1024x1024 S1024x819 S1024x819 := dot_S1024x1024_S1024x819_S1024x819_1_0_0_1_n_n

theorem lhs_D6_0 (i : S1024x819.Idx) (q : dot_S1024x1024_S1024x819_S1024x819_1_0_0_1_n_n.contr.Idx) :
    (dot_S1024x1024_S1024x819_S1024x819_1_0_0_1_n_n.lhsIdx i q 0).val = (i 0).val := by
  unfold DotDims.lhsIdx
  rw [dif_neg (show ¬(0 : Fin S1024x1024.rank) ∈ dot_S1024x1024_S1024x819_S1024x819_1_0_0_1_n_n.lhsBatch by decide), dif_pos (show (0 : Fin S1024x1024.rank) ∈ dot_S1024x1024_S1024x819_S1024x819_1_0_0_1_n_n.lhsNonContracting by decide)]
  rfl
theorem lhs_D6_1 (i : S1024x819.Idx) (q : dot_S1024x1024_S1024x819_S1024x819_1_0_0_1_n_n.contr.Idx) :
    (dot_S1024x1024_S1024x819_S1024x819_1_0_0_1_n_n.lhsIdx i q 1).val = (q ⟨0, by decide⟩).val :=
  dot_S1024x1024_S1024x819_S1024x819_1_0_0_1_n_n.lhsIdx_val_of_single rfl i q
theorem rhs_D6_0 (i : S1024x819.Idx) (q : dot_S1024x1024_S1024x819_S1024x819_1_0_0_1_n_n.contr.Idx) :
    (dot_S1024x1024_S1024x819_S1024x819_1_0_0_1_n_n.rhsIdx i q 0).val = (q ⟨0, by decide⟩).val :=
  dot_S1024x1024_S1024x819_S1024x819_1_0_0_1_n_n.rhsIdx_val_of_single rfl i q
theorem rhs_D6_1 (i : S1024x819.Idx) (q : dot_S1024x1024_S1024x819_S1024x819_1_0_0_1_n_n.contr.Idx) :
    (dot_S1024x1024_S1024x819_S1024x819_1_0_0_1_n_n.rhsIdx i q 1).val = (i 1).val := by
  unfold DotDims.rhsIdx
  rw [dif_neg (show ¬(1 : Fin S1024x819.rank) ∈ dot_S1024x1024_S1024x819_S1024x819_1_0_0_1_n_n.rhsBatch by decide), dif_pos (show (1 : Fin S1024x819.rank) ∈ dot_S1024x1024_S1024x819_S1024x819_1_0_0_1_n_n.rhsNonContracting by decide)]
  rfl

/-- The block product at (p, q) is the sum over the 1024 contracted columns. -/
theorem matmul6_apply (x0 : Vec Ideal S1024x1024 .bf16) (x1 : Vec Ideal S1024x819 .bf16) (p : Fin 1024) (q : Fin 819) :
    matmul (F := Ideal) (φ₁ := .bf16) (φ₂ := .bf16) dot_S1024x1024_S1024x819_S1024x819_1_0_0_1_n_n none x0 x1 (constant S1024x819 .f32 0x00000000#32) (ix2 p q)
      = ∑ l : Fin 1024, x0 (ix2 p l) * x1 (ix2 l q) := by
  refine (Ideal.matmul_constant_zero_apply (φ₁ := .bf16) (φ₂ := .bf16) dot_S1024x1024_S1024x819_S1024x819_1_0_0_1_n_n none x0 x1 (ix2 p q)).trans ?_
  rw [← Equiv.sum_comp (ValueIdx.contrEquiv1 dot_S1024x1024_S1024x819_S1024x819_1_0_0_1_n_n 1024 rfl rfl).symm]
  refine Finset.sum_congr rfl fun k _ => ?_
  have hk := ValueIdx.contrEquiv1_symm_val dot_S1024x1024_S1024x819_S1024x819_1_0_0_1_n_n 1024 rfl rfl k
  have el : dot_S1024x1024_S1024x819_S1024x819_1_0_0_1_n_n.lhsIdx (ix2 p q) ((ValueIdx.contrEquiv1 dot_S1024x1024_S1024x819_S1024x819_1_0_0_1_n_n 1024 rfl rfl).symm k) = ix2 p k := funext fun a => Fin.ext (by
    match a with
    | ⟨0, _⟩ => exact lhs_D6_0 _ _
    | ⟨1, _⟩ => exact (lhs_D6_1 _ _).trans hk)
  have er : dot_S1024x1024_S1024x819_S1024x819_1_0_0_1_n_n.rhsIdx (ix2 p q) ((ValueIdx.contrEquiv1 dot_S1024x1024_S1024x819_S1024x819_1_0_0_1_n_n 1024 rfl rfl).symm k) = ix2 k q := funext fun a => Fin.ext (by
    match a with
    | ⟨0, _⟩ => exact (rhs_D6_0 _ _).trans hk
    | ⟨1, _⟩ => exact rhs_D6_1 _ _)
  rw [el, er]

/-- The reset block is zero everywhere. -/
theorem pay1_6_apply (p : Fin 1024) (q : Fin 819) : k6_pay1 (F := Ideal) (ix2 p q) = 0 := by
  unfold k6_pay1
  simp only [shapeCast_self]
  exact Ideal.ofBits_zero_f32

/-- The update adds the block product to what the accumulator held; the two factors' change of format is the
    identity on the extended reals. -/
theorem pay2_6_apply (x0 : Vec Ideal S1024x1024 .f32) (x1 : Vec Ideal S1024x819 .f32) (xs : Vec Ideal S1024x819 .f32)
    (p : Fin 1024) (q : Fin 819) :
    k6_pay2 (F := Ideal) x0 x1 xs (ix2 p q) = xs (ix2 p q) + ∑ l : Fin 1024, x0 (ix2 p l) * x1 (ix2 l q) := by
  unfold k6_pay2
  simp only [shapeCast_self]
  exact congrArg (xs (ix2 p q) + ·) (matmul6_apply x0 x1 p q)

/-- The stored output block is the accumulator: its change of format is the identity on the extended reals. -/
theorem pay3_6_apply (v16 : Vec Ideal S1024x819 .f32) (p : Fin 1024) (q : Fin 819) :
    k6_pay3 (F := Ideal) v16 (ix2 p q) = v16 (ix2 p q) := rfl

/-! ## A window's block at an index of its array -/

theorem N6_eq : cfg6.N = 4 := N_6

/-- The printed index maps, decided over the grid's points: the left factor's block is (t, 0), the right factor's
    (0, 0), the output's (t, 0). -/
theorem idx_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

section Blocks

variable {F : FTy → Type}

/-- Entry (p, l) of the left factor's block at point t is the array at row t·1024 + p, column l. -/
theorem read_blk6_0 (X : Vec F S4096x1024 .f32) (t : Fin cfg6.N) (p : Fin 1024) (l : Fin 1024) :
    (((cfg6.win 0).blk t).view.read (Elt F) X : Vec F S1024x1024 .f32) (ix2 p l)
      = X (ix2 (⟨t.val * 1024 + p.val, by have := t.isLt; have := N6_eq; omega⟩ : Fin 4096) l) := by
  obtain ⟨e0, e1, -⟩ := idx_facts6 t
  rw [View.read_apply]
  show X _ = X _
  congr 1
  funext a
  apply Fin.ext
  match a with
  | ⟨0, _⟩ => show win6_0.index t (0 : Fin 2) * 1024 + 1 * p.val = t.val * 1024 + p.val; rw [e0]; omega
  | ⟨1, _⟩ => show win6_0.index t (1 : Fin 2) * 1024 + 1 * l.val = l.val; rw [e1]; omega

/-- The right factor's block at any point is the whole array. -/
theorem read_blk6_1 (X : Vec F S1024x819 .f32) (t : Fin cfg6.N) (l : Fin 1024) (q : Fin 819) :
    (((cfg6.win 1).blk t).view.read (Elt F) X : Vec F S1024x819 .f32) (ix2 l q) = X (ix2 l q) := by
  obtain ⟨-, -, e0, e1, -⟩ := idx_facts6 t
  rw [View.read_apply]
  show X _ = X _
  congr 1
  funext a
  apply Fin.ext
  match a with
  | ⟨0, _⟩ => show win6_1.index t (0 : Fin 2) * 1024 + 1 * l.val = l.val; rw [e0]; omega
  | ⟨1, _⟩ => show win6_1.index t (1 : Fin 2) * 819 + 1 * q.val = q.val; rw [e1]; omega

/-- Entry (p, q) of the output's block at point t is the output at row t·1024 + p, column q. -/
theorem read_blk6_2 (X : Vec F S4096x819 .bf16) (t : Fin cfg6.N) (p : Fin 1024) (q : Fin 819) :
    (((cfg6.win 2).blk t).view.read (Elt F) X : Vec F S1024x819 .bf16) (ix2 p q)
      = X (ix2 (⟨t.val * 1024 + p.val, by have := t.isLt; have := N6_eq; omega⟩ : Fin 4096) q) := by
  obtain ⟨-, -, -, -, e0, e1⟩ := idx_facts6 t
  rw [View.read_apply]
  show X _ = X _
  congr 1
  funext a
  apply Fin.ext
  match a with
  | ⟨0, _⟩ => show win6_2.index t (0 : Fin 2) * 1024 + 1 * p.val = t.val * 1024 + p.val; rw [e0]; omega
  | ⟨1, _⟩ => show win6_2.index t (1 : Fin 2) * 819 + 1 * q.val = q.val; rw [e1]; omega

end Blocks

/-! ## The result, index by index -/

/-- What the output array holds after the launch: row i of A·B at column j. -/
def G6 (A : Vec Ideal S4096x1024 .f32) (B : Vec Ideal S1024x819 .f32) : Vec Ideal S4096x819 .bf16 :=
  fun y => ∑ k : Fin 1024, A (ix2 (y 0) k) * B (ix2 k (y 1))

/-- In matrix form it is A·B. -/
theorem toMat_G6 (A : Vec Ideal S4096x1024 .f32) (B : Vec Ideal S1024x819 .f32) :
    GcnSpec.toMat (G6 A B) = GcnSpec.mm (GcnSpec.toMat A) (GcnSpec.toMat B) := rfl

end Cert.KernelIdeal.Hand

end
-- ==== Proof.KI.R06Value.lean ====
/-
  The value of launch 6: out = A·B. The symbolic run left the list of pieces stored into the output block; it is
  read back as the body's three pure terms of the staged blocks: the accumulator reset, the product of the two
  staged blocks added, that sum stored in the output's format. One point's block is thus a row block of the result;
  those blocks cover the output array, and so the array ends holding the result.
-/
import proofs.«113214_j66838281060556_2_alg».proof.Proof.KI.R06
import proofs.«113214_j66838281060556_2_alg».proof.Proof.KI.R06ValueA
import proofs.«113214_j66838281060556_2_alg».proof.Proof.GcnSpec
import proofs.«113214_j66838281060556_2_alg».proof.Proof.GcnAlgebra
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat)
open Idealize.ShloMosaic.ValueIdx (ix2 eq_ix2)

/-! ## What a point stores, as the body's pure terms -/

section Pieces
variable {F : FTy → Type} [FloatOps F]
variable (V : (c : Dev nD) → (b : Ref sig .tc) → Buf (Elt F) ((c : Thread nD τ).loc b))

theorem hz6 : (![0, 0] : Fin 2 → Nat) = fun _ => 0 := funext fun a => by fin_cases a <;> rfl

/-- The accumulator read whole gives back the contents it is held at. -/
theorem scM6_read_unread (h : (scM6 : Memref sig .tc .vmem S1024x819 .f32).IsWhole) (xs : Vec F S1024x819 .f32) :
    View.read (Elt F) (View.whole cc6_scratch0) (h.unread xs) = xs := h.read_unread xs

/-- The output block a point stores: the accumulator is reset, read back, updated by the product of the two staged
    blocks, read back, and the stored term of it is what the output's buffer holds. -/
theorem outO6_eq (c : Dev nD) (t : Fin cfg6.N) :
    out6 V c t = k6_pay3 (k6_pay2 (iblk6 V c 0 t) (iblk6 V c 1 t) (k6_pay1 (F := F))) := by
  unfold out6
  rw [View.read_writes_eq_canon _ _ _ (coverO6 V c t)]
  unfold run6
  dsimp only
  sl_unfold_words
  rw [View.canon_unit_zero hz6]
  simp only [View.readAt_eq_ld, Memref.IsWhole.read_unread, scM6_read_unread, View.ld_unit_zero (S := S1024x1024) hz6, View.ld_unit_zero (S := S1024x819) hz6,
    View.readCov_unit_zero (S := S1024x819) _ hz6, View.readCov_cons_toLoadRect]

end Pieces

/-! ## The stored block, over the extended reals -/

section Value
variable (V : (c : Dev nD) → (b : Ref sig .tc) → Buf (Elt Ideal) ((c : Thread nD τ).loc b))

/-- The two arrays the launch reads, at their literal types: A and B. -/
abbrev arrA6 (c : Dev nD) : Vec Ideal S4096x1024 .f32 := V c main_v10
abbrev arrB6 (c : Dev nD) : Vec Ideal S1024x819 .f32 := V c main_arg11
/-- The blocks the two input windows stage at a point, at their literal types. -/
abbrev blkA6 (c : Dev nD) (t : Fin cfg6.N) : Vec Ideal S1024x1024 .f32 := iblk6 V c 0 t
abbrev blkB6 (c : Dev nD) (t : Fin cfg6.N) : Vec Ideal S1024x819 .f32 := iblk6 V c 1 t

theorem blkA6_apply (c : Dev nD) (t : Fin cfg6.N) (p : Fin 1024) (l : Fin 1024) :
    blkA6 V c t (ix2 p l) = arrA6 V c (ix2 (⟨t.val * 1024 + p.val, by have := t.isLt; have := N6_eq; omega⟩ : Fin 4096) l) :=
  read_blk6_0 (F := Ideal) (arrA6 V c) t p l

theorem blkB6_apply (c : Dev nD) (t : Fin cfg6.N) (l : Fin 1024) (q : Fin 819) :
    blkB6 V c t (ix2 l q) = arrB6 V c (ix2 l q) :=
  read_blk6_1 (F := Ideal) (arrB6 V c) t l q

/-- The block a point stores is, at (p, q), row t·1024 + p of A·B at column q. -/
theorem out6_pt (c : Dev nD) (t : Fin cfg6.N) (p : Fin 1024) (q : Fin 819) :
    out6 V c t (ix2 p q)
      = ∑ l : Fin 1024, arrA6 V c (ix2 (⟨t.val * 1024 + p.val, by have := t.isLt; have := N6_eq; omega⟩ : Fin 4096) l) * arrB6 V c (ix2 l q) := by
  refine (congrFun (outO6_eq (F := Ideal) V c t) (ix2 p q)).trans ?_
  refine (pay3_6_apply (k6_pay2 (blkA6 V c t) (blkB6 V c t) (k6_pay1 (F := Ideal))) p q).trans ?_
  rw [pay2_6_apply (blkA6 V c t) (blkB6 V c t) (k6_pay1 (F := Ideal)) p q, pay1_6_apply p q, zero_add]
  exact Finset.sum_congr rfl fun l _ => by rw [blkA6_apply, blkB6_apply]

end Value

/-! ## From the flushed blocks to the output array -/

section Final
variable (V : (c : Dev nD) → (b : Ref sig .tc) → Buf (Elt Ideal) ((c : Thread nD τ).loc b))

/-- What the launch leaves in the output array: A·B, index by index. -/
abbrev res6 (c : Dev nD) : Vec Ideal S4096x819 .bf16 := G6 (arrA6 V c) (arrB6 V c)

/-- The block a point writes back is that point's row block of the result. -/
theorem flushed6_eq (c : Dev nD) (t : Fin cfg6.N) (hf : (cfg6.win 2).flush t = true) :
    (dat6 V c).flushed 2 t = ((cfg6.win 2).blk t).view.read (Elt Ideal) (res6 V c) := by
  have hN := N6_eq
  have ht := t.isLt
  show (cfg6.win 2).cut (grid6.coords t) ((dat6 V c).after 2 t) = _
  rw [after6_2]
  refine funext fun (y : S1024x819.Idx) => ?_
  obtain ⟨p, q, rfl⟩ : ∃ (p : Fin 1024) (q : Fin 819), y = ix2 p q := ⟨y 0, y 1, eq_ix2 y⟩
  show out6 V c t (ix2 p q) = (((cfg6.win 2).blk t).view.read (Elt Ideal) (res6 V c) : Vec Ideal S1024x819 .bf16) (ix2 p q)
  rw [out6_pt V c t p q, read_blk6_2 (F := Ideal) (res6 V c) t p q]
  rfl

/-- An index of the output array lies in point t's block iff each coordinate is in the block's range. -/
theorem mem_blk6_2 (t : Fin cfg6.N) (i : S4096x819.Idx) :
    i ∈ ((cfg6.win 2).blk t).view.set ↔ ∀ a : Fin 2, win6_2.index t a * S1024x819.size a ≤ (i a).val ∧ (i a).val < win6_2.index t a * S1024x819.size a + S1024x819.size a := by
  show i ∈ ((View.whole main_v11).slice (win6_2.rect t)).set ↔ _
  rw [View.set_slice_whole, Rect.mem_set_unit]
  exact Iff.rfl

/-- Row r of the output lies in the block written back at point r / 1024. -/
theorem cover6 (i : S4096x819.Idx) : ∃ t : Fin cfg6.N, (cfg6.win 2).flush t = true ∧ i ∈ ((cfg6.win 2).blk t).view.set := by
  have hi0 : (i 0).val < 4096 := (i 0).isLt
  have hi1 : (i 1).val < 819 := (i 1).isLt
  have hN := N6_eq
  refine ⟨⟨(i 0).val / 1024, by omega⟩, flush6_2 _, ?_⟩
  rw [mem_blk6_2]
  obtain ⟨-, -, -, -, e0, e1⟩ := idx_facts6 ⟨(i 0).val / 1024, by omega⟩
  intro a
  match a with
  | ⟨0, _⟩ =>
    show win6_2.index _ (0 : Fin 2) * 1024 ≤ (i 0).val ∧ (i 0).val < win6_2.index _ (0 : Fin 2) * 1024 + 1024
    rw [e0]; dsimp only; omega
  | ⟨1, _⟩ =>
    show win6_2.index _ (1 : Fin 2) * 819 ≤ (i 1).val ∧ (i 1).val < win6_2.index _ (1 : Fin 2) * 819 + 819
    rw [e1]; omega

/-- So the output array ends holding A·B. -/
theorem out6arr_eq (c : Dev nD) : out6arr V c = res6 V c :=
  (dat6 V c).arrAt_eq_of_cover 2 (res6 V c) (flushed6_eq V c) cover6

/-- THE VALUE OF LAUNCH 6, in matrix form: the output is the product of the two input matrices. -/
theorem out6_value (c : Dev nD) :
    GcnSpec.toMat (out6arr V c : S4096x819.Idx → EReal)
      = GcnSpec.mm (GcnSpec.toMat (V c main_v10 : S4096x1024.Idx → EReal)) (GcnSpec.toMat (V c main_arg11 : S1024x819.Idx → EReal)) := by
  rw [out6arr_eq V c]
  exact toMat_G6 (arrA6 V c) (arrB6 V c)

end Final

end Cert.KernelIdeal.Hand

end
-- ==== Proof.KI.R07ValueA.lean ====
/-
  Launch 7 computes out = tanh(A·B + bias) for A 4096 × 4096, B 4096 × 819 and a bias row, block by block:
  the grid point t handles the row block t / 4 and the contraction block t % 4 (blocks of 1024), adding the
  product of A's block (t/4, t%4) and B's block (t%4, 0) into an accumulator that is reset at t % 4 = 0, and
  storing tanh(accumulator + bias) into the output's row block at t % 4 = 3. This module reads the body's three
  pure terms at an index over the extended reals and reads each window's block at an index of its array;
  nothing here depends on the symbolic runs.
-/
import proofs.«113214_j66838281060556_2_alg».proof.Proof.Gen.KernelIdeal.Launch
import proofs.«113214_j66838281060556_2_alg».proof.Proof.Gen.KernelIdeal.Skeleton
import proofs.«113214_j66838281060556_2_alg».proof.Proof.Gen.KernelIdeal.Points
import proofs.«113214_j66838281060556_2_alg».proof.Proof.KI.MatmulValue
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.ValueIdx (ix2 eq_ix2)

/-! ## The body's pure terms at an index, over the extended reals -/

/-- The reset block is zero everywhere. -/
theorem pay1_7_apply (p : Fin 1024) (q : Fin 819) : k7_pay1 (F := Ideal) (ix2 p q) = 0 := by
  unfold k7_pay1
  simp only [shapeCast_self]
  exact Ideal.ofBits_zero_f32

/-- The update adds the block product to what the accumulator held. -/
theorem pay2_7_apply (x0 : S1024x1024.Idx → EReal) (x1 : S1024x819.Idx → EReal) (xs : S1024x819.Idx → EReal)
    (p : Fin 1024) (q : Fin 819) :
    k7_pay2 (F := Ideal) x0 x1 xs (ix2 p q) = xs (ix2 p q) + ∑ l : Fin 1024, x0 (ix2 p l) * x1 (ix2 l q) := by
  unfold k7_pay2
  simp only [shapeCast_self]
  exact congrArg (xs (ix2 p q) + ·) (matmul819_apply x0 x1 p q)

/-- The stored output block is tanh of the accumulator plus the bias row. -/
theorem pay3_7_apply (v16 : S1024x819.Idx → EReal) (v17 : S1x819.Idx → EReal) (p : Fin 1024) (q : Fin 819) :
    k7_pay3 (F := Ideal) v16 v17 (ix2 p q) = Ideal.tanh (v16 (ix2 p q) + v17 (ix2 (0 : Fin 1) q)) := by
  unfold k7_pay3
  simp only [shapeCast_self]
  refine congrArg (fun z => Ideal.tanh (v16 (ix2 p q) + z)) ?_
  exact broadcastTo_apply v17 broadcasts_S1x819_S1024x819 (ix2 p q) (ix2 (0 : Fin 1) q) (fun a => by
    match a with
    | ⟨0, _⟩ => rfl
    | ⟨1, _⟩ => rfl)

/-! ## A window's block at an index of its array -/

theorem gridN7_eq : cfg7.N = 16 := N_7

/-- The printed index maps, decided over the sixteen points: A's block is (t / 4, t % 4), B's (t % 4, 0), the bias
    row's (0, 0), the output's (t / 4, 0). -/
theorem idx_facts7 : ∀ t : Fin cfg7.N,
    win7_0.index t (0 : Fin 2) = t.val / 4 ∧ win7_0.index t (1 : Fin 2) = t.val % 4
    ∧ win7_1.index t (0 : Fin 2) = t.val % 4 ∧ win7_1.index t (1 : Fin 2) = 0
    ∧ win7_2.index t (0 : Fin 2) = 0 ∧ win7_2.index t (1 : Fin 2) = 0
    ∧ win7_3.index t (0 : Fin 2) = t.val / 4 ∧ win7_3.index t (1 : Fin 2) = 0 :=
  (by decide +kernel : ∀ t : Fin grid7.N, _)

/-- Entry (p, l) of A's block at point t is A at row (t/4)·1024 + p, column (t%4)·1024 + l. -/
theorem read_blk7_0 (X : S4096x4096.Idx → EReal) (t : Fin cfg7.N) (p l : Fin 1024) :
    (((cfg7.win 0).blk t).view.read (Elt Ideal) X : S1024x1024.Idx → EReal) (ix2 p l)
      = X (ix2 (⟨t.val / 4 * 1024 + p.val, by have := t.isLt; have := gridN7_eq; omega⟩ : Fin 4096)
            (⟨t.val % 4 * 1024 + l.val, by omega⟩ : Fin 4096)) := by
  obtain ⟨e0, e1, -⟩ := idx_facts7 t
  rw [View.read_apply]
  show X _ = X _
  congr 1
  funext a
  apply Fin.ext
  match a with
  | ⟨0, _⟩ => show win7_0.index t (0 : Fin 2) * 1024 + 1 * p.val = t.val / 4 * 1024 + p.val; rw [e0]; omega
  | ⟨1, _⟩ => show win7_0.index t (1 : Fin 2) * 1024 + 1 * l.val = t.val % 4 * 1024 + l.val; rw [e1]; omega

/-- Entry (l, q) of B's block at point t is B at row (t%4)·1024 + l, column q. -/
theorem read_blk7_1 (X : S4096x819.Idx → EReal) (t : Fin cfg7.N) (l : Fin 1024) (q : Fin 819) :
    (((cfg7.win 1).blk t).view.read (Elt Ideal) X : S1024x819.Idx → EReal) (ix2 l q)
      = X (ix2 (⟨t.val % 4 * 1024 + l.val, by omega⟩ : Fin 4096) q) := by
  obtain ⟨-, -, e0, e1, -⟩ := idx_facts7 t
  rw [View.read_apply]
  show X _ = X _
  congr 1
  funext a
  apply Fin.ext
  match a with
  | ⟨0, _⟩ => show win7_1.index t (0 : Fin 2) * 1024 + 1 * l.val = t.val % 4 * 1024 + l.val; rw [e0]; omega
  | ⟨1, _⟩ => show win7_1.index t (1 : Fin 2) * 819 + 1 * q.val = q.val; rw [e1]; omega

/-- The bias window's block at any point is the whole bias row. -/
theorem read_blk7_2 (X : S1x819.Idx → EReal) (t : Fin cfg7.N) (q : Fin 819) :
    (((cfg7.win 2).blk t).view.read (Elt Ideal) X : S1x819.Idx → EReal) (ix2 (0 : Fin 1) q) = X (ix2 (0 : Fin 1) q) := by
  obtain ⟨-, -, -, -, e0, e1, -⟩ := idx_facts7 t
  rw [View.read_apply]
  show X _ = X _
  congr 1
  funext a
  apply Fin.ext
  match a with
  | ⟨0, _⟩ => show win7_2.index t (0 : Fin 2) * 1 + 1 * (0 : Fin 1).val = (0 : Fin 1).val; rw [e0]; rfl
  | ⟨1, _⟩ => show win7_2.index t (1 : Fin 2) * 819 + 1 * q.val = q.val; rw [e1]; omega

/-- Entry (p, q) of the output's block at point t is the output at row (t/4)·1024 + p, column q. -/
theorem read_blk7_3 (X : S4096x819.Idx → EReal) (t : Fin cfg7.N) (p : Fin 1024) (q : Fin 819) :
    (((cfg7.win 3).blk t).view.read (Elt Ideal) X : S1024x819.Idx → EReal) (ix2 p q)
      = X (ix2 (⟨t.val / 4 * 1024 + p.val, by have := t.isLt; have := gridN7_eq; omega⟩ : Fin 4096) q) := by
  obtain ⟨-, -, -, -, -, -, e0, e1⟩ := idx_facts7 t
  rw [View.read_apply]
  show X _ = X _
  congr 1
  funext a
  apply Fin.ext
  match a with
  | ⟨0, _⟩ => show win7_3.index t (0 : Fin 2) * 1024 + 1 * p.val = t.val / 4 * 1024 + p.val; rw [e0]; omega
  | ⟨1, _⟩ => show win7_3.index t (1 : Fin 2) * 819 + 1 * q.val = q.val; rw [e1]; omega

end Cert.KernelIdeal.Hand

end
-- ==== Proof.KI.R07Value.lean ====
/-
  The value of launch 7: out = tanh(A·B + bias). The symbolic runs left, per control case, lists of stored pieces;
  each is read back as one of the body's three pure terms of the staged blocks. By induction on the grid point the
  accumulator after point n holds the first n % 4 + 1 contraction blocks' part of the row block n / 4 of A·B;
  at a contraction's last block the stored output block is tanh of the whole row sum plus the bias row; those
  blocks are the row blocks of the result, they cover the output array, and so the array ends holding the result.
-/
import proofs.«113214_j66838281060556_2_alg».proof.Proof.KI.R07
import proofs.«113214_j66838281060556_2_alg».proof.Proof.KI.R07ValueA
import proofs.«113214_j66838281060556_2_alg».proof.Proof.KI.MatmulValue
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat)
open Idealize.ShloMosaic.ValueIdx (ix2 eq_ix2)

/-! ## What each case leaves, as the body's pure terms -/

section Pieces
variable {F : FTy → Type} [FloatOps F]
variable (V : (c : Dev nD) → (b : Ref sig .tc) → Buf (Elt F) ((c : Thread nD τ).loc b))

/-- The accumulator read whole gives back the contents it is held at. -/
theorem scM7_read_unread (h : (scM7 : Memref sig .tc .vmem S1024x819 .f32).IsWhole) (xs : Vec F S1024x819 .f32) :
    View.read (Elt F) (View.whole cc7_scratch0) (h.unread xs) = xs := h.read_unread xs

/-- A middle block: the accumulator ends at the update of what it held. -/
theorem accB7_eq (c : Dev nD) (t : Fin cfg7.N) (h0 : ¬t.val % 4 = 0) (h1 : ¬t.val % 4 = 3) (xs : Vec F S1024x819 .f32) :
    accB7 V c t h0 h1 xs = k7_pay2 (iblk7 V c 0 t) (iblk7 V c 1 t) xs := by
  unfold accB7
  rw [View.read_writes_eq_canon _ _ _ (coverB7 V c t h0 h1 xs)]
  unfold run7_B
  dsimp only
  sl_unfold_words
  rw [View.canon_unit_zero hz00]
  simp only [View.readAt_eq_ld, Memref.IsWhole.read_unread, scM7_read_unread, View.ld_unit_zero (S := S1024x1024) hz00, View.ld_unit_zero (S := S1024x819) hz00]

/-- A first block: the accumulator is reset, read back, and ends at the update of the zero block. -/
theorem accA7_eq (c : Dev nD) (t : Fin cfg7.N) (h0 : t.val % 4 = 0) (h1 : ¬t.val % 4 = 3) :
    accA7 V c t h0 h1 = k7_pay2 (iblk7 V c 0 t) (iblk7 V c 1 t) (k7_pay1 (F := F)) := by
  unfold accA7
  rw [View.read_writes_eq_canon _ _ _ (coverA7 V c t h0 h1)]
  unfold run7_A
  dsimp only
  sl_unfold_words
  rw [View.canon_cons_unit_zero (S := S1024x819) hz00]
  simp only [View.readAt_eq_ld, Memref.IsWhole.read_unread, scM7_read_unread, View.ld_unit_zero (S := S1024x1024) hz00, View.ld_unit_zero (S := S1024x819) hz00,
    View.readCov_unit_zero (S := S1024x819) _ hz00]

/-- A last block: the accumulator ends at the update of what it held, -/
theorem accC7_eq (c : Dev nD) (t : Fin cfg7.N) (h0 : ¬t.val % 4 = 0) (h1 : t.val % 4 = 3) (xs : Vec F S1024x819 .f32) :
    accC7 V c t h0 h1 xs = k7_pay2 (iblk7 V c 0 t) (iblk7 V c 1 t) xs := by
  unfold accC7
  rw [View.read_writes_eq_canon _ _ _ (coverCs7 V c t h0 h1 xs)]
  unfold run7_C
  dsimp only
  sl_unfold_words
  rw [View.canon_unit_zero hz00]
  simp only [View.readAt_eq_ld, Memref.IsWhole.read_unread, scM7_read_unread, View.ld_unit_zero (S := S1024x1024) hz00, View.ld_unit_zero (S := S1024x819) hz00]

/-- and the output block is the stored term of that accumulator, read back, and the bias block. -/
theorem outC7_eq (c : Dev nD) (t : Fin cfg7.N) (h0 : ¬t.val % 4 = 0) (h1 : t.val % 4 = 3) (xs : Vec F S1024x819 .f32) :
    outC7 V c t h0 h1 xs = k7_pay3 (k7_pay2 (iblk7 V c 0 t) (iblk7 V c 1 t) xs) (iblk7 V c 2 t) := by
  unfold outC7
  rw [View.read_writes_eq_canon _ _ _ (coverCo7 V c t h0 h1 xs)]
  unfold run7_C
  dsimp only
  sl_unfold_words
  rw [View.canon_unit_zero hz00]
  simp only [View.readAt_eq_ld, Memref.IsWhole.read_unread, scM7_read_unread, View.ld_unit_zero (S := S1024x1024) hz00, View.ld_unit_zero (S := S1024x819) hz00,
    View.ld_unit_zero (S := S1x819) hz00, View.readCov_unit_zero (S := S1024x819) _ hz00]

end Pieces

/-! ## The accumulator and the output block after each point, over the extended reals -/

section Value
variable (V : (c : Dev nD) → (b : Ref sig .tc) → Buf (Elt Ideal) ((c : Thread nD τ).loc b))

/-- The three arrays the launch reads, at their literal types: A, B and the bias row. -/
abbrev arrA7 (c : Dev nD) : S4096x4096.Idx → EReal := V c main_v1
abbrev arrB7 (c : Dev nD) : S4096x819.Idx → EReal := V c main_v11
abbrev arrC7 (c : Dev nD) : S1x819.Idx → EReal := V c main_v12
/-- The blocks the three input windows stage at a point, at their literal types. -/
abbrev blkA7 (c : Dev nD) (t : Fin cfg7.N) : S1024x1024.Idx → EReal := iblk7 V c 0 t
abbrev blkB7 (c : Dev nD) (t : Fin cfg7.N) : S1024x819.Idx → EReal := iblk7 V c 1 t
abbrev blkC7 (c : Dev nD) (t : Fin cfg7.N) : S1x819.Idx → EReal := iblk7 V c 2 t

theorem blkA7_apply (c : Dev nD) (t : Fin cfg7.N) (p l : Fin 1024) :
    blkA7 V c t (ix2 p l) = natMat (arrA7 V c) (t.val / 4 * 1024 + p.val) (t.val % 4 * 1024 + l.val) :=
  (read_blk7_0 (arrA7 V c) t p l).trans (natMat_val (arrA7 V c) _ _).symm

theorem blkB7_apply (c : Dev nD) (t : Fin cfg7.N) (l : Fin 1024) (q : Fin 819) :
    blkB7 V c t (ix2 l q) = natMat (arrB7 V c) (t.val % 4 * 1024 + l.val) q.val :=
  (read_blk7_1 (arrB7 V c) t l q).trans (natMat_val (arrB7 V c) _ _).symm

theorem blkC7_apply (c : Dev nD) (t : Fin cfg7.N) (q : Fin 819) :
    blkC7 V c t (ix2 (0 : Fin 1) q) = arrC7 V c (ix2 (0 : Fin 1) q) :=
  read_blk7_2 (arrC7 V c) t q

/-- The product of the two staged blocks at (p, q) is the contraction block's part of the row of A·B. -/
theorem block_sum7 (c : Dev nD) (t : Fin cfg7.N) (p : Fin 1024) (q : Fin 819) :
    ∑ l : Fin 1024, blkA7 V c t (ix2 p l) * blkB7 V c t (ix2 l q)
      = blockTerm (arrA7 V c) (arrB7 V c) (t.val / 4) (t.val % 4) p q :=
  Finset.sum_congr rfl fun l _ => by rw [blkA7_apply, blkB7_apply]

/-- A contraction's first block leaves its own part of the sum. -/
theorem acc7_A (c : Dev nD) (t : Fin cfg7.N) (h0 : t.val % 4 = 0) (h1 : ¬t.val % 4 = 3) (p : Fin 1024) (q : Fin 819) :
    (outsAt7 V c t.val t.isLt).2 (ix2 p q) = partialSum (arrA7 V c) (arrB7 V c) (t.val / 4) (t.val % 4 + 1) p q := by
  rw [outsAt7_A V c t h0 h1]
  dsimp only
  refine (congrFun (accA7_eq (F := Ideal) V c t h0 h1) (ix2 p q)).trans ?_
  refine (pay2_7_apply (blkA7 V c t) (blkB7 V c t) (k7_pay1 (F := Ideal)) p q).trans ?_
  rw [pay1_7_apply p q, block_sum7 V c t p q, h0]
  exact (partialSum_one (arrA7 V c) (arrB7 V c) (t.val / 4) p q).symm

/-- A later block adds its part to what the point before left. -/
theorem acc7_BC (c : Dev nD) (t : Fin cfg7.N) (h0 : ¬t.val % 4 = 0)
    (ih : ∀ (p : Fin 1024) (q : Fin 819), (outsAt7 V c (t.val - 1) (Nat.lt_of_le_of_lt (Nat.sub_le _ _) t.isLt)).2 (ix2 p q)
      = partialSum (arrA7 V c) (arrB7 V c) ((t.val - 1) / 4) ((t.val - 1) % 4 + 1) p q)
    (p : Fin 1024) (q : Fin 819) :
    (outsAt7 V c t.val t.isLt).2 (ix2 p q) = partialSum (arrA7 V c) (arrB7 V c) (t.val / 4) (t.val % 4 + 1) p q := by
  have e1 : (t.val - 1) / 4 = t.val / 4 := by omega
  have e2 : (t.val - 1) % 4 + 1 = t.val % 4 := by omega
  have step : (outsAt7 V c (t.val - 1) (Nat.lt_of_le_of_lt (Nat.sub_le _ _) t.isLt)).2 (ix2 p q)
      + ∑ l : Fin 1024, blkA7 V c t (ix2 p l) * blkB7 V c t (ix2 l q)
      = partialSum (arrA7 V c) (arrB7 V c) (t.val / 4) (t.val % 4 + 1) p q := by
    rw [ih p q, block_sum7 V c t p q, e1, e2]
    exact (partialSum_succ (arrA7 V c) (arrB7 V c) (t.val / 4) (t.val % 4) p q).symm
  by_cases h1 : t.val % 4 = 3
  · rw [outsAt7_C V c t h0 h1]
    dsimp only
    refine (congrFun (accC7_eq (F := Ideal) V c t h0 h1 (outsAt7 V c (t.val - 1) (Nat.lt_of_le_of_lt (Nat.sub_le _ _) t.isLt)).2) (ix2 p q)).trans ?_
    exact (pay2_7_apply (blkA7 V c t) (blkB7 V c t) (outsAt7 V c (t.val - 1) (Nat.lt_of_le_of_lt (Nat.sub_le _ _) t.isLt)).2 p q).trans step
  · rw [outsAt7_B V c t h0 h1]
    dsimp only
    refine (congrFun (accB7_eq (F := Ideal) V c t h0 h1 (outsAt7 V c (t.val - 1) (Nat.lt_of_le_of_lt (Nat.sub_le _ _) t.isLt)).2) (ix2 p q)).trans ?_
    exact (pay2_7_apply (blkA7 V c t) (blkB7 V c t) (outsAt7 V c (t.val - 1) (Nat.lt_of_le_of_lt (Nat.sub_le _ _) t.isLt)).2 p q).trans step

/-- THE INVARIANT: after point n the accumulator holds, at (p, q), the first n % 4 + 1 blocks' part of row
    (n/4)·1024 + p of A·B at column q. By induction on the point. -/
theorem acc7_inv (c : Dev nD) (n : ℕ) : ∀ (hn : n < cfg7.N) (p : Fin 1024) (q : Fin 819),
    (outsAt7 V c n hn).2 (ix2 p q) = partialSum (arrA7 V c) (arrB7 V c) (n / 4) (n % 4 + 1) p q := by
  induction n with
  | zero => intro hn p q; exact acc7_A V c ⟨0, hn⟩ rfl (by show ¬(0 % 4 = 3); decide) p q
  | succ n ih =>
    intro hn p q
    by_cases h0 : (n + 1) % 4 = 0
    · exact acc7_A V c ⟨n + 1, hn⟩ h0 (by show ¬((n + 1) % 4 = 3); omega) p q
    · exact acc7_BC V c ⟨n + 1, hn⟩ h0 (fun p q => ih (Nat.lt_of_succ_lt hn) p q) p q

/-- At a contraction's last block the stored output block is tanh of the whole row sum plus the bias. -/
theorem out7_C (c : Dev nD) (t : Fin cfg7.N) (h1 : t.val % 4 = 3) (p : Fin 1024) (q : Fin 819) :
    (outsAt7 V c t.val t.isLt).1 (ix2 p q)
      = Ideal.tanh (partialSum (arrA7 V c) (arrB7 V c) (t.val / 4) 4 p q + arrC7 V c (ix2 (0 : Fin 1) q)) := by
  have h0 : ¬t.val % 4 = 0 := by omega
  have hacc := acc7_inv V c t.val t.isLt p q
  rw [outsAt7_C V c t h0 h1] at hacc ⊢
  dsimp only at hacc ⊢
  refine (congrFun (outC7_eq (F := Ideal) V c t h0 h1 (outsAt7 V c (t.val - 1) (Nat.lt_of_le_of_lt (Nat.sub_le _ _) t.isLt)).2) (ix2 p q)).trans ?_
  refine (pay3_7_apply (k7_pay2 (F := Ideal) (blkA7 V c t) (blkB7 V c t) (outsAt7 V c (t.val - 1) (Nat.lt_of_le_of_lt (Nat.sub_le _ _) t.isLt)).2) (blkC7 V c t) p q).trans ?_
  have hacc' : k7_pay2 (F := Ideal) (blkA7 V c t) (blkB7 V c t) (outsAt7 V c (t.val - 1) (Nat.lt_of_le_of_lt (Nat.sub_le _ _) t.isLt)).2 (ix2 p q)
      = partialSum (arrA7 V c) (arrB7 V c) (t.val / 4) 4 p q := by
    refine (congrFun (accC7_eq (F := Ideal) V c t h0 h1 (outsAt7 V c (t.val - 1) (Nat.lt_of_le_of_lt (Nat.sub_le _ _) t.isLt)).2) (ix2 p q)).symm.trans ?_
    rw [hacc, h1]
  rw [hacc', blkC7_apply V c t q]

end Value

/-! ## From the flushed blocks to the output array -/

section Final
variable (V : (c : Dev nD) → (b : Ref sig .tc) → Buf (Elt Ideal) ((c : Thread nD τ).loc b))

/-- What the launch leaves in the output array: tanh(A·B + bias), index by index. -/
abbrev res7 (c : Dev nD) : S4096x819.Idx → EReal := tanhG (arrA7 V c) (arrB7 V c) (arrC7 V c)

/-- The block a contraction's last point writes back is that point's row block of the result. -/
theorem flushed7_eq (c : Dev nD) (t : Fin cfg7.N) (hf : (cfg7.win 3).flush t = true) :
    (dat7 V c).flushed 3 t = ((cfg7.win 3).blk t).view.read (Elt Ideal) (res7 V c) := by
  have h1 : t.val % 4 = 3 := (flush7_3 t).mp hf
  have hN := gridN7_eq
  have ht := t.isLt
  show (cfg7.win 3).cut (grid7.coords t) ((dat7 V c).after 3 t) = _
  rw [after7_3]
  refine funext fun (y : S1024x819.Idx) => ?_
  obtain ⟨p, q, rfl⟩ : ∃ (p : Fin 1024) (q : Fin 819), y = ix2 p q := ⟨y 0, y 1, eq_ix2 y⟩
  show (outsAt7 V c t.val t.isLt).1 (ix2 p q) = (((cfg7.win 3).blk t).view.read (Elt Ideal) (res7 V c) : S1024x819.Idx → EReal) (ix2 p q)
  rw [out7_C V c t h1 p q, read_blk7_3 (res7 V c) t p q,
    partialSum_four (arrA7 V c) (arrB7 V c) (t.val / 4) (by omega) p q]
  rfl

/-- An index of the output array lies in point t's block iff each coordinate is in the block's range. -/
theorem mem_blk7_3 (t : Fin cfg7.N) (i : S4096x819.Idx) :
    i ∈ ((cfg7.win 3).blk t).view.set ↔ ∀ a : Fin 2, win7_3.index t a * S1024x819.size a ≤ (i a).val ∧ (i a).val < win7_3.index t a * S1024x819.size a + S1024x819.size a := by
  show i ∈ ((View.whole main_v13).slice (win7_3.rect t)).set ↔ _
  rw [View.set_slice_whole, Rect.mem_set_unit]
  exact Iff.rfl

/-- Row r of the output lies in the block written back at point 4·(r / 1024) + 3. -/
theorem cover7 (i : S4096x819.Idx) : ∃ t : Fin cfg7.N, (cfg7.win 3).flush t = true ∧ i ∈ ((cfg7.win 3).blk t).view.set := by
  have hi0 : (i 0).val < 4096 := (i 0).isLt
  have hi1 : (i 1).val < 819 := (i 1).isLt
  have hN := gridN7_eq
  refine ⟨⟨4 * ((i 0).val / 1024) + 3, by omega⟩, (flush7_3 _).mpr (by show (4 * ((i 0).val / 1024) + 3) % 4 = 3; omega), ?_⟩
  rw [mem_blk7_3]
  obtain ⟨-, -, -, -, -, -, e0, e1⟩ := idx_facts7 ⟨4 * ((i 0).val / 1024) + 3, by omega⟩
  intro a
  match a with
  | ⟨0, _⟩ =>
    show win7_3.index _ (0 : Fin 2) * 1024 ≤ (i 0).val ∧ (i 0).val < win7_3.index _ (0 : Fin 2) * 1024 + 1024
    rw [e0]; dsimp only; omega
  | ⟨1, _⟩ =>
    show win7_3.index _ (1 : Fin 2) * 819 ≤ (i 1).val ∧ (i 1).val < win7_3.index _ (1 : Fin 2) * 819 + 819
    rw [e1]; omega

/-- So the output array ends holding tanh(A·B + bias). -/
theorem out7_eq (c : Dev nD) : out7 V c = res7 V c :=
  (dat7 V c).arrAt_eq_of_cover 3 (res7 V c) (flushed7_eq V c) cover7

/-- THE VALUE OF LAUNCH 7, in matrix form: the output is tanh of the product of the two input matrices plus the
    bias row broadcast down the rows. -/
theorem out7_value (c : Dev nD) :
    GcnSpec.toMat (out7 V c : S4096x819.Idx → EReal)
      = GcnSpec.tanhB (GcnSpec.mm (GcnSpec.toMat (V c main_v1 : S4096x4096.Idx → EReal)) (GcnSpec.toMat (V c main_v11 : S4096x819.Idx → EReal)))
          (fun j => (V c main_v12 : S1x819.Idx → EReal) (ix2 (0 : Fin 1) j)) := by
  rw [out7_eq V c]
  exact toMat_tanhG (arrA7 V c) (arrB7 V c) (arrC7 V c)

end Final

end Cert.KernelIdeal.Hand

end
-- ==== Proof.KI.R08ValueA.lean ====
/-
  Launch 8 computes out = A·B, one row block of A per grid point: the point t multiplies A's row block t by the
  whole of B into an accumulator reset at that point, and stores the accumulator, converted to the output's format,
  into the output's row block t. This module reads the body's three pure terms at an index over the extended reals
  (where a change of format is the identity) and reads a window's block at an index of its array; nothing here
  depends on the symbolic run.
-/
import proofs.«113214_j66838281060556_2_alg».proof.Proof.Gen.KernelIdeal.Launch
import proofs.«113214_j66838281060556_2_alg».proof.Proof.Gen.KernelIdeal.Skeleton
import proofs.«113214_j66838281060556_2_alg».proof.Proof.Gen.KernelIdeal.Points
import proofs.«113214_j66838281060556_2_alg».proof.Proof.GcnSpec
import proofs.«113214_j66838281060556_2_alg».proof.Proof.GcnAlgebra
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.ValueIdx (ix2 eq_ix2)

/-! ## The body's pure terms at an index, over the extended reals -/

/-- The product's contraction record, by a short name. -/
abbrev D8 : DotDims S1024x819 S819x819 S1024x819 := dot_S1024x819_S819x819_S1024x819_1_0_0_1_n_n

theorem lhs_D8_0 (i : S1024x819.Idx) (q : dot_S1024x819_S819x819_S1024x819_1_0_0_1_n_n.contr.Idx) :
    (dot_S1024x819_S819x819_S1024x819_1_0_0_1_n_n.lhsIdx i q 0).val = (i 0).val := by
  unfold DotDims.lhsIdx
  rw [dif_neg (show ¬(0 : Fin S1024x819.rank) ∈ dot_S1024x819_S819x819_S1024x819_1_0_0_1_n_n.lhsBatch by decide), dif_pos (show (0 : Fin S1024x819.rank) ∈ dot_S1024x819_S819x819_S1024x819_1_0_0_1_n_n.lhsNonContracting by decide)]
  rfl
theorem lhs_D8_1 (i : S1024x819.Idx) (q : dot_S1024x819_S819x819_S1024x819_1_0_0_1_n_n.contr.Idx) :
    (dot_S1024x819_S819x819_S1024x819_1_0_0_1_n_n.lhsIdx i q 1).val = (q ⟨0, by decide⟩).val :=
  dot_S1024x819_S819x819_S1024x819_1_0_0_1_n_n.lhsIdx_val_of_single rfl i q
theorem rhs_D8_0 (i : S1024x819.Idx) (q : dot_S1024x819_S819x819_S1024x819_1_0_0_1_n_n.contr.Idx) :
    (dot_S1024x819_S819x819_S1024x819_1_0_0_1_n_n.rhsIdx i q 0).val = (q ⟨0, by decide⟩).val :=
  dot_S1024x819_S819x819_S1024x819_1_0_0_1_n_n.rhsIdx_val_of_single rfl i q
theorem rhs_D8_1 (i : S1024x819.Idx) (q : dot_S1024x819_S819x819_S1024x819_1_0_0_1_n_n.contr.Idx) :
    (dot_S1024x819_S819x819_S1024x819_1_0_0_1_n_n.rhsIdx i q 1).val = (i 1).val := by
  unfold DotDims.rhsIdx
  rw [dif_neg (show ¬(1 : Fin S819x819.rank) ∈ dot_S1024x819_S819x819_S1024x819_1_0_0_1_n_n.rhsBatch by decide), dif_pos (show (1 : Fin S819x819.rank) ∈ dot_S1024x819_S819x819_S1024x819_1_0_0_1_n_n.rhsNonContracting by decide)]
  rfl

/-- The block product at (p, q) is the sum over the 819 contracted columns. -/
theorem matmul8_apply (x0 : Vec Ideal S1024x819 .bf16) (x1 : Vec Ideal S819x819 .bf16) (p : Fin 1024) (q : Fin 819) :
    matmul (F := Ideal) (φ₁ := .bf16) (φ₂ := .bf16) dot_S1024x819_S819x819_S1024x819_1_0_0_1_n_n none x0 x1 (constant S1024x819 .f32 0x00000000#32) (ix2 p q)
      = ∑ l : Fin 819, x0 (ix2 p l) * x1 (ix2 l q) := by
  refine (Ideal.matmul_constant_zero_apply (φ₁ := .bf16) (φ₂ := .bf16) dot_S1024x819_S819x819_S1024x819_1_0_0_1_n_n none x0 x1 (ix2 p q)).trans ?_
  rw [← Equiv.sum_comp (ValueIdx.contrEquiv1 dot_S1024x819_S819x819_S1024x819_1_0_0_1_n_n 819 rfl rfl).symm]
  refine Finset.sum_congr rfl fun k _ => ?_
  have hk := ValueIdx.contrEquiv1_symm_val dot_S1024x819_S819x819_S1024x819_1_0_0_1_n_n 819 rfl rfl k
  have el : dot_S1024x819_S819x819_S1024x819_1_0_0_1_n_n.lhsIdx (ix2 p q) ((ValueIdx.contrEquiv1 dot_S1024x819_S819x819_S1024x819_1_0_0_1_n_n 819 rfl rfl).symm k) = ix2 p k := funext fun a => Fin.ext (by
    match a with
    | ⟨0, _⟩ => exact lhs_D8_0 _ _
    | ⟨1, _⟩ => exact (lhs_D8_1 _ _).trans hk)
  have er : dot_S1024x819_S819x819_S1024x819_1_0_0_1_n_n.rhsIdx (ix2 p q) ((ValueIdx.contrEquiv1 dot_S1024x819_S819x819_S1024x819_1_0_0_1_n_n 819 rfl rfl).symm k) = ix2 k q := funext fun a => Fin.ext (by
    match a with
    | ⟨0, _⟩ => exact (rhs_D8_0 _ _).trans hk
    | ⟨1, _⟩ => exact rhs_D8_1 _ _)
  rw [el, er]

/-- The reset block is zero everywhere. -/
theorem pay1_8_apply (p : Fin 1024) (q : Fin 819) : k8_pay1 (F := Ideal) (ix2 p q) = 0 := by
  unfold k8_pay1
  simp only [shapeCast_self]
  exact Ideal.ofBits_zero_f32

/-- The update adds the block product to what the accumulator held; the two factors' change of format is the
    identity on the extended reals. -/
theorem pay2_8_apply (x0 : Vec Ideal S1024x819 .f32) (x1 : Vec Ideal S819x819 .f32) (xs : Vec Ideal S1024x819 .f32)
    (p : Fin 1024) (q : Fin 819) :
    k8_pay2 (F := Ideal) x0 x1 xs (ix2 p q) = xs (ix2 p q) + ∑ l : Fin 819, x0 (ix2 p l) * x1 (ix2 l q) := by
  unfold k8_pay2
  simp only [shapeCast_self]
  exact congrArg (xs (ix2 p q) + ·) (matmul8_apply x0 x1 p q)

/-- The stored output block is the accumulator: its change of format is the identity on the extended reals. -/
theorem pay3_8_apply (v16 : Vec Ideal S1024x819 .f32) (p : Fin 1024) (q : Fin 819) :
    k8_pay3 (F := Ideal) v16 (ix2 p q) = v16 (ix2 p q) := rfl

/-! ## A window's block at an index of its array -/

theorem N8_eq : cfg8.N = 4 := N_8

/-- The printed index maps, decided over the grid's points: the left factor's block is (t, 0), the right factor's
    (0, 0), the output's (t, 0). -/
theorem idx_facts8 : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

section Blocks

variable {F : FTy → Type}

/-- Entry (p, l) of the left factor's block at point t is the array at row t·1024 + p, column l. -/
theorem read_blk8_0 (X : Vec F S4096x819 .f32) (t : Fin cfg8.N) (p : Fin 1024) (l : Fin 819) :
    (((cfg8.win 0).blk t).view.read (Elt F) X : Vec F S1024x819 .f32) (ix2 p l)
      = X (ix2 (⟨t.val * 1024 + p.val, by have := t.isLt; have := N8_eq; omega⟩ : Fin 4096) l) := by
  obtain ⟨e0, e1, -⟩ := idx_facts8 t
  rw [View.read_apply]
  show X _ = X _
  congr 1
  funext a
  apply Fin.ext
  match a with
  | ⟨0, _⟩ => show win8_0.index t (0 : Fin 2) * 1024 + 1 * p.val = t.val * 1024 + p.val; rw [e0]; omega
  | ⟨1, _⟩ => show win8_0.index t (1 : Fin 2) * 819 + 1 * l.val = l.val; rw [e1]; omega

/-- The right factor's block at any point is the whole array. -/
theorem read_blk8_1 (X : Vec F S819x819 .f32) (t : Fin cfg8.N) (l : Fin 819) (q : Fin 819) :
    (((cfg8.win 1).blk t).view.read (Elt F) X : Vec F S819x819 .f32) (ix2 l q) = X (ix2 l q) := by
  obtain ⟨-, -, e0, e1, -⟩ := idx_facts8 t
  rw [View.read_apply]
  show X _ = X _
  congr 1
  funext a
  apply Fin.ext
  match a with
  | ⟨0, _⟩ => show win8_1.index t (0 : Fin 2) * 819 + 1 * l.val = l.val; rw [e0]; omega
  | ⟨1, _⟩ => show win8_1.index t (1 : Fin 2) * 819 + 1 * q.val = q.val; rw [e1]; omega

/-- Entry (p, q) of the output's block at point t is the output at row t·1024 + p, column q. -/
theorem read_blk8_2 (X : Vec F S4096x819 .bf16) (t : Fin cfg8.N) (p : Fin 1024) (q : Fin 819) :
    (((cfg8.win 2).blk t).view.read (Elt F) X : Vec F S1024x819 .bf16) (ix2 p q)
      = X (ix2 (⟨t.val * 1024 + p.val, by have := t.isLt; have := N8_eq; omega⟩ : Fin 4096) q) := by
  obtain ⟨-, -, -, -, e0, e1⟩ := idx_facts8 t
  rw [View.read_apply]
  show X _ = X _
  congr 1
  funext a
  apply Fin.ext
  match a with
  | ⟨0, _⟩ => show win8_2.index t (0 : Fin 2) * 1024 + 1 * p.val = t.val * 1024 + p.val; rw [e0]; omega
  | ⟨1, _⟩ => show win8_2.index t (1 : Fin 2) * 819 + 1 * q.val = q.val; rw [e1]; omega

end Blocks

/-! ## The result, index by index -/

/-- What the output array holds after the launch: row i of A·B at column j. -/
def G8 (A : Vec Ideal S4096x819 .f32) (B : Vec Ideal S819x819 .f32) : Vec Ideal S4096x819 .bf16 :=
  fun y => ∑ k : Fin 819, A (ix2 (y 0) k) * B (ix2 k (y 1))

/-- In matrix form it is A·B. -/
theorem toMat_G8 (A : Vec Ideal S4096x819 .f32) (B : Vec Ideal S819x819 .f32) :
    GcnSpec.toMat (G8 A B) = GcnSpec.mm (GcnSpec.toMat A) (GcnSpec.toMat B) := rfl

end Cert.KernelIdeal.Hand

end
-- ==== Proof.KI.R08Value.lean ====
/-
  The value of launch 8: out = A·B. The symbolic run left the list of pieces stored into the output block; it is
  read back as the body's three pure terms of the staged blocks: the accumulator reset, the product of the two
  staged blocks added, that sum stored in the output's format. One point's block is thus a row block of the result;
  those blocks cover the output array, and so the array ends holding the result.
-/
import proofs.«113214_j66838281060556_2_alg».proof.Proof.KI.R08
import proofs.«113214_j66838281060556_2_alg».proof.Proof.KI.R08ValueA
import proofs.«113214_j66838281060556_2_alg».proof.Proof.GcnSpec
import proofs.«113214_j66838281060556_2_alg».proof.Proof.GcnAlgebra
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat)
open Idealize.ShloMosaic.ValueIdx (ix2 eq_ix2)

/-! ## What a point stores, as the body's pure terms -/

section Pieces
variable {F : FTy → Type} [FloatOps F]
variable (V : (c : Dev nD) → (b : Ref sig .tc) → Buf (Elt F) ((c : Thread nD τ).loc b))

theorem hz8 : (![0, 0] : Fin 2 → Nat) = fun _ => 0 := funext fun a => by fin_cases a <;> rfl

/-- The accumulator read whole gives back the contents it is held at. -/
theorem scM8_read_unread (h : (scM8 : Memref sig .tc .vmem S1024x819 .f32).IsWhole) (xs : Vec F S1024x819 .f32) :
    View.read (Elt F) (View.whole cc8_scratch0) (h.unread xs) = xs := h.read_unread xs

/-- The output block a point stores: the accumulator is reset, read back, updated by the product of the two staged
    blocks, read back, and the stored term of it is what the output's buffer holds. -/
theorem outO8_eq (c : Dev nD) (t : Fin cfg8.N) :
    out8 V c t = k8_pay3 (k8_pay2 (iblk8 V c 0 t) (iblk8 V c 1 t) (k8_pay1 (F := F))) := by
  unfold out8
  rw [View.read_writes_eq_canon _ _ _ (coverO8 V c t)]
  unfold run8
  dsimp only
  sl_unfold_words
  rw [View.canon_unit_zero hz8]
  simp only [View.readAt_eq_ld, Memref.IsWhole.read_unread, scM8_read_unread, View.ld_unit_zero (S := S1024x819) hz8, View.ld_unit_zero (S := S819x819) hz8,
    View.readCov_unit_zero (S := S1024x819) _ hz8, View.readCov_cons_toLoadRect]

end Pieces

/-! ## The stored block, over the extended reals -/

section Value
variable (V : (c : Dev nD) → (b : Ref sig .tc) → Buf (Elt Ideal) ((c : Thread nD τ).loc b))

/-- The two arrays the launch reads, at their literal types: A and B. -/
abbrev arrA8 (c : Dev nD) : Vec Ideal S4096x819 .f32 := V c main_v24
abbrev arrB8 (c : Dev nD) : Vec Ideal S819x819 .f32 := V c main_arg21
/-- The blocks the two input windows stage at a point, at their literal types. -/
abbrev blkA8 (c : Dev nD) (t : Fin cfg8.N) : Vec Ideal S1024x819 .f32 := iblk8 V c 0 t
abbrev blkB8 (c : Dev nD) (t : Fin cfg8.N) : Vec Ideal S819x819 .f32 := iblk8 V c 1 t

theorem blkA8_apply (c : Dev nD) (t : Fin cfg8.N) (p : Fin 1024) (l : Fin 819) :
    blkA8 V c t (ix2 p l) = arrA8 V c (ix2 (⟨t.val * 1024 + p.val, by have := t.isLt; have := N8_eq; omega⟩ : Fin 4096) l) :=
  read_blk8_0 (F := Ideal) (arrA8 V c) t p l

theorem blkB8_apply (c : Dev nD) (t : Fin cfg8.N) (l : Fin 819) (q : Fin 819) :
    blkB8 V c t (ix2 l q) = arrB8 V c (ix2 l q) :=
  read_blk8_1 (F := Ideal) (arrB8 V c) t l q

/-- The block a point stores is, at (p, q), row t·1024 + p of A·B at column q. -/
theorem out8_pt (c : Dev nD) (t : Fin cfg8.N) (p : Fin 1024) (q : Fin 819) :
    out8 V c t (ix2 p q)
      = ∑ l : Fin 819, arrA8 V c (ix2 (⟨t.val * 1024 + p.val, by have := t.isLt; have := N8_eq; omega⟩ : Fin 4096) l) * arrB8 V c (ix2 l q) := by
  refine (congrFun (outO8_eq (F := Ideal) V c t) (ix2 p q)).trans ?_
  refine (pay3_8_apply (k8_pay2 (blkA8 V c t) (blkB8 V c t) (k8_pay1 (F := Ideal))) p q).trans ?_
  rw [pay2_8_apply (blkA8 V c t) (blkB8 V c t) (k8_pay1 (F := Ideal)) p q, pay1_8_apply p q, zero_add]
  exact Finset.sum_congr rfl fun l _ => by rw [blkA8_apply, blkB8_apply]

end Value

/-! ## From the flushed blocks to the output array -/

section Final
variable (V : (c : Dev nD) → (b : Ref sig .tc) → Buf (Elt Ideal) ((c : Thread nD τ).loc b))

/-- What the launch leaves in the output array: A·B, index by index. -/
abbrev res8 (c : Dev nD) : Vec Ideal S4096x819 .bf16 := G8 (arrA8 V c) (arrB8 V c)

/-- The block a point writes back is that point's row block of the result. -/
theorem flushed8_eq (c : Dev nD) (t : Fin cfg8.N) (hf : (cfg8.win 2).flush t = true) :
    (dat8 V c).flushed 2 t = ((cfg8.win 2).blk t).view.read (Elt Ideal) (res8 V c) := by
  have hN := N8_eq
  have ht := t.isLt
  show (cfg8.win 2).cut (grid8.coords t) ((dat8 V c).after 2 t) = _
  rw [after8_2]
  refine funext fun (y : S1024x819.Idx) => ?_
  obtain ⟨p, q, rfl⟩ : ∃ (p : Fin 1024) (q : Fin 819), y = ix2 p q := ⟨y 0, y 1, eq_ix2 y⟩
  show out8 V c t (ix2 p q) = (((cfg8.win 2).blk t).view.read (Elt Ideal) (res8 V c) : Vec Ideal S1024x819 .bf16) (ix2 p q)
  rw [out8_pt V c t p q, read_blk8_2 (F := Ideal) (res8 V c) t p q]
  rfl

/-- An index of the output array lies in point t's block iff each coordinate is in the block's range. -/
theorem mem_blk8_2 (t : Fin cfg8.N) (i : S4096x819.Idx) :
    i ∈ ((cfg8.win 2).blk t).view.set ↔ ∀ a : Fin 2, win8_2.index t a * S1024x819.size a ≤ (i a).val ∧ (i a).val < win8_2.index t a * S1024x819.size a + S1024x819.size a := by
  show i ∈ ((View.whole main_v25).slice (win8_2.rect t)).set ↔ _
  rw [View.set_slice_whole, Rect.mem_set_unit]
  exact Iff.rfl

/-- Row r of the output lies in the block written back at point r / 1024. -/
theorem cover8 (i : S4096x819.Idx) : ∃ t : Fin cfg8.N, (cfg8.win 2).flush t = true ∧ i ∈ ((cfg8.win 2).blk t).view.set := by
  have hi0 : (i 0).val < 4096 := (i 0).isLt
  have hi1 : (i 1).val < 819 := (i 1).isLt
  have hN := N8_eq
  refine ⟨⟨(i 0).val / 1024, by omega⟩, flush8_2 _, ?_⟩
  rw [mem_blk8_2]
  obtain ⟨-, -, -, -, e0, e1⟩ := idx_facts8 ⟨(i 0).val / 1024, by omega⟩
  intro a
  match a with
  | ⟨0, _⟩ =>
    show win8_2.index _ (0 : Fin 2) * 1024 ≤ (i 0).val ∧ (i 0).val < win8_2.index _ (0 : Fin 2) * 1024 + 1024
    rw [e0]; dsimp only; omega
  | ⟨1, _⟩ =>
    show win8_2.index _ (1 : Fin 2) * 819 ≤ (i 1).val ∧ (i 1).val < win8_2.index _ (1 : Fin 2) * 819 + 819
    rw [e1]; omega

/-- So the output array ends holding A·B. -/
theorem out8arr_eq (c : Dev nD) : out8arr V c = res8 V c :=
  (dat8 V c).arrAt_eq_of_cover 2 (res8 V c) (flushed8_eq V c) cover8

/-- THE VALUE OF LAUNCH 8, in matrix form: the output is the product of the two input matrices. -/
theorem out8_value (c : Dev nD) :
    GcnSpec.toMat (out8arr V c : S4096x819.Idx → EReal)
      = GcnSpec.mm (GcnSpec.toMat (V c main_v24 : S4096x819.Idx → EReal)) (GcnSpec.toMat (V c main_arg21 : S819x819.Idx → EReal)) := by
  rw [out8arr_eq V c]
  exact toMat_G8 (arrA8 V c) (arrB8 V c)

end Final

end Cert.KernelIdeal.Hand

end
-- ==== Proof.KI.R09ValueA.lean ====
/-
  Launch 9 computes out = σ(A·Bᵀ) for A and B with 819 columns, one block of the output per grid point: the point t
  multiplies A's row block t / 4 by the transpose of B's row block t % 4 into an accumulator reset at that point, and
  stores the logistic function of the accumulator into the output's block (t / 4, t % 4). This module reads the
  body's three pure terms at an index over the extended reals and reads a window's block at an index of its array;
  nothing here depends on the symbolic run.
-/
import proofs.«113214_j66838281060556_2_alg».proof.Proof.Gen.KernelIdeal.Launch
import proofs.«113214_j66838281060556_2_alg».proof.Proof.Gen.KernelIdeal.Skeleton
import proofs.«113214_j66838281060556_2_alg».proof.Proof.Gen.KernelIdeal.Points
import proofs.«113214_j66838281060556_2_alg».proof.Proof.GcnSpec
import proofs.«113214_j66838281060556_2_alg».proof.Proof.GcnAlgebra
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.ValueIdx (ix2 eq_ix2)

/-! ## The body's pure terms at an index, over the extended reals -/

/-- The product's contraction record, by a short name: both factors are contracted on their second axis. -/
abbrev D9 : DotDims S1024x819 S1024x819 S1024x1024 := dot_S1024x819_S1024x819_S1024x1024_1_1_0_0_n_n

theorem lhs_D9_0 (i : S1024x1024.Idx) (q : dot_S1024x819_S1024x819_S1024x1024_1_1_0_0_n_n.contr.Idx) :
    (dot_S1024x819_S1024x819_S1024x1024_1_1_0_0_n_n.lhsIdx i q 0).val = (i 0).val := by
  unfold DotDims.lhsIdx
  rw [dif_neg (show ¬(0 : Fin S1024x819.rank) ∈ dot_S1024x819_S1024x819_S1024x1024_1_1_0_0_n_n.lhsBatch by decide), dif_pos (show (0 : Fin S1024x819.rank) ∈ dot_S1024x819_S1024x819_S1024x1024_1_1_0_0_n_n.lhsNonContracting by decide)]
  rfl
theorem lhs_D9_1 (i : S1024x1024.Idx) (q : dot_S1024x819_S1024x819_S1024x1024_1_1_0_0_n_n.contr.Idx) :
    (dot_S1024x819_S1024x819_S1024x1024_1_1_0_0_n_n.lhsIdx i q 1).val = (q ⟨0, by decide⟩).val :=
  dot_S1024x819_S1024x819_S1024x1024_1_1_0_0_n_n.lhsIdx_val_of_single rfl i q
theorem rhs_D9_0 (i : S1024x1024.Idx) (q : dot_S1024x819_S1024x819_S1024x1024_1_1_0_0_n_n.contr.Idx) :
    (dot_S1024x819_S1024x819_S1024x1024_1_1_0_0_n_n.rhsIdx i q 0).val = (i 1).val := by
  unfold DotDims.rhsIdx
  rw [dif_neg (show ¬(0 : Fin S1024x819.rank) ∈ dot_S1024x819_S1024x819_S1024x1024_1_1_0_0_n_n.rhsBatch by decide), dif_pos (show (0 : Fin S1024x819.rank) ∈ dot_S1024x819_S1024x819_S1024x1024_1_1_0_0_n_n.rhsNonContracting by decide)]
  rfl
theorem rhs_D9_1 (i : S1024x1024.Idx) (q : dot_S1024x819_S1024x819_S1024x1024_1_1_0_0_n_n.contr.Idx) :
    (dot_S1024x819_S1024x819_S1024x1024_1_1_0_0_n_n.rhsIdx i q 1).val = (q ⟨0, by decide⟩).val :=
  dot_S1024x819_S1024x819_S1024x1024_1_1_0_0_n_n.rhsIdx_val_of_single rfl i q

/-- The block product at (p, q) is the sum over the 819 contracted columns of row p of the left block times row q
    of the right block. -/
theorem matmul9_apply (x0 : Vec Ideal S1024x819 .bf16) (x1 : Vec Ideal S1024x819 .bf16) (p : Fin 1024) (q : Fin 1024) :
    matmul (F := Ideal) (φ₁ := .bf16) (φ₂ := .bf16) dot_S1024x819_S1024x819_S1024x1024_1_1_0_0_n_n none x0 x1 (constant S1024x1024 .f32 0x00000000#32) (ix2 p q)
      = ∑ l : Fin 819, x0 (ix2 p l) * x1 (ix2 q l) := by
  refine (Ideal.matmul_constant_zero_apply (φ₁ := .bf16) (φ₂ := .bf16) dot_S1024x819_S1024x819_S1024x1024_1_1_0_0_n_n none x0 x1 (ix2 p q)).trans ?_
  rw [← Equiv.sum_comp (ValueIdx.contrEquiv1 dot_S1024x819_S1024x819_S1024x1024_1_1_0_0_n_n 819 rfl rfl).symm]
  refine Finset.sum_congr rfl fun k _ => ?_
  have hk := ValueIdx.contrEquiv1_symm_val dot_S1024x819_S1024x819_S1024x1024_1_1_0_0_n_n 819 rfl rfl k
  have el : dot_S1024x819_S1024x819_S1024x1024_1_1_0_0_n_n.lhsIdx (ix2 p q) ((ValueIdx.contrEquiv1 dot_S1024x819_S1024x819_S1024x1024_1_1_0_0_n_n 819 rfl rfl).symm k) = ix2 p k := funext fun a => Fin.ext (by
    match a with
    | ⟨0, _⟩ => exact lhs_D9_0 _ _
    | ⟨1, _⟩ => exact (lhs_D9_1 _ _).trans hk)
  have er : dot_S1024x819_S1024x819_S1024x1024_1_1_0_0_n_n.rhsIdx (ix2 p q) ((ValueIdx.contrEquiv1 dot_S1024x819_S1024x819_S1024x1024_1_1_0_0_n_n 819 rfl rfl).symm k) = ix2 q k := funext fun a => Fin.ext (by
    match a with
    | ⟨0, _⟩ => exact rhs_D9_0 _ _
    | ⟨1, _⟩ => exact (rhs_D9_1 _ _).trans hk)
  rw [el, er]

/-- The reset block is zero everywhere. -/
theorem pay1_9_apply (p : Fin 1024) (q : Fin 1024) : k9_pay1 (F := Ideal) (ix2 p q) = 0 := by
  unfold k9_pay1
  simp only [shapeCast_self]
  exact Ideal.ofBits_zero_f32

/-- The update adds the block product to what the accumulator held; the right factor's change of format is the
    identity on the extended reals. -/
theorem pay2_9_apply (x0 : Vec Ideal S1024x819 .bf16) (x1 : Vec Ideal S1024x819 .f32) (xs : Vec Ideal S1024x1024 .f32)
    (p : Fin 1024) (q : Fin 1024) :
    k9_pay2 (F := Ideal) x0 x1 xs (ix2 p q) = xs (ix2 p q) + ∑ l : Fin 819, x0 (ix2 p l) * x1 (ix2 q l) := by
  unfold k9_pay2
  simp only [shapeCast_self]
  exact congrArg (xs (ix2 p q) + ·) (matmul9_apply x0 x1 p q)

/-- The stored output block is the logistic function of the accumulator: 1 / (1 + exp (−x)). -/
theorem pay3_9_apply (v17 : Vec Ideal S1024x1024 .f32) (p : Fin 1024) (q : Fin 1024) :
    k9_pay3 (F := Ideal) v17 (ix2 p q) = GcnSpec.sig (v17 (ix2 p q)) := rfl

/-! ## A window's block at an index of its array -/

theorem N9_eq : cfg9.N = 16 := N_9

/-- The printed index maps, decided over the grid's points: the left factor's block is (t / 4, 0), the right
    factor's (t % 4, 0), the output's (t / 4, t % 4). -/
theorem idx_facts9 : ∀ t : Fin cfg9.N,
    win9_0.index t (0 : Fin 2) = t.val / 4 ∧ win9_0.index t (1 : Fin 2) = 0
    ∧ win9_1.index t (0 : Fin 2) = t.val % 4 ∧ win9_1.index t (1 : Fin 2) = 0
    ∧ win9_2.index t (0 : Fin 2) = t.val / 4 ∧ win9_2.index t (1 : Fin 2) = t.val % 4 :=
  (by decide +kernel : ∀ t : Fin grid9.N, _)

section Blocks

variable {F : FTy → Type}

/-- Entry (p, l) of the left factor's block at point t is the array at row (t/4)·1024 + p, column l. -/
theorem read_blk9_0 (X : Vec F S4096x819 .bf16) (t : Fin cfg9.N) (p : Fin 1024) (l : Fin 819) :
    (((cfg9.win 0).blk t).view.read (Elt F) X : Vec F S1024x819 .bf16) (ix2 p l)
      = X (ix2 (⟨t.val / 4 * 1024 + p.val, by have := t.isLt; have := N9_eq; omega⟩ : Fin 4096) l) := by
  obtain ⟨e0, e1, -⟩ := idx_facts9 t
  rw [View.read_apply]
  show X _ = X _
  congr 1
  funext a
  apply Fin.ext
  match a with
  | ⟨0, _⟩ => show win9_0.index t (0 : Fin 2) * 1024 + 1 * p.val = t.val / 4 * 1024 + p.val; rw [e0]; omega
  | ⟨1, _⟩ => show win9_0.index t (1 : Fin 2) * 819 + 1 * l.val = l.val; rw [e1]; omega

/-- Entry (q, l) of the right factor's block at point t is the array at row (t%4)·1024 + q, column l. -/
theorem read_blk9_1 (X : Vec F S4096x819 .f32) (t : Fin cfg9.N) (q : Fin 1024) (l : Fin 819) :
    (((cfg9.win 1).blk t).view.read (Elt F) X : Vec F S1024x819 .f32) (ix2 q l)
      = X (ix2 (⟨t.val % 4 * 1024 + q.val, by omega⟩ : Fin 4096) l) := by
  obtain ⟨-, -, e0, e1, -⟩ := idx_facts9 t
  rw [View.read_apply]
  show X _ = X _
  congr 1
  funext a
  apply Fin.ext
  match a with
  | ⟨0, _⟩ => show win9_1.index t (0 : Fin 2) * 1024 + 1 * q.val = t.val % 4 * 1024 + q.val; rw [e0]; omega
  | ⟨1, _⟩ => show win9_1.index t (1 : Fin 2) * 819 + 1 * l.val = l.val; rw [e1]; omega

/-- Entry (p, q) of the output's block at point t is the output at row (t/4)·1024 + p, column (t%4)·1024 + q. -/
theorem read_blk9_2 (X : Vec F S4096x4096 .f32) (t : Fin cfg9.N) (p : Fin 1024) (q : Fin 1024) :
    (((cfg9.win 2).blk t).view.read (Elt F) X : Vec F S1024x1024 .f32) (ix2 p q)
      = X (ix2 (⟨t.val / 4 * 1024 + p.val, by have := t.isLt; have := N9_eq; omega⟩ : Fin 4096)
            (⟨t.val % 4 * 1024 + q.val, by omega⟩ : Fin 4096)) := by
  obtain ⟨-, -, -, -, e0, e1⟩ := idx_facts9 t
  rw [View.read_apply]
  show X _ = X _
  congr 1
  funext a
  apply Fin.ext
  match a with
  | ⟨0, _⟩ => show win9_2.index t (0 : Fin 2) * 1024 + 1 * p.val = t.val / 4 * 1024 + p.val; rw [e0]; omega
  | ⟨1, _⟩ => show win9_2.index t (1 : Fin 2) * 1024 + 1 * q.val = t.val % 4 * 1024 + q.val; rw [e1]; omega

end Blocks

/-! ## The result, index by index -/

/-- What the output array holds after the launch: the logistic function of row i of A times row j of B. -/
def G9 (A : Vec Ideal S4096x819 .bf16) (B : Vec Ideal S4096x819 .f32) : Vec Ideal S4096x4096 .f32 :=
  fun y => GcnSpec.sig (∑ k : Fin 819, A (ix2 (y 0) k) * B (ix2 (y 1) k))

/-- In matrix form it is σ(A·Bᵀ), entry by entry. -/
theorem toMat_G9 (A : Vec Ideal S4096x819 .bf16) (B : Vec Ideal S4096x819 .f32) :
    GcnSpec.toMat (G9 A B) = GcnSpec.sigM (GcnSpec.mmT (GcnSpec.toMat A) (GcnSpec.toMat B)) := rfl

end Cert.KernelIdeal.Hand

end
-- ==== Proof.KI.R09Value.lean ====
/-
  The value of launch 9: out = σ(A·Bᵀ). The symbolic run left the list of pieces stored into the output block; it is
  read back as the body's three pure terms of the staged blocks: the accumulator reset, the product of the left
  block and the transposed right block added, the logistic function of that sum stored. One point's block is thus
  a block of the result; those blocks cover the output array, and so the array ends holding the result.
-/
import proofs.«113214_j66838281060556_2_alg».proof.Proof.KI.R09
import proofs.«113214_j66838281060556_2_alg».proof.Proof.KI.R09ValueA
import proofs.«113214_j66838281060556_2_alg».proof.Proof.GcnSpec
import proofs.«113214_j66838281060556_2_alg».proof.Proof.GcnAlgebra
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat)
open Idealize.ShloMosaic.ValueIdx (ix2 eq_ix2)

/-! ## What a point stores, as the body's pure terms -/

section Pieces
variable {F : FTy → Type} [FloatOps F]
variable (V : (c : Dev nD) → (b : Ref sig .tc) → Buf (Elt F) ((c : Thread nD τ).loc b))

theorem hz9 : (![0, 0] : Fin 2 → Nat) = fun _ => 0 := funext fun a => by fin_cases a <;> rfl

/-- The accumulator read whole gives back the contents it is held at. -/
theorem scM9_read_unread (h : (scM9 : Memref sig .tc .vmem S1024x1024 .f32).IsWhole) (xs : Vec F S1024x1024 .f32) :
    View.read (Elt F) (View.whole cc9_scratch0) (h.unread xs) = xs := h.read_unread xs

/-- The output block a point stores: the accumulator is reset, read back, updated by the product of the two staged
    blocks, read back, and the stored term of it is what the output's buffer holds. -/
theorem outO9_eq (c : Dev nD) (t : Fin cfg9.N) :
    out9 V c t = k9_pay3 (k9_pay2 (iblk9 V c 0 t) (iblk9 V c 1 t) (k9_pay1 (F := F))) := by
  unfold out9
  rw [View.read_writes_eq_canon _ _ _ (coverO9 V c t)]
  unfold run9
  dsimp only
  sl_unfold_words
  rw [View.canon_unit_zero hz9]
  simp only [View.readAt_eq_ld, Memref.IsWhole.read_unread, scM9_read_unread, View.ld_unit_zero (S := S1024x819) hz9, View.ld_unit_zero (S := S1024x1024) hz9,
    View.readCov_unit_zero (S := S1024x1024) _ hz9, View.readCov_cons_toLoadRect]

end Pieces

/-! ## The stored block, over the extended reals -/

section Value
variable (V : (c : Dev nD) → (b : Ref sig .tc) → Buf (Elt Ideal) ((c : Thread nD τ).loc b))

/-- The two arrays the launch reads, at their literal types: A and B. -/
abbrev arrA9 (c : Dev nD) : Vec Ideal S4096x819 .bf16 := V c main_v25
abbrev arrB9 (c : Dev nD) : Vec Ideal S4096x819 .f32 := V c main_v24
/-- The blocks the two input windows stage at a point, at their literal types. -/
abbrev blkA9 (c : Dev nD) (t : Fin cfg9.N) : Vec Ideal S1024x819 .bf16 := iblk9 V c 0 t
abbrev blkB9 (c : Dev nD) (t : Fin cfg9.N) : Vec Ideal S1024x819 .f32 := iblk9 V c 1 t

theorem blkA9_apply (c : Dev nD) (t : Fin cfg9.N) (p : Fin 1024) (l : Fin 819) :
    blkA9 V c t (ix2 p l) = arrA9 V c (ix2 (⟨t.val / 4 * 1024 + p.val, by have := t.isLt; have := N9_eq; omega⟩ : Fin 4096) l) :=
  read_blk9_0 (F := Ideal) (arrA9 V c) t p l

theorem blkB9_apply (c : Dev nD) (t : Fin cfg9.N) (q : Fin 1024) (l : Fin 819) :
    blkB9 V c t (ix2 q l) = arrB9 V c (ix2 (⟨t.val % 4 * 1024 + q.val, by omega⟩ : Fin 4096) l) :=
  read_blk9_1 (F := Ideal) (arrB9 V c) t q l

/-- The block a point stores is, at (p, q), the logistic function of row (t/4)·1024 + p of A times row
    (t%4)·1024 + q of B. -/
theorem out9_pt (c : Dev nD) (t : Fin cfg9.N) (p : Fin 1024) (q : Fin 1024) :
    out9 V c t (ix2 p q)
      = GcnSpec.sig (∑ l : Fin 819, arrA9 V c (ix2 (⟨t.val / 4 * 1024 + p.val, by have := t.isLt; have := N9_eq; omega⟩ : Fin 4096) l)
          * arrB9 V c (ix2 (⟨t.val % 4 * 1024 + q.val, by omega⟩ : Fin 4096) l)) := by
  refine (congrFun (outO9_eq (F := Ideal) V c t) (ix2 p q)).trans ?_
  refine (pay3_9_apply (k9_pay2 (blkA9 V c t) (blkB9 V c t) (k9_pay1 (F := Ideal))) p q).trans ?_
  rw [pay2_9_apply (blkA9 V c t) (blkB9 V c t) (k9_pay1 (F := Ideal)) p q, pay1_9_apply p q, zero_add]
  refine congrArg GcnSpec.sig ?_
  exact Finset.sum_congr rfl fun l _ => by rw [blkA9_apply, blkB9_apply]

end Value

/-! ## From the flushed blocks to the output array -/

section Final
variable (V : (c : Dev nD) → (b : Ref sig .tc) → Buf (Elt Ideal) ((c : Thread nD τ).loc b))

/-- What the launch leaves in the output array: σ(A·Bᵀ), index by index. -/
abbrev res9 (c : Dev nD) : Vec Ideal S4096x4096 .f32 := G9 (arrA9 V c) (arrB9 V c)

/-- The block a point writes back is that point's block of the result. -/
theorem flushed9_eq (c : Dev nD) (t : Fin cfg9.N) (hf : (cfg9.win 2).flush t = true) :
    (dat9 V c).flushed 2 t = ((cfg9.win 2).blk t).view.read (Elt Ideal) (res9 V c) := by
  have hN := N9_eq
  have ht := t.isLt
  show (cfg9.win 2).cut (grid9.coords t) ((dat9 V c).after 2 t) = _
  rw [after9_2]
  refine funext fun (y : S1024x1024.Idx) => ?_
  obtain ⟨p, q, rfl⟩ : ∃ (p : Fin 1024) (q : Fin 1024), y = ix2 p q := ⟨y 0, y 1, eq_ix2 y⟩
  show out9 V c t (ix2 p q) = (((cfg9.win 2).blk t).view.read (Elt Ideal) (res9 V c) : Vec Ideal S1024x1024 .f32) (ix2 p q)
  rw [out9_pt V c t p q, read_blk9_2 (F := Ideal) (res9 V c) t p q]
  rfl

/-- An index of the output array lies in point t's block iff each coordinate is in the block's range. -/
theorem mem_blk9_2 (t : Fin cfg9.N) (i : S4096x4096.Idx) :
    i ∈ ((cfg9.win 2).blk t).view.set ↔ ∀ a : Fin 2, win9_2.index t a * S1024x1024.size a ≤ (i a).val ∧ (i a).val < win9_2.index t a * S1024x1024.size a + S1024x1024.size a := by
  show i ∈ ((View.whole main_v26).slice (win9_2.rect t)).set ↔ _
  rw [View.set_slice_whole, Rect.mem_set_unit]
  exact Iff.rfl

/-- Entry (r, s) of the output lies in the block written back at point 4·(r / 1024) + s / 1024. -/
theorem cover9 (i : S4096x4096.Idx) : ∃ t : Fin cfg9.N, (cfg9.win 2).flush t = true ∧ i ∈ ((cfg9.win 2).blk t).view.set := by
  have hi0 : (i 0).val < 4096 := (i 0).isLt
  have hi1 : (i 1).val < 4096 := (i 1).isLt
  have hN := N9_eq
  refine ⟨⟨4 * ((i 0).val / 1024) + (i 1).val / 1024, by omega⟩, flush9_2 _, ?_⟩
  rw [mem_blk9_2]
  obtain ⟨-, -, -, -, e0, e1⟩ := idx_facts9 ⟨4 * ((i 0).val / 1024) + (i 1).val / 1024, by omega⟩
  intro a
  match a with
  | ⟨0, _⟩ =>
    show win9_2.index _ (0 : Fin 2) * 1024 ≤ (i 0).val ∧ (i 0).val < win9_2.index _ (0 : Fin 2) * 1024 + 1024
    rw [e0]; dsimp only; omega
  | ⟨1, _⟩ =>
    show win9_2.index _ (1 : Fin 2) * 1024 ≤ (i 1).val ∧ (i 1).val < win9_2.index _ (1 : Fin 2) * 1024 + 1024
    rw [e1]; dsimp only; omega

/-- So the output array ends holding σ(A·Bᵀ). -/
theorem out9arr_eq (c : Dev nD) : out9arr V c = res9 V c :=
  (dat9 V c).arrAt_eq_of_cover 2 (res9 V c) (flushed9_eq V c) cover9

/-- THE VALUE OF LAUNCH 9, in matrix form: the output is the logistic function of the product of the first input
    matrix and the transpose of the second. -/
theorem out9_value (c : Dev nD) :
    GcnSpec.toMat (out9arr V c : S4096x4096.Idx → EReal)
      = GcnSpec.sigM (GcnSpec.mmT (GcnSpec.toMat (V c main_v25 : S4096x819.Idx → EReal)) (GcnSpec.toMat (V c main_v24 : S4096x819.Idx → EReal))) := by
  rw [out9arr_eq V c]
  exact toMat_G9 (arrA9 V c) (arrB9 V c)

end Final

end Cert.KernelIdeal.Hand

end
-- ==== Proof.KI.R10ValueA.lean ====
/-
  Launch 10 computes out = A·B, one row block of A per grid point: the point t multiplies A's row block t by the
  whole of B into an accumulator reset at that point, and stores the accumulator, converted to the output's format,
  into the output's row block t. This module reads the body's three pure terms at an index over the extended reals
  (where a change of format is the identity) and reads a window's block at an index of its array; nothing here
  depends on the symbolic run.
-/
import proofs.«113214_j66838281060556_2_alg».proof.Proof.Gen.KernelIdeal.Launch
import proofs.«113214_j66838281060556_2_alg».proof.Proof.Gen.KernelIdeal.Skeleton
import proofs.«113214_j66838281060556_2_alg».proof.Proof.Gen.KernelIdeal.Points
import proofs.«113214_j66838281060556_2_alg».proof.Proof.GcnSpec
import proofs.«113214_j66838281060556_2_alg».proof.Proof.GcnAlgebra
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.ValueIdx (ix2 eq_ix2)

/-! ## The body's pure terms at an index, over the extended reals -/

/-- The product's contraction record, by a short name. -/
abbrev D10 : DotDims S1024x819 S819x819 S1024x819 := dot_S1024x819_S819x819_S1024x819_1_0_0_1_n_n

theorem lhs_D10_0 (i : S1024x819.Idx) (q : dot_S1024x819_S819x819_S1024x819_1_0_0_1_n_n.contr.Idx) :
    (dot_S1024x819_S819x819_S1024x819_1_0_0_1_n_n.lhsIdx i q 0).val = (i 0).val := by
  unfold DotDims.lhsIdx
  rw [dif_neg (show ¬(0 : Fin S1024x819.rank) ∈ dot_S1024x819_S819x819_S1024x819_1_0_0_1_n_n.lhsBatch by decide), dif_pos (show (0 : Fin S1024x819.rank) ∈ dot_S1024x819_S819x819_S1024x819_1_0_0_1_n_n.lhsNonContracting by decide)]
  rfl
theorem lhs_D10_1 (i : S1024x819.Idx) (q : dot_S1024x819_S819x819_S1024x819_1_0_0_1_n_n.contr.Idx) :
    (dot_S1024x819_S819x819_S1024x819_1_0_0_1_n_n.lhsIdx i q 1).val = (q ⟨0, by decide⟩).val :=
  dot_S1024x819_S819x819_S1024x819_1_0_0_1_n_n.lhsIdx_val_of_single rfl i q
theorem rhs_D10_0 (i : S1024x819.Idx) (q : dot_S1024x819_S819x819_S1024x819_1_0_0_1_n_n.contr.Idx) :
    (dot_S1024x819_S819x819_S1024x819_1_0_0_1_n_n.rhsIdx i q 0).val = (q ⟨0, by decide⟩).val :=
  dot_S1024x819_S819x819_S1024x819_1_0_0_1_n_n.rhsIdx_val_of_single rfl i q
theorem rhs_D10_1 (i : S1024x819.Idx) (q : dot_S1024x819_S819x819_S1024x819_1_0_0_1_n_n.contr.Idx) :
    (dot_S1024x819_S819x819_S1024x819_1_0_0_1_n_n.rhsIdx i q 1).val = (i 1).val := by
  unfold DotDims.rhsIdx
  rw [dif_neg (show ¬(1 : Fin S819x819.rank) ∈ dot_S1024x819_S819x819_S1024x819_1_0_0_1_n_n.rhsBatch by decide), dif_pos (show (1 : Fin S819x819.rank) ∈ dot_S1024x819_S819x819_S1024x819_1_0_0_1_n_n.rhsNonContracting by decide)]
  rfl

/-- The block product at (p, q) is the sum over the 819 contracted columns. -/
theorem matmul10_apply (x0 : Vec Ideal S1024x819 .bf16) (x1 : Vec Ideal S819x819 .bf16) (p : Fin 1024) (q : Fin 819) :
    matmul (F := Ideal) (φ₁ := .bf16) (φ₂ := .bf16) dot_S1024x819_S819x819_S1024x819_1_0_0_1_n_n none x0 x1 (constant S1024x819 .f32 0x00000000#32) (ix2 p q)
      = ∑ l : Fin 819, x0 (ix2 p l) * x1 (ix2 l q) := by
  refine (Ideal.matmul_constant_zero_apply (φ₁ := .bf16) (φ₂ := .bf16) dot_S1024x819_S819x819_S1024x819_1_0_0_1_n_n none x0 x1 (ix2 p q)).trans ?_
  rw [← Equiv.sum_comp (ValueIdx.contrEquiv1 dot_S1024x819_S819x819_S1024x819_1_0_0_1_n_n 819 rfl rfl).symm]
  refine Finset.sum_congr rfl fun k _ => ?_
  have hk := ValueIdx.contrEquiv1_symm_val dot_S1024x819_S819x819_S1024x819_1_0_0_1_n_n 819 rfl rfl k
  have el : dot_S1024x819_S819x819_S1024x819_1_0_0_1_n_n.lhsIdx (ix2 p q) ((ValueIdx.contrEquiv1 dot_S1024x819_S819x819_S1024x819_1_0_0_1_n_n 819 rfl rfl).symm k) = ix2 p k := funext fun a => Fin.ext (by
    match a with
    | ⟨0, _⟩ => exact lhs_D10_0 _ _
    | ⟨1, _⟩ => exact (lhs_D10_1 _ _).trans hk)
  have er : dot_S1024x819_S819x819_S1024x819_1_0_0_1_n_n.rhsIdx (ix2 p q) ((ValueIdx.contrEquiv1 dot_S1024x819_S819x819_S1024x819_1_0_0_1_n_n 819 rfl rfl).symm k) = ix2 k q := funext fun a => Fin.ext (by
    match a with
    | ⟨0, _⟩ => exact (rhs_D10_0 _ _).trans hk
    | ⟨1, _⟩ => exact rhs_D10_1 _ _)
  rw [el, er]

/-- The reset block is zero everywhere. -/
theorem pay1_10_apply (p : Fin 1024) (q : Fin 819) : k10_pay1 (F := Ideal) (ix2 p q) = 0 := by
  unfold k10_pay1
  simp only [shapeCast_self]
  exact Ideal.ofBits_zero_f32

/-- The update adds the block product to what the accumulator held; the two factors' change of format is the
    identity on the extended reals. -/
theorem pay2_10_apply (x0 : Vec Ideal S1024x819 .f32) (x1 : Vec Ideal S819x819 .f32) (xs : Vec Ideal S1024x819 .f32)
    (p : Fin 1024) (q : Fin 819) :
    k10_pay2 (F := Ideal) x0 x1 xs (ix2 p q) = xs (ix2 p q) + ∑ l : Fin 819, x0 (ix2 p l) * x1 (ix2 l q) := by
  unfold k10_pay2
  simp only [shapeCast_self]
  exact congrArg (xs (ix2 p q) + ·) (matmul10_apply x0 x1 p q)

/-- The stored output block is the accumulator: its change of format is the identity on the extended reals. -/
theorem pay3_10_apply (v16 : Vec Ideal S1024x819 .f32) (p : Fin 1024) (q : Fin 819) :
    k10_pay3 (F := Ideal) v16 (ix2 p q) = v16 (ix2 p q) := rfl

/-! ## A window's block at an index of its array -/

theorem N10_eq : cfg10.N = 4 := N_10

/-- The printed index maps, decided over the grid's points: the left factor's block is (t, 0), the right factor's
    (0, 0), the output's (t, 0). -/
theorem idx_facts10 : ∀ t : Fin cfg10.N,
    win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0 :=
  (by decide +kernel : ∀ t : Fin grid10.N, _)

section Blocks

variable {F : FTy → Type}

/-- Entry (p, l) of the left factor's block at point t is the array at row t·1024 + p, column l. -/
theorem read_blk10_0 (X : Vec F S4096x819 .f32) (t : Fin cfg10.N) (p : Fin 1024) (l : Fin 819) :
    (((cfg10.win 0).blk t).view.read (Elt F) X : Vec F S1024x819 .f32) (ix2 p l)
      = X (ix2 (⟨t.val * 1024 + p.val, by have := t.isLt; have := N10_eq; omega⟩ : Fin 4096) l) := by
  obtain ⟨e0, e1, -⟩ := idx_facts10 t
  rw [View.read_apply]
  show X _ = X _
  congr 1
  funext a
  apply Fin.ext
  match a with
  | ⟨0, _⟩ => show win10_0.index t (0 : Fin 2) * 1024 + 1 * p.val = t.val * 1024 + p.val; rw [e0]; omega
  | ⟨1, _⟩ => show win10_0.index t (1 : Fin 2) * 819 + 1 * l.val = l.val; rw [e1]; omega

/-- The right factor's block at any point is the whole array. -/
theorem read_blk10_1 (X : Vec F S819x819 .f32) (t : Fin cfg10.N) (l : Fin 819) (q : Fin 819) :
    (((cfg10.win 1).blk t).view.read (Elt F) X : Vec F S819x819 .f32) (ix2 l q) = X (ix2 l q) := by
  obtain ⟨-, -, e0, e1, -⟩ := idx_facts10 t
  rw [View.read_apply]
  show X _ = X _
  congr 1
  funext a
  apply Fin.ext
  match a with
  | ⟨0, _⟩ => show win10_1.index t (0 : Fin 2) * 819 + 1 * l.val = l.val; rw [e0]; omega
  | ⟨1, _⟩ => show win10_1.index t (1 : Fin 2) * 819 + 1 * q.val = q.val; rw [e1]; omega

/-- Entry (p, q) of the output's block at point t is the output at row t·1024 + p, column q. -/
theorem read_blk10_2 (X : Vec F S4096x819 .bf16) (t : Fin cfg10.N) (p : Fin 1024) (q : Fin 819) :
    (((cfg10.win 2).blk t).view.read (Elt F) X : Vec F S1024x819 .bf16) (ix2 p q)
      = X (ix2 (⟨t.val * 1024 + p.val, by have := t.isLt; have := N10_eq; omega⟩ : Fin 4096) q) := by
  obtain ⟨-, -, -, -, e0, e1⟩ := idx_facts10 t
  rw [View.read_apply]
  show X _ = X _
  congr 1
  funext a
  apply Fin.ext
  match a with
  | ⟨0, _⟩ => show win10_2.index t (0 : Fin 2) * 1024 + 1 * p.val = t.val * 1024 + p.val; rw [e0]; omega
  | ⟨1, _⟩ => show win10_2.index t (1 : Fin 2) * 819 + 1 * q.val = q.val; rw [e1]; omega

end Blocks

/-! ## The result, index by index -/

/-- What the output array holds after the launch: row i of A·B at column j. -/
def G10 (A : Vec Ideal S4096x819 .f32) (B : Vec Ideal S819x819 .f32) : Vec Ideal S4096x819 .bf16 :=
  fun y => ∑ k : Fin 819, A (ix2 (y 0) k) * B (ix2 k (y 1))

/-- In matrix form it is A·B. -/
theorem toMat_G10 (A : Vec Ideal S4096x819 .f32) (B : Vec Ideal S819x819 .f32) :
    GcnSpec.toMat (G10 A B) = GcnSpec.mm (GcnSpec.toMat A) (GcnSpec.toMat B) := rfl

end Cert.KernelIdeal.Hand

end
-- ==== Proof.KI.R10Value.lean ====
/-
  The value of launch 10: out = A·B. The symbolic run left the list of pieces stored into the output block; it is
  read back as the body's three pure terms of the staged blocks: the accumulator reset, the product of the two
  staged blocks added, that sum stored in the output's format. One point's block is thus a row block of the result;
  those blocks cover the output array, and so the array ends holding the result.
-/
import proofs.«113214_j66838281060556_2_alg».proof.Proof.KI.R10
import proofs.«113214_j66838281060556_2_alg».proof.Proof.KI.R10ValueA
import proofs.«113214_j66838281060556_2_alg».proof.Proof.GcnSpec
import proofs.«113214_j66838281060556_2_alg».proof.Proof.GcnAlgebra
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat)
open Idealize.ShloMosaic.ValueIdx (ix2 eq_ix2)

/-! ## What a point stores, as the body's pure terms -/

section Pieces
variable {F : FTy → Type} [FloatOps F]
variable (V : (c : Dev nD) → (b : Ref sig .tc) → Buf (Elt F) ((c : Thread nD τ).loc b))

theorem hz10 : (![0, 0] : Fin 2 → Nat) = fun _ => 0 := funext fun a => by fin_cases a <;> rfl

/-- The accumulator read whole gives back the contents it is held at. -/
theorem scM10_read_unread (h : (scM10 : Memref sig .tc .vmem S1024x819 .f32).IsWhole) (xs : Vec F S1024x819 .f32) :
    View.read (Elt F) (View.whole cc10_scratch0) (h.unread xs) = xs := h.read_unread xs

/-- The output block a point stores: the accumulator is reset, read back, updated by the product of the two staged
    blocks, read back, and the stored term of it is what the output's buffer holds. -/
theorem outO10_eq (c : Dev nD) (t : Fin cfg10.N) :
    out10 V c t = k10_pay3 (k10_pay2 (iblk10 V c 0 t) (iblk10 V c 1 t) (k10_pay1 (F := F))) := by
  unfold out10
  rw [View.read_writes_eq_canon _ _ _ (coverO10 V c t)]
  unfold run10
  dsimp only
  sl_unfold_words
  rw [View.canon_unit_zero hz10]
  simp only [View.readAt_eq_ld, Memref.IsWhole.read_unread, scM10_read_unread, View.ld_unit_zero (S := S1024x819) hz10, View.ld_unit_zero (S := S819x819) hz10,
    View.readCov_unit_zero (S := S1024x819) _ hz10, View.readCov_cons_toLoadRect]

end Pieces

/-! ## The stored block, over the extended reals -/

section Value
variable (V : (c : Dev nD) → (b : Ref sig .tc) → Buf (Elt Ideal) ((c : Thread nD τ).loc b))

/-- The two arrays the launch reads, at their literal types: A and B. -/
abbrev arrA10 (c : Dev nD) : Vec Ideal S4096x819 .f32 := V c main_v24
abbrev arrB10 (c : Dev nD) : Vec Ideal S819x819 .f32 := V c main_arg22
/-- The blocks the two input windows stage at a point, at their literal types. -/
abbrev blkA10 (c : Dev nD) (t : Fin cfg10.N) : Vec Ideal S1024x819 .f32 := iblk10 V c 0 t
abbrev blkB10 (c : Dev nD) (t : Fin cfg10.N) : Vec Ideal S819x819 .f32 := iblk10 V c 1 t

theorem blkA10_apply (c : Dev nD) (t : Fin cfg10.N) (p : Fin 1024) (l : Fin 819) :
    blkA10 V c t (ix2 p l) = arrA10 V c (ix2 (⟨t.val * 1024 + p.val, by have := t.isLt; have := N10_eq; omega⟩ : Fin 4096) l) :=
  read_blk10_0 (F := Ideal) (arrA10 V c) t p l

theorem blkB10_apply (c : Dev nD) (t : Fin cfg10.N) (l : Fin 819) (q : Fin 819) :
    blkB10 V c t (ix2 l q) = arrB10 V c (ix2 l q) :=
  read_blk10_1 (F := Ideal) (arrB10 V c) t l q

/-- The block a point stores is, at (p, q), row t·1024 + p of A·B at column q. -/
theorem out10_pt (c : Dev nD) (t : Fin cfg10.N) (p : Fin 1024) (q : Fin 819) :
    out10 V c t (ix2 p q)
      = ∑ l : Fin 819, arrA10 V c (ix2 (⟨t.val * 1024 + p.val, by have := t.isLt; have := N10_eq; omega⟩ : Fin 4096) l) * arrB10 V c (ix2 l q) := by
  refine (congrFun (outO10_eq (F := Ideal) V c t) (ix2 p q)).trans ?_
  refine (pay3_10_apply (k10_pay2 (blkA10 V c t) (blkB10 V c t) (k10_pay1 (F := Ideal))) p q).trans ?_
  rw [pay2_10_apply (blkA10 V c t) (blkB10 V c t) (k10_pay1 (F := Ideal)) p q, pay1_10_apply p q, zero_add]
  exact Finset.sum_congr rfl fun l _ => by rw [blkA10_apply, blkB10_apply]

end Value

/-! ## From the flushed blocks to the output array -/

section Final
variable (V : (c : Dev nD) → (b : Ref sig .tc) → Buf (Elt Ideal) ((c : Thread nD τ).loc b))

/-- What the launch leaves in the output array: A·B, index by index. -/
abbrev res10 (c : Dev nD) : Vec Ideal S4096x819 .bf16 := G10 (arrA10 V c) (arrB10 V c)

/-- The block a point writes back is that point's row block of the result. -/
theorem flushed10_eq (c : Dev nD) (t : Fin cfg10.N) (hf : (cfg10.win 2).flush t = true) :
    (dat10 V c).flushed 2 t = ((cfg10.win 2).blk t).view.read (Elt Ideal) (res10 V c) := by
  have hN := N10_eq
  have ht := t.isLt
  show (cfg10.win 2).cut (grid10.coords t) ((dat10 V c).after 2 t) = _
  rw [after10_2]
  refine funext fun (y : S1024x819.Idx) => ?_
  obtain ⟨p, q, rfl⟩ : ∃ (p : Fin 1024) (q : Fin 819), y = ix2 p q := ⟨y 0, y 1, eq_ix2 y⟩
  show out10 V c t (ix2 p q) = (((cfg10.win 2).blk t).view.read (Elt Ideal) (res10 V c) : Vec Ideal S1024x819 .bf16) (ix2 p q)
  rw [out10_pt V c t p q, read_blk10_2 (F := Ideal) (res10 V c) t p q]
  rfl

/-- An index of the output array lies in point t's block iff each coordinate is in the block's range. -/
theorem mem_blk10_2 (t : Fin cfg10.N) (i : S4096x819.Idx) :
    i ∈ ((cfg10.win 2).blk t).view.set ↔ ∀ a : Fin 2, win10_2.index t a * S1024x819.size a ≤ (i a).val ∧ (i a).val < win10_2.index t a * S1024x819.size a + S1024x819.size a := by
  show i ∈ ((View.whole main_v27).slice (win10_2.rect t)).set ↔ _
  rw [View.set_slice_whole, Rect.mem_set_unit]
  exact Iff.rfl

/-- Row r of the output lies in the block written back at point r / 1024. -/
theorem cover10 (i : S4096x819.Idx) : ∃ t : Fin cfg10.N, (cfg10.win 2).flush t = true ∧ i ∈ ((cfg10.win 2).blk t).view.set := by
  have hi0 : (i 0).val < 4096 := (i 0).isLt
  have hi1 : (i 1).val < 819 := (i 1).isLt
  have hN := N10_eq
  refine ⟨⟨(i 0).val / 1024, by omega⟩, flush10_2 _, ?_⟩
  rw [mem_blk10_2]
  obtain ⟨-, -, -, -, e0, e1⟩ := idx_facts10 ⟨(i 0).val / 1024, by omega⟩
  intro a
  match a with
  | ⟨0, _⟩ =>
    show win10_2.index _ (0 : Fin 2) * 1024 ≤ (i 0).val ∧ (i 0).val < win10_2.index _ (0 : Fin 2) * 1024 + 1024
    rw [e0]; dsimp only; omega
  | ⟨1, _⟩ =>
    show win10_2.index _ (1 : Fin 2) * 819 ≤ (i 1).val ∧ (i 1).val < win10_2.index _ (1 : Fin 2) * 819 + 819
    rw [e1]; omega

/-- So the output array ends holding A·B. -/
theorem out10arr_eq (c : Dev nD) : out10arr V c = res10 V c :=
  (dat10 V c).arrAt_eq_of_cover 2 (res10 V c) (flushed10_eq V c) cover10

/-- THE VALUE OF LAUNCH 10, in matrix form: the output is the product of the two input matrices. -/
theorem out10_value (c : Dev nD) :
    GcnSpec.toMat (out10arr V c : S4096x819.Idx → EReal)
      = GcnSpec.mm (GcnSpec.toMat (V c main_v24 : S4096x819.Idx → EReal)) (GcnSpec.toMat (V c main_arg22 : S819x819.Idx → EReal)) := by
  rw [out10arr_eq V c]
  exact toMat_G10 (arrA10 V c) (arrB10 V c)

end Final

end Cert.KernelIdeal.Hand

end
-- ==== Proof.KI.R11ValueA.lean ====
/-
  Launch 11 computes out = σ(A·Bᵀ) for A and B with 819 columns, one block of the output per grid point: the point t
  multiplies A's row block t / 4 by the transpose of B's row block t % 4 into an accumulator reset at that point, and
  stores the logistic function of the accumulator into the output's block (t / 4, t % 4). This module reads the
  body's three pure terms at an index over the extended reals and reads a window's block at an index of its array;
  nothing here depends on the symbolic run.
-/
import proofs.«113214_j66838281060556_2_alg».proof.Proof.Gen.KernelIdeal.Launch
import proofs.«113214_j66838281060556_2_alg».proof.Proof.Gen.KernelIdeal.Skeleton
import proofs.«113214_j66838281060556_2_alg».proof.Proof.Gen.KernelIdeal.Points
import proofs.«113214_j66838281060556_2_alg».proof.Proof.GcnSpec
import proofs.«113214_j66838281060556_2_alg».proof.Proof.GcnAlgebra
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.ValueIdx (ix2 eq_ix2)

/-! ## The body's pure terms at an index, over the extended reals -/

/-- The product's contraction record, by a short name: both factors are contracted on their second axis. -/
abbrev D11 : DotDims S1024x819 S1024x819 S1024x1024 := dot_S1024x819_S1024x819_S1024x1024_1_1_0_0_n_n

theorem lhs_D11_0 (i : S1024x1024.Idx) (q : dot_S1024x819_S1024x819_S1024x1024_1_1_0_0_n_n.contr.Idx) :
    (dot_S1024x819_S1024x819_S1024x1024_1_1_0_0_n_n.lhsIdx i q 0).val = (i 0).val := by
  unfold DotDims.lhsIdx
  rw [dif_neg (show ¬(0 : Fin S1024x819.rank) ∈ dot_S1024x819_S1024x819_S1024x1024_1_1_0_0_n_n.lhsBatch by decide), dif_pos (show (0 : Fin S1024x819.rank) ∈ dot_S1024x819_S1024x819_S1024x1024_1_1_0_0_n_n.lhsNonContracting by decide)]
  rfl
theorem lhs_D11_1 (i : S1024x1024.Idx) (q : dot_S1024x819_S1024x819_S1024x1024_1_1_0_0_n_n.contr.Idx) :
    (dot_S1024x819_S1024x819_S1024x1024_1_1_0_0_n_n.lhsIdx i q 1).val = (q ⟨0, by decide⟩).val :=
  dot_S1024x819_S1024x819_S1024x1024_1_1_0_0_n_n.lhsIdx_val_of_single rfl i q
theorem rhs_D11_0 (i : S1024x1024.Idx) (q : dot_S1024x819_S1024x819_S1024x1024_1_1_0_0_n_n.contr.Idx) :
    (dot_S1024x819_S1024x819_S1024x1024_1_1_0_0_n_n.rhsIdx i q 0).val = (i 1).val := by
  unfold DotDims.rhsIdx
  rw [dif_neg (show ¬(0 : Fin S1024x819.rank) ∈ dot_S1024x819_S1024x819_S1024x1024_1_1_0_0_n_n.rhsBatch by decide), dif_pos (show (0 : Fin S1024x819.rank) ∈ dot_S1024x819_S1024x819_S1024x1024_1_1_0_0_n_n.rhsNonContracting by decide)]
  rfl
theorem rhs_D11_1 (i : S1024x1024.Idx) (q : dot_S1024x819_S1024x819_S1024x1024_1_1_0_0_n_n.contr.Idx) :
    (dot_S1024x819_S1024x819_S1024x1024_1_1_0_0_n_n.rhsIdx i q 1).val = (q ⟨0, by decide⟩).val :=
  dot_S1024x819_S1024x819_S1024x1024_1_1_0_0_n_n.rhsIdx_val_of_single rfl i q

/-- The block product at (p, q) is the sum over the 819 contracted columns of row p of the left block times row q
    of the right block. -/
theorem matmul11_apply (x0 : Vec Ideal S1024x819 .bf16) (x1 : Vec Ideal S1024x819 .bf16) (p : Fin 1024) (q : Fin 1024) :
    matmul (F := Ideal) (φ₁ := .bf16) (φ₂ := .bf16) dot_S1024x819_S1024x819_S1024x1024_1_1_0_0_n_n none x0 x1 (constant S1024x1024 .f32 0x00000000#32) (ix2 p q)
      = ∑ l : Fin 819, x0 (ix2 p l) * x1 (ix2 q l) := by
  refine (Ideal.matmul_constant_zero_apply (φ₁ := .bf16) (φ₂ := .bf16) dot_S1024x819_S1024x819_S1024x1024_1_1_0_0_n_n none x0 x1 (ix2 p q)).trans ?_
  rw [← Equiv.sum_comp (ValueIdx.contrEquiv1 dot_S1024x819_S1024x819_S1024x1024_1_1_0_0_n_n 819 rfl rfl).symm]
  refine Finset.sum_congr rfl fun k _ => ?_
  have hk := ValueIdx.contrEquiv1_symm_val dot_S1024x819_S1024x819_S1024x1024_1_1_0_0_n_n 819 rfl rfl k
  have el : dot_S1024x819_S1024x819_S1024x1024_1_1_0_0_n_n.lhsIdx (ix2 p q) ((ValueIdx.contrEquiv1 dot_S1024x819_S1024x819_S1024x1024_1_1_0_0_n_n 819 rfl rfl).symm k) = ix2 p k := funext fun a => Fin.ext (by
    match a with
    | ⟨0, _⟩ => exact lhs_D11_0 _ _
    | ⟨1, _⟩ => exact (lhs_D11_1 _ _).trans hk)
  have er : dot_S1024x819_S1024x819_S1024x1024_1_1_0_0_n_n.rhsIdx (ix2 p q) ((ValueIdx.contrEquiv1 dot_S1024x819_S1024x819_S1024x1024_1_1_0_0_n_n 819 rfl rfl).symm k) = ix2 q k := funext fun a => Fin.ext (by
    match a with
    | ⟨0, _⟩ => exact rhs_D11_0 _ _
    | ⟨1, _⟩ => exact (rhs_D11_1 _ _).trans hk)
  rw [el, er]

/-- The reset block is zero everywhere. -/
theorem pay1_11_apply (p : Fin 1024) (q : Fin 1024) : k11_pay1 (F := Ideal) (ix2 p q) = 0 := by
  unfold k11_pay1
  simp only [shapeCast_self]
  exact Ideal.ofBits_zero_f32

/-- The update adds the block product to what the accumulator held; the right factor's change of format is the
    identity on the extended reals. -/
theorem pay2_11_apply (x0 : Vec Ideal S1024x819 .bf16) (x1 : Vec Ideal S1024x819 .f32) (xs : Vec Ideal S1024x1024 .f32)
    (p : Fin 1024) (q : Fin 1024) :
    k11_pay2 (F := Ideal) x0 x1 xs (ix2 p q) = xs (ix2 p q) + ∑ l : Fin 819, x0 (ix2 p l) * x1 (ix2 q l) := by
  unfold k11_pay2
  simp only [shapeCast_self]
  exact congrArg (xs (ix2 p q) + ·) (matmul11_apply x0 x1 p q)

/-- The stored output block is the logistic function of the accumulator: 1 / (1 + exp (−x)). -/
theorem pay3_11_apply (v17 : Vec Ideal S1024x1024 .f32) (p : Fin 1024) (q : Fin 1024) :
    k11_pay3 (F := Ideal) v17 (ix2 p q) = GcnSpec.sig (v17 (ix2 p q)) := rfl

/-! ## A window's block at an index of its array -/

theorem N11_eq : cfg11.N = 16 := N_11

/-- The printed index maps, decided over the grid's points: the left factor's block is (t / 4, 0), the right
    factor's (t % 4, 0), the output's (t / 4, t % 4). -/
theorem idx_facts11 : ∀ t : Fin cfg11.N,
    win11_0.index t (0 : Fin 2) = t.val / 4 ∧ win11_0.index t (1 : Fin 2) = 0
    ∧ win11_1.index t (0 : Fin 2) = t.val % 4 ∧ win11_1.index t (1 : Fin 2) = 0
    ∧ win11_2.index t (0 : Fin 2) = t.val / 4 ∧ win11_2.index t (1 : Fin 2) = t.val % 4 :=
  (by decide +kernel : ∀ t : Fin grid11.N, _)

section Blocks

variable {F : FTy → Type}

/-- Entry (p, l) of the left factor's block at point t is the array at row (t/4)·1024 + p, column l. -/
theorem read_blk11_0 (X : Vec F S4096x819 .bf16) (t : Fin cfg11.N) (p : Fin 1024) (l : Fin 819) :
    (((cfg11.win 0).blk t).view.read (Elt F) X : Vec F S1024x819 .bf16) (ix2 p l)
      = X (ix2 (⟨t.val / 4 * 1024 + p.val, by have := t.isLt; have := N11_eq; omega⟩ : Fin 4096) l) := by
  obtain ⟨e0, e1, -⟩ := idx_facts11 t
  rw [View.read_apply]
  show X _ = X _
  congr 1
  funext a
  apply Fin.ext
  match a with
  | ⟨0, _⟩ => show win11_0.index t (0 : Fin 2) * 1024 + 1 * p.val = t.val / 4 * 1024 + p.val; rw [e0]; omega
  | ⟨1, _⟩ => show win11_0.index t (1 : Fin 2) * 819 + 1 * l.val = l.val; rw [e1]; omega

/-- Entry (q, l) of the right factor's block at point t is the array at row (t%4)·1024 + q, column l. -/
theorem read_blk11_1 (X : Vec F S4096x819 .f32) (t : Fin cfg11.N) (q : Fin 1024) (l : Fin 819) :
    (((cfg11.win 1).blk t).view.read (Elt F) X : Vec F S1024x819 .f32) (ix2 q l)
      = X (ix2 (⟨t.val % 4 * 1024 + q.val, by omega⟩ : Fin 4096) l) := by
  obtain ⟨-, -, e0, e1, -⟩ := idx_facts11 t
  rw [View.read_apply]
  show X _ = X _
  congr 1
  funext a
  apply Fin.ext
  match a with
  | ⟨0, _⟩ => show win11_1.index t (0 : Fin 2) * 1024 + 1 * q.val = t.val % 4 * 1024 + q.val; rw [e0]; omega
  | ⟨1, _⟩ => show win11_1.index t (1 : Fin 2) * 819 + 1 * l.val = l.val; rw [e1]; omega

/-- Entry (p, q) of the output's block at point t is the output at row (t/4)·1024 + p, column (t%4)·1024 + q. -/
theorem read_blk11_2 (X : Vec F S4096x4096 .f32) (t : Fin cfg11.N) (p : Fin 1024) (q : Fin 1024) :
    (((cfg11.win 2).blk t).view.read (Elt F) X : Vec F S1024x1024 .f32) (ix2 p q)
      = X (ix2 (⟨t.val / 4 * 1024 + p.val, by have := t.isLt; have := N11_eq; omega⟩ : Fin 4096)
            (⟨t.val % 4 * 1024 + q.val, by omega⟩ : Fin 4096)) := by
  obtain ⟨-, -, -, -, e0, e1⟩ := idx_facts11 t
  rw [View.read_apply]
  show X _ = X _
  congr 1
  funext a
  apply Fin.ext
  match a with
  | ⟨0, _⟩ => show win11_2.index t (0 : Fin 2) * 1024 + 1 * p.val = t.val / 4 * 1024 + p.val; rw [e0]; omega
  | ⟨1, _⟩ => show win11_2.index t (1 : Fin 2) * 1024 + 1 * q.val = t.val % 4 * 1024 + q.val; rw [e1]; omega

end Blocks

/-! ## The result, index by index -/

/-- What the output array holds after the launch: the logistic function of row i of A times row j of B. -/
def G11 (A : Vec Ideal S4096x819 .bf16) (B : Vec Ideal S4096x819 .f32) : Vec Ideal S4096x4096 .f32 :=
  fun y => GcnSpec.sig (∑ k : Fin 819, A (ix2 (y 0) k) * B (ix2 (y 1) k))

/-- In matrix form it is σ(A·Bᵀ), entry by entry. -/
theorem toMat_G11 (A : Vec Ideal S4096x819 .bf16) (B : Vec Ideal S4096x819 .f32) :
    GcnSpec.toMat (G11 A B) = GcnSpec.sigM (GcnSpec.mmT (GcnSpec.toMat A) (GcnSpec.toMat B)) := rfl

end Cert.KernelIdeal.Hand

end
-- ==== Proof.KI.R11Value.lean ====
/-
  The value of launch 11: out = σ(A·Bᵀ). The symbolic run left the list of pieces stored into the output block; it is
  read back as the body's three pure terms of the staged blocks: the accumulator reset, the product of the left
  block and the transposed right block added, the logistic function of that sum stored. One point's block is thus
  a block of the result; those blocks cover the output array, and so the array ends holding the result.
-/
import proofs.«113214_j66838281060556_2_alg».proof.Proof.KI.R11
import proofs.«113214_j66838281060556_2_alg».proof.Proof.KI.R11ValueA
import proofs.«113214_j66838281060556_2_alg».proof.Proof.GcnSpec
import proofs.«113214_j66838281060556_2_alg».proof.Proof.GcnAlgebra
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat)
open Idealize.ShloMosaic.ValueIdx (ix2 eq_ix2)

/-! ## What a point stores, as the body's pure terms -/

section Pieces
variable {F : FTy → Type} [FloatOps F]
variable (V : (c : Dev nD) → (b : Ref sig .tc) → Buf (Elt F) ((c : Thread nD τ).loc b))

theorem hz11 : (![0, 0] : Fin 2 → Nat) = fun _ => 0 := funext fun a => by fin_cases a <;> rfl

/-- The accumulator read whole gives back the contents it is held at. -/
theorem scM11_read_unread (h : (scM11 : Memref sig .tc .vmem S1024x1024 .f32).IsWhole) (xs : Vec F S1024x1024 .f32) :
    View.read (Elt F) (View.whole cc11_scratch0) (h.unread xs) = xs := h.read_unread xs

/-- The output block a point stores: the accumulator is reset, read back, updated by the product of the two staged
    blocks, read back, and the stored term of it is what the output's buffer holds. -/
theorem outO11_eq (c : Dev nD) (t : Fin cfg11.N) :
    out11 V c t = k11_pay3 (k11_pay2 (iblk11 V c 0 t) (iblk11 V c 1 t) (k11_pay1 (F := F))) := by
  unfold out11
  rw [View.read_writes_eq_canon _ _ _ (coverO11 V c t)]
  unfold run11
  dsimp only
  sl_unfold_words
  rw [View.canon_unit_zero hz11]
  simp only [View.readAt_eq_ld, Memref.IsWhole.read_unread, scM11_read_unread, View.ld_unit_zero (S := S1024x819) hz11, View.ld_unit_zero (S := S1024x819) hz11,
    View.readCov_unit_zero (S := S1024x1024) _ hz11, View.readCov_cons_toLoadRect]

end Pieces

/-! ## The stored block, over the extended reals -/

section Value
variable (V : (c : Dev nD) → (b : Ref sig .tc) → Buf (Elt Ideal) ((c : Thread nD τ).loc b))

/-- The two arrays the launch reads, at their literal types: A and B. -/
abbrev arrA11 (c : Dev nD) : Vec Ideal S4096x819 .bf16 := V c main_v27
abbrev arrB11 (c : Dev nD) : Vec Ideal S4096x819 .f32 := V c main_v24
/-- The blocks the two input windows stage at a point, at their literal types. -/
abbrev blkA11 (c : Dev nD) (t : Fin cfg11.N) : Vec Ideal S1024x819 .bf16 := iblk11 V c 0 t
abbrev blkB11 (c : Dev nD) (t : Fin cfg11.N) : Vec Ideal S1024x819 .f32 := iblk11 V c 1 t

theorem blkA11_apply (c : Dev nD) (t : Fin cfg11.N) (p : Fin 1024) (l : Fin 819) :
    blkA11 V c t (ix2 p l) = arrA11 V c (ix2 (⟨t.val / 4 * 1024 + p.val, by have := t.isLt; have := N11_eq; omega⟩ : Fin 4096) l) :=
  read_blk11_0 (F := Ideal) (arrA11 V c) t p l

theorem blkB11_apply (c : Dev nD) (t : Fin cfg11.N) (q : Fin 1024) (l : Fin 819) :
    blkB11 V c t (ix2 q l) = arrB11 V c (ix2 (⟨t.val % 4 * 1024 + q.val, by omega⟩ : Fin 4096) l) :=
  read_blk11_1 (F := Ideal) (arrB11 V c) t q l

/-- The block a point stores is, at (p, q), the logistic function of row (t/4)·1024 + p of A times row
    (t%4)·1024 + q of B. -/
theorem out11_pt (c : Dev nD) (t : Fin cfg11.N) (p : Fin 1024) (q : Fin 1024) :
    out11 V c t (ix2 p q)
      = GcnSpec.sig (∑ l : Fin 819, arrA11 V c (ix2 (⟨t.val / 4 * 1024 + p.val, by have := t.isLt; have := N11_eq; omega⟩ : Fin 4096) l)
          * arrB11 V c (ix2 (⟨t.val % 4 * 1024 + q.val, by omega⟩ : Fin 4096) l)) := by
  refine (congrFun (outO11_eq (F := Ideal) V c t) (ix2 p q)).trans ?_
  refine (pay3_11_apply (k11_pay2 (blkA11 V c t) (blkB11 V c t) (k11_pay1 (F := Ideal))) p q).trans ?_
  rw [pay2_11_apply (blkA11 V c t) (blkB11 V c t) (k11_pay1 (F := Ideal)) p q, pay1_11_apply p q, zero_add]
  refine congrArg GcnSpec.sig ?_
  exact Finset.sum_congr rfl fun l _ => by rw [blkA11_apply, blkB11_apply]

end Value

/-! ## From the flushed blocks to the output array -/

section Final
variable (V : (c : Dev nD) → (b : Ref sig .tc) → Buf (Elt Ideal) ((c : Thread nD τ).loc b))

/-- What the launch leaves in the output array: σ(A·Bᵀ), index by index. -/
abbrev res11 (c : Dev nD) : Vec Ideal S4096x4096 .f32 := G11 (arrA11 V c) (arrB11 V c)

/-- The block a point writes back is that point's block of the result. -/
theorem flushed11_eq (c : Dev nD) (t : Fin cfg11.N) (hf : (cfg11.win 2).flush t = true) :
    (dat11 V c).flushed 2 t = ((cfg11.win 2).blk t).view.read (Elt Ideal) (res11 V c) := by
  have hN := N11_eq
  have ht := t.isLt
  show (cfg11.win 2).cut (grid11.coords t) ((dat11 V c).after 2 t) = _
  rw [after11_2]
  refine funext fun (y : S1024x1024.Idx) => ?_
  obtain ⟨p, q, rfl⟩ : ∃ (p : Fin 1024) (q : Fin 1024), y = ix2 p q := ⟨y 0, y 1, eq_ix2 y⟩
  show out11 V c t (ix2 p q) = (((cfg11.win 2).blk t).view.read (Elt Ideal) (res11 V c) : Vec Ideal S1024x1024 .f32) (ix2 p q)
  rw [out11_pt V c t p q, read_blk11_2 (F := Ideal) (res11 V c) t p q]
  rfl

/-- An index of the output array lies in point t's block iff each coordinate is in the block's range. -/
theorem mem_blk11_2 (t : Fin cfg11.N) (i : S4096x4096.Idx) :
    i ∈ ((cfg11.win 2).blk t).view.set ↔ ∀ a : Fin 2, win11_2.index t a * S1024x1024.size a ≤ (i a).val ∧ (i a).val < win11_2.index t a * S1024x1024.size a + S1024x1024.size a := by
  show i ∈ ((View.whole main_v28).slice (win11_2.rect t)).set ↔ _
  rw [View.set_slice_whole, Rect.mem_set_unit]
  exact Iff.rfl

/-- Entry (r, s) of the output lies in the block written back at point 4·(r / 1024) + s / 1024. -/
theorem cover11 (i : S4096x4096.Idx) : ∃ t : Fin cfg11.N, (cfg11.win 2).flush t = true ∧ i ∈ ((cfg11.win 2).blk t).view.set := by
  have hi0 : (i 0).val < 4096 := (i 0).isLt
  have hi1 : (i 1).val < 4096 := (i 1).isLt
  have hN := N11_eq
  refine ⟨⟨4 * ((i 0).val / 1024) + (i 1).val / 1024, by omega⟩, flush11_2 _, ?_⟩
  rw [mem_blk11_2]
  obtain ⟨-, -, -, -, e0, e1⟩ := idx_facts11 ⟨4 * ((i 0).val / 1024) + (i 1).val / 1024, by omega⟩
  intro a
  match a with
  | ⟨0, _⟩ =>
    show win11_2.index _ (0 : Fin 2) * 1024 ≤ (i 0).val ∧ (i 0).val < win11_2.index _ (0 : Fin 2) * 1024 + 1024
    rw [e0]; dsimp only; omega
  | ⟨1, _⟩ =>
    show win11_2.index _ (1 : Fin 2) * 1024 ≤ (i 1).val ∧ (i 1).val < win11_2.index _ (1 : Fin 2) * 1024 + 1024
    rw [e1]; dsimp only; omega

/-- So the output array ends holding σ(A·Bᵀ). -/
theorem out11arr_eq (c : Dev nD) : out11arr V c = res11 V c :=
  (dat11 V c).arrAt_eq_of_cover 2 (res11 V c) (flushed11_eq V c) cover11

/-- THE VALUE OF LAUNCH 11, in matrix form: the output is the logistic function of the product of the first input
    matrix and the transpose of the second. -/
theorem out11_value (c : Dev nD) :
    GcnSpec.toMat (out11arr V c : S4096x4096.Idx → EReal)
      = GcnSpec.sigM (GcnSpec.mmT (GcnSpec.toMat (V c main_v27 : S4096x819.Idx → EReal)) (GcnSpec.toMat (V c main_v24 : S4096x819.Idx → EReal))) := by
  rw [out11arr_eq V c]
  exact toMat_G11 (arrA11 V c) (arrB11 V c)

end Final

end Cert.KernelIdeal.Hand

end
-- ==== Proof.KI.R12ValueA.lean ====
/-
  Launch 12 computes out = tanh(A·B), one row block of A per grid point: the point t multiplies A's row block t by
  the whole of B into an accumulator reset at that point, and stores tanh of the accumulator, converted to the
  output's format, into the output's row block t. This module reads the body's three pure terms at an index over
  the extended reals (where a change of format is the identity) and reads a window's block at an index of its
  array; nothing here depends on the symbolic run.
-/
import proofs.«113214_j66838281060556_2_alg».proof.Proof.Gen.KernelIdeal.Launch
import proofs.«113214_j66838281060556_2_alg».proof.Proof.Gen.KernelIdeal.Skeleton
import proofs.«113214_j66838281060556_2_alg».proof.Proof.Gen.KernelIdeal.Points
import proofs.«113214_j66838281060556_2_alg».proof.Proof.GcnSpec
import proofs.«113214_j66838281060556_2_alg».proof.Proof.GcnAlgebra
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.ValueIdx (ix2 eq_ix2)

/-! ## The body's pure terms at an index, over the extended reals -/

/-- The product's contraction record, by a short name. -/
abbrev D12 : DotDims S1024x819 S819x819 S1024x819 := dot_S1024x819_S819x819_S1024x819_1_0_0_1_n_n

theorem lhs_D12_0 (i : S1024x819.Idx) (q : dot_S1024x819_S819x819_S1024x819_1_0_0_1_n_n.contr.Idx) :
    (dot_S1024x819_S819x819_S1024x819_1_0_0_1_n_n.lhsIdx i q 0).val = (i 0).val := by
  unfold DotDims.lhsIdx
  rw [dif_neg (show ¬(0 : Fin S1024x819.rank) ∈ dot_S1024x819_S819x819_S1024x819_1_0_0_1_n_n.lhsBatch by decide), dif_pos (show (0 : Fin S1024x819.rank) ∈ dot_S1024x819_S819x819_S1024x819_1_0_0_1_n_n.lhsNonContracting by decide)]
  rfl
theorem lhs_D12_1 (i : S1024x819.Idx) (q : dot_S1024x819_S819x819_S1024x819_1_0_0_1_n_n.contr.Idx) :
    (dot_S1024x819_S819x819_S1024x819_1_0_0_1_n_n.lhsIdx i q 1).val = (q ⟨0, by decide⟩).val :=
  dot_S1024x819_S819x819_S1024x819_1_0_0_1_n_n.lhsIdx_val_of_single rfl i q
theorem rhs_D12_0 (i : S1024x819.Idx) (q : dot_S1024x819_S819x819_S1024x819_1_0_0_1_n_n.contr.Idx) :
    (dot_S1024x819_S819x819_S1024x819_1_0_0_1_n_n.rhsIdx i q 0).val = (q ⟨0, by decide⟩).val :=
  dot_S1024x819_S819x819_S1024x819_1_0_0_1_n_n.rhsIdx_val_of_single rfl i q
theorem rhs_D12_1 (i : S1024x819.Idx) (q : dot_S1024x819_S819x819_S1024x819_1_0_0_1_n_n.contr.Idx) :
    (dot_S1024x819_S819x819_S1024x819_1_0_0_1_n_n.rhsIdx i q 1).val = (i 1).val := by
  unfold DotDims.rhsIdx
  rw [dif_neg (show ¬(1 : Fin S819x819.rank) ∈ dot_S1024x819_S819x819_S1024x819_1_0_0_1_n_n.rhsBatch by decide), dif_pos (show (1 : Fin S819x819.rank) ∈ dot_S1024x819_S819x819_S1024x819_1_0_0_1_n_n.rhsNonContracting by decide)]
  rfl

/-- The block product at (p, q) is the sum over the 819 contracted columns. -/
theorem matmul12_apply (x0 : Vec Ideal S1024x819 .bf16) (x1 : Vec Ideal S819x819 .bf16) (p : Fin 1024) (q : Fin 819) :
    matmul (F := Ideal) (φ₁ := .bf16) (φ₂ := .bf16) dot_S1024x819_S819x819_S1024x819_1_0_0_1_n_n none x0 x1 (constant S1024x819 .f32 0x00000000#32) (ix2 p q)
      = ∑ l : Fin 819, x0 (ix2 p l) * x1 (ix2 l q) := by
  refine (Ideal.matmul_constant_zero_apply (φ₁ := .bf16) (φ₂ := .bf16) dot_S1024x819_S819x819_S1024x819_1_0_0_1_n_n none x0 x1 (ix2 p q)).trans ?_
  rw [← Equiv.sum_comp (ValueIdx.contrEquiv1 dot_S1024x819_S819x819_S1024x819_1_0_0_1_n_n 819 rfl rfl).symm]
  refine Finset.sum_congr rfl fun k _ => ?_
  have hk := ValueIdx.contrEquiv1_symm_val dot_S1024x819_S819x819_S1024x819_1_0_0_1_n_n 819 rfl rfl k
  have el : dot_S1024x819_S819x819_S1024x819_1_0_0_1_n_n.lhsIdx (ix2 p q) ((ValueIdx.contrEquiv1 dot_S1024x819_S819x819_S1024x819_1_0_0_1_n_n 819 rfl rfl).symm k) = ix2 p k := funext fun a => Fin.ext (by
    match a with
    | ⟨0, _⟩ => exact lhs_D12_0 _ _
    | ⟨1, _⟩ => exact (lhs_D12_1 _ _).trans hk)
  have er : dot_S1024x819_S819x819_S1024x819_1_0_0_1_n_n.rhsIdx (ix2 p q) ((ValueIdx.contrEquiv1 dot_S1024x819_S819x819_S1024x819_1_0_0_1_n_n 819 rfl rfl).symm k) = ix2 k q := funext fun a => Fin.ext (by
    match a with
    | ⟨0, _⟩ => exact (rhs_D12_0 _ _).trans hk
    | ⟨1, _⟩ => exact rhs_D12_1 _ _)
  rw [el, er]

/-- The reset block is zero everywhere. -/
theorem pay1_12_apply (p : Fin 1024) (q : Fin 819) : k12_pay1 (F := Ideal) (ix2 p q) = 0 := by
  unfold k12_pay1
  simp only [shapeCast_self]
  exact Ideal.ofBits_zero_f32

/-- The update adds the block product to what the accumulator held; the two factors' change of format is the
    identity on the extended reals. -/
theorem pay2_12_apply (x0 : Vec Ideal S1024x819 .f32) (x1 : Vec Ideal S819x819 .f32) (xs : Vec Ideal S1024x819 .f32)
    (p : Fin 1024) (q : Fin 819) :
    k12_pay2 (F := Ideal) x0 x1 xs (ix2 p q) = xs (ix2 p q) + ∑ l : Fin 819, x0 (ix2 p l) * x1 (ix2 l q) := by
  unfold k12_pay2
  simp only [shapeCast_self]
  exact congrArg (xs (ix2 p q) + ·) (matmul12_apply x0 x1 p q)

/-- The stored output block is tanh of the accumulator; its change of format is the identity on the extended reals. -/
theorem pay3_12_apply (v17 : Vec Ideal S1024x819 .f32) (p : Fin 1024) (q : Fin 819) :
    k12_pay3 (F := Ideal) v17 (ix2 p q) = Ideal.tanh (v17 (ix2 p q)) := rfl

/-! ## A window's block at an index of its array -/

theorem N12_eq : cfg12.N = 4 := N_12

/-- The printed index maps, decided over the grid's points: the left factor's block is (t, 0), the right factor's
    (0, 0), the output's (t, 0). -/
theorem idx_facts12 : ∀ t : Fin cfg12.N,
    win12_0.index t (0 : Fin 2) = t.val ∧ win12_0.index t (1 : Fin 2) = 0
    ∧ win12_1.index t (0 : Fin 2) = 0 ∧ win12_1.index t (1 : Fin 2) = 0
    ∧ win12_2.index t (0 : Fin 2) = t.val ∧ win12_2.index t (1 : Fin 2) = 0 :=
  (by decide +kernel : ∀ t : Fin grid12.N, _)

section Blocks

variable {F : FTy → Type}

/-- Entry (p, l) of the left factor's block at point t is the array at row t·1024 + p, column l. -/
theorem read_blk12_0 (X : Vec F S4096x819 .f32) (t : Fin cfg12.N) (p : Fin 1024) (l : Fin 819) :
    (((cfg12.win 0).blk t).view.read (Elt F) X : Vec F S1024x819 .f32) (ix2 p l)
      = X (ix2 (⟨t.val * 1024 + p.val, by have := t.isLt; have := N12_eq; omega⟩ : Fin 4096) l) := by
  obtain ⟨e0, e1, -⟩ := idx_facts12 t
  rw [View.read_apply]
  show X _ = X _
  congr 1
  funext a
  apply Fin.ext
  match a with
  | ⟨0, _⟩ => show win12_0.index t (0 : Fin 2) * 1024 + 1 * p.val = t.val * 1024 + p.val; rw [e0]; omega
  | ⟨1, _⟩ => show win12_0.index t (1 : Fin 2) * 819 + 1 * l.val = l.val; rw [e1]; omega

/-- The right factor's block at any point is the whole array. -/
theorem read_blk12_1 (X : Vec F S819x819 .f32) (t : Fin cfg12.N) (l : Fin 819) (q : Fin 819) :
    (((cfg12.win 1).blk t).view.read (Elt F) X : Vec F S819x819 .f32) (ix2 l q) = X (ix2 l q) := by
  obtain ⟨-, -, e0, e1, -⟩ := idx_facts12 t
  rw [View.read_apply]
  show X _ = X _
  congr 1
  funext a
  apply Fin.ext
  match a with
  | ⟨0, _⟩ => show win12_1.index t (0 : Fin 2) * 819 + 1 * l.val = l.val; rw [e0]; omega
  | ⟨1, _⟩ => show win12_1.index t (1 : Fin 2) * 819 + 1 * q.val = q.val; rw [e1]; omega

/-- Entry (p, q) of the output's block at point t is the output at row t·1024 + p, column q. -/
theorem read_blk12_2 (X : Vec F S4096x819 .bf16) (t : Fin cfg12.N) (p : Fin 1024) (q : Fin 819) :
    (((cfg12.win 2).blk t).view.read (Elt F) X : Vec F S1024x819 .bf16) (ix2 p q)
      = X (ix2 (⟨t.val * 1024 + p.val, by have := t.isLt; have := N12_eq; omega⟩ : Fin 4096) q) := by
  obtain ⟨-, -, -, -, e0, e1⟩ := idx_facts12 t
  rw [View.read_apply]
  show X _ = X _
  congr 1
  funext a
  apply Fin.ext
  match a with
  | ⟨0, _⟩ => show win12_2.index t (0 : Fin 2) * 1024 + 1 * p.val = t.val * 1024 + p.val; rw [e0]; omega
  | ⟨1, _⟩ => show win12_2.index t (1 : Fin 2) * 819 + 1 * q.val = q.val; rw [e1]; omega

end Blocks

/-! ## The result, index by index -/

/-- What the output array holds after the launch: tanh of row i of A·B at column j. -/
def G12 (A : Vec Ideal S4096x819 .f32) (B : Vec Ideal S819x819 .f32) : Vec Ideal S4096x819 .bf16 :=
  fun y => Ideal.tanh (∑ k : Fin 819, A (ix2 (y 0) k) * B (ix2 k (y 1)))

/-- In matrix form it is tanh(A·B), entry by entry. -/
theorem toMat_G12 (A : Vec Ideal S4096x819 .f32) (B : Vec Ideal S819x819 .f32) :
    GcnSpec.toMat (G12 A B) = GcnSpec.tanhM (GcnSpec.mm (GcnSpec.toMat A) (GcnSpec.toMat B)) := rfl

end Cert.KernelIdeal.Hand

end
-- ==== Proof.KI.R12Value.lean ====
/-
  The value of launch 12: out = tanh(A·B). The symbolic run left the list of pieces stored into the output block; it
  is read back as the body's three pure terms of the staged blocks: the accumulator reset, the product of the two
  staged blocks added, tanh of that sum stored in the output's format. One point's block is thus a row block of the
  result; those blocks cover the output array, and so the array ends holding the result.
-/
import proofs.«113214_j66838281060556_2_alg».proof.Proof.KI.R12
import proofs.«113214_j66838281060556_2_alg».proof.Proof.KI.R12ValueA
import proofs.«113214_j66838281060556_2_alg».proof.Proof.GcnSpec
import proofs.«113214_j66838281060556_2_alg».proof.Proof.GcnAlgebra
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat)
open Idealize.ShloMosaic.ValueIdx (ix2 eq_ix2)

/-! ## What a point stores, as the body's pure terms -/

section Pieces
variable {F : FTy → Type} [FloatOps F]
variable (V : (c : Dev nD) → (b : Ref sig .tc) → Buf (Elt F) ((c : Thread nD τ).loc b))

theorem hz12 : (![0, 0] : Fin 2 → Nat) = fun _ => 0 := funext fun a => by fin_cases a <;> rfl

/-- The accumulator read whole gives back the contents it is held at. -/
theorem scM12_read_unread (h : (scM12 : Memref sig .tc .vmem S1024x819 .f32).IsWhole) (xs : Vec F S1024x819 .f32) :
    View.read (Elt F) (View.whole cc12_scratch0) (h.unread xs) = xs := h.read_unread xs

/-- The output block a point stores: the accumulator is reset, read back, updated by the product of the two staged
    blocks, read back, and the stored term of it is what the output's buffer holds. -/
theorem outO12_eq (c : Dev nD) (t : Fin cfg12.N) :
    out12 V c t = k12_pay3 (k12_pay2 (iblk12 V c 0 t) (iblk12 V c 1 t) (k12_pay1 (F := F))) := by
  unfold out12
  rw [View.read_writes_eq_canon _ _ _ (coverO12 V c t)]
  unfold run12
  dsimp only
  sl_unfold_words
  rw [View.canon_unit_zero hz12]
  simp only [View.readAt_eq_ld, Memref.IsWhole.read_unread, scM12_read_unread, View.ld_unit_zero (S := S1024x819) hz12, View.ld_unit_zero (S := S819x819) hz12,
    View.readCov_unit_zero (S := S1024x819) _ hz12, View.readCov_cons_toLoadRect]

end Pieces

/-! ## The stored block, over the extended reals -/

section Value
variable (V : (c : Dev nD) → (b : Ref sig .tc) → Buf (Elt Ideal) ((c : Thread nD τ).loc b))

/-- The two arrays the launch reads, at their literal types: A and B. -/
abbrev arrA12 (c : Dev nD) : Vec Ideal S4096x819 .f32 := V c main_v24
abbrev arrB12 (c : Dev nD) : Vec Ideal S819x819 .f32 := V c main_arg23
/-- The blocks the two input windows stage at a point, at their literal types. -/
abbrev blkA12 (c : Dev nD) (t : Fin cfg12.N) : Vec Ideal S1024x819 .f32 := iblk12 V c 0 t
abbrev blkB12 (c : Dev nD) (t : Fin cfg12.N) : Vec Ideal S819x819 .f32 := iblk12 V c 1 t

theorem blkA12_apply (c : Dev nD) (t : Fin cfg12.N) (p : Fin 1024) (l : Fin 819) :
    blkA12 V c t (ix2 p l) = arrA12 V c (ix2 (⟨t.val * 1024 + p.val, by have := t.isLt; have := N12_eq; omega⟩ : Fin 4096) l) :=
  read_blk12_0 (F := Ideal) (arrA12 V c) t p l

theorem blkB12_apply (c : Dev nD) (t : Fin cfg12.N) (l : Fin 819) (q : Fin 819) :
    blkB12 V c t (ix2 l q) = arrB12 V c (ix2 l q) :=
  read_blk12_1 (F := Ideal) (arrB12 V c) t l q

/-- The block a point stores is, at (p, q), tanh of row t·1024 + p of A·B at column q. -/
theorem out12_pt (c : Dev nD) (t : Fin cfg12.N) (p : Fin 1024) (q : Fin 819) :
    out12 V c t (ix2 p q)
      = Ideal.tanh (∑ l : Fin 819, arrA12 V c (ix2 (⟨t.val * 1024 + p.val, by have := t.isLt; have := N12_eq; omega⟩ : Fin 4096) l) * arrB12 V c (ix2 l q)) := by
  refine (congrFun (outO12_eq (F := Ideal) V c t) (ix2 p q)).trans ?_
  refine (pay3_12_apply (k12_pay2 (blkA12 V c t) (blkB12 V c t) (k12_pay1 (F := Ideal))) p q).trans ?_
  rw [pay2_12_apply (blkA12 V c t) (blkB12 V c t) (k12_pay1 (F := Ideal)) p q, pay1_12_apply p q, zero_add]
  refine congrArg Ideal.tanh ?_
  exact Finset.sum_congr rfl fun l _ => by rw [blkA12_apply, blkB12_apply]

end Value

/-! ## From the flushed blocks to the output array -/

section Final
variable (V : (c : Dev nD) → (b : Ref sig .tc) → Buf (Elt Ideal) ((c : Thread nD τ).loc b))

/-- What the launch leaves in the output array: tanh(A·B), index by index. -/
abbrev res12 (c : Dev nD) : Vec Ideal S4096x819 .bf16 := G12 (arrA12 V c) (arrB12 V c)

/-- The block a point writes back is that point's row block of the result. -/
theorem flushed12_eq (c : Dev nD) (t : Fin cfg12.N) (hf : (cfg12.win 2).flush t = true) :
    (dat12 V c).flushed 2 t = ((cfg12.win 2).blk t).view.read (Elt Ideal) (res12 V c) := by
  have hN := N12_eq
  have ht := t.isLt
  show (cfg12.win 2).cut (grid12.coords t) ((dat12 V c).after 2 t) = _
  rw [after12_2]
  refine funext fun (y : S1024x819.Idx) => ?_
  obtain ⟨p, q, rfl⟩ : ∃ (p : Fin 1024) (q : Fin 819), y = ix2 p q := ⟨y 0, y 1, eq_ix2 y⟩
  show out12 V c t (ix2 p q) = (((cfg12.win 2).blk t).view.read (Elt Ideal) (res12 V c) : Vec Ideal S1024x819 .bf16) (ix2 p q)
  rw [out12_pt V c t p q, read_blk12_2 (F := Ideal) (res12 V c) t p q]
  rfl

/-- An index of the output array lies in point t's block iff each coordinate is in the block's range. -/
theorem mem_blk12_2 (t : Fin cfg12.N) (i : S4096x819.Idx) :
    i ∈ ((cfg12.win 2).blk t).view.set ↔ ∀ a : Fin 2, win12_2.index t a * S1024x819.size a ≤ (i a).val ∧ (i a).val < win12_2.index t a * S1024x819.size a + S1024x819.size a := by
  show i ∈ ((View.whole main_v29).slice (win12_2.rect t)).set ↔ _
  rw [View.set_slice_whole, Rect.mem_set_unit]
  exact Iff.rfl

/-- Row r of the output lies in the block written back at point r / 1024. -/
theorem cover12 (i : S4096x819.Idx) : ∃ t : Fin cfg12.N, (cfg12.win 2).flush t = true ∧ i ∈ ((cfg12.win 2).blk t).view.set := by
  have hi0 : (i 0).val < 4096 := (i 0).isLt
  have hi1 : (i 1).val < 819 := (i 1).isLt
  have hN := N12_eq
  refine ⟨⟨(i 0).val / 1024, by omega⟩, flush12_2 _, ?_⟩
  rw [mem_blk12_2]
  obtain ⟨-, -, -, -, e0, e1⟩ := idx_facts12 ⟨(i 0).val / 1024, by omega⟩
  intro a
  match a with
  | ⟨0, _⟩ =>
    show win12_2.index _ (0 : Fin 2) * 1024 ≤ (i 0).val ∧ (i 0).val < win12_2.index _ (0 : Fin 2) * 1024 + 1024
    rw [e0]; dsimp only; omega
  | ⟨1, _⟩ =>
    show win12_2.index _ (1 : Fin 2) * 819 ≤ (i 1).val ∧ (i 1).val < win12_2.index _ (1 : Fin 2) * 819 + 819
    rw [e1]; omega

/-- So the output array ends holding tanh(A·B). -/
theorem out12arr_eq (c : Dev nD) : out12arr V c = res12 V c :=
  (dat12 V c).arrAt_eq_of_cover 2 (res12 V c) (flushed12_eq V c) cover12

/-- THE VALUE OF LAUNCH 12, in matrix form: the output is tanh of the product of the two input matrices. -/
theorem out12_value (c : Dev nD) :
    GcnSpec.toMat (out12arr V c : S4096x819.Idx → EReal)
      = GcnSpec.tanhM (GcnSpec.mm (GcnSpec.toMat (V c main_v24 : S4096x819.Idx → EReal)) (GcnSpec.toMat (V c main_arg23 : S819x819.Idx → EReal))) := by
  rw [out12arr_eq V c]
  exact toMat_G12 (arrA12 V c) (arrB12 V c)

end Final

end Cert.KernelIdeal.Hand

end
-- ==== Proof.KI.R13ValueA.lean ====
/-
  Launch 13 computes out = A·B for A 4096 × 4096 and B 4096 × 819, block by block: the grid point t handles the
  row block t / 4 and the contraction block t % 4 (blocks of 1024), adding the product of A's block (t/4, t%4)
  and B's block (t%4, 0) into an accumulator that is reset at t % 4 = 0, and storing the accumulator, in the
  output's format, into the output's row block at t % 4 = 3. This module reads the body's three pure terms at an
  index over the extended reals, where a change of format is the identity, and reads each window's block at an
  index of its array; nothing here depends on the symbolic runs.
-/
import proofs.«113214_j66838281060556_2_alg».proof.Proof.Gen.KernelIdeal.Launch
import proofs.«113214_j66838281060556_2_alg».proof.Proof.Gen.KernelIdeal.Skeleton
import proofs.«113214_j66838281060556_2_alg».proof.Proof.Gen.KernelIdeal.Points
import proofs.«113214_j66838281060556_2_alg».proof.Proof.KI.MatmulValue
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.ValueIdx (ix2 eq_ix2)

/-! ## The body's pure terms at an index, over the extended reals -/

/-- The reset block is zero everywhere. -/
theorem pay1_13_apply (p : Fin 1024) (q : Fin 819) : k13_pay1 (F := Ideal) (ix2 p q) = 0 := by
  unfold k13_pay1
  simp only [shapeCast_self]
  exact Ideal.ofBits_zero_f32

/-- The update adds the block product to what the accumulator held. -/
theorem pay2_13_apply (x0 : S1024x1024.Idx → EReal) (x1 : S1024x819.Idx → EReal) (xs : S1024x819.Idx → EReal)
    (p : Fin 1024) (q : Fin 819) :
    k13_pay2 (F := Ideal) x0 x1 xs (ix2 p q) = xs (ix2 p q) + ∑ l : Fin 1024, x0 (ix2 p l) * x1 (ix2 l q) := by
  unfold k13_pay2
  simp only [shapeCast_self]
  exact congrArg (xs (ix2 p q) + ·) (matmul819_apply x0 x1 p q)

/-- The stored output block is the accumulator: the change of format is the identity on extended reals. -/
theorem pay3_13_apply (v17 : S1024x819.Idx → EReal) (p : Fin 1024) (q : Fin 819) :
    k13_pay3 (F := Ideal) v17 (ix2 p q) = v17 (ix2 p q) := rfl

/-! ## A window's block at an index of its array -/

theorem gridN13_eq : cfg13.N = 16 := N_13

/-- The printed index maps, decided over the sixteen points: A's block is (t / 4, t % 4), B's (t % 4, 0), the
    output's (t / 4, 0). -/
theorem idx_facts13 : ∀ t : Fin cfg13.N,
    win13_0.index t (0 : Fin 2) = t.val / 4 ∧ win13_0.index t (1 : Fin 2) = t.val % 4
    ∧ win13_1.index t (0 : Fin 2) = t.val % 4 ∧ win13_1.index t (1 : Fin 2) = 0
    ∧ win13_2.index t (0 : Fin 2) = t.val / 4 ∧ win13_2.index t (1 : Fin 2) = 0 :=
  (by decide +kernel : ∀ t : Fin grid13.N, _)

/-- Entry (p, l) of A's block at point t is A at row (t/4)·1024 + p, column (t%4)·1024 + l. -/
theorem read_blk13_0 (X : S4096x4096.Idx → EReal) (t : Fin cfg13.N) (p l : Fin 1024) :
    (((cfg13.win 0).blk t).view.read (Elt Ideal) X : S1024x1024.Idx → EReal) (ix2 p l)
      = X (ix2 (⟨t.val / 4 * 1024 + p.val, by have := t.isLt; have := gridN13_eq; omega⟩ : Fin 4096)
            (⟨t.val % 4 * 1024 + l.val, by omega⟩ : Fin 4096)) := by
  obtain ⟨e0, e1, -⟩ := idx_facts13 t
  rw [View.read_apply]
  show X _ = X _
  congr 1
  funext a
  apply Fin.ext
  match a with
  | ⟨0, _⟩ => show win13_0.index t (0 : Fin 2) * 1024 + 1 * p.val = t.val / 4 * 1024 + p.val; rw [e0]; omega
  | ⟨1, _⟩ => show win13_0.index t (1 : Fin 2) * 1024 + 1 * l.val = t.val % 4 * 1024 + l.val; rw [e1]; omega

/-- Entry (l, q) of B's block at point t is B at row (t%4)·1024 + l, column q. -/
theorem read_blk13_1 (X : S4096x819.Idx → EReal) (t : Fin cfg13.N) (l : Fin 1024) (q : Fin 819) :
    (((cfg13.win 1).blk t).view.read (Elt Ideal) X : S1024x819.Idx → EReal) (ix2 l q)
      = X (ix2 (⟨t.val % 4 * 1024 + l.val, by omega⟩ : Fin 4096) q) := by
  obtain ⟨-, -, e0, e1, -⟩ := idx_facts13 t
  rw [View.read_apply]
  show X _ = X _
  congr 1
  funext a
  apply Fin.ext
  match a with
  | ⟨0, _⟩ => show win13_1.index t (0 : Fin 2) * 1024 + 1 * l.val = t.val % 4 * 1024 + l.val; rw [e0]; omega
  | ⟨1, _⟩ => show win13_1.index t (1 : Fin 2) * 819 + 1 * q.val = q.val; rw [e1]; omega

/-- Entry (p, q) of the output's block at point t is the output at row (t/4)·1024 + p, column q. -/
theorem read_blk13_2 (X : S4096x819.Idx → EReal) (t : Fin cfg13.N) (p : Fin 1024) (q : Fin 819) :
    (((cfg13.win 2).blk t).view.read (Elt Ideal) X : S1024x819.Idx → EReal) (ix2 p q)
      = X (ix2 (⟨t.val / 4 * 1024 + p.val, by have := t.isLt; have := gridN13_eq; omega⟩ : Fin 4096) q) := by
  obtain ⟨-, -, -, -, e0, e1⟩ := idx_facts13 t
  rw [View.read_apply]
  show X _ = X _
  congr 1
  funext a
  apply Fin.ext
  match a with
  | ⟨0, _⟩ => show win13_2.index t (0 : Fin 2) * 1024 + 1 * p.val = t.val / 4 * 1024 + p.val; rw [e0]; omega
  | ⟨1, _⟩ => show win13_2.index t (1 : Fin 2) * 819 + 1 * q.val = q.val; rw [e1]; omega

end Cert.KernelIdeal.Hand

end
-- ==== Proof.KI.R13Value.lean ====
/-
  The value of launch 13: out = A·B. The symbolic runs left, per control case, lists of stored pieces; each is read
  back as one of the body's three pure terms of the staged blocks. By induction on the grid point the accumulator
  after point n holds the first n % 4 + 1 contraction blocks' part of the row block n / 4 of A·B; at a
  contraction's last block the stored output block is the whole row sum; those blocks are the row blocks of the
  result, they cover the output array, and so the array ends holding the result.
-/
import proofs.«113214_j66838281060556_2_alg».proof.Proof.KI.R13
import proofs.«113214_j66838281060556_2_alg».proof.Proof.KI.R13ValueA
import proofs.«113214_j66838281060556_2_alg».proof.Proof.KI.MatmulValue
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat)
open Idealize.ShloMosaic.ValueIdx (ix2 eq_ix2)

/-! ## What each case leaves, as the body's pure terms -/

section Pieces
variable {F : FTy → Type} [FloatOps F]
variable (V : (c : Dev nD) → (b : Ref sig .tc) → Buf (Elt F) ((c : Thread nD τ).loc b))

/-- The accumulator read whole gives back the contents it is held at. -/
theorem scM13_read_unread (h : (scM13 : Memref sig .tc .vmem S1024x819 .f32).IsWhole) (xs : Vec F S1024x819 .f32) :
    View.read (Elt F) (View.whole cc13_scratch0) (h.unread xs) = xs := h.read_unread xs

/-- A middle block: the accumulator ends at the update of what it held. -/
theorem accB13_eq (c : Dev nD) (t : Fin cfg13.N) (h0 : ¬t.val % 4 = 0) (h1 : ¬t.val % 4 = 3) (xs : Vec F S1024x819 .f32) :
    accB13 V c t h0 h1 xs = k13_pay2 (iblk13 V c 0 t) (iblk13 V c 1 t) xs := by
  unfold accB13
  rw [View.read_writes_eq_canon _ _ _ (coverB13 V c t h0 h1 xs)]
  unfold run13_B
  dsimp only
  sl_unfold_words
  rw [View.canon_unit_zero hz00]
  simp only [View.readAt_eq_ld, Memref.IsWhole.read_unread, scM13_read_unread, View.ld_unit_zero (S := S1024x1024) hz00, View.ld_unit_zero (S := S1024x819) hz00]

/-- A first block: the accumulator is reset, read back, and ends at the update of the zero block. -/
theorem accA13_eq (c : Dev nD) (t : Fin cfg13.N) (h0 : t.val % 4 = 0) (h1 : ¬t.val % 4 = 3) :
    accA13 V c t h0 h1 = k13_pay2 (iblk13 V c 0 t) (iblk13 V c 1 t) (k13_pay1 (F := F)) := by
  unfold accA13
  rw [View.read_writes_eq_canon _ _ _ (coverA13 V c t h0 h1)]
  unfold run13_A
  dsimp only
  sl_unfold_words
  rw [View.canon_cons_unit_zero (S := S1024x819) hz00]
  simp only [View.readAt_eq_ld, Memref.IsWhole.read_unread, scM13_read_unread, View.ld_unit_zero (S := S1024x1024) hz00, View.ld_unit_zero (S := S1024x819) hz00,
    View.readCov_unit_zero (S := S1024x819) _ hz00]

/-- A last block: the accumulator ends at the update of what it held, -/
theorem accC13_eq (c : Dev nD) (t : Fin cfg13.N) (h0 : ¬t.val % 4 = 0) (h1 : t.val % 4 = 3) (xs : Vec F S1024x819 .f32) :
    accC13 V c t h0 h1 xs = k13_pay2 (iblk13 V c 0 t) (iblk13 V c 1 t) xs := by
  unfold accC13
  rw [View.read_writes_eq_canon _ _ _ (coverCs13 V c t h0 h1 xs)]
  unfold run13_C
  dsimp only
  sl_unfold_words
  rw [View.canon_unit_zero hz00]
  simp only [View.readAt_eq_ld, Memref.IsWhole.read_unread, scM13_read_unread, View.ld_unit_zero (S := S1024x1024) hz00, View.ld_unit_zero (S := S1024x819) hz00]

/-- and the output block is the stored term of that accumulator, read back. -/
theorem outC13_eq (c : Dev nD) (t : Fin cfg13.N) (h0 : ¬t.val % 4 = 0) (h1 : t.val % 4 = 3) (xs : Vec F S1024x819 .f32) :
    outC13 V c t h0 h1 xs = k13_pay3 (k13_pay2 (iblk13 V c 0 t) (iblk13 V c 1 t) xs) := by
  unfold outC13
  rw [View.read_writes_eq_canon _ _ _ (coverCo13 V c t h0 h1 xs)]
  unfold run13_C
  dsimp only
  sl_unfold_words
  rw [View.canon_unit_zero hz00]
  simp only [View.readAt_eq_ld, Memref.IsWhole.read_unread, scM13_read_unread, View.ld_unit_zero (S := S1024x1024) hz00, View.ld_unit_zero (S := S1024x819) hz00,
    View.readCov_unit_zero (S := S1024x819) _ hz00]

end Pieces

/-! ## The accumulator and the output block after each point, over the extended reals -/

section Value
variable (V : (c : Dev nD) → (b : Ref sig .tc) → Buf (Elt Ideal) ((c : Thread nD τ).loc b))

/-- The two arrays the launch reads, at their literal shapes: A and B. -/
abbrev arrA13 (c : Dev nD) : S4096x4096.Idx → EReal := V c main_v0
abbrev arrB13 (c : Dev nD) : S4096x819.Idx → EReal := V c main_v29
/-- The blocks the two input windows stage at a point, at their literal shapes. -/
abbrev blkA13 (c : Dev nD) (t : Fin cfg13.N) : S1024x1024.Idx → EReal := iblk13 V c 0 t
abbrev blkB13 (c : Dev nD) (t : Fin cfg13.N) : S1024x819.Idx → EReal := iblk13 V c 1 t

theorem blkA13_apply (c : Dev nD) (t : Fin cfg13.N) (p l : Fin 1024) :
    blkA13 V c t (ix2 p l) = natMat (arrA13 V c) (t.val / 4 * 1024 + p.val) (t.val % 4 * 1024 + l.val) :=
  (read_blk13_0 (arrA13 V c) t p l).trans (natMat_val (arrA13 V c) _ _).symm

theorem blkB13_apply (c : Dev nD) (t : Fin cfg13.N) (l : Fin 1024) (q : Fin 819) :
    blkB13 V c t (ix2 l q) = natMat (arrB13 V c) (t.val % 4 * 1024 + l.val) q.val :=
  (read_blk13_1 (arrB13 V c) t l q).trans (natMat_val (arrB13 V c) _ _).symm

/-- The product of the two staged blocks at (p, q) is the contraction block's part of the row of A·B. -/
theorem block_sum13 (c : Dev nD) (t : Fin cfg13.N) (p : Fin 1024) (q : Fin 819) :
    ∑ l : Fin 1024, blkA13 V c t (ix2 p l) * blkB13 V c t (ix2 l q)
      = blockTerm (arrA13 V c) (arrB13 V c) (t.val / 4) (t.val % 4) p q :=
  Finset.sum_congr rfl fun l _ => by rw [blkA13_apply, blkB13_apply]

/-- A contraction's first block leaves its own part of the sum. -/
theorem acc13_A (c : Dev nD) (t : Fin cfg13.N) (h0 : t.val % 4 = 0) (h1 : ¬t.val % 4 = 3) (p : Fin 1024) (q : Fin 819) :
    (outsAt13 V c t.val t.isLt).2 (ix2 p q) = partialSum (arrA13 V c) (arrB13 V c) (t.val / 4) (t.val % 4 + 1) p q := by
  rw [outsAt13_A V c t h0 h1]
  dsimp only
  refine (congrFun (accA13_eq (F := Ideal) V c t h0 h1) (ix2 p q)).trans ?_
  refine (pay2_13_apply (blkA13 V c t) (blkB13 V c t) (k13_pay1 (F := Ideal)) p q).trans ?_
  rw [pay1_13_apply p q, block_sum13 V c t p q, h0]
  exact (partialSum_one (arrA13 V c) (arrB13 V c) (t.val / 4) p q).symm

/-- A later block adds its part to what the point before left. -/
theorem acc13_BC (c : Dev nD) (t : Fin cfg13.N) (h0 : ¬t.val % 4 = 0)
    (ih : ∀ (p : Fin 1024) (q : Fin 819), (outsAt13 V c (t.val - 1) (Nat.lt_of_le_of_lt (Nat.sub_le _ _) t.isLt)).2 (ix2 p q)
      = partialSum (arrA13 V c) (arrB13 V c) ((t.val - 1) / 4) ((t.val - 1) % 4 + 1) p q)
    (p : Fin 1024) (q : Fin 819) :
    (outsAt13 V c t.val t.isLt).2 (ix2 p q) = partialSum (arrA13 V c) (arrB13 V c) (t.val / 4) (t.val % 4 + 1) p q := by
  have e1 : (t.val - 1) / 4 = t.val / 4 := by omega
  have e2 : (t.val - 1) % 4 + 1 = t.val % 4 := by omega
  have step : (outsAt13 V c (t.val - 1) (Nat.lt_of_le_of_lt (Nat.sub_le _ _) t.isLt)).2 (ix2 p q)
      + ∑ l : Fin 1024, blkA13 V c t (ix2 p l) * blkB13 V c t (ix2 l q)
      = partialSum (arrA13 V c) (arrB13 V c) (t.val / 4) (t.val % 4 + 1) p q := by
    rw [ih p q, block_sum13 V c t p q, e1, e2]
    exact (partialSum_succ (arrA13 V c) (arrB13 V c) (t.val / 4) (t.val % 4) p q).symm
  by_cases h1 : t.val % 4 = 3
  · rw [outsAt13_C V c t h0 h1]
    dsimp only
    refine (congrFun (accC13_eq (F := Ideal) V c t h0 h1 (outsAt13 V c (t.val - 1) (Nat.lt_of_le_of_lt (Nat.sub_le _ _) t.isLt)).2) (ix2 p q)).trans ?_
    exact (pay2_13_apply (blkA13 V c t) (blkB13 V c t) (outsAt13 V c (t.val - 1) (Nat.lt_of_le_of_lt (Nat.sub_le _ _) t.isLt)).2 p q).trans step
  · rw [outsAt13_B V c t h0 h1]
    dsimp only
    refine (congrFun (accB13_eq (F := Ideal) V c t h0 h1 (outsAt13 V c (t.val - 1) (Nat.lt_of_le_of_lt (Nat.sub_le _ _) t.isLt)).2) (ix2 p q)).trans ?_
    exact (pay2_13_apply (blkA13 V c t) (blkB13 V c t) (outsAt13 V c (t.val - 1) (Nat.lt_of_le_of_lt (Nat.sub_le _ _) t.isLt)).2 p q).trans step

/-- THE INVARIANT: after point n the accumulator holds, at (p, q), the first n % 4 + 1 blocks' part of row
    (n/4)·1024 + p of A·B at column q. By induction on the point. -/
theorem acc13_inv (c : Dev nD) (n : ℕ) : ∀ (hn : n < cfg13.N) (p : Fin 1024) (q : Fin 819),
    (outsAt13 V c n hn).2 (ix2 p q) = partialSum (arrA13 V c) (arrB13 V c) (n / 4) (n % 4 + 1) p q := by
  induction n with
  | zero => intro hn p q; exact acc13_A V c ⟨0, hn⟩ rfl (by show ¬(0 % 4 = 3); decide) p q
  | succ n ih =>
    intro hn p q
    by_cases h0 : (n + 1) % 4 = 0
    · exact acc13_A V c ⟨n + 1, hn⟩ h0 (by show ¬((n + 1) % 4 = 3); omega) p q
    · exact acc13_BC V c ⟨n + 1, hn⟩ h0 (fun p q => ih (Nat.lt_of_succ_lt hn) p q) p q

/-- At a contraction's last block the stored output block is the whole row sum. -/
theorem out13_C (c : Dev nD) (t : Fin cfg13.N) (h1 : t.val % 4 = 3) (p : Fin 1024) (q : Fin 819) :
    (outsAt13 V c t.val t.isLt).1 (ix2 p q) = partialSum (arrA13 V c) (arrB13 V c) (t.val / 4) 4 p q := by
  have h0 : ¬t.val % 4 = 0 := by omega
  have hacc := acc13_inv V c t.val t.isLt p q
  rw [outsAt13_C V c t h0 h1] at hacc ⊢
  dsimp only at hacc ⊢
  refine (congrFun (outC13_eq (F := Ideal) V c t h0 h1 (outsAt13 V c (t.val - 1) (Nat.lt_of_le_of_lt (Nat.sub_le _ _) t.isLt)).2) (ix2 p q)).trans ?_
  refine (pay3_13_apply (k13_pay2 (F := Ideal) (blkA13 V c t) (blkB13 V c t) (outsAt13 V c (t.val - 1) (Nat.lt_of_le_of_lt (Nat.sub_le _ _) t.isLt)).2) p q).trans ?_
  refine (congrFun (accC13_eq (F := Ideal) V c t h0 h1 (outsAt13 V c (t.val - 1) (Nat.lt_of_le_of_lt (Nat.sub_le _ _) t.isLt)).2) (ix2 p q)).symm.trans ?_
  rw [hacc, h1]

end Value

/-! ## From the flushed blocks to the output array -/

section Final
variable (V : (c : Dev nD) → (b : Ref sig .tc) → Buf (Elt Ideal) ((c : Thread nD τ).loc b))

/-- What the launch leaves in the output array: A·B, index by index. -/
abbrev res13 (c : Dev nD) : S4096x819.Idx → EReal := prodG (arrA13 V c) (arrB13 V c)

/-- The block a contraction's last point writes back is that point's row block of the result. -/
theorem flushed13_eq (c : Dev nD) (t : Fin cfg13.N) (hf : (cfg13.win 2).flush t = true) :
    (dat13 V c).flushed 2 t = ((cfg13.win 2).blk t).view.read (Elt Ideal) (res13 V c) := by
  have h1 : t.val % 4 = 3 := (flush13_2 t).mp hf
  have hN := gridN13_eq
  have ht := t.isLt
  show (cfg13.win 2).cut (grid13.coords t) ((dat13 V c).after 2 t) = _
  rw [after13_2]
  refine funext fun (y : S1024x819.Idx) => ?_
  obtain ⟨p, q, rfl⟩ : ∃ (p : Fin 1024) (q : Fin 819), y = ix2 p q := ⟨y 0, y 1, eq_ix2 y⟩
  show (outsAt13 V c t.val t.isLt).1 (ix2 p q) = (((cfg13.win 2).blk t).view.read (Elt Ideal) (res13 V c) : S1024x819.Idx → EReal) (ix2 p q)
  rw [out13_C V c t h1 p q, read_blk13_2 (res13 V c) t p q,
    partialSum_four (arrA13 V c) (arrB13 V c) (t.val / 4) (by omega) p q]
  rfl

/-- An index of the output array lies in point t's block iff each coordinate is in the block's range. -/
theorem mem_blk13_2 (t : Fin cfg13.N) (i : S4096x819.Idx) :
    i ∈ ((cfg13.win 2).blk t).view.set ↔ ∀ a : Fin 2, win13_2.index t a * S1024x819.size a ≤ (i a).val ∧ (i a).val < win13_2.index t a * S1024x819.size a + S1024x819.size a := by
  show i ∈ ((View.whole main_v30).slice (win13_2.rect t)).set ↔ _
  rw [View.set_slice_whole, Rect.mem_set_unit]
  exact Iff.rfl

/-- Row r of the output lies in the block written back at point 4·(r / 1024) + 3. -/
theorem cover13 (i : S4096x819.Idx) : ∃ t : Fin cfg13.N, (cfg13.win 2).flush t = true ∧ i ∈ ((cfg13.win 2).blk t).view.set := by
  have hi0 : (i 0).val < 4096 := (i 0).isLt
  have hi1 : (i 1).val < 819 := (i 1).isLt
  have hN := gridN13_eq
  refine ⟨⟨4 * ((i 0).val / 1024) + 3, by omega⟩, (flush13_2 _).mpr (by show (4 * ((i 0).val / 1024) + 3) % 4 = 3; omega), ?_⟩
  rw [mem_blk13_2]
  obtain ⟨-, -, -, -, e0, e1⟩ := idx_facts13 ⟨4 * ((i 0).val / 1024) + 3, by omega⟩
  intro a
  match a with
  | ⟨0, _⟩ =>
    show win13_2.index _ (0 : Fin 2) * 1024 ≤ (i 0).val ∧ (i 0).val < win13_2.index _ (0 : Fin 2) * 1024 + 1024
    rw [e0]; dsimp only; omega
  | ⟨1, _⟩ =>
    show win13_2.index _ (1 : Fin 2) * 819 ≤ (i 1).val ∧ (i 1).val < win13_2.index _ (1 : Fin 2) * 819 + 819
    rw [e1]; omega

/-- So the output array ends holding A·B. -/
theorem out13_eq (c : Dev nD) : out13 V c = res13 V c :=
  (dat13 V c).arrAt_eq_of_cover 2 (res13 V c) (flushed13_eq V c) cover13

/-- THE VALUE OF LAUNCH 13, in matrix form: the output is the product of the two input matrices. -/
theorem out13_value (c : Dev nD) :
    GcnSpec.toMat (out13 V c : S4096x819.Idx → EReal)
      = GcnSpec.mm (GcnSpec.toMat (V c main_v0 : S4096x4096.Idx → EReal)) (GcnSpec.toMat (V c main_v29 : S4096x819.Idx → EReal)) := by
  rw [out13_eq V c]
  exact toMat_prodG (arrA13 V c) (arrB13 V c)

end Final

end Cert.KernelIdeal.Hand

end
-- ==== Proof.KI.R14ValueA.lean ====
/-
  Launch 14 computes out = tanh(A·B + bias) for A with 819 columns, B 819 × 819 and a bias row, one row block of A
  per grid point: the point t multiplies A's row block t by the whole of B into an accumulator reset at that point,
  and stores tanh(accumulator + bias) into the output's row block t. This module reads the body's three pure terms
  at an index over the extended reals and reads a window's block at an index of its array; nothing here depends on
  the symbolic run.
-/
import proofs.«113214_j66838281060556_2_alg».proof.Proof.Gen.KernelIdeal.Launch
import proofs.«113214_j66838281060556_2_alg».proof.Proof.Gen.KernelIdeal.Skeleton
import proofs.«113214_j66838281060556_2_alg».proof.Proof.Gen.KernelIdeal.Points
import proofs.«113214_j66838281060556_2_alg».proof.Proof.GcnSpec
import proofs.«113214_j66838281060556_2_alg».proof.Proof.GcnAlgebra
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.ValueIdx (ix2 eq_ix2)

/-! ## The body's pure terms at an index, over the extended reals -/

/-- The product's contraction record, by a short name. -/
abbrev D14 : DotDims S1024x819 S819x819 S1024x819 := dot_S1024x819_S819x819_S1024x819_1_0_0_1_n_n

theorem lhs_D14_0 (i : S1024x819.Idx) (q : dot_S1024x819_S819x819_S1024x819_1_0_0_1_n_n.contr.Idx) :
    (dot_S1024x819_S819x819_S1024x819_1_0_0_1_n_n.lhsIdx i q 0).val = (i 0).val := by
  unfold DotDims.lhsIdx
  rw [dif_neg (show ¬(0 : Fin S1024x819.rank) ∈ dot_S1024x819_S819x819_S1024x819_1_0_0_1_n_n.lhsBatch by decide), dif_pos (show (0 : Fin S1024x819.rank) ∈ dot_S1024x819_S819x819_S1024x819_1_0_0_1_n_n.lhsNonContracting by decide)]
  rfl
theorem lhs_D14_1 (i : S1024x819.Idx) (q : dot_S1024x819_S819x819_S1024x819_1_0_0_1_n_n.contr.Idx) :
    (dot_S1024x819_S819x819_S1024x819_1_0_0_1_n_n.lhsIdx i q 1).val = (q ⟨0, by decide⟩).val :=
  dot_S1024x819_S819x819_S1024x819_1_0_0_1_n_n.lhsIdx_val_of_single rfl i q
theorem rhs_D14_0 (i : S1024x819.Idx) (q : dot_S1024x819_S819x819_S1024x819_1_0_0_1_n_n.contr.Idx) :
    (dot_S1024x819_S819x819_S1024x819_1_0_0_1_n_n.rhsIdx i q 0).val = (q ⟨0, by decide⟩).val :=
  dot_S1024x819_S819x819_S1024x819_1_0_0_1_n_n.rhsIdx_val_of_single rfl i q
theorem rhs_D14_1 (i : S1024x819.Idx) (q : dot_S1024x819_S819x819_S1024x819_1_0_0_1_n_n.contr.Idx) :
    (dot_S1024x819_S819x819_S1024x819_1_0_0_1_n_n.rhsIdx i q 1).val = (i 1).val := by
  unfold DotDims.rhsIdx
  rw [dif_neg (show ¬(1 : Fin S819x819.rank) ∈ dot_S1024x819_S819x819_S1024x819_1_0_0_1_n_n.rhsBatch by decide), dif_pos (show (1 : Fin S819x819.rank) ∈ dot_S1024x819_S819x819_S1024x819_1_0_0_1_n_n.rhsNonContracting by decide)]
  rfl

/-- The block product at (p, q) is the sum over the 819 contracted columns. -/
theorem matmul14_apply (x0 : Vec Ideal S1024x819 .bf16) (x1 : Vec Ideal S819x819 .bf16) (p : Fin 1024) (q : Fin 819) :
    matmul (F := Ideal) (φ₁ := .bf16) (φ₂ := .bf16) dot_S1024x819_S819x819_S1024x819_1_0_0_1_n_n none x0 x1 (constant S1024x819 .f32 0x00000000#32) (ix2 p q)
      = ∑ l : Fin 819, x0 (ix2 p l) * x1 (ix2 l q) := by
  refine (Ideal.matmul_constant_zero_apply (φ₁ := .bf16) (φ₂ := .bf16) dot_S1024x819_S819x819_S1024x819_1_0_0_1_n_n none x0 x1 (ix2 p q)).trans ?_
  rw [← Equiv.sum_comp (ValueIdx.contrEquiv1 dot_S1024x819_S819x819_S1024x819_1_0_0_1_n_n 819 rfl rfl).symm]
  refine Finset.sum_congr rfl fun k _ => ?_
  have hk := ValueIdx.contrEquiv1_symm_val dot_S1024x819_S819x819_S1024x819_1_0_0_1_n_n 819 rfl rfl k
  have el : dot_S1024x819_S819x819_S1024x819_1_0_0_1_n_n.lhsIdx (ix2 p q) ((ValueIdx.contrEquiv1 dot_S1024x819_S819x819_S1024x819_1_0_0_1_n_n 819 rfl rfl).symm k) = ix2 p k := funext fun a => Fin.ext (by
    match a with
    | ⟨0, _⟩ => exact lhs_D14_0 _ _
    | ⟨1, _⟩ => exact (lhs_D14_1 _ _).trans hk)
  have er : dot_S1024x819_S819x819_S1024x819_1_0_0_1_n_n.rhsIdx (ix2 p q) ((ValueIdx.contrEquiv1 dot_S1024x819_S819x819_S1024x819_1_0_0_1_n_n 819 rfl rfl).symm k) = ix2 k q := funext fun a => Fin.ext (by
    match a with
    | ⟨0, _⟩ => exact (rhs_D14_0 _ _).trans hk
    | ⟨1, _⟩ => exact rhs_D14_1 _ _)
  rw [el, er]

/-- The reset block is zero everywhere. -/
theorem pay1_14_apply (p : Fin 1024) (q : Fin 819) : k14_pay1 (F := Ideal) (ix2 p q) = 0 := by
  unfold k14_pay1
  simp only [shapeCast_self]
  exact Ideal.ofBits_zero_f32

/-- The update adds the block product to what the accumulator held; the right factor's change of format is the
    identity on the extended reals. -/
theorem pay2_14_apply (x0 : Vec Ideal S1024x819 .bf16) (x1 : Vec Ideal S819x819 .f32) (xs : Vec Ideal S1024x819 .f32)
    (p : Fin 1024) (q : Fin 819) :
    k14_pay2 (F := Ideal) x0 x1 xs (ix2 p q) = xs (ix2 p q) + ∑ l : Fin 819, x0 (ix2 p l) * x1 (ix2 l q) := by
  unfold k14_pay2
  simp only [shapeCast_self]
  exact congrArg (xs (ix2 p q) + ·) (matmul14_apply x0 x1 p q)

/-- The stored output block is tanh of the accumulator plus the bias row. -/
theorem pay3_14_apply (v16 : Vec Ideal S1024x819 .f32) (v17 : Vec Ideal S1x819 .f32) (p : Fin 1024) (q : Fin 819) :
    k14_pay3 (F := Ideal) v16 v17 (ix2 p q) = Ideal.tanh (v16 (ix2 p q) + v17 (ix2 (0 : Fin 1) q)) := by
  unfold k14_pay3
  simp only [shapeCast_self]
  refine congrArg (fun z => Ideal.tanh (v16 (ix2 p q) + z)) ?_
  exact broadcastTo_apply v17 broadcasts_S1x819_S1024x819 (ix2 p q) (ix2 (0 : Fin 1) q) (fun a => by
    match a with
    | ⟨0, _⟩ => rfl
    | ⟨1, _⟩ => rfl)

/-! ## A window's block at an index of its array -/

theorem N14_eq : cfg14.N = 4 := N_14

/-- The printed index maps, decided over the grid's points: the left factor's block is (t, 0), the right factor's
    and the bias row's (0, 0), the output's (t, 0). -/
theorem idx_facts14 : ∀ t : Fin cfg14.N,
    win14_0.index t (0 : Fin 2) = t.val ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = t.val ∧ win14_3.index t (1 : Fin 2) = 0 :=
  (by decide +kernel : ∀ t : Fin grid14.N, _)

section Blocks

variable {F : FTy → Type}

/-- Entry (p, l) of the left factor's block at point t is the array at row t·1024 + p, column l. -/
theorem read_blk14_0 (X : Vec F S4096x819 .bf16) (t : Fin cfg14.N) (p : Fin 1024) (l : Fin 819) :
    (((cfg14.win 0).blk t).view.read (Elt F) X : Vec F S1024x819 .bf16) (ix2 p l)
      = X (ix2 (⟨t.val * 1024 + p.val, by have := t.isLt; have := N14_eq; omega⟩ : Fin 4096) l) := by
  obtain ⟨e0, e1, -⟩ := idx_facts14 t
  rw [View.read_apply]
  show X _ = X _
  congr 1
  funext a
  apply Fin.ext
  match a with
  | ⟨0, _⟩ => show win14_0.index t (0 : Fin 2) * 1024 + 1 * p.val = t.val * 1024 + p.val; rw [e0]; omega
  | ⟨1, _⟩ => show win14_0.index t (1 : Fin 2) * 819 + 1 * l.val = l.val; rw [e1]; omega

/-- The right factor's block at any point is the whole array. -/
theorem read_blk14_1 (X : Vec F S819x819 .f32) (t : Fin cfg14.N) (l : Fin 819) (q : Fin 819) :
    (((cfg14.win 1).blk t).view.read (Elt F) X : Vec F S819x819 .f32) (ix2 l q) = X (ix2 l q) := by
  obtain ⟨-, -, e0, e1, -⟩ := idx_facts14 t
  rw [View.read_apply]
  show X _ = X _
  congr 1
  funext a
  apply Fin.ext
  match a with
  | ⟨0, _⟩ => show win14_1.index t (0 : Fin 2) * 819 + 1 * l.val = l.val; rw [e0]; omega
  | ⟨1, _⟩ => show win14_1.index t (1 : Fin 2) * 819 + 1 * q.val = q.val; rw [e1]; omega

/-- The bias window's block at any point is the whole bias row. -/
theorem read_blk14_2 (X : Vec F S1x819 .f32) (t : Fin cfg14.N) (q : Fin 819) :
    (((cfg14.win 2).blk t).view.read (Elt F) X : Vec F S1x819 .f32) (ix2 (0 : Fin 1) q) = X (ix2 (0 : Fin 1) q) := by
  obtain ⟨-, -, -, -, e0, e1, -⟩ := idx_facts14 t
  rw [View.read_apply]
  show X _ = X _
  congr 1
  funext a
  apply Fin.ext
  match a with
  | ⟨0, _⟩ => show win14_2.index t (0 : Fin 2) * 1 + 1 * (0 : Fin 1).val = (0 : Fin 1).val; rw [e0]; rfl
  | ⟨1, _⟩ => show win14_2.index t (1 : Fin 2) * 819 + 1 * q.val = q.val; rw [e1]; omega

/-- Entry (p, q) of the output's block at point t is the output at row t·1024 + p, column q. -/
theorem read_blk14_3 (X : Vec F S4096x819 .f32) (t : Fin cfg14.N) (p : Fin 1024) (q : Fin 819) :
    (((cfg14.win 3).blk t).view.read (Elt F) X : Vec F S1024x819 .f32) (ix2 p q)
      = X (ix2 (⟨t.val * 1024 + p.val, by have := t.isLt; have := N14_eq; omega⟩ : Fin 4096) q) := by
  obtain ⟨-, -, -, -, -, -, e0, e1⟩ := idx_facts14 t
  rw [View.read_apply]
  show X _ = X _
  congr 1
  funext a
  apply Fin.ext
  match a with
  | ⟨0, _⟩ => show win14_3.index t (0 : Fin 2) * 1024 + 1 * p.val = t.val * 1024 + p.val; rw [e0]; omega
  | ⟨1, _⟩ => show win14_3.index t (1 : Fin 2) * 819 + 1 * q.val = q.val; rw [e1]; omega

end Blocks

/-! ## The result, index by index -/

/-- What the output array holds after the launch: tanh of row i of A·B plus the bias row, at column j. -/
def G14 (A : Vec Ideal S4096x819 .bf16) (B : Vec Ideal S819x819 .f32) (bias : Vec Ideal S1x819 .f32) : Vec Ideal S4096x819 .f32 :=
  fun y => Ideal.tanh ((∑ k : Fin 819, A (ix2 (y 0) k) * B (ix2 k (y 1))) + bias (ix2 (0 : Fin 1) (y 1)))

/-- In matrix form it is tanh(A·B + bias), the bias broadcast down the rows. -/
theorem toMat_G14 (A : Vec Ideal S4096x819 .bf16) (B : Vec Ideal S819x819 .f32) (bias : Vec Ideal S1x819 .f32) :
    GcnSpec.toMat (G14 A B bias)
      = GcnSpec.tanhB (GcnSpec.mm (GcnSpec.toMat A) (GcnSpec.toMat B)) (fun j => bias (ix2 (0 : Fin 1) j)) := rfl

end Cert.KernelIdeal.Hand

end
-- ==== Proof.KI.R14Value.lean ====
/-
  The value of launch 14: out = tanh(A·B + bias). The symbolic run left the list of pieces stored into the output
  block; it is read back as the body's three pure terms of the staged blocks: the accumulator reset, the product of
  the two staged blocks added, tanh of that sum plus the bias row stored. One point's block is thus a row block of
  the result; those blocks cover the output array, and so the array ends holding the result.
-/
import proofs.«113214_j66838281060556_2_alg».proof.Proof.KI.R14
import proofs.«113214_j66838281060556_2_alg».proof.Proof.KI.R14ValueA
import proofs.«113214_j66838281060556_2_alg».proof.Proof.GcnSpec
import proofs.«113214_j66838281060556_2_alg».proof.Proof.GcnAlgebra
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat)
open Idealize.ShloMosaic.ValueIdx (ix2 eq_ix2)

/-! ## What a point stores, as the body's pure terms -/

section Pieces
variable {F : FTy → Type} [FloatOps F]
variable (V : (c : Dev nD) → (b : Ref sig .tc) → Buf (Elt F) ((c : Thread nD τ).loc b))

theorem hz14 : (![0, 0] : Fin 2 → Nat) = fun _ => 0 := funext fun a => by fin_cases a <;> rfl

/-- The accumulator read whole gives back the contents it is held at. -/
theorem scM14_read_unread (h : (scM14 : Memref sig .tc .vmem S1024x819 .f32).IsWhole) (xs : Vec F S1024x819 .f32) :
    View.read (Elt F) (View.whole cc14_scratch0) (h.unread xs) = xs := h.read_unread xs

/-- The output block a point stores: the accumulator is reset, read back, updated by the product of the two staged
    blocks, read back, and the stored term of it and the bias block is what the output's buffer holds. -/
theorem outO14_eq (c : Dev nD) (t : Fin cfg14.N) :
    out14 V c t = k14_pay3 (k14_pay2 (iblk14 V c 0 t) (iblk14 V c 1 t) (k14_pay1 (F := F))) (iblk14 V c 2 t) := by
  unfold out14
  rw [View.read_writes_eq_canon _ _ _ (coverO14 V c t)]
  unfold run14
  dsimp only
  sl_unfold_words
  rw [View.canon_unit_zero hz14]
  simp only [View.readAt_eq_ld, Memref.IsWhole.read_unread, scM14_read_unread, View.ld_unit_zero (S := S1024x819) hz14, View.ld_unit_zero (S := S819x819) hz14,
    View.ld_unit_zero (S := S1x819) hz14, View.readCov_unit_zero (S := S1024x819) _ hz14, View.readCov_cons_toLoadRect]

end Pieces

/-! ## The stored block, over the extended reals -/

section Value
variable (V : (c : Dev nD) → (b : Ref sig .tc) → Buf (Elt Ideal) ((c : Thread nD τ).loc b))

/-- The three arrays the launch reads, at their literal types: A, B and the bias row. -/
abbrev arrA14 (c : Dev nD) : Vec Ideal S4096x819 .bf16 := V c main_v30
abbrev arrB14 (c : Dev nD) : Vec Ideal S819x819 .f32 := V c main_arg13
abbrev arrC14 (c : Dev nD) : Vec Ideal S1x819 .f32 := V c main_v31
/-- The blocks the three input windows stage at a point, at their literal types. -/
abbrev blkA14 (c : Dev nD) (t : Fin cfg14.N) : Vec Ideal S1024x819 .bf16 := iblk14 V c 0 t
abbrev blkB14 (c : Dev nD) (t : Fin cfg14.N) : Vec Ideal S819x819 .f32 := iblk14 V c 1 t
abbrev blkC14 (c : Dev nD) (t : Fin cfg14.N) : Vec Ideal S1x819 .f32 := iblk14 V c 2 t

theorem blkA14_apply (c : Dev nD) (t : Fin cfg14.N) (p : Fin 1024) (l : Fin 819) :
    blkA14 V c t (ix2 p l) = arrA14 V c (ix2 (⟨t.val * 1024 + p.val, by have := t.isLt; have := N14_eq; omega⟩ : Fin 4096) l) :=
  read_blk14_0 (F := Ideal) (arrA14 V c) t p l

theorem blkB14_apply (c : Dev nD) (t : Fin cfg14.N) (l : Fin 819) (q : Fin 819) :
    blkB14 V c t (ix2 l q) = arrB14 V c (ix2 l q) :=
  read_blk14_1 (F := Ideal) (arrB14 V c) t l q

theorem blkC14_apply (c : Dev nD) (t : Fin cfg14.N) (q : Fin 819) :
    blkC14 V c t (ix2 (0 : Fin 1) q) = arrC14 V c (ix2 (0 : Fin 1) q) :=
  read_blk14_2 (F := Ideal) (arrC14 V c) t q

/-- The block a point stores is, at (p, q), tanh of row t·1024 + p of A·B at column q plus the bias there. -/
theorem out14_pt (c : Dev nD) (t : Fin cfg14.N) (p : Fin 1024) (q : Fin 819) :
    out14 V c t (ix2 p q)
      = Ideal.tanh ((∑ l : Fin 819, arrA14 V c (ix2 (⟨t.val * 1024 + p.val, by have := t.isLt; have := N14_eq; omega⟩ : Fin 4096) l) * arrB14 V c (ix2 l q))
          + arrC14 V c (ix2 (0 : Fin 1) q)) := by
  refine (congrFun (outO14_eq (F := Ideal) V c t) (ix2 p q)).trans ?_
  refine (pay3_14_apply (k14_pay2 (blkA14 V c t) (blkB14 V c t) (k14_pay1 (F := Ideal))) (blkC14 V c t) p q).trans ?_
  rw [pay2_14_apply (blkA14 V c t) (blkB14 V c t) (k14_pay1 (F := Ideal)) p q, pay1_14_apply p q, zero_add, blkC14_apply V c t q]
  refine congrArg (fun z => Ideal.tanh (z + arrC14 V c (ix2 (0 : Fin 1) q))) ?_
  exact Finset.sum_congr rfl fun l _ => by rw [blkA14_apply, blkB14_apply]

end Value

/-! ## From the flushed blocks to the output array -/

section Final
variable (V : (c : Dev nD) → (b : Ref sig .tc) → Buf (Elt Ideal) ((c : Thread nD τ).loc b))

/-- What the launch leaves in the output array: tanh(A·B + bias), index by index. -/
abbrev res14 (c : Dev nD) : Vec Ideal S4096x819 .f32 := G14 (arrA14 V c) (arrB14 V c) (arrC14 V c)

/-- The block a point writes back is that point's row block of the result. -/
theorem flushed14_eq (c : Dev nD) (t : Fin cfg14.N) (hf : (cfg14.win 3).flush t = true) :
    (dat14 V c).flushed 3 t = ((cfg14.win 3).blk t).view.read (Elt Ideal) (res14 V c) := by
  have hN := N14_eq
  have ht := t.isLt
  show (cfg14.win 3).cut (grid14.coords t) ((dat14 V c).after 3 t) = _
  rw [after14_3]
  refine funext fun (y : S1024x819.Idx) => ?_
  obtain ⟨p, q, rfl⟩ : ∃ (p : Fin 1024) (q : Fin 819), y = ix2 p q := ⟨y 0, y 1, eq_ix2 y⟩
  show out14 V c t (ix2 p q) = (((cfg14.win 3).blk t).view.read (Elt Ideal) (res14 V c) : Vec Ideal S1024x819 .f32) (ix2 p q)
  rw [out14_pt V c t p q, read_blk14_3 (F := Ideal) (res14 V c) t p q]
  rfl

/-- An index of the output array lies in point t's block iff each coordinate is in the block's range. -/
theorem mem_blk14_3 (t : Fin cfg14.N) (i : S4096x819.Idx) :
    i ∈ ((cfg14.win 3).blk t).view.set ↔ ∀ a : Fin 2, win14_3.index t a * S1024x819.size a ≤ (i a).val ∧ (i a).val < win14_3.index t a * S1024x819.size a + S1024x819.size a := by
  show i ∈ ((View.whole main_v32).slice (win14_3.rect t)).set ↔ _
  rw [View.set_slice_whole, Rect.mem_set_unit]
  exact Iff.rfl

/-- Row r of the output lies in the block written back at point r / 1024. -/
theorem cover14 (i : S4096x819.Idx) : ∃ t : Fin cfg14.N, (cfg14.win 3).flush t = true ∧ i ∈ ((cfg14.win 3).blk t).view.set := by
  have hi0 : (i 0).val < 4096 := (i 0).isLt
  have hi1 : (i 1).val < 819 := (i 1).isLt
  have hN := N14_eq
  refine ⟨⟨(i 0).val / 1024, by omega⟩, flush14_3 _, ?_⟩
  rw [mem_blk14_3]
  obtain ⟨-, -, -, -, -, -, e0, e1⟩ := idx_facts14 ⟨(i 0).val / 1024, by omega⟩
  intro a
  match a with
  | ⟨0, _⟩ =>
    show win14_3.index _ (0 : Fin 2) * 1024 ≤ (i 0).val ∧ (i 0).val < win14_3.index _ (0 : Fin 2) * 1024 + 1024
    rw [e0]; dsimp only; omega
  | ⟨1, _⟩ =>
    show win14_3.index _ (1 : Fin 2) * 819 ≤ (i 1).val ∧ (i 1).val < win14_3.index _ (1 : Fin 2) * 819 + 819
    rw [e1]; omega

/-- So the output array ends holding tanh(A·B + bias). -/
theorem out14arr_eq (c : Dev nD) : out14arr V c = res14 V c :=
  (dat14 V c).arrAt_eq_of_cover 3 (res14 V c) (flushed14_eq V c) cover14

/-- THE VALUE OF LAUNCH 14, in matrix form: the output is tanh of the product of the two input matrices plus the
    bias row broadcast down the rows. -/
theorem out14_value (c : Dev nD) :
    GcnSpec.toMat (out14arr V c : S4096x819.Idx → EReal)
      = GcnSpec.tanhB (GcnSpec.mm (GcnSpec.toMat (V c main_v30 : S4096x819.Idx → EReal)) (GcnSpec.toMat (V c main_arg13 : S819x819.Idx → EReal)))
          (fun j => (V c main_v31 : S1x819.Idx → EReal) (ix2 (0 : Fin 1) j)) := by
  rw [out14arr_eq V c]
  exact toMat_G14 (arrA14 V c) (arrB14 V c) (arrC14 V c)

end Final

end Cert.KernelIdeal.Hand

end
-- ==== Proof.KI.R15ValueA.lean ====
/-
  Launch 15 computes out = A·B for A 4096 × 4096 and B 4096 × 819, block by block: the grid point t handles the
  row block t / 4 and the contraction block t % 4 (blocks of 1024), adding the product of A's block (t/4, t%4)
  and B's block (t%4, 0) into an accumulator that is reset at t % 4 = 0, and storing the accumulator, in the
  output's format, into the output's row block at t % 4 = 3. This module reads the body's three pure terms at an
  index over the extended reals, where a change of format is the identity, and reads each window's block at an
  index of its array; nothing here depends on the symbolic runs.
-/
import proofs.«113214_j66838281060556_2_alg».proof.Proof.Gen.KernelIdeal.Launch
import proofs.«113214_j66838281060556_2_alg».proof.Proof.Gen.KernelIdeal.Skeleton
import proofs.«113214_j66838281060556_2_alg».proof.Proof.Gen.KernelIdeal.Points
import proofs.«113214_j66838281060556_2_alg».proof.Proof.KI.MatmulValue
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.ValueIdx (ix2 eq_ix2)

/-! ## The body's pure terms at an index, over the extended reals -/

/-- The reset block is zero everywhere. -/
theorem pay1_15_apply (p : Fin 1024) (q : Fin 819) : k15_pay1 (F := Ideal) (ix2 p q) = 0 := by
  unfold k15_pay1
  simp only [shapeCast_self]
  exact Ideal.ofBits_zero_f32

/-- The update adds the block product to what the accumulator held. -/
theorem pay2_15_apply (x0 : S1024x1024.Idx → EReal) (x1 : S1024x819.Idx → EReal) (xs : S1024x819.Idx → EReal)
    (p : Fin 1024) (q : Fin 819) :
    k15_pay2 (F := Ideal) x0 x1 xs (ix2 p q) = xs (ix2 p q) + ∑ l : Fin 1024, x0 (ix2 p l) * x1 (ix2 l q) := by
  unfold k15_pay2
  simp only [shapeCast_self]
  exact congrArg (xs (ix2 p q) + ·) (matmul819_apply x0 x1 p q)

/-- The stored output block is the accumulator: the change of format is the identity on extended reals. -/
theorem pay3_15_apply (v17 : S1024x819.Idx → EReal) (p : Fin 1024) (q : Fin 819) :
    k15_pay3 (F := Ideal) v17 (ix2 p q) = v17 (ix2 p q) := rfl

/-! ## A window's block at an index of its array -/

theorem gridN15_eq : cfg15.N = 16 := N_15

/-- The printed index maps, decided over the sixteen points: A's block is (t / 4, t % 4), B's (t % 4, 0), the
    output's (t / 4, 0). -/
theorem idx_facts15 : ∀ t : Fin cfg15.N,
    win15_0.index t (0 : Fin 2) = t.val / 4 ∧ win15_0.index t (1 : Fin 2) = t.val % 4
    ∧ win15_1.index t (0 : Fin 2) = t.val % 4 ∧ win15_1.index t (1 : Fin 2) = 0
    ∧ win15_2.index t (0 : Fin 2) = t.val / 4 ∧ win15_2.index t (1 : Fin 2) = 0 :=
  (by decide +kernel : ∀ t : Fin grid15.N, _)

/-- Entry (p, l) of A's block at point t is A at row (t/4)·1024 + p, column (t%4)·1024 + l. -/
theorem read_blk15_0 (X : S4096x4096.Idx → EReal) (t : Fin cfg15.N) (p l : Fin 1024) :
    (((cfg15.win 0).blk t).view.read (Elt Ideal) X : S1024x1024.Idx → EReal) (ix2 p l)
      = X (ix2 (⟨t.val / 4 * 1024 + p.val, by have := t.isLt; have := gridN15_eq; omega⟩ : Fin 4096)
            (⟨t.val % 4 * 1024 + l.val, by omega⟩ : Fin 4096)) := by
  obtain ⟨e0, e1, -⟩ := idx_facts15 t
  rw [View.read_apply]
  show X _ = X _
  congr 1
  funext a
  apply Fin.ext
  match a with
  | ⟨0, _⟩ => show win15_0.index t (0 : Fin 2) * 1024 + 1 * p.val = t.val / 4 * 1024 + p.val; rw [e0]; omega
  | ⟨1, _⟩ => show win15_0.index t (1 : Fin 2) * 1024 + 1 * l.val = t.val % 4 * 1024 + l.val; rw [e1]; omega

/-- Entry (l, q) of B's block at point t is B at row (t%4)·1024 + l, column q. -/
theorem read_blk15_1 (X : S4096x819.Idx → EReal) (t : Fin cfg15.N) (l : Fin 1024) (q : Fin 819) :
    (((cfg15.win 1).blk t).view.read (Elt Ideal) X : S1024x819.Idx → EReal) (ix2 l q)
      = X (ix2 (⟨t.val % 4 * 1024 + l.val, by omega⟩ : Fin 4096) q) := by
  obtain ⟨-, -, e0, e1, -⟩ := idx_facts15 t
  rw [View.read_apply]
  show X _ = X _
  congr 1
  funext a
  apply Fin.ext
  match a with
  | ⟨0, _⟩ => show win15_1.index t (0 : Fin 2) * 1024 + 1 * l.val = t.val % 4 * 1024 + l.val; rw [e0]; omega
  | ⟨1, _⟩ => show win15_1.index t (1 : Fin 2) * 819 + 1 * q.val = q.val; rw [e1]; omega

/-- Entry (p, q) of the output's block at point t is the output at row (t/4)·1024 + p, column q. -/
theorem read_blk15_2 (X : S4096x819.Idx → EReal) (t : Fin cfg15.N) (p : Fin 1024) (q : Fin 819) :
    (((cfg15.win 2).blk t).view.read (Elt Ideal) X : S1024x819.Idx → EReal) (ix2 p q)
      = X (ix2 (⟨t.val / 4 * 1024 + p.val, by have := t.isLt; have := gridN15_eq; omega⟩ : Fin 4096) q) := by
  obtain ⟨-, -, -, -, e0, e1⟩ := idx_facts15 t
  rw [View.read_apply]
  show X _ = X _
  congr 1
  funext a
  apply Fin.ext
  match a with
  | ⟨0, _⟩ => show win15_2.index t (0 : Fin 2) * 1024 + 1 * p.val = t.val / 4 * 1024 + p.val; rw [e0]; omega
  | ⟨1, _⟩ => show win15_2.index t (1 : Fin 2) * 819 + 1 * q.val = q.val; rw [e1]; omega

end Cert.KernelIdeal.Hand

end
-- ==== Proof.KI.R15Value.lean ====
/-
  The value of launch 15: out = A·B. The symbolic runs left, per control case, lists of stored pieces; each is read
  back as one of the body's three pure terms of the staged blocks. By induction on the grid point the accumulator
  after point n holds the first n % 4 + 1 contraction blocks' part of the row block n / 4 of A·B; at a
  contraction's last block the stored output block is the whole row sum; those blocks are the row blocks of the
  result, they cover the output array, and so the array ends holding the result.
-/
import proofs.«113214_j66838281060556_2_alg».proof.Proof.KI.R15
import proofs.«113214_j66838281060556_2_alg».proof.Proof.KI.R15ValueA
import proofs.«113214_j66838281060556_2_alg».proof.Proof.KI.MatmulValue
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat)
open Idealize.ShloMosaic.ValueIdx (ix2 eq_ix2)

/-! ## What each case leaves, as the body's pure terms -/

section Pieces
variable {F : FTy → Type} [FloatOps F]
variable (V : (c : Dev nD) → (b : Ref sig .tc) → Buf (Elt F) ((c : Thread nD τ).loc b))

/-- The accumulator read whole gives back the contents it is held at. -/
theorem scM15_read_unread (h : (scM15 : Memref sig .tc .vmem S1024x819 .f32).IsWhole) (xs : Vec F S1024x819 .f32) :
    View.read (Elt F) (View.whole cc15_scratch0) (h.unread xs) = xs := h.read_unread xs

/-- A middle block: the accumulator ends at the update of what it held. -/
theorem accB15_eq (c : Dev nD) (t : Fin cfg15.N) (h0 : ¬t.val % 4 = 0) (h1 : ¬t.val % 4 = 3) (xs : Vec F S1024x819 .f32) :
    accB15 V c t h0 h1 xs = k15_pay2 (iblk15 V c 0 t) (iblk15 V c 1 t) xs := by
  unfold accB15
  rw [View.read_writes_eq_canon _ _ _ (coverB15 V c t h0 h1 xs)]
  unfold run15_B
  dsimp only
  sl_unfold_words
  rw [View.canon_unit_zero hz00]
  simp only [View.readAt_eq_ld, Memref.IsWhole.read_unread, scM15_read_unread, View.ld_unit_zero (S := S1024x1024) hz00, View.ld_unit_zero (S := S1024x819) hz00]

/-- A first block: the accumulator is reset, read back, and ends at the update of the zero block. -/
theorem accA15_eq (c : Dev nD) (t : Fin cfg15.N) (h0 : t.val % 4 = 0) (h1 : ¬t.val % 4 = 3) :
    accA15 V c t h0 h1 = k15_pay2 (iblk15 V c 0 t) (iblk15 V c 1 t) (k15_pay1 (F := F)) := by
  unfold accA15
  rw [View.read_writes_eq_canon _ _ _ (coverA15 V c t h0 h1)]
  unfold run15_A
  dsimp only
  sl_unfold_words
  rw [View.canon_cons_unit_zero (S := S1024x819) hz00]
  simp only [View.readAt_eq_ld, Memref.IsWhole.read_unread, scM15_read_unread, View.ld_unit_zero (S := S1024x1024) hz00, View.ld_unit_zero (S := S1024x819) hz00,
    View.readCov_unit_zero (S := S1024x819) _ hz00]

/-- A last block: the accumulator ends at the update of what it held, -/
theorem accC15_eq (c : Dev nD) (t : Fin cfg15.N) (h0 : ¬t.val % 4 = 0) (h1 : t.val % 4 = 3) (xs : Vec F S1024x819 .f32) :
    accC15 V c t h0 h1 xs = k15_pay2 (iblk15 V c 0 t) (iblk15 V c 1 t) xs := by
  unfold accC15
  rw [View.read_writes_eq_canon _ _ _ (coverCs15 V c t h0 h1 xs)]
  unfold run15_C
  dsimp only
  sl_unfold_words
  rw [View.canon_unit_zero hz00]
  simp only [View.readAt_eq_ld, Memref.IsWhole.read_unread, scM15_read_unread, View.ld_unit_zero (S := S1024x1024) hz00, View.ld_unit_zero (S := S1024x819) hz00]

/-- and the output block is the stored term of that accumulator, read back. -/
theorem outC15_eq (c : Dev nD) (t : Fin cfg15.N) (h0 : ¬t.val % 4 = 0) (h1 : t.val % 4 = 3) (xs : Vec F S1024x819 .f32) :
    outC15 V c t h0 h1 xs = k15_pay3 (k15_pay2 (iblk15 V c 0 t) (iblk15 V c 1 t) xs) := by
  unfold outC15
  rw [View.read_writes_eq_canon _ _ _ (coverCo15 V c t h0 h1 xs)]
  unfold run15_C
  dsimp only
  sl_unfold_words
  rw [View.canon_unit_zero hz00]
  simp only [View.readAt_eq_ld, Memref.IsWhole.read_unread, scM15_read_unread, View.ld_unit_zero (S := S1024x1024) hz00, View.ld_unit_zero (S := S1024x819) hz00,
    View.readCov_unit_zero (S := S1024x819) _ hz00]

end Pieces

/-! ## The accumulator and the output block after each point, over the extended reals -/

section Value
variable (V : (c : Dev nD) → (b : Ref sig .tc) → Buf (Elt Ideal) ((c : Thread nD τ).loc b))

/-- The two arrays the launch reads, at their literal shapes: A and B. -/
abbrev arrA15 (c : Dev nD) : S4096x4096.Idx → EReal := V c main_v0
abbrev arrB15 (c : Dev nD) : S4096x819.Idx → EReal := V c main_v32
/-- The blocks the two input windows stage at a point, at their literal shapes. -/
abbrev blkA15 (c : Dev nD) (t : Fin cfg15.N) : S1024x1024.Idx → EReal := iblk15 V c 0 t
abbrev blkB15 (c : Dev nD) (t : Fin cfg15.N) : S1024x819.Idx → EReal := iblk15 V c 1 t

theorem blkA15_apply (c : Dev nD) (t : Fin cfg15.N) (p l : Fin 1024) :
    blkA15 V c t (ix2 p l) = natMat (arrA15 V c) (t.val / 4 * 1024 + p.val) (t.val % 4 * 1024 + l.val) :=
  (read_blk15_0 (arrA15 V c) t p l).trans (natMat_val (arrA15 V c) _ _).symm

theorem blkB15_apply (c : Dev nD) (t : Fin cfg15.N) (l : Fin 1024) (q : Fin 819) :
    blkB15 V c t (ix2 l q) = natMat (arrB15 V c) (t.val % 4 * 1024 + l.val) q.val :=
  (read_blk15_1 (arrB15 V c) t l q).trans (natMat_val (arrB15 V c) _ _).symm

/-- The product of the two staged blocks at (p, q) is the contraction block's part of the row of A·B. -/
theorem block_sum15 (c : Dev nD) (t : Fin cfg15.N) (p : Fin 1024) (q : Fin 819) :
    ∑ l : Fin 1024, blkA15 V c t (ix2 p l) * blkB15 V c t (ix2 l q)
      = blockTerm (arrA15 V c) (arrB15 V c) (t.val / 4) (t.val % 4) p q :=
  Finset.sum_congr rfl fun l _ => by rw [blkA15_apply, blkB15_apply]

/-- A contraction's first block leaves its own part of the sum. -/
theorem acc15_A (c : Dev nD) (t : Fin cfg15.N) (h0 : t.val % 4 = 0) (h1 : ¬t.val % 4 = 3) (p : Fin 1024) (q : Fin 819) :
    (outsAt15 V c t.val t.isLt).2 (ix2 p q) = partialSum (arrA15 V c) (arrB15 V c) (t.val / 4) (t.val % 4 + 1) p q := by
  rw [outsAt15_A V c t h0 h1]
  dsimp only
  refine (congrFun (accA15_eq (F := Ideal) V c t h0 h1) (ix2 p q)).trans ?_
  refine (pay2_15_apply (blkA15 V c t) (blkB15 V c t) (k15_pay1 (F := Ideal)) p q).trans ?_
  rw [pay1_15_apply p q, block_sum15 V c t p q, h0]
  exact (partialSum_one (arrA15 V c) (arrB15 V c) (t.val / 4) p q).symm

/-- A later block adds its part to what the point before left. -/
theorem acc15_BC (c : Dev nD) (t : Fin cfg15.N) (h0 : ¬t.val % 4 = 0)
    (ih : ∀ (p : Fin 1024) (q : Fin 819), (outsAt15 V c (t.val - 1) (Nat.lt_of_le_of_lt (Nat.sub_le _ _) t.isLt)).2 (ix2 p q)
      = partialSum (arrA15 V c) (arrB15 V c) ((t.val - 1) / 4) ((t.val - 1) % 4 + 1) p q)
    (p : Fin 1024) (q : Fin 819) :
    (outsAt15 V c t.val t.isLt).2 (ix2 p q) = partialSum (arrA15 V c) (arrB15 V c) (t.val / 4) (t.val % 4 + 1) p q := by
  have e1 : (t.val - 1) / 4 = t.val / 4 := by omega
  have e2 : (t.val - 1) % 4 + 1 = t.val % 4 := by omega
  have step : (outsAt15 V c (t.val - 1) (Nat.lt_of_le_of_lt (Nat.sub_le _ _) t.isLt)).2 (ix2 p q)
      + ∑ l : Fin 1024, blkA15 V c t (ix2 p l) * blkB15 V c t (ix2 l q)
      = partialSum (arrA15 V c) (arrB15 V c) (t.val / 4) (t.val % 4 + 1) p q := by
    rw [ih p q, block_sum15 V c t p q, e1, e2]
    exact (partialSum_succ (arrA15 V c) (arrB15 V c) (t.val / 4) (t.val % 4) p q).symm
  by_cases h1 : t.val % 4 = 3
  · rw [outsAt15_C V c t h0 h1]
    dsimp only
    refine (congrFun (accC15_eq (F := Ideal) V c t h0 h1 (outsAt15 V c (t.val - 1) (Nat.lt_of_le_of_lt (Nat.sub_le _ _) t.isLt)).2) (ix2 p q)).trans ?_
    exact (pay2_15_apply (blkA15 V c t) (blkB15 V c t) (outsAt15 V c (t.val - 1) (Nat.lt_of_le_of_lt (Nat.sub_le _ _) t.isLt)).2 p q).trans step
  · rw [outsAt15_B V c t h0 h1]
    dsimp only
    refine (congrFun (accB15_eq (F := Ideal) V c t h0 h1 (outsAt15 V c (t.val - 1) (Nat.lt_of_le_of_lt (Nat.sub_le _ _) t.isLt)).2) (ix2 p q)).trans ?_
    exact (pay2_15_apply (blkA15 V c t) (blkB15 V c t) (outsAt15 V c (t.val - 1) (Nat.lt_of_le_of_lt (Nat.sub_le _ _) t.isLt)).2 p q).trans step

/-- THE INVARIANT: after point n the accumulator holds, at (p, q), the first n % 4 + 1 blocks' part of row
    (n/4)·1024 + p of A·B at column q. By induction on the point. -/
theorem acc15_inv (c : Dev nD) (n : ℕ) : ∀ (hn : n < cfg15.N) (p : Fin 1024) (q : Fin 819),
    (outsAt15 V c n hn).2 (ix2 p q) = partialSum (arrA15 V c) (arrB15 V c) (n / 4) (n % 4 + 1) p q := by
  induction n with
  | zero => intro hn p q; exact acc15_A V c ⟨0, hn⟩ rfl (by show ¬(0 % 4 = 3); decide) p q
  | succ n ih =>
    intro hn p q
    by_cases h0 : (n + 1) % 4 = 0
    · exact acc15_A V c ⟨n + 1, hn⟩ h0 (by show ¬((n + 1) % 4 = 3); omega) p q
    · exact acc15_BC V c ⟨n + 1, hn⟩ h0 (fun p q => ih (Nat.lt_of_succ_lt hn) p q) p q

/-- At a contraction's last block the stored output block is the whole row sum. -/
theorem out15_C (c : Dev nD) (t : Fin cfg15.N) (h1 : t.val % 4 = 3) (p : Fin 1024) (q : Fin 819) :
    (outsAt15 V c t.val t.isLt).1 (ix2 p q) = partialSum (arrA15 V c) (arrB15 V c) (t.val / 4) 4 p q := by
  have h0 : ¬t.val % 4 = 0 := by omega
  have hacc := acc15_inv V c t.val t.isLt p q
  rw [outsAt15_C V c t h0 h1] at hacc ⊢
  dsimp only at hacc ⊢
  refine (congrFun (outC15_eq (F := Ideal) V c t h0 h1 (outsAt15 V c (t.val - 1) (Nat.lt_of_le_of_lt (Nat.sub_le _ _) t.isLt)).2) (ix2 p q)).trans ?_
  refine (pay3_15_apply (k15_pay2 (F := Ideal) (blkA15 V c t) (blkB15 V c t) (outsAt15 V c (t.val - 1) (Nat.lt_of_le_of_lt (Nat.sub_le _ _) t.isLt)).2) p q).trans ?_
  refine (congrFun (accC15_eq (F := Ideal) V c t h0 h1 (outsAt15 V c (t.val - 1) (Nat.lt_of_le_of_lt (Nat.sub_le _ _) t.isLt)).2) (ix2 p q)).symm.trans ?_
  rw [hacc, h1]

end Value

/-! ## From the flushed blocks to the output array -/

section Final
variable (V : (c : Dev nD) → (b : Ref sig .tc) → Buf (Elt Ideal) ((c : Thread nD τ).loc b))

/-- What the launch leaves in the output array: A·B, index by index. -/
abbrev res15 (c : Dev nD) : S4096x819.Idx → EReal := prodG (arrA15 V c) (arrB15 V c)

/-- The block a contraction's last point writes back is that point's row block of the result. -/
theorem flushed15_eq (c : Dev nD) (t : Fin cfg15.N) (hf : (cfg15.win 2).flush t = true) :
    (dat15 V c).flushed 2 t = ((cfg15.win 2).blk t).view.read (Elt Ideal) (res15 V c) := by
  have h1 : t.val % 4 = 3 := (flush15_2 t).mp hf
  have hN := gridN15_eq
  have ht := t.isLt
  show (cfg15.win 2).cut (grid15.coords t) ((dat15 V c).after 2 t) = _
  rw [after15_2]
  refine funext fun (y : S1024x819.Idx) => ?_
  obtain ⟨p, q, rfl⟩ : ∃ (p : Fin 1024) (q : Fin 819), y = ix2 p q := ⟨y 0, y 1, eq_ix2 y⟩
  show (outsAt15 V c t.val t.isLt).1 (ix2 p q) = (((cfg15.win 2).blk t).view.read (Elt Ideal) (res15 V c) : S1024x819.Idx → EReal) (ix2 p q)
  rw [out15_C V c t h1 p q, read_blk15_2 (res15 V c) t p q,
    partialSum_four (arrA15 V c) (arrB15 V c) (t.val / 4) (by omega) p q]
  rfl

/-- An index of the output array lies in point t's block iff each coordinate is in the block's range. -/
theorem mem_blk15_2 (t : Fin cfg15.N) (i : S4096x819.Idx) :
    i ∈ ((cfg15.win 2).blk t).view.set ↔ ∀ a : Fin 2, win15_2.index t a * S1024x819.size a ≤ (i a).val ∧ (i a).val < win15_2.index t a * S1024x819.size a + S1024x819.size a := by
  show i ∈ ((View.whole main_v33).slice (win15_2.rect t)).set ↔ _
  rw [View.set_slice_whole, Rect.mem_set_unit]
  exact Iff.rfl

/-- Row r of the output lies in the block written back at point 4·(r / 1024) + 3. -/
theorem cover15 (i : S4096x819.Idx) : ∃ t : Fin cfg15.N, (cfg15.win 2).flush t = true ∧ i ∈ ((cfg15.win 2).blk t).view.set := by
  have hi0 : (i 0).val < 4096 := (i 0).isLt
  have hi1 : (i 1).val < 819 := (i 1).isLt
  have hN := gridN15_eq
  refine ⟨⟨4 * ((i 0).val / 1024) + 3, by omega⟩, (flush15_2 _).mpr (by show (4 * ((i 0).val / 1024) + 3) % 4 = 3; omega), ?_⟩
  rw [mem_blk15_2]
  obtain ⟨-, -, -, -, e0, e1⟩ := idx_facts15 ⟨4 * ((i 0).val / 1024) + 3, by omega⟩
  intro a
  match a with
  | ⟨0, _⟩ =>
    show win15_2.index _ (0 : Fin 2) * 1024 ≤ (i 0).val ∧ (i 0).val < win15_2.index _ (0 : Fin 2) * 1024 + 1024
    rw [e0]; dsimp only; omega
  | ⟨1, _⟩ =>
    show win15_2.index _ (1 : Fin 2) * 819 ≤ (i 1).val ∧ (i 1).val < win15_2.index _ (1 : Fin 2) * 819 + 819
    rw [e1]; omega

/-- So the output array ends holding A·B. -/
theorem out15_eq (c : Dev nD) : out15 V c = res15 V c :=
  (dat15 V c).arrAt_eq_of_cover 2 (res15 V c) (flushed15_eq V c) cover15

/-- THE VALUE OF LAUNCH 15, in matrix form: the output is the product of the two input matrices. -/
theorem out15_value (c : Dev nD) :
    GcnSpec.toMat (out15 V c : S4096x819.Idx → EReal)
      = GcnSpec.mm (GcnSpec.toMat (V c main_v0 : S4096x4096.Idx → EReal)) (GcnSpec.toMat (V c main_v32 : S4096x819.Idx → EReal)) := by
  rw [out15_eq V c]
  exact toMat_prodG (arrA15 V c) (arrB15 V c)

end Final

end Cert.KernelIdeal.Hand

end
-- ==== Proof.KI.R16ValueA.lean ====
/-
  Launch 16 computes out = tanh(A·B + bias) for A with 819 columns, B 819 × 1024 and a bias row, one row block of A
  per grid point: the point t multiplies A's row block t by the whole of B into an accumulator reset at that point,
  and stores tanh(accumulator + bias) into the output's row block t. This module reads the body's three pure terms
  at an index over the extended reals and reads a window's block at an index of its array; nothing here depends on
  the symbolic run.
-/
import proofs.«113214_j66838281060556_2_alg».proof.Proof.Gen.KernelIdeal.Launch
import proofs.«113214_j66838281060556_2_alg».proof.Proof.Gen.KernelIdeal.Skeleton
import proofs.«113214_j66838281060556_2_alg».proof.Proof.Gen.KernelIdeal.Points
import proofs.«113214_j66838281060556_2_alg».proof.Proof.GcnSpec
import proofs.«113214_j66838281060556_2_alg».proof.Proof.GcnAlgebra
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.ValueIdx (ix2 eq_ix2)

/-! ## The body's pure terms at an index, over the extended reals -/

/-- The product's contraction record, by a short name. -/
abbrev D16 : DotDims S1024x819 S819x1024 S1024x1024 := dot_S1024x819_S819x1024_S1024x1024_1_0_0_1_n_n

theorem lhs_D16_0 (i : S1024x1024.Idx) (q : dot_S1024x819_S819x1024_S1024x1024_1_0_0_1_n_n.contr.Idx) :
    (dot_S1024x819_S819x1024_S1024x1024_1_0_0_1_n_n.lhsIdx i q 0).val = (i 0).val := by
  unfold DotDims.lhsIdx
  rw [dif_neg (show ¬(0 : Fin S1024x819.rank) ∈ dot_S1024x819_S819x1024_S1024x1024_1_0_0_1_n_n.lhsBatch by decide), dif_pos (show (0 : Fin S1024x819.rank) ∈ dot_S1024x819_S819x1024_S1024x1024_1_0_0_1_n_n.lhsNonContracting by decide)]
  rfl
theorem lhs_D16_1 (i : S1024x1024.Idx) (q : dot_S1024x819_S819x1024_S1024x1024_1_0_0_1_n_n.contr.Idx) :
    (dot_S1024x819_S819x1024_S1024x1024_1_0_0_1_n_n.lhsIdx i q 1).val = (q ⟨0, by decide⟩).val :=
  dot_S1024x819_S819x1024_S1024x1024_1_0_0_1_n_n.lhsIdx_val_of_single rfl i q
theorem rhs_D16_0 (i : S1024x1024.Idx) (q : dot_S1024x819_S819x1024_S1024x1024_1_0_0_1_n_n.contr.Idx) :
    (dot_S1024x819_S819x1024_S1024x1024_1_0_0_1_n_n.rhsIdx i q 0).val = (q ⟨0, by decide⟩).val :=
  dot_S1024x819_S819x1024_S1024x1024_1_0_0_1_n_n.rhsIdx_val_of_single rfl i q
theorem rhs_D16_1 (i : S1024x1024.Idx) (q : dot_S1024x819_S819x1024_S1024x1024_1_0_0_1_n_n.contr.Idx) :
    (dot_S1024x819_S819x1024_S1024x1024_1_0_0_1_n_n.rhsIdx i q 1).val = (i 1).val := by
  unfold DotDims.rhsIdx
  rw [dif_neg (show ¬(1 : Fin S819x1024.rank) ∈ dot_S1024x819_S819x1024_S1024x1024_1_0_0_1_n_n.rhsBatch by decide), dif_pos (show (1 : Fin S819x1024.rank) ∈ dot_S1024x819_S819x1024_S1024x1024_1_0_0_1_n_n.rhsNonContracting by decide)]
  rfl

/-- The block product at (p, q) is the sum over the 819 contracted columns. -/
theorem matmul16_apply (x0 : Vec Ideal S1024x819 .bf16) (x1 : Vec Ideal S819x1024 .bf16) (p : Fin 1024) (q : Fin 1024) :
    matmul (F := Ideal) (φ₁ := .bf16) (φ₂ := .bf16) dot_S1024x819_S819x1024_S1024x1024_1_0_0_1_n_n none x0 x1 (constant S1024x1024 .f32 0x00000000#32) (ix2 p q)
      = ∑ l : Fin 819, x0 (ix2 p l) * x1 (ix2 l q) := by
  refine (Ideal.matmul_constant_zero_apply (φ₁ := .bf16) (φ₂ := .bf16) dot_S1024x819_S819x1024_S1024x1024_1_0_0_1_n_n none x0 x1 (ix2 p q)).trans ?_
  rw [← Equiv.sum_comp (ValueIdx.contrEquiv1 dot_S1024x819_S819x1024_S1024x1024_1_0_0_1_n_n 819 rfl rfl).symm]
  refine Finset.sum_congr rfl fun k _ => ?_
  have hk := ValueIdx.contrEquiv1_symm_val dot_S1024x819_S819x1024_S1024x1024_1_0_0_1_n_n 819 rfl rfl k
  have el : dot_S1024x819_S819x1024_S1024x1024_1_0_0_1_n_n.lhsIdx (ix2 p q) ((ValueIdx.contrEquiv1 dot_S1024x819_S819x1024_S1024x1024_1_0_0_1_n_n 819 rfl rfl).symm k) = ix2 p k := funext fun a => Fin.ext (by
    match a with
    | ⟨0, _⟩ => exact lhs_D16_0 _ _
    | ⟨1, _⟩ => exact (lhs_D16_1 _ _).trans hk)
  have er : dot_S1024x819_S819x1024_S1024x1024_1_0_0_1_n_n.rhsIdx (ix2 p q) ((ValueIdx.contrEquiv1 dot_S1024x819_S819x1024_S1024x1024_1_0_0_1_n_n 819 rfl rfl).symm k) = ix2 k q := funext fun a => Fin.ext (by
    match a with
    | ⟨0, _⟩ => exact (rhs_D16_0 _ _).trans hk
    | ⟨1, _⟩ => exact rhs_D16_1 _ _)
  rw [el, er]

/-- The reset block is zero everywhere. -/
theorem pay1_16_apply (p : Fin 1024) (q : Fin 1024) : k16_pay1 (F := Ideal) (ix2 p q) = 0 := by
  unfold k16_pay1
  simp only [shapeCast_self]
  exact Ideal.ofBits_zero_f32

/-- The update adds the block product to what the accumulator held; the right factor's change of format is the
    identity on the extended reals. -/
theorem pay2_16_apply (x0 : Vec Ideal S1024x819 .bf16) (x1 : Vec Ideal S819x1024 .f32) (xs : Vec Ideal S1024x1024 .f32)
    (p : Fin 1024) (q : Fin 1024) :
    k16_pay2 (F := Ideal) x0 x1 xs (ix2 p q) = xs (ix2 p q) + ∑ l : Fin 819, x0 (ix2 p l) * x1 (ix2 l q) := by
  unfold k16_pay2
  simp only [shapeCast_self]
  exact congrArg (xs (ix2 p q) + ·) (matmul16_apply x0 x1 p q)

/-- The stored output block is tanh of the accumulator plus the bias row. -/
theorem pay3_16_apply (v16 : Vec Ideal S1024x1024 .f32) (v17 : Vec Ideal S1x1024 .f32) (p : Fin 1024) (q : Fin 1024) :
    k16_pay3 (F := Ideal) v16 v17 (ix2 p q) = Ideal.tanh (v16 (ix2 p q) + v17 (ix2 (0 : Fin 1) q)) := by
  unfold k16_pay3
  simp only [shapeCast_self]
  refine congrArg (fun z => Ideal.tanh (v16 (ix2 p q) + z)) ?_
  exact broadcastTo_apply v17 broadcasts_S1x1024_S1024x1024 (ix2 p q) (ix2 (0 : Fin 1) q) (fun a => by
    match a with
    | ⟨0, _⟩ => rfl
    | ⟨1, _⟩ => rfl)

/-! ## A window's block at an index of its array -/

theorem N16_eq : cfg16.N = 4 := N_16

/-- The printed index maps, decided over the grid's points: the left factor's block is (t, 0), the right factor's
    and the bias row's (0, 0), the output's (t, 0). -/
theorem idx_facts16 : ∀ t : Fin cfg16.N,
    win16_0.index t (0 : Fin 2) = t.val ∧ win16_0.index t (1 : Fin 2) = 0
    ∧ win16_1.index t (0 : Fin 2) = 0 ∧ win16_1.index t (1 : Fin 2) = 0
    ∧ win16_2.index t (0 : Fin 2) = 0 ∧ win16_2.index t (1 : Fin 2) = 0
    ∧ win16_3.index t (0 : Fin 2) = t.val ∧ win16_3.index t (1 : Fin 2) = 0 :=
  (by decide +kernel : ∀ t : Fin grid16.N, _)

section Blocks

variable {F : FTy → Type}

/-- Entry (p, l) of the left factor's block at point t is the array at row t·1024 + p, column l. -/
theorem read_blk16_0 (X : Vec F S4096x819 .bf16) (t : Fin cfg16.N) (p : Fin 1024) (l : Fin 819) :
    (((cfg16.win 0).blk t).view.read (Elt F) X : Vec F S1024x819 .bf16) (ix2 p l)
      = X (ix2 (⟨t.val * 1024 + p.val, by have := t.isLt; have := N16_eq; omega⟩ : Fin 4096) l) := by
  obtain ⟨e0, e1, -⟩ := idx_facts16 t
  rw [View.read_apply]
  show X _ = X _
  congr 1
  funext a
  apply Fin.ext
  match a with
  | ⟨0, _⟩ => show win16_0.index t (0 : Fin 2) * 1024 + 1 * p.val = t.val * 1024 + p.val; rw [e0]; omega
  | ⟨1, _⟩ => show win16_0.index t (1 : Fin 2) * 819 + 1 * l.val = l.val; rw [e1]; omega

/-- The right factor's block at any point is the whole array. -/
theorem read_blk16_1 (X : Vec F S819x1024 .f32) (t : Fin cfg16.N) (l : Fin 819) (q : Fin 1024) :
    (((cfg16.win 1).blk t).view.read (Elt F) X : Vec F S819x1024 .f32) (ix2 l q) = X (ix2 l q) := by
  obtain ⟨-, -, e0, e1, -⟩ := idx_facts16 t
  rw [View.read_apply]
  show X _ = X _
  congr 1
  funext a
  apply Fin.ext
  match a with
  | ⟨0, _⟩ => show win16_1.index t (0 : Fin 2) * 819 + 1 * l.val = l.val; rw [e0]; omega
  | ⟨1, _⟩ => show win16_1.index t (1 : Fin 2) * 1024 + 1 * q.val = q.val; rw [e1]; omega

/-- The bias window's block at any point is the whole bias row. -/
theorem read_blk16_2 (X : Vec F S1x1024 .f32) (t : Fin cfg16.N) (q : Fin 1024) :
    (((cfg16.win 2).blk t).view.read (Elt F) X : Vec F S1x1024 .f32) (ix2 (0 : Fin 1) q) = X (ix2 (0 : Fin 1) q) := by
  obtain ⟨-, -, -, -, e0, e1, -⟩ := idx_facts16 t
  rw [View.read_apply]
  show X _ = X _
  congr 1
  funext a
  apply Fin.ext
  match a with
  | ⟨0, _⟩ => show win16_2.index t (0 : Fin 2) * 1 + 1 * (0 : Fin 1).val = (0 : Fin 1).val; rw [e0]; rfl
  | ⟨1, _⟩ => show win16_2.index t (1 : Fin 2) * 1024 + 1 * q.val = q.val; rw [e1]; omega

/-- Entry (p, q) of the output's block at point t is the output at row t·1024 + p, column q. -/
theorem read_blk16_3 (X : Vec F S4096x1024 .f32) (t : Fin cfg16.N) (p : Fin 1024) (q : Fin 1024) :
    (((cfg16.win 3).blk t).view.read (Elt F) X : Vec F S1024x1024 .f32) (ix2 p q)
      = X (ix2 (⟨t.val * 1024 + p.val, by have := t.isLt; have := N16_eq; omega⟩ : Fin 4096) q) := by
  obtain ⟨-, -, -, -, -, -, e0, e1⟩ := idx_facts16 t
  rw [View.read_apply]
  show X _ = X _
  congr 1
  funext a
  apply Fin.ext
  match a with
  | ⟨0, _⟩ => show win16_3.index t (0 : Fin 2) * 1024 + 1 * p.val = t.val * 1024 + p.val; rw [e0]; omega
  | ⟨1, _⟩ => show win16_3.index t (1 : Fin 2) * 1024 + 1 * q.val = q.val; rw [e1]; omega

end Blocks

/-! ## The result, index by index -/

/-- What the output array holds after the launch: tanh of row i of A·B plus the bias row, at column j. -/
def G16 (A : Vec Ideal S4096x819 .bf16) (B : Vec Ideal S819x1024 .f32) (bias : Vec Ideal S1x1024 .f32) : Vec Ideal S4096x1024 .f32 :=
  fun y => Ideal.tanh ((∑ k : Fin 819, A (ix2 (y 0) k) * B (ix2 k (y 1))) + bias (ix2 (0 : Fin 1) (y 1)))

/-- In matrix form it is tanh(A·B + bias), the bias broadcast down the rows. -/
theorem toMat_G16 (A : Vec Ideal S4096x819 .bf16) (B : Vec Ideal S819x1024 .f32) (bias : Vec Ideal S1x1024 .f32) :
    GcnSpec.toMat (G16 A B bias)
      = GcnSpec.tanhB (GcnSpec.mm (GcnSpec.toMat A) (GcnSpec.toMat B)) (fun j => bias (ix2 (0 : Fin 1) j)) := rfl

end Cert.KernelIdeal.Hand

end
-- ==== Proof.KI.R16Value.lean ====
/-
  The value of launch 16: out = tanh(A·B + bias). The symbolic run left the list of pieces stored into the output
  block; it is read back as the body's three pure terms of the staged blocks: the accumulator reset, the product of
  the two staged blocks added, tanh of that sum plus the bias row stored. One point's block is thus a row block of
  the result; those blocks cover the output array, and so the array ends holding the result.
-/
import proofs.«113214_j66838281060556_2_alg».proof.Proof.KI.R16
import proofs.«113214_j66838281060556_2_alg».proof.Proof.KI.R16ValueA
import proofs.«113214_j66838281060556_2_alg».proof.Proof.GcnSpec
import proofs.«113214_j66838281060556_2_alg».proof.Proof.GcnAlgebra
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat)
open Idealize.ShloMosaic.ValueIdx (ix2 eq_ix2)

/-! ## What a point stores, as the body's pure terms -/

section Pieces
variable {F : FTy → Type} [FloatOps F]
variable (V : (c : Dev nD) → (b : Ref sig .tc) → Buf (Elt F) ((c : Thread nD τ).loc b))

theorem hz16 : (![0, 0] : Fin 2 → Nat) = fun _ => 0 := funext fun a => by fin_cases a <;> rfl

/-- The accumulator read whole gives back the contents it is held at. -/
theorem scM16_read_unread (h : (scM16 : Memref sig .tc .vmem S1024x1024 .f32).IsWhole) (xs : Vec F S1024x1024 .f32) :
    View.read (Elt F) (View.whole cc16_scratch0) (h.unread xs) = xs := h.read_unread xs

/-- The output block a point stores: the accumulator is reset, read back, updated by the product of the two staged
    blocks, read back, and the stored term of it and the bias block is what the output's buffer holds. -/
theorem outO16_eq (c : Dev nD) (t : Fin cfg16.N) :
    out16 V c t = k16_pay3 (k16_pay2 (iblk16 V c 0 t) (iblk16 V c 1 t) (k16_pay1 (F := F))) (iblk16 V c 2 t) := by
  unfold out16
  rw [View.read_writes_eq_canon _ _ _ (coverO16 V c t)]
  unfold run16
  dsimp only
  sl_unfold_words
  rw [View.canon_unit_zero hz16]
  simp only [View.readAt_eq_ld, Memref.IsWhole.read_unread, scM16_read_unread, View.ld_unit_zero (S := S1024x819) hz16, View.ld_unit_zero (S := S819x1024) hz16,
    View.ld_unit_zero (S := S1x1024) hz16, View.readCov_unit_zero (S := S1024x1024) _ hz16, View.readCov_cons_toLoadRect]

end Pieces

/-! ## The stored block, over the extended reals -/

section Value
variable (V : (c : Dev nD) → (b : Ref sig .tc) → Buf (Elt Ideal) ((c : Thread nD τ).loc b))

/-- The three arrays the launch reads, at their literal types: A, B and the bias row. -/
abbrev arrA16 (c : Dev nD) : Vec Ideal S4096x819 .bf16 := V c main_v33
abbrev arrB16 (c : Dev nD) : Vec Ideal S819x1024 .f32 := V c main_arg15
abbrev arrC16 (c : Dev nD) : Vec Ideal S1x1024 .f32 := V c main_v34
/-- The blocks the three input windows stage at a point, at their literal types. -/
abbrev blkA16 (c : Dev nD) (t : Fin cfg16.N) : Vec Ideal S1024x819 .bf16 := iblk16 V c 0 t
abbrev blkB16 (c : Dev nD) (t : Fin cfg16.N) : Vec Ideal S819x1024 .f32 := iblk16 V c 1 t
abbrev blkC16 (c : Dev nD) (t : Fin cfg16.N) : Vec Ideal S1x1024 .f32 := iblk16 V c 2 t

theorem blkA16_apply (c : Dev nD) (t : Fin cfg16.N) (p : Fin 1024) (l : Fin 819) :
    blkA16 V c t (ix2 p l) = arrA16 V c (ix2 (⟨t.val * 1024 + p.val, by have := t.isLt; have := N16_eq; omega⟩ : Fin 4096) l) :=
  read_blk16_0 (F := Ideal) (arrA16 V c) t p l

theorem blkB16_apply (c : Dev nD) (t : Fin cfg16.N) (l : Fin 819) (q : Fin 1024) :
    blkB16 V c t (ix2 l q) = arrB16 V c (ix2 l q) :=
  read_blk16_1 (F := Ideal) (arrB16 V c) t l q

theorem blkC16_apply (c : Dev nD) (t : Fin cfg16.N) (q : Fin 1024) :
    blkC16 V c t (ix2 (0 : Fin 1) q) = arrC16 V c (ix2 (0 : Fin 1) q) :=
  read_blk16_2 (F := Ideal) (arrC16 V c) t q

/-- The block a point stores is, at (p, q), tanh of row t·1024 + p of A·B at column q plus the bias there. -/
theorem out16_pt (c : Dev nD) (t : Fin cfg16.N) (p : Fin 1024) (q : Fin 1024) :
    out16 V c t (ix2 p q)
      = Ideal.tanh ((∑ l : Fin 819, arrA16 V c (ix2 (⟨t.val * 1024 + p.val, by have := t.isLt; have := N16_eq; omega⟩ : Fin 4096) l) * arrB16 V c (ix2 l q))
          + arrC16 V c (ix2 (0 : Fin 1) q)) := by
  refine (congrFun (outO16_eq (F := Ideal) V c t) (ix2 p q)).trans ?_
  refine (pay3_16_apply (k16_pay2 (blkA16 V c t) (blkB16 V c t) (k16_pay1 (F := Ideal))) (blkC16 V c t) p q).trans ?_
  rw [pay2_16_apply (blkA16 V c t) (blkB16 V c t) (k16_pay1 (F := Ideal)) p q, pay1_16_apply p q, zero_add, blkC16_apply V c t q]
  refine congrArg (fun z => Ideal.tanh (z + arrC16 V c (ix2 (0 : Fin 1) q))) ?_
  exact Finset.sum_congr rfl fun l _ => by rw [blkA16_apply, blkB16_apply]

end Value

/-! ## From the flushed blocks to the output array -/

section Final
variable (V : (c : Dev nD) → (b : Ref sig .tc) → Buf (Elt Ideal) ((c : Thread nD τ).loc b))

/-- What the launch leaves in the output array: tanh(A·B + bias), index by index. -/
abbrev res16 (c : Dev nD) : Vec Ideal S4096x1024 .f32 := G16 (arrA16 V c) (arrB16 V c) (arrC16 V c)

/-- The block a point writes back is that point's row block of the result. -/
theorem flushed16_eq (c : Dev nD) (t : Fin cfg16.N) (hf : (cfg16.win 3).flush t = true) :
    (dat16 V c).flushed 3 t = ((cfg16.win 3).blk t).view.read (Elt Ideal) (res16 V c) := by
  have hN := N16_eq
  have ht := t.isLt
  show (cfg16.win 3).cut (grid16.coords t) ((dat16 V c).after 3 t) = _
  rw [after16_3]
  refine funext fun (y : S1024x1024.Idx) => ?_
  obtain ⟨p, q, rfl⟩ : ∃ (p : Fin 1024) (q : Fin 1024), y = ix2 p q := ⟨y 0, y 1, eq_ix2 y⟩
  show out16 V c t (ix2 p q) = (((cfg16.win 3).blk t).view.read (Elt Ideal) (res16 V c) : Vec Ideal S1024x1024 .f32) (ix2 p q)
  rw [out16_pt V c t p q, read_blk16_3 (F := Ideal) (res16 V c) t p q]
  rfl

/-- An index of the output array lies in point t's block iff each coordinate is in the block's range. -/
theorem mem_blk16_3 (t : Fin cfg16.N) (i : S4096x1024.Idx) :
    i ∈ ((cfg16.win 3).blk t).view.set ↔ ∀ a : Fin 2, win16_3.index t a * S1024x1024.size a ≤ (i a).val ∧ (i a).val < win16_3.index t a * S1024x1024.size a + S1024x1024.size a := by
  show i ∈ ((View.whole main_v35).slice (win16_3.rect t)).set ↔ _
  rw [View.set_slice_whole, Rect.mem_set_unit]
  exact Iff.rfl

/-- Row r of the output lies in the block written back at point r / 1024. -/
theorem cover16 (i : S4096x1024.Idx) : ∃ t : Fin cfg16.N, (cfg16.win 3).flush t = true ∧ i ∈ ((cfg16.win 3).blk t).view.set := by
  have hi0 : (i 0).val < 4096 := (i 0).isLt
  have hi1 : (i 1).val < 1024 := (i 1).isLt
  have hN := N16_eq
  refine ⟨⟨(i 0).val / 1024, by omega⟩, flush16_3 _, ?_⟩
  rw [mem_blk16_3]
  obtain ⟨-, -, -, -, -, -, e0, e1⟩ := idx_facts16 ⟨(i 0).val / 1024, by omega⟩
  intro a
  match a with
  | ⟨0, _⟩ =>
    show win16_3.index _ (0 : Fin 2) * 1024 ≤ (i 0).val ∧ (i 0).val < win16_3.index _ (0 : Fin 2) * 1024 + 1024
    rw [e0]; dsimp only; omega
  | ⟨1, _⟩ =>
    show win16_3.index _ (1 : Fin 2) * 1024 ≤ (i 1).val ∧ (i 1).val < win16_3.index _ (1 : Fin 2) * 1024 + 1024
    rw [e1]; omega

/-- So the output array ends holding tanh(A·B + bias). -/
theorem out16arr_eq (c : Dev nD) : out16arr V c = res16 V c :=
  (dat16 V c).arrAt_eq_of_cover 3 (res16 V c) (flushed16_eq V c) cover16

/-- THE VALUE OF LAUNCH 16, in matrix form: the output is tanh of the product of the two input matrices plus the
    bias row broadcast down the rows. -/
theorem out16_value (c : Dev nD) :
    GcnSpec.toMat (out16arr V c : S4096x1024.Idx → EReal)
      = GcnSpec.tanhB (GcnSpec.mm (GcnSpec.toMat (V c main_v33 : S4096x819.Idx → EReal)) (GcnSpec.toMat (V c main_arg15 : S819x1024.Idx → EReal)))
          (fun j => (V c main_v34 : S1x1024.Idx → EReal) (ix2 (0 : Fin 1) j)) := by
  rw [out16arr_eq V c]
  exact toMat_G16 (arrA16 V c) (arrB16 V c) (arrC16 V c)

end Final

end Cert.KernelIdeal.Hand

end
-- ==== Proof.KI.R17ValueA.lean ====
/-
  Launch 17 computes out = tanh(A·B), one row block of A per grid point: the point t multiplies A's row block t by
  the whole of B into an accumulator reset at that point, and stores tanh of the accumulator, converted to the
  output's format, into the output's row block t. This module reads the body's three pure terms at an index over
  the extended reals (where a change of format is the identity) and reads a window's block at an index of its
  array; nothing here depends on the symbolic run.
-/
import proofs.«113214_j66838281060556_2_alg».proof.Proof.Gen.KernelIdeal.Launch
import proofs.«113214_j66838281060556_2_alg».proof.Proof.Gen.KernelIdeal.Skeleton
import proofs.«113214_j66838281060556_2_alg».proof.Proof.Gen.KernelIdeal.Points
import proofs.«113214_j66838281060556_2_alg».proof.Proof.GcnSpec
import proofs.«113214_j66838281060556_2_alg».proof.Proof.GcnAlgebra
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.ValueIdx (ix2 eq_ix2)

/-! ## The body's pure terms at an index, over the extended reals -/

/-- The product's contraction record, by a short name. -/
abbrev D17 : DotDims S1024x819 S819x819 S1024x819 := dot_S1024x819_S819x819_S1024x819_1_0_0_1_n_n

theorem lhs_D17_0 (i : S1024x819.Idx) (q : dot_S1024x819_S819x819_S1024x819_1_0_0_1_n_n.contr.Idx) :
    (dot_S1024x819_S819x819_S1024x819_1_0_0_1_n_n.lhsIdx i q 0).val = (i 0).val := by
  unfold DotDims.lhsIdx
  rw [dif_neg (show ¬(0 : Fin S1024x819.rank) ∈ dot_S1024x819_S819x819_S1024x819_1_0_0_1_n_n.lhsBatch by decide), dif_pos (show (0 : Fin S1024x819.rank) ∈ dot_S1024x819_S819x819_S1024x819_1_0_0_1_n_n.lhsNonContracting by decide)]
  rfl
theorem lhs_D17_1 (i : S1024x819.Idx) (q : dot_S1024x819_S819x819_S1024x819_1_0_0_1_n_n.contr.Idx) :
    (dot_S1024x819_S819x819_S1024x819_1_0_0_1_n_n.lhsIdx i q 1).val = (q ⟨0, by decide⟩).val :=
  dot_S1024x819_S819x819_S1024x819_1_0_0_1_n_n.lhsIdx_val_of_single rfl i q
theorem rhs_D17_0 (i : S1024x819.Idx) (q : dot_S1024x819_S819x819_S1024x819_1_0_0_1_n_n.contr.Idx) :
    (dot_S1024x819_S819x819_S1024x819_1_0_0_1_n_n.rhsIdx i q 0).val = (q ⟨0, by decide⟩).val :=
  dot_S1024x819_S819x819_S1024x819_1_0_0_1_n_n.rhsIdx_val_of_single rfl i q
theorem rhs_D17_1 (i : S1024x819.Idx) (q : dot_S1024x819_S819x819_S1024x819_1_0_0_1_n_n.contr.Idx) :
    (dot_S1024x819_S819x819_S1024x819_1_0_0_1_n_n.rhsIdx i q 1).val = (i 1).val := by
  unfold DotDims.rhsIdx
  rw [dif_neg (show ¬(1 : Fin S819x819.rank) ∈ dot_S1024x819_S819x819_S1024x819_1_0_0_1_n_n.rhsBatch by decide), dif_pos (show (1 : Fin S819x819.rank) ∈ dot_S1024x819_S819x819_S1024x819_1_0_0_1_n_n.rhsNonContracting by decide)]
  rfl

/-- The block product at (p, q) is the sum over the 819 contracted columns. -/
theorem matmul17_apply (x0 : Vec Ideal S1024x819 .bf16) (x1 : Vec Ideal S819x819 .bf16) (p : Fin 1024) (q : Fin 819) :
    matmul (F := Ideal) (φ₁ := .bf16) (φ₂ := .bf16) dot_S1024x819_S819x819_S1024x819_1_0_0_1_n_n none x0 x1 (constant S1024x819 .f32 0x00000000#32) (ix2 p q)
      = ∑ l : Fin 819, x0 (ix2 p l) * x1 (ix2 l q) := by
  refine (Ideal.matmul_constant_zero_apply (φ₁ := .bf16) (φ₂ := .bf16) dot_S1024x819_S819x819_S1024x819_1_0_0_1_n_n none x0 x1 (ix2 p q)).trans ?_
  rw [← Equiv.sum_comp (ValueIdx.contrEquiv1 dot_S1024x819_S819x819_S1024x819_1_0_0_1_n_n 819 rfl rfl).symm]
  refine Finset.sum_congr rfl fun k _ => ?_
  have hk := ValueIdx.contrEquiv1_symm_val dot_S1024x819_S819x819_S1024x819_1_0_0_1_n_n 819 rfl rfl k
  have el : dot_S1024x819_S819x819_S1024x819_1_0_0_1_n_n.lhsIdx (ix2 p q) ((ValueIdx.contrEquiv1 dot_S1024x819_S819x819_S1024x819_1_0_0_1_n_n 819 rfl rfl).symm k) = ix2 p k := funext fun a => Fin.ext (by
    match a with
    | ⟨0, _⟩ => exact lhs_D17_0 _ _
    | ⟨1, _⟩ => exact (lhs_D17_1 _ _).trans hk)
  have er : dot_S1024x819_S819x819_S1024x819_1_0_0_1_n_n.rhsIdx (ix2 p q) ((ValueIdx.contrEquiv1 dot_S1024x819_S819x819_S1024x819_1_0_0_1_n_n 819 rfl rfl).symm k) = ix2 k q := funext fun a => Fin.ext (by
    match a with
    | ⟨0, _⟩ => exact (rhs_D17_0 _ _).trans hk
    | ⟨1, _⟩ => exact rhs_D17_1 _ _)
  rw [el, er]

/-- The reset block is zero everywhere. -/
theorem pay1_17_apply (p : Fin 1024) (q : Fin 819) : k17_pay1 (F := Ideal) (ix2 p q) = 0 := by
  unfold k17_pay1
  simp only [shapeCast_self]
  exact Ideal.ofBits_zero_f32

/-- The update adds the block product to what the accumulator held; the two factors' change of format is the
    identity on the extended reals. -/
theorem pay2_17_apply (x0 : Vec Ideal S1024x819 .f32) (x1 : Vec Ideal S819x819 .f32) (xs : Vec Ideal S1024x819 .f32)
    (p : Fin 1024) (q : Fin 819) :
    k17_pay2 (F := Ideal) x0 x1 xs (ix2 p q) = xs (ix2 p q) + ∑ l : Fin 819, x0 (ix2 p l) * x1 (ix2 l q) := by
  unfold k17_pay2
  simp only [shapeCast_self]
  exact congrArg (xs (ix2 p q) + ·) (matmul17_apply x0 x1 p q)

/-- The stored output block is tanh of the accumulator; its change of format is the identity on the extended reals. -/
theorem pay3_17_apply (v17 : Vec Ideal S1024x819 .f32) (p : Fin 1024) (q : Fin 819) :
    k17_pay3 (F := Ideal) v17 (ix2 p q) = Ideal.tanh (v17 (ix2 p q)) := rfl

/-! ## A window's block at an index of its array -/

theorem N17_eq : cfg17.N = 4 := N_17

/-- The printed index maps, decided over the grid's points: the left factor's block is (t, 0), the right factor's
    (0, 0), the output's (t, 0). -/
theorem idx_facts17 : ∀ t : Fin cfg17.N,
    win17_0.index t (0 : Fin 2) = t.val ∧ win17_0.index t (1 : Fin 2) = 0
    ∧ win17_1.index t (0 : Fin 2) = 0 ∧ win17_1.index t (1 : Fin 2) = 0
    ∧ win17_2.index t (0 : Fin 2) = t.val ∧ win17_2.index t (1 : Fin 2) = 0 :=
  (by decide +kernel : ∀ t : Fin grid17.N, _)

section Blocks

variable {F : FTy → Type}

/-- Entry (p, l) of the left factor's block at point t is the array at row t·1024 + p, column l. -/
theorem read_blk17_0 (X : Vec F S4096x819 .f32) (t : Fin cfg17.N) (p : Fin 1024) (l : Fin 819) :
    (((cfg17.win 0).blk t).view.read (Elt F) X : Vec F S1024x819 .f32) (ix2 p l)
      = X (ix2 (⟨t.val * 1024 + p.val, by have := t.isLt; have := N17_eq; omega⟩ : Fin 4096) l) := by
  obtain ⟨e0, e1, -⟩ := idx_facts17 t
  rw [View.read_apply]
  show X _ = X _
  congr 1
  funext a
  apply Fin.ext
  match a with
  | ⟨0, _⟩ => show win17_0.index t (0 : Fin 2) * 1024 + 1 * p.val = t.val * 1024 + p.val; rw [e0]; omega
  | ⟨1, _⟩ => show win17_0.index t (1 : Fin 2) * 819 + 1 * l.val = l.val; rw [e1]; omega

/-- The right factor's block at any point is the whole array. -/
theorem read_blk17_1 (X : Vec F S819x819 .f32) (t : Fin cfg17.N) (l : Fin 819) (q : Fin 819) :
    (((cfg17.win 1).blk t).view.read (Elt F) X : Vec F S819x819 .f32) (ix2 l q) = X (ix2 l q) := by
  obtain ⟨-, -, e0, e1, -⟩ := idx_facts17 t
  rw [View.read_apply]
  show X _ = X _
  congr 1
  funext a
  apply Fin.ext
  match a with
  | ⟨0, _⟩ => show win17_1.index t (0 : Fin 2) * 819 + 1 * l.val = l.val; rw [e0]; omega
  | ⟨1, _⟩ => show win17_1.index t (1 : Fin 2) * 819 + 1 * q.val = q.val; rw [e1]; omega

/-- Entry (p, q) of the output's block at point t is the output at row t·1024 + p, column q. -/
theorem read_blk17_2 (X : Vec F S4096x819 .bf16) (t : Fin cfg17.N) (p : Fin 1024) (q : Fin 819) :
    (((cfg17.win 2).blk t).view.read (Elt F) X : Vec F S1024x819 .bf16) (ix2 p q)
      = X (ix2 (⟨t.val * 1024 + p.val, by have := t.isLt; have := N17_eq; omega⟩ : Fin 4096) q) := by
  obtain ⟨-, -, -, -, e0, e1⟩ := idx_facts17 t
  rw [View.read_apply]
  show X _ = X _
  congr 1
  funext a
  apply Fin.ext
  match a with
  | ⟨0, _⟩ => show win17_2.index t (0 : Fin 2) * 1024 + 1 * p.val = t.val * 1024 + p.val; rw [e0]; omega
  | ⟨1, _⟩ => show win17_2.index t (1 : Fin 2) * 819 + 1 * q.val = q.val; rw [e1]; omega

end Blocks

/-! ## The result, index by index -/

/-- What the output array holds after the launch: tanh of row i of A·B at column j. -/
def G17 (A : Vec Ideal S4096x819 .f32) (B : Vec Ideal S819x819 .f32) : Vec Ideal S4096x819 .bf16 :=
  fun y => Ideal.tanh (∑ k : Fin 819, A (ix2 (y 0) k) * B (ix2 k (y 1)))

/-- In matrix form it is tanh(A·B), entry by entry. -/
theorem toMat_G17 (A : Vec Ideal S4096x819 .f32) (B : Vec Ideal S819x819 .f32) :
    GcnSpec.toMat (G17 A B) = GcnSpec.tanhM (GcnSpec.mm (GcnSpec.toMat A) (GcnSpec.toMat B)) := rfl

end Cert.KernelIdeal.Hand

end
-- ==== Proof.KI.R17Value.lean ====
/-
  The value of launch 17: out = tanh(A·B). The symbolic run left the list of pieces stored into the output block; it
  is read back as the body's three pure terms of the staged blocks: the accumulator reset, the product of the two
  staged blocks added, tanh of that sum stored in the output's format. One point's block is thus a row block of the
  result; those blocks cover the output array, and so the array ends holding the result.
-/
import proofs.«113214_j66838281060556_2_alg».proof.Proof.KI.R17
import proofs.«113214_j66838281060556_2_alg».proof.Proof.KI.R17ValueA
import proofs.«113214_j66838281060556_2_alg».proof.Proof.GcnSpec
import proofs.«113214_j66838281060556_2_alg».proof.Proof.GcnAlgebra
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat)
open Idealize.ShloMosaic.ValueIdx (ix2 eq_ix2)

/-! ## What a point stores, as the body's pure terms -/

section Pieces
variable {F : FTy → Type} [FloatOps F]
variable (V : (c : Dev nD) → (b : Ref sig .tc) → Buf (Elt F) ((c : Thread nD τ).loc b))

theorem hz17 : (![0, 0] : Fin 2 → Nat) = fun _ => 0 := funext fun a => by fin_cases a <;> rfl

/-- The accumulator read whole gives back the contents it is held at. -/
theorem scM17_read_unread (h : (scM17 : Memref sig .tc .vmem S1024x819 .f32).IsWhole) (xs : Vec F S1024x819 .f32) :
    View.read (Elt F) (View.whole cc17_scratch0) (h.unread xs) = xs := h.read_unread xs

/-- The output block a point stores: the accumulator is reset, read back, updated by the product of the two staged
    blocks, read back, and the stored term of it is what the output's buffer holds. -/
theorem outO17_eq (c : Dev nD) (t : Fin cfg17.N) :
    out17 V c t = k17_pay3 (k17_pay2 (iblk17 V c 0 t) (iblk17 V c 1 t) (k17_pay1 (F := F))) := by
  unfold out17
  rw [View.read_writes_eq_canon _ _ _ (coverO17 V c t)]
  unfold run17
  dsimp only
  sl_unfold_words
  rw [View.canon_unit_zero hz17]
  simp only [View.readAt_eq_ld, Memref.IsWhole.read_unread, scM17_read_unread, View.ld_unit_zero (S := S1024x819) hz17, View.ld_unit_zero (S := S819x819) hz17,
    View.readCov_unit_zero (S := S1024x819) _ hz17, View.readCov_cons_toLoadRect]

end Pieces

/-! ## The stored block, over the extended reals -/

section Value
variable (V : (c : Dev nD) → (b : Ref sig .tc) → Buf (Elt Ideal) ((c : Thread nD τ).loc b))

/-- The two arrays the launch reads, at their literal types: A and B. -/
abbrev arrA17 (c : Dev nD) : Vec Ideal S4096x819 .f32 := V c main_v24
abbrev arrB17 (c : Dev nD) : Vec Ideal S819x819 .f32 := V c main_arg24
/-- The blocks the two input windows stage at a point, at their literal types. -/
abbrev blkA17 (c : Dev nD) (t : Fin cfg17.N) : Vec Ideal S1024x819 .f32 := iblk17 V c 0 t
abbrev blkB17 (c : Dev nD) (t : Fin cfg17.N) : Vec Ideal S819x819 .f32 := iblk17 V c 1 t

theorem blkA17_apply (c : Dev nD) (t : Fin cfg17.N) (p : Fin 1024) (l : Fin 819) :
    blkA17 V c t (ix2 p l) = arrA17 V c (ix2 (⟨t.val * 1024 + p.val, by have := t.isLt; have := N17_eq; omega⟩ : Fin 4096) l) :=
  read_blk17_0 (F := Ideal) (arrA17 V c) t p l

theorem blkB17_apply (c : Dev nD) (t : Fin cfg17.N) (l : Fin 819) (q : Fin 819) :
    blkB17 V c t (ix2 l q) = arrB17 V c (ix2 l q) :=
  read_blk17_1 (F := Ideal) (arrB17 V c) t l q

/-- The block a point stores is, at (p, q), tanh of row t·1024 + p of A·B at column q. -/
theorem out17_pt (c : Dev nD) (t : Fin cfg17.N) (p : Fin 1024) (q : Fin 819) :
    out17 V c t (ix2 p q)
      = Ideal.tanh (∑ l : Fin 819, arrA17 V c (ix2 (⟨t.val * 1024 + p.val, by have := t.isLt; have := N17_eq; omega⟩ : Fin 4096) l) * arrB17 V c (ix2 l q)) := by
  refine (congrFun (outO17_eq (F := Ideal) V c t) (ix2 p q)).trans ?_
  refine (pay3_17_apply (k17_pay2 (blkA17 V c t) (blkB17 V c t) (k17_pay1 (F := Ideal))) p q).trans ?_
  rw [pay2_17_apply (blkA17 V c t) (blkB17 V c t) (k17_pay1 (F := Ideal)) p q, pay1_17_apply p q, zero_add]
  refine congrArg Ideal.tanh ?_
  exact Finset.sum_congr rfl fun l _ => by rw [blkA17_apply, blkB17_apply]

end Value

/-! ## From the flushed blocks to the output array -/

section Final
variable (V : (c : Dev nD) → (b : Ref sig .tc) → Buf (Elt Ideal) ((c : Thread nD τ).loc b))

/-- What the launch leaves in the output array: tanh(A·B), index by index. -/
abbrev res17 (c : Dev nD) : Vec Ideal S4096x819 .bf16 := G17 (arrA17 V c) (arrB17 V c)

/-- The block a point writes back is that point's row block of the result. -/
theorem flushed17_eq (c : Dev nD) (t : Fin cfg17.N) (hf : (cfg17.win 2).flush t = true) :
    (dat17 V c).flushed 2 t = ((cfg17.win 2).blk t).view.read (Elt Ideal) (res17 V c) := by
  have hN := N17_eq
  have ht := t.isLt
  show (cfg17.win 2).cut (grid17.coords t) ((dat17 V c).after 2 t) = _
  rw [after17_2]
  refine funext fun (y : S1024x819.Idx) => ?_
  obtain ⟨p, q, rfl⟩ : ∃ (p : Fin 1024) (q : Fin 819), y = ix2 p q := ⟨y 0, y 1, eq_ix2 y⟩
  show out17 V c t (ix2 p q) = (((cfg17.win 2).blk t).view.read (Elt Ideal) (res17 V c) : Vec Ideal S1024x819 .bf16) (ix2 p q)
  rw [out17_pt V c t p q, read_blk17_2 (F := Ideal) (res17 V c) t p q]
  rfl

/-- An index of the output array lies in point t's block iff each coordinate is in the block's range. -/
theorem mem_blk17_2 (t : Fin cfg17.N) (i : S4096x819.Idx) :
    i ∈ ((cfg17.win 2).blk t).view.set ↔ ∀ a : Fin 2, win17_2.index t a * S1024x819.size a ≤ (i a).val ∧ (i a).val < win17_2.index t a * S1024x819.size a + S1024x819.size a := by
  show i ∈ ((View.whole main_v36).slice (win17_2.rect t)).set ↔ _
  rw [View.set_slice_whole, Rect.mem_set_unit]
  exact Iff.rfl

/-- Row r of the output lies in the block written back at point r / 1024. -/
theorem cover17 (i : S4096x819.Idx) : ∃ t : Fin cfg17.N, (cfg17.win 2).flush t = true ∧ i ∈ ((cfg17.win 2).blk t).view.set := by
  have hi0 : (i 0).val < 4096 := (i 0).isLt
  have hi1 : (i 1).val < 819 := (i 1).isLt
  have hN := N17_eq
  refine ⟨⟨(i 0).val / 1024, by omega⟩, flush17_2 _, ?_⟩
  rw [mem_blk17_2]
  obtain ⟨-, -, -, -, e0, e1⟩ := idx_facts17 ⟨(i 0).val / 1024, by omega⟩
  intro a
  match a with
  | ⟨0, _⟩ =>
    show win17_2.index _ (0 : Fin 2) * 1024 ≤ (i 0).val ∧ (i 0).val < win17_2.index _ (0 : Fin 2) * 1024 + 1024
    rw [e0]; dsimp only; omega
  | ⟨1, _⟩ =>
    show win17_2.index _ (1 : Fin 2) * 819 ≤ (i 1).val ∧ (i 1).val < win17_2.index _ (1 : Fin 2) * 819 + 819
    rw [e1]; omega

/-- So the output array ends holding tanh(A·B). -/
theorem out17arr_eq (c : Dev nD) : out17arr V c = res17 V c :=
  (dat17 V c).arrAt_eq_of_cover 2 (res17 V c) (flushed17_eq V c) cover17

/-- THE VALUE OF LAUNCH 17, in matrix form: the output is tanh of the product of the two input matrices. -/
theorem out17_value (c : Dev nD) :
    GcnSpec.toMat (out17arr V c : S4096x819.Idx → EReal)
      = GcnSpec.tanhM (GcnSpec.mm (GcnSpec.toMat (V c main_v24 : S4096x819.Idx → EReal)) (GcnSpec.toMat (V c main_arg24 : S819x819.Idx → EReal))) := by
  rw [out17arr_eq V c]
  exact toMat_G17 (arrA17 V c) (arrB17 V c)

end Final

end Cert.KernelIdeal.Hand

end
-- ==== Proof.KI.R18ValueA.lean ====
/-
  Launch 18 computes out = A·B for A 4096 × 4096 and B 4096 × 819, block by block: the grid point t handles the
  row block t / 4 and the contraction block t % 4 (blocks of 1024), adding the product of A's block (t/4, t%4)
  and B's block (t%4, 0) into an accumulator that is reset at t % 4 = 0, and storing the accumulator, in the
  output's format, into the output's row block at t % 4 = 3. This module reads the body's three pure terms at an
  index over the extended reals, where a change of format is the identity, and reads each window's block at an
  index of its array; nothing here depends on the symbolic runs.
-/
import proofs.«113214_j66838281060556_2_alg».proof.Proof.Gen.KernelIdeal.Launch
import proofs.«113214_j66838281060556_2_alg».proof.Proof.Gen.KernelIdeal.Skeleton
import proofs.«113214_j66838281060556_2_alg».proof.Proof.Gen.KernelIdeal.Points
import proofs.«113214_j66838281060556_2_alg».proof.Proof.KI.MatmulValue
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.ValueIdx (ix2 eq_ix2)

/-! ## The body's pure terms at an index, over the extended reals -/

/-- The reset block is zero everywhere. -/
theorem pay1_18_apply (p : Fin 1024) (q : Fin 819) : k18_pay1 (F := Ideal) (ix2 p q) = 0 := by
  unfold k18_pay1
  simp only [shapeCast_self]
  exact Ideal.ofBits_zero_f32

/-- The update adds the block product to what the accumulator held. -/
theorem pay2_18_apply (x0 : S1024x1024.Idx → EReal) (x1 : S1024x819.Idx → EReal) (xs : S1024x819.Idx → EReal)
    (p : Fin 1024) (q : Fin 819) :
    k18_pay2 (F := Ideal) x0 x1 xs (ix2 p q) = xs (ix2 p q) + ∑ l : Fin 1024, x0 (ix2 p l) * x1 (ix2 l q) := by
  unfold k18_pay2
  simp only [shapeCast_self]
  exact congrArg (xs (ix2 p q) + ·) (matmul819_apply x0 x1 p q)

/-- The stored output block is the accumulator: the change of format is the identity on extended reals. -/
theorem pay3_18_apply (v17 : S1024x819.Idx → EReal) (p : Fin 1024) (q : Fin 819) :
    k18_pay3 (F := Ideal) v17 (ix2 p q) = v17 (ix2 p q) := rfl

/-! ## A window's block at an index of its array -/

theorem gridN18_eq : cfg18.N = 16 := N_18

/-- The printed index maps, decided over the sixteen points: A's block is (t / 4, t % 4), B's (t % 4, 0), the
    output's (t / 4, 0). -/
theorem idx_facts18 : ∀ t : Fin cfg18.N,
    win18_0.index t (0 : Fin 2) = t.val / 4 ∧ win18_0.index t (1 : Fin 2) = t.val % 4
    ∧ win18_1.index t (0 : Fin 2) = t.val % 4 ∧ win18_1.index t (1 : Fin 2) = 0
    ∧ win18_2.index t (0 : Fin 2) = t.val / 4 ∧ win18_2.index t (1 : Fin 2) = 0 :=
  (by decide +kernel : ∀ t : Fin grid18.N, _)

/-- Entry (p, l) of A's block at point t is A at row (t/4)·1024 + p, column (t%4)·1024 + l. -/
theorem read_blk18_0 (X : S4096x4096.Idx → EReal) (t : Fin cfg18.N) (p l : Fin 1024) :
    (((cfg18.win 0).blk t).view.read (Elt Ideal) X : S1024x1024.Idx → EReal) (ix2 p l)
      = X (ix2 (⟨t.val / 4 * 1024 + p.val, by have := t.isLt; have := gridN18_eq; omega⟩ : Fin 4096)
            (⟨t.val % 4 * 1024 + l.val, by omega⟩ : Fin 4096)) := by
  obtain ⟨e0, e1, -⟩ := idx_facts18 t
  rw [View.read_apply]
  show X _ = X _
  congr 1
  funext a
  apply Fin.ext
  match a with
  | ⟨0, _⟩ => show win18_0.index t (0 : Fin 2) * 1024 + 1 * p.val = t.val / 4 * 1024 + p.val; rw [e0]; omega
  | ⟨1, _⟩ => show win18_0.index t (1 : Fin 2) * 1024 + 1 * l.val = t.val % 4 * 1024 + l.val; rw [e1]; omega

/-- Entry (l, q) of B's block at point t is B at row (t%4)·1024 + l, column q. -/
theorem read_blk18_1 (X : S4096x819.Idx → EReal) (t : Fin cfg18.N) (l : Fin 1024) (q : Fin 819) :
    (((cfg18.win 1).blk t).view.read (Elt Ideal) X : S1024x819.Idx → EReal) (ix2 l q)
      = X (ix2 (⟨t.val % 4 * 1024 + l.val, by omega⟩ : Fin 4096) q) := by
  obtain ⟨-, -, e0, e1, -⟩ := idx_facts18 t
  rw [View.read_apply]
  show X _ = X _
  congr 1
  funext a
  apply Fin.ext
  match a with
  | ⟨0, _⟩ => show win18_1.index t (0 : Fin 2) * 1024 + 1 * l.val = t.val % 4 * 1024 + l.val; rw [e0]; omega
  | ⟨1, _⟩ => show win18_1.index t (1 : Fin 2) * 819 + 1 * q.val = q.val; rw [e1]; omega

/-- Entry (p, q) of the output's block at point t is the output at row (t/4)·1024 + p, column q. -/
theorem read_blk18_2 (X : S4096x819.Idx → EReal) (t : Fin cfg18.N) (p : Fin 1024) (q : Fin 819) :
    (((cfg18.win 2).blk t).view.read (Elt Ideal) X : S1024x819.Idx → EReal) (ix2 p q)
      = X (ix2 (⟨t.val / 4 * 1024 + p.val, by have := t.isLt; have := gridN18_eq; omega⟩ : Fin 4096) q) := by
  obtain ⟨-, -, -, -, e0, e1⟩ := idx_facts18 t
  rw [View.read_apply]
  show X _ = X _
  congr 1
  funext a
  apply Fin.ext
  match a with
  | ⟨0, _⟩ => show win18_2.index t (0 : Fin 2) * 1024 + 1 * p.val = t.val / 4 * 1024 + p.val; rw [e0]; omega
  | ⟨1, _⟩ => show win18_2.index t (1 : Fin 2) * 819 + 1 * q.val = q.val; rw [e1]; omega

end Cert.KernelIdeal.Hand

end
-- ==== Proof.KI.R18Value.lean ====
/-
  The value of launch 18: out = A·B. The symbolic runs left, per control case, lists of stored pieces; each is read
  back as one of the body's three pure terms of the staged blocks. By induction on the grid point the accumulator
  after point n holds the first n % 4 + 1 contraction blocks' part of the row block n / 4 of A·B; at a
  contraction's last block the stored output block is the whole row sum; those blocks are the row blocks of the
  result, they cover the output array, and so the array ends holding the result.
-/
import proofs.«113214_j66838281060556_2_alg».proof.Proof.KI.R18
import proofs.«113214_j66838281060556_2_alg».proof.Proof.KI.R18ValueA
import proofs.«113214_j66838281060556_2_alg».proof.Proof.KI.MatmulValue
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat)
open Idealize.ShloMosaic.ValueIdx (ix2 eq_ix2)

/-! ## What each case leaves, as the body's pure terms -/

section Pieces
variable {F : FTy → Type} [FloatOps F]
variable (V : (c : Dev nD) → (b : Ref sig .tc) → Buf (Elt F) ((c : Thread nD τ).loc b))

/-- The accumulator read whole gives back the contents it is held at. -/
theorem scM18_read_unread (h : (scM18 : Memref sig .tc .vmem S1024x819 .f32).IsWhole) (xs : Vec F S1024x819 .f32) :
    View.read (Elt F) (View.whole cc18_scratch0) (h.unread xs) = xs := h.read_unread xs

/-- A middle block: the accumulator ends at the update of what it held. -/
theorem accB18_eq (c : Dev nD) (t : Fin cfg18.N) (h0 : ¬t.val % 4 = 0) (h1 : ¬t.val % 4 = 3) (xs : Vec F S1024x819 .f32) :
    accB18 V c t h0 h1 xs = k18_pay2 (iblk18 V c 0 t) (iblk18 V c 1 t) xs := by
  unfold accB18
  rw [View.read_writes_eq_canon _ _ _ (coverB18 V c t h0 h1 xs)]
  unfold run18_B
  dsimp only
  sl_unfold_words
  rw [View.canon_unit_zero hz00]
  simp only [View.readAt_eq_ld, Memref.IsWhole.read_unread, scM18_read_unread, View.ld_unit_zero (S := S1024x1024) hz00, View.ld_unit_zero (S := S1024x819) hz00]

/-- A first block: the accumulator is reset, read back, and ends at the update of the zero block. -/
theorem accA18_eq (c : Dev nD) (t : Fin cfg18.N) (h0 : t.val % 4 = 0) (h1 : ¬t.val % 4 = 3) :
    accA18 V c t h0 h1 = k18_pay2 (iblk18 V c 0 t) (iblk18 V c 1 t) (k18_pay1 (F := F)) := by
  unfold accA18
  rw [View.read_writes_eq_canon _ _ _ (coverA18 V c t h0 h1)]
  unfold run18_A
  dsimp only
  sl_unfold_words
  rw [View.canon_cons_unit_zero (S := S1024x819) hz00]
  simp only [View.readAt_eq_ld, Memref.IsWhole.read_unread, scM18_read_unread, View.ld_unit_zero (S := S1024x1024) hz00, View.ld_unit_zero (S := S1024x819) hz00,
    View.readCov_unit_zero (S := S1024x819) _ hz00]

/-- A last block: the accumulator ends at the update of what it held, -/
theorem accC18_eq (c : Dev nD) (t : Fin cfg18.N) (h0 : ¬t.val % 4 = 0) (h1 : t.val % 4 = 3) (xs : Vec F S1024x819 .f32) :
    accC18 V c t h0 h1 xs = k18_pay2 (iblk18 V c 0 t) (iblk18 V c 1 t) xs := by
  unfold accC18
  rw [View.read_writes_eq_canon _ _ _ (coverCs18 V c t h0 h1 xs)]
  unfold run18_C
  dsimp only
  sl_unfold_words
  rw [View.canon_unit_zero hz00]
  simp only [View.readAt_eq_ld, Memref.IsWhole.read_unread, scM18_read_unread, View.ld_unit_zero (S := S1024x1024) hz00, View.ld_unit_zero (S := S1024x819) hz00]

/-- and the output block is the stored term of that accumulator, read back. -/
theorem outC18_eq (c : Dev nD) (t : Fin cfg18.N) (h0 : ¬t.val % 4 = 0) (h1 : t.val % 4 = 3) (xs : Vec F S1024x819 .f32) :
    outC18 V c t h0 h1 xs = k18_pay3 (k18_pay2 (iblk18 V c 0 t) (iblk18 V c 1 t) xs) := by
  unfold outC18
  rw [View.read_writes_eq_canon _ _ _ (coverCo18 V c t h0 h1 xs)]
  unfold run18_C
  dsimp only
  sl_unfold_words
  rw [View.canon_unit_zero hz00]
  simp only [View.readAt_eq_ld, Memref.IsWhole.read_unread, scM18_read_unread, View.ld_unit_zero (S := S1024x1024) hz00, View.ld_unit_zero (S := S1024x819) hz00,
    View.readCov_unit_zero (S := S1024x819) _ hz00]

end Pieces

/-! ## The accumulator and the output block after each point, over the extended reals -/

section Value
variable (V : (c : Dev nD) → (b : Ref sig .tc) → Buf (Elt Ideal) ((c : Thread nD τ).loc b))

/-- The two arrays the launch reads, at their literal shapes: A and B. -/
abbrev arrA18 (c : Dev nD) : S4096x4096.Idx → EReal := V c main_v1
abbrev arrB18 (c : Dev nD) : S4096x819.Idx → EReal := V c main_v36
/-- The blocks the two input windows stage at a point, at their literal shapes. -/
abbrev blkA18 (c : Dev nD) (t : Fin cfg18.N) : S1024x1024.Idx → EReal := iblk18 V c 0 t
abbrev blkB18 (c : Dev nD) (t : Fin cfg18.N) : S1024x819.Idx → EReal := iblk18 V c 1 t

theorem blkA18_apply (c : Dev nD) (t : Fin cfg18.N) (p l : Fin 1024) :
    blkA18 V c t (ix2 p l) = natMat (arrA18 V c) (t.val / 4 * 1024 + p.val) (t.val % 4 * 1024 + l.val) :=
  (read_blk18_0 (arrA18 V c) t p l).trans (natMat_val (arrA18 V c) _ _).symm

theorem blkB18_apply (c : Dev nD) (t : Fin cfg18.N) (l : Fin 1024) (q : Fin 819) :
    blkB18 V c t (ix2 l q) = natMat (arrB18 V c) (t.val % 4 * 1024 + l.val) q.val :=
  (read_blk18_1 (arrB18 V c) t l q).trans (natMat_val (arrB18 V c) _ _).symm

/-- The product of the two staged blocks at (p, q) is the contraction block's part of the row of A·B. -/
theorem block_sum18 (c : Dev nD) (t : Fin cfg18.N) (p : Fin 1024) (q : Fin 819) :
    ∑ l : Fin 1024, blkA18 V c t (ix2 p l) * blkB18 V c t (ix2 l q)
      = blockTerm (arrA18 V c) (arrB18 V c) (t.val / 4) (t.val % 4) p q :=
  Finset.sum_congr rfl fun l _ => by rw [blkA18_apply, blkB18_apply]

/-- A contraction's first block leaves its own part of the sum. -/
theorem acc18_A (c : Dev nD) (t : Fin cfg18.N) (h0 : t.val % 4 = 0) (h1 : ¬t.val % 4 = 3) (p : Fin 1024) (q : Fin 819) :
    (outsAt18 V c t.val t.isLt).2 (ix2 p q) = partialSum (arrA18 V c) (arrB18 V c) (t.val / 4) (t.val % 4 + 1) p q := by
  rw [outsAt18_A V c t h0 h1]
  dsimp only
  refine (congrFun (accA18_eq (F := Ideal) V c t h0 h1) (ix2 p q)).trans ?_
  refine (pay2_18_apply (blkA18 V c t) (blkB18 V c t) (k18_pay1 (F := Ideal)) p q).trans ?_
  rw [pay1_18_apply p q, block_sum18 V c t p q, h0]
  exact (partialSum_one (arrA18 V c) (arrB18 V c) (t.val / 4) p q).symm

/-- A later block adds its part to what the point before left. -/
theorem acc18_BC (c : Dev nD) (t : Fin cfg18.N) (h0 : ¬t.val % 4 = 0)
    (ih : ∀ (p : Fin 1024) (q : Fin 819), (outsAt18 V c (t.val - 1) (Nat.lt_of_le_of_lt (Nat.sub_le _ _) t.isLt)).2 (ix2 p q)
      = partialSum (arrA18 V c) (arrB18 V c) ((t.val - 1) / 4) ((t.val - 1) % 4 + 1) p q)
    (p : Fin 1024) (q : Fin 819) :
    (outsAt18 V c t.val t.isLt).2 (ix2 p q) = partialSum (arrA18 V c) (arrB18 V c) (t.val / 4) (t.val % 4 + 1) p q := by
  have e1 : (t.val - 1) / 4 = t.val / 4 := by omega
  have e2 : (t.val - 1) % 4 + 1 = t.val % 4 := by omega
  have step : (outsAt18 V c (t.val - 1) (Nat.lt_of_le_of_lt (Nat.sub_le _ _) t.isLt)).2 (ix2 p q)
      + ∑ l : Fin 1024, blkA18 V c t (ix2 p l) * blkB18 V c t (ix2 l q)
      = partialSum (arrA18 V c) (arrB18 V c) (t.val / 4) (t.val % 4 + 1) p q := by
    rw [ih p q, block_sum18 V c t p q, e1, e2]
    exact (partialSum_succ (arrA18 V c) (arrB18 V c) (t.val / 4) (t.val % 4) p q).symm
  by_cases h1 : t.val % 4 = 3
  · rw [outsAt18_C V c t h0 h1]
    dsimp only
    refine (congrFun (accC18_eq (F := Ideal) V c t h0 h1 (outsAt18 V c (t.val - 1) (Nat.lt_of_le_of_lt (Nat.sub_le _ _) t.isLt)).2) (ix2 p q)).trans ?_
    exact (pay2_18_apply (blkA18 V c t) (blkB18 V c t) (outsAt18 V c (t.val - 1) (Nat.lt_of_le_of_lt (Nat.sub_le _ _) t.isLt)).2 p q).trans step
  · rw [outsAt18_B V c t h0 h1]
    dsimp only
    refine (congrFun (accB18_eq (F := Ideal) V c t h0 h1 (outsAt18 V c (t.val - 1) (Nat.lt_of_le_of_lt (Nat.sub_le _ _) t.isLt)).2) (ix2 p q)).trans ?_
    exact (pay2_18_apply (blkA18 V c t) (blkB18 V c t) (outsAt18 V c (t.val - 1) (Nat.lt_of_le_of_lt (Nat.sub_le _ _) t.isLt)).2 p q).trans step

/-- THE INVARIANT: after point n the accumulator holds, at (p, q), the first n % 4 + 1 blocks' part of row
    (n/4)·1024 + p of A·B at column q. By induction on the point. -/
theorem acc18_inv (c : Dev nD) (n : ℕ) : ∀ (hn : n < cfg18.N) (p : Fin 1024) (q : Fin 819),
    (outsAt18 V c n hn).2 (ix2 p q) = partialSum (arrA18 V c) (arrB18 V c) (n / 4) (n % 4 + 1) p q := by
  induction n with
  | zero => intro hn p q; exact acc18_A V c ⟨0, hn⟩ rfl (by show ¬(0 % 4 = 3); decide) p q
  | succ n ih =>
    intro hn p q
    by_cases h0 : (n + 1) % 4 = 0
    · exact acc18_A V c ⟨n + 1, hn⟩ h0 (by show ¬((n + 1) % 4 = 3); omega) p q
    · exact acc18_BC V c ⟨n + 1, hn⟩ h0 (fun p q => ih (Nat.lt_of_succ_lt hn) p q) p q

/-- At a contraction's last block the stored output block is the whole row sum. -/
theorem out18_C (c : Dev nD) (t : Fin cfg18.N) (h1 : t.val % 4 = 3) (p : Fin 1024) (q : Fin 819) :
    (outsAt18 V c t.val t.isLt).1 (ix2 p q) = partialSum (arrA18 V c) (arrB18 V c) (t.val / 4) 4 p q := by
  have h0 : ¬t.val % 4 = 0 := by omega
  have hacc := acc18_inv V c t.val t.isLt p q
  rw [outsAt18_C V c t h0 h1] at hacc ⊢
  dsimp only at hacc ⊢
  refine (congrFun (outC18_eq (F := Ideal) V c t h0 h1 (outsAt18 V c (t.val - 1) (Nat.lt_of_le_of_lt (Nat.sub_le _ _) t.isLt)).2) (ix2 p q)).trans ?_
  refine (pay3_18_apply (k18_pay2 (F := Ideal) (blkA18 V c t) (blkB18 V c t) (outsAt18 V c (t.val - 1) (Nat.lt_of_le_of_lt (Nat.sub_le _ _) t.isLt)).2) p q).trans ?_
  refine (congrFun (accC18_eq (F := Ideal) V c t h0 h1 (outsAt18 V c (t.val - 1) (Nat.lt_of_le_of_lt (Nat.sub_le _ _) t.isLt)).2) (ix2 p q)).symm.trans ?_
  rw [hacc, h1]

end Value

/-! ## From the flushed blocks to the output array -/

section Final
variable (V : (c : Dev nD) → (b : Ref sig .tc) → Buf (Elt Ideal) ((c : Thread nD τ).loc b))

/-- What the launch leaves in the output array: A·B, index by index. -/
abbrev res18 (c : Dev nD) : S4096x819.Idx → EReal := prodG (arrA18 V c) (arrB18 V c)

/-- The block a contraction's last point writes back is that point's row block of the result. -/
theorem flushed18_eq (c : Dev nD) (t : Fin cfg18.N) (hf : (cfg18.win 2).flush t = true) :
    (dat18 V c).flushed 2 t = ((cfg18.win 2).blk t).view.read (Elt Ideal) (res18 V c) := by
  have h1 : t.val % 4 = 3 := (flush18_2 t).mp hf
  have hN := gridN18_eq
  have ht := t.isLt
  show (cfg18.win 2).cut (grid18.coords t) ((dat18 V c).after 2 t) = _
  rw [after18_2]
  refine funext fun (y : S1024x819.Idx) => ?_
  obtain ⟨p, q, rfl⟩ : ∃ (p : Fin 1024) (q : Fin 819), y = ix2 p q := ⟨y 0, y 1, eq_ix2 y⟩
  show (outsAt18 V c t.val t.isLt).1 (ix2 p q) = (((cfg18.win 2).blk t).view.read (Elt Ideal) (res18 V c) : S1024x819.Idx → EReal) (ix2 p q)
  rw [out18_C V c t h1 p q, read_blk18_2 (res18 V c) t p q,
    partialSum_four (arrA18 V c) (arrB18 V c) (t.val / 4) (by omega) p q]
  rfl

/-- An index of the output array lies in point t's block iff each coordinate is in the block's range. -/
theorem mem_blk18_2 (t : Fin cfg18.N) (i : S4096x819.Idx) :
    i ∈ ((cfg18.win 2).blk t).view.set ↔ ∀ a : Fin 2, win18_2.index t a * S1024x819.size a ≤ (i a).val ∧ (i a).val < win18_2.index t a * S1024x819.size a + S1024x819.size a := by
  show i ∈ ((View.whole main_v37).slice (win18_2.rect t)).set ↔ _
  rw [View.set_slice_whole, Rect.mem_set_unit]
  exact Iff.rfl

/-- Row r of the output lies in the block written back at point 4·(r / 1024) + 3. -/
theorem cover18 (i : S4096x819.Idx) : ∃ t : Fin cfg18.N, (cfg18.win 2).flush t = true ∧ i ∈ ((cfg18.win 2).blk t).view.set := by
  have hi0 : (i 0).val < 4096 := (i 0).isLt
  have hi1 : (i 1).val < 819 := (i 1).isLt
  have hN := gridN18_eq
  refine ⟨⟨4 * ((i 0).val / 1024) + 3, by omega⟩, (flush18_2 _).mpr (by show (4 * ((i 0).val / 1024) + 3) % 4 = 3; omega), ?_⟩
  rw [mem_blk18_2]
  obtain ⟨-, -, -, -, e0, e1⟩ := idx_facts18 ⟨4 * ((i 0).val / 1024) + 3, by omega⟩
  intro a
  match a with
  | ⟨0, _⟩ =>
    show win18_2.index _ (0 : Fin 2) * 1024 ≤ (i 0).val ∧ (i 0).val < win18_2.index _ (0 : Fin 2) * 1024 + 1024
    rw [e0]; dsimp only; omega
  | ⟨1, _⟩ =>
    show win18_2.index _ (1 : Fin 2) * 819 ≤ (i 1).val ∧ (i 1).val < win18_2.index _ (1 : Fin 2) * 819 + 819
    rw [e1]; omega

/-- So the output array ends holding A·B. -/
theorem out18_eq (c : Dev nD) : out18 V c = res18 V c :=
  (dat18 V c).arrAt_eq_of_cover 2 (res18 V c) (flushed18_eq V c) cover18

/-- THE VALUE OF LAUNCH 18, in matrix form: the output is the product of the two input matrices. -/
theorem out18_value (c : Dev nD) :
    GcnSpec.toMat (out18 V c : S4096x819.Idx → EReal)
      = GcnSpec.mm (GcnSpec.toMat (V c main_v1 : S4096x4096.Idx → EReal)) (GcnSpec.toMat (V c main_v36 : S4096x819.Idx → EReal)) := by
  rw [out18_eq V c]
  exact toMat_prodG (arrA18 V c) (arrB18 V c)

end Final

end Cert.KernelIdeal.Hand

end
-- ==== Proof.KI.R19ValueA.lean ====
/-
  Launch 19 computes out = tanh(A·B + bias) for A with 819 columns, B 819 × 1024 and a bias row, one row block of A
  per grid point: the point t multiplies A's row block t by the whole of B into an accumulator reset at that point,
  and stores tanh(accumulator + bias) into the output's row block t. This module reads the body's three pure terms
  at an index over the extended reals and reads a window's block at an index of its array; nothing here depends on
  the symbolic run.
-/
import proofs.«113214_j66838281060556_2_alg».proof.Proof.Gen.KernelIdeal.Launch
import proofs.«113214_j66838281060556_2_alg».proof.Proof.Gen.KernelIdeal.Skeleton
import proofs.«113214_j66838281060556_2_alg».proof.Proof.Gen.KernelIdeal.Points
import proofs.«113214_j66838281060556_2_alg».proof.Proof.GcnSpec
import proofs.«113214_j66838281060556_2_alg».proof.Proof.GcnAlgebra
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.ValueIdx (ix2 eq_ix2)

/-! ## The body's pure terms at an index, over the extended reals -/

/-- The product's contraction record, by a short name. -/
abbrev D19 : DotDims S1024x819 S819x1024 S1024x1024 := dot_S1024x819_S819x1024_S1024x1024_1_0_0_1_n_n

theorem lhs_D19_0 (i : S1024x1024.Idx) (q : dot_S1024x819_S819x1024_S1024x1024_1_0_0_1_n_n.contr.Idx) :
    (dot_S1024x819_S819x1024_S1024x1024_1_0_0_1_n_n.lhsIdx i q 0).val = (i 0).val := by
  unfold DotDims.lhsIdx
  rw [dif_neg (show ¬(0 : Fin S1024x819.rank) ∈ dot_S1024x819_S819x1024_S1024x1024_1_0_0_1_n_n.lhsBatch by decide), dif_pos (show (0 : Fin S1024x819.rank) ∈ dot_S1024x819_S819x1024_S1024x1024_1_0_0_1_n_n.lhsNonContracting by decide)]
  rfl
theorem lhs_D19_1 (i : S1024x1024.Idx) (q : dot_S1024x819_S819x1024_S1024x1024_1_0_0_1_n_n.contr.Idx) :
    (dot_S1024x819_S819x1024_S1024x1024_1_0_0_1_n_n.lhsIdx i q 1).val = (q ⟨0, by decide⟩).val :=
  dot_S1024x819_S819x1024_S1024x1024_1_0_0_1_n_n.lhsIdx_val_of_single rfl i q
theorem rhs_D19_0 (i : S1024x1024.Idx) (q : dot_S1024x819_S819x1024_S1024x1024_1_0_0_1_n_n.contr.Idx) :
    (dot_S1024x819_S819x1024_S1024x1024_1_0_0_1_n_n.rhsIdx i q 0).val = (q ⟨0, by decide⟩).val :=
  dot_S1024x819_S819x1024_S1024x1024_1_0_0_1_n_n.rhsIdx_val_of_single rfl i q
theorem rhs_D19_1 (i : S1024x1024.Idx) (q : dot_S1024x819_S819x1024_S1024x1024_1_0_0_1_n_n.contr.Idx) :
    (dot_S1024x819_S819x1024_S1024x1024_1_0_0_1_n_n.rhsIdx i q 1).val = (i 1).val := by
  unfold DotDims.rhsIdx
  rw [dif_neg (show ¬(1 : Fin S819x1024.rank) ∈ dot_S1024x819_S819x1024_S1024x1024_1_0_0_1_n_n.rhsBatch by decide), dif_pos (show (1 : Fin S819x1024.rank) ∈ dot_S1024x819_S819x1024_S1024x1024_1_0_0_1_n_n.rhsNonContracting by decide)]
  rfl

/-- The block product at (p, q) is the sum over the 819 contracted columns. -/
theorem matmul19_apply (x0 : Vec Ideal S1024x819 .bf16) (x1 : Vec Ideal S819x1024 .bf16) (p : Fin 1024) (q : Fin 1024) :
    matmul (F := Ideal) (φ₁ := .bf16) (φ₂ := .bf16) dot_S1024x819_S819x1024_S1024x1024_1_0_0_1_n_n none x0 x1 (constant S1024x1024 .f32 0x00000000#32) (ix2 p q)
      = ∑ l : Fin 819, x0 (ix2 p l) * x1 (ix2 l q) := by
  refine (Ideal.matmul_constant_zero_apply (φ₁ := .bf16) (φ₂ := .bf16) dot_S1024x819_S819x1024_S1024x1024_1_0_0_1_n_n none x0 x1 (ix2 p q)).trans ?_
  rw [← Equiv.sum_comp (ValueIdx.contrEquiv1 dot_S1024x819_S819x1024_S1024x1024_1_0_0_1_n_n 819 rfl rfl).symm]
  refine Finset.sum_congr rfl fun k _ => ?_
  have hk := ValueIdx.contrEquiv1_symm_val dot_S1024x819_S819x1024_S1024x1024_1_0_0_1_n_n 819 rfl rfl k
  have el : dot_S1024x819_S819x1024_S1024x1024_1_0_0_1_n_n.lhsIdx (ix2 p q) ((ValueIdx.contrEquiv1 dot_S1024x819_S819x1024_S1024x1024_1_0_0_1_n_n 819 rfl rfl).symm k) = ix2 p k := funext fun a => Fin.ext (by
    match a with
    | ⟨0, _⟩ => exact lhs_D19_0 _ _
    | ⟨1, _⟩ => exact (lhs_D19_1 _ _).trans hk)
  have er : dot_S1024x819_S819x1024_S1024x1024_1_0_0_1_n_n.rhsIdx (ix2 p q) ((ValueIdx.contrEquiv1 dot_S1024x819_S819x1024_S1024x1024_1_0_0_1_n_n 819 rfl rfl).symm k) = ix2 k q := funext fun a => Fin.ext (by
    match a with
    | ⟨0, _⟩ => exact (rhs_D19_0 _ _).trans hk
    | ⟨1, _⟩ => exact rhs_D19_1 _ _)
  rw [el, er]

/-- The reset block is zero everywhere. -/
theorem pay1_19_apply (p : Fin 1024) (q : Fin 1024) : k19_pay1 (F := Ideal) (ix2 p q) = 0 := by
  unfold k19_pay1
  simp only [shapeCast_self]
  exact Ideal.ofBits_zero_f32

/-- The update adds the block product to what the accumulator held; the right factor's change of format is the
    identity on the extended reals. -/
theorem pay2_19_apply (x0 : Vec Ideal S1024x819 .bf16) (x1 : Vec Ideal S819x1024 .f32) (xs : Vec Ideal S1024x1024 .f32)
    (p : Fin 1024) (q : Fin 1024) :
    k19_pay2 (F := Ideal) x0 x1 xs (ix2 p q) = xs (ix2 p q) + ∑ l : Fin 819, x0 (ix2 p l) * x1 (ix2 l q) := by
  unfold k19_pay2
  simp only [shapeCast_self]
  exact congrArg (xs (ix2 p q) + ·) (matmul19_apply x0 x1 p q)

/-- The stored output block is tanh of the accumulator plus the bias row. -/
theorem pay3_19_apply (v16 : Vec Ideal S1024x1024 .f32) (v17 : Vec Ideal S1x1024 .f32) (p : Fin 1024) (q : Fin 1024) :
    k19_pay3 (F := Ideal) v16 v17 (ix2 p q) = Ideal.tanh (v16 (ix2 p q) + v17 (ix2 (0 : Fin 1) q)) := by
  unfold k19_pay3
  simp only [shapeCast_self]
  refine congrArg (fun z => Ideal.tanh (v16 (ix2 p q) + z)) ?_
  exact broadcastTo_apply v17 broadcasts_S1x1024_S1024x1024 (ix2 p q) (ix2 (0 : Fin 1) q) (fun a => by
    match a with
    | ⟨0, _⟩ => rfl
    | ⟨1, _⟩ => rfl)

/-! ## A window's block at an index of its array -/

theorem N19_eq : cfg19.N = 4 := N_19

/-- The printed index maps, decided over the grid's points: the left factor's block is (t, 0), the right factor's
    and the bias row's (0, 0), the output's (t, 0). -/
theorem idx_facts19 : ∀ t : Fin cfg19.N,
    win19_0.index t (0 : Fin 2) = t.val ∧ win19_0.index t (1 : Fin 2) = 0
    ∧ win19_1.index t (0 : Fin 2) = 0 ∧ win19_1.index t (1 : Fin 2) = 0
    ∧ win19_2.index t (0 : Fin 2) = 0 ∧ win19_2.index t (1 : Fin 2) = 0
    ∧ win19_3.index t (0 : Fin 2) = t.val ∧ win19_3.index t (1 : Fin 2) = 0 :=
  (by decide +kernel : ∀ t : Fin grid19.N, _)

section Blocks

variable {F : FTy → Type}

/-- Entry (p, l) of the left factor's block at point t is the array at row t·1024 + p, column l. -/
theorem read_blk19_0 (X : Vec F S4096x819 .bf16) (t : Fin cfg19.N) (p : Fin 1024) (l : Fin 819) :
    (((cfg19.win 0).blk t).view.read (Elt F) X : Vec F S1024x819 .bf16) (ix2 p l)
      = X (ix2 (⟨t.val * 1024 + p.val, by have := t.isLt; have := N19_eq; omega⟩ : Fin 4096) l) := by
  obtain ⟨e0, e1, -⟩ := idx_facts19 t
  rw [View.read_apply]
  show X _ = X _
  congr 1
  funext a
  apply Fin.ext
  match a with
  | ⟨0, _⟩ => show win19_0.index t (0 : Fin 2) * 1024 + 1 * p.val = t.val * 1024 + p.val; rw [e0]; omega
  | ⟨1, _⟩ => show win19_0.index t (1 : Fin 2) * 819 + 1 * l.val = l.val; rw [e1]; omega

/-- The right factor's block at any point is the whole array. -/
theorem read_blk19_1 (X : Vec F S819x1024 .f32) (t : Fin cfg19.N) (l : Fin 819) (q : Fin 1024) :
    (((cfg19.win 1).blk t).view.read (Elt F) X : Vec F S819x1024 .f32) (ix2 l q) = X (ix2 l q) := by
  obtain ⟨-, -, e0, e1, -⟩ := idx_facts19 t
  rw [View.read_apply]
  show X _ = X _
  congr 1
  funext a
  apply Fin.ext
  match a with
  | ⟨0, _⟩ => show win19_1.index t (0 : Fin 2) * 819 + 1 * l.val = l.val; rw [e0]; omega
  | ⟨1, _⟩ => show win19_1.index t (1 : Fin 2) * 1024 + 1 * q.val = q.val; rw [e1]; omega

/-- The bias window's block at any point is the whole bias row. -/
theorem read_blk19_2 (X : Vec F S1x1024 .f32) (t : Fin cfg19.N) (q : Fin 1024) :
    (((cfg19.win 2).blk t).view.read (Elt F) X : Vec F S1x1024 .f32) (ix2 (0 : Fin 1) q) = X (ix2 (0 : Fin 1) q) := by
  obtain ⟨-, -, -, -, e0, e1, -⟩ := idx_facts19 t
  rw [View.read_apply]
  show X _ = X _
  congr 1
  funext a
  apply Fin.ext
  match a with
  | ⟨0, _⟩ => show win19_2.index t (0 : Fin 2) * 1 + 1 * (0 : Fin 1).val = (0 : Fin 1).val; rw [e0]; rfl
  | ⟨1, _⟩ => show win19_2.index t (1 : Fin 2) * 1024 + 1 * q.val = q.val; rw [e1]; omega

/-- Entry (p, q) of the output's block at point t is the output at row t·1024 + p, column q. -/
theorem read_blk19_3 (X : Vec F S4096x1024 .f32) (t : Fin cfg19.N) (p : Fin 1024) (q : Fin 1024) :
    (((cfg19.win 3).blk t).view.read (Elt F) X : Vec F S1024x1024 .f32) (ix2 p q)
      = X (ix2 (⟨t.val * 1024 + p.val, by have := t.isLt; have := N19_eq; omega⟩ : Fin 4096) q) := by
  obtain ⟨-, -, -, -, -, -, e0, e1⟩ := idx_facts19 t
  rw [View.read_apply]
  show X _ = X _
  congr 1
  funext a
  apply Fin.ext
  match a with
  | ⟨0, _⟩ => show win19_3.index t (0 : Fin 2) * 1024 + 1 * p.val = t.val * 1024 + p.val; rw [e0]; omega
  | ⟨1, _⟩ => show win19_3.index t (1 : Fin 2) * 1024 + 1 * q.val = q.val; rw [e1]; omega

end Blocks

/-! ## The result, index by index -/

/-- What the output array holds after the launch: tanh of row i of A·B plus the bias row, at column j. -/
def G19 (A : Vec Ideal S4096x819 .bf16) (B : Vec Ideal S819x1024 .f32) (bias : Vec Ideal S1x1024 .f32) : Vec Ideal S4096x1024 .f32 :=
  fun y => Ideal.tanh ((∑ k : Fin 819, A (ix2 (y 0) k) * B (ix2 k (y 1))) + bias (ix2 (0 : Fin 1) (y 1)))

/-- In matrix form it is tanh(A·B + bias), the bias broadcast down the rows. -/
theorem toMat_G19 (A : Vec Ideal S4096x819 .bf16) (B : Vec Ideal S819x1024 .f32) (bias : Vec Ideal S1x1024 .f32) :
    GcnSpec.toMat (G19 A B bias)
      = GcnSpec.tanhB (GcnSpec.mm (GcnSpec.toMat A) (GcnSpec.toMat B)) (fun j => bias (ix2 (0 : Fin 1) j)) := rfl

end Cert.KernelIdeal.Hand

end
-- ==== Proof.KI.R19Value.lean ====
/-
  The value of launch 19: out = tanh(A·B + bias). The symbolic run left the list of pieces stored into the output
  block; it is read back as the body's three pure terms of the staged blocks: the accumulator reset, the product of
  the two staged blocks added, tanh of that sum plus the bias row stored. One point's block is thus a row block of
  the result; those blocks cover the output array, and so the array ends holding the result.
-/
import proofs.«113214_j66838281060556_2_alg».proof.Proof.KI.R19
import proofs.«113214_j66838281060556_2_alg».proof.Proof.KI.R19ValueA
import proofs.«113214_j66838281060556_2_alg».proof.Proof.GcnSpec
import proofs.«113214_j66838281060556_2_alg».proof.Proof.GcnAlgebra
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat)
open Idealize.ShloMosaic.ValueIdx (ix2 eq_ix2)

/-! ## What a point stores, as the body's pure terms -/

section Pieces
variable {F : FTy → Type} [FloatOps F]
variable (V : (c : Dev nD) → (b : Ref sig .tc) → Buf (Elt F) ((c : Thread nD τ).loc b))

theorem hz19 : (![0, 0] : Fin 2 → Nat) = fun _ => 0 := funext fun a => by fin_cases a <;> rfl

/-- The accumulator read whole gives back the contents it is held at. -/
theorem scM19_read_unread (h : (scM19 : Memref sig .tc .vmem S1024x1024 .f32).IsWhole) (xs : Vec F S1024x1024 .f32) :
    View.read (Elt F) (View.whole cc19_scratch0) (h.unread xs) = xs := h.read_unread xs

/-- The output block a point stores: the accumulator is reset, read back, updated by the product of the two staged
    blocks, read back, and the stored term of it and the bias block is what the output's buffer holds. -/
theorem outO19_eq (c : Dev nD) (t : Fin cfg19.N) :
    out19 V c t = k19_pay3 (k19_pay2 (iblk19 V c 0 t) (iblk19 V c 1 t) (k19_pay1 (F := F))) (iblk19 V c 2 t) := by
  unfold out19
  rw [View.read_writes_eq_canon _ _ _ (coverO19 V c t)]
  unfold run19
  dsimp only
  sl_unfold_words
  rw [View.canon_unit_zero hz19]
  simp only [View.readAt_eq_ld, Memref.IsWhole.read_unread, scM19_read_unread, View.ld_unit_zero (S := S1024x819) hz19, View.ld_unit_zero (S := S819x1024) hz19,
    View.ld_unit_zero (S := S1x1024) hz19, View.readCov_unit_zero (S := S1024x1024) _ hz19, View.readCov_cons_toLoadRect]

end Pieces

/-! ## The stored block, over the extended reals -/

section Value
variable (V : (c : Dev nD) → (b : Ref sig .tc) → Buf (Elt Ideal) ((c : Thread nD τ).loc b))

/-- The three arrays the launch reads, at their literal types: A, B and the bias row. -/
abbrev arrA19 (c : Dev nD) : Vec Ideal S4096x819 .bf16 := V c main_v37
abbrev arrB19 (c : Dev nD) : Vec Ideal S819x1024 .f32 := V c main_arg17
abbrev arrC19 (c : Dev nD) : Vec Ideal S1x1024 .f32 := V c main_v38
/-- The blocks the three input windows stage at a point, at their literal types. -/
abbrev blkA19 (c : Dev nD) (t : Fin cfg19.N) : Vec Ideal S1024x819 .bf16 := iblk19 V c 0 t
abbrev blkB19 (c : Dev nD) (t : Fin cfg19.N) : Vec Ideal S819x1024 .f32 := iblk19 V c 1 t
abbrev blkC19 (c : Dev nD) (t : Fin cfg19.N) : Vec Ideal S1x1024 .f32 := iblk19 V c 2 t

theorem blkA19_apply (c : Dev nD) (t : Fin cfg19.N) (p : Fin 1024) (l : Fin 819) :
    blkA19 V c t (ix2 p l) = arrA19 V c (ix2 (⟨t.val * 1024 + p.val, by have := t.isLt; have := N19_eq; omega⟩ : Fin 4096) l) :=
  read_blk19_0 (F := Ideal) (arrA19 V c) t p l

theorem blkB19_apply (c : Dev nD) (t : Fin cfg19.N) (l : Fin 819) (q : Fin 1024) :
    blkB19 V c t (ix2 l q) = arrB19 V c (ix2 l q) :=
  read_blk19_1 (F := Ideal) (arrB19 V c) t l q

theorem blkC19_apply (c : Dev nD) (t : Fin cfg19.N) (q : Fin 1024) :
    blkC19 V c t (ix2 (0 : Fin 1) q) = arrC19 V c (ix2 (0 : Fin 1) q) :=
  read_blk19_2 (F := Ideal) (arrC19 V c) t q

/-- The block a point stores is, at (p, q), tanh of row t·1024 + p of A·B at column q plus the bias there. -/
theorem out19_pt (c : Dev nD) (t : Fin cfg19.N) (p : Fin 1024) (q : Fin 1024) :
    out19 V c t (ix2 p q)
      = Ideal.tanh ((∑ l : Fin 819, arrA19 V c (ix2 (⟨t.val * 1024 + p.val, by have := t.isLt; have := N19_eq; omega⟩ : Fin 4096) l) * arrB19 V c (ix2 l q))
          + arrC19 V c (ix2 (0 : Fin 1) q)) := by
  refine (congrFun (outO19_eq (F := Ideal) V c t) (ix2 p q)).trans ?_
  refine (pay3_19_apply (k19_pay2 (blkA19 V c t) (blkB19 V c t) (k19_pay1 (F := Ideal))) (blkC19 V c t) p q).trans ?_
  rw [pay2_19_apply (blkA19 V c t) (blkB19 V c t) (k19_pay1 (F := Ideal)) p q, pay1_19_apply p q, zero_add, blkC19_apply V c t q]
  refine congrArg (fun z => Ideal.tanh (z + arrC19 V c (ix2 (0 : Fin 1) q))) ?_
  exact Finset.sum_congr rfl fun l _ => by rw [blkA19_apply, blkB19_apply]

end Value

/-! ## From the flushed blocks to the output array -/

section Final
variable (V : (c : Dev nD) → (b : Ref sig .tc) → Buf (Elt Ideal) ((c : Thread nD τ).loc b))

/-- What the launch leaves in the output array: tanh(A·B + bias), index by index. -/
abbrev res19 (c : Dev nD) : Vec Ideal S4096x1024 .f32 := G19 (arrA19 V c) (arrB19 V c) (arrC19 V c)

/-- The block a point writes back is that point's row block of the result. -/
theorem flushed19_eq (c : Dev nD) (t : Fin cfg19.N) (hf : (cfg19.win 3).flush t = true) :
    (dat19 V c).flushed 3 t = ((cfg19.win 3).blk t).view.read (Elt Ideal) (res19 V c) := by
  have hN := N19_eq
  have ht := t.isLt
  show (cfg19.win 3).cut (grid19.coords t) ((dat19 V c).after 3 t) = _
  rw [after19_3]
  refine funext fun (y : S1024x1024.Idx) => ?_
  obtain ⟨p, q, rfl⟩ : ∃ (p : Fin 1024) (q : Fin 1024), y = ix2 p q := ⟨y 0, y 1, eq_ix2 y⟩
  show out19 V c t (ix2 p q) = (((cfg19.win 3).blk t).view.read (Elt Ideal) (res19 V c) : Vec Ideal S1024x1024 .f32) (ix2 p q)
  rw [out19_pt V c t p q, read_blk19_3 (F := Ideal) (res19 V c) t p q]
  rfl

/-- An index of the output array lies in point t's block iff each coordinate is in the block's range. -/
theorem mem_blk19_3 (t : Fin cfg19.N) (i : S4096x1024.Idx) :
    i ∈ ((cfg19.win 3).blk t).view.set ↔ ∀ a : Fin 2, win19_3.index t a * S1024x1024.size a ≤ (i a).val ∧ (i a).val < win19_3.index t a * S1024x1024.size a + S1024x1024.size a := by
  show i ∈ ((View.whole main_v39).slice (win19_3.rect t)).set ↔ _
  rw [View.set_slice_whole, Rect.mem_set_unit]
  exact Iff.rfl

/-- Row r of the output lies in the block written back at point r / 1024. -/
theorem cover19 (i : S4096x1024.Idx) : ∃ t : Fin cfg19.N, (cfg19.win 3).flush t = true ∧ i ∈ ((cfg19.win 3).blk t).view.set := by
  have hi0 : (i 0).val < 4096 := (i 0).isLt
  have hi1 : (i 1).val < 1024 := (i 1).isLt
  have hN := N19_eq
  refine ⟨⟨(i 0).val / 1024, by omega⟩, flush19_3 _, ?_⟩
  rw [mem_blk19_3]
  obtain ⟨-, -, -, -, -, -, e0, e1⟩ := idx_facts19 ⟨(i 0).val / 1024, by omega⟩
  intro a
  match a with
  | ⟨0, _⟩ =>
    show win19_3.index _ (0 : Fin 2) * 1024 ≤ (i 0).val ∧ (i 0).val < win19_3.index _ (0 : Fin 2) * 1024 + 1024
    rw [e0]; dsimp only; omega
  | ⟨1, _⟩ =>
    show win19_3.index _ (1 : Fin 2) * 1024 ≤ (i 1).val ∧ (i 1).val < win19_3.index _ (1 : Fin 2) * 1024 + 1024
    rw [e1]; omega

/-- So the output array ends holding tanh(A·B + bias). -/
theorem out19arr_eq (c : Dev nD) : out19arr V c = res19 V c :=
  (dat19 V c).arrAt_eq_of_cover 3 (res19 V c) (flushed19_eq V c) cover19

/-- THE VALUE OF LAUNCH 19, in matrix form: the output is tanh of the product of the two input matrices plus the
    bias row broadcast down the rows. -/
theorem out19_value (c : Dev nD) :
    GcnSpec.toMat (out19arr V c : S4096x1024.Idx → EReal)
      = GcnSpec.tanhB (GcnSpec.mm (GcnSpec.toMat (V c main_v37 : S4096x819.Idx → EReal)) (GcnSpec.toMat (V c main_arg17 : S819x1024.Idx → EReal)))
          (fun j => (V c main_v38 : S1x1024.Idx → EReal) (ix2 (0 : Fin 1) j)) := by
  rw [out19arr_eq V c]
  exact toMat_G19 (arrA19 V c) (arrB19 V c) (arrC19 V c)

end Final

end Cert.KernelIdeal.Hand

end
-- ==== Proof.KI.R20ValueA.lean ====
/-
  Launch 20 computes out = A·B for A 4096 × 4096 and B 4096 × 1024, block by block: the grid point t handles the
  row block t / 4 and the contraction block t % 4 (blocks of 1024), adding the product of A's block (t/4, t%4)
  and B's block (t%4, 0) into an accumulator that is reset at t % 4 = 0, and storing the accumulator, in the
  output's format, into the output's row block at t % 4 = 3. This module reads the body's three pure terms at an
  index over the extended reals, where a change of format is the identity, and reads each window's block at an
  index of its array; nothing here depends on the symbolic runs.
-/
import proofs.«113214_j66838281060556_2_alg».proof.Proof.Gen.KernelIdeal.Launch
import proofs.«113214_j66838281060556_2_alg».proof.Proof.Gen.KernelIdeal.Skeleton
import proofs.«113214_j66838281060556_2_alg».proof.Proof.Gen.KernelIdeal.Points
import proofs.«113214_j66838281060556_2_alg».proof.Proof.KI.MatmulValue
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.ValueIdx (ix2 eq_ix2)

/-! ## The body's pure terms at an index, over the extended reals -/

/-- The reset block is zero everywhere. -/
theorem pay1_20_apply (p : Fin 1024) (q : Fin 1024) : k20_pay1 (F := Ideal) (ix2 p q) = 0 := by
  unfold k20_pay1
  simp only [shapeCast_self]
  exact Ideal.ofBits_zero_f32

/-- The update adds the block product to what the accumulator held. -/
theorem pay2_20_apply (x0 : S1024x1024.Idx → EReal) (x1 : S1024x1024.Idx → EReal) (xs : S1024x1024.Idx → EReal)
    (p : Fin 1024) (q : Fin 1024) :
    k20_pay2 (F := Ideal) x0 x1 xs (ix2 p q) = xs (ix2 p q) + ∑ l : Fin 1024, x0 (ix2 p l) * x1 (ix2 l q) := by
  unfold k20_pay2
  simp only [shapeCast_self]
  exact congrArg (xs (ix2 p q) + ·) (matmul1024_apply x0 x1 p q)

/-- The stored output block is the accumulator: the change of format is the identity on extended reals. -/
theorem pay3_20_apply (v17 : S1024x1024.Idx → EReal) (p : Fin 1024) (q : Fin 1024) :
    k20_pay3 (F := Ideal) v17 (ix2 p q) = v17 (ix2 p q) := rfl

/-! ## A window's block at an index of its array -/

theorem gridN20_eq : cfg20.N = 16 := N_20

/-- The printed index maps, decided over the sixteen points: A's block is (t / 4, t % 4), B's (t % 4, 0), the
    output's (t / 4, 0). -/
theorem idx_facts20 : ∀ t : Fin cfg20.N,
    win20_0.index t (0 : Fin 2) = t.val / 4 ∧ win20_0.index t (1 : Fin 2) = t.val % 4
    ∧ win20_1.index t (0 : Fin 2) = t.val % 4 ∧ win20_1.index t (1 : Fin 2) = 0
    ∧ win20_2.index t (0 : Fin 2) = t.val / 4 ∧ win20_2.index t (1 : Fin 2) = 0 :=
  (by decide +kernel : ∀ t : Fin grid20.N, _)

/-- Entry (p, l) of A's block at point t is A at row (t/4)·1024 + p, column (t%4)·1024 + l. -/
theorem read_blk20_0 (X : S4096x4096.Idx → EReal) (t : Fin cfg20.N) (p l : Fin 1024) :
    (((cfg20.win 0).blk t).view.read (Elt Ideal) X : S1024x1024.Idx → EReal) (ix2 p l)
      = X (ix2 (⟨t.val / 4 * 1024 + p.val, by have := t.isLt; have := gridN20_eq; omega⟩ : Fin 4096)
            (⟨t.val % 4 * 1024 + l.val, by omega⟩ : Fin 4096)) := by
  obtain ⟨e0, e1, -⟩ := idx_facts20 t
  rw [View.read_apply]
  show X _ = X _
  congr 1
  funext a
  apply Fin.ext
  match a with
  | ⟨0, _⟩ => show win20_0.index t (0 : Fin 2) * 1024 + 1 * p.val = t.val / 4 * 1024 + p.val; rw [e0]; omega
  | ⟨1, _⟩ => show win20_0.index t (1 : Fin 2) * 1024 + 1 * l.val = t.val % 4 * 1024 + l.val; rw [e1]; omega

/-- Entry (l, q) of B's block at point t is B at row (t%4)·1024 + l, column q. -/
theorem read_blk20_1 (X : S4096x1024.Idx → EReal) (t : Fin cfg20.N) (l : Fin 1024) (q : Fin 1024) :
    (((cfg20.win 1).blk t).view.read (Elt Ideal) X : S1024x1024.Idx → EReal) (ix2 l q)
      = X (ix2 (⟨t.val % 4 * 1024 + l.val, by omega⟩ : Fin 4096) q) := by
  obtain ⟨-, -, e0, e1, -⟩ := idx_facts20 t
  rw [View.read_apply]
  show X _ = X _
  congr 1
  funext a
  apply Fin.ext
  match a with
  | ⟨0, _⟩ => show win20_1.index t (0 : Fin 2) * 1024 + 1 * l.val = t.val % 4 * 1024 + l.val; rw [e0]; omega
  | ⟨1, _⟩ => show win20_1.index t (1 : Fin 2) * 1024 + 1 * q.val = q.val; rw [e1]; omega

/-- Entry (p, q) of the output's block at point t is the output at row (t/4)·1024 + p, column q. -/
theorem read_blk20_2 (X : S4096x1024.Idx → EReal) (t : Fin cfg20.N) (p : Fin 1024) (q : Fin 1024) :
    (((cfg20.win 2).blk t).view.read (Elt Ideal) X : S1024x1024.Idx → EReal) (ix2 p q)
      = X (ix2 (⟨t.val / 4 * 1024 + p.val, by have := t.isLt; have := gridN20_eq; omega⟩ : Fin 4096) q) := by
  obtain ⟨-, -, -, -, e0, e1⟩ := idx_facts20 t
  rw [View.read_apply]
  show X _ = X _
  congr 1
  funext a
  apply Fin.ext
  match a with
  | ⟨0, _⟩ => show win20_2.index t (0 : Fin 2) * 1024 + 1 * p.val = t.val / 4 * 1024 + p.val; rw [e0]; omega
  | ⟨1, _⟩ => show win20_2.index t (1 : Fin 2) * 1024 + 1 * q.val = q.val; rw [e1]; omega

end Cert.KernelIdeal.Hand

end
-- ==== Proof.KI.R20Value.lean ====
/-
  The value of launch 20: out = A·B. The symbolic runs left, per control case, lists of stored pieces; each is read
  back as one of the body's three pure terms of the staged blocks. By induction on the grid point the accumulator
  after point n holds the first n % 4 + 1 contraction blocks' part of the row block n / 4 of A·B; at a
  contraction's last block the stored output block is the whole row sum; those blocks are the row blocks of the
  result, they cover the output array, and so the array ends holding the result.
-/
import proofs.«113214_j66838281060556_2_alg».proof.Proof.KI.R20
import proofs.«113214_j66838281060556_2_alg».proof.Proof.KI.R20ValueA
import proofs.«113214_j66838281060556_2_alg».proof.Proof.KI.MatmulValue
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat)
open Idealize.ShloMosaic.ValueIdx (ix2 eq_ix2)

/-! ## What each case leaves, as the body's pure terms -/

section Pieces
variable {F : FTy → Type} [FloatOps F]
variable (V : (c : Dev nD) → (b : Ref sig .tc) → Buf (Elt F) ((c : Thread nD τ).loc b))

/-- The accumulator read whole gives back the contents it is held at. -/
theorem scM20_read_unread (h : (scM20 : Memref sig .tc .vmem S1024x1024 .f32).IsWhole) (xs : Vec F S1024x1024 .f32) :
    View.read (Elt F) (View.whole cc20_scratch0) (h.unread xs) = xs := h.read_unread xs

/-- A middle block: the accumulator ends at the update of what it held. -/
theorem accB20_eq (c : Dev nD) (t : Fin cfg20.N) (h0 : ¬t.val % 4 = 0) (h1 : ¬t.val % 4 = 3) (xs : Vec F S1024x1024 .f32) :
    accB20 V c t h0 h1 xs = k20_pay2 (iblk20 V c 0 t) (iblk20 V c 1 t) xs := by
  unfold accB20
  rw [View.read_writes_eq_canon _ _ _ (coverB20 V c t h0 h1 xs)]
  unfold run20_B
  dsimp only
  sl_unfold_words
  rw [View.canon_unit_zero hz00]
  simp only [View.readAt_eq_ld, Memref.IsWhole.read_unread, scM20_read_unread, View.ld_unit_zero (S := S1024x1024) hz00, View.ld_unit_zero (S := S1024x1024) hz00]

/-- A first block: the accumulator is reset, read back, and ends at the update of the zero block. -/
theorem accA20_eq (c : Dev nD) (t : Fin cfg20.N) (h0 : t.val % 4 = 0) (h1 : ¬t.val % 4 = 3) :
    accA20 V c t h0 h1 = k20_pay2 (iblk20 V c 0 t) (iblk20 V c 1 t) (k20_pay1 (F := F)) := by
  unfold accA20
  rw [View.read_writes_eq_canon _ _ _ (coverA20 V c t h0 h1)]
  unfold run20_A
  dsimp only
  sl_unfold_words
  rw [View.canon_cons_unit_zero (S := S1024x1024) hz00]
  simp only [View.readAt_eq_ld, Memref.IsWhole.read_unread, scM20_read_unread, View.ld_unit_zero (S := S1024x1024) hz00, View.ld_unit_zero (S := S1024x1024) hz00,
    View.readCov_unit_zero (S := S1024x1024) _ hz00]

/-- A last block: the accumulator ends at the update of what it held, -/
theorem accC20_eq (c : Dev nD) (t : Fin cfg20.N) (h0 : ¬t.val % 4 = 0) (h1 : t.val % 4 = 3) (xs : Vec F S1024x1024 .f32) :
    accC20 V c t h0 h1 xs = k20_pay2 (iblk20 V c 0 t) (iblk20 V c 1 t) xs := by
  unfold accC20
  rw [View.read_writes_eq_canon _ _ _ (coverCs20 V c t h0 h1 xs)]
  unfold run20_C
  dsimp only
  sl_unfold_words
  rw [View.canon_unit_zero hz00]
  simp only [View.readAt_eq_ld, Memref.IsWhole.read_unread, scM20_read_unread, View.ld_unit_zero (S := S1024x1024) hz00, View.ld_unit_zero (S := S1024x1024) hz00]

/-- and the output block is the stored term of that accumulator, read back. -/
theorem outC20_eq (c : Dev nD) (t : Fin cfg20.N) (h0 : ¬t.val % 4 = 0) (h1 : t.val % 4 = 3) (xs : Vec F S1024x1024 .f32) :
    outC20 V c t h0 h1 xs = k20_pay3 (k20_pay2 (iblk20 V c 0 t) (iblk20 V c 1 t) xs) := by
  unfold outC20
  rw [View.read_writes_eq_canon _ _ _ (coverCo20 V c t h0 h1 xs)]
  unfold run20_C
  dsimp only
  sl_unfold_words
  rw [View.canon_unit_zero hz00]
  simp only [View.readAt_eq_ld, Memref.IsWhole.read_unread, scM20_read_unread, View.ld_unit_zero (S := S1024x1024) hz00, View.ld_unit_zero (S := S1024x1024) hz00,
    View.readCov_unit_zero (S := S1024x1024) _ hz00]

end Pieces

/-! ## The accumulator and the output block after each point, over the extended reals -/

section Value
variable (V : (c : Dev nD) → (b : Ref sig .tc) → Buf (Elt Ideal) ((c : Thread nD τ).loc b))

/-- The two arrays the launch reads, at their literal shapes: A and B. -/
abbrev arrA20 (c : Dev nD) : S4096x4096.Idx → EReal := V c main_v1
abbrev arrB20 (c : Dev nD) : S4096x1024.Idx → EReal := V c main_v39
/-- The blocks the two input windows stage at a point, at their literal shapes. -/
abbrev blkA20 (c : Dev nD) (t : Fin cfg20.N) : S1024x1024.Idx → EReal := iblk20 V c 0 t
abbrev blkB20 (c : Dev nD) (t : Fin cfg20.N) : S1024x1024.Idx → EReal := iblk20 V c 1 t

theorem blkA20_apply (c : Dev nD) (t : Fin cfg20.N) (p l : Fin 1024) :
    blkA20 V c t (ix2 p l) = natMat (arrA20 V c) (t.val / 4 * 1024 + p.val) (t.val % 4 * 1024 + l.val) :=
  (read_blk20_0 (arrA20 V c) t p l).trans (natMat_val (arrA20 V c) _ _).symm

theorem blkB20_apply (c : Dev nD) (t : Fin cfg20.N) (l : Fin 1024) (q : Fin 1024) :
    blkB20 V c t (ix2 l q) = natMat (arrB20 V c) (t.val % 4 * 1024 + l.val) q.val :=
  (read_blk20_1 (arrB20 V c) t l q).trans (natMat_val (arrB20 V c) _ _).symm

/-- The product of the two staged blocks at (p, q) is the contraction block's part of the row of A·B. -/
theorem block_sum20 (c : Dev nD) (t : Fin cfg20.N) (p : Fin 1024) (q : Fin 1024) :
    ∑ l : Fin 1024, blkA20 V c t (ix2 p l) * blkB20 V c t (ix2 l q)
      = blockTerm (arrA20 V c) (arrB20 V c) (t.val / 4) (t.val % 4) p q :=
  Finset.sum_congr rfl fun l _ => by rw [blkA20_apply, blkB20_apply]

/-- A contraction's first block leaves its own part of the sum. -/
theorem acc20_A (c : Dev nD) (t : Fin cfg20.N) (h0 : t.val % 4 = 0) (h1 : ¬t.val % 4 = 3) (p : Fin 1024) (q : Fin 1024) :
    (outsAt20 V c t.val t.isLt).2 (ix2 p q) = partialSum (arrA20 V c) (arrB20 V c) (t.val / 4) (t.val % 4 + 1) p q := by
  rw [outsAt20_A V c t h0 h1]
  dsimp only
  refine (congrFun (accA20_eq (F := Ideal) V c t h0 h1) (ix2 p q)).trans ?_
  refine (pay2_20_apply (blkA20 V c t) (blkB20 V c t) (k20_pay1 (F := Ideal)) p q).trans ?_
  rw [pay1_20_apply p q, block_sum20 V c t p q, h0]
  exact (partialSum_one (arrA20 V c) (arrB20 V c) (t.val / 4) p q).symm

/-- A later block adds its part to what the point before left. -/
theorem acc20_BC (c : Dev nD) (t : Fin cfg20.N) (h0 : ¬t.val % 4 = 0)
    (ih : ∀ (p : Fin 1024) (q : Fin 1024), (outsAt20 V c (t.val - 1) (Nat.lt_of_le_of_lt (Nat.sub_le _ _) t.isLt)).2 (ix2 p q)
      = partialSum (arrA20 V c) (arrB20 V c) ((t.val - 1) / 4) ((t.val - 1) % 4 + 1) p q)
    (p : Fin 1024) (q : Fin 1024) :
    (outsAt20 V c t.val t.isLt).2 (ix2 p q) = partialSum (arrA20 V c) (arrB20 V c) (t.val / 4) (t.val % 4 + 1) p q := by
  have e1 : (t.val - 1) / 4 = t.val / 4 := by omega
  have e2 : (t.val - 1) % 4 + 1 = t.val % 4 := by omega
  have step : (outsAt20 V c (t.val - 1) (Nat.lt_of_le_of_lt (Nat.sub_le _ _) t.isLt)).2 (ix2 p q)
      + ∑ l : Fin 1024, blkA20 V c t (ix2 p l) * blkB20 V c t (ix2 l q)
      = partialSum (arrA20 V c) (arrB20 V c) (t.val / 4) (t.val % 4 + 1) p q := by
    rw [ih p q, block_sum20 V c t p q, e1, e2]
    exact (partialSum_succ (arrA20 V c) (arrB20 V c) (t.val / 4) (t.val % 4) p q).symm
  by_cases h1 : t.val % 4 = 3
  · rw [outsAt20_C V c t h0 h1]
    dsimp only
    refine (congrFun (accC20_eq (F := Ideal) V c t h0 h1 (outsAt20 V c (t.val - 1) (Nat.lt_of_le_of_lt (Nat.sub_le _ _) t.isLt)).2) (ix2 p q)).trans ?_
    exact (pay2_20_apply (blkA20 V c t) (blkB20 V c t) (outsAt20 V c (t.val - 1) (Nat.lt_of_le_of_lt (Nat.sub_le _ _) t.isLt)).2 p q).trans step
  · rw [outsAt20_B V c t h0 h1]
    dsimp only
    refine (congrFun (accB20_eq (F := Ideal) V c t h0 h1 (outsAt20 V c (t.val - 1) (Nat.lt_of_le_of_lt (Nat.sub_le _ _) t.isLt)).2) (ix2 p q)).trans ?_
    exact (pay2_20_apply (blkA20 V c t) (blkB20 V c t) (outsAt20 V c (t.val - 1) (Nat.lt_of_le_of_lt (Nat.sub_le _ _) t.isLt)).2 p q).trans step

/-- THE INVARIANT: after point n the accumulator holds, at (p, q), the first n % 4 + 1 blocks' part of row
    (n/4)·1024 + p of A·B at column q. By induction on the point. -/
theorem acc20_inv (c : Dev nD) (n : ℕ) : ∀ (hn : n < cfg20.N) (p : Fin 1024) (q : Fin 1024),
    (outsAt20 V c n hn).2 (ix2 p q) = partialSum (arrA20 V c) (arrB20 V c) (n / 4) (n % 4 + 1) p q := by
  induction n with
  | zero => intro hn p q; exact acc20_A V c ⟨0, hn⟩ rfl (by show ¬(0 % 4 = 3); decide) p q
  | succ n ih =>
    intro hn p q
    by_cases h0 : (n + 1) % 4 = 0
    · exact acc20_A V c ⟨n + 1, hn⟩ h0 (by show ¬((n + 1) % 4 = 3); omega) p q
    · exact acc20_BC V c ⟨n + 1, hn⟩ h0 (fun p q => ih (Nat.lt_of_succ_lt hn) p q) p q

/-- At a contraction's last block the stored output block is the whole row sum. -/
theorem out20_C (c : Dev nD) (t : Fin cfg20.N) (h1 : t.val % 4 = 3) (p : Fin 1024) (q : Fin 1024) :
    (outsAt20 V c t.val t.isLt).1 (ix2 p q) = partialSum (arrA20 V c) (arrB20 V c) (t.val / 4) 4 p q := by
  have h0 : ¬t.val % 4 = 0 := by omega
  have hacc := acc20_inv V c t.val t.isLt p q
  rw [outsAt20_C V c t h0 h1] at hacc ⊢
  dsimp only at hacc ⊢
  refine (congrFun (outC20_eq (F := Ideal) V c t h0 h1 (outsAt20 V c (t.val - 1) (Nat.lt_of_le_of_lt (Nat.sub_le _ _) t.isLt)).2) (ix2 p q)).trans ?_
  refine (pay3_20_apply (k20_pay2 (F := Ideal) (blkA20 V c t) (blkB20 V c t) (outsAt20 V c (t.val - 1) (Nat.lt_of_le_of_lt (Nat.sub_le _ _) t.isLt)).2) p q).trans ?_
  refine (congrFun (accC20_eq (F := Ideal) V c t h0 h1 (outsAt20 V c (t.val - 1) (Nat.lt_of_le_of_lt (Nat.sub_le _ _) t.isLt)).2) (ix2 p q)).symm.trans ?_
  rw [hacc, h1]

end Value

/-! ## From the flushed blocks to the output array -/

section Final
variable (V : (c : Dev nD) → (b : Ref sig .tc) → Buf (Elt Ideal) ((c : Thread nD τ).loc b))

/-- What the launch leaves in the output array: A·B, index by index. -/
abbrev res20 (c : Dev nD) : S4096x1024.Idx → EReal := prodG (arrA20 V c) (arrB20 V c)

/-- The block a contraction's last point writes back is that point's row block of the result. -/
theorem flushed20_eq (c : Dev nD) (t : Fin cfg20.N) (hf : (cfg20.win 2).flush t = true) :
    (dat20 V c).flushed 2 t = ((cfg20.win 2).blk t).view.read (Elt Ideal) (res20 V c) := by
  have h1 : t.val % 4 = 3 := (flush20_2 t).mp hf
  have hN := gridN20_eq
  have ht := t.isLt
  show (cfg20.win 2).cut (grid20.coords t) ((dat20 V c).after 2 t) = _
  rw [after20_2]
  refine funext fun (y : S1024x1024.Idx) => ?_
  obtain ⟨p, q, rfl⟩ : ∃ (p : Fin 1024) (q : Fin 1024), y = ix2 p q := ⟨y 0, y 1, eq_ix2 y⟩
  show (outsAt20 V c t.val t.isLt).1 (ix2 p q) = (((cfg20.win 2).blk t).view.read (Elt Ideal) (res20 V c) : S1024x1024.Idx → EReal) (ix2 p q)
  rw [out20_C V c t h1 p q, read_blk20_2 (res20 V c) t p q,
    partialSum_four (arrA20 V c) (arrB20 V c) (t.val / 4) (by omega) p q]
  rfl

/-- An index of the output array lies in point t's block iff each coordinate is in the block's range. -/
theorem mem_blk20_2 (t : Fin cfg20.N) (i : S4096x1024.Idx) :
    i ∈ ((cfg20.win 2).blk t).view.set ↔ ∀ a : Fin 2, win20_2.index t a * S1024x1024.size a ≤ (i a).val ∧ (i a).val < win20_2.index t a * S1024x1024.size a + S1024x1024.size a := by
  show i ∈ ((View.whole main_v40).slice (win20_2.rect t)).set ↔ _
  rw [View.set_slice_whole, Rect.mem_set_unit]
  exact Iff.rfl

/-- Row r of the output lies in the block written back at point 4·(r / 1024) + 3. -/
theorem cover20 (i : S4096x1024.Idx) : ∃ t : Fin cfg20.N, (cfg20.win 2).flush t = true ∧ i ∈ ((cfg20.win 2).blk t).view.set := by
  have hi0 : (i 0).val < 4096 := (i 0).isLt
  have hi1 : (i 1).val < 1024 := (i 1).isLt
  have hN := gridN20_eq
  refine ⟨⟨4 * ((i 0).val / 1024) + 3, by omega⟩, (flush20_2 _).mpr (by show (4 * ((i 0).val / 1024) + 3) % 4 = 3; omega), ?_⟩
  rw [mem_blk20_2]
  obtain ⟨-, -, -, -, e0, e1⟩ := idx_facts20 ⟨4 * ((i 0).val / 1024) + 3, by omega⟩
  intro a
  match a with
  | ⟨0, _⟩ =>
    show win20_2.index _ (0 : Fin 2) * 1024 ≤ (i 0).val ∧ (i 0).val < win20_2.index _ (0 : Fin 2) * 1024 + 1024
    rw [e0]; dsimp only; omega
  | ⟨1, _⟩ =>
    show win20_2.index _ (1 : Fin 2) * 1024 ≤ (i 1).val ∧ (i 1).val < win20_2.index _ (1 : Fin 2) * 1024 + 1024
    rw [e1]; omega

/-- So the output array ends holding A·B. -/
theorem out20_eq (c : Dev nD) : out20 V c = res20 V c :=
  (dat20 V c).arrAt_eq_of_cover 2 (res20 V c) (flushed20_eq V c) cover20

/-- THE VALUE OF LAUNCH 20, in matrix form: the output is the product of the two input matrices. -/
theorem out20_value (c : Dev nD) :
    GcnSpec.toMat (out20 V c : S4096x1024.Idx → EReal)
      = GcnSpec.mm (GcnSpec.toMat (V c main_v1 : S4096x4096.Idx → EReal)) (GcnSpec.toMat (V c main_v39 : S4096x1024.Idx → EReal)) := by
  rw [out20_eq V c]
  exact toMat_prodG (arrA20 V c) (arrB20 V c)

end Final

end Cert.KernelIdeal.Hand

end
-- ==== Proof.KI.R21ValueA.lean ====
/-
  Launch 21 computes out = tanh(A·B + bias) for A with 1024 columns, B 1024 × 1280 and a bias row, one row block of A
  per grid point: the point t multiplies A's row block t by the whole of B into an accumulator reset at that point,
  and stores tanh(accumulator + bias) into the output's row block t. This module reads the body's three pure terms
  at an index over the extended reals and reads a window's block at an index of its array; nothing here depends on
  the symbolic run.
-/
import proofs.«113214_j66838281060556_2_alg».proof.Proof.Gen.KernelIdeal.Launch
import proofs.«113214_j66838281060556_2_alg».proof.Proof.Gen.KernelIdeal.Skeleton
import proofs.«113214_j66838281060556_2_alg».proof.Proof.Gen.KernelIdeal.Points
import proofs.«113214_j66838281060556_2_alg».proof.Proof.GcnSpec
import proofs.«113214_j66838281060556_2_alg».proof.Proof.GcnAlgebra
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.ValueIdx (ix2 eq_ix2)

/-! ## The body's pure terms at an index, over the extended reals -/

/-- The product's contraction record, by a short name. -/
abbrev D21 : DotDims S1024x1024 S1024x1280 S1024x1280 := dot_S1024x1024_S1024x1280_S1024x1280_1_0_0_1_n_n

theorem lhs_D21_0 (i : S1024x1280.Idx) (q : dot_S1024x1024_S1024x1280_S1024x1280_1_0_0_1_n_n.contr.Idx) :
    (dot_S1024x1024_S1024x1280_S1024x1280_1_0_0_1_n_n.lhsIdx i q 0).val = (i 0).val := by
  unfold DotDims.lhsIdx
  rw [dif_neg (show ¬(0 : Fin S1024x1024.rank) ∈ dot_S1024x1024_S1024x1280_S1024x1280_1_0_0_1_n_n.lhsBatch by decide), dif_pos (show (0 : Fin S1024x1024.rank) ∈ dot_S1024x1024_S1024x1280_S1024x1280_1_0_0_1_n_n.lhsNonContracting by decide)]
  rfl
theorem lhs_D21_1 (i : S1024x1280.Idx) (q : dot_S1024x1024_S1024x1280_S1024x1280_1_0_0_1_n_n.contr.Idx) :
    (dot_S1024x1024_S1024x1280_S1024x1280_1_0_0_1_n_n.lhsIdx i q 1).val = (q ⟨0, by decide⟩).val :=
  dot_S1024x1024_S1024x1280_S1024x1280_1_0_0_1_n_n.lhsIdx_val_of_single rfl i q
theorem rhs_D21_0 (i : S1024x1280.Idx) (q : dot_S1024x1024_S1024x1280_S1024x1280_1_0_0_1_n_n.contr.Idx) :
    (dot_S1024x1024_S1024x1280_S1024x1280_1_0_0_1_n_n.rhsIdx i q 0).val = (q ⟨0, by decide⟩).val :=
  dot_S1024x1024_S1024x1280_S1024x1280_1_0_0_1_n_n.rhsIdx_val_of_single rfl i q
theorem rhs_D21_1 (i : S1024x1280.Idx) (q : dot_S1024x1024_S1024x1280_S1024x1280_1_0_0_1_n_n.contr.Idx) :
    (dot_S1024x1024_S1024x1280_S1024x1280_1_0_0_1_n_n.rhsIdx i q 1).val = (i 1).val := by
  unfold DotDims.rhsIdx
  rw [dif_neg (show ¬(1 : Fin S1024x1280.rank) ∈ dot_S1024x1024_S1024x1280_S1024x1280_1_0_0_1_n_n.rhsBatch by decide), dif_pos (show (1 : Fin S1024x1280.rank) ∈ dot_S1024x1024_S1024x1280_S1024x1280_1_0_0_1_n_n.rhsNonContracting by decide)]
  rfl

/-- The block product at (p, q) is the sum over the 1024 contracted columns. -/
theorem matmul21_apply (x0 : Vec Ideal S1024x1024 .bf16) (x1 : Vec Ideal S1024x1280 .bf16) (p : Fin 1024) (q : Fin 1280) :
    matmul (F := Ideal) (φ₁ := .bf16) (φ₂ := .bf16) dot_S1024x1024_S1024x1280_S1024x1280_1_0_0_1_n_n none x0 x1 (constant S1024x1280 .f32 0x00000000#32) (ix2 p q)
      = ∑ l : Fin 1024, x0 (ix2 p l) * x1 (ix2 l q) := by
  refine (Ideal.matmul_constant_zero_apply (φ₁ := .bf16) (φ₂ := .bf16) dot_S1024x1024_S1024x1280_S1024x1280_1_0_0_1_n_n none x0 x1 (ix2 p q)).trans ?_
  rw [← Equiv.sum_comp (ValueIdx.contrEquiv1 dot_S1024x1024_S1024x1280_S1024x1280_1_0_0_1_n_n 1024 rfl rfl).symm]
  refine Finset.sum_congr rfl fun k _ => ?_
  have hk := ValueIdx.contrEquiv1_symm_val dot_S1024x1024_S1024x1280_S1024x1280_1_0_0_1_n_n 1024 rfl rfl k
  have el : dot_S1024x1024_S1024x1280_S1024x1280_1_0_0_1_n_n.lhsIdx (ix2 p q) ((ValueIdx.contrEquiv1 dot_S1024x1024_S1024x1280_S1024x1280_1_0_0_1_n_n 1024 rfl rfl).symm k) = ix2 p k := funext fun a => Fin.ext (by
    match a with
    | ⟨0, _⟩ => exact lhs_D21_0 _ _
    | ⟨1, _⟩ => exact (lhs_D21_1 _ _).trans hk)
  have er : dot_S1024x1024_S1024x1280_S1024x1280_1_0_0_1_n_n.rhsIdx (ix2 p q) ((ValueIdx.contrEquiv1 dot_S1024x1024_S1024x1280_S1024x1280_1_0_0_1_n_n 1024 rfl rfl).symm k) = ix2 k q := funext fun a => Fin.ext (by
    match a with
    | ⟨0, _⟩ => exact (rhs_D21_0 _ _).trans hk
    | ⟨1, _⟩ => exact rhs_D21_1 _ _)
  rw [el, er]

/-- The reset block is zero everywhere. -/
theorem pay1_21_apply (p : Fin 1024) (q : Fin 1280) : k21_pay1 (F := Ideal) (ix2 p q) = 0 := by
  unfold k21_pay1
  simp only [shapeCast_self]
  exact Ideal.ofBits_zero_f32

/-- The update adds the block product to what the accumulator held; the right factor's change of format is the
    identity on the extended reals. -/
theorem pay2_21_apply (x0 : Vec Ideal S1024x1024 .bf16) (x1 : Vec Ideal S1024x1280 .f32) (xs : Vec Ideal S1024x1280 .f32)
    (p : Fin 1024) (q : Fin 1280) :
    k21_pay2 (F := Ideal) x0 x1 xs (ix2 p q) = xs (ix2 p q) + ∑ l : Fin 1024, x0 (ix2 p l) * x1 (ix2 l q) := by
  unfold k21_pay2
  simp only [shapeCast_self]
  exact congrArg (xs (ix2 p q) + ·) (matmul21_apply x0 x1 p q)

/-- The stored output block is tanh of the accumulator plus the bias row. -/
theorem pay3_21_apply (v16 : Vec Ideal S1024x1280 .f32) (v17 : Vec Ideal S1x1280 .f32) (p : Fin 1024) (q : Fin 1280) :
    k21_pay3 (F := Ideal) v16 v17 (ix2 p q) = Ideal.tanh (v16 (ix2 p q) + v17 (ix2 (0 : Fin 1) q)) := by
  unfold k21_pay3
  simp only [shapeCast_self]
  refine congrArg (fun z => Ideal.tanh (v16 (ix2 p q) + z)) ?_
  exact broadcastTo_apply v17 broadcasts_S1x1280_S1024x1280 (ix2 p q) (ix2 (0 : Fin 1) q) (fun a => by
    match a with
    | ⟨0, _⟩ => rfl
    | ⟨1, _⟩ => rfl)

/-! ## A window's block at an index of its array -/

theorem N21_eq : cfg21.N = 4 := N_21

/-- The printed index maps, decided over the grid's points: the left factor's block is (t, 0), the right factor's
    and the bias row's (0, 0), the output's (t, 0). -/
theorem idx_facts21 : ∀ t : Fin cfg21.N,
    win21_0.index t (0 : Fin 2) = t.val ∧ win21_0.index t (1 : Fin 2) = 0
    ∧ win21_1.index t (0 : Fin 2) = 0 ∧ win21_1.index t (1 : Fin 2) = 0
    ∧ win21_2.index t (0 : Fin 2) = 0 ∧ win21_2.index t (1 : Fin 2) = 0
    ∧ win21_3.index t (0 : Fin 2) = t.val ∧ win21_3.index t (1 : Fin 2) = 0 :=
  (by decide +kernel : ∀ t : Fin grid21.N, _)

section Blocks

variable {F : FTy → Type}

/-- Entry (p, l) of the left factor's block at point t is the array at row t·1024 + p, column l. -/
theorem read_blk21_0 (X : Vec F S4096x1024 .bf16) (t : Fin cfg21.N) (p : Fin 1024) (l : Fin 1024) :
    (((cfg21.win 0).blk t).view.read (Elt F) X : Vec F S1024x1024 .bf16) (ix2 p l)
      = X (ix2 (⟨t.val * 1024 + p.val, by have := t.isLt; have := N21_eq; omega⟩ : Fin 4096) l) := by
  obtain ⟨e0, e1, -⟩ := idx_facts21 t
  rw [View.read_apply]
  show X _ = X _
  congr 1
  funext a
  apply Fin.ext
  match a with
  | ⟨0, _⟩ => show win21_0.index t (0 : Fin 2) * 1024 + 1 * p.val = t.val * 1024 + p.val; rw [e0]; omega
  | ⟨1, _⟩ => show win21_0.index t (1 : Fin 2) * 1024 + 1 * l.val = l.val; rw [e1]; omega

/-- The right factor's block at any point is the whole array. -/
theorem read_blk21_1 (X : Vec F S1024x1280 .f32) (t : Fin cfg21.N) (l : Fin 1024) (q : Fin 1280) :
    (((cfg21.win 1).blk t).view.read (Elt F) X : Vec F S1024x1280 .f32) (ix2 l q) = X (ix2 l q) := by
  obtain ⟨-, -, e0, e1, -⟩ := idx_facts21 t
  rw [View.read_apply]
  show X _ = X _
  congr 1
  funext a
  apply Fin.ext
  match a with
  | ⟨0, _⟩ => show win21_1.index t (0 : Fin 2) * 1024 + 1 * l.val = l.val; rw [e0]; omega
  | ⟨1, _⟩ => show win21_1.index t (1 : Fin 2) * 1280 + 1 * q.val = q.val; rw [e1]; omega

/-- The bias window's block at any point is the whole bias row. -/
theorem read_blk21_2 (X : Vec F S1x1280 .f32) (t : Fin cfg21.N) (q : Fin 1280) :
    (((cfg21.win 2).blk t).view.read (Elt F) X : Vec F S1x1280 .f32) (ix2 (0 : Fin 1) q) = X (ix2 (0 : Fin 1) q) := by
  obtain ⟨-, -, -, -, e0, e1, -⟩ := idx_facts21 t
  rw [View.read_apply]
  show X _ = X _
  congr 1
  funext a
  apply Fin.ext
  match a with
  | ⟨0, _⟩ => show win21_2.index t (0 : Fin 2) * 1 + 1 * (0 : Fin 1).val = (0 : Fin 1).val; rw [e0]; rfl
  | ⟨1, _⟩ => show win21_2.index t (1 : Fin 2) * 1280 + 1 * q.val = q.val; rw [e1]; omega

/-- Entry (p, q) of the output's block at point t is the output at row t·1024 + p, column q. -/
theorem read_blk21_3 (X : Vec F S4096x1280 .f32) (t : Fin cfg21.N) (p : Fin 1024) (q : Fin 1280) :
    (((cfg21.win 3).blk t).view.read (Elt F) X : Vec F S1024x1280 .f32) (ix2 p q)
      = X (ix2 (⟨t.val * 1024 + p.val, by have := t.isLt; have := N21_eq; omega⟩ : Fin 4096) q) := by
  obtain ⟨-, -, -, -, -, -, e0, e1⟩ := idx_facts21 t
  rw [View.read_apply]
  show X _ = X _
  congr 1
  funext a
  apply Fin.ext
  match a with
  | ⟨0, _⟩ => show win21_3.index t (0 : Fin 2) * 1024 + 1 * p.val = t.val * 1024 + p.val; rw [e0]; omega
  | ⟨1, _⟩ => show win21_3.index t (1 : Fin 2) * 1280 + 1 * q.val = q.val; rw [e1]; omega

end Blocks

/-! ## The result, index by index -/

/-- What the output array holds after the launch: tanh of row i of A·B plus the bias row, at column j. -/
def G21 (A : Vec Ideal S4096x1024 .bf16) (B : Vec Ideal S1024x1280 .f32) (bias : Vec Ideal S1x1280 .f32) : Vec Ideal S4096x1280 .f32 :=
  fun y => Ideal.tanh ((∑ k : Fin 1024, A (ix2 (y 0) k) * B (ix2 k (y 1))) + bias (ix2 (0 : Fin 1) (y 1)))

/-- In matrix form it is tanh(A·B + bias), the bias broadcast down the rows. -/
theorem toMat_G21 (A : Vec Ideal S4096x1024 .bf16) (B : Vec Ideal S1024x1280 .f32) (bias : Vec Ideal S1x1280 .f32) :
    GcnSpec.toMat (G21 A B bias)
      = GcnSpec.tanhB (GcnSpec.mm (GcnSpec.toMat A) (GcnSpec.toMat B)) (fun j => bias (ix2 (0 : Fin 1) j)) := rfl

end Cert.KernelIdeal.Hand

end
-- ==== Proof.KI.R21Value.lean ====
/-
  The value of launch 21: out = tanh(A·B + bias). The symbolic run left the list of pieces stored into the output
  block; it is read back as the body's three pure terms of the staged blocks: the accumulator reset, the product of
  the two staged blocks added, tanh of that sum plus the bias row stored. One point's block is thus a row block of
  the result; those blocks cover the output array, and so the array ends holding the result.
-/
import proofs.«113214_j66838281060556_2_alg».proof.Proof.KI.R21
import proofs.«113214_j66838281060556_2_alg».proof.Proof.KI.R21ValueA
import proofs.«113214_j66838281060556_2_alg».proof.Proof.GcnSpec
import proofs.«113214_j66838281060556_2_alg».proof.Proof.GcnAlgebra
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat)
open Idealize.ShloMosaic.ValueIdx (ix2 eq_ix2)

/-! ## What a point stores, as the body's pure terms -/

section Pieces
variable {F : FTy → Type} [FloatOps F]
variable (V : (c : Dev nD) → (b : Ref sig .tc) → Buf (Elt F) ((c : Thread nD τ).loc b))

theorem hz21 : (![0, 0] : Fin 2 → Nat) = fun _ => 0 := funext fun a => by fin_cases a <;> rfl

/-- The accumulator read whole gives back the contents it is held at. -/
theorem scM21_read_unread (h : (scM21 : Memref sig .tc .vmem S1024x1280 .f32).IsWhole) (xs : Vec F S1024x1280 .f32) :
    View.read (Elt F) (View.whole cc21_scratch0) (h.unread xs) = xs := h.read_unread xs

/-- The output block a point stores: the accumulator is reset, read back, updated by the product of the two staged
    blocks, read back, and the stored term of it and the bias block is what the output's buffer holds. -/
theorem outO21_eq (c : Dev nD) (t : Fin cfg21.N) :
    out21 V c t = k21_pay3 (k21_pay2 (iblk21 V c 0 t) (iblk21 V c 1 t) (k21_pay1 (F := F))) (iblk21 V c 2 t) := by
  unfold out21
  rw [View.read_writes_eq_canon _ _ _ (coverO21 V c t)]
  unfold run21
  dsimp only
  sl_unfold_words
  rw [View.canon_unit_zero hz21]
  simp only [View.readAt_eq_ld, Memref.IsWhole.read_unread, scM21_read_unread, View.ld_unit_zero (S := S1024x1024) hz21, View.ld_unit_zero (S := S1024x1280) hz21,
    View.ld_unit_zero (S := S1x1280) hz21, View.readCov_unit_zero (S := S1024x1280) _ hz21, View.readCov_cons_toLoadRect]

end Pieces

/-! ## The stored block, over the extended reals -/

section Value
variable (V : (c : Dev nD) → (b : Ref sig .tc) → Buf (Elt Ideal) ((c : Thread nD τ).loc b))

/-- The three arrays the launch reads, at their literal types: A, B and the bias row. -/
abbrev arrA21 (c : Dev nD) : Vec Ideal S4096x1024 .bf16 := V c main_v40
abbrev arrB21 (c : Dev nD) : Vec Ideal S1024x1280 .f32 := V c main_arg19
abbrev arrC21 (c : Dev nD) : Vec Ideal S1x1280 .f32 := V c main_v41
/-- The blocks the three input windows stage at a point, at their literal types. -/
abbrev blkA21 (c : Dev nD) (t : Fin cfg21.N) : Vec Ideal S1024x1024 .bf16 := iblk21 V c 0 t
abbrev blkB21 (c : Dev nD) (t : Fin cfg21.N) : Vec Ideal S1024x1280 .f32 := iblk21 V c 1 t
abbrev blkC21 (c : Dev nD) (t : Fin cfg21.N) : Vec Ideal S1x1280 .f32 := iblk21 V c 2 t

theorem blkA21_apply (c : Dev nD) (t : Fin cfg21.N) (p : Fin 1024) (l : Fin 1024) :
    blkA21 V c t (ix2 p l) = arrA21 V c (ix2 (⟨t.val * 1024 + p.val, by have := t.isLt; have := N21_eq; omega⟩ : Fin 4096) l) :=
  read_blk21_0 (F := Ideal) (arrA21 V c) t p l

theorem blkB21_apply (c : Dev nD) (t : Fin cfg21.N) (l : Fin 1024) (q : Fin 1280) :
    blkB21 V c t (ix2 l q) = arrB21 V c (ix2 l q) :=
  read_blk21_1 (F := Ideal) (arrB21 V c) t l q

theorem blkC21_apply (c : Dev nD) (t : Fin cfg21.N) (q : Fin 1280) :
    blkC21 V c t (ix2 (0 : Fin 1) q) = arrC21 V c (ix2 (0 : Fin 1) q) :=
  read_blk21_2 (F := Ideal) (arrC21 V c) t q

/-- The block a point stores is, at (p, q), tanh of row t·1024 + p of A·B at column q plus the bias there. -/
theorem out21_pt (c : Dev nD) (t : Fin cfg21.N) (p : Fin 1024) (q : Fin 1280) :
    out21 V c t (ix2 p q)
      = Ideal.tanh ((∑ l : Fin 1024, arrA21 V c (ix2 (⟨t.val * 1024 + p.val, by have := t.isLt; have := N21_eq; omega⟩ : Fin 4096) l) * arrB21 V c (ix2 l q))
          + arrC21 V c (ix2 (0 : Fin 1) q)) := by
  refine (congrFun (outO21_eq (F := Ideal) V c t) (ix2 p q)).trans ?_
  refine (pay3_21_apply (k21_pay2 (blkA21 V c t) (blkB21 V c t) (k21_pay1 (F := Ideal))) (blkC21 V c t) p q).trans ?_
  rw [pay2_21_apply (blkA21 V c t) (blkB21 V c t) (k21_pay1 (F := Ideal)) p q, pay1_21_apply p q, zero_add, blkC21_apply V c t q]
  refine congrArg (fun z => Ideal.tanh (z + arrC21 V c (ix2 (0 : Fin 1) q))) ?_
  exact Finset.sum_congr rfl fun l _ => by rw [blkA21_apply, blkB21_apply]

end Value

/-! ## From the flushed blocks to the output array -/

section Final
variable (V : (c : Dev nD) → (b : Ref sig .tc) → Buf (Elt Ideal) ((c : Thread nD τ).loc b))

/-- What the launch leaves in the output array: tanh(A·B + bias), index by index. -/
abbrev res21 (c : Dev nD) : Vec Ideal S4096x1280 .f32 := G21 (arrA21 V c) (arrB21 V c) (arrC21 V c)

/-- The block a point writes back is that point's row block of the result. -/
theorem flushed21_eq (c : Dev nD) (t : Fin cfg21.N) (hf : (cfg21.win 3).flush t = true) :
    (dat21 V c).flushed 3 t = ((cfg21.win 3).blk t).view.read (Elt Ideal) (res21 V c) := by
  have hN := N21_eq
  have ht := t.isLt
  show (cfg21.win 3).cut (grid21.coords t) ((dat21 V c).after 3 t) = _
  rw [after21_3]
  refine funext fun (y : S1024x1280.Idx) => ?_
  obtain ⟨p, q, rfl⟩ : ∃ (p : Fin 1024) (q : Fin 1280), y = ix2 p q := ⟨y 0, y 1, eq_ix2 y⟩
  show out21 V c t (ix2 p q) = (((cfg21.win 3).blk t).view.read (Elt Ideal) (res21 V c) : Vec Ideal S1024x1280 .f32) (ix2 p q)
  rw [out21_pt V c t p q, read_blk21_3 (F := Ideal) (res21 V c) t p q]
  rfl

/-- An index of the output array lies in point t's block iff each coordinate is in the block's range. -/
theorem mem_blk21_3 (t : Fin cfg21.N) (i : S4096x1280.Idx) :
    i ∈ ((cfg21.win 3).blk t).view.set ↔ ∀ a : Fin 2, win21_3.index t a * S1024x1280.size a ≤ (i a).val ∧ (i a).val < win21_3.index t a * S1024x1280.size a + S1024x1280.size a := by
  show i ∈ ((View.whole main_v42).slice (win21_3.rect t)).set ↔ _
  rw [View.set_slice_whole, Rect.mem_set_unit]
  exact Iff.rfl

/-- Row r of the output lies in the block written back at point r / 1024. -/
theorem cover21 (i : S4096x1280.Idx) : ∃ t : Fin cfg21.N, (cfg21.win 3).flush t = true ∧ i ∈ ((cfg21.win 3).blk t).view.set := by
  have hi0 : (i 0).val < 4096 := (i 0).isLt
  have hi1 : (i 1).val < 1280 := (i 1).isLt
  have hN := N21_eq
  refine ⟨⟨(i 0).val / 1024, by omega⟩, flush21_3 _, ?_⟩
  rw [mem_blk21_3]
  obtain ⟨-, -, -, -, -, -, e0, e1⟩ := idx_facts21 ⟨(i 0).val / 1024, by omega⟩
  intro a
  match a with
  | ⟨0, _⟩ =>
    show win21_3.index _ (0 : Fin 2) * 1024 ≤ (i 0).val ∧ (i 0).val < win21_3.index _ (0 : Fin 2) * 1024 + 1024
    rw [e0]; dsimp only; omega
  | ⟨1, _⟩ =>
    show win21_3.index _ (1 : Fin 2) * 1280 ≤ (i 1).val ∧ (i 1).val < win21_3.index _ (1 : Fin 2) * 1280 + 1280
    rw [e1]; omega

/-- So the output array ends holding tanh(A·B + bias). -/
theorem out21arr_eq (c : Dev nD) : out21arr V c = res21 V c :=
  (dat21 V c).arrAt_eq_of_cover 3 (res21 V c) (flushed21_eq V c) cover21

/-- THE VALUE OF LAUNCH 21, in matrix form: the output is tanh of the product of the two input matrices plus the
    bias row broadcast down the rows. -/
theorem out21_value (c : Dev nD) :
    GcnSpec.toMat (out21arr V c : S4096x1280.Idx → EReal)
      = GcnSpec.tanhB (GcnSpec.mm (GcnSpec.toMat (V c main_v40 : S4096x1024.Idx → EReal)) (GcnSpec.toMat (V c main_arg19 : S1024x1280.Idx → EReal)))
          (fun j => (V c main_v41 : S1x1280.Idx → EReal) (ix2 (0 : Fin 1) j)) := by
  rw [out21arr_eq V c]
  exact toMat_G21 (arrA21 V c) (arrB21 V c) (arrC21 V c)

end Final

end Cert.KernelIdeal.Hand

end
-- ==== Proof.GcnBridge.lean ====
/-
  The kernel's association of the two graph-convolution encoders, as definitions beside the reference's, and
  their equality: with real graph, features and weights the products g·(x·W₁) and (g·x)·W₁ agree, and since a
  tanh is always real the second layer's g·(h·W₂) and (g·h)·W₂ agree too. The squared distance of the
  row-weighted mean to the centres, expanded and clamped, is the reference's sum of squares.
-/
import proofs.«113214_j66838281060556_2_alg».proof.Proof.GcnSpec
import proofs.«113214_j66838281060556_2_alg».proof.Proof.GcnAlgebra

noncomputable section

namespace GcnSpec

open Idealize.ShloMosaic

/-- The encoder with its first layer re-associated: tanh((g·h₁)·W₂ + b₂) with h₁ = tanh(g·(x·W₁) + b₁). -/
def kerEnc0 {n d h s : ℕ} (g : Mat n n) (x : Mat n d) (W1 : Mat d h) (b1 : Fin h → EReal) (W2 : Mat h s)
    (b2 : Fin s → EReal) : Mat n s :=
  tanhB (mm (mm g (tanhB (mm g (mm x W1)) b1)) W2) b2

/-- The encoder with both layers re-associated: tanh(g·(h₁·W₂) + b₂) with h₁ = tanh(g·(x·W₁) + b₁). -/
def kerEnc1 {n d h s : ℕ} (g : Mat n n) (x : Mat n d) (W1 : Mat d h) (b1 : Fin h → EReal) (W2 : Mat h s)
    (b2 : Fin s → EReal) : Mat n s :=
  tanhB (mm g (mm (tanhB (mm g (mm x W1)) b1) W2)) b2

/-- Re-associating the first layer changes nothing when g, x and W₁ are real. -/
theorem kerEnc0_eq {n d h s : ℕ} {g : Mat n n} {x : Mat n d} {W1 : Mat d h} (b1 : Fin h → EReal) (W2 : Mat h s)
    (b2 : Fin s → EReal) (hg : IsReal g) (hx : IsReal x) (hW1 : IsReal W1) :
    kerEnc0 g x W1 b1 W2 b2 = gconv g x W1 b1 W2 b2 := by
  rw [kerEnc0, gconv, gconv_assoc1 b1 hg hx hW1]

/-- Re-associating both layers changes nothing when g, x, W₁ and W₂ are real: the hidden layer is a tanh, so it
    is real whatever its argument. -/
theorem kerEnc1_eq {n d h s : ℕ} {g : Mat n n} {x : Mat n d} {W1 : Mat d h} (b1 : Fin h → EReal) {W2 : Mat h s}
    (b2 : Fin s → EReal) (hg : IsReal g) (hx : IsReal x) (hW1 : IsReal W1) (hW2 : IsReal W2) :
    kerEnc1 g x W1 b1 W2 b2 = gconv g x W1 b1 W2 b2 := by
  rw [kerEnc1, gconv, gconv_assoc1 b1 hg hx hW1, ← mm_assoc hg (isReal_tanhB _ b1) hW2]

/-- An encoder's output is a tanh, so every entry is a real number. -/
theorem isReal_gconv {n d h s : ℕ} (g : Mat n n) (x : Mat n d) (W1 : Mat d h) (b1 : Fin h → EReal) (W2 : Mat h s)
    (b2 : Fin s → EReal) : IsReal (gconv g x W1 b1 W2 b2) :=
  isReal_tanhB _ b2

/-- The expanded, clamped squared distance of the row-weighted mean to real centres is the sum of squares. -/
theorem d2Ker_zOf_eq {n k s : ℕ} {we : Mat n 2} {h0 h1 : Mat n s} {c : Mat k s} (hwe : IsReal we) (h0r : IsReal h0)
    (h1r : IsReal h1) (hne : ∀ i, we i 0 + we i 1 ≠ 0) (hc : IsReal c) :
    d2Ker (zOf we h0 h1) c = d2Ref (zOf we h0 h1) c :=
  d2Ker_eq_d2Ref (isReal_zOf hwe h0r h1r hne) hc

end GcnSpec

end
-- ==== Proof.KI.KValue.lean ====
/-
  What the kernel program leaves in its result buffers, as the specification's functions of the argument arrays.

  The program is a chain of items: stretches of host operations and kernel launches. Between two items every buffer
  has a definite content; an item changes only what it writes. So each buffer is followed from the item that writes
  it to the items that read it: a launch's result is its value as a function of the buffers it reads (a matrix
  product, possibly with a bias row and a tanh, or a logistic of a product with a transpose), the buffers it reads are
  earlier results or arguments carried unchanged through the items in between, and the host stretches contribute the
  converted graphs, the bias rows, the row-weighted mean of the two encodings, and at the end the soft assignment
  and its target. One equation per buffer, at the valuation right after it is written; the eight results are those
  equations carried to the last valuation.
-/
import proofs.«113214_j66838281060556_2_alg».proof.Proof.KI.Chain
import proofs.«113214_j66838281060556_2_alg».proof.Proof.KI.HostValue
import proofs.«113214_j66838281060556_2_alg».proof.Proof.KI.R00Value
import proofs.«113214_j66838281060556_2_alg».proof.Proof.KI.R01Value
import proofs.«113214_j66838281060556_2_alg».proof.Proof.KI.R02Value
import proofs.«113214_j66838281060556_2_alg».proof.Proof.KI.R03Value
import proofs.«113214_j66838281060556_2_alg».proof.Proof.KI.R04Value
import proofs.«113214_j66838281060556_2_alg».proof.Proof.KI.R05Value
import proofs.«113214_j66838281060556_2_alg».proof.Proof.KI.R06Value
import proofs.«113214_j66838281060556_2_alg».proof.Proof.KI.R07Value
import proofs.«113214_j66838281060556_2_alg».proof.Proof.KI.R08Value
import proofs.«113214_j66838281060556_2_alg».proof.Proof.KI.R09Value
import proofs.«113214_j66838281060556_2_alg».proof.Proof.KI.R10Value
import proofs.«113214_j66838281060556_2_alg».proof.Proof.KI.R11Value
import proofs.«113214_j66838281060556_2_alg».proof.Proof.KI.R12Value
import proofs.«113214_j66838281060556_2_alg».proof.Proof.KI.R13Value
import proofs.«113214_j66838281060556_2_alg».proof.Proof.KI.R14Value
import proofs.«113214_j66838281060556_2_alg».proof.Proof.KI.R15Value
import proofs.«113214_j66838281060556_2_alg».proof.Proof.KI.R16Value
import proofs.«113214_j66838281060556_2_alg».proof.Proof.KI.R17Value
import proofs.«113214_j66838281060556_2_alg».proof.Proof.KI.R18Value
import proofs.«113214_j66838281060556_2_alg».proof.Proof.KI.R19Value
import proofs.«113214_j66838281060556_2_alg».proof.Proof.KI.R20Value
import proofs.«113214_j66838281060556_2_alg».proof.Proof.KI.R21Value
import proofs.«113214_j66838281060556_2_alg».proof.Proof.GcnSpec
import proofs.«113214_j66838281060556_2_alg».proof.Proof.GcnBridge
import Idealize.ShloMosaic.Lib.StableHlo.Run
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open GcnSpec

variable (m : (ℓ : Loc nD τ sig) → Buf (Elt Ideal) ℓ) (c : Dev nD)

/-- Core `c`'s buffers as launched. -/
abbrev U0 : Valuation τ sig (Elt Ideal) := fun b => m (c, b)

/-! ## What each item leaves alone

A stretch of host operations leaves every buffer outside the list it writes; a launch leaves every buffer but its
result. One equation per item, between the valuation after it and the one before. -/

theorem U1_keep (r : Ref sig .tc) (h : r ∉ GenP.hostOps0_W) : U1 m c r = U0 m c r :=
  StableHlo.after_of_writes_sub hostOps0 _ GenP.hostOps0_writes h
theorem U2_keep (r : Ref sig .tc) (h : r ≠ main_v2) : U2 m c r = U1 m c r := by
  unfold U2
  exact Function.update_of_ne (StableHlo.devRef_ne_of_ne h : (Proc.devRef .tc r : DevRef τ sig) ≠ Proc.devRef .tc main_v2) _ _
theorem U3_keep (r : Ref sig .tc) (h : r ∉ GenP.hostOps1_W) : U3 m c r = U2 m c r :=
  StableHlo.after_of_writes_sub hostOps1 _ GenP.hostOps1_writes h
theorem U4_keep (r : Ref sig .tc) (h : r ≠ main_v4) : U4 m c r = U3 m c r := by
  unfold U4
  exact Function.update_of_ne (StableHlo.devRef_ne_of_ne h : (Proc.devRef .tc r : DevRef τ sig) ≠ Proc.devRef .tc main_v4) _ _
theorem U5_keep (r : Ref sig .tc) (h : r ≠ main_v5) : U5 m c r = U4 m c r := by
  unfold U5
  exact Function.update_of_ne (StableHlo.devRef_ne_of_ne h : (Proc.devRef .tc r : DevRef τ sig) ≠ Proc.devRef .tc main_v5) _ _
theorem U6_keep (r : Ref sig .tc) (h : r ∉ GenP.hostOps3_W) : U6 m c r = U5 m c r :=
  StableHlo.after_of_writes_sub hostOps3 _ GenP.hostOps3_writes h
theorem U7_keep (r : Ref sig .tc) (h : r ≠ main_v7) : U7 m c r = U6 m c r := by
  unfold U7
  exact Function.update_of_ne (StableHlo.devRef_ne_of_ne h : (Proc.devRef .tc r : DevRef τ sig) ≠ Proc.devRef .tc main_v7) _ _
theorem U8_keep (r : Ref sig .tc) (h : r ≠ main_v8) : U8 m c r = U7 m c r := by
  unfold U8
  exact Function.update_of_ne (StableHlo.devRef_ne_of_ne h : (Proc.devRef .tc r : DevRef τ sig) ≠ Proc.devRef .tc main_v8) _ _
theorem U9_keep (r : Ref sig .tc) (h : r ∉ GenP.hostOps5_W) : U9 m c r = U8 m c r :=
  StableHlo.after_of_writes_sub hostOps5 _ GenP.hostOps5_writes h
theorem U10_keep (r : Ref sig .tc) (h : r ≠ main_v10) : U10 m c r = U9 m c r := by
  unfold U10
  exact Function.update_of_ne (StableHlo.devRef_ne_of_ne h : (Proc.devRef .tc r : DevRef τ sig) ≠ Proc.devRef .tc main_v10) _ _
theorem U11_keep (r : Ref sig .tc) (h : r ≠ main_v11) : U11 m c r = U10 m c r := by
  unfold U11
  exact Function.update_of_ne (StableHlo.devRef_ne_of_ne h : (Proc.devRef .tc r : DevRef τ sig) ≠ Proc.devRef .tc main_v11) _ _
theorem U12_keep (r : Ref sig .tc) (h : r ∉ GenP.hostOps7_W) : U12 m c r = U11 m c r :=
  StableHlo.after_of_writes_sub hostOps7 _ GenP.hostOps7_writes h
theorem U13_keep (r : Ref sig .tc) (h : r ≠ main_v13) : U13 m c r = U12 m c r := by
  unfold U13
  exact Function.update_of_ne (StableHlo.devRef_ne_of_ne h : (Proc.devRef .tc r : DevRef τ sig) ≠ Proc.devRef .tc main_v13) _ _
theorem U14_keep (r : Ref sig .tc) (h : r ∉ GenP.hostOps8_W) : U14 m c r = U13 m c r :=
  StableHlo.after_of_writes_sub hostOps8 _ GenP.hostOps8_writes h
theorem U15_keep (r : Ref sig .tc) (h : r ≠ main_v25) : U15 m c r = U14 m c r := by
  unfold U15
  exact Function.update_of_ne (StableHlo.devRef_ne_of_ne h : (Proc.devRef .tc r : DevRef τ sig) ≠ Proc.devRef .tc main_v25) _ _
theorem U16_keep (r : Ref sig .tc) (h : r ≠ main_v26) : U16 m c r = U15 m c r := by
  unfold U16
  exact Function.update_of_ne (StableHlo.devRef_ne_of_ne h : (Proc.devRef .tc r : DevRef τ sig) ≠ Proc.devRef .tc main_v26) _ _
theorem U17_keep (r : Ref sig .tc) (h : r ≠ main_v27) : U17 m c r = U16 m c r := by
  unfold U17
  exact Function.update_of_ne (StableHlo.devRef_ne_of_ne h : (Proc.devRef .tc r : DevRef τ sig) ≠ Proc.devRef .tc main_v27) _ _
theorem U18_keep (r : Ref sig .tc) (h : r ≠ main_v28) : U18 m c r = U17 m c r := by
  unfold U18
  exact Function.update_of_ne (StableHlo.devRef_ne_of_ne h : (Proc.devRef .tc r : DevRef τ sig) ≠ Proc.devRef .tc main_v28) _ _
theorem U19_keep (r : Ref sig .tc) (h : r ≠ main_v29) : U19 m c r = U18 m c r := by
  unfold U19
  exact Function.update_of_ne (StableHlo.devRef_ne_of_ne h : (Proc.devRef .tc r : DevRef τ sig) ≠ Proc.devRef .tc main_v29) _ _
theorem U20_keep (r : Ref sig .tc) (h : r ≠ main_v30) : U20 m c r = U19 m c r := by
  unfold U20
  exact Function.update_of_ne (StableHlo.devRef_ne_of_ne h : (Proc.devRef .tc r : DevRef τ sig) ≠ Proc.devRef .tc main_v30) _ _
theorem U21_keep (r : Ref sig .tc) (h : r ∉ GenP.hostOps14_W) : U21 m c r = U20 m c r :=
  StableHlo.after_of_writes_sub hostOps14 _ GenP.hostOps14_writes h
theorem U22_keep (r : Ref sig .tc) (h : r ≠ main_v32) : U22 m c r = U21 m c r := by
  unfold U22
  exact Function.update_of_ne (StableHlo.devRef_ne_of_ne h : (Proc.devRef .tc r : DevRef τ sig) ≠ Proc.devRef .tc main_v32) _ _
theorem U23_keep (r : Ref sig .tc) (h : r ≠ main_v33) : U23 m c r = U22 m c r := by
  unfold U23
  exact Function.update_of_ne (StableHlo.devRef_ne_of_ne h : (Proc.devRef .tc r : DevRef τ sig) ≠ Proc.devRef .tc main_v33) _ _
theorem U24_keep (r : Ref sig .tc) (h : r ∉ GenP.hostOps16_W) : U24 m c r = U23 m c r :=
  StableHlo.after_of_writes_sub hostOps16 _ GenP.hostOps16_writes h
theorem U25_keep (r : Ref sig .tc) (h : r ≠ main_v35) : U25 m c r = U24 m c r := by
  unfold U25
  exact Function.update_of_ne (StableHlo.devRef_ne_of_ne h : (Proc.devRef .tc r : DevRef τ sig) ≠ Proc.devRef .tc main_v35) _ _
theorem U26_keep (r : Ref sig .tc) (h : r ≠ main_v36) : U26 m c r = U25 m c r := by
  unfold U26
  exact Function.update_of_ne (StableHlo.devRef_ne_of_ne h : (Proc.devRef .tc r : DevRef τ sig) ≠ Proc.devRef .tc main_v36) _ _
theorem U27_keep (r : Ref sig .tc) (h : r ≠ main_v37) : U27 m c r = U26 m c r := by
  unfold U27
  exact Function.update_of_ne (StableHlo.devRef_ne_of_ne h : (Proc.devRef .tc r : DevRef τ sig) ≠ Proc.devRef .tc main_v37) _ _
theorem U28_keep (r : Ref sig .tc) (h : r ∉ GenP.hostOps19_W) : U28 m c r = U27 m c r :=
  StableHlo.after_of_writes_sub hostOps19 _ GenP.hostOps19_writes h
theorem U29_keep (r : Ref sig .tc) (h : r ≠ main_v39) : U29 m c r = U28 m c r := by
  unfold U29
  exact Function.update_of_ne (StableHlo.devRef_ne_of_ne h : (Proc.devRef .tc r : DevRef τ sig) ≠ Proc.devRef .tc main_v39) _ _
theorem U30_keep (r : Ref sig .tc) (h : r ≠ main_v40) : U30 m c r = U29 m c r := by
  unfold U30
  exact Function.update_of_ne (StableHlo.devRef_ne_of_ne h : (Proc.devRef .tc r : DevRef τ sig) ≠ Proc.devRef .tc main_v40) _ _
theorem U31_keep (r : Ref sig .tc) (h : r ∉ GenP.hostOps21_W) : U31 m c r = U30 m c r :=
  StableHlo.after_of_writes_sub hostOps21 _ GenP.hostOps21_writes h
theorem U32_keep (r : Ref sig .tc) (h : r ≠ main_v42) : U32 m c r = U31 m c r := by
  unfold U32
  exact Function.update_of_ne (StableHlo.devRef_ne_of_ne h : (Proc.devRef .tc r : DevRef τ sig) ≠ Proc.devRef .tc main_v42) _ _
theorem U33_keep (r : Ref sig .tc) (h : r ∉ GenP.hostOps22_W) : U33 m c r = U32 m c r :=
  StableHlo.after_of_writes_sub hostOps22 _ GenP.hostOps22_writes h

/-- Carries every reading of the buffer `r` back through the items that leave it alone, newest first, to the
    item that wrote it (or to the launch contents, for an argument): at each item the side condition — `r` is not
    what the item writes — is decided; where it fails the walk stops. -/
local macro "carry " r:term : tactic =>
  `(tactic| (
    try simp only [rd]
    try rw [U33_keep _ _ $r (by decide)]
    try rw [U32_keep _ _ $r (by decide)]
    try rw [U31_keep _ _ $r (by decide)]
    try rw [U30_keep _ _ $r (by decide)]
    try rw [U29_keep _ _ $r (by decide)]
    try rw [U28_keep _ _ $r (by decide)]
    try rw [U27_keep _ _ $r (by decide)]
    try rw [U26_keep _ _ $r (by decide)]
    try rw [U25_keep _ _ $r (by decide)]
    try rw [U24_keep _ _ $r (by decide)]
    try rw [U23_keep _ _ $r (by decide)]
    try rw [U22_keep _ _ $r (by decide)]
    try rw [U21_keep _ _ $r (by decide)]
    try rw [U20_keep _ _ $r (by decide)]
    try rw [U19_keep _ _ $r (by decide)]
    try rw [U18_keep _ _ $r (by decide)]
    try rw [U17_keep _ _ $r (by decide)]
    try rw [U16_keep _ _ $r (by decide)]
    try rw [U15_keep _ _ $r (by decide)]
    try rw [U14_keep _ _ $r (by decide)]
    try rw [U13_keep _ _ $r (by decide)]
    try rw [U12_keep _ _ $r (by decide)]
    try rw [U11_keep _ _ $r (by decide)]
    try rw [U10_keep _ _ $r (by decide)]
    try rw [U9_keep _ _ $r (by decide)]
    try rw [U8_keep _ _ $r (by decide)]
    try rw [U7_keep _ _ $r (by decide)]
    try rw [U6_keep _ _ $r (by decide)]
    try rw [U5_keep _ _ $r (by decide)]
    try rw [U4_keep _ _ $r (by decide)]
    try rw [U3_keep _ _ $r (by decide)]
    try rw [U2_keep _ _ $r (by decide)]
    try rw [U1_keep _ _ $r (by decide)]))

/-! ## What each launch writes -/

theorem U2_at : U2 m c main_v2 = out0arr (rd (U1 m)) c := by unfold U2; rw [Function.update_self]
theorem U4_at : U4 m c main_v4 = out1 (rd (U3 m)) c := by unfold U4; rw [Function.update_self]
theorem U5_at : U5 m c main_v5 = out2 (rd (U4 m)) c := by unfold U5; rw [Function.update_self]
theorem U7_at : U7 m c main_v7 = out3arr (rd (U6 m)) c := by unfold U7; rw [Function.update_self]
theorem U8_at : U8 m c main_v8 = out4arr (rd (U7 m)) c := by unfold U8; rw [Function.update_self]
theorem U10_at : U10 m c main_v10 = out5 (rd (U9 m)) c := by unfold U10; rw [Function.update_self]
theorem U11_at : U11 m c main_v11 = out6arr (rd (U10 m)) c := by unfold U11; rw [Function.update_self]
theorem U13_at : U13 m c main_v13 = out7 (rd (U12 m)) c := by unfold U13; rw [Function.update_self]
theorem U15_at : U15 m c main_v25 = out8arr (rd (U14 m)) c := by unfold U15; rw [Function.update_self]
theorem U16_at : U16 m c main_v26 = out9arr (rd (U15 m)) c := by unfold U16; rw [Function.update_self]
theorem U17_at : U17 m c main_v27 = out10arr (rd (U16 m)) c := by unfold U17; rw [Function.update_self]
theorem U18_at : U18 m c main_v28 = out11arr (rd (U17 m)) c := by unfold U18; rw [Function.update_self]
theorem U19_at : U19 m c main_v29 = out12arr (rd (U18 m)) c := by unfold U19; rw [Function.update_self]
theorem U20_at : U20 m c main_v30 = out13 (rd (U19 m)) c := by unfold U20; rw [Function.update_self]
theorem U22_at : U22 m c main_v32 = out14arr (rd (U21 m)) c := by unfold U22; rw [Function.update_self]
theorem U23_at : U23 m c main_v33 = out15 (rd (U22 m)) c := by unfold U23; rw [Function.update_self]
theorem U25_at : U25 m c main_v35 = out16arr (rd (U24 m)) c := by unfold U25; rw [Function.update_self]
theorem U26_at : U26 m c main_v36 = out17arr (rd (U25 m)) c := by unfold U26; rw [Function.update_self]
theorem U27_at : U27 m c main_v37 = out18 (rd (U26 m)) c := by unfold U27; rw [Function.update_self]
theorem U29_at : U29 m c main_v39 = out19arr (rd (U28 m)) c := by unfold U29; rw [Function.update_self]
theorem U30_at : U30 m c main_v40 = out20 (rd (U29 m)) c := by unfold U30; rw [Function.update_self]
theorem U32_at : U32 m c main_v42 = out21arr (rd (U31 m)) c := by unfold U32; rw [Function.update_self]

/-! ## The arguments -/

set_option quotPrecheck false

local notation "a0" => (m ((c.tc : Thread nD τ).loc main_arg0) : S4096x1024.Idx → EReal)
local notation "a1" => (m ((c.tc : Thread nD τ).loc main_arg1) : S4096x1280.Idx → EReal)
local notation "a2" => (m ((c.tc : Thread nD τ).loc main_arg2) : S4096x2.Idx → EReal)
local notation "a3" => (m ((c.tc : Thread nD τ).loc main_arg3) : S4096x4096.Idx → EReal)
local notation "a4" => (m ((c.tc : Thread nD τ).loc main_arg4) : S4096x4096.Idx → EReal)
local notation "a5" => (m ((c.tc : Thread nD τ).loc main_arg5) : S1024x819.Idx → EReal)
local notation "a6" => (m ((c.tc : Thread nD τ).loc main_arg6) : S819.Idx → EReal)
local notation "a7" => (m ((c.tc : Thread nD τ).loc main_arg7) : S819x819.Idx → EReal)
local notation "a8" => (m ((c.tc : Thread nD τ).loc main_arg8) : S819.Idx → EReal)
local notation "a9" => (m ((c.tc : Thread nD τ).loc main_arg9) : S1280x1024.Idx → EReal)
local notation "a10" => (m ((c.tc : Thread nD τ).loc main_arg10) : S1024.Idx → EReal)
local notation "a11" => (m ((c.tc : Thread nD τ).loc main_arg11) : S1024x819.Idx → EReal)
local notation "a12" => (m ((c.tc : Thread nD τ).loc main_arg12) : S819.Idx → EReal)
local notation "a13" => (m ((c.tc : Thread nD τ).loc main_arg13) : S819x819.Idx → EReal)
local notation "a14" => (m ((c.tc : Thread nD τ).loc main_arg14) : S819.Idx → EReal)
local notation "a15" => (m ((c.tc : Thread nD τ).loc main_arg15) : S819x1024.Idx → EReal)
local notation "a16" => (m ((c.tc : Thread nD τ).loc main_arg16) : S1024.Idx → EReal)
local notation "a17" => (m ((c.tc : Thread nD τ).loc main_arg17) : S819x1024.Idx → EReal)
local notation "a18" => (m ((c.tc : Thread nD τ).loc main_arg18) : S1024.Idx → EReal)
local notation "a19" => (m ((c.tc : Thread nD τ).loc main_arg19) : S1024x1280.Idx → EReal)
local notation "a20" => (m ((c.tc : Thread nD τ).loc main_arg20) : S1280.Idx → EReal)
local notation "a21" => (m ((c.tc : Thread nD τ).loc main_arg21) : S819x819.Idx → EReal)
local notation "a22" => (m ((c.tc : Thread nD τ).loc main_arg22) : S819x819.Idx → EReal)
local notation "a23" => (m ((c.tc : Thread nD τ).loc main_arg23) : S819x819.Idx → EReal)
local notation "a24" => (m ((c.tc : Thread nD τ).loc main_arg24) : S819x819.Idx → EReal)
local notation "a25" => (m ((c.tc : Thread nD τ).loc main_arg25) : S5x819.Idx → EReal)

/-! ## Names for the matrices along the way -/

/-- The first encoder's hidden layer, in the kernel's association: tanh(g₀·(x₀·W₁) + b₁). -/
abbrev hK0 : Mat 4096 819 := tanhB (mm (toMat a3) (mm (toMat a0) (toMat a5))) (toVec a6)
/-- The second encoder's hidden layer: tanh(g₁·(x₁·W₁) + b₁). -/
abbrev hK1 : Mat 4096 1024 := tanhB (mm (toMat a4) (mm (toMat a1) (toMat a9))) (toVec a10)
/-- The embedding as the kernel program computes it. -/
abbrev zK : Mat 4096 819 :=
  zOf (toMat a2) (kerEnc0 (toMat a3) (toMat a0) (toMat a5) (toVec a6) (toMat a7) (toVec a8))
    (kerEnc1 (toMat a4) (toMat a1) (toMat a9) (toVec a10) (toMat a11) (toVec a12))
/-- The first decoder's input and hidden layer. -/
abbrev dK0 : Mat 4096 819 := tanhM (mm (zK m c) (toMat a23))
abbrev eK0 : Mat 4096 819 := tanhB (mm (mm (toMat a3) (dK0 m c)) (toMat a13)) (toVec a14)
/-- The second decoder's input and hidden layer. -/
abbrev dK1 : Mat 4096 819 := tanhM (mm (zK m c) (toMat a24))
abbrev eK1 : Mat 4096 1024 := tanhB (mm (mm (toMat a4) (dK1 m c)) (toMat a17)) (toVec a18)

/-! ## The two converted graphs -/

theorem g0_val : (U1 m c main_v0 : S4096x4096.Idx → EReal) = a3 := HostValue.cast_g0 (U0 m c)
theorem g1_val : (U1 m c main_v1 : S4096x4096.Idx → EReal) = a4 := HostValue.cast_g1 (U0 m c)

/-! ## The first encoder -/

/-- x₀·W₁. -/
theorem v2_val : toMat (U2 m c main_v2 : S4096x819.Idx → EReal) = mm (toMat a0) (toMat a5) := by
  rw [U2_at, out0_value]
  carry main_arg0
  carry main_arg5

theorem row3 : (fun j => (U3 m c main_v3 : S1x819.Idx → EReal) (ix2 (0 : Fin 1) j)) = toVec a6 := by
  funext j
  show _ = a6 (ix1 j)
  refine (HostValue.bias_v3 (U2 m c) j).trans ?_
  carry main_arg6

/-- The hidden layer. -/
theorem v4_val : toMat (U4 m c main_v4 : S4096x819.Idx → EReal) = hK0 m c := by
  rw [U4_at, out1_value]
  carry main_v0
  carry main_v2
  rw [g0_val, v2_val]
  rw [row3]

/-- g₀ times the hidden layer. -/
theorem v5_val : toMat (U5 m c main_v5 : S4096x819.Idx → EReal) = mm (toMat a3) (hK0 m c) := by
  rw [U5_at, out2_value]
  carry main_v0
  rw [g0_val, v4_val]

theorem row6 : (fun j => (U6 m c main_v6 : S1x819.Idx → EReal) (ix2 (0 : Fin 1) j)) = toVec a8 := by
  funext j
  show _ = a8 (ix1 j)
  refine (HostValue.bias_v6 (U5 m c) j).trans ?_
  carry main_arg8

/-- The first encoding. -/
theorem v7_val : toMat (U7 m c main_v7 : S4096x819.Idx → EReal)
    = kerEnc0 (toMat a3) (toMat a0) (toMat a5) (toVec a6) (toMat a7) (toVec a8) := by
  rw [U7_at, out3_value]
  carry main_v5
  carry main_arg7
  rw [v5_val]
  rw [row6]
  rfl

/-! ## The second encoder -/

/-- x₁·W₁. -/
theorem v8_val : toMat (U8 m c main_v8 : S4096x1024.Idx → EReal) = mm (toMat a1) (toMat a9) := by
  rw [U8_at, out4_value]
  carry main_arg1
  carry main_arg9

theorem row9 : (fun j => (U9 m c main_v9 : S1x1024.Idx → EReal) (ix2 (0 : Fin 1) j)) = toVec a10 := by
  funext j
  show _ = a10 (ix1 j)
  refine (HostValue.bias_v9 (U8 m c) j).trans ?_
  carry main_arg10

/-- The hidden layer. -/
theorem v10_val : toMat (U10 m c main_v10 : S4096x1024.Idx → EReal) = hK1 m c := by
  rw [U10_at, out5_value]
  carry main_v1
  carry main_v8
  rw [g1_val, v8_val]
  rw [row9]

/-- The hidden layer times W₂. -/
theorem v11_val : toMat (U11 m c main_v11 : S4096x819.Idx → EReal) = mm (hK1 m c) (toMat a11) := by
  rw [U11_at, out6_value]
  carry main_arg11
  rw [v10_val]

theorem row12 : (fun j => (U12 m c main_v12 : S1x819.Idx → EReal) (ix2 (0 : Fin 1) j)) = toVec a12 := by
  funext j
  show _ = a12 (ix1 j)
  refine (HostValue.bias_v12 (U11 m c) j).trans ?_
  carry main_arg12

/-- The second encoding. -/
theorem v13_val : toMat (U13 m c main_v13 : S4096x819.Idx → EReal)
    = kerEnc1 (toMat a4) (toMat a1) (toMat a9) (toVec a10) (toMat a11) (toVec a12) := by
  rw [U13_at, out7_value]
  carry main_v1
  carry main_v11
  rw [g1_val, v11_val]
  rw [row12]
  rfl

/-! ## The embedding and the adjacency heads -/

/-- The row-weighted mean of the two encodings. -/
theorem v24_val : toMat (U14 m c main_v24 : S4096x819.Idx → EReal) = zK m c := by
  refine (HostValue.z_stage (U13 m c)).trans ?_
  carry main_arg2
  carry main_v7
  rw [v7_val, v13_val]

theorem v25_val : toMat (U15 m c main_v25 : S4096x819.Idx → EReal) = mm (zK m c) (toMat a21) := by
  rw [U15_at, out8_value]
  carry main_arg21
  rw [v24_val]

theorem v26_val : toMat (U16 m c main_v26 : S4096x4096.Idx → EReal) = adjOf (zK m c) (toMat a21) := by
  rw [U16_at, out9_value]
  carry main_v24
  rw [v25_val, v24_val]
  rfl

theorem v27_val : toMat (U17 m c main_v27 : S4096x819.Idx → EReal) = mm (zK m c) (toMat a22) := by
  rw [U17_at, out10_value]
  carry main_v24
  carry main_arg22
  rw [v24_val]

theorem v28_val : toMat (U18 m c main_v28 : S4096x4096.Idx → EReal) = adjOf (zK m c) (toMat a22) := by
  rw [U18_at, out11_value]
  carry main_v24
  rw [v27_val, v24_val]
  rfl

/-! ## The first decoder -/

theorem v29_val : toMat (U19 m c main_v29 : S4096x819.Idx → EReal) = dK0 m c := by
  rw [U19_at, out12_value]
  carry main_v24
  carry main_arg23
  rw [v24_val]

theorem v30_val : toMat (U20 m c main_v30 : S4096x819.Idx → EReal) = mm (toMat a3) (dK0 m c) := by
  rw [U20_at, out13_value]
  carry main_v0
  rw [g0_val, v29_val]

theorem row31 : (fun j => (U21 m c main_v31 : S1x819.Idx → EReal) (ix2 (0 : Fin 1) j)) = toVec a14 := by
  funext j
  show _ = a14 (ix1 j)
  refine (HostValue.bias_v31 (U20 m c) j).trans ?_
  carry main_arg14

theorem v32_val : toMat (U22 m c main_v32 : S4096x819.Idx → EReal) = eK0 m c := by
  rw [U22_at, out14_value]
  carry main_v30
  carry main_arg13
  rw [v30_val]
  rw [row31]

theorem v33_val : toMat (U23 m c main_v33 : S4096x819.Idx → EReal) = mm (toMat a3) (eK0 m c) := by
  rw [U23_at, out15_value]
  carry main_v0
  rw [g0_val, v32_val]

theorem row34 : (fun j => (U24 m c main_v34 : S1x1024.Idx → EReal) (ix2 (0 : Fin 1) j)) = toVec a16 := by
  funext j
  show _ = a16 (ix1 j)
  refine (HostValue.bias_v34 (U23 m c) j).trans ?_
  carry main_arg16

theorem v35_val : toMat (U25 m c main_v35 : S4096x1024.Idx → EReal)
    = gconv (toMat a3) (dK0 m c) (toMat a13) (toVec a14) (toMat a15) (toVec a16) := by
  rw [U25_at, out16_value]
  carry main_v33
  carry main_arg15
  rw [v33_val]
  rw [row34]
  rfl

/-! ## The second decoder -/

theorem v36_val : toMat (U26 m c main_v36 : S4096x819.Idx → EReal) = dK1 m c := by
  rw [U26_at, out17_value]
  carry main_v24
  carry main_arg24
  rw [v24_val]

theorem v37_val : toMat (U27 m c main_v37 : S4096x819.Idx → EReal) = mm (toMat a4) (dK1 m c) := by
  rw [U27_at, out18_value]
  carry main_v1
  rw [g1_val, v36_val]

theorem row38 : (fun j => (U28 m c main_v38 : S1x1024.Idx → EReal) (ix2 (0 : Fin 1) j)) = toVec a18 := by
  funext j
  show _ = a18 (ix1 j)
  refine (HostValue.bias_v38 (U27 m c) j).trans ?_
  carry main_arg18

theorem v39_val : toMat (U29 m c main_v39 : S4096x1024.Idx → EReal) = eK1 m c := by
  rw [U29_at, out19_value]
  carry main_v37
  carry main_arg17
  rw [v37_val]
  rw [row38]

theorem v40_val : toMat (U30 m c main_v40 : S4096x1024.Idx → EReal) = mm (toMat a4) (eK1 m c) := by
  rw [U30_at, out20_value]
  carry main_v1
  rw [g1_val, v39_val]

theorem row41 : (fun j => (U31 m c main_v41 : S1x1280.Idx → EReal) (ix2 (0 : Fin 1) j)) = toVec a20 := by
  funext j
  show _ = a20 (ix1 j)
  refine (HostValue.bias_v41 (U30 m c) j).trans ?_
  carry main_arg20

theorem v42_val : toMat (U32 m c main_v42 : S4096x1280.Idx → EReal)
    = gconv (toMat a4) (dK1 m c) (toMat a17) (toVec a18) (toMat a19) (toVec a20) := by
  rw [U32_at, out21_value]
  carry main_v40
  carry main_arg19
  rw [v40_val]
  rw [row41]
  rfl

/-! ## The results, at the last valuation -/

/-- RESULT z. -/
theorem z_val : toMat (U33 m c main_v24 : S4096x819.Idx → EReal) = zK m c := by
  carry main_v24
  exact v24_val m c

/-- RESULT adj0. -/
theorem adj0_val : toMat (U33 m c main_v26 : S4096x4096.Idx → EReal) = adjOf (zK m c) (toMat a21) := by
  carry main_v26
  exact v26_val m c

/-- RESULT adj1. -/
theorem adj1_val : toMat (U33 m c main_v28 : S4096x4096.Idx → EReal) = adjOf (zK m c) (toMat a22) := by
  carry main_v28
  exact v28_val m c

/-- RESULT rec0. -/
theorem rec0_val : toMat (U33 m c main_v35 : S4096x1024.Idx → EReal)
    = gconv (toMat a3) (tanhM (mm (zK m c) (toMat a23))) (toMat a13) (toVec a14) (toMat a15) (toVec a16) := by
  carry main_v35
  exact v35_val m c

/-- RESULT rec1. -/
theorem rec1_val : toMat (U33 m c main_v42 : S4096x1280.Idx → EReal)
    = gconv (toMat a4) (tanhM (mm (zK m c) (toMat a24))) (toMat a17) (toVec a18) (toMat a19) (toVec a20) := by
  carry main_v42
  exact v42_val m c

/-- RESULT q: the soft assignment of the clamped expanded distances. -/
theorem q_val : toMat (U33 m c main_v66 : S4096x5.Idx → EReal) = qOf (d2Ker (zK m c) (toMat a25)) := by
  refine (HostValue.q_stage (U32 m c)).trans ?_
  carry main_v24
  carry main_arg25
  rw [v24_val]

/-- RESULT p: its target distribution. -/
theorem p_val : toMat (U33 m c main_v75 : S4096x5.Idx → EReal) = pOf (qOf (d2Ker (zK m c) (toMat a25))) := by
  refine (HostValue.p_stage (U32 m c)).trans ?_
  carry main_v24
  carry main_arg25
  rw [v24_val]

/-- RESULT cluster_layer: the centres, an argument no item writes. -/
theorem centres_val : U33 m c main_arg25 = m ((c.tc : Thread nD τ).loc main_arg25) := by
  carry main_arg25

end Cert.KernelIdeal.Hand

end
-- ==== Proof.RefValue.lean ====
/-
  What the reference computes: each of its results, read index by index off its run, is the specification's
  function of the argument arrays.

  The reference is a chain of host operations: matrix products, a bias broadcast down the rows, tanh, a row-weighted
  mean, a logistic, squared distances and two normalisations. Each operation (or short run of elementwise and
  layout operations) is read ONCE, as an equation between matrices: a product is `mm` of its operands' matrices, a
  bias-and-tanh is `tanhB`, and so on. The seven results are then compositions of those equations; no step opens more
  than a few operations, and two large terms are never compared by unfolding.
-/
import proofs.«113214_j66838281060556_2_alg».proof.Proof.Gen.ReferenceIdeal.Run
import proofs.«113214_j66838281060556_2_alg».proof.Proof.Gen.ReferenceIdeal.Read
import proofs.«113214_j66838281060556_2_alg».proof.Proof.GcnSpec
import Idealize.ShloMosaic.Lib.ValueIdx
import Idealize.ShloMosaic.Lib.IdealHost
import Idealize.ShloMosaic.PureOps.Ideal.Laws

noncomputable section

namespace Cert.ReferenceIdeal.RefValue

open Idealize.ShloMosaic Idealize.ShloMosaic.ValueIdx GcnSpec Cert.ReferenceIdeal.Read

/-! ## Indices and sums

Two indices with the same coordinates are equal; a coordinate of an index built by cases computes, so each index
equation below is `ext1 rfl` or `ext2 rfl rfl`. -/

theorem ext1 {n : ℕ} {x y : (⟨1, ![n]⟩ : Shape).Idx} (h0 : x 0 = y 0) : x = y := by
  rw [eq_ix1 x, eq_ix1 y, h0]

theorem ext2 {n0 n1 : ℕ} {x y : (⟨2, ![n0, n1]⟩ : Shape).Idx} (h0 : x 0 = y 0) (h1 : x 1 = y 1) : x = y := by
  rw [eq_ix2 x, eq_ix2 y, h0, h1]

/-- A sum over one contracted coordinate, the left factor read along its row and the right along its column, is
    the matrix product's entry. -/
theorem dot_sum {n k p : ℕ} (l : (⟨2, ![n, k]⟩ : Shape).Idx → EReal) (r : (⟨2, ![k, p]⟩ : Shape).Idx → EReal)
    (li : Fin k → (⟨2, ![n, k]⟩ : Shape).Idx) (ri : Fin k → (⟨2, ![k, p]⟩ : Shape).Idx) (i : Fin n) (j : Fin p)
    (hl : ∀ q, li q = ix2 i q) (hr : ∀ q, ri q = ix2 q j) :
    ∑ q, l (li q) * r (ri q) = mm (toMat l) (toMat r) i j :=
  Finset.sum_congr rfl fun q _ => by rw [hl q, hr q]; rfl

/-- The same with the right factor read along its ROW: the product with the transpose. -/
theorem dotT_sum {n k p : ℕ} (l : (⟨2, ![n, k]⟩ : Shape).Idx → EReal) (r : (⟨2, ![p, k]⟩ : Shape).Idx → EReal)
    (li : Fin k → (⟨2, ![n, k]⟩ : Shape).Idx) (ri : Fin k → (⟨2, ![p, k]⟩ : Shape).Idx) (i : Fin n) (j : Fin p)
    (hl : ∀ q, li q = ix2 i q) (hr : ∀ q, ri q = ix2 j q) :
    ∑ q, l (li q) * r (ri q) = mmT (toMat l) (toMat r) i j :=
  Finset.sum_congr rfl fun q _ => by rw [hl q, hr q]; rfl

/-- An array is recovered from its matrix: if `toMat a = M` then `a` is `M` at the index's two coordinates. -/
theorem arr_of_toMat {r c : ℕ} (a : (⟨2, ![r, c]⟩ : Shape).Idx → EReal) (M : Mat r c) (h : toMat a = M) :
    a = fun i => M (i 0) (i 1) := by
  funext i
  rw [← h]
  exact congrArg a (eq_ix2 i)

section

/-! ## The arguments, and names for the reference's stages

`a0 … a25` are the argument arrays in the order of the program's parameters: the two feature matrices, the row
weights, the two graphs, then the weights and biases of the two encoders, the two decoders, the two adjacency heads,
the two decoder inputs, and the cluster centres. `νN` is the reference's value number N as a function of them. -/

variable (a0 : FVec Ideal S4096x1024 .f32) (a1 : FVec Ideal S4096x1280 .f32) (a2 : FVec Ideal S4096x2 .f32)
  (a3 a4 : FVec Ideal S4096x4096 .f32)
  (a5 : FVec Ideal S1024x819 .f32) (a6 : FVec Ideal S819 .f32) (a7 : FVec Ideal S819x819 .f32) (a8 : FVec Ideal S819 .f32)
  (a9 : FVec Ideal S1280x1024 .f32) (a10 : FVec Ideal S1024 .f32) (a11 : FVec Ideal S1024x819 .f32)
  (a12 : FVec Ideal S819 .f32)
  (a13 : FVec Ideal S819x819 .f32) (a14 : FVec Ideal S819 .f32) (a15 : FVec Ideal S819x1024 .f32)
  (a16 : FVec Ideal S1024 .f32)
  (a17 : FVec Ideal S819x1024 .f32) (a18 : FVec Ideal S1024 .f32) (a19 : FVec Ideal S1024x1280 .f32)
  (a20 : FVec Ideal S1280 .f32)
  (a21 a22 a23 a24 : FVec Ideal S819x819 .f32) (a25 : FVec Ideal S5x819 .f32)

-- the first encoder
local notation "ν0" => val_main_v0 (F := Ideal) a0 a3
local notation "ν1" => val_main_v1 (F := Ideal) a0 a3 a5
local notation "ν5" => val_main_v5 (F := Ideal) a0 a3 a5 a6
local notation "ν6" => val_main_v6 (F := Ideal) a0 a3 a5 a6
local notation "ν7" => val_main_v7 (F := Ideal) a0 a3 a5 a6 a7
local notation "ν11" => val_main_v11 (F := Ideal) a0 a3 a5 a6 a7 a8
-- the second encoder
local notation "ν12" => val_main_v12 (F := Ideal) a1 a4
local notation "ν13" => val_main_v13 (F := Ideal) a1 a4 a9
local notation "ν17" => val_main_v17 (F := Ideal) a1 a4 a9 a10
local notation "ν18" => val_main_v18 (F := Ideal) a1 a4 a9 a10
local notation "ν19" => val_main_v19 (F := Ideal) a1 a4 a9 a10 a11
local notation "ν23" => val_main_v23 (F := Ideal) a1 a4 a9 a10 a11 a12
-- the weighted mean
local notation "ν25" => val_main_v25 (F := Ideal) a2
local notation "ν28" => val_main_v28 (F := Ideal) a2
local notation "ν33" => val_main_v33 (F := Ideal) a2
local notation "ν34" => val_main_v34 (F := Ideal) a0 a1 a2 a3 a4 a5 a6 a7 a8 a9 a10 a11 a12
-- the two adjacency heads
local notation "ν35" => val_main_v35 (F := Ideal) a0 a1 a2 a3 a4 a5 a6 a7 a8 a9 a10 a11 a12 a21
local notation "ν37" => val_main_v37 (F := Ideal) a0 a1 a2 a3 a4 a5 a6 a7 a8 a9 a10 a11 a12 a21
local notation "ν43" => val_main_v43 (F := Ideal) a0 a1 a2 a3 a4 a5 a6 a7 a8 a9 a10 a11 a12 a21
local notation "ν44" => val_main_v44 (F := Ideal) a0 a1 a2 a3 a4 a5 a6 a7 a8 a9 a10 a11 a12 a22
local notation "ν46" => val_main_v46 (F := Ideal) a0 a1 a2 a3 a4 a5 a6 a7 a8 a9 a10 a11 a12 a22
local notation "ν52" => val_main_v52 (F := Ideal) a0 a1 a2 a3 a4 a5 a6 a7 a8 a9 a10 a11 a12 a22
-- the first decoder
local notation "ν53" => val_main_v53 (F := Ideal) a0 a1 a2 a3 a4 a5 a6 a7 a8 a9 a10 a11 a12 a23
local notation "ν54" => val_main_v54 (F := Ideal) a0 a1 a2 a3 a4 a5 a6 a7 a8 a9 a10 a11 a12 a23
local notation "ν55" => val_main_v55 (F := Ideal) a0 a1 a2 a3 a4 a5 a6 a7 a8 a9 a10 a11 a12 a23
local notation "ν56" => val_main_v56 (F := Ideal) a0 a1 a2 a3 a4 a5 a6 a7 a8 a9 a10 a11 a12 a13 a23
local notation "ν60" => val_main_v60 (F := Ideal) a0 a1 a2 a3 a4 a5 a6 a7 a8 a9 a10 a11 a12 a13 a14 a23
local notation "ν61" => val_main_v61 (F := Ideal) a0 a1 a2 a3 a4 a5 a6 a7 a8 a9 a10 a11 a12 a13 a14 a23
local notation "ν62" => val_main_v62 (F := Ideal) a0 a1 a2 a3 a4 a5 a6 a7 a8 a9 a10 a11 a12 a13 a14 a15 a23
local notation "ν66" => val_main_v66 (F := Ideal) a0 a1 a2 a3 a4 a5 a6 a7 a8 a9 a10 a11 a12 a13 a14 a15 a16 a23
-- the second decoder
local notation "ν67" => val_main_v67 (F := Ideal) a0 a1 a2 a3 a4 a5 a6 a7 a8 a9 a10 a11 a12 a24
local notation "ν68" => val_main_v68 (F := Ideal) a0 a1 a2 a3 a4 a5 a6 a7 a8 a9 a10 a11 a12 a24
local notation "ν69" => val_main_v69 (F := Ideal) a0 a1 a2 a3 a4 a5 a6 a7 a8 a9 a10 a11 a12 a24
local notation "ν70" => val_main_v70 (F := Ideal) a0 a1 a2 a3 a4 a5 a6 a7 a8 a9 a10 a11 a12 a17 a24
local notation "ν74" => val_main_v74 (F := Ideal) a0 a1 a2 a3 a4 a5 a6 a7 a8 a9 a10 a11 a12 a17 a18 a24
local notation "ν75" => val_main_v75 (F := Ideal) a0 a1 a2 a3 a4 a5 a6 a7 a8 a9 a10 a11 a12 a17 a18 a24
local notation "ν76" => val_main_v76 (F := Ideal) a0 a1 a2 a3 a4 a5 a6 a7 a8 a9 a10 a11 a12 a17 a18 a19 a24
local notation "ν80" => val_main_v80 (F := Ideal) a0 a1 a2 a3 a4 a5 a6 a7 a8 a9 a10 a11 a12 a17 a18 a19 a20 a24
-- the soft assignment
local notation "ν87" => val_main_v87 (F := Ideal) a0 a1 a2 a3 a4 a5 a6 a7 a8 a9 a10 a11 a12 a25
local notation "ν91" => val_main_v91 (F := Ideal) a0 a1 a2 a3 a4 a5 a6 a7 a8 a9 a10 a11 a12 a25
local notation "ν94" => val_main_v94 (F := Ideal) a0 a1 a2 a3 a4 a5 a6 a7 a8 a9 a10 a11 a12 a25
local notation "ν95" => val_main_v95 (F := Ideal) a0 a1 a2 a3 a4 a5 a6 a7 a8 a9 a10 a11 a12 a25
local notation "ν99" => val_main_v99 (F := Ideal) a0 a1 a2 a3 a4 a5 a6 a7 a8 a9 a10 a11 a12 a25
local notation "ν100" => val_main_v100 (F := Ideal) a0 a1 a2 a3 a4 a5 a6 a7 a8 a9 a10 a11 a12 a25
local notation "ν103" => val_main_v103 (F := Ideal) a0 a1 a2 a3 a4 a5 a6 a7 a8 a9 a10 a11 a12 a25
local notation "ν104" => val_main_v104 (F := Ideal) a0 a1 a2 a3 a4 a5 a6 a7 a8 a9 a10 a11 a12 a25

/-! ## The first encoder: values 0 to 11 -/

/-- Value 0 is the graph times the features. -/
theorem m_v0 : toMat ν0 = mm (toMat a3) (toMat a0) := by
  funext i j
  show ν0 (ix2 i j) = _
  rw [val_main_v0_apply]
  refine dot_sum a3 a0 _ _ i j ?_ ?_ <;> intro q <;> exact ext2 rfl rfl

/-- Value 1 is that times the first weight. -/
theorem m_v1 : toMat ν1 = mm (toMat ν0) (toMat a5) := by
  funext i j
  show ν1 (ix2 i j) = _
  rw [val_main_v1_apply]
  refine dot_sum ν0 a5 _ _ i j ?_ ?_ <;> intro q <;> exact ext2 rfl rfl

/-- Values 2 to 5: the bias broadcast down the rows, added, and tanh. -/
theorem m_v5 : toMat ν5 = tanhB (toMat ν1) (toVec a6) := by
  funext i j
  show ν5 (ix2 i j) = Ideal.tanh (ν1 (ix2 i j) + a6 (ix1 j))
  rw [val_main_v5_apply, val_main_v4_apply, val_main_v3_apply, val_main_v2_apply, Ideal.hostUnary_tanh_def,
    Ideal.addf_def, show idx_main_v2 (idx_main_v3 (ix2 i j)) = ix1 j from ext1 rfl]

/-- Value 6 is the graph times the hidden layer. -/
theorem m_v6 : toMat ν6 = mm (toMat a3) (toMat ν5) := by
  funext i j
  show ν6 (ix2 i j) = _
  rw [val_main_v6_apply]
  refine dot_sum a3 ν5 _ _ i j ?_ ?_ <;> intro q <;> exact ext2 rfl rfl

/-- Value 7 is that times the second weight. -/
theorem m_v7 : toMat ν7 = mm (toMat ν6) (toMat a7) := by
  funext i j
  show ν7 (ix2 i j) = _
  rw [val_main_v7_apply]
  refine dot_sum ν6 a7 _ _ i j ?_ ?_ <;> intro q <;> exact ext2 rfl rfl

/-- Values 8 to 11: the second bias and tanh. -/
theorem m_v11 : toMat ν11 = tanhB (toMat ν7) (toVec a8) := by
  funext i j
  show ν11 (ix2 i j) = Ideal.tanh (ν7 (ix2 i j) + a8 (ix1 j))
  rw [val_main_v11_apply, val_main_v10_apply, val_main_v9_apply, val_main_v8_apply, Ideal.hostUnary_tanh_def,
    Ideal.addf_def, show idx_main_v8 (idx_main_v9 (ix2 i j)) = ix1 j from ext1 rfl]

/-- The first encoding is the graph convolution pair of the first features. -/
theorem enc0 : toMat ν11 = gconv (toMat a3) (toMat a0) (toMat a5) (toVec a6) (toMat a7) (toVec a8) := by
  rw [m_v11, m_v7, m_v6, m_v5, m_v1, m_v0]
  rfl

/-! ## The second encoder: values 12 to 23 -/

/-- Value 12 is the second graph times the second features. -/
theorem m_v12 : toMat ν12 = mm (toMat a4) (toMat a1) := by
  funext i j
  show ν12 (ix2 i j) = _
  rw [val_main_v12_apply]
  refine dot_sum a4 a1 _ _ i j ?_ ?_ <;> intro q <;> exact ext2 rfl rfl

/-- Value 13 is that times the first weight. -/
theorem m_v13 : toMat ν13 = mm (toMat ν12) (toMat a9) := by
  funext i j
  show ν13 (ix2 i j) = _
  rw [val_main_v13_apply]
  refine dot_sum ν12 a9 _ _ i j ?_ ?_ <;> intro q <;> exact ext2 rfl rfl

/-- Values 14 to 17: the bias broadcast down the rows, added, and tanh. -/
theorem m_v17 : toMat ν17 = tanhB (toMat ν13) (toVec a10) := by
  funext i j
  show ν17 (ix2 i j) = Ideal.tanh (ν13 (ix2 i j) + a10 (ix1 j))
  rw [val_main_v17_apply, val_main_v16_apply, val_main_v15_apply, val_main_v14_apply, Ideal.hostUnary_tanh_def,
    Ideal.addf_def, show idx_main_v14 (idx_main_v15 (ix2 i j)) = ix1 j from ext1 rfl]

/-- Value 18 is the graph times the hidden layer. -/
theorem m_v18 : toMat ν18 = mm (toMat a4) (toMat ν17) := by
  funext i j
  show ν18 (ix2 i j) = _
  rw [val_main_v18_apply]
  refine dot_sum a4 ν17 _ _ i j ?_ ?_ <;> intro q <;> exact ext2 rfl rfl

/-- Value 19 is that times the second weight. -/
theorem m_v19 : toMat ν19 = mm (toMat ν18) (toMat a11) := by
  funext i j
  show ν19 (ix2 i j) = _
  rw [val_main_v19_apply]
  refine dot_sum ν18 a11 _ _ i j ?_ ?_ <;> intro q <;> exact ext2 rfl rfl

/-- Values 20 to 23: the second bias and tanh. -/
theorem m_v23 : toMat ν23 = tanhB (toMat ν19) (toVec a12) := by
  funext i j
  show ν23 (ix2 i j) = Ideal.tanh (ν19 (ix2 i j) + a12 (ix1 j))
  rw [val_main_v23_apply, val_main_v22_apply, val_main_v21_apply, val_main_v20_apply, Ideal.hostUnary_tanh_def,
    Ideal.addf_def, show idx_main_v20 (idx_main_v21 (ix2 i j)) = ix1 j from ext1 rfl]

/-- The second encoding is the graph convolution pair of the second features. -/
theorem enc1 : toMat ν23 = gconv (toMat a4) (toMat a1) (toMat a9) (toVec a10) (toMat a11) (toVec a12) := by
  rw [m_v23, m_v19, m_v18, m_v17, m_v13, m_v12]
  rfl

/-! ## The row-weighted mean: values 24 to 34 -/

/-- Values 24 and 25: the first column of the weights, broadcast along the rows. -/
theorem col0_v25 (i : Fin 4096) (j : Fin 819) : ν25 (ix2 i j) = a2 (ix2 i 0) := by
  rw [val_main_v25_apply, val_main_v24_apply, show idx_main_v24 (idx_main_v25 (ix2 i j)) = ix2 i 0 from ext2 rfl rfl]

/-- Values 27 and 28: the second column of the weights, broadcast along the rows. -/
theorem col1_v28 (i : Fin 4096) (j : Fin 819) : ν28 (ix2 i j) = a2 (ix2 i 1) := by
  rw [val_main_v28_apply, val_main_v27_apply, show idx_main_v27 (idx_main_v28 (ix2 i j)) = ix2 i 1 from ext2 rfl rfl]

/-- Values 31 to 33: the sum of a row's two weights, broadcast along the row (the sum starts from zero). -/
theorem rowsum_v33 (i : Fin 4096) (j : Fin 819) : ν33 (ix2 i j) = a2 (ix2 i 0) + a2 (ix2 i 1) := by
  rw [val_main_v33_apply, val_main_v32_apply, val_main_v31_apply, val_main_cst_apply, Ideal.ofBits_def,
    Ideal.ofBits_zero_f32, zero_add, Fin.sum_univ_two,
    show idx_main_v31 (idx_main_v32 (idx_main_v33 (ix2 i j))) 0 = ix2 i 0 from ext2 rfl rfl,
    show idx_main_v31 (idx_main_v32 (idx_main_v33 (ix2 i j))) 1 = ix2 i 1 from ext2 rfl rfl]

/-- Values 26, 29, 30 and 34: the two encodings weighted, added, and divided by the weights' sum. -/
theorem m_v34 : toMat ν34 = zOf (toMat a2) (toMat ν11) (toMat ν23) := by
  funext i j
  show ν34 (ix2 i j)
    = Ideal.div (a2 (ix2 i 0) * ν11 (ix2 i j) + a2 (ix2 i 1) * ν23 (ix2 i j)) (a2 (ix2 i 0) + a2 (ix2 i 1))
  rw [val_main_v34_apply, val_main_v30_apply, val_main_v26_apply, val_main_v29_apply, col0_v25, col1_v28, rowsum_v33,
    Ideal.hostDivf_def, Ideal.addf_def, Ideal.mulf_def, Ideal.mulf_def]

/-- The embedding both programs share, as the specification's function of the arguments. -/
abbrev zR : Mat 4096 819 :=
  zOf (toMat a2) (gconv (toMat a3) (toMat a0) (toMat a5) (toVec a6) (toMat a7) (toVec a8))
    (gconv (toMat a4) (toMat a1) (toMat a9) (toVec a10) (toMat a11) (toVec a12))

/-- RESULT z (value 34). -/
theorem z_eq : toMat ν34 = zR a0 a1 a2 a3 a4 a5 a6 a7 a8 a9 a10 a11 a12 := by
  rw [m_v34, enc0, enc1]

/-! ## The adjacency heads: values 35 to 43 and 44 to 52 -/

/-- Value 35 is the embedding times the head's weight. -/
theorem m_v35 : toMat ν35 = mm (toMat ν34) (toMat a21) := by
  funext i j
  show ν35 (ix2 i j) = _
  rw [val_main_v35_apply]
  refine dot_sum ν34 a21 _ _ i j ?_ ?_ <;> intro q <;> exact ext2 rfl rfl

/-- Values 36 and 37: that times the embedding's transpose. -/
theorem m_v37 : toMat ν37 = mmT (toMat ν35) (toMat ν34) := by
  funext i j
  show ν37 (ix2 i j) = _
  rw [val_main_v37_apply]
  simp only [val_main_v36_apply]
  refine dotT_sum ν35 ν34 _ _ i j ?_ ?_ <;> intro q <;> exact ext2 rfl rfl

/-- Values 38 to 43: the logistic, spelled 1 / (1 + exp (−x)) with both ones broadcast constants. -/
theorem m_v43 : toMat ν43 = sigM (toMat ν37) := by
  funext i j
  show ν43 (ix2 i j) = Ideal.div 1 (1 + Ideal.exp (-(ν37 (ix2 i j))))
  rw [val_main_v43_apply, val_main_v42_apply, val_main_cst_1_apply, val_main_v41_apply, val_main_v40_apply,
    val_main_cst_0_apply, val_main_v39_apply, val_main_v38_apply, Ideal.ofBits_def, Ideal.ofBits_one_f32,
    Ideal.hostDivf_def, Ideal.addf_def, Ideal.hostUnary_exp_def, Ideal.hostNegf_def, Ideal.negf_def]

/-- RESULT adj0 (value 43). -/
theorem adj0_eq : toMat ν43 = adjOf (zR a0 a1 a2 a3 a4 a5 a6 a7 a8 a9 a10 a11 a12) (toMat a21) := by
  rw [m_v43, m_v37, m_v35, z_eq]
  rfl

/-- Value 44 is the embedding times the second head's weight. -/
theorem m_v44 : toMat ν44 = mm (toMat ν34) (toMat a22) := by
  funext i j
  show ν44 (ix2 i j) = _
  rw [val_main_v44_apply]
  refine dot_sum ν34 a22 _ _ i j ?_ ?_ <;> intro q <;> exact ext2 rfl rfl

/-- Values 45 and 46: that times the embedding's transpose. -/
theorem m_v46 : toMat ν46 = mmT (toMat ν44) (toMat ν34) := by
  funext i j
  show ν46 (ix2 i j) = _
  rw [val_main_v46_apply]
  simp only [val_main_v45_apply]
  refine dotT_sum ν44 ν34 _ _ i j ?_ ?_ <;> intro q <;> exact ext2 rfl rfl

/-- Values 47 to 52: the logistic. -/
theorem m_v52 : toMat ν52 = sigM (toMat ν46) := by
  funext i j
  show ν52 (ix2 i j) = Ideal.div 1 (1 + Ideal.exp (-(ν46 (ix2 i j))))
  rw [val_main_v52_apply, val_main_v51_apply, val_main_cst_3_apply, val_main_v50_apply, val_main_v49_apply,
    val_main_cst_2_apply, val_main_v48_apply, val_main_v47_apply, Ideal.ofBits_def, Ideal.ofBits_one_f32,
    Ideal.hostDivf_def, Ideal.addf_def, Ideal.hostUnary_exp_def, Ideal.hostNegf_def, Ideal.negf_def]

/-- RESULT adj1 (value 52). -/
theorem adj1_eq : toMat ν52 = adjOf (zR a0 a1 a2 a3 a4 a5 a6 a7 a8 a9 a10 a11 a12) (toMat a22) := by
  rw [m_v52, m_v46, m_v44, z_eq]
  rfl

/-! ## The first decoder: values 53 to 66 -/

/-- Value 53 is the embedding times the decoder's input weight. -/
theorem m_v53 : toMat ν53 = mm (toMat ν34) (toMat a23) := by
  funext i j
  show ν53 (ix2 i j) = _
  rw [val_main_v53_apply]
  refine dot_sum ν34 a23 _ _ i j ?_ ?_ <;> intro q <;> exact ext2 rfl rfl

/-- Value 54 is its tanh. -/
theorem m_v54 : toMat ν54 = tanhM (toMat ν53) := by
  funext i j
  show ν54 (ix2 i j) = Ideal.tanh (ν53 (ix2 i j))
  rw [val_main_v54_apply, Ideal.hostUnary_tanh_def]

/-- Value 55 is the graph times that. -/
theorem m_v55 : toMat ν55 = mm (toMat a3) (toMat ν54) := by
  funext i j
  show ν55 (ix2 i j) = _
  rw [val_main_v55_apply]
  refine dot_sum a3 ν54 _ _ i j ?_ ?_ <;> intro q <;> exact ext2 rfl rfl

/-- Value 56 is that times the first weight. -/
theorem m_v56 : toMat ν56 = mm (toMat ν55) (toMat a13) := by
  funext i j
  show ν56 (ix2 i j) = _
  rw [val_main_v56_apply]
  refine dot_sum ν55 a13 _ _ i j ?_ ?_ <;> intro q <;> exact ext2 rfl rfl

/-- Values 57 to 60: the bias and tanh. -/
theorem m_v60 : toMat ν60 = tanhB (toMat ν56) (toVec a14) := by
  funext i j
  show ν60 (ix2 i j) = Ideal.tanh (ν56 (ix2 i j) + a14 (ix1 j))
  rw [val_main_v60_apply, val_main_v59_apply, val_main_v58_apply, val_main_v57_apply, Ideal.hostUnary_tanh_def,
    Ideal.addf_def, show idx_main_v57 (idx_main_v58 (ix2 i j)) = ix1 j from ext1 rfl]

/-- Value 61 is the graph times the hidden layer. -/
theorem m_v61 : toMat ν61 = mm (toMat a3) (toMat ν60) := by
  funext i j
  show ν61 (ix2 i j) = _
  rw [val_main_v61_apply]
  refine dot_sum a3 ν60 _ _ i j ?_ ?_ <;> intro q <;> exact ext2 rfl rfl

/-- Value 62 is that times the second weight. -/
theorem m_v62 : toMat ν62 = mm (toMat ν61) (toMat a15) := by
  funext i j
  show ν62 (ix2 i j) = _
  rw [val_main_v62_apply]
  refine dot_sum ν61 a15 _ _ i j ?_ ?_ <;> intro q <;> exact ext2 rfl rfl

/-- Values 63 to 66: the second bias and tanh. -/
theorem m_v66 : toMat ν66 = tanhB (toMat ν62) (toVec a16) := by
  funext i j
  show ν66 (ix2 i j) = Ideal.tanh (ν62 (ix2 i j) + a16 (ix1 j))
  rw [val_main_v66_apply, val_main_v65_apply, val_main_v64_apply, val_main_v63_apply, Ideal.hostUnary_tanh_def,
    Ideal.addf_def, show idx_main_v63 (idx_main_v64 (ix2 i j)) = ix1 j from ext1 rfl]

/-- RESULT rec0 (value 66). -/
theorem rec0_eq : toMat ν66
    = gconv (toMat a3) (tanhM (mm (zR a0 a1 a2 a3 a4 a5 a6 a7 a8 a9 a10 a11 a12) (toMat a23))) (toMat a13) (toVec a14)
        (toMat a15) (toVec a16) := by
  rw [m_v66, m_v62, m_v61, m_v60, m_v56, m_v55, m_v54, m_v53, z_eq]
  rfl

/-! ## The second decoder: values 67 to 80 -/

/-- Value 67 is the embedding times the decoder's input weight. -/
theorem m_v67 : toMat ν67 = mm (toMat ν34) (toMat a24) := by
  funext i j
  show ν67 (ix2 i j) = _
  rw [val_main_v67_apply]
  refine dot_sum ν34 a24 _ _ i j ?_ ?_ <;> intro q <;> exact ext2 rfl rfl

/-- Value 68 is its tanh. -/
theorem m_v68 : toMat ν68 = tanhM (toMat ν67) := by
  funext i j
  show ν68 (ix2 i j) = Ideal.tanh (ν67 (ix2 i j))
  rw [val_main_v68_apply, Ideal.hostUnary_tanh_def]

/-- Value 69 is the second graph times that. -/
theorem m_v69 : toMat ν69 = mm (toMat a4) (toMat ν68) := by
  funext i j
  show ν69 (ix2 i j) = _
  rw [val_main_v69_apply]
  refine dot_sum a4 ν68 _ _ i j ?_ ?_ <;> intro q <;> exact ext2 rfl rfl

/-- Value 70 is that times the first weight. -/
theorem m_v70 : toMat ν70 = mm (toMat ν69) (toMat a17) := by
  funext i j
  show ν70 (ix2 i j) = _
  rw [val_main_v70_apply]
  refine dot_sum ν69 a17 _ _ i j ?_ ?_ <;> intro q <;> exact ext2 rfl rfl

/-- Values 71 to 74: the bias and tanh. -/
theorem m_v74 : toMat ν74 = tanhB (toMat ν70) (toVec a18) := by
  funext i j
  show ν74 (ix2 i j) = Ideal.tanh (ν70 (ix2 i j) + a18 (ix1 j))
  rw [val_main_v74_apply, val_main_v73_apply, val_main_v72_apply, val_main_v71_apply, Ideal.hostUnary_tanh_def,
    Ideal.addf_def, show idx_main_v71 (idx_main_v72 (ix2 i j)) = ix1 j from ext1 rfl]

/-- Value 75 is the graph times the hidden layer. -/
theorem m_v75 : toMat ν75 = mm (toMat a4) (toMat ν74) := by
  funext i j
  show ν75 (ix2 i j) = _
  rw [val_main_v75_apply]
  refine dot_sum a4 ν74 _ _ i j ?_ ?_ <;> intro q <;> exact ext2 rfl rfl

/-- Value 76 is that times the second weight. -/
theorem m_v76 : toMat ν76 = mm (toMat ν75) (toMat a19) := by
  funext i j
  show ν76 (ix2 i j) = _
  rw [val_main_v76_apply]
  refine dot_sum ν75 a19 _ _ i j ?_ ?_ <;> intro q <;> exact ext2 rfl rfl

/-- Values 77 to 80: the second bias and tanh. -/
theorem m_v80 : toMat ν80 = tanhB (toMat ν76) (toVec a20) := by
  funext i j
  show ν80 (ix2 i j) = Ideal.tanh (ν76 (ix2 i j) + a20 (ix1 j))
  rw [val_main_v80_apply, val_main_v79_apply, val_main_v78_apply, val_main_v77_apply, Ideal.hostUnary_tanh_def,
    Ideal.addf_def, show idx_main_v77 (idx_main_v78 (ix2 i j)) = ix1 j from ext1 rfl]

/-- RESULT rec1 (value 80). -/
theorem rec1_eq : toMat ν80
    = gconv (toMat a4) (tanhM (mm (zR a0 a1 a2 a3 a4 a5 a6 a7 a8 a9 a10 a11 a12) (toMat a24))) (toMat a17) (toVec a18)
        (toMat a19) (toVec a20) := by
  rw [m_v80, m_v76, m_v75, m_v74, m_v70, m_v69, m_v68, m_v67, z_eq]
  rfl

/-! ## The soft assignment: values 81 to 104 -/

/-- Values 81 to 87: the embedding and the centres broadcast against each other, subtracted, squared and summed over
    the feature coordinate (the sum starts from zero). -/
theorem m_v87 : toMat ν87 = d2Ref (toMat ν34) (toMat a25) := by
  funext i j
  show ν87 (ix2 i j) = ∑ l, (ν34 (ix2 i l) - a25 (ix2 j l)) * (ν34 (ix2 i l) - a25 (ix2 j l))
  rw [val_main_v87_apply, val_main_cst_4_apply, Ideal.ofBits_def, Ideal.ofBits_zero_f32, zero_add]
  refine Finset.sum_congr rfl fun k _ => ?_
  rw [val_main_v86_apply, val_main_v85_apply, val_main_v83_apply, val_main_v81_apply, val_main_v84_apply,
    val_main_v82_apply, Ideal.mulf_def, Ideal.subf_def,
    show idx_main_v81 (idx_main_v83 (idx_main_v87 (ix2 i j) k)) = ix2 i k from ext2 rfl rfl,
    show idx_main_v82 (idx_main_v84 (idx_main_v87 (ix2 i j) k)) = ix2 j k from ext2 rfl rfl]

/-- Values 88 to 91: 1 / (1 + d²), both ones broadcast constants. -/
theorem q0_v91 (i : Fin 4096) (j : Fin 5) : ν91 (ix2 i j) = Ideal.div 1 (1 + ν87 (ix2 i j)) := by
  rw [val_main_v91_apply, val_main_v90_apply, val_main_cst_6_apply, val_main_v89_apply, val_main_v88_apply,
    val_main_cst_5_apply, Ideal.ofBits_def, Ideal.ofBits_one_f32, Ideal.hostDivf_def, Ideal.addf_def]

/-- Values 92 to 94: a row's sum over the centres, broadcast along the row. -/
theorem rowsum_v94 (i : Fin 4096) (j : Fin 5) : ν94 (ix2 i j) = ∑ k : Fin 5, ν91 (ix2 i k) := by
  rw [val_main_v94_apply, val_main_v93_apply, val_main_v92_apply, val_main_cst_7_apply, Ideal.ofBits_def,
    Ideal.ofBits_zero_f32, zero_add]
  exact Finset.sum_congr rfl fun k _ => by
    rw [show idx_main_v92 (idx_main_v93 (idx_main_v94 (ix2 i j))) k = ix2 i k from ext2 rfl rfl]

/-- Value 95: the row normalised. -/
theorem m_v95 : toMat ν95 = qOf (toMat ν87) := by
  funext i j
  show ν95 (ix2 i j)
    = Ideal.div (Ideal.div 1 (1 + ν87 (ix2 i j))) (∑ j', Ideal.div 1 (1 + ν87 (ix2 i j')))
  rw [val_main_v95_apply, rowsum_v94, Ideal.hostDivf_def]
  simp only [q0_v91]

/-- RESULT q (value 95). -/
theorem q_eq : toMat ν95 = qOf (d2Ref (zR a0 a1 a2 a3 a4 a5 a6 a7 a8 a9 a10 a11 a12) (toMat a25)) := by
  rw [m_v95, m_v87, z_eq]

/-- Values 97 to 99: a column's sum over the rows, broadcast down the column. -/
theorem colsum_v99 (i : Fin 4096) (j : Fin 5) : ν99 (ix2 i j) = ∑ k : Fin 4096, ν95 (ix2 k j) := by
  rw [val_main_v99_apply, val_main_v98_apply, val_main_v97_apply, val_main_cst_8_apply, Ideal.ofBits_def,
    Ideal.ofBits_zero_f32, zero_add]
  exact Finset.sum_congr rfl fun k _ => by
    rw [show idx_main_v97 (idx_main_v98 (idx_main_v99 (ix2 i j))) k = ix2 k j from ext2 rfl rfl]

/-- Values 96 and 100: the square over the column's sum. -/
theorem w_v100 (i : Fin 4096) (j : Fin 5) :
    ν100 (ix2 i j) = Ideal.div (ν95 (ix2 i j) * ν95 (ix2 i j)) (∑ k : Fin 4096, ν95 (ix2 k j)) := by
  rw [val_main_v100_apply, val_main_v96_apply, colsum_v99, Ideal.hostDivf_def, Ideal.mulf_def]

/-- Values 101 to 103: a row's sum of those, broadcast along the row. -/
theorem rowsum_v103 (i : Fin 4096) (j : Fin 5) : ν103 (ix2 i j) = ∑ k : Fin 5, ν100 (ix2 i k) := by
  rw [val_main_v103_apply, val_main_v102_apply, val_main_v101_apply, val_main_cst_9_apply, Ideal.ofBits_def,
    Ideal.ofBits_zero_f32, zero_add]
  exact Finset.sum_congr rfl fun k _ => by
    rw [show idx_main_v101 (idx_main_v102 (idx_main_v103 (ix2 i j))) k = ix2 i k from ext2 rfl rfl]

/-- Value 104: the row normalised. -/
theorem m_v104 : toMat ν104 = pOf (toMat ν95) := by
  funext i j
  show ν104 (ix2 i j)
    = Ideal.div (Ideal.div (ν95 (ix2 i j) * ν95 (ix2 i j)) (∑ i', ν95 (ix2 i' j)))
        (∑ j', Ideal.div (ν95 (ix2 i j') * ν95 (ix2 i j')) (∑ i', ν95 (ix2 i' j')))
  rw [val_main_v104_apply, rowsum_v103, Ideal.hostDivf_def]
  simp only [w_v100]

/-- RESULT p (value 104). -/
theorem p_eq : toMat ν104 = pOf (qOf (d2Ref (zR a0 a1 a2 a3 a4 a5 a6 a7 a8 a9 a10 a11 a12) (toMat a25))) := by
  rw [m_v104, m_v95, m_v87, z_eq]

end

end Cert.ReferenceIdeal.RefValue

end
-- ==== Proof.PreFacts.lean ====
/-
  Reading the precondition: from "finite_inputs of the argument arrays is all ones" to the facts the value proof uses:
  every entry of each of the 26 arrays is a real number (neither infinity), and no row of the 4096 × 2 array sums to zero.
-/
import proofs.«113214_j66838281060556_2_alg».proof.Pre_finite_inputs
import Idealize.ShloMosaic.Lib.ReduceAll
import Idealize.ShloMosaic.Lib.ValueIdx
import Idealize.ShloMosaic.PureOps.Ideal.Laws

noncomputable section

namespace Cert.PreFacts

open Idealize.ShloMosaic Cert.Pre_finite_inputs

/-- The scalar shape has exactly one index. -/
instance : Subsingleton S_.Idx := ⟨fun a b => funext fun d => d.elim0⟩

/-- The f32 pattern `0x7F800000` denotes `+∞`. -/
theorem ofBits_inf : Ideal.ofBits .f32 0x7F800000#32 = (⊤ : EReal) := by
  simp [Ideal.ofBits, Ideal.ieee]

/-- An extended real whose absolute value `max x (-x)` is strictly below `+∞` is a real number. -/
theorem real_of_abs_lt_top (x : EReal) (h : max x (-x) < (⊤ : EReal)) : ∃ r : ℝ, x = (r : EReal) := by
  induction x using EReal.rec with
  | bot => simp at h
  | top => simp at h
  | coe r => exact ⟨r, rfl⟩

/-- A Boolean as a one-bit word is `1` exactly when it is true. -/
theorem ofBool_eq_one {b : Bool} : BitVec.ofBool b = 1#1 ↔ b = true := by cases b <;> decide

/-- One element of `|x| < +∞`, read at the ideal values. -/
theorem real_of_cmp (x : EReal)
    (h : FloatOps.cmpf (F := Ideal) (φ := .f32) .olt (FloatOps.hostAbsf (F := Ideal) (φ := .f32) x)
          (FloatOps.ofBits (F := Ideal) .f32 0x7F800000#32) = 1#1) : ∃ r : ℝ, x = (r : EReal) := by
  refine real_of_abs_lt_top x ?_
  have h' : BitVec.ofBool (decide (max x (-x) < Ideal.ofBits .f32 0x7F800000#32)) = 1#1 := h
  rw [ofBits_inf, ofBool_eq_one, decide_eq_true_eq] at h'
  exact h'

/-- `jnp.all(|x| < +inf)` over an array: every entry is a real number. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ValueIdx.ix0 = 1#1) :
    ∀ i, ∃ r : ℝ, x i = (r : EReal) := by
  intro i
  exact real_of_cmp (x i) (Host.reduce_andi_all _ _ hr hu ValueIdx.ix0 e i)

/-- `jnp.all(jnp.sum(w, axis=1) != 0)` over a `4096 × 2` array: no row sums to zero. The host's sum over the
    second axis from the initial value `0` is `0 + (w (n, 0) + w (n, 1))` at row `n`. -/
theorem rowsum_ne (w : FVec Ideal S4096x2 .f32)
    (hr1 : S4096x2.ReducesTo [1] S4096) (hu1 : 0 < S_.numel)
    (hb : S_.BroadcastsInDim S4096 (![] : Fin 0 → Fin S4096.rank)) (hr : S4096.ReducesTo [0] S_) (hu : 0 < S_.numel)
    (e : Host.reduce IntOp.andi
          (cmpf .une (Host.reduceAdd w (constant (F := Ideal) S_ .f32 0x00000000#32) hr1 hu1)
            (broadcastInDim S4096 ![] hb (constant (F := Ideal) S_ .f32 0x00000000#32)))
          (constantI S_ 1 1#1) hr hu ValueIdx.ix0 = 1#1) :
    ∀ n : Fin 4096, w (ValueIdx.ix2 n (0 : Fin 2)) + w (ValueIdx.ix2 n (1 : Fin 2)) ≠ 0 := by
  intro n
  have hR : S4096x2.Reduces [1] S4096 := by decide
  have h1 := Host.reduce_andi_all _ _ hr hu ValueIdx.ix0 e (ValueIdx.ix1 n)
  have h2 : BitVec.ofBool (decide (Ideal.hostReduceAdd hr1 w (Ideal.ofBits .f32 0x00000000#32) (ValueIdx.ix1 n)
      ≠ Ideal.ofBits .f32 0x00000000#32)) = 1#1 := h1
  rw [ofBool_eq_one, decide_eq_true_eq, Ideal.ofBits_zero_f32, Ideal.hostReduceAdd_single hr1 hR, zero_add] at h2
  have e0 : hR.lift (ValueIdx.ix1 n) (0 : Fin 2) = ValueIdx.ix2 n (0 : Fin 2) := by
    funext c; match c with | ⟨0, _⟩ => exact Fin.ext rfl | ⟨1, _⟩ => exact Fin.ext rfl
  have e1 : hR.lift (ValueIdx.ix1 n) (1 : Fin 2) = ValueIdx.ix2 n (1 : Fin 2) := by
    funext c; match c with | ⟨0, _⟩ => exact Fin.ext rfl | ⟨1, _⟩ => exact Fin.ext rfl
  have h3 : (∑ k : Fin 2, w (hR.lift (ValueIdx.ix1 n) k))
      = w (ValueIdx.ix2 n (0 : Fin 2)) + w (ValueIdx.ix2 n (1 : Fin 2)) := by
    rw [Fin.sum_univ_two, e0, e1]
  rw [← h3]
  exact h2

/-- The printed precondition, read back: if `finite_inputs` of the 26 argument arrays is all ones then every entry of
    every array is a real number, and no row of the third array (`4096 × 2`) sums to zero. The printed function is the
    left-nested conjunction of 26 tests `jnp.all(|a| < +inf)` and the row-sum test, each a reduce by `and` into the
    scalar shape. -/
theorem facts_of_pre [Cert.Pre_finite_inputs.Facts]
    (a0 : FVec Ideal S4096x1024 .f32) (a1 : FVec Ideal S4096x1280 .f32) (a2 : FVec Ideal S4096x2 .f32)
    (a3 : FVec Ideal S4096x4096 .f32) (a4 : FVec Ideal S4096x4096 .f32) (a5 : FVec Ideal S1024x819 .f32)
    (a6 : FVec Ideal S819 .f32) (a7 : FVec Ideal S819x819 .f32) (a8 : FVec Ideal S819 .f32)
    (a9 : FVec Ideal S1280x1024 .f32) (a10 : FVec Ideal S1024 .f32) (a11 : FVec Ideal S1024x819 .f32)
    (a12 : FVec Ideal S819 .f32) (a13 : FVec Ideal S819x819 .f32) (a14 : FVec Ideal S819 .f32)
    (a15 : FVec Ideal S819x1024 .f32) (a16 : FVec Ideal S1024 .f32) (a17 : FVec Ideal S819x1024 .f32)
    (a18 : FVec Ideal S1024 .f32) (a19 : FVec Ideal S1024x1280 .f32) (a20 : FVec Ideal S1280 .f32)
    (a21 : FVec Ideal S819x819 .f32) (a22 : FVec Ideal S819x819 .f32) (a23 : FVec Ideal S819x819 .f32)
    (a24 : FVec Ideal S819x819 .f32) (a25 : FVec Ideal S5x819 .f32)
    (h : Cert.Pre_finite_inputs.fn (F := Ideal) a0 a1 a2 a3 a4 a5 a6 a7 a8 a9 a10 a11 a12 a13 a14 a15 a16 a17 a18 a19 a20 a21 a22 a23 a24 a25 = (fun _ => 1#1)) :
    (∀ i, ∃ x : ℝ, a0 i = (x : EReal)) ∧ (∀ i, ∃ x : ℝ, a1 i = (x : EReal)) ∧ (∀ i, ∃ x : ℝ, a2 i = (x : EReal)) ∧
    (∀ i, ∃ x : ℝ, a3 i = (x : EReal)) ∧ (∀ i, ∃ x : ℝ, a4 i = (x : EReal)) ∧ (∀ i, ∃ x : ℝ, a5 i = (x : EReal)) ∧
    (∀ i, ∃ x : ℝ, a6 i = (x : EReal)) ∧ (∀ i, ∃ x : ℝ, a7 i = (x : EReal)) ∧ (∀ i, ∃ x : ℝ, a8 i = (x : EReal)) ∧
    (∀ i, ∃ x : ℝ, a9 i = (x : EReal)) ∧ (∀ i, ∃ x : ℝ, a10 i = (x : EReal)) ∧ (∀ i, ∃ x : ℝ, a11 i = (x : EReal)) ∧
    (∀ i, ∃ x : ℝ, a12 i = (x : EReal)) ∧ (∀ i, ∃ x : ℝ, a13 i = (x : EReal)) ∧ (∀ i, ∃ x : ℝ, a14 i = (x : EReal)) ∧
    (∀ i, ∃ x : ℝ, a15 i = (x : EReal)) ∧ (∀ i, ∃ x : ℝ, a16 i = (x : EReal)) ∧ (∀ i, ∃ x : ℝ, a17 i = (x : EReal)) ∧
    (∀ i, ∃ x : ℝ, a18 i = (x : EReal)) ∧ (∀ i, ∃ x : ℝ, a19 i = (x : EReal)) ∧ (∀ i, ∃ x : ℝ, a20 i = (x : EReal)) ∧
    (∀ i, ∃ x : ℝ, a21 i = (x : EReal)) ∧ (∀ i, ∃ x : ℝ, a22 i = (x : EReal)) ∧ (∀ i, ∃ x : ℝ, a23 i = (x : EReal)) ∧
    (∀ i, ∃ x : ℝ, a24 i = (x : EReal)) ∧ (∀ i, ∃ x : ℝ, a25 i = (x : EReal)) ∧
    (∀ n : Fin 4096, a2 (ValueIdx.ix2 n (0 : Fin 2)) + a2 (ValueIdx.ix2 n (1 : Fin 2)) ≠ 0) := by
  have h0 := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6, Cert.Pre_finite_inputs.fn_part7, Idealize.ShloMosaic.andi] at h0
  simp only [IntOp.andi_eq_one] at h0
  obtain ⟨⟨⟨⟨⟨⟨⟨⟨⟨⟨⟨⟨⟨⟨⟨⟨⟨⟨⟨⟨⟨⟨⟨⟨⟨⟨c0, c1⟩, c2⟩, c3⟩, c4⟩, c5⟩, c6⟩, c7⟩, c8⟩, c9⟩, c10⟩, c11⟩, c12⟩, c13⟩, c14⟩, c15⟩, c16⟩, c17⟩, c18⟩, c19⟩, c20⟩, c21⟩, c22⟩, c23⟩, c24⟩, c25⟩, c26⟩ := h0
  exact ⟨real_of_all a0 _ _ _ c0,
    real_of_all a1 _ _ _ c1,
    real_of_all a2 _ _ _ c2,
    real_of_all a3 _ _ _ c3,
    real_of_all a4 _ _ _ c4,
    real_of_all a5 _ _ _ c5,
    real_of_all a6 _ _ _ c6,
    real_of_all a7 _ _ _ c7,
    real_of_all a8 _ _ _ c8,
    real_of_all a9 _ _ _ c9,
    real_of_all a10 _ _ _ c10,
    real_of_all a11 _ _ _ c11,
    real_of_all a12 _ _ _ c12,
    real_of_all a13 _ _ _ c13,
    real_of_all a14 _ _ _ c14,
    real_of_all a15 _ _ _ c15,
    real_of_all a16 _ _ _ c16,
    real_of_all a17 _ _ _ c17,
    real_of_all a18 _ _ _ c18,
    real_of_all a19 _ _ _ c19,
    real_of_all a20 _ _ _ c20,
    real_of_all a21 _ _ _ c21,
    real_of_all a22 _ _ _ c22,
    real_of_all a23 _ _ _ c23,
    real_of_all a24 _ _ _ c24,
    real_of_all a25 _ _ _ c25,
    rowsum_ne a2 _ _ _ _ _ c26⟩

end Cert.PreFacts
-- ==== Proof.Algebraic.lean ====
/-
  The two idealized programs agree. At the ideal values, from memories that agree on the 26 argument arrays and
  satisfy the precondition, the kernel program and the reference both run to the end, leave their arguments as
  launched, and end with the same eight results.

  Each result is compared as a matrix. The reference's result is the specification's function of the arguments in
  the reference's association; the kernel program's is the same function with three triple products re-associated
  and the squared distance expanded and clamped. With real graphs, features and weights a triple product does not
  depend on its association, and the second layer's input is a tanh, hence real whatever its argument; the
  embedding is real because no row of the fusion weights sums to zero, and on real matrices the expanded, clamped
  squared distance is the sum of squared differences. Those are the only differences; everything else is the same
  expression on both sides. The precondition supplies the realness facts.
-/
import proofs.«113214_j66838281060556_2_alg».proof.Defs
import proofs.«113214_j66838281060556_2_alg».proof.Proof.Gen.KernelIdeal
import proofs.«113214_j66838281060556_2_alg».proof.Proof.Gen.ReferenceIdeal
import proofs.«113214_j66838281060556_2_alg».proof.Proof.Gen.Pre_finite_inputs
import proofs.«113214_j66838281060556_2_alg».proof.Proof.Gen.ReferenceIdeal.Run
import proofs.«113214_j66838281060556_2_alg».proof.Proof.Gen.ReferenceIdeal.Read
import proofs.«113214_j66838281060556_2_alg».proof.Proof.KI.Chain
import proofs.«113214_j66838281060556_2_alg».proof.Proof.KI.KValue
import proofs.«113214_j66838281060556_2_alg».proof.Proof.RefValue
import proofs.«113214_j66838281060556_2_alg».proof.Proof.GcnSpec
import proofs.«113214_j66838281060556_2_alg».proof.Proof.GcnBridge
import proofs.«113214_j66838281060556_2_alg».proof.Proof.PreFacts

set_option maxRecDepth 16384

noncomputable section

namespace Cert.Proof.Alg

open Idealize.ShloMosaic Idealize.ShloMosaic.TcCoe Idealize.SL.Sem
open Cert.KernelIdeal Cert.KernelIdeal.Gen
open GcnSpec

/-! ## Arrays and their matrices -/

/-- A rank-2 array is determined by its matrix. -/
theorem toMat_inj {r c : ℕ} {x y : (⟨2, ![r, c]⟩ : Shape).Idx → EReal} (h : toMat x = toMat y) : x = y :=
  (Cert.ReferenceIdeal.RefValue.arr_of_toMat x _ rfl).trans
    ((congrArg (fun (M : Mat r c) => fun (i : (⟨2, ![r, c]⟩ : Shape).Idx) => M (i 0) (i 1)) h).trans
      (Cert.ReferenceIdeal.RefValue.arr_of_toMat y _ rfl).symm)

/-- An array whose every entry is a real number has a real matrix. -/
theorem isReal_toMat {r c : ℕ} {a : (⟨2, ![r, c]⟩ : Shape).Idx → EReal} (h : ∀ i, ∃ x : ℝ, a i = (x : EReal)) :
    IsReal (toMat a) := fun _ _ => h _

section

variable (m : (ℓ : Loc nD τ sig) → Buf (Elt Ideal) ℓ) (c : Dev nD)

set_option quotPrecheck false

local notation "a0" => (m ((c.tc : Thread nD τ).loc main_arg0) : S4096x1024.Idx → EReal)
local notation "a1" => (m ((c.tc : Thread nD τ).loc main_arg1) : S4096x1280.Idx → EReal)
local notation "a2" => (m ((c.tc : Thread nD τ).loc main_arg2) : S4096x2.Idx → EReal)
local notation "a3" => (m ((c.tc : Thread nD τ).loc main_arg3) : S4096x4096.Idx → EReal)
local notation "a4" => (m ((c.tc : Thread nD τ).loc main_arg4) : S4096x4096.Idx → EReal)
local notation "a5" => (m ((c.tc : Thread nD τ).loc main_arg5) : S1024x819.Idx → EReal)
local notation "a6" => (m ((c.tc : Thread nD τ).loc main_arg6) : S819.Idx → EReal)
local notation "a7" => (m ((c.tc : Thread nD τ).loc main_arg7) : S819x819.Idx → EReal)
local notation "a8" => (m ((c.tc : Thread nD τ).loc main_arg8) : S819.Idx → EReal)
local notation "a9" => (m ((c.tc : Thread nD τ).loc main_arg9) : S1280x1024.Idx → EReal)
local notation "a10" => (m ((c.tc : Thread nD τ).loc main_arg10) : S1024.Idx → EReal)
local notation "a11" => (m ((c.tc : Thread nD τ).loc main_arg11) : S1024x819.Idx → EReal)
local notation "a12" => (m ((c.tc : Thread nD τ).loc main_arg12) : S819.Idx → EReal)
local notation "a13" => (m ((c.tc : Thread nD τ).loc main_arg13) : S819x819.Idx → EReal)
local notation "a14" => (m ((c.tc : Thread nD τ).loc main_arg14) : S819.Idx → EReal)
local notation "a15" => (m ((c.tc : Thread nD τ).loc main_arg15) : S819x1024.Idx → EReal)
local notation "a16" => (m ((c.tc : Thread nD τ).loc main_arg16) : S1024.Idx → EReal)
local notation "a17" => (m ((c.tc : Thread nD τ).loc main_arg17) : S819x1024.Idx → EReal)
local notation "a18" => (m ((c.tc : Thread nD τ).loc main_arg18) : S1024.Idx → EReal)
local notation "a19" => (m ((c.tc : Thread nD τ).loc main_arg19) : S1024x1280.Idx → EReal)
local notation "a20" => (m ((c.tc : Thread nD τ).loc main_arg20) : S1280.Idx → EReal)
local notation "a21" => (m ((c.tc : Thread nD τ).loc main_arg21) : S819x819.Idx → EReal)
local notation "a22" => (m ((c.tc : Thread nD τ).loc main_arg22) : S819x819.Idx → EReal)
local notation "a23" => (m ((c.tc : Thread nD τ).loc main_arg23) : S819x819.Idx → EReal)
local notation "a24" => (m ((c.tc : Thread nD τ).loc main_arg24) : S819x819.Idx → EReal)
local notation "a25" => (m ((c.tc : Thread nD τ).loc main_arg25) : S5x819.Idx → EReal)

/-- The embedding in the reference's association, of the kernel program's arguments. -/
local notation "Z" => Cert.ReferenceIdeal.RefValue.zR a0 a1 a2 a3 a4 a5 a6 a7 a8 a9 a10 a11 a12

/-! ## What the precondition gives -/

/-- The facts the two programs' agreement rests on: the graphs, the features, the encoders' weights and the
    centres are real matrices, and no row of the fusion weights sums to zero. -/
structure RealArgs : Prop where
  g0 : IsReal (toMat a3)
  x0 : IsReal (toMat a0)
  w0 : IsReal (toMat a5)
  g1 : IsReal (toMat a4)
  x1 : IsReal (toMat a1)
  w1 : IsReal (toMat a9)
  v1 : IsReal (toMat a11)
  we : IsReal (toMat a2)
  ctr : IsReal (toMat a25)
  ne : ∀ n : Fin 4096, toMat a2 n 0 + toMat a2 n 1 ≠ 0

theorem realArgs_of_pre (hpre : Cert.Pre_KernelIdeal m) : RealArgs m c := by
  obtain ⟨r0, r1, r2, r3, r4, r5, _, _, _, r9, _, r11, _, _, _, _, _, _, _, _, _, _, _, _, _, r25, hne⟩ :=
    Cert.PreFacts.facts_of_pre _ _ _ _ _ _ _ _ _ _ _ _ _ _ _ _ _ _ _ _ _ _ _ _ _ _ (hpre c)
  exact ⟨isReal_toMat r3, isReal_toMat r0, isReal_toMat r5, isReal_toMat r4, isReal_toMat r1, isReal_toMat r9,
    isReal_toMat r11, isReal_toMat r2, isReal_toMat r25, hne⟩

/-! ## The bridge between the two associations -/

/-- With real graphs, features and weights the kernel's re-associated encoders are the reference's. -/
theorem zK_eq (H : RealArgs m c) : Cert.KernelIdeal.Hand.zK m c = Z := by
  show zOf _ (kerEnc0 _ _ _ _ _ _) (kerEnc1 _ _ _ _ _ _) = zOf _ (gconv _ _ _ _ _ _) (gconv _ _ _ _ _ _)
  rw [kerEnc0_eq _ _ _ H.g0 H.x0 H.w0, kerEnc1_eq _ _ H.g1 H.x1 H.w1 H.v1]

/-- The embedding is real, so the expanded and clamped squared distance is the sum of squares. -/
theorem d2_eq (H : RealArgs m c) : d2Ker Z (toMat a25) = d2Ref Z (toMat a25) :=
  d2Ker_zOf_eq H.we (isReal_gconv _ _ _ _ _ _) (isReal_gconv _ _ _ _ _ _) H.ne H.ctr

/-! ## Each result: the reference's array is the kernel's -/

theorem z_arr (H : RealArgs m c) :
    Cert.ReferenceIdeal.Read.val_main_v34 (F := Ideal) a0 a1 a2 a3 a4 a5 a6 a7 a8 a9 a10 a11 a12
      = (Cert.KernelIdeal.Hand.U33 m c main_v24 : S4096x819.Idx → EReal) :=
  toMat_inj ((Cert.ReferenceIdeal.RefValue.z_eq a0 a1 a2 a3 a4 a5 a6 a7 a8 a9 a10 a11 a12).trans (by
    rw [Cert.KernelIdeal.Hand.z_val, zK_eq m c H]))

theorem adj0_arr (H : RealArgs m c) :
    Cert.ReferenceIdeal.Read.val_main_v43 (F := Ideal) a0 a1 a2 a3 a4 a5 a6 a7 a8 a9 a10 a11 a12 a21
      = (Cert.KernelIdeal.Hand.U33 m c main_v26 : S4096x4096.Idx → EReal) :=
  toMat_inj ((Cert.ReferenceIdeal.RefValue.adj0_eq a0 a1 a2 a3 a4 a5 a6 a7 a8 a9 a10 a11 a12 a21).trans (by
    rw [Cert.KernelIdeal.Hand.adj0_val, zK_eq m c H]))

theorem adj1_arr (H : RealArgs m c) :
    Cert.ReferenceIdeal.Read.val_main_v52 (F := Ideal) a0 a1 a2 a3 a4 a5 a6 a7 a8 a9 a10 a11 a12 a22
      = (Cert.KernelIdeal.Hand.U33 m c main_v28 : S4096x4096.Idx → EReal) :=
  toMat_inj ((Cert.ReferenceIdeal.RefValue.adj1_eq a0 a1 a2 a3 a4 a5 a6 a7 a8 a9 a10 a11 a12 a22).trans (by
    rw [Cert.KernelIdeal.Hand.adj1_val, zK_eq m c H]))

theorem rec0_arr (H : RealArgs m c) :
    Cert.ReferenceIdeal.Read.val_main_v66 (F := Ideal) a0 a1 a2 a3 a4 a5 a6 a7 a8 a9 a10 a11 a12 a13 a14 a15 a16 a23
      = (Cert.KernelIdeal.Hand.U33 m c main_v35 : S4096x1024.Idx → EReal) :=
  toMat_inj ((Cert.ReferenceIdeal.RefValue.rec0_eq a0 a1 a2 a3 a4 a5 a6 a7 a8 a9 a10 a11 a12 a13 a14 a15 a16 a23).trans (by
    rw [Cert.KernelIdeal.Hand.rec0_val, zK_eq m c H]))

theorem rec1_arr (H : RealArgs m c) :
    Cert.ReferenceIdeal.Read.val_main_v80 (F := Ideal) a0 a1 a2 a3 a4 a5 a6 a7 a8 a9 a10 a11 a12 a17 a18 a19 a20 a24
      = (Cert.KernelIdeal.Hand.U33 m c main_v42 : S4096x1280.Idx → EReal) :=
  toMat_inj ((Cert.ReferenceIdeal.RefValue.rec1_eq a0 a1 a2 a3 a4 a5 a6 a7 a8 a9 a10 a11 a12 a17 a18 a19 a20 a24).trans (by
    rw [Cert.KernelIdeal.Hand.rec1_val, zK_eq m c H]))

theorem q_arr (H : RealArgs m c) :
    Cert.ReferenceIdeal.Read.val_main_v95 (F := Ideal) a0 a1 a2 a3 a4 a5 a6 a7 a8 a9 a10 a11 a12 a25
      = (Cert.KernelIdeal.Hand.U33 m c main_v66 : S4096x5.Idx → EReal) :=
  toMat_inj ((Cert.ReferenceIdeal.RefValue.q_eq a0 a1 a2 a3 a4 a5 a6 a7 a8 a9 a10 a11 a12 a25).trans (by
    rw [Cert.KernelIdeal.Hand.q_val, zK_eq m c H, d2_eq m c H]))

theorem p_arr (H : RealArgs m c) :
    Cert.ReferenceIdeal.Read.val_main_v104 (F := Ideal) a0 a1 a2 a3 a4 a5 a6 a7 a8 a9 a10 a11 a12 a25
      = (Cert.KernelIdeal.Hand.U33 m c main_v75 : S4096x5.Idx → EReal) :=
  toMat_inj ((Cert.ReferenceIdeal.RefValue.p_eq a0 a1 a2 a3 a4 a5 a6 a7 a8 a9 a10 a11 a12 a25).trans (by
    rw [Cert.KernelIdeal.Hand.p_val, zK_eq m c H, d2_eq m c H]))

end

/-! ## The claim -/

set_option maxHeartbeats 4000000 in
/-- At the ideal values, from memories that agree on the arguments and satisfy the precondition, both programs run
    and end with the same eight results: the witnesses are the kernel program's last valuation at its result
    buffers; the kernel side reads them off its run, the reference side off its run through the eight array
    equations above. Both leave their arguments as launched. -/
theorem algebraic : Cert.algebraic_KernelIdeal_ReferenceIdeal := by
  intro m g m' g' hpre hag
  refine ⟨fun c => Cert.KernelIdeal.Hand.U33 m c main_v35, fun c => Cert.KernelIdeal.Hand.U33 m c main_v42,
    fun c => Cert.KernelIdeal.Hand.U33 m c main_v26, fun c => Cert.KernelIdeal.Hand.U33 m c main_v28,
    fun c => Cert.KernelIdeal.Hand.U33 m c main_v24, fun c => Cert.KernelIdeal.Hand.U33 m c main_v75,
    fun c => Cert.KernelIdeal.Hand.U33 m c main_v66, fun c => Cert.KernelIdeal.Hand.U33 m c main_arg25, ?_, ?_⟩
  · -- the kernel program: every unscoped buffer ends at the last valuation
    refine (θ_run _ _ _).mono (fun r h c => ?_) (Cert.KernelIdeal.Hand.run_main m g)
    have hk : ∀ x : Ref sig .tc, ¬ (Proc.devRef (τ := τ) .tc x).isScoped →
        r.2.mem ((c.tc : Thread nD τ).loc x) = Cert.KernelIdeal.Hand.U33 m c x := fun x hx =>
      (h c _ (Finset.mem_filter.mpr ⟨StableHlo.devRef_mem_tcRefs x, hx⟩)).trans
        (congrFun (Cert.KernelIdeal.Hand.V33_eq m c) _)
    exact ⟨hk main_v35 (by decide), hk main_v42 (by decide), hk main_v26 (by decide), hk main_v28 (by decide),
      hk main_v24 (by decide), hk main_v75 (by decide), hk main_v66 (by decide), hk main_arg25 (by decide),
      (h c _ (Finset.mem_filter.mpr ⟨StableHlo.devRef_mem_tcRefs main_arg0, by decide⟩)).trans (GenP.V33_main_arg0 m (Cert.KernelIdeal.Hand.outs m) c),
      (h c _ (Finset.mem_filter.mpr ⟨StableHlo.devRef_mem_tcRefs main_arg1, by decide⟩)).trans (GenP.V33_main_arg1 m (Cert.KernelIdeal.Hand.outs m) c),
      (h c _ (Finset.mem_filter.mpr ⟨StableHlo.devRef_mem_tcRefs main_arg2, by decide⟩)).trans (GenP.V33_main_arg2 m (Cert.KernelIdeal.Hand.outs m) c),
      (h c _ (Finset.mem_filter.mpr ⟨StableHlo.devRef_mem_tcRefs main_arg3, by decide⟩)).trans (GenP.V33_main_arg3 m (Cert.KernelIdeal.Hand.outs m) c),
      (h c _ (Finset.mem_filter.mpr ⟨StableHlo.devRef_mem_tcRefs main_arg4, by decide⟩)).trans (GenP.V33_main_arg4 m (Cert.KernelIdeal.Hand.outs m) c),
      (h c _ (Finset.mem_filter.mpr ⟨StableHlo.devRef_mem_tcRefs main_arg5, by decide⟩)).trans (GenP.V33_main_arg5 m (Cert.KernelIdeal.Hand.outs m) c),
      (h c _ (Finset.mem_filter.mpr ⟨StableHlo.devRef_mem_tcRefs main_arg6, by decide⟩)).trans (GenP.V33_main_arg6 m (Cert.KernelIdeal.Hand.outs m) c),
      (h c _ (Finset.mem_filter.mpr ⟨StableHlo.devRef_mem_tcRefs main_arg7, by decide⟩)).trans (GenP.V33_main_arg7 m (Cert.KernelIdeal.Hand.outs m) c),
      (h c _ (Finset.mem_filter.mpr ⟨StableHlo.devRef_mem_tcRefs main_arg8, by decide⟩)).trans (GenP.V33_main_arg8 m (Cert.KernelIdeal.Hand.outs m) c),
      (h c _ (Finset.mem_filter.mpr ⟨StableHlo.devRef_mem_tcRefs main_arg9, by decide⟩)).trans (GenP.V33_main_arg9 m (Cert.KernelIdeal.Hand.outs m) c),
      (h c _ (Finset.mem_filter.mpr ⟨StableHlo.devRef_mem_tcRefs main_arg10, by decide⟩)).trans (GenP.V33_main_arg10 m (Cert.KernelIdeal.Hand.outs m) c),
      (h c _ (Finset.mem_filter.mpr ⟨StableHlo.devRef_mem_tcRefs main_arg11, by decide⟩)).trans (GenP.V33_main_arg11 m (Cert.KernelIdeal.Hand.outs m) c),
      (h c _ (Finset.mem_filter.mpr ⟨StableHlo.devRef_mem_tcRefs main_arg12, by decide⟩)).trans (GenP.V33_main_arg12 m (Cert.KernelIdeal.Hand.outs m) c),
      (h c _ (Finset.mem_filter.mpr ⟨StableHlo.devRef_mem_tcRefs main_arg13, by decide⟩)).trans (GenP.V33_main_arg13 m (Cert.KernelIdeal.Hand.outs m) c),
      (h c _ (Finset.mem_filter.mpr ⟨StableHlo.devRef_mem_tcRefs main_arg14, by decide⟩)).trans (GenP.V33_main_arg14 m (Cert.KernelIdeal.Hand.outs m) c),
      (h c _ (Finset.mem_filter.mpr ⟨StableHlo.devRef_mem_tcRefs main_arg15, by decide⟩)).trans (GenP.V33_main_arg15 m (Cert.KernelIdeal.Hand.outs m) c),
      (h c _ (Finset.mem_filter.mpr ⟨StableHlo.devRef_mem_tcRefs main_arg16, by decide⟩)).trans (GenP.V33_main_arg16 m (Cert.KernelIdeal.Hand.outs m) c),
      (h c _ (Finset.mem_filter.mpr ⟨StableHlo.devRef_mem_tcRefs main_arg17, by decide⟩)).trans (GenP.V33_main_arg17 m (Cert.KernelIdeal.Hand.outs m) c),
      (h c _ (Finset.mem_filter.mpr ⟨StableHlo.devRef_mem_tcRefs main_arg18, by decide⟩)).trans (GenP.V33_main_arg18 m (Cert.KernelIdeal.Hand.outs m) c),
      (h c _ (Finset.mem_filter.mpr ⟨StableHlo.devRef_mem_tcRefs main_arg19, by decide⟩)).trans (GenP.V33_main_arg19 m (Cert.KernelIdeal.Hand.outs m) c),
      (h c _ (Finset.mem_filter.mpr ⟨StableHlo.devRef_mem_tcRefs main_arg20, by decide⟩)).trans (GenP.V33_main_arg20 m (Cert.KernelIdeal.Hand.outs m) c),
      (h c _ (Finset.mem_filter.mpr ⟨StableHlo.devRef_mem_tcRefs main_arg21, by decide⟩)).trans (GenP.V33_main_arg21 m (Cert.KernelIdeal.Hand.outs m) c),
      (h c _ (Finset.mem_filter.mpr ⟨StableHlo.devRef_mem_tcRefs main_arg22, by decide⟩)).trans (GenP.V33_main_arg22 m (Cert.KernelIdeal.Hand.outs m) c),
      (h c _ (Finset.mem_filter.mpr ⟨StableHlo.devRef_mem_tcRefs main_arg23, by decide⟩)).trans (GenP.V33_main_arg23 m (Cert.KernelIdeal.Hand.outs m) c),
      (h c _ (Finset.mem_filter.mpr ⟨StableHlo.devRef_mem_tcRefs main_arg24, by decide⟩)).trans (GenP.V33_main_arg24 m (Cert.KernelIdeal.Hand.outs m) c),
      (h c _ (Finset.mem_filter.mpr ⟨StableHlo.devRef_mem_tcRefs main_arg25, by decide⟩)).trans (GenP.V33_main_arg25 m (Cert.KernelIdeal.Hand.outs m) c)⟩
  · -- the reference: each result's term is its stage, the stage of the agreeing arguments, and that is the kernel's array
    refine (θ_run Cert.ReferenceIdeal.defs _ _).mono (fun r h c => ?_)
      (Cert.ReferenceIdeal.Value.run (F := Ideal) m' g')
    obtain ⟨e0, e1, e2, e3, e4, e5, e6, e7, rest⟩ := h c
    obtain ⟨g0, g1, g2, g3, g4, g5, g6, g7, g8, g9, g10, g11, g12, g13, g14, g15, g16, g17, g18, g19, g20, g21, g22,
      g23, g24, g25⟩ := hag c
    have H := realArgs_of_pre m c hpre
    refine ⟨e0.trans ?_, e1.trans ?_, e2.trans ?_, e3.trans ?_, e4.trans ?_, e5.trans ?_, e6.trans ?_,
      e7.trans (g25.trans (Cert.KernelIdeal.Hand.centres_val m c).symm), rest⟩
    · rw [Cert.ReferenceIdeal.Read.val_main_v66_eq, g0, g1, g2, g3, g4, g5, g6, g7, g8, g9, g10, g11, g12, g13, g14,
        g15, g16, g23]
      exact rec0_arr m c H
    · rw [Cert.ReferenceIdeal.Read.val_main_v80_eq, g0, g1, g2, g3, g4, g5, g6, g7, g8, g9, g10, g11, g12, g17, g18,
        g19, g20, g24]
      exact rec1_arr m c H
    · rw [Cert.ReferenceIdeal.Read.val_main_v43_eq, g0, g1, g2, g3, g4, g5, g6, g7, g8, g9, g10, g11, g12, g21]
      exact adj0_arr m c H
    · rw [Cert.ReferenceIdeal.Read.val_main_v52_eq, g0, g1, g2, g3, g4, g5, g6, g7, g8, g9, g10, g11, g12, g22]
      exact adj1_arr m c H
    · rw [Cert.ReferenceIdeal.Read.val_main_v34_eq, g0, g1, g2, g3, g4, g5, g6, g7, g8, g9, g10, g11, g12]
      exact z_arr m c H
    · rw [Cert.ReferenceIdeal.Read.val_main_v104_eq, g0, g1, g2, g3, g4, g5, g6, g7, g8, g9, g10, g11, g12, g25]
      exact p_arr m c H
    · rw [Cert.ReferenceIdeal.Read.val_main_v95_eq, g0, g1, g2, g3, g4, g5, g6, g7, g8, g9, g10, g11, g12, g25]
      exact q_arr m c H

end Cert.Proof.Alg

end
-- ==== Proof.lean ====
/-
  The certificate's claim. The kernel program is twenty-two launches of one blocked matrix-product kernel between
  stretches of host operations; the reference is the same network as plain host operations. The three frames:
  each kernel program runs as the chain of its items — every launch entered from the thread state the item before
  it left, its body obligation proved from the symbolic runs of the kernel's control cases — and every argument
  ends as launched; the reference's frame is its run with the results dropped. The two programs differ at the
  ideal instance by three re-associations of a triple matrix product (equal over the reals: the inputs are
  finite, and tanh of anything is a real number), by the grouping of a contraction of length 4096 into four
  blocks (a regrouping of a finite sum), and by the squared distance written as |z|² − 2 z·c + |c|² clamped at
  zero against the sum of squared differences (equal over the reals, where the clamp does nothing); z is a real
  matrix because each row of the fusion weights has a nonzero sum, which the precondition states.
-/
import proofs.«113214_j66838281060556_2_alg».proof.Defs
import proofs.«113214_j66838281060556_2_alg».proof.Proof.Gen.Kernel
import proofs.«113214_j66838281060556_2_alg».proof.Proof.Gen.KernelIdeal
import proofs.«113214_j66838281060556_2_alg».proof.Proof.Gen.ReferenceIdeal
import proofs.«113214_j66838281060556_2_alg».proof.Proof.Gen.Pre_finite_inputs
import proofs.«113214_j66838281060556_2_alg».proof.Proof.KB.Chain
import proofs.«113214_j66838281060556_2_alg».proof.Proof.KI.Chain
import proofs.«113214_j66838281060556_2_alg».proof.Proof.Algebraic
import Idealize.ShloMosaic.Adequacy
import Idealize.ShloMosaic.Init

noncomputable section

namespace Cert.Proof

open Idealize.ShloMosaic Idealize.SL.Sem

/-- The word-level kernel program runs to the end and leaves its arguments unchanged. -/
theorem frame_p : Cert.frame_Kernel := fun m g _ => Cert.Kernel.Hand.frame_main m g
/-- So does its idealization. -/
theorem frame_pi : Cert.frame_KernelIdeal := fun m g _ => Cert.KernelIdeal.Hand.frame_main m g
/-- The reference's frame is its run with the results dropped. -/
theorem frame_ri : Cert.frame_ReferenceIdeal := fun m g _ =>
  (θ_run Cert.ReferenceIdeal.defs _ _).mono (fun _ h c => (h c).2.2.2.2.2.2.2.2) (Cert.ReferenceIdeal.Value.run (F := Ideal) m g)

theorem claim : Cert.Claim :=
  ⟨Cert.Kernel.Gen.facts, Cert.KernelIdeal.Gen.facts, Cert.ReferenceIdeal.Gen.facts, Cert.Pre_finite_inputs.Gen.facts,
    frame_p, frame_pi, frame_ri, trivial, Cert.Proof.Alg.algebraic⟩

end Cert.Proof

end
